-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1434)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1434) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1663) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S4194304 : Shape := ⟨1, ![4194304]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel

variable [Facts]

def fn {F : FTy → Type} [FloatOps F] (main_arg0 : FVec F S4194304x2 .f32) (main_arg1 : FVec F S4194304x2 .f32) (main_arg2 : FVec F S4194304x2 .f32) (main_arg3 : IVec S4194304x2 32) (main_arg4 : IVec S4194304x2 32) (main_arg5 : IVec S4194304x2 32) (main_arg6 : IVec S4194304 32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S4194304x2 .f32 := Host.absf main_arg1
  let main_cst_0 : FVec F S_ .f32 := constant S_ .f32 0x7F800000#32
  let main_v5 : FVec F S4194304x2 .f32 := broadcastInDim S4194304x2 ![] bcast_S_S4194304x2 main_cst_0
  let main_v6 : IVec S4194304x2 1 := cmpf .olt main_v4 main_v5
  let main_c_1 : IVec S_ 1 := constantI S_ 1 1#1
  let main_v7 : IVec S_ 1 := (fun x v => Host.reduce IntOp.andi x v reducesTo_S4194304x2_S_d0_1 h_S_) main_v6 main_c_1
  let main_v8 : IVec S_ 1 := andi main_v3 main_v7
  let main_v9 : FVec F S4194304x2 .f32 := Host.absf main_arg2
  let main_cst_2 : FVec F S_ .f32 := constant S_ .f32 0x7F800000#32
  let main_v10 : FVec F S4194304x2 .f32 := broadcastInDim S4194304x2 ![] bcast_S_S4194304x2 main_cst_2
  let main_v11 : IVec S4194304x2 1 := cmpf .olt main_v9 main_v10
  let main_c_3 : IVec S_ 1 := constantI S_ 1 1#1
  let main_v12 : IVec S_ 1 := (fun x v => Host.reduce IntOp.andi x v reducesTo_S4194304x2_S_d0_1 h_S_) main_v11 main_c_3
  let main_v13 : IVec S_ 1 := andi main_v8 main_v12
  main_v13
-- ==== Kernel.lean ====
abbrev S4194304x2 : Shape := ⟨2, ![4194304, 2]⟩
abbrev S4194304 : Shape := ⟨1, ![4194304]⟩
abbrev S4194304x1 : Shape := ⟨2, ![4194304, 1]⟩
abbrev S_ : Shape := ⟨0, ![]⟩
abbrev S1x1 : Shape := ⟨2, ![1, 1]⟩
abbrev S262144 : Shape := ⟨1, ![262144]⟩
abbrev S1x262144 : Shape := ⟨2, ![1, 262144]⟩
abbrev S1 : Shape := ⟨1, ![1]⟩
abbrev S1x2 : Shape := ⟨2, ![1, 2]⟩
abbrev S2 : Shape := ⟨1, ![2]⟩

abbrev nBuf : Space → Nat
  | .hbm => 2433
  | .vmem => 19
  | .smem => 0
  | _ => 0

abbrev hbmTy0_0 (i : Nat) : BufTy := match i % 128 with
  | 0 => ⟨S4194304x2, .f32⟩
  | 1 => ⟨S4194304x2, .f32⟩
  | 2 => ⟨S4194304x2, .f32⟩
  | 3 => ⟨S4194304x2, .i32⟩
  | 4 => ⟨S4194304x2, .i32⟩
  | 5 => ⟨S4194304x2, .i32⟩
  | 6 => ⟨S4194304, .i32⟩
  | 7 => ⟨S4194304x1, .i32⟩
  | 8 => ⟨S4194304, .i32⟩
  | 9 => ⟨S4194304x1, .i32⟩
  | 10 => ⟨S4194304, .i32⟩
  | 11 => ⟨S_, .i32⟩
  | 12 => ⟨S4194304, .i32⟩
  | 13 => ⟨S4194304, .i1⟩
  | 14 => ⟨S_, .i32⟩
  | 15 => ⟨S4194304, .i32⟩
  | 16 => ⟨S4194304, .i1⟩
  | 17 => ⟨S4194304, .i1⟩
  | 18 => ⟨S_, .i32⟩
  | 19 => ⟨S4194304, .i32⟩
  | 20 => ⟨S4194304, .i1⟩
  | 21 => ⟨S_, .i32⟩
  | 22 => ⟨S4194304, .i32⟩
  | 23 => ⟨S4194304, .i1⟩
  | 24 => ⟨S4194304, .i1⟩
  | 25 => ⟨S_, .i32⟩
  | 26 => ⟨S4194304, .i32⟩
  | 27 => ⟨S4194304, .i1⟩
  | 28 => ⟨S_, .i32⟩
  | 29 => ⟨S4194304, .i32⟩
  | 30 => ⟨S4194304, .i1⟩
  | 31 => ⟨S4194304, .i1⟩
  | 32 => ⟨S_, .i32⟩
  | 33 => ⟨S_, .i32⟩
  | 34 => ⟨S4194304, .i32⟩
  | 35 => ⟨S4194304, .i32⟩
  | 36 => ⟨S4194304, .i32⟩
  | 37 => ⟨S_, .i32⟩
  | 38 => ⟨S4194304, .i32⟩
  | 39 => ⟨S4194304, .i32⟩
  | 40 => ⟨S_, .i32⟩
  | 41 => ⟨S4194304, .i32⟩
  | 42 => ⟨S4194304, .i32⟩
  | 43 => ⟨S_, .i32⟩
  | 44 => ⟨S4194304, .i32⟩
  | 45 => ⟨S4194304, .i32⟩
  | 46 => ⟨S4194304, .i32⟩
  | 47 => ⟨S4194304, .i32⟩
  | 48 => ⟨S4194304x1, .i32⟩
  | 49 => ⟨S4194304, .i32⟩
  | 50 => ⟨S4194304x1, .i32⟩
  | 51 => ⟨S4194304, .i32⟩
  | 52 => ⟨S_, .i32⟩
  | 53 => ⟨S4194304, .i32⟩
  | 54 => ⟨S4194304, .i1⟩
  | 55 => ⟨S_, .i32⟩
  | 56 => ⟨S4194304, .i32⟩
  | 57 => ⟨S4194304, .i1⟩
  | 58 => ⟨S4194304, .i1⟩
  | 59 => ⟨S_, .i32⟩
  | 60 => ⟨S4194304, .i32⟩
  | 61 => ⟨S4194304, .i1⟩
  | 62 => ⟨S_, .i32⟩
  | 63 => ⟨S4194304, .i32⟩
  | 64 => ⟨S4194304, .i1⟩
  | 65 => ⟨S4194304, .i1⟩
  | 66 => ⟨S_, .i32⟩
  | 67 => ⟨S4194304, .i32⟩
  | 68 => ⟨S4194304, .i1⟩
  | 69 => ⟨S_, .i32⟩
  | 70 => ⟨S4194304, .i32⟩
  | 71 => ⟨S4194304, .i1⟩
  | 72 => ⟨S4194304, .i1⟩
  | 73 => ⟨S_, .i32⟩
  | 74 => ⟨S_, .i32⟩
  | 75 => ⟨S4194304, .i32⟩
  | 76 => ⟨S4194304, .i32⟩
  | 77 => ⟨S4194304, .i32⟩
  | 78 => ⟨S_, .i32⟩
  | 79 => ⟨S4194304, .i32⟩
  | 80 => ⟨S4194304, .i32⟩
  | 81 => ⟨S_, .i32⟩
  | 82 => ⟨S4194304, .i32⟩
  | 83 => ⟨S4194304, .i32⟩
  | 84 => ⟨S_, .i32⟩
  | 85 => ⟨S4194304, .i32⟩
  | 86 => ⟨S4194304, .i32⟩
  | 87 => ⟨S4194304, .i32⟩
  | 88 => ⟨S4194304, .i32⟩
  | 89 => ⟨S4194304x1, .i32⟩
  | 90 => ⟨S4194304, .i32⟩
  | 91 => ⟨S4194304x1, .i32⟩
  | 92 => ⟨S4194304, .i32⟩
  | 93 => ⟨S_, .i32⟩
  | 94 => ⟨S4194304, .i32⟩
  | 95 => ⟨S4194304, .i1⟩
  | 96 => ⟨S_, .i32⟩
  | 97 => ⟨S4194304, .i32⟩
  | 98 => ⟨S4194304, .i1⟩
  | 99 => ⟨S4194304, .i1⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i1⟩
  | 106 => ⟨S4194304, .i1⟩
  | 107 => ⟨S_, .i32⟩
  | 108 => ⟨S4194304, .i32⟩
  | 109 => ⟨S4194304, .i1⟩
  | 110 => ⟨S_, .i32⟩
  | 111 => ⟨S4194304, .i32⟩
  | 112 => ⟨S4194304, .i1⟩
  | 113 => ⟨S4194304, .i1⟩
  | 114 => ⟨S_, .i32⟩
  | 115 => ⟨S_, .i32⟩
  | 116 => ⟨S4194304, .i32⟩
  | 117 => ⟨S4194304, .i32⟩
  | 118 => ⟨S4194304, .i32⟩
  | 119 => ⟨S_, .i32⟩
  | 120 => ⟨S4194304, .i32⟩
  | 121 => ⟨S4194304, .i32⟩
  | 122 => ⟨S_, .i32⟩
  | 123 => ⟨S4194304, .i32⟩
  | 124 => ⟨S4194304, .i32⟩
  | 125 => ⟨S_, .i32⟩
  | 126 => ⟨S4194304, .i32⟩
  | 127 => ⟨S4194304, .i32⟩
  | _ => ⟨S4194304x2, .f32⟩

abbrev hbmTy0_1 (i : Nat) : BufTy := match i % 128 with
  | 0 => ⟨S4194304, .i32⟩
  | 1 => ⟨S4194304, .i32⟩
  | 2 => ⟨S4194304x1, .f32⟩
  | 3 => ⟨S4194304, .f32⟩
  | 4 => ⟨S4194304x1, .f32⟩
  | 5 => ⟨S4194304, .f32⟩
  | 6 => ⟨S4194304x1, .f32⟩
  | 7 => ⟨S4194304, .f32⟩
  | 8 => ⟨S4194304x1, .f32⟩
  | 9 => ⟨S4194304, .f32⟩
  | 10 => ⟨S4194304x1, .f32⟩
  | 11 => ⟨S4194304, .f32⟩
  | 12 => ⟨S4194304x1, .f32⟩
  | 13 => ⟨S4194304, .f32⟩
  | 14 => ⟨S1x1, .f32⟩
  | 15 => ⟨S_, .f32⟩
  | 16 => ⟨S_, .f32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i1⟩
  | 23 => ⟨S4194304, .i1⟩
  | 24 => ⟨S_, .i32⟩
  | 25 => ⟨S4194304, .i32⟩
  | 26 => ⟨S4194304, .i1⟩
  | 27 => ⟨S4194304, .i1⟩
  | 28 => ⟨S4194304, .i32⟩
  | 29 => ⟨S_, .i32⟩
  | 30 => ⟨S_, .i32⟩
  | 31 => ⟨S4194304, .i32⟩
  | 32 => ⟨S4194304, .i32⟩
  | 33 => ⟨S_, .i32⟩
  | 34 => ⟨S_, .i32⟩
  | 35 => ⟨S4194304, .i32⟩
  | 36 => ⟨S_, .i32⟩
  | 37 => ⟨S_, .i32⟩
  | 38 => ⟨S4194304, .i32⟩
  | 39 => ⟨S4194304, .i1⟩
  | 40 => ⟨S4194304, .i1⟩
  | 41 => ⟨S_, .i32⟩
  | 42 => ⟨S_, .i32⟩
  | 43 => ⟨S4194304, .i32⟩
  | 44 => ⟨S4194304, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x2, .f32⟩
  | 71 => ⟨S2, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x2, .f32⟩
  | 86 => ⟨S2, .f32⟩
  | 87 => ⟨S2, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x2, .f32⟩
  | 102 => ⟨S2, .f32⟩
  | 103 => ⟨S_, .f32⟩
  | 104 => ⟨S2, .f32⟩
  | 105 => ⟨S2, .i1⟩
  | 106 => ⟨S2, .f32⟩
  | 107 => ⟨S2, .f32⟩
  | 108 => ⟨S2, .f32⟩
  | 109 => ⟨S2, .f32⟩
  | 110 => ⟨S2, .f32⟩
  | 111 => ⟨S2, .f32⟩
  | 112 => ⟨S2, .f32⟩
  | 113 => ⟨S2, .f32⟩
  | 114 => ⟨S_, .f32⟩
  | 115 => ⟨S_, .f32⟩
  | 116 => ⟨S_, .i32⟩
  | 117 => ⟨S_, .i1⟩
  | 118 => ⟨S_, .f32⟩
  | 119 => ⟨S_, .f32⟩
  | 120 => ⟨S_, .f32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i1⟩
  | 127 => ⟨S4194304, .i1⟩
  | _ => ⟨S4194304x2, .f32⟩

abbrev hbmTy0_2 (i : Nat) : BufTy := match i % 128 with
  | 0 => ⟨S_, .i32⟩
  | 1 => ⟨S4194304, .i32⟩
  | 2 => ⟨S4194304, .i1⟩
  | 3 => ⟨S4194304, .i1⟩
  | 4 => ⟨S4194304, .i32⟩
  | 5 => ⟨S_, .i32⟩
  | 6 => ⟨S_, .i32⟩
  | 7 => ⟨S4194304, .i32⟩
  | 8 => ⟨S4194304, .i32⟩
  | 9 => ⟨S_, .i32⟩
  | 10 => ⟨S_, .i32⟩
  | 11 => ⟨S4194304, .i32⟩
  | 12 => ⟨S_, .i32⟩
  | 13 => ⟨S_, .i32⟩
  | 14 => ⟨S4194304, .i32⟩
  | 15 => ⟨S4194304, .i1⟩
  | 16 => ⟨S4194304, .i1⟩
  | 17 => ⟨S_, .i32⟩
  | 18 => ⟨S_, .i32⟩
  | 19 => ⟨S4194304, .i32⟩
  | 20 => ⟨S4194304, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x2, .f32⟩
  | 47 => ⟨S2, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x2, .f32⟩
  | 62 => ⟨S2, .f32⟩
  | 63 => ⟨S2, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x2, .f32⟩
  | 78 => ⟨S2, .f32⟩
  | 79 => ⟨S_, .f32⟩
  | 80 => ⟨S2, .f32⟩
  | 81 => ⟨S2, .i1⟩
  | 82 => ⟨S2, .f32⟩
  | 83 => ⟨S2, .f32⟩
  | 84 => ⟨S2, .f32⟩
  | 85 => ⟨S2, .f32⟩
  | 86 => ⟨S2, .f32⟩
  | 87 => ⟨S2, .f32⟩
  | 88 => ⟨S2, .f32⟩
  | 89 => ⟨S2, .f32⟩
  | 90 => ⟨S_, .f32⟩
  | 91 => ⟨S_, .f32⟩
  | 92 => ⟨S_, .i32⟩
  | 93 => ⟨S_, .i1⟩
  | 94 => ⟨S_, .f32⟩
  | 95 => ⟨S_, .f32⟩
  | 96 => ⟨S_, .f32⟩
  | 97 => ⟨S_, .i32⟩
  | 98 => ⟨S4194304, .i32⟩
  | 99 => ⟨S4194304, .i1⟩
  | 100 => ⟨S_, .i32⟩
  | 101 => ⟨S4194304, .i32⟩
  | 102 => ⟨S4194304, .i1⟩
  | 103 => ⟨S4194304, .i1⟩
  | 104 => ⟨S_, .i32⟩
  | 105 => ⟨S4194304, .i32⟩
  | 106 => ⟨S4194304, .i1⟩
  | 107 => ⟨S4194304, .i1⟩
  | 108 => ⟨S4194304, .i32⟩
  | 109 => ⟨S_, .i32⟩
  | 110 => ⟨S_, .i32⟩
  | 111 => ⟨S4194304, .i32⟩
  | 112 => ⟨S4194304, .i32⟩
  | 113 => ⟨S_, .i32⟩
  | 114 => ⟨S_, .i32⟩
  | 115 => ⟨S4194304, .i32⟩
  | 116 => ⟨S_, .i32⟩
  | 117 => ⟨S_, .i32⟩
  | 118 => ⟨S4194304, .i32⟩
  | 119 => ⟨S4194304, .i1⟩
  | 120 => ⟨S4194304, .i1⟩
  | 121 => ⟨S_, .i32⟩
  | 122 => ⟨S_, .i32⟩
  | 123 => ⟨S4194304, .i32⟩
  | 124 => ⟨S4194304, .i32⟩
  | 125 => ⟨S_, .i32⟩
  | 126 => ⟨S_, .i32⟩
  | 127 => ⟨S_, .i32⟩
  | _ => ⟨S4194304x2, .f32⟩

abbrev hbmTy0_3 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x2, .f32⟩
  | 23 => ⟨S2, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x2, .f32⟩
  | 38 => ⟨S2, .f32⟩
  | 39 => ⟨S2, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x2, .f32⟩
  | 54 => ⟨S2, .f32⟩
  | 55 => ⟨S_, .f32⟩
  | 56 => ⟨S2, .f32⟩
  | 57 => ⟨S2, .i1⟩
  | 58 => ⟨S2, .f32⟩
  | 59 => ⟨S2, .f32⟩
  | 60 => ⟨S2, .f32⟩
  | 61 => ⟨S2, .f32⟩
  | 62 => ⟨S2, .f32⟩
  | 63 => ⟨S2, .f32⟩
  | 64 => ⟨S2, .f32⟩
  | 65 => ⟨S2, .f32⟩
  | 66 => ⟨S_, .f32⟩
  | 67 => ⟨S_, .f32⟩
  | 68 => ⟨S_, .i32⟩
  | 69 => ⟨S_, .i1⟩
  | 70 => ⟨S_, .f32⟩
  | 71 => ⟨S_, .f32⟩
  | 72 => ⟨S_, .f32⟩
  | 73 => ⟨S_, .i32⟩
  | 74 => ⟨S4194304, .i32⟩
  | 75 => ⟨S4194304, .i1⟩
  | 76 => ⟨S_, .i32⟩
  | 77 => ⟨S4194304, .i32⟩
  | 78 => ⟨S4194304, .i1⟩
  | 79 => ⟨S4194304, .i1⟩
  | 80 => ⟨S_, .i32⟩
  | 81 => ⟨S4194304, .i32⟩
  | 82 => ⟨S4194304, .i1⟩
  | 83 => ⟨S4194304, .i1⟩
  | 84 => ⟨S4194304, .i32⟩
  | 85 => ⟨S_, .i32⟩
  | 86 => ⟨S_, .i32⟩
  | 87 => ⟨S4194304, .i32⟩
  | 88 => ⟨S4194304, .i32⟩
  | 89 => ⟨S_, .i32⟩
  | 90 => ⟨S_, .i32⟩
  | 91 => ⟨S4194304, .i32⟩
  | 92 => ⟨S_, .i32⟩
  | 93 => ⟨S_, .i32⟩
  | 94 => ⟨S4194304, .i32⟩
  | 95 => ⟨S4194304, .i1⟩
  | 96 => ⟨S4194304, .i1⟩
  | 97 => ⟨S_, .i32⟩
  | 98 => ⟨S_, .i32⟩
  | 99 => ⟨S4194304, .i32⟩
  | 100 => ⟨S4194304, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x2, .f32⟩
  | 127 => ⟨S2, .f32⟩
  | _ => ⟨S4194304x2, .f32⟩

abbrev hbmTy0_4 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x2, .f32⟩
  | 14 => ⟨S2, .f32⟩
  | 15 => ⟨S2, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x2, .f32⟩
  | 30 => ⟨S2, .f32⟩
  | 31 => ⟨S_, .f32⟩
  | 32 => ⟨S2, .f32⟩
  | 33 => ⟨S2, .i1⟩
  | 34 => ⟨S2, .f32⟩
  | 35 => ⟨S2, .f32⟩
  | 36 => ⟨S2, .f32⟩
  | 37 => ⟨S2, .f32⟩
  | 38 => ⟨S2, .f32⟩
  | 39 => ⟨S2, .f32⟩
  | 40 => ⟨S2, .f32⟩
  | 41 => ⟨S2, .f32⟩
  | 42 => ⟨S_, .f32⟩
  | 43 => ⟨S_, .f32⟩
  | 44 => ⟨S_, .i32⟩
  | 45 => ⟨S_, .i1⟩
  | 46 => ⟨S_, .f32⟩
  | 47 => ⟨S_, .f32⟩
  | 48 => ⟨S_, .f32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i1⟩
  | 55 => ⟨S4194304, .i1⟩
  | 56 => ⟨S_, .i32⟩
  | 57 => ⟨S4194304, .i32⟩
  | 58 => ⟨S4194304, .i1⟩
  | 59 => ⟨S4194304, .i1⟩
  | 60 => ⟨S4194304, .i32⟩
  | 61 => ⟨S_, .i32⟩
  | 62 => ⟨S_, .i32⟩
  | 63 => ⟨S4194304, .i32⟩
  | 64 => ⟨S4194304, .i32⟩
  | 65 => ⟨S_, .i32⟩
  | 66 => ⟨S_, .i32⟩
  | 67 => ⟨S4194304, .i32⟩
  | 68 => ⟨S_, .i32⟩
  | 69 => ⟨S_, .i32⟩
  | 70 => ⟨S4194304, .i32⟩
  | 71 => ⟨S4194304, .i1⟩
  | 72 => ⟨S4194304, .i1⟩
  | 73 => ⟨S_, .i32⟩
  | 74 => ⟨S_, .i32⟩
  | 75 => ⟨S4194304, .i32⟩
  | 76 => ⟨S4194304, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x2, .f32⟩
  | 103 => ⟨S2, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x2, .f32⟩
  | 118 => ⟨S2, .f32⟩
  | 119 => ⟨S2, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S4194304x2, .f32⟩

abbrev hbmTy0_5 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2, .f32⟩
  | 6 => ⟨S2, .f32⟩
  | 7 => ⟨S_, .f32⟩
  | 8 => ⟨S2, .f32⟩
  | 9 => ⟨S2, .i1⟩
  | 10 => ⟨S2, .f32⟩
  | 11 => ⟨S2, .f32⟩
  | 12 => ⟨S2, .f32⟩
  | 13 => ⟨S2, .f32⟩
  | 14 => ⟨S2, .f32⟩
  | 15 => ⟨S2, .f32⟩
  | 16 => ⟨S2, .f32⟩
  | 17 => ⟨S2, .f32⟩
  | 18 => ⟨S_, .f32⟩
  | 19 => ⟨S_, .f32⟩
  | 20 => ⟨S_, .i32⟩
  | 21 => ⟨S_, .i1⟩
  | 22 => ⟨S_, .f32⟩
  | 23 => ⟨S_, .f32⟩
  | 24 => ⟨S_, .f32⟩
  | 25 => ⟨S_, .i32⟩
  | 26 => ⟨S4194304, .i32⟩
  | 27 => ⟨S4194304, .i1⟩
  | 28 => ⟨S_, .i32⟩
  | 29 => ⟨S4194304, .i32⟩
  | 30 => ⟨S4194304, .i1⟩
  | 31 => ⟨S4194304, .i1⟩
  | 32 => ⟨S_, .i32⟩
  | 33 => ⟨S4194304, .i32⟩
  | 34 => ⟨S4194304, .i1⟩
  | 35 => ⟨S4194304, .i1⟩
  | 36 => ⟨S4194304, .i32⟩
  | 37 => ⟨S_, .i32⟩
  | 38 => ⟨S_, .i32⟩
  | 39 => ⟨S4194304, .i32⟩
  | 40 => ⟨S4194304, .i32⟩
  | 41 => ⟨S_, .i32⟩
  | 42 => ⟨S_, .i32⟩
  | 43 => ⟨S4194304, .i32⟩
  | 44 => ⟨S_, .i32⟩
  | 45 => ⟨S_, .i32⟩
  | 46 => ⟨S4194304, .i32⟩
  | 47 => ⟨S4194304, .i1⟩
  | 48 => ⟨S4194304, .i1⟩
  | 49 => ⟨S_, .i32⟩
  | 50 => ⟨S_, .i32⟩
  | 51 => ⟨S4194304, .i32⟩
  | 52 => ⟨S4194304, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x2, .f32⟩
  | 79 => ⟨S2, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x2, .f32⟩
  | 94 => ⟨S2, .f32⟩
  | 95 => ⟨S2, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x2, .f32⟩
  | 110 => ⟨S2, .f32⟩
  | 111 => ⟨S_, .f32⟩
  | 112 => ⟨S2, .f32⟩
  | 113 => ⟨S2, .i1⟩
  | 114 => ⟨S2, .f32⟩
  | 115 => ⟨S2, .f32⟩
  | 116 => ⟨S2, .f32⟩
  | 117 => ⟨S2, .f32⟩
  | 118 => ⟨S2, .f32⟩
  | 119 => ⟨S2, .f32⟩
  | 120 => ⟨S2, .f32⟩
  | 121 => ⟨S2, .f32⟩
  | 122 => ⟨S_, .f32⟩
  | 123 => ⟨S_, .f32⟩
  | 124 => ⟨S_, .i32⟩
  | 125 => ⟨S_, .i1⟩
  | 126 => ⟨S_, .f32⟩
  | 127 => ⟨S_, .f32⟩
  | _ => ⟨S4194304x2, .f32⟩

abbrev hbmTy0_6 (i : Nat) : BufTy := match i % 128 with
  | 0 => ⟨S_, .f32⟩
  | 1 => ⟨S_, .i32⟩
  | 2 => ⟨S4194304, .i32⟩
  | 3 => ⟨S4194304, .i1⟩
  | 4 => ⟨S_, .i32⟩
  | 5 => ⟨S4194304, .i32⟩
  | 6 => ⟨S4194304, .i1⟩
  | 7 => ⟨S4194304, .i1⟩
  | 8 => ⟨S_, .i32⟩
  | 9 => ⟨S4194304, .i32⟩
  | 10 => ⟨S4194304, .i1⟩
  | 11 => ⟨S4194304, .i1⟩
  | 12 => ⟨S4194304, .i32⟩
  | 13 => ⟨S_, .i32⟩
  | 14 => ⟨S_, .i32⟩
  | 15 => ⟨S4194304, .i32⟩
  | 16 => ⟨S4194304, .i32⟩
  | 17 => ⟨S_, .i32⟩
  | 18 => ⟨S_, .i32⟩
  | 19 => ⟨S4194304, .i32⟩
  | 20 => ⟨S_, .i32⟩
  | 21 => ⟨S_, .i32⟩
  | 22 => ⟨S4194304, .i32⟩
  | 23 => ⟨S4194304, .i1⟩
  | 24 => ⟨S4194304, .i1⟩
  | 25 => ⟨S_, .i32⟩
  | 26 => ⟨S_, .i32⟩
  | 27 => ⟨S4194304, .i32⟩
  | 28 => ⟨S4194304, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x2, .f32⟩
  | 55 => ⟨S2, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S1x2, .f32⟩
  | 70 => ⟨S2, .f32⟩
  | 71 => ⟨S2, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x2, .f32⟩
  | 86 => ⟨S2, .f32⟩
  | 87 => ⟨S_, .f32⟩
  | 88 => ⟨S2, .f32⟩
  | 89 => ⟨S2, .i1⟩
  | 90 => ⟨S2, .f32⟩
  | 91 => ⟨S2, .f32⟩
  | 92 => ⟨S2, .f32⟩
  | 93 => ⟨S2, .f32⟩
  | 94 => ⟨S2, .f32⟩
  | 95 => ⟨S2, .f32⟩
  | 96 => ⟨S2, .f32⟩
  | 97 => ⟨S2, .f32⟩
  | 98 => ⟨S_, .f32⟩
  | 99 => ⟨S_, .f32⟩
  | 100 => ⟨S_, .i32⟩
  | 101 => ⟨S_, .i1⟩
  | 102 => ⟨S_, .f32⟩
  | 103 => ⟨S_, .f32⟩
  | 104 => ⟨S_, .f32⟩
  | 105 => ⟨S_, .i32⟩
  | 106 => ⟨S4194304, .i32⟩
  | 107 => ⟨S4194304, .i1⟩
  | 108 => ⟨S_, .i32⟩
  | 109 => ⟨S4194304, .i32⟩
  | 110 => ⟨S4194304, .i1⟩
  | 111 => ⟨S4194304, .i1⟩
  | 112 => ⟨S_, .i32⟩
  | 113 => ⟨S4194304, .i32⟩
  | 114 => ⟨S4194304, .i1⟩
  | 115 => ⟨S4194304, .i1⟩
  | 116 => ⟨S4194304, .i32⟩
  | 117 => ⟨S_, .i32⟩
  | 118 => ⟨S_, .i32⟩
  | 119 => ⟨S4194304, .i32⟩
  | 120 => ⟨S4194304, .i32⟩
  | 121 => ⟨S_, .i32⟩
  | 122 => ⟨S_, .i32⟩
  | 123 => ⟨S4194304, .i32⟩
  | 124 => ⟨S_, .i32⟩
  | 125 => ⟨S_, .i32⟩
  | 126 => ⟨S4194304, .i32⟩
  | 127 => ⟨S4194304, .i1⟩
  | _ => ⟨S4194304x2, .f32⟩

abbrev hbmTy0_7 (i : Nat) : BufTy := match i % 128 with
  | 0 => ⟨S4194304, .i1⟩
  | 1 => ⟨S_, .i32⟩
  | 2 => ⟨S_, .i32⟩
  | 3 => ⟨S4194304, .i32⟩
  | 4 => ⟨S4194304, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x2, .f32⟩
  | 31 => ⟨S2, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x2, .f32⟩
  | 46 => ⟨S2, .f32⟩
  | 47 => ⟨S2, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x2, .f32⟩
  | 62 => ⟨S2, .f32⟩
  | 63 => ⟨S_, .f32⟩
  | 64 => ⟨S2, .f32⟩
  | 65 => ⟨S2, .i1⟩
  | 66 => ⟨S2, .f32⟩
  | 67 => ⟨S2, .f32⟩
  | 68 => ⟨S2, .f32⟩
  | 69 => ⟨S2, .f32⟩
  | 70 => ⟨S2, .f32⟩
  | 71 => ⟨S2, .f32⟩
  | 72 => ⟨S2, .f32⟩
  | 73 => ⟨S2, .f32⟩
  | 74 => ⟨S_, .f32⟩
  | 75 => ⟨S_, .f32⟩
  | 76 => ⟨S_, .i32⟩
  | 77 => ⟨S_, .i1⟩
  | 78 => ⟨S_, .f32⟩
  | 79 => ⟨S_, .f32⟩
  | 80 => ⟨S_, .f32⟩
  | 81 => ⟨S_, .i32⟩
  | 82 => ⟨S4194304, .i32⟩
  | 83 => ⟨S4194304, .i1⟩
  | 84 => ⟨S_, .i32⟩
  | 85 => ⟨S4194304, .i32⟩
  | 86 => ⟨S4194304, .i1⟩
  | 87 => ⟨S4194304, .i1⟩
  | 88 => ⟨S_, .i32⟩
  | 89 => ⟨S4194304, .i32⟩
  | 90 => ⟨S4194304, .i1⟩
  | 91 => ⟨S4194304, .i1⟩
  | 92 => ⟨S4194304, .i32⟩
  | 93 => ⟨S_, .i32⟩
  | 94 => ⟨S_, .i32⟩
  | 95 => ⟨S4194304, .i32⟩
  | 96 => ⟨S4194304, .i32⟩
  | 97 => ⟨S_, .i32⟩
  | 98 => ⟨S_, .i32⟩
  | 99 => ⟨S4194304, .i32⟩
  | 100 => ⟨S_, .i32⟩
  | 101 => ⟨S_, .i32⟩
  | 102 => ⟨S4194304, .i32⟩
  | 103 => ⟨S4194304, .i1⟩
  | 104 => ⟨S4194304, .i1⟩
  | 105 => ⟨S_, .i32⟩
  | 106 => ⟨S_, .i32⟩
  | 107 => ⟨S4194304, .i32⟩
  | 108 => ⟨S4194304, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S4194304x2, .f32⟩

abbrev hbmTy0_8 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S1x2, .f32⟩
  | 7 => ⟨S2, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S1x2, .f32⟩
  | 22 => ⟨S2, .f32⟩
  | 23 => ⟨S2, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x2, .f32⟩
  | 38 => ⟨S2, .f32⟩
  | 39 => ⟨S_, .f32⟩
  | 40 => ⟨S2, .f32⟩
  | 41 => ⟨S2, .i1⟩
  | 42 => ⟨S2, .f32⟩
  | 43 => ⟨S2, .f32⟩
  | 44 => ⟨S2, .f32⟩
  | 45 => ⟨S2, .f32⟩
  | 46 => ⟨S2, .f32⟩
  | 47 => ⟨S2, .f32⟩
  | 48 => ⟨S2, .f32⟩
  | 49 => ⟨S2, .f32⟩
  | 50 => ⟨S_, .f32⟩
  | 51 => ⟨S_, .f32⟩
  | 52 => ⟨S_, .i32⟩
  | 53 => ⟨S_, .i1⟩
  | 54 => ⟨S_, .f32⟩
  | 55 => ⟨S_, .f32⟩
  | 56 => ⟨S_, .f32⟩
  | 57 => ⟨S_, .i32⟩
  | 58 => ⟨S4194304, .i32⟩
  | 59 => ⟨S4194304, .i1⟩
  | 60 => ⟨S_, .i32⟩
  | 61 => ⟨S4194304, .i32⟩
  | 62 => ⟨S4194304, .i1⟩
  | 63 => ⟨S4194304, .i1⟩
  | 64 => ⟨S_, .i32⟩
  | 65 => ⟨S4194304, .i32⟩
  | 66 => ⟨S4194304, .i1⟩
  | 67 => ⟨S4194304, .i1⟩
  | 68 => ⟨S4194304, .i32⟩
  | 69 => ⟨S_, .i32⟩
  | 70 => ⟨S_, .i32⟩
  | 71 => ⟨S4194304, .i32⟩
  | 72 => ⟨S4194304, .i32⟩
  | 73 => ⟨S_, .i32⟩
  | 74 => ⟨S_, .i32⟩
  | 75 => ⟨S4194304, .i32⟩
  | 76 => ⟨S_, .i32⟩
  | 77 => ⟨S_, .i32⟩
  | 78 => ⟨S4194304, .i32⟩
  | 79 => ⟨S4194304, .i1⟩
  | 80 => ⟨S4194304, .i1⟩
  | 81 => ⟨S_, .i32⟩
  | 82 => ⟨S_, .i32⟩
  | 83 => ⟨S4194304, .i32⟩
  | 84 => ⟨S4194304, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x2, .f32⟩
  | 111 => ⟨S2, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x2, .f32⟩
  | 126 => ⟨S2, .f32⟩
  | 127 => ⟨S2, .f32⟩
  | _ => ⟨S4194304x2, .f32⟩

abbrev hbmTy0_9 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x2, .f32⟩
  | 14 => ⟨S2, .f32⟩
  | 15 => ⟨S_, .f32⟩
  | 16 => ⟨S2, .f32⟩
  | 17 => ⟨S2, .i1⟩
  | 18 => ⟨S2, .f32⟩
  | 19 => ⟨S2, .f32⟩
  | 20 => ⟨S2, .f32⟩
  | 21 => ⟨S2, .f32⟩
  | 22 => ⟨S2, .f32⟩
  | 23 => ⟨S2, .f32⟩
  | 24 => ⟨S2, .f32⟩
  | 25 => ⟨S2, .f32⟩
  | 26 => ⟨S_, .f32⟩
  | 27 => ⟨S_, .f32⟩
  | 28 => ⟨S_, .i32⟩
  | 29 => ⟨S_, .i1⟩
  | 30 => ⟨S_, .f32⟩
  | 31 => ⟨S_, .f32⟩
  | 32 => ⟨S_, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i1⟩
  | 39 => ⟨S4194304, .i1⟩
  | 40 => ⟨S_, .i32⟩
  | 41 => ⟨S4194304, .i32⟩
  | 42 => ⟨S4194304, .i1⟩
  | 43 => ⟨S4194304, .i1⟩
  | 44 => ⟨S4194304, .i32⟩
  | 45 => ⟨S_, .i32⟩
  | 46 => ⟨S_, .i32⟩
  | 47 => ⟨S4194304, .i32⟩
  | 48 => ⟨S4194304, .i32⟩
  | 49 => ⟨S_, .i32⟩
  | 50 => ⟨S_, .i32⟩
  | 51 => ⟨S4194304, .i32⟩
  | 52 => ⟨S_, .i32⟩
  | 53 => ⟨S_, .i32⟩
  | 54 => ⟨S4194304, .i32⟩
  | 55 => ⟨S4194304, .i1⟩
  | 56 => ⟨S4194304, .i1⟩
  | 57 => ⟨S_, .i32⟩
  | 58 => ⟨S_, .i32⟩
  | 59 => ⟨S4194304, .i32⟩
  | 60 => ⟨S4194304, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S1x2, .f32⟩
  | 87 => ⟨S2, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x2, .f32⟩
  | 102 => ⟨S2, .f32⟩
  | 103 => ⟨S2, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x2, .f32⟩
  | 118 => ⟨S2, .f32⟩
  | 119 => ⟨S_, .f32⟩
  | 120 => ⟨S2, .f32⟩
  | 121 => ⟨S2, .i1⟩
  | 122 => ⟨S2, .f32⟩
  | 123 => ⟨S2, .f32⟩
  | 124 => ⟨S2, .f32⟩
  | 125 => ⟨S2, .f32⟩
  | 126 => ⟨S2, .f32⟩
  | 127 => ⟨S2, .f32⟩
  | _ => ⟨S4194304x2, .f32⟩

abbrev hbmTy0_10 (i : Nat) : BufTy := match i % 128 with
  | 0 => ⟨S2, .f32⟩
  | 1 => ⟨S2, .f32⟩
  | 2 => ⟨S_, .f32⟩
  | 3 => ⟨S_, .f32⟩
  | 4 => ⟨S_, .i32⟩
  | 5 => ⟨S_, .i1⟩
  | 6 => ⟨S_, .f32⟩
  | 7 => ⟨S_, .f32⟩
  | 8 => ⟨S_, .f32⟩
  | 9 => ⟨S_, .i32⟩
  | 10 => ⟨S4194304, .i32⟩
  | 11 => ⟨S4194304, .i1⟩
  | 12 => ⟨S_, .i32⟩
  | 13 => ⟨S4194304, .i32⟩
  | 14 => ⟨S4194304, .i1⟩
  | 15 => ⟨S4194304, .i1⟩
  | 16 => ⟨S_, .i32⟩
  | 17 => ⟨S4194304, .i32⟩
  | 18 => ⟨S4194304, .i1⟩
  | 19 => ⟨S4194304, .i1⟩
  | 20 => ⟨S4194304, .i32⟩
  | 21 => ⟨S_, .i32⟩
  | 22 => ⟨S_, .i32⟩
  | 23 => ⟨S4194304, .i32⟩
  | 24 => ⟨S4194304, .i32⟩
  | 25 => ⟨S_, .i32⟩
  | 26 => ⟨S_, .i32⟩
  | 27 => ⟨S4194304, .i32⟩
  | 28 => ⟨S_, .i32⟩
  | 29 => ⟨S_, .i32⟩
  | 30 => ⟨S4194304, .i32⟩
  | 31 => ⟨S4194304, .i1⟩
  | 32 => ⟨S4194304, .i1⟩
  | 33 => ⟨S_, .i32⟩
  | 34 => ⟨S_, .i32⟩
  | 35 => ⟨S4194304, .i32⟩
  | 36 => ⟨S4194304, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x2, .f32⟩
  | 63 => ⟨S2, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x2, .f32⟩
  | 78 => ⟨S2, .f32⟩
  | 79 => ⟨S2, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x2, .f32⟩
  | 94 => ⟨S2, .f32⟩
  | 95 => ⟨S_, .f32⟩
  | 96 => ⟨S2, .f32⟩
  | 97 => ⟨S2, .i1⟩
  | 98 => ⟨S2, .f32⟩
  | 99 => ⟨S2, .f32⟩
  | 100 => ⟨S2, .f32⟩
  | 101 => ⟨S2, .f32⟩
  | 102 => ⟨S2, .f32⟩
  | 103 => ⟨S2, .f32⟩
  | 104 => ⟨S2, .f32⟩
  | 105 => ⟨S2, .f32⟩
  | 106 => ⟨S_, .f32⟩
  | 107 => ⟨S_, .f32⟩
  | 108 => ⟨S_, .i32⟩
  | 109 => ⟨S_, .i1⟩
  | 110 => ⟨S_, .f32⟩
  | 111 => ⟨S_, .f32⟩
  | 112 => ⟨S_, .f32⟩
  | 113 => ⟨S_, .i32⟩
  | 114 => ⟨S4194304, .i32⟩
  | 115 => ⟨S4194304, .i1⟩
  | 116 => ⟨S_, .i32⟩
  | 117 => ⟨S4194304, .i32⟩
  | 118 => ⟨S4194304, .i1⟩
  | 119 => ⟨S4194304, .i1⟩
  | 120 => ⟨S_, .i32⟩
  | 121 => ⟨S4194304, .i32⟩
  | 122 => ⟨S4194304, .i1⟩
  | 123 => ⟨S4194304, .i1⟩
  | 124 => ⟨S4194304, .i32⟩
  | 125 => ⟨S_, .i32⟩
  | 126 => ⟨S_, .i32⟩
  | 127 => ⟨S4194304, .i32⟩
  | _ => ⟨S4194304x2, .f32⟩

abbrev hbmTy0_11 (i : Nat) : BufTy := match i % 128 with
  | 0 => ⟨S4194304, .i32⟩
  | 1 => ⟨S_, .i32⟩
  | 2 => ⟨S_, .i32⟩
  | 3 => ⟨S4194304, .i32⟩
  | 4 => ⟨S_, .i32⟩
  | 5 => ⟨S_, .i32⟩
  | 6 => ⟨S4194304, .i32⟩
  | 7 => ⟨S4194304, .i1⟩
  | 8 => ⟨S4194304, .i1⟩
  | 9 => ⟨S_, .i32⟩
  | 10 => ⟨S_, .i32⟩
  | 11 => ⟨S4194304, .i32⟩
  | 12 => ⟨S4194304, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S1x2, .f32⟩
  | 39 => ⟨S2, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x2, .f32⟩
  | 54 => ⟨S2, .f32⟩
  | 55 => ⟨S2, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S1x2, .f32⟩
  | 70 => ⟨S2, .f32⟩
  | 71 => ⟨S_, .f32⟩
  | 72 => ⟨S2, .f32⟩
  | 73 => ⟨S2, .i1⟩
  | 74 => ⟨S2, .f32⟩
  | 75 => ⟨S2, .f32⟩
  | 76 => ⟨S2, .f32⟩
  | 77 => ⟨S2, .f32⟩
  | 78 => ⟨S2, .f32⟩
  | 79 => ⟨S2, .f32⟩
  | 80 => ⟨S2, .f32⟩
  | 81 => ⟨S2, .f32⟩
  | 82 => ⟨S_, .f32⟩
  | 83 => ⟨S_, .f32⟩
  | 84 => ⟨S_, .i32⟩
  | 85 => ⟨S_, .i1⟩
  | 86 => ⟨S_, .f32⟩
  | 87 => ⟨S_, .f32⟩
  | 88 => ⟨S_, .f32⟩
  | 89 => ⟨S_, .i32⟩
  | 90 => ⟨S4194304, .i32⟩
  | 91 => ⟨S4194304, .i1⟩
  | 92 => ⟨S_, .i32⟩
  | 93 => ⟨S4194304, .i32⟩
  | 94 => ⟨S4194304, .i1⟩
  | 95 => ⟨S4194304, .i1⟩
  | 96 => ⟨S_, .i32⟩
  | 97 => ⟨S4194304, .i32⟩
  | 98 => ⟨S4194304, .i1⟩
  | 99 => ⟨S4194304, .i1⟩
  | 100 => ⟨S4194304, .i32⟩
  | 101 => ⟨S_, .i32⟩
  | 102 => ⟨S_, .i32⟩
  | 103 => ⟨S4194304, .i32⟩
  | 104 => ⟨S4194304, .i32⟩
  | 105 => ⟨S_, .i32⟩
  | 106 => ⟨S_, .i32⟩
  | 107 => ⟨S4194304, .i32⟩
  | 108 => ⟨S_, .i32⟩
  | 109 => ⟨S_, .i32⟩
  | 110 => ⟨S4194304, .i32⟩
  | 111 => ⟨S4194304, .i1⟩
  | 112 => ⟨S4194304, .i1⟩
  | 113 => ⟨S_, .i32⟩
  | 114 => ⟨S_, .i32⟩
  | 115 => ⟨S4194304, .i32⟩
  | 116 => ⟨S4194304, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4194304x2, .f32⟩

abbrev hbmTy0_12 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S1x2, .f32⟩
  | 15 => ⟨S2, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x2, .f32⟩
  | 30 => ⟨S2, .f32⟩
  | 31 => ⟨S2, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x2, .f32⟩
  | 46 => ⟨S2, .f32⟩
  | 47 => ⟨S_, .f32⟩
  | 48 => ⟨S2, .f32⟩
  | 49 => ⟨S2, .i1⟩
  | 50 => ⟨S2, .f32⟩
  | 51 => ⟨S2, .f32⟩
  | 52 => ⟨S2, .f32⟩
  | 53 => ⟨S2, .f32⟩
  | 54 => ⟨S2, .f32⟩
  | 55 => ⟨S2, .f32⟩
  | 56 => ⟨S2, .f32⟩
  | 57 => ⟨S2, .f32⟩
  | 58 => ⟨S_, .f32⟩
  | 59 => ⟨S_, .f32⟩
  | 60 => ⟨S_, .i32⟩
  | 61 => ⟨S_, .i1⟩
  | 62 => ⟨S_, .f32⟩
  | 63 => ⟨S_, .f32⟩
  | 64 => ⟨S_, .f32⟩
  | 65 => ⟨S_, .i32⟩
  | 66 => ⟨S4194304, .i32⟩
  | 67 => ⟨S4194304, .i1⟩
  | 68 => ⟨S_, .i32⟩
  | 69 => ⟨S4194304, .i32⟩
  | 70 => ⟨S4194304, .i1⟩
  | 71 => ⟨S4194304, .i1⟩
  | 72 => ⟨S_, .i32⟩
  | 73 => ⟨S4194304, .i32⟩
  | 74 => ⟨S4194304, .i1⟩
  | 75 => ⟨S4194304, .i1⟩
  | 76 => ⟨S4194304, .i32⟩
  | 77 => ⟨S_, .i32⟩
  | 78 => ⟨S_, .i32⟩
  | 79 => ⟨S4194304, .i32⟩
  | 80 => ⟨S4194304, .i32⟩
  | 81 => ⟨S_, .i32⟩
  | 82 => ⟨S_, .i32⟩
  | 83 => ⟨S4194304, .i32⟩
  | 84 => ⟨S_, .i32⟩
  | 85 => ⟨S_, .i32⟩
  | 86 => ⟨S4194304, .i32⟩
  | 87 => ⟨S4194304, .i1⟩
  | 88 => ⟨S4194304, .i1⟩
  | 89 => ⟨S_, .i32⟩
  | 90 => ⟨S_, .i32⟩
  | 91 => ⟨S4194304, .i32⟩
  | 92 => ⟨S4194304, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x2, .f32⟩
  | 119 => ⟨S2, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S4194304x2, .f32⟩

abbrev hbmTy0_13 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2, .f32⟩
  | 6 => ⟨S2, .f32⟩
  | 7 => ⟨S2, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S1x2, .f32⟩
  | 22 => ⟨S2, .f32⟩
  | 23 => ⟨S_, .f32⟩
  | 24 => ⟨S2, .f32⟩
  | 25 => ⟨S2, .i1⟩
  | 26 => ⟨S2, .f32⟩
  | 27 => ⟨S2, .f32⟩
  | 28 => ⟨S2, .f32⟩
  | 29 => ⟨S2, .f32⟩
  | 30 => ⟨S2, .f32⟩
  | 31 => ⟨S2, .f32⟩
  | 32 => ⟨S2, .f32⟩
  | 33 => ⟨S2, .f32⟩
  | 34 => ⟨S_, .f32⟩
  | 35 => ⟨S_, .f32⟩
  | 36 => ⟨S_, .i32⟩
  | 37 => ⟨S_, .i1⟩
  | 38 => ⟨S_, .f32⟩
  | 39 => ⟨S_, .f32⟩
  | 40 => ⟨S_, .f32⟩
  | 41 => ⟨S_, .i32⟩
  | 42 => ⟨S4194304, .i32⟩
  | 43 => ⟨S4194304, .i1⟩
  | 44 => ⟨S_, .i32⟩
  | 45 => ⟨S4194304, .i32⟩
  | 46 => ⟨S4194304, .i1⟩
  | 47 => ⟨S4194304, .i1⟩
  | 48 => ⟨S_, .i32⟩
  | 49 => ⟨S4194304, .i32⟩
  | 50 => ⟨S4194304, .i1⟩
  | 51 => ⟨S4194304, .i1⟩
  | 52 => ⟨S4194304, .i32⟩
  | 53 => ⟨S_, .i32⟩
  | 54 => ⟨S_, .i32⟩
  | 55 => ⟨S4194304, .i32⟩
  | 56 => ⟨S4194304, .i32⟩
  | 57 => ⟨S_, .i32⟩
  | 58 => ⟨S_, .i32⟩
  | 59 => ⟨S4194304, .i32⟩
  | 60 => ⟨S_, .i32⟩
  | 61 => ⟨S_, .i32⟩
  | 62 => ⟨S4194304, .i32⟩
  | 63 => ⟨S4194304, .i1⟩
  | 64 => ⟨S4194304, .i1⟩
  | 65 => ⟨S_, .i32⟩
  | 66 => ⟨S_, .i32⟩
  | 67 => ⟨S4194304, .i32⟩
  | 68 => ⟨S4194304, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x2, .f32⟩
  | 95 => ⟨S2, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x2, .f32⟩
  | 110 => ⟨S2, .f32⟩
  | 111 => ⟨S2, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x2, .f32⟩
  | 126 => ⟨S2, .f32⟩
  | 127 => ⟨S_, .f32⟩
  | _ => ⟨S4194304x2, .f32⟩

abbrev hbmTy0_14 (i : Nat) : BufTy := match i % 128 with
  | 0 => ⟨S2, .f32⟩
  | 1 => ⟨S2, .i1⟩
  | 2 => ⟨S2, .f32⟩
  | 3 => ⟨S2, .f32⟩
  | 4 => ⟨S2, .f32⟩
  | 5 => ⟨S2, .f32⟩
  | 6 => ⟨S2, .f32⟩
  | 7 => ⟨S2, .f32⟩
  | 8 => ⟨S2, .f32⟩
  | 9 => ⟨S2, .f32⟩
  | 10 => ⟨S_, .f32⟩
  | 11 => ⟨S_, .f32⟩
  | 12 => ⟨S_, .i32⟩
  | 13 => ⟨S_, .i1⟩
  | 14 => ⟨S_, .f32⟩
  | 15 => ⟨S_, .f32⟩
  | 16 => ⟨S_, .f32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i1⟩
  | 23 => ⟨S4194304, .i1⟩
  | 24 => ⟨S_, .i32⟩
  | 25 => ⟨S4194304, .i32⟩
  | 26 => ⟨S4194304, .i1⟩
  | 27 => ⟨S4194304, .i1⟩
  | 28 => ⟨S4194304, .i32⟩
  | 29 => ⟨S_, .i32⟩
  | 30 => ⟨S_, .i32⟩
  | 31 => ⟨S4194304, .i32⟩
  | 32 => ⟨S4194304, .i32⟩
  | 33 => ⟨S_, .i32⟩
  | 34 => ⟨S_, .i32⟩
  | 35 => ⟨S4194304, .i32⟩
  | 36 => ⟨S_, .i32⟩
  | 37 => ⟨S_, .i32⟩
  | 38 => ⟨S4194304, .i32⟩
  | 39 => ⟨S4194304, .i1⟩
  | 40 => ⟨S4194304, .i1⟩
  | 41 => ⟨S_, .i32⟩
  | 42 => ⟨S_, .i32⟩
  | 43 => ⟨S4194304, .i32⟩
  | 44 => ⟨S4194304, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x2, .f32⟩
  | 71 => ⟨S2, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x2, .f32⟩
  | 86 => ⟨S2, .f32⟩
  | 87 => ⟨S2, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x2, .f32⟩
  | 102 => ⟨S2, .f32⟩
  | 103 => ⟨S_, .f32⟩
  | 104 => ⟨S2, .f32⟩
  | 105 => ⟨S2, .i1⟩
  | 106 => ⟨S2, .f32⟩
  | 107 => ⟨S2, .f32⟩
  | 108 => ⟨S2, .f32⟩
  | 109 => ⟨S2, .f32⟩
  | 110 => ⟨S2, .f32⟩
  | 111 => ⟨S2, .f32⟩
  | 112 => ⟨S2, .f32⟩
  | 113 => ⟨S2, .f32⟩
  | 114 => ⟨S_, .f32⟩
  | 115 => ⟨S_, .f32⟩
  | 116 => ⟨S_, .i32⟩
  | 117 => ⟨S_, .i1⟩
  | 118 => ⟨S_, .f32⟩
  | 119 => ⟨S_, .f32⟩
  | 120 => ⟨S_, .f32⟩
  | 121 => ⟨S_, .i32⟩
  | 122 => ⟨S4194304, .i32⟩
  | 123 => ⟨S4194304, .i1⟩
  | 124 => ⟨S_, .i32⟩
  | 125 => ⟨S4194304, .i32⟩
  | 126 => ⟨S4194304, .i1⟩
  | 127 => ⟨S4194304, .i1⟩
  | _ => ⟨S4194304x2, .f32⟩

abbrev hbmTy0_15 (i : Nat) : BufTy := match i % 128 with
  | 0 => ⟨S_, .i32⟩
  | 1 => ⟨S4194304, .i32⟩
  | 2 => ⟨S4194304, .i1⟩
  | 3 => ⟨S4194304, .i1⟩
  | 4 => ⟨S4194304, .i32⟩
  | 5 => ⟨S_, .i32⟩
  | 6 => ⟨S_, .i32⟩
  | 7 => ⟨S4194304, .i32⟩
  | 8 => ⟨S4194304, .i32⟩
  | 9 => ⟨S_, .i32⟩
  | 10 => ⟨S_, .i32⟩
  | 11 => ⟨S4194304, .i32⟩
  | 12 => ⟨S_, .i32⟩
  | 13 => ⟨S_, .i32⟩
  | 14 => ⟨S4194304, .i32⟩
  | 15 => ⟨S4194304, .i1⟩
  | 16 => ⟨S4194304, .i1⟩
  | 17 => ⟨S_, .i32⟩
  | 18 => ⟨S_, .i32⟩
  | 19 => ⟨S4194304, .i32⟩
  | 20 => ⟨S4194304, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x2, .f32⟩
  | 47 => ⟨S2, .f32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S1x2, .f32⟩
  | 62 => ⟨S2, .f32⟩
  | 63 => ⟨S2, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x2, .f32⟩
  | 78 => ⟨S2, .f32⟩
  | 79 => ⟨S_, .f32⟩
  | 80 => ⟨S2, .f32⟩
  | 81 => ⟨S2, .i1⟩
  | 82 => ⟨S2, .f32⟩
  | 83 => ⟨S2, .f32⟩
  | 84 => ⟨S2, .f32⟩
  | 85 => ⟨S2, .f32⟩
  | 86 => ⟨S2, .f32⟩
  | 87 => ⟨S2, .f32⟩
  | 88 => ⟨S2, .f32⟩
  | 89 => ⟨S2, .f32⟩
  | 90 => ⟨S_, .f32⟩
  | 91 => ⟨S_, .f32⟩
  | 92 => ⟨S_, .i32⟩
  | 93 => ⟨S_, .i1⟩
  | 94 => ⟨S_, .f32⟩
  | 95 => ⟨S_, .f32⟩
  | 96 => ⟨S_, .f32⟩
  | 97 => ⟨S_, .i32⟩
  | 98 => ⟨S4194304, .i32⟩
  | 99 => ⟨S4194304, .i1⟩
  | 100 => ⟨S_, .i32⟩
  | 101 => ⟨S4194304, .i32⟩
  | 102 => ⟨S4194304, .i1⟩
  | 103 => ⟨S4194304, .i1⟩
  | 104 => ⟨S_, .i32⟩
  | 105 => ⟨S4194304, .i32⟩
  | 106 => ⟨S4194304, .i1⟩
  | 107 => ⟨S4194304, .i1⟩
  | 108 => ⟨S4194304, .i32⟩
  | 109 => ⟨S_, .i32⟩
  | 110 => ⟨S_, .i32⟩
  | 111 => ⟨S4194304, .i32⟩
  | 112 => ⟨S4194304, .i32⟩
  | 113 => ⟨S_, .i32⟩
  | 114 => ⟨S_, .i32⟩
  | 115 => ⟨S4194304, .i32⟩
  | 116 => ⟨S_, .i32⟩
  | 117 => ⟨S_, .i32⟩
  | 118 => ⟨S4194304, .i32⟩
  | 119 => ⟨S4194304, .i1⟩
  | 120 => ⟨S4194304, .i1⟩
  | 121 => ⟨S_, .i32⟩
  | 122 => ⟨S_, .i32⟩
  | 123 => ⟨S4194304, .i32⟩
  | 124 => ⟨S4194304, .i32⟩
  | 125 => ⟨S_, .i32⟩
  | 126 => ⟨S_, .i32⟩
  | 127 => ⟨S_, .i32⟩
  | _ => ⟨S4194304x2, .f32⟩

abbrev hbmTy0_16 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x2, .f32⟩
  | 23 => ⟨S2, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x2, .f32⟩
  | 38 => ⟨S2, .f32⟩
  | 39 => ⟨S2, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x2, .f32⟩
  | 54 => ⟨S2, .f32⟩
  | 55 => ⟨S_, .f32⟩
  | 56 => ⟨S2, .f32⟩
  | 57 => ⟨S2, .i1⟩
  | 58 => ⟨S2, .f32⟩
  | 59 => ⟨S2, .f32⟩
  | 60 => ⟨S2, .f32⟩
  | 61 => ⟨S2, .f32⟩
  | 62 => ⟨S2, .f32⟩
  | 63 => ⟨S2, .f32⟩
  | 64 => ⟨S2, .f32⟩
  | 65 => ⟨S2, .f32⟩
  | 66 => ⟨S_, .f32⟩
  | 67 => ⟨S_, .f32⟩
  | 68 => ⟨S_, .i32⟩
  | 69 => ⟨S_, .i1⟩
  | 70 => ⟨S_, .f32⟩
  | 71 => ⟨S_, .f32⟩
  | 72 => ⟨S_, .f32⟩
  | 73 => ⟨S_, .i32⟩
  | 74 => ⟨S4194304, .i32⟩
  | 75 => ⟨S4194304, .i1⟩
  | 76 => ⟨S_, .i32⟩
  | 77 => ⟨S4194304, .i32⟩
  | 78 => ⟨S4194304, .i1⟩
  | 79 => ⟨S4194304, .i1⟩
  | 80 => ⟨S_, .i32⟩
  | 81 => ⟨S4194304, .i32⟩
  | 82 => ⟨S4194304, .i1⟩
  | 83 => ⟨S4194304, .i1⟩
  | 84 => ⟨S4194304, .i32⟩
  | 85 => ⟨S_, .i32⟩
  | 86 => ⟨S_, .i32⟩
  | 87 => ⟨S4194304, .i32⟩
  | 88 => ⟨S4194304, .i32⟩
  | 89 => ⟨S_, .i32⟩
  | 90 => ⟨S_, .i32⟩
  | 91 => ⟨S4194304, .i32⟩
  | 92 => ⟨S_, .i32⟩
  | 93 => ⟨S_, .i32⟩
  | 94 => ⟨S4194304, .i32⟩
  | 95 => ⟨S4194304, .i1⟩
  | 96 => ⟨S4194304, .i1⟩
  | 97 => ⟨S_, .i32⟩
  | 98 => ⟨S_, .i32⟩
  | 99 => ⟨S4194304, .i32⟩
  | 100 => ⟨S4194304, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x2, .f32⟩
  | 127 => ⟨S2, .f32⟩
  | _ => ⟨S4194304x2, .f32⟩

abbrev hbmTy0_17 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x2, .f32⟩
  | 14 => ⟨S2, .f32⟩
  | 15 => ⟨S2, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x2, .f32⟩
  | 30 => ⟨S2, .f32⟩
  | 31 => ⟨S_, .f32⟩
  | 32 => ⟨S2, .f32⟩
  | 33 => ⟨S2, .i1⟩
  | 34 => ⟨S2, .f32⟩
  | 35 => ⟨S2, .f32⟩
  | 36 => ⟨S2, .f32⟩
  | 37 => ⟨S2, .f32⟩
  | 38 => ⟨S2, .f32⟩
  | 39 => ⟨S2, .f32⟩
  | 40 => ⟨S2, .f32⟩
  | 41 => ⟨S2, .f32⟩
  | 42 => ⟨S_, .f32⟩
  | 43 => ⟨S_, .f32⟩
  | 44 => ⟨S_, .i32⟩
  | 45 => ⟨S_, .i1⟩
  | 46 => ⟨S_, .f32⟩
  | 47 => ⟨S_, .f32⟩
  | 48 => ⟨S_, .f32⟩
  | 49 => ⟨S_, .i32⟩
  | 50 => ⟨S4194304, .i32⟩
  | 51 => ⟨S4194304, .i1⟩
  | 52 => ⟨S_, .i32⟩
  | 53 => ⟨S4194304, .i32⟩
  | 54 => ⟨S4194304, .i1⟩
  | 55 => ⟨S4194304, .i1⟩
  | 56 => ⟨S_, .i32⟩
  | 57 => ⟨S4194304, .i32⟩
  | 58 => ⟨S4194304, .i1⟩
  | 59 => ⟨S4194304, .i1⟩
  | 60 => ⟨S4194304, .i32⟩
  | 61 => ⟨S_, .i32⟩
  | 62 => ⟨S_, .i32⟩
  | 63 => ⟨S4194304, .i32⟩
  | 64 => ⟨S4194304, .i32⟩
  | 65 => ⟨S_, .i32⟩
  | 66 => ⟨S_, .i32⟩
  | 67 => ⟨S4194304, .i32⟩
  | 68 => ⟨S_, .i32⟩
  | 69 => ⟨S_, .i32⟩
  | 70 => ⟨S4194304, .i32⟩
  | 71 => ⟨S4194304, .i1⟩
  | 72 => ⟨S4194304, .i1⟩
  | 73 => ⟨S_, .i32⟩
  | 74 => ⟨S_, .i32⟩
  | 75 => ⟨S4194304, .i32⟩
  | 76 => ⟨S4194304, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S1x2, .f32⟩
  | 103 => ⟨S2, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S1x2, .f32⟩
  | 118 => ⟨S2, .f32⟩
  | 119 => ⟨S2, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S4194304x2, .f32⟩

abbrev hbmTy0_18 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2, .f32⟩
  | 6 => ⟨S2, .f32⟩
  | 7 => ⟨S_, .f32⟩
  | 8 => ⟨S2, .f32⟩
  | 9 => ⟨S2, .i1⟩
  | 10 => ⟨S2, .f32⟩
  | 11 => ⟨S2, .f32⟩
  | 12 => ⟨S2, .f32⟩
  | 13 => ⟨S2, .f32⟩
  | 14 => ⟨S2, .f32⟩
  | 15 => ⟨S2, .f32⟩
  | 16 => ⟨S2, .f32⟩
  | 17 => ⟨S2, .f32⟩
  | 18 => ⟨S_, .f32⟩
  | 19 => ⟨S_, .f32⟩
  | 20 => ⟨S_, .i32⟩
  | 21 => ⟨S_, .i1⟩
  | 22 => ⟨S_, .f32⟩
  | 23 => ⟨S_, .f32⟩
  | 24 => ⟨S_, .f32⟩
  | 25 => ⟨S_, .i32⟩
  | 26 => ⟨S4194304, .i32⟩
  | 27 => ⟨S4194304, .i1⟩
  | 28 => ⟨S_, .i32⟩
  | 29 => ⟨S4194304, .i32⟩
  | 30 => ⟨S4194304, .i1⟩
  | 31 => ⟨S4194304, .i1⟩
  | 32 => ⟨S_, .i32⟩
  | 33 => ⟨S4194304, .i32⟩
  | 34 => ⟨S4194304, .i1⟩
  | 35 => ⟨S4194304, .i1⟩
  | 36 => ⟨S4194304, .i32⟩
  | 37 => ⟨S_, .i32⟩
  | 38 => ⟨S_, .i32⟩
  | 39 => ⟨S4194304, .i32⟩
  | 40 => ⟨S4194304, .i32⟩
  | 41 => ⟨S_, .i32⟩
  | 42 => ⟨S_, .i32⟩
  | 43 => ⟨S4194304, .i32⟩
  | 44 => ⟨S_, .i32⟩
  | 45 => ⟨S_, .i32⟩
  | 46 => ⟨S4194304, .i32⟩
  | 47 => ⟨S4194304, .i1⟩
  | 48 => ⟨S4194304, .i1⟩
  | 49 => ⟨S_, .i32⟩
  | 50 => ⟨S_, .i32⟩
  | 51 => ⟨S4194304, .i32⟩
  | 52 => ⟨S4194304, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x2, .f32⟩
  | 79 => ⟨S2, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x2, .f32⟩
  | 94 => ⟨S2, .f32⟩
  | 95 => ⟨S2, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x2, .f32⟩
  | 110 => ⟨S2, .f32⟩
  | 111 => ⟨S_, .f32⟩
  | 112 => ⟨S2, .f32⟩
  | 113 => ⟨S2, .i1⟩
  | 114 => ⟨S2, .f32⟩
  | 115 => ⟨S2, .f32⟩
  | 116 => ⟨S2, .f32⟩
  | 117 => ⟨S2, .f32⟩
  | 118 => ⟨S2, .f32⟩
  | 119 => ⟨S2, .f32⟩
  | 120 => ⟨S2, .f32⟩
  | 121 => ⟨S2, .f32⟩
  | 122 => ⟨S_, .f32⟩
  | 123 => ⟨S_, .f32⟩
  | 124 => ⟨S_, .i32⟩
  | 125 => ⟨S_, .i1⟩
  | 126 => ⟨S_, .f32⟩
  | 127 => ⟨S_, .f32⟩
  | _ => ⟨S4194304x2, .f32⟩

abbrev hbmTy0_19 (i : Nat) : BufTy := match i % 128 with
  | 0 => ⟨S_, .f32⟩
  | _ => ⟨S4194304x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S4194304x2, .f32⟩

abbrev bufTy : (tb : Table) → Fin (tcTables nBuf tb) → BufTy
  | .hbm, ⟨i, _⟩ => hbmTy i
  | .local _ .vmem, ⟨0, _⟩ => ⟨S262144, .i32⟩
  | .local _ .vmem, ⟨1, _⟩ => ⟨S262144, .i32⟩
  | .local _ .vmem, ⟨2, _⟩ => ⟨S262144, .i32⟩
  | .local _ .vmem, ⟨3, _⟩ => ⟨S262144, .i32⟩
  | .local _ .vmem, ⟨4, _⟩ => ⟨S262144, .i32⟩
  | .local _ .vmem, ⟨5, _⟩ => ⟨S262144, .i32⟩
  | .local _ .vmem, ⟨6, _⟩ => ⟨S262144, .f32⟩
  | .local _ .vmem, ⟨7, _⟩ => ⟨S262144, .f32⟩
  | .local _ .vmem, ⟨8, _⟩ => ⟨S262144, .f32⟩
  | .local _ .vmem, ⟨9, _⟩ => ⟨S262144, .f32⟩
  | .local _ .vmem, ⟨10, _⟩ => ⟨S262144, .f32⟩
  | .local _ .vmem, ⟨11, _⟩ => ⟨S262144, .f32⟩
  | .local _ .vmem, ⟨12, _⟩ => ⟨S262144, .f32⟩
  | .local _ .vmem, ⟨13, _⟩ => ⟨S262144, .f32⟩
  | .local _ .vmem, ⟨14, _⟩ => ⟨S262144, .f32⟩
  | .local _ .vmem, ⟨15, _⟩ => ⟨S262144, .f32⟩
  | .local _ .vmem, ⟨16, _⟩ => ⟨S262144, .f32⟩
  | .local _ .vmem, ⟨17, _⟩ => ⟨S262144, .f32⟩
  | .local _ .vmem, ⟨18, _⟩ => ⟨S1x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_c_6 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_7 : Ref sig .tc := ⟨.hbm, 37, rfl⟩
abbrev main_call1_v0 : Ref sig .tc := ⟨.hbm, 38, rfl⟩
abbrev main_v20 : Ref sig .tc := ⟨.hbm, 39, rfl⟩
abbrev main_c_8 : Ref sig .tc := ⟨.hbm, 40, rfl⟩
abbrev main_call2_v0 : Ref sig .tc := ⟨.hbm, 41, rfl⟩
abbrev main_v21 : Ref sig .tc := ⟨.hbm, 42, rfl⟩
abbrev main_c_9 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_14 : Ref sig .tc := ⟨.hbm, 66, rfl⟩
abbrev main_v40 : Ref sig .tc := ⟨.hbm, 67, rfl⟩
abbrev main_v41 : Ref sig .tc := ⟨.hbm, 68, rfl⟩
abbrev main_c_15 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_16 : Ref sig .tc := ⟨.hbm, 73, rfl⟩
abbrev main_c_17 : Ref sig .tc := ⟨.hbm, 74, rfl⟩
abbrev main_call3_v0 : Ref sig .tc := ⟨.hbm, 75, rfl⟩
abbrev main_call3_v1 : Ref sig .tc := ⟨.hbm, 76, rfl⟩
abbrev main_v45 : Ref sig .tc := ⟨.hbm, 77, rfl⟩
abbrev main_c_18 : Ref sig .tc := ⟨.hbm, 78, rfl⟩
abbrev main_call4_v0 : Ref sig .tc := ⟨.hbm, 79, rfl⟩
abbrev main_v46 : Ref sig .tc := ⟨.hbm, 80, rfl⟩
abbrev main_c_19 : Ref sig .tc := ⟨.hbm, 81, rfl⟩
abbrev main_call5_v0 : Ref sig .tc := ⟨.hbm, 82, rfl⟩
abbrev main_v47 : Ref sig .tc := ⟨.hbm, 83, rfl⟩
abbrev main_c_20 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_21 : Ref sig .tc := ⟨.hbm, 93, rfl⟩
abbrev main_v56 : Ref sig .tc := ⟨.hbm, 94, rfl⟩
abbrev main_v57 : Ref sig .tc := ⟨.hbm, 95, rfl⟩
abbrev main_c_22 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_23 : Ref sig .tc := ⟨.hbm, 100, rfl⟩
abbrev main_v61 : Ref sig .tc := ⟨.hbm, 101, rfl⟩
abbrev main_v62 : Ref sig .tc := ⟨.hbm, 102, rfl⟩
abbrev main_c_24 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_25 : Ref sig .tc := ⟨.hbm, 107, rfl⟩
abbrev main_v66 : Ref sig .tc := ⟨.hbm, 108, rfl⟩
abbrev main_v67 : Ref sig .tc := ⟨.hbm, 109, rfl⟩
abbrev main_c_26 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_27 : Ref sig .tc := ⟨.hbm, 114, rfl⟩
abbrev main_c_28 : Ref sig .tc := ⟨.hbm, 115, rfl⟩
abbrev main_call6_v0 : Ref sig .tc := ⟨.hbm, 116, rfl⟩
abbrev main_call6_v1 : Ref sig .tc := ⟨.hbm, 117, rfl⟩
abbrev main_v71 : Ref sig .tc := ⟨.hbm, 118, rfl⟩
abbrev main_c_29 : Ref sig .tc := ⟨.hbm, 119, rfl⟩
abbrev main_call7_v0 : Ref sig .tc := ⟨.hbm, 120, rfl⟩
abbrev main_v72 : Ref sig .tc := ⟨.hbm, 121, rfl⟩
abbrev main_c_30 : Ref sig .tc := ⟨.hbm, 122, rfl⟩
abbrev main_call8_v0 : Ref sig .tc := ⟨.hbm, 123, rfl⟩
abbrev main_v73 : Ref sig .tc := ⟨.hbm, 124, rfl⟩
abbrev main_c_31 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_c_32 : Ref sig .tc := ⟨.hbm, 145, rfl⟩
abbrev main_v93 : Ref sig .tc := ⟨.hbm, 146, rfl⟩
abbrev main_v94 : Ref sig .tc := ⟨.hbm, 147, rfl⟩
abbrev main_c_33 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_c_34 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_c_35 : Ref sig .tc := ⟨.hbm, 157, rfl⟩
abbrev main_call9_v0 : Ref sig .tc := ⟨.hbm, 158, rfl⟩
abbrev main_call9_v1 : Ref sig .tc := ⟨.hbm, 159, rfl⟩
abbrev main_v102 : Ref sig .tc := ⟨.hbm, 160, rfl⟩
abbrev main_c_36 : Ref sig .tc := ⟨.hbm, 161, rfl⟩
abbrev main_v103 : Ref sig .tc := ⟨.hbm, 162, rfl⟩
abbrev main_v104 : Ref sig .tc := ⟨.hbm, 163, rfl⟩
abbrev main_c_37 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_38 : Ref sig .tc := ⟨.hbm, 169, rfl⟩
abbrev main_call10_v0 : Ref sig .tc := ⟨.hbm, 170, rfl⟩
abbrev main_call10_v1 : Ref sig .tc := ⟨.hbm, 171, rfl⟩
abbrev main_v109 : Ref sig .tc := ⟨.hbm, 172, rfl⟩
abbrev main_c_39 : Ref sig .tc := ⟨.hbm, 173, rfl⟩
abbrev main_v110 : Ref sig .tc := ⟨.hbm, 174, rfl⟩
abbrev main_c_40 : Ref sig .tc := ⟨.hbm, 175, rfl⟩
abbrev main_v111 : Ref sig .tc := ⟨.hbm, 176, rfl⟩
abbrev main_c_41 : Ref sig .tc := ⟨.hbm, 177, rfl⟩
abbrev main_call11_v0 : Ref sig .tc := ⟨.hbm, 178, rfl⟩
abbrev main_v112 : Ref sig .tc := ⟨.hbm, 179, rfl⟩
abbrev main_c_42 : Ref sig .tc := ⟨.hbm, 180, rfl⟩
abbrev main_v113 : Ref sig .tc := ⟨.hbm, 181, rfl⟩
abbrev main_c_43 : Ref sig .tc := ⟨.hbm, 182, rfl⟩
abbrev main_call12_v0 : Ref sig .tc := ⟨.hbm, 183, rfl⟩
abbrev main_v114 : Ref sig .tc := ⟨.hbm, 184, rfl⟩
abbrev main_c_44 : Ref sig .tc := ⟨.hbm, 185, rfl⟩
abbrev main_v115 : Ref sig .tc := ⟨.hbm, 186, rfl⟩
abbrev main_c_45 : Ref sig .tc := ⟨.hbm, 187, rfl⟩
abbrev main_v116 : Ref sig .tc := ⟨.hbm, 188, rfl⟩
abbrev main_v117 : Ref sig .tc := ⟨.hbm, 189, rfl⟩
abbrev main_c_46 : Ref sig .tc := ⟨.hbm, 190, rfl⟩
abbrev main_c_47 : Ref sig .tc := ⟨.hbm, 191, rfl⟩
abbrev main_v118 : Ref sig .tc := ⟨.hbm, 192, rfl⟩
abbrev main_c_48 : Ref sig .tc := ⟨.hbm, 193, rfl⟩
abbrev main_c_49 : Ref sig .tc := ⟨.hbm, 194, rfl⟩
abbrev main_v119 : Ref sig .tc := ⟨.hbm, 195, rfl⟩
abbrev main_c_50 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_c_51 : Ref sig .tc := ⟨.hbm, 200, rfl⟩
abbrev main_v123 : Ref sig .tc := ⟨.hbm, 201, rfl⟩
abbrev main_c_52 : Ref sig .tc := ⟨.hbm, 202, rfl⟩
abbrev main_v124 : Ref sig .tc := ⟨.hbm, 203, rfl⟩
abbrev main_v125 : Ref sig .tc := ⟨.hbm, 204, rfl⟩
abbrev main_c_53 : Ref sig .tc := ⟨.hbm, 205, rfl⟩
abbrev main_c_54 : Ref sig .tc := ⟨.hbm, 206, rfl⟩
abbrev main_v126 : Ref sig .tc := ⟨.hbm, 207, rfl⟩
abbrev main_c_55 : Ref sig .tc := ⟨.hbm, 208, rfl⟩
abbrev main_c_56 : Ref sig .tc := ⟨.hbm, 209, rfl⟩
abbrev main_v127 : Ref sig .tc := ⟨.hbm, 210, rfl⟩
abbrev main_c_57 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_c_58 : Ref sig .tc := ⟨.hbm, 216, rfl⟩
abbrev main_v132 : Ref sig .tc := ⟨.hbm, 217, rfl⟩
abbrev main_c_59 : Ref sig .tc := ⟨.hbm, 218, rfl⟩
abbrev main_v133 : Ref sig .tc := ⟨.hbm, 219, rfl⟩
abbrev main_v134 : Ref sig .tc := ⟨.hbm, 220, rfl⟩
abbrev main_c_60 : Ref sig .tc := ⟨.hbm, 221, rfl⟩
abbrev main_c_61 : Ref sig .tc := ⟨.hbm, 222, rfl⟩
abbrev main_v135 : Ref sig .tc := ⟨.hbm, 223, rfl⟩
abbrev main_c_62 : Ref sig .tc := ⟨.hbm, 224, rfl⟩
abbrev main_c_63 : Ref sig .tc := ⟨.hbm, 225, rfl⟩
abbrev main_v136 : Ref sig .tc := ⟨.hbm, 226, rfl⟩
abbrev main_c_64 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_cst : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_cst_65 : Ref sig .tc := ⟨.hbm, 242, rfl⟩
abbrev main_v150 : Ref sig .tc := ⟨.hbm, 243, rfl⟩
abbrev main_c_66 : Ref sig .tc := ⟨.hbm, 244, rfl⟩
abbrev main_v151 : Ref sig .tc := ⟨.hbm, 245, rfl⟩
abbrev main_cst_67 : Ref sig .tc := ⟨.hbm, 246, rfl⟩
abbrev main_v152 : Ref sig .tc := ⟨.hbm, 247, rfl⟩
abbrev main_v153 : Ref sig .tc := ⟨.hbm, 248, rfl⟩
abbrev main_c_68 : Ref sig .tc := ⟨.hbm, 249, rfl⟩
abbrev main_v154 : Ref sig .tc := ⟨.hbm, 250, rfl⟩
abbrev main_v155 : Ref sig .tc := ⟨.hbm, 251, rfl⟩
abbrev main_c_69 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_c_70 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_c_71 : Ref sig .tc := ⟨.hbm, 261, rfl⟩
abbrev main_call15_v0 : Ref sig .tc := ⟨.hbm, 262, rfl⟩
abbrev main_call15_v1 : Ref sig .tc := ⟨.hbm, 263, rfl⟩
abbrev main_v163 : Ref sig .tc := ⟨.hbm, 264, rfl⟩
abbrev main_c_72 : Ref sig .tc := ⟨.hbm, 265, rfl⟩
abbrev main_v164 : Ref sig .tc := ⟨.hbm, 266, rfl⟩
abbrev main_v165 : Ref sig .tc := ⟨.hbm, 267, rfl⟩
abbrev main_c_73 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_c_74 : Ref sig .tc := ⟨.hbm, 273, rfl⟩
abbrev main_call16_v0 : Ref sig .tc := ⟨.hbm, 274, rfl⟩
abbrev main_call16_v1 : Ref sig .tc := ⟨.hbm, 275, rfl⟩
abbrev main_v170 : Ref sig .tc := ⟨.hbm, 276, rfl⟩
abbrev main_c_75 : Ref sig .tc := ⟨.hbm, 277, rfl⟩
abbrev main_v171 : Ref sig .tc := ⟨.hbm, 278, rfl⟩
abbrev main_c_76 : Ref sig .tc := ⟨.hbm, 279, rfl⟩
abbrev main_v172 : Ref sig .tc := ⟨.hbm, 280, rfl⟩
abbrev main_c_77 : Ref sig .tc := ⟨.hbm, 281, rfl⟩
abbrev main_call17_v0 : Ref sig .tc := ⟨.hbm, 282, rfl⟩
abbrev main_v173 : Ref sig .tc := ⟨.hbm, 283, rfl⟩
abbrev main_c_78 : Ref sig .tc := ⟨.hbm, 284, rfl⟩
abbrev main_v174 : Ref sig .tc := ⟨.hbm, 285, rfl⟩
abbrev main_c_79 : Ref sig .tc := ⟨.hbm, 286, rfl⟩
abbrev main_call18_v0 : Ref sig .tc := ⟨.hbm, 287, rfl⟩
abbrev main_v175 : Ref sig .tc := ⟨.hbm, 288, rfl⟩
abbrev main_c_80 : Ref sig .tc := ⟨.hbm, 289, rfl⟩
abbrev main_v176 : Ref sig .tc := ⟨.hbm, 290, rfl⟩
abbrev main_c_81 : Ref sig .tc := ⟨.hbm, 291, rfl⟩
abbrev main_v177 : Ref sig .tc := ⟨.hbm, 292, rfl⟩
abbrev main_v178 : Ref sig .tc := ⟨.hbm, 293, rfl⟩
abbrev main_c_82 : Ref sig .tc := ⟨.hbm, 294, rfl⟩
abbrev main_c_83 : Ref sig .tc := ⟨.hbm, 295, rfl⟩
abbrev main_v179 : Ref sig .tc := ⟨.hbm, 296, rfl⟩
abbrev main_c_84 : Ref sig .tc := ⟨.hbm, 297, rfl⟩
abbrev main_c_85 : Ref sig .tc := ⟨.hbm, 298, rfl⟩
abbrev main_v180 : Ref sig .tc := ⟨.hbm, 299, rfl⟩
abbrev main_c_86 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_c_87 : Ref sig .tc := ⟨.hbm, 304, rfl⟩
abbrev main_v184 : Ref sig .tc := ⟨.hbm, 305, rfl⟩
abbrev main_c_88 : Ref sig .tc := ⟨.hbm, 306, rfl⟩
abbrev main_v185 : Ref sig .tc := ⟨.hbm, 307, rfl⟩
abbrev main_v186 : Ref sig .tc := ⟨.hbm, 308, rfl⟩
abbrev main_c_89 : Ref sig .tc := ⟨.hbm, 309, rfl⟩
abbrev main_c_90 : Ref sig .tc := ⟨.hbm, 310, rfl⟩
abbrev main_v187 : Ref sig .tc := ⟨.hbm, 311, rfl⟩
abbrev main_c_91 : Ref sig .tc := ⟨.hbm, 312, rfl⟩
abbrev main_c_92 : Ref sig .tc := ⟨.hbm, 313, rfl⟩
abbrev main_v188 : Ref sig .tc := ⟨.hbm, 314, rfl⟩
abbrev main_c_93 : Ref sig .tc := ⟨.hbm, 315, rfl⟩
abbrev main_v189 : Ref sig .tc := ⟨.hbm, 316, rfl⟩
abbrev main_v190 : Ref sig .tc := ⟨.hbm, 317, rfl⟩
abbrev main_v191 : Ref sig .tc := ⟨.hbm, 318, rfl⟩
abbrev main_v192 : Ref sig .tc := ⟨.hbm, 319, rfl⟩
abbrev main_c_94 : Ref sig .tc := ⟨.hbm, 320, rfl⟩
abbrev main_v193 : Ref sig .tc := ⟨.hbm, 321, rfl⟩
abbrev main_c_95 : Ref sig .tc := ⟨.hbm, 322, rfl⟩
abbrev main_v194 : Ref sig .tc := ⟨.hbm, 323, rfl⟩
abbrev main_v195 : Ref sig .tc := ⟨.hbm, 324, rfl⟩
abbrev main_c_96 : Ref sig .tc := ⟨.hbm, 325, rfl⟩
abbrev main_c_97 : Ref sig .tc := ⟨.hbm, 326, rfl⟩
abbrev main_v196 : Ref sig .tc := ⟨.hbm, 327, rfl⟩
abbrev main_c_98 : Ref sig .tc := ⟨.hbm, 328, rfl⟩
abbrev main_c_99 : Ref sig .tc := ⟨.hbm, 329, rfl⟩
abbrev main_v197 : Ref sig .tc := ⟨.hbm, 330, rfl⟩
abbrev main_c_100 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_cst_101 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_102 : Ref sig .tc := ⟨.hbm, 346, rfl⟩
abbrev main_v211 : Ref sig .tc := ⟨.hbm, 347, rfl⟩
abbrev main_c_103 : Ref sig .tc := ⟨.hbm, 348, rfl⟩
abbrev main_v212 : Ref sig .tc := ⟨.hbm, 349, rfl⟩
abbrev main_cst_104 : Ref sig .tc := ⟨.hbm, 350, rfl⟩
abbrev main_v213 : Ref sig .tc := ⟨.hbm, 351, rfl⟩
abbrev main_v214 : Ref sig .tc := ⟨.hbm, 352, rfl⟩
abbrev main_c_105 : Ref sig .tc := ⟨.hbm, 353, rfl⟩
abbrev main_v215 : Ref sig .tc := ⟨.hbm, 354, rfl⟩
abbrev main_v216 : Ref sig .tc := ⟨.hbm, 355, rfl⟩
abbrev main_c_106 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_c_107 : Ref sig .tc := ⟨.hbm, 360, rfl⟩
abbrev main_v220 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_c_108 : Ref sig .tc := ⟨.hbm, 365, rfl⟩
abbrev main_call21_v0 : Ref sig .tc := ⟨.hbm, 366, rfl⟩
abbrev main_call21_v1 : Ref sig .tc := ⟨.hbm, 367, rfl⟩
abbrev main_v224 : Ref sig .tc := ⟨.hbm, 368, rfl⟩
abbrev main_c_109 : Ref sig .tc := ⟨.hbm, 369, rfl⟩
abbrev main_v225 : Ref sig .tc := ⟨.hbm, 370, rfl⟩
abbrev main_v226 : Ref sig .tc := ⟨.hbm, 371, rfl⟩
abbrev main_c_110 : Ref sig .tc := ⟨.hbm, 372, rfl⟩
abbrev main_v227 : Ref sig .tc := ⟨.hbm, 373, rfl⟩
abbrev main_v228 : Ref sig .tc := ⟨.hbm, 374, rfl⟩
abbrev main_v229 : Ref sig .tc := ⟨.hbm, 375, rfl⟩
abbrev main_v230 : Ref sig .tc := ⟨.hbm, 376, rfl⟩
abbrev main_c_111 : Ref sig .tc := ⟨.hbm, 377, rfl⟩
abbrev main_call22_v0 : Ref sig .tc := ⟨.hbm, 378, rfl⟩
abbrev main_call22_v1 : Ref sig .tc := ⟨.hbm, 379, rfl⟩
abbrev main_v231 : Ref sig .tc := ⟨.hbm, 380, rfl⟩
abbrev main_c_112 : Ref sig .tc := ⟨.hbm, 381, rfl⟩
abbrev main_v232 : Ref sig .tc := ⟨.hbm, 382, rfl⟩
abbrev main_c_113 : Ref sig .tc := ⟨.hbm, 383, rfl⟩
abbrev main_v233 : Ref sig .tc := ⟨.hbm, 384, rfl⟩
abbrev main_c_114 : Ref sig .tc := ⟨.hbm, 385, rfl⟩
abbrev main_call23_v0 : Ref sig .tc := ⟨.hbm, 386, rfl⟩
abbrev main_v234 : Ref sig .tc := ⟨.hbm, 387, rfl⟩
abbrev main_c_115 : Ref sig .tc := ⟨.hbm, 388, rfl⟩
abbrev main_v235 : Ref sig .tc := ⟨.hbm, 389, rfl⟩
abbrev main_c_116 : Ref sig .tc := ⟨.hbm, 390, rfl⟩
abbrev main_call24_v0 : Ref sig .tc := ⟨.hbm, 391, rfl⟩
abbrev main_v236 : Ref sig .tc := ⟨.hbm, 392, rfl⟩
abbrev main_c_117 : Ref sig .tc := ⟨.hbm, 393, rfl⟩
abbrev main_v237 : Ref sig .tc := ⟨.hbm, 394, rfl⟩
abbrev main_c_118 : Ref sig .tc := ⟨.hbm, 395, rfl⟩
abbrev main_v238 : Ref sig .tc := ⟨.hbm, 396, rfl⟩
abbrev main_v239 : Ref sig .tc := ⟨.hbm, 397, rfl⟩
abbrev main_c_119 : Ref sig .tc := ⟨.hbm, 398, rfl⟩
abbrev main_c_120 : Ref sig .tc := ⟨.hbm, 399, rfl⟩
abbrev main_v240 : Ref sig .tc := ⟨.hbm, 400, rfl⟩
abbrev main_c_121 : Ref sig .tc := ⟨.hbm, 401, rfl⟩
abbrev main_c_122 : Ref sig .tc := ⟨.hbm, 402, rfl⟩
abbrev main_v241 : Ref sig .tc := ⟨.hbm, 403, rfl⟩
abbrev main_c_123 : Ref sig .tc := ⟨.hbm, 404, rfl⟩
abbrev main_v242 : Ref sig .tc := ⟨.hbm, 405, rfl⟩
abbrev main_v243 : Ref sig .tc := ⟨.hbm, 406, rfl⟩
abbrev main_v244 : Ref sig .tc := ⟨.hbm, 407, rfl⟩
abbrev main_c_124 : Ref sig .tc := ⟨.hbm, 408, rfl⟩
abbrev main_v245 : Ref sig .tc := ⟨.hbm, 409, rfl⟩
abbrev main_c_125 : Ref sig .tc := ⟨.hbm, 410, rfl⟩
abbrev main_v246 : Ref sig .tc := ⟨.hbm, 411, rfl⟩
abbrev main_v247 : Ref sig .tc := ⟨.hbm, 412, rfl⟩
abbrev main_c_126 : Ref sig .tc := ⟨.hbm, 413, rfl⟩
abbrev main_c_127 : Ref sig .tc := ⟨.hbm, 414, rfl⟩
abbrev main_v248 : Ref sig .tc := ⟨.hbm, 415, rfl⟩
abbrev main_c_128 : Ref sig .tc := ⟨.hbm, 416, rfl⟩
abbrev main_c_129 : Ref sig .tc := ⟨.hbm, 417, rfl⟩
abbrev main_v249 : Ref sig .tc := ⟨.hbm, 418, rfl⟩
abbrev main_c_130 : Ref sig .tc := ⟨.hbm, 419, rfl⟩
abbrev main_v250 : Ref sig .tc := ⟨.hbm, 420, rfl⟩
abbrev main_v251 : Ref sig .tc := ⟨.hbm, 421, rfl⟩
abbrev main_v252 : Ref sig .tc := ⟨.hbm, 422, rfl⟩
abbrev main_v253 : Ref sig .tc := ⟨.hbm, 423, rfl⟩
abbrev main_c_131 : Ref sig .tc := ⟨.hbm, 424, rfl⟩
abbrev main_v254 : Ref sig .tc := ⟨.hbm, 425, rfl⟩
abbrev main_c_132 : Ref sig .tc := ⟨.hbm, 426, rfl⟩
abbrev main_v255 : Ref sig .tc := ⟨.hbm, 427, rfl⟩
abbrev main_v256 : Ref sig .tc := ⟨.hbm, 428, rfl⟩
abbrev main_c_133 : Ref sig .tc := ⟨.hbm, 429, rfl⟩
abbrev main_c_134 : Ref sig .tc := ⟨.hbm, 430, rfl⟩
abbrev main_v257 : Ref sig .tc := ⟨.hbm, 431, rfl⟩
abbrev main_c_135 : Ref sig .tc := ⟨.hbm, 432, rfl⟩
abbrev main_c_136 : Ref sig .tc := ⟨.hbm, 433, rfl⟩
abbrev main_v258 : Ref sig .tc := ⟨.hbm, 434, rfl⟩
abbrev main_c_137 : Ref sig .tc := ⟨.hbm, 435, rfl⟩
abbrev main_v259 : Ref sig .tc := ⟨.hbm, 436, rfl⟩
abbrev main_v260 : Ref sig .tc := ⟨.hbm, 437, rfl⟩
abbrev main_v261 : Ref sig .tc := ⟨.hbm, 438, rfl⟩
abbrev main_cst_138 : Ref sig .tc := ⟨.hbm, 439, rfl⟩
abbrev main_v262 : Ref sig .tc := ⟨.hbm, 440, rfl⟩
abbrev main_v263 : Ref sig .tc := ⟨.hbm, 441, rfl⟩
abbrev main_v264 : Ref sig .tc := ⟨.hbm, 442, rfl⟩
abbrev main_v265 : Ref sig .tc := ⟨.hbm, 443, rfl⟩
abbrev main_v266 : Ref sig .tc := ⟨.hbm, 444, rfl⟩
abbrev main_v267 : Ref sig .tc := ⟨.hbm, 445, rfl⟩
abbrev main_v268 : Ref sig .tc := ⟨.hbm, 446, rfl⟩
abbrev main_v269 : Ref sig .tc := ⟨.hbm, 447, rfl⟩
abbrev main_v270 : Ref sig .tc := ⟨.hbm, 448, rfl⟩
abbrev main_v271 : Ref sig .tc := ⟨.hbm, 449, rfl⟩
abbrev main_cst_139 : Ref sig .tc := ⟨.hbm, 450, rfl⟩
abbrev main_v272 : Ref sig .tc := ⟨.hbm, 451, rfl⟩
abbrev main_c_140 : Ref sig .tc := ⟨.hbm, 452, rfl⟩
abbrev main_v273 : Ref sig .tc := ⟨.hbm, 453, rfl⟩
abbrev main_cst_141 : Ref sig .tc := ⟨.hbm, 454, rfl⟩
abbrev main_v274 : Ref sig .tc := ⟨.hbm, 455, rfl⟩
abbrev main_v275 : Ref sig .tc := ⟨.hbm, 456, rfl⟩
abbrev main_c_142 : Ref sig .tc := ⟨.hbm, 457, rfl⟩
abbrev main_v276 : Ref sig .tc := ⟨.hbm, 458, rfl⟩
abbrev main_v277 : Ref sig .tc := ⟨.hbm, 459, rfl⟩
abbrev main_c_143 : Ref sig .tc := ⟨.hbm, 460, rfl⟩
abbrev main_v278 : Ref sig .tc := ⟨.hbm, 461, rfl⟩
abbrev main_v279 : Ref sig .tc := ⟨.hbm, 462, rfl⟩
abbrev main_v280 : Ref sig .tc := ⟨.hbm, 463, rfl⟩
abbrev main_c_144 : Ref sig .tc := ⟨.hbm, 464, rfl⟩
abbrev main_v281 : Ref sig .tc := ⟨.hbm, 465, rfl⟩
abbrev main_v282 : Ref sig .tc := ⟨.hbm, 466, rfl⟩
abbrev main_v283 : Ref sig .tc := ⟨.hbm, 467, rfl⟩
abbrev main_v284 : Ref sig .tc := ⟨.hbm, 468, rfl⟩
abbrev main_c_145 : Ref sig .tc := ⟨.hbm, 469, rfl⟩
abbrev main_call27_v0 : Ref sig .tc := ⟨.hbm, 470, rfl⟩
abbrev main_call27_v1 : Ref sig .tc := ⟨.hbm, 471, rfl⟩
abbrev main_v285 : Ref sig .tc := ⟨.hbm, 472, rfl⟩
abbrev main_c_146 : Ref sig .tc := ⟨.hbm, 473, rfl⟩
abbrev main_v286 : Ref sig .tc := ⟨.hbm, 474, rfl⟩
abbrev main_v287 : Ref sig .tc := ⟨.hbm, 475, rfl⟩
abbrev main_c_147 : Ref sig .tc := ⟨.hbm, 476, rfl⟩
abbrev main_v288 : Ref sig .tc := ⟨.hbm, 477, rfl⟩
abbrev main_v289 : Ref sig .tc := ⟨.hbm, 478, rfl⟩
abbrev main_v290 : Ref sig .tc := ⟨.hbm, 479, rfl⟩
abbrev main_v291 : Ref sig .tc := ⟨.hbm, 480, rfl⟩
abbrev main_c_148 : Ref sig .tc := ⟨.hbm, 481, rfl⟩
abbrev main_call28_v0 : Ref sig .tc := ⟨.hbm, 482, rfl⟩
abbrev main_call28_v1 : Ref sig .tc := ⟨.hbm, 483, rfl⟩
abbrev main_v292 : Ref sig .tc := ⟨.hbm, 484, rfl⟩
abbrev main_c_149 : Ref sig .tc := ⟨.hbm, 485, rfl⟩
abbrev main_v293 : Ref sig .tc := ⟨.hbm, 486, rfl⟩
abbrev main_c_150 : Ref sig .tc := ⟨.hbm, 487, rfl⟩
abbrev main_v294 : Ref sig .tc := ⟨.hbm, 488, rfl⟩
abbrev main_c_151 : Ref sig .tc := ⟨.hbm, 489, rfl⟩
abbrev main_call29_v0 : Ref sig .tc := ⟨.hbm, 490, rfl⟩
abbrev main_v295 : Ref sig .tc := ⟨.hbm, 491, rfl⟩
abbrev main_c_152 : Ref sig .tc := ⟨.hbm, 492, rfl⟩
abbrev main_v296 : Ref sig .tc := ⟨.hbm, 493, rfl⟩
abbrev main_c_153 : Ref sig .tc := ⟨.hbm, 494, rfl⟩
abbrev main_call30_v0 : Ref sig .tc := ⟨.hbm, 495, rfl⟩
abbrev main_v297 : Ref sig .tc := ⟨.hbm, 496, rfl⟩
abbrev main_c_154 : Ref sig .tc := ⟨.hbm, 497, rfl⟩
abbrev main_v298 : Ref sig .tc := ⟨.hbm, 498, rfl⟩
abbrev main_c_155 : Ref sig .tc := ⟨.hbm, 499, rfl⟩
abbrev main_v299 : Ref sig .tc := ⟨.hbm, 500, rfl⟩
abbrev main_v300 : Ref sig .tc := ⟨.hbm, 501, rfl⟩
abbrev main_c_156 : Ref sig .tc := ⟨.hbm, 502, rfl⟩
abbrev main_c_157 : Ref sig .tc := ⟨.hbm, 503, rfl⟩
abbrev main_v301 : Ref sig .tc := ⟨.hbm, 504, rfl⟩
abbrev main_c_158 : Ref sig .tc := ⟨.hbm, 505, rfl⟩
abbrev main_c_159 : Ref sig .tc := ⟨.hbm, 506, rfl⟩
abbrev main_v302 : Ref sig .tc := ⟨.hbm, 507, rfl⟩
abbrev main_c_160 : Ref sig .tc := ⟨.hbm, 508, rfl⟩
abbrev main_v303 : Ref sig .tc := ⟨.hbm, 509, rfl⟩
abbrev main_v304 : Ref sig .tc := ⟨.hbm, 510, rfl⟩
abbrev main_v305 : Ref sig .tc := ⟨.hbm, 511, rfl⟩
abbrev main_c_161 : Ref sig .tc := ⟨.hbm, 512, rfl⟩
abbrev main_v306 : Ref sig .tc := ⟨.hbm, 513, rfl⟩
abbrev main_c_162 : Ref sig .tc := ⟨.hbm, 514, rfl⟩
abbrev main_v307 : Ref sig .tc := ⟨.hbm, 515, rfl⟩
abbrev main_v308 : Ref sig .tc := ⟨.hbm, 516, rfl⟩
abbrev main_c_163 : Ref sig .tc := ⟨.hbm, 517, rfl⟩
abbrev main_c_164 : Ref sig .tc := ⟨.hbm, 518, rfl⟩
abbrev main_v309 : Ref sig .tc := ⟨.hbm, 519, rfl⟩
abbrev main_c_165 : Ref sig .tc := ⟨.hbm, 520, rfl⟩
abbrev main_c_166 : Ref sig .tc := ⟨.hbm, 521, rfl⟩
abbrev main_v310 : Ref sig .tc := ⟨.hbm, 522, rfl⟩
abbrev main_c_167 : Ref sig .tc := ⟨.hbm, 523, rfl⟩
abbrev main_v311 : Ref sig .tc := ⟨.hbm, 524, rfl⟩
abbrev main_v312 : Ref sig .tc := ⟨.hbm, 525, rfl⟩
abbrev main_v313 : Ref sig .tc := ⟨.hbm, 526, rfl⟩
abbrev main_v314 : Ref sig .tc := ⟨.hbm, 527, rfl⟩
abbrev main_c_168 : Ref sig .tc := ⟨.hbm, 528, rfl⟩
abbrev main_v315 : Ref sig .tc := ⟨.hbm, 529, rfl⟩
abbrev main_c_169 : Ref sig .tc := ⟨.hbm, 530, rfl⟩
abbrev main_v316 : Ref sig .tc := ⟨.hbm, 531, rfl⟩
abbrev main_v317 : Ref sig .tc := ⟨.hbm, 532, rfl⟩
abbrev main_c_170 : Ref sig .tc := ⟨.hbm, 533, rfl⟩
abbrev main_c_171 : Ref sig .tc := ⟨.hbm, 534, rfl⟩
abbrev main_v318 : Ref sig .tc := ⟨.hbm, 535, rfl⟩
abbrev main_c_172 : Ref sig .tc := ⟨.hbm, 536, rfl⟩
abbrev main_c_173 : Ref sig .tc := ⟨.hbm, 537, rfl⟩
abbrev main_v319 : Ref sig .tc := ⟨.hbm, 538, rfl⟩
abbrev main_c_174 : Ref sig .tc := ⟨.hbm, 539, rfl⟩
abbrev main_v320 : Ref sig .tc := ⟨.hbm, 540, rfl⟩
abbrev main_v321 : Ref sig .tc := ⟨.hbm, 541, rfl⟩
abbrev main_v322 : Ref sig .tc := ⟨.hbm, 542, rfl⟩
abbrev main_cst_175 : Ref sig .tc := ⟨.hbm, 543, rfl⟩
abbrev main_v323 : Ref sig .tc := ⟨.hbm, 544, rfl⟩
abbrev main_v324 : Ref sig .tc := ⟨.hbm, 545, rfl⟩
abbrev main_v325 : Ref sig .tc := ⟨.hbm, 546, rfl⟩
abbrev main_v326 : Ref sig .tc := ⟨.hbm, 547, rfl⟩
abbrev main_v327 : Ref sig .tc := ⟨.hbm, 548, rfl⟩
abbrev main_v328 : Ref sig .tc := ⟨.hbm, 549, rfl⟩
abbrev main_v329 : Ref sig .tc := ⟨.hbm, 550, rfl⟩
abbrev main_v330 : Ref sig .tc := ⟨.hbm, 551, rfl⟩
abbrev main_v331 : Ref sig .tc := ⟨.hbm, 552, rfl⟩
abbrev main_v332 : Ref sig .tc := ⟨.hbm, 553, rfl⟩
abbrev main_cst_176 : Ref sig .tc := ⟨.hbm, 554, rfl⟩
abbrev main_v333 : Ref sig .tc := ⟨.hbm, 555, rfl⟩
abbrev main_c_177 : Ref sig .tc := ⟨.hbm, 556, rfl⟩
abbrev main_v334 : Ref sig .tc := ⟨.hbm, 557, rfl⟩
abbrev main_cst_178 : Ref sig .tc := ⟨.hbm, 558, rfl⟩
abbrev main_v335 : Ref sig .tc := ⟨.hbm, 559, rfl⟩
abbrev main_v336 : Ref sig .tc := ⟨.hbm, 560, rfl⟩
abbrev main_c_179 : Ref sig .tc := ⟨.hbm, 561, rfl⟩
abbrev main_v337 : Ref sig .tc := ⟨.hbm, 562, rfl⟩
abbrev main_v338 : Ref sig .tc := ⟨.hbm, 563, rfl⟩
abbrev main_c_180 : Ref sig .tc := ⟨.hbm, 564, rfl⟩
abbrev main_v339 : Ref sig .tc := ⟨.hbm, 565, rfl⟩
abbrev main_v340 : Ref sig .tc := ⟨.hbm, 566, rfl⟩
abbrev main_v341 : Ref sig .tc := ⟨.hbm, 567, rfl⟩
abbrev main_c_181 : Ref sig .tc := ⟨.hbm, 568, rfl⟩
abbrev main_v342 : Ref sig .tc := ⟨.hbm, 569, rfl⟩
abbrev main_v343 : Ref sig .tc := ⟨.hbm, 570, rfl⟩
abbrev main_v344 : Ref sig .tc := ⟨.hbm, 571, rfl⟩
abbrev main_v345 : Ref sig .tc := ⟨.hbm, 572, rfl⟩
abbrev main_c_182 : Ref sig .tc := ⟨.hbm, 573, rfl⟩
abbrev main_call33_v0 : Ref sig .tc := ⟨.hbm, 574, rfl⟩
abbrev main_call33_v1 : Ref sig .tc := ⟨.hbm, 575, rfl⟩
abbrev main_v346 : Ref sig .tc := ⟨.hbm, 576, rfl⟩
abbrev main_c_183 : Ref sig .tc := ⟨.hbm, 577, rfl⟩
abbrev main_v347 : Ref sig .tc := ⟨.hbm, 578, rfl⟩
abbrev main_v348 : Ref sig .tc := ⟨.hbm, 579, rfl⟩
abbrev main_c_184 : Ref sig .tc := ⟨.hbm, 580, rfl⟩
abbrev main_v349 : Ref sig .tc := ⟨.hbm, 581, rfl⟩
abbrev main_v350 : Ref sig .tc := ⟨.hbm, 582, rfl⟩
abbrev main_v351 : Ref sig .tc := ⟨.hbm, 583, rfl⟩
abbrev main_v352 : Ref sig .tc := ⟨.hbm, 584, rfl⟩
abbrev main_c_185 : Ref sig .tc := ⟨.hbm, 585, rfl⟩
abbrev main_call34_v0 : Ref sig .tc := ⟨.hbm, 586, rfl⟩
abbrev main_call34_v1 : Ref sig .tc := ⟨.hbm, 587, rfl⟩
abbrev main_v353 : Ref sig .tc := ⟨.hbm, 588, rfl⟩
abbrev main_c_186 : Ref sig .tc := ⟨.hbm, 589, rfl⟩
abbrev main_v354 : Ref sig .tc := ⟨.hbm, 590, rfl⟩
abbrev main_c_187 : Ref sig .tc := ⟨.hbm, 591, rfl⟩
abbrev main_v355 : Ref sig .tc := ⟨.hbm, 592, rfl⟩
abbrev main_c_188 : Ref sig .tc := ⟨.hbm, 593, rfl⟩
abbrev main_call35_v0 : Ref sig .tc := ⟨.hbm, 594, rfl⟩
abbrev main_v356 : Ref sig .tc := ⟨.hbm, 595, rfl⟩
abbrev main_c_189 : Ref sig .tc := ⟨.hbm, 596, rfl⟩
abbrev main_v357 : Ref sig .tc := ⟨.hbm, 597, rfl⟩
abbrev main_c_190 : Ref sig .tc := ⟨.hbm, 598, rfl⟩
abbrev main_call36_v0 : Ref sig .tc := ⟨.hbm, 599, rfl⟩
abbrev main_v358 : Ref sig .tc := ⟨.hbm, 600, rfl⟩
abbrev main_c_191 : Ref sig .tc := ⟨.hbm, 601, rfl⟩
abbrev main_v359 : Ref sig .tc := ⟨.hbm, 602, rfl⟩
abbrev main_c_192 : Ref sig .tc := ⟨.hbm, 603, rfl⟩
abbrev main_v360 : Ref sig .tc := ⟨.hbm, 604, rfl⟩
abbrev main_v361 : Ref sig .tc := ⟨.hbm, 605, rfl⟩
abbrev main_c_193 : Ref sig .tc := ⟨.hbm, 606, rfl⟩
abbrev main_c_194 : Ref sig .tc := ⟨.hbm, 607, rfl⟩
abbrev main_v362 : Ref sig .tc := ⟨.hbm, 608, rfl⟩
abbrev main_c_195 : Ref sig .tc := ⟨.hbm, 609, rfl⟩
abbrev main_c_196 : Ref sig .tc := ⟨.hbm, 610, rfl⟩
abbrev main_v363 : Ref sig .tc := ⟨.hbm, 611, rfl⟩
abbrev main_c_197 : Ref sig .tc := ⟨.hbm, 612, rfl⟩
abbrev main_v364 : Ref sig .tc := ⟨.hbm, 613, rfl⟩
abbrev main_v365 : Ref sig .tc := ⟨.hbm, 614, rfl⟩
abbrev main_v366 : Ref sig .tc := ⟨.hbm, 615, rfl⟩
abbrev main_c_198 : Ref sig .tc := ⟨.hbm, 616, rfl⟩
abbrev main_v367 : Ref sig .tc := ⟨.hbm, 617, rfl⟩
abbrev main_c_199 : Ref sig .tc := ⟨.hbm, 618, rfl⟩
abbrev main_v368 : Ref sig .tc := ⟨.hbm, 619, rfl⟩
abbrev main_v369 : Ref sig .tc := ⟨.hbm, 620, rfl⟩
abbrev main_c_200 : Ref sig .tc := ⟨.hbm, 621, rfl⟩
abbrev main_c_201 : Ref sig .tc := ⟨.hbm, 622, rfl⟩
abbrev main_v370 : Ref sig .tc := ⟨.hbm, 623, rfl⟩
abbrev main_c_202 : Ref sig .tc := ⟨.hbm, 624, rfl⟩
abbrev main_c_203 : Ref sig .tc := ⟨.hbm, 625, rfl⟩
abbrev main_v371 : Ref sig .tc := ⟨.hbm, 626, rfl⟩
abbrev main_c_204 : Ref sig .tc := ⟨.hbm, 627, rfl⟩
abbrev main_v372 : Ref sig .tc := ⟨.hbm, 628, rfl⟩
abbrev main_v373 : Ref sig .tc := ⟨.hbm, 629, rfl⟩
abbrev main_v374 : Ref sig .tc := ⟨.hbm, 630, rfl⟩
abbrev main_v375 : Ref sig .tc := ⟨.hbm, 631, rfl⟩
abbrev main_c_205 : Ref sig .tc := ⟨.hbm, 632, rfl⟩
abbrev main_v376 : Ref sig .tc := ⟨.hbm, 633, rfl⟩
abbrev main_c_206 : Ref sig .tc := ⟨.hbm, 634, rfl⟩
abbrev main_v377 : Ref sig .tc := ⟨.hbm, 635, rfl⟩
abbrev main_v378 : Ref sig .tc := ⟨.hbm, 636, rfl⟩
abbrev main_c_207 : Ref sig .tc := ⟨.hbm, 637, rfl⟩
abbrev main_c_208 : Ref sig .tc := ⟨.hbm, 638, rfl⟩
abbrev main_v379 : Ref sig .tc := ⟨.hbm, 639, rfl⟩
abbrev main_c_209 : Ref sig .tc := ⟨.hbm, 640, rfl⟩
abbrev main_c_210 : Ref sig .tc := ⟨.hbm, 641, rfl⟩
abbrev main_v380 : Ref sig .tc := ⟨.hbm, 642, rfl⟩
abbrev main_c_211 : Ref sig .tc := ⟨.hbm, 643, rfl⟩
abbrev main_v381 : Ref sig .tc := ⟨.hbm, 644, rfl⟩
abbrev main_v382 : Ref sig .tc := ⟨.hbm, 645, rfl⟩
abbrev main_v383 : Ref sig .tc := ⟨.hbm, 646, rfl⟩
abbrev main_cst_212 : Ref sig .tc := ⟨.hbm, 647, rfl⟩
abbrev main_v384 : Ref sig .tc := ⟨.hbm, 648, rfl⟩
abbrev main_v385 : Ref sig .tc := ⟨.hbm, 649, rfl⟩
abbrev main_v386 : Ref sig .tc := ⟨.hbm, 650, rfl⟩
abbrev main_v387 : Ref sig .tc := ⟨.hbm, 651, rfl⟩
abbrev main_v388 : Ref sig .tc := ⟨.hbm, 652, rfl⟩
abbrev main_v389 : Ref sig .tc := ⟨.hbm, 653, rfl⟩
abbrev main_v390 : Ref sig .tc := ⟨.hbm, 654, rfl⟩
abbrev main_v391 : Ref sig .tc := ⟨.hbm, 655, rfl⟩
abbrev main_v392 : Ref sig .tc := ⟨.hbm, 656, rfl⟩
abbrev main_v393 : Ref sig .tc := ⟨.hbm, 657, rfl⟩
abbrev main_cst_213 : Ref sig .tc := ⟨.hbm, 658, rfl⟩
abbrev main_v394 : Ref sig .tc := ⟨.hbm, 659, rfl⟩
abbrev main_c_214 : Ref sig .tc := ⟨.hbm, 660, rfl⟩
abbrev main_v395 : Ref sig .tc := ⟨.hbm, 661, rfl⟩
abbrev main_cst_215 : Ref sig .tc := ⟨.hbm, 662, rfl⟩
abbrev main_v396 : Ref sig .tc := ⟨.hbm, 663, rfl⟩
abbrev main_v397 : Ref sig .tc := ⟨.hbm, 664, rfl⟩
abbrev main_c_216 : Ref sig .tc := ⟨.hbm, 665, rfl⟩
abbrev main_v398 : Ref sig .tc := ⟨.hbm, 666, rfl⟩
abbrev main_v399 : Ref sig .tc := ⟨.hbm, 667, rfl⟩
abbrev main_c_217 : Ref sig .tc := ⟨.hbm, 668, rfl⟩
abbrev main_v400 : Ref sig .tc := ⟨.hbm, 669, rfl⟩
abbrev main_v401 : Ref sig .tc := ⟨.hbm, 670, rfl⟩
abbrev main_v402 : Ref sig .tc := ⟨.hbm, 671, rfl⟩
abbrev main_c_218 : Ref sig .tc := ⟨.hbm, 672, rfl⟩
abbrev main_v403 : Ref sig .tc := ⟨.hbm, 673, rfl⟩
abbrev main_v404 : Ref sig .tc := ⟨.hbm, 674, rfl⟩
abbrev main_v405 : Ref sig .tc := ⟨.hbm, 675, rfl⟩
abbrev main_v406 : Ref sig .tc := ⟨.hbm, 676, rfl⟩
abbrev main_c_219 : Ref sig .tc := ⟨.hbm, 677, rfl⟩
abbrev main_call39_v0 : Ref sig .tc := ⟨.hbm, 678, rfl⟩
abbrev main_call39_v1 : Ref sig .tc := ⟨.hbm, 679, rfl⟩
abbrev main_v407 : Ref sig .tc := ⟨.hbm, 680, rfl⟩
abbrev main_c_220 : Ref sig .tc := ⟨.hbm, 681, rfl⟩
abbrev main_v408 : Ref sig .tc := ⟨.hbm, 682, rfl⟩
abbrev main_v409 : Ref sig .tc := ⟨.hbm, 683, rfl⟩
abbrev main_c_221 : Ref sig .tc := ⟨.hbm, 684, rfl⟩
abbrev main_v410 : Ref sig .tc := ⟨.hbm, 685, rfl⟩
abbrev main_v411 : Ref sig .tc := ⟨.hbm, 686, rfl⟩
abbrev main_v412 : Ref sig .tc := ⟨.hbm, 687, rfl⟩
abbrev main_v413 : Ref sig .tc := ⟨.hbm, 688, rfl⟩
abbrev main_c_222 : Ref sig .tc := ⟨.hbm, 689, rfl⟩
abbrev main_call40_v0 : Ref sig .tc := ⟨.hbm, 690, rfl⟩
abbrev main_call40_v1 : Ref sig .tc := ⟨.hbm, 691, rfl⟩
abbrev main_v414 : Ref sig .tc := ⟨.hbm, 692, rfl⟩
abbrev main_c_223 : Ref sig .tc := ⟨.hbm, 693, rfl⟩
abbrev main_v415 : Ref sig .tc := ⟨.hbm, 694, rfl⟩
abbrev main_c_224 : Ref sig .tc := ⟨.hbm, 695, rfl⟩
abbrev main_v416 : Ref sig .tc := ⟨.hbm, 696, rfl⟩
abbrev main_c_225 : Ref sig .tc := ⟨.hbm, 697, rfl⟩
abbrev main_call41_v0 : Ref sig .tc := ⟨.hbm, 698, rfl⟩
abbrev main_v417 : Ref sig .tc := ⟨.hbm, 699, rfl⟩
abbrev main_c_226 : Ref sig .tc := ⟨.hbm, 700, rfl⟩
abbrev main_v418 : Ref sig .tc := ⟨.hbm, 701, rfl⟩
abbrev main_c_227 : Ref sig .tc := ⟨.hbm, 702, rfl⟩
abbrev main_call42_v0 : Ref sig .tc := ⟨.hbm, 703, rfl⟩
abbrev main_v419 : Ref sig .tc := ⟨.hbm, 704, rfl⟩
abbrev main_c_228 : Ref sig .tc := ⟨.hbm, 705, rfl⟩
abbrev main_v420 : Ref sig .tc := ⟨.hbm, 706, rfl⟩
abbrev main_c_229 : Ref sig .tc := ⟨.hbm, 707, rfl⟩
abbrev main_v421 : Ref sig .tc := ⟨.hbm, 708, rfl⟩
abbrev main_v422 : Ref sig .tc := ⟨.hbm, 709, rfl⟩
abbrev main_c_230 : Ref sig .tc := ⟨.hbm, 710, rfl⟩
abbrev main_c_231 : Ref sig .tc := ⟨.hbm, 711, rfl⟩
abbrev main_v423 : Ref sig .tc := ⟨.hbm, 712, rfl⟩
abbrev main_c_232 : Ref sig .tc := ⟨.hbm, 713, rfl⟩
abbrev main_c_233 : Ref sig .tc := ⟨.hbm, 714, rfl⟩
abbrev main_v424 : Ref sig .tc := ⟨.hbm, 715, rfl⟩
abbrev main_c_234 : Ref sig .tc := ⟨.hbm, 716, rfl⟩
abbrev main_v425 : Ref sig .tc := ⟨.hbm, 717, rfl⟩
abbrev main_v426 : Ref sig .tc := ⟨.hbm, 718, rfl⟩
abbrev main_v427 : Ref sig .tc := ⟨.hbm, 719, rfl⟩
abbrev main_c_235 : Ref sig .tc := ⟨.hbm, 720, rfl⟩
abbrev main_v428 : Ref sig .tc := ⟨.hbm, 721, rfl⟩
abbrev main_c_236 : Ref sig .tc := ⟨.hbm, 722, rfl⟩
abbrev main_v429 : Ref sig .tc := ⟨.hbm, 723, rfl⟩
abbrev main_v430 : Ref sig .tc := ⟨.hbm, 724, rfl⟩
abbrev main_c_237 : Ref sig .tc := ⟨.hbm, 725, rfl⟩
abbrev main_c_238 : Ref sig .tc := ⟨.hbm, 726, rfl⟩
abbrev main_v431 : Ref sig .tc := ⟨.hbm, 727, rfl⟩
abbrev main_c_239 : Ref sig .tc := ⟨.hbm, 728, rfl⟩
abbrev main_c_240 : Ref sig .tc := ⟨.hbm, 729, rfl⟩
abbrev main_v432 : Ref sig .tc := ⟨.hbm, 730, rfl⟩
abbrev main_c_241 : Ref sig .tc := ⟨.hbm, 731, rfl⟩
abbrev main_v433 : Ref sig .tc := ⟨.hbm, 732, rfl⟩
abbrev main_v434 : Ref sig .tc := ⟨.hbm, 733, rfl⟩
abbrev main_v435 : Ref sig .tc := ⟨.hbm, 734, rfl⟩
abbrev main_v436 : Ref sig .tc := ⟨.hbm, 735, rfl⟩
abbrev main_c_242 : Ref sig .tc := ⟨.hbm, 736, rfl⟩
abbrev main_v437 : Ref sig .tc := ⟨.hbm, 737, rfl⟩
abbrev main_c_243 : Ref sig .tc := ⟨.hbm, 738, rfl⟩
abbrev main_v438 : Ref sig .tc := ⟨.hbm, 739, rfl⟩
abbrev main_v439 : Ref sig .tc := ⟨.hbm, 740, rfl⟩
abbrev main_c_244 : Ref sig .tc := ⟨.hbm, 741, rfl⟩
abbrev main_c_245 : Ref sig .tc := ⟨.hbm, 742, rfl⟩
abbrev main_v440 : Ref sig .tc := ⟨.hbm, 743, rfl⟩
abbrev main_c_246 : Ref sig .tc := ⟨.hbm, 744, rfl⟩
abbrev main_c_247 : Ref sig .tc := ⟨.hbm, 745, rfl⟩
abbrev main_v441 : Ref sig .tc := ⟨.hbm, 746, rfl⟩
abbrev main_c_248 : Ref sig .tc := ⟨.hbm, 747, rfl⟩
abbrev main_v442 : Ref sig .tc := ⟨.hbm, 748, rfl⟩
abbrev main_v443 : Ref sig .tc := ⟨.hbm, 749, rfl⟩
abbrev main_v444 : Ref sig .tc := ⟨.hbm, 750, rfl⟩
abbrev main_cst_249 : Ref sig .tc := ⟨.hbm, 751, rfl⟩
abbrev main_v445 : Ref sig .tc := ⟨.hbm, 752, rfl⟩
abbrev main_v446 : Ref sig .tc := ⟨.hbm, 753, rfl⟩
abbrev main_v447 : Ref sig .tc := ⟨.hbm, 754, rfl⟩
abbrev main_v448 : Ref sig .tc := ⟨.hbm, 755, rfl⟩
abbrev main_v449 : Ref sig .tc := ⟨.hbm, 756, rfl⟩
abbrev main_v450 : Ref sig .tc := ⟨.hbm, 757, rfl⟩
abbrev main_v451 : Ref sig .tc := ⟨.hbm, 758, rfl⟩
abbrev main_v452 : Ref sig .tc := ⟨.hbm, 759, rfl⟩
abbrev main_v453 : Ref sig .tc := ⟨.hbm, 760, rfl⟩
abbrev main_v454 : Ref sig .tc := ⟨.hbm, 761, rfl⟩
abbrev main_cst_250 : Ref sig .tc := ⟨.hbm, 762, rfl⟩
abbrev main_v455 : Ref sig .tc := ⟨.hbm, 763, rfl⟩
abbrev main_c_251 : Ref sig .tc := ⟨.hbm, 764, rfl⟩
abbrev main_v456 : Ref sig .tc := ⟨.hbm, 765, rfl⟩
abbrev main_cst_252 : Ref sig .tc := ⟨.hbm, 766, rfl⟩
abbrev main_v457 : Ref sig .tc := ⟨.hbm, 767, rfl⟩
abbrev main_v458 : Ref sig .tc := ⟨.hbm, 768, rfl⟩
abbrev main_c_253 : Ref sig .tc := ⟨.hbm, 769, rfl⟩
abbrev main_v459 : Ref sig .tc := ⟨.hbm, 770, rfl⟩
abbrev main_v460 : Ref sig .tc := ⟨.hbm, 771, rfl⟩
abbrev main_c_254 : Ref sig .tc := ⟨.hbm, 772, rfl⟩
abbrev main_v461 : Ref sig .tc := ⟨.hbm, 773, rfl⟩
abbrev main_v462 : Ref sig .tc := ⟨.hbm, 774, rfl⟩
abbrev main_v463 : Ref sig .tc := ⟨.hbm, 775, rfl⟩
abbrev main_c_255 : Ref sig .tc := ⟨.hbm, 776, rfl⟩
abbrev main_v464 : Ref sig .tc := ⟨.hbm, 777, rfl⟩
abbrev main_v465 : Ref sig .tc := ⟨.hbm, 778, rfl⟩
abbrev main_v466 : Ref sig .tc := ⟨.hbm, 779, rfl⟩
abbrev main_v467 : Ref sig .tc := ⟨.hbm, 780, rfl⟩
abbrev main_c_256 : Ref sig .tc := ⟨.hbm, 781, rfl⟩
abbrev main_call45_v0 : Ref sig .tc := ⟨.hbm, 782, rfl⟩
abbrev main_call45_v1 : Ref sig .tc := ⟨.hbm, 783, rfl⟩
abbrev main_v468 : Ref sig .tc := ⟨.hbm, 784, rfl⟩
abbrev main_c_257 : Ref sig .tc := ⟨.hbm, 785, rfl⟩
abbrev main_v469 : Ref sig .tc := ⟨.hbm, 786, rfl⟩
abbrev main_v470 : Ref sig .tc := ⟨.hbm, 787, rfl⟩
abbrev main_c_258 : Ref sig .tc := ⟨.hbm, 788, rfl⟩
abbrev main_v471 : Ref sig .tc := ⟨.hbm, 789, rfl⟩
abbrev main_v472 : Ref sig .tc := ⟨.hbm, 790, rfl⟩
abbrev main_v473 : Ref sig .tc := ⟨.hbm, 791, rfl⟩
abbrev main_v474 : Ref sig .tc := ⟨.hbm, 792, rfl⟩
abbrev main_c_259 : Ref sig .tc := ⟨.hbm, 793, rfl⟩
abbrev main_call46_v0 : Ref sig .tc := ⟨.hbm, 794, rfl⟩
abbrev main_call46_v1 : Ref sig .tc := ⟨.hbm, 795, rfl⟩
abbrev main_v475 : Ref sig .tc := ⟨.hbm, 796, rfl⟩
abbrev main_c_260 : Ref sig .tc := ⟨.hbm, 797, rfl⟩
abbrev main_v476 : Ref sig .tc := ⟨.hbm, 798, rfl⟩
abbrev main_c_261 : Ref sig .tc := ⟨.hbm, 799, rfl⟩
abbrev main_v477 : Ref sig .tc := ⟨.hbm, 800, rfl⟩
abbrev main_c_262 : Ref sig .tc := ⟨.hbm, 801, rfl⟩
abbrev main_call47_v0 : Ref sig .tc := ⟨.hbm, 802, rfl⟩
abbrev main_v478 : Ref sig .tc := ⟨.hbm, 803, rfl⟩
abbrev main_c_263 : Ref sig .tc := ⟨.hbm, 804, rfl⟩
abbrev main_v479 : Ref sig .tc := ⟨.hbm, 805, rfl⟩
abbrev main_c_264 : Ref sig .tc := ⟨.hbm, 806, rfl⟩
abbrev main_call48_v0 : Ref sig .tc := ⟨.hbm, 807, rfl⟩
abbrev main_v480 : Ref sig .tc := ⟨.hbm, 808, rfl⟩
abbrev main_c_265 : Ref sig .tc := ⟨.hbm, 809, rfl⟩
abbrev main_v481 : Ref sig .tc := ⟨.hbm, 810, rfl⟩
abbrev main_c_266 : Ref sig .tc := ⟨.hbm, 811, rfl⟩
abbrev main_v482 : Ref sig .tc := ⟨.hbm, 812, rfl⟩
abbrev main_v483 : Ref sig .tc := ⟨.hbm, 813, rfl⟩
abbrev main_c_267 : Ref sig .tc := ⟨.hbm, 814, rfl⟩
abbrev main_c_268 : Ref sig .tc := ⟨.hbm, 815, rfl⟩
abbrev main_v484 : Ref sig .tc := ⟨.hbm, 816, rfl⟩
abbrev main_c_269 : Ref sig .tc := ⟨.hbm, 817, rfl⟩
abbrev main_c_270 : Ref sig .tc := ⟨.hbm, 818, rfl⟩
abbrev main_v485 : Ref sig .tc := ⟨.hbm, 819, rfl⟩
abbrev main_c_271 : Ref sig .tc := ⟨.hbm, 820, rfl⟩
abbrev main_v486 : Ref sig .tc := ⟨.hbm, 821, rfl⟩
abbrev main_v487 : Ref sig .tc := ⟨.hbm, 822, rfl⟩
abbrev main_v488 : Ref sig .tc := ⟨.hbm, 823, rfl⟩
abbrev main_c_272 : Ref sig .tc := ⟨.hbm, 824, rfl⟩
abbrev main_v489 : Ref sig .tc := ⟨.hbm, 825, rfl⟩
abbrev main_c_273 : Ref sig .tc := ⟨.hbm, 826, rfl⟩
abbrev main_v490 : Ref sig .tc := ⟨.hbm, 827, rfl⟩
abbrev main_v491 : Ref sig .tc := ⟨.hbm, 828, rfl⟩
abbrev main_c_274 : Ref sig .tc := ⟨.hbm, 829, rfl⟩
abbrev main_c_275 : Ref sig .tc := ⟨.hbm, 830, rfl⟩
abbrev main_v492 : Ref sig .tc := ⟨.hbm, 831, rfl⟩
abbrev main_c_276 : Ref sig .tc := ⟨.hbm, 832, rfl⟩
abbrev main_c_277 : Ref sig .tc := ⟨.hbm, 833, rfl⟩
abbrev main_v493 : Ref sig .tc := ⟨.hbm, 834, rfl⟩
abbrev main_c_278 : Ref sig .tc := ⟨.hbm, 835, rfl⟩
abbrev main_v494 : Ref sig .tc := ⟨.hbm, 836, rfl⟩
abbrev main_v495 : Ref sig .tc := ⟨.hbm, 837, rfl⟩
abbrev main_v496 : Ref sig .tc := ⟨.hbm, 838, rfl⟩
abbrev main_v497 : Ref sig .tc := ⟨.hbm, 839, rfl⟩
abbrev main_c_279 : Ref sig .tc := ⟨.hbm, 840, rfl⟩
abbrev main_v498 : Ref sig .tc := ⟨.hbm, 841, rfl⟩
abbrev main_c_280 : Ref sig .tc := ⟨.hbm, 842, rfl⟩
abbrev main_v499 : Ref sig .tc := ⟨.hbm, 843, rfl⟩
abbrev main_v500 : Ref sig .tc := ⟨.hbm, 844, rfl⟩
abbrev main_c_281 : Ref sig .tc := ⟨.hbm, 845, rfl⟩
abbrev main_c_282 : Ref sig .tc := ⟨.hbm, 846, rfl⟩
abbrev main_v501 : Ref sig .tc := ⟨.hbm, 847, rfl⟩
abbrev main_c_283 : Ref sig .tc := ⟨.hbm, 848, rfl⟩
abbrev main_c_284 : Ref sig .tc := ⟨.hbm, 849, rfl⟩
abbrev main_v502 : Ref sig .tc := ⟨.hbm, 850, rfl⟩
abbrev main_c_285 : Ref sig .tc := ⟨.hbm, 851, rfl⟩
abbrev main_v503 : Ref sig .tc := ⟨.hbm, 852, rfl⟩
abbrev main_v504 : Ref sig .tc := ⟨.hbm, 853, rfl⟩
abbrev main_v505 : Ref sig .tc := ⟨.hbm, 854, rfl⟩
abbrev main_cst_286 : Ref sig .tc := ⟨.hbm, 855, rfl⟩
abbrev main_v506 : Ref sig .tc := ⟨.hbm, 856, rfl⟩
abbrev main_v507 : Ref sig .tc := ⟨.hbm, 857, rfl⟩
abbrev main_v508 : Ref sig .tc := ⟨.hbm, 858, rfl⟩
abbrev main_v509 : Ref sig .tc := ⟨.hbm, 859, rfl⟩
abbrev main_v510 : Ref sig .tc := ⟨.hbm, 860, rfl⟩
abbrev main_v511 : Ref sig .tc := ⟨.hbm, 861, rfl⟩
abbrev main_v512 : Ref sig .tc := ⟨.hbm, 862, rfl⟩
abbrev main_v513 : Ref sig .tc := ⟨.hbm, 863, rfl⟩
abbrev main_v514 : Ref sig .tc := ⟨.hbm, 864, rfl⟩
abbrev main_v515 : Ref sig .tc := ⟨.hbm, 865, rfl⟩
abbrev main_cst_287 : Ref sig .tc := ⟨.hbm, 866, rfl⟩
abbrev main_v516 : Ref sig .tc := ⟨.hbm, 867, rfl⟩
abbrev main_c_288 : Ref sig .tc := ⟨.hbm, 868, rfl⟩
abbrev main_v517 : Ref sig .tc := ⟨.hbm, 869, rfl⟩
abbrev main_cst_289 : Ref sig .tc := ⟨.hbm, 870, rfl⟩
abbrev main_v518 : Ref sig .tc := ⟨.hbm, 871, rfl⟩
abbrev main_v519 : Ref sig .tc := ⟨.hbm, 872, rfl⟩
abbrev main_c_290 : Ref sig .tc := ⟨.hbm, 873, rfl⟩
abbrev main_v520 : Ref sig .tc := ⟨.hbm, 874, rfl⟩
abbrev main_v521 : Ref sig .tc := ⟨.hbm, 875, rfl⟩
abbrev main_c_291 : Ref sig .tc := ⟨.hbm, 876, rfl⟩
abbrev main_v522 : Ref sig .tc := ⟨.hbm, 877, rfl⟩
abbrev main_v523 : Ref sig .tc := ⟨.hbm, 878, rfl⟩
abbrev main_v524 : Ref sig .tc := ⟨.hbm, 879, rfl⟩
abbrev main_c_292 : Ref sig .tc := ⟨.hbm, 880, rfl⟩
abbrev main_v525 : Ref sig .tc := ⟨.hbm, 881, rfl⟩
abbrev main_v526 : Ref sig .tc := ⟨.hbm, 882, rfl⟩
abbrev main_v527 : Ref sig .tc := ⟨.hbm, 883, rfl⟩
abbrev main_v528 : Ref sig .tc := ⟨.hbm, 884, rfl⟩
abbrev main_c_293 : Ref sig .tc := ⟨.hbm, 885, rfl⟩
abbrev main_call51_v0 : Ref sig .tc := ⟨.hbm, 886, rfl⟩
abbrev main_call51_v1 : Ref sig .tc := ⟨.hbm, 887, rfl⟩
abbrev main_v529 : Ref sig .tc := ⟨.hbm, 888, rfl⟩
abbrev main_c_294 : Ref sig .tc := ⟨.hbm, 889, rfl⟩
abbrev main_v530 : Ref sig .tc := ⟨.hbm, 890, rfl⟩
abbrev main_v531 : Ref sig .tc := ⟨.hbm, 891, rfl⟩
abbrev main_c_295 : Ref sig .tc := ⟨.hbm, 892, rfl⟩
abbrev main_v532 : Ref sig .tc := ⟨.hbm, 893, rfl⟩
abbrev main_v533 : Ref sig .tc := ⟨.hbm, 894, rfl⟩
abbrev main_v534 : Ref sig .tc := ⟨.hbm, 895, rfl⟩
abbrev main_v535 : Ref sig .tc := ⟨.hbm, 896, rfl⟩
abbrev main_c_296 : Ref sig .tc := ⟨.hbm, 897, rfl⟩
abbrev main_call52_v0 : Ref sig .tc := ⟨.hbm, 898, rfl⟩
abbrev main_call52_v1 : Ref sig .tc := ⟨.hbm, 899, rfl⟩
abbrev main_v536 : Ref sig .tc := ⟨.hbm, 900, rfl⟩
abbrev main_c_297 : Ref sig .tc := ⟨.hbm, 901, rfl⟩
abbrev main_v537 : Ref sig .tc := ⟨.hbm, 902, rfl⟩
abbrev main_c_298 : Ref sig .tc := ⟨.hbm, 903, rfl⟩
abbrev main_v538 : Ref sig .tc := ⟨.hbm, 904, rfl⟩
abbrev main_c_299 : Ref sig .tc := ⟨.hbm, 905, rfl⟩
abbrev main_call53_v0 : Ref sig .tc := ⟨.hbm, 906, rfl⟩
abbrev main_v539 : Ref sig .tc := ⟨.hbm, 907, rfl⟩
abbrev main_c_300 : Ref sig .tc := ⟨.hbm, 908, rfl⟩
abbrev main_v540 : Ref sig .tc := ⟨.hbm, 909, rfl⟩
abbrev main_c_301 : Ref sig .tc := ⟨.hbm, 910, rfl⟩
abbrev main_call54_v0 : Ref sig .tc := ⟨.hbm, 911, rfl⟩
abbrev main_v541 : Ref sig .tc := ⟨.hbm, 912, rfl⟩
abbrev main_c_302 : Ref sig .tc := ⟨.hbm, 913, rfl⟩
abbrev main_v542 : Ref sig .tc := ⟨.hbm, 914, rfl⟩
abbrev main_c_303 : Ref sig .tc := ⟨.hbm, 915, rfl⟩
abbrev main_v543 : Ref sig .tc := ⟨.hbm, 916, rfl⟩
abbrev main_v544 : Ref sig .tc := ⟨.hbm, 917, rfl⟩
abbrev main_c_304 : Ref sig .tc := ⟨.hbm, 918, rfl⟩
abbrev main_c_305 : Ref sig .tc := ⟨.hbm, 919, rfl⟩
abbrev main_v545 : Ref sig .tc := ⟨.hbm, 920, rfl⟩
abbrev main_c_306 : Ref sig .tc := ⟨.hbm, 921, rfl⟩
abbrev main_c_307 : Ref sig .tc := ⟨.hbm, 922, rfl⟩
abbrev main_v546 : Ref sig .tc := ⟨.hbm, 923, rfl⟩
abbrev main_c_308 : Ref sig .tc := ⟨.hbm, 924, rfl⟩
abbrev main_v547 : Ref sig .tc := ⟨.hbm, 925, rfl⟩
abbrev main_v548 : Ref sig .tc := ⟨.hbm, 926, rfl⟩
abbrev main_v549 : Ref sig .tc := ⟨.hbm, 927, rfl⟩
abbrev main_c_309 : Ref sig .tc := ⟨.hbm, 928, rfl⟩
abbrev main_v550 : Ref sig .tc := ⟨.hbm, 929, rfl⟩
abbrev main_c_310 : Ref sig .tc := ⟨.hbm, 930, rfl⟩
abbrev main_v551 : Ref sig .tc := ⟨.hbm, 931, rfl⟩
abbrev main_v552 : Ref sig .tc := ⟨.hbm, 932, rfl⟩
abbrev main_c_311 : Ref sig .tc := ⟨.hbm, 933, rfl⟩
abbrev main_c_312 : Ref sig .tc := ⟨.hbm, 934, rfl⟩
abbrev main_v553 : Ref sig .tc := ⟨.hbm, 935, rfl⟩
abbrev main_c_313 : Ref sig .tc := ⟨.hbm, 936, rfl⟩
abbrev main_c_314 : Ref sig .tc := ⟨.hbm, 937, rfl⟩
abbrev main_v554 : Ref sig .tc := ⟨.hbm, 938, rfl⟩
abbrev main_c_315 : Ref sig .tc := ⟨.hbm, 939, rfl⟩
abbrev main_v555 : Ref sig .tc := ⟨.hbm, 940, rfl⟩
abbrev main_v556 : Ref sig .tc := ⟨.hbm, 941, rfl⟩
abbrev main_v557 : Ref sig .tc := ⟨.hbm, 942, rfl⟩
abbrev main_v558 : Ref sig .tc := ⟨.hbm, 943, rfl⟩
abbrev main_c_316 : Ref sig .tc := ⟨.hbm, 944, rfl⟩
abbrev main_v559 : Ref sig .tc := ⟨.hbm, 945, rfl⟩
abbrev main_c_317 : Ref sig .tc := ⟨.hbm, 946, rfl⟩
abbrev main_v560 : Ref sig .tc := ⟨.hbm, 947, rfl⟩
abbrev main_v561 : Ref sig .tc := ⟨.hbm, 948, rfl⟩
abbrev main_c_318 : Ref sig .tc := ⟨.hbm, 949, rfl⟩
abbrev main_c_319 : Ref sig .tc := ⟨.hbm, 950, rfl⟩
abbrev main_v562 : Ref sig .tc := ⟨.hbm, 951, rfl⟩
abbrev main_c_320 : Ref sig .tc := ⟨.hbm, 952, rfl⟩
abbrev main_c_321 : Ref sig .tc := ⟨.hbm, 953, rfl⟩
abbrev main_v563 : Ref sig .tc := ⟨.hbm, 954, rfl⟩
abbrev main_c_322 : Ref sig .tc := ⟨.hbm, 955, rfl⟩
abbrev main_v564 : Ref sig .tc := ⟨.hbm, 956, rfl⟩
abbrev main_v565 : Ref sig .tc := ⟨.hbm, 957, rfl⟩
abbrev main_v566 : Ref sig .tc := ⟨.hbm, 958, rfl⟩
abbrev main_cst_323 : Ref sig .tc := ⟨.hbm, 959, rfl⟩
abbrev main_v567 : Ref sig .tc := ⟨.hbm, 960, rfl⟩
abbrev main_v568 : Ref sig .tc := ⟨.hbm, 961, rfl⟩
abbrev main_v569 : Ref sig .tc := ⟨.hbm, 962, rfl⟩
abbrev main_v570 : Ref sig .tc := ⟨.hbm, 963, rfl⟩
abbrev main_v571 : Ref sig .tc := ⟨.hbm, 964, rfl⟩
abbrev main_v572 : Ref sig .tc := ⟨.hbm, 965, rfl⟩
abbrev main_v573 : Ref sig .tc := ⟨.hbm, 966, rfl⟩
abbrev main_v574 : Ref sig .tc := ⟨.hbm, 967, rfl⟩
abbrev main_v575 : Ref sig .tc := ⟨.hbm, 968, rfl⟩
abbrev main_v576 : Ref sig .tc := ⟨.hbm, 969, rfl⟩
abbrev main_cst_324 : Ref sig .tc := ⟨.hbm, 970, rfl⟩
abbrev main_v577 : Ref sig .tc := ⟨.hbm, 971, rfl⟩
abbrev main_c_325 : Ref sig .tc := ⟨.hbm, 972, rfl⟩
abbrev main_v578 : Ref sig .tc := ⟨.hbm, 973, rfl⟩
abbrev main_cst_326 : Ref sig .tc := ⟨.hbm, 974, rfl⟩
abbrev main_v579 : Ref sig .tc := ⟨.hbm, 975, rfl⟩
abbrev main_v580 : Ref sig .tc := ⟨.hbm, 976, rfl⟩
abbrev main_c_327 : Ref sig .tc := ⟨.hbm, 977, rfl⟩
abbrev main_v581 : Ref sig .tc := ⟨.hbm, 978, rfl⟩
abbrev main_v582 : Ref sig .tc := ⟨.hbm, 979, rfl⟩
abbrev main_c_328 : Ref sig .tc := ⟨.hbm, 980, rfl⟩
abbrev main_v583 : Ref sig .tc := ⟨.hbm, 981, rfl⟩
abbrev main_v584 : Ref sig .tc := ⟨.hbm, 982, rfl⟩
abbrev main_v585 : Ref sig .tc := ⟨.hbm, 983, rfl⟩
abbrev main_c_329 : Ref sig .tc := ⟨.hbm, 984, rfl⟩
abbrev main_v586 : Ref sig .tc := ⟨.hbm, 985, rfl⟩
abbrev main_v587 : Ref sig .tc := ⟨.hbm, 986, rfl⟩
abbrev main_v588 : Ref sig .tc := ⟨.hbm, 987, rfl⟩
abbrev main_v589 : Ref sig .tc := ⟨.hbm, 988, rfl⟩
abbrev main_c_330 : Ref sig .tc := ⟨.hbm, 989, rfl⟩
abbrev main_call57_v0 : Ref sig .tc := ⟨.hbm, 990, rfl⟩
abbrev main_call57_v1 : Ref sig .tc := ⟨.hbm, 991, rfl⟩
abbrev main_v590 : Ref sig .tc := ⟨.hbm, 992, rfl⟩
abbrev main_c_331 : Ref sig .tc := ⟨.hbm, 993, rfl⟩
abbrev main_v591 : Ref sig .tc := ⟨.hbm, 994, rfl⟩
abbrev main_v592 : Ref sig .tc := ⟨.hbm, 995, rfl⟩
abbrev main_c_332 : Ref sig .tc := ⟨.hbm, 996, rfl⟩
abbrev main_v593 : Ref sig .tc := ⟨.hbm, 997, rfl⟩
abbrev main_v594 : Ref sig .tc := ⟨.hbm, 998, rfl⟩
abbrev main_v595 : Ref sig .tc := ⟨.hbm, 999, rfl⟩
abbrev main_v596 : Ref sig .tc := ⟨.hbm, 1000, rfl⟩
abbrev main_c_333 : Ref sig .tc := ⟨.hbm, 1001, rfl⟩
abbrev main_call58_v0 : Ref sig .tc := ⟨.hbm, 1002, rfl⟩
abbrev main_call58_v1 : Ref sig .tc := ⟨.hbm, 1003, rfl⟩
abbrev main_v597 : Ref sig .tc := ⟨.hbm, 1004, rfl⟩
abbrev main_c_334 : Ref sig .tc := ⟨.hbm, 1005, rfl⟩
abbrev main_v598 : Ref sig .tc := ⟨.hbm, 1006, rfl⟩
abbrev main_c_335 : Ref sig .tc := ⟨.hbm, 1007, rfl⟩
abbrev main_v599 : Ref sig .tc := ⟨.hbm, 1008, rfl⟩
abbrev main_c_336 : Ref sig .tc := ⟨.hbm, 1009, rfl⟩
abbrev main_call59_v0 : Ref sig .tc := ⟨.hbm, 1010, rfl⟩
abbrev main_v600 : Ref sig .tc := ⟨.hbm, 1011, rfl⟩
abbrev main_c_337 : Ref sig .tc := ⟨.hbm, 1012, rfl⟩
abbrev main_v601 : Ref sig .tc := ⟨.hbm, 1013, rfl⟩
abbrev main_c_338 : Ref sig .tc := ⟨.hbm, 1014, rfl⟩
abbrev main_call60_v0 : Ref sig .tc := ⟨.hbm, 1015, rfl⟩
abbrev main_v602 : Ref sig .tc := ⟨.hbm, 1016, rfl⟩
abbrev main_c_339 : Ref sig .tc := ⟨.hbm, 1017, rfl⟩
abbrev main_v603 : Ref sig .tc := ⟨.hbm, 1018, rfl⟩
abbrev main_c_340 : Ref sig .tc := ⟨.hbm, 1019, rfl⟩
abbrev main_v604 : Ref sig .tc := ⟨.hbm, 1020, rfl⟩
abbrev main_v605 : Ref sig .tc := ⟨.hbm, 1021, rfl⟩
abbrev main_c_341 : Ref sig .tc := ⟨.hbm, 1022, rfl⟩
abbrev main_c_342 : Ref sig .tc := ⟨.hbm, 1023, rfl⟩
abbrev main_v606 : Ref sig .tc := ⟨.hbm, 1024, rfl⟩
abbrev main_c_343 : Ref sig .tc := ⟨.hbm, 1025, rfl⟩
abbrev main_c_344 : Ref sig .tc := ⟨.hbm, 1026, rfl⟩
abbrev main_v607 : Ref sig .tc := ⟨.hbm, 1027, rfl⟩
abbrev main_c_345 : Ref sig .tc := ⟨.hbm, 1028, rfl⟩
abbrev main_v608 : Ref sig .tc := ⟨.hbm, 1029, rfl⟩
abbrev main_v609 : Ref sig .tc := ⟨.hbm, 1030, rfl⟩
abbrev main_v610 : Ref sig .tc := ⟨.hbm, 1031, rfl⟩
abbrev main_c_346 : Ref sig .tc := ⟨.hbm, 1032, rfl⟩
abbrev main_v611 : Ref sig .tc := ⟨.hbm, 1033, rfl⟩
abbrev main_c_347 : Ref sig .tc := ⟨.hbm, 1034, rfl⟩
abbrev main_v612 : Ref sig .tc := ⟨.hbm, 1035, rfl⟩
abbrev main_v613 : Ref sig .tc := ⟨.hbm, 1036, rfl⟩
abbrev main_c_348 : Ref sig .tc := ⟨.hbm, 1037, rfl⟩
abbrev main_c_349 : Ref sig .tc := ⟨.hbm, 1038, rfl⟩
abbrev main_v614 : Ref sig .tc := ⟨.hbm, 1039, rfl⟩
abbrev main_c_350 : Ref sig .tc := ⟨.hbm, 1040, rfl⟩
abbrev main_c_351 : Ref sig .tc := ⟨.hbm, 1041, rfl⟩
abbrev main_v615 : Ref sig .tc := ⟨.hbm, 1042, rfl⟩
abbrev main_c_352 : Ref sig .tc := ⟨.hbm, 1043, rfl⟩
abbrev main_v616 : Ref sig .tc := ⟨.hbm, 1044, rfl⟩
abbrev main_v617 : Ref sig .tc := ⟨.hbm, 1045, rfl⟩
abbrev main_v618 : Ref sig .tc := ⟨.hbm, 1046, rfl⟩
abbrev main_v619 : Ref sig .tc := ⟨.hbm, 1047, rfl⟩
abbrev main_c_353 : Ref sig .tc := ⟨.hbm, 1048, rfl⟩
abbrev main_v620 : Ref sig .tc := ⟨.hbm, 1049, rfl⟩
abbrev main_c_354 : Ref sig .tc := ⟨.hbm, 1050, rfl⟩
abbrev main_v621 : Ref sig .tc := ⟨.hbm, 1051, rfl⟩
abbrev main_v622 : Ref sig .tc := ⟨.hbm, 1052, rfl⟩
abbrev main_c_355 : Ref sig .tc := ⟨.hbm, 1053, rfl⟩
abbrev main_c_356 : Ref sig .tc := ⟨.hbm, 1054, rfl⟩
abbrev main_v623 : Ref sig .tc := ⟨.hbm, 1055, rfl⟩
abbrev main_c_357 : Ref sig .tc := ⟨.hbm, 1056, rfl⟩
abbrev main_c_358 : Ref sig .tc := ⟨.hbm, 1057, rfl⟩
abbrev main_v624 : Ref sig .tc := ⟨.hbm, 1058, rfl⟩
abbrev main_c_359 : Ref sig .tc := ⟨.hbm, 1059, rfl⟩
abbrev main_v625 : Ref sig .tc := ⟨.hbm, 1060, rfl⟩
abbrev main_v626 : Ref sig .tc := ⟨.hbm, 1061, rfl⟩
abbrev main_v627 : Ref sig .tc := ⟨.hbm, 1062, rfl⟩
abbrev main_cst_360 : Ref sig .tc := ⟨.hbm, 1063, rfl⟩
abbrev main_v628 : Ref sig .tc := ⟨.hbm, 1064, rfl⟩
abbrev main_v629 : Ref sig .tc := ⟨.hbm, 1065, rfl⟩
abbrev main_v630 : Ref sig .tc := ⟨.hbm, 1066, rfl⟩
abbrev main_v631 : Ref sig .tc := ⟨.hbm, 1067, rfl⟩
abbrev main_v632 : Ref sig .tc := ⟨.hbm, 1068, rfl⟩
abbrev main_v633 : Ref sig .tc := ⟨.hbm, 1069, rfl⟩
abbrev main_v634 : Ref sig .tc := ⟨.hbm, 1070, rfl⟩
abbrev main_v635 : Ref sig .tc := ⟨.hbm, 1071, rfl⟩
abbrev main_v636 : Ref sig .tc := ⟨.hbm, 1072, rfl⟩
abbrev main_v637 : Ref sig .tc := ⟨.hbm, 1073, rfl⟩
abbrev main_cst_361 : Ref sig .tc := ⟨.hbm, 1074, rfl⟩
abbrev main_v638 : Ref sig .tc := ⟨.hbm, 1075, rfl⟩
abbrev main_c_362 : Ref sig .tc := ⟨.hbm, 1076, rfl⟩
abbrev main_v639 : Ref sig .tc := ⟨.hbm, 1077, rfl⟩
abbrev main_cst_363 : Ref sig .tc := ⟨.hbm, 1078, rfl⟩
abbrev main_v640 : Ref sig .tc := ⟨.hbm, 1079, rfl⟩
abbrev main_v641 : Ref sig .tc := ⟨.hbm, 1080, rfl⟩
abbrev main_c_364 : Ref sig .tc := ⟨.hbm, 1081, rfl⟩
abbrev main_v642 : Ref sig .tc := ⟨.hbm, 1082, rfl⟩
abbrev main_v643 : Ref sig .tc := ⟨.hbm, 1083, rfl⟩
abbrev main_c_365 : Ref sig .tc := ⟨.hbm, 1084, rfl⟩
abbrev main_v644 : Ref sig .tc := ⟨.hbm, 1085, rfl⟩
abbrev main_v645 : Ref sig .tc := ⟨.hbm, 1086, rfl⟩
abbrev main_v646 : Ref sig .tc := ⟨.hbm, 1087, rfl⟩
abbrev main_c_366 : Ref sig .tc := ⟨.hbm, 1088, rfl⟩
abbrev main_v647 : Ref sig .tc := ⟨.hbm, 1089, rfl⟩
abbrev main_v648 : Ref sig .tc := ⟨.hbm, 1090, rfl⟩
abbrev main_v649 : Ref sig .tc := ⟨.hbm, 1091, rfl⟩
abbrev main_v650 : Ref sig .tc := ⟨.hbm, 1092, rfl⟩
abbrev main_c_367 : Ref sig .tc := ⟨.hbm, 1093, rfl⟩
abbrev main_call63_v0 : Ref sig .tc := ⟨.hbm, 1094, rfl⟩
abbrev main_call63_v1 : Ref sig .tc := ⟨.hbm, 1095, rfl⟩
abbrev main_v651 : Ref sig .tc := ⟨.hbm, 1096, rfl⟩
abbrev main_c_368 : Ref sig .tc := ⟨.hbm, 1097, rfl⟩
abbrev main_v652 : Ref sig .tc := ⟨.hbm, 1098, rfl⟩
abbrev main_v653 : Ref sig .tc := ⟨.hbm, 1099, rfl⟩
abbrev main_c_369 : Ref sig .tc := ⟨.hbm, 1100, rfl⟩
abbrev main_v654 : Ref sig .tc := ⟨.hbm, 1101, rfl⟩
abbrev main_v655 : Ref sig .tc := ⟨.hbm, 1102, rfl⟩
abbrev main_v656 : Ref sig .tc := ⟨.hbm, 1103, rfl⟩
abbrev main_v657 : Ref sig .tc := ⟨.hbm, 1104, rfl⟩
abbrev main_c_370 : Ref sig .tc := ⟨.hbm, 1105, rfl⟩
abbrev main_call64_v0 : Ref sig .tc := ⟨.hbm, 1106, rfl⟩
abbrev main_call64_v1 : Ref sig .tc := ⟨.hbm, 1107, rfl⟩
abbrev main_v658 : Ref sig .tc := ⟨.hbm, 1108, rfl⟩
abbrev main_c_371 : Ref sig .tc := ⟨.hbm, 1109, rfl⟩
abbrev main_v659 : Ref sig .tc := ⟨.hbm, 1110, rfl⟩
abbrev main_c_372 : Ref sig .tc := ⟨.hbm, 1111, rfl⟩
abbrev main_v660 : Ref sig .tc := ⟨.hbm, 1112, rfl⟩
abbrev main_c_373 : Ref sig .tc := ⟨.hbm, 1113, rfl⟩
abbrev main_call65_v0 : Ref sig .tc := ⟨.hbm, 1114, rfl⟩
abbrev main_v661 : Ref sig .tc := ⟨.hbm, 1115, rfl⟩
abbrev main_c_374 : Ref sig .tc := ⟨.hbm, 1116, rfl⟩
abbrev main_v662 : Ref sig .tc := ⟨.hbm, 1117, rfl⟩
abbrev main_c_375 : Ref sig .tc := ⟨.hbm, 1118, rfl⟩
abbrev main_call66_v0 : Ref sig .tc := ⟨.hbm, 1119, rfl⟩
abbrev main_v663 : Ref sig .tc := ⟨.hbm, 1120, rfl⟩
abbrev main_c_376 : Ref sig .tc := ⟨.hbm, 1121, rfl⟩
abbrev main_v664 : Ref sig .tc := ⟨.hbm, 1122, rfl⟩
abbrev main_c_377 : Ref sig .tc := ⟨.hbm, 1123, rfl⟩
abbrev main_v665 : Ref sig .tc := ⟨.hbm, 1124, rfl⟩
abbrev main_v666 : Ref sig .tc := ⟨.hbm, 1125, rfl⟩
abbrev main_c_378 : Ref sig .tc := ⟨.hbm, 1126, rfl⟩
abbrev main_c_379 : Ref sig .tc := ⟨.hbm, 1127, rfl⟩
abbrev main_v667 : Ref sig .tc := ⟨.hbm, 1128, rfl⟩
abbrev main_c_380 : Ref sig .tc := ⟨.hbm, 1129, rfl⟩
abbrev main_c_381 : Ref sig .tc := ⟨.hbm, 1130, rfl⟩
abbrev main_v668 : Ref sig .tc := ⟨.hbm, 1131, rfl⟩
abbrev main_c_382 : Ref sig .tc := ⟨.hbm, 1132, rfl⟩
abbrev main_v669 : Ref sig .tc := ⟨.hbm, 1133, rfl⟩
abbrev main_v670 : Ref sig .tc := ⟨.hbm, 1134, rfl⟩
abbrev main_v671 : Ref sig .tc := ⟨.hbm, 1135, rfl⟩
abbrev main_c_383 : Ref sig .tc := ⟨.hbm, 1136, rfl⟩
abbrev main_v672 : Ref sig .tc := ⟨.hbm, 1137, rfl⟩
abbrev main_c_384 : Ref sig .tc := ⟨.hbm, 1138, rfl⟩
abbrev main_v673 : Ref sig .tc := ⟨.hbm, 1139, rfl⟩
abbrev main_v674 : Ref sig .tc := ⟨.hbm, 1140, rfl⟩
abbrev main_c_385 : Ref sig .tc := ⟨.hbm, 1141, rfl⟩
abbrev main_c_386 : Ref sig .tc := ⟨.hbm, 1142, rfl⟩
abbrev main_v675 : Ref sig .tc := ⟨.hbm, 1143, rfl⟩
abbrev main_c_387 : Ref sig .tc := ⟨.hbm, 1144, rfl⟩
abbrev main_c_388 : Ref sig .tc := ⟨.hbm, 1145, rfl⟩
abbrev main_v676 : Ref sig .tc := ⟨.hbm, 1146, rfl⟩
abbrev main_c_389 : Ref sig .tc := ⟨.hbm, 1147, rfl⟩
abbrev main_v677 : Ref sig .tc := ⟨.hbm, 1148, rfl⟩
abbrev main_v678 : Ref sig .tc := ⟨.hbm, 1149, rfl⟩
abbrev main_v679 : Ref sig .tc := ⟨.hbm, 1150, rfl⟩
abbrev main_v680 : Ref sig .tc := ⟨.hbm, 1151, rfl⟩
abbrev main_c_390 : Ref sig .tc := ⟨.hbm, 1152, rfl⟩
abbrev main_v681 : Ref sig .tc := ⟨.hbm, 1153, rfl⟩
abbrev main_c_391 : Ref sig .tc := ⟨.hbm, 1154, rfl⟩
abbrev main_v682 : Ref sig .tc := ⟨.hbm, 1155, rfl⟩
abbrev main_v683 : Ref sig .tc := ⟨.hbm, 1156, rfl⟩
abbrev main_c_392 : Ref sig .tc := ⟨.hbm, 1157, rfl⟩
abbrev main_c_393 : Ref sig .tc := ⟨.hbm, 1158, rfl⟩
abbrev main_v684 : Ref sig .tc := ⟨.hbm, 1159, rfl⟩
abbrev main_c_394 : Ref sig .tc := ⟨.hbm, 1160, rfl⟩
abbrev main_c_395 : Ref sig .tc := ⟨.hbm, 1161, rfl⟩
abbrev main_v685 : Ref sig .tc := ⟨.hbm, 1162, rfl⟩
abbrev main_c_396 : Ref sig .tc := ⟨.hbm, 1163, rfl⟩
abbrev main_v686 : Ref sig .tc := ⟨.hbm, 1164, rfl⟩
abbrev main_v687 : Ref sig .tc := ⟨.hbm, 1165, rfl⟩
abbrev main_v688 : Ref sig .tc := ⟨.hbm, 1166, rfl⟩
abbrev main_cst_397 : Ref sig .tc := ⟨.hbm, 1167, rfl⟩
abbrev main_v689 : Ref sig .tc := ⟨.hbm, 1168, rfl⟩
abbrev main_v690 : Ref sig .tc := ⟨.hbm, 1169, rfl⟩
abbrev main_v691 : Ref sig .tc := ⟨.hbm, 1170, rfl⟩
abbrev main_v692 : Ref sig .tc := ⟨.hbm, 1171, rfl⟩
abbrev main_v693 : Ref sig .tc := ⟨.hbm, 1172, rfl⟩
abbrev main_v694 : Ref sig .tc := ⟨.hbm, 1173, rfl⟩
abbrev main_v695 : Ref sig .tc := ⟨.hbm, 1174, rfl⟩
abbrev main_v696 : Ref sig .tc := ⟨.hbm, 1175, rfl⟩
abbrev main_v697 : Ref sig .tc := ⟨.hbm, 1176, rfl⟩
abbrev main_v698 : Ref sig .tc := ⟨.hbm, 1177, rfl⟩
abbrev main_cst_398 : Ref sig .tc := ⟨.hbm, 1178, rfl⟩
abbrev main_v699 : Ref sig .tc := ⟨.hbm, 1179, rfl⟩
abbrev main_c_399 : Ref sig .tc := ⟨.hbm, 1180, rfl⟩
abbrev main_v700 : Ref sig .tc := ⟨.hbm, 1181, rfl⟩
abbrev main_cst_400 : Ref sig .tc := ⟨.hbm, 1182, rfl⟩
abbrev main_v701 : Ref sig .tc := ⟨.hbm, 1183, rfl⟩
abbrev main_v702 : Ref sig .tc := ⟨.hbm, 1184, rfl⟩
abbrev main_c_401 : Ref sig .tc := ⟨.hbm, 1185, rfl⟩
abbrev main_v703 : Ref sig .tc := ⟨.hbm, 1186, rfl⟩
abbrev main_v704 : Ref sig .tc := ⟨.hbm, 1187, rfl⟩
abbrev main_c_402 : Ref sig .tc := ⟨.hbm, 1188, rfl⟩
abbrev main_v705 : Ref sig .tc := ⟨.hbm, 1189, rfl⟩
abbrev main_v706 : Ref sig .tc := ⟨.hbm, 1190, rfl⟩
abbrev main_v707 : Ref sig .tc := ⟨.hbm, 1191, rfl⟩
abbrev main_c_403 : Ref sig .tc := ⟨.hbm, 1192, rfl⟩
abbrev main_v708 : Ref sig .tc := ⟨.hbm, 1193, rfl⟩
abbrev main_v709 : Ref sig .tc := ⟨.hbm, 1194, rfl⟩
abbrev main_v710 : Ref sig .tc := ⟨.hbm, 1195, rfl⟩
abbrev main_v711 : Ref sig .tc := ⟨.hbm, 1196, rfl⟩
abbrev main_c_404 : Ref sig .tc := ⟨.hbm, 1197, rfl⟩
abbrev main_call69_v0 : Ref sig .tc := ⟨.hbm, 1198, rfl⟩
abbrev main_call69_v1 : Ref sig .tc := ⟨.hbm, 1199, rfl⟩
abbrev main_v712 : Ref sig .tc := ⟨.hbm, 1200, rfl⟩
abbrev main_c_405 : Ref sig .tc := ⟨.hbm, 1201, rfl⟩
abbrev main_v713 : Ref sig .tc := ⟨.hbm, 1202, rfl⟩
abbrev main_v714 : Ref sig .tc := ⟨.hbm, 1203, rfl⟩
abbrev main_c_406 : Ref sig .tc := ⟨.hbm, 1204, rfl⟩
abbrev main_v715 : Ref sig .tc := ⟨.hbm, 1205, rfl⟩
abbrev main_v716 : Ref sig .tc := ⟨.hbm, 1206, rfl⟩
abbrev main_v717 : Ref sig .tc := ⟨.hbm, 1207, rfl⟩
abbrev main_v718 : Ref sig .tc := ⟨.hbm, 1208, rfl⟩
abbrev main_c_407 : Ref sig .tc := ⟨.hbm, 1209, rfl⟩
abbrev main_call70_v0 : Ref sig .tc := ⟨.hbm, 1210, rfl⟩
abbrev main_call70_v1 : Ref sig .tc := ⟨.hbm, 1211, rfl⟩
abbrev main_v719 : Ref sig .tc := ⟨.hbm, 1212, rfl⟩
abbrev main_c_408 : Ref sig .tc := ⟨.hbm, 1213, rfl⟩
abbrev main_v720 : Ref sig .tc := ⟨.hbm, 1214, rfl⟩
abbrev main_c_409 : Ref sig .tc := ⟨.hbm, 1215, rfl⟩
abbrev main_v721 : Ref sig .tc := ⟨.hbm, 1216, rfl⟩
abbrev main_c_410 : Ref sig .tc := ⟨.hbm, 1217, rfl⟩
abbrev main_call71_v0 : Ref sig .tc := ⟨.hbm, 1218, rfl⟩
abbrev main_v722 : Ref sig .tc := ⟨.hbm, 1219, rfl⟩
abbrev main_c_411 : Ref sig .tc := ⟨.hbm, 1220, rfl⟩
abbrev main_v723 : Ref sig .tc := ⟨.hbm, 1221, rfl⟩
abbrev main_c_412 : Ref sig .tc := ⟨.hbm, 1222, rfl⟩
abbrev main_call72_v0 : Ref sig .tc := ⟨.hbm, 1223, rfl⟩
abbrev main_v724 : Ref sig .tc := ⟨.hbm, 1224, rfl⟩
abbrev main_c_413 : Ref sig .tc := ⟨.hbm, 1225, rfl⟩
abbrev main_v725 : Ref sig .tc := ⟨.hbm, 1226, rfl⟩
abbrev main_c_414 : Ref sig .tc := ⟨.hbm, 1227, rfl⟩
abbrev main_v726 : Ref sig .tc := ⟨.hbm, 1228, rfl⟩
abbrev main_v727 : Ref sig .tc := ⟨.hbm, 1229, rfl⟩
abbrev main_c_415 : Ref sig .tc := ⟨.hbm, 1230, rfl⟩
abbrev main_c_416 : Ref sig .tc := ⟨.hbm, 1231, rfl⟩
abbrev main_v728 : Ref sig .tc := ⟨.hbm, 1232, rfl⟩
abbrev main_c_417 : Ref sig .tc := ⟨.hbm, 1233, rfl⟩
abbrev main_c_418 : Ref sig .tc := ⟨.hbm, 1234, rfl⟩
abbrev main_v729 : Ref sig .tc := ⟨.hbm, 1235, rfl⟩
abbrev main_c_419 : Ref sig .tc := ⟨.hbm, 1236, rfl⟩
abbrev main_v730 : Ref sig .tc := ⟨.hbm, 1237, rfl⟩
abbrev main_v731 : Ref sig .tc := ⟨.hbm, 1238, rfl⟩
abbrev main_v732 : Ref sig .tc := ⟨.hbm, 1239, rfl⟩
abbrev main_c_420 : Ref sig .tc := ⟨.hbm, 1240, rfl⟩
abbrev main_v733 : Ref sig .tc := ⟨.hbm, 1241, rfl⟩
abbrev main_c_421 : Ref sig .tc := ⟨.hbm, 1242, rfl⟩
abbrev main_v734 : Ref sig .tc := ⟨.hbm, 1243, rfl⟩
abbrev main_v735 : Ref sig .tc := ⟨.hbm, 1244, rfl⟩
abbrev main_c_422 : Ref sig .tc := ⟨.hbm, 1245, rfl⟩
abbrev main_c_423 : Ref sig .tc := ⟨.hbm, 1246, rfl⟩
abbrev main_v736 : Ref sig .tc := ⟨.hbm, 1247, rfl⟩
abbrev main_c_424 : Ref sig .tc := ⟨.hbm, 1248, rfl⟩
abbrev main_c_425 : Ref sig .tc := ⟨.hbm, 1249, rfl⟩
abbrev main_v737 : Ref sig .tc := ⟨.hbm, 1250, rfl⟩
abbrev main_c_426 : Ref sig .tc := ⟨.hbm, 1251, rfl⟩
abbrev main_v738 : Ref sig .tc := ⟨.hbm, 1252, rfl⟩
abbrev main_v739 : Ref sig .tc := ⟨.hbm, 1253, rfl⟩
abbrev main_v740 : Ref sig .tc := ⟨.hbm, 1254, rfl⟩
abbrev main_v741 : Ref sig .tc := ⟨.hbm, 1255, rfl⟩
abbrev main_c_427 : Ref sig .tc := ⟨.hbm, 1256, rfl⟩
abbrev main_v742 : Ref sig .tc := ⟨.hbm, 1257, rfl⟩
abbrev main_c_428 : Ref sig .tc := ⟨.hbm, 1258, rfl⟩
abbrev main_v743 : Ref sig .tc := ⟨.hbm, 1259, rfl⟩
abbrev main_v744 : Ref sig .tc := ⟨.hbm, 1260, rfl⟩
abbrev main_c_429 : Ref sig .tc := ⟨.hbm, 1261, rfl⟩
abbrev main_c_430 : Ref sig .tc := ⟨.hbm, 1262, rfl⟩
abbrev main_v745 : Ref sig .tc := ⟨.hbm, 1263, rfl⟩
abbrev main_c_431 : Ref sig .tc := ⟨.hbm, 1264, rfl⟩
abbrev main_c_432 : Ref sig .tc := ⟨.hbm, 1265, rfl⟩
abbrev main_v746 : Ref sig .tc := ⟨.hbm, 1266, rfl⟩
abbrev main_c_433 : Ref sig .tc := ⟨.hbm, 1267, rfl⟩
abbrev main_v747 : Ref sig .tc := ⟨.hbm, 1268, rfl⟩
abbrev main_v748 : Ref sig .tc := ⟨.hbm, 1269, rfl⟩
abbrev main_v749 : Ref sig .tc := ⟨.hbm, 1270, rfl⟩
abbrev main_cst_434 : Ref sig .tc := ⟨.hbm, 1271, rfl⟩
abbrev main_v750 : Ref sig .tc := ⟨.hbm, 1272, rfl⟩
abbrev main_v751 : Ref sig .tc := ⟨.hbm, 1273, rfl⟩
abbrev main_v752 : Ref sig .tc := ⟨.hbm, 1274, rfl⟩
abbrev main_v753 : Ref sig .tc := ⟨.hbm, 1275, rfl⟩
abbrev main_v754 : Ref sig .tc := ⟨.hbm, 1276, rfl⟩
abbrev main_v755 : Ref sig .tc := ⟨.hbm, 1277, rfl⟩
abbrev main_v756 : Ref sig .tc := ⟨.hbm, 1278, rfl⟩
abbrev main_v757 : Ref sig .tc := ⟨.hbm, 1279, rfl⟩
abbrev main_v758 : Ref sig .tc := ⟨.hbm, 1280, rfl⟩
abbrev main_v759 : Ref sig .tc := ⟨.hbm, 1281, rfl⟩
abbrev main_cst_435 : Ref sig .tc := ⟨.hbm, 1282, rfl⟩
abbrev main_v760 : Ref sig .tc := ⟨.hbm, 1283, rfl⟩
abbrev main_c_436 : Ref sig .tc := ⟨.hbm, 1284, rfl⟩
abbrev main_v761 : Ref sig .tc := ⟨.hbm, 1285, rfl⟩
abbrev main_cst_437 : Ref sig .tc := ⟨.hbm, 1286, rfl⟩
abbrev main_v762 : Ref sig .tc := ⟨.hbm, 1287, rfl⟩
abbrev main_v763 : Ref sig .tc := ⟨.hbm, 1288, rfl⟩
abbrev main_c_438 : Ref sig .tc := ⟨.hbm, 1289, rfl⟩
abbrev main_v764 : Ref sig .tc := ⟨.hbm, 1290, rfl⟩
abbrev main_v765 : Ref sig .tc := ⟨.hbm, 1291, rfl⟩
abbrev main_c_439 : Ref sig .tc := ⟨.hbm, 1292, rfl⟩
abbrev main_v766 : Ref sig .tc := ⟨.hbm, 1293, rfl⟩
abbrev main_v767 : Ref sig .tc := ⟨.hbm, 1294, rfl⟩
abbrev main_v768 : Ref sig .tc := ⟨.hbm, 1295, rfl⟩
abbrev main_c_440 : Ref sig .tc := ⟨.hbm, 1296, rfl⟩
abbrev main_v769 : Ref sig .tc := ⟨.hbm, 1297, rfl⟩
abbrev main_v770 : Ref sig .tc := ⟨.hbm, 1298, rfl⟩
abbrev main_v771 : Ref sig .tc := ⟨.hbm, 1299, rfl⟩
abbrev main_v772 : Ref sig .tc := ⟨.hbm, 1300, rfl⟩
abbrev main_c_441 : Ref sig .tc := ⟨.hbm, 1301, rfl⟩
abbrev main_call75_v0 : Ref sig .tc := ⟨.hbm, 1302, rfl⟩
abbrev main_call75_v1 : Ref sig .tc := ⟨.hbm, 1303, rfl⟩
abbrev main_v773 : Ref sig .tc := ⟨.hbm, 1304, rfl⟩
abbrev main_c_442 : Ref sig .tc := ⟨.hbm, 1305, rfl⟩
abbrev main_v774 : Ref sig .tc := ⟨.hbm, 1306, rfl⟩
abbrev main_v775 : Ref sig .tc := ⟨.hbm, 1307, rfl⟩
abbrev main_c_443 : Ref sig .tc := ⟨.hbm, 1308, rfl⟩
abbrev main_v776 : Ref sig .tc := ⟨.hbm, 1309, rfl⟩
abbrev main_v777 : Ref sig .tc := ⟨.hbm, 1310, rfl⟩
abbrev main_v778 : Ref sig .tc := ⟨.hbm, 1311, rfl⟩
abbrev main_v779 : Ref sig .tc := ⟨.hbm, 1312, rfl⟩
abbrev main_c_444 : Ref sig .tc := ⟨.hbm, 1313, rfl⟩
abbrev main_call76_v0 : Ref sig .tc := ⟨.hbm, 1314, rfl⟩
abbrev main_call76_v1 : Ref sig .tc := ⟨.hbm, 1315, rfl⟩
abbrev main_v780 : Ref sig .tc := ⟨.hbm, 1316, rfl⟩
abbrev main_c_445 : Ref sig .tc := ⟨.hbm, 1317, rfl⟩
abbrev main_v781 : Ref sig .tc := ⟨.hbm, 1318, rfl⟩
abbrev main_c_446 : Ref sig .tc := ⟨.hbm, 1319, rfl⟩
abbrev main_v782 : Ref sig .tc := ⟨.hbm, 1320, rfl⟩
abbrev main_c_447 : Ref sig .tc := ⟨.hbm, 1321, rfl⟩
abbrev main_call77_v0 : Ref sig .tc := ⟨.hbm, 1322, rfl⟩
abbrev main_v783 : Ref sig .tc := ⟨.hbm, 1323, rfl⟩
abbrev main_c_448 : Ref sig .tc := ⟨.hbm, 1324, rfl⟩
abbrev main_v784 : Ref sig .tc := ⟨.hbm, 1325, rfl⟩
abbrev main_c_449 : Ref sig .tc := ⟨.hbm, 1326, rfl⟩
abbrev main_call78_v0 : Ref sig .tc := ⟨.hbm, 1327, rfl⟩
abbrev main_v785 : Ref sig .tc := ⟨.hbm, 1328, rfl⟩
abbrev main_c_450 : Ref sig .tc := ⟨.hbm, 1329, rfl⟩
abbrev main_v786 : Ref sig .tc := ⟨.hbm, 1330, rfl⟩
abbrev main_c_451 : Ref sig .tc := ⟨.hbm, 1331, rfl⟩
abbrev main_v787 : Ref sig .tc := ⟨.hbm, 1332, rfl⟩
abbrev main_v788 : Ref sig .tc := ⟨.hbm, 1333, rfl⟩
abbrev main_c_452 : Ref sig .tc := ⟨.hbm, 1334, rfl⟩
abbrev main_c_453 : Ref sig .tc := ⟨.hbm, 1335, rfl⟩
abbrev main_v789 : Ref sig .tc := ⟨.hbm, 1336, rfl⟩
abbrev main_c_454 : Ref sig .tc := ⟨.hbm, 1337, rfl⟩
abbrev main_c_455 : Ref sig .tc := ⟨.hbm, 1338, rfl⟩
abbrev main_v790 : Ref sig .tc := ⟨.hbm, 1339, rfl⟩
abbrev main_c_456 : Ref sig .tc := ⟨.hbm, 1340, rfl⟩
abbrev main_v791 : Ref sig .tc := ⟨.hbm, 1341, rfl⟩
abbrev main_v792 : Ref sig .tc := ⟨.hbm, 1342, rfl⟩
abbrev main_v793 : Ref sig .tc := ⟨.hbm, 1343, rfl⟩
abbrev main_c_457 : Ref sig .tc := ⟨.hbm, 1344, rfl⟩
abbrev main_v794 : Ref sig .tc := ⟨.hbm, 1345, rfl⟩
abbrev main_c_458 : Ref sig .tc := ⟨.hbm, 1346, rfl⟩
abbrev main_v795 : Ref sig .tc := ⟨.hbm, 1347, rfl⟩
abbrev main_v796 : Ref sig .tc := ⟨.hbm, 1348, rfl⟩
abbrev main_c_459 : Ref sig .tc := ⟨.hbm, 1349, rfl⟩
abbrev main_c_460 : Ref sig .tc := ⟨.hbm, 1350, rfl⟩
abbrev main_v797 : Ref sig .tc := ⟨.hbm, 1351, rfl⟩
abbrev main_c_461 : Ref sig .tc := ⟨.hbm, 1352, rfl⟩
abbrev main_c_462 : Ref sig .tc := ⟨.hbm, 1353, rfl⟩
abbrev main_v798 : Ref sig .tc := ⟨.hbm, 1354, rfl⟩
abbrev main_c_463 : Ref sig .tc := ⟨.hbm, 1355, rfl⟩
abbrev main_v799 : Ref sig .tc := ⟨.hbm, 1356, rfl⟩
abbrev main_v800 : Ref sig .tc := ⟨.hbm, 1357, rfl⟩
abbrev main_v801 : Ref sig .tc := ⟨.hbm, 1358, rfl⟩
abbrev main_v802 : Ref sig .tc := ⟨.hbm, 1359, rfl⟩
abbrev main_c_464 : Ref sig .tc := ⟨.hbm, 1360, rfl⟩
abbrev main_v803 : Ref sig .tc := ⟨.hbm, 1361, rfl⟩
abbrev main_c_465 : Ref sig .tc := ⟨.hbm, 1362, rfl⟩
abbrev main_v804 : Ref sig .tc := ⟨.hbm, 1363, rfl⟩
abbrev main_v805 : Ref sig .tc := ⟨.hbm, 1364, rfl⟩
abbrev main_c_466 : Ref sig .tc := ⟨.hbm, 1365, rfl⟩
abbrev main_c_467 : Ref sig .tc := ⟨.hbm, 1366, rfl⟩
abbrev main_v806 : Ref sig .tc := ⟨.hbm, 1367, rfl⟩
abbrev main_c_468 : Ref sig .tc := ⟨.hbm, 1368, rfl⟩
abbrev main_c_469 : Ref sig .tc := ⟨.hbm, 1369, rfl⟩
abbrev main_v807 : Ref sig .tc := ⟨.hbm, 1370, rfl⟩
abbrev main_c_470 : Ref sig .tc := ⟨.hbm, 1371, rfl⟩
abbrev main_v808 : Ref sig .tc := ⟨.hbm, 1372, rfl⟩
abbrev main_v809 : Ref sig .tc := ⟨.hbm, 1373, rfl⟩
abbrev main_v810 : Ref sig .tc := ⟨.hbm, 1374, rfl⟩
abbrev main_cst_471 : Ref sig .tc := ⟨.hbm, 1375, rfl⟩
abbrev main_v811 : Ref sig .tc := ⟨.hbm, 1376, rfl⟩
abbrev main_v812 : Ref sig .tc := ⟨.hbm, 1377, rfl⟩
abbrev main_v813 : Ref sig .tc := ⟨.hbm, 1378, rfl⟩
abbrev main_v814 : Ref sig .tc := ⟨.hbm, 1379, rfl⟩
abbrev main_v815 : Ref sig .tc := ⟨.hbm, 1380, rfl⟩
abbrev main_v816 : Ref sig .tc := ⟨.hbm, 1381, rfl⟩
abbrev main_v817 : Ref sig .tc := ⟨.hbm, 1382, rfl⟩
abbrev main_v818 : Ref sig .tc := ⟨.hbm, 1383, rfl⟩
abbrev main_v819 : Ref sig .tc := ⟨.hbm, 1384, rfl⟩
abbrev main_v820 : Ref sig .tc := ⟨.hbm, 1385, rfl⟩
abbrev main_cst_472 : Ref sig .tc := ⟨.hbm, 1386, rfl⟩
abbrev main_v821 : Ref sig .tc := ⟨.hbm, 1387, rfl⟩
abbrev main_c_473 : Ref sig .tc := ⟨.hbm, 1388, rfl⟩
abbrev main_v822 : Ref sig .tc := ⟨.hbm, 1389, rfl⟩
abbrev main_cst_474 : Ref sig .tc := ⟨.hbm, 1390, rfl⟩
abbrev main_v823 : Ref sig .tc := ⟨.hbm, 1391, rfl⟩
abbrev main_v824 : Ref sig .tc := ⟨.hbm, 1392, rfl⟩
abbrev main_c_475 : Ref sig .tc := ⟨.hbm, 1393, rfl⟩
abbrev main_v825 : Ref sig .tc := ⟨.hbm, 1394, rfl⟩
abbrev main_v826 : Ref sig .tc := ⟨.hbm, 1395, rfl⟩
abbrev main_c_476 : Ref sig .tc := ⟨.hbm, 1396, rfl⟩
abbrev main_v827 : Ref sig .tc := ⟨.hbm, 1397, rfl⟩
abbrev main_v828 : Ref sig .tc := ⟨.hbm, 1398, rfl⟩
abbrev main_v829 : Ref sig .tc := ⟨.hbm, 1399, rfl⟩
abbrev main_c_477 : Ref sig .tc := ⟨.hbm, 1400, rfl⟩
abbrev main_v830 : Ref sig .tc := ⟨.hbm, 1401, rfl⟩
abbrev main_v831 : Ref sig .tc := ⟨.hbm, 1402, rfl⟩
abbrev main_v832 : Ref sig .tc := ⟨.hbm, 1403, rfl⟩
abbrev main_v833 : Ref sig .tc := ⟨.hbm, 1404, rfl⟩
abbrev main_c_478 : Ref sig .tc := ⟨.hbm, 1405, rfl⟩
abbrev main_call81_v0 : Ref sig .tc := ⟨.hbm, 1406, rfl⟩
abbrev main_call81_v1 : Ref sig .tc := ⟨.hbm, 1407, rfl⟩
abbrev main_v834 : Ref sig .tc := ⟨.hbm, 1408, rfl⟩
abbrev main_c_479 : Ref sig .tc := ⟨.hbm, 1409, rfl⟩
abbrev main_v835 : Ref sig .tc := ⟨.hbm, 1410, rfl⟩
abbrev main_v836 : Ref sig .tc := ⟨.hbm, 1411, rfl⟩
abbrev main_c_480 : Ref sig .tc := ⟨.hbm, 1412, rfl⟩
abbrev main_v837 : Ref sig .tc := ⟨.hbm, 1413, rfl⟩
abbrev main_v838 : Ref sig .tc := ⟨.hbm, 1414, rfl⟩
abbrev main_v839 : Ref sig .tc := ⟨.hbm, 1415, rfl⟩
abbrev main_v840 : Ref sig .tc := ⟨.hbm, 1416, rfl⟩
abbrev main_c_481 : Ref sig .tc := ⟨.hbm, 1417, rfl⟩
abbrev main_call82_v0 : Ref sig .tc := ⟨.hbm, 1418, rfl⟩
abbrev main_call82_v1 : Ref sig .tc := ⟨.hbm, 1419, rfl⟩
abbrev main_v841 : Ref sig .tc := ⟨.hbm, 1420, rfl⟩
abbrev main_c_482 : Ref sig .tc := ⟨.hbm, 1421, rfl⟩
abbrev main_v842 : Ref sig .tc := ⟨.hbm, 1422, rfl⟩
abbrev main_c_483 : Ref sig .tc := ⟨.hbm, 1423, rfl⟩
abbrev main_v843 : Ref sig .tc := ⟨.hbm, 1424, rfl⟩
abbrev main_c_484 : Ref sig .tc := ⟨.hbm, 1425, rfl⟩
abbrev main_call83_v0 : Ref sig .tc := ⟨.hbm, 1426, rfl⟩
abbrev main_v844 : Ref sig .tc := ⟨.hbm, 1427, rfl⟩
abbrev main_c_485 : Ref sig .tc := ⟨.hbm, 1428, rfl⟩
abbrev main_v845 : Ref sig .tc := ⟨.hbm, 1429, rfl⟩
abbrev main_c_486 : Ref sig .tc := ⟨.hbm, 1430, rfl⟩
abbrev main_call84_v0 : Ref sig .tc := ⟨.hbm, 1431, rfl⟩
abbrev main_v846 : Ref sig .tc := ⟨.hbm, 1432, rfl⟩
abbrev main_c_487 : Ref sig .tc := ⟨.hbm, 1433, rfl⟩
abbrev main_v847 : Ref sig .tc := ⟨.hbm, 1434, rfl⟩
abbrev main_c_488 : Ref sig .tc := ⟨.hbm, 1435, rfl⟩
abbrev main_v848 : Ref sig .tc := ⟨.hbm, 1436, rfl⟩
abbrev main_v849 : Ref sig .tc := ⟨.hbm, 1437, rfl⟩
abbrev main_c_489 : Ref sig .tc := ⟨.hbm, 1438, rfl⟩
abbrev main_c_490 : Ref sig .tc := ⟨.hbm, 1439, rfl⟩
abbrev main_v850 : Ref sig .tc := ⟨.hbm, 1440, rfl⟩
abbrev main_c_491 : Ref sig .tc := ⟨.hbm, 1441, rfl⟩
abbrev main_c_492 : Ref sig .tc := ⟨.hbm, 1442, rfl⟩
abbrev main_v851 : Ref sig .tc := ⟨.hbm, 1443, rfl⟩
abbrev main_c_493 : Ref sig .tc := ⟨.hbm, 1444, rfl⟩
abbrev main_v852 : Ref sig .tc := ⟨.hbm, 1445, rfl⟩
abbrev main_v853 : Ref sig .tc := ⟨.hbm, 1446, rfl⟩
abbrev main_v854 : Ref sig .tc := ⟨.hbm, 1447, rfl⟩
abbrev main_c_494 : Ref sig .tc := ⟨.hbm, 1448, rfl⟩
abbrev main_v855 : Ref sig .tc := ⟨.hbm, 1449, rfl⟩
abbrev main_c_495 : Ref sig .tc := ⟨.hbm, 1450, rfl⟩
abbrev main_v856 : Ref sig .tc := ⟨.hbm, 1451, rfl⟩
abbrev main_v857 : Ref sig .tc := ⟨.hbm, 1452, rfl⟩
abbrev main_c_496 : Ref sig .tc := ⟨.hbm, 1453, rfl⟩
abbrev main_c_497 : Ref sig .tc := ⟨.hbm, 1454, rfl⟩
abbrev main_v858 : Ref sig .tc := ⟨.hbm, 1455, rfl⟩
abbrev main_c_498 : Ref sig .tc := ⟨.hbm, 1456, rfl⟩
abbrev main_c_499 : Ref sig .tc := ⟨.hbm, 1457, rfl⟩
abbrev main_v859 : Ref sig .tc := ⟨.hbm, 1458, rfl⟩
abbrev main_c_500 : Ref sig .tc := ⟨.hbm, 1459, rfl⟩
abbrev main_v860 : Ref sig .tc := ⟨.hbm, 1460, rfl⟩
abbrev main_v861 : Ref sig .tc := ⟨.hbm, 1461, rfl⟩
abbrev main_v862 : Ref sig .tc := ⟨.hbm, 1462, rfl⟩
abbrev main_v863 : Ref sig .tc := ⟨.hbm, 1463, rfl⟩
abbrev main_c_501 : Ref sig .tc := ⟨.hbm, 1464, rfl⟩
abbrev main_v864 : Ref sig .tc := ⟨.hbm, 1465, rfl⟩
abbrev main_c_502 : Ref sig .tc := ⟨.hbm, 1466, rfl⟩
abbrev main_v865 : Ref sig .tc := ⟨.hbm, 1467, rfl⟩
abbrev main_v866 : Ref sig .tc := ⟨.hbm, 1468, rfl⟩
abbrev main_c_503 : Ref sig .tc := ⟨.hbm, 1469, rfl⟩
abbrev main_c_504 : Ref sig .tc := ⟨.hbm, 1470, rfl⟩
abbrev main_v867 : Ref sig .tc := ⟨.hbm, 1471, rfl⟩
abbrev main_c_505 : Ref sig .tc := ⟨.hbm, 1472, rfl⟩
abbrev main_c_506 : Ref sig .tc := ⟨.hbm, 1473, rfl⟩
abbrev main_v868 : Ref sig .tc := ⟨.hbm, 1474, rfl⟩
abbrev main_c_507 : Ref sig .tc := ⟨.hbm, 1475, rfl⟩
abbrev main_v869 : Ref sig .tc := ⟨.hbm, 1476, rfl⟩
abbrev main_v870 : Ref sig .tc := ⟨.hbm, 1477, rfl⟩
abbrev main_v871 : Ref sig .tc := ⟨.hbm, 1478, rfl⟩
abbrev main_cst_508 : Ref sig .tc := ⟨.hbm, 1479, rfl⟩
abbrev main_v872 : Ref sig .tc := ⟨.hbm, 1480, rfl⟩
abbrev main_v873 : Ref sig .tc := ⟨.hbm, 1481, rfl⟩
abbrev main_v874 : Ref sig .tc := ⟨.hbm, 1482, rfl⟩
abbrev main_v875 : Ref sig .tc := ⟨.hbm, 1483, rfl⟩
abbrev main_v876 : Ref sig .tc := ⟨.hbm, 1484, rfl⟩
abbrev main_v877 : Ref sig .tc := ⟨.hbm, 1485, rfl⟩
abbrev main_v878 : Ref sig .tc := ⟨.hbm, 1486, rfl⟩
abbrev main_v879 : Ref sig .tc := ⟨.hbm, 1487, rfl⟩
abbrev main_v880 : Ref sig .tc := ⟨.hbm, 1488, rfl⟩
abbrev main_v881 : Ref sig .tc := ⟨.hbm, 1489, rfl⟩
abbrev main_cst_509 : Ref sig .tc := ⟨.hbm, 1490, rfl⟩
abbrev main_v882 : Ref sig .tc := ⟨.hbm, 1491, rfl⟩
abbrev main_c_510 : Ref sig .tc := ⟨.hbm, 1492, rfl⟩
abbrev main_v883 : Ref sig .tc := ⟨.hbm, 1493, rfl⟩
abbrev main_cst_511 : Ref sig .tc := ⟨.hbm, 1494, rfl⟩
abbrev main_v884 : Ref sig .tc := ⟨.hbm, 1495, rfl⟩
abbrev main_v885 : Ref sig .tc := ⟨.hbm, 1496, rfl⟩
abbrev main_c_512 : Ref sig .tc := ⟨.hbm, 1497, rfl⟩
abbrev main_v886 : Ref sig .tc := ⟨.hbm, 1498, rfl⟩
abbrev main_v887 : Ref sig .tc := ⟨.hbm, 1499, rfl⟩
abbrev main_c_513 : Ref sig .tc := ⟨.hbm, 1500, rfl⟩
abbrev main_v888 : Ref sig .tc := ⟨.hbm, 1501, rfl⟩
abbrev main_v889 : Ref sig .tc := ⟨.hbm, 1502, rfl⟩
abbrev main_v890 : Ref sig .tc := ⟨.hbm, 1503, rfl⟩
abbrev main_c_514 : Ref sig .tc := ⟨.hbm, 1504, rfl⟩
abbrev main_v891 : Ref sig .tc := ⟨.hbm, 1505, rfl⟩
abbrev main_v892 : Ref sig .tc := ⟨.hbm, 1506, rfl⟩
abbrev main_v893 : Ref sig .tc := ⟨.hbm, 1507, rfl⟩
abbrev main_v894 : Ref sig .tc := ⟨.hbm, 1508, rfl⟩
abbrev main_c_515 : Ref sig .tc := ⟨.hbm, 1509, rfl⟩
abbrev main_call87_v0 : Ref sig .tc := ⟨.hbm, 1510, rfl⟩
abbrev main_call87_v1 : Ref sig .tc := ⟨.hbm, 1511, rfl⟩
abbrev main_v895 : Ref sig .tc := ⟨.hbm, 1512, rfl⟩
abbrev main_c_516 : Ref sig .tc := ⟨.hbm, 1513, rfl⟩
abbrev main_v896 : Ref sig .tc := ⟨.hbm, 1514, rfl⟩
abbrev main_v897 : Ref sig .tc := ⟨.hbm, 1515, rfl⟩
abbrev main_c_517 : Ref sig .tc := ⟨.hbm, 1516, rfl⟩
abbrev main_v898 : Ref sig .tc := ⟨.hbm, 1517, rfl⟩
abbrev main_v899 : Ref sig .tc := ⟨.hbm, 1518, rfl⟩
abbrev main_v900 : Ref sig .tc := ⟨.hbm, 1519, rfl⟩
abbrev main_v901 : Ref sig .tc := ⟨.hbm, 1520, rfl⟩
abbrev main_c_518 : Ref sig .tc := ⟨.hbm, 1521, rfl⟩
abbrev main_call88_v0 : Ref sig .tc := ⟨.hbm, 1522, rfl⟩
abbrev main_call88_v1 : Ref sig .tc := ⟨.hbm, 1523, rfl⟩
abbrev main_v902 : Ref sig .tc := ⟨.hbm, 1524, rfl⟩
abbrev main_c_519 : Ref sig .tc := ⟨.hbm, 1525, rfl⟩
abbrev main_v903 : Ref sig .tc := ⟨.hbm, 1526, rfl⟩
abbrev main_c_520 : Ref sig .tc := ⟨.hbm, 1527, rfl⟩
abbrev main_v904 : Ref sig .tc := ⟨.hbm, 1528, rfl⟩
abbrev main_c_521 : Ref sig .tc := ⟨.hbm, 1529, rfl⟩
abbrev main_call89_v0 : Ref sig .tc := ⟨.hbm, 1530, rfl⟩
abbrev main_v905 : Ref sig .tc := ⟨.hbm, 1531, rfl⟩
abbrev main_c_522 : Ref sig .tc := ⟨.hbm, 1532, rfl⟩
abbrev main_v906 : Ref sig .tc := ⟨.hbm, 1533, rfl⟩
abbrev main_c_523 : Ref sig .tc := ⟨.hbm, 1534, rfl⟩
abbrev main_call90_v0 : Ref sig .tc := ⟨.hbm, 1535, rfl⟩
abbrev main_v907 : Ref sig .tc := ⟨.hbm, 1536, rfl⟩
abbrev main_c_524 : Ref sig .tc := ⟨.hbm, 1537, rfl⟩
abbrev main_v908 : Ref sig .tc := ⟨.hbm, 1538, rfl⟩
abbrev main_c_525 : Ref sig .tc := ⟨.hbm, 1539, rfl⟩
abbrev main_v909 : Ref sig .tc := ⟨.hbm, 1540, rfl⟩
abbrev main_v910 : Ref sig .tc := ⟨.hbm, 1541, rfl⟩
abbrev main_c_526 : Ref sig .tc := ⟨.hbm, 1542, rfl⟩
abbrev main_c_527 : Ref sig .tc := ⟨.hbm, 1543, rfl⟩
abbrev main_v911 : Ref sig .tc := ⟨.hbm, 1544, rfl⟩
abbrev main_c_528 : Ref sig .tc := ⟨.hbm, 1545, rfl⟩
abbrev main_c_529 : Ref sig .tc := ⟨.hbm, 1546, rfl⟩
abbrev main_v912 : Ref sig .tc := ⟨.hbm, 1547, rfl⟩
abbrev main_c_530 : Ref sig .tc := ⟨.hbm, 1548, rfl⟩
abbrev main_v913 : Ref sig .tc := ⟨.hbm, 1549, rfl⟩
abbrev main_v914 : Ref sig .tc := ⟨.hbm, 1550, rfl⟩
abbrev main_v915 : Ref sig .tc := ⟨.hbm, 1551, rfl⟩
abbrev main_c_531 : Ref sig .tc := ⟨.hbm, 1552, rfl⟩
abbrev main_v916 : Ref sig .tc := ⟨.hbm, 1553, rfl⟩
abbrev main_c_532 : Ref sig .tc := ⟨.hbm, 1554, rfl⟩
abbrev main_v917 : Ref sig .tc := ⟨.hbm, 1555, rfl⟩
abbrev main_v918 : Ref sig .tc := ⟨.hbm, 1556, rfl⟩
abbrev main_c_533 : Ref sig .tc := ⟨.hbm, 1557, rfl⟩
abbrev main_c_534 : Ref sig .tc := ⟨.hbm, 1558, rfl⟩
abbrev main_v919 : Ref sig .tc := ⟨.hbm, 1559, rfl⟩
abbrev main_c_535 : Ref sig .tc := ⟨.hbm, 1560, rfl⟩
abbrev main_c_536 : Ref sig .tc := ⟨.hbm, 1561, rfl⟩
abbrev main_v920 : Ref sig .tc := ⟨.hbm, 1562, rfl⟩
abbrev main_c_537 : Ref sig .tc := ⟨.hbm, 1563, rfl⟩
abbrev main_v921 : Ref sig .tc := ⟨.hbm, 1564, rfl⟩
abbrev main_v922 : Ref sig .tc := ⟨.hbm, 1565, rfl⟩
abbrev main_v923 : Ref sig .tc := ⟨.hbm, 1566, rfl⟩
abbrev main_v924 : Ref sig .tc := ⟨.hbm, 1567, rfl⟩
abbrev main_c_538 : Ref sig .tc := ⟨.hbm, 1568, rfl⟩
abbrev main_v925 : Ref sig .tc := ⟨.hbm, 1569, rfl⟩
abbrev main_c_539 : Ref sig .tc := ⟨.hbm, 1570, rfl⟩
abbrev main_v926 : Ref sig .tc := ⟨.hbm, 1571, rfl⟩
abbrev main_v927 : Ref sig .tc := ⟨.hbm, 1572, rfl⟩
abbrev main_c_540 : Ref sig .tc := ⟨.hbm, 1573, rfl⟩
abbrev main_c_541 : Ref sig .tc := ⟨.hbm, 1574, rfl⟩
abbrev main_v928 : Ref sig .tc := ⟨.hbm, 1575, rfl⟩
abbrev main_c_542 : Ref sig .tc := ⟨.hbm, 1576, rfl⟩
abbrev main_c_543 : Ref sig .tc := ⟨.hbm, 1577, rfl⟩
abbrev main_v929 : Ref sig .tc := ⟨.hbm, 1578, rfl⟩
abbrev main_c_544 : Ref sig .tc := ⟨.hbm, 1579, rfl⟩
abbrev main_v930 : Ref sig .tc := ⟨.hbm, 1580, rfl⟩
abbrev main_v931 : Ref sig .tc := ⟨.hbm, 1581, rfl⟩
abbrev main_v932 : Ref sig .tc := ⟨.hbm, 1582, rfl⟩
abbrev main_cst_545 : Ref sig .tc := ⟨.hbm, 1583, rfl⟩
abbrev main_v933 : Ref sig .tc := ⟨.hbm, 1584, rfl⟩
abbrev main_v934 : Ref sig .tc := ⟨.hbm, 1585, rfl⟩
abbrev main_v935 : Ref sig .tc := ⟨.hbm, 1586, rfl⟩
abbrev main_v936 : Ref sig .tc := ⟨.hbm, 1587, rfl⟩
abbrev main_v937 : Ref sig .tc := ⟨.hbm, 1588, rfl⟩
abbrev main_v938 : Ref sig .tc := ⟨.hbm, 1589, rfl⟩
abbrev main_v939 : Ref sig .tc := ⟨.hbm, 1590, rfl⟩
abbrev main_v940 : Ref sig .tc := ⟨.hbm, 1591, rfl⟩
abbrev main_v941 : Ref sig .tc := ⟨.hbm, 1592, rfl⟩
abbrev main_v942 : Ref sig .tc := ⟨.hbm, 1593, rfl⟩
abbrev main_cst_546 : Ref sig .tc := ⟨.hbm, 1594, rfl⟩
abbrev main_v943 : Ref sig .tc := ⟨.hbm, 1595, rfl⟩
abbrev main_c_547 : Ref sig .tc := ⟨.hbm, 1596, rfl⟩
abbrev main_v944 : Ref sig .tc := ⟨.hbm, 1597, rfl⟩
abbrev main_cst_548 : Ref sig .tc := ⟨.hbm, 1598, rfl⟩
abbrev main_v945 : Ref sig .tc := ⟨.hbm, 1599, rfl⟩
abbrev main_v946 : Ref sig .tc := ⟨.hbm, 1600, rfl⟩
abbrev main_c_549 : Ref sig .tc := ⟨.hbm, 1601, rfl⟩
abbrev main_v947 : Ref sig .tc := ⟨.hbm, 1602, rfl⟩
abbrev main_v948 : Ref sig .tc := ⟨.hbm, 1603, rfl⟩
abbrev main_c_550 : Ref sig .tc := ⟨.hbm, 1604, rfl⟩
abbrev main_v949 : Ref sig .tc := ⟨.hbm, 1605, rfl⟩
abbrev main_v950 : Ref sig .tc := ⟨.hbm, 1606, rfl⟩
abbrev main_v951 : Ref sig .tc := ⟨.hbm, 1607, rfl⟩
abbrev main_c_551 : Ref sig .tc := ⟨.hbm, 1608, rfl⟩
abbrev main_v952 : Ref sig .tc := ⟨.hbm, 1609, rfl⟩
abbrev main_v953 : Ref sig .tc := ⟨.hbm, 1610, rfl⟩
abbrev main_v954 : Ref sig .tc := ⟨.hbm, 1611, rfl⟩
abbrev main_v955 : Ref sig .tc := ⟨.hbm, 1612, rfl⟩
abbrev main_c_552 : Ref sig .tc := ⟨.hbm, 1613, rfl⟩
abbrev main_call93_v0 : Ref sig .tc := ⟨.hbm, 1614, rfl⟩
abbrev main_call93_v1 : Ref sig .tc := ⟨.hbm, 1615, rfl⟩
abbrev main_v956 : Ref sig .tc := ⟨.hbm, 1616, rfl⟩
abbrev main_c_553 : Ref sig .tc := ⟨.hbm, 1617, rfl⟩
abbrev main_v957 : Ref sig .tc := ⟨.hbm, 1618, rfl⟩
abbrev main_v958 : Ref sig .tc := ⟨.hbm, 1619, rfl⟩
abbrev main_c_554 : Ref sig .tc := ⟨.hbm, 1620, rfl⟩
abbrev main_v959 : Ref sig .tc := ⟨.hbm, 1621, rfl⟩
abbrev main_v960 : Ref sig .tc := ⟨.hbm, 1622, rfl⟩
abbrev main_v961 : Ref sig .tc := ⟨.hbm, 1623, rfl⟩
abbrev main_v962 : Ref sig .tc := ⟨.hbm, 1624, rfl⟩
abbrev main_c_555 : Ref sig .tc := ⟨.hbm, 1625, rfl⟩
abbrev main_call94_v0 : Ref sig .tc := ⟨.hbm, 1626, rfl⟩
abbrev main_call94_v1 : Ref sig .tc := ⟨.hbm, 1627, rfl⟩
abbrev main_v963 : Ref sig .tc := ⟨.hbm, 1628, rfl⟩
abbrev main_c_556 : Ref sig .tc := ⟨.hbm, 1629, rfl⟩
abbrev main_v964 : Ref sig .tc := ⟨.hbm, 1630, rfl⟩
abbrev main_c_557 : Ref sig .tc := ⟨.hbm, 1631, rfl⟩
abbrev main_v965 : Ref sig .tc := ⟨.hbm, 1632, rfl⟩
abbrev main_c_558 : Ref sig .tc := ⟨.hbm, 1633, rfl⟩
abbrev main_call95_v0 : Ref sig .tc := ⟨.hbm, 1634, rfl⟩
abbrev main_v966 : Ref sig .tc := ⟨.hbm, 1635, rfl⟩
abbrev main_c_559 : Ref sig .tc := ⟨.hbm, 1636, rfl⟩
abbrev main_v967 : Ref sig .tc := ⟨.hbm, 1637, rfl⟩
abbrev main_c_560 : Ref sig .tc := ⟨.hbm, 1638, rfl⟩
abbrev main_call96_v0 : Ref sig .tc := ⟨.hbm, 1639, rfl⟩
abbrev main_v968 : Ref sig .tc := ⟨.hbm, 1640, rfl⟩
abbrev main_c_561 : Ref sig .tc := ⟨.hbm, 1641, rfl⟩
abbrev main_v969 : Ref sig .tc := ⟨.hbm, 1642, rfl⟩
abbrev main_c_562 : Ref sig .tc := ⟨.hbm, 1643, rfl⟩
abbrev main_v970 : Ref sig .tc := ⟨.hbm, 1644, rfl⟩
abbrev main_v971 : Ref sig .tc := ⟨.hbm, 1645, rfl⟩
abbrev main_c_563 : Ref sig .tc := ⟨.hbm, 1646, rfl⟩
abbrev main_c_564 : Ref sig .tc := ⟨.hbm, 1647, rfl⟩
abbrev main_v972 : Ref sig .tc := ⟨.hbm, 1648, rfl⟩
abbrev main_c_565 : Ref sig .tc := ⟨.hbm, 1649, rfl⟩
abbrev main_c_566 : Ref sig .tc := ⟨.hbm, 1650, rfl⟩
abbrev main_v973 : Ref sig .tc := ⟨.hbm, 1651, rfl⟩
abbrev main_c_567 : Ref sig .tc := ⟨.hbm, 1652, rfl⟩
abbrev main_v974 : Ref sig .tc := ⟨.hbm, 1653, rfl⟩
abbrev main_v975 : Ref sig .tc := ⟨.hbm, 1654, rfl⟩
abbrev main_v976 : Ref sig .tc := ⟨.hbm, 1655, rfl⟩
abbrev main_c_568 : Ref sig .tc := ⟨.hbm, 1656, rfl⟩
abbrev main_v977 : Ref sig .tc := ⟨.hbm, 1657, rfl⟩
abbrev main_c_569 : Ref sig .tc := ⟨.hbm, 1658, rfl⟩
abbrev main_v978 : Ref sig .tc := ⟨.hbm, 1659, rfl⟩
abbrev main_v979 : Ref sig .tc := ⟨.hbm, 1660, rfl⟩
abbrev main_c_570 : Ref sig .tc := ⟨.hbm, 1661, rfl⟩
abbrev main_c_571 : Ref sig .tc := ⟨.hbm, 1662, rfl⟩
abbrev main_v980 : Ref sig .tc := ⟨.hbm, 1663, rfl⟩
abbrev main_c_572 : Ref sig .tc := ⟨.hbm, 1664, rfl⟩
abbrev main_c_573 : Ref sig .tc := ⟨.hbm, 1665, rfl⟩
abbrev main_v981 : Ref sig .tc := ⟨.hbm, 1666, rfl⟩
abbrev main_c_574 : Ref sig .tc := ⟨.hbm, 1667, rfl⟩
abbrev main_v982 : Ref sig .tc := ⟨.hbm, 1668, rfl⟩
abbrev main_v983 : Ref sig .tc := ⟨.hbm, 1669, rfl⟩
abbrev main_v984 : Ref sig .tc := ⟨.hbm, 1670, rfl⟩
abbrev main_v985 : Ref sig .tc := ⟨.hbm, 1671, rfl⟩
abbrev main_c_575 : Ref sig .tc := ⟨.hbm, 1672, rfl⟩
abbrev main_v986 : Ref sig .tc := ⟨.hbm, 1673, rfl⟩
abbrev main_c_576 : Ref sig .tc := ⟨.hbm, 1674, rfl⟩
abbrev main_v987 : Ref sig .tc := ⟨.hbm, 1675, rfl⟩
abbrev main_v988 : Ref sig .tc := ⟨.hbm, 1676, rfl⟩
abbrev main_c_577 : Ref sig .tc := ⟨.hbm, 1677, rfl⟩
abbrev main_c_578 : Ref sig .tc := ⟨.hbm, 1678, rfl⟩
abbrev main_v989 : Ref sig .tc := ⟨.hbm, 1679, rfl⟩
abbrev main_c_579 : Ref sig .tc := ⟨.hbm, 1680, rfl⟩
abbrev main_c_580 : Ref sig .tc := ⟨.hbm, 1681, rfl⟩
abbrev main_v990 : Ref sig .tc := ⟨.hbm, 1682, rfl⟩
abbrev main_c_581 : Ref sig .tc := ⟨.hbm, 1683, rfl⟩
abbrev main_v991 : Ref sig .tc := ⟨.hbm, 1684, rfl⟩
abbrev main_v992 : Ref sig .tc := ⟨.hbm, 1685, rfl⟩
abbrev main_v993 : Ref sig .tc := ⟨.hbm, 1686, rfl⟩
abbrev main_cst_582 : Ref sig .tc := ⟨.hbm, 1687, rfl⟩
abbrev main_v994 : Ref sig .tc := ⟨.hbm, 1688, rfl⟩
abbrev main_v995 : Ref sig .tc := ⟨.hbm, 1689, rfl⟩
abbrev main_v996 : Ref sig .tc := ⟨.hbm, 1690, rfl⟩
abbrev main_v997 : Ref sig .tc := ⟨.hbm, 1691, rfl⟩
abbrev main_v998 : Ref sig .tc := ⟨.hbm, 1692, rfl⟩
abbrev main_v999 : Ref sig .tc := ⟨.hbm, 1693, rfl⟩
abbrev main_v1000 : Ref sig .tc := ⟨.hbm, 1694, rfl⟩
abbrev main_v1001 : Ref sig .tc := ⟨.hbm, 1695, rfl⟩
abbrev main_v1002 : Ref sig .tc := ⟨.hbm, 1696, rfl⟩
abbrev main_v1003 : Ref sig .tc := ⟨.hbm, 1697, rfl⟩
abbrev main_cst_583 : Ref sig .tc := ⟨.hbm, 1698, rfl⟩
abbrev main_v1004 : Ref sig .tc := ⟨.hbm, 1699, rfl⟩
abbrev main_c_584 : Ref sig .tc := ⟨.hbm, 1700, rfl⟩
abbrev main_v1005 : Ref sig .tc := ⟨.hbm, 1701, rfl⟩
abbrev main_cst_585 : Ref sig .tc := ⟨.hbm, 1702, rfl⟩
abbrev main_v1006 : Ref sig .tc := ⟨.hbm, 1703, rfl⟩
abbrev main_v1007 : Ref sig .tc := ⟨.hbm, 1704, rfl⟩
abbrev main_c_586 : Ref sig .tc := ⟨.hbm, 1705, rfl⟩
abbrev main_v1008 : Ref sig .tc := ⟨.hbm, 1706, rfl⟩
abbrev main_v1009 : Ref sig .tc := ⟨.hbm, 1707, rfl⟩
abbrev main_c_587 : Ref sig .tc := ⟨.hbm, 1708, rfl⟩
abbrev main_v1010 : Ref sig .tc := ⟨.hbm, 1709, rfl⟩
abbrev main_v1011 : Ref sig .tc := ⟨.hbm, 1710, rfl⟩
abbrev main_v1012 : Ref sig .tc := ⟨.hbm, 1711, rfl⟩
abbrev main_c_588 : Ref sig .tc := ⟨.hbm, 1712, rfl⟩
abbrev main_v1013 : Ref sig .tc := ⟨.hbm, 1713, rfl⟩
abbrev main_v1014 : Ref sig .tc := ⟨.hbm, 1714, rfl⟩
abbrev main_v1015 : Ref sig .tc := ⟨.hbm, 1715, rfl⟩
abbrev main_v1016 : Ref sig .tc := ⟨.hbm, 1716, rfl⟩
abbrev main_c_589 : Ref sig .tc := ⟨.hbm, 1717, rfl⟩
abbrev main_call99_v0 : Ref sig .tc := ⟨.hbm, 1718, rfl⟩
abbrev main_call99_v1 : Ref sig .tc := ⟨.hbm, 1719, rfl⟩
abbrev main_v1017 : Ref sig .tc := ⟨.hbm, 1720, rfl⟩
abbrev main_c_590 : Ref sig .tc := ⟨.hbm, 1721, rfl⟩
abbrev main_v1018 : Ref sig .tc := ⟨.hbm, 1722, rfl⟩
abbrev main_v1019 : Ref sig .tc := ⟨.hbm, 1723, rfl⟩
abbrev main_c_591 : Ref sig .tc := ⟨.hbm, 1724, rfl⟩
abbrev main_v1020 : Ref sig .tc := ⟨.hbm, 1725, rfl⟩
abbrev main_v1021 : Ref sig .tc := ⟨.hbm, 1726, rfl⟩
abbrev main_v1022 : Ref sig .tc := ⟨.hbm, 1727, rfl⟩
abbrev main_v1023 : Ref sig .tc := ⟨.hbm, 1728, rfl⟩
abbrev main_c_592 : Ref sig .tc := ⟨.hbm, 1729, rfl⟩
abbrev main_call100_v0 : Ref sig .tc := ⟨.hbm, 1730, rfl⟩
abbrev main_call100_v1 : Ref sig .tc := ⟨.hbm, 1731, rfl⟩
abbrev main_v1024 : Ref sig .tc := ⟨.hbm, 1732, rfl⟩
abbrev main_c_593 : Ref sig .tc := ⟨.hbm, 1733, rfl⟩
abbrev main_v1025 : Ref sig .tc := ⟨.hbm, 1734, rfl⟩
abbrev main_c_594 : Ref sig .tc := ⟨.hbm, 1735, rfl⟩
abbrev main_v1026 : Ref sig .tc := ⟨.hbm, 1736, rfl⟩
abbrev main_c_595 : Ref sig .tc := ⟨.hbm, 1737, rfl⟩
abbrev main_call101_v0 : Ref sig .tc := ⟨.hbm, 1738, rfl⟩
abbrev main_v1027 : Ref sig .tc := ⟨.hbm, 1739, rfl⟩
abbrev main_c_596 : Ref sig .tc := ⟨.hbm, 1740, rfl⟩
abbrev main_v1028 : Ref sig .tc := ⟨.hbm, 1741, rfl⟩
abbrev main_c_597 : Ref sig .tc := ⟨.hbm, 1742, rfl⟩
abbrev main_call102_v0 : Ref sig .tc := ⟨.hbm, 1743, rfl⟩
abbrev main_v1029 : Ref sig .tc := ⟨.hbm, 1744, rfl⟩
abbrev main_c_598 : Ref sig .tc := ⟨.hbm, 1745, rfl⟩
abbrev main_v1030 : Ref sig .tc := ⟨.hbm, 1746, rfl⟩
abbrev main_c_599 : Ref sig .tc := ⟨.hbm, 1747, rfl⟩
abbrev main_v1031 : Ref sig .tc := ⟨.hbm, 1748, rfl⟩
abbrev main_v1032 : Ref sig .tc := ⟨.hbm, 1749, rfl⟩
abbrev main_c_600 : Ref sig .tc := ⟨.hbm, 1750, rfl⟩
abbrev main_c_601 : Ref sig .tc := ⟨.hbm, 1751, rfl⟩
abbrev main_v1033 : Ref sig .tc := ⟨.hbm, 1752, rfl⟩
abbrev main_c_602 : Ref sig .tc := ⟨.hbm, 1753, rfl⟩
abbrev main_c_603 : Ref sig .tc := ⟨.hbm, 1754, rfl⟩
abbrev main_v1034 : Ref sig .tc := ⟨.hbm, 1755, rfl⟩
abbrev main_c_604 : Ref sig .tc := ⟨.hbm, 1756, rfl⟩
abbrev main_v1035 : Ref sig .tc := ⟨.hbm, 1757, rfl⟩
abbrev main_v1036 : Ref sig .tc := ⟨.hbm, 1758, rfl⟩
abbrev main_v1037 : Ref sig .tc := ⟨.hbm, 1759, rfl⟩
abbrev main_c_605 : Ref sig .tc := ⟨.hbm, 1760, rfl⟩
abbrev main_v1038 : Ref sig .tc := ⟨.hbm, 1761, rfl⟩
abbrev main_c_606 : Ref sig .tc := ⟨.hbm, 1762, rfl⟩
abbrev main_v1039 : Ref sig .tc := ⟨.hbm, 1763, rfl⟩
abbrev main_v1040 : Ref sig .tc := ⟨.hbm, 1764, rfl⟩
abbrev main_c_607 : Ref sig .tc := ⟨.hbm, 1765, rfl⟩
abbrev main_c_608 : Ref sig .tc := ⟨.hbm, 1766, rfl⟩
abbrev main_v1041 : Ref sig .tc := ⟨.hbm, 1767, rfl⟩
abbrev main_c_609 : Ref sig .tc := ⟨.hbm, 1768, rfl⟩
abbrev main_c_610 : Ref sig .tc := ⟨.hbm, 1769, rfl⟩
abbrev main_v1042 : Ref sig .tc := ⟨.hbm, 1770, rfl⟩
abbrev main_c_611 : Ref sig .tc := ⟨.hbm, 1771, rfl⟩
abbrev main_v1043 : Ref sig .tc := ⟨.hbm, 1772, rfl⟩
abbrev main_v1044 : Ref sig .tc := ⟨.hbm, 1773, rfl⟩
abbrev main_v1045 : Ref sig .tc := ⟨.hbm, 1774, rfl⟩
abbrev main_v1046 : Ref sig .tc := ⟨.hbm, 1775, rfl⟩
abbrev main_c_612 : Ref sig .tc := ⟨.hbm, 1776, rfl⟩
abbrev main_v1047 : Ref sig .tc := ⟨.hbm, 1777, rfl⟩
abbrev main_c_613 : Ref sig .tc := ⟨.hbm, 1778, rfl⟩
abbrev main_v1048 : Ref sig .tc := ⟨.hbm, 1779, rfl⟩
abbrev main_v1049 : Ref sig .tc := ⟨.hbm, 1780, rfl⟩
abbrev main_c_614 : Ref sig .tc := ⟨.hbm, 1781, rfl⟩
abbrev main_c_615 : Ref sig .tc := ⟨.hbm, 1782, rfl⟩
abbrev main_v1050 : Ref sig .tc := ⟨.hbm, 1783, rfl⟩
abbrev main_c_616 : Ref sig .tc := ⟨.hbm, 1784, rfl⟩
abbrev main_c_617 : Ref sig .tc := ⟨.hbm, 1785, rfl⟩
abbrev main_v1051 : Ref sig .tc := ⟨.hbm, 1786, rfl⟩
abbrev main_c_618 : Ref sig .tc := ⟨.hbm, 1787, rfl⟩
abbrev main_v1052 : Ref sig .tc := ⟨.hbm, 1788, rfl⟩
abbrev main_v1053 : Ref sig .tc := ⟨.hbm, 1789, rfl⟩
abbrev main_v1054 : Ref sig .tc := ⟨.hbm, 1790, rfl⟩
abbrev main_cst_619 : Ref sig .tc := ⟨.hbm, 1791, rfl⟩
abbrev main_v1055 : Ref sig .tc := ⟨.hbm, 1792, rfl⟩
abbrev main_v1056 : Ref sig .tc := ⟨.hbm, 1793, rfl⟩
abbrev main_v1057 : Ref sig .tc := ⟨.hbm, 1794, rfl⟩
abbrev main_v1058 : Ref sig .tc := ⟨.hbm, 1795, rfl⟩
abbrev main_v1059 : Ref sig .tc := ⟨.hbm, 1796, rfl⟩
abbrev main_v1060 : Ref sig .tc := ⟨.hbm, 1797, rfl⟩
abbrev main_v1061 : Ref sig .tc := ⟨.hbm, 1798, rfl⟩
abbrev main_v1062 : Ref sig .tc := ⟨.hbm, 1799, rfl⟩
abbrev main_v1063 : Ref sig .tc := ⟨.hbm, 1800, rfl⟩
abbrev main_v1064 : Ref sig .tc := ⟨.hbm, 1801, rfl⟩
abbrev main_cst_620 : Ref sig .tc := ⟨.hbm, 1802, rfl⟩
abbrev main_v1065 : Ref sig .tc := ⟨.hbm, 1803, rfl⟩
abbrev main_c_621 : Ref sig .tc := ⟨.hbm, 1804, rfl⟩
abbrev main_v1066 : Ref sig .tc := ⟨.hbm, 1805, rfl⟩
abbrev main_cst_622 : Ref sig .tc := ⟨.hbm, 1806, rfl⟩
abbrev main_v1067 : Ref sig .tc := ⟨.hbm, 1807, rfl⟩
abbrev main_v1068 : Ref sig .tc := ⟨.hbm, 1808, rfl⟩
abbrev main_c_623 : Ref sig .tc := ⟨.hbm, 1809, rfl⟩
abbrev main_v1069 : Ref sig .tc := ⟨.hbm, 1810, rfl⟩
abbrev main_v1070 : Ref sig .tc := ⟨.hbm, 1811, rfl⟩
abbrev main_c_624 : Ref sig .tc := ⟨.hbm, 1812, rfl⟩
abbrev main_v1071 : Ref sig .tc := ⟨.hbm, 1813, rfl⟩
abbrev main_v1072 : Ref sig .tc := ⟨.hbm, 1814, rfl⟩
abbrev main_v1073 : Ref sig .tc := ⟨.hbm, 1815, rfl⟩
abbrev main_c_625 : Ref sig .tc := ⟨.hbm, 1816, rfl⟩
abbrev main_v1074 : Ref sig .tc := ⟨.hbm, 1817, rfl⟩
abbrev main_v1075 : Ref sig .tc := ⟨.hbm, 1818, rfl⟩
abbrev main_v1076 : Ref sig .tc := ⟨.hbm, 1819, rfl⟩
abbrev main_v1077 : Ref sig .tc := ⟨.hbm, 1820, rfl⟩
abbrev main_c_626 : Ref sig .tc := ⟨.hbm, 1821, rfl⟩
abbrev main_call105_v0 : Ref sig .tc := ⟨.hbm, 1822, rfl⟩
abbrev main_call105_v1 : Ref sig .tc := ⟨.hbm, 1823, rfl⟩
abbrev main_v1078 : Ref sig .tc := ⟨.hbm, 1824, rfl⟩
abbrev main_c_627 : Ref sig .tc := ⟨.hbm, 1825, rfl⟩
abbrev main_v1079 : Ref sig .tc := ⟨.hbm, 1826, rfl⟩
abbrev main_v1080 : Ref sig .tc := ⟨.hbm, 1827, rfl⟩
abbrev main_c_628 : Ref sig .tc := ⟨.hbm, 1828, rfl⟩
abbrev main_v1081 : Ref sig .tc := ⟨.hbm, 1829, rfl⟩
abbrev main_v1082 : Ref sig .tc := ⟨.hbm, 1830, rfl⟩
abbrev main_v1083 : Ref sig .tc := ⟨.hbm, 1831, rfl⟩
abbrev main_v1084 : Ref sig .tc := ⟨.hbm, 1832, rfl⟩
abbrev main_c_629 : Ref sig .tc := ⟨.hbm, 1833, rfl⟩
abbrev main_call106_v0 : Ref sig .tc := ⟨.hbm, 1834, rfl⟩
abbrev main_call106_v1 : Ref sig .tc := ⟨.hbm, 1835, rfl⟩
abbrev main_v1085 : Ref sig .tc := ⟨.hbm, 1836, rfl⟩
abbrev main_c_630 : Ref sig .tc := ⟨.hbm, 1837, rfl⟩
abbrev main_v1086 : Ref sig .tc := ⟨.hbm, 1838, rfl⟩
abbrev main_c_631 : Ref sig .tc := ⟨.hbm, 1839, rfl⟩
abbrev main_v1087 : Ref sig .tc := ⟨.hbm, 1840, rfl⟩
abbrev main_c_632 : Ref sig .tc := ⟨.hbm, 1841, rfl⟩
abbrev main_call107_v0 : Ref sig .tc := ⟨.hbm, 1842, rfl⟩
abbrev main_v1088 : Ref sig .tc := ⟨.hbm, 1843, rfl⟩
abbrev main_c_633 : Ref sig .tc := ⟨.hbm, 1844, rfl⟩
abbrev main_v1089 : Ref sig .tc := ⟨.hbm, 1845, rfl⟩
abbrev main_c_634 : Ref sig .tc := ⟨.hbm, 1846, rfl⟩
abbrev main_call108_v0 : Ref sig .tc := ⟨.hbm, 1847, rfl⟩
abbrev main_v1090 : Ref sig .tc := ⟨.hbm, 1848, rfl⟩
abbrev main_c_635 : Ref sig .tc := ⟨.hbm, 1849, rfl⟩
abbrev main_v1091 : Ref sig .tc := ⟨.hbm, 1850, rfl⟩
abbrev main_c_636 : Ref sig .tc := ⟨.hbm, 1851, rfl⟩
abbrev main_v1092 : Ref sig .tc := ⟨.hbm, 1852, rfl⟩
abbrev main_v1093 : Ref sig .tc := ⟨.hbm, 1853, rfl⟩
abbrev main_c_637 : Ref sig .tc := ⟨.hbm, 1854, rfl⟩
abbrev main_c_638 : Ref sig .tc := ⟨.hbm, 1855, rfl⟩
abbrev main_v1094 : Ref sig .tc := ⟨.hbm, 1856, rfl⟩
abbrev main_c_639 : Ref sig .tc := ⟨.hbm, 1857, rfl⟩
abbrev main_c_640 : Ref sig .tc := ⟨.hbm, 1858, rfl⟩
abbrev main_v1095 : Ref sig .tc := ⟨.hbm, 1859, rfl⟩
abbrev main_c_641 : Ref sig .tc := ⟨.hbm, 1860, rfl⟩
abbrev main_v1096 : Ref sig .tc := ⟨.hbm, 1861, rfl⟩
abbrev main_v1097 : Ref sig .tc := ⟨.hbm, 1862, rfl⟩
abbrev main_v1098 : Ref sig .tc := ⟨.hbm, 1863, rfl⟩
abbrev main_c_642 : Ref sig .tc := ⟨.hbm, 1864, rfl⟩
abbrev main_v1099 : Ref sig .tc := ⟨.hbm, 1865, rfl⟩
abbrev main_c_643 : Ref sig .tc := ⟨.hbm, 1866, rfl⟩
abbrev main_v1100 : Ref sig .tc := ⟨.hbm, 1867, rfl⟩
abbrev main_v1101 : Ref sig .tc := ⟨.hbm, 1868, rfl⟩
abbrev main_c_644 : Ref sig .tc := ⟨.hbm, 1869, rfl⟩
abbrev main_c_645 : Ref sig .tc := ⟨.hbm, 1870, rfl⟩
abbrev main_v1102 : Ref sig .tc := ⟨.hbm, 1871, rfl⟩
abbrev main_c_646 : Ref sig .tc := ⟨.hbm, 1872, rfl⟩
abbrev main_c_647 : Ref sig .tc := ⟨.hbm, 1873, rfl⟩
abbrev main_v1103 : Ref sig .tc := ⟨.hbm, 1874, rfl⟩
abbrev main_c_648 : Ref sig .tc := ⟨.hbm, 1875, rfl⟩
abbrev main_v1104 : Ref sig .tc := ⟨.hbm, 1876, rfl⟩
abbrev main_v1105 : Ref sig .tc := ⟨.hbm, 1877, rfl⟩
abbrev main_v1106 : Ref sig .tc := ⟨.hbm, 1878, rfl⟩
abbrev main_v1107 : Ref sig .tc := ⟨.hbm, 1879, rfl⟩
abbrev main_c_649 : Ref sig .tc := ⟨.hbm, 1880, rfl⟩
abbrev main_v1108 : Ref sig .tc := ⟨.hbm, 1881, rfl⟩
abbrev main_c_650 : Ref sig .tc := ⟨.hbm, 1882, rfl⟩
abbrev main_v1109 : Ref sig .tc := ⟨.hbm, 1883, rfl⟩
abbrev main_v1110 : Ref sig .tc := ⟨.hbm, 1884, rfl⟩
abbrev main_c_651 : Ref sig .tc := ⟨.hbm, 1885, rfl⟩
abbrev main_c_652 : Ref sig .tc := ⟨.hbm, 1886, rfl⟩
abbrev main_v1111 : Ref sig .tc := ⟨.hbm, 1887, rfl⟩
abbrev main_c_653 : Ref sig .tc := ⟨.hbm, 1888, rfl⟩
abbrev main_c_654 : Ref sig .tc := ⟨.hbm, 1889, rfl⟩
abbrev main_v1112 : Ref sig .tc := ⟨.hbm, 1890, rfl⟩
abbrev main_c_655 : Ref sig .tc := ⟨.hbm, 1891, rfl⟩
abbrev main_v1113 : Ref sig .tc := ⟨.hbm, 1892, rfl⟩
abbrev main_v1114 : Ref sig .tc := ⟨.hbm, 1893, rfl⟩
abbrev main_v1115 : Ref sig .tc := ⟨.hbm, 1894, rfl⟩
abbrev main_cst_656 : Ref sig .tc := ⟨.hbm, 1895, rfl⟩
abbrev main_v1116 : Ref sig .tc := ⟨.hbm, 1896, rfl⟩
abbrev main_v1117 : Ref sig .tc := ⟨.hbm, 1897, rfl⟩
abbrev main_v1118 : Ref sig .tc := ⟨.hbm, 1898, rfl⟩
abbrev main_v1119 : Ref sig .tc := ⟨.hbm, 1899, rfl⟩
abbrev main_v1120 : Ref sig .tc := ⟨.hbm, 1900, rfl⟩
abbrev main_v1121 : Ref sig .tc := ⟨.hbm, 1901, rfl⟩
abbrev main_v1122 : Ref sig .tc := ⟨.hbm, 1902, rfl⟩
abbrev main_v1123 : Ref sig .tc := ⟨.hbm, 1903, rfl⟩
abbrev main_v1124 : Ref sig .tc := ⟨.hbm, 1904, rfl⟩
abbrev main_v1125 : Ref sig .tc := ⟨.hbm, 1905, rfl⟩
abbrev main_cst_657 : Ref sig .tc := ⟨.hbm, 1906, rfl⟩
abbrev main_v1126 : Ref sig .tc := ⟨.hbm, 1907, rfl⟩
abbrev main_c_658 : Ref sig .tc := ⟨.hbm, 1908, rfl⟩
abbrev main_v1127 : Ref sig .tc := ⟨.hbm, 1909, rfl⟩
abbrev main_cst_659 : Ref sig .tc := ⟨.hbm, 1910, rfl⟩
abbrev main_v1128 : Ref sig .tc := ⟨.hbm, 1911, rfl⟩
abbrev main_v1129 : Ref sig .tc := ⟨.hbm, 1912, rfl⟩
abbrev main_c_660 : Ref sig .tc := ⟨.hbm, 1913, rfl⟩
abbrev main_v1130 : Ref sig .tc := ⟨.hbm, 1914, rfl⟩
abbrev main_v1131 : Ref sig .tc := ⟨.hbm, 1915, rfl⟩
abbrev main_c_661 : Ref sig .tc := ⟨.hbm, 1916, rfl⟩
abbrev main_v1132 : Ref sig .tc := ⟨.hbm, 1917, rfl⟩
abbrev main_v1133 : Ref sig .tc := ⟨.hbm, 1918, rfl⟩
abbrev main_v1134 : Ref sig .tc := ⟨.hbm, 1919, rfl⟩
abbrev main_c_662 : Ref sig .tc := ⟨.hbm, 1920, rfl⟩
abbrev main_v1135 : Ref sig .tc := ⟨.hbm, 1921, rfl⟩
abbrev main_v1136 : Ref sig .tc := ⟨.hbm, 1922, rfl⟩
abbrev main_v1137 : Ref sig .tc := ⟨.hbm, 1923, rfl⟩
abbrev main_v1138 : Ref sig .tc := ⟨.hbm, 1924, rfl⟩
abbrev main_c_663 : Ref sig .tc := ⟨.hbm, 1925, rfl⟩
abbrev main_call111_v0 : Ref sig .tc := ⟨.hbm, 1926, rfl⟩
abbrev main_call111_v1 : Ref sig .tc := ⟨.hbm, 1927, rfl⟩
abbrev main_v1139 : Ref sig .tc := ⟨.hbm, 1928, rfl⟩
abbrev main_c_664 : Ref sig .tc := ⟨.hbm, 1929, rfl⟩
abbrev main_v1140 : Ref sig .tc := ⟨.hbm, 1930, rfl⟩
abbrev main_v1141 : Ref sig .tc := ⟨.hbm, 1931, rfl⟩
abbrev main_c_665 : Ref sig .tc := ⟨.hbm, 1932, rfl⟩
abbrev main_v1142 : Ref sig .tc := ⟨.hbm, 1933, rfl⟩
abbrev main_v1143 : Ref sig .tc := ⟨.hbm, 1934, rfl⟩
abbrev main_v1144 : Ref sig .tc := ⟨.hbm, 1935, rfl⟩
abbrev main_v1145 : Ref sig .tc := ⟨.hbm, 1936, rfl⟩
abbrev main_c_666 : Ref sig .tc := ⟨.hbm, 1937, rfl⟩
abbrev main_call112_v0 : Ref sig .tc := ⟨.hbm, 1938, rfl⟩
abbrev main_call112_v1 : Ref sig .tc := ⟨.hbm, 1939, rfl⟩
abbrev main_v1146 : Ref sig .tc := ⟨.hbm, 1940, rfl⟩
abbrev main_c_667 : Ref sig .tc := ⟨.hbm, 1941, rfl⟩
abbrev main_v1147 : Ref sig .tc := ⟨.hbm, 1942, rfl⟩
abbrev main_c_668 : Ref sig .tc := ⟨.hbm, 1943, rfl⟩
abbrev main_v1148 : Ref sig .tc := ⟨.hbm, 1944, rfl⟩
abbrev main_c_669 : Ref sig .tc := ⟨.hbm, 1945, rfl⟩
abbrev main_call113_v0 : Ref sig .tc := ⟨.hbm, 1946, rfl⟩
abbrev main_v1149 : Ref sig .tc := ⟨.hbm, 1947, rfl⟩
abbrev main_c_670 : Ref sig .tc := ⟨.hbm, 1948, rfl⟩
abbrev main_v1150 : Ref sig .tc := ⟨.hbm, 1949, rfl⟩
abbrev main_c_671 : Ref sig .tc := ⟨.hbm, 1950, rfl⟩
abbrev main_call114_v0 : Ref sig .tc := ⟨.hbm, 1951, rfl⟩
abbrev main_v1151 : Ref sig .tc := ⟨.hbm, 1952, rfl⟩
abbrev main_c_672 : Ref sig .tc := ⟨.hbm, 1953, rfl⟩
abbrev main_v1152 : Ref sig .tc := ⟨.hbm, 1954, rfl⟩
abbrev main_c_673 : Ref sig .tc := ⟨.hbm, 1955, rfl⟩
abbrev main_v1153 : Ref sig .tc := ⟨.hbm, 1956, rfl⟩
abbrev main_v1154 : Ref sig .tc := ⟨.hbm, 1957, rfl⟩
abbrev main_c_674 : Ref sig .tc := ⟨.hbm, 1958, rfl⟩
abbrev main_c_675 : Ref sig .tc := ⟨.hbm, 1959, rfl⟩
abbrev main_v1155 : Ref sig .tc := ⟨.hbm, 1960, rfl⟩
abbrev main_c_676 : Ref sig .tc := ⟨.hbm, 1961, rfl⟩
abbrev main_c_677 : Ref sig .tc := ⟨.hbm, 1962, rfl⟩
abbrev main_v1156 : Ref sig .tc := ⟨.hbm, 1963, rfl⟩
abbrev main_c_678 : Ref sig .tc := ⟨.hbm, 1964, rfl⟩
abbrev main_v1157 : Ref sig .tc := ⟨.hbm, 1965, rfl⟩
abbrev main_v1158 : Ref sig .tc := ⟨.hbm, 1966, rfl⟩
abbrev main_v1159 : Ref sig .tc := ⟨.hbm, 1967, rfl⟩
abbrev main_c_679 : Ref sig .tc := ⟨.hbm, 1968, rfl⟩
abbrev main_v1160 : Ref sig .tc := ⟨.hbm, 1969, rfl⟩
abbrev main_c_680 : Ref sig .tc := ⟨.hbm, 1970, rfl⟩
abbrev main_v1161 : Ref sig .tc := ⟨.hbm, 1971, rfl⟩
abbrev main_v1162 : Ref sig .tc := ⟨.hbm, 1972, rfl⟩
abbrev main_c_681 : Ref sig .tc := ⟨.hbm, 1973, rfl⟩
abbrev main_c_682 : Ref sig .tc := ⟨.hbm, 1974, rfl⟩
abbrev main_v1163 : Ref sig .tc := ⟨.hbm, 1975, rfl⟩
abbrev main_c_683 : Ref sig .tc := ⟨.hbm, 1976, rfl⟩
abbrev main_c_684 : Ref sig .tc := ⟨.hbm, 1977, rfl⟩
abbrev main_v1164 : Ref sig .tc := ⟨.hbm, 1978, rfl⟩
abbrev main_c_685 : Ref sig .tc := ⟨.hbm, 1979, rfl⟩
abbrev main_v1165 : Ref sig .tc := ⟨.hbm, 1980, rfl⟩
abbrev main_v1166 : Ref sig .tc := ⟨.hbm, 1981, rfl⟩
abbrev main_v1167 : Ref sig .tc := ⟨.hbm, 1982, rfl⟩
abbrev main_v1168 : Ref sig .tc := ⟨.hbm, 1983, rfl⟩
abbrev main_c_686 : Ref sig .tc := ⟨.hbm, 1984, rfl⟩
abbrev main_v1169 : Ref sig .tc := ⟨.hbm, 1985, rfl⟩
abbrev main_c_687 : Ref sig .tc := ⟨.hbm, 1986, rfl⟩
abbrev main_v1170 : Ref sig .tc := ⟨.hbm, 1987, rfl⟩
abbrev main_v1171 : Ref sig .tc := ⟨.hbm, 1988, rfl⟩
abbrev main_c_688 : Ref sig .tc := ⟨.hbm, 1989, rfl⟩
abbrev main_c_689 : Ref sig .tc := ⟨.hbm, 1990, rfl⟩
abbrev main_v1172 : Ref sig .tc := ⟨.hbm, 1991, rfl⟩
abbrev main_c_690 : Ref sig .tc := ⟨.hbm, 1992, rfl⟩
abbrev main_c_691 : Ref sig .tc := ⟨.hbm, 1993, rfl⟩
abbrev main_v1173 : Ref sig .tc := ⟨.hbm, 1994, rfl⟩
abbrev main_c_692 : Ref sig .tc := ⟨.hbm, 1995, rfl⟩
abbrev main_v1174 : Ref sig .tc := ⟨.hbm, 1996, rfl⟩
abbrev main_v1175 : Ref sig .tc := ⟨.hbm, 1997, rfl⟩
abbrev main_v1176 : Ref sig .tc := ⟨.hbm, 1998, rfl⟩
abbrev main_cst_693 : Ref sig .tc := ⟨.hbm, 1999, rfl⟩
abbrev main_v1177 : Ref sig .tc := ⟨.hbm, 2000, rfl⟩
abbrev main_v1178 : Ref sig .tc := ⟨.hbm, 2001, rfl⟩
abbrev main_v1179 : Ref sig .tc := ⟨.hbm, 2002, rfl⟩
abbrev main_v1180 : Ref sig .tc := ⟨.hbm, 2003, rfl⟩
abbrev main_v1181 : Ref sig .tc := ⟨.hbm, 2004, rfl⟩
abbrev main_v1182 : Ref sig .tc := ⟨.hbm, 2005, rfl⟩
abbrev main_v1183 : Ref sig .tc := ⟨.hbm, 2006, rfl⟩
abbrev main_v1184 : Ref sig .tc := ⟨.hbm, 2007, rfl⟩
abbrev main_v1185 : Ref sig .tc := ⟨.hbm, 2008, rfl⟩
abbrev main_v1186 : Ref sig .tc := ⟨.hbm, 2009, rfl⟩
abbrev main_cst_694 : Ref sig .tc := ⟨.hbm, 2010, rfl⟩
abbrev main_v1187 : Ref sig .tc := ⟨.hbm, 2011, rfl⟩
abbrev main_c_695 : Ref sig .tc := ⟨.hbm, 2012, rfl⟩
abbrev main_v1188 : Ref sig .tc := ⟨.hbm, 2013, rfl⟩
abbrev main_cst_696 : Ref sig .tc := ⟨.hbm, 2014, rfl⟩
abbrev main_v1189 : Ref sig .tc := ⟨.hbm, 2015, rfl⟩
abbrev main_v1190 : Ref sig .tc := ⟨.hbm, 2016, rfl⟩
abbrev main_c_697 : Ref sig .tc := ⟨.hbm, 2017, rfl⟩
abbrev main_v1191 : Ref sig .tc := ⟨.hbm, 2018, rfl⟩
abbrev main_v1192 : Ref sig .tc := ⟨.hbm, 2019, rfl⟩
abbrev main_c_698 : Ref sig .tc := ⟨.hbm, 2020, rfl⟩
abbrev main_v1193 : Ref sig .tc := ⟨.hbm, 2021, rfl⟩
abbrev main_v1194 : Ref sig .tc := ⟨.hbm, 2022, rfl⟩
abbrev main_v1195 : Ref sig .tc := ⟨.hbm, 2023, rfl⟩
abbrev main_c_699 : Ref sig .tc := ⟨.hbm, 2024, rfl⟩
abbrev main_v1196 : Ref sig .tc := ⟨.hbm, 2025, rfl⟩
abbrev main_v1197 : Ref sig .tc := ⟨.hbm, 2026, rfl⟩
abbrev main_v1198 : Ref sig .tc := ⟨.hbm, 2027, rfl⟩
abbrev main_v1199 : Ref sig .tc := ⟨.hbm, 2028, rfl⟩
abbrev main_c_700 : Ref sig .tc := ⟨.hbm, 2029, rfl⟩
abbrev main_call117_v0 : Ref sig .tc := ⟨.hbm, 2030, rfl⟩
abbrev main_call117_v1 : Ref sig .tc := ⟨.hbm, 2031, rfl⟩
abbrev main_v1200 : Ref sig .tc := ⟨.hbm, 2032, rfl⟩
abbrev main_c_701 : Ref sig .tc := ⟨.hbm, 2033, rfl⟩
abbrev main_v1201 : Ref sig .tc := ⟨.hbm, 2034, rfl⟩
abbrev main_v1202 : Ref sig .tc := ⟨.hbm, 2035, rfl⟩
abbrev main_c_702 : Ref sig .tc := ⟨.hbm, 2036, rfl⟩
abbrev main_v1203 : Ref sig .tc := ⟨.hbm, 2037, rfl⟩
abbrev main_v1204 : Ref sig .tc := ⟨.hbm, 2038, rfl⟩
abbrev main_v1205 : Ref sig .tc := ⟨.hbm, 2039, rfl⟩
abbrev main_v1206 : Ref sig .tc := ⟨.hbm, 2040, rfl⟩
abbrev main_c_703 : Ref sig .tc := ⟨.hbm, 2041, rfl⟩
abbrev main_call118_v0 : Ref sig .tc := ⟨.hbm, 2042, rfl⟩
abbrev main_call118_v1 : Ref sig .tc := ⟨.hbm, 2043, rfl⟩
abbrev main_v1207 : Ref sig .tc := ⟨.hbm, 2044, rfl⟩
abbrev main_c_704 : Ref sig .tc := ⟨.hbm, 2045, rfl⟩
abbrev main_v1208 : Ref sig .tc := ⟨.hbm, 2046, rfl⟩
abbrev main_c_705 : Ref sig .tc := ⟨.hbm, 2047, rfl⟩
abbrev main_v1209 : Ref sig .tc := ⟨.hbm, 2048, rfl⟩
abbrev main_c_706 : Ref sig .tc := ⟨.hbm, 2049, rfl⟩
abbrev main_call119_v0 : Ref sig .tc := ⟨.hbm, 2050, rfl⟩
abbrev main_v1210 : Ref sig .tc := ⟨.hbm, 2051, rfl⟩
abbrev main_c_707 : Ref sig .tc := ⟨.hbm, 2052, rfl⟩
abbrev main_v1211 : Ref sig .tc := ⟨.hbm, 2053, rfl⟩
abbrev main_c_708 : Ref sig .tc := ⟨.hbm, 2054, rfl⟩
abbrev main_call120_v0 : Ref sig .tc := ⟨.hbm, 2055, rfl⟩
abbrev main_v1212 : Ref sig .tc := ⟨.hbm, 2056, rfl⟩
abbrev main_c_709 : Ref sig .tc := ⟨.hbm, 2057, rfl⟩
abbrev main_v1213 : Ref sig .tc := ⟨.hbm, 2058, rfl⟩
abbrev main_c_710 : Ref sig .tc := ⟨.hbm, 2059, rfl⟩
abbrev main_v1214 : Ref sig .tc := ⟨.hbm, 2060, rfl⟩
abbrev main_v1215 : Ref sig .tc := ⟨.hbm, 2061, rfl⟩
abbrev main_c_711 : Ref sig .tc := ⟨.hbm, 2062, rfl⟩
abbrev main_c_712 : Ref sig .tc := ⟨.hbm, 2063, rfl⟩
abbrev main_v1216 : Ref sig .tc := ⟨.hbm, 2064, rfl⟩
abbrev main_c_713 : Ref sig .tc := ⟨.hbm, 2065, rfl⟩
abbrev main_c_714 : Ref sig .tc := ⟨.hbm, 2066, rfl⟩
abbrev main_v1217 : Ref sig .tc := ⟨.hbm, 2067, rfl⟩
abbrev main_c_715 : Ref sig .tc := ⟨.hbm, 2068, rfl⟩
abbrev main_v1218 : Ref sig .tc := ⟨.hbm, 2069, rfl⟩
abbrev main_v1219 : Ref sig .tc := ⟨.hbm, 2070, rfl⟩
abbrev main_v1220 : Ref sig .tc := ⟨.hbm, 2071, rfl⟩
abbrev main_c_716 : Ref sig .tc := ⟨.hbm, 2072, rfl⟩
abbrev main_v1221 : Ref sig .tc := ⟨.hbm, 2073, rfl⟩
abbrev main_c_717 : Ref sig .tc := ⟨.hbm, 2074, rfl⟩
abbrev main_v1222 : Ref sig .tc := ⟨.hbm, 2075, rfl⟩
abbrev main_v1223 : Ref sig .tc := ⟨.hbm, 2076, rfl⟩
abbrev main_c_718 : Ref sig .tc := ⟨.hbm, 2077, rfl⟩
abbrev main_c_719 : Ref sig .tc := ⟨.hbm, 2078, rfl⟩
abbrev main_v1224 : Ref sig .tc := ⟨.hbm, 2079, rfl⟩
abbrev main_c_720 : Ref sig .tc := ⟨.hbm, 2080, rfl⟩
abbrev main_c_721 : Ref sig .tc := ⟨.hbm, 2081, rfl⟩
abbrev main_v1225 : Ref sig .tc := ⟨.hbm, 2082, rfl⟩
abbrev main_c_722 : Ref sig .tc := ⟨.hbm, 2083, rfl⟩
abbrev main_v1226 : Ref sig .tc := ⟨.hbm, 2084, rfl⟩
abbrev main_v1227 : Ref sig .tc := ⟨.hbm, 2085, rfl⟩
abbrev main_v1228 : Ref sig .tc := ⟨.hbm, 2086, rfl⟩
abbrev main_v1229 : Ref sig .tc := ⟨.hbm, 2087, rfl⟩
abbrev main_c_723 : Ref sig .tc := ⟨.hbm, 2088, rfl⟩
abbrev main_v1230 : Ref sig .tc := ⟨.hbm, 2089, rfl⟩
abbrev main_c_724 : Ref sig .tc := ⟨.hbm, 2090, rfl⟩
abbrev main_v1231 : Ref sig .tc := ⟨.hbm, 2091, rfl⟩
abbrev main_v1232 : Ref sig .tc := ⟨.hbm, 2092, rfl⟩
abbrev main_c_725 : Ref sig .tc := ⟨.hbm, 2093, rfl⟩
abbrev main_c_726 : Ref sig .tc := ⟨.hbm, 2094, rfl⟩
abbrev main_v1233 : Ref sig .tc := ⟨.hbm, 2095, rfl⟩
abbrev main_c_727 : Ref sig .tc := ⟨.hbm, 2096, rfl⟩
abbrev main_c_728 : Ref sig .tc := ⟨.hbm, 2097, rfl⟩
abbrev main_v1234 : Ref sig .tc := ⟨.hbm, 2098, rfl⟩
abbrev main_c_729 : Ref sig .tc := ⟨.hbm, 2099, rfl⟩
abbrev main_v1235 : Ref sig .tc := ⟨.hbm, 2100, rfl⟩
abbrev main_v1236 : Ref sig .tc := ⟨.hbm, 2101, rfl⟩
abbrev main_v1237 : Ref sig .tc := ⟨.hbm, 2102, rfl⟩
abbrev main_cst_730 : Ref sig .tc := ⟨.hbm, 2103, rfl⟩
abbrev main_v1238 : Ref sig .tc := ⟨.hbm, 2104, rfl⟩
abbrev main_v1239 : Ref sig .tc := ⟨.hbm, 2105, rfl⟩
abbrev main_v1240 : Ref sig .tc := ⟨.hbm, 2106, rfl⟩
abbrev main_v1241 : Ref sig .tc := ⟨.hbm, 2107, rfl⟩
abbrev main_v1242 : Ref sig .tc := ⟨.hbm, 2108, rfl⟩
abbrev main_v1243 : Ref sig .tc := ⟨.hbm, 2109, rfl⟩
abbrev main_v1244 : Ref sig .tc := ⟨.hbm, 2110, rfl⟩
abbrev main_v1245 : Ref sig .tc := ⟨.hbm, 2111, rfl⟩
abbrev main_v1246 : Ref sig .tc := ⟨.hbm, 2112, rfl⟩
abbrev main_v1247 : Ref sig .tc := ⟨.hbm, 2113, rfl⟩
abbrev main_cst_731 : Ref sig .tc := ⟨.hbm, 2114, rfl⟩
abbrev main_v1248 : Ref sig .tc := ⟨.hbm, 2115, rfl⟩
abbrev main_c_732 : Ref sig .tc := ⟨.hbm, 2116, rfl⟩
abbrev main_v1249 : Ref sig .tc := ⟨.hbm, 2117, rfl⟩
abbrev main_cst_733 : Ref sig .tc := ⟨.hbm, 2118, rfl⟩
abbrev main_v1250 : Ref sig .tc := ⟨.hbm, 2119, rfl⟩
abbrev main_v1251 : Ref sig .tc := ⟨.hbm, 2120, rfl⟩
abbrev main_c_734 : Ref sig .tc := ⟨.hbm, 2121, rfl⟩
abbrev main_v1252 : Ref sig .tc := ⟨.hbm, 2122, rfl⟩
abbrev main_v1253 : Ref sig .tc := ⟨.hbm, 2123, rfl⟩
abbrev main_c_735 : Ref sig .tc := ⟨.hbm, 2124, rfl⟩
abbrev main_v1254 : Ref sig .tc := ⟨.hbm, 2125, rfl⟩
abbrev main_v1255 : Ref sig .tc := ⟨.hbm, 2126, rfl⟩
abbrev main_v1256 : Ref sig .tc := ⟨.hbm, 2127, rfl⟩
abbrev main_c_736 : Ref sig .tc := ⟨.hbm, 2128, rfl⟩
abbrev main_v1257 : Ref sig .tc := ⟨.hbm, 2129, rfl⟩
abbrev main_v1258 : Ref sig .tc := ⟨.hbm, 2130, rfl⟩
abbrev main_v1259 : Ref sig .tc := ⟨.hbm, 2131, rfl⟩
abbrev main_v1260 : Ref sig .tc := ⟨.hbm, 2132, rfl⟩
abbrev main_c_737 : Ref sig .tc := ⟨.hbm, 2133, rfl⟩
abbrev main_call123_v0 : Ref sig .tc := ⟨.hbm, 2134, rfl⟩
abbrev main_call123_v1 : Ref sig .tc := ⟨.hbm, 2135, rfl⟩
abbrev main_v1261 : Ref sig .tc := ⟨.hbm, 2136, rfl⟩
abbrev main_c_738 : Ref sig .tc := ⟨.hbm, 2137, rfl⟩
abbrev main_v1262 : Ref sig .tc := ⟨.hbm, 2138, rfl⟩
abbrev main_v1263 : Ref sig .tc := ⟨.hbm, 2139, rfl⟩
abbrev main_c_739 : Ref sig .tc := ⟨.hbm, 2140, rfl⟩
abbrev main_v1264 : Ref sig .tc := ⟨.hbm, 2141, rfl⟩
abbrev main_v1265 : Ref sig .tc := ⟨.hbm, 2142, rfl⟩
abbrev main_v1266 : Ref sig .tc := ⟨.hbm, 2143, rfl⟩
abbrev main_v1267 : Ref sig .tc := ⟨.hbm, 2144, rfl⟩
abbrev main_c_740 : Ref sig .tc := ⟨.hbm, 2145, rfl⟩
abbrev main_call124_v0 : Ref sig .tc := ⟨.hbm, 2146, rfl⟩
abbrev main_call124_v1 : Ref sig .tc := ⟨.hbm, 2147, rfl⟩
abbrev main_v1268 : Ref sig .tc := ⟨.hbm, 2148, rfl⟩
abbrev main_c_741 : Ref sig .tc := ⟨.hbm, 2149, rfl⟩
abbrev main_v1269 : Ref sig .tc := ⟨.hbm, 2150, rfl⟩
abbrev main_c_742 : Ref sig .tc := ⟨.hbm, 2151, rfl⟩
abbrev main_v1270 : Ref sig .tc := ⟨.hbm, 2152, rfl⟩
abbrev main_c_743 : Ref sig .tc := ⟨.hbm, 2153, rfl⟩
abbrev main_call125_v0 : Ref sig .tc := ⟨.hbm, 2154, rfl⟩
abbrev main_v1271 : Ref sig .tc := ⟨.hbm, 2155, rfl⟩
abbrev main_c_744 : Ref sig .tc := ⟨.hbm, 2156, rfl⟩
abbrev main_v1272 : Ref sig .tc := ⟨.hbm, 2157, rfl⟩
abbrev main_c_745 : Ref sig .tc := ⟨.hbm, 2158, rfl⟩
abbrev main_call126_v0 : Ref sig .tc := ⟨.hbm, 2159, rfl⟩
abbrev main_v1273 : Ref sig .tc := ⟨.hbm, 2160, rfl⟩
abbrev main_c_746 : Ref sig .tc := ⟨.hbm, 2161, rfl⟩
abbrev main_v1274 : Ref sig .tc := ⟨.hbm, 2162, rfl⟩
abbrev main_c_747 : Ref sig .tc := ⟨.hbm, 2163, rfl⟩
abbrev main_v1275 : Ref sig .tc := ⟨.hbm, 2164, rfl⟩
abbrev main_v1276 : Ref sig .tc := ⟨.hbm, 2165, rfl⟩
abbrev main_c_748 : Ref sig .tc := ⟨.hbm, 2166, rfl⟩
abbrev main_c_749 : Ref sig .tc := ⟨.hbm, 2167, rfl⟩
abbrev main_v1277 : Ref sig .tc := ⟨.hbm, 2168, rfl⟩
abbrev main_c_750 : Ref sig .tc := ⟨.hbm, 2169, rfl⟩
abbrev main_c_751 : Ref sig .tc := ⟨.hbm, 2170, rfl⟩
abbrev main_v1278 : Ref sig .tc := ⟨.hbm, 2171, rfl⟩
abbrev main_c_752 : Ref sig .tc := ⟨.hbm, 2172, rfl⟩
abbrev main_v1279 : Ref sig .tc := ⟨.hbm, 2173, rfl⟩
abbrev main_v1280 : Ref sig .tc := ⟨.hbm, 2174, rfl⟩
abbrev main_v1281 : Ref sig .tc := ⟨.hbm, 2175, rfl⟩
abbrev main_c_753 : Ref sig .tc := ⟨.hbm, 2176, rfl⟩
abbrev main_v1282 : Ref sig .tc := ⟨.hbm, 2177, rfl⟩
abbrev main_c_754 : Ref sig .tc := ⟨.hbm, 2178, rfl⟩
abbrev main_v1283 : Ref sig .tc := ⟨.hbm, 2179, rfl⟩
abbrev main_v1284 : Ref sig .tc := ⟨.hbm, 2180, rfl⟩
abbrev main_c_755 : Ref sig .tc := ⟨.hbm, 2181, rfl⟩
abbrev main_c_756 : Ref sig .tc := ⟨.hbm, 2182, rfl⟩
abbrev main_v1285 : Ref sig .tc := ⟨.hbm, 2183, rfl⟩
abbrev main_c_757 : Ref sig .tc := ⟨.hbm, 2184, rfl⟩
abbrev main_c_758 : Ref sig .tc := ⟨.hbm, 2185, rfl⟩
abbrev main_v1286 : Ref sig .tc := ⟨.hbm, 2186, rfl⟩
abbrev main_c_759 : Ref sig .tc := ⟨.hbm, 2187, rfl⟩
abbrev main_v1287 : Ref sig .tc := ⟨.hbm, 2188, rfl⟩
abbrev main_v1288 : Ref sig .tc := ⟨.hbm, 2189, rfl⟩
abbrev main_v1289 : Ref sig .tc := ⟨.hbm, 2190, rfl⟩
abbrev main_v1290 : Ref sig .tc := ⟨.hbm, 2191, rfl⟩
abbrev main_c_760 : Ref sig .tc := ⟨.hbm, 2192, rfl⟩
abbrev main_v1291 : Ref sig .tc := ⟨.hbm, 2193, rfl⟩
abbrev main_c_761 : Ref sig .tc := ⟨.hbm, 2194, rfl⟩
abbrev main_v1292 : Ref sig .tc := ⟨.hbm, 2195, rfl⟩
abbrev main_v1293 : Ref sig .tc := ⟨.hbm, 2196, rfl⟩
abbrev main_c_762 : Ref sig .tc := ⟨.hbm, 2197, rfl⟩
abbrev main_c_763 : Ref sig .tc := ⟨.hbm, 2198, rfl⟩
abbrev main_v1294 : Ref sig .tc := ⟨.hbm, 2199, rfl⟩
abbrev main_c_764 : Ref sig .tc := ⟨.hbm, 2200, rfl⟩
abbrev main_c_765 : Ref sig .tc := ⟨.hbm, 2201, rfl⟩
abbrev main_v1295 : Ref sig .tc := ⟨.hbm, 2202, rfl⟩
abbrev main_c_766 : Ref sig .tc := ⟨.hbm, 2203, rfl⟩
abbrev main_v1296 : Ref sig .tc := ⟨.hbm, 2204, rfl⟩
abbrev main_v1297 : Ref sig .tc := ⟨.hbm, 2205, rfl⟩
abbrev main_v1298 : Ref sig .tc := ⟨.hbm, 2206, rfl⟩
abbrev main_cst_767 : Ref sig .tc := ⟨.hbm, 2207, rfl⟩
abbrev main_v1299 : Ref sig .tc := ⟨.hbm, 2208, rfl⟩
abbrev main_v1300 : Ref sig .tc := ⟨.hbm, 2209, rfl⟩
abbrev main_v1301 : Ref sig .tc := ⟨.hbm, 2210, rfl⟩
abbrev main_v1302 : Ref sig .tc := ⟨.hbm, 2211, rfl⟩
abbrev main_v1303 : Ref sig .tc := ⟨.hbm, 2212, rfl⟩
abbrev main_v1304 : Ref sig .tc := ⟨.hbm, 2213, rfl⟩
abbrev main_v1305 : Ref sig .tc := ⟨.hbm, 2214, rfl⟩
abbrev main_v1306 : Ref sig .tc := ⟨.hbm, 2215, rfl⟩
abbrev main_v1307 : Ref sig .tc := ⟨.hbm, 2216, rfl⟩
abbrev main_v1308 : Ref sig .tc := ⟨.hbm, 2217, rfl⟩
abbrev main_cst_768 : Ref sig .tc := ⟨.hbm, 2218, rfl⟩
abbrev main_v1309 : Ref sig .tc := ⟨.hbm, 2219, rfl⟩
abbrev main_c_769 : Ref sig .tc := ⟨.hbm, 2220, rfl⟩
abbrev main_v1310 : Ref sig .tc := ⟨.hbm, 2221, rfl⟩
abbrev main_cst_770 : Ref sig .tc := ⟨.hbm, 2222, rfl⟩
abbrev main_v1311 : Ref sig .tc := ⟨.hbm, 2223, rfl⟩
abbrev main_v1312 : Ref sig .tc := ⟨.hbm, 2224, rfl⟩
abbrev main_c_771 : Ref sig .tc := ⟨.hbm, 2225, rfl⟩
abbrev main_v1313 : Ref sig .tc := ⟨.hbm, 2226, rfl⟩
abbrev main_v1314 : Ref sig .tc := ⟨.hbm, 2227, rfl⟩
abbrev main_c_772 : Ref sig .tc := ⟨.hbm, 2228, rfl⟩
abbrev main_v1315 : Ref sig .tc := ⟨.hbm, 2229, rfl⟩
abbrev main_v1316 : Ref sig .tc := ⟨.hbm, 2230, rfl⟩
abbrev main_v1317 : Ref sig .tc := ⟨.hbm, 2231, rfl⟩
abbrev main_c_773 : Ref sig .tc := ⟨.hbm, 2232, rfl⟩
abbrev main_v1318 : Ref sig .tc := ⟨.hbm, 2233, rfl⟩
abbrev main_v1319 : Ref sig .tc := ⟨.hbm, 2234, rfl⟩
abbrev main_v1320 : Ref sig .tc := ⟨.hbm, 2235, rfl⟩
abbrev main_v1321 : Ref sig .tc := ⟨.hbm, 2236, rfl⟩
abbrev main_c_774 : Ref sig .tc := ⟨.hbm, 2237, rfl⟩
abbrev main_call129_v0 : Ref sig .tc := ⟨.hbm, 2238, rfl⟩
abbrev main_call129_v1 : Ref sig .tc := ⟨.hbm, 2239, rfl⟩
abbrev main_v1322 : Ref sig .tc := ⟨.hbm, 2240, rfl⟩
abbrev main_c_775 : Ref sig .tc := ⟨.hbm, 2241, rfl⟩
abbrev main_v1323 : Ref sig .tc := ⟨.hbm, 2242, rfl⟩
abbrev main_v1324 : Ref sig .tc := ⟨.hbm, 2243, rfl⟩
abbrev main_c_776 : Ref sig .tc := ⟨.hbm, 2244, rfl⟩
abbrev main_v1325 : Ref sig .tc := ⟨.hbm, 2245, rfl⟩
abbrev main_v1326 : Ref sig .tc := ⟨.hbm, 2246, rfl⟩
abbrev main_v1327 : Ref sig .tc := ⟨.hbm, 2247, rfl⟩
abbrev main_v1328 : Ref sig .tc := ⟨.hbm, 2248, rfl⟩
abbrev main_c_777 : Ref sig .tc := ⟨.hbm, 2249, rfl⟩
abbrev main_call130_v0 : Ref sig .tc := ⟨.hbm, 2250, rfl⟩
abbrev main_call130_v1 : Ref sig .tc := ⟨.hbm, 2251, rfl⟩
abbrev main_v1329 : Ref sig .tc := ⟨.hbm, 2252, rfl⟩
abbrev main_c_778 : Ref sig .tc := ⟨.hbm, 2253, rfl⟩
abbrev main_v1330 : Ref sig .tc := ⟨.hbm, 2254, rfl⟩
abbrev main_c_779 : Ref sig .tc := ⟨.hbm, 2255, rfl⟩
abbrev main_v1331 : Ref sig .tc := ⟨.hbm, 2256, rfl⟩
abbrev main_c_780 : Ref sig .tc := ⟨.hbm, 2257, rfl⟩
abbrev main_call131_v0 : Ref sig .tc := ⟨.hbm, 2258, rfl⟩
abbrev main_v1332 : Ref sig .tc := ⟨.hbm, 2259, rfl⟩
abbrev main_c_781 : Ref sig .tc := ⟨.hbm, 2260, rfl⟩
abbrev main_v1333 : Ref sig .tc := ⟨.hbm, 2261, rfl⟩
abbrev main_c_782 : Ref sig .tc := ⟨.hbm, 2262, rfl⟩
abbrev main_call132_v0 : Ref sig .tc := ⟨.hbm, 2263, rfl⟩
abbrev main_v1334 : Ref sig .tc := ⟨.hbm, 2264, rfl⟩
abbrev main_c_783 : Ref sig .tc := ⟨.hbm, 2265, rfl⟩
abbrev main_v1335 : Ref sig .tc := ⟨.hbm, 2266, rfl⟩
abbrev main_c_784 : Ref sig .tc := ⟨.hbm, 2267, rfl⟩
abbrev main_v1336 : Ref sig .tc := ⟨.hbm, 2268, rfl⟩
abbrev main_v1337 : Ref sig .tc := ⟨.hbm, 2269, rfl⟩
abbrev main_c_785 : Ref sig .tc := ⟨.hbm, 2270, rfl⟩
abbrev main_c_786 : Ref sig .tc := ⟨.hbm, 2271, rfl⟩
abbrev main_v1338 : Ref sig .tc := ⟨.hbm, 2272, rfl⟩
abbrev main_c_787 : Ref sig .tc := ⟨.hbm, 2273, rfl⟩
abbrev main_c_788 : Ref sig .tc := ⟨.hbm, 2274, rfl⟩
abbrev main_v1339 : Ref sig .tc := ⟨.hbm, 2275, rfl⟩
abbrev main_c_789 : Ref sig .tc := ⟨.hbm, 2276, rfl⟩
abbrev main_v1340 : Ref sig .tc := ⟨.hbm, 2277, rfl⟩
abbrev main_v1341 : Ref sig .tc := ⟨.hbm, 2278, rfl⟩
abbrev main_v1342 : Ref sig .tc := ⟨.hbm, 2279, rfl⟩
abbrev main_c_790 : Ref sig .tc := ⟨.hbm, 2280, rfl⟩
abbrev main_v1343 : Ref sig .tc := ⟨.hbm, 2281, rfl⟩
abbrev main_c_791 : Ref sig .tc := ⟨.hbm, 2282, rfl⟩
abbrev main_v1344 : Ref sig .tc := ⟨.hbm, 2283, rfl⟩
abbrev main_v1345 : Ref sig .tc := ⟨.hbm, 2284, rfl⟩
abbrev main_c_792 : Ref sig .tc := ⟨.hbm, 2285, rfl⟩
abbrev main_c_793 : Ref sig .tc := ⟨.hbm, 2286, rfl⟩
abbrev main_v1346 : Ref sig .tc := ⟨.hbm, 2287, rfl⟩
abbrev main_c_794 : Ref sig .tc := ⟨.hbm, 2288, rfl⟩
abbrev main_c_795 : Ref sig .tc := ⟨.hbm, 2289, rfl⟩
abbrev main_v1347 : Ref sig .tc := ⟨.hbm, 2290, rfl⟩
abbrev main_c_796 : Ref sig .tc := ⟨.hbm, 2291, rfl⟩
abbrev main_v1348 : Ref sig .tc := ⟨.hbm, 2292, rfl⟩
abbrev main_v1349 : Ref sig .tc := ⟨.hbm, 2293, rfl⟩
abbrev main_v1350 : Ref sig .tc := ⟨.hbm, 2294, rfl⟩
abbrev main_v1351 : Ref sig .tc := ⟨.hbm, 2295, rfl⟩
abbrev main_c_797 : Ref sig .tc := ⟨.hbm, 2296, rfl⟩
abbrev main_v1352 : Ref sig .tc := ⟨.hbm, 2297, rfl⟩
abbrev main_c_798 : Ref sig .tc := ⟨.hbm, 2298, rfl⟩
abbrev main_v1353 : Ref sig .tc := ⟨.hbm, 2299, rfl⟩
abbrev main_v1354 : Ref sig .tc := ⟨.hbm, 2300, rfl⟩
abbrev main_c_799 : Ref sig .tc := ⟨.hbm, 2301, rfl⟩
abbrev main_c_800 : Ref sig .tc := ⟨.hbm, 2302, rfl⟩
abbrev main_v1355 : Ref sig .tc := ⟨.hbm, 2303, rfl⟩
abbrev main_c_801 : Ref sig .tc := ⟨.hbm, 2304, rfl⟩
abbrev main_c_802 : Ref sig .tc := ⟨.hbm, 2305, rfl⟩
abbrev main_v1356 : Ref sig .tc := ⟨.hbm, 2306, rfl⟩
abbrev main_c_803 : Ref sig .tc := ⟨.hbm, 2307, rfl⟩
abbrev main_v1357 : Ref sig .tc := ⟨.hbm, 2308, rfl⟩
abbrev main_v1358 : Ref sig .tc := ⟨.hbm, 2309, rfl⟩
abbrev main_v1359 : Ref sig .tc := ⟨.hbm, 2310, rfl⟩
abbrev main_cst_804 : Ref sig .tc := ⟨.hbm, 2311, rfl⟩
abbrev main_v1360 : Ref sig .tc := ⟨.hbm, 2312, rfl⟩
abbrev main_v1361 : Ref sig .tc := ⟨.hbm, 2313, rfl⟩
abbrev main_v1362 : Ref sig .tc := ⟨.hbm, 2314, rfl⟩
abbrev main_v1363 : Ref sig .tc := ⟨.hbm, 2315, rfl⟩
abbrev main_v1364 : Ref sig .tc := ⟨.hbm, 2316, rfl⟩
abbrev main_v1365 : Ref sig .tc := ⟨.hbm, 2317, rfl⟩
abbrev main_v1366 : Ref sig .tc := ⟨.hbm, 2318, rfl⟩
abbrev main_v1367 : Ref sig .tc := ⟨.hbm, 2319, rfl⟩
abbrev main_v1368 : Ref sig .tc := ⟨.hbm, 2320, rfl⟩
abbrev main_v1369 : Ref sig .tc := ⟨.hbm, 2321, rfl⟩
abbrev main_cst_805 : Ref sig .tc := ⟨.hbm, 2322, rfl⟩
abbrev main_v1370 : Ref sig .tc := ⟨.hbm, 2323, rfl⟩
abbrev main_c_806 : Ref sig .tc := ⟨.hbm, 2324, rfl⟩
abbrev main_v1371 : Ref sig .tc := ⟨.hbm, 2325, rfl⟩
abbrev main_cst_807 : Ref sig .tc := ⟨.hbm, 2326, rfl⟩
abbrev main_v1372 : Ref sig .tc := ⟨.hbm, 2327, rfl⟩
abbrev main_v1373 : Ref sig .tc := ⟨.hbm, 2328, rfl⟩
abbrev main_c_808 : Ref sig .tc := ⟨.hbm, 2329, rfl⟩
abbrev main_v1374 : Ref sig .tc := ⟨.hbm, 2330, rfl⟩
abbrev main_v1375 : Ref sig .tc := ⟨.hbm, 2331, rfl⟩
abbrev main_c_809 : Ref sig .tc := ⟨.hbm, 2332, rfl⟩
abbrev main_v1376 : Ref sig .tc := ⟨.hbm, 2333, rfl⟩
abbrev main_v1377 : Ref sig .tc := ⟨.hbm, 2334, rfl⟩
abbrev main_v1378 : Ref sig .tc := ⟨.hbm, 2335, rfl⟩
abbrev main_c_810 : Ref sig .tc := ⟨.hbm, 2336, rfl⟩
abbrev main_v1379 : Ref sig .tc := ⟨.hbm, 2337, rfl⟩
abbrev main_v1380 : Ref sig .tc := ⟨.hbm, 2338, rfl⟩
abbrev main_v1381 : Ref sig .tc := ⟨.hbm, 2339, rfl⟩
abbrev main_v1382 : Ref sig .tc := ⟨.hbm, 2340, rfl⟩
abbrev main_c_811 : Ref sig .tc := ⟨.hbm, 2341, rfl⟩
abbrev main_call135_v0 : Ref sig .tc := ⟨.hbm, 2342, rfl⟩
abbrev main_call135_v1 : Ref sig .tc := ⟨.hbm, 2343, rfl⟩
abbrev main_v1383 : Ref sig .tc := ⟨.hbm, 2344, rfl⟩
abbrev main_c_812 : Ref sig .tc := ⟨.hbm, 2345, rfl⟩
abbrev main_v1384 : Ref sig .tc := ⟨.hbm, 2346, rfl⟩
abbrev main_v1385 : Ref sig .tc := ⟨.hbm, 2347, rfl⟩
abbrev main_c_813 : Ref sig .tc := ⟨.hbm, 2348, rfl⟩
abbrev main_v1386 : Ref sig .tc := ⟨.hbm, 2349, rfl⟩
abbrev main_v1387 : Ref sig .tc := ⟨.hbm, 2350, rfl⟩
abbrev main_v1388 : Ref sig .tc := ⟨.hbm, 2351, rfl⟩
abbrev main_v1389 : Ref sig .tc := ⟨.hbm, 2352, rfl⟩
abbrev main_c_814 : Ref sig .tc := ⟨.hbm, 2353, rfl⟩
abbrev main_call136_v0 : Ref sig .tc := ⟨.hbm, 2354, rfl⟩
abbrev main_call136_v1 : Ref sig .tc := ⟨.hbm, 2355, rfl⟩
abbrev main_v1390 : Ref sig .tc := ⟨.hbm, 2356, rfl⟩
abbrev main_c_815 : Ref sig .tc := ⟨.hbm, 2357, rfl⟩
abbrev main_v1391 : Ref sig .tc := ⟨.hbm, 2358, rfl⟩
abbrev main_c_816 : Ref sig .tc := ⟨.hbm, 2359, rfl⟩
abbrev main_v1392 : Ref sig .tc := ⟨.hbm, 2360, rfl⟩
abbrev main_c_817 : Ref sig .tc := ⟨.hbm, 2361, rfl⟩
abbrev main_call137_v0 : Ref sig .tc := ⟨.hbm, 2362, rfl⟩
abbrev main_v1393 : Ref sig .tc := ⟨.hbm, 2363, rfl⟩
abbrev main_c_818 : Ref sig .tc := ⟨.hbm, 2364, rfl⟩
abbrev main_v1394 : Ref sig .tc := ⟨.hbm, 2365, rfl⟩
abbrev main_c_819 : Ref sig .tc := ⟨.hbm, 2366, rfl⟩
abbrev main_call138_v0 : Ref sig .tc := ⟨.hbm, 2367, rfl⟩
abbrev main_v1395 : Ref sig .tc := ⟨.hbm, 2368, rfl⟩
abbrev main_c_820 : Ref sig .tc := ⟨.hbm, 2369, rfl⟩
abbrev main_v1396 : Ref sig .tc := ⟨.hbm, 2370, rfl⟩
abbrev main_c_821 : Ref sig .tc := ⟨.hbm, 2371, rfl⟩
abbrev main_v1397 : Ref sig .tc := ⟨.hbm, 2372, rfl⟩
abbrev main_v1398 : Ref sig .tc := ⟨.hbm, 2373, rfl⟩
abbrev main_c_822 : Ref sig .tc := ⟨.hbm, 2374, rfl⟩
abbrev main_c_823 : Ref sig .tc := ⟨.hbm, 2375, rfl⟩
abbrev main_v1399 : Ref sig .tc := ⟨.hbm, 2376, rfl⟩
abbrev main_c_824 : Ref sig .tc := ⟨.hbm, 2377, rfl⟩
abbrev main_c_825 : Ref sig .tc := ⟨.hbm, 2378, rfl⟩
abbrev main_v1400 : Ref sig .tc := ⟨.hbm, 2379, rfl⟩
abbrev main_c_826 : Ref sig .tc := ⟨.hbm, 2380, rfl⟩
abbrev main_v1401 : Ref sig .tc := ⟨.hbm, 2381, rfl⟩
abbrev main_v1402 : Ref sig .tc := ⟨.hbm, 2382, rfl⟩
abbrev main_v1403 : Ref sig .tc := ⟨.hbm, 2383, rfl⟩
abbrev main_c_827 : Ref sig .tc := ⟨.hbm, 2384, rfl⟩
abbrev main_v1404 : Ref sig .tc := ⟨.hbm, 2385, rfl⟩
abbrev main_c_828 : Ref sig .tc := ⟨.hbm, 2386, rfl⟩
abbrev main_v1405 : Ref sig .tc := ⟨.hbm, 2387, rfl⟩
abbrev main_v1406 : Ref sig .tc := ⟨.hbm, 2388, rfl⟩
abbrev main_c_829 : Ref sig .tc := ⟨.hbm, 2389, rfl⟩
abbrev main_c_830 : Ref sig .tc := ⟨.hbm, 2390, rfl⟩
abbrev main_v1407 : Ref sig .tc := ⟨.hbm, 2391, rfl⟩
abbrev main_c_831 : Ref sig .tc := ⟨.hbm, 2392, rfl⟩
abbrev main_c_832 : Ref sig .tc := ⟨.hbm, 2393, rfl⟩
abbrev main_v1408 : Ref sig .tc := ⟨.hbm, 2394, rfl⟩
abbrev main_c_833 : Ref sig .tc := ⟨.hbm, 2395, rfl⟩
abbrev main_v1409 : Ref sig .tc := ⟨.hbm, 2396, rfl⟩
abbrev main_v1410 : Ref sig .tc := ⟨.hbm, 2397, rfl⟩
abbrev main_v1411 : Ref sig .tc := ⟨.hbm, 2398, rfl⟩
abbrev main_v1412 : Ref sig .tc := ⟨.hbm, 2399, rfl⟩
abbrev main_c_834 : Ref sig .tc := ⟨.hbm, 2400, rfl⟩
abbrev main_v1413 : Ref sig .tc := ⟨.hbm, 2401, rfl⟩
abbrev main_c_835 : Ref sig .tc := ⟨.hbm, 2402, rfl⟩
abbrev main_v1414 : Ref sig .tc := ⟨.hbm, 2403, rfl⟩
abbrev main_v1415 : Ref sig .tc := ⟨.hbm, 2404, rfl⟩
abbrev main_c_836 : Ref sig .tc := ⟨.hbm, 2405, rfl⟩
abbrev main_c_837 : Ref sig .tc := ⟨.hbm, 2406, rfl⟩
abbrev main_v1416 : Ref sig .tc := ⟨.hbm, 2407, rfl⟩
abbrev main_c_838 : Ref sig .tc := ⟨.hbm, 2408, rfl⟩
abbrev main_c_839 : Ref sig .tc := ⟨.hbm, 2409, rfl⟩
abbrev main_v1417 : Ref sig .tc := ⟨.hbm, 2410, rfl⟩
abbrev main_c_840 : Ref sig .tc := ⟨.hbm, 2411, rfl⟩
abbrev main_v1418 : Ref sig .tc := ⟨.hbm, 2412, rfl⟩
abbrev main_v1419 : Ref sig .tc := ⟨.hbm, 2413, rfl⟩
abbrev main_v1420 : Ref sig .tc := ⟨.hbm, 2414, rfl⟩
abbrev main_cst_841 : Ref sig .tc := ⟨.hbm, 2415, rfl⟩
abbrev main_v1421 : Ref sig .tc := ⟨.hbm, 2416, rfl⟩
abbrev main_v1422 : Ref sig .tc := ⟨.hbm, 2417, rfl⟩
abbrev main_v1423 : Ref sig .tc := ⟨.hbm, 2418, rfl⟩
abbrev main_v1424 : Ref sig .tc := ⟨.hbm, 2419, rfl⟩
abbrev main_v1425 : Ref sig .tc := ⟨.hbm, 2420, rfl⟩
abbrev main_v1426 : Ref sig .tc := ⟨.hbm, 2421, rfl⟩
abbrev main_v1427 : Ref sig .tc := ⟨.hbm, 2422, rfl⟩
abbrev main_v1428 : Ref sig .tc := ⟨.hbm, 2423, rfl⟩
abbrev main_v1429 : Ref sig .tc := ⟨.hbm, 2424, rfl⟩
abbrev main_v1430 : Ref sig .tc := ⟨.hbm, 2425, rfl⟩
abbrev main_cst_842 : Ref sig .tc := ⟨.hbm, 2426, rfl⟩
abbrev main_v1431 : Ref sig .tc := ⟨.hbm, 2427, rfl⟩
abbrev main_c_843 : Ref sig .tc := ⟨.hbm, 2428, rfl⟩
abbrev main_v1432 : Ref sig .tc := ⟨.hbm, 2429, rfl⟩
abbrev main_cst_844 : Ref sig .tc := ⟨.hbm, 2430, rfl⟩
abbrev main_v1433 : Ref sig .tc := ⟨.hbm, 2431, rfl⟩
abbrev main_v1434 : Ref sig .tc := ⟨.hbm, 2432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S262144 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S262144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S262144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S262144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S262144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S262144 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  bcast_S_S4194304 : S_.BroadcastsInDim S4194304 (![] : Fin 0 → Fin S4194304.rank)
  inb_S262144_S262144_0 : ∀ a, (![0] : Fin 1 → Nat) a + S262144.size a ≤ S262144.size a
  h_S262144 : 0 < S262144.numel
  shapeCasts_S262144_S262144 : S262144.ShapeCasts S262144
  shapeCasts_S262144_S1x262144 : S262144.ShapeCasts S1x262144
  reduces_S1x262144_S1 : S1x262144.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  reducesTo_S4194304_S_d0 : S4194304.ReducesTo [0] S_
  h_S_ : 0 < S_.numel
  natLt_1_32 : 1 < 32
  sliceFits_S4194304x2_S1x2 : S4194304x2.Slices (fun _ => 0) S1x2
  shapeCasts_S1x2_S2 : S1x2.ShapeCasts S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S4194304.size a
  hwx0_0 : ∀ i : grid0.Coords, EltTy.bits .i32 = 32 ∨ (Rect.block (s := S4194304) S262144.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S4194304.size a
  hwx0_1 : ∀ i : grid0.Coords, EltTy.bits .i32 = 32 ∨ (Rect.block (s := S4194304) S262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S4194304.size a
  hwx0_2 : ∀ i : grid0.Coords, EltTy.bits .i32 = 32 ∨ (Rect.block (s := S4194304) S262144.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S4194304.size a
  hwx0_3 : ∀ i : grid0.Coords, EltTy.bits .f32 = 32 ∨ (Rect.block (s := S4194304) S262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144.size a ≤ S4194304.size a
  hwx0_4 : ∀ i : grid0.Coords, EltTy.bits .f32 = 32 ∨ (Rect.block (s := S4194304) S262144.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S262144.size a ≤ S4194304.size a
  hwx0_5 : ∀ i : grid0.Coords, EltTy.bits .f32 = 32 ∨ (Rect.block (s := S4194304) S262144.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S262144.size a ≤ S4194304.size a
  hwx0_6 : ∀ i : grid0.Coords, EltTy.bits .f32 = 32 ∨ (Rect.block (s := S4194304) S262144.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S262144.size a ≤ S4194304.size a
  hwx0_7 : ∀ i : grid0.Coords, EltTy.bits .f32 = 32 ∨ (Rect.block (s := S4194304) S262144.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S262144.size a ≤ S4194304.size a
  hwx0_8 : ∀ i : grid0.Coords, EltTy.bits .f32 = 32 ∨ (Rect.block (s := S4194304) S262144.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)

variable [Facts₀]

abbrev win0_0 : Pipeline.Window sig grid0 :=
  Pipeline.Window.ofSpec (Memref.whole main_v25) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v79) S262144.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v81) S262144.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v83) S262144.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v85) S262144.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v87) S262144.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v89) S262144.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v90) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S4194304 : Shape := ⟨1, ![4194304]⟩
abbrev S4194304x1 : Shape := ⟨2, ![4194304, 1]⟩
abbrev S_ : Shape := ⟨0, ![]⟩
abbrev S1 : Shape := ⟨1, ![1]⟩
abbrev S1x2 : Shape := ⟨2, ![1, 2]⟩
abbrev S2 : Shape := ⟨1, ![2]⟩

abbrev nBuf : Space → Nat
  | .hbm => 2791
  | .vmem => 0
  | .smem => 0
  | _ => 0

abbrev hbmTy0_0 (i : Nat) : BufTy := match i % 128 with
  | 0 => ⟨S4194304x2, .f32⟩
  | 1 => ⟨S4194304x2, .f32⟩
  | 2 => ⟨S4194304x2, .f32⟩
  | 3 => ⟨S4194304x2, .i32⟩
  | 4 => ⟨S4194304x2, .i32⟩
  | 5 => ⟨S4194304x2, .i32⟩
  | 6 => ⟨S4194304, .i32⟩
  | 7 => ⟨S4194304x1, .i32⟩
  | 8 => ⟨S4194304, .i32⟩
  | 9 => ⟨S4194304x1, .i32⟩
  | 10 => ⟨S4194304, .i32⟩
  | 11 => ⟨S_, .i32⟩
  | 12 => ⟨S4194304, .i32⟩
  | 13 => ⟨S4194304, .i1⟩
  | 14 => ⟨S_, .i32⟩
  | 15 => ⟨S4194304, .i32⟩
  | 16 => ⟨S4194304, .i1⟩
  | 17 => ⟨S4194304, .i1⟩
  | 18 => ⟨S_, .i32⟩
  | 19 => ⟨S4194304, .i32⟩
  | 20 => ⟨S4194304, .i1⟩
  | 21 => ⟨S_, .i32⟩
  | 22 => ⟨S4194304, .i32⟩
  | 23 => ⟨S4194304, .i1⟩
  | 24 => ⟨S4194304, .i1⟩
  | 25 => ⟨S_, .i32⟩
  | 26 => ⟨S4194304, .i32⟩
  | 27 => ⟨S4194304, .i1⟩
  | 28 => ⟨S_, .i32⟩
  | 29 => ⟨S4194304, .i32⟩
  | 30 => ⟨S4194304, .i1⟩
  | 31 => ⟨S4194304, .i1⟩
  | 32 => ⟨S_, .i32⟩
  | 33 => ⟨S_, .i32⟩
  | 34 => ⟨S4194304, .i32⟩
  | 35 => ⟨S4194304, .i32⟩
  | 36 => ⟨S4194304, .i32⟩
  | 37 => ⟨S_, .i32⟩
  | 38 => ⟨S4194304, .i32⟩
  | 39 => ⟨S4194304, .i32⟩
  | 40 => ⟨S_, .i32⟩
  | 41 => ⟨S4194304, .i32⟩
  | 42 => ⟨S4194304, .i32⟩
  | 43 => ⟨S_, .i32⟩
  | 44 => ⟨S4194304, .i32⟩
  | 45 => ⟨S4194304, .i32⟩
  | 46 => ⟨S4194304, .i32⟩
  | 47 => ⟨S4194304, .i32⟩
  | 48 => ⟨S4194304x1, .i32⟩
  | 49 => ⟨S4194304, .i32⟩
  | 50 => ⟨S4194304x1, .i32⟩
  | 51 => ⟨S4194304, .i32⟩
  | 52 => ⟨S_, .i32⟩
  | 53 => ⟨S4194304, .i32⟩
  | 54 => ⟨S4194304, .i1⟩
  | 55 => ⟨S_, .i32⟩
  | 56 => ⟨S4194304, .i32⟩
  | 57 => ⟨S4194304, .i1⟩
  | 58 => ⟨S4194304, .i1⟩
  | 59 => ⟨S_, .i32⟩
  | 60 => ⟨S4194304, .i32⟩
  | 61 => ⟨S4194304, .i1⟩
  | 62 => ⟨S_, .i32⟩
  | 63 => ⟨S4194304, .i32⟩
  | 64 => ⟨S4194304, .i1⟩
  | 65 => ⟨S4194304, .i1⟩
  | 66 => ⟨S_, .i32⟩
  | 67 => ⟨S4194304, .i32⟩
  | 68 => ⟨S4194304, .i1⟩
  | 69 => ⟨S_, .i32⟩
  | 70 => ⟨S4194304, .i32⟩
  | 71 => ⟨S4194304, .i1⟩
  | 72 => ⟨S4194304, .i1⟩
  | 73 => ⟨S_, .i32⟩
  | 74 => ⟨S_, .i32⟩
  | 75 => ⟨S4194304, .i32⟩
  | 76 => ⟨S4194304, .i32⟩
  | 77 => ⟨S4194304, .i32⟩
  | 78 => ⟨S_, .i32⟩
  | 79 => ⟨S4194304, .i32⟩
  | 80 => ⟨S4194304, .i32⟩
  | 81 => ⟨S_, .i32⟩
  | 82 => ⟨S4194304, .i32⟩
  | 83 => ⟨S4194304, .i32⟩
  | 84 => ⟨S_, .i32⟩
  | 85 => ⟨S4194304, .i32⟩
  | 86 => ⟨S4194304, .i32⟩
  | 87 => ⟨S4194304, .i32⟩
  | 88 => ⟨S4194304, .i32⟩
  | 89 => ⟨S4194304x1, .i32⟩
  | 90 => ⟨S4194304, .i32⟩
  | 91 => ⟨S4194304x1, .i32⟩
  | 92 => ⟨S4194304, .i32⟩
  | 93 => ⟨S_, .i32⟩
  | 94 => ⟨S4194304, .i32⟩
  | 95 => ⟨S4194304, .i1⟩
  | 96 => ⟨S_, .i32⟩
  | 97 => ⟨S4194304, .i32⟩
  | 98 => ⟨S4194304, .i1⟩
  | 99 => ⟨S4194304, .i1⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i1⟩
  | 106 => ⟨S4194304, .i1⟩
  | 107 => ⟨S_, .i32⟩
  | 108 => ⟨S4194304, .i32⟩
  | 109 => ⟨S4194304, .i1⟩
  | 110 => ⟨S_, .i32⟩
  | 111 => ⟨S4194304, .i32⟩
  | 112 => ⟨S4194304, .i1⟩
  | 113 => ⟨S4194304, .i1⟩
  | 114 => ⟨S_, .i32⟩
  | 115 => ⟨S_, .i32⟩
  | 116 => ⟨S4194304, .i32⟩
  | 117 => ⟨S4194304, .i32⟩
  | 118 => ⟨S4194304, .i32⟩
  | 119 => ⟨S_, .i32⟩
  | 120 => ⟨S4194304, .i32⟩
  | 121 => ⟨S4194304, .i32⟩
  | 122 => ⟨S_, .i32⟩
  | 123 => ⟨S4194304, .i32⟩
  | 124 => ⟨S4194304, .i32⟩
  | 125 => ⟨S_, .i32⟩
  | 126 => ⟨S4194304, .i32⟩
  | 127 => ⟨S4194304, .i32⟩
  | _ => ⟨S4194304x2, .f32⟩

abbrev hbmTy0_1 (i : Nat) : BufTy := match i % 128 with
  | 0 => ⟨S4194304, .i32⟩
  | 1 => ⟨S4194304, .i32⟩
  | 2 => ⟨S_, .i32⟩
  | 3 => ⟨S4194304, .i32⟩
  | 4 => ⟨S4194304, .i1⟩
  | 5 => ⟨S_, .i32⟩
  | 6 => ⟨S4194304, .i32⟩
  | 7 => ⟨S4194304, .i1⟩
  | 8 => ⟨S4194304, .i1⟩
  | 9 => ⟨S_, .i32⟩
  | 10 => ⟨S4194304, .i32⟩
  | 11 => ⟨S4194304, .i1⟩
  | 12 => ⟨S4194304, .i1⟩
  | 13 => ⟨S4194304x1, .f32⟩
  | 14 => ⟨S4194304, .f32⟩
  | 15 => ⟨S4194304x1, .f32⟩
  | 16 => ⟨S4194304, .f32⟩
  | 17 => ⟨S4194304, .f32⟩
  | 18 => ⟨S4194304x1, .f32⟩
  | 19 => ⟨S4194304, .f32⟩
  | 20 => ⟨S4194304, .f32⟩
  | 21 => ⟨S_, .f32⟩
  | 22 => ⟨S4194304, .f32⟩
  | 23 => ⟨S4194304, .f32⟩
  | 24 => ⟨S_, .f32⟩
  | 25 => ⟨S_, .f32⟩
  | 26 => ⟨S_, .f32⟩
  | 27 => ⟨S_, .f32⟩
  | 28 => ⟨S_, .i32⟩
  | 29 => ⟨S4194304, .i32⟩
  | 30 => ⟨S4194304, .i1⟩
  | 31 => ⟨S_, .i32⟩
  | 32 => ⟨S4194304, .i32⟩
  | 33 => ⟨S4194304, .i1⟩
  | 34 => ⟨S4194304, .i1⟩
  | 35 => ⟨S_, .i32⟩
  | 36 => ⟨S4194304, .i32⟩
  | 37 => ⟨S4194304, .i1⟩
  | 38 => ⟨S4194304, .i1⟩
  | 39 => ⟨S4194304x1, .f32⟩
  | 40 => ⟨S4194304, .f32⟩
  | 41 => ⟨S4194304x1, .f32⟩
  | 42 => ⟨S4194304, .f32⟩
  | 43 => ⟨S4194304, .f32⟩
  | 44 => ⟨S4194304x1, .f32⟩
  | 45 => ⟨S4194304, .f32⟩
  | 46 => ⟨S4194304, .f32⟩
  | 47 => ⟨S_, .f32⟩
  | 48 => ⟨S4194304, .f32⟩
  | 49 => ⟨S4194304, .f32⟩
  | 50 => ⟨S_, .f32⟩
  | 51 => ⟨S_, .f32⟩
  | 52 => ⟨S_, .f32⟩
  | 53 => ⟨S_, .i32⟩
  | 54 => ⟨S4194304, .i32⟩
  | 55 => ⟨S4194304, .i1⟩
  | 56 => ⟨S_, .i32⟩
  | 57 => ⟨S4194304, .i32⟩
  | 58 => ⟨S4194304, .i1⟩
  | 59 => ⟨S4194304, .i1⟩
  | 60 => ⟨S_, .i32⟩
  | 61 => ⟨S4194304, .i32⟩
  | 62 => ⟨S4194304, .i1⟩
  | 63 => ⟨S4194304, .i1⟩
  | 64 => ⟨S4194304x1, .f32⟩
  | 65 => ⟨S4194304, .f32⟩
  | 66 => ⟨S4194304x1, .f32⟩
  | 67 => ⟨S4194304, .f32⟩
  | 68 => ⟨S4194304, .f32⟩
  | 69 => ⟨S4194304x1, .f32⟩
  | 70 => ⟨S4194304, .f32⟩
  | 71 => ⟨S4194304, .f32⟩
  | 72 => ⟨S_, .f32⟩
  | 73 => ⟨S4194304, .f32⟩
  | 74 => ⟨S4194304, .f32⟩
  | 75 => ⟨S_, .f32⟩
  | 76 => ⟨S_, .f32⟩
  | 77 => ⟨S_, .f32⟩
  | 78 => ⟨S_, .i32⟩
  | 79 => ⟨S4194304, .i32⟩
  | 80 => ⟨S4194304, .i1⟩
  | 81 => ⟨S_, .i32⟩
  | 82 => ⟨S4194304, .i32⟩
  | 83 => ⟨S4194304, .i1⟩
  | 84 => ⟨S4194304, .i1⟩
  | 85 => ⟨S_, .i32⟩
  | 86 => ⟨S4194304, .i32⟩
  | 87 => ⟨S4194304, .i1⟩
  | 88 => ⟨S4194304, .i1⟩
  | 89 => ⟨S4194304x1, .f32⟩
  | 90 => ⟨S4194304, .f32⟩
  | 91 => ⟨S4194304x1, .f32⟩
  | 92 => ⟨S4194304, .f32⟩
  | 93 => ⟨S4194304, .f32⟩
  | 94 => ⟨S4194304x1, .f32⟩
  | 95 => ⟨S4194304, .f32⟩
  | 96 => ⟨S4194304, .f32⟩
  | 97 => ⟨S_, .f32⟩
  | 98 => ⟨S4194304, .f32⟩
  | 99 => ⟨S4194304, .f32⟩
  | 100 => ⟨S_, .f32⟩
  | 101 => ⟨S_, .f32⟩
  | 102 => ⟨S_, .f32⟩
  | 103 => ⟨S_, .i32⟩
  | 104 => ⟨S4194304, .i32⟩
  | 105 => ⟨S4194304, .i1⟩
  | 106 => ⟨S_, .i32⟩
  | 107 => ⟨S4194304, .i32⟩
  | 108 => ⟨S4194304, .i1⟩
  | 109 => ⟨S4194304, .i1⟩
  | 110 => ⟨S_, .i32⟩
  | 111 => ⟨S4194304, .i32⟩
  | 112 => ⟨S4194304, .i1⟩
  | 113 => ⟨S4194304, .i1⟩
  | 114 => ⟨S4194304x1, .f32⟩
  | 115 => ⟨S4194304, .f32⟩
  | 116 => ⟨S4194304x1, .f32⟩
  | 117 => ⟨S4194304, .f32⟩
  | 118 => ⟨S4194304, .f32⟩
  | 119 => ⟨S4194304x1, .f32⟩
  | 120 => ⟨S4194304, .f32⟩
  | 121 => ⟨S4194304, .f32⟩
  | 122 => ⟨S_, .f32⟩
  | 123 => ⟨S4194304, .f32⟩
  | 124 => ⟨S4194304, .f32⟩
  | 125 => ⟨S_, .f32⟩
  | 126 => ⟨S_, .f32⟩
  | 127 => ⟨S_, .f32⟩
  | _ => ⟨S4194304x2, .f32⟩

abbrev hbmTy0_2 (i : Nat) : BufTy := match i % 128 with
  | 0 => ⟨S_, .i32⟩
  | 1 => ⟨S4194304, .i32⟩
  | 2 => ⟨S4194304, .i1⟩
  | 3 => ⟨S_, .i32⟩
  | 4 => ⟨S4194304, .i32⟩
  | 5 => ⟨S4194304, .i1⟩
  | 6 => ⟨S4194304, .i1⟩
  | 7 => ⟨S_, .i32⟩
  | 8 => ⟨S4194304, .i32⟩
  | 9 => ⟨S4194304, .i1⟩
  | 10 => ⟨S4194304, .i1⟩
  | 11 => ⟨S4194304x1, .f32⟩
  | 12 => ⟨S4194304, .f32⟩
  | 13 => ⟨S4194304x1, .f32⟩
  | 14 => ⟨S4194304, .f32⟩
  | 15 => ⟨S4194304, .f32⟩
  | 16 => ⟨S4194304x1, .f32⟩
  | 17 => ⟨S4194304, .f32⟩
  | 18 => ⟨S4194304, .f32⟩
  | 19 => ⟨S_, .f32⟩
  | 20 => ⟨S4194304, .f32⟩
  | 21 => ⟨S4194304, .f32⟩
  | 22 => ⟨S_, .f32⟩
  | 23 => ⟨S_, .f32⟩
  | 24 => ⟨S_, .f32⟩
  | 25 => ⟨S_, .i32⟩
  | 26 => ⟨S4194304, .i32⟩
  | 27 => ⟨S4194304, .i1⟩
  | 28 => ⟨S_, .i32⟩
  | 29 => ⟨S4194304, .i32⟩
  | 30 => ⟨S4194304, .i1⟩
  | 31 => ⟨S4194304, .i1⟩
  | 32 => ⟨S_, .i32⟩
  | 33 => ⟨S4194304, .i32⟩
  | 34 => ⟨S4194304, .i1⟩
  | 35 => ⟨S4194304, .i1⟩
  | 36 => ⟨S4194304x1, .f32⟩
  | 37 => ⟨S4194304, .f32⟩
  | 38 => ⟨S4194304x1, .f32⟩
  | 39 => ⟨S4194304, .f32⟩
  | 40 => ⟨S4194304, .f32⟩
  | 41 => ⟨S4194304x1, .f32⟩
  | 42 => ⟨S4194304, .f32⟩
  | 43 => ⟨S4194304, .f32⟩
  | 44 => ⟨S_, .f32⟩
  | 45 => ⟨S4194304, .f32⟩
  | 46 => ⟨S4194304, .f32⟩
  | 47 => ⟨S_, .f32⟩
  | 48 => ⟨S_, .f32⟩
  | 49 => ⟨S_, .f32⟩
  | 50 => ⟨S_, .i32⟩
  | 51 => ⟨S4194304, .i32⟩
  | 52 => ⟨S4194304, .i1⟩
  | 53 => ⟨S_, .i32⟩
  | 54 => ⟨S4194304, .i32⟩
  | 55 => ⟨S4194304, .i1⟩
  | 56 => ⟨S4194304, .i1⟩
  | 57 => ⟨S_, .i32⟩
  | 58 => ⟨S4194304, .i32⟩
  | 59 => ⟨S4194304, .i1⟩
  | 60 => ⟨S4194304, .i1⟩
  | 61 => ⟨S4194304x1, .f32⟩
  | 62 => ⟨S4194304, .f32⟩
  | 63 => ⟨S4194304x1, .f32⟩
  | 64 => ⟨S4194304, .f32⟩
  | 65 => ⟨S4194304, .f32⟩
  | 66 => ⟨S4194304x1, .f32⟩
  | 67 => ⟨S4194304, .f32⟩
  | 68 => ⟨S4194304, .f32⟩
  | 69 => ⟨S_, .f32⟩
  | 70 => ⟨S4194304, .f32⟩
  | 71 => ⟨S4194304, .f32⟩
  | 72 => ⟨S_, .f32⟩
  | 73 => ⟨S_, .f32⟩
  | 74 => ⟨S_, .f32⟩
  | 75 => ⟨S_, .i32⟩
  | 76 => ⟨S4194304, .i32⟩
  | 77 => ⟨S4194304, .i1⟩
  | 78 => ⟨S_, .i32⟩
  | 79 => ⟨S4194304, .i32⟩
  | 80 => ⟨S4194304, .i1⟩
  | 81 => ⟨S4194304, .i1⟩
  | 82 => ⟨S_, .i32⟩
  | 83 => ⟨S4194304, .i32⟩
  | 84 => ⟨S4194304, .i1⟩
  | 85 => ⟨S4194304, .i1⟩
  | 86 => ⟨S4194304x1, .f32⟩
  | 87 => ⟨S4194304, .f32⟩
  | 88 => ⟨S4194304x1, .f32⟩
  | 89 => ⟨S4194304, .f32⟩
  | 90 => ⟨S4194304, .f32⟩
  | 91 => ⟨S4194304x1, .f32⟩
  | 92 => ⟨S4194304, .f32⟩
  | 93 => ⟨S4194304, .f32⟩
  | 94 => ⟨S_, .f32⟩
  | 95 => ⟨S4194304, .f32⟩
  | 96 => ⟨S4194304, .f32⟩
  | 97 => ⟨S_, .f32⟩
  | 98 => ⟨S_, .f32⟩
  | 99 => ⟨S_, .f32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i1⟩
  | 106 => ⟨S4194304, .i1⟩
  | 107 => ⟨S_, .i32⟩
  | 108 => ⟨S4194304, .i32⟩
  | 109 => ⟨S4194304, .i1⟩
  | 110 => ⟨S4194304, .i1⟩
  | 111 => ⟨S4194304x1, .f32⟩
  | 112 => ⟨S4194304, .f32⟩
  | 113 => ⟨S4194304x1, .f32⟩
  | 114 => ⟨S4194304, .f32⟩
  | 115 => ⟨S4194304, .f32⟩
  | 116 => ⟨S4194304x1, .f32⟩
  | 117 => ⟨S4194304, .f32⟩
  | 118 => ⟨S4194304, .f32⟩
  | 119 => ⟨S_, .f32⟩
  | 120 => ⟨S4194304, .f32⟩
  | 121 => ⟨S4194304, .f32⟩
  | 122 => ⟨S_, .f32⟩
  | 123 => ⟨S_, .f32⟩
  | 124 => ⟨S_, .f32⟩
  | 125 => ⟨S_, .i32⟩
  | 126 => ⟨S4194304, .i32⟩
  | 127 => ⟨S4194304, .i1⟩
  | _ => ⟨S4194304x2, .f32⟩

abbrev hbmTy0_3 (i : Nat) : BufTy := match i % 128 with
  | 0 => ⟨S_, .i32⟩
  | 1 => ⟨S4194304, .i32⟩
  | 2 => ⟨S4194304, .i1⟩
  | 3 => ⟨S4194304, .i1⟩
  | 4 => ⟨S_, .i32⟩
  | 5 => ⟨S4194304, .i32⟩
  | 6 => ⟨S4194304, .i1⟩
  | 7 => ⟨S4194304, .i1⟩
  | 8 => ⟨S4194304x1, .f32⟩
  | 9 => ⟨S4194304, .f32⟩
  | 10 => ⟨S4194304x1, .f32⟩
  | 11 => ⟨S4194304, .f32⟩
  | 12 => ⟨S4194304, .f32⟩
  | 13 => ⟨S4194304x1, .f32⟩
  | 14 => ⟨S4194304, .f32⟩
  | 15 => ⟨S4194304, .f32⟩
  | 16 => ⟨S_, .f32⟩
  | 17 => ⟨S4194304, .f32⟩
  | 18 => ⟨S4194304, .f32⟩
  | 19 => ⟨S_, .f32⟩
  | 20 => ⟨S_, .f32⟩
  | 21 => ⟨S_, .f32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i1⟩
  | 28 => ⟨S4194304, .i1⟩
  | 29 => ⟨S_, .i32⟩
  | 30 => ⟨S4194304, .i32⟩
  | 31 => ⟨S4194304, .i1⟩
  | 32 => ⟨S4194304, .i1⟩
  | 33 => ⟨S4194304x1, .f32⟩
  | 34 => ⟨S4194304, .f32⟩
  | 35 => ⟨S4194304x1, .f32⟩
  | 36 => ⟨S4194304, .f32⟩
  | 37 => ⟨S4194304, .f32⟩
  | 38 => ⟨S4194304x1, .f32⟩
  | 39 => ⟨S4194304, .f32⟩
  | 40 => ⟨S4194304, .f32⟩
  | 41 => ⟨S_, .f32⟩
  | 42 => ⟨S4194304, .f32⟩
  | 43 => ⟨S4194304, .f32⟩
  | 44 => ⟨S_, .f32⟩
  | 45 => ⟨S_, .f32⟩
  | 46 => ⟨S_, .f32⟩
  | 47 => ⟨S_, .i32⟩
  | 48 => ⟨S4194304, .i32⟩
  | 49 => ⟨S4194304, .i1⟩
  | 50 => ⟨S_, .i32⟩
  | 51 => ⟨S4194304, .i32⟩
  | 52 => ⟨S4194304, .i1⟩
  | 53 => ⟨S4194304, .i1⟩
  | 54 => ⟨S_, .i32⟩
  | 55 => ⟨S4194304, .i32⟩
  | 56 => ⟨S4194304, .i1⟩
  | 57 => ⟨S4194304, .i1⟩
  | 58 => ⟨S4194304x1, .f32⟩
  | 59 => ⟨S4194304, .f32⟩
  | 60 => ⟨S4194304x1, .f32⟩
  | 61 => ⟨S4194304, .f32⟩
  | 62 => ⟨S4194304, .f32⟩
  | 63 => ⟨S4194304x1, .f32⟩
  | 64 => ⟨S4194304, .f32⟩
  | 65 => ⟨S4194304, .f32⟩
  | 66 => ⟨S_, .f32⟩
  | 67 => ⟨S4194304, .f32⟩
  | 68 => ⟨S4194304, .f32⟩
  | 69 => ⟨S_, .f32⟩
  | 70 => ⟨S_, .f32⟩
  | 71 => ⟨S_, .f32⟩
  | 72 => ⟨S_, .i32⟩
  | 73 => ⟨S4194304, .i32⟩
  | 74 => ⟨S4194304, .i1⟩
  | 75 => ⟨S_, .i32⟩
  | 76 => ⟨S4194304, .i32⟩
  | 77 => ⟨S4194304, .i1⟩
  | 78 => ⟨S4194304, .i1⟩
  | 79 => ⟨S_, .i32⟩
  | 80 => ⟨S4194304, .i32⟩
  | 81 => ⟨S4194304, .i1⟩
  | 82 => ⟨S4194304, .i1⟩
  | 83 => ⟨S4194304x1, .f32⟩
  | 84 => ⟨S4194304, .f32⟩
  | 85 => ⟨S4194304x1, .f32⟩
  | 86 => ⟨S4194304, .f32⟩
  | 87 => ⟨S4194304, .f32⟩
  | 88 => ⟨S4194304x1, .f32⟩
  | 89 => ⟨S4194304, .f32⟩
  | 90 => ⟨S4194304, .f32⟩
  | 91 => ⟨S_, .f32⟩
  | 92 => ⟨S4194304, .f32⟩
  | 93 => ⟨S4194304, .f32⟩
  | 94 => ⟨S_, .f32⟩
  | 95 => ⟨S_, .f32⟩
  | 96 => ⟨S_, .f32⟩
  | 97 => ⟨S_, .i32⟩
  | 98 => ⟨S4194304, .i32⟩
  | 99 => ⟨S4194304, .i1⟩
  | 100 => ⟨S_, .i32⟩
  | 101 => ⟨S4194304, .i32⟩
  | 102 => ⟨S4194304, .i1⟩
  | 103 => ⟨S4194304, .i1⟩
  | 104 => ⟨S_, .i32⟩
  | 105 => ⟨S4194304, .i32⟩
  | 106 => ⟨S4194304, .i1⟩
  | 107 => ⟨S4194304, .i1⟩
  | 108 => ⟨S4194304, .i32⟩
  | 109 => ⟨S_, .i32⟩
  | 110 => ⟨S_, .i32⟩
  | 111 => ⟨S4194304, .i32⟩
  | 112 => ⟨S1, .i32⟩
  | 113 => ⟨S_, .i32⟩
  | 114 => ⟨S_, .i32⟩
  | 115 => ⟨S4194304, .i32⟩
  | 116 => ⟨S4194304, .i1⟩
  | 117 => ⟨S4194304, .i32⟩
  | 118 => ⟨S_, .i1⟩
  | 119 => ⟨S_, .i32⟩
  | 120 => ⟨S_, .i1⟩
  | 121 => ⟨S_, .i32⟩
  | 122 => ⟨S_, .i32⟩
  | 123 => ⟨S4194304, .i32⟩
  | 124 => ⟨S4194304, .i1⟩
  | 125 => ⟨S4194304, .i32⟩
  | 126 => ⟨S_, .i1⟩
  | 127 => ⟨S_, .i32⟩
  | _ => ⟨S4194304x2, .f32⟩

abbrev hbmTy0_4 (i : Nat) : BufTy := match i % 128 with
  | 0 => ⟨S_, .i1⟩
  | 1 => ⟨S_, .i32⟩
  | 2 => ⟨S_, .i32⟩
  | 3 => ⟨S4194304, .i32⟩
  | 4 => ⟨S4194304, .i1⟩
  | 5 => ⟨S4194304, .i32⟩
  | 6 => ⟨S_, .i1⟩
  | 7 => ⟨S_, .i32⟩
  | 8 => ⟨S_, .i1⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x2, .f32⟩
  | 24 => ⟨S2, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S1x2, .f32⟩
  | 39 => ⟨S2, .f32⟩
  | 40 => ⟨S2, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x2, .f32⟩
  | 55 => ⟨S2, .f32⟩
  | 56 => ⟨S_, .f32⟩
  | 57 => ⟨S2, .f32⟩
  | 58 => ⟨S2, .i1⟩
  | 59 => ⟨S2, .f32⟩
  | 60 => ⟨S2, .f32⟩
  | 61 => ⟨S2, .f32⟩
  | 62 => ⟨S2, .f32⟩
  | 63 => ⟨S2, .f32⟩
  | 64 => ⟨S2, .f32⟩
  | 65 => ⟨S2, .f32⟩
  | 66 => ⟨S2, .f32⟩
  | 67 => ⟨S_, .f32⟩
  | 68 => ⟨S_, .f32⟩
  | 69 => ⟨S_, .i32⟩
  | 70 => ⟨S_, .i1⟩
  | 71 => ⟨S_, .f32⟩
  | 72 => ⟨S_, .f32⟩
  | 73 => ⟨S_, .f32⟩
  | 74 => ⟨S_, .i32⟩
  | 75 => ⟨S4194304, .i32⟩
  | 76 => ⟨S4194304, .i1⟩
  | 77 => ⟨S_, .i32⟩
  | 78 => ⟨S4194304, .i32⟩
  | 79 => ⟨S4194304, .i1⟩
  | 80 => ⟨S4194304, .i1⟩
  | 81 => ⟨S_, .i32⟩
  | 82 => ⟨S4194304, .i32⟩
  | 83 => ⟨S4194304, .i1⟩
  | 84 => ⟨S4194304, .i1⟩
  | 85 => ⟨S4194304, .i32⟩
  | 86 => ⟨S_, .i32⟩
  | 87 => ⟨S_, .i32⟩
  | 88 => ⟨S4194304, .i32⟩
  | 89 => ⟨S1, .i32⟩
  | 90 => ⟨S_, .i32⟩
  | 91 => ⟨S_, .i32⟩
  | 92 => ⟨S4194304, .i32⟩
  | 93 => ⟨S4194304, .i1⟩
  | 94 => ⟨S4194304, .i32⟩
  | 95 => ⟨S_, .i1⟩
  | 96 => ⟨S_, .i32⟩
  | 97 => ⟨S_, .i1⟩
  | 98 => ⟨S_, .i32⟩
  | 99 => ⟨S_, .i32⟩
  | 100 => ⟨S4194304, .i32⟩
  | 101 => ⟨S4194304, .i1⟩
  | 102 => ⟨S4194304, .i32⟩
  | 103 => ⟨S_, .i1⟩
  | 104 => ⟨S_, .i32⟩
  | 105 => ⟨S_, .i1⟩
  | 106 => ⟨S_, .i32⟩
  | 107 => ⟨S_, .i32⟩
  | 108 => ⟨S4194304, .i32⟩
  | 109 => ⟨S4194304, .i1⟩
  | 110 => ⟨S4194304, .i32⟩
  | 111 => ⟨S_, .i1⟩
  | 112 => ⟨S_, .i32⟩
  | 113 => ⟨S_, .i1⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S4194304x2, .f32⟩

abbrev hbmTy0_5 (i : Nat) : BufTy := match i % 128 with
  | 0 => ⟨S1x2, .f32⟩
  | 1 => ⟨S2, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x2, .f32⟩
  | 16 => ⟨S2, .f32⟩
  | 17 => ⟨S2, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S1x2, .f32⟩
  | 32 => ⟨S2, .f32⟩
  | 33 => ⟨S_, .f32⟩
  | 34 => ⟨S2, .f32⟩
  | 35 => ⟨S2, .i1⟩
  | 36 => ⟨S2, .f32⟩
  | 37 => ⟨S2, .f32⟩
  | 38 => ⟨S2, .f32⟩
  | 39 => ⟨S2, .f32⟩
  | 40 => ⟨S2, .f32⟩
  | 41 => ⟨S2, .f32⟩
  | 42 => ⟨S2, .f32⟩
  | 43 => ⟨S2, .f32⟩
  | 44 => ⟨S_, .f32⟩
  | 45 => ⟨S_, .f32⟩
  | 46 => ⟨S_, .i32⟩
  | 47 => ⟨S_, .i1⟩
  | 48 => ⟨S_, .f32⟩
  | 49 => ⟨S_, .f32⟩
  | 50 => ⟨S_, .f32⟩
  | 51 => ⟨S_, .i32⟩
  | 52 => ⟨S4194304, .i32⟩
  | 53 => ⟨S4194304, .i1⟩
  | 54 => ⟨S_, .i32⟩
  | 55 => ⟨S4194304, .i32⟩
  | 56 => ⟨S4194304, .i1⟩
  | 57 => ⟨S4194304, .i1⟩
  | 58 => ⟨S_, .i32⟩
  | 59 => ⟨S4194304, .i32⟩
  | 60 => ⟨S4194304, .i1⟩
  | 61 => ⟨S4194304, .i1⟩
  | 62 => ⟨S4194304, .i32⟩
  | 63 => ⟨S_, .i32⟩
  | 64 => ⟨S_, .i32⟩
  | 65 => ⟨S4194304, .i32⟩
  | 66 => ⟨S1, .i32⟩
  | 67 => ⟨S_, .i32⟩
  | 68 => ⟨S_, .i32⟩
  | 69 => ⟨S4194304, .i32⟩
  | 70 => ⟨S4194304, .i1⟩
  | 71 => ⟨S4194304, .i32⟩
  | 72 => ⟨S_, .i1⟩
  | 73 => ⟨S_, .i32⟩
  | 74 => ⟨S_, .i1⟩
  | 75 => ⟨S_, .i32⟩
  | 76 => ⟨S_, .i32⟩
  | 77 => ⟨S4194304, .i32⟩
  | 78 => ⟨S4194304, .i1⟩
  | 79 => ⟨S4194304, .i32⟩
  | 80 => ⟨S_, .i1⟩
  | 81 => ⟨S_, .i32⟩
  | 82 => ⟨S_, .i1⟩
  | 83 => ⟨S_, .i32⟩
  | 84 => ⟨S_, .i32⟩
  | 85 => ⟨S4194304, .i32⟩
  | 86 => ⟨S4194304, .i1⟩
  | 87 => ⟨S4194304, .i32⟩
  | 88 => ⟨S_, .i1⟩
  | 89 => ⟨S_, .i32⟩
  | 90 => ⟨S_, .i1⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x2, .f32⟩
  | 106 => ⟨S2, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S1x2, .f32⟩
  | 121 => ⟨S2, .f32⟩
  | 122 => ⟨S2, .f32⟩
  | 123 => ⟨S_, .i32⟩
  | 124 => ⟨S_, .i1⟩
  | 125 => ⟨S_, .i32⟩
  | 126 => ⟨S_, .i32⟩
  | 127 => ⟨S_, .i32⟩
  | _ => ⟨S4194304x2, .f32⟩

abbrev hbmTy0_6 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x2, .f32⟩
  | 9 => ⟨S2, .f32⟩
  | 10 => ⟨S_, .f32⟩
  | 11 => ⟨S2, .f32⟩
  | 12 => ⟨S2, .i1⟩
  | 13 => ⟨S2, .f32⟩
  | 14 => ⟨S2, .f32⟩
  | 15 => ⟨S2, .f32⟩
  | 16 => ⟨S2, .f32⟩
  | 17 => ⟨S2, .f32⟩
  | 18 => ⟨S2, .f32⟩
  | 19 => ⟨S2, .f32⟩
  | 20 => ⟨S2, .f32⟩
  | 21 => ⟨S_, .f32⟩
  | 22 => ⟨S_, .f32⟩
  | 23 => ⟨S_, .i32⟩
  | 24 => ⟨S_, .i1⟩
  | 25 => ⟨S_, .f32⟩
  | 26 => ⟨S_, .f32⟩
  | 27 => ⟨S_, .f32⟩
  | 28 => ⟨S_, .i32⟩
  | 29 => ⟨S4194304, .i32⟩
  | 30 => ⟨S4194304, .i1⟩
  | 31 => ⟨S_, .i32⟩
  | 32 => ⟨S4194304, .i32⟩
  | 33 => ⟨S4194304, .i1⟩
  | 34 => ⟨S4194304, .i1⟩
  | 35 => ⟨S_, .i32⟩
  | 36 => ⟨S4194304, .i32⟩
  | 37 => ⟨S4194304, .i1⟩
  | 38 => ⟨S4194304, .i1⟩
  | 39 => ⟨S4194304, .i32⟩
  | 40 => ⟨S_, .i32⟩
  | 41 => ⟨S_, .i32⟩
  | 42 => ⟨S4194304, .i32⟩
  | 43 => ⟨S1, .i32⟩
  | 44 => ⟨S_, .i32⟩
  | 45 => ⟨S_, .i32⟩
  | 46 => ⟨S4194304, .i32⟩
  | 47 => ⟨S4194304, .i1⟩
  | 48 => ⟨S4194304, .i32⟩
  | 49 => ⟨S_, .i1⟩
  | 50 => ⟨S_, .i32⟩
  | 51 => ⟨S_, .i1⟩
  | 52 => ⟨S_, .i32⟩
  | 53 => ⟨S_, .i32⟩
  | 54 => ⟨S4194304, .i32⟩
  | 55 => ⟨S4194304, .i1⟩
  | 56 => ⟨S4194304, .i32⟩
  | 57 => ⟨S_, .i1⟩
  | 58 => ⟨S_, .i32⟩
  | 59 => ⟨S_, .i1⟩
  | 60 => ⟨S_, .i32⟩
  | 61 => ⟨S_, .i32⟩
  | 62 => ⟨S4194304, .i32⟩
  | 63 => ⟨S4194304, .i1⟩
  | 64 => ⟨S4194304, .i32⟩
  | 65 => ⟨S_, .i1⟩
  | 66 => ⟨S_, .i32⟩
  | 67 => ⟨S_, .i1⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x2, .f32⟩
  | 83 => ⟨S2, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x2, .f32⟩
  | 98 => ⟨S2, .f32⟩
  | 99 => ⟨S2, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S1x2, .f32⟩
  | 114 => ⟨S2, .f32⟩
  | 115 => ⟨S_, .f32⟩
  | 116 => ⟨S2, .f32⟩
  | 117 => ⟨S2, .i1⟩
  | 118 => ⟨S2, .f32⟩
  | 119 => ⟨S2, .f32⟩
  | 120 => ⟨S2, .f32⟩
  | 121 => ⟨S2, .f32⟩
  | 122 => ⟨S2, .f32⟩
  | 123 => ⟨S2, .f32⟩
  | 124 => ⟨S2, .f32⟩
  | 125 => ⟨S2, .f32⟩
  | 126 => ⟨S_, .f32⟩
  | 127 => ⟨S_, .f32⟩
  | _ => ⟨S4194304x2, .f32⟩

abbrev hbmTy0_7 (i : Nat) : BufTy := match i % 128 with
  | 0 => ⟨S_, .i32⟩
  | 1 => ⟨S_, .i1⟩
  | 2 => ⟨S_, .f32⟩
  | 3 => ⟨S_, .f32⟩
  | 4 => ⟨S_, .f32⟩
  | 5 => ⟨S_, .i32⟩
  | 6 => ⟨S4194304, .i32⟩
  | 7 => ⟨S4194304, .i1⟩
  | 8 => ⟨S_, .i32⟩
  | 9 => ⟨S4194304, .i32⟩
  | 10 => ⟨S4194304, .i1⟩
  | 11 => ⟨S4194304, .i1⟩
  | 12 => ⟨S_, .i32⟩
  | 13 => ⟨S4194304, .i32⟩
  | 14 => ⟨S4194304, .i1⟩
  | 15 => ⟨S4194304, .i1⟩
  | 16 => ⟨S4194304, .i32⟩
  | 17 => ⟨S_, .i32⟩
  | 18 => ⟨S_, .i32⟩
  | 19 => ⟨S4194304, .i32⟩
  | 20 => ⟨S1, .i32⟩
  | 21 => ⟨S_, .i32⟩
  | 22 => ⟨S_, .i32⟩
  | 23 => ⟨S4194304, .i32⟩
  | 24 => ⟨S4194304, .i1⟩
  | 25 => ⟨S4194304, .i32⟩
  | 26 => ⟨S_, .i1⟩
  | 27 => ⟨S_, .i32⟩
  | 28 => ⟨S_, .i1⟩
  | 29 => ⟨S_, .i32⟩
  | 30 => ⟨S_, .i32⟩
  | 31 => ⟨S4194304, .i32⟩
  | 32 => ⟨S4194304, .i1⟩
  | 33 => ⟨S4194304, .i32⟩
  | 34 => ⟨S_, .i1⟩
  | 35 => ⟨S_, .i32⟩
  | 36 => ⟨S_, .i1⟩
  | 37 => ⟨S_, .i32⟩
  | 38 => ⟨S_, .i32⟩
  | 39 => ⟨S4194304, .i32⟩
  | 40 => ⟨S4194304, .i1⟩
  | 41 => ⟨S4194304, .i32⟩
  | 42 => ⟨S_, .i1⟩
  | 43 => ⟨S_, .i32⟩
  | 44 => ⟨S_, .i1⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x2, .f32⟩
  | 60 => ⟨S2, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x2, .f32⟩
  | 75 => ⟨S2, .f32⟩
  | 76 => ⟨S2, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2, .f32⟩
  | 91 => ⟨S2, .f32⟩
  | 92 => ⟨S_, .f32⟩
  | 93 => ⟨S2, .f32⟩
  | 94 => ⟨S2, .i1⟩
  | 95 => ⟨S2, .f32⟩
  | 96 => ⟨S2, .f32⟩
  | 97 => ⟨S2, .f32⟩
  | 98 => ⟨S2, .f32⟩
  | 99 => ⟨S2, .f32⟩
  | 100 => ⟨S2, .f32⟩
  | 101 => ⟨S2, .f32⟩
  | 102 => ⟨S2, .f32⟩
  | 103 => ⟨S_, .f32⟩
  | 104 => ⟨S_, .f32⟩
  | 105 => ⟨S_, .i32⟩
  | 106 => ⟨S_, .i1⟩
  | 107 => ⟨S_, .f32⟩
  | 108 => ⟨S_, .f32⟩
  | 109 => ⟨S_, .f32⟩
  | 110 => ⟨S_, .i32⟩
  | 111 => ⟨S4194304, .i32⟩
  | 112 => ⟨S4194304, .i1⟩
  | 113 => ⟨S_, .i32⟩
  | 114 => ⟨S4194304, .i32⟩
  | 115 => ⟨S4194304, .i1⟩
  | 116 => ⟨S4194304, .i1⟩
  | 117 => ⟨S_, .i32⟩
  | 118 => ⟨S4194304, .i32⟩
  | 119 => ⟨S4194304, .i1⟩
  | 120 => ⟨S4194304, .i1⟩
  | 121 => ⟨S4194304, .i32⟩
  | 122 => ⟨S_, .i32⟩
  | 123 => ⟨S_, .i32⟩
  | 124 => ⟨S4194304, .i32⟩
  | 125 => ⟨S1, .i32⟩
  | 126 => ⟨S_, .i32⟩
  | 127 => ⟨S_, .i32⟩
  | _ => ⟨S4194304x2, .f32⟩

abbrev hbmTy0_8 (i : Nat) : BufTy := match i % 128 with
  | 0 => ⟨S4194304, .i32⟩
  | 1 => ⟨S4194304, .i1⟩
  | 2 => ⟨S4194304, .i32⟩
  | 3 => ⟨S_, .i1⟩
  | 4 => ⟨S_, .i32⟩
  | 5 => ⟨S_, .i1⟩
  | 6 => ⟨S_, .i32⟩
  | 7 => ⟨S_, .i32⟩
  | 8 => ⟨S4194304, .i32⟩
  | 9 => ⟨S4194304, .i1⟩
  | 10 => ⟨S4194304, .i32⟩
  | 11 => ⟨S_, .i1⟩
  | 12 => ⟨S_, .i32⟩
  | 13 => ⟨S_, .i1⟩
  | 14 => ⟨S_, .i32⟩
  | 15 => ⟨S_, .i32⟩
  | 16 => ⟨S4194304, .i32⟩
  | 17 => ⟨S4194304, .i1⟩
  | 18 => ⟨S4194304, .i32⟩
  | 19 => ⟨S_, .i1⟩
  | 20 => ⟨S_, .i32⟩
  | 21 => ⟨S_, .i1⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S1x2, .f32⟩
  | 37 => ⟨S2, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x2, .f32⟩
  | 52 => ⟨S2, .f32⟩
  | 53 => ⟨S2, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x2, .f32⟩
  | 68 => ⟨S2, .f32⟩
  | 69 => ⟨S_, .f32⟩
  | 70 => ⟨S2, .f32⟩
  | 71 => ⟨S2, .i1⟩
  | 72 => ⟨S2, .f32⟩
  | 73 => ⟨S2, .f32⟩
  | 74 => ⟨S2, .f32⟩
  | 75 => ⟨S2, .f32⟩
  | 76 => ⟨S2, .f32⟩
  | 77 => ⟨S2, .f32⟩
  | 78 => ⟨S2, .f32⟩
  | 79 => ⟨S2, .f32⟩
  | 80 => ⟨S_, .f32⟩
  | 81 => ⟨S_, .f32⟩
  | 82 => ⟨S_, .i32⟩
  | 83 => ⟨S_, .i1⟩
  | 84 => ⟨S_, .f32⟩
  | 85 => ⟨S_, .f32⟩
  | 86 => ⟨S_, .f32⟩
  | 87 => ⟨S_, .i32⟩
  | 88 => ⟨S4194304, .i32⟩
  | 89 => ⟨S4194304, .i1⟩
  | 90 => ⟨S_, .i32⟩
  | 91 => ⟨S4194304, .i32⟩
  | 92 => ⟨S4194304, .i1⟩
  | 93 => ⟨S4194304, .i1⟩
  | 94 => ⟨S_, .i32⟩
  | 95 => ⟨S4194304, .i32⟩
  | 96 => ⟨S4194304, .i1⟩
  | 97 => ⟨S4194304, .i1⟩
  | 98 => ⟨S4194304, .i32⟩
  | 99 => ⟨S_, .i32⟩
  | 100 => ⟨S_, .i32⟩
  | 101 => ⟨S4194304, .i32⟩
  | 102 => ⟨S1, .i32⟩
  | 103 => ⟨S_, .i32⟩
  | 104 => ⟨S_, .i32⟩
  | 105 => ⟨S4194304, .i32⟩
  | 106 => ⟨S4194304, .i1⟩
  | 107 => ⟨S4194304, .i32⟩
  | 108 => ⟨S_, .i1⟩
  | 109 => ⟨S_, .i32⟩
  | 110 => ⟨S_, .i1⟩
  | 111 => ⟨S_, .i32⟩
  | 112 => ⟨S_, .i32⟩
  | 113 => ⟨S4194304, .i32⟩
  | 114 => ⟨S4194304, .i1⟩
  | 115 => ⟨S4194304, .i32⟩
  | 116 => ⟨S_, .i1⟩
  | 117 => ⟨S_, .i32⟩
  | 118 => ⟨S_, .i1⟩
  | 119 => ⟨S_, .i32⟩
  | 120 => ⟨S_, .i32⟩
  | 121 => ⟨S4194304, .i32⟩
  | 122 => ⟨S4194304, .i1⟩
  | 123 => ⟨S4194304, .i32⟩
  | 124 => ⟨S_, .i1⟩
  | 125 => ⟨S_, .i32⟩
  | 126 => ⟨S_, .i1⟩
  | 127 => ⟨S_, .i32⟩
  | _ => ⟨S4194304x2, .f32⟩

abbrev hbmTy0_9 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x2, .f32⟩
  | 14 => ⟨S2, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S1x2, .f32⟩
  | 29 => ⟨S2, .f32⟩
  | 30 => ⟨S2, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x2, .f32⟩
  | 45 => ⟨S2, .f32⟩
  | 46 => ⟨S_, .f32⟩
  | 47 => ⟨S2, .f32⟩
  | 48 => ⟨S2, .i1⟩
  | 49 => ⟨S2, .f32⟩
  | 50 => ⟨S2, .f32⟩
  | 51 => ⟨S2, .f32⟩
  | 52 => ⟨S2, .f32⟩
  | 53 => ⟨S2, .f32⟩
  | 54 => ⟨S2, .f32⟩
  | 55 => ⟨S2, .f32⟩
  | 56 => ⟨S2, .f32⟩
  | 57 => ⟨S_, .f32⟩
  | 58 => ⟨S_, .f32⟩
  | 59 => ⟨S_, .i32⟩
  | 60 => ⟨S_, .i1⟩
  | 61 => ⟨S_, .f32⟩
  | 62 => ⟨S_, .f32⟩
  | 63 => ⟨S_, .f32⟩
  | 64 => ⟨S_, .i32⟩
  | 65 => ⟨S4194304, .i32⟩
  | 66 => ⟨S4194304, .i1⟩
  | 67 => ⟨S_, .i32⟩
  | 68 => ⟨S4194304, .i32⟩
  | 69 => ⟨S4194304, .i1⟩
  | 70 => ⟨S4194304, .i1⟩
  | 71 => ⟨S_, .i32⟩
  | 72 => ⟨S4194304, .i32⟩
  | 73 => ⟨S4194304, .i1⟩
  | 74 => ⟨S4194304, .i1⟩
  | 75 => ⟨S4194304, .i32⟩
  | 76 => ⟨S_, .i32⟩
  | 77 => ⟨S_, .i32⟩
  | 78 => ⟨S4194304, .i32⟩
  | 79 => ⟨S1, .i32⟩
  | 80 => ⟨S_, .i32⟩
  | 81 => ⟨S_, .i32⟩
  | 82 => ⟨S4194304, .i32⟩
  | 83 => ⟨S4194304, .i1⟩
  | 84 => ⟨S4194304, .i32⟩
  | 85 => ⟨S_, .i1⟩
  | 86 => ⟨S_, .i32⟩
  | 87 => ⟨S_, .i1⟩
  | 88 => ⟨S_, .i32⟩
  | 89 => ⟨S_, .i32⟩
  | 90 => ⟨S4194304, .i32⟩
  | 91 => ⟨S4194304, .i1⟩
  | 92 => ⟨S4194304, .i32⟩
  | 93 => ⟨S_, .i1⟩
  | 94 => ⟨S_, .i32⟩
  | 95 => ⟨S_, .i1⟩
  | 96 => ⟨S_, .i32⟩
  | 97 => ⟨S_, .i32⟩
  | 98 => ⟨S4194304, .i32⟩
  | 99 => ⟨S4194304, .i1⟩
  | 100 => ⟨S4194304, .i32⟩
  | 101 => ⟨S_, .i1⟩
  | 102 => ⟨S_, .i32⟩
  | 103 => ⟨S_, .i1⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S1x2, .f32⟩
  | 119 => ⟨S2, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S4194304x2, .f32⟩

abbrev hbmTy0_10 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x2, .f32⟩
  | 6 => ⟨S2, .f32⟩
  | 7 => ⟨S2, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S1x2, .f32⟩
  | 22 => ⟨S2, .f32⟩
  | 23 => ⟨S_, .f32⟩
  | 24 => ⟨S2, .f32⟩
  | 25 => ⟨S2, .i1⟩
  | 26 => ⟨S2, .f32⟩
  | 27 => ⟨S2, .f32⟩
  | 28 => ⟨S2, .f32⟩
  | 29 => ⟨S2, .f32⟩
  | 30 => ⟨S2, .f32⟩
  | 31 => ⟨S2, .f32⟩
  | 32 => ⟨S2, .f32⟩
  | 33 => ⟨S2, .f32⟩
  | 34 => ⟨S_, .f32⟩
  | 35 => ⟨S_, .f32⟩
  | 36 => ⟨S_, .i32⟩
  | 37 => ⟨S_, .i1⟩
  | 38 => ⟨S_, .f32⟩
  | 39 => ⟨S_, .f32⟩
  | 40 => ⟨S_, .f32⟩
  | 41 => ⟨S_, .i32⟩
  | 42 => ⟨S4194304, .i32⟩
  | 43 => ⟨S4194304, .i1⟩
  | 44 => ⟨S_, .i32⟩
  | 45 => ⟨S4194304, .i32⟩
  | 46 => ⟨S4194304, .i1⟩
  | 47 => ⟨S4194304, .i1⟩
  | 48 => ⟨S_, .i32⟩
  | 49 => ⟨S4194304, .i32⟩
  | 50 => ⟨S4194304, .i1⟩
  | 51 => ⟨S4194304, .i1⟩
  | 52 => ⟨S4194304, .i32⟩
  | 53 => ⟨S_, .i32⟩
  | 54 => ⟨S_, .i32⟩
  | 55 => ⟨S4194304, .i32⟩
  | 56 => ⟨S1, .i32⟩
  | 57 => ⟨S_, .i32⟩
  | 58 => ⟨S_, .i32⟩
  | 59 => ⟨S4194304, .i32⟩
  | 60 => ⟨S4194304, .i1⟩
  | 61 => ⟨S4194304, .i32⟩
  | 62 => ⟨S_, .i1⟩
  | 63 => ⟨S_, .i32⟩
  | 64 => ⟨S_, .i1⟩
  | 65 => ⟨S_, .i32⟩
  | 66 => ⟨S_, .i32⟩
  | 67 => ⟨S4194304, .i32⟩
  | 68 => ⟨S4194304, .i1⟩
  | 69 => ⟨S4194304, .i32⟩
  | 70 => ⟨S_, .i1⟩
  | 71 => ⟨S_, .i32⟩
  | 72 => ⟨S_, .i1⟩
  | 73 => ⟨S_, .i32⟩
  | 74 => ⟨S_, .i32⟩
  | 75 => ⟨S4194304, .i32⟩
  | 76 => ⟨S4194304, .i1⟩
  | 77 => ⟨S4194304, .i32⟩
  | 78 => ⟨S_, .i1⟩
  | 79 => ⟨S_, .i32⟩
  | 80 => ⟨S_, .i1⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1x2, .f32⟩
  | 96 => ⟨S2, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x2, .f32⟩
  | 111 => ⟨S2, .f32⟩
  | 112 => ⟨S2, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x2, .f32⟩
  | 127 => ⟨S2, .f32⟩
  | _ => ⟨S4194304x2, .f32⟩

abbrev hbmTy0_11 (i : Nat) : BufTy := match i % 128 with
  | 0 => ⟨S_, .f32⟩
  | 1 => ⟨S2, .f32⟩
  | 2 => ⟨S2, .i1⟩
  | 3 => ⟨S2, .f32⟩
  | 4 => ⟨S2, .f32⟩
  | 5 => ⟨S2, .f32⟩
  | 6 => ⟨S2, .f32⟩
  | 7 => ⟨S2, .f32⟩
  | 8 => ⟨S2, .f32⟩
  | 9 => ⟨S2, .f32⟩
  | 10 => ⟨S2, .f32⟩
  | 11 => ⟨S_, .f32⟩
  | 12 => ⟨S_, .f32⟩
  | 13 => ⟨S_, .i32⟩
  | 14 => ⟨S_, .i1⟩
  | 15 => ⟨S_, .f32⟩
  | 16 => ⟨S_, .f32⟩
  | 17 => ⟨S_, .f32⟩
  | 18 => ⟨S_, .i32⟩
  | 19 => ⟨S4194304, .i32⟩
  | 20 => ⟨S4194304, .i1⟩
  | 21 => ⟨S_, .i32⟩
  | 22 => ⟨S4194304, .i32⟩
  | 23 => ⟨S4194304, .i1⟩
  | 24 => ⟨S4194304, .i1⟩
  | 25 => ⟨S_, .i32⟩
  | 26 => ⟨S4194304, .i32⟩
  | 27 => ⟨S4194304, .i1⟩
  | 28 => ⟨S4194304, .i1⟩
  | 29 => ⟨S4194304, .i32⟩
  | 30 => ⟨S_, .i32⟩
  | 31 => ⟨S_, .i32⟩
  | 32 => ⟨S4194304, .i32⟩
  | 33 => ⟨S1, .i32⟩
  | 34 => ⟨S_, .i32⟩
  | 35 => ⟨S_, .i32⟩
  | 36 => ⟨S4194304, .i32⟩
  | 37 => ⟨S4194304, .i1⟩
  | 38 => ⟨S4194304, .i32⟩
  | 39 => ⟨S_, .i1⟩
  | 40 => ⟨S_, .i32⟩
  | 41 => ⟨S_, .i1⟩
  | 42 => ⟨S_, .i32⟩
  | 43 => ⟨S_, .i32⟩
  | 44 => ⟨S4194304, .i32⟩
  | 45 => ⟨S4194304, .i1⟩
  | 46 => ⟨S4194304, .i32⟩
  | 47 => ⟨S_, .i1⟩
  | 48 => ⟨S_, .i32⟩
  | 49 => ⟨S_, .i1⟩
  | 50 => ⟨S_, .i32⟩
  | 51 => ⟨S_, .i32⟩
  | 52 => ⟨S4194304, .i32⟩
  | 53 => ⟨S4194304, .i1⟩
  | 54 => ⟨S4194304, .i32⟩
  | 55 => ⟨S_, .i1⟩
  | 56 => ⟨S_, .i32⟩
  | 57 => ⟨S_, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x2, .f32⟩
  | 73 => ⟨S2, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S1x2, .f32⟩
  | 88 => ⟨S2, .f32⟩
  | 89 => ⟨S2, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x2, .f32⟩
  | 104 => ⟨S2, .f32⟩
  | 105 => ⟨S_, .f32⟩
  | 106 => ⟨S2, .f32⟩
  | 107 => ⟨S2, .i1⟩
  | 108 => ⟨S2, .f32⟩
  | 109 => ⟨S2, .f32⟩
  | 110 => ⟨S2, .f32⟩
  | 111 => ⟨S2, .f32⟩
  | 112 => ⟨S2, .f32⟩
  | 113 => ⟨S2, .f32⟩
  | 114 => ⟨S2, .f32⟩
  | 115 => ⟨S2, .f32⟩
  | 116 => ⟨S_, .f32⟩
  | 117 => ⟨S_, .f32⟩
  | 118 => ⟨S_, .i32⟩
  | 119 => ⟨S_, .i1⟩
  | 120 => ⟨S_, .f32⟩
  | 121 => ⟨S_, .f32⟩
  | 122 => ⟨S_, .f32⟩
  | 123 => ⟨S_, .i32⟩
  | 124 => ⟨S4194304, .i32⟩
  | 125 => ⟨S4194304, .i1⟩
  | 126 => ⟨S_, .i32⟩
  | 127 => ⟨S4194304, .i32⟩
  | _ => ⟨S4194304x2, .f32⟩

abbrev hbmTy0_12 (i : Nat) : BufTy := match i % 128 with
  | 0 => ⟨S4194304, .i1⟩
  | 1 => ⟨S4194304, .i1⟩
  | 2 => ⟨S_, .i32⟩
  | 3 => ⟨S4194304, .i32⟩
  | 4 => ⟨S4194304, .i1⟩
  | 5 => ⟨S4194304, .i1⟩
  | 6 => ⟨S4194304, .i32⟩
  | 7 => ⟨S_, .i32⟩
  | 8 => ⟨S_, .i32⟩
  | 9 => ⟨S4194304, .i32⟩
  | 10 => ⟨S1, .i32⟩
  | 11 => ⟨S_, .i32⟩
  | 12 => ⟨S_, .i32⟩
  | 13 => ⟨S4194304, .i32⟩
  | 14 => ⟨S4194304, .i1⟩
  | 15 => ⟨S4194304, .i32⟩
  | 16 => ⟨S_, .i1⟩
  | 17 => ⟨S_, .i32⟩
  | 18 => ⟨S_, .i1⟩
  | 19 => ⟨S_, .i32⟩
  | 20 => ⟨S_, .i32⟩
  | 21 => ⟨S4194304, .i32⟩
  | 22 => ⟨S4194304, .i1⟩
  | 23 => ⟨S4194304, .i32⟩
  | 24 => ⟨S_, .i1⟩
  | 25 => ⟨S_, .i32⟩
  | 26 => ⟨S_, .i1⟩
  | 27 => ⟨S_, .i32⟩
  | 28 => ⟨S_, .i32⟩
  | 29 => ⟨S4194304, .i32⟩
  | 30 => ⟨S4194304, .i1⟩
  | 31 => ⟨S4194304, .i32⟩
  | 32 => ⟨S_, .i1⟩
  | 33 => ⟨S_, .i32⟩
  | 34 => ⟨S_, .i1⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x2, .f32⟩
  | 50 => ⟨S2, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x2, .f32⟩
  | 65 => ⟨S2, .f32⟩
  | 66 => ⟨S2, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x2, .f32⟩
  | 81 => ⟨S2, .f32⟩
  | 82 => ⟨S_, .f32⟩
  | 83 => ⟨S2, .f32⟩
  | 84 => ⟨S2, .i1⟩
  | 85 => ⟨S2, .f32⟩
  | 86 => ⟨S2, .f32⟩
  | 87 => ⟨S2, .f32⟩
  | 88 => ⟨S2, .f32⟩
  | 89 => ⟨S2, .f32⟩
  | 90 => ⟨S2, .f32⟩
  | 91 => ⟨S2, .f32⟩
  | 92 => ⟨S2, .f32⟩
  | 93 => ⟨S_, .f32⟩
  | 94 => ⟨S_, .f32⟩
  | 95 => ⟨S_, .i32⟩
  | 96 => ⟨S_, .i1⟩
  | 97 => ⟨S_, .f32⟩
  | 98 => ⟨S_, .f32⟩
  | 99 => ⟨S_, .f32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i1⟩
  | 106 => ⟨S4194304, .i1⟩
  | 107 => ⟨S_, .i32⟩
  | 108 => ⟨S4194304, .i32⟩
  | 109 => ⟨S4194304, .i1⟩
  | 110 => ⟨S4194304, .i1⟩
  | 111 => ⟨S4194304, .i32⟩
  | 112 => ⟨S_, .i32⟩
  | 113 => ⟨S_, .i32⟩
  | 114 => ⟨S4194304, .i32⟩
  | 115 => ⟨S1, .i32⟩
  | 116 => ⟨S_, .i32⟩
  | 117 => ⟨S_, .i32⟩
  | 118 => ⟨S4194304, .i32⟩
  | 119 => ⟨S4194304, .i1⟩
  | 120 => ⟨S4194304, .i32⟩
  | 121 => ⟨S_, .i1⟩
  | 122 => ⟨S_, .i32⟩
  | 123 => ⟨S_, .i1⟩
  | 124 => ⟨S_, .i32⟩
  | 125 => ⟨S_, .i32⟩
  | 126 => ⟨S4194304, .i32⟩
  | 127 => ⟨S4194304, .i1⟩
  | _ => ⟨S4194304x2, .f32⟩

abbrev hbmTy0_13 (i : Nat) : BufTy := match i % 128 with
  | 0 => ⟨S4194304, .i32⟩
  | 1 => ⟨S_, .i1⟩
  | 2 => ⟨S_, .i32⟩
  | 3 => ⟨S_, .i1⟩
  | 4 => ⟨S_, .i32⟩
  | 5 => ⟨S_, .i32⟩
  | 6 => ⟨S4194304, .i32⟩
  | 7 => ⟨S4194304, .i1⟩
  | 8 => ⟨S4194304, .i32⟩
  | 9 => ⟨S_, .i1⟩
  | 10 => ⟨S_, .i32⟩
  | 11 => ⟨S_, .i1⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x2, .f32⟩
  | 27 => ⟨S2, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S1x2, .f32⟩
  | 42 => ⟨S2, .f32⟩
  | 43 => ⟨S2, .f32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x2, .f32⟩
  | 58 => ⟨S2, .f32⟩
  | 59 => ⟨S_, .f32⟩
  | 60 => ⟨S2, .f32⟩
  | 61 => ⟨S2, .i1⟩
  | 62 => ⟨S2, .f32⟩
  | 63 => ⟨S2, .f32⟩
  | 64 => ⟨S2, .f32⟩
  | 65 => ⟨S2, .f32⟩
  | 66 => ⟨S2, .f32⟩
  | 67 => ⟨S2, .f32⟩
  | 68 => ⟨S2, .f32⟩
  | 69 => ⟨S2, .f32⟩
  | 70 => ⟨S_, .f32⟩
  | 71 => ⟨S_, .f32⟩
  | 72 => ⟨S_, .i32⟩
  | 73 => ⟨S_, .i1⟩
  | 74 => ⟨S_, .f32⟩
  | 75 => ⟨S_, .f32⟩
  | 76 => ⟨S_, .f32⟩
  | 77 => ⟨S_, .i32⟩
  | 78 => ⟨S4194304, .i32⟩
  | 79 => ⟨S4194304, .i1⟩
  | 80 => ⟨S_, .i32⟩
  | 81 => ⟨S4194304, .i32⟩
  | 82 => ⟨S4194304, .i1⟩
  | 83 => ⟨S4194304, .i1⟩
  | 84 => ⟨S_, .i32⟩
  | 85 => ⟨S4194304, .i32⟩
  | 86 => ⟨S4194304, .i1⟩
  | 87 => ⟨S4194304, .i1⟩
  | 88 => ⟨S4194304, .i32⟩
  | 89 => ⟨S_, .i32⟩
  | 90 => ⟨S_, .i32⟩
  | 91 => ⟨S4194304, .i32⟩
  | 92 => ⟨S1, .i32⟩
  | 93 => ⟨S_, .i32⟩
  | 94 => ⟨S_, .i32⟩
  | 95 => ⟨S4194304, .i32⟩
  | 96 => ⟨S4194304, .i1⟩
  | 97 => ⟨S4194304, .i32⟩
  | 98 => ⟨S_, .i1⟩
  | 99 => ⟨S_, .i32⟩
  | 100 => ⟨S_, .i1⟩
  | 101 => ⟨S_, .i32⟩
  | 102 => ⟨S_, .i32⟩
  | 103 => ⟨S4194304, .i32⟩
  | 104 => ⟨S4194304, .i1⟩
  | 105 => ⟨S4194304, .i32⟩
  | 106 => ⟨S_, .i1⟩
  | 107 => ⟨S_, .i32⟩
  | 108 => ⟨S_, .i1⟩
  | 109 => ⟨S_, .i32⟩
  | 110 => ⟨S_, .i32⟩
  | 111 => ⟨S4194304, .i32⟩
  | 112 => ⟨S4194304, .i1⟩
  | 113 => ⟨S4194304, .i32⟩
  | 114 => ⟨S_, .i1⟩
  | 115 => ⟨S_, .i32⟩
  | 116 => ⟨S_, .i1⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4194304x2, .f32⟩

abbrev hbmTy0_14 (i : Nat) : BufTy := match i % 128 with
  | 0 => ⟨S_, .i32⟩
  | 1 => ⟨S_, .i32⟩
  | 2 => ⟨S_, .i32⟩
  | 3 => ⟨S1x2, .f32⟩
  | 4 => ⟨S2, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S1x2, .f32⟩
  | 19 => ⟨S2, .f32⟩
  | 20 => ⟨S2, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1x2, .f32⟩
  | 35 => ⟨S2, .f32⟩
  | 36 => ⟨S_, .f32⟩
  | 37 => ⟨S2, .f32⟩
  | 38 => ⟨S2, .i1⟩
  | 39 => ⟨S2, .f32⟩
  | 40 => ⟨S2, .f32⟩
  | 41 => ⟨S2, .f32⟩
  | 42 => ⟨S2, .f32⟩
  | 43 => ⟨S2, .f32⟩
  | 44 => ⟨S2, .f32⟩
  | 45 => ⟨S2, .f32⟩
  | 46 => ⟨S2, .f32⟩
  | 47 => ⟨S_, .f32⟩
  | 48 => ⟨S_, .f32⟩
  | 49 => ⟨S_, .i32⟩
  | 50 => ⟨S_, .i1⟩
  | 51 => ⟨S_, .f32⟩
  | 52 => ⟨S_, .f32⟩
  | 53 => ⟨S_, .f32⟩
  | 54 => ⟨S_, .i32⟩
  | 55 => ⟨S4194304, .i32⟩
  | 56 => ⟨S4194304, .i1⟩
  | 57 => ⟨S_, .i32⟩
  | 58 => ⟨S4194304, .i32⟩
  | 59 => ⟨S4194304, .i1⟩
  | 60 => ⟨S4194304, .i1⟩
  | 61 => ⟨S_, .i32⟩
  | 62 => ⟨S4194304, .i32⟩
  | 63 => ⟨S4194304, .i1⟩
  | 64 => ⟨S4194304, .i1⟩
  | 65 => ⟨S4194304, .i32⟩
  | 66 => ⟨S_, .i32⟩
  | 67 => ⟨S_, .i32⟩
  | 68 => ⟨S4194304, .i32⟩
  | 69 => ⟨S1, .i32⟩
  | 70 => ⟨S_, .i32⟩
  | 71 => ⟨S_, .i32⟩
  | 72 => ⟨S4194304, .i32⟩
  | 73 => ⟨S4194304, .i1⟩
  | 74 => ⟨S4194304, .i32⟩
  | 75 => ⟨S_, .i1⟩
  | 76 => ⟨S_, .i32⟩
  | 77 => ⟨S_, .i1⟩
  | 78 => ⟨S_, .i32⟩
  | 79 => ⟨S_, .i32⟩
  | 80 => ⟨S4194304, .i32⟩
  | 81 => ⟨S4194304, .i1⟩
  | 82 => ⟨S4194304, .i32⟩
  | 83 => ⟨S_, .i1⟩
  | 84 => ⟨S_, .i32⟩
  | 85 => ⟨S_, .i1⟩
  | 86 => ⟨S_, .i32⟩
  | 87 => ⟨S_, .i32⟩
  | 88 => ⟨S4194304, .i32⟩
  | 89 => ⟨S4194304, .i1⟩
  | 90 => ⟨S4194304, .i32⟩
  | 91 => ⟨S_, .i1⟩
  | 92 => ⟨S_, .i32⟩
  | 93 => ⟨S_, .i1⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x2, .f32⟩
  | 109 => ⟨S2, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S1x2, .f32⟩
  | 124 => ⟨S2, .f32⟩
  | 125 => ⟨S2, .f32⟩
  | 126 => ⟨S_, .i32⟩
  | 127 => ⟨S_, .i1⟩
  | _ => ⟨S4194304x2, .f32⟩

abbrev hbmTy0_15 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x2, .f32⟩
  | 12 => ⟨S2, .f32⟩
  | 13 => ⟨S_, .f32⟩
  | 14 => ⟨S2, .f32⟩
  | 15 => ⟨S2, .i1⟩
  | 16 => ⟨S2, .f32⟩
  | 17 => ⟨S2, .f32⟩
  | 18 => ⟨S2, .f32⟩
  | 19 => ⟨S2, .f32⟩
  | 20 => ⟨S2, .f32⟩
  | 21 => ⟨S2, .f32⟩
  | 22 => ⟨S2, .f32⟩
  | 23 => ⟨S2, .f32⟩
  | 24 => ⟨S_, .f32⟩
  | 25 => ⟨S_, .f32⟩
  | 26 => ⟨S_, .i32⟩
  | 27 => ⟨S_, .i1⟩
  | 28 => ⟨S_, .f32⟩
  | 29 => ⟨S_, .f32⟩
  | 30 => ⟨S_, .f32⟩
  | 31 => ⟨S_, .i32⟩
  | 32 => ⟨S4194304, .i32⟩
  | 33 => ⟨S4194304, .i1⟩
  | 34 => ⟨S_, .i32⟩
  | 35 => ⟨S4194304, .i32⟩
  | 36 => ⟨S4194304, .i1⟩
  | 37 => ⟨S4194304, .i1⟩
  | 38 => ⟨S_, .i32⟩
  | 39 => ⟨S4194304, .i32⟩
  | 40 => ⟨S4194304, .i1⟩
  | 41 => ⟨S4194304, .i1⟩
  | 42 => ⟨S4194304, .i32⟩
  | 43 => ⟨S_, .i32⟩
  | 44 => ⟨S_, .i32⟩
  | 45 => ⟨S4194304, .i32⟩
  | 46 => ⟨S1, .i32⟩
  | 47 => ⟨S_, .i32⟩
  | 48 => ⟨S_, .i32⟩
  | 49 => ⟨S4194304, .i32⟩
  | 50 => ⟨S4194304, .i1⟩
  | 51 => ⟨S4194304, .i32⟩
  | 52 => ⟨S_, .i1⟩
  | 53 => ⟨S_, .i32⟩
  | 54 => ⟨S_, .i1⟩
  | 55 => ⟨S_, .i32⟩
  | 56 => ⟨S_, .i32⟩
  | 57 => ⟨S4194304, .i32⟩
  | 58 => ⟨S4194304, .i1⟩
  | 59 => ⟨S4194304, .i32⟩
  | 60 => ⟨S_, .i1⟩
  | 61 => ⟨S_, .i32⟩
  | 62 => ⟨S_, .i1⟩
  | 63 => ⟨S_, .i32⟩
  | 64 => ⟨S_, .i32⟩
  | 65 => ⟨S4194304, .i32⟩
  | 66 => ⟨S4194304, .i1⟩
  | 67 => ⟨S4194304, .i32⟩
  | 68 => ⟨S_, .i1⟩
  | 69 => ⟨S_, .i32⟩
  | 70 => ⟨S_, .i1⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x2, .f32⟩
  | 86 => ⟨S2, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x2, .f32⟩
  | 101 => ⟨S2, .f32⟩
  | 102 => ⟨S2, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S1x2, .f32⟩
  | 117 => ⟨S2, .f32⟩
  | 118 => ⟨S_, .f32⟩
  | 119 => ⟨S2, .f32⟩
  | 120 => ⟨S2, .i1⟩
  | 121 => ⟨S2, .f32⟩
  | 122 => ⟨S2, .f32⟩
  | 123 => ⟨S2, .f32⟩
  | 124 => ⟨S2, .f32⟩
  | 125 => ⟨S2, .f32⟩
  | 126 => ⟨S2, .f32⟩
  | 127 => ⟨S2, .f32⟩
  | _ => ⟨S4194304x2, .f32⟩

abbrev hbmTy0_16 (i : Nat) : BufTy := match i % 128 with
  | 0 => ⟨S2, .f32⟩
  | 1 => ⟨S_, .f32⟩
  | 2 => ⟨S_, .f32⟩
  | 3 => ⟨S_, .i32⟩
  | 4 => ⟨S_, .i1⟩
  | 5 => ⟨S_, .f32⟩
  | 6 => ⟨S_, .f32⟩
  | 7 => ⟨S_, .f32⟩
  | 8 => ⟨S_, .i32⟩
  | 9 => ⟨S4194304, .i32⟩
  | 10 => ⟨S4194304, .i1⟩
  | 11 => ⟨S_, .i32⟩
  | 12 => ⟨S4194304, .i32⟩
  | 13 => ⟨S4194304, .i1⟩
  | 14 => ⟨S4194304, .i1⟩
  | 15 => ⟨S_, .i32⟩
  | 16 => ⟨S4194304, .i32⟩
  | 17 => ⟨S4194304, .i1⟩
  | 18 => ⟨S4194304, .i1⟩
  | 19 => ⟨S4194304, .i32⟩
  | 20 => ⟨S_, .i32⟩
  | 21 => ⟨S_, .i32⟩
  | 22 => ⟨S4194304, .i32⟩
  | 23 => ⟨S1, .i32⟩
  | 24 => ⟨S_, .i32⟩
  | 25 => ⟨S_, .i32⟩
  | 26 => ⟨S4194304, .i32⟩
  | 27 => ⟨S4194304, .i1⟩
  | 28 => ⟨S4194304, .i32⟩
  | 29 => ⟨S_, .i1⟩
  | 30 => ⟨S_, .i32⟩
  | 31 => ⟨S_, .i1⟩
  | 32 => ⟨S_, .i32⟩
  | 33 => ⟨S_, .i32⟩
  | 34 => ⟨S4194304, .i32⟩
  | 35 => ⟨S4194304, .i1⟩
  | 36 => ⟨S4194304, .i32⟩
  | 37 => ⟨S_, .i1⟩
  | 38 => ⟨S_, .i32⟩
  | 39 => ⟨S_, .i1⟩
  | 40 => ⟨S_, .i32⟩
  | 41 => ⟨S_, .i32⟩
  | 42 => ⟨S4194304, .i32⟩
  | 43 => ⟨S4194304, .i1⟩
  | 44 => ⟨S4194304, .i32⟩
  | 45 => ⟨S_, .i1⟩
  | 46 => ⟨S_, .i32⟩
  | 47 => ⟨S_, .i1⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x2, .f32⟩
  | 63 => ⟨S2, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1x2, .f32⟩
  | 78 => ⟨S2, .f32⟩
  | 79 => ⟨S2, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S1x2, .f32⟩
  | 94 => ⟨S2, .f32⟩
  | 95 => ⟨S_, .f32⟩
  | 96 => ⟨S2, .f32⟩
  | 97 => ⟨S2, .i1⟩
  | 98 => ⟨S2, .f32⟩
  | 99 => ⟨S2, .f32⟩
  | 100 => ⟨S2, .f32⟩
  | 101 => ⟨S2, .f32⟩
  | 102 => ⟨S2, .f32⟩
  | 103 => ⟨S2, .f32⟩
  | 104 => ⟨S2, .f32⟩
  | 105 => ⟨S2, .f32⟩
  | 106 => ⟨S_, .f32⟩
  | 107 => ⟨S_, .f32⟩
  | 108 => ⟨S_, .i32⟩
  | 109 => ⟨S_, .i1⟩
  | 110 => ⟨S_, .f32⟩
  | 111 => ⟨S_, .f32⟩
  | 112 => ⟨S_, .f32⟩
  | 113 => ⟨S_, .i32⟩
  | 114 => ⟨S4194304, .i32⟩
  | 115 => ⟨S4194304, .i1⟩
  | 116 => ⟨S_, .i32⟩
  | 117 => ⟨S4194304, .i32⟩
  | 118 => ⟨S4194304, .i1⟩
  | 119 => ⟨S4194304, .i1⟩
  | 120 => ⟨S_, .i32⟩
  | 121 => ⟨S4194304, .i32⟩
  | 122 => ⟨S4194304, .i1⟩
  | 123 => ⟨S4194304, .i1⟩
  | 124 => ⟨S4194304, .i32⟩
  | 125 => ⟨S_, .i32⟩
  | 126 => ⟨S_, .i32⟩
  | 127 => ⟨S4194304, .i32⟩
  | _ => ⟨S4194304x2, .f32⟩

abbrev hbmTy0_17 (i : Nat) : BufTy := match i % 128 with
  | 0 => ⟨S1, .i32⟩
  | 1 => ⟨S_, .i32⟩
  | 2 => ⟨S_, .i32⟩
  | 3 => ⟨S4194304, .i32⟩
  | 4 => ⟨S4194304, .i1⟩
  | 5 => ⟨S4194304, .i32⟩
  | 6 => ⟨S_, .i1⟩
  | 7 => ⟨S_, .i32⟩
  | 8 => ⟨S_, .i1⟩
  | 9 => ⟨S_, .i32⟩
  | 10 => ⟨S_, .i32⟩
  | 11 => ⟨S4194304, .i32⟩
  | 12 => ⟨S4194304, .i1⟩
  | 13 => ⟨S4194304, .i32⟩
  | 14 => ⟨S_, .i1⟩
  | 15 => ⟨S_, .i32⟩
  | 16 => ⟨S_, .i1⟩
  | 17 => ⟨S_, .i32⟩
  | 18 => ⟨S_, .i32⟩
  | 19 => ⟨S4194304, .i32⟩
  | 20 => ⟨S4194304, .i1⟩
  | 21 => ⟨S4194304, .i32⟩
  | 22 => ⟨S_, .i1⟩
  | 23 => ⟨S_, .i32⟩
  | 24 => ⟨S_, .i1⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x2, .f32⟩
  | 40 => ⟨S2, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x2, .f32⟩
  | 55 => ⟨S2, .f32⟩
  | 56 => ⟨S2, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x2, .f32⟩
  | 71 => ⟨S2, .f32⟩
  | 72 => ⟨S_, .f32⟩
  | 73 => ⟨S2, .f32⟩
  | 74 => ⟨S2, .i1⟩
  | 75 => ⟨S2, .f32⟩
  | 76 => ⟨S2, .f32⟩
  | 77 => ⟨S2, .f32⟩
  | 78 => ⟨S2, .f32⟩
  | 79 => ⟨S2, .f32⟩
  | 80 => ⟨S2, .f32⟩
  | 81 => ⟨S2, .f32⟩
  | 82 => ⟨S2, .f32⟩
  | 83 => ⟨S_, .f32⟩
  | 84 => ⟨S_, .f32⟩
  | 85 => ⟨S_, .i32⟩
  | 86 => ⟨S_, .i1⟩
  | 87 => ⟨S_, .f32⟩
  | 88 => ⟨S_, .f32⟩
  | 89 => ⟨S_, .f32⟩
  | 90 => ⟨S_, .i32⟩
  | 91 => ⟨S4194304, .i32⟩
  | 92 => ⟨S4194304, .i1⟩
  | 93 => ⟨S_, .i32⟩
  | 94 => ⟨S4194304, .i32⟩
  | 95 => ⟨S4194304, .i1⟩
  | 96 => ⟨S4194304, .i1⟩
  | 97 => ⟨S_, .i32⟩
  | 98 => ⟨S4194304, .i32⟩
  | 99 => ⟨S4194304, .i1⟩
  | 100 => ⟨S4194304, .i1⟩
  | 101 => ⟨S4194304, .i32⟩
  | 102 => ⟨S_, .i32⟩
  | 103 => ⟨S_, .i32⟩
  | 104 => ⟨S4194304, .i32⟩
  | 105 => ⟨S1, .i32⟩
  | 106 => ⟨S_, .i32⟩
  | 107 => ⟨S_, .i32⟩
  | 108 => ⟨S4194304, .i32⟩
  | 109 => ⟨S4194304, .i1⟩
  | 110 => ⟨S4194304, .i32⟩
  | 111 => ⟨S_, .i1⟩
  | 112 => ⟨S_, .i32⟩
  | 113 => ⟨S_, .i1⟩
  | 114 => ⟨S_, .i32⟩
  | 115 => ⟨S_, .i32⟩
  | 116 => ⟨S4194304, .i32⟩
  | 117 => ⟨S4194304, .i1⟩
  | 118 => ⟨S4194304, .i32⟩
  | 119 => ⟨S_, .i1⟩
  | 120 => ⟨S_, .i32⟩
  | 121 => ⟨S_, .i1⟩
  | 122 => ⟨S_, .i32⟩
  | 123 => ⟨S_, .i32⟩
  | 124 => ⟨S4194304, .i32⟩
  | 125 => ⟨S4194304, .i1⟩
  | 126 => ⟨S4194304, .i32⟩
  | 127 => ⟨S_, .i1⟩
  | _ => ⟨S4194304x2, .f32⟩

abbrev hbmTy0_18 (i : Nat) : BufTy := match i % 128 with
  | 0 => ⟨S_, .i32⟩
  | 1 => ⟨S_, .i1⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S1x2, .f32⟩
  | 17 => ⟨S2, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S1x2, .f32⟩
  | 32 => ⟨S2, .f32⟩
  | 33 => ⟨S2, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S1x2, .f32⟩
  | 48 => ⟨S2, .f32⟩
  | 49 => ⟨S_, .f32⟩
  | 50 => ⟨S2, .f32⟩
  | 51 => ⟨S2, .i1⟩
  | 52 => ⟨S2, .f32⟩
  | 53 => ⟨S2, .f32⟩
  | 54 => ⟨S2, .f32⟩
  | 55 => ⟨S2, .f32⟩
  | 56 => ⟨S2, .f32⟩
  | 57 => ⟨S2, .f32⟩
  | 58 => ⟨S2, .f32⟩
  | 59 => ⟨S2, .f32⟩
  | 60 => ⟨S_, .f32⟩
  | 61 => ⟨S_, .f32⟩
  | 62 => ⟨S_, .i32⟩
  | 63 => ⟨S_, .i1⟩
  | 64 => ⟨S_, .f32⟩
  | 65 => ⟨S_, .f32⟩
  | 66 => ⟨S_, .f32⟩
  | 67 => ⟨S_, .i32⟩
  | 68 => ⟨S4194304, .i32⟩
  | 69 => ⟨S4194304, .i1⟩
  | 70 => ⟨S_, .i32⟩
  | 71 => ⟨S4194304, .i32⟩
  | 72 => ⟨S4194304, .i1⟩
  | 73 => ⟨S4194304, .i1⟩
  | 74 => ⟨S_, .i32⟩
  | 75 => ⟨S4194304, .i32⟩
  | 76 => ⟨S4194304, .i1⟩
  | 77 => ⟨S4194304, .i1⟩
  | 78 => ⟨S4194304, .i32⟩
  | 79 => ⟨S_, .i32⟩
  | 80 => ⟨S_, .i32⟩
  | 81 => ⟨S4194304, .i32⟩
  | 82 => ⟨S1, .i32⟩
  | 83 => ⟨S_, .i32⟩
  | 84 => ⟨S_, .i32⟩
  | 85 => ⟨S4194304, .i32⟩
  | 86 => ⟨S4194304, .i1⟩
  | 87 => ⟨S4194304, .i32⟩
  | 88 => ⟨S_, .i1⟩
  | 89 => ⟨S_, .i32⟩
  | 90 => ⟨S_, .i1⟩
  | 91 => ⟨S_, .i32⟩
  | 92 => ⟨S_, .i32⟩
  | 93 => ⟨S4194304, .i32⟩
  | 94 => ⟨S4194304, .i1⟩
  | 95 => ⟨S4194304, .i32⟩
  | 96 => ⟨S_, .i1⟩
  | 97 => ⟨S_, .i32⟩
  | 98 => ⟨S_, .i1⟩
  | 99 => ⟨S_, .i32⟩
  | 100 => ⟨S_, .i32⟩
  | 101 => ⟨S4194304, .i32⟩
  | 102 => ⟨S4194304, .i1⟩
  | 103 => ⟨S4194304, .i32⟩
  | 104 => ⟨S_, .i1⟩
  | 105 => ⟨S_, .i32⟩
  | 106 => ⟨S_, .i1⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x2, .f32⟩
  | 122 => ⟨S2, .f32⟩
  | 123 => ⟨S_, .i32⟩
  | 124 => ⟨S_, .i1⟩
  | 125 => ⟨S_, .i32⟩
  | 126 => ⟨S_, .i32⟩
  | 127 => ⟨S_, .i32⟩
  | _ => ⟨S4194304x2, .f32⟩

abbrev hbmTy0_19 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x2, .f32⟩
  | 9 => ⟨S2, .f32⟩
  | 10 => ⟨S2, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x2, .f32⟩
  | 25 => ⟨S2, .f32⟩
  | 26 => ⟨S_, .f32⟩
  | 27 => ⟨S2, .f32⟩
  | 28 => ⟨S2, .i1⟩
  | 29 => ⟨S2, .f32⟩
  | 30 => ⟨S2, .f32⟩
  | 31 => ⟨S2, .f32⟩
  | 32 => ⟨S2, .f32⟩
  | 33 => ⟨S2, .f32⟩
  | 34 => ⟨S2, .f32⟩
  | 35 => ⟨S2, .f32⟩
  | 36 => ⟨S2, .f32⟩
  | 37 => ⟨S_, .f32⟩
  | 38 => ⟨S_, .f32⟩
  | 39 => ⟨S_, .i32⟩
  | 40 => ⟨S_, .i1⟩
  | 41 => ⟨S_, .f32⟩
  | 42 => ⟨S_, .f32⟩
  | 43 => ⟨S_, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i1⟩
  | 50 => ⟨S4194304, .i1⟩
  | 51 => ⟨S_, .i32⟩
  | 52 => ⟨S4194304, .i32⟩
  | 53 => ⟨S4194304, .i1⟩
  | 54 => ⟨S4194304, .i1⟩
  | 55 => ⟨S4194304, .i32⟩
  | 56 => ⟨S_, .i32⟩
  | 57 => ⟨S_, .i32⟩
  | 58 => ⟨S4194304, .i32⟩
  | 59 => ⟨S1, .i32⟩
  | 60 => ⟨S_, .i32⟩
  | 61 => ⟨S_, .i32⟩
  | 62 => ⟨S4194304, .i32⟩
  | 63 => ⟨S4194304, .i1⟩
  | 64 => ⟨S4194304, .i32⟩
  | 65 => ⟨S_, .i1⟩
  | 66 => ⟨S_, .i32⟩
  | 67 => ⟨S_, .i1⟩
  | 68 => ⟨S_, .i32⟩
  | 69 => ⟨S_, .i32⟩
  | 70 => ⟨S4194304, .i32⟩
  | 71 => ⟨S4194304, .i1⟩
  | 72 => ⟨S4194304, .i32⟩
  | 73 => ⟨S_, .i1⟩
  | 74 => ⟨S_, .i32⟩
  | 75 => ⟨S_, .i1⟩
  | 76 => ⟨S_, .i32⟩
  | 77 => ⟨S_, .i32⟩
  | 78 => ⟨S4194304, .i32⟩
  | 79 => ⟨S4194304, .i1⟩
  | 80 => ⟨S4194304, .i32⟩
  | 81 => ⟨S_, .i1⟩
  | 82 => ⟨S_, .i32⟩
  | 83 => ⟨S_, .i1⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S1x2, .f32⟩
  | 99 => ⟨S2, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S1x2, .f32⟩
  | 114 => ⟨S2, .f32⟩
  | 115 => ⟨S2, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S4194304x2, .f32⟩

abbrev hbmTy0_20 (i : Nat) : BufTy := match i % 128 with
  | 0 => ⟨S_, .i32⟩
  | 1 => ⟨S1x2, .f32⟩
  | 2 => ⟨S2, .f32⟩
  | 3 => ⟨S_, .f32⟩
  | 4 => ⟨S2, .f32⟩
  | 5 => ⟨S2, .i1⟩
  | 6 => ⟨S2, .f32⟩
  | 7 => ⟨S2, .f32⟩
  | 8 => ⟨S2, .f32⟩
  | 9 => ⟨S2, .f32⟩
  | 10 => ⟨S2, .f32⟩
  | 11 => ⟨S2, .f32⟩
  | 12 => ⟨S2, .f32⟩
  | 13 => ⟨S2, .f32⟩
  | 14 => ⟨S_, .f32⟩
  | 15 => ⟨S_, .f32⟩
  | 16 => ⟨S_, .i32⟩
  | 17 => ⟨S_, .i1⟩
  | 18 => ⟨S_, .f32⟩
  | 19 => ⟨S_, .f32⟩
  | 20 => ⟨S_, .f32⟩
  | 21 => ⟨S_, .i32⟩
  | 22 => ⟨S4194304, .i32⟩
  | 23 => ⟨S4194304, .i1⟩
  | 24 => ⟨S_, .i32⟩
  | 25 => ⟨S4194304, .i32⟩
  | 26 => ⟨S4194304, .i1⟩
  | 27 => ⟨S4194304, .i1⟩
  | 28 => ⟨S_, .i32⟩
  | 29 => ⟨S4194304, .i32⟩
  | 30 => ⟨S4194304, .i1⟩
  | 31 => ⟨S4194304, .i1⟩
  | 32 => ⟨S4194304, .i32⟩
  | 33 => ⟨S_, .i32⟩
  | 34 => ⟨S_, .i32⟩
  | 35 => ⟨S4194304, .i32⟩
  | 36 => ⟨S1, .i32⟩
  | 37 => ⟨S_, .i32⟩
  | 38 => ⟨S_, .i32⟩
  | 39 => ⟨S4194304, .i32⟩
  | 40 => ⟨S4194304, .i1⟩
  | 41 => ⟨S4194304, .i32⟩
  | 42 => ⟨S_, .i1⟩
  | 43 => ⟨S_, .i32⟩
  | 44 => ⟨S_, .i1⟩
  | 45 => ⟨S_, .i32⟩
  | 46 => ⟨S_, .i32⟩
  | 47 => ⟨S4194304, .i32⟩
  | 48 => ⟨S4194304, .i1⟩
  | 49 => ⟨S4194304, .i32⟩
  | 50 => ⟨S_, .i1⟩
  | 51 => ⟨S_, .i32⟩
  | 52 => ⟨S_, .i1⟩
  | 53 => ⟨S_, .i32⟩
  | 54 => ⟨S_, .i32⟩
  | 55 => ⟨S4194304, .i32⟩
  | 56 => ⟨S4194304, .i1⟩
  | 57 => ⟨S4194304, .i32⟩
  | 58 => ⟨S_, .i1⟩
  | 59 => ⟨S_, .i32⟩
  | 60 => ⟨S_, .i1⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S1x2, .f32⟩
  | 76 => ⟨S2, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2, .f32⟩
  | 91 => ⟨S2, .f32⟩
  | 92 => ⟨S2, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x2, .f32⟩
  | 107 => ⟨S2, .f32⟩
  | 108 => ⟨S_, .f32⟩
  | 109 => ⟨S2, .f32⟩
  | 110 => ⟨S2, .i1⟩
  | 111 => ⟨S2, .f32⟩
  | 112 => ⟨S2, .f32⟩
  | 113 => ⟨S2, .f32⟩
  | 114 => ⟨S2, .f32⟩
  | 115 => ⟨S2, .f32⟩
  | 116 => ⟨S2, .f32⟩
  | 117 => ⟨S2, .f32⟩
  | 118 => ⟨S2, .f32⟩
  | 119 => ⟨S_, .f32⟩
  | 120 => ⟨S_, .f32⟩
  | 121 => ⟨S_, .i32⟩
  | 122 => ⟨S_, .i1⟩
  | 123 => ⟨S_, .f32⟩
  | 124 => ⟨S_, .f32⟩
  | 125 => ⟨S_, .f32⟩
  | 126 => ⟨S_, .i32⟩
  | 127 => ⟨S4194304, .i32⟩
  | _ => ⟨S4194304x2, .f32⟩

abbrev hbmTy0_21 (i : Nat) : BufTy := match i % 128 with
  | 0 => ⟨S4194304, .i1⟩
  | 1 => ⟨S_, .i32⟩
  | 2 => ⟨S4194304, .i32⟩
  | 3 => ⟨S4194304, .i1⟩
  | 4 => ⟨S4194304, .i1⟩
  | 5 => ⟨S_, .i32⟩
  | 6 => ⟨S4194304, .i32⟩
  | 7 => ⟨S4194304, .i1⟩
  | 8 => ⟨S4194304, .i1⟩
  | 9 => ⟨S4194304, .i32⟩
  | 10 => ⟨S_, .i32⟩
  | 11 => ⟨S_, .i32⟩
  | 12 => ⟨S4194304, .i32⟩
  | 13 => ⟨S1, .i32⟩
  | 14 => ⟨S_, .i32⟩
  | 15 => ⟨S_, .i32⟩
  | 16 => ⟨S4194304, .i32⟩
  | 17 => ⟨S4194304, .i1⟩
  | 18 => ⟨S4194304, .i32⟩
  | 19 => ⟨S_, .i1⟩
  | 20 => ⟨S_, .i32⟩
  | 21 => ⟨S_, .i1⟩
  | 22 => ⟨S_, .i32⟩
  | 23 => ⟨S_, .i32⟩
  | 24 => ⟨S4194304, .i32⟩
  | 25 => ⟨S4194304, .i1⟩
  | 26 => ⟨S4194304, .i32⟩
  | 27 => ⟨S_, .i1⟩
  | 28 => ⟨S_, .i32⟩
  | 29 => ⟨S_, .i1⟩
  | 30 => ⟨S_, .i32⟩
  | 31 => ⟨S_, .i32⟩
  | 32 => ⟨S4194304, .i32⟩
  | 33 => ⟨S4194304, .i1⟩
  | 34 => ⟨S4194304, .i32⟩
  | 35 => ⟨S_, .i1⟩
  | 36 => ⟨S_, .i32⟩
  | 37 => ⟨S_, .i1⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x2, .f32⟩
  | 53 => ⟨S2, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x2, .f32⟩
  | 68 => ⟨S2, .f32⟩
  | 69 => ⟨S2, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x2, .f32⟩
  | 84 => ⟨S2, .f32⟩
  | 85 => ⟨S_, .f32⟩
  | 86 => ⟨S2, .f32⟩
  | 87 => ⟨S2, .i1⟩
  | 88 => ⟨S2, .f32⟩
  | 89 => ⟨S2, .f32⟩
  | 90 => ⟨S2, .f32⟩
  | 91 => ⟨S2, .f32⟩
  | 92 => ⟨S2, .f32⟩
  | 93 => ⟨S2, .f32⟩
  | 94 => ⟨S2, .f32⟩
  | 95 => ⟨S2, .f32⟩
  | 96 => ⟨S_, .f32⟩
  | 97 => ⟨S_, .f32⟩
  | 98 => ⟨S_, .i32⟩
  | 99 => ⟨S_, .i1⟩
  | 100 => ⟨S_, .f32⟩
  | 101 => ⟨S_, .f32⟩
  | 102 => ⟨S_, .f32⟩
  | _ => ⟨S4194304x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | _ => ⟨S4194304x2, .f32⟩

abbrev bufTy : (tb : Table) → Fin (tcTables nBuf tb) → BufTy
  | .hbm, ⟨i, _⟩ => hbmTy i
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_c_6 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_7 : Ref sig .tc := ⟨.hbm, 37, rfl⟩
abbrev main_call1_v0 : Ref sig .tc := ⟨.hbm, 38, rfl⟩
abbrev main_v20 : Ref sig .tc := ⟨.hbm, 39, rfl⟩
abbrev main_c_8 : Ref sig .tc := ⟨.hbm, 40, rfl⟩
abbrev main_call2_v0 : Ref sig .tc := ⟨.hbm, 41, rfl⟩
abbrev main_v21 : Ref sig .tc := ⟨.hbm, 42, rfl⟩
abbrev main_c_9 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_14 : Ref sig .tc := ⟨.hbm, 66, rfl⟩
abbrev main_v40 : Ref sig .tc := ⟨.hbm, 67, rfl⟩
abbrev main_v41 : Ref sig .tc := ⟨.hbm, 68, rfl⟩
abbrev main_c_15 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_16 : Ref sig .tc := ⟨.hbm, 73, rfl⟩
abbrev main_c_17 : Ref sig .tc := ⟨.hbm, 74, rfl⟩
abbrev main_call3_v0 : Ref sig .tc := ⟨.hbm, 75, rfl⟩
abbrev main_call3_v1 : Ref sig .tc := ⟨.hbm, 76, rfl⟩
abbrev main_v45 : Ref sig .tc := ⟨.hbm, 77, rfl⟩
abbrev main_c_18 : Ref sig .tc := ⟨.hbm, 78, rfl⟩
abbrev main_call4_v0 : Ref sig .tc := ⟨.hbm, 79, rfl⟩
abbrev main_v46 : Ref sig .tc := ⟨.hbm, 80, rfl⟩
abbrev main_c_19 : Ref sig .tc := ⟨.hbm, 81, rfl⟩
abbrev main_call5_v0 : Ref sig .tc := ⟨.hbm, 82, rfl⟩
abbrev main_v47 : Ref sig .tc := ⟨.hbm, 83, rfl⟩
abbrev main_c_20 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_21 : Ref sig .tc := ⟨.hbm, 93, rfl⟩
abbrev main_v56 : Ref sig .tc := ⟨.hbm, 94, rfl⟩
abbrev main_v57 : Ref sig .tc := ⟨.hbm, 95, rfl⟩
abbrev main_c_22 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_23 : Ref sig .tc := ⟨.hbm, 100, rfl⟩
abbrev main_v61 : Ref sig .tc := ⟨.hbm, 101, rfl⟩
abbrev main_v62 : Ref sig .tc := ⟨.hbm, 102, rfl⟩
abbrev main_c_24 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_25 : Ref sig .tc := ⟨.hbm, 107, rfl⟩
abbrev main_v66 : Ref sig .tc := ⟨.hbm, 108, rfl⟩
abbrev main_v67 : Ref sig .tc := ⟨.hbm, 109, rfl⟩
abbrev main_c_26 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_27 : Ref sig .tc := ⟨.hbm, 114, rfl⟩
abbrev main_c_28 : Ref sig .tc := ⟨.hbm, 115, rfl⟩
abbrev main_call6_v0 : Ref sig .tc := ⟨.hbm, 116, rfl⟩
abbrev main_call6_v1 : Ref sig .tc := ⟨.hbm, 117, rfl⟩
abbrev main_v71 : Ref sig .tc := ⟨.hbm, 118, rfl⟩
abbrev main_c_29 : Ref sig .tc := ⟨.hbm, 119, rfl⟩
abbrev main_call7_v0 : Ref sig .tc := ⟨.hbm, 120, rfl⟩
abbrev main_v72 : Ref sig .tc := ⟨.hbm, 121, rfl⟩
abbrev main_c_30 : Ref sig .tc := ⟨.hbm, 122, rfl⟩
abbrev main_call8_v0 : Ref sig .tc := ⟨.hbm, 123, rfl⟩
abbrev main_v73 : Ref sig .tc := ⟨.hbm, 124, rfl⟩
abbrev main_c_31 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_32 : Ref sig .tc := ⟨.hbm, 130, rfl⟩
abbrev main_v78 : Ref sig .tc := ⟨.hbm, 131, rfl⟩
abbrev main_v79 : Ref sig .tc := ⟨.hbm, 132, rfl⟩
abbrev main_c_33 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_34 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst : Ref sig .tc := ⟨.hbm, 149, rfl⟩
abbrev main_call9_v0 : Ref sig .tc := ⟨.hbm, 150, rfl⟩
abbrev main_v94 : Ref sig .tc := ⟨.hbm, 151, rfl⟩
abbrev main_cst_35 : Ref sig .tc := ⟨.hbm, 152, rfl⟩
abbrev main_v95 : Ref sig .tc := ⟨.hbm, 153, rfl⟩
abbrev main_cst_36 : Ref sig .tc := ⟨.hbm, 154, rfl⟩
abbrev main_v96 : Ref sig .tc := ⟨.hbm, 155, rfl⟩
abbrev main_c_37 : Ref sig .tc := ⟨.hbm, 156, rfl⟩
abbrev main_v97 : Ref sig .tc := ⟨.hbm, 157, rfl⟩
abbrev main_v98 : Ref sig .tc := ⟨.hbm, 158, rfl⟩
abbrev main_c_38 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_c_39 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_cst_40 : Ref sig .tc := ⟨.hbm, 175, rfl⟩
abbrev main_call10_v0 : Ref sig .tc := ⟨.hbm, 176, rfl⟩
abbrev main_v113 : Ref sig .tc := ⟨.hbm, 177, rfl⟩
abbrev main_cst_41 : Ref sig .tc := ⟨.hbm, 178, rfl⟩
abbrev main_v114 : Ref sig .tc := ⟨.hbm, 179, rfl⟩
abbrev main_v115 : Ref sig .tc := ⟨.hbm, 180, rfl⟩
abbrev main_c_42 : Ref sig .tc := ⟨.hbm, 181, rfl⟩
abbrev main_v116 : Ref sig .tc := ⟨.hbm, 182, rfl⟩
abbrev main_v117 : Ref sig .tc := ⟨.hbm, 183, rfl⟩
abbrev main_c_43 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_44 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_cst_45 : Ref sig .tc := ⟨.hbm, 200, rfl⟩
abbrev main_call11_v0 : Ref sig .tc := ⟨.hbm, 201, rfl⟩
abbrev main_v132 : Ref sig .tc := ⟨.hbm, 202, rfl⟩
abbrev main_cst_46 : Ref sig .tc := ⟨.hbm, 203, rfl⟩
abbrev main_v133 : Ref sig .tc := ⟨.hbm, 204, rfl⟩
abbrev main_v134 : Ref sig .tc := ⟨.hbm, 205, rfl⟩
abbrev main_c_47 : Ref sig .tc := ⟨.hbm, 206, rfl⟩
abbrev main_v135 : Ref sig .tc := ⟨.hbm, 207, rfl⟩
abbrev main_v136 : Ref sig .tc := ⟨.hbm, 208, rfl⟩
abbrev main_c_48 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_c_49 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_cst_50 : Ref sig .tc := ⟨.hbm, 225, rfl⟩
abbrev main_call12_v0 : Ref sig .tc := ⟨.hbm, 226, rfl⟩
abbrev main_v151 : Ref sig .tc := ⟨.hbm, 227, rfl⟩
abbrev main_cst_51 : Ref sig .tc := ⟨.hbm, 228, rfl⟩
abbrev main_v152 : Ref sig .tc := ⟨.hbm, 229, rfl⟩
abbrev main_v153 : Ref sig .tc := ⟨.hbm, 230, rfl⟩
abbrev main_c_52 : Ref sig .tc := ⟨.hbm, 231, rfl⟩
abbrev main_v154 : Ref sig .tc := ⟨.hbm, 232, rfl⟩
abbrev main_v155 : Ref sig .tc := ⟨.hbm, 233, rfl⟩
abbrev main_c_53 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_c_54 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_cst_55 : Ref sig .tc := ⟨.hbm, 250, rfl⟩
abbrev main_call13_v0 : Ref sig .tc := ⟨.hbm, 251, rfl⟩
abbrev main_v170 : Ref sig .tc := ⟨.hbm, 252, rfl⟩
abbrev main_cst_56 : Ref sig .tc := ⟨.hbm, 253, rfl⟩
abbrev main_v171 : Ref sig .tc := ⟨.hbm, 254, rfl⟩
abbrev main_v172 : Ref sig .tc := ⟨.hbm, 255, rfl⟩
abbrev main_c_57 : Ref sig .tc := ⟨.hbm, 256, rfl⟩
abbrev main_v173 : Ref sig .tc := ⟨.hbm, 257, rfl⟩
abbrev main_v174 : Ref sig .tc := ⟨.hbm, 258, rfl⟩
abbrev main_c_58 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_c_59 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_cst_60 : Ref sig .tc := ⟨.hbm, 275, rfl⟩
abbrev main_call14_v0 : Ref sig .tc := ⟨.hbm, 276, rfl⟩
abbrev main_v189 : Ref sig .tc := ⟨.hbm, 277, rfl⟩
abbrev main_cst_61 : Ref sig .tc := ⟨.hbm, 278, rfl⟩
abbrev main_v190 : Ref sig .tc := ⟨.hbm, 279, rfl⟩
abbrev main_v191 : Ref sig .tc := ⟨.hbm, 280, rfl⟩
abbrev main_c_62 : Ref sig .tc := ⟨.hbm, 281, rfl⟩
abbrev main_v192 : Ref sig .tc := ⟨.hbm, 282, rfl⟩
abbrev main_v193 : Ref sig .tc := ⟨.hbm, 283, rfl⟩
abbrev main_c_63 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_c_64 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_cst_65 : Ref sig .tc := ⟨.hbm, 300, rfl⟩
abbrev main_call15_v0 : Ref sig .tc := ⟨.hbm, 301, rfl⟩
abbrev main_v208 : Ref sig .tc := ⟨.hbm, 302, rfl⟩
abbrev main_cst_66 : Ref sig .tc := ⟨.hbm, 303, rfl⟩
abbrev main_v209 : Ref sig .tc := ⟨.hbm, 304, rfl⟩
abbrev main_v210 : Ref sig .tc := ⟨.hbm, 305, rfl⟩
abbrev main_c_67 : Ref sig .tc := ⟨.hbm, 306, rfl⟩
abbrev main_v211 : Ref sig .tc := ⟨.hbm, 307, rfl⟩
abbrev main_v212 : Ref sig .tc := ⟨.hbm, 308, rfl⟩
abbrev main_c_68 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_c_69 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_cst_70 : Ref sig .tc := ⟨.hbm, 325, rfl⟩
abbrev main_call16_v0 : Ref sig .tc := ⟨.hbm, 326, rfl⟩
abbrev main_v227 : Ref sig .tc := ⟨.hbm, 327, rfl⟩
abbrev main_cst_71 : Ref sig .tc := ⟨.hbm, 328, rfl⟩
abbrev main_v228 : Ref sig .tc := ⟨.hbm, 329, rfl⟩
abbrev main_v229 : Ref sig .tc := ⟨.hbm, 330, rfl⟩
abbrev main_c_72 : Ref sig .tc := ⟨.hbm, 331, rfl⟩
abbrev main_v230 : Ref sig .tc := ⟨.hbm, 332, rfl⟩
abbrev main_v231 : Ref sig .tc := ⟨.hbm, 333, rfl⟩
abbrev main_c_73 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_c_74 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_cst_75 : Ref sig .tc := ⟨.hbm, 350, rfl⟩
abbrev main_call17_v0 : Ref sig .tc := ⟨.hbm, 351, rfl⟩
abbrev main_v246 : Ref sig .tc := ⟨.hbm, 352, rfl⟩
abbrev main_cst_76 : Ref sig .tc := ⟨.hbm, 353, rfl⟩
abbrev main_v247 : Ref sig .tc := ⟨.hbm, 354, rfl⟩
abbrev main_v248 : Ref sig .tc := ⟨.hbm, 355, rfl⟩
abbrev main_c_77 : Ref sig .tc := ⟨.hbm, 356, rfl⟩
abbrev main_v249 : Ref sig .tc := ⟨.hbm, 357, rfl⟩
abbrev main_v250 : Ref sig .tc := ⟨.hbm, 358, rfl⟩
abbrev main_c_78 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_c_79 : Ref sig .tc := ⟨.hbm, 363, rfl⟩
abbrev main_v254 : Ref sig .tc := ⟨.hbm, 364, rfl⟩
abbrev main_v255 : Ref sig .tc := ⟨.hbm, 365, rfl⟩
abbrev main_v256 : Ref sig .tc := ⟨.hbm, 366, rfl⟩
abbrev main_v257 : Ref sig .tc := ⟨.hbm, 367, rfl⟩
abbrev main_v258 : Ref sig .tc := ⟨.hbm, 368, rfl⟩
abbrev main_v259 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_cst_80 : Ref sig .tc := ⟨.hbm, 375, rfl⟩
abbrev main_call18_v0 : Ref sig .tc := ⟨.hbm, 376, rfl⟩
abbrev main_v265 : Ref sig .tc := ⟨.hbm, 377, rfl⟩
abbrev main_cst_81 : Ref sig .tc := ⟨.hbm, 378, rfl⟩
abbrev main_v266 : Ref sig .tc := ⟨.hbm, 379, rfl⟩
abbrev main_v267 : Ref sig .tc := ⟨.hbm, 380, rfl⟩
abbrev main_c_82 : Ref sig .tc := ⟨.hbm, 381, rfl⟩
abbrev main_v268 : Ref sig .tc := ⟨.hbm, 382, rfl⟩
abbrev main_v269 : Ref sig .tc := ⟨.hbm, 383, rfl⟩
abbrev main_c_83 : Ref sig .tc := ⟨.hbm, 384, rfl⟩
abbrev main_v270 : Ref sig .tc := ⟨.hbm, 385, rfl⟩
abbrev main_v271 : Ref sig .tc := ⟨.hbm, 386, rfl⟩
abbrev main_v272 : Ref sig .tc := ⟨.hbm, 387, rfl⟩
abbrev main_c_84 : Ref sig .tc := ⟨.hbm, 388, rfl⟩
abbrev main_v273 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_cst_85 : Ref sig .tc := ⟨.hbm, 400, rfl⟩
abbrev main_call19_v0 : Ref sig .tc := ⟨.hbm, 401, rfl⟩
abbrev main_v284 : Ref sig .tc := ⟨.hbm, 402, rfl⟩
abbrev main_cst_86 : Ref sig .tc := ⟨.hbm, 403, rfl⟩
abbrev main_v285 : Ref sig .tc := ⟨.hbm, 404, rfl⟩
abbrev main_v286 : Ref sig .tc := ⟨.hbm, 405, rfl⟩
abbrev main_c_87 : Ref sig .tc := ⟨.hbm, 406, rfl⟩
abbrev main_v287 : Ref sig .tc := ⟨.hbm, 407, rfl⟩
abbrev main_v288 : Ref sig .tc := ⟨.hbm, 408, rfl⟩
abbrev main_c_88 : Ref sig .tc := ⟨.hbm, 409, rfl⟩
abbrev main_v289 : Ref sig .tc := ⟨.hbm, 410, rfl⟩
abbrev main_v290 : Ref sig .tc := ⟨.hbm, 411, rfl⟩
abbrev main_v291 : Ref sig .tc := ⟨.hbm, 412, rfl⟩
abbrev main_c_89 : Ref sig .tc := ⟨.hbm, 413, rfl⟩
abbrev main_v292 : Ref sig .tc := ⟨.hbm, 414, rfl⟩
abbrev main_v293 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩
abbrev main_cst_90 : Ref sig .tc := ⟨.hbm, 425, rfl⟩
abbrev main_call20_v0 : Ref sig .tc := ⟨.hbm, 426, rfl⟩
abbrev main_v303 : Ref sig .tc := ⟨.hbm, 427, rfl⟩
abbrev main_cst_91 : Ref sig .tc := ⟨.hbm, 428, rfl⟩
abbrev main_v304 : Ref sig .tc := ⟨.hbm, 429, rfl⟩
abbrev main_v305 : Ref sig .tc := ⟨.hbm, 430, rfl⟩
abbrev main_c_92 : Ref sig .tc := ⟨.hbm, 431, rfl⟩
abbrev main_v306 : Ref sig .tc := ⟨.hbm, 432, rfl⟩
abbrev main_v307 : Ref sig .tc := ⟨.hbm, 433, rfl⟩
abbrev main_c_93 : Ref sig .tc := ⟨.hbm, 434, rfl⟩
abbrev main_v308 : Ref sig .tc := ⟨.hbm, 435, rfl⟩
abbrev main_v309 : Ref sig .tc := ⟨.hbm, 436, rfl⟩
abbrev main_v310 : Ref sig .tc := ⟨.hbm, 437, rfl⟩
abbrev main_c_94 : Ref sig .tc := ⟨.hbm, 438, rfl⟩
abbrev main_v311 : Ref sig .tc := ⟨.hbm, 439, rfl⟩
abbrev main_v312 : Ref sig .tc := ⟨.hbm, 440, rfl⟩
abbrev main_v313 : Ref sig .tc := ⟨.hbm, 441, rfl⟩
abbrev main_v314 : Ref sig .tc := ⟨.hbm, 442, rfl⟩
abbrev main_v315 : Ref sig .tc := ⟨.hbm, 443, rfl⟩
abbrev main_v316 : Ref sig .tc := ⟨.hbm, 444, rfl⟩
abbrev main_v317 : Ref sig .tc := ⟨.hbm, 445, rfl⟩
abbrev main_v318 : Ref sig .tc := ⟨.hbm, 446, rfl⟩
abbrev main_v319 : Ref sig .tc := ⟨.hbm, 447, rfl⟩
abbrev main_v320 : Ref sig .tc := ⟨.hbm, 448, rfl⟩
abbrev main_v321 : Ref sig .tc := ⟨.hbm, 449, rfl⟩
abbrev main_cst_95 : Ref sig .tc := ⟨.hbm, 450, rfl⟩
abbrev main_call21_v0 : Ref sig .tc := ⟨.hbm, 451, rfl⟩
abbrev main_v322 : Ref sig .tc := ⟨.hbm, 452, rfl⟩
abbrev main_cst_96 : Ref sig .tc := ⟨.hbm, 453, rfl⟩
abbrev main_v323 : Ref sig .tc := ⟨.hbm, 454, rfl⟩
abbrev main_v324 : Ref sig .tc := ⟨.hbm, 455, rfl⟩
abbrev main_c_97 : Ref sig .tc := ⟨.hbm, 456, rfl⟩
abbrev main_v325 : Ref sig .tc := ⟨.hbm, 457, rfl⟩
abbrev main_v326 : Ref sig .tc := ⟨.hbm, 458, rfl⟩
abbrev main_c_98 : Ref sig .tc := ⟨.hbm, 459, rfl⟩
abbrev main_v327 : Ref sig .tc := ⟨.hbm, 460, rfl⟩
abbrev main_v328 : Ref sig .tc := ⟨.hbm, 461, rfl⟩
abbrev main_v329 : Ref sig .tc := ⟨.hbm, 462, rfl⟩
abbrev main_c_99 : Ref sig .tc := ⟨.hbm, 463, rfl⟩
abbrev main_v330 : Ref sig .tc := ⟨.hbm, 464, rfl⟩
abbrev main_v331 : Ref sig .tc := ⟨.hbm, 465, rfl⟩
abbrev main_v332 : Ref sig .tc := ⟨.hbm, 466, rfl⟩
abbrev main_v333 : Ref sig .tc := ⟨.hbm, 467, rfl⟩
abbrev main_v334 : Ref sig .tc := ⟨.hbm, 468, rfl⟩
abbrev main_v335 : Ref sig .tc := ⟨.hbm, 469, rfl⟩
abbrev main_v336 : Ref sig .tc := ⟨.hbm, 470, rfl⟩
abbrev main_v337 : Ref sig .tc := ⟨.hbm, 471, rfl⟩
abbrev main_v338 : Ref sig .tc := ⟨.hbm, 472, rfl⟩
abbrev main_v339 : Ref sig .tc := ⟨.hbm, 473, rfl⟩
abbrev main_v340 : Ref sig .tc := ⟨.hbm, 474, rfl⟩
abbrev main_cst_100 : Ref sig .tc := ⟨.hbm, 475, rfl⟩
abbrev main_call22_v0 : Ref sig .tc := ⟨.hbm, 476, rfl⟩
abbrev main_v341 : Ref sig .tc := ⟨.hbm, 477, rfl⟩
abbrev main_cst_101 : Ref sig .tc := ⟨.hbm, 478, rfl⟩
abbrev main_v342 : Ref sig .tc := ⟨.hbm, 479, rfl⟩
abbrev main_v343 : Ref sig .tc := ⟨.hbm, 480, rfl⟩
abbrev main_c_102 : Ref sig .tc := ⟨.hbm, 481, rfl⟩
abbrev main_v344 : Ref sig .tc := ⟨.hbm, 482, rfl⟩
abbrev main_v345 : Ref sig .tc := ⟨.hbm, 483, rfl⟩
abbrev main_c_103 : Ref sig .tc := ⟨.hbm, 484, rfl⟩
abbrev main_v346 : Ref sig .tc := ⟨.hbm, 485, rfl⟩
abbrev main_v347 : Ref sig .tc := ⟨.hbm, 486, rfl⟩
abbrev main_v348 : Ref sig .tc := ⟨.hbm, 487, rfl⟩
abbrev main_c_104 : Ref sig .tc := ⟨.hbm, 488, rfl⟩
abbrev main_v349 : Ref sig .tc := ⟨.hbm, 489, rfl⟩
abbrev main_v350 : Ref sig .tc := ⟨.hbm, 490, rfl⟩
abbrev main_v351 : Ref sig .tc := ⟨.hbm, 491, rfl⟩
abbrev main_v352 : Ref sig .tc := ⟨.hbm, 492, rfl⟩
abbrev main_call23_call0_c : Ref sig .tc := ⟨.hbm, 493, rfl⟩
abbrev main_call23_call0_v0 : Ref sig .tc := ⟨.hbm, 494, rfl⟩
abbrev main_v353 : Ref sig .tc := ⟨.hbm, 495, rfl⟩
abbrev main_v354 : Ref sig .tc := ⟨.hbm, 496, rfl⟩
abbrev main_v355 : Ref sig .tc := ⟨.hbm, 497, rfl⟩
abbrev main_c_105 : Ref sig .tc := ⟨.hbm, 498, rfl⟩
abbrev main_v356 : Ref sig .tc := ⟨.hbm, 499, rfl⟩
abbrev main_v357 : Ref sig .tc := ⟨.hbm, 500, rfl⟩
abbrev main_call24_v0 : Ref sig .tc := ⟨.hbm, 501, rfl⟩
abbrev main_call24_c : Ref sig .tc := ⟨.hbm, 502, rfl⟩
abbrev main_call24_c_0 : Ref sig .tc := ⟨.hbm, 503, rfl⟩
abbrev main_call24_v1_0 : Ref sig .tc := ⟨.hbm, 504, rfl⟩
abbrev main_v358 : Ref sig .tc := ⟨.hbm, 505, rfl⟩
abbrev main_c_106 : Ref sig .tc := ⟨.hbm, 506, rfl⟩
abbrev main_v359 : Ref sig .tc := ⟨.hbm, 507, rfl⟩
abbrev main_v360 : Ref sig .tc := ⟨.hbm, 508, rfl⟩
abbrev main_call25_v0 : Ref sig .tc := ⟨.hbm, 509, rfl⟩
abbrev main_call25_c : Ref sig .tc := ⟨.hbm, 510, rfl⟩
abbrev main_call25_c_0 : Ref sig .tc := ⟨.hbm, 511, rfl⟩
abbrev main_call25_v1_0 : Ref sig .tc := ⟨.hbm, 512, rfl⟩
abbrev main_v361 : Ref sig .tc := ⟨.hbm, 513, rfl⟩
abbrev main_c_107 : Ref sig .tc := ⟨.hbm, 514, rfl⟩
abbrev main_v362 : Ref sig .tc := ⟨.hbm, 515, rfl⟩
abbrev main_v363 : Ref sig .tc := ⟨.hbm, 516, rfl⟩
abbrev main_call26_v0 : Ref sig .tc := ⟨.hbm, 517, rfl⟩
abbrev main_call26_c : Ref sig .tc := ⟨.hbm, 518, rfl⟩
abbrev main_call26_c_0 : Ref sig .tc := ⟨.hbm, 519, rfl⟩
abbrev main_call26_v1_0 : Ref sig .tc := ⟨.hbm, 520, rfl⟩
abbrev main_v364 : Ref sig .tc := ⟨.hbm, 521, rfl⟩
abbrev main_c_108 : Ref sig .tc := ⟨.hbm, 522, rfl⟩
abbrev main_v365 : Ref sig .tc := ⟨.hbm, 523, rfl⟩
abbrev main_c_109 : Ref sig .tc := ⟨.hbm, 524, rfl⟩
abbrev main_v366 : Ref sig .tc := ⟨.hbm, 525, rfl⟩
abbrev main_v367 : Ref sig .tc := ⟨.hbm, 526, rfl⟩
abbrev main_c_110 : Ref sig .tc := ⟨.hbm, 527, rfl⟩
abbrev main_c_111 : Ref sig .tc := ⟨.hbm, 528, rfl⟩
abbrev main_v368 : Ref sig .tc := ⟨.hbm, 529, rfl⟩
abbrev main_c_112 : Ref sig .tc := ⟨.hbm, 530, rfl⟩
abbrev main_c_113 : Ref sig .tc := ⟨.hbm, 531, rfl⟩
abbrev main_v369 : Ref sig .tc := ⟨.hbm, 532, rfl⟩
abbrev main_c_114 : Ref sig .tc := ⟨.hbm, 533, rfl⟩
abbrev main_v370 : Ref sig .tc := ⟨.hbm, 534, rfl⟩
abbrev main_v371 : Ref sig .tc := ⟨.hbm, 535, rfl⟩
abbrev main_v372 : Ref sig .tc := ⟨.hbm, 536, rfl⟩
abbrev main_c_115 : Ref sig .tc := ⟨.hbm, 537, rfl⟩
abbrev main_v373 : Ref sig .tc := ⟨.hbm, 538, rfl⟩
abbrev main_c_116 : Ref sig .tc := ⟨.hbm, 539, rfl⟩
abbrev main_v374 : Ref sig .tc := ⟨.hbm, 540, rfl⟩
abbrev main_v375 : Ref sig .tc := ⟨.hbm, 541, rfl⟩
abbrev main_c_117 : Ref sig .tc := ⟨.hbm, 542, rfl⟩
abbrev main_c_118 : Ref sig .tc := ⟨.hbm, 543, rfl⟩
abbrev main_v376 : Ref sig .tc := ⟨.hbm, 544, rfl⟩
abbrev main_c_119 : Ref sig .tc := ⟨.hbm, 545, rfl⟩
abbrev main_c_120 : Ref sig .tc := ⟨.hbm, 546, rfl⟩
abbrev main_v377 : Ref sig .tc := ⟨.hbm, 547, rfl⟩
abbrev main_c_121 : Ref sig .tc := ⟨.hbm, 548, rfl⟩
abbrev main_v378 : Ref sig .tc := ⟨.hbm, 549, rfl⟩
abbrev main_v379 : Ref sig .tc := ⟨.hbm, 550, rfl⟩
abbrev main_v380 : Ref sig .tc := ⟨.hbm, 551, rfl⟩
abbrev main_v381 : Ref sig .tc := ⟨.hbm, 552, rfl⟩
abbrev main_c_122 : Ref sig .tc := ⟨.hbm, 553, rfl⟩
abbrev main_v382 : Ref sig .tc := ⟨.hbm, 554, rfl⟩
abbrev main_c_123 : Ref sig .tc := ⟨.hbm, 555, rfl⟩
abbrev main_v383 : Ref sig .tc := ⟨.hbm, 556, rfl⟩
abbrev main_v384 : Ref sig .tc := ⟨.hbm, 557, rfl⟩
abbrev main_c_124 : Ref sig .tc := ⟨.hbm, 558, rfl⟩
abbrev main_c_125 : Ref sig .tc := ⟨.hbm, 559, rfl⟩
abbrev main_v385 : Ref sig .tc := ⟨.hbm, 560, rfl⟩
abbrev main_c_126 : Ref sig .tc := ⟨.hbm, 561, rfl⟩
abbrev main_c_127 : Ref sig .tc := ⟨.hbm, 562, rfl⟩
abbrev main_v386 : Ref sig .tc := ⟨.hbm, 563, rfl⟩
abbrev main_c_128 : Ref sig .tc := ⟨.hbm, 564, rfl⟩
abbrev main_v387 : Ref sig .tc := ⟨.hbm, 565, rfl⟩
abbrev main_v388 : Ref sig .tc := ⟨.hbm, 566, rfl⟩
abbrev main_v389 : Ref sig .tc := ⟨.hbm, 567, rfl⟩
abbrev main_cst_129 : Ref sig .tc := ⟨.hbm, 568, rfl⟩
abbrev main_v390 : Ref sig .tc := ⟨.hbm, 569, rfl⟩
abbrev main_v391 : Ref sig .tc := ⟨.hbm, 570, rfl⟩
abbrev main_v392 : Ref sig .tc := ⟨.hbm, 571, rfl⟩
abbrev main_v393 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_v397 : Ref sig .tc := ⟨.hbm, 576, rfl⟩
abbrev main_v398 : Ref sig .tc := ⟨.hbm, 577, rfl⟩
abbrev main_v399 : Ref sig .tc := ⟨.hbm, 578, rfl⟩
abbrev main_cst_130 : Ref sig .tc := ⟨.hbm, 579, rfl⟩
abbrev main_v400 : Ref sig .tc := ⟨.hbm, 580, rfl⟩
abbrev main_c_131 : Ref sig .tc := ⟨.hbm, 581, rfl⟩
abbrev main_v401 : Ref sig .tc := ⟨.hbm, 582, rfl⟩
abbrev main_cst_132 : Ref sig .tc := ⟨.hbm, 583, rfl⟩
abbrev main_v402 : Ref sig .tc := ⟨.hbm, 584, rfl⟩
abbrev main_v403 : Ref sig .tc := ⟨.hbm, 585, rfl⟩
abbrev main_c_133 : Ref sig .tc := ⟨.hbm, 586, rfl⟩
abbrev main_v404 : Ref sig .tc := ⟨.hbm, 587, rfl⟩
abbrev main_v405 : Ref sig .tc := ⟨.hbm, 588, rfl⟩
abbrev main_c_134 : Ref sig .tc := ⟨.hbm, 589, rfl⟩
abbrev main_v406 : Ref sig .tc := ⟨.hbm, 590, rfl⟩
abbrev main_v407 : Ref sig .tc := ⟨.hbm, 591, rfl⟩
abbrev main_v408 : Ref sig .tc := ⟨.hbm, 592, rfl⟩
abbrev main_c_135 : Ref sig .tc := ⟨.hbm, 593, rfl⟩
abbrev main_v409 : Ref sig .tc := ⟨.hbm, 594, rfl⟩
abbrev main_v410 : Ref sig .tc := ⟨.hbm, 595, rfl⟩
abbrev main_v411 : Ref sig .tc := ⟨.hbm, 596, rfl⟩
abbrev main_v412 : Ref sig .tc := ⟨.hbm, 597, rfl⟩
abbrev main_call29_call0_c : Ref sig .tc := ⟨.hbm, 598, rfl⟩
abbrev main_call29_call0_v0 : Ref sig .tc := ⟨.hbm, 599, rfl⟩
abbrev main_v413 : Ref sig .tc := ⟨.hbm, 600, rfl⟩
abbrev main_v414 : Ref sig .tc := ⟨.hbm, 601, rfl⟩
abbrev main_v415 : Ref sig .tc := ⟨.hbm, 602, rfl⟩
abbrev main_c_136 : Ref sig .tc := ⟨.hbm, 603, rfl⟩
abbrev main_v416 : Ref sig .tc := ⟨.hbm, 604, rfl⟩
abbrev main_v417 : Ref sig .tc := ⟨.hbm, 605, rfl⟩
abbrev main_call30_v0 : Ref sig .tc := ⟨.hbm, 606, rfl⟩
abbrev main_call30_c : Ref sig .tc := ⟨.hbm, 607, rfl⟩
abbrev main_call30_c_0 : Ref sig .tc := ⟨.hbm, 608, rfl⟩
abbrev main_call30_v1_0 : Ref sig .tc := ⟨.hbm, 609, rfl⟩
abbrev main_v418 : Ref sig .tc := ⟨.hbm, 610, rfl⟩
abbrev main_c_137 : Ref sig .tc := ⟨.hbm, 611, rfl⟩
abbrev main_v419 : Ref sig .tc := ⟨.hbm, 612, rfl⟩
abbrev main_v420 : Ref sig .tc := ⟨.hbm, 613, rfl⟩
abbrev main_call31_v0 : Ref sig .tc := ⟨.hbm, 614, rfl⟩
abbrev main_call31_c : Ref sig .tc := ⟨.hbm, 615, rfl⟩
abbrev main_call31_c_0 : Ref sig .tc := ⟨.hbm, 616, rfl⟩
abbrev main_call31_v1_0 : Ref sig .tc := ⟨.hbm, 617, rfl⟩
abbrev main_v421 : Ref sig .tc := ⟨.hbm, 618, rfl⟩
abbrev main_c_138 : Ref sig .tc := ⟨.hbm, 619, rfl⟩
abbrev main_v422 : Ref sig .tc := ⟨.hbm, 620, rfl⟩
abbrev main_v423 : Ref sig .tc := ⟨.hbm, 621, rfl⟩
abbrev main_call32_v0 : Ref sig .tc := ⟨.hbm, 622, rfl⟩
abbrev main_call32_c : Ref sig .tc := ⟨.hbm, 623, rfl⟩
abbrev main_call32_c_0 : Ref sig .tc := ⟨.hbm, 624, rfl⟩
abbrev main_call32_v1_0 : Ref sig .tc := ⟨.hbm, 625, rfl⟩
abbrev main_v424 : Ref sig .tc := ⟨.hbm, 626, rfl⟩
abbrev main_c_139 : Ref sig .tc := ⟨.hbm, 627, rfl⟩
abbrev main_v425 : Ref sig .tc := ⟨.hbm, 628, rfl⟩
abbrev main_c_140 : Ref sig .tc := ⟨.hbm, 629, rfl⟩
abbrev main_v426 : Ref sig .tc := ⟨.hbm, 630, rfl⟩
abbrev main_v427 : Ref sig .tc := ⟨.hbm, 631, rfl⟩
abbrev main_c_141 : Ref sig .tc := ⟨.hbm, 632, rfl⟩
abbrev main_c_142 : Ref sig .tc := ⟨.hbm, 633, rfl⟩
abbrev main_v428 : Ref sig .tc := ⟨.hbm, 634, rfl⟩
abbrev main_c_143 : Ref sig .tc := ⟨.hbm, 635, rfl⟩
abbrev main_c_144 : Ref sig .tc := ⟨.hbm, 636, rfl⟩
abbrev main_v429 : Ref sig .tc := ⟨.hbm, 637, rfl⟩
abbrev main_c_145 : Ref sig .tc := ⟨.hbm, 638, rfl⟩
abbrev main_v430 : Ref sig .tc := ⟨.hbm, 639, rfl⟩
abbrev main_v431 : Ref sig .tc := ⟨.hbm, 640, rfl⟩
abbrev main_v432 : Ref sig .tc := ⟨.hbm, 641, rfl⟩
abbrev main_c_146 : Ref sig .tc := ⟨.hbm, 642, rfl⟩
abbrev main_v433 : Ref sig .tc := ⟨.hbm, 643, rfl⟩
abbrev main_c_147 : Ref sig .tc := ⟨.hbm, 644, rfl⟩
abbrev main_v434 : Ref sig .tc := ⟨.hbm, 645, rfl⟩
abbrev main_v435 : Ref sig .tc := ⟨.hbm, 646, rfl⟩
abbrev main_c_148 : Ref sig .tc := ⟨.hbm, 647, rfl⟩
abbrev main_c_149 : Ref sig .tc := ⟨.hbm, 648, rfl⟩
abbrev main_v436 : Ref sig .tc := ⟨.hbm, 649, rfl⟩
abbrev main_c_150 : Ref sig .tc := ⟨.hbm, 650, rfl⟩
abbrev main_c_151 : Ref sig .tc := ⟨.hbm, 651, rfl⟩
abbrev main_v437 : Ref sig .tc := ⟨.hbm, 652, rfl⟩
abbrev main_c_152 : Ref sig .tc := ⟨.hbm, 653, rfl⟩
abbrev main_v438 : Ref sig .tc := ⟨.hbm, 654, rfl⟩
abbrev main_v439 : Ref sig .tc := ⟨.hbm, 655, rfl⟩
abbrev main_v440 : Ref sig .tc := ⟨.hbm, 656, rfl⟩
abbrev main_v441 : Ref sig .tc := ⟨.hbm, 657, rfl⟩
abbrev main_c_153 : Ref sig .tc := ⟨.hbm, 658, rfl⟩
abbrev main_v442 : Ref sig .tc := ⟨.hbm, 659, rfl⟩
abbrev main_c_154 : Ref sig .tc := ⟨.hbm, 660, rfl⟩
abbrev main_v443 : Ref sig .tc := ⟨.hbm, 661, rfl⟩
abbrev main_v444 : Ref sig .tc := ⟨.hbm, 662, rfl⟩
abbrev main_c_155 : Ref sig .tc := ⟨.hbm, 663, rfl⟩
abbrev main_c_156 : Ref sig .tc := ⟨.hbm, 664, rfl⟩
abbrev main_v445 : Ref sig .tc := ⟨.hbm, 665, rfl⟩
abbrev main_c_157 : Ref sig .tc := ⟨.hbm, 666, rfl⟩
abbrev main_c_158 : Ref sig .tc := ⟨.hbm, 667, rfl⟩
abbrev main_v446 : Ref sig .tc := ⟨.hbm, 668, rfl⟩
abbrev main_c_159 : Ref sig .tc := ⟨.hbm, 669, rfl⟩
abbrev main_v447 : Ref sig .tc := ⟨.hbm, 670, rfl⟩
abbrev main_v448 : Ref sig .tc := ⟨.hbm, 671, rfl⟩
abbrev main_v449 : Ref sig .tc := ⟨.hbm, 672, rfl⟩
abbrev main_cst_160 : Ref sig .tc := ⟨.hbm, 673, rfl⟩
abbrev main_v450 : Ref sig .tc := ⟨.hbm, 674, rfl⟩
abbrev main_v451 : Ref sig .tc := ⟨.hbm, 675, rfl⟩
abbrev main_v452 : Ref sig .tc := ⟨.hbm, 676, rfl⟩
abbrev main_v453 : Ref sig .tc := ⟨.hbm, 677, rfl⟩
abbrev main_v454 : Ref sig .tc := ⟨.hbm, 678, rfl⟩
abbrev main_v455 : Ref sig .tc := ⟨.hbm, 679, rfl⟩
abbrev main_v456 : Ref sig .tc := ⟨.hbm, 680, rfl⟩
abbrev main_v457 : Ref sig .tc := ⟨.hbm, 681, rfl⟩
abbrev main_v458 : Ref sig .tc := ⟨.hbm, 682, rfl⟩
abbrev main_v459 : Ref sig .tc := ⟨.hbm, 683, rfl⟩
abbrev main_cst_161 : Ref sig .tc := ⟨.hbm, 684, rfl⟩
abbrev main_v460 : Ref sig .tc := ⟨.hbm, 685, rfl⟩
abbrev main_c_162 : Ref sig .tc := ⟨.hbm, 686, rfl⟩
abbrev main_v461 : Ref sig .tc := ⟨.hbm, 687, rfl⟩
abbrev main_cst_163 : Ref sig .tc := ⟨.hbm, 688, rfl⟩
abbrev main_v462 : Ref sig .tc := ⟨.hbm, 689, rfl⟩
abbrev main_v463 : Ref sig .tc := ⟨.hbm, 690, rfl⟩
abbrev main_c_164 : Ref sig .tc := ⟨.hbm, 691, rfl⟩
abbrev main_v464 : Ref sig .tc := ⟨.hbm, 692, rfl⟩
abbrev main_v465 : Ref sig .tc := ⟨.hbm, 693, rfl⟩
abbrev main_c_165 : Ref sig .tc := ⟨.hbm, 694, rfl⟩
abbrev main_v466 : Ref sig .tc := ⟨.hbm, 695, rfl⟩
abbrev main_v467 : Ref sig .tc := ⟨.hbm, 696, rfl⟩
abbrev main_v468 : Ref sig .tc := ⟨.hbm, 697, rfl⟩
abbrev main_c_166 : Ref sig .tc := ⟨.hbm, 698, rfl⟩
abbrev main_v469 : Ref sig .tc := ⟨.hbm, 699, rfl⟩
abbrev main_v470 : Ref sig .tc := ⟨.hbm, 700, rfl⟩
abbrev main_v471 : Ref sig .tc := ⟨.hbm, 701, rfl⟩
abbrev main_v472 : Ref sig .tc := ⟨.hbm, 702, rfl⟩
abbrev main_call35_call0_c : Ref sig .tc := ⟨.hbm, 703, rfl⟩
abbrev main_call35_call0_v0 : Ref sig .tc := ⟨.hbm, 704, rfl⟩
abbrev main_v473 : Ref sig .tc := ⟨.hbm, 705, rfl⟩
abbrev main_v474 : Ref sig .tc := ⟨.hbm, 706, rfl⟩
abbrev main_v475 : Ref sig .tc := ⟨.hbm, 707, rfl⟩
abbrev main_c_167 : Ref sig .tc := ⟨.hbm, 708, rfl⟩
abbrev main_v476 : Ref sig .tc := ⟨.hbm, 709, rfl⟩
abbrev main_v477 : Ref sig .tc := ⟨.hbm, 710, rfl⟩
abbrev main_call36_v0 : Ref sig .tc := ⟨.hbm, 711, rfl⟩
abbrev main_call36_c : Ref sig .tc := ⟨.hbm, 712, rfl⟩
abbrev main_call36_c_0 : Ref sig .tc := ⟨.hbm, 713, rfl⟩
abbrev main_call36_v1_0 : Ref sig .tc := ⟨.hbm, 714, rfl⟩
abbrev main_v478 : Ref sig .tc := ⟨.hbm, 715, rfl⟩
abbrev main_c_168 : Ref sig .tc := ⟨.hbm, 716, rfl⟩
abbrev main_v479 : Ref sig .tc := ⟨.hbm, 717, rfl⟩
abbrev main_v480 : Ref sig .tc := ⟨.hbm, 718, rfl⟩
abbrev main_call37_v0 : Ref sig .tc := ⟨.hbm, 719, rfl⟩
abbrev main_call37_c : Ref sig .tc := ⟨.hbm, 720, rfl⟩
abbrev main_call37_c_0 : Ref sig .tc := ⟨.hbm, 721, rfl⟩
abbrev main_call37_v1_0 : Ref sig .tc := ⟨.hbm, 722, rfl⟩
abbrev main_v481 : Ref sig .tc := ⟨.hbm, 723, rfl⟩
abbrev main_c_169 : Ref sig .tc := ⟨.hbm, 724, rfl⟩
abbrev main_v482 : Ref sig .tc := ⟨.hbm, 725, rfl⟩
abbrev main_v483 : Ref sig .tc := ⟨.hbm, 726, rfl⟩
abbrev main_call38_v0 : Ref sig .tc := ⟨.hbm, 727, rfl⟩
abbrev main_call38_c : Ref sig .tc := ⟨.hbm, 728, rfl⟩
abbrev main_call38_c_0 : Ref sig .tc := ⟨.hbm, 729, rfl⟩
abbrev main_call38_v1_0 : Ref sig .tc := ⟨.hbm, 730, rfl⟩
abbrev main_v484 : Ref sig .tc := ⟨.hbm, 731, rfl⟩
abbrev main_c_170 : Ref sig .tc := ⟨.hbm, 732, rfl⟩
abbrev main_v485 : Ref sig .tc := ⟨.hbm, 733, rfl⟩
abbrev main_c_171 : Ref sig .tc := ⟨.hbm, 734, rfl⟩
abbrev main_v486 : Ref sig .tc := ⟨.hbm, 735, rfl⟩
abbrev main_v487 : Ref sig .tc := ⟨.hbm, 736, rfl⟩
abbrev main_c_172 : Ref sig .tc := ⟨.hbm, 737, rfl⟩
abbrev main_c_173 : Ref sig .tc := ⟨.hbm, 738, rfl⟩
abbrev main_v488 : Ref sig .tc := ⟨.hbm, 739, rfl⟩
abbrev main_c_174 : Ref sig .tc := ⟨.hbm, 740, rfl⟩
abbrev main_c_175 : Ref sig .tc := ⟨.hbm, 741, rfl⟩
abbrev main_v489 : Ref sig .tc := ⟨.hbm, 742, rfl⟩
abbrev main_c_176 : Ref sig .tc := ⟨.hbm, 743, rfl⟩
abbrev main_v490 : Ref sig .tc := ⟨.hbm, 744, rfl⟩
abbrev main_v491 : Ref sig .tc := ⟨.hbm, 745, rfl⟩
abbrev main_v492 : Ref sig .tc := ⟨.hbm, 746, rfl⟩
abbrev main_c_177 : Ref sig .tc := ⟨.hbm, 747, rfl⟩
abbrev main_v493 : Ref sig .tc := ⟨.hbm, 748, rfl⟩
abbrev main_c_178 : Ref sig .tc := ⟨.hbm, 749, rfl⟩
abbrev main_v494 : Ref sig .tc := ⟨.hbm, 750, rfl⟩
abbrev main_v495 : Ref sig .tc := ⟨.hbm, 751, rfl⟩
abbrev main_c_179 : Ref sig .tc := ⟨.hbm, 752, rfl⟩
abbrev main_c_180 : Ref sig .tc := ⟨.hbm, 753, rfl⟩
abbrev main_v496 : Ref sig .tc := ⟨.hbm, 754, rfl⟩
abbrev main_c_181 : Ref sig .tc := ⟨.hbm, 755, rfl⟩
abbrev main_c_182 : Ref sig .tc := ⟨.hbm, 756, rfl⟩
abbrev main_v497 : Ref sig .tc := ⟨.hbm, 757, rfl⟩
abbrev main_c_183 : Ref sig .tc := ⟨.hbm, 758, rfl⟩
abbrev main_v498 : Ref sig .tc := ⟨.hbm, 759, rfl⟩
abbrev main_v499 : Ref sig .tc := ⟨.hbm, 760, rfl⟩
abbrev main_v500 : Ref sig .tc := ⟨.hbm, 761, rfl⟩
abbrev main_v501 : Ref sig .tc := ⟨.hbm, 762, rfl⟩
abbrev main_c_184 : Ref sig .tc := ⟨.hbm, 763, rfl⟩
abbrev main_v502 : Ref sig .tc := ⟨.hbm, 764, rfl⟩
abbrev main_c_185 : Ref sig .tc := ⟨.hbm, 765, rfl⟩
abbrev main_v503 : Ref sig .tc := ⟨.hbm, 766, rfl⟩
abbrev main_v504 : Ref sig .tc := ⟨.hbm, 767, rfl⟩
abbrev main_c_186 : Ref sig .tc := ⟨.hbm, 768, rfl⟩
abbrev main_c_187 : Ref sig .tc := ⟨.hbm, 769, rfl⟩
abbrev main_v505 : Ref sig .tc := ⟨.hbm, 770, rfl⟩
abbrev main_c_188 : Ref sig .tc := ⟨.hbm, 771, rfl⟩
abbrev main_c_189 : Ref sig .tc := ⟨.hbm, 772, rfl⟩
abbrev main_v506 : Ref sig .tc := ⟨.hbm, 773, rfl⟩
abbrev main_c_190 : Ref sig .tc := ⟨.hbm, 774, rfl⟩
abbrev main_v507 : Ref sig .tc := ⟨.hbm, 775, rfl⟩
abbrev main_v508 : Ref sig .tc := ⟨.hbm, 776, rfl⟩
abbrev main_v509 : Ref sig .tc := ⟨.hbm, 777, rfl⟩
abbrev main_cst_191 : Ref sig .tc := ⟨.hbm, 778, rfl⟩
abbrev main_v510 : Ref sig .tc := ⟨.hbm, 779, rfl⟩
abbrev main_v511 : Ref sig .tc := ⟨.hbm, 780, rfl⟩
abbrev main_v512 : Ref sig .tc := ⟨.hbm, 781, rfl⟩
abbrev main_v513 : Ref sig .tc := ⟨.hbm, 782, rfl⟩
abbrev main_v514 : Ref sig .tc := ⟨.hbm, 783, rfl⟩
abbrev main_v515 : Ref sig .tc := ⟨.hbm, 784, rfl⟩
abbrev main_v516 : Ref sig .tc := ⟨.hbm, 785, rfl⟩
abbrev main_v517 : Ref sig .tc := ⟨.hbm, 786, rfl⟩
abbrev main_v518 : Ref sig .tc := ⟨.hbm, 787, rfl⟩
abbrev main_v519 : Ref sig .tc := ⟨.hbm, 788, rfl⟩
abbrev main_cst_192 : Ref sig .tc := ⟨.hbm, 789, rfl⟩
abbrev main_v520 : Ref sig .tc := ⟨.hbm, 790, rfl⟩
abbrev main_c_193 : Ref sig .tc := ⟨.hbm, 791, rfl⟩
abbrev main_v521 : Ref sig .tc := ⟨.hbm, 792, rfl⟩
abbrev main_cst_194 : Ref sig .tc := ⟨.hbm, 793, rfl⟩
abbrev main_v522 : Ref sig .tc := ⟨.hbm, 794, rfl⟩
abbrev main_v523 : Ref sig .tc := ⟨.hbm, 795, rfl⟩
abbrev main_c_195 : Ref sig .tc := ⟨.hbm, 796, rfl⟩
abbrev main_v524 : Ref sig .tc := ⟨.hbm, 797, rfl⟩
abbrev main_v525 : Ref sig .tc := ⟨.hbm, 798, rfl⟩
abbrev main_c_196 : Ref sig .tc := ⟨.hbm, 799, rfl⟩
abbrev main_v526 : Ref sig .tc := ⟨.hbm, 800, rfl⟩
abbrev main_v527 : Ref sig .tc := ⟨.hbm, 801, rfl⟩
abbrev main_v528 : Ref sig .tc := ⟨.hbm, 802, rfl⟩
abbrev main_c_197 : Ref sig .tc := ⟨.hbm, 803, rfl⟩
abbrev main_v529 : Ref sig .tc := ⟨.hbm, 804, rfl⟩
abbrev main_v530 : Ref sig .tc := ⟨.hbm, 805, rfl⟩
abbrev main_v531 : Ref sig .tc := ⟨.hbm, 806, rfl⟩
abbrev main_v532 : Ref sig .tc := ⟨.hbm, 807, rfl⟩
abbrev main_call41_call0_c : Ref sig .tc := ⟨.hbm, 808, rfl⟩
abbrev main_call41_call0_v0 : Ref sig .tc := ⟨.hbm, 809, rfl⟩
abbrev main_v533 : Ref sig .tc := ⟨.hbm, 810, rfl⟩
abbrev main_v534 : Ref sig .tc := ⟨.hbm, 811, rfl⟩
abbrev main_v535 : Ref sig .tc := ⟨.hbm, 812, rfl⟩
abbrev main_c_198 : Ref sig .tc := ⟨.hbm, 813, rfl⟩
abbrev main_v536 : Ref sig .tc := ⟨.hbm, 814, rfl⟩
abbrev main_v537 : Ref sig .tc := ⟨.hbm, 815, rfl⟩
abbrev main_call42_v0 : Ref sig .tc := ⟨.hbm, 816, rfl⟩
abbrev main_call42_c : Ref sig .tc := ⟨.hbm, 817, rfl⟩
abbrev main_call42_c_0 : Ref sig .tc := ⟨.hbm, 818, rfl⟩
abbrev main_call42_v1_0 : Ref sig .tc := ⟨.hbm, 819, rfl⟩
abbrev main_v538 : Ref sig .tc := ⟨.hbm, 820, rfl⟩
abbrev main_c_199 : Ref sig .tc := ⟨.hbm, 821, rfl⟩
abbrev main_v539 : Ref sig .tc := ⟨.hbm, 822, rfl⟩
abbrev main_v540 : Ref sig .tc := ⟨.hbm, 823, rfl⟩
abbrev main_call43_v0 : Ref sig .tc := ⟨.hbm, 824, rfl⟩
abbrev main_call43_c : Ref sig .tc := ⟨.hbm, 825, rfl⟩
abbrev main_call43_c_0 : Ref sig .tc := ⟨.hbm, 826, rfl⟩
abbrev main_call43_v1_0 : Ref sig .tc := ⟨.hbm, 827, rfl⟩
abbrev main_v541 : Ref sig .tc := ⟨.hbm, 828, rfl⟩
abbrev main_c_200 : Ref sig .tc := ⟨.hbm, 829, rfl⟩
abbrev main_v542 : Ref sig .tc := ⟨.hbm, 830, rfl⟩
abbrev main_v543 : Ref sig .tc := ⟨.hbm, 831, rfl⟩
abbrev main_call44_v0 : Ref sig .tc := ⟨.hbm, 832, rfl⟩
abbrev main_call44_c : Ref sig .tc := ⟨.hbm, 833, rfl⟩
abbrev main_call44_c_0 : Ref sig .tc := ⟨.hbm, 834, rfl⟩
abbrev main_call44_v1_0 : Ref sig .tc := ⟨.hbm, 835, rfl⟩
abbrev main_v544 : Ref sig .tc := ⟨.hbm, 836, rfl⟩
abbrev main_c_201 : Ref sig .tc := ⟨.hbm, 837, rfl⟩
abbrev main_v545 : Ref sig .tc := ⟨.hbm, 838, rfl⟩
abbrev main_c_202 : Ref sig .tc := ⟨.hbm, 839, rfl⟩
abbrev main_v546 : Ref sig .tc := ⟨.hbm, 840, rfl⟩
abbrev main_v547 : Ref sig .tc := ⟨.hbm, 841, rfl⟩
abbrev main_c_203 : Ref sig .tc := ⟨.hbm, 842, rfl⟩
abbrev main_c_204 : Ref sig .tc := ⟨.hbm, 843, rfl⟩
abbrev main_v548 : Ref sig .tc := ⟨.hbm, 844, rfl⟩
abbrev main_c_205 : Ref sig .tc := ⟨.hbm, 845, rfl⟩
abbrev main_c_206 : Ref sig .tc := ⟨.hbm, 846, rfl⟩
abbrev main_v549 : Ref sig .tc := ⟨.hbm, 847, rfl⟩
abbrev main_c_207 : Ref sig .tc := ⟨.hbm, 848, rfl⟩
abbrev main_v550 : Ref sig .tc := ⟨.hbm, 849, rfl⟩
abbrev main_v551 : Ref sig .tc := ⟨.hbm, 850, rfl⟩
abbrev main_v552 : Ref sig .tc := ⟨.hbm, 851, rfl⟩
abbrev main_c_208 : Ref sig .tc := ⟨.hbm, 852, rfl⟩
abbrev main_v553 : Ref sig .tc := ⟨.hbm, 853, rfl⟩
abbrev main_c_209 : Ref sig .tc := ⟨.hbm, 854, rfl⟩
abbrev main_v554 : Ref sig .tc := ⟨.hbm, 855, rfl⟩
abbrev main_v555 : Ref sig .tc := ⟨.hbm, 856, rfl⟩
abbrev main_c_210 : Ref sig .tc := ⟨.hbm, 857, rfl⟩
abbrev main_c_211 : Ref sig .tc := ⟨.hbm, 858, rfl⟩
abbrev main_v556 : Ref sig .tc := ⟨.hbm, 859, rfl⟩
abbrev main_c_212 : Ref sig .tc := ⟨.hbm, 860, rfl⟩
abbrev main_c_213 : Ref sig .tc := ⟨.hbm, 861, rfl⟩
abbrev main_v557 : Ref sig .tc := ⟨.hbm, 862, rfl⟩
abbrev main_c_214 : Ref sig .tc := ⟨.hbm, 863, rfl⟩
abbrev main_v558 : Ref sig .tc := ⟨.hbm, 864, rfl⟩
abbrev main_v559 : Ref sig .tc := ⟨.hbm, 865, rfl⟩
abbrev main_v560 : Ref sig .tc := ⟨.hbm, 866, rfl⟩
abbrev main_v561 : Ref sig .tc := ⟨.hbm, 867, rfl⟩
abbrev main_c_215 : Ref sig .tc := ⟨.hbm, 868, rfl⟩
abbrev main_v562 : Ref sig .tc := ⟨.hbm, 869, rfl⟩
abbrev main_c_216 : Ref sig .tc := ⟨.hbm, 870, rfl⟩
abbrev main_v563 : Ref sig .tc := ⟨.hbm, 871, rfl⟩
abbrev main_v564 : Ref sig .tc := ⟨.hbm, 872, rfl⟩
abbrev main_c_217 : Ref sig .tc := ⟨.hbm, 873, rfl⟩
abbrev main_c_218 : Ref sig .tc := ⟨.hbm, 874, rfl⟩
abbrev main_v565 : Ref sig .tc := ⟨.hbm, 875, rfl⟩
abbrev main_c_219 : Ref sig .tc := ⟨.hbm, 876, rfl⟩
abbrev main_c_220 : Ref sig .tc := ⟨.hbm, 877, rfl⟩
abbrev main_v566 : Ref sig .tc := ⟨.hbm, 878, rfl⟩
abbrev main_c_221 : Ref sig .tc := ⟨.hbm, 879, rfl⟩
abbrev main_v567 : Ref sig .tc := ⟨.hbm, 880, rfl⟩
abbrev main_v568 : Ref sig .tc := ⟨.hbm, 881, rfl⟩
abbrev main_v569 : Ref sig .tc := ⟨.hbm, 882, rfl⟩
abbrev main_cst_222 : Ref sig .tc := ⟨.hbm, 883, rfl⟩
abbrev main_v570 : Ref sig .tc := ⟨.hbm, 884, rfl⟩
abbrev main_v571 : Ref sig .tc := ⟨.hbm, 885, rfl⟩
abbrev main_v572 : Ref sig .tc := ⟨.hbm, 886, rfl⟩
abbrev main_v573 : Ref sig .tc := ⟨.hbm, 887, rfl⟩
abbrev main_v574 : Ref sig .tc := ⟨.hbm, 888, rfl⟩
abbrev main_v575 : Ref sig .tc := ⟨.hbm, 889, rfl⟩
abbrev main_v576 : Ref sig .tc := ⟨.hbm, 890, rfl⟩
abbrev main_v577 : Ref sig .tc := ⟨.hbm, 891, rfl⟩
abbrev main_v578 : Ref sig .tc := ⟨.hbm, 892, rfl⟩
abbrev main_v579 : Ref sig .tc := ⟨.hbm, 893, rfl⟩
abbrev main_cst_223 : Ref sig .tc := ⟨.hbm, 894, rfl⟩
abbrev main_v580 : Ref sig .tc := ⟨.hbm, 895, rfl⟩
abbrev main_c_224 : Ref sig .tc := ⟨.hbm, 896, rfl⟩
abbrev main_v581 : Ref sig .tc := ⟨.hbm, 897, rfl⟩
abbrev main_cst_225 : Ref sig .tc := ⟨.hbm, 898, rfl⟩
abbrev main_v582 : Ref sig .tc := ⟨.hbm, 899, rfl⟩
abbrev main_v583 : Ref sig .tc := ⟨.hbm, 900, rfl⟩
abbrev main_c_226 : Ref sig .tc := ⟨.hbm, 901, rfl⟩
abbrev main_v584 : Ref sig .tc := ⟨.hbm, 902, rfl⟩
abbrev main_v585 : Ref sig .tc := ⟨.hbm, 903, rfl⟩
abbrev main_c_227 : Ref sig .tc := ⟨.hbm, 904, rfl⟩
abbrev main_v586 : Ref sig .tc := ⟨.hbm, 905, rfl⟩
abbrev main_v587 : Ref sig .tc := ⟨.hbm, 906, rfl⟩
abbrev main_v588 : Ref sig .tc := ⟨.hbm, 907, rfl⟩
abbrev main_c_228 : Ref sig .tc := ⟨.hbm, 908, rfl⟩
abbrev main_v589 : Ref sig .tc := ⟨.hbm, 909, rfl⟩
abbrev main_v590 : Ref sig .tc := ⟨.hbm, 910, rfl⟩
abbrev main_v591 : Ref sig .tc := ⟨.hbm, 911, rfl⟩
abbrev main_v592 : Ref sig .tc := ⟨.hbm, 912, rfl⟩
abbrev main_call47_call0_c : Ref sig .tc := ⟨.hbm, 913, rfl⟩
abbrev main_call47_call0_v0 : Ref sig .tc := ⟨.hbm, 914, rfl⟩
abbrev main_v593 : Ref sig .tc := ⟨.hbm, 915, rfl⟩
abbrev main_v594 : Ref sig .tc := ⟨.hbm, 916, rfl⟩
abbrev main_v595 : Ref sig .tc := ⟨.hbm, 917, rfl⟩
abbrev main_c_229 : Ref sig .tc := ⟨.hbm, 918, rfl⟩
abbrev main_v596 : Ref sig .tc := ⟨.hbm, 919, rfl⟩
abbrev main_v597 : Ref sig .tc := ⟨.hbm, 920, rfl⟩
abbrev main_call48_v0 : Ref sig .tc := ⟨.hbm, 921, rfl⟩
abbrev main_call48_c : Ref sig .tc := ⟨.hbm, 922, rfl⟩
abbrev main_call48_c_0 : Ref sig .tc := ⟨.hbm, 923, rfl⟩
abbrev main_call48_v1_0 : Ref sig .tc := ⟨.hbm, 924, rfl⟩
abbrev main_v598 : Ref sig .tc := ⟨.hbm, 925, rfl⟩
abbrev main_c_230 : Ref sig .tc := ⟨.hbm, 926, rfl⟩
abbrev main_v599 : Ref sig .tc := ⟨.hbm, 927, rfl⟩
abbrev main_v600 : Ref sig .tc := ⟨.hbm, 928, rfl⟩
abbrev main_call49_v0 : Ref sig .tc := ⟨.hbm, 929, rfl⟩
abbrev main_call49_c : Ref sig .tc := ⟨.hbm, 930, rfl⟩
abbrev main_call49_c_0 : Ref sig .tc := ⟨.hbm, 931, rfl⟩
abbrev main_call49_v1_0 : Ref sig .tc := ⟨.hbm, 932, rfl⟩
abbrev main_v601 : Ref sig .tc := ⟨.hbm, 933, rfl⟩
abbrev main_c_231 : Ref sig .tc := ⟨.hbm, 934, rfl⟩
abbrev main_v602 : Ref sig .tc := ⟨.hbm, 935, rfl⟩
abbrev main_v603 : Ref sig .tc := ⟨.hbm, 936, rfl⟩
abbrev main_call50_v0 : Ref sig .tc := ⟨.hbm, 937, rfl⟩
abbrev main_call50_c : Ref sig .tc := ⟨.hbm, 938, rfl⟩
abbrev main_call50_c_0 : Ref sig .tc := ⟨.hbm, 939, rfl⟩
abbrev main_call50_v1_0 : Ref sig .tc := ⟨.hbm, 940, rfl⟩
abbrev main_v604 : Ref sig .tc := ⟨.hbm, 941, rfl⟩
abbrev main_c_232 : Ref sig .tc := ⟨.hbm, 942, rfl⟩
abbrev main_v605 : Ref sig .tc := ⟨.hbm, 943, rfl⟩
abbrev main_c_233 : Ref sig .tc := ⟨.hbm, 944, rfl⟩
abbrev main_v606 : Ref sig .tc := ⟨.hbm, 945, rfl⟩
abbrev main_v607 : Ref sig .tc := ⟨.hbm, 946, rfl⟩
abbrev main_c_234 : Ref sig .tc := ⟨.hbm, 947, rfl⟩
abbrev main_c_235 : Ref sig .tc := ⟨.hbm, 948, rfl⟩
abbrev main_v608 : Ref sig .tc := ⟨.hbm, 949, rfl⟩
abbrev main_c_236 : Ref sig .tc := ⟨.hbm, 950, rfl⟩
abbrev main_c_237 : Ref sig .tc := ⟨.hbm, 951, rfl⟩
abbrev main_v609 : Ref sig .tc := ⟨.hbm, 952, rfl⟩
abbrev main_c_238 : Ref sig .tc := ⟨.hbm, 953, rfl⟩
abbrev main_v610 : Ref sig .tc := ⟨.hbm, 954, rfl⟩
abbrev main_v611 : Ref sig .tc := ⟨.hbm, 955, rfl⟩
abbrev main_v612 : Ref sig .tc := ⟨.hbm, 956, rfl⟩
abbrev main_c_239 : Ref sig .tc := ⟨.hbm, 957, rfl⟩
abbrev main_v613 : Ref sig .tc := ⟨.hbm, 958, rfl⟩
abbrev main_c_240 : Ref sig .tc := ⟨.hbm, 959, rfl⟩
abbrev main_v614 : Ref sig .tc := ⟨.hbm, 960, rfl⟩
abbrev main_v615 : Ref sig .tc := ⟨.hbm, 961, rfl⟩
abbrev main_c_241 : Ref sig .tc := ⟨.hbm, 962, rfl⟩
abbrev main_c_242 : Ref sig .tc := ⟨.hbm, 963, rfl⟩
abbrev main_v616 : Ref sig .tc := ⟨.hbm, 964, rfl⟩
abbrev main_c_243 : Ref sig .tc := ⟨.hbm, 965, rfl⟩
abbrev main_c_244 : Ref sig .tc := ⟨.hbm, 966, rfl⟩
abbrev main_v617 : Ref sig .tc := ⟨.hbm, 967, rfl⟩
abbrev main_c_245 : Ref sig .tc := ⟨.hbm, 968, rfl⟩
abbrev main_v618 : Ref sig .tc := ⟨.hbm, 969, rfl⟩
abbrev main_v619 : Ref sig .tc := ⟨.hbm, 970, rfl⟩
abbrev main_v620 : Ref sig .tc := ⟨.hbm, 971, rfl⟩
abbrev main_v621 : Ref sig .tc := ⟨.hbm, 972, rfl⟩
abbrev main_c_246 : Ref sig .tc := ⟨.hbm, 973, rfl⟩
abbrev main_v622 : Ref sig .tc := ⟨.hbm, 974, rfl⟩
abbrev main_c_247 : Ref sig .tc := ⟨.hbm, 975, rfl⟩
abbrev main_v623 : Ref sig .tc := ⟨.hbm, 976, rfl⟩
abbrev main_v624 : Ref sig .tc := ⟨.hbm, 977, rfl⟩
abbrev main_c_248 : Ref sig .tc := ⟨.hbm, 978, rfl⟩
abbrev main_c_249 : Ref sig .tc := ⟨.hbm, 979, rfl⟩
abbrev main_v625 : Ref sig .tc := ⟨.hbm, 980, rfl⟩
abbrev main_c_250 : Ref sig .tc := ⟨.hbm, 981, rfl⟩
abbrev main_c_251 : Ref sig .tc := ⟨.hbm, 982, rfl⟩
abbrev main_v626 : Ref sig .tc := ⟨.hbm, 983, rfl⟩
abbrev main_c_252 : Ref sig .tc := ⟨.hbm, 984, rfl⟩
abbrev main_v627 : Ref sig .tc := ⟨.hbm, 985, rfl⟩
abbrev main_v628 : Ref sig .tc := ⟨.hbm, 986, rfl⟩
abbrev main_v629 : Ref sig .tc := ⟨.hbm, 987, rfl⟩
abbrev main_cst_253 : Ref sig .tc := ⟨.hbm, 988, rfl⟩
abbrev main_v630 : Ref sig .tc := ⟨.hbm, 989, rfl⟩
abbrev main_v631 : Ref sig .tc := ⟨.hbm, 990, rfl⟩
abbrev main_v632 : Ref sig .tc := ⟨.hbm, 991, rfl⟩
abbrev main_v633 : Ref sig .tc := ⟨.hbm, 992, rfl⟩
abbrev main_v634 : Ref sig .tc := ⟨.hbm, 993, rfl⟩
abbrev main_v635 : Ref sig .tc := ⟨.hbm, 994, rfl⟩
abbrev main_v636 : Ref sig .tc := ⟨.hbm, 995, rfl⟩
abbrev main_v637 : Ref sig .tc := ⟨.hbm, 996, rfl⟩
abbrev main_v638 : Ref sig .tc := ⟨.hbm, 997, rfl⟩
abbrev main_v639 : Ref sig .tc := ⟨.hbm, 998, rfl⟩
abbrev main_cst_254 : Ref sig .tc := ⟨.hbm, 999, rfl⟩
abbrev main_v640 : Ref sig .tc := ⟨.hbm, 1000, rfl⟩
abbrev main_c_255 : Ref sig .tc := ⟨.hbm, 1001, rfl⟩
abbrev main_v641 : Ref sig .tc := ⟨.hbm, 1002, rfl⟩
abbrev main_cst_256 : Ref sig .tc := ⟨.hbm, 1003, rfl⟩
abbrev main_v642 : Ref sig .tc := ⟨.hbm, 1004, rfl⟩
abbrev main_v643 : Ref sig .tc := ⟨.hbm, 1005, rfl⟩
abbrev main_c_257 : Ref sig .tc := ⟨.hbm, 1006, rfl⟩
abbrev main_v644 : Ref sig .tc := ⟨.hbm, 1007, rfl⟩
abbrev main_v645 : Ref sig .tc := ⟨.hbm, 1008, rfl⟩
abbrev main_c_258 : Ref sig .tc := ⟨.hbm, 1009, rfl⟩
abbrev main_v646 : Ref sig .tc := ⟨.hbm, 1010, rfl⟩
abbrev main_v647 : Ref sig .tc := ⟨.hbm, 1011, rfl⟩
abbrev main_v648 : Ref sig .tc := ⟨.hbm, 1012, rfl⟩
abbrev main_c_259 : Ref sig .tc := ⟨.hbm, 1013, rfl⟩
abbrev main_v649 : Ref sig .tc := ⟨.hbm, 1014, rfl⟩
abbrev main_v650 : Ref sig .tc := ⟨.hbm, 1015, rfl⟩
abbrev main_v651 : Ref sig .tc := ⟨.hbm, 1016, rfl⟩
abbrev main_v652 : Ref sig .tc := ⟨.hbm, 1017, rfl⟩
abbrev main_call53_call0_c : Ref sig .tc := ⟨.hbm, 1018, rfl⟩
abbrev main_call53_call0_v0 : Ref sig .tc := ⟨.hbm, 1019, rfl⟩
abbrev main_v653 : Ref sig .tc := ⟨.hbm, 1020, rfl⟩
abbrev main_v654 : Ref sig .tc := ⟨.hbm, 1021, rfl⟩
abbrev main_v655 : Ref sig .tc := ⟨.hbm, 1022, rfl⟩
abbrev main_c_260 : Ref sig .tc := ⟨.hbm, 1023, rfl⟩
abbrev main_v656 : Ref sig .tc := ⟨.hbm, 1024, rfl⟩
abbrev main_v657 : Ref sig .tc := ⟨.hbm, 1025, rfl⟩
abbrev main_call54_v0 : Ref sig .tc := ⟨.hbm, 1026, rfl⟩
abbrev main_call54_c : Ref sig .tc := ⟨.hbm, 1027, rfl⟩
abbrev main_call54_c_0 : Ref sig .tc := ⟨.hbm, 1028, rfl⟩
abbrev main_call54_v1_0 : Ref sig .tc := ⟨.hbm, 1029, rfl⟩
abbrev main_v658 : Ref sig .tc := ⟨.hbm, 1030, rfl⟩
abbrev main_c_261 : Ref sig .tc := ⟨.hbm, 1031, rfl⟩
abbrev main_v659 : Ref sig .tc := ⟨.hbm, 1032, rfl⟩
abbrev main_v660 : Ref sig .tc := ⟨.hbm, 1033, rfl⟩
abbrev main_call55_v0 : Ref sig .tc := ⟨.hbm, 1034, rfl⟩
abbrev main_call55_c : Ref sig .tc := ⟨.hbm, 1035, rfl⟩
abbrev main_call55_c_0 : Ref sig .tc := ⟨.hbm, 1036, rfl⟩
abbrev main_call55_v1_0 : Ref sig .tc := ⟨.hbm, 1037, rfl⟩
abbrev main_v661 : Ref sig .tc := ⟨.hbm, 1038, rfl⟩
abbrev main_c_262 : Ref sig .tc := ⟨.hbm, 1039, rfl⟩
abbrev main_v662 : Ref sig .tc := ⟨.hbm, 1040, rfl⟩
abbrev main_v663 : Ref sig .tc := ⟨.hbm, 1041, rfl⟩
abbrev main_call56_v0 : Ref sig .tc := ⟨.hbm, 1042, rfl⟩
abbrev main_call56_c : Ref sig .tc := ⟨.hbm, 1043, rfl⟩
abbrev main_call56_c_0 : Ref sig .tc := ⟨.hbm, 1044, rfl⟩
abbrev main_call56_v1_0 : Ref sig .tc := ⟨.hbm, 1045, rfl⟩
abbrev main_v664 : Ref sig .tc := ⟨.hbm, 1046, rfl⟩
abbrev main_c_263 : Ref sig .tc := ⟨.hbm, 1047, rfl⟩
abbrev main_v665 : Ref sig .tc := ⟨.hbm, 1048, rfl⟩
abbrev main_c_264 : Ref sig .tc := ⟨.hbm, 1049, rfl⟩
abbrev main_v666 : Ref sig .tc := ⟨.hbm, 1050, rfl⟩
abbrev main_v667 : Ref sig .tc := ⟨.hbm, 1051, rfl⟩
abbrev main_c_265 : Ref sig .tc := ⟨.hbm, 1052, rfl⟩
abbrev main_c_266 : Ref sig .tc := ⟨.hbm, 1053, rfl⟩
abbrev main_v668 : Ref sig .tc := ⟨.hbm, 1054, rfl⟩
abbrev main_c_267 : Ref sig .tc := ⟨.hbm, 1055, rfl⟩
abbrev main_c_268 : Ref sig .tc := ⟨.hbm, 1056, rfl⟩
abbrev main_v669 : Ref sig .tc := ⟨.hbm, 1057, rfl⟩
abbrev main_c_269 : Ref sig .tc := ⟨.hbm, 1058, rfl⟩
abbrev main_v670 : Ref sig .tc := ⟨.hbm, 1059, rfl⟩
abbrev main_v671 : Ref sig .tc := ⟨.hbm, 1060, rfl⟩
abbrev main_v672 : Ref sig .tc := ⟨.hbm, 1061, rfl⟩
abbrev main_c_270 : Ref sig .tc := ⟨.hbm, 1062, rfl⟩
abbrev main_v673 : Ref sig .tc := ⟨.hbm, 1063, rfl⟩
abbrev main_c_271 : Ref sig .tc := ⟨.hbm, 1064, rfl⟩
abbrev main_v674 : Ref sig .tc := ⟨.hbm, 1065, rfl⟩
abbrev main_v675 : Ref sig .tc := ⟨.hbm, 1066, rfl⟩
abbrev main_c_272 : Ref sig .tc := ⟨.hbm, 1067, rfl⟩
abbrev main_c_273 : Ref sig .tc := ⟨.hbm, 1068, rfl⟩
abbrev main_v676 : Ref sig .tc := ⟨.hbm, 1069, rfl⟩
abbrev main_c_274 : Ref sig .tc := ⟨.hbm, 1070, rfl⟩
abbrev main_c_275 : Ref sig .tc := ⟨.hbm, 1071, rfl⟩
abbrev main_v677 : Ref sig .tc := ⟨.hbm, 1072, rfl⟩
abbrev main_c_276 : Ref sig .tc := ⟨.hbm, 1073, rfl⟩
abbrev main_v678 : Ref sig .tc := ⟨.hbm, 1074, rfl⟩
abbrev main_v679 : Ref sig .tc := ⟨.hbm, 1075, rfl⟩
abbrev main_v680 : Ref sig .tc := ⟨.hbm, 1076, rfl⟩
abbrev main_v681 : Ref sig .tc := ⟨.hbm, 1077, rfl⟩
abbrev main_c_277 : Ref sig .tc := ⟨.hbm, 1078, rfl⟩
abbrev main_v682 : Ref sig .tc := ⟨.hbm, 1079, rfl⟩
abbrev main_c_278 : Ref sig .tc := ⟨.hbm, 1080, rfl⟩
abbrev main_v683 : Ref sig .tc := ⟨.hbm, 1081, rfl⟩
abbrev main_v684 : Ref sig .tc := ⟨.hbm, 1082, rfl⟩
abbrev main_c_279 : Ref sig .tc := ⟨.hbm, 1083, rfl⟩
abbrev main_c_280 : Ref sig .tc := ⟨.hbm, 1084, rfl⟩
abbrev main_v685 : Ref sig .tc := ⟨.hbm, 1085, rfl⟩
abbrev main_c_281 : Ref sig .tc := ⟨.hbm, 1086, rfl⟩
abbrev main_c_282 : Ref sig .tc := ⟨.hbm, 1087, rfl⟩
abbrev main_v686 : Ref sig .tc := ⟨.hbm, 1088, rfl⟩
abbrev main_c_283 : Ref sig .tc := ⟨.hbm, 1089, rfl⟩
abbrev main_v687 : Ref sig .tc := ⟨.hbm, 1090, rfl⟩
abbrev main_v688 : Ref sig .tc := ⟨.hbm, 1091, rfl⟩
abbrev main_v689 : Ref sig .tc := ⟨.hbm, 1092, rfl⟩
abbrev main_cst_284 : Ref sig .tc := ⟨.hbm, 1093, rfl⟩
abbrev main_v690 : Ref sig .tc := ⟨.hbm, 1094, rfl⟩
abbrev main_v691 : Ref sig .tc := ⟨.hbm, 1095, rfl⟩
abbrev main_v692 : Ref sig .tc := ⟨.hbm, 1096, rfl⟩
abbrev main_v693 : Ref sig .tc := ⟨.hbm, 1097, rfl⟩
abbrev main_v694 : Ref sig .tc := ⟨.hbm, 1098, rfl⟩
abbrev main_v695 : Ref sig .tc := ⟨.hbm, 1099, rfl⟩
abbrev main_v696 : Ref sig .tc := ⟨.hbm, 1100, rfl⟩
abbrev main_v697 : Ref sig .tc := ⟨.hbm, 1101, rfl⟩
abbrev main_v698 : Ref sig .tc := ⟨.hbm, 1102, rfl⟩
abbrev main_v699 : Ref sig .tc := ⟨.hbm, 1103, rfl⟩
abbrev main_cst_285 : Ref sig .tc := ⟨.hbm, 1104, rfl⟩
abbrev main_v700 : Ref sig .tc := ⟨.hbm, 1105, rfl⟩
abbrev main_c_286 : Ref sig .tc := ⟨.hbm, 1106, rfl⟩
abbrev main_v701 : Ref sig .tc := ⟨.hbm, 1107, rfl⟩
abbrev main_cst_287 : Ref sig .tc := ⟨.hbm, 1108, rfl⟩
abbrev main_v702 : Ref sig .tc := ⟨.hbm, 1109, rfl⟩
abbrev main_v703 : Ref sig .tc := ⟨.hbm, 1110, rfl⟩
abbrev main_c_288 : Ref sig .tc := ⟨.hbm, 1111, rfl⟩
abbrev main_v704 : Ref sig .tc := ⟨.hbm, 1112, rfl⟩
abbrev main_v705 : Ref sig .tc := ⟨.hbm, 1113, rfl⟩
abbrev main_c_289 : Ref sig .tc := ⟨.hbm, 1114, rfl⟩
abbrev main_v706 : Ref sig .tc := ⟨.hbm, 1115, rfl⟩
abbrev main_v707 : Ref sig .tc := ⟨.hbm, 1116, rfl⟩
abbrev main_v708 : Ref sig .tc := ⟨.hbm, 1117, rfl⟩
abbrev main_c_290 : Ref sig .tc := ⟨.hbm, 1118, rfl⟩
abbrev main_v709 : Ref sig .tc := ⟨.hbm, 1119, rfl⟩
abbrev main_v710 : Ref sig .tc := ⟨.hbm, 1120, rfl⟩
abbrev main_v711 : Ref sig .tc := ⟨.hbm, 1121, rfl⟩
abbrev main_v712 : Ref sig .tc := ⟨.hbm, 1122, rfl⟩
abbrev main_call59_call0_c : Ref sig .tc := ⟨.hbm, 1123, rfl⟩
abbrev main_call59_call0_v0 : Ref sig .tc := ⟨.hbm, 1124, rfl⟩
abbrev main_v713 : Ref sig .tc := ⟨.hbm, 1125, rfl⟩
abbrev main_v714 : Ref sig .tc := ⟨.hbm, 1126, rfl⟩
abbrev main_v715 : Ref sig .tc := ⟨.hbm, 1127, rfl⟩
abbrev main_c_291 : Ref sig .tc := ⟨.hbm, 1128, rfl⟩
abbrev main_v716 : Ref sig .tc := ⟨.hbm, 1129, rfl⟩
abbrev main_v717 : Ref sig .tc := ⟨.hbm, 1130, rfl⟩
abbrev main_call60_v0 : Ref sig .tc := ⟨.hbm, 1131, rfl⟩
abbrev main_call60_c : Ref sig .tc := ⟨.hbm, 1132, rfl⟩
abbrev main_call60_c_0 : Ref sig .tc := ⟨.hbm, 1133, rfl⟩
abbrev main_call60_v1_0 : Ref sig .tc := ⟨.hbm, 1134, rfl⟩
abbrev main_v718 : Ref sig .tc := ⟨.hbm, 1135, rfl⟩
abbrev main_c_292 : Ref sig .tc := ⟨.hbm, 1136, rfl⟩
abbrev main_v719 : Ref sig .tc := ⟨.hbm, 1137, rfl⟩
abbrev main_v720 : Ref sig .tc := ⟨.hbm, 1138, rfl⟩
abbrev main_call61_v0 : Ref sig .tc := ⟨.hbm, 1139, rfl⟩
abbrev main_call61_c : Ref sig .tc := ⟨.hbm, 1140, rfl⟩
abbrev main_call61_c_0 : Ref sig .tc := ⟨.hbm, 1141, rfl⟩
abbrev main_call61_v1_0 : Ref sig .tc := ⟨.hbm, 1142, rfl⟩
abbrev main_v721 : Ref sig .tc := ⟨.hbm, 1143, rfl⟩
abbrev main_c_293 : Ref sig .tc := ⟨.hbm, 1144, rfl⟩
abbrev main_v722 : Ref sig .tc := ⟨.hbm, 1145, rfl⟩
abbrev main_v723 : Ref sig .tc := ⟨.hbm, 1146, rfl⟩
abbrev main_call62_v0 : Ref sig .tc := ⟨.hbm, 1147, rfl⟩
abbrev main_call62_c : Ref sig .tc := ⟨.hbm, 1148, rfl⟩
abbrev main_call62_c_0 : Ref sig .tc := ⟨.hbm, 1149, rfl⟩
abbrev main_call62_v1_0 : Ref sig .tc := ⟨.hbm, 1150, rfl⟩
abbrev main_v724 : Ref sig .tc := ⟨.hbm, 1151, rfl⟩
abbrev main_c_294 : Ref sig .tc := ⟨.hbm, 1152, rfl⟩
abbrev main_v725 : Ref sig .tc := ⟨.hbm, 1153, rfl⟩
abbrev main_c_295 : Ref sig .tc := ⟨.hbm, 1154, rfl⟩
abbrev main_v726 : Ref sig .tc := ⟨.hbm, 1155, rfl⟩
abbrev main_v727 : Ref sig .tc := ⟨.hbm, 1156, rfl⟩
abbrev main_c_296 : Ref sig .tc := ⟨.hbm, 1157, rfl⟩
abbrev main_c_297 : Ref sig .tc := ⟨.hbm, 1158, rfl⟩
abbrev main_v728 : Ref sig .tc := ⟨.hbm, 1159, rfl⟩
abbrev main_c_298 : Ref sig .tc := ⟨.hbm, 1160, rfl⟩
abbrev main_c_299 : Ref sig .tc := ⟨.hbm, 1161, rfl⟩
abbrev main_v729 : Ref sig .tc := ⟨.hbm, 1162, rfl⟩
abbrev main_c_300 : Ref sig .tc := ⟨.hbm, 1163, rfl⟩
abbrev main_v730 : Ref sig .tc := ⟨.hbm, 1164, rfl⟩
abbrev main_v731 : Ref sig .tc := ⟨.hbm, 1165, rfl⟩
abbrev main_v732 : Ref sig .tc := ⟨.hbm, 1166, rfl⟩
abbrev main_c_301 : Ref sig .tc := ⟨.hbm, 1167, rfl⟩
abbrev main_v733 : Ref sig .tc := ⟨.hbm, 1168, rfl⟩
abbrev main_c_302 : Ref sig .tc := ⟨.hbm, 1169, rfl⟩
abbrev main_v734 : Ref sig .tc := ⟨.hbm, 1170, rfl⟩
abbrev main_v735 : Ref sig .tc := ⟨.hbm, 1171, rfl⟩
abbrev main_c_303 : Ref sig .tc := ⟨.hbm, 1172, rfl⟩
abbrev main_c_304 : Ref sig .tc := ⟨.hbm, 1173, rfl⟩
abbrev main_v736 : Ref sig .tc := ⟨.hbm, 1174, rfl⟩
abbrev main_c_305 : Ref sig .tc := ⟨.hbm, 1175, rfl⟩
abbrev main_c_306 : Ref sig .tc := ⟨.hbm, 1176, rfl⟩
abbrev main_v737 : Ref sig .tc := ⟨.hbm, 1177, rfl⟩
abbrev main_c_307 : Ref sig .tc := ⟨.hbm, 1178, rfl⟩
abbrev main_v738 : Ref sig .tc := ⟨.hbm, 1179, rfl⟩
abbrev main_v739 : Ref sig .tc := ⟨.hbm, 1180, rfl⟩
abbrev main_v740 : Ref sig .tc := ⟨.hbm, 1181, rfl⟩
abbrev main_v741 : Ref sig .tc := ⟨.hbm, 1182, rfl⟩
abbrev main_c_308 : Ref sig .tc := ⟨.hbm, 1183, rfl⟩
abbrev main_v742 : Ref sig .tc := ⟨.hbm, 1184, rfl⟩
abbrev main_c_309 : Ref sig .tc := ⟨.hbm, 1185, rfl⟩
abbrev main_v743 : Ref sig .tc := ⟨.hbm, 1186, rfl⟩
abbrev main_v744 : Ref sig .tc := ⟨.hbm, 1187, rfl⟩
abbrev main_c_310 : Ref sig .tc := ⟨.hbm, 1188, rfl⟩
abbrev main_c_311 : Ref sig .tc := ⟨.hbm, 1189, rfl⟩
abbrev main_v745 : Ref sig .tc := ⟨.hbm, 1190, rfl⟩
abbrev main_c_312 : Ref sig .tc := ⟨.hbm, 1191, rfl⟩
abbrev main_c_313 : Ref sig .tc := ⟨.hbm, 1192, rfl⟩
abbrev main_v746 : Ref sig .tc := ⟨.hbm, 1193, rfl⟩
abbrev main_c_314 : Ref sig .tc := ⟨.hbm, 1194, rfl⟩
abbrev main_v747 : Ref sig .tc := ⟨.hbm, 1195, rfl⟩
abbrev main_v748 : Ref sig .tc := ⟨.hbm, 1196, rfl⟩
abbrev main_v749 : Ref sig .tc := ⟨.hbm, 1197, rfl⟩
abbrev main_cst_315 : Ref sig .tc := ⟨.hbm, 1198, rfl⟩
abbrev main_v750 : Ref sig .tc := ⟨.hbm, 1199, rfl⟩
abbrev main_v751 : Ref sig .tc := ⟨.hbm, 1200, rfl⟩
abbrev main_v752 : Ref sig .tc := ⟨.hbm, 1201, rfl⟩
abbrev main_v753 : Ref sig .tc := ⟨.hbm, 1202, rfl⟩
abbrev main_v754 : Ref sig .tc := ⟨.hbm, 1203, rfl⟩
abbrev main_v755 : Ref sig .tc := ⟨.hbm, 1204, rfl⟩
abbrev main_v756 : Ref sig .tc := ⟨.hbm, 1205, rfl⟩
abbrev main_v757 : Ref sig .tc := ⟨.hbm, 1206, rfl⟩
abbrev main_v758 : Ref sig .tc := ⟨.hbm, 1207, rfl⟩
abbrev main_v759 : Ref sig .tc := ⟨.hbm, 1208, rfl⟩
abbrev main_cst_316 : Ref sig .tc := ⟨.hbm, 1209, rfl⟩
abbrev main_v760 : Ref sig .tc := ⟨.hbm, 1210, rfl⟩
abbrev main_c_317 : Ref sig .tc := ⟨.hbm, 1211, rfl⟩
abbrev main_v761 : Ref sig .tc := ⟨.hbm, 1212, rfl⟩
abbrev main_cst_318 : Ref sig .tc := ⟨.hbm, 1213, rfl⟩
abbrev main_v762 : Ref sig .tc := ⟨.hbm, 1214, rfl⟩
abbrev main_v763 : Ref sig .tc := ⟨.hbm, 1215, rfl⟩
abbrev main_c_319 : Ref sig .tc := ⟨.hbm, 1216, rfl⟩
abbrev main_v764 : Ref sig .tc := ⟨.hbm, 1217, rfl⟩
abbrev main_v765 : Ref sig .tc := ⟨.hbm, 1218, rfl⟩
abbrev main_c_320 : Ref sig .tc := ⟨.hbm, 1219, rfl⟩
abbrev main_v766 : Ref sig .tc := ⟨.hbm, 1220, rfl⟩
abbrev main_v767 : Ref sig .tc := ⟨.hbm, 1221, rfl⟩
abbrev main_v768 : Ref sig .tc := ⟨.hbm, 1222, rfl⟩
abbrev main_c_321 : Ref sig .tc := ⟨.hbm, 1223, rfl⟩
abbrev main_v769 : Ref sig .tc := ⟨.hbm, 1224, rfl⟩
abbrev main_v770 : Ref sig .tc := ⟨.hbm, 1225, rfl⟩
abbrev main_v771 : Ref sig .tc := ⟨.hbm, 1226, rfl⟩
abbrev main_v772 : Ref sig .tc := ⟨.hbm, 1227, rfl⟩
abbrev main_call65_call0_c : Ref sig .tc := ⟨.hbm, 1228, rfl⟩
abbrev main_call65_call0_v0 : Ref sig .tc := ⟨.hbm, 1229, rfl⟩
abbrev main_v773 : Ref sig .tc := ⟨.hbm, 1230, rfl⟩
abbrev main_v774 : Ref sig .tc := ⟨.hbm, 1231, rfl⟩
abbrev main_v775 : Ref sig .tc := ⟨.hbm, 1232, rfl⟩
abbrev main_c_322 : Ref sig .tc := ⟨.hbm, 1233, rfl⟩
abbrev main_v776 : Ref sig .tc := ⟨.hbm, 1234, rfl⟩
abbrev main_v777 : Ref sig .tc := ⟨.hbm, 1235, rfl⟩
abbrev main_call66_v0 : Ref sig .tc := ⟨.hbm, 1236, rfl⟩
abbrev main_call66_c : Ref sig .tc := ⟨.hbm, 1237, rfl⟩
abbrev main_call66_c_0 : Ref sig .tc := ⟨.hbm, 1238, rfl⟩
abbrev main_call66_v1_0 : Ref sig .tc := ⟨.hbm, 1239, rfl⟩
abbrev main_v778 : Ref sig .tc := ⟨.hbm, 1240, rfl⟩
abbrev main_c_323 : Ref sig .tc := ⟨.hbm, 1241, rfl⟩
abbrev main_v779 : Ref sig .tc := ⟨.hbm, 1242, rfl⟩
abbrev main_v780 : Ref sig .tc := ⟨.hbm, 1243, rfl⟩
abbrev main_call67_v0 : Ref sig .tc := ⟨.hbm, 1244, rfl⟩
abbrev main_call67_c : Ref sig .tc := ⟨.hbm, 1245, rfl⟩
abbrev main_call67_c_0 : Ref sig .tc := ⟨.hbm, 1246, rfl⟩
abbrev main_call67_v1_0 : Ref sig .tc := ⟨.hbm, 1247, rfl⟩
abbrev main_v781 : Ref sig .tc := ⟨.hbm, 1248, rfl⟩
abbrev main_c_324 : Ref sig .tc := ⟨.hbm, 1249, rfl⟩
abbrev main_v782 : Ref sig .tc := ⟨.hbm, 1250, rfl⟩
abbrev main_v783 : Ref sig .tc := ⟨.hbm, 1251, rfl⟩
abbrev main_call68_v0 : Ref sig .tc := ⟨.hbm, 1252, rfl⟩
abbrev main_call68_c : Ref sig .tc := ⟨.hbm, 1253, rfl⟩
abbrev main_call68_c_0 : Ref sig .tc := ⟨.hbm, 1254, rfl⟩
abbrev main_call68_v1_0 : Ref sig .tc := ⟨.hbm, 1255, rfl⟩
abbrev main_v784 : Ref sig .tc := ⟨.hbm, 1256, rfl⟩
abbrev main_c_325 : Ref sig .tc := ⟨.hbm, 1257, rfl⟩
abbrev main_v785 : Ref sig .tc := ⟨.hbm, 1258, rfl⟩
abbrev main_c_326 : Ref sig .tc := ⟨.hbm, 1259, rfl⟩
abbrev main_v786 : Ref sig .tc := ⟨.hbm, 1260, rfl⟩
abbrev main_v787 : Ref sig .tc := ⟨.hbm, 1261, rfl⟩
abbrev main_c_327 : Ref sig .tc := ⟨.hbm, 1262, rfl⟩
abbrev main_c_328 : Ref sig .tc := ⟨.hbm, 1263, rfl⟩
abbrev main_v788 : Ref sig .tc := ⟨.hbm, 1264, rfl⟩
abbrev main_c_329 : Ref sig .tc := ⟨.hbm, 1265, rfl⟩
abbrev main_c_330 : Ref sig .tc := ⟨.hbm, 1266, rfl⟩
abbrev main_v789 : Ref sig .tc := ⟨.hbm, 1267, rfl⟩
abbrev main_c_331 : Ref sig .tc := ⟨.hbm, 1268, rfl⟩
abbrev main_v790 : Ref sig .tc := ⟨.hbm, 1269, rfl⟩
abbrev main_v791 : Ref sig .tc := ⟨.hbm, 1270, rfl⟩
abbrev main_v792 : Ref sig .tc := ⟨.hbm, 1271, rfl⟩
abbrev main_c_332 : Ref sig .tc := ⟨.hbm, 1272, rfl⟩
abbrev main_v793 : Ref sig .tc := ⟨.hbm, 1273, rfl⟩
abbrev main_c_333 : Ref sig .tc := ⟨.hbm, 1274, rfl⟩
abbrev main_v794 : Ref sig .tc := ⟨.hbm, 1275, rfl⟩
abbrev main_v795 : Ref sig .tc := ⟨.hbm, 1276, rfl⟩
abbrev main_c_334 : Ref sig .tc := ⟨.hbm, 1277, rfl⟩
abbrev main_c_335 : Ref sig .tc := ⟨.hbm, 1278, rfl⟩
abbrev main_v796 : Ref sig .tc := ⟨.hbm, 1279, rfl⟩
abbrev main_c_336 : Ref sig .tc := ⟨.hbm, 1280, rfl⟩
abbrev main_c_337 : Ref sig .tc := ⟨.hbm, 1281, rfl⟩
abbrev main_v797 : Ref sig .tc := ⟨.hbm, 1282, rfl⟩
abbrev main_c_338 : Ref sig .tc := ⟨.hbm, 1283, rfl⟩
abbrev main_v798 : Ref sig .tc := ⟨.hbm, 1284, rfl⟩
abbrev main_v799 : Ref sig .tc := ⟨.hbm, 1285, rfl⟩
abbrev main_v800 : Ref sig .tc := ⟨.hbm, 1286, rfl⟩
abbrev main_v801 : Ref sig .tc := ⟨.hbm, 1287, rfl⟩
abbrev main_c_339 : Ref sig .tc := ⟨.hbm, 1288, rfl⟩
abbrev main_v802 : Ref sig .tc := ⟨.hbm, 1289, rfl⟩
abbrev main_c_340 : Ref sig .tc := ⟨.hbm, 1290, rfl⟩
abbrev main_v803 : Ref sig .tc := ⟨.hbm, 1291, rfl⟩
abbrev main_v804 : Ref sig .tc := ⟨.hbm, 1292, rfl⟩
abbrev main_c_341 : Ref sig .tc := ⟨.hbm, 1293, rfl⟩
abbrev main_c_342 : Ref sig .tc := ⟨.hbm, 1294, rfl⟩
abbrev main_v805 : Ref sig .tc := ⟨.hbm, 1295, rfl⟩
abbrev main_c_343 : Ref sig .tc := ⟨.hbm, 1296, rfl⟩
abbrev main_c_344 : Ref sig .tc := ⟨.hbm, 1297, rfl⟩
abbrev main_v806 : Ref sig .tc := ⟨.hbm, 1298, rfl⟩
abbrev main_c_345 : Ref sig .tc := ⟨.hbm, 1299, rfl⟩
abbrev main_v807 : Ref sig .tc := ⟨.hbm, 1300, rfl⟩
abbrev main_v808 : Ref sig .tc := ⟨.hbm, 1301, rfl⟩
abbrev main_v809 : Ref sig .tc := ⟨.hbm, 1302, rfl⟩
abbrev main_cst_346 : Ref sig .tc := ⟨.hbm, 1303, rfl⟩
abbrev main_v810 : Ref sig .tc := ⟨.hbm, 1304, rfl⟩
abbrev main_v811 : Ref sig .tc := ⟨.hbm, 1305, rfl⟩
abbrev main_v812 : Ref sig .tc := ⟨.hbm, 1306, rfl⟩
abbrev main_v813 : Ref sig .tc := ⟨.hbm, 1307, rfl⟩
abbrev main_v814 : Ref sig .tc := ⟨.hbm, 1308, rfl⟩
abbrev main_v815 : Ref sig .tc := ⟨.hbm, 1309, rfl⟩
abbrev main_v816 : Ref sig .tc := ⟨.hbm, 1310, rfl⟩
abbrev main_v817 : Ref sig .tc := ⟨.hbm, 1311, rfl⟩
abbrev main_v818 : Ref sig .tc := ⟨.hbm, 1312, rfl⟩
abbrev main_v819 : Ref sig .tc := ⟨.hbm, 1313, rfl⟩
abbrev main_cst_347 : Ref sig .tc := ⟨.hbm, 1314, rfl⟩
abbrev main_v820 : Ref sig .tc := ⟨.hbm, 1315, rfl⟩
abbrev main_c_348 : Ref sig .tc := ⟨.hbm, 1316, rfl⟩
abbrev main_v821 : Ref sig .tc := ⟨.hbm, 1317, rfl⟩
abbrev main_cst_349 : Ref sig .tc := ⟨.hbm, 1318, rfl⟩
abbrev main_v822 : Ref sig .tc := ⟨.hbm, 1319, rfl⟩
abbrev main_v823 : Ref sig .tc := ⟨.hbm, 1320, rfl⟩
abbrev main_c_350 : Ref sig .tc := ⟨.hbm, 1321, rfl⟩
abbrev main_v824 : Ref sig .tc := ⟨.hbm, 1322, rfl⟩
abbrev main_v825 : Ref sig .tc := ⟨.hbm, 1323, rfl⟩
abbrev main_c_351 : Ref sig .tc := ⟨.hbm, 1324, rfl⟩
abbrev main_v826 : Ref sig .tc := ⟨.hbm, 1325, rfl⟩
abbrev main_v827 : Ref sig .tc := ⟨.hbm, 1326, rfl⟩
abbrev main_v828 : Ref sig .tc := ⟨.hbm, 1327, rfl⟩
abbrev main_c_352 : Ref sig .tc := ⟨.hbm, 1328, rfl⟩
abbrev main_v829 : Ref sig .tc := ⟨.hbm, 1329, rfl⟩
abbrev main_v830 : Ref sig .tc := ⟨.hbm, 1330, rfl⟩
abbrev main_v831 : Ref sig .tc := ⟨.hbm, 1331, rfl⟩
abbrev main_v832 : Ref sig .tc := ⟨.hbm, 1332, rfl⟩
abbrev main_call71_call0_c : Ref sig .tc := ⟨.hbm, 1333, rfl⟩
abbrev main_call71_call0_v0 : Ref sig .tc := ⟨.hbm, 1334, rfl⟩
abbrev main_v833 : Ref sig .tc := ⟨.hbm, 1335, rfl⟩
abbrev main_v834 : Ref sig .tc := ⟨.hbm, 1336, rfl⟩
abbrev main_v835 : Ref sig .tc := ⟨.hbm, 1337, rfl⟩
abbrev main_c_353 : Ref sig .tc := ⟨.hbm, 1338, rfl⟩
abbrev main_v836 : Ref sig .tc := ⟨.hbm, 1339, rfl⟩
abbrev main_v837 : Ref sig .tc := ⟨.hbm, 1340, rfl⟩
abbrev main_call72_v0 : Ref sig .tc := ⟨.hbm, 1341, rfl⟩
abbrev main_call72_c : Ref sig .tc := ⟨.hbm, 1342, rfl⟩
abbrev main_call72_c_0 : Ref sig .tc := ⟨.hbm, 1343, rfl⟩
abbrev main_call72_v1_0 : Ref sig .tc := ⟨.hbm, 1344, rfl⟩
abbrev main_v838 : Ref sig .tc := ⟨.hbm, 1345, rfl⟩
abbrev main_c_354 : Ref sig .tc := ⟨.hbm, 1346, rfl⟩
abbrev main_v839 : Ref sig .tc := ⟨.hbm, 1347, rfl⟩
abbrev main_v840 : Ref sig .tc := ⟨.hbm, 1348, rfl⟩
abbrev main_call73_v0 : Ref sig .tc := ⟨.hbm, 1349, rfl⟩
abbrev main_call73_c : Ref sig .tc := ⟨.hbm, 1350, rfl⟩
abbrev main_call73_c_0 : Ref sig .tc := ⟨.hbm, 1351, rfl⟩
abbrev main_call73_v1_0 : Ref sig .tc := ⟨.hbm, 1352, rfl⟩
abbrev main_v841 : Ref sig .tc := ⟨.hbm, 1353, rfl⟩
abbrev main_c_355 : Ref sig .tc := ⟨.hbm, 1354, rfl⟩
abbrev main_v842 : Ref sig .tc := ⟨.hbm, 1355, rfl⟩
abbrev main_v843 : Ref sig .tc := ⟨.hbm, 1356, rfl⟩
abbrev main_call74_v0 : Ref sig .tc := ⟨.hbm, 1357, rfl⟩
abbrev main_call74_c : Ref sig .tc := ⟨.hbm, 1358, rfl⟩
abbrev main_call74_c_0 : Ref sig .tc := ⟨.hbm, 1359, rfl⟩
abbrev main_call74_v1_0 : Ref sig .tc := ⟨.hbm, 1360, rfl⟩
abbrev main_v844 : Ref sig .tc := ⟨.hbm, 1361, rfl⟩
abbrev main_c_356 : Ref sig .tc := ⟨.hbm, 1362, rfl⟩
abbrev main_v845 : Ref sig .tc := ⟨.hbm, 1363, rfl⟩
abbrev main_c_357 : Ref sig .tc := ⟨.hbm, 1364, rfl⟩
abbrev main_v846 : Ref sig .tc := ⟨.hbm, 1365, rfl⟩
abbrev main_v847 : Ref sig .tc := ⟨.hbm, 1366, rfl⟩
abbrev main_c_358 : Ref sig .tc := ⟨.hbm, 1367, rfl⟩
abbrev main_c_359 : Ref sig .tc := ⟨.hbm, 1368, rfl⟩
abbrev main_v848 : Ref sig .tc := ⟨.hbm, 1369, rfl⟩
abbrev main_c_360 : Ref sig .tc := ⟨.hbm, 1370, rfl⟩
abbrev main_c_361 : Ref sig .tc := ⟨.hbm, 1371, rfl⟩
abbrev main_v849 : Ref sig .tc := ⟨.hbm, 1372, rfl⟩
abbrev main_c_362 : Ref sig .tc := ⟨.hbm, 1373, rfl⟩
abbrev main_v850 : Ref sig .tc := ⟨.hbm, 1374, rfl⟩
abbrev main_v851 : Ref sig .tc := ⟨.hbm, 1375, rfl⟩
abbrev main_v852 : Ref sig .tc := ⟨.hbm, 1376, rfl⟩
abbrev main_c_363 : Ref sig .tc := ⟨.hbm, 1377, rfl⟩
abbrev main_v853 : Ref sig .tc := ⟨.hbm, 1378, rfl⟩
abbrev main_c_364 : Ref sig .tc := ⟨.hbm, 1379, rfl⟩
abbrev main_v854 : Ref sig .tc := ⟨.hbm, 1380, rfl⟩
abbrev main_v855 : Ref sig .tc := ⟨.hbm, 1381, rfl⟩
abbrev main_c_365 : Ref sig .tc := ⟨.hbm, 1382, rfl⟩
abbrev main_c_366 : Ref sig .tc := ⟨.hbm, 1383, rfl⟩
abbrev main_v856 : Ref sig .tc := ⟨.hbm, 1384, rfl⟩
abbrev main_c_367 : Ref sig .tc := ⟨.hbm, 1385, rfl⟩
abbrev main_c_368 : Ref sig .tc := ⟨.hbm, 1386, rfl⟩
abbrev main_v857 : Ref sig .tc := ⟨.hbm, 1387, rfl⟩
abbrev main_c_369 : Ref sig .tc := ⟨.hbm, 1388, rfl⟩
abbrev main_v858 : Ref sig .tc := ⟨.hbm, 1389, rfl⟩
abbrev main_v859 : Ref sig .tc := ⟨.hbm, 1390, rfl⟩
abbrev main_v860 : Ref sig .tc := ⟨.hbm, 1391, rfl⟩
abbrev main_v861 : Ref sig .tc := ⟨.hbm, 1392, rfl⟩
abbrev main_c_370 : Ref sig .tc := ⟨.hbm, 1393, rfl⟩
abbrev main_v862 : Ref sig .tc := ⟨.hbm, 1394, rfl⟩
abbrev main_c_371 : Ref sig .tc := ⟨.hbm, 1395, rfl⟩
abbrev main_v863 : Ref sig .tc := ⟨.hbm, 1396, rfl⟩
abbrev main_v864 : Ref sig .tc := ⟨.hbm, 1397, rfl⟩
abbrev main_c_372 : Ref sig .tc := ⟨.hbm, 1398, rfl⟩
abbrev main_c_373 : Ref sig .tc := ⟨.hbm, 1399, rfl⟩
abbrev main_v865 : Ref sig .tc := ⟨.hbm, 1400, rfl⟩
abbrev main_c_374 : Ref sig .tc := ⟨.hbm, 1401, rfl⟩
abbrev main_c_375 : Ref sig .tc := ⟨.hbm, 1402, rfl⟩
abbrev main_v866 : Ref sig .tc := ⟨.hbm, 1403, rfl⟩
abbrev main_c_376 : Ref sig .tc := ⟨.hbm, 1404, rfl⟩
abbrev main_v867 : Ref sig .tc := ⟨.hbm, 1405, rfl⟩
abbrev main_v868 : Ref sig .tc := ⟨.hbm, 1406, rfl⟩
abbrev main_v869 : Ref sig .tc := ⟨.hbm, 1407, rfl⟩
abbrev main_cst_377 : Ref sig .tc := ⟨.hbm, 1408, rfl⟩
abbrev main_v870 : Ref sig .tc := ⟨.hbm, 1409, rfl⟩
abbrev main_v871 : Ref sig .tc := ⟨.hbm, 1410, rfl⟩
abbrev main_v872 : Ref sig .tc := ⟨.hbm, 1411, rfl⟩
abbrev main_v873 : Ref sig .tc := ⟨.hbm, 1412, rfl⟩
abbrev main_v874 : Ref sig .tc := ⟨.hbm, 1413, rfl⟩
abbrev main_v875 : Ref sig .tc := ⟨.hbm, 1414, rfl⟩
abbrev main_v876 : Ref sig .tc := ⟨.hbm, 1415, rfl⟩
abbrev main_v877 : Ref sig .tc := ⟨.hbm, 1416, rfl⟩
abbrev main_v878 : Ref sig .tc := ⟨.hbm, 1417, rfl⟩
abbrev main_v879 : Ref sig .tc := ⟨.hbm, 1418, rfl⟩
abbrev main_cst_378 : Ref sig .tc := ⟨.hbm, 1419, rfl⟩
abbrev main_v880 : Ref sig .tc := ⟨.hbm, 1420, rfl⟩
abbrev main_c_379 : Ref sig .tc := ⟨.hbm, 1421, rfl⟩
abbrev main_v881 : Ref sig .tc := ⟨.hbm, 1422, rfl⟩
abbrev main_cst_380 : Ref sig .tc := ⟨.hbm, 1423, rfl⟩
abbrev main_v882 : Ref sig .tc := ⟨.hbm, 1424, rfl⟩
abbrev main_v883 : Ref sig .tc := ⟨.hbm, 1425, rfl⟩
abbrev main_c_381 : Ref sig .tc := ⟨.hbm, 1426, rfl⟩
abbrev main_v884 : Ref sig .tc := ⟨.hbm, 1427, rfl⟩
abbrev main_v885 : Ref sig .tc := ⟨.hbm, 1428, rfl⟩
abbrev main_c_382 : Ref sig .tc := ⟨.hbm, 1429, rfl⟩
abbrev main_v886 : Ref sig .tc := ⟨.hbm, 1430, rfl⟩
abbrev main_v887 : Ref sig .tc := ⟨.hbm, 1431, rfl⟩
abbrev main_v888 : Ref sig .tc := ⟨.hbm, 1432, rfl⟩
abbrev main_c_383 : Ref sig .tc := ⟨.hbm, 1433, rfl⟩
abbrev main_v889 : Ref sig .tc := ⟨.hbm, 1434, rfl⟩
abbrev main_v890 : Ref sig .tc := ⟨.hbm, 1435, rfl⟩
abbrev main_v891 : Ref sig .tc := ⟨.hbm, 1436, rfl⟩
abbrev main_v892 : Ref sig .tc := ⟨.hbm, 1437, rfl⟩
abbrev main_call77_call0_c : Ref sig .tc := ⟨.hbm, 1438, rfl⟩
abbrev main_call77_call0_v0 : Ref sig .tc := ⟨.hbm, 1439, rfl⟩
abbrev main_v893 : Ref sig .tc := ⟨.hbm, 1440, rfl⟩
abbrev main_v894 : Ref sig .tc := ⟨.hbm, 1441, rfl⟩
abbrev main_v895 : Ref sig .tc := ⟨.hbm, 1442, rfl⟩
abbrev main_c_384 : Ref sig .tc := ⟨.hbm, 1443, rfl⟩
abbrev main_v896 : Ref sig .tc := ⟨.hbm, 1444, rfl⟩
abbrev main_v897 : Ref sig .tc := ⟨.hbm, 1445, rfl⟩
abbrev main_call78_v0 : Ref sig .tc := ⟨.hbm, 1446, rfl⟩
abbrev main_call78_c : Ref sig .tc := ⟨.hbm, 1447, rfl⟩
abbrev main_call78_c_0 : Ref sig .tc := ⟨.hbm, 1448, rfl⟩
abbrev main_call78_v1_0 : Ref sig .tc := ⟨.hbm, 1449, rfl⟩
abbrev main_v898 : Ref sig .tc := ⟨.hbm, 1450, rfl⟩
abbrev main_c_385 : Ref sig .tc := ⟨.hbm, 1451, rfl⟩
abbrev main_v899 : Ref sig .tc := ⟨.hbm, 1452, rfl⟩
abbrev main_v900 : Ref sig .tc := ⟨.hbm, 1453, rfl⟩
abbrev main_call79_v0 : Ref sig .tc := ⟨.hbm, 1454, rfl⟩
abbrev main_call79_c : Ref sig .tc := ⟨.hbm, 1455, rfl⟩
abbrev main_call79_c_0 : Ref sig .tc := ⟨.hbm, 1456, rfl⟩
abbrev main_call79_v1_0 : Ref sig .tc := ⟨.hbm, 1457, rfl⟩
abbrev main_v901 : Ref sig .tc := ⟨.hbm, 1458, rfl⟩
abbrev main_c_386 : Ref sig .tc := ⟨.hbm, 1459, rfl⟩
abbrev main_v902 : Ref sig .tc := ⟨.hbm, 1460, rfl⟩
abbrev main_v903 : Ref sig .tc := ⟨.hbm, 1461, rfl⟩
abbrev main_call80_v0 : Ref sig .tc := ⟨.hbm, 1462, rfl⟩
abbrev main_call80_c : Ref sig .tc := ⟨.hbm, 1463, rfl⟩
abbrev main_call80_c_0 : Ref sig .tc := ⟨.hbm, 1464, rfl⟩
abbrev main_call80_v1_0 : Ref sig .tc := ⟨.hbm, 1465, rfl⟩
abbrev main_v904 : Ref sig .tc := ⟨.hbm, 1466, rfl⟩
abbrev main_c_387 : Ref sig .tc := ⟨.hbm, 1467, rfl⟩
abbrev main_v905 : Ref sig .tc := ⟨.hbm, 1468, rfl⟩
abbrev main_c_388 : Ref sig .tc := ⟨.hbm, 1469, rfl⟩
abbrev main_v906 : Ref sig .tc := ⟨.hbm, 1470, rfl⟩
abbrev main_v907 : Ref sig .tc := ⟨.hbm, 1471, rfl⟩
abbrev main_c_389 : Ref sig .tc := ⟨.hbm, 1472, rfl⟩
abbrev main_c_390 : Ref sig .tc := ⟨.hbm, 1473, rfl⟩
abbrev main_v908 : Ref sig .tc := ⟨.hbm, 1474, rfl⟩
abbrev main_c_391 : Ref sig .tc := ⟨.hbm, 1475, rfl⟩
abbrev main_c_392 : Ref sig .tc := ⟨.hbm, 1476, rfl⟩
abbrev main_v909 : Ref sig .tc := ⟨.hbm, 1477, rfl⟩
abbrev main_c_393 : Ref sig .tc := ⟨.hbm, 1478, rfl⟩
abbrev main_v910 : Ref sig .tc := ⟨.hbm, 1479, rfl⟩
abbrev main_v911 : Ref sig .tc := ⟨.hbm, 1480, rfl⟩
abbrev main_v912 : Ref sig .tc := ⟨.hbm, 1481, rfl⟩
abbrev main_c_394 : Ref sig .tc := ⟨.hbm, 1482, rfl⟩
abbrev main_v913 : Ref sig .tc := ⟨.hbm, 1483, rfl⟩
abbrev main_c_395 : Ref sig .tc := ⟨.hbm, 1484, rfl⟩
abbrev main_v914 : Ref sig .tc := ⟨.hbm, 1485, rfl⟩
abbrev main_v915 : Ref sig .tc := ⟨.hbm, 1486, rfl⟩
abbrev main_c_396 : Ref sig .tc := ⟨.hbm, 1487, rfl⟩
abbrev main_c_397 : Ref sig .tc := ⟨.hbm, 1488, rfl⟩
abbrev main_v916 : Ref sig .tc := ⟨.hbm, 1489, rfl⟩
abbrev main_c_398 : Ref sig .tc := ⟨.hbm, 1490, rfl⟩
abbrev main_c_399 : Ref sig .tc := ⟨.hbm, 1491, rfl⟩
abbrev main_v917 : Ref sig .tc := ⟨.hbm, 1492, rfl⟩
abbrev main_c_400 : Ref sig .tc := ⟨.hbm, 1493, rfl⟩
abbrev main_v918 : Ref sig .tc := ⟨.hbm, 1494, rfl⟩
abbrev main_v919 : Ref sig .tc := ⟨.hbm, 1495, rfl⟩
abbrev main_v920 : Ref sig .tc := ⟨.hbm, 1496, rfl⟩
abbrev main_v921 : Ref sig .tc := ⟨.hbm, 1497, rfl⟩
abbrev main_c_401 : Ref sig .tc := ⟨.hbm, 1498, rfl⟩
abbrev main_v922 : Ref sig .tc := ⟨.hbm, 1499, rfl⟩
abbrev main_c_402 : Ref sig .tc := ⟨.hbm, 1500, rfl⟩
abbrev main_v923 : Ref sig .tc := ⟨.hbm, 1501, rfl⟩
abbrev main_v924 : Ref sig .tc := ⟨.hbm, 1502, rfl⟩
abbrev main_c_403 : Ref sig .tc := ⟨.hbm, 1503, rfl⟩
abbrev main_c_404 : Ref sig .tc := ⟨.hbm, 1504, rfl⟩
abbrev main_v925 : Ref sig .tc := ⟨.hbm, 1505, rfl⟩
abbrev main_c_405 : Ref sig .tc := ⟨.hbm, 1506, rfl⟩
abbrev main_c_406 : Ref sig .tc := ⟨.hbm, 1507, rfl⟩
abbrev main_v926 : Ref sig .tc := ⟨.hbm, 1508, rfl⟩
abbrev main_c_407 : Ref sig .tc := ⟨.hbm, 1509, rfl⟩
abbrev main_v927 : Ref sig .tc := ⟨.hbm, 1510, rfl⟩
abbrev main_v928 : Ref sig .tc := ⟨.hbm, 1511, rfl⟩
abbrev main_v929 : Ref sig .tc := ⟨.hbm, 1512, rfl⟩
abbrev main_cst_408 : Ref sig .tc := ⟨.hbm, 1513, rfl⟩
abbrev main_v930 : Ref sig .tc := ⟨.hbm, 1514, rfl⟩
abbrev main_v931 : Ref sig .tc := ⟨.hbm, 1515, rfl⟩
abbrev main_v932 : Ref sig .tc := ⟨.hbm, 1516, rfl⟩
abbrev main_v933 : Ref sig .tc := ⟨.hbm, 1517, rfl⟩
abbrev main_v934 : Ref sig .tc := ⟨.hbm, 1518, rfl⟩
abbrev main_v935 : Ref sig .tc := ⟨.hbm, 1519, rfl⟩
abbrev main_v936 : Ref sig .tc := ⟨.hbm, 1520, rfl⟩
abbrev main_v937 : Ref sig .tc := ⟨.hbm, 1521, rfl⟩
abbrev main_v938 : Ref sig .tc := ⟨.hbm, 1522, rfl⟩
abbrev main_v939 : Ref sig .tc := ⟨.hbm, 1523, rfl⟩
abbrev main_cst_409 : Ref sig .tc := ⟨.hbm, 1524, rfl⟩
abbrev main_v940 : Ref sig .tc := ⟨.hbm, 1525, rfl⟩
abbrev main_c_410 : Ref sig .tc := ⟨.hbm, 1526, rfl⟩
abbrev main_v941 : Ref sig .tc := ⟨.hbm, 1527, rfl⟩
abbrev main_cst_411 : Ref sig .tc := ⟨.hbm, 1528, rfl⟩
abbrev main_v942 : Ref sig .tc := ⟨.hbm, 1529, rfl⟩
abbrev main_v943 : Ref sig .tc := ⟨.hbm, 1530, rfl⟩
abbrev main_c_412 : Ref sig .tc := ⟨.hbm, 1531, rfl⟩
abbrev main_v944 : Ref sig .tc := ⟨.hbm, 1532, rfl⟩
abbrev main_v945 : Ref sig .tc := ⟨.hbm, 1533, rfl⟩
abbrev main_c_413 : Ref sig .tc := ⟨.hbm, 1534, rfl⟩
abbrev main_v946 : Ref sig .tc := ⟨.hbm, 1535, rfl⟩
abbrev main_v947 : Ref sig .tc := ⟨.hbm, 1536, rfl⟩
abbrev main_v948 : Ref sig .tc := ⟨.hbm, 1537, rfl⟩
abbrev main_c_414 : Ref sig .tc := ⟨.hbm, 1538, rfl⟩
abbrev main_v949 : Ref sig .tc := ⟨.hbm, 1539, rfl⟩
abbrev main_v950 : Ref sig .tc := ⟨.hbm, 1540, rfl⟩
abbrev main_v951 : Ref sig .tc := ⟨.hbm, 1541, rfl⟩
abbrev main_v952 : Ref sig .tc := ⟨.hbm, 1542, rfl⟩
abbrev main_call83_call0_c : Ref sig .tc := ⟨.hbm, 1543, rfl⟩
abbrev main_call83_call0_v0 : Ref sig .tc := ⟨.hbm, 1544, rfl⟩
abbrev main_v953 : Ref sig .tc := ⟨.hbm, 1545, rfl⟩
abbrev main_v954 : Ref sig .tc := ⟨.hbm, 1546, rfl⟩
abbrev main_v955 : Ref sig .tc := ⟨.hbm, 1547, rfl⟩
abbrev main_c_415 : Ref sig .tc := ⟨.hbm, 1548, rfl⟩
abbrev main_v956 : Ref sig .tc := ⟨.hbm, 1549, rfl⟩
abbrev main_v957 : Ref sig .tc := ⟨.hbm, 1550, rfl⟩
abbrev main_call84_v0 : Ref sig .tc := ⟨.hbm, 1551, rfl⟩
abbrev main_call84_c : Ref sig .tc := ⟨.hbm, 1552, rfl⟩
abbrev main_call84_c_0 : Ref sig .tc := ⟨.hbm, 1553, rfl⟩
abbrev main_call84_v1_0 : Ref sig .tc := ⟨.hbm, 1554, rfl⟩
abbrev main_v958 : Ref sig .tc := ⟨.hbm, 1555, rfl⟩
abbrev main_c_416 : Ref sig .tc := ⟨.hbm, 1556, rfl⟩
abbrev main_v959 : Ref sig .tc := ⟨.hbm, 1557, rfl⟩
abbrev main_v960 : Ref sig .tc := ⟨.hbm, 1558, rfl⟩
abbrev main_call85_v0 : Ref sig .tc := ⟨.hbm, 1559, rfl⟩
abbrev main_call85_c : Ref sig .tc := ⟨.hbm, 1560, rfl⟩
abbrev main_call85_c_0 : Ref sig .tc := ⟨.hbm, 1561, rfl⟩
abbrev main_call85_v1_0 : Ref sig .tc := ⟨.hbm, 1562, rfl⟩
abbrev main_v961 : Ref sig .tc := ⟨.hbm, 1563, rfl⟩
abbrev main_c_417 : Ref sig .tc := ⟨.hbm, 1564, rfl⟩
abbrev main_v962 : Ref sig .tc := ⟨.hbm, 1565, rfl⟩
abbrev main_v963 : Ref sig .tc := ⟨.hbm, 1566, rfl⟩
abbrev main_call86_v0 : Ref sig .tc := ⟨.hbm, 1567, rfl⟩
abbrev main_call86_c : Ref sig .tc := ⟨.hbm, 1568, rfl⟩
abbrev main_call86_c_0 : Ref sig .tc := ⟨.hbm, 1569, rfl⟩
abbrev main_call86_v1_0 : Ref sig .tc := ⟨.hbm, 1570, rfl⟩
abbrev main_v964 : Ref sig .tc := ⟨.hbm, 1571, rfl⟩
abbrev main_c_418 : Ref sig .tc := ⟨.hbm, 1572, rfl⟩
abbrev main_v965 : Ref sig .tc := ⟨.hbm, 1573, rfl⟩
abbrev main_c_419 : Ref sig .tc := ⟨.hbm, 1574, rfl⟩
abbrev main_v966 : Ref sig .tc := ⟨.hbm, 1575, rfl⟩
abbrev main_v967 : Ref sig .tc := ⟨.hbm, 1576, rfl⟩
abbrev main_c_420 : Ref sig .tc := ⟨.hbm, 1577, rfl⟩
abbrev main_c_421 : Ref sig .tc := ⟨.hbm, 1578, rfl⟩
abbrev main_v968 : Ref sig .tc := ⟨.hbm, 1579, rfl⟩
abbrev main_c_422 : Ref sig .tc := ⟨.hbm, 1580, rfl⟩
abbrev main_c_423 : Ref sig .tc := ⟨.hbm, 1581, rfl⟩
abbrev main_v969 : Ref sig .tc := ⟨.hbm, 1582, rfl⟩
abbrev main_c_424 : Ref sig .tc := ⟨.hbm, 1583, rfl⟩
abbrev main_v970 : Ref sig .tc := ⟨.hbm, 1584, rfl⟩
abbrev main_v971 : Ref sig .tc := ⟨.hbm, 1585, rfl⟩
abbrev main_v972 : Ref sig .tc := ⟨.hbm, 1586, rfl⟩
abbrev main_c_425 : Ref sig .tc := ⟨.hbm, 1587, rfl⟩
abbrev main_v973 : Ref sig .tc := ⟨.hbm, 1588, rfl⟩
abbrev main_c_426 : Ref sig .tc := ⟨.hbm, 1589, rfl⟩
abbrev main_v974 : Ref sig .tc := ⟨.hbm, 1590, rfl⟩
abbrev main_v975 : Ref sig .tc := ⟨.hbm, 1591, rfl⟩
abbrev main_c_427 : Ref sig .tc := ⟨.hbm, 1592, rfl⟩
abbrev main_c_428 : Ref sig .tc := ⟨.hbm, 1593, rfl⟩
abbrev main_v976 : Ref sig .tc := ⟨.hbm, 1594, rfl⟩
abbrev main_c_429 : Ref sig .tc := ⟨.hbm, 1595, rfl⟩
abbrev main_c_430 : Ref sig .tc := ⟨.hbm, 1596, rfl⟩
abbrev main_v977 : Ref sig .tc := ⟨.hbm, 1597, rfl⟩
abbrev main_c_431 : Ref sig .tc := ⟨.hbm, 1598, rfl⟩
abbrev main_v978 : Ref sig .tc := ⟨.hbm, 1599, rfl⟩
abbrev main_v979 : Ref sig .tc := ⟨.hbm, 1600, rfl⟩
abbrev main_v980 : Ref sig .tc := ⟨.hbm, 1601, rfl⟩
abbrev main_v981 : Ref sig .tc := ⟨.hbm, 1602, rfl⟩
abbrev main_c_432 : Ref sig .tc := ⟨.hbm, 1603, rfl⟩
abbrev main_v982 : Ref sig .tc := ⟨.hbm, 1604, rfl⟩
abbrev main_c_433 : Ref sig .tc := ⟨.hbm, 1605, rfl⟩
abbrev main_v983 : Ref sig .tc := ⟨.hbm, 1606, rfl⟩
abbrev main_v984 : Ref sig .tc := ⟨.hbm, 1607, rfl⟩
abbrev main_c_434 : Ref sig .tc := ⟨.hbm, 1608, rfl⟩
abbrev main_c_435 : Ref sig .tc := ⟨.hbm, 1609, rfl⟩
abbrev main_v985 : Ref sig .tc := ⟨.hbm, 1610, rfl⟩
abbrev main_c_436 : Ref sig .tc := ⟨.hbm, 1611, rfl⟩
abbrev main_c_437 : Ref sig .tc := ⟨.hbm, 1612, rfl⟩
abbrev main_v986 : Ref sig .tc := ⟨.hbm, 1613, rfl⟩
abbrev main_c_438 : Ref sig .tc := ⟨.hbm, 1614, rfl⟩
abbrev main_v987 : Ref sig .tc := ⟨.hbm, 1615, rfl⟩
abbrev main_v988 : Ref sig .tc := ⟨.hbm, 1616, rfl⟩
abbrev main_v989 : Ref sig .tc := ⟨.hbm, 1617, rfl⟩
abbrev main_cst_439 : Ref sig .tc := ⟨.hbm, 1618, rfl⟩
abbrev main_v990 : Ref sig .tc := ⟨.hbm, 1619, rfl⟩
abbrev main_v991 : Ref sig .tc := ⟨.hbm, 1620, rfl⟩
abbrev main_v992 : Ref sig .tc := ⟨.hbm, 1621, rfl⟩
abbrev main_v993 : Ref sig .tc := ⟨.hbm, 1622, rfl⟩
abbrev main_v994 : Ref sig .tc := ⟨.hbm, 1623, rfl⟩
abbrev main_v995 : Ref sig .tc := ⟨.hbm, 1624, rfl⟩
abbrev main_v996 : Ref sig .tc := ⟨.hbm, 1625, rfl⟩
abbrev main_v997 : Ref sig .tc := ⟨.hbm, 1626, rfl⟩
abbrev main_v998 : Ref sig .tc := ⟨.hbm, 1627, rfl⟩
abbrev main_v999 : Ref sig .tc := ⟨.hbm, 1628, rfl⟩
abbrev main_cst_440 : Ref sig .tc := ⟨.hbm, 1629, rfl⟩
abbrev main_v1000 : Ref sig .tc := ⟨.hbm, 1630, rfl⟩
abbrev main_c_441 : Ref sig .tc := ⟨.hbm, 1631, rfl⟩
abbrev main_v1001 : Ref sig .tc := ⟨.hbm, 1632, rfl⟩
abbrev main_cst_442 : Ref sig .tc := ⟨.hbm, 1633, rfl⟩
abbrev main_v1002 : Ref sig .tc := ⟨.hbm, 1634, rfl⟩
abbrev main_v1003 : Ref sig .tc := ⟨.hbm, 1635, rfl⟩
abbrev main_c_443 : Ref sig .tc := ⟨.hbm, 1636, rfl⟩
abbrev main_v1004 : Ref sig .tc := ⟨.hbm, 1637, rfl⟩
abbrev main_v1005 : Ref sig .tc := ⟨.hbm, 1638, rfl⟩
abbrev main_c_444 : Ref sig .tc := ⟨.hbm, 1639, rfl⟩
abbrev main_v1006 : Ref sig .tc := ⟨.hbm, 1640, rfl⟩
abbrev main_v1007 : Ref sig .tc := ⟨.hbm, 1641, rfl⟩
abbrev main_v1008 : Ref sig .tc := ⟨.hbm, 1642, rfl⟩
abbrev main_c_445 : Ref sig .tc := ⟨.hbm, 1643, rfl⟩
abbrev main_v1009 : Ref sig .tc := ⟨.hbm, 1644, rfl⟩
abbrev main_v1010 : Ref sig .tc := ⟨.hbm, 1645, rfl⟩
abbrev main_v1011 : Ref sig .tc := ⟨.hbm, 1646, rfl⟩
abbrev main_v1012 : Ref sig .tc := ⟨.hbm, 1647, rfl⟩
abbrev main_call89_call0_c : Ref sig .tc := ⟨.hbm, 1648, rfl⟩
abbrev main_call89_call0_v0 : Ref sig .tc := ⟨.hbm, 1649, rfl⟩
abbrev main_v1013 : Ref sig .tc := ⟨.hbm, 1650, rfl⟩
abbrev main_v1014 : Ref sig .tc := ⟨.hbm, 1651, rfl⟩
abbrev main_v1015 : Ref sig .tc := ⟨.hbm, 1652, rfl⟩
abbrev main_c_446 : Ref sig .tc := ⟨.hbm, 1653, rfl⟩
abbrev main_v1016 : Ref sig .tc := ⟨.hbm, 1654, rfl⟩
abbrev main_v1017 : Ref sig .tc := ⟨.hbm, 1655, rfl⟩
abbrev main_call90_v0 : Ref sig .tc := ⟨.hbm, 1656, rfl⟩
abbrev main_call90_c : Ref sig .tc := ⟨.hbm, 1657, rfl⟩
abbrev main_call90_c_0 : Ref sig .tc := ⟨.hbm, 1658, rfl⟩
abbrev main_call90_v1_0 : Ref sig .tc := ⟨.hbm, 1659, rfl⟩
abbrev main_v1018 : Ref sig .tc := ⟨.hbm, 1660, rfl⟩
abbrev main_c_447 : Ref sig .tc := ⟨.hbm, 1661, rfl⟩
abbrev main_v1019 : Ref sig .tc := ⟨.hbm, 1662, rfl⟩
abbrev main_v1020 : Ref sig .tc := ⟨.hbm, 1663, rfl⟩
abbrev main_call91_v0 : Ref sig .tc := ⟨.hbm, 1664, rfl⟩
abbrev main_call91_c : Ref sig .tc := ⟨.hbm, 1665, rfl⟩
abbrev main_call91_c_0 : Ref sig .tc := ⟨.hbm, 1666, rfl⟩
abbrev main_call91_v1_0 : Ref sig .tc := ⟨.hbm, 1667, rfl⟩
abbrev main_v1021 : Ref sig .tc := ⟨.hbm, 1668, rfl⟩
abbrev main_c_448 : Ref sig .tc := ⟨.hbm, 1669, rfl⟩
abbrev main_v1022 : Ref sig .tc := ⟨.hbm, 1670, rfl⟩
abbrev main_v1023 : Ref sig .tc := ⟨.hbm, 1671, rfl⟩
abbrev main_call92_v0 : Ref sig .tc := ⟨.hbm, 1672, rfl⟩
abbrev main_call92_c : Ref sig .tc := ⟨.hbm, 1673, rfl⟩
abbrev main_call92_c_0 : Ref sig .tc := ⟨.hbm, 1674, rfl⟩
abbrev main_call92_v1_0 : Ref sig .tc := ⟨.hbm, 1675, rfl⟩
abbrev main_v1024 : Ref sig .tc := ⟨.hbm, 1676, rfl⟩
abbrev main_c_449 : Ref sig .tc := ⟨.hbm, 1677, rfl⟩
abbrev main_v1025 : Ref sig .tc := ⟨.hbm, 1678, rfl⟩
abbrev main_c_450 : Ref sig .tc := ⟨.hbm, 1679, rfl⟩
abbrev main_v1026 : Ref sig .tc := ⟨.hbm, 1680, rfl⟩
abbrev main_v1027 : Ref sig .tc := ⟨.hbm, 1681, rfl⟩
abbrev main_c_451 : Ref sig .tc := ⟨.hbm, 1682, rfl⟩
abbrev main_c_452 : Ref sig .tc := ⟨.hbm, 1683, rfl⟩
abbrev main_v1028 : Ref sig .tc := ⟨.hbm, 1684, rfl⟩
abbrev main_c_453 : Ref sig .tc := ⟨.hbm, 1685, rfl⟩
abbrev main_c_454 : Ref sig .tc := ⟨.hbm, 1686, rfl⟩
abbrev main_v1029 : Ref sig .tc := ⟨.hbm, 1687, rfl⟩
abbrev main_c_455 : Ref sig .tc := ⟨.hbm, 1688, rfl⟩
abbrev main_v1030 : Ref sig .tc := ⟨.hbm, 1689, rfl⟩
abbrev main_v1031 : Ref sig .tc := ⟨.hbm, 1690, rfl⟩
abbrev main_v1032 : Ref sig .tc := ⟨.hbm, 1691, rfl⟩
abbrev main_c_456 : Ref sig .tc := ⟨.hbm, 1692, rfl⟩
abbrev main_v1033 : Ref sig .tc := ⟨.hbm, 1693, rfl⟩
abbrev main_c_457 : Ref sig .tc := ⟨.hbm, 1694, rfl⟩
abbrev main_v1034 : Ref sig .tc := ⟨.hbm, 1695, rfl⟩
abbrev main_v1035 : Ref sig .tc := ⟨.hbm, 1696, rfl⟩
abbrev main_c_458 : Ref sig .tc := ⟨.hbm, 1697, rfl⟩
abbrev main_c_459 : Ref sig .tc := ⟨.hbm, 1698, rfl⟩
abbrev main_v1036 : Ref sig .tc := ⟨.hbm, 1699, rfl⟩
abbrev main_c_460 : Ref sig .tc := ⟨.hbm, 1700, rfl⟩
abbrev main_c_461 : Ref sig .tc := ⟨.hbm, 1701, rfl⟩
abbrev main_v1037 : Ref sig .tc := ⟨.hbm, 1702, rfl⟩
abbrev main_c_462 : Ref sig .tc := ⟨.hbm, 1703, rfl⟩
abbrev main_v1038 : Ref sig .tc := ⟨.hbm, 1704, rfl⟩
abbrev main_v1039 : Ref sig .tc := ⟨.hbm, 1705, rfl⟩
abbrev main_v1040 : Ref sig .tc := ⟨.hbm, 1706, rfl⟩
abbrev main_v1041 : Ref sig .tc := ⟨.hbm, 1707, rfl⟩
abbrev main_c_463 : Ref sig .tc := ⟨.hbm, 1708, rfl⟩
abbrev main_v1042 : Ref sig .tc := ⟨.hbm, 1709, rfl⟩
abbrev main_c_464 : Ref sig .tc := ⟨.hbm, 1710, rfl⟩
abbrev main_v1043 : Ref sig .tc := ⟨.hbm, 1711, rfl⟩
abbrev main_v1044 : Ref sig .tc := ⟨.hbm, 1712, rfl⟩
abbrev main_c_465 : Ref sig .tc := ⟨.hbm, 1713, rfl⟩
abbrev main_c_466 : Ref sig .tc := ⟨.hbm, 1714, rfl⟩
abbrev main_v1045 : Ref sig .tc := ⟨.hbm, 1715, rfl⟩
abbrev main_c_467 : Ref sig .tc := ⟨.hbm, 1716, rfl⟩
abbrev main_c_468 : Ref sig .tc := ⟨.hbm, 1717, rfl⟩
abbrev main_v1046 : Ref sig .tc := ⟨.hbm, 1718, rfl⟩
abbrev main_c_469 : Ref sig .tc := ⟨.hbm, 1719, rfl⟩
abbrev main_v1047 : Ref sig .tc := ⟨.hbm, 1720, rfl⟩
abbrev main_v1048 : Ref sig .tc := ⟨.hbm, 1721, rfl⟩
abbrev main_v1049 : Ref sig .tc := ⟨.hbm, 1722, rfl⟩
abbrev main_cst_470 : Ref sig .tc := ⟨.hbm, 1723, rfl⟩
abbrev main_v1050 : Ref sig .tc := ⟨.hbm, 1724, rfl⟩
abbrev main_v1051 : Ref sig .tc := ⟨.hbm, 1725, rfl⟩
abbrev main_v1052 : Ref sig .tc := ⟨.hbm, 1726, rfl⟩
abbrev main_v1053 : Ref sig .tc := ⟨.hbm, 1727, rfl⟩
abbrev main_v1054 : Ref sig .tc := ⟨.hbm, 1728, rfl⟩
abbrev main_v1055 : Ref sig .tc := ⟨.hbm, 1729, rfl⟩
abbrev main_v1056 : Ref sig .tc := ⟨.hbm, 1730, rfl⟩
abbrev main_v1057 : Ref sig .tc := ⟨.hbm, 1731, rfl⟩
abbrev main_v1058 : Ref sig .tc := ⟨.hbm, 1732, rfl⟩
abbrev main_v1059 : Ref sig .tc := ⟨.hbm, 1733, rfl⟩
abbrev main_cst_471 : Ref sig .tc := ⟨.hbm, 1734, rfl⟩
abbrev main_v1060 : Ref sig .tc := ⟨.hbm, 1735, rfl⟩
abbrev main_c_472 : Ref sig .tc := ⟨.hbm, 1736, rfl⟩
abbrev main_v1061 : Ref sig .tc := ⟨.hbm, 1737, rfl⟩
abbrev main_cst_473 : Ref sig .tc := ⟨.hbm, 1738, rfl⟩
abbrev main_v1062 : Ref sig .tc := ⟨.hbm, 1739, rfl⟩
abbrev main_v1063 : Ref sig .tc := ⟨.hbm, 1740, rfl⟩
abbrev main_c_474 : Ref sig .tc := ⟨.hbm, 1741, rfl⟩
abbrev main_v1064 : Ref sig .tc := ⟨.hbm, 1742, rfl⟩
abbrev main_v1065 : Ref sig .tc := ⟨.hbm, 1743, rfl⟩
abbrev main_c_475 : Ref sig .tc := ⟨.hbm, 1744, rfl⟩
abbrev main_v1066 : Ref sig .tc := ⟨.hbm, 1745, rfl⟩
abbrev main_v1067 : Ref sig .tc := ⟨.hbm, 1746, rfl⟩
abbrev main_v1068 : Ref sig .tc := ⟨.hbm, 1747, rfl⟩
abbrev main_c_476 : Ref sig .tc := ⟨.hbm, 1748, rfl⟩
abbrev main_v1069 : Ref sig .tc := ⟨.hbm, 1749, rfl⟩
abbrev main_v1070 : Ref sig .tc := ⟨.hbm, 1750, rfl⟩
abbrev main_v1071 : Ref sig .tc := ⟨.hbm, 1751, rfl⟩
abbrev main_v1072 : Ref sig .tc := ⟨.hbm, 1752, rfl⟩
abbrev main_call95_call0_c : Ref sig .tc := ⟨.hbm, 1753, rfl⟩
abbrev main_call95_call0_v0 : Ref sig .tc := ⟨.hbm, 1754, rfl⟩
abbrev main_v1073 : Ref sig .tc := ⟨.hbm, 1755, rfl⟩
abbrev main_v1074 : Ref sig .tc := ⟨.hbm, 1756, rfl⟩
abbrev main_v1075 : Ref sig .tc := ⟨.hbm, 1757, rfl⟩
abbrev main_c_477 : Ref sig .tc := ⟨.hbm, 1758, rfl⟩
abbrev main_v1076 : Ref sig .tc := ⟨.hbm, 1759, rfl⟩
abbrev main_v1077 : Ref sig .tc := ⟨.hbm, 1760, rfl⟩
abbrev main_call96_v0 : Ref sig .tc := ⟨.hbm, 1761, rfl⟩
abbrev main_call96_c : Ref sig .tc := ⟨.hbm, 1762, rfl⟩
abbrev main_call96_c_0 : Ref sig .tc := ⟨.hbm, 1763, rfl⟩
abbrev main_call96_v1_0 : Ref sig .tc := ⟨.hbm, 1764, rfl⟩
abbrev main_v1078 : Ref sig .tc := ⟨.hbm, 1765, rfl⟩
abbrev main_c_478 : Ref sig .tc := ⟨.hbm, 1766, rfl⟩
abbrev main_v1079 : Ref sig .tc := ⟨.hbm, 1767, rfl⟩
abbrev main_v1080 : Ref sig .tc := ⟨.hbm, 1768, rfl⟩
abbrev main_call97_v0 : Ref sig .tc := ⟨.hbm, 1769, rfl⟩
abbrev main_call97_c : Ref sig .tc := ⟨.hbm, 1770, rfl⟩
abbrev main_call97_c_0 : Ref sig .tc := ⟨.hbm, 1771, rfl⟩
abbrev main_call97_v1_0 : Ref sig .tc := ⟨.hbm, 1772, rfl⟩
abbrev main_v1081 : Ref sig .tc := ⟨.hbm, 1773, rfl⟩
abbrev main_c_479 : Ref sig .tc := ⟨.hbm, 1774, rfl⟩
abbrev main_v1082 : Ref sig .tc := ⟨.hbm, 1775, rfl⟩
abbrev main_v1083 : Ref sig .tc := ⟨.hbm, 1776, rfl⟩
abbrev main_call98_v0 : Ref sig .tc := ⟨.hbm, 1777, rfl⟩
abbrev main_call98_c : Ref sig .tc := ⟨.hbm, 1778, rfl⟩
abbrev main_call98_c_0 : Ref sig .tc := ⟨.hbm, 1779, rfl⟩
abbrev main_call98_v1_0 : Ref sig .tc := ⟨.hbm, 1780, rfl⟩
abbrev main_v1084 : Ref sig .tc := ⟨.hbm, 1781, rfl⟩
abbrev main_c_480 : Ref sig .tc := ⟨.hbm, 1782, rfl⟩
abbrev main_v1085 : Ref sig .tc := ⟨.hbm, 1783, rfl⟩
abbrev main_c_481 : Ref sig .tc := ⟨.hbm, 1784, rfl⟩
abbrev main_v1086 : Ref sig .tc := ⟨.hbm, 1785, rfl⟩
abbrev main_v1087 : Ref sig .tc := ⟨.hbm, 1786, rfl⟩
abbrev main_c_482 : Ref sig .tc := ⟨.hbm, 1787, rfl⟩
abbrev main_c_483 : Ref sig .tc := ⟨.hbm, 1788, rfl⟩
abbrev main_v1088 : Ref sig .tc := ⟨.hbm, 1789, rfl⟩
abbrev main_c_484 : Ref sig .tc := ⟨.hbm, 1790, rfl⟩
abbrev main_c_485 : Ref sig .tc := ⟨.hbm, 1791, rfl⟩
abbrev main_v1089 : Ref sig .tc := ⟨.hbm, 1792, rfl⟩
abbrev main_c_486 : Ref sig .tc := ⟨.hbm, 1793, rfl⟩
abbrev main_v1090 : Ref sig .tc := ⟨.hbm, 1794, rfl⟩
abbrev main_v1091 : Ref sig .tc := ⟨.hbm, 1795, rfl⟩
abbrev main_v1092 : Ref sig .tc := ⟨.hbm, 1796, rfl⟩
abbrev main_c_487 : Ref sig .tc := ⟨.hbm, 1797, rfl⟩
abbrev main_v1093 : Ref sig .tc := ⟨.hbm, 1798, rfl⟩
abbrev main_c_488 : Ref sig .tc := ⟨.hbm, 1799, rfl⟩
abbrev main_v1094 : Ref sig .tc := ⟨.hbm, 1800, rfl⟩
abbrev main_v1095 : Ref sig .tc := ⟨.hbm, 1801, rfl⟩
abbrev main_c_489 : Ref sig .tc := ⟨.hbm, 1802, rfl⟩
abbrev main_c_490 : Ref sig .tc := ⟨.hbm, 1803, rfl⟩
abbrev main_v1096 : Ref sig .tc := ⟨.hbm, 1804, rfl⟩
abbrev main_c_491 : Ref sig .tc := ⟨.hbm, 1805, rfl⟩
abbrev main_c_492 : Ref sig .tc := ⟨.hbm, 1806, rfl⟩
abbrev main_v1097 : Ref sig .tc := ⟨.hbm, 1807, rfl⟩
abbrev main_c_493 : Ref sig .tc := ⟨.hbm, 1808, rfl⟩
abbrev main_v1098 : Ref sig .tc := ⟨.hbm, 1809, rfl⟩
abbrev main_v1099 : Ref sig .tc := ⟨.hbm, 1810, rfl⟩
abbrev main_v1100 : Ref sig .tc := ⟨.hbm, 1811, rfl⟩
abbrev main_v1101 : Ref sig .tc := ⟨.hbm, 1812, rfl⟩
abbrev main_c_494 : Ref sig .tc := ⟨.hbm, 1813, rfl⟩
abbrev main_v1102 : Ref sig .tc := ⟨.hbm, 1814, rfl⟩
abbrev main_c_495 : Ref sig .tc := ⟨.hbm, 1815, rfl⟩
abbrev main_v1103 : Ref sig .tc := ⟨.hbm, 1816, rfl⟩
abbrev main_v1104 : Ref sig .tc := ⟨.hbm, 1817, rfl⟩
abbrev main_c_496 : Ref sig .tc := ⟨.hbm, 1818, rfl⟩
abbrev main_c_497 : Ref sig .tc := ⟨.hbm, 1819, rfl⟩
abbrev main_v1105 : Ref sig .tc := ⟨.hbm, 1820, rfl⟩
abbrev main_c_498 : Ref sig .tc := ⟨.hbm, 1821, rfl⟩
abbrev main_c_499 : Ref sig .tc := ⟨.hbm, 1822, rfl⟩
abbrev main_v1106 : Ref sig .tc := ⟨.hbm, 1823, rfl⟩
abbrev main_c_500 : Ref sig .tc := ⟨.hbm, 1824, rfl⟩
abbrev main_v1107 : Ref sig .tc := ⟨.hbm, 1825, rfl⟩
abbrev main_v1108 : Ref sig .tc := ⟨.hbm, 1826, rfl⟩
abbrev main_v1109 : Ref sig .tc := ⟨.hbm, 1827, rfl⟩
abbrev main_cst_501 : Ref sig .tc := ⟨.hbm, 1828, rfl⟩
abbrev main_v1110 : Ref sig .tc := ⟨.hbm, 1829, rfl⟩
abbrev main_v1111 : Ref sig .tc := ⟨.hbm, 1830, rfl⟩
abbrev main_v1112 : Ref sig .tc := ⟨.hbm, 1831, rfl⟩
abbrev main_v1113 : Ref sig .tc := ⟨.hbm, 1832, rfl⟩
abbrev main_v1114 : Ref sig .tc := ⟨.hbm, 1833, rfl⟩
abbrev main_v1115 : Ref sig .tc := ⟨.hbm, 1834, rfl⟩
abbrev main_v1116 : Ref sig .tc := ⟨.hbm, 1835, rfl⟩
abbrev main_v1117 : Ref sig .tc := ⟨.hbm, 1836, rfl⟩
abbrev main_v1118 : Ref sig .tc := ⟨.hbm, 1837, rfl⟩
abbrev main_v1119 : Ref sig .tc := ⟨.hbm, 1838, rfl⟩
abbrev main_cst_502 : Ref sig .tc := ⟨.hbm, 1839, rfl⟩
abbrev main_v1120 : Ref sig .tc := ⟨.hbm, 1840, rfl⟩
abbrev main_c_503 : Ref sig .tc := ⟨.hbm, 1841, rfl⟩
abbrev main_v1121 : Ref sig .tc := ⟨.hbm, 1842, rfl⟩
abbrev main_cst_504 : Ref sig .tc := ⟨.hbm, 1843, rfl⟩
abbrev main_v1122 : Ref sig .tc := ⟨.hbm, 1844, rfl⟩
abbrev main_v1123 : Ref sig .tc := ⟨.hbm, 1845, rfl⟩
abbrev main_c_505 : Ref sig .tc := ⟨.hbm, 1846, rfl⟩
abbrev main_v1124 : Ref sig .tc := ⟨.hbm, 1847, rfl⟩
abbrev main_v1125 : Ref sig .tc := ⟨.hbm, 1848, rfl⟩
abbrev main_c_506 : Ref sig .tc := ⟨.hbm, 1849, rfl⟩
abbrev main_v1126 : Ref sig .tc := ⟨.hbm, 1850, rfl⟩
abbrev main_v1127 : Ref sig .tc := ⟨.hbm, 1851, rfl⟩
abbrev main_v1128 : Ref sig .tc := ⟨.hbm, 1852, rfl⟩
abbrev main_c_507 : Ref sig .tc := ⟨.hbm, 1853, rfl⟩
abbrev main_v1129 : Ref sig .tc := ⟨.hbm, 1854, rfl⟩
abbrev main_v1130 : Ref sig .tc := ⟨.hbm, 1855, rfl⟩
abbrev main_v1131 : Ref sig .tc := ⟨.hbm, 1856, rfl⟩
abbrev main_v1132 : Ref sig .tc := ⟨.hbm, 1857, rfl⟩
abbrev main_call101_call0_c : Ref sig .tc := ⟨.hbm, 1858, rfl⟩
abbrev main_call101_call0_v0 : Ref sig .tc := ⟨.hbm, 1859, rfl⟩
abbrev main_v1133 : Ref sig .tc := ⟨.hbm, 1860, rfl⟩
abbrev main_v1134 : Ref sig .tc := ⟨.hbm, 1861, rfl⟩
abbrev main_v1135 : Ref sig .tc := ⟨.hbm, 1862, rfl⟩
abbrev main_c_508 : Ref sig .tc := ⟨.hbm, 1863, rfl⟩
abbrev main_v1136 : Ref sig .tc := ⟨.hbm, 1864, rfl⟩
abbrev main_v1137 : Ref sig .tc := ⟨.hbm, 1865, rfl⟩
abbrev main_call102_v0 : Ref sig .tc := ⟨.hbm, 1866, rfl⟩
abbrev main_call102_c : Ref sig .tc := ⟨.hbm, 1867, rfl⟩
abbrev main_call102_c_0 : Ref sig .tc := ⟨.hbm, 1868, rfl⟩
abbrev main_call102_v1_0 : Ref sig .tc := ⟨.hbm, 1869, rfl⟩
abbrev main_v1138 : Ref sig .tc := ⟨.hbm, 1870, rfl⟩
abbrev main_c_509 : Ref sig .tc := ⟨.hbm, 1871, rfl⟩
abbrev main_v1139 : Ref sig .tc := ⟨.hbm, 1872, rfl⟩
abbrev main_v1140 : Ref sig .tc := ⟨.hbm, 1873, rfl⟩
abbrev main_call103_v0 : Ref sig .tc := ⟨.hbm, 1874, rfl⟩
abbrev main_call103_c : Ref sig .tc := ⟨.hbm, 1875, rfl⟩
abbrev main_call103_c_0 : Ref sig .tc := ⟨.hbm, 1876, rfl⟩
abbrev main_call103_v1_0 : Ref sig .tc := ⟨.hbm, 1877, rfl⟩
abbrev main_v1141 : Ref sig .tc := ⟨.hbm, 1878, rfl⟩
abbrev main_c_510 : Ref sig .tc := ⟨.hbm, 1879, rfl⟩
abbrev main_v1142 : Ref sig .tc := ⟨.hbm, 1880, rfl⟩
abbrev main_v1143 : Ref sig .tc := ⟨.hbm, 1881, rfl⟩
abbrev main_call104_v0 : Ref sig .tc := ⟨.hbm, 1882, rfl⟩
abbrev main_call104_c : Ref sig .tc := ⟨.hbm, 1883, rfl⟩
abbrev main_call104_c_0 : Ref sig .tc := ⟨.hbm, 1884, rfl⟩
abbrev main_call104_v1_0 : Ref sig .tc := ⟨.hbm, 1885, rfl⟩
abbrev main_v1144 : Ref sig .tc := ⟨.hbm, 1886, rfl⟩
abbrev main_c_511 : Ref sig .tc := ⟨.hbm, 1887, rfl⟩
abbrev main_v1145 : Ref sig .tc := ⟨.hbm, 1888, rfl⟩
abbrev main_c_512 : Ref sig .tc := ⟨.hbm, 1889, rfl⟩
abbrev main_v1146 : Ref sig .tc := ⟨.hbm, 1890, rfl⟩
abbrev main_v1147 : Ref sig .tc := ⟨.hbm, 1891, rfl⟩
abbrev main_c_513 : Ref sig .tc := ⟨.hbm, 1892, rfl⟩
abbrev main_c_514 : Ref sig .tc := ⟨.hbm, 1893, rfl⟩
abbrev main_v1148 : Ref sig .tc := ⟨.hbm, 1894, rfl⟩
abbrev main_c_515 : Ref sig .tc := ⟨.hbm, 1895, rfl⟩
abbrev main_c_516 : Ref sig .tc := ⟨.hbm, 1896, rfl⟩
abbrev main_v1149 : Ref sig .tc := ⟨.hbm, 1897, rfl⟩
abbrev main_c_517 : Ref sig .tc := ⟨.hbm, 1898, rfl⟩
abbrev main_v1150 : Ref sig .tc := ⟨.hbm, 1899, rfl⟩
abbrev main_v1151 : Ref sig .tc := ⟨.hbm, 1900, rfl⟩
abbrev main_v1152 : Ref sig .tc := ⟨.hbm, 1901, rfl⟩
abbrev main_c_518 : Ref sig .tc := ⟨.hbm, 1902, rfl⟩
abbrev main_v1153 : Ref sig .tc := ⟨.hbm, 1903, rfl⟩
abbrev main_c_519 : Ref sig .tc := ⟨.hbm, 1904, rfl⟩
abbrev main_v1154 : Ref sig .tc := ⟨.hbm, 1905, rfl⟩
abbrev main_v1155 : Ref sig .tc := ⟨.hbm, 1906, rfl⟩
abbrev main_c_520 : Ref sig .tc := ⟨.hbm, 1907, rfl⟩
abbrev main_c_521 : Ref sig .tc := ⟨.hbm, 1908, rfl⟩
abbrev main_v1156 : Ref sig .tc := ⟨.hbm, 1909, rfl⟩
abbrev main_c_522 : Ref sig .tc := ⟨.hbm, 1910, rfl⟩
abbrev main_c_523 : Ref sig .tc := ⟨.hbm, 1911, rfl⟩
abbrev main_v1157 : Ref sig .tc := ⟨.hbm, 1912, rfl⟩
abbrev main_c_524 : Ref sig .tc := ⟨.hbm, 1913, rfl⟩
abbrev main_v1158 : Ref sig .tc := ⟨.hbm, 1914, rfl⟩
abbrev main_v1159 : Ref sig .tc := ⟨.hbm, 1915, rfl⟩
abbrev main_v1160 : Ref sig .tc := ⟨.hbm, 1916, rfl⟩
abbrev main_v1161 : Ref sig .tc := ⟨.hbm, 1917, rfl⟩
abbrev main_c_525 : Ref sig .tc := ⟨.hbm, 1918, rfl⟩
abbrev main_v1162 : Ref sig .tc := ⟨.hbm, 1919, rfl⟩
abbrev main_c_526 : Ref sig .tc := ⟨.hbm, 1920, rfl⟩
abbrev main_v1163 : Ref sig .tc := ⟨.hbm, 1921, rfl⟩
abbrev main_v1164 : Ref sig .tc := ⟨.hbm, 1922, rfl⟩
abbrev main_c_527 : Ref sig .tc := ⟨.hbm, 1923, rfl⟩
abbrev main_c_528 : Ref sig .tc := ⟨.hbm, 1924, rfl⟩
abbrev main_v1165 : Ref sig .tc := ⟨.hbm, 1925, rfl⟩
abbrev main_c_529 : Ref sig .tc := ⟨.hbm, 1926, rfl⟩
abbrev main_c_530 : Ref sig .tc := ⟨.hbm, 1927, rfl⟩
abbrev main_v1166 : Ref sig .tc := ⟨.hbm, 1928, rfl⟩
abbrev main_c_531 : Ref sig .tc := ⟨.hbm, 1929, rfl⟩
abbrev main_v1167 : Ref sig .tc := ⟨.hbm, 1930, rfl⟩
abbrev main_v1168 : Ref sig .tc := ⟨.hbm, 1931, rfl⟩
abbrev main_v1169 : Ref sig .tc := ⟨.hbm, 1932, rfl⟩
abbrev main_cst_532 : Ref sig .tc := ⟨.hbm, 1933, rfl⟩
abbrev main_v1170 : Ref sig .tc := ⟨.hbm, 1934, rfl⟩
abbrev main_v1171 : Ref sig .tc := ⟨.hbm, 1935, rfl⟩
abbrev main_v1172 : Ref sig .tc := ⟨.hbm, 1936, rfl⟩
abbrev main_v1173 : Ref sig .tc := ⟨.hbm, 1937, rfl⟩
abbrev main_v1174 : Ref sig .tc := ⟨.hbm, 1938, rfl⟩
abbrev main_v1175 : Ref sig .tc := ⟨.hbm, 1939, rfl⟩
abbrev main_v1176 : Ref sig .tc := ⟨.hbm, 1940, rfl⟩
abbrev main_v1177 : Ref sig .tc := ⟨.hbm, 1941, rfl⟩
abbrev main_v1178 : Ref sig .tc := ⟨.hbm, 1942, rfl⟩
abbrev main_v1179 : Ref sig .tc := ⟨.hbm, 1943, rfl⟩
abbrev main_cst_533 : Ref sig .tc := ⟨.hbm, 1944, rfl⟩
abbrev main_v1180 : Ref sig .tc := ⟨.hbm, 1945, rfl⟩
abbrev main_c_534 : Ref sig .tc := ⟨.hbm, 1946, rfl⟩
abbrev main_v1181 : Ref sig .tc := ⟨.hbm, 1947, rfl⟩
abbrev main_cst_535 : Ref sig .tc := ⟨.hbm, 1948, rfl⟩
abbrev main_v1182 : Ref sig .tc := ⟨.hbm, 1949, rfl⟩
abbrev main_v1183 : Ref sig .tc := ⟨.hbm, 1950, rfl⟩
abbrev main_c_536 : Ref sig .tc := ⟨.hbm, 1951, rfl⟩
abbrev main_v1184 : Ref sig .tc := ⟨.hbm, 1952, rfl⟩
abbrev main_v1185 : Ref sig .tc := ⟨.hbm, 1953, rfl⟩
abbrev main_c_537 : Ref sig .tc := ⟨.hbm, 1954, rfl⟩
abbrev main_v1186 : Ref sig .tc := ⟨.hbm, 1955, rfl⟩
abbrev main_v1187 : Ref sig .tc := ⟨.hbm, 1956, rfl⟩
abbrev main_v1188 : Ref sig .tc := ⟨.hbm, 1957, rfl⟩
abbrev main_c_538 : Ref sig .tc := ⟨.hbm, 1958, rfl⟩
abbrev main_v1189 : Ref sig .tc := ⟨.hbm, 1959, rfl⟩
abbrev main_v1190 : Ref sig .tc := ⟨.hbm, 1960, rfl⟩
abbrev main_v1191 : Ref sig .tc := ⟨.hbm, 1961, rfl⟩
abbrev main_v1192 : Ref sig .tc := ⟨.hbm, 1962, rfl⟩
abbrev main_call107_call0_c : Ref sig .tc := ⟨.hbm, 1963, rfl⟩
abbrev main_call107_call0_v0 : Ref sig .tc := ⟨.hbm, 1964, rfl⟩
abbrev main_v1193 : Ref sig .tc := ⟨.hbm, 1965, rfl⟩
abbrev main_v1194 : Ref sig .tc := ⟨.hbm, 1966, rfl⟩
abbrev main_v1195 : Ref sig .tc := ⟨.hbm, 1967, rfl⟩
abbrev main_c_539 : Ref sig .tc := ⟨.hbm, 1968, rfl⟩
abbrev main_v1196 : Ref sig .tc := ⟨.hbm, 1969, rfl⟩
abbrev main_v1197 : Ref sig .tc := ⟨.hbm, 1970, rfl⟩
abbrev main_call108_v0 : Ref sig .tc := ⟨.hbm, 1971, rfl⟩
abbrev main_call108_c : Ref sig .tc := ⟨.hbm, 1972, rfl⟩
abbrev main_call108_c_0 : Ref sig .tc := ⟨.hbm, 1973, rfl⟩
abbrev main_call108_v1_0 : Ref sig .tc := ⟨.hbm, 1974, rfl⟩
abbrev main_v1198 : Ref sig .tc := ⟨.hbm, 1975, rfl⟩
abbrev main_c_540 : Ref sig .tc := ⟨.hbm, 1976, rfl⟩
abbrev main_v1199 : Ref sig .tc := ⟨.hbm, 1977, rfl⟩
abbrev main_v1200 : Ref sig .tc := ⟨.hbm, 1978, rfl⟩
abbrev main_call109_v0 : Ref sig .tc := ⟨.hbm, 1979, rfl⟩
abbrev main_call109_c : Ref sig .tc := ⟨.hbm, 1980, rfl⟩
abbrev main_call109_c_0 : Ref sig .tc := ⟨.hbm, 1981, rfl⟩
abbrev main_call109_v1_0 : Ref sig .tc := ⟨.hbm, 1982, rfl⟩
abbrev main_v1201 : Ref sig .tc := ⟨.hbm, 1983, rfl⟩
abbrev main_c_541 : Ref sig .tc := ⟨.hbm, 1984, rfl⟩
abbrev main_v1202 : Ref sig .tc := ⟨.hbm, 1985, rfl⟩
abbrev main_v1203 : Ref sig .tc := ⟨.hbm, 1986, rfl⟩
abbrev main_call110_v0 : Ref sig .tc := ⟨.hbm, 1987, rfl⟩
abbrev main_call110_c : Ref sig .tc := ⟨.hbm, 1988, rfl⟩
abbrev main_call110_c_0 : Ref sig .tc := ⟨.hbm, 1989, rfl⟩
abbrev main_call110_v1_0 : Ref sig .tc := ⟨.hbm, 1990, rfl⟩
abbrev main_v1204 : Ref sig .tc := ⟨.hbm, 1991, rfl⟩
abbrev main_c_542 : Ref sig .tc := ⟨.hbm, 1992, rfl⟩
abbrev main_v1205 : Ref sig .tc := ⟨.hbm, 1993, rfl⟩
abbrev main_c_543 : Ref sig .tc := ⟨.hbm, 1994, rfl⟩
abbrev main_v1206 : Ref sig .tc := ⟨.hbm, 1995, rfl⟩
abbrev main_v1207 : Ref sig .tc := ⟨.hbm, 1996, rfl⟩
abbrev main_c_544 : Ref sig .tc := ⟨.hbm, 1997, rfl⟩
abbrev main_c_545 : Ref sig .tc := ⟨.hbm, 1998, rfl⟩
abbrev main_v1208 : Ref sig .tc := ⟨.hbm, 1999, rfl⟩
abbrev main_c_546 : Ref sig .tc := ⟨.hbm, 2000, rfl⟩
abbrev main_c_547 : Ref sig .tc := ⟨.hbm, 2001, rfl⟩
abbrev main_v1209 : Ref sig .tc := ⟨.hbm, 2002, rfl⟩
abbrev main_c_548 : Ref sig .tc := ⟨.hbm, 2003, rfl⟩
abbrev main_v1210 : Ref sig .tc := ⟨.hbm, 2004, rfl⟩
abbrev main_v1211 : Ref sig .tc := ⟨.hbm, 2005, rfl⟩
abbrev main_v1212 : Ref sig .tc := ⟨.hbm, 2006, rfl⟩
abbrev main_c_549 : Ref sig .tc := ⟨.hbm, 2007, rfl⟩
abbrev main_v1213 : Ref sig .tc := ⟨.hbm, 2008, rfl⟩
abbrev main_c_550 : Ref sig .tc := ⟨.hbm, 2009, rfl⟩
abbrev main_v1214 : Ref sig .tc := ⟨.hbm, 2010, rfl⟩
abbrev main_v1215 : Ref sig .tc := ⟨.hbm, 2011, rfl⟩
abbrev main_c_551 : Ref sig .tc := ⟨.hbm, 2012, rfl⟩
abbrev main_c_552 : Ref sig .tc := ⟨.hbm, 2013, rfl⟩
abbrev main_v1216 : Ref sig .tc := ⟨.hbm, 2014, rfl⟩
abbrev main_c_553 : Ref sig .tc := ⟨.hbm, 2015, rfl⟩
abbrev main_c_554 : Ref sig .tc := ⟨.hbm, 2016, rfl⟩
abbrev main_v1217 : Ref sig .tc := ⟨.hbm, 2017, rfl⟩
abbrev main_c_555 : Ref sig .tc := ⟨.hbm, 2018, rfl⟩
abbrev main_v1218 : Ref sig .tc := ⟨.hbm, 2019, rfl⟩
abbrev main_v1219 : Ref sig .tc := ⟨.hbm, 2020, rfl⟩
abbrev main_v1220 : Ref sig .tc := ⟨.hbm, 2021, rfl⟩
abbrev main_v1221 : Ref sig .tc := ⟨.hbm, 2022, rfl⟩
abbrev main_c_556 : Ref sig .tc := ⟨.hbm, 2023, rfl⟩
abbrev main_v1222 : Ref sig .tc := ⟨.hbm, 2024, rfl⟩
abbrev main_c_557 : Ref sig .tc := ⟨.hbm, 2025, rfl⟩
abbrev main_v1223 : Ref sig .tc := ⟨.hbm, 2026, rfl⟩
abbrev main_v1224 : Ref sig .tc := ⟨.hbm, 2027, rfl⟩
abbrev main_c_558 : Ref sig .tc := ⟨.hbm, 2028, rfl⟩
abbrev main_c_559 : Ref sig .tc := ⟨.hbm, 2029, rfl⟩
abbrev main_v1225 : Ref sig .tc := ⟨.hbm, 2030, rfl⟩
abbrev main_c_560 : Ref sig .tc := ⟨.hbm, 2031, rfl⟩
abbrev main_c_561 : Ref sig .tc := ⟨.hbm, 2032, rfl⟩
abbrev main_v1226 : Ref sig .tc := ⟨.hbm, 2033, rfl⟩
abbrev main_c_562 : Ref sig .tc := ⟨.hbm, 2034, rfl⟩
abbrev main_v1227 : Ref sig .tc := ⟨.hbm, 2035, rfl⟩
abbrev main_v1228 : Ref sig .tc := ⟨.hbm, 2036, rfl⟩
abbrev main_v1229 : Ref sig .tc := ⟨.hbm, 2037, rfl⟩
abbrev main_cst_563 : Ref sig .tc := ⟨.hbm, 2038, rfl⟩
abbrev main_v1230 : Ref sig .tc := ⟨.hbm, 2039, rfl⟩
abbrev main_v1231 : Ref sig .tc := ⟨.hbm, 2040, rfl⟩
abbrev main_v1232 : Ref sig .tc := ⟨.hbm, 2041, rfl⟩
abbrev main_v1233 : Ref sig .tc := ⟨.hbm, 2042, rfl⟩
abbrev main_v1234 : Ref sig .tc := ⟨.hbm, 2043, rfl⟩
abbrev main_v1235 : Ref sig .tc := ⟨.hbm, 2044, rfl⟩
abbrev main_v1236 : Ref sig .tc := ⟨.hbm, 2045, rfl⟩
abbrev main_v1237 : Ref sig .tc := ⟨.hbm, 2046, rfl⟩
abbrev main_v1238 : Ref sig .tc := ⟨.hbm, 2047, rfl⟩
abbrev main_v1239 : Ref sig .tc := ⟨.hbm, 2048, rfl⟩
abbrev main_cst_564 : Ref sig .tc := ⟨.hbm, 2049, rfl⟩
abbrev main_v1240 : Ref sig .tc := ⟨.hbm, 2050, rfl⟩
abbrev main_c_565 : Ref sig .tc := ⟨.hbm, 2051, rfl⟩
abbrev main_v1241 : Ref sig .tc := ⟨.hbm, 2052, rfl⟩
abbrev main_cst_566 : Ref sig .tc := ⟨.hbm, 2053, rfl⟩
abbrev main_v1242 : Ref sig .tc := ⟨.hbm, 2054, rfl⟩
abbrev main_v1243 : Ref sig .tc := ⟨.hbm, 2055, rfl⟩
abbrev main_c_567 : Ref sig .tc := ⟨.hbm, 2056, rfl⟩
abbrev main_v1244 : Ref sig .tc := ⟨.hbm, 2057, rfl⟩
abbrev main_v1245 : Ref sig .tc := ⟨.hbm, 2058, rfl⟩
abbrev main_c_568 : Ref sig .tc := ⟨.hbm, 2059, rfl⟩
abbrev main_v1246 : Ref sig .tc := ⟨.hbm, 2060, rfl⟩
abbrev main_v1247 : Ref sig .tc := ⟨.hbm, 2061, rfl⟩
abbrev main_v1248 : Ref sig .tc := ⟨.hbm, 2062, rfl⟩
abbrev main_c_569 : Ref sig .tc := ⟨.hbm, 2063, rfl⟩
abbrev main_v1249 : Ref sig .tc := ⟨.hbm, 2064, rfl⟩
abbrev main_v1250 : Ref sig .tc := ⟨.hbm, 2065, rfl⟩
abbrev main_v1251 : Ref sig .tc := ⟨.hbm, 2066, rfl⟩
abbrev main_v1252 : Ref sig .tc := ⟨.hbm, 2067, rfl⟩
abbrev main_call113_call0_c : Ref sig .tc := ⟨.hbm, 2068, rfl⟩
abbrev main_call113_call0_v0 : Ref sig .tc := ⟨.hbm, 2069, rfl⟩
abbrev main_v1253 : Ref sig .tc := ⟨.hbm, 2070, rfl⟩
abbrev main_v1254 : Ref sig .tc := ⟨.hbm, 2071, rfl⟩
abbrev main_v1255 : Ref sig .tc := ⟨.hbm, 2072, rfl⟩
abbrev main_c_570 : Ref sig .tc := ⟨.hbm, 2073, rfl⟩
abbrev main_v1256 : Ref sig .tc := ⟨.hbm, 2074, rfl⟩
abbrev main_v1257 : Ref sig .tc := ⟨.hbm, 2075, rfl⟩
abbrev main_call114_v0 : Ref sig .tc := ⟨.hbm, 2076, rfl⟩
abbrev main_call114_c : Ref sig .tc := ⟨.hbm, 2077, rfl⟩
abbrev main_call114_c_0 : Ref sig .tc := ⟨.hbm, 2078, rfl⟩
abbrev main_call114_v1_0 : Ref sig .tc := ⟨.hbm, 2079, rfl⟩
abbrev main_v1258 : Ref sig .tc := ⟨.hbm, 2080, rfl⟩
abbrev main_c_571 : Ref sig .tc := ⟨.hbm, 2081, rfl⟩
abbrev main_v1259 : Ref sig .tc := ⟨.hbm, 2082, rfl⟩
abbrev main_v1260 : Ref sig .tc := ⟨.hbm, 2083, rfl⟩
abbrev main_call115_v0 : Ref sig .tc := ⟨.hbm, 2084, rfl⟩
abbrev main_call115_c : Ref sig .tc := ⟨.hbm, 2085, rfl⟩
abbrev main_call115_c_0 : Ref sig .tc := ⟨.hbm, 2086, rfl⟩
abbrev main_call115_v1_0 : Ref sig .tc := ⟨.hbm, 2087, rfl⟩
abbrev main_v1261 : Ref sig .tc := ⟨.hbm, 2088, rfl⟩
abbrev main_c_572 : Ref sig .tc := ⟨.hbm, 2089, rfl⟩
abbrev main_v1262 : Ref sig .tc := ⟨.hbm, 2090, rfl⟩
abbrev main_v1263 : Ref sig .tc := ⟨.hbm, 2091, rfl⟩
abbrev main_call116_v0 : Ref sig .tc := ⟨.hbm, 2092, rfl⟩
abbrev main_call116_c : Ref sig .tc := ⟨.hbm, 2093, rfl⟩
abbrev main_call116_c_0 : Ref sig .tc := ⟨.hbm, 2094, rfl⟩
abbrev main_call116_v1_0 : Ref sig .tc := ⟨.hbm, 2095, rfl⟩
abbrev main_v1264 : Ref sig .tc := ⟨.hbm, 2096, rfl⟩
abbrev main_c_573 : Ref sig .tc := ⟨.hbm, 2097, rfl⟩
abbrev main_v1265 : Ref sig .tc := ⟨.hbm, 2098, rfl⟩
abbrev main_c_574 : Ref sig .tc := ⟨.hbm, 2099, rfl⟩
abbrev main_v1266 : Ref sig .tc := ⟨.hbm, 2100, rfl⟩
abbrev main_v1267 : Ref sig .tc := ⟨.hbm, 2101, rfl⟩
abbrev main_c_575 : Ref sig .tc := ⟨.hbm, 2102, rfl⟩
abbrev main_c_576 : Ref sig .tc := ⟨.hbm, 2103, rfl⟩
abbrev main_v1268 : Ref sig .tc := ⟨.hbm, 2104, rfl⟩
abbrev main_c_577 : Ref sig .tc := ⟨.hbm, 2105, rfl⟩
abbrev main_c_578 : Ref sig .tc := ⟨.hbm, 2106, rfl⟩
abbrev main_v1269 : Ref sig .tc := ⟨.hbm, 2107, rfl⟩
abbrev main_c_579 : Ref sig .tc := ⟨.hbm, 2108, rfl⟩
abbrev main_v1270 : Ref sig .tc := ⟨.hbm, 2109, rfl⟩
abbrev main_v1271 : Ref sig .tc := ⟨.hbm, 2110, rfl⟩
abbrev main_v1272 : Ref sig .tc := ⟨.hbm, 2111, rfl⟩
abbrev main_c_580 : Ref sig .tc := ⟨.hbm, 2112, rfl⟩
abbrev main_v1273 : Ref sig .tc := ⟨.hbm, 2113, rfl⟩
abbrev main_c_581 : Ref sig .tc := ⟨.hbm, 2114, rfl⟩
abbrev main_v1274 : Ref sig .tc := ⟨.hbm, 2115, rfl⟩
abbrev main_v1275 : Ref sig .tc := ⟨.hbm, 2116, rfl⟩
abbrev main_c_582 : Ref sig .tc := ⟨.hbm, 2117, rfl⟩
abbrev main_c_583 : Ref sig .tc := ⟨.hbm, 2118, rfl⟩
abbrev main_v1276 : Ref sig .tc := ⟨.hbm, 2119, rfl⟩
abbrev main_c_584 : Ref sig .tc := ⟨.hbm, 2120, rfl⟩
abbrev main_c_585 : Ref sig .tc := ⟨.hbm, 2121, rfl⟩
abbrev main_v1277 : Ref sig .tc := ⟨.hbm, 2122, rfl⟩
abbrev main_c_586 : Ref sig .tc := ⟨.hbm, 2123, rfl⟩
abbrev main_v1278 : Ref sig .tc := ⟨.hbm, 2124, rfl⟩
abbrev main_v1279 : Ref sig .tc := ⟨.hbm, 2125, rfl⟩
abbrev main_v1280 : Ref sig .tc := ⟨.hbm, 2126, rfl⟩
abbrev main_v1281 : Ref sig .tc := ⟨.hbm, 2127, rfl⟩
abbrev main_c_587 : Ref sig .tc := ⟨.hbm, 2128, rfl⟩
abbrev main_v1282 : Ref sig .tc := ⟨.hbm, 2129, rfl⟩
abbrev main_c_588 : Ref sig .tc := ⟨.hbm, 2130, rfl⟩
abbrev main_v1283 : Ref sig .tc := ⟨.hbm, 2131, rfl⟩
abbrev main_v1284 : Ref sig .tc := ⟨.hbm, 2132, rfl⟩
abbrev main_c_589 : Ref sig .tc := ⟨.hbm, 2133, rfl⟩
abbrev main_c_590 : Ref sig .tc := ⟨.hbm, 2134, rfl⟩
abbrev main_v1285 : Ref sig .tc := ⟨.hbm, 2135, rfl⟩
abbrev main_c_591 : Ref sig .tc := ⟨.hbm, 2136, rfl⟩
abbrev main_c_592 : Ref sig .tc := ⟨.hbm, 2137, rfl⟩
abbrev main_v1286 : Ref sig .tc := ⟨.hbm, 2138, rfl⟩
abbrev main_c_593 : Ref sig .tc := ⟨.hbm, 2139, rfl⟩
abbrev main_v1287 : Ref sig .tc := ⟨.hbm, 2140, rfl⟩
abbrev main_v1288 : Ref sig .tc := ⟨.hbm, 2141, rfl⟩
abbrev main_v1289 : Ref sig .tc := ⟨.hbm, 2142, rfl⟩
abbrev main_cst_594 : Ref sig .tc := ⟨.hbm, 2143, rfl⟩
abbrev main_v1290 : Ref sig .tc := ⟨.hbm, 2144, rfl⟩
abbrev main_v1291 : Ref sig .tc := ⟨.hbm, 2145, rfl⟩
abbrev main_v1292 : Ref sig .tc := ⟨.hbm, 2146, rfl⟩
abbrev main_v1293 : Ref sig .tc := ⟨.hbm, 2147, rfl⟩
abbrev main_v1294 : Ref sig .tc := ⟨.hbm, 2148, rfl⟩
abbrev main_v1295 : Ref sig .tc := ⟨.hbm, 2149, rfl⟩
abbrev main_v1296 : Ref sig .tc := ⟨.hbm, 2150, rfl⟩
abbrev main_v1297 : Ref sig .tc := ⟨.hbm, 2151, rfl⟩
abbrev main_v1298 : Ref sig .tc := ⟨.hbm, 2152, rfl⟩
abbrev main_v1299 : Ref sig .tc := ⟨.hbm, 2153, rfl⟩
abbrev main_cst_595 : Ref sig .tc := ⟨.hbm, 2154, rfl⟩
abbrev main_v1300 : Ref sig .tc := ⟨.hbm, 2155, rfl⟩
abbrev main_c_596 : Ref sig .tc := ⟨.hbm, 2156, rfl⟩
abbrev main_v1301 : Ref sig .tc := ⟨.hbm, 2157, rfl⟩
abbrev main_cst_597 : Ref sig .tc := ⟨.hbm, 2158, rfl⟩
abbrev main_v1302 : Ref sig .tc := ⟨.hbm, 2159, rfl⟩
abbrev main_v1303 : Ref sig .tc := ⟨.hbm, 2160, rfl⟩
abbrev main_c_598 : Ref sig .tc := ⟨.hbm, 2161, rfl⟩
abbrev main_v1304 : Ref sig .tc := ⟨.hbm, 2162, rfl⟩
abbrev main_v1305 : Ref sig .tc := ⟨.hbm, 2163, rfl⟩
abbrev main_c_599 : Ref sig .tc := ⟨.hbm, 2164, rfl⟩
abbrev main_v1306 : Ref sig .tc := ⟨.hbm, 2165, rfl⟩
abbrev main_v1307 : Ref sig .tc := ⟨.hbm, 2166, rfl⟩
abbrev main_v1308 : Ref sig .tc := ⟨.hbm, 2167, rfl⟩
abbrev main_c_600 : Ref sig .tc := ⟨.hbm, 2168, rfl⟩
abbrev main_v1309 : Ref sig .tc := ⟨.hbm, 2169, rfl⟩
abbrev main_v1310 : Ref sig .tc := ⟨.hbm, 2170, rfl⟩
abbrev main_v1311 : Ref sig .tc := ⟨.hbm, 2171, rfl⟩
abbrev main_v1312 : Ref sig .tc := ⟨.hbm, 2172, rfl⟩
abbrev main_call119_call0_c : Ref sig .tc := ⟨.hbm, 2173, rfl⟩
abbrev main_call119_call0_v0 : Ref sig .tc := ⟨.hbm, 2174, rfl⟩
abbrev main_v1313 : Ref sig .tc := ⟨.hbm, 2175, rfl⟩
abbrev main_v1314 : Ref sig .tc := ⟨.hbm, 2176, rfl⟩
abbrev main_v1315 : Ref sig .tc := ⟨.hbm, 2177, rfl⟩
abbrev main_c_601 : Ref sig .tc := ⟨.hbm, 2178, rfl⟩
abbrev main_v1316 : Ref sig .tc := ⟨.hbm, 2179, rfl⟩
abbrev main_v1317 : Ref sig .tc := ⟨.hbm, 2180, rfl⟩
abbrev main_call120_v0 : Ref sig .tc := ⟨.hbm, 2181, rfl⟩
abbrev main_call120_c : Ref sig .tc := ⟨.hbm, 2182, rfl⟩
abbrev main_call120_c_0 : Ref sig .tc := ⟨.hbm, 2183, rfl⟩
abbrev main_call120_v1_0 : Ref sig .tc := ⟨.hbm, 2184, rfl⟩
abbrev main_v1318 : Ref sig .tc := ⟨.hbm, 2185, rfl⟩
abbrev main_c_602 : Ref sig .tc := ⟨.hbm, 2186, rfl⟩
abbrev main_v1319 : Ref sig .tc := ⟨.hbm, 2187, rfl⟩
abbrev main_v1320 : Ref sig .tc := ⟨.hbm, 2188, rfl⟩
abbrev main_call121_v0 : Ref sig .tc := ⟨.hbm, 2189, rfl⟩
abbrev main_call121_c : Ref sig .tc := ⟨.hbm, 2190, rfl⟩
abbrev main_call121_c_0 : Ref sig .tc := ⟨.hbm, 2191, rfl⟩
abbrev main_call121_v1_0 : Ref sig .tc := ⟨.hbm, 2192, rfl⟩
abbrev main_v1321 : Ref sig .tc := ⟨.hbm, 2193, rfl⟩
abbrev main_c_603 : Ref sig .tc := ⟨.hbm, 2194, rfl⟩
abbrev main_v1322 : Ref sig .tc := ⟨.hbm, 2195, rfl⟩
abbrev main_v1323 : Ref sig .tc := ⟨.hbm, 2196, rfl⟩
abbrev main_call122_v0 : Ref sig .tc := ⟨.hbm, 2197, rfl⟩
abbrev main_call122_c : Ref sig .tc := ⟨.hbm, 2198, rfl⟩
abbrev main_call122_c_0 : Ref sig .tc := ⟨.hbm, 2199, rfl⟩
abbrev main_call122_v1_0 : Ref sig .tc := ⟨.hbm, 2200, rfl⟩
abbrev main_v1324 : Ref sig .tc := ⟨.hbm, 2201, rfl⟩
abbrev main_c_604 : Ref sig .tc := ⟨.hbm, 2202, rfl⟩
abbrev main_v1325 : Ref sig .tc := ⟨.hbm, 2203, rfl⟩
abbrev main_c_605 : Ref sig .tc := ⟨.hbm, 2204, rfl⟩
abbrev main_v1326 : Ref sig .tc := ⟨.hbm, 2205, rfl⟩
abbrev main_v1327 : Ref sig .tc := ⟨.hbm, 2206, rfl⟩
abbrev main_c_606 : Ref sig .tc := ⟨.hbm, 2207, rfl⟩
abbrev main_c_607 : Ref sig .tc := ⟨.hbm, 2208, rfl⟩
abbrev main_v1328 : Ref sig .tc := ⟨.hbm, 2209, rfl⟩
abbrev main_c_608 : Ref sig .tc := ⟨.hbm, 2210, rfl⟩
abbrev main_c_609 : Ref sig .tc := ⟨.hbm, 2211, rfl⟩
abbrev main_v1329 : Ref sig .tc := ⟨.hbm, 2212, rfl⟩
abbrev main_c_610 : Ref sig .tc := ⟨.hbm, 2213, rfl⟩
abbrev main_v1330 : Ref sig .tc := ⟨.hbm, 2214, rfl⟩
abbrev main_v1331 : Ref sig .tc := ⟨.hbm, 2215, rfl⟩
abbrev main_v1332 : Ref sig .tc := ⟨.hbm, 2216, rfl⟩
abbrev main_c_611 : Ref sig .tc := ⟨.hbm, 2217, rfl⟩
abbrev main_v1333 : Ref sig .tc := ⟨.hbm, 2218, rfl⟩
abbrev main_c_612 : Ref sig .tc := ⟨.hbm, 2219, rfl⟩
abbrev main_v1334 : Ref sig .tc := ⟨.hbm, 2220, rfl⟩
abbrev main_v1335 : Ref sig .tc := ⟨.hbm, 2221, rfl⟩
abbrev main_c_613 : Ref sig .tc := ⟨.hbm, 2222, rfl⟩
abbrev main_c_614 : Ref sig .tc := ⟨.hbm, 2223, rfl⟩
abbrev main_v1336 : Ref sig .tc := ⟨.hbm, 2224, rfl⟩
abbrev main_c_615 : Ref sig .tc := ⟨.hbm, 2225, rfl⟩
abbrev main_c_616 : Ref sig .tc := ⟨.hbm, 2226, rfl⟩
abbrev main_v1337 : Ref sig .tc := ⟨.hbm, 2227, rfl⟩
abbrev main_c_617 : Ref sig .tc := ⟨.hbm, 2228, rfl⟩
abbrev main_v1338 : Ref sig .tc := ⟨.hbm, 2229, rfl⟩
abbrev main_v1339 : Ref sig .tc := ⟨.hbm, 2230, rfl⟩
abbrev main_v1340 : Ref sig .tc := ⟨.hbm, 2231, rfl⟩
abbrev main_v1341 : Ref sig .tc := ⟨.hbm, 2232, rfl⟩
abbrev main_c_618 : Ref sig .tc := ⟨.hbm, 2233, rfl⟩
abbrev main_v1342 : Ref sig .tc := ⟨.hbm, 2234, rfl⟩
abbrev main_c_619 : Ref sig .tc := ⟨.hbm, 2235, rfl⟩
abbrev main_v1343 : Ref sig .tc := ⟨.hbm, 2236, rfl⟩
abbrev main_v1344 : Ref sig .tc := ⟨.hbm, 2237, rfl⟩
abbrev main_c_620 : Ref sig .tc := ⟨.hbm, 2238, rfl⟩
abbrev main_c_621 : Ref sig .tc := ⟨.hbm, 2239, rfl⟩
abbrev main_v1345 : Ref sig .tc := ⟨.hbm, 2240, rfl⟩
abbrev main_c_622 : Ref sig .tc := ⟨.hbm, 2241, rfl⟩
abbrev main_c_623 : Ref sig .tc := ⟨.hbm, 2242, rfl⟩
abbrev main_v1346 : Ref sig .tc := ⟨.hbm, 2243, rfl⟩
abbrev main_c_624 : Ref sig .tc := ⟨.hbm, 2244, rfl⟩
abbrev main_v1347 : Ref sig .tc := ⟨.hbm, 2245, rfl⟩
abbrev main_v1348 : Ref sig .tc := ⟨.hbm, 2246, rfl⟩
abbrev main_v1349 : Ref sig .tc := ⟨.hbm, 2247, rfl⟩
abbrev main_cst_625 : Ref sig .tc := ⟨.hbm, 2248, rfl⟩
abbrev main_v1350 : Ref sig .tc := ⟨.hbm, 2249, rfl⟩
abbrev main_v1351 : Ref sig .tc := ⟨.hbm, 2250, rfl⟩
abbrev main_v1352 : Ref sig .tc := ⟨.hbm, 2251, rfl⟩
abbrev main_v1353 : Ref sig .tc := ⟨.hbm, 2252, rfl⟩
abbrev main_v1354 : Ref sig .tc := ⟨.hbm, 2253, rfl⟩
abbrev main_v1355 : Ref sig .tc := ⟨.hbm, 2254, rfl⟩
abbrev main_v1356 : Ref sig .tc := ⟨.hbm, 2255, rfl⟩
abbrev main_v1357 : Ref sig .tc := ⟨.hbm, 2256, rfl⟩
abbrev main_v1358 : Ref sig .tc := ⟨.hbm, 2257, rfl⟩
abbrev main_v1359 : Ref sig .tc := ⟨.hbm, 2258, rfl⟩
abbrev main_cst_626 : Ref sig .tc := ⟨.hbm, 2259, rfl⟩
abbrev main_v1360 : Ref sig .tc := ⟨.hbm, 2260, rfl⟩
abbrev main_c_627 : Ref sig .tc := ⟨.hbm, 2261, rfl⟩
abbrev main_v1361 : Ref sig .tc := ⟨.hbm, 2262, rfl⟩
abbrev main_cst_628 : Ref sig .tc := ⟨.hbm, 2263, rfl⟩
abbrev main_v1362 : Ref sig .tc := ⟨.hbm, 2264, rfl⟩
abbrev main_v1363 : Ref sig .tc := ⟨.hbm, 2265, rfl⟩
abbrev main_c_629 : Ref sig .tc := ⟨.hbm, 2266, rfl⟩
abbrev main_v1364 : Ref sig .tc := ⟨.hbm, 2267, rfl⟩
abbrev main_v1365 : Ref sig .tc := ⟨.hbm, 2268, rfl⟩
abbrev main_c_630 : Ref sig .tc := ⟨.hbm, 2269, rfl⟩
abbrev main_v1366 : Ref sig .tc := ⟨.hbm, 2270, rfl⟩
abbrev main_v1367 : Ref sig .tc := ⟨.hbm, 2271, rfl⟩
abbrev main_v1368 : Ref sig .tc := ⟨.hbm, 2272, rfl⟩
abbrev main_c_631 : Ref sig .tc := ⟨.hbm, 2273, rfl⟩
abbrev main_v1369 : Ref sig .tc := ⟨.hbm, 2274, rfl⟩
abbrev main_v1370 : Ref sig .tc := ⟨.hbm, 2275, rfl⟩
abbrev main_v1371 : Ref sig .tc := ⟨.hbm, 2276, rfl⟩
abbrev main_v1372 : Ref sig .tc := ⟨.hbm, 2277, rfl⟩
abbrev main_call125_call0_c : Ref sig .tc := ⟨.hbm, 2278, rfl⟩
abbrev main_call125_call0_v0 : Ref sig .tc := ⟨.hbm, 2279, rfl⟩
abbrev main_v1373 : Ref sig .tc := ⟨.hbm, 2280, rfl⟩
abbrev main_v1374 : Ref sig .tc := ⟨.hbm, 2281, rfl⟩
abbrev main_v1375 : Ref sig .tc := ⟨.hbm, 2282, rfl⟩
abbrev main_c_632 : Ref sig .tc := ⟨.hbm, 2283, rfl⟩
abbrev main_v1376 : Ref sig .tc := ⟨.hbm, 2284, rfl⟩
abbrev main_v1377 : Ref sig .tc := ⟨.hbm, 2285, rfl⟩
abbrev main_call126_v0 : Ref sig .tc := ⟨.hbm, 2286, rfl⟩
abbrev main_call126_c : Ref sig .tc := ⟨.hbm, 2287, rfl⟩
abbrev main_call126_c_0 : Ref sig .tc := ⟨.hbm, 2288, rfl⟩
abbrev main_call126_v1_0 : Ref sig .tc := ⟨.hbm, 2289, rfl⟩
abbrev main_v1378 : Ref sig .tc := ⟨.hbm, 2290, rfl⟩
abbrev main_c_633 : Ref sig .tc := ⟨.hbm, 2291, rfl⟩
abbrev main_v1379 : Ref sig .tc := ⟨.hbm, 2292, rfl⟩
abbrev main_v1380 : Ref sig .tc := ⟨.hbm, 2293, rfl⟩
abbrev main_call127_v0 : Ref sig .tc := ⟨.hbm, 2294, rfl⟩
abbrev main_call127_c : Ref sig .tc := ⟨.hbm, 2295, rfl⟩
abbrev main_call127_c_0 : Ref sig .tc := ⟨.hbm, 2296, rfl⟩
abbrev main_call127_v1_0 : Ref sig .tc := ⟨.hbm, 2297, rfl⟩
abbrev main_v1381 : Ref sig .tc := ⟨.hbm, 2298, rfl⟩
abbrev main_c_634 : Ref sig .tc := ⟨.hbm, 2299, rfl⟩
abbrev main_v1382 : Ref sig .tc := ⟨.hbm, 2300, rfl⟩
abbrev main_v1383 : Ref sig .tc := ⟨.hbm, 2301, rfl⟩
abbrev main_call128_v0 : Ref sig .tc := ⟨.hbm, 2302, rfl⟩
abbrev main_call128_c : Ref sig .tc := ⟨.hbm, 2303, rfl⟩
abbrev main_call128_c_0 : Ref sig .tc := ⟨.hbm, 2304, rfl⟩
abbrev main_call128_v1_0 : Ref sig .tc := ⟨.hbm, 2305, rfl⟩
abbrev main_v1384 : Ref sig .tc := ⟨.hbm, 2306, rfl⟩
abbrev main_c_635 : Ref sig .tc := ⟨.hbm, 2307, rfl⟩
abbrev main_v1385 : Ref sig .tc := ⟨.hbm, 2308, rfl⟩
abbrev main_c_636 : Ref sig .tc := ⟨.hbm, 2309, rfl⟩
abbrev main_v1386 : Ref sig .tc := ⟨.hbm, 2310, rfl⟩
abbrev main_v1387 : Ref sig .tc := ⟨.hbm, 2311, rfl⟩
abbrev main_c_637 : Ref sig .tc := ⟨.hbm, 2312, rfl⟩
abbrev main_c_638 : Ref sig .tc := ⟨.hbm, 2313, rfl⟩
abbrev main_v1388 : Ref sig .tc := ⟨.hbm, 2314, rfl⟩
abbrev main_c_639 : Ref sig .tc := ⟨.hbm, 2315, rfl⟩
abbrev main_c_640 : Ref sig .tc := ⟨.hbm, 2316, rfl⟩
abbrev main_v1389 : Ref sig .tc := ⟨.hbm, 2317, rfl⟩
abbrev main_c_641 : Ref sig .tc := ⟨.hbm, 2318, rfl⟩
abbrev main_v1390 : Ref sig .tc := ⟨.hbm, 2319, rfl⟩
abbrev main_v1391 : Ref sig .tc := ⟨.hbm, 2320, rfl⟩
abbrev main_v1392 : Ref sig .tc := ⟨.hbm, 2321, rfl⟩
abbrev main_c_642 : Ref sig .tc := ⟨.hbm, 2322, rfl⟩
abbrev main_v1393 : Ref sig .tc := ⟨.hbm, 2323, rfl⟩
abbrev main_c_643 : Ref sig .tc := ⟨.hbm, 2324, rfl⟩
abbrev main_v1394 : Ref sig .tc := ⟨.hbm, 2325, rfl⟩
abbrev main_v1395 : Ref sig .tc := ⟨.hbm, 2326, rfl⟩
abbrev main_c_644 : Ref sig .tc := ⟨.hbm, 2327, rfl⟩
abbrev main_c_645 : Ref sig .tc := ⟨.hbm, 2328, rfl⟩
abbrev main_v1396 : Ref sig .tc := ⟨.hbm, 2329, rfl⟩
abbrev main_c_646 : Ref sig .tc := ⟨.hbm, 2330, rfl⟩
abbrev main_c_647 : Ref sig .tc := ⟨.hbm, 2331, rfl⟩
abbrev main_v1397 : Ref sig .tc := ⟨.hbm, 2332, rfl⟩
abbrev main_c_648 : Ref sig .tc := ⟨.hbm, 2333, rfl⟩
abbrev main_v1398 : Ref sig .tc := ⟨.hbm, 2334, rfl⟩
abbrev main_v1399 : Ref sig .tc := ⟨.hbm, 2335, rfl⟩
abbrev main_v1400 : Ref sig .tc := ⟨.hbm, 2336, rfl⟩
abbrev main_v1401 : Ref sig .tc := ⟨.hbm, 2337, rfl⟩
abbrev main_c_649 : Ref sig .tc := ⟨.hbm, 2338, rfl⟩
abbrev main_v1402 : Ref sig .tc := ⟨.hbm, 2339, rfl⟩
abbrev main_c_650 : Ref sig .tc := ⟨.hbm, 2340, rfl⟩
abbrev main_v1403 : Ref sig .tc := ⟨.hbm, 2341, rfl⟩
abbrev main_v1404 : Ref sig .tc := ⟨.hbm, 2342, rfl⟩
abbrev main_c_651 : Ref sig .tc := ⟨.hbm, 2343, rfl⟩
abbrev main_c_652 : Ref sig .tc := ⟨.hbm, 2344, rfl⟩
abbrev main_v1405 : Ref sig .tc := ⟨.hbm, 2345, rfl⟩
abbrev main_c_653 : Ref sig .tc := ⟨.hbm, 2346, rfl⟩
abbrev main_c_654 : Ref sig .tc := ⟨.hbm, 2347, rfl⟩
abbrev main_v1406 : Ref sig .tc := ⟨.hbm, 2348, rfl⟩
abbrev main_c_655 : Ref sig .tc := ⟨.hbm, 2349, rfl⟩
abbrev main_v1407 : Ref sig .tc := ⟨.hbm, 2350, rfl⟩
abbrev main_v1408 : Ref sig .tc := ⟨.hbm, 2351, rfl⟩
abbrev main_v1409 : Ref sig .tc := ⟨.hbm, 2352, rfl⟩
abbrev main_cst_656 : Ref sig .tc := ⟨.hbm, 2353, rfl⟩
abbrev main_v1410 : Ref sig .tc := ⟨.hbm, 2354, rfl⟩
abbrev main_v1411 : Ref sig .tc := ⟨.hbm, 2355, rfl⟩
abbrev main_v1412 : Ref sig .tc := ⟨.hbm, 2356, rfl⟩
abbrev main_v1413 : Ref sig .tc := ⟨.hbm, 2357, rfl⟩
abbrev main_v1414 : Ref sig .tc := ⟨.hbm, 2358, rfl⟩
abbrev main_v1415 : Ref sig .tc := ⟨.hbm, 2359, rfl⟩
abbrev main_v1416 : Ref sig .tc := ⟨.hbm, 2360, rfl⟩
abbrev main_v1417 : Ref sig .tc := ⟨.hbm, 2361, rfl⟩
abbrev main_v1418 : Ref sig .tc := ⟨.hbm, 2362, rfl⟩
abbrev main_v1419 : Ref sig .tc := ⟨.hbm, 2363, rfl⟩
abbrev main_cst_657 : Ref sig .tc := ⟨.hbm, 2364, rfl⟩
abbrev main_v1420 : Ref sig .tc := ⟨.hbm, 2365, rfl⟩
abbrev main_c_658 : Ref sig .tc := ⟨.hbm, 2366, rfl⟩
abbrev main_v1421 : Ref sig .tc := ⟨.hbm, 2367, rfl⟩
abbrev main_cst_659 : Ref sig .tc := ⟨.hbm, 2368, rfl⟩
abbrev main_v1422 : Ref sig .tc := ⟨.hbm, 2369, rfl⟩
abbrev main_v1423 : Ref sig .tc := ⟨.hbm, 2370, rfl⟩
abbrev main_c_660 : Ref sig .tc := ⟨.hbm, 2371, rfl⟩
abbrev main_v1424 : Ref sig .tc := ⟨.hbm, 2372, rfl⟩
abbrev main_v1425 : Ref sig .tc := ⟨.hbm, 2373, rfl⟩
abbrev main_c_661 : Ref sig .tc := ⟨.hbm, 2374, rfl⟩
abbrev main_v1426 : Ref sig .tc := ⟨.hbm, 2375, rfl⟩
abbrev main_v1427 : Ref sig .tc := ⟨.hbm, 2376, rfl⟩
abbrev main_v1428 : Ref sig .tc := ⟨.hbm, 2377, rfl⟩
abbrev main_c_662 : Ref sig .tc := ⟨.hbm, 2378, rfl⟩
abbrev main_v1429 : Ref sig .tc := ⟨.hbm, 2379, rfl⟩
abbrev main_v1430 : Ref sig .tc := ⟨.hbm, 2380, rfl⟩
abbrev main_v1431 : Ref sig .tc := ⟨.hbm, 2381, rfl⟩
abbrev main_v1432 : Ref sig .tc := ⟨.hbm, 2382, rfl⟩
abbrev main_call131_call0_c : Ref sig .tc := ⟨.hbm, 2383, rfl⟩
abbrev main_call131_call0_v0 : Ref sig .tc := ⟨.hbm, 2384, rfl⟩
abbrev main_v1433 : Ref sig .tc := ⟨.hbm, 2385, rfl⟩
abbrev main_v1434 : Ref sig .tc := ⟨.hbm, 2386, rfl⟩
abbrev main_v1435 : Ref sig .tc := ⟨.hbm, 2387, rfl⟩
abbrev main_c_663 : Ref sig .tc := ⟨.hbm, 2388, rfl⟩
abbrev main_v1436 : Ref sig .tc := ⟨.hbm, 2389, rfl⟩
abbrev main_v1437 : Ref sig .tc := ⟨.hbm, 2390, rfl⟩
abbrev main_call132_v0 : Ref sig .tc := ⟨.hbm, 2391, rfl⟩
abbrev main_call132_c : Ref sig .tc := ⟨.hbm, 2392, rfl⟩
abbrev main_call132_c_0 : Ref sig .tc := ⟨.hbm, 2393, rfl⟩
abbrev main_call132_v1_0 : Ref sig .tc := ⟨.hbm, 2394, rfl⟩
abbrev main_v1438 : Ref sig .tc := ⟨.hbm, 2395, rfl⟩
abbrev main_c_664 : Ref sig .tc := ⟨.hbm, 2396, rfl⟩
abbrev main_v1439 : Ref sig .tc := ⟨.hbm, 2397, rfl⟩
abbrev main_v1440 : Ref sig .tc := ⟨.hbm, 2398, rfl⟩
abbrev main_call133_v0 : Ref sig .tc := ⟨.hbm, 2399, rfl⟩
abbrev main_call133_c : Ref sig .tc := ⟨.hbm, 2400, rfl⟩
abbrev main_call133_c_0 : Ref sig .tc := ⟨.hbm, 2401, rfl⟩
abbrev main_call133_v1_0 : Ref sig .tc := ⟨.hbm, 2402, rfl⟩
abbrev main_v1441 : Ref sig .tc := ⟨.hbm, 2403, rfl⟩
abbrev main_c_665 : Ref sig .tc := ⟨.hbm, 2404, rfl⟩
abbrev main_v1442 : Ref sig .tc := ⟨.hbm, 2405, rfl⟩
abbrev main_v1443 : Ref sig .tc := ⟨.hbm, 2406, rfl⟩
abbrev main_call134_v0 : Ref sig .tc := ⟨.hbm, 2407, rfl⟩
abbrev main_call134_c : Ref sig .tc := ⟨.hbm, 2408, rfl⟩
abbrev main_call134_c_0 : Ref sig .tc := ⟨.hbm, 2409, rfl⟩
abbrev main_call134_v1_0 : Ref sig .tc := ⟨.hbm, 2410, rfl⟩
abbrev main_v1444 : Ref sig .tc := ⟨.hbm, 2411, rfl⟩
abbrev main_c_666 : Ref sig .tc := ⟨.hbm, 2412, rfl⟩
abbrev main_v1445 : Ref sig .tc := ⟨.hbm, 2413, rfl⟩
abbrev main_c_667 : Ref sig .tc := ⟨.hbm, 2414, rfl⟩
abbrev main_v1446 : Ref sig .tc := ⟨.hbm, 2415, rfl⟩
abbrev main_v1447 : Ref sig .tc := ⟨.hbm, 2416, rfl⟩
abbrev main_c_668 : Ref sig .tc := ⟨.hbm, 2417, rfl⟩
abbrev main_c_669 : Ref sig .tc := ⟨.hbm, 2418, rfl⟩
abbrev main_v1448 : Ref sig .tc := ⟨.hbm, 2419, rfl⟩
abbrev main_c_670 : Ref sig .tc := ⟨.hbm, 2420, rfl⟩
abbrev main_c_671 : Ref sig .tc := ⟨.hbm, 2421, rfl⟩
abbrev main_v1449 : Ref sig .tc := ⟨.hbm, 2422, rfl⟩
abbrev main_c_672 : Ref sig .tc := ⟨.hbm, 2423, rfl⟩
abbrev main_v1450 : Ref sig .tc := ⟨.hbm, 2424, rfl⟩
abbrev main_v1451 : Ref sig .tc := ⟨.hbm, 2425, rfl⟩
abbrev main_v1452 : Ref sig .tc := ⟨.hbm, 2426, rfl⟩
abbrev main_c_673 : Ref sig .tc := ⟨.hbm, 2427, rfl⟩
abbrev main_v1453 : Ref sig .tc := ⟨.hbm, 2428, rfl⟩
abbrev main_c_674 : Ref sig .tc := ⟨.hbm, 2429, rfl⟩
abbrev main_v1454 : Ref sig .tc := ⟨.hbm, 2430, rfl⟩
abbrev main_v1455 : Ref sig .tc := ⟨.hbm, 2431, rfl⟩
abbrev main_c_675 : Ref sig .tc := ⟨.hbm, 2432, rfl⟩
abbrev main_c_676 : Ref sig .tc := ⟨.hbm, 2433, rfl⟩
abbrev main_v1456 : Ref sig .tc := ⟨.hbm, 2434, rfl⟩
abbrev main_c_677 : Ref sig .tc := ⟨.hbm, 2435, rfl⟩
abbrev main_c_678 : Ref sig .tc := ⟨.hbm, 2436, rfl⟩
abbrev main_v1457 : Ref sig .tc := ⟨.hbm, 2437, rfl⟩
abbrev main_c_679 : Ref sig .tc := ⟨.hbm, 2438, rfl⟩
abbrev main_v1458 : Ref sig .tc := ⟨.hbm, 2439, rfl⟩
abbrev main_v1459 : Ref sig .tc := ⟨.hbm, 2440, rfl⟩
abbrev main_v1460 : Ref sig .tc := ⟨.hbm, 2441, rfl⟩
abbrev main_v1461 : Ref sig .tc := ⟨.hbm, 2442, rfl⟩
abbrev main_c_680 : Ref sig .tc := ⟨.hbm, 2443, rfl⟩
abbrev main_v1462 : Ref sig .tc := ⟨.hbm, 2444, rfl⟩
abbrev main_c_681 : Ref sig .tc := ⟨.hbm, 2445, rfl⟩
abbrev main_v1463 : Ref sig .tc := ⟨.hbm, 2446, rfl⟩
abbrev main_v1464 : Ref sig .tc := ⟨.hbm, 2447, rfl⟩
abbrev main_c_682 : Ref sig .tc := ⟨.hbm, 2448, rfl⟩
abbrev main_c_683 : Ref sig .tc := ⟨.hbm, 2449, rfl⟩
abbrev main_v1465 : Ref sig .tc := ⟨.hbm, 2450, rfl⟩
abbrev main_c_684 : Ref sig .tc := ⟨.hbm, 2451, rfl⟩
abbrev main_c_685 : Ref sig .tc := ⟨.hbm, 2452, rfl⟩
abbrev main_v1466 : Ref sig .tc := ⟨.hbm, 2453, rfl⟩
abbrev main_c_686 : Ref sig .tc := ⟨.hbm, 2454, rfl⟩
abbrev main_v1467 : Ref sig .tc := ⟨.hbm, 2455, rfl⟩
abbrev main_v1468 : Ref sig .tc := ⟨.hbm, 2456, rfl⟩
abbrev main_v1469 : Ref sig .tc := ⟨.hbm, 2457, rfl⟩
abbrev main_cst_687 : Ref sig .tc := ⟨.hbm, 2458, rfl⟩
abbrev main_v1470 : Ref sig .tc := ⟨.hbm, 2459, rfl⟩
abbrev main_v1471 : Ref sig .tc := ⟨.hbm, 2460, rfl⟩
abbrev main_v1472 : Ref sig .tc := ⟨.hbm, 2461, rfl⟩
abbrev main_v1473 : Ref sig .tc := ⟨.hbm, 2462, rfl⟩
abbrev main_v1474 : Ref sig .tc := ⟨.hbm, 2463, rfl⟩
abbrev main_v1475 : Ref sig .tc := ⟨.hbm, 2464, rfl⟩
abbrev main_v1476 : Ref sig .tc := ⟨.hbm, 2465, rfl⟩
abbrev main_v1477 : Ref sig .tc := ⟨.hbm, 2466, rfl⟩
abbrev main_v1478 : Ref sig .tc := ⟨.hbm, 2467, rfl⟩
abbrev main_v1479 : Ref sig .tc := ⟨.hbm, 2468, rfl⟩
abbrev main_cst_688 : Ref sig .tc := ⟨.hbm, 2469, rfl⟩
abbrev main_v1480 : Ref sig .tc := ⟨.hbm, 2470, rfl⟩
abbrev main_c_689 : Ref sig .tc := ⟨.hbm, 2471, rfl⟩
abbrev main_v1481 : Ref sig .tc := ⟨.hbm, 2472, rfl⟩
abbrev main_cst_690 : Ref sig .tc := ⟨.hbm, 2473, rfl⟩
abbrev main_v1482 : Ref sig .tc := ⟨.hbm, 2474, rfl⟩
abbrev main_v1483 : Ref sig .tc := ⟨.hbm, 2475, rfl⟩
abbrev main_c_691 : Ref sig .tc := ⟨.hbm, 2476, rfl⟩
abbrev main_v1484 : Ref sig .tc := ⟨.hbm, 2477, rfl⟩
abbrev main_v1485 : Ref sig .tc := ⟨.hbm, 2478, rfl⟩
abbrev main_c_692 : Ref sig .tc := ⟨.hbm, 2479, rfl⟩
abbrev main_v1486 : Ref sig .tc := ⟨.hbm, 2480, rfl⟩
abbrev main_v1487 : Ref sig .tc := ⟨.hbm, 2481, rfl⟩
abbrev main_v1488 : Ref sig .tc := ⟨.hbm, 2482, rfl⟩
abbrev main_c_693 : Ref sig .tc := ⟨.hbm, 2483, rfl⟩
abbrev main_v1489 : Ref sig .tc := ⟨.hbm, 2484, rfl⟩
abbrev main_v1490 : Ref sig .tc := ⟨.hbm, 2485, rfl⟩
abbrev main_v1491 : Ref sig .tc := ⟨.hbm, 2486, rfl⟩
abbrev main_v1492 : Ref sig .tc := ⟨.hbm, 2487, rfl⟩
abbrev main_call137_call0_c : Ref sig .tc := ⟨.hbm, 2488, rfl⟩
abbrev main_call137_call0_v0 : Ref sig .tc := ⟨.hbm, 2489, rfl⟩
abbrev main_v1493 : Ref sig .tc := ⟨.hbm, 2490, rfl⟩
abbrev main_v1494 : Ref sig .tc := ⟨.hbm, 2491, rfl⟩
abbrev main_v1495 : Ref sig .tc := ⟨.hbm, 2492, rfl⟩
abbrev main_c_694 : Ref sig .tc := ⟨.hbm, 2493, rfl⟩
abbrev main_v1496 : Ref sig .tc := ⟨.hbm, 2494, rfl⟩
abbrev main_v1497 : Ref sig .tc := ⟨.hbm, 2495, rfl⟩
abbrev main_call138_v0 : Ref sig .tc := ⟨.hbm, 2496, rfl⟩
abbrev main_call138_c : Ref sig .tc := ⟨.hbm, 2497, rfl⟩
abbrev main_call138_c_0 : Ref sig .tc := ⟨.hbm, 2498, rfl⟩
abbrev main_call138_v1_0 : Ref sig .tc := ⟨.hbm, 2499, rfl⟩
abbrev main_v1498 : Ref sig .tc := ⟨.hbm, 2500, rfl⟩
abbrev main_c_695 : Ref sig .tc := ⟨.hbm, 2501, rfl⟩
abbrev main_v1499 : Ref sig .tc := ⟨.hbm, 2502, rfl⟩
abbrev main_v1500 : Ref sig .tc := ⟨.hbm, 2503, rfl⟩
abbrev main_call139_v0 : Ref sig .tc := ⟨.hbm, 2504, rfl⟩
abbrev main_call139_c : Ref sig .tc := ⟨.hbm, 2505, rfl⟩
abbrev main_call139_c_0 : Ref sig .tc := ⟨.hbm, 2506, rfl⟩
abbrev main_call139_v1_0 : Ref sig .tc := ⟨.hbm, 2507, rfl⟩
abbrev main_v1501 : Ref sig .tc := ⟨.hbm, 2508, rfl⟩
abbrev main_c_696 : Ref sig .tc := ⟨.hbm, 2509, rfl⟩
abbrev main_v1502 : Ref sig .tc := ⟨.hbm, 2510, rfl⟩
abbrev main_v1503 : Ref sig .tc := ⟨.hbm, 2511, rfl⟩
abbrev main_call140_v0 : Ref sig .tc := ⟨.hbm, 2512, rfl⟩
abbrev main_call140_c : Ref sig .tc := ⟨.hbm, 2513, rfl⟩
abbrev main_call140_c_0 : Ref sig .tc := ⟨.hbm, 2514, rfl⟩
abbrev main_call140_v1_0 : Ref sig .tc := ⟨.hbm, 2515, rfl⟩
abbrev main_v1504 : Ref sig .tc := ⟨.hbm, 2516, rfl⟩
abbrev main_c_697 : Ref sig .tc := ⟨.hbm, 2517, rfl⟩
abbrev main_v1505 : Ref sig .tc := ⟨.hbm, 2518, rfl⟩
abbrev main_c_698 : Ref sig .tc := ⟨.hbm, 2519, rfl⟩
abbrev main_v1506 : Ref sig .tc := ⟨.hbm, 2520, rfl⟩
abbrev main_v1507 : Ref sig .tc := ⟨.hbm, 2521, rfl⟩
abbrev main_c_699 : Ref sig .tc := ⟨.hbm, 2522, rfl⟩
abbrev main_c_700 : Ref sig .tc := ⟨.hbm, 2523, rfl⟩
abbrev main_v1508 : Ref sig .tc := ⟨.hbm, 2524, rfl⟩
abbrev main_c_701 : Ref sig .tc := ⟨.hbm, 2525, rfl⟩
abbrev main_c_702 : Ref sig .tc := ⟨.hbm, 2526, rfl⟩
abbrev main_v1509 : Ref sig .tc := ⟨.hbm, 2527, rfl⟩
abbrev main_c_703 : Ref sig .tc := ⟨.hbm, 2528, rfl⟩
abbrev main_v1510 : Ref sig .tc := ⟨.hbm, 2529, rfl⟩
abbrev main_v1511 : Ref sig .tc := ⟨.hbm, 2530, rfl⟩
abbrev main_v1512 : Ref sig .tc := ⟨.hbm, 2531, rfl⟩
abbrev main_c_704 : Ref sig .tc := ⟨.hbm, 2532, rfl⟩
abbrev main_v1513 : Ref sig .tc := ⟨.hbm, 2533, rfl⟩
abbrev main_c_705 : Ref sig .tc := ⟨.hbm, 2534, rfl⟩
abbrev main_v1514 : Ref sig .tc := ⟨.hbm, 2535, rfl⟩
abbrev main_v1515 : Ref sig .tc := ⟨.hbm, 2536, rfl⟩
abbrev main_c_706 : Ref sig .tc := ⟨.hbm, 2537, rfl⟩
abbrev main_c_707 : Ref sig .tc := ⟨.hbm, 2538, rfl⟩
abbrev main_v1516 : Ref sig .tc := ⟨.hbm, 2539, rfl⟩
abbrev main_c_708 : Ref sig .tc := ⟨.hbm, 2540, rfl⟩
abbrev main_c_709 : Ref sig .tc := ⟨.hbm, 2541, rfl⟩
abbrev main_v1517 : Ref sig .tc := ⟨.hbm, 2542, rfl⟩
abbrev main_c_710 : Ref sig .tc := ⟨.hbm, 2543, rfl⟩
abbrev main_v1518 : Ref sig .tc := ⟨.hbm, 2544, rfl⟩
abbrev main_v1519 : Ref sig .tc := ⟨.hbm, 2545, rfl⟩
abbrev main_v1520 : Ref sig .tc := ⟨.hbm, 2546, rfl⟩
abbrev main_v1521 : Ref sig .tc := ⟨.hbm, 2547, rfl⟩
abbrev main_c_711 : Ref sig .tc := ⟨.hbm, 2548, rfl⟩
abbrev main_v1522 : Ref sig .tc := ⟨.hbm, 2549, rfl⟩
abbrev main_c_712 : Ref sig .tc := ⟨.hbm, 2550, rfl⟩
abbrev main_v1523 : Ref sig .tc := ⟨.hbm, 2551, rfl⟩
abbrev main_v1524 : Ref sig .tc := ⟨.hbm, 2552, rfl⟩
abbrev main_c_713 : Ref sig .tc := ⟨.hbm, 2553, rfl⟩
abbrev main_c_714 : Ref sig .tc := ⟨.hbm, 2554, rfl⟩
abbrev main_v1525 : Ref sig .tc := ⟨.hbm, 2555, rfl⟩
abbrev main_c_715 : Ref sig .tc := ⟨.hbm, 2556, rfl⟩
abbrev main_c_716 : Ref sig .tc := ⟨.hbm, 2557, rfl⟩
abbrev main_v1526 : Ref sig .tc := ⟨.hbm, 2558, rfl⟩
abbrev main_c_717 : Ref sig .tc := ⟨.hbm, 2559, rfl⟩
abbrev main_v1527 : Ref sig .tc := ⟨.hbm, 2560, rfl⟩
abbrev main_v1528 : Ref sig .tc := ⟨.hbm, 2561, rfl⟩
abbrev main_v1529 : Ref sig .tc := ⟨.hbm, 2562, rfl⟩
abbrev main_cst_718 : Ref sig .tc := ⟨.hbm, 2563, rfl⟩
abbrev main_v1530 : Ref sig .tc := ⟨.hbm, 2564, rfl⟩
abbrev main_v1531 : Ref sig .tc := ⟨.hbm, 2565, rfl⟩
abbrev main_v1532 : Ref sig .tc := ⟨.hbm, 2566, rfl⟩
abbrev main_v1533 : Ref sig .tc := ⟨.hbm, 2567, rfl⟩
abbrev main_v1534 : Ref sig .tc := ⟨.hbm, 2568, rfl⟩
abbrev main_v1535 : Ref sig .tc := ⟨.hbm, 2569, rfl⟩
abbrev main_v1536 : Ref sig .tc := ⟨.hbm, 2570, rfl⟩
abbrev main_v1537 : Ref sig .tc := ⟨.hbm, 2571, rfl⟩
abbrev main_v1538 : Ref sig .tc := ⟨.hbm, 2572, rfl⟩
abbrev main_v1539 : Ref sig .tc := ⟨.hbm, 2573, rfl⟩
abbrev main_cst_719 : Ref sig .tc := ⟨.hbm, 2574, rfl⟩
abbrev main_v1540 : Ref sig .tc := ⟨.hbm, 2575, rfl⟩
abbrev main_c_720 : Ref sig .tc := ⟨.hbm, 2576, rfl⟩
abbrev main_v1541 : Ref sig .tc := ⟨.hbm, 2577, rfl⟩
abbrev main_cst_721 : Ref sig .tc := ⟨.hbm, 2578, rfl⟩
abbrev main_v1542 : Ref sig .tc := ⟨.hbm, 2579, rfl⟩
abbrev main_v1543 : Ref sig .tc := ⟨.hbm, 2580, rfl⟩
abbrev main_c_722 : Ref sig .tc := ⟨.hbm, 2581, rfl⟩
abbrev main_v1544 : Ref sig .tc := ⟨.hbm, 2582, rfl⟩
abbrev main_v1545 : Ref sig .tc := ⟨.hbm, 2583, rfl⟩
abbrev main_c_723 : Ref sig .tc := ⟨.hbm, 2584, rfl⟩
abbrev main_v1546 : Ref sig .tc := ⟨.hbm, 2585, rfl⟩
abbrev main_v1547 : Ref sig .tc := ⟨.hbm, 2586, rfl⟩
abbrev main_v1548 : Ref sig .tc := ⟨.hbm, 2587, rfl⟩
abbrev main_c_724 : Ref sig .tc := ⟨.hbm, 2588, rfl⟩
abbrev main_v1549 : Ref sig .tc := ⟨.hbm, 2589, rfl⟩
abbrev main_v1550 : Ref sig .tc := ⟨.hbm, 2590, rfl⟩
abbrev main_v1551 : Ref sig .tc := ⟨.hbm, 2591, rfl⟩
abbrev main_v1552 : Ref sig .tc := ⟨.hbm, 2592, rfl⟩
abbrev main_call143_call0_c : Ref sig .tc := ⟨.hbm, 2593, rfl⟩
abbrev main_call143_call0_v0 : Ref sig .tc := ⟨.hbm, 2594, rfl⟩
abbrev main_v1553 : Ref sig .tc := ⟨.hbm, 2595, rfl⟩
abbrev main_v1554 : Ref sig .tc := ⟨.hbm, 2596, rfl⟩
abbrev main_v1555 : Ref sig .tc := ⟨.hbm, 2597, rfl⟩
abbrev main_c_725 : Ref sig .tc := ⟨.hbm, 2598, rfl⟩
abbrev main_v1556 : Ref sig .tc := ⟨.hbm, 2599, rfl⟩
abbrev main_v1557 : Ref sig .tc := ⟨.hbm, 2600, rfl⟩
abbrev main_call144_v0 : Ref sig .tc := ⟨.hbm, 2601, rfl⟩
abbrev main_call144_c : Ref sig .tc := ⟨.hbm, 2602, rfl⟩
abbrev main_call144_c_0 : Ref sig .tc := ⟨.hbm, 2603, rfl⟩
abbrev main_call144_v1_0 : Ref sig .tc := ⟨.hbm, 2604, rfl⟩
abbrev main_v1558 : Ref sig .tc := ⟨.hbm, 2605, rfl⟩
abbrev main_c_726 : Ref sig .tc := ⟨.hbm, 2606, rfl⟩
abbrev main_v1559 : Ref sig .tc := ⟨.hbm, 2607, rfl⟩
abbrev main_v1560 : Ref sig .tc := ⟨.hbm, 2608, rfl⟩
abbrev main_call145_v0 : Ref sig .tc := ⟨.hbm, 2609, rfl⟩
abbrev main_call145_c : Ref sig .tc := ⟨.hbm, 2610, rfl⟩
abbrev main_call145_c_0 : Ref sig .tc := ⟨.hbm, 2611, rfl⟩
abbrev main_call145_v1_0 : Ref sig .tc := ⟨.hbm, 2612, rfl⟩
abbrev main_v1561 : Ref sig .tc := ⟨.hbm, 2613, rfl⟩
abbrev main_c_727 : Ref sig .tc := ⟨.hbm, 2614, rfl⟩
abbrev main_v1562 : Ref sig .tc := ⟨.hbm, 2615, rfl⟩
abbrev main_v1563 : Ref sig .tc := ⟨.hbm, 2616, rfl⟩
abbrev main_call146_v0 : Ref sig .tc := ⟨.hbm, 2617, rfl⟩
abbrev main_call146_c : Ref sig .tc := ⟨.hbm, 2618, rfl⟩
abbrev main_call146_c_0 : Ref sig .tc := ⟨.hbm, 2619, rfl⟩
abbrev main_call146_v1_0 : Ref sig .tc := ⟨.hbm, 2620, rfl⟩
abbrev main_v1564 : Ref sig .tc := ⟨.hbm, 2621, rfl⟩
abbrev main_c_728 : Ref sig .tc := ⟨.hbm, 2622, rfl⟩
abbrev main_v1565 : Ref sig .tc := ⟨.hbm, 2623, rfl⟩
abbrev main_c_729 : Ref sig .tc := ⟨.hbm, 2624, rfl⟩
abbrev main_v1566 : Ref sig .tc := ⟨.hbm, 2625, rfl⟩
abbrev main_v1567 : Ref sig .tc := ⟨.hbm, 2626, rfl⟩
abbrev main_c_730 : Ref sig .tc := ⟨.hbm, 2627, rfl⟩
abbrev main_c_731 : Ref sig .tc := ⟨.hbm, 2628, rfl⟩
abbrev main_v1568 : Ref sig .tc := ⟨.hbm, 2629, rfl⟩
abbrev main_c_732 : Ref sig .tc := ⟨.hbm, 2630, rfl⟩
abbrev main_c_733 : Ref sig .tc := ⟨.hbm, 2631, rfl⟩
abbrev main_v1569 : Ref sig .tc := ⟨.hbm, 2632, rfl⟩
abbrev main_c_734 : Ref sig .tc := ⟨.hbm, 2633, rfl⟩
abbrev main_v1570 : Ref sig .tc := ⟨.hbm, 2634, rfl⟩
abbrev main_v1571 : Ref sig .tc := ⟨.hbm, 2635, rfl⟩
abbrev main_v1572 : Ref sig .tc := ⟨.hbm, 2636, rfl⟩
abbrev main_c_735 : Ref sig .tc := ⟨.hbm, 2637, rfl⟩
abbrev main_v1573 : Ref sig .tc := ⟨.hbm, 2638, rfl⟩
abbrev main_c_736 : Ref sig .tc := ⟨.hbm, 2639, rfl⟩
abbrev main_v1574 : Ref sig .tc := ⟨.hbm, 2640, rfl⟩
abbrev main_v1575 : Ref sig .tc := ⟨.hbm, 2641, rfl⟩
abbrev main_c_737 : Ref sig .tc := ⟨.hbm, 2642, rfl⟩
abbrev main_c_738 : Ref sig .tc := ⟨.hbm, 2643, rfl⟩
abbrev main_v1576 : Ref sig .tc := ⟨.hbm, 2644, rfl⟩
abbrev main_c_739 : Ref sig .tc := ⟨.hbm, 2645, rfl⟩
abbrev main_c_740 : Ref sig .tc := ⟨.hbm, 2646, rfl⟩
abbrev main_v1577 : Ref sig .tc := ⟨.hbm, 2647, rfl⟩
abbrev main_c_741 : Ref sig .tc := ⟨.hbm, 2648, rfl⟩
abbrev main_v1578 : Ref sig .tc := ⟨.hbm, 2649, rfl⟩
abbrev main_v1579 : Ref sig .tc := ⟨.hbm, 2650, rfl⟩
abbrev main_v1580 : Ref sig .tc := ⟨.hbm, 2651, rfl⟩
abbrev main_v1581 : Ref sig .tc := ⟨.hbm, 2652, rfl⟩
abbrev main_c_742 : Ref sig .tc := ⟨.hbm, 2653, rfl⟩
abbrev main_v1582 : Ref sig .tc := ⟨.hbm, 2654, rfl⟩
abbrev main_c_743 : Ref sig .tc := ⟨.hbm, 2655, rfl⟩
abbrev main_v1583 : Ref sig .tc := ⟨.hbm, 2656, rfl⟩
abbrev main_v1584 : Ref sig .tc := ⟨.hbm, 2657, rfl⟩
abbrev main_c_744 : Ref sig .tc := ⟨.hbm, 2658, rfl⟩
abbrev main_c_745 : Ref sig .tc := ⟨.hbm, 2659, rfl⟩
abbrev main_v1585 : Ref sig .tc := ⟨.hbm, 2660, rfl⟩
abbrev main_c_746 : Ref sig .tc := ⟨.hbm, 2661, rfl⟩
abbrev main_c_747 : Ref sig .tc := ⟨.hbm, 2662, rfl⟩
abbrev main_v1586 : Ref sig .tc := ⟨.hbm, 2663, rfl⟩
abbrev main_c_748 : Ref sig .tc := ⟨.hbm, 2664, rfl⟩
abbrev main_v1587 : Ref sig .tc := ⟨.hbm, 2665, rfl⟩
abbrev main_v1588 : Ref sig .tc := ⟨.hbm, 2666, rfl⟩
abbrev main_v1589 : Ref sig .tc := ⟨.hbm, 2667, rfl⟩
abbrev main_cst_749 : Ref sig .tc := ⟨.hbm, 2668, rfl⟩
abbrev main_v1590 : Ref sig .tc := ⟨.hbm, 2669, rfl⟩
abbrev main_v1591 : Ref sig .tc := ⟨.hbm, 2670, rfl⟩
abbrev main_v1592 : Ref sig .tc := ⟨.hbm, 2671, rfl⟩
abbrev main_v1593 : Ref sig .tc := ⟨.hbm, 2672, rfl⟩
abbrev main_v1594 : Ref sig .tc := ⟨.hbm, 2673, rfl⟩
abbrev main_v1595 : Ref sig .tc := ⟨.hbm, 2674, rfl⟩
abbrev main_v1596 : Ref sig .tc := ⟨.hbm, 2675, rfl⟩
abbrev main_v1597 : Ref sig .tc := ⟨.hbm, 2676, rfl⟩
abbrev main_v1598 : Ref sig .tc := ⟨.hbm, 2677, rfl⟩
abbrev main_v1599 : Ref sig .tc := ⟨.hbm, 2678, rfl⟩
abbrev main_cst_750 : Ref sig .tc := ⟨.hbm, 2679, rfl⟩
abbrev main_v1600 : Ref sig .tc := ⟨.hbm, 2680, rfl⟩
abbrev main_c_751 : Ref sig .tc := ⟨.hbm, 2681, rfl⟩
abbrev main_v1601 : Ref sig .tc := ⟨.hbm, 2682, rfl⟩
abbrev main_cst_752 : Ref sig .tc := ⟨.hbm, 2683, rfl⟩
abbrev main_v1602 : Ref sig .tc := ⟨.hbm, 2684, rfl⟩
abbrev main_v1603 : Ref sig .tc := ⟨.hbm, 2685, rfl⟩
abbrev main_c_753 : Ref sig .tc := ⟨.hbm, 2686, rfl⟩
abbrev main_v1604 : Ref sig .tc := ⟨.hbm, 2687, rfl⟩
abbrev main_v1605 : Ref sig .tc := ⟨.hbm, 2688, rfl⟩
abbrev main_c_754 : Ref sig .tc := ⟨.hbm, 2689, rfl⟩
abbrev main_v1606 : Ref sig .tc := ⟨.hbm, 2690, rfl⟩
abbrev main_v1607 : Ref sig .tc := ⟨.hbm, 2691, rfl⟩
abbrev main_v1608 : Ref sig .tc := ⟨.hbm, 2692, rfl⟩
abbrev main_c_755 : Ref sig .tc := ⟨.hbm, 2693, rfl⟩
abbrev main_v1609 : Ref sig .tc := ⟨.hbm, 2694, rfl⟩
abbrev main_v1610 : Ref sig .tc := ⟨.hbm, 2695, rfl⟩
abbrev main_v1611 : Ref sig .tc := ⟨.hbm, 2696, rfl⟩
abbrev main_v1612 : Ref sig .tc := ⟨.hbm, 2697, rfl⟩
abbrev main_call149_call0_c : Ref sig .tc := ⟨.hbm, 2698, rfl⟩
abbrev main_call149_call0_v0 : Ref sig .tc := ⟨.hbm, 2699, rfl⟩
abbrev main_v1613 : Ref sig .tc := ⟨.hbm, 2700, rfl⟩
abbrev main_v1614 : Ref sig .tc := ⟨.hbm, 2701, rfl⟩
abbrev main_v1615 : Ref sig .tc := ⟨.hbm, 2702, rfl⟩
abbrev main_c_756 : Ref sig .tc := ⟨.hbm, 2703, rfl⟩
abbrev main_v1616 : Ref sig .tc := ⟨.hbm, 2704, rfl⟩
abbrev main_v1617 : Ref sig .tc := ⟨.hbm, 2705, rfl⟩
abbrev main_call150_v0 : Ref sig .tc := ⟨.hbm, 2706, rfl⟩
abbrev main_call150_c : Ref sig .tc := ⟨.hbm, 2707, rfl⟩
abbrev main_call150_c_0 : Ref sig .tc := ⟨.hbm, 2708, rfl⟩
abbrev main_call150_v1_0 : Ref sig .tc := ⟨.hbm, 2709, rfl⟩
abbrev main_v1618 : Ref sig .tc := ⟨.hbm, 2710, rfl⟩
abbrev main_c_757 : Ref sig .tc := ⟨.hbm, 2711, rfl⟩
abbrev main_v1619 : Ref sig .tc := ⟨.hbm, 2712, rfl⟩
abbrev main_v1620 : Ref sig .tc := ⟨.hbm, 2713, rfl⟩
abbrev main_call151_v0 : Ref sig .tc := ⟨.hbm, 2714, rfl⟩
abbrev main_call151_c : Ref sig .tc := ⟨.hbm, 2715, rfl⟩
abbrev main_call151_c_0 : Ref sig .tc := ⟨.hbm, 2716, rfl⟩
abbrev main_call151_v1_0 : Ref sig .tc := ⟨.hbm, 2717, rfl⟩
abbrev main_v1621 : Ref sig .tc := ⟨.hbm, 2718, rfl⟩
abbrev main_c_758 : Ref sig .tc := ⟨.hbm, 2719, rfl⟩
abbrev main_v1622 : Ref sig .tc := ⟨.hbm, 2720, rfl⟩
abbrev main_v1623 : Ref sig .tc := ⟨.hbm, 2721, rfl⟩
abbrev main_call152_v0 : Ref sig .tc := ⟨.hbm, 2722, rfl⟩
abbrev main_call152_c : Ref sig .tc := ⟨.hbm, 2723, rfl⟩
abbrev main_call152_c_0 : Ref sig .tc := ⟨.hbm, 2724, rfl⟩
abbrev main_call152_v1_0 : Ref sig .tc := ⟨.hbm, 2725, rfl⟩
abbrev main_v1624 : Ref sig .tc := ⟨.hbm, 2726, rfl⟩
abbrev main_c_759 : Ref sig .tc := ⟨.hbm, 2727, rfl⟩
abbrev main_v1625 : Ref sig .tc := ⟨.hbm, 2728, rfl⟩
abbrev main_c_760 : Ref sig .tc := ⟨.hbm, 2729, rfl⟩
abbrev main_v1626 : Ref sig .tc := ⟨.hbm, 2730, rfl⟩
abbrev main_v1627 : Ref sig .tc := ⟨.hbm, 2731, rfl⟩
abbrev main_c_761 : Ref sig .tc := ⟨.hbm, 2732, rfl⟩
abbrev main_c_762 : Ref sig .tc := ⟨.hbm, 2733, rfl⟩
abbrev main_v1628 : Ref sig .tc := ⟨.hbm, 2734, rfl⟩
abbrev main_c_763 : Ref sig .tc := ⟨.hbm, 2735, rfl⟩
abbrev main_c_764 : Ref sig .tc := ⟨.hbm, 2736, rfl⟩
abbrev main_v1629 : Ref sig .tc := ⟨.hbm, 2737, rfl⟩
abbrev main_c_765 : Ref sig .tc := ⟨.hbm, 2738, rfl⟩
abbrev main_v1630 : Ref sig .tc := ⟨.hbm, 2739, rfl⟩
abbrev main_v1631 : Ref sig .tc := ⟨.hbm, 2740, rfl⟩
abbrev main_v1632 : Ref sig .tc := ⟨.hbm, 2741, rfl⟩
abbrev main_c_766 : Ref sig .tc := ⟨.hbm, 2742, rfl⟩
abbrev main_v1633 : Ref sig .tc := ⟨.hbm, 2743, rfl⟩
abbrev main_c_767 : Ref sig .tc := ⟨.hbm, 2744, rfl⟩
abbrev main_v1634 : Ref sig .tc := ⟨.hbm, 2745, rfl⟩
abbrev main_v1635 : Ref sig .tc := ⟨.hbm, 2746, rfl⟩
abbrev main_c_768 : Ref sig .tc := ⟨.hbm, 2747, rfl⟩
abbrev main_c_769 : Ref sig .tc := ⟨.hbm, 2748, rfl⟩
abbrev main_v1636 : Ref sig .tc := ⟨.hbm, 2749, rfl⟩
abbrev main_c_770 : Ref sig .tc := ⟨.hbm, 2750, rfl⟩
abbrev main_c_771 : Ref sig .tc := ⟨.hbm, 2751, rfl⟩
abbrev main_v1637 : Ref sig .tc := ⟨.hbm, 2752, rfl⟩
abbrev main_c_772 : Ref sig .tc := ⟨.hbm, 2753, rfl⟩
abbrev main_v1638 : Ref sig .tc := ⟨.hbm, 2754, rfl⟩
abbrev main_v1639 : Ref sig .tc := ⟨.hbm, 2755, rfl⟩
abbrev main_v1640 : Ref sig .tc := ⟨.hbm, 2756, rfl⟩
abbrev main_v1641 : Ref sig .tc := ⟨.hbm, 2757, rfl⟩
abbrev main_c_773 : Ref sig .tc := ⟨.hbm, 2758, rfl⟩
abbrev main_v1642 : Ref sig .tc := ⟨.hbm, 2759, rfl⟩
abbrev main_c_774 : Ref sig .tc := ⟨.hbm, 2760, rfl⟩
abbrev main_v1643 : Ref sig .tc := ⟨.hbm, 2761, rfl⟩
abbrev main_v1644 : Ref sig .tc := ⟨.hbm, 2762, rfl⟩
abbrev main_c_775 : Ref sig .tc := ⟨.hbm, 2763, rfl⟩
abbrev main_c_776 : Ref sig .tc := ⟨.hbm, 2764, rfl⟩
abbrev main_v1645 : Ref sig .tc := ⟨.hbm, 2765, rfl⟩
abbrev main_c_777 : Ref sig .tc := ⟨.hbm, 2766, rfl⟩
abbrev main_c_778 : Ref sig .tc := ⟨.hbm, 2767, rfl⟩
abbrev main_v1646 : Ref sig .tc := ⟨.hbm, 2768, rfl⟩
abbrev main_c_779 : Ref sig .tc := ⟨.hbm, 2769, rfl⟩
abbrev main_v1647 : Ref sig .tc := ⟨.hbm, 2770, rfl⟩
abbrev main_v1648 : Ref sig .tc := ⟨.hbm, 2771, rfl⟩
abbrev main_v1649 : Ref sig .tc := ⟨.hbm, 2772, rfl⟩
abbrev main_cst_780 : Ref sig .tc := ⟨.hbm, 2773, rfl⟩
abbrev main_v1650 : Ref sig .tc := ⟨.hbm, 2774, rfl⟩
abbrev main_v1651 : Ref sig .tc := ⟨.hbm, 2775, rfl⟩
abbrev main_v1652 : Ref sig .tc := ⟨.hbm, 2776, rfl⟩
abbrev main_v1653 : Ref sig .tc := ⟨.hbm, 2777, rfl⟩
abbrev main_v1654 : Ref sig .tc := ⟨.hbm, 2778, rfl⟩
abbrev main_v1655 : Ref sig .tc := ⟨.hbm, 2779, rfl⟩
abbrev main_v1656 : Ref sig .tc := ⟨.hbm, 2780, rfl⟩
abbrev main_v1657 : Ref sig .tc := ⟨.hbm, 2781, rfl⟩
abbrev main_v1658 : Ref sig .tc := ⟨.hbm, 2782, rfl⟩
abbrev main_v1659 : Ref sig .tc := ⟨.hbm, 2783, rfl⟩
abbrev main_cst_781 : Ref sig .tc := ⟨.hbm, 2784, rfl⟩
abbrev main_v1660 : Ref sig .tc := ⟨.hbm, 2785, rfl⟩
abbrev main_c_782 : Ref sig .tc := ⟨.hbm, 2786, rfl⟩
abbrev main_v1661 : Ref sig .tc := ⟨.hbm, 2787, rfl⟩
abbrev main_cst_783 : Ref sig .tc := ⟨.hbm, 2788, rfl⟩
abbrev main_v1662 : Ref sig .tc := ⟨.hbm, 2789, rfl⟩
abbrev main_v1663 : Ref sig .tc := ⟨.hbm, 2790, rfl⟩

abbrev nD : Nat := 1
abbrev τ : Topo := Topo.v7x

variable {F : FTy → Type} [FloatOps F]

class Facts₀ : Prop where
  slices_S4194304x2_S4194304x1_0_0 : S4194304x2.Slices ![0, 0] S4194304x1
  shapeCasts_S4194304x1_S4194304 : S4194304x1.ShapeCasts S4194304
  slices_S4194304x2_S4194304x1_0_1 : S4194304x2.Slices ![0, 1] S4194304x1
  bcast_S_S4194304 : S_.BroadcastsInDim S4194304 (![] : Fin 0 → Fin S4194304.rank)
  reducesTo_S4194304_S_d0 : S4194304.ReducesTo [0] S_
  h_S_ : 0 < S_.numel
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  slices_S4194304_S1_4194303 : S4194304.Slices ![4194303] S1
  shapeCasts_S1_S_ : S1.ShapeCasts S_
  sliceFits_S4194304x2_S1x2 : S4194304x2.Slices (fun _ => 0) S1x2
  shapeCasts_S1x2_S2 : S1x2.ShapeCasts S2
  bcast_S_S2 : S_.BroadcastsInDim S2 (![] : Fin 0 → Fin S2.rank)
  reducesTo_S2_S_d0 : S2.ReducesTo [0] S_

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.KB.Runs.lean ====
/- What the two runs of the kernel's body share: the condition of the reset (the body's one `scf.if`, on the grid
   coordinate) in closed form over the sixteen points; the view through which the output block's contents are
   stated; and the staging memrefs the pipeline hands the body at a point, each a whole buffer. -/
import proofs.«404644_j25400436588780_1_alg».proof.Proof.Gen.Kernel.Skeleton
import proofs.«404644_j25400436588780_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The reset's condition -/

/-- The condition under which the body resets the accumulator: the grid coordinate is zero, as the body computes it
    (compare with zero, widen, compare the word with zero). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- The one staging buffer of the output window, through which the accumulator's contents are stated (any whole
    view of the shape reads the same vector back). -/
abbrev VO0_9 : View sig .tc .vmem S1x1 .f32 := (Memref.whole cc0_stg9_0 : Memref sig .tc .vmem S1x1 .f32).view
/-- Each window's current staging memref at point `t`, as the pipeline passes it to the body, and its wholeness. -/
abbrev ms0_0 (t : Fin cfg0.N) : Memref sig .tc .vmem S262144 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S262144 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S262144 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S262144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S262144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S262144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S262144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S262144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S262144 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

end Cert.Kernel.Fr

end
-- ==== Proof.KB.RunA.lean ====
/- The run of the kernel's whole body at the grid's first point, where the accumulator is reset:
   the body's triple over its memory operations, the arithmetic left behind the payload names; the pieces the output's
   buffer ends with are the witness the run finds. -/
import proofs.«404644_j25400436588780_1_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE BODY AT THE FIRST POINT (the reset taken). What the body's stores leave in the output's staging memref, as
    pieces (last first), WITH the proof that on whole staging memrefs — the nine inputs' at their contents, the output's at
    anything — the body runs to the continuation holding the inputs' as they were and the output's with the pieces
    written: the reset's store of the zero block, then the store of the zero block read back plus the point's fourteen
    masked sums. -/
noncomputable def kernelRun0_A (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) :
    { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.Kernel.Fr

end
-- ==== Proof.KB.RunB.lean ====
/- The run of the kernel's whole body at a point after the first, where the accumulator carries over:
   the body's triple over its memory operations, the arithmetic left behind the payload names; the pieces the output's
   buffer ends with are the witness the run finds. -/
import proofs.«404644_j25400436588780_1_alg».proof.Proof.KB.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE BODY AT A LATER POINT (the reset not taken). What the body's store leaves in the output's staging memref, as
    pieces, WITH the proof that on whole staging memrefs — the nine inputs' at their contents, the output's at the running
    contents `xo9` — the body runs to the continuation holding the inputs' as they were and the output's with the piece
    written: the running contents plus the point's fourteen masked sums. -/
noncomputable def kernelRun0_B (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) :
    { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.Kernel.Fr

end
-- ==== Proof.KB.HostLate.lean ====
/- Operations that run after the kernel region: each allocates nothing and writes exactly one buffer, and that buffer
   is neither an array the region stages nor an argument of the program. The facts about such an operation, stated
   once, so that a stretch of operations needs only be recognised as a list of them. -/
import proofs.«404644_j25400436588780_1_alg».proof.Proof.Gen.Kernel
import Idealize.ShloMosaic.Lib.Pipeline.FrameSuffix
import Idealize.ShloMosaic.Lib.StableHlo.Run

set_option maxRecDepth 16384

noncomputable section

namespace Cert.Kernel.Fr

open Idealize.ShloMosaic Idealize.ShloMosaic.TcCoe
open Cert.Kernel Cert.Kernel.Gen

variable {F : FTy → Type} [FloatOps F]

/-- The arrays the region's ten windows stage, as references: the nine operands and the result of the call. -/
def arrs : List (Ref sig .tc) :=
  [main_v25, main_v51, main_v77, main_v79, main_v81, main_v83, main_v85, main_v87, main_v89, main_v90]

/-- The program's seven arguments, as references. -/
def args : List (Ref sig .tc) :=
  [main_arg0, main_arg1, main_arg2, main_arg3, main_arg4, main_arg5, main_arg6]

/-- Every window's array is one of the arrays. -/
theorem arrRef_mem_arrs (w : Fin 10) : Pipeline.arrRef spec0 w ∈ arrs := by
  fin_cases w <;> decide

/-- An operation that allocates nothing and writes one buffer `y`, which is neither an array of the region nor an
    argument of the program. -/
inductive Late : HloOp τ sig (Elt F) → Prop
  | mk {op : HloOp τ sig (Elt F)} (y : Ref sig .tc) (hf : op.fresh = ∅) (hw : op.writes = {Proc.devRef .tc y})
      (hy : y ∉ arrs ++ args) : Late op

/-- Such an operation allocates nothing. -/
theorem Late.fresh_eq {op : HloOp τ sig (Elt F)} (h : Late op) : op.fresh = ∅ := by
  cases h with | mk y hf hw hy => exact hf

/-- Such an operation writes no array of the region and no argument: the one buffer it writes is a different
    reference, and distinct references are distinct device buffers. -/
theorem Late.keeps_ref {op : HloOp τ sig (Elt F)} (h : Late op) {b : Ref sig .tc} (hb : b ∈ arrs ++ args) :
    Proc.devRef .tc b ∉ op.writes := by
  cases h with
  | mk y hf hw hy =>
    rw [hw, Finset.mem_singleton]
    exact StableHlo.devRef_ne_of_ne (fun e => hy (e ▸ hb))

/-- In particular it writes no window's array. -/
theorem Late.keeps {op : HloOp τ sig (Elt F)} (h : Late op) (w : Fin 10) :
    Proc.devRef .tc (Pipeline.arrRef spec0 w) ∉ op.writes :=
  h.keeps_ref (List.mem_append_left _ (arrRef_mem_arrs w))

/-- A stretch is a list of such operations: split the list and recognise each operation by its one result. -/
macro "late_ops" : tactic =>
  `(tactic| (simp only [List.Forall]; repeat' (first | exact Late.mk _ rfl rfl (by decide) | constructor)))

end Cert.Kernel.Fr

end
-- ==== Proof.KB.HostA.lean ====
/- Cases: stretches hostOps1 .. hostOps1_89 after the region are lists of late operations. -/
import proofs.«404644_j25400436588780_1_alg».proof.Proof.KB.LaunchP
import proofs.«404644_j25400436588780_1_alg».proof.Proof.KB.HostLate

set_option maxRecDepth 16384

noncomputable section

namespace Cert.Kernel.Fr

open Idealize.ShloMosaic Idealize.ShloMosaic.TcCoe
open Cert.Kernel Cert.Kernel.Gen Cert.Kernel.GenP

variable {F : FTy → Type} [FloatOps F]

theorem late1 : (hostOps1 : List (HloOp τ sig (Elt F))).Forall Late := by late_ops
theorem late1_1 : (hostOps1_1 : List (HloOp τ sig (Elt F))).Forall Late := by late_ops
theorem late1_2 : (hostOps1_2 : List (HloOp τ sig (Elt F))).Forall Late := by late_ops
theorem late1_3 : (hostOps1_3 : List (HloOp τ sig (Elt F))).Forall Late := by late_ops
theorem late1_4 : (hostOps1_4 : List (HloOp τ sig (Elt F))).Forall Late := by late_ops
theorem late1_5 : (hostOps1_5 : List (HloOp τ sig (Elt F))).Forall Late := by late_ops
theorem late1_6 : (hostOps1_6 : List (HloOp τ sig (Elt F))).Forall Late := by late_ops
theorem late1_7 : (hostOps1_7 : List (HloOp τ sig (Elt F))).Forall Late := by late_ops
theorem late1_8 : (hostOps1_8 : List (HloOp τ sig (Elt F))).Forall Late := by late_ops
theorem late1_9 : (hostOps1_9 : List (HloOp τ sig (Elt F))).Forall Late := by late_ops
theorem late1_10 : (hostOps1_10 : List (HloOp τ sig (Elt F))).Forall Late := by late_ops
theorem late1_11 : (hostOps1_11 : List (HloOp τ sig (Elt F))).Forall Late := by late_ops
theorem late1_12 : (hostOps1_12 : List (HloOp τ sig (Elt F))).Forall Late := by late_ops
theorem late1_13 : (hostOps1_13 : List (HloOp τ sig (Elt F))).Forall Late := by late_ops
theorem late1_14 : (hostOps1_14 : List (HloOp τ sig (Elt F))).Forall Late := by late_ops
theorem late1_15 : (hostOps1_15 : List (HloOp τ sig (Elt F))).Forall Late := by late_ops
theorem late1_16 : (hostOps1_16 : List (HloOp τ sig (Elt F))).Forall Late := by late_ops
theorem late1_17 : (hostOps1_17 : List (HloOp τ sig (Elt F))).Forall Late := by late_ops
theorem late1_18 : (hostOps1_18 : List (HloOp τ sig (Elt F))).Forall Late := by late_ops
theorem late1_19 : (hostOps1_19 : List (HloOp τ sig (Elt F))).Forall Late := by late_ops
theorem late1_20 : (hostOps1_20 : List (HloOp τ sig (Elt F))).Forall Late := by late_ops
theorem late1_21 : (hostOps1_21 : List (HloOp τ sig (Elt F))).Forall Late := by late_ops
theorem late1_22 : (hostOps1_22 : List (HloOp τ sig (Elt F))).Forall Late := by late_ops
theorem late1_23 : (hostOps1_23 : List (HloOp τ sig (Elt F))).Forall Late := by late_ops
theorem late1_24 : (hostOps1_24 : List (HloOp τ sig (Elt F))).Forall Late := by late_ops
theorem late1_25 : (hostOps1_25 : List (HloOp τ sig (Elt F))).Forall Late := by late_ops
theorem late1_26 : (hostOps1_26 : List (HloOp τ sig (Elt F))).Forall Late := by late_ops
theorem late1_27 : (hostOps1_27 : List (HloOp τ sig (Elt F))).Forall Late := by late_ops
theorem late1_28 : (hostOps1_28 : List (HloOp τ sig (Elt F))).Forall Late := by late_ops
theorem late1_29 : (hostOps1_29 : List (HloOp τ sig (Elt F))).Forall Late := by late_ops
theorem late1_30 : (hostOps1_30 : List (HloOp τ sig (Elt F))).Forall Late := by late_ops
theorem late1_31 : (hostOps1_31 : List (HloOp τ sig (Elt F))).Forall Late := by late_ops
theorem late1_32 : (hostOps1_32 : List (HloOp τ sig (Elt F))).Forall Late := by late_ops
theorem late1_33 : (hostOps1_33 : List (HloOp τ sig (Elt F))).Forall Late := by late_ops
theorem late1_34 : (hostOps1_34 : List (HloOp τ sig (Elt F))).Forall Late := by late_ops
theorem late1_35 : (hostOps1_35 : List (HloOp τ sig (Elt F))).Forall Late := by late_ops
theorem late1_36 : (hostOps1_36 : List (HloOp τ sig (Elt F))).Forall Late := by late_ops
theorem late1_37 : (hostOps1_37 : List (HloOp τ sig (Elt F))).Forall Late := by late_ops
theorem late1_38 : (hostOps1_38 : List (HloOp τ sig (Elt F))).Forall Late := by late_ops
theorem late1_39 : (hostOps1_39 : List (HloOp τ sig (Elt F))).Forall Late := by late_ops
theorem late1_40 : (hostOps1_40 : List (HloOp τ sig (Elt F))).Forall Late := by late_ops
theorem late1_41 : (hostOps1_41 : List (HloOp τ sig (Elt F))).Forall Late := by late_ops
theorem late1_42 : (hostOps1_42 : List (HloOp τ sig (Elt F))).Forall Late := by late_ops
theorem late1_43 : (hostOps1_43 : List (HloOp τ sig (Elt F))).Forall Late := by late_ops
theorem late1_44 : (hostOps1_44 : List (HloOp τ sig (Elt F))).Forall Late := by late_ops
theorem late1_45 : (hostOps1_45 : List (HloOp τ sig (Elt F))).Forall Late := by late_ops
theorem late1_46 : (hostOps1_46 : List (HloOp τ sig (Elt F))).Forall Late := by late_ops
theorem late1_47 : (hostOps1_47 : List (HloOp τ sig (Elt F))).Forall Late := by late_ops
theorem late1_48 : (hostOps1_48 : List (HloOp τ sig (Elt F))).Forall Late := by late_ops
theorem late1_49 : (hostOps1_49 : List (HloOp τ sig (Elt F))).Forall Late := by late_ops
theorem late1_50 : (hostOps1_50 : List (HloOp τ sig (Elt F))).Forall Late := by late_ops
theorem late1_51 : (hostOps1_51 : List (HloOp τ sig (Elt F))).Forall Late := by late_ops
theorem late1_52 : (hostOps1_52 : List (HloOp τ sig (Elt F))).Forall Late := by late_ops
theorem late1_53 : (hostOps1_53 : List (HloOp τ sig (Elt F))).Forall Late := by late_ops
theorem late1_54 : (hostOps1_54 : List (HloOp τ sig (Elt F))).Forall Late := by late_ops
theorem late1_55 : (hostOps1_55 : List (HloOp τ sig (Elt F))).Forall Late := by late_ops
theorem late1_56 : (hostOps1_56 : List (HloOp τ sig (Elt F))).Forall Late := by late_ops
theorem late1_57 : (hostOps1_57 : List (HloOp τ sig (Elt F))).Forall Late := by late_ops
theorem late1_58 : (hostOps1_58 : List (HloOp τ sig (Elt F))).Forall Late := by late_ops
theorem late1_59 : (hostOps1_59 : List (HloOp τ sig (Elt F))).Forall Late := by late_ops
theorem late1_60 : (hostOps1_60 : List (HloOp τ sig (Elt F))).Forall Late := by late_ops
theorem late1_61 : (hostOps1_61 : List (HloOp τ sig (Elt F))).Forall Late := by late_ops
theorem late1_62 : (hostOps1_62 : List (HloOp τ sig (Elt F))).Forall Late := by late_ops
theorem late1_63 : (hostOps1_63 : List (HloOp τ sig (Elt F))).Forall Late := by late_ops
theorem late1_64 : (hostOps1_64 : List (HloOp τ sig (Elt F))).Forall Late := by late_ops
theorem late1_65 : (hostOps1_65 : List (HloOp τ sig (Elt F))).Forall Late := by late_ops
theorem late1_66 : (hostOps1_66 : List (HloOp τ sig (Elt F))).Forall Late := by late_ops
theorem late1_67 : (hostOps1_67 : List (HloOp τ sig (Elt F))).Forall Late := by late_ops
theorem late1_68 : (hostOps1_68 : List (HloOp τ sig (Elt F))).Forall Late := by late_ops
theorem late1_69 : (hostOps1_69 : List (HloOp τ sig (Elt F))).Forall Late := by late_ops
theorem late1_70 : (hostOps1_70 : List (HloOp τ sig (Elt F))).Forall Late := by late_ops
theorem late1_71 : (hostOps1_71 : List (HloOp τ sig (Elt F))).Forall Late := by late_ops
theorem late1_72 : (hostOps1_72 : List (HloOp τ sig (Elt F))).Forall Late := by late_ops
theorem late1_73 : (hostOps1_73 : List (HloOp τ sig (Elt F))).Forall Late := by late_ops
theorem late1_74 : (hostOps1_74 : List (HloOp τ sig (Elt F))).Forall Late := by late_ops
theorem late1_75 : (hostOps1_75 : List (HloOp τ sig (Elt F))).Forall Late := by late_ops
theorem late1_76 : (hostOps1_76 : List (HloOp τ sig (Elt F))).Forall Late := by late_ops
theorem late1_77 : (hostOps1_77 : List (HloOp τ sig (Elt F))).Forall Late := by late_ops
theorem late1_78 : (hostOps1_78 : List (HloOp τ sig (Elt F))).Forall Late := by late_ops
theorem late1_79 : (hostOps1_79 : List (HloOp τ sig (Elt F))).Forall Late := by late_ops
theorem late1_80 : (hostOps1_80 : List (HloOp τ sig (Elt F))).Forall Late := by late_ops
theorem late1_81 : (hostOps1_81 : List (HloOp τ sig (Elt F))).Forall Late := by late_ops
theorem late1_82 : (hostOps1_82 : List (HloOp τ sig (Elt F))).Forall Late := by late_ops
theorem late1_83 : (hostOps1_83 : List (HloOp τ sig (Elt F))).Forall Late := by late_ops
theorem late1_84 : (hostOps1_84 : List (HloOp τ sig (Elt F))).Forall Late := by late_ops
theorem late1_85 : (hostOps1_85 : List (HloOp τ sig (Elt F))).Forall Late := by late_ops
theorem late1_86 : (hostOps1_86 : List (HloOp τ sig (Elt F))).Forall Late := by late_ops
theorem late1_87 : (hostOps1_87 : List (HloOp τ sig (Elt F))).Forall Late := by late_ops
theorem late1_88 : (hostOps1_88 : List (HloOp τ sig (Elt F))).Forall Late := by late_ops
theorem late1_89 : (hostOps1_89 : List (HloOp τ sig (Elt F))).Forall Late := by late_ops

end Cert.Kernel.Fr

end
-- ==== Proof.KB.HostB.lean ====
/- Cases: stretches hostOps1_90 .. hostOps1_176 after the region are lists of late operations. -/
import proofs.«404644_j25400436588780_1_alg».proof.Proof.KB.LaunchP
import proofs.«404644_j25400436588780_1_alg».proof.Proof.KB.HostLate

set_option maxRecDepth 16384

noncomputable section

namespace Cert.Kernel.Fr

open Idealize.ShloMosaic Idealize.ShloMosaic.TcCoe
open Cert.Kernel Cert.Kernel.Gen Cert.Kernel.GenP

variable {F : FTy → Type} [FloatOps F]

theorem late1_90 : (hostOps1_90 : List (HloOp τ sig (Elt F))).Forall Late := by late_ops
theorem late1_91 : (hostOps1_91 : List (HloOp τ sig (Elt F))).Forall Late := by late_ops
theorem late1_92 : (hostOps1_92 : List (HloOp τ sig (Elt F))).Forall Late := by late_ops
theorem late1_93 : (hostOps1_93 : List (HloOp τ sig (Elt F))).Forall Late := by late_ops
theorem late1_94 : (hostOps1_94 : List (HloOp τ sig (Elt F))).Forall Late := by late_ops
theorem late1_95 : (hostOps1_95 : List (HloOp τ sig (Elt F))).Forall Late := by late_ops
theorem late1_96 : (hostOps1_96 : List (HloOp τ sig (Elt F))).Forall Late := by late_ops
theorem late1_97 : (hostOps1_97 : List (HloOp τ sig (Elt F))).Forall Late := by late_ops
theorem late1_98 : (hostOps1_98 : List (HloOp τ sig (Elt F))).Forall Late := by late_ops
theorem late1_99 : (hostOps1_99 : List (HloOp τ sig (Elt F))).Forall Late := by late_ops
theorem late1_100 : (hostOps1_100 : List (HloOp τ sig (Elt F))).Forall Late := by late_ops
theorem late1_101 : (hostOps1_101 : List (HloOp τ sig (Elt F))).Forall Late := by late_ops
theorem late1_102 : (hostOps1_102 : List (HloOp τ sig (Elt F))).Forall Late := by late_ops
theorem late1_103 : (hostOps1_103 : List (HloOp τ sig (Elt F))).Forall Late := by late_ops
theorem late1_104 : (hostOps1_104 : List (HloOp τ sig (Elt F))).Forall Late := by late_ops
theorem late1_105 : (hostOps1_105 : List (HloOp τ sig (Elt F))).Forall Late := by late_ops
theorem late1_106 : (hostOps1_106 : List (HloOp τ sig (Elt F))).Forall Late := by late_ops
theorem late1_107 : (hostOps1_107 : List (HloOp τ sig (Elt F))).Forall Late := by late_ops
theorem late1_108 : (hostOps1_108 : List (HloOp τ sig (Elt F))).Forall Late := by late_ops
theorem late1_109 : (hostOps1_109 : List (HloOp τ sig (Elt F))).Forall Late := by late_ops
theorem late1_110 : (hostOps1_110 : List (HloOp τ sig (Elt F))).Forall Late := by late_ops
theorem late1_111 : (hostOps1_111 : List (HloOp τ sig (Elt F))).Forall Late := by late_ops
theorem late1_112 : (hostOps1_112 : List (HloOp τ sig (Elt F))).Forall Late := by late_ops
theorem late1_113 : (hostOps1_113 : List (HloOp τ sig (Elt F))).Forall Late := by late_ops
theorem late1_114 : (hostOps1_114 : List (HloOp τ sig (Elt F))).Forall Late := by late_ops
theorem late1_115 : (hostOps1_115 : List (HloOp τ sig (Elt F))).Forall Late := by late_ops
theorem late1_116 : (hostOps1_116 : List (HloOp τ sig (Elt F))).Forall Late := by late_ops
theorem late1_117 : (hostOps1_117 : List (HloOp τ sig (Elt F))).Forall Late := by late_ops
theorem late1_118 : (hostOps1_118 : List (HloOp τ sig (Elt F))).Forall Late := by late_ops
theorem late1_119 : (hostOps1_119 : List (HloOp τ sig (Elt F))).Forall Late := by late_ops
theorem late1_120 : (hostOps1_120 : List (HloOp τ sig (Elt F))).Forall Late := by late_ops
theorem late1_121 : (hostOps1_121 : List (HloOp τ sig (Elt F))).Forall Late := by late_ops
theorem late1_122 : (hostOps1_122 : List (HloOp τ sig (Elt F))).Forall Late := by late_ops
theorem late1_123 : (hostOps1_123 : List (HloOp τ sig (Elt F))).Forall Late := by late_ops
theorem late1_124 : (hostOps1_124 : List (HloOp τ sig (Elt F))).Forall Late := by late_ops
theorem late1_125 : (hostOps1_125 : List (HloOp τ sig (Elt F))).Forall Late := by late_ops
theorem late1_126 : (hostOps1_126 : List (HloOp τ sig (Elt F))).Forall Late := by late_ops
theorem late1_127 : (hostOps1_127 : List (HloOp τ sig (Elt F))).Forall Late := by late_ops
theorem late1_128 : (hostOps1_128 : List (HloOp τ sig (Elt F))).Forall Late := by late_ops
theorem late1_129 : (hostOps1_129 : List (HloOp τ sig (Elt F))).Forall Late := by late_ops
theorem late1_130 : (hostOps1_130 : List (HloOp τ sig (Elt F))).Forall Late := by late_ops
theorem late1_131 : (hostOps1_131 : List (HloOp τ sig (Elt F))).Forall Late := by late_ops
theorem late1_132 : (hostOps1_132 : List (HloOp τ sig (Elt F))).Forall Late := by late_ops
theorem late1_133 : (hostOps1_133 : List (HloOp τ sig (Elt F))).Forall Late := by late_ops
theorem late1_134 : (hostOps1_134 : List (HloOp τ sig (Elt F))).Forall Late := by late_ops
theorem late1_135 : (hostOps1_135 : List (HloOp τ sig (Elt F))).Forall Late := by late_ops
theorem late1_136 : (hostOps1_136 : List (HloOp τ sig (Elt F))).Forall Late := by late_ops
theorem late1_137 : (hostOps1_137 : List (HloOp τ sig (Elt F))).Forall Late := by late_ops
theorem late1_138 : (hostOps1_138 : List (HloOp τ sig (Elt F))).Forall Late := by late_ops
theorem late1_139 : (hostOps1_139 : List (HloOp τ sig (Elt F))).Forall Late := by late_ops
theorem late1_140 : (hostOps1_140 : List (HloOp τ sig (Elt F))).Forall Late := by late_ops
theorem late1_141 : (hostOps1_141 : List (HloOp τ sig (Elt F))).Forall Late := by late_ops
theorem late1_142 : (hostOps1_142 : List (HloOp τ sig (Elt F))).Forall Late := by late_ops
theorem late1_143 : (hostOps1_143 : List (HloOp τ sig (Elt F))).Forall Late := by late_ops
theorem late1_144 : (hostOps1_144 : List (HloOp τ sig (Elt F))).Forall Late := by late_ops
theorem late1_145 : (hostOps1_145 : List (HloOp τ sig (Elt F))).Forall Late := by late_ops
theorem late1_146 : (hostOps1_146 : List (HloOp τ sig (Elt F))).Forall Late := by late_ops
theorem late1_147 : (hostOps1_147 : List (HloOp τ sig (Elt F))).Forall Late := by late_ops
theorem late1_148 : (hostOps1_148 : List (HloOp τ sig (Elt F))).Forall Late := by late_ops
theorem late1_149 : (hostOps1_149 : List (HloOp τ sig (Elt F))).Forall Late := by late_ops
theorem late1_150 : (hostOps1_150 : List (HloOp τ sig (Elt F))).Forall Late := by late_ops
theorem late1_151 : (hostOps1_151 : List (HloOp τ sig (Elt F))).Forall Late := by late_ops
theorem late1_152 : (hostOps1_152 : List (HloOp τ sig (Elt F))).Forall Late := by late_ops
theorem late1_153 : (hostOps1_153 : List (HloOp τ sig (Elt F))).Forall Late := by late_ops
theorem late1_154 : (hostOps1_154 : List (HloOp τ sig (Elt F))).Forall Late := by late_ops
theorem late1_155 : (hostOps1_155 : List (HloOp τ sig (Elt F))).Forall Late := by late_ops
theorem late1_156 : (hostOps1_156 : List (HloOp τ sig (Elt F))).Forall Late := by late_ops
theorem late1_157 : (hostOps1_157 : List (HloOp τ sig (Elt F))).Forall Late := by late_ops
theorem late1_158 : (hostOps1_158 : List (HloOp τ sig (Elt F))).Forall Late := by late_ops
theorem late1_159 : (hostOps1_159 : List (HloOp τ sig (Elt F))).Forall Late := by late_ops
theorem late1_160 : (hostOps1_160 : List (HloOp τ sig (Elt F))).Forall Late := by late_ops
theorem late1_161 : (hostOps1_161 : List (HloOp τ sig (Elt F))).Forall Late := by late_ops
theorem late1_162 : (hostOps1_162 : List (HloOp τ sig (Elt F))).Forall Late := by late_ops
theorem late1_163 : (hostOps1_163 : List (HloOp τ sig (Elt F))).Forall Late := by late_ops
theorem late1_164 : (hostOps1_164 : List (HloOp τ sig (Elt F))).Forall Late := by late_ops
theorem late1_165 : (hostOps1_165 : List (HloOp τ sig (Elt F))).Forall Late := by late_ops
theorem late1_166 : (hostOps1_166 : List (HloOp τ sig (Elt F))).Forall Late := by late_ops
theorem late1_167 : (hostOps1_167 : List (HloOp τ sig (Elt F))).Forall Late := by late_ops
theorem late1_168 : (hostOps1_168 : List (HloOp τ sig (Elt F))).Forall Late := by late_ops
theorem late1_169 : (hostOps1_169 : List (HloOp τ sig (Elt F))).Forall Late := by late_ops
theorem late1_170 : (hostOps1_170 : List (HloOp τ sig (Elt F))).Forall Late := by late_ops
theorem late1_171 : (hostOps1_171 : List (HloOp τ sig (Elt F))).Forall Late := by late_ops
theorem late1_172 : (hostOps1_172 : List (HloOp τ sig (Elt F))).Forall Late := by late_ops
theorem late1_173 : (hostOps1_173 : List (HloOp τ sig (Elt F))).Forall Late := by late_ops
theorem late1_174 : (hostOps1_174 : List (HloOp τ sig (Elt F))).Forall Late := by late_ops
theorem late1_175 : (hostOps1_175 : List (HloOp τ sig (Elt F))).Forall Late := by late_ops
theorem late1_176 : (hostOps1_176 : List (HloOp τ sig (Elt F))).Forall Late := by late_ops

end Cert.Kernel.Fr

end
-- ==== Proof.KB.HostC.lean ====
/- Cases: stretches hostOps1_177 .. hostOps1_264 after the region are lists of late operations. -/
import proofs.«404644_j25400436588780_1_alg».proof.Proof.KB.LaunchP
import proofs.«404644_j25400436588780_1_alg».proof.Proof.KB.HostLate

set_option maxRecDepth 16384

noncomputable section

namespace Cert.Kernel.Fr

open Idealize.ShloMosaic Idealize.ShloMosaic.TcCoe
open Cert.Kernel Cert.Kernel.Gen Cert.Kernel.GenP

variable {F : FTy → Type} [FloatOps F]

theorem late1_177 : (hostOps1_177 : List (HloOp τ sig (Elt F))).Forall Late := by late_ops
theorem late1_178 : (hostOps1_178 : List (HloOp τ sig (Elt F))).Forall Late := by late_ops
theorem late1_179 : (hostOps1_179 : List (HloOp τ sig (Elt F))).Forall Late := by late_ops
theorem late1_180 : (hostOps1_180 : List (HloOp τ sig (Elt F))).Forall Late := by late_ops
theorem late1_181 : (hostOps1_181 : List (HloOp τ sig (Elt F))).Forall Late := by late_ops
theorem late1_182 : (hostOps1_182 : List (HloOp τ sig (Elt F))).Forall Late := by late_ops
theorem late1_183 : (hostOps1_183 : List (HloOp τ sig (Elt F))).Forall Late := by late_ops
theorem late1_184 : (hostOps1_184 : List (HloOp τ sig (Elt F))).Forall Late := by late_ops
theorem late1_185 : (hostOps1_185 : List (HloOp τ sig (Elt F))).Forall Late := by late_ops
theorem late1_186 : (hostOps1_186 : List (HloOp τ sig (Elt F))).Forall Late := by late_ops
theorem late1_187 : (hostOps1_187 : List (HloOp τ sig (Elt F))).Forall Late := by late_ops
theorem late1_188 : (hostOps1_188 : List (HloOp τ sig (Elt F))).Forall Late := by late_ops
theorem late1_189 : (hostOps1_189 : List (HloOp τ sig (Elt F))).Forall Late := by late_ops
theorem late1_190 : (hostOps1_190 : List (HloOp τ sig (Elt F))).Forall Late := by late_ops
theorem late1_191 : (hostOps1_191 : List (HloOp τ sig (Elt F))).Forall Late := by late_ops
theorem late1_192 : (hostOps1_192 : List (HloOp τ sig (Elt F))).Forall Late := by late_ops
theorem late1_193 : (hostOps1_193 : List (HloOp τ sig (Elt F))).Forall Late := by late_ops
theorem late1_194 : (hostOps1_194 : List (HloOp τ sig (Elt F))).Forall Late := by late_ops
theorem late1_195 : (hostOps1_195 : List (HloOp τ sig (Elt F))).Forall Late := by late_ops
theorem late1_196 : (hostOps1_196 : List (HloOp τ sig (Elt F))).Forall Late := by late_ops
theorem late1_197 : (hostOps1_197 : List (HloOp τ sig (Elt F))).Forall Late := by late_ops
theorem late1_198 : (hostOps1_198 : List (HloOp τ sig (Elt F))).Forall Late := by late_ops
theorem late1_199 : (hostOps1_199 : List (HloOp τ sig (Elt F))).Forall Late := by late_ops
theorem late1_200 : (hostOps1_200 : List (HloOp τ sig (Elt F))).Forall Late := by late_ops
theorem late1_201 : (hostOps1_201 : List (HloOp τ sig (Elt F))).Forall Late := by late_ops
theorem late1_202 : (hostOps1_202 : List (HloOp τ sig (Elt F))).Forall Late := by late_ops
theorem late1_203 : (hostOps1_203 : List (HloOp τ sig (Elt F))).Forall Late := by late_ops
theorem late1_204 : (hostOps1_204 : List (HloOp τ sig (Elt F))).Forall Late := by late_ops
theorem late1_205 : (hostOps1_205 : List (HloOp τ sig (Elt F))).Forall Late := by late_ops
theorem late1_206 : (hostOps1_206 : List (HloOp τ sig (Elt F))).Forall Late := by late_ops
theorem late1_207 : (hostOps1_207 : List (HloOp τ sig (Elt F))).Forall Late := by late_ops
theorem late1_208 : (hostOps1_208 : List (HloOp τ sig (Elt F))).Forall Late := by late_ops
theorem late1_209 : (hostOps1_209 : List (HloOp τ sig (Elt F))).Forall Late := by late_ops
theorem late1_210 : (hostOps1_210 : List (HloOp τ sig (Elt F))).Forall Late := by late_ops
theorem late1_211 : (hostOps1_211 : List (HloOp τ sig (Elt F))).Forall Late := by late_ops
theorem late1_212 : (hostOps1_212 : List (HloOp τ sig (Elt F))).Forall Late := by late_ops
theorem late1_213 : (hostOps1_213 : List (HloOp τ sig (Elt F))).Forall Late := by late_ops
theorem late1_214 : (hostOps1_214 : List (HloOp τ sig (Elt F))).Forall Late := by late_ops
theorem late1_215 : (hostOps1_215 : List (HloOp τ sig (Elt F))).Forall Late := by late_ops
theorem late1_216 : (hostOps1_216 : List (HloOp τ sig (Elt F))).Forall Late := by late_ops
theorem late1_217 : (hostOps1_217 : List (HloOp τ sig (Elt F))).Forall Late := by late_ops
theorem late1_218 : (hostOps1_218 : List (HloOp τ sig (Elt F))).Forall Late := by late_ops
theorem late1_219 : (hostOps1_219 : List (HloOp τ sig (Elt F))).Forall Late := by late_ops
theorem late1_220 : (hostOps1_220 : List (HloOp τ sig (Elt F))).Forall Late := by late_ops
theorem late1_221 : (hostOps1_221 : List (HloOp τ sig (Elt F))).Forall Late := by late_ops
theorem late1_222 : (hostOps1_222 : List (HloOp τ sig (Elt F))).Forall Late := by late_ops
theorem late1_223 : (hostOps1_223 : List (HloOp τ sig (Elt F))).Forall Late := by late_ops
theorem late1_224 : (hostOps1_224 : List (HloOp τ sig (Elt F))).Forall Late := by late_ops
theorem late1_225 : (hostOps1_225 : List (HloOp τ sig (Elt F))).Forall Late := by late_ops
theorem late1_226 : (hostOps1_226 : List (HloOp τ sig (Elt F))).Forall Late := by late_ops
theorem late1_227 : (hostOps1_227 : List (HloOp τ sig (Elt F))).Forall Late := by late_ops
theorem late1_228 : (hostOps1_228 : List (HloOp τ sig (Elt F))).Forall Late := by late_ops
theorem late1_229 : (hostOps1_229 : List (HloOp τ sig (Elt F))).Forall Late := by late_ops
theorem late1_230 : (hostOps1_230 : List (HloOp τ sig (Elt F))).Forall Late := by late_ops
theorem late1_231 : (hostOps1_231 : List (HloOp τ sig (Elt F))).Forall Late := by late_ops
theorem late1_232 : (hostOps1_232 : List (HloOp τ sig (Elt F))).Forall Late := by late_ops
theorem late1_233 : (hostOps1_233 : List (HloOp τ sig (Elt F))).Forall Late := by late_ops
theorem late1_234 : (hostOps1_234 : List (HloOp τ sig (Elt F))).Forall Late := by late_ops
theorem late1_235 : (hostOps1_235 : List (HloOp τ sig (Elt F))).Forall Late := by late_ops
theorem late1_236 : (hostOps1_236 : List (HloOp τ sig (Elt F))).Forall Late := by late_ops
theorem late1_237 : (hostOps1_237 : List (HloOp τ sig (Elt F))).Forall Late := by late_ops
theorem late1_238 : (hostOps1_238 : List (HloOp τ sig (Elt F))).Forall Late := by late_ops
theorem late1_239 : (hostOps1_239 : List (HloOp τ sig (Elt F))).Forall Late := by late_ops
theorem late1_240 : (hostOps1_240 : List (HloOp τ sig (Elt F))).Forall Late := by late_ops
theorem late1_241 : (hostOps1_241 : List (HloOp τ sig (Elt F))).Forall Late := by late_ops
theorem late1_242 : (hostOps1_242 : List (HloOp τ sig (Elt F))).Forall Late := by late_ops
theorem late1_243 : (hostOps1_243 : List (HloOp τ sig (Elt F))).Forall Late := by late_ops
theorem late1_244 : (hostOps1_244 : List (HloOp τ sig (Elt F))).Forall Late := by late_ops
theorem late1_245 : (hostOps1_245 : List (HloOp τ sig (Elt F))).Forall Late := by late_ops
theorem late1_246 : (hostOps1_246 : List (HloOp τ sig (Elt F))).Forall Late := by late_ops
theorem late1_247 : (hostOps1_247 : List (HloOp τ sig (Elt F))).Forall Late := by late_ops
theorem late1_248 : (hostOps1_248 : List (HloOp τ sig (Elt F))).Forall Late := by late_ops
theorem late1_249 : (hostOps1_249 : List (HloOp τ sig (Elt F))).Forall Late := by late_ops
theorem late1_250 : (hostOps1_250 : List (HloOp τ sig (Elt F))).Forall Late := by late_ops
theorem late1_251 : (hostOps1_251 : List (HloOp τ sig (Elt F))).Forall Late := by late_ops
theorem late1_252 : (hostOps1_252 : List (HloOp τ sig (Elt F))).Forall Late := by late_ops
theorem late1_253 : (hostOps1_253 : List (HloOp τ sig (Elt F))).Forall Late := by late_ops
theorem late1_254 : (hostOps1_254 : List (HloOp τ sig (Elt F))).Forall Late := by late_ops
theorem late1_255 : (hostOps1_255 : List (HloOp τ sig (Elt F))).Forall Late := by late_ops
theorem late1_256 : (hostOps1_256 : List (HloOp τ sig (Elt F))).Forall Late := by late_ops
theorem late1_257 : (hostOps1_257 : List (HloOp τ sig (Elt F))).Forall Late := by late_ops
theorem late1_258 : (hostOps1_258 : List (HloOp τ sig (Elt F))).Forall Late := by late_ops
theorem late1_259 : (hostOps1_259 : List (HloOp τ sig (Elt F))).Forall Late := by late_ops
theorem late1_260 : (hostOps1_260 : List (HloOp τ sig (Elt F))).Forall Late := by late_ops
theorem late1_261 : (hostOps1_261 : List (HloOp τ sig (Elt F))).Forall Late := by late_ops
theorem late1_262 : (hostOps1_262 : List (HloOp τ sig (Elt F))).Forall Late := by late_ops
theorem late1_263 : (hostOps1_263 : List (HloOp τ sig (Elt F))).Forall Late := by late_ops
theorem late1_264 : (hostOps1_264 : List (HloOp τ sig (Elt F))).Forall Late := by late_ops

end Cert.Kernel.Fr

end
-- ==== Proof.KB.HostT.lean ====
/- Cases: the 265 stretches after the region, in order. -/
import proofs.«404644_j25400436588780_1_alg».proof.Proof.KB.HostA
import proofs.«404644_j25400436588780_1_alg».proof.Proof.KB.HostB
import proofs.«404644_j25400436588780_1_alg».proof.Proof.KB.HostC

set_option maxRecDepth 16384

noncomputable section

namespace Cert.Kernel.Fr

open Idealize.ShloMosaic Idealize.ShloMosaic.TcCoe
open Cert.Kernel Cert.Kernel.Gen Cert.Kernel.GenP

variable {F : FTy → Type} [FloatOps F]

/-- Every stretch after the region is a list of late operations. -/
theorem tail_late : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264] : List (List (HloOp τ sig (Elt F)))).Forall (fun ops => ops.Forall Late) :=
  ⟨late1, late1_1, late1_2, late1_3, late1_4, late1_5, late1_6, late1_7, late1_8, late1_9, late1_10, late1_11, late1_12, late1_13, late1_14, late1_15, late1_16, late1_17, late1_18, late1_19, late1_20, late1_21, late1_22, late1_23, late1_24, late1_25, late1_26, late1_27, late1_28, late1_29, late1_30, late1_31, late1_32, late1_33, late1_34, late1_35, late1_36, late1_37, late1_38, late1_39, late1_40, late1_41, late1_42, late1_43, late1_44, late1_45, late1_46, late1_47, late1_48, late1_49, late1_50, late1_51, late1_52, late1_53, late1_54, late1_55, late1_56, late1_57, late1_58, late1_59, late1_60, late1_61, late1_62, late1_63, late1_64, late1_65, late1_66, late1_67, late1_68, late1_69, late1_70, late1_71, late1_72, late1_73, late1_74, late1_75, late1_76, late1_77, late1_78, late1_79, late1_80, late1_81, late1_82, late1_83, late1_84, late1_85, late1_86, late1_87, late1_88, late1_89, late1_90, late1_91, late1_92, late1_93, late1_94, late1_95, late1_96, late1_97, late1_98, late1_99, late1_100, late1_101, late1_102, late1_103, late1_104, late1_105, late1_106, late1_107, late1_108, late1_109, late1_110, late1_111, late1_112, late1_113, late1_114, late1_115, late1_116, late1_117, late1_118, late1_119, late1_120, late1_121, late1_122, late1_123, late1_124, late1_125, late1_126, late1_127, late1_128, late1_129, late1_130, late1_131, late1_132, late1_133, late1_134, late1_135, late1_136, late1_137, late1_138, late1_139, late1_140, late1_141, late1_142, late1_143, late1_144, late1_145, late1_146, late1_147, late1_148, late1_149, late1_150, late1_151, late1_152, late1_153, late1_154, late1_155, late1_156, late1_157, late1_158, late1_159, late1_160, late1_161, late1_162, late1_163, late1_164, late1_165, late1_166, late1_167, late1_168, late1_169, late1_170, late1_171, late1_172, late1_173, late1_174, late1_175, late1_176, late1_177, late1_178, late1_179, late1_180, late1_181, late1_182, late1_183, late1_184, late1_185, late1_186, late1_187, late1_188, late1_189, late1_190, late1_191, late1_192, late1_193, late1_194, late1_195, late1_196, late1_197, late1_198, late1_199, late1_200, late1_201, late1_202, late1_203, late1_204, late1_205, late1_206, late1_207, late1_208, late1_209, late1_210, late1_211, late1_212, late1_213, late1_214, late1_215, late1_216, late1_217, late1_218, late1_219, late1_220, late1_221, late1_222, late1_223, late1_224, late1_225, late1_226, late1_227, late1_228, late1_229, late1_230, late1_231, late1_232, late1_233, late1_234, late1_235, late1_236, late1_237, late1_238, late1_239, late1_240, late1_241, late1_242, late1_243, late1_244, late1_245, late1_246, late1_247, late1_248, late1_249, late1_250, late1_251, late1_252, late1_253, late1_254, late1_255, late1_256, late1_257, late1_258, late1_259, late1_260, late1_261, late1_262, late1_263, late1_264⟩

/-- Every operation after the region touches TensorCore references only. -/
theorem tail_sub : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264] : List (List (HloOp τ sig (Elt F)))).Forall (fun ops => ops.Forall fun op => op.bufs ⊆ StableHlo.tcRefs τ sig) :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub, hostOps1_76_sub, hostOps1_77_sub, hostOps1_78_sub, hostOps1_79_sub, hostOps1_80_sub, hostOps1_81_sub, hostOps1_82_sub, hostOps1_83_sub, hostOps1_84_sub, hostOps1_85_sub, hostOps1_86_sub, hostOps1_87_sub, hostOps1_88_sub, hostOps1_89_sub, hostOps1_90_sub, hostOps1_91_sub, hostOps1_92_sub, hostOps1_93_sub, hostOps1_94_sub, hostOps1_95_sub, hostOps1_96_sub, hostOps1_97_sub, hostOps1_98_sub, hostOps1_99_sub, hostOps1_100_sub, hostOps1_101_sub, hostOps1_102_sub, hostOps1_103_sub, hostOps1_104_sub, hostOps1_105_sub, hostOps1_106_sub, hostOps1_107_sub, hostOps1_108_sub, hostOps1_109_sub, hostOps1_110_sub, hostOps1_111_sub, hostOps1_112_sub, hostOps1_113_sub, hostOps1_114_sub, hostOps1_115_sub, hostOps1_116_sub, hostOps1_117_sub, hostOps1_118_sub, hostOps1_119_sub, hostOps1_120_sub, hostOps1_121_sub, hostOps1_122_sub, hostOps1_123_sub, hostOps1_124_sub, hostOps1_125_sub, hostOps1_126_sub, hostOps1_127_sub, hostOps1_128_sub, hostOps1_129_sub, hostOps1_130_sub, hostOps1_131_sub, hostOps1_132_sub, hostOps1_133_sub, hostOps1_134_sub, hostOps1_135_sub, hostOps1_136_sub, hostOps1_137_sub, hostOps1_138_sub, hostOps1_139_sub, hostOps1_140_sub, hostOps1_141_sub, hostOps1_142_sub, hostOps1_143_sub, hostOps1_144_sub, hostOps1_145_sub, hostOps1_146_sub, hostOps1_147_sub, hostOps1_148_sub, hostOps1_149_sub, hostOps1_150_sub, hostOps1_151_sub, hostOps1_152_sub, hostOps1_153_sub, hostOps1_154_sub, hostOps1_155_sub, hostOps1_156_sub, hostOps1_157_sub, hostOps1_158_sub, hostOps1_159_sub, hostOps1_160_sub, hostOps1_161_sub, hostOps1_162_sub, hostOps1_163_sub, hostOps1_164_sub, hostOps1_165_sub, hostOps1_166_sub, hostOps1_167_sub, hostOps1_168_sub, hostOps1_169_sub, hostOps1_170_sub, hostOps1_171_sub, hostOps1_172_sub, hostOps1_173_sub, hostOps1_174_sub, hostOps1_175_sub, hostOps1_176_sub, hostOps1_177_sub, hostOps1_178_sub, hostOps1_179_sub, hostOps1_180_sub, hostOps1_181_sub, hostOps1_182_sub, hostOps1_183_sub, hostOps1_184_sub, hostOps1_185_sub, hostOps1_186_sub, hostOps1_187_sub, hostOps1_188_sub, hostOps1_189_sub, hostOps1_190_sub, hostOps1_191_sub, hostOps1_192_sub, hostOps1_193_sub, hostOps1_194_sub, hostOps1_195_sub, hostOps1_196_sub, hostOps1_197_sub, hostOps1_198_sub, hostOps1_199_sub, hostOps1_200_sub, hostOps1_201_sub, hostOps1_202_sub, hostOps1_203_sub, hostOps1_204_sub, hostOps1_205_sub, hostOps1_206_sub, hostOps1_207_sub, hostOps1_208_sub, hostOps1_209_sub, hostOps1_210_sub, hostOps1_211_sub, hostOps1_212_sub, hostOps1_213_sub, hostOps1_214_sub, hostOps1_215_sub, hostOps1_216_sub, hostOps1_217_sub, hostOps1_218_sub, hostOps1_219_sub, hostOps1_220_sub, hostOps1_221_sub, hostOps1_222_sub, hostOps1_223_sub, hostOps1_224_sub, hostOps1_225_sub, hostOps1_226_sub, hostOps1_227_sub, hostOps1_228_sub, hostOps1_229_sub, hostOps1_230_sub, hostOps1_231_sub, hostOps1_232_sub, hostOps1_233_sub, hostOps1_234_sub, hostOps1_235_sub, hostOps1_236_sub, hostOps1_237_sub, hostOps1_238_sub, hostOps1_239_sub, hostOps1_240_sub, hostOps1_241_sub, hostOps1_242_sub, hostOps1_243_sub, hostOps1_244_sub, hostOps1_245_sub, hostOps1_246_sub, hostOps1_247_sub, hostOps1_248_sub, hostOps1_249_sub, hostOps1_250_sub, hostOps1_251_sub, hostOps1_252_sub, hostOps1_253_sub, hostOps1_254_sub, hostOps1_255_sub, hostOps1_256_sub, hostOps1_257_sub, hostOps1_258_sub, hostOps1_259_sub, hostOps1_260_sub, hostOps1_261_sub, hostOps1_262_sub, hostOps1_263_sub, hostOps1_264_sub⟩

end Cert.Kernel.Fr

end
-- ==== Proof.KB.Host.lean ====
/- The host side of the program's run around its one kernel region: the operations before the region give the
   contents the region finds; the operations after it touch neither a staged array's contents nor a scoped buffer,
   allocate nothing, and write only their own result buffers. -/
import proofs.«404644_j25400436588780_1_alg».proof.Proof.KB.LaunchP
import proofs.«404644_j25400436588780_1_alg».proof.Proof.KB.HostT
import Idealize.ShloMosaic.Lib.Pipeline.FrameSuffix

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen Cert.Kernel.GenP

variable {F : FTy → Type} [FloatOps F]

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- The stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264]

/-- Every operation before the region touches TensorCore references only. -/
theorem pre_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

/-- None of them allocates: each is a builder that writes its one result from its operands. -/
theorem pre_fresh : (preOps : List (List (HloOp τ sig (Elt F)))).Forall fun ops => ops.Forall fun op => op.fresh = ∅ := by
  simp only [List.Forall]; repeat' constructor

/-- An operation after the region, as a late operation: it allocates nothing and its one result is no array of the region. -/
theorem tail_late_mem : ∀ ops ∈ (tailOps : List (List (HloOp τ sig (Elt F)))), ∀ op ∈ ops, Late op := fun ops hops op hop =>
  List.forall_iff_forall_mem.mp (List.forall_iff_forall_mem.mp tail_late ops hops) op hop

variable (m : (ℓ : Loc nD τ sig) → Buf (Elt F) ℓ)

/-- A core's buffer contents when the region is entered: the launch contents after the operations before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The program is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The operations after the region touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  -- with nothing prefetched, the references a later line may touch are all the unscoped ones
  rw [Pipeline.tailRefs_none spec0 launch0.win.arr_unscoped]
  intro ops hops op hop
  exact Pipeline.sub_ucRefs op (List.forall_iff_forall_mem.mp (List.forall_iff_forall_mem.mp tail_sub ops hops) op hop)

/-- They allocate nothing. -/
theorem sfx_fresh : ∀ ops ∈ (tailOps : List (List (HloOp τ sig (Elt F)))), ∀ op ∈ ops, op.fresh = ∅ :=
  fun ops hops op hop => (tail_late_mem ops hops op hop).fresh_eq

/-- And none writes an array of the region: each writes its own result buffer, which is none of them. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_late_mem ops hops op hop).keeps w

end Cert.Kernel.Fr

end
-- ==== Proof.KB.Frame.lean ====
/- The frame run of the program's @main: what the accumulator's staging buffer holds after the body at each grid point
   (the reset at the first, the carry-over from the point before at the others), the pipeline's proof data, the body's
   obligation at a generic point, and the run of @main — the host operations before the region, the region, the host
   operations after it — to the frame's post; then each case's found pieces read as one value of the payloads. -/
import proofs.«404644_j25400436588780_1_alg».proof.Proof.KB.RunB
import proofs.«404644_j25400436588780_1_alg».proof.Proof.KB.Host
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place: the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place: the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    region-entry contents and whose body leaves the block in place: the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, for any proof data whose array is the
    region-entry contents and whose body leaves the block in place: the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator -/

/-- At the first point the body's two stores into the accumulator each write its one entry: they cover it. -/
theorem cover0_A_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6 x7 x8).1 S1x1.size (by sl_kernel_rfl) y

/-- What the first point leaves in the accumulator's staging buffer: its pieces read back over junk. -/
def out0_A_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3 x4 x5 x6 x7 x8).1)

/-- At a later point the body's one store into the accumulator writes its one entry: it covers it. -/
theorem cover0_B_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1 S1x1.size (by sl_kernel_rfl) y

/-- What a later point leaves in the accumulator's staging buffer: its piece read back over junk. -/
def out0_B_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1)

/-! ## What the accumulator holds after each point -/

/-- THE ACCUMULATION. What the accumulator's staging buffer holds after the body at position `n`: at the first point
    the reset case run at the point's memrefs and input blocks; at a later point the carry-over case, run over what
    this leaves at `n - 1` (the buffer is not written back between). -/
def outsAt0 (c : Dev nD) : (n : ℕ) → n < cfg0.N → Vec F S1x1 .f32
  | 0, hn => out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h0 : (n + 1) % 16 = 0 then
      out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
    else
      out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))

/-- `outsAt0` at the first point: the reset case's contents. -/
theorem outsAt0_A (c : Dev nD) (t : Fin cfg0.N) (h0 : t.val % 16 = 0) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

/-- `outsAt0` at a later point: the carry-over case's contents, over what the point before left. -/
theorem outsAt0_B (c : Dev nD) (t : Fin cfg0.N) (h0 : ¬t.val % 16 = 0) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulator's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point after the first the accumulator's staging buffer holds what the body left at the point before: the buffer
    is written back at the last point only, and the window is live and uncut. -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks; the closed form says which case the point is in; at a
    later point the accumulator holds what the point before left; so the case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 16 := lt_of_lt_of_eq t.isLt (show cfg0.N = 16 from N_0)
  by_cases h0 : t.val % 16 = 0
  · rw [outsAt0_A m c t h0]
    unfold out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B m c t h0]
    simp only [before0_9_B m c t h0]
    unfold out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Each case's found pieces as one value -/

/-- The offsets of the body's loads and stores are zero: each reads or writes a whole block. -/
theorem zeroOff2 : (![0, 0] : Fin 2 → Nat) = fun _ => 0 := funext fun a => by fin_cases a <;> rfl
theorem zeroOff1 : (![0] : Fin 1 → Nat) = fun _ => 0 := funext fun a => by fin_cases a <;> rfl

/-- THE BODY'S UPDATE as the payloads compute it from the input blocks (the three category-code blocks `x0 x1 x2`, the
    volume columns `x3 x4 x5 x6 x8`; the body never loads the column `x7`) and the accumulator's contents `acc` before
    the update: the fourteen masked sums added one after another to the zero block, and that total added to `acc`. -/
def bodyVal (x0 x1 x2 : Vec F S262144 .i32) (x3 x4 x5 x6 x8 : Vec F S262144 .f32) (acc : Vec F S1x1 .f32) : Vec F S1x1 .f32 :=
  k0_pay23 (k0_pay1 x0) (k0_pay2 x1) (k0_pay3 x2) (k0_pay5 x4) (k0_pay6 x5) (k0_pay8 x8)
    (k0_pay20 (k0_pay1 x0) (k0_pay2 x1) (k0_pay3 x2) (k0_pay5 x4) (k0_pay6 x5) (k0_pay8 x8)
      (k0_pay17 (k0_pay1 x0) (k0_pay2 x1) (k0_pay3 x2) (k0_pay4 x3) (k0_pay5 x4) (k0_pay6 x5) (k0_pay7 x6) (k0_pay8 x8)
        (k0_pay13 (k0_pay1 x0) (k0_pay2 x1) (k0_pay3 x2) (k0_pay4 x3) (k0_pay7 x6) (k0_pay8 x8)
          (k0_pay12 (k0_pay1 x0) (k0_pay2 x1) (k0_pay3 x2) (k0_pay4 x3) (k0_pay7 x6) (k0_pay8 x8)
            (k0_pay9 x0 x1 x2 x3 x6 x8) (k0_pay10 x0 x1) (k0_pay11 x2))
          2#32)
        (k0_pay14 (k0_pay1 x0) (k0_pay2 x1) (k0_pay3 x2))
        (k0_pay15 (k0_pay4 x3) (k0_pay7 x6) (k0_pay8 x8))
        k0_pay16)
      (k0_pay18 (k0_pay1 x0))
      (k0_pay19 (k0_pay2 x1)))
    (k0_pay21 (k0_pay1 x0) (k0_pay2 x1) (k0_pay3 x2) (k0_pay5 x4) (k0_pay6 x5) (k0_pay8 x8))
    acc

/-- At a point after the first the body leaves, in the accumulator's staging buffer holding `xo9`, the update of `xo9`
    by the point's blocks: its one covering store's payload, whose loads read the whole buffers. -/
theorem out0_B_9_eq (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) :
    out0_B_9 c i arg1 harg1 arg2 harg2 arg3 harg3 arg4 harg4 arg5 harg5 arg6 harg6 arg7 harg7 arg8 harg8 arg9 harg9 arg10 harg10 hc0 x0 x1 x2 x3 x4 x5 x6 x7 x8 xo9 = bodyVal x0 x1 x2 x3 x4 x5 x6 x8 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 x7 x8 xo9)]
  unfold kernelRun0_B
  dsimp only
  sl_unfold_words
  rw [View.canon_unit_zero zeroOff2]
  unfold bodyVal
  simp only [View.readAt_eq_ld, harg1.read_unread, harg2.read_unread, harg3.read_unread, harg4.read_unread, harg5.read_unread, harg6.read_unread, harg7.read_unread, harg8.read_unread, harg9.read_unread, harg10.read_unread, View.ld_unit_zero (S := S262144) zeroOff1, View.ld_unit_zero (S := S1x1) zeroOff2]

/-- At the first point the body stores the zero block, reads it back, and leaves the update of the zero block by the
    point's blocks: the later of its two stores covers the accumulator. -/
theorem out0_A_9_eq (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) :
    out0_A_9 c i arg1 harg1 arg2 harg2 arg3 harg3 arg4 harg4 arg5 harg5 arg6 harg6 arg7 harg7 arg8 harg8 arg9 harg9 arg10 harg10 hc0 x0 x1 x2 x3 x4 x5 x6 x7 x8 = bodyVal x0 x1 x2 x3 x4 x5 x6 x8 k0_pay22 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6 x7 x8)]
  unfold kernelRun0_A
  dsimp only
  sl_unfold_words
  rw [View.canon_cons_unit_zero (S := S1x1) zeroOff2, View.readCov_unit_zero (S := S1x1) _ zeroOff2]
  unfold bodyVal
  simp only [View.readAt_eq_ld, harg1.read_unread, harg2.read_unread, harg3.read_unread, harg4.read_unread, harg5.read_unread, harg6.read_unread, harg7.read_unread, harg8.read_unread, harg9.read_unread, View.ld_unit_zero (S := S262144) zeroOff1]

/-! ## The accumulator after each point, in closed form -/

/-- The accumulator after point `n`: the update of the zero block by the first point's blocks, then of that by each
    later point's, in point order. -/
def accAt (c : Dev nD) : (n : ℕ) → n < cfg0.N → Vec F S1x1 .f32
  | 0, h => bodyVal (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 8 ⟨0, h⟩) k0_pay22
  | n + 1, h => bodyVal (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 8 ⟨n + 1, h⟩) (accAt c n (Nat.lt_of_succ_lt h))

/-- What the accumulator's staging buffer holds after point `n` is that closed form: by induction on the point. -/
theorem outsAt0_eq (c : Dev nD) : ∀ (n : ℕ) (h : n < cfg0.N), outsAt0 m c n h = accAt m c n h
  | 0, h => (outsAt0_A m c ⟨0, h⟩ rfl).trans
      (out0_A_9_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩))
  | n + 1, h => by
    have hN : cfg0.N = 16 := N_0
    have hB : ¬(⟨n + 1, h⟩ : Fin cfg0.N).val % 16 = 0 := by dsimp only; omega
    rw [outsAt0_B m c ⟨n + 1, h⟩ hB]
    refine (out0_B_9_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (outsAt0 m c n (Nat.lt_of_succ_lt h))).trans ?_
    exact congrArg (bodyVal (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 8 ⟨n + 1, h⟩)) (outsAt0_eq c n (Nat.lt_of_succ_lt h))

/-! ## The run -/

set_option backward.isDefEq.respectTransparency.types false in
/-- At the compiled mesh, for any values, from any memory with zero counters: every weakly fair execution of @main on the
    TensorCores terminates, and every final state has every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.Kernel.Fr

end
-- ==== Proof.KB.FrameArgs.lean ====
/- The seven arguments of the program end as they were launched. The run around the region leaves every buffer the
   region does not stage as the operations after the region leave it, started from the contents at the region's entry
   with the region's arrays put in. No operation after the region writes an argument, an argument is no array of the
   region, and no operation before the region writes an argument. -/
import proofs.«404644_j25400436588780_1_alg».proof.Proof.KB.Frame
import Idealize.ShloMosaic.Lib.StableHlo.Run

set_option maxRecDepth 16384
set_option maxHeartbeats 4000000

noncomputable section

namespace Cert.Kernel.Fr

open Cert.Kernel Cert.Kernel.Gen Cert.Kernel.GenP
open Idealize.ShloMosaic Idealize.ShloMosaic.TcCoe Idealize.SL.Sem
open Idealize.ShloMosaic.StableHlo

variable {F : FTy → Type} [FloatOps F]
variable (m : (ℓ : Loc nD τ sig) → Buf (Elt F) ℓ)

/-! ## What the operations after the region start from -/

/-- The contents on core `c` when the region is left: those at its entry, with every array of the region at what the
    region leaves in it. -/
abbrev X (c : Dev nD) : Valuation τ sig (Elt F) :=
  Pipeline.withArrays (cfgs 0).spec c (V0 m c) fun w => (dats m 0 c).arrAt w (cfgs 0).N

/-- An array of the region holds what the region leaves in it. -/
theorem X_arr (c : Dev nD) (w : Fin 10) :
    X m c (Proc.devRef .tc (Pipeline.arrRef spec0 w)) = (dats m 0 c).arrAt w cfg0.N :=
  Pipeline.withArrays_arr spec0 launch0.win.arr_inj c _ _ w

/-- An array the region only reads holds what it held at the region's entry. -/
theorem X_in (c : Dev nD) (w : Fin 10) (hin : (cfg0.win w).isOut = false) :
    X m c (Proc.devRef .tc (Pipeline.arrRef spec0 w)) = V m c (Pipeline.arrRef spec0 w) := by
  rw [X_arr, (dats m 0 c).arrAt_in w hin, A_eq]

/-- A buffer that is no array of the region holds what it held at the region's entry. -/
theorem X_ne (c : Dev nD) (b : Ref sig .tc) (hb : ∀ w, Pipeline.arrRef spec0 w ≠ b) :
    X m c (Proc.devRef .tc b) = V0 m c (Proc.devRef .tc b) :=
  Pipeline.withArrays_of_ne spec0 c _ _ b hb

/-! ## No operation before the region writes an argument -/

local macro "open_pre" : tactic =>
  `(tactic| (dsimp only [V0]
             simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil,
               List.cons_append, List.nil_append]))

theorem V0_arg0 (c : Dev nD) : V0 m c (Proc.devRef .tc main_arg0) = m ((c.tc : Thread nD τ).loc main_arg0) := by
  open_pre
  after_results

theorem V0_arg1 (c : Dev nD) : V0 m c (Proc.devRef .tc main_arg1) = m ((c.tc : Thread nD τ).loc main_arg1) := by
  open_pre
  after_results

theorem V0_arg2 (c : Dev nD) : V0 m c (Proc.devRef .tc main_arg2) = m ((c.tc : Thread nD τ).loc main_arg2) := by
  open_pre
  after_results

theorem V0_arg3 (c : Dev nD) : V0 m c (Proc.devRef .tc main_arg3) = m ((c.tc : Thread nD τ).loc main_arg3) := by
  open_pre
  after_results

theorem V0_arg4 (c : Dev nD) : V0 m c (Proc.devRef .tc main_arg4) = m ((c.tc : Thread nD τ).loc main_arg4) := by
  open_pre
  after_results

theorem V0_arg5 (c : Dev nD) : V0 m c (Proc.devRef .tc main_arg5) = m ((c.tc : Thread nD τ).loc main_arg5) := by
  open_pre
  after_results

theorem V0_arg6 (c : Dev nD) : V0 m c (Proc.devRef .tc main_arg6) = m ((c.tc : Thread nD τ).loc main_arg6) := by
  open_pre
  after_results

/-! ## No operation after the region writes an argument -/

/-- The operations after the region leave an argument, and an array of the region, as it was. -/
theorem tail_keeps (Y : Valuation τ sig (Elt F)) (b : Ref sig .tc) (hb : b ∈ arrs ++ args) :
    StableHlo.after (tailOps (F := F)).flatten Y (Proc.devRef .tc b) = Y (Proc.devRef .tc b) :=
  StableHlo.after_of_forall_not_mem _ _ fun op hop => by
    obtain ⟨ops, hops, hop'⟩ := List.mem_flatten.mp hop
    exact (tail_late_mem ops hops op hop').keeps_ref hb

/-- An argument when the run ends is the argument at the launch. -/
theorem arg_kept (c : Dev nD) (b : Ref sig .tc) (hb : b ∈ arrs ++ args) (hne : ∀ w, Pipeline.arrRef spec0 w ≠ b)
    (h0 : V0 m c (Proc.devRef .tc b) = m ((c.tc : Thread nD τ).loc b)) :
    Pipeline.afterTail₀ cfgs (dats m) 0 (V0 m) tailOps c b = m ((c.tc : Thread nD τ).loc b) :=
  (tail_keeps (X m c) b hb).trans ((X_ne m c b hne).trans h0)

/-- In a final state of the run around the region, the seven arguments are as they were launched. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 rfl (by decide))).trans
      (arg_kept m c main_arg0 (by decide) (by decide) (V0_arg0 m c)),
   ((h c).2 main_arg1 (Pipeline.mem_restRefs_of main_arg1 rfl (by decide))).trans
      (arg_kept m c main_arg1 (by decide) (by decide) (V0_arg1 m c)),
   ((h c).2 main_arg2 (Pipeline.mem_restRefs_of main_arg2 rfl (by decide))).trans
      (arg_kept m c main_arg2 (by decide) (by decide) (V0_arg2 m c)),
   ((h c).2 main_arg3 (Pipeline.mem_restRefs_of main_arg3 rfl (by decide))).trans
      (arg_kept m c main_arg3 (by decide) (by decide) (V0_arg3 m c)),
   ((h c).2 main_arg4 (Pipeline.mem_restRefs_of main_arg4 rfl (by decide))).trans
      (arg_kept m c main_arg4 (by decide) (by decide) (V0_arg4 m c)),
   ((h c).2 main_arg5 (Pipeline.mem_restRefs_of main_arg5 rfl (by decide))).trans
      (arg_kept m c main_arg5 (by decide) (by decide) (V0_arg5 m c)),
   ((h c).2 main_arg6 (Pipeline.mem_restRefs_of main_arg6 rfl (by decide))).trans
      (arg_kept m c main_arg6 (by decide) (by decide) (V0_arg6 m c))⟩

/-- THE FRAME: every weakly fair execution of the program terminates, and the seven arguments end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_post m r h c) (run_main m ρ)

end Cert.Kernel.Fr

end
-- ==== Proof.KI.Runs.lean ====
/- What the two runs of the kernel's body share: the condition of the reset (the body's one `scf.if`, on the grid
   coordinate) in closed form over the sixteen points; the view through which the output block's contents are
   stated; and the staging memrefs the pipeline hands the body at a point, each a whole buffer. -/
import proofs.«404644_j25400436588780_1_alg».proof.Proof.Gen.KernelIdeal.Skeleton
import proofs.«404644_j25400436588780_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The reset's condition -/

/-- The condition under which the body resets the accumulator: the grid coordinate is zero, as the body computes it
    (compare with zero, widen, compare the word with zero). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- The one staging buffer of the output window, through which the accumulator's contents are stated (any whole
    view of the shape reads the same vector back). -/
abbrev VO0_9 : View sig .tc .vmem S1x1 .f32 := (Memref.whole cc0_stg9_0 : Memref sig .tc .vmem S1x1 .f32).view
/-- Each window's current staging memref at point `t`, as the pipeline passes it to the body, and its wholeness. -/
abbrev ms0_0 (t : Fin cfg0.N) : Memref sig .tc .vmem S262144 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S262144 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S262144 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S262144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S262144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S262144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S262144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S262144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S262144 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

end Cert.KernelIdeal.Fr

end
-- ==== Proof.KI.RunA.lean ====
/- The run of the kernel's whole body at the grid's first point, where the accumulator is reset:
   the body's triple over its memory operations, the arithmetic left behind the payload names; the pieces the output's
   buffer ends with are the witness the run finds. -/
import proofs.«404644_j25400436588780_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE BODY AT THE FIRST POINT (the reset taken). What the body's stores leave in the output's staging memref, as
    pieces (last first), WITH the proof that on whole staging memrefs — the nine inputs' at their contents, the output's at
    anything — the body runs to the continuation holding the inputs' as they were and the output's with the pieces
    written: the reset's store of the zero block, then the store of the zero block read back plus the point's fourteen
    masked sums. -/
noncomputable def kernelRun0_A (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) :
    { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.KernelIdeal.Fr

end
-- ==== Proof.KI.RunB.lean ====
/- The run of the kernel's whole body at a point after the first, where the accumulator carries over:
   the body's triple over its memory operations, the arithmetic left behind the payload names; the pieces the output's
   buffer ends with are the witness the run finds. -/
import proofs.«404644_j25400436588780_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE BODY AT A LATER POINT (the reset not taken). What the body's store leaves in the output's staging memref, as
    pieces, WITH the proof that on whole staging memrefs — the nine inputs' at their contents, the output's at the running
    contents `xo9` — the body runs to the continuation holding the inputs' as they were and the output's with the piece
    written: the running contents plus the point's fourteen masked sums. -/
noncomputable def kernelRun0_B (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) :
    { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.KernelIdeal.Fr

end
-- ==== Proof.KI.HostLate.lean ====
/- Operations that run after the kernel region: each allocates nothing and writes exactly one buffer, and that buffer
   is neither an array the region stages nor an argument of the program. The facts about such an operation, stated
   once, so that a stretch of operations needs only be recognised as a list of them. -/
import proofs.«404644_j25400436588780_1_alg».proof.Proof.Gen.KernelIdeal
import Idealize.ShloMosaic.Lib.Pipeline.FrameSuffix
import Idealize.ShloMosaic.Lib.StableHlo.Run

set_option maxRecDepth 16384

noncomputable section

namespace Cert.KernelIdeal.Fr

open Idealize.ShloMosaic Idealize.ShloMosaic.TcCoe
open Cert.KernelIdeal Cert.KernelIdeal.Gen

variable {F : FTy → Type} [FloatOps F]

/-- The arrays the region's ten windows stage, as references: the nine operands and the result of the call. -/
def arrs : List (Ref sig .tc) :=
  [main_v25, main_v51, main_v77, main_v79, main_v81, main_v83, main_v85, main_v87, main_v89, main_v90]

/-- The program's seven arguments, as references. -/
def args : List (Ref sig .tc) :=
  [main_arg0, main_arg1, main_arg2, main_arg3, main_arg4, main_arg5, main_arg6]

/-- Every window's array is one of the arrays. -/
theorem arrRef_mem_arrs (w : Fin 10) : Pipeline.arrRef spec0 w ∈ arrs := by
  fin_cases w <;> decide

/-- An operation that allocates nothing and writes one buffer `y`, which is neither an array of the region nor an
    argument of the program. -/
inductive Late : HloOp τ sig (Elt F) → Prop
  | mk {op : HloOp τ sig (Elt F)} (y : Ref sig .tc) (hf : op.fresh = ∅) (hw : op.writes = {Proc.devRef .tc y})
      (hy : y ∉ arrs ++ args) : Late op

/-- Such an operation allocates nothing. -/
theorem Late.fresh_eq {op : HloOp τ sig (Elt F)} (h : Late op) : op.fresh = ∅ := by
  cases h with | mk y hf hw hy => exact hf

/-- Such an operation writes no array of the region and no argument: the one buffer it writes is a different
    reference, and distinct references are distinct device buffers. -/
theorem Late.keeps_ref {op : HloOp τ sig (Elt F)} (h : Late op) {b : Ref sig .tc} (hb : b ∈ arrs ++ args) :
    Proc.devRef .tc b ∉ op.writes := by
  cases h with
  | mk y hf hw hy =>
    rw [hw, Finset.mem_singleton]
    exact StableHlo.devRef_ne_of_ne (fun e => hy (e ▸ hb))

/-- In particular it writes no window's array. -/
theorem Late.keeps {op : HloOp τ sig (Elt F)} (h : Late op) (w : Fin 10) :
    Proc.devRef .tc (Pipeline.arrRef spec0 w) ∉ op.writes :=
  h.keeps_ref (List.mem_append_left _ (arrRef_mem_arrs w))

/-- A stretch is a list of such operations: split the list and recognise each operation by its one result. -/
macro "late_ops" : tactic =>
  `(tactic| (simp only [List.Forall]; repeat' (first | exact Late.mk _ rfl rfl (by decide) | constructor)))

end Cert.KernelIdeal.Fr

end
-- ==== Proof.KI.HostA.lean ====
/- Cases: stretches hostOps1 .. hostOps1_89 after the region are lists of late operations. -/
import proofs.«404644_j25400436588780_1_alg».proof.Proof.KI.LaunchP
import proofs.«404644_j25400436588780_1_alg».proof.Proof.KI.HostLate

set_option maxRecDepth 16384

noncomputable section

namespace Cert.KernelIdeal.Fr

open Idealize.ShloMosaic Idealize.ShloMosaic.TcCoe
open Cert.KernelIdeal Cert.KernelIdeal.Gen Cert.KernelIdeal.GenP

variable {F : FTy → Type} [FloatOps F]

theorem late1 : (hostOps1 : List (HloOp τ sig (Elt F))).Forall Late := by late_ops
theorem late1_1 : (hostOps1_1 : List (HloOp τ sig (Elt F))).Forall Late := by late_ops
theorem late1_2 : (hostOps1_2 : List (HloOp τ sig (Elt F))).Forall Late := by late_ops
theorem late1_3 : (hostOps1_3 : List (HloOp τ sig (Elt F))).Forall Late := by late_ops
theorem late1_4 : (hostOps1_4 : List (HloOp τ sig (Elt F))).Forall Late := by late_ops
theorem late1_5 : (hostOps1_5 : List (HloOp τ sig (Elt F))).Forall Late := by late_ops
theorem late1_6 : (hostOps1_6 : List (HloOp τ sig (Elt F))).Forall Late := by late_ops
theorem late1_7 : (hostOps1_7 : List (HloOp τ sig (Elt F))).Forall Late := by late_ops
theorem late1_8 : (hostOps1_8 : List (HloOp τ sig (Elt F))).Forall Late := by late_ops
theorem late1_9 : (hostOps1_9 : List (HloOp τ sig (Elt F))).Forall Late := by late_ops
theorem late1_10 : (hostOps1_10 : List (HloOp τ sig (Elt F))).Forall Late := by late_ops
theorem late1_11 : (hostOps1_11 : List (HloOp τ sig (Elt F))).Forall Late := by late_ops
theorem late1_12 : (hostOps1_12 : List (HloOp τ sig (Elt F))).Forall Late := by late_ops
theorem late1_13 : (hostOps1_13 : List (HloOp τ sig (Elt F))).Forall Late := by late_ops
theorem late1_14 : (hostOps1_14 : List (HloOp τ sig (Elt F))).Forall Late := by late_ops
theorem late1_15 : (hostOps1_15 : List (HloOp τ sig (Elt F))).Forall Late := by late_ops
theorem late1_16 : (hostOps1_16 : List (HloOp τ sig (Elt F))).Forall Late := by late_ops
theorem late1_17 : (hostOps1_17 : List (HloOp τ sig (Elt F))).Forall Late := by late_ops
theorem late1_18 : (hostOps1_18 : List (HloOp τ sig (Elt F))).Forall Late := by late_ops
theorem late1_19 : (hostOps1_19 : List (HloOp τ sig (Elt F))).Forall Late := by late_ops
theorem late1_20 : (hostOps1_20 : List (HloOp τ sig (Elt F))).Forall Late := by late_ops
theorem late1_21 : (hostOps1_21 : List (HloOp τ sig (Elt F))).Forall Late := by late_ops
theorem late1_22 : (hostOps1_22 : List (HloOp τ sig (Elt F))).Forall Late := by late_ops
theorem late1_23 : (hostOps1_23 : List (HloOp τ sig (Elt F))).Forall Late := by late_ops
theorem late1_24 : (hostOps1_24 : List (HloOp τ sig (Elt F))).Forall Late := by late_ops
theorem late1_25 : (hostOps1_25 : List (HloOp τ sig (Elt F))).Forall Late := by late_ops
theorem late1_26 : (hostOps1_26 : List (HloOp τ sig (Elt F))).Forall Late := by late_ops
theorem late1_27 : (hostOps1_27 : List (HloOp τ sig (Elt F))).Forall Late := by late_ops
theorem late1_28 : (hostOps1_28 : List (HloOp τ sig (Elt F))).Forall Late := by late_ops
theorem late1_29 : (hostOps1_29 : List (HloOp τ sig (Elt F))).Forall Late := by late_ops
theorem late1_30 : (hostOps1_30 : List (HloOp τ sig (Elt F))).Forall Late := by late_ops
theorem late1_31 : (hostOps1_31 : List (HloOp τ sig (Elt F))).Forall Late := by late_ops
theorem late1_32 : (hostOps1_32 : List (HloOp τ sig (Elt F))).Forall Late := by late_ops
theorem late1_33 : (hostOps1_33 : List (HloOp τ sig (Elt F))).Forall Late := by late_ops
theorem late1_34 : (hostOps1_34 : List (HloOp τ sig (Elt F))).Forall Late := by late_ops
theorem late1_35 : (hostOps1_35 : List (HloOp τ sig (Elt F))).Forall Late := by late_ops
theorem late1_36 : (hostOps1_36 : List (HloOp τ sig (Elt F))).Forall Late := by late_ops
theorem late1_37 : (hostOps1_37 : List (HloOp τ sig (Elt F))).Forall Late := by late_ops
theorem late1_38 : (hostOps1_38 : List (HloOp τ sig (Elt F))).Forall Late := by late_ops
theorem late1_39 : (hostOps1_39 : List (HloOp τ sig (Elt F))).Forall Late := by late_ops
theorem late1_40 : (hostOps1_40 : List (HloOp τ sig (Elt F))).Forall Late := by late_ops
theorem late1_41 : (hostOps1_41 : List (HloOp τ sig (Elt F))).Forall Late := by late_ops
theorem late1_42 : (hostOps1_42 : List (HloOp τ sig (Elt F))).Forall Late := by late_ops
theorem late1_43 : (hostOps1_43 : List (HloOp τ sig (Elt F))).Forall Late := by late_ops
theorem late1_44 : (hostOps1_44 : List (HloOp τ sig (Elt F))).Forall Late := by late_ops
theorem late1_45 : (hostOps1_45 : List (HloOp τ sig (Elt F))).Forall Late := by late_ops
theorem late1_46 : (hostOps1_46 : List (HloOp τ sig (Elt F))).Forall Late := by late_ops
theorem late1_47 : (hostOps1_47 : List (HloOp τ sig (Elt F))).Forall Late := by late_ops
theorem late1_48 : (hostOps1_48 : List (HloOp τ sig (Elt F))).Forall Late := by late_ops
theorem late1_49 : (hostOps1_49 : List (HloOp τ sig (Elt F))).Forall Late := by late_ops
theorem late1_50 : (hostOps1_50 : List (HloOp τ sig (Elt F))).Forall Late := by late_ops
theorem late1_51 : (hostOps1_51 : List (HloOp τ sig (Elt F))).Forall Late := by late_ops
theorem late1_52 : (hostOps1_52 : List (HloOp τ sig (Elt F))).Forall Late := by late_ops
theorem late1_53 : (hostOps1_53 : List (HloOp τ sig (Elt F))).Forall Late := by late_ops
theorem late1_54 : (hostOps1_54 : List (HloOp τ sig (Elt F))).Forall Late := by late_ops
theorem late1_55 : (hostOps1_55 : List (HloOp τ sig (Elt F))).Forall Late := by late_ops
theorem late1_56 : (hostOps1_56 : List (HloOp τ sig (Elt F))).Forall Late := by late_ops
theorem late1_57 : (hostOps1_57 : List (HloOp τ sig (Elt F))).Forall Late := by late_ops
theorem late1_58 : (hostOps1_58 : List (HloOp τ sig (Elt F))).Forall Late := by late_ops
theorem late1_59 : (hostOps1_59 : List (HloOp τ sig (Elt F))).Forall Late := by late_ops
theorem late1_60 : (hostOps1_60 : List (HloOp τ sig (Elt F))).Forall Late := by late_ops
theorem late1_61 : (hostOps1_61 : List (HloOp τ sig (Elt F))).Forall Late := by late_ops
theorem late1_62 : (hostOps1_62 : List (HloOp τ sig (Elt F))).Forall Late := by late_ops
theorem late1_63 : (hostOps1_63 : List (HloOp τ sig (Elt F))).Forall Late := by late_ops
theorem late1_64 : (hostOps1_64 : List (HloOp τ sig (Elt F))).Forall Late := by late_ops
theorem late1_65 : (hostOps1_65 : List (HloOp τ sig (Elt F))).Forall Late := by late_ops
theorem late1_66 : (hostOps1_66 : List (HloOp τ sig (Elt F))).Forall Late := by late_ops
theorem late1_67 : (hostOps1_67 : List (HloOp τ sig (Elt F))).Forall Late := by late_ops
theorem late1_68 : (hostOps1_68 : List (HloOp τ sig (Elt F))).Forall Late := by late_ops
theorem late1_69 : (hostOps1_69 : List (HloOp τ sig (Elt F))).Forall Late := by late_ops
theorem late1_70 : (hostOps1_70 : List (HloOp τ sig (Elt F))).Forall Late := by late_ops
theorem late1_71 : (hostOps1_71 : List (HloOp τ sig (Elt F))).Forall Late := by late_ops
theorem late1_72 : (hostOps1_72 : List (HloOp τ sig (Elt F))).Forall Late := by late_ops
theorem late1_73 : (hostOps1_73 : List (HloOp τ sig (Elt F))).Forall Late := by late_ops
theorem late1_74 : (hostOps1_74 : List (HloOp τ sig (Elt F))).Forall Late := by late_ops
theorem late1_75 : (hostOps1_75 : List (HloOp τ sig (Elt F))).Forall Late := by late_ops
theorem late1_76 : (hostOps1_76 : List (HloOp τ sig (Elt F))).Forall Late := by late_ops
theorem late1_77 : (hostOps1_77 : List (HloOp τ sig (Elt F))).Forall Late := by late_ops
theorem late1_78 : (hostOps1_78 : List (HloOp τ sig (Elt F))).Forall Late := by late_ops
theorem late1_79 : (hostOps1_79 : List (HloOp τ sig (Elt F))).Forall Late := by late_ops
theorem late1_80 : (hostOps1_80 : List (HloOp τ sig (Elt F))).Forall Late := by late_ops
theorem late1_81 : (hostOps1_81 : List (HloOp τ sig (Elt F))).Forall Late := by late_ops
theorem late1_82 : (hostOps1_82 : List (HloOp τ sig (Elt F))).Forall Late := by late_ops
theorem late1_83 : (hostOps1_83 : List (HloOp τ sig (Elt F))).Forall Late := by late_ops
theorem late1_84 : (hostOps1_84 : List (HloOp τ sig (Elt F))).Forall Late := by late_ops
theorem late1_85 : (hostOps1_85 : List (HloOp τ sig (Elt F))).Forall Late := by late_ops
theorem late1_86 : (hostOps1_86 : List (HloOp τ sig (Elt F))).Forall Late := by late_ops
theorem late1_87 : (hostOps1_87 : List (HloOp τ sig (Elt F))).Forall Late := by late_ops
theorem late1_88 : (hostOps1_88 : List (HloOp τ sig (Elt F))).Forall Late := by late_ops
theorem late1_89 : (hostOps1_89 : List (HloOp τ sig (Elt F))).Forall Late := by late_ops

end Cert.KernelIdeal.Fr

end
-- ==== Proof.KI.HostB.lean ====
/- Cases: stretches hostOps1_90 .. hostOps1_176 after the region are lists of late operations. -/
import proofs.«404644_j25400436588780_1_alg».proof.Proof.KI.LaunchP
import proofs.«404644_j25400436588780_1_alg».proof.Proof.KI.HostLate

set_option maxRecDepth 16384

noncomputable section

namespace Cert.KernelIdeal.Fr

open Idealize.ShloMosaic Idealize.ShloMosaic.TcCoe
open Cert.KernelIdeal Cert.KernelIdeal.Gen Cert.KernelIdeal.GenP

variable {F : FTy → Type} [FloatOps F]

theorem late1_90 : (hostOps1_90 : List (HloOp τ sig (Elt F))).Forall Late := by late_ops
theorem late1_91 : (hostOps1_91 : List (HloOp τ sig (Elt F))).Forall Late := by late_ops
theorem late1_92 : (hostOps1_92 : List (HloOp τ sig (Elt F))).Forall Late := by late_ops
theorem late1_93 : (hostOps1_93 : List (HloOp τ sig (Elt F))).Forall Late := by late_ops
theorem late1_94 : (hostOps1_94 : List (HloOp τ sig (Elt F))).Forall Late := by late_ops
theorem late1_95 : (hostOps1_95 : List (HloOp τ sig (Elt F))).Forall Late := by late_ops
theorem late1_96 : (hostOps1_96 : List (HloOp τ sig (Elt F))).Forall Late := by late_ops
theorem late1_97 : (hostOps1_97 : List (HloOp τ sig (Elt F))).Forall Late := by late_ops
theorem late1_98 : (hostOps1_98 : List (HloOp τ sig (Elt F))).Forall Late := by late_ops
theorem late1_99 : (hostOps1_99 : List (HloOp τ sig (Elt F))).Forall Late := by late_ops
theorem late1_100 : (hostOps1_100 : List (HloOp τ sig (Elt F))).Forall Late := by late_ops
theorem late1_101 : (hostOps1_101 : List (HloOp τ sig (Elt F))).Forall Late := by late_ops
theorem late1_102 : (hostOps1_102 : List (HloOp τ sig (Elt F))).Forall Late := by late_ops
theorem late1_103 : (hostOps1_103 : List (HloOp τ sig (Elt F))).Forall Late := by late_ops
theorem late1_104 : (hostOps1_104 : List (HloOp τ sig (Elt F))).Forall Late := by late_ops
theorem late1_105 : (hostOps1_105 : List (HloOp τ sig (Elt F))).Forall Late := by late_ops
theorem late1_106 : (hostOps1_106 : List (HloOp τ sig (Elt F))).Forall Late := by late_ops
theorem late1_107 : (hostOps1_107 : List (HloOp τ sig (Elt F))).Forall Late := by late_ops
theorem late1_108 : (hostOps1_108 : List (HloOp τ sig (Elt F))).Forall Late := by late_ops
theorem late1_109 : (hostOps1_109 : List (HloOp τ sig (Elt F))).Forall Late := by late_ops
theorem late1_110 : (hostOps1_110 : List (HloOp τ sig (Elt F))).Forall Late := by late_ops
theorem late1_111 : (hostOps1_111 : List (HloOp τ sig (Elt F))).Forall Late := by late_ops
theorem late1_112 : (hostOps1_112 : List (HloOp τ sig (Elt F))).Forall Late := by late_ops
theorem late1_113 : (hostOps1_113 : List (HloOp τ sig (Elt F))).Forall Late := by late_ops
theorem late1_114 : (hostOps1_114 : List (HloOp τ sig (Elt F))).Forall Late := by late_ops
theorem late1_115 : (hostOps1_115 : List (HloOp τ sig (Elt F))).Forall Late := by late_ops
theorem late1_116 : (hostOps1_116 : List (HloOp τ sig (Elt F))).Forall Late := by late_ops
theorem late1_117 : (hostOps1_117 : List (HloOp τ sig (Elt F))).Forall Late := by late_ops
theorem late1_118 : (hostOps1_118 : List (HloOp τ sig (Elt F))).Forall Late := by late_ops
theorem late1_119 : (hostOps1_119 : List (HloOp τ sig (Elt F))).Forall Late := by late_ops
theorem late1_120 : (hostOps1_120 : List (HloOp τ sig (Elt F))).Forall Late := by late_ops
theorem late1_121 : (hostOps1_121 : List (HloOp τ sig (Elt F))).Forall Late := by late_ops
theorem late1_122 : (hostOps1_122 : List (HloOp τ sig (Elt F))).Forall Late := by late_ops
theorem late1_123 : (hostOps1_123 : List (HloOp τ sig (Elt F))).Forall Late := by late_ops
theorem late1_124 : (hostOps1_124 : List (HloOp τ sig (Elt F))).Forall Late := by late_ops
theorem late1_125 : (hostOps1_125 : List (HloOp τ sig (Elt F))).Forall Late := by late_ops
theorem late1_126 : (hostOps1_126 : List (HloOp τ sig (Elt F))).Forall Late := by late_ops
theorem late1_127 : (hostOps1_127 : List (HloOp τ sig (Elt F))).Forall Late := by late_ops
theorem late1_128 : (hostOps1_128 : List (HloOp τ sig (Elt F))).Forall Late := by late_ops
theorem late1_129 : (hostOps1_129 : List (HloOp τ sig (Elt F))).Forall Late := by late_ops
theorem late1_130 : (hostOps1_130 : List (HloOp τ sig (Elt F))).Forall Late := by late_ops
theorem late1_131 : (hostOps1_131 : List (HloOp τ sig (Elt F))).Forall Late := by late_ops
theorem late1_132 : (hostOps1_132 : List (HloOp τ sig (Elt F))).Forall Late := by late_ops
theorem late1_133 : (hostOps1_133 : List (HloOp τ sig (Elt F))).Forall Late := by late_ops
theorem late1_134 : (hostOps1_134 : List (HloOp τ sig (Elt F))).Forall Late := by late_ops
theorem late1_135 : (hostOps1_135 : List (HloOp τ sig (Elt F))).Forall Late := by late_ops
theorem late1_136 : (hostOps1_136 : List (HloOp τ sig (Elt F))).Forall Late := by late_ops
theorem late1_137 : (hostOps1_137 : List (HloOp τ sig (Elt F))).Forall Late := by late_ops
theorem late1_138 : (hostOps1_138 : List (HloOp τ sig (Elt F))).Forall Late := by late_ops
theorem late1_139 : (hostOps1_139 : List (HloOp τ sig (Elt F))).Forall Late := by late_ops
theorem late1_140 : (hostOps1_140 : List (HloOp τ sig (Elt F))).Forall Late := by late_ops
theorem late1_141 : (hostOps1_141 : List (HloOp τ sig (Elt F))).Forall Late := by late_ops
theorem late1_142 : (hostOps1_142 : List (HloOp τ sig (Elt F))).Forall Late := by late_ops
theorem late1_143 : (hostOps1_143 : List (HloOp τ sig (Elt F))).Forall Late := by late_ops
theorem late1_144 : (hostOps1_144 : List (HloOp τ sig (Elt F))).Forall Late := by late_ops
theorem late1_145 : (hostOps1_145 : List (HloOp τ sig (Elt F))).Forall Late := by late_ops
theorem late1_146 : (hostOps1_146 : List (HloOp τ sig (Elt F))).Forall Late := by late_ops
theorem late1_147 : (hostOps1_147 : List (HloOp τ sig (Elt F))).Forall Late := by late_ops
theorem late1_148 : (hostOps1_148 : List (HloOp τ sig (Elt F))).Forall Late := by late_ops
theorem late1_149 : (hostOps1_149 : List (HloOp τ sig (Elt F))).Forall Late := by late_ops
theorem late1_150 : (hostOps1_150 : List (HloOp τ sig (Elt F))).Forall Late := by late_ops
theorem late1_151 : (hostOps1_151 : List (HloOp τ sig (Elt F))).Forall Late := by late_ops
theorem late1_152 : (hostOps1_152 : List (HloOp τ sig (Elt F))).Forall Late := by late_ops
theorem late1_153 : (hostOps1_153 : List (HloOp τ sig (Elt F))).Forall Late := by late_ops
theorem late1_154 : (hostOps1_154 : List (HloOp τ sig (Elt F))).Forall Late := by late_ops
theorem late1_155 : (hostOps1_155 : List (HloOp τ sig (Elt F))).Forall Late := by late_ops
theorem late1_156 : (hostOps1_156 : List (HloOp τ sig (Elt F))).Forall Late := by late_ops
theorem late1_157 : (hostOps1_157 : List (HloOp τ sig (Elt F))).Forall Late := by late_ops
theorem late1_158 : (hostOps1_158 : List (HloOp τ sig (Elt F))).Forall Late := by late_ops
theorem late1_159 : (hostOps1_159 : List (HloOp τ sig (Elt F))).Forall Late := by late_ops
theorem late1_160 : (hostOps1_160 : List (HloOp τ sig (Elt F))).Forall Late := by late_ops
theorem late1_161 : (hostOps1_161 : List (HloOp τ sig (Elt F))).Forall Late := by late_ops
theorem late1_162 : (hostOps1_162 : List (HloOp τ sig (Elt F))).Forall Late := by late_ops
theorem late1_163 : (hostOps1_163 : List (HloOp τ sig (Elt F))).Forall Late := by late_ops
theorem late1_164 : (hostOps1_164 : List (HloOp τ sig (Elt F))).Forall Late := by late_ops
theorem late1_165 : (hostOps1_165 : List (HloOp τ sig (Elt F))).Forall Late := by late_ops
theorem late1_166 : (hostOps1_166 : List (HloOp τ sig (Elt F))).Forall Late := by late_ops
theorem late1_167 : (hostOps1_167 : List (HloOp τ sig (Elt F))).Forall Late := by late_ops
theorem late1_168 : (hostOps1_168 : List (HloOp τ sig (Elt F))).Forall Late := by late_ops
theorem late1_169 : (hostOps1_169 : List (HloOp τ sig (Elt F))).Forall Late := by late_ops
theorem late1_170 : (hostOps1_170 : List (HloOp τ sig (Elt F))).Forall Late := by late_ops
theorem late1_171 : (hostOps1_171 : List (HloOp τ sig (Elt F))).Forall Late := by late_ops
theorem late1_172 : (hostOps1_172 : List (HloOp τ sig (Elt F))).Forall Late := by late_ops
theorem late1_173 : (hostOps1_173 : List (HloOp τ sig (Elt F))).Forall Late := by late_ops
theorem late1_174 : (hostOps1_174 : List (HloOp τ sig (Elt F))).Forall Late := by late_ops
theorem late1_175 : (hostOps1_175 : List (HloOp τ sig (Elt F))).Forall Late := by late_ops
theorem late1_176 : (hostOps1_176 : List (HloOp τ sig (Elt F))).Forall Late := by late_ops

end Cert.KernelIdeal.Fr

end
-- ==== Proof.KI.HostC.lean ====
/- Cases: stretches hostOps1_177 .. hostOps1_264 after the region are lists of late operations. -/
import proofs.«404644_j25400436588780_1_alg».proof.Proof.KI.LaunchP
import proofs.«404644_j25400436588780_1_alg».proof.Proof.KI.HostLate

set_option maxRecDepth 16384

noncomputable section

namespace Cert.KernelIdeal.Fr

open Idealize.ShloMosaic Idealize.ShloMosaic.TcCoe
open Cert.KernelIdeal Cert.KernelIdeal.Gen Cert.KernelIdeal.GenP

variable {F : FTy → Type} [FloatOps F]

theorem late1_177 : (hostOps1_177 : List (HloOp τ sig (Elt F))).Forall Late := by late_ops
theorem late1_178 : (hostOps1_178 : List (HloOp τ sig (Elt F))).Forall Late := by late_ops
theorem late1_179 : (hostOps1_179 : List (HloOp τ sig (Elt F))).Forall Late := by late_ops
theorem late1_180 : (hostOps1_180 : List (HloOp τ sig (Elt F))).Forall Late := by late_ops
theorem late1_181 : (hostOps1_181 : List (HloOp τ sig (Elt F))).Forall Late := by late_ops
theorem late1_182 : (hostOps1_182 : List (HloOp τ sig (Elt F))).Forall Late := by late_ops
theorem late1_183 : (hostOps1_183 : List (HloOp τ sig (Elt F))).Forall Late := by late_ops
theorem late1_184 : (hostOps1_184 : List (HloOp τ sig (Elt F))).Forall Late := by late_ops
theorem late1_185 : (hostOps1_185 : List (HloOp τ sig (Elt F))).Forall Late := by late_ops
theorem late1_186 : (hostOps1_186 : List (HloOp τ sig (Elt F))).Forall Late := by late_ops
theorem late1_187 : (hostOps1_187 : List (HloOp τ sig (Elt F))).Forall Late := by late_ops
theorem late1_188 : (hostOps1_188 : List (HloOp τ sig (Elt F))).Forall Late := by late_ops
theorem late1_189 : (hostOps1_189 : List (HloOp τ sig (Elt F))).Forall Late := by late_ops
theorem late1_190 : (hostOps1_190 : List (HloOp τ sig (Elt F))).Forall Late := by late_ops
theorem late1_191 : (hostOps1_191 : List (HloOp τ sig (Elt F))).Forall Late := by late_ops
theorem late1_192 : (hostOps1_192 : List (HloOp τ sig (Elt F))).Forall Late := by late_ops
theorem late1_193 : (hostOps1_193 : List (HloOp τ sig (Elt F))).Forall Late := by late_ops
theorem late1_194 : (hostOps1_194 : List (HloOp τ sig (Elt F))).Forall Late := by late_ops
theorem late1_195 : (hostOps1_195 : List (HloOp τ sig (Elt F))).Forall Late := by late_ops
theorem late1_196 : (hostOps1_196 : List (HloOp τ sig (Elt F))).Forall Late := by late_ops
theorem late1_197 : (hostOps1_197 : List (HloOp τ sig (Elt F))).Forall Late := by late_ops
theorem late1_198 : (hostOps1_198 : List (HloOp τ sig (Elt F))).Forall Late := by late_ops
theorem late1_199 : (hostOps1_199 : List (HloOp τ sig (Elt F))).Forall Late := by late_ops
theorem late1_200 : (hostOps1_200 : List (HloOp τ sig (Elt F))).Forall Late := by late_ops
theorem late1_201 : (hostOps1_201 : List (HloOp τ sig (Elt F))).Forall Late := by late_ops
theorem late1_202 : (hostOps1_202 : List (HloOp τ sig (Elt F))).Forall Late := by late_ops
theorem late1_203 : (hostOps1_203 : List (HloOp τ sig (Elt F))).Forall Late := by late_ops
theorem late1_204 : (hostOps1_204 : List (HloOp τ sig (Elt F))).Forall Late := by late_ops
theorem late1_205 : (hostOps1_205 : List (HloOp τ sig (Elt F))).Forall Late := by late_ops
theorem late1_206 : (hostOps1_206 : List (HloOp τ sig (Elt F))).Forall Late := by late_ops
theorem late1_207 : (hostOps1_207 : List (HloOp τ sig (Elt F))).Forall Late := by late_ops
theorem late1_208 : (hostOps1_208 : List (HloOp τ sig (Elt F))).Forall Late := by late_ops
theorem late1_209 : (hostOps1_209 : List (HloOp τ sig (Elt F))).Forall Late := by late_ops
theorem late1_210 : (hostOps1_210 : List (HloOp τ sig (Elt F))).Forall Late := by late_ops
theorem late1_211 : (hostOps1_211 : List (HloOp τ sig (Elt F))).Forall Late := by late_ops
theorem late1_212 : (hostOps1_212 : List (HloOp τ sig (Elt F))).Forall Late := by late_ops
theorem late1_213 : (hostOps1_213 : List (HloOp τ sig (Elt F))).Forall Late := by late_ops
theorem late1_214 : (hostOps1_214 : List (HloOp τ sig (Elt F))).Forall Late := by late_ops
theorem late1_215 : (hostOps1_215 : List (HloOp τ sig (Elt F))).Forall Late := by late_ops
theorem late1_216 : (hostOps1_216 : List (HloOp τ sig (Elt F))).Forall Late := by late_ops
theorem late1_217 : (hostOps1_217 : List (HloOp τ sig (Elt F))).Forall Late := by late_ops
theorem late1_218 : (hostOps1_218 : List (HloOp τ sig (Elt F))).Forall Late := by late_ops
theorem late1_219 : (hostOps1_219 : List (HloOp τ sig (Elt F))).Forall Late := by late_ops
theorem late1_220 : (hostOps1_220 : List (HloOp τ sig (Elt F))).Forall Late := by late_ops
theorem late1_221 : (hostOps1_221 : List (HloOp τ sig (Elt F))).Forall Late := by late_ops
theorem late1_222 : (hostOps1_222 : List (HloOp τ sig (Elt F))).Forall Late := by late_ops
theorem late1_223 : (hostOps1_223 : List (HloOp τ sig (Elt F))).Forall Late := by late_ops
theorem late1_224 : (hostOps1_224 : List (HloOp τ sig (Elt F))).Forall Late := by late_ops
theorem late1_225 : (hostOps1_225 : List (HloOp τ sig (Elt F))).Forall Late := by late_ops
theorem late1_226 : (hostOps1_226 : List (HloOp τ sig (Elt F))).Forall Late := by late_ops
theorem late1_227 : (hostOps1_227 : List (HloOp τ sig (Elt F))).Forall Late := by late_ops
theorem late1_228 : (hostOps1_228 : List (HloOp τ sig (Elt F))).Forall Late := by late_ops
theorem late1_229 : (hostOps1_229 : List (HloOp τ sig (Elt F))).Forall Late := by late_ops
theorem late1_230 : (hostOps1_230 : List (HloOp τ sig (Elt F))).Forall Late := by late_ops
theorem late1_231 : (hostOps1_231 : List (HloOp τ sig (Elt F))).Forall Late := by late_ops
theorem late1_232 : (hostOps1_232 : List (HloOp τ sig (Elt F))).Forall Late := by late_ops
theorem late1_233 : (hostOps1_233 : List (HloOp τ sig (Elt F))).Forall Late := by late_ops
theorem late1_234 : (hostOps1_234 : List (HloOp τ sig (Elt F))).Forall Late := by late_ops
theorem late1_235 : (hostOps1_235 : List (HloOp τ sig (Elt F))).Forall Late := by late_ops
theorem late1_236 : (hostOps1_236 : List (HloOp τ sig (Elt F))).Forall Late := by late_ops
theorem late1_237 : (hostOps1_237 : List (HloOp τ sig (Elt F))).Forall Late := by late_ops
theorem late1_238 : (hostOps1_238 : List (HloOp τ sig (Elt F))).Forall Late := by late_ops
theorem late1_239 : (hostOps1_239 : List (HloOp τ sig (Elt F))).Forall Late := by late_ops
theorem late1_240 : (hostOps1_240 : List (HloOp τ sig (Elt F))).Forall Late := by late_ops
theorem late1_241 : (hostOps1_241 : List (HloOp τ sig (Elt F))).Forall Late := by late_ops
theorem late1_242 : (hostOps1_242 : List (HloOp τ sig (Elt F))).Forall Late := by late_ops
theorem late1_243 : (hostOps1_243 : List (HloOp τ sig (Elt F))).Forall Late := by late_ops
theorem late1_244 : (hostOps1_244 : List (HloOp τ sig (Elt F))).Forall Late := by late_ops
theorem late1_245 : (hostOps1_245 : List (HloOp τ sig (Elt F))).Forall Late := by late_ops
theorem late1_246 : (hostOps1_246 : List (HloOp τ sig (Elt F))).Forall Late := by late_ops
theorem late1_247 : (hostOps1_247 : List (HloOp τ sig (Elt F))).Forall Late := by late_ops
theorem late1_248 : (hostOps1_248 : List (HloOp τ sig (Elt F))).Forall Late := by late_ops
theorem late1_249 : (hostOps1_249 : List (HloOp τ sig (Elt F))).Forall Late := by late_ops
theorem late1_250 : (hostOps1_250 : List (HloOp τ sig (Elt F))).Forall Late := by late_ops
theorem late1_251 : (hostOps1_251 : List (HloOp τ sig (Elt F))).Forall Late := by late_ops
theorem late1_252 : (hostOps1_252 : List (HloOp τ sig (Elt F))).Forall Late := by late_ops
theorem late1_253 : (hostOps1_253 : List (HloOp τ sig (Elt F))).Forall Late := by late_ops
theorem late1_254 : (hostOps1_254 : List (HloOp τ sig (Elt F))).Forall Late := by late_ops
theorem late1_255 : (hostOps1_255 : List (HloOp τ sig (Elt F))).Forall Late := by late_ops
theorem late1_256 : (hostOps1_256 : List (HloOp τ sig (Elt F))).Forall Late := by late_ops
theorem late1_257 : (hostOps1_257 : List (HloOp τ sig (Elt F))).Forall Late := by late_ops
theorem late1_258 : (hostOps1_258 : List (HloOp τ sig (Elt F))).Forall Late := by late_ops
theorem late1_259 : (hostOps1_259 : List (HloOp τ sig (Elt F))).Forall Late := by late_ops
theorem late1_260 : (hostOps1_260 : List (HloOp τ sig (Elt F))).Forall Late := by late_ops
theorem late1_261 : (hostOps1_261 : List (HloOp τ sig (Elt F))).Forall Late := by late_ops
theorem late1_262 : (hostOps1_262 : List (HloOp τ sig (Elt F))).Forall Late := by late_ops
theorem late1_263 : (hostOps1_263 : List (HloOp τ sig (Elt F))).Forall Late := by late_ops
theorem late1_264 : (hostOps1_264 : List (HloOp τ sig (Elt F))).Forall Late := by late_ops

end Cert.KernelIdeal.Fr

end
-- ==== Proof.KI.HostT.lean ====
/- Cases: the 265 stretches after the region, in order. -/
import proofs.«404644_j25400436588780_1_alg».proof.Proof.KI.HostA
import proofs.«404644_j25400436588780_1_alg».proof.Proof.KI.HostB
import proofs.«404644_j25400436588780_1_alg».proof.Proof.KI.HostC

set_option maxRecDepth 16384

noncomputable section

namespace Cert.KernelIdeal.Fr

open Idealize.ShloMosaic Idealize.ShloMosaic.TcCoe
open Cert.KernelIdeal Cert.KernelIdeal.Gen Cert.KernelIdeal.GenP

variable {F : FTy → Type} [FloatOps F]

/-- Every stretch after the region is a list of late operations. -/
theorem tail_late : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264] : List (List (HloOp τ sig (Elt F)))).Forall (fun ops => ops.Forall Late) :=
  ⟨late1, late1_1, late1_2, late1_3, late1_4, late1_5, late1_6, late1_7, late1_8, late1_9, late1_10, late1_11, late1_12, late1_13, late1_14, late1_15, late1_16, late1_17, late1_18, late1_19, late1_20, late1_21, late1_22, late1_23, late1_24, late1_25, late1_26, late1_27, late1_28, late1_29, late1_30, late1_31, late1_32, late1_33, late1_34, late1_35, late1_36, late1_37, late1_38, late1_39, late1_40, late1_41, late1_42, late1_43, late1_44, late1_45, late1_46, late1_47, late1_48, late1_49, late1_50, late1_51, late1_52, late1_53, late1_54, late1_55, late1_56, late1_57, late1_58, late1_59, late1_60, late1_61, late1_62, late1_63, late1_64, late1_65, late1_66, late1_67, late1_68, late1_69, late1_70, late1_71, late1_72, late1_73, late1_74, late1_75, late1_76, late1_77, late1_78, late1_79, late1_80, late1_81, late1_82, late1_83, late1_84, late1_85, late1_86, late1_87, late1_88, late1_89, late1_90, late1_91, late1_92, late1_93, late1_94, late1_95, late1_96, late1_97, late1_98, late1_99, late1_100, late1_101, late1_102, late1_103, late1_104, late1_105, late1_106, late1_107, late1_108, late1_109, late1_110, late1_111, late1_112, late1_113, late1_114, late1_115, late1_116, late1_117, late1_118, late1_119, late1_120, late1_121, late1_122, late1_123, late1_124, late1_125, late1_126, late1_127, late1_128, late1_129, late1_130, late1_131, late1_132, late1_133, late1_134, late1_135, late1_136, late1_137, late1_138, late1_139, late1_140, late1_141, late1_142, late1_143, late1_144, late1_145, late1_146, late1_147, late1_148, late1_149, late1_150, late1_151, late1_152, late1_153, late1_154, late1_155, late1_156, late1_157, late1_158, late1_159, late1_160, late1_161, late1_162, late1_163, late1_164, late1_165, late1_166, late1_167, late1_168, late1_169, late1_170, late1_171, late1_172, late1_173, late1_174, late1_175, late1_176, late1_177, late1_178, late1_179, late1_180, late1_181, late1_182, late1_183, late1_184, late1_185, late1_186, late1_187, late1_188, late1_189, late1_190, late1_191, late1_192, late1_193, late1_194, late1_195, late1_196, late1_197, late1_198, late1_199, late1_200, late1_201, late1_202, late1_203, late1_204, late1_205, late1_206, late1_207, late1_208, late1_209, late1_210, late1_211, late1_212, late1_213, late1_214, late1_215, late1_216, late1_217, late1_218, late1_219, late1_220, late1_221, late1_222, late1_223, late1_224, late1_225, late1_226, late1_227, late1_228, late1_229, late1_230, late1_231, late1_232, late1_233, late1_234, late1_235, late1_236, late1_237, late1_238, late1_239, late1_240, late1_241, late1_242, late1_243, late1_244, late1_245, late1_246, late1_247, late1_248, late1_249, late1_250, late1_251, late1_252, late1_253, late1_254, late1_255, late1_256, late1_257, late1_258, late1_259, late1_260, late1_261, late1_262, late1_263, late1_264⟩

/-- Every operation after the region touches TensorCore references only. -/
theorem tail_sub : ([hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264] : List (List (HloOp τ sig (Elt F)))).Forall (fun ops => ops.Forall fun op => op.bufs ⊆ StableHlo.tcRefs τ sig) :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub, hostOps1_37_sub, hostOps1_38_sub, hostOps1_39_sub, hostOps1_40_sub, hostOps1_41_sub, hostOps1_42_sub, hostOps1_43_sub, hostOps1_44_sub, hostOps1_45_sub, hostOps1_46_sub, hostOps1_47_sub, hostOps1_48_sub, hostOps1_49_sub, hostOps1_50_sub, hostOps1_51_sub, hostOps1_52_sub, hostOps1_53_sub, hostOps1_54_sub, hostOps1_55_sub, hostOps1_56_sub, hostOps1_57_sub, hostOps1_58_sub, hostOps1_59_sub, hostOps1_60_sub, hostOps1_61_sub, hostOps1_62_sub, hostOps1_63_sub, hostOps1_64_sub, hostOps1_65_sub, hostOps1_66_sub, hostOps1_67_sub, hostOps1_68_sub, hostOps1_69_sub, hostOps1_70_sub, hostOps1_71_sub, hostOps1_72_sub, hostOps1_73_sub, hostOps1_74_sub, hostOps1_75_sub, hostOps1_76_sub, hostOps1_77_sub, hostOps1_78_sub, hostOps1_79_sub, hostOps1_80_sub, hostOps1_81_sub, hostOps1_82_sub, hostOps1_83_sub, hostOps1_84_sub, hostOps1_85_sub, hostOps1_86_sub, hostOps1_87_sub, hostOps1_88_sub, hostOps1_89_sub, hostOps1_90_sub, hostOps1_91_sub, hostOps1_92_sub, hostOps1_93_sub, hostOps1_94_sub, hostOps1_95_sub, hostOps1_96_sub, hostOps1_97_sub, hostOps1_98_sub, hostOps1_99_sub, hostOps1_100_sub, hostOps1_101_sub, hostOps1_102_sub, hostOps1_103_sub, hostOps1_104_sub, hostOps1_105_sub, hostOps1_106_sub, hostOps1_107_sub, hostOps1_108_sub, hostOps1_109_sub, hostOps1_110_sub, hostOps1_111_sub, hostOps1_112_sub, hostOps1_113_sub, hostOps1_114_sub, hostOps1_115_sub, hostOps1_116_sub, hostOps1_117_sub, hostOps1_118_sub, hostOps1_119_sub, hostOps1_120_sub, hostOps1_121_sub, hostOps1_122_sub, hostOps1_123_sub, hostOps1_124_sub, hostOps1_125_sub, hostOps1_126_sub, hostOps1_127_sub, hostOps1_128_sub, hostOps1_129_sub, hostOps1_130_sub, hostOps1_131_sub, hostOps1_132_sub, hostOps1_133_sub, hostOps1_134_sub, hostOps1_135_sub, hostOps1_136_sub, hostOps1_137_sub, hostOps1_138_sub, hostOps1_139_sub, hostOps1_140_sub, hostOps1_141_sub, hostOps1_142_sub, hostOps1_143_sub, hostOps1_144_sub, hostOps1_145_sub, hostOps1_146_sub, hostOps1_147_sub, hostOps1_148_sub, hostOps1_149_sub, hostOps1_150_sub, hostOps1_151_sub, hostOps1_152_sub, hostOps1_153_sub, hostOps1_154_sub, hostOps1_155_sub, hostOps1_156_sub, hostOps1_157_sub, hostOps1_158_sub, hostOps1_159_sub, hostOps1_160_sub, hostOps1_161_sub, hostOps1_162_sub, hostOps1_163_sub, hostOps1_164_sub, hostOps1_165_sub, hostOps1_166_sub, hostOps1_167_sub, hostOps1_168_sub, hostOps1_169_sub, hostOps1_170_sub, hostOps1_171_sub, hostOps1_172_sub, hostOps1_173_sub, hostOps1_174_sub, hostOps1_175_sub, hostOps1_176_sub, hostOps1_177_sub, hostOps1_178_sub, hostOps1_179_sub, hostOps1_180_sub, hostOps1_181_sub, hostOps1_182_sub, hostOps1_183_sub, hostOps1_184_sub, hostOps1_185_sub, hostOps1_186_sub, hostOps1_187_sub, hostOps1_188_sub, hostOps1_189_sub, hostOps1_190_sub, hostOps1_191_sub, hostOps1_192_sub, hostOps1_193_sub, hostOps1_194_sub, hostOps1_195_sub, hostOps1_196_sub, hostOps1_197_sub, hostOps1_198_sub, hostOps1_199_sub, hostOps1_200_sub, hostOps1_201_sub, hostOps1_202_sub, hostOps1_203_sub, hostOps1_204_sub, hostOps1_205_sub, hostOps1_206_sub, hostOps1_207_sub, hostOps1_208_sub, hostOps1_209_sub, hostOps1_210_sub, hostOps1_211_sub, hostOps1_212_sub, hostOps1_213_sub, hostOps1_214_sub, hostOps1_215_sub, hostOps1_216_sub, hostOps1_217_sub, hostOps1_218_sub, hostOps1_219_sub, hostOps1_220_sub, hostOps1_221_sub, hostOps1_222_sub, hostOps1_223_sub, hostOps1_224_sub, hostOps1_225_sub, hostOps1_226_sub, hostOps1_227_sub, hostOps1_228_sub, hostOps1_229_sub, hostOps1_230_sub, hostOps1_231_sub, hostOps1_232_sub, hostOps1_233_sub, hostOps1_234_sub, hostOps1_235_sub, hostOps1_236_sub, hostOps1_237_sub, hostOps1_238_sub, hostOps1_239_sub, hostOps1_240_sub, hostOps1_241_sub, hostOps1_242_sub, hostOps1_243_sub, hostOps1_244_sub, hostOps1_245_sub, hostOps1_246_sub, hostOps1_247_sub, hostOps1_248_sub, hostOps1_249_sub, hostOps1_250_sub, hostOps1_251_sub, hostOps1_252_sub, hostOps1_253_sub, hostOps1_254_sub, hostOps1_255_sub, hostOps1_256_sub, hostOps1_257_sub, hostOps1_258_sub, hostOps1_259_sub, hostOps1_260_sub, hostOps1_261_sub, hostOps1_262_sub, hostOps1_263_sub, hostOps1_264_sub⟩

end Cert.KernelIdeal.Fr

end
-- ==== Proof.KI.Host.lean ====
/- The host side of the program's run around its one kernel region: the operations before the region give the
   contents the region finds; the operations after it touch neither a staged array's contents nor a scoped buffer,
   allocate nothing, and write only their own result buffers. -/
import proofs.«404644_j25400436588780_1_alg».proof.Proof.KI.LaunchP
import proofs.«404644_j25400436588780_1_alg».proof.Proof.KI.HostT
import Idealize.ShloMosaic.Lib.Pipeline.FrameSuffix

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen Cert.KernelIdeal.GenP

variable {F : FTy → Type} [FloatOps F]

/-- The stretches of host operations before the region, in order. -/
abbrev preOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- The stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264]

/-- Every operation before the region touches TensorCore references only. -/
theorem pre_sub : (preOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩

/-- None of them allocates: each is a builder that writes its one result from its operands. -/
theorem pre_fresh : (preOps : List (List (HloOp τ sig (Elt F)))).Forall fun ops => ops.Forall fun op => op.fresh = ∅ := by
  simp only [List.Forall]; repeat' constructor

/-- An operation after the region, as a late operation: it allocates nothing and its one result is no array of the region. -/
theorem tail_late_mem : ∀ ops ∈ (tailOps : List (List (HloOp τ sig (Elt F)))), ∀ op ∈ ops, Late op := fun ops hops op hop =>
  List.forall_iff_forall_mem.mp (List.forall_iff_forall_mem.mp tail_late ops hops) op hop

variable (m : (ℓ : Loc nD τ sig) → Buf (Elt F) ℓ)

/-- A core's buffer contents when the region is entered: the launch contents after the operations before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- The program is: the operations before the region, the region, the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps pre_sub pre_fresh main_chain

/-- The operations after the region touch only the region's arrays and the buffers that bypass it. -/
theorem sfx_sub : ∀ ops ∈ (tailOps : List (List (HloOp τ sig (Elt F)))), ∀ op ∈ ops,
    op.bufs ⊆ Pipeline.tailRefs sig Pipeline.Prefetch.none spec0 := by
  -- with nothing prefetched, the references a later line may touch are all the unscoped ones
  rw [Pipeline.tailRefs_none spec0 launch0.win.arr_unscoped]
  intro ops hops op hop
  exact Pipeline.sub_ucRefs op (List.forall_iff_forall_mem.mp (List.forall_iff_forall_mem.mp tail_sub ops hops) op hop)

/-- They allocate nothing. -/
theorem sfx_fresh : ∀ ops ∈ (tailOps : List (List (HloOp τ sig (Elt F)))), ∀ op ∈ ops, op.fresh = ∅ :=
  fun ops hops op hop => (tail_late_mem ops hops op hop).fresh_eq

/-- And none writes an array of the region: each writes its own result buffer, which is none of them. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_late_mem ops hops op hop).keeps w

end Cert.KernelIdeal.Fr

end
-- ==== Proof.KI.Frame.lean ====
/- The frame run of the program's @main: what the accumulator's staging buffer holds after the body at each grid point
   (the reset at the first, the carry-over from the point before at the others), the pipeline's proof data, the body's
   obligation at a generic point, and the run of @main — the host operations before the region, the region, the host
   operations after it — to the frame's post; then each case's found pieces read as one value of the payloads. -/
import proofs.«404644_j25400436588780_1_alg».proof.Proof.KI.RunB
import proofs.«404644_j25400436588780_1_alg».proof.Proof.KI.Host
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    region-entry contents and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    region-entry contents and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    region-entry contents and whose body leaves the block in place: the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    region-entry contents and whose body leaves the block in place: the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    region-entry contents and whose body leaves the block in place: the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, for any proof data whose array is the
    region-entry contents and whose body leaves the block in place: the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What each case leaves in the accumulator -/

/-- At the first point the body's two stores into the accumulator each write its one entry: they cover it. -/
theorem cover0_A_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6 x7 x8).1 S1x1.size (by sl_kernel_rfl) y

/-- What the first point leaves in the accumulator's staging buffer: its pieces read back over junk. -/
def out0_A_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3 x4 x5 x6 x7 x8).1)

/-- At a later point the body's one store into the accumulator writes its one entry: it covers it. -/
theorem cover0_B_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1 S1x1.size (by sl_kernel_rfl) y

/-- What a later point leaves in the accumulator's staging buffer: its piece read back over junk. -/
def out0_B_9 (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 x4 x5 x6 x7 x8 xo9).1)

/-! ## What the accumulator holds after each point -/

/-- THE ACCUMULATION. What the accumulator's staging buffer holds after the body at position `n`: at the first point
    the reset case run at the point's memrefs and input blocks; at a later point the carry-over case, run over what
    this leaves at `n - 1` (the buffer is not written back between). -/
def outsAt0 (c : Dev nD) : (n : ℕ) → n < cfg0.N → Vec F S1x1 .f32
  | 0, hn => out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)
  | n + 1, hn =>
    if h0 : (n + 1) % 16 = 0 then
      out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)
    else
      out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn))

/-- `outsAt0` at the first point: the reset case's contents. -/
theorem outsAt0_A (c : Dev nD) (t : Fin cfg0.N) (h0 : t.val % 16 = 0) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

/-- `outsAt0` at a later point: the carry-over case's contents, over what the point before left. -/
theorem outsAt0_B (c : Dev nD) (t : Fin cfg0.N) (h0 : ¬t.val % 16 = 0) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the accumulator's at `outsAt0`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point after the first the accumulator's staging buffer holds what the body left at the point before: the buffer
    is written back at the last point only, and the window is live and uncut. -/
theorem before0_9_B (c : Dev nD) (t : Fin cfg0.N) (h0 : ¬t.val % 16 = 0) (d) :
    (dats m 0 c).before 9 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks; the closed form says which case the point is in; at a
    later point the accumulator holds what the point before left; so the case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 16 := lt_of_lt_of_eq t.isLt (show cfg0.N = 16 from N_0)
  by_cases h0 : t.val % 16 = 0
  · rw [outsAt0_A m c t h0]
    unfold out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B m c t h0]
    simp only [before0_9_B m c t h0]
    unfold out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Each case's found pieces as one value -/

/-- The offsets of the body's loads and stores are zero: each reads or writes a whole block. -/
theorem zeroOff2 : (![0, 0] : Fin 2 → Nat) = fun _ => 0 := funext fun a => by fin_cases a <;> rfl
theorem zeroOff1 : (![0] : Fin 1 → Nat) = fun _ => 0 := funext fun a => by fin_cases a <;> rfl

/-- THE BODY'S UPDATE as the payloads compute it from the input blocks (the three category-code blocks `x0 x1 x2`, the
    volume columns `x3 x4 x5 x6 x8`; the body never loads the column `x7`) and the accumulator's contents `acc` before
    the update: the fourteen masked sums added one after another to the zero block, and that total added to `acc`. -/
def bodyVal (x0 x1 x2 : Vec F S262144 .i32) (x3 x4 x5 x6 x8 : Vec F S262144 .f32) (acc : Vec F S1x1 .f32) : Vec F S1x1 .f32 :=
  k0_pay23 (k0_pay1 x0) (k0_pay2 x1) (k0_pay3 x2) (k0_pay5 x4) (k0_pay6 x5) (k0_pay8 x8)
    (k0_pay20 (k0_pay1 x0) (k0_pay2 x1) (k0_pay3 x2) (k0_pay5 x4) (k0_pay6 x5) (k0_pay8 x8)
      (k0_pay17 (k0_pay1 x0) (k0_pay2 x1) (k0_pay3 x2) (k0_pay4 x3) (k0_pay5 x4) (k0_pay6 x5) (k0_pay7 x6) (k0_pay8 x8)
        (k0_pay13 (k0_pay1 x0) (k0_pay2 x1) (k0_pay3 x2) (k0_pay4 x3) (k0_pay7 x6) (k0_pay8 x8)
          (k0_pay12 (k0_pay1 x0) (k0_pay2 x1) (k0_pay3 x2) (k0_pay4 x3) (k0_pay7 x6) (k0_pay8 x8)
            (k0_pay9 x0 x1 x2 x3 x6 x8) (k0_pay10 x0 x1) (k0_pay11 x2))
          2#32)
        (k0_pay14 (k0_pay1 x0) (k0_pay2 x1) (k0_pay3 x2))
        (k0_pay15 (k0_pay4 x3) (k0_pay7 x6) (k0_pay8 x8))
        k0_pay16)
      (k0_pay18 (k0_pay1 x0))
      (k0_pay19 (k0_pay2 x1)))
    (k0_pay21 (k0_pay1 x0) (k0_pay2 x1) (k0_pay3 x2) (k0_pay5 x4) (k0_pay6 x5) (k0_pay8 x8))
    acc

/-- At a point after the first the body leaves, in the accumulator's staging buffer holding `xo9`, the update of `xo9`
    by the point's blocks: its one covering store's payload, whose loads read the whole buffers. -/
theorem out0_B_9_eq (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : ¬cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) (xo9 : Vec F S1x1 .f32) :
    out0_B_9 c i arg1 harg1 arg2 harg2 arg3 harg3 arg4 harg4 arg5 harg5 arg6 harg6 arg7 harg7 arg8 harg8 arg9 harg9 arg10 harg10 hc0 x0 x1 x2 x3 x4 x5 x6 x7 x8 xo9 = bodyVal x0 x1 x2 x3 x4 x5 x6 x8 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 x7 x8 xo9)]
  unfold kernelRun0_B
  dsimp only
  sl_unfold_words
  rw [View.canon_unit_zero zeroOff2]
  unfold bodyVal
  simp only [View.readAt_eq_ld, harg1.read_unread, harg2.read_unread, harg3.read_unread, harg4.read_unread, harg5.read_unread, harg6.read_unread, harg7.read_unread, harg8.read_unread, harg9.read_unread, harg10.read_unread, View.ld_unit_zero (S := S262144) zeroOff1, View.ld_unit_zero (S := S1x1) zeroOff2]

/-- At the first point the body stores the zero block, reads it back, and leaves the update of the zero block by the
    point's blocks: the later of its two stores covers the accumulator. -/
theorem out0_A_9_eq (c : Dev nD) (i : grid0.Coords) (arg1 : Memref sig .tc .vmem S262144 .i32) (harg1 : arg1.IsWhole) (arg2 : Memref sig .tc .vmem S262144 .i32) (harg2 : arg2.IsWhole) (arg3 : Memref sig .tc .vmem S262144 .i32) (harg3 : arg3.IsWhole) (arg4 : Memref sig .tc .vmem S262144 .f32) (harg4 : arg4.IsWhole) (arg5 : Memref sig .tc .vmem S262144 .f32) (harg5 : arg5.IsWhole) (arg6 : Memref sig .tc .vmem S262144 .f32) (harg6 : arg6.IsWhole) (arg7 : Memref sig .tc .vmem S262144 .f32) (harg7 : arg7.IsWhole) (arg8 : Memref sig .tc .vmem S262144 .f32) (harg8 : arg8.IsWhole) (arg9 : Memref sig .tc .vmem S262144 .f32) (harg9 : arg9.IsWhole) (arg10 : Memref sig .tc .vmem S1x1 .f32) (harg10 : arg10.IsWhole) (hc0 : cond0_0 i)
    (x0 : Vec F S262144 .i32) (x1 : Vec F S262144 .i32) (x2 : Vec F S262144 .i32) (x3 : Vec F S262144 .f32) (x4 : Vec F S262144 .f32) (x5 : Vec F S262144 .f32) (x6 : Vec F S262144 .f32) (x7 : Vec F S262144 .f32) (x8 : Vec F S262144 .f32) :
    out0_A_9 c i arg1 harg1 arg2 harg2 arg3 harg3 arg4 harg4 arg5 harg5 arg6 harg6 arg7 harg7 arg8 harg8 arg9 harg9 arg10 harg10 hc0 x0 x1 x2 x3 x4 x5 x6 x7 x8 = bodyVal x0 x1 x2 x3 x4 x5 x6 x8 k0_pay22 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6 x7 x8)]
  unfold kernelRun0_A
  dsimp only
  sl_unfold_words
  rw [View.canon_cons_unit_zero (S := S1x1) zeroOff2, View.readCov_unit_zero (S := S1x1) _ zeroOff2]
  unfold bodyVal
  simp only [View.readAt_eq_ld, harg1.read_unread, harg2.read_unread, harg3.read_unread, harg4.read_unread, harg5.read_unread, harg6.read_unread, harg7.read_unread, harg8.read_unread, harg9.read_unread, View.ld_unit_zero (S := S262144) zeroOff1]

/-! ## The accumulator after each point, in closed form -/

/-- The accumulator after point `n`: the update of the zero block by the first point's blocks, then of that by each
    later point's, in point order. -/
def accAt (c : Dev nD) : (n : ℕ) → n < cfg0.N → Vec F S1x1 .f32
  | 0, h => bodyVal (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 8 ⟨0, h⟩) k0_pay22
  | n + 1, h => bodyVal (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 8 ⟨n + 1, h⟩) (accAt c n (Nat.lt_of_succ_lt h))

/-- What the accumulator's staging buffer holds after point `n` is that closed form: by induction on the point. -/
theorem outsAt0_eq (c : Dev nD) : ∀ (n : ℕ) (h : n < cfg0.N), outsAt0 m c n h = accAt m c n h
  | 0, h => (outsAt0_A m c ⟨0, h⟩ rfl).trans
      (out0_A_9_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩))
  | n + 1, h => by
    have hN : cfg0.N = 16 := N_0
    have hB : ¬(⟨n + 1, h⟩ : Fin cfg0.N).val % 16 = 0 := by dsimp only; omega
    rw [outsAt0_B m c ⟨n + 1, h⟩ hB]
    refine (out0_B_9_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (outsAt0 m c n (Nat.lt_of_succ_lt h))).trans ?_
    exact congrArg (bodyVal (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 8 ⟨n + 1, h⟩)) (outsAt0_eq c n (Nat.lt_of_succ_lt h))

/-! ## The run -/

set_option backward.isDefEq.respectTransparency.types false in
/-- At the compiled mesh, for any values, from any memory with zero counters: every weakly fair execution of @main on the
    TensorCores terminates, and every final state has every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

end Cert.KernelIdeal.Fr

end
-- ==== Proof.KI.FrameArgs.lean ====
/- The seven arguments of the program end as they were launched. The run around the region leaves every buffer the
   region does not stage as the operations after the region leave it, started from the contents at the region's entry
   with the region's arrays put in. No operation after the region writes an argument, an argument is no array of the
   region, and no operation before the region writes an argument. -/
import proofs.«404644_j25400436588780_1_alg».proof.Proof.KI.Frame
import Idealize.ShloMosaic.Lib.StableHlo.Run

set_option maxRecDepth 16384
set_option maxHeartbeats 4000000

noncomputable section

namespace Cert.KernelIdeal.Fr

open Cert.KernelIdeal Cert.KernelIdeal.Gen Cert.KernelIdeal.GenP
open Idealize.ShloMosaic Idealize.ShloMosaic.TcCoe Idealize.SL.Sem
open Idealize.ShloMosaic.StableHlo

variable {F : FTy → Type} [FloatOps F]
variable (m : (ℓ : Loc nD τ sig) → Buf (Elt F) ℓ)

/-! ## What the operations after the region start from -/

/-- The contents on core `c` when the region is left: those at its entry, with every array of the region at what the
    region leaves in it. -/
abbrev X (c : Dev nD) : Valuation τ sig (Elt F) :=
  Pipeline.withArrays (cfgs 0).spec c (V0 m c) fun w => (dats m 0 c).arrAt w (cfgs 0).N

/-- An array of the region holds what the region leaves in it. -/
theorem X_arr (c : Dev nD) (w : Fin 10) :
    X m c (Proc.devRef .tc (Pipeline.arrRef spec0 w)) = (dats m 0 c).arrAt w cfg0.N :=
  Pipeline.withArrays_arr spec0 launch0.win.arr_inj c _ _ w

/-- An array the region only reads holds what it held at the region's entry. -/
theorem X_in (c : Dev nD) (w : Fin 10) (hin : (cfg0.win w).isOut = false) :
    X m c (Proc.devRef .tc (Pipeline.arrRef spec0 w)) = V m c (Pipeline.arrRef spec0 w) := by
  rw [X_arr, (dats m 0 c).arrAt_in w hin, A_eq]

/-- A buffer that is no array of the region holds what it held at the region's entry. -/
theorem X_ne (c : Dev nD) (b : Ref sig .tc) (hb : ∀ w, Pipeline.arrRef spec0 w ≠ b) :
    X m c (Proc.devRef .tc b) = V0 m c (Proc.devRef .tc b) :=
  Pipeline.withArrays_of_ne spec0 c _ _ b hb

/-! ## No operation before the region writes an argument -/

local macro "open_pre" : tactic =>
  `(tactic| (dsimp only [V0]
             simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil,
               List.cons_append, List.nil_append]))

theorem V0_arg0 (c : Dev nD) : V0 m c (Proc.devRef .tc main_arg0) = m ((c.tc : Thread nD τ).loc main_arg0) := by
  open_pre
  after_results

theorem V0_arg1 (c : Dev nD) : V0 m c (Proc.devRef .tc main_arg1) = m ((c.tc : Thread nD τ).loc main_arg1) := by
  open_pre
  after_results

theorem V0_arg2 (c : Dev nD) : V0 m c (Proc.devRef .tc main_arg2) = m ((c.tc : Thread nD τ).loc main_arg2) := by
  open_pre
  after_results

theorem V0_arg3 (c : Dev nD) : V0 m c (Proc.devRef .tc main_arg3) = m ((c.tc : Thread nD τ).loc main_arg3) := by
  open_pre
  after_results

theorem V0_arg4 (c : Dev nD) : V0 m c (Proc.devRef .tc main_arg4) = m ((c.tc : Thread nD τ).loc main_arg4) := by
  open_pre
  after_results

theorem V0_arg5 (c : Dev nD) : V0 m c (Proc.devRef .tc main_arg5) = m ((c.tc : Thread nD τ).loc main_arg5) := by
  open_pre
  after_results

theorem V0_arg6 (c : Dev nD) : V0 m c (Proc.devRef .tc main_arg6) = m ((c.tc : Thread nD τ).loc main_arg6) := by
  open_pre
  after_results

/-! ## No operation after the region writes an argument -/

/-- The operations after the region leave an argument, and an array of the region, as it was. -/
theorem tail_keeps (Y : Valuation τ sig (Elt F)) (b : Ref sig .tc) (hb : b ∈ arrs ++ args) :
    StableHlo.after (tailOps (F := F)).flatten Y (Proc.devRef .tc b) = Y (Proc.devRef .tc b) :=
  StableHlo.after_of_forall_not_mem _ _ fun op hop => by
    obtain ⟨ops, hops, hop'⟩ := List.mem_flatten.mp hop
    exact (tail_late_mem ops hops op hop').keeps_ref hb

/-- An argument when the run ends is the argument at the launch. -/
theorem arg_kept (c : Dev nD) (b : Ref sig .tc) (hb : b ∈ arrs ++ args) (hne : ∀ w, Pipeline.arrRef spec0 w ≠ b)
    (h0 : V0 m c (Proc.devRef .tc b) = m ((c.tc : Thread nD τ).loc b)) :
    Pipeline.afterTail₀ cfgs (dats m) 0 (V0 m) tailOps c b = m ((c.tc : Thread nD τ).loc b) :=
  (tail_keeps (X m c) b hb).trans ((X_ne m c b hne).trans h0)

/-- In a final state of the run around the region, the seven arguments are as they were launched. -/
theorem args_of_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 rfl (by decide))).trans
      (arg_kept m c main_arg0 (by decide) (by decide) (V0_arg0 m c)),
   ((h c).2 main_arg1 (Pipeline.mem_restRefs_of main_arg1 rfl (by decide))).trans
      (arg_kept m c main_arg1 (by decide) (by decide) (V0_arg1 m c)),
   ((h c).2 main_arg2 (Pipeline.mem_restRefs_of main_arg2 rfl (by decide))).trans
      (arg_kept m c main_arg2 (by decide) (by decide) (V0_arg2 m c)),
   ((h c).2 main_arg3 (Pipeline.mem_restRefs_of main_arg3 rfl (by decide))).trans
      (arg_kept m c main_arg3 (by decide) (by decide) (V0_arg3 m c)),
   ((h c).2 main_arg4 (Pipeline.mem_restRefs_of main_arg4 rfl (by decide))).trans
      (arg_kept m c main_arg4 (by decide) (by decide) (V0_arg4 m c)),
   ((h c).2 main_arg5 (Pipeline.mem_restRefs_of main_arg5 rfl (by decide))).trans
      (arg_kept m c main_arg5 (by decide) (by decide) (V0_arg5 m c)),
   ((h c).2 main_arg6 (Pipeline.mem_restRefs_of main_arg6 rfl (by decide))).trans
      (arg_kept m c main_arg6 (by decide) (by decide) (V0_arg6 m c))⟩

/-- THE FRAME: every weakly fair execution of the program terminates, and the seven arguments end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_post m r h c) (run_main m ρ)

end Cert.KernelIdeal.Fr

end
-- ==== Proof.Rf.Ops0.lean ====
/- The reference's @main as operation lists: windows 0 … 3 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 27 host operations of @main, window 0 (statements 1 … 60), in order:
    main_v0 … main_c_6. -/
abbrev main_part0_ops0 : List (HloOp τ sig (Elt F)) :=
  [ StableHlo.unary main_arg3 main_v0 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v0 main_v1 rfl shapeCasts_S4194304x1_S4194304,
    StableHlo.unary main_arg3 main_v2 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v2 main_v3 rfl shapeCasts_S4194304x1_S4194304,
    StableHlo.nullary main_c (constantI S_ 32 1#32),
    StableHlo.unary main_c main_v4 (broadcastInDim S4194304 ![] bcast_S_S4194304 : (⟨S_, .i32⟩ : BufTy).Contents (Elt F) → (⟨S4194304, .i32⟩ : BufTy).Contents (Elt F)),
    StableHlo.binary main_v1 main_v4 main_v5 (cmpi .eq : (⟨S4194304, .i32⟩ : BufTy).Contents (Elt F) → (⟨S4194304, .i32⟩ : BufTy).Contents (Elt F) → (⟨S4194304, .i1⟩ : BufTy).Contents (Elt F)),
    StableHlo.nullary main_c_0 (constantI S_ 32 0#32),
    StableHlo.unary main_c_0 main_v6 (broadcastInDim S4194304 ![] bcast_S_S4194304 : (⟨S_, .i32⟩ : BufTy).Contents (Elt F) → (⟨S4194304, .i32⟩ : BufTy).Contents (Elt F)),
    StableHlo.binary main_v3 main_v6 main_v7 (cmpi .eq : (⟨S4194304, .i32⟩ : BufTy).Contents (Elt F) → (⟨S4194304, .i32⟩ : BufTy).Contents (Elt F) → (⟨S4194304, .i1⟩ : BufTy).Contents (Elt F)),
    StableHlo.binary main_v5 main_v7 main_v8 (andi : (⟨S4194304, .i1⟩ : BufTy).Contents (Elt F) → (⟨S4194304, .i1⟩ : BufTy).Contents (Elt F) → (⟨S4194304, .i1⟩ : BufTy).Contents (Elt F)),
    StableHlo.nullary main_c_1 (constantI S_ 32 0#32),
    StableHlo.unary main_c_1 main_v9 (broadcastInDim S4194304 ![] bcast_S_S4194304 : (⟨S_, .i32⟩ : BufTy).Contents (Elt F) → (⟨S4194304, .i32⟩ : BufTy).Contents (Elt F)),
    StableHlo.binary main_v1 main_v9 main_v10 (cmpi .eq : (⟨S4194304, .i32⟩ : BufTy).Contents (Elt F) → (⟨S4194304, .i32⟩ : BufTy).Contents (Elt F) → (⟨S4194304, .i1⟩ : BufTy).Contents (Elt F)),
    StableHlo.nullary main_c_2 (constantI S_ 32 1#32),
    StableHlo.unary main_c_2 main_v11 (broadcastInDim S4194304 ![] bcast_S_S4194304 : (⟨S_, .i32⟩ : BufTy).Contents (Elt F) → (⟨S4194304, .i32⟩ : BufTy).Contents (Elt F)),
    StableHlo.binary main_v3 main_v11 main_v12 (cmpi .eq : (⟨S4194304, .i32⟩ : BufTy).Contents (Elt F) → (⟨S4194304, .i32⟩ : BufTy).Contents (Elt F) → (⟨S4194304, .i1⟩ : BufTy).Contents (Elt F)),
    StableHlo.binary main_v10 main_v12 main_v13 (andi : (⟨S4194304, .i1⟩ : BufTy).Contents (Elt F) → (⟨S4194304, .i1⟩ : BufTy).Contents (Elt F) → (⟨S4194304, .i1⟩ : BufTy).Contents (Elt F)),
    StableHlo.nullary main_c_3 (constantI S_ 32 1#32),
    StableHlo.unary main_c_3 main_v14 (broadcastInDim S4194304 ![] bcast_S_S4194304 : (⟨S_, .i32⟩ : BufTy).Contents (Elt F) → (⟨S4194304, .i32⟩ : BufTy).Contents (Elt F)),
    StableHlo.binary main_v1 main_v14 main_v15 (cmpi .eq : (⟨S4194304, .i32⟩ : BufTy).Contents (Elt F) → (⟨S4194304, .i32⟩ : BufTy).Contents (Elt F) → (⟨S4194304, .i1⟩ : BufTy).Contents (Elt F)),
    StableHlo.nullary main_c_4 (constantI S_ 32 1#32),
    StableHlo.unary main_c_4 main_v16 (broadcastInDim S4194304 ![] bcast_S_S4194304 : (⟨S_, .i32⟩ : BufTy).Contents (Elt F) → (⟨S4194304, .i32⟩ : BufTy).Contents (Elt F)),
    StableHlo.binary main_v3 main_v16 main_v17 (cmpi .eq : (⟨S4194304, .i32⟩ : BufTy).Contents (Elt F) → (⟨S4194304, .i32⟩ : BufTy).Contents (Elt F) → (⟨S4194304, .i1⟩ : BufTy).Contents (Elt F)),
    StableHlo.binary main_v15 main_v17 main_v18 (andi : (⟨S4194304, .i1⟩ : BufTy).Contents (Elt F) → (⟨S4194304, .i1⟩ : BufTy).Contents (Elt F) → (⟨S4194304, .i1⟩ : BufTy).Contents (Elt F)),
    StableHlo.nullary main_c_5 (constantI S_ 32 2#32),
    StableHlo.nullary main_c_6 (constantI S_ 32 3#32) ]
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 3 host operations of @_where (main_call0), window 0 (statements 1 … 60), in order:
    main_call0_v0 … main_v19. -/
abbrev main_part0_ops1 : List (HloOp τ sig (Elt F)) :=
  [ StableHlo.TRef.unary (.of main_c_5 : StableHlo.TRef sig ⟨S_, .i32⟩) (.of main_call0_v0 : StableHlo.TRef sig ⟨S4194304, .i32⟩) (broadcastInDim S4194304 ![] bcast_S_S4194304),
    StableHlo.TRef.unary (.of main_c_6 : StableHlo.TRef sig ⟨S_, .i32⟩) (.of main_call0_v1 : StableHlo.TRef sig ⟨S4194304, .i32⟩) (broadcastInDim S4194304 ![] bcast_S_S4194304),
    StableHlo.TRef.ternary (.of main_v18 : StableHlo.TRef sig ⟨S4194304, .i1⟩) (.of main_call0_v0 : StableHlo.TRef sig ⟨S4194304, .i32⟩) (.of main_call0_v1 : StableHlo.TRef sig ⟨S4194304, .i32⟩) (.of main_v19 : StableHlo.TRef sig ⟨S4194304, .i32⟩) select ]
theorem main_part0_ops1_sub : (main_part0_ops1 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, window 0 (statements 1 … 60), in order:
    main_c_7 … main_c_7. -/
abbrev main_part0_ops2 : List (HloOp τ sig (Elt F)) :=
  [ StableHlo.nullary main_c_7 (constantI S_ 32 1#32) ]
theorem main_part0_ops2_sub : (main_part0_ops2 : List (HloOp τ sig (Elt F))).Forall fun op => op.bufs ⊆ StableHlo.tcRefs τ sig :=
  StableHlo.nullary_bufs_sub ..
/-- 2 host operations of @_where_0 (main_call1), window 0 (statements 1 … 60), in order:
    main_call1_v0 … main_v20. -/
abbrev main_part0_ops3 : List (HloOp τ sig (Elt F)) :=
  [ StableHlo.TRef.unary (.of main_c_7 : StableHlo.TRef sig ⟨S_, .i32⟩) (.of main_call1_v0 : StableHlo.TRef sig ⟨S4194304, .i32⟩) (broadcastInDim S4194304 ![] bcast_S_S4194304),
    StableHlo.TRef.ternary (.of main_v13 : StableHlo.TRef sig ⟨S4194304, .i1⟩) (.of main_call1_v0 : StableHlo.TRef sig ⟨S4194304, .i32⟩) (.of main_v19 : StableHlo.TRef sig ⟨S4194304, .i32⟩) (.of main_v20 : StableHlo.TRef sig ⟨S4194304, .i32⟩) select ]
theorem main_part0_ops3_sub : (main_part0_ops3 : List (HloOp τ sig (Elt F))).Forall fun op => op.bufs ⊆ StableHlo.tcRefs τ sig :=
  ⟨StableHlo.unary_bufs_sub .., StableHlo.ternary_bufs_sub ..⟩
/-- 1 host operation of @main, window 0 (statements 1 … 60), in order:
    main_c_8 … main_c_8. -/
abbrev main_part0_ops4 : List (HloOp τ sig (Elt F)) :=
  [ StableHlo.nullary main_c_8 (constantI S_ 32 0#32) ]
theorem main_part0_ops4_sub : (main_part0_ops4 : List (HloOp τ sig (Elt F))).Forall fun op => op.bufs ⊆ StableHlo.tcRefs τ sig :=
  StableHlo.nullary_bufs_sub ..
/-- 2 host operations of @_where_0 (main_call2), window 0 (statements 1 … 60), in order:
    main_call2_v0 … main_v21. -/
abbrev main_part0_ops5 : List (HloOp τ sig (Elt F)) :=
  [ StableHlo.TRef.unary (.of main_c_8 : StableHlo.TRef sig ⟨S_, .i32⟩) (.of main_call2_v0 : StableHlo.TRef sig ⟨S4194304, .i32⟩) (broadcastInDim S4194304 ![] bcast_S_S4194304),
    StableHlo.TRef.ternary (.of main_v8 : StableHlo.TRef sig ⟨S4194304, .i1⟩) (.of main_call2_v0 : StableHlo.TRef sig ⟨S4194304, .i32⟩) (.of main_v20 : StableHlo.TRef sig ⟨S4194304, .i32⟩) (.of main_v21 : StableHlo.TRef sig ⟨S4194304, .i32⟩) select ]
theorem main_part0_ops5_sub : (main_part0_ops5 : List (HloOp τ sig (Elt F))).Forall fun op => op.bufs ⊆ StableHlo.tcRefs τ sig :=
  ⟨StableHlo.unary_bufs_sub .., StableHlo.ternary_bufs_sub ..⟩
/-- 28 host operations of @main, window 0 (statements 1 … 60), in order:
    main_c_9 … main_v42. -/
abbrev main_part0_ops6 : List (HloOp τ sig (Elt F)) :=
  [ StableHlo.nullary main_c_9 (constantI S_ 32 4#32),
    StableHlo.unary main_c_9 main_v22 (broadcastInDim S4194304 ![] bcast_S_S4194304 : (⟨S_, .i32⟩ : BufTy).Contents (Elt F) → (⟨S4194304, .i32⟩ : BufTy).Contents (Elt F)),
    StableHlo.binary main_v22 main_arg6 main_v23 (muli : (⟨S4194304, .i32⟩ : BufTy).Contents (Elt F) → (⟨S4194304, .i32⟩ : BufTy).Contents (Elt F) → (⟨S4194304, .i32⟩ : BufTy).Contents (Elt F)),
    StableHlo.unary main_v21 main_v24 (id : (⟨S4194304, .i32⟩ : BufTy).Contents (Elt F) → (⟨S4194304, .i32⟩ : BufTy).Contents (Elt F)),
    StableHlo.binary main_v24 main_v23 main_v25 (addi : (⟨S4194304, .i32⟩ : BufTy).Contents (Elt F) → (⟨S4194304, .i32⟩ : BufTy).Contents (Elt F) → (⟨S4194304, .i32⟩ : BufTy).Contents (Elt F)),
    StableHlo.unary main_arg4 main_v26 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v26 main_v27 rfl shapeCasts_S4194304x1_S4194304,
    StableHlo.unary main_arg4 main_v28 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v28 main_v29 rfl shapeCasts_S4194304x1_S4194304,
    StableHlo.nullary main_c_10 (constantI S_ 32 1#32),
    StableHlo.unary main_c_10 main_v30 (broadcastInDim S4194304 ![] bcast_S_S4194304 : (⟨S_, .i32⟩ : BufTy).Contents (Elt F) → (⟨S4194304, .i32⟩ : BufTy).Contents (Elt F)),
    StableHlo.binary main_v27 main_v30 main_v31 (cmpi .eq : (⟨S4194304, .i32⟩ : BufTy).Contents (Elt F) → (⟨S4194304, .i32⟩ : BufTy).Contents (Elt F) → (⟨S4194304, .i1⟩ : BufTy).Contents (Elt F)),
    StableHlo.nullary main_c_11 (constantI S_ 32 0#32),
    StableHlo.unary main_c_11 main_v32 (broadcastInDim S4194304 ![] bcast_S_S4194304 : (⟨S_, .i32⟩ : BufTy).Contents (Elt F) → (⟨S4194304, .i32⟩ : BufTy).Contents (Elt F)),
    StableHlo.binary main_v29 main_v32 main_v33 (cmpi .eq : (⟨S4194304, .i32⟩ : BufTy).Contents (Elt F) → (⟨S4194304, .i32⟩ : BufTy).Contents (Elt F) → (⟨S4194304, .i1⟩ : BufTy).Contents (Elt F)),
    StableHlo.binary main_v31 main_v33 main_v34 (andi : (⟨S4194304, .i1⟩ : BufTy).Contents (Elt F) → (⟨S4194304, .i1⟩ : BufTy).Contents (Elt F) → (⟨S4194304, .i1⟩ : BufTy).Contents (Elt F)),
    StableHlo.nullary main_c_12 (constantI S_ 32 0#32),
    StableHlo.unary main_c_12 main_v35 (broadcastInDim S4194304 ![] bcast_S_S4194304 : (⟨S_, .i32⟩ : BufTy).Contents (Elt F) → (⟨S4194304, .i32⟩ : BufTy).Contents (Elt F)),
    StableHlo.binary main_v27 main_v35 main_v36 (cmpi .eq : (⟨S4194304, .i32⟩ : BufTy).Contents (Elt F) → (⟨S4194304, .i32⟩ : BufTy).Contents (Elt F) → (⟨S4194304, .i1⟩ : BufTy).Contents (Elt F)),
    StableHlo.nullary main_c_13 (constantI S_ 32 1#32),
    StableHlo.unary main_c_13 main_v37 (broadcastInDim S4194304 ![] bcast_S_S4194304 : (⟨S_, .i32⟩ : BufTy).Contents (Elt F) → (⟨S4194304, .i32⟩ : BufTy).Contents (Elt F)),
    StableHlo.binary main_v29 main_v37 main_v38 (cmpi .eq : (⟨S4194304, .i32⟩ : BufTy).Contents (Elt F) → (⟨S4194304, .i32⟩ : BufTy).Contents (Elt F) → (⟨S4194304, .i1⟩ : BufTy).Contents (Elt F)),
    StableHlo.binary main_v36 main_v38 main_v39 (andi : (⟨S4194304, .i1⟩ : BufTy).Contents (Elt F) → (⟨S4194304, .i1⟩ : BufTy).Contents (Elt F) → (⟨S4194304, .i1⟩ : BufTy).Contents (Elt F)),
    StableHlo.nullary main_c_14 (constantI S_ 32 1#32),
    StableHlo.unary main_c_14 main_v40 (broadcastInDim S4194304 ![] bcast_S_S4194304 : (⟨S_, .i32⟩ : BufTy).Contents (Elt F) → (⟨S4194304, .i32⟩ : BufTy).Contents (Elt F)),
    StableHlo.binary main_v27 main_v40 main_v41 (cmpi .eq : (⟨S4194304, .i32⟩ : BufTy).Contents (Elt F) → (⟨S4194304, .i32⟩ : BufTy).Contents (Elt F) → (⟨S4194304, .i1⟩ : BufTy).Contents (Elt F)),
    StableHlo.nullary main_c_15 (constantI S_ 32 1#32),
    StableHlo.unary main_c_15 main_v42 (broadcastInDim S4194304 ![] bcast_S_S4194304 : (⟨S_, .i32⟩ : BufTy).Contents (Elt F) → (⟨S4194304, .i32⟩ : BufTy).Contents (Elt F)) ]
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩
/-- Window 0's stretches, in order. -/
abbrev part0_opss : List (List (HloOp τ sig (Elt F))) :=
  [ main_part0_ops0,
    main_part0_ops1,
    main_part0_ops2,
    main_part0_ops3,
    main_part0_ops4,
    main_part0_ops5,
    main_part0_ops6 ]
theorem part0_opss_sub : (part0_opss : List (List (HloOp τ sig (Elt F)))).Forall fun l => l.Forall fun op => op.bufs ⊆ StableHlo.tcRefs τ sig :=
  ⟨main_part0_ops0_sub, main_part0_ops1_sub, main_part0_ops2_sub, main_part0_ops3_sub, main_part0_ops4_sub, main_part0_ops5_sub, main_part0_ops6_sub⟩

/-- 4 host operations of @main, window 1 (statements 61 … 120), in order:
    main_v43 … main_c_17. -/
abbrev main_part1_ops0 : List (HloOp τ sig (Elt F)) :=
  [ StableHlo.binary main_v29 main_v42 main_v43 (cmpi .eq : (⟨S4194304, .i32⟩ : BufTy).Contents (Elt F) → (⟨S4194304, .i32⟩ : BufTy).Contents (Elt F) → (⟨S4194304, .i1⟩ : BufTy).Contents (Elt F)),
    StableHlo.binary main_v41 main_v43 main_v44 (andi : (⟨S4194304, .i1⟩ : BufTy).Contents (Elt F) → (⟨S4194304, .i1⟩ : BufTy).Contents (Elt F) → (⟨S4194304, .i1⟩ : BufTy).Contents (Elt F)),
    StableHlo.nullary main_c_16 (constantI S_ 32 2#32),
    StableHlo.nullary main_c_17 (constantI S_ 32 3#32) ]
theorem main_part1_ops0_sub : (main_part1_ops0 : List (HloOp τ sig (Elt F))).Forall fun op => op.bufs ⊆ StableHlo.tcRefs τ sig :=
  ⟨StableHlo.binary_bufs_sub .., StableHlo.binary_bufs_sub .., StableHlo.nullary_bufs_sub .., StableHlo.nullary_bufs_sub ..⟩
/-- 3 host operations of @_where (main_call3), window 1 (statements 61 … 120), in order:
    main_call3_v0 … main_v45. -/
abbrev main_part1_ops1 : List (HloOp τ sig (Elt F)) :=
  [ StableHlo.TRef.unary (.of main_c_16 : StableHlo.TRef sig ⟨S_, .i32⟩) (.of main_call3_v0 : StableHlo.TRef sig ⟨S4194304, .i32⟩) (broadcastInDim S4194304 ![] bcast_S_S4194304),
    StableHlo.TRef.unary (.of main_c_17 : StableHlo.TRef sig ⟨S_, .i32⟩) (.of main_call3_v1 : StableHlo.TRef sig ⟨S4194304, .i32⟩) (broadcastInDim S4194304 ![] bcast_S_S4194304),
    StableHlo.TRef.ternary (.of main_v44 : StableHlo.TRef sig ⟨S4194304, .i1⟩) (.of main_call3_v0 : StableHlo.TRef sig ⟨S4194304, .i32⟩) (.of main_call3_v1 : StableHlo.TRef sig ⟨S4194304, .i32⟩) (.of main_v45 : StableHlo.TRef sig ⟨S4194304, .i32⟩) select ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, window 1 (statements 61 … 120), in order:
    main_c_18 … main_c_18. -/
abbrev main_part1_ops2 : List (HloOp τ sig (Elt F)) :=
  [ StableHlo.nullary main_c_18 (constantI S_ 32 1#32) ]
theorem main_part1_ops2_sub : (main_part1_ops2 : List (HloOp τ sig (Elt F))).Forall fun op => op.bufs ⊆ StableHlo.tcRefs τ sig :=
  StableHlo.nullary_bufs_sub ..
/-- 2 host operations of @_where_0 (main_call4), window 1 (statements 61 … 120), in order:
    main_call4_v0 … main_v46. -/
abbrev main_part1_ops3 : List (HloOp τ sig (Elt F)) :=
  [ StableHlo.TRef.unary (.of main_c_18 : StableHlo.TRef sig ⟨S_, .i32⟩) (.of main_call4_v0 : StableHlo.TRef sig ⟨S4194304, .i32⟩) (broadcastInDim S4194304 ![] bcast_S_S4194304),
    StableHlo.TRef.ternary (.of main_v39 : StableHlo.TRef sig ⟨S4194304, .i1⟩) (.of main_call4_v0 : StableHlo.TRef sig ⟨S4194304, .i32⟩) (.of main_v45 : StableHlo.TRef sig ⟨S4194304, .i32⟩) (.of main_v46 : StableHlo.TRef sig ⟨S4194304, .i32⟩) select ]
theorem main_part1_ops3_sub : (main_part1_ops3 : List (HloOp τ sig (Elt F))).Forall fun op => op.bufs ⊆ StableHlo.tcRefs τ sig :=
  ⟨StableHlo.unary_bufs_sub .., StableHlo.ternary_bufs_sub ..⟩
/-- 1 host operation of @main, window 1 (statements 61 … 120), in order:
    main_c_19 … main_c_19. -/
abbrev main_part1_ops4 : List (HloOp τ sig (Elt F)) :=
  [ StableHlo.nullary main_c_19 (constantI S_ 32 0#32) ]
theorem main_part1_ops4_sub : (main_part1_ops4 : List (HloOp τ sig (Elt F))).Forall fun op => op.bufs ⊆ StableHlo.tcRefs τ sig :=
  StableHlo.nullary_bufs_sub ..
/-- 2 host operations of @_where_0 (main_call5), window 1 (statements 61 … 120), in order:
    main_call5_v0 … main_v47. -/
abbrev main_part1_ops5 : List (HloOp τ sig (Elt F)) :=
  [ StableHlo.TRef.unary (.of main_c_19 : StableHlo.TRef sig ⟨S_, .i32⟩) (.of main_call5_v0 : StableHlo.TRef sig ⟨S4194304, .i32⟩) (broadcastInDim S4194304 ![] bcast_S_S4194304),
    StableHlo.TRef.ternary (.of main_v34 : StableHlo.TRef sig ⟨S4194304, .i1⟩) (.of main_call5_v0 : StableHlo.TRef sig ⟨S4194304, .i32⟩) (.of main_v46 : StableHlo.TRef sig ⟨S4194304, .i32⟩) (.of main_v47 : StableHlo.TRef sig ⟨S4194304, .i32⟩) select ]
theorem main_part1_ops5_sub : (main_part1_ops5 : List (HloOp τ sig (Elt F))).Forall fun op => op.bufs ⊆ StableHlo.tcRefs τ sig :=
  ⟨StableHlo.unary_bufs_sub .., StableHlo.ternary_bufs_sub ..⟩
/-- 32 host operations of @main, window 1 (statements 61 … 120), in order:
    main_c_20 … main_c_28. -/
abbrev main_part1_ops6 : List (HloOp τ sig (Elt F)) :=
  [ StableHlo.nullary main_c_20 (constantI S_ 32 4#32),
    StableHlo.unary main_c_20 main_v48 (broadcastInDim S4194304 ![] bcast_S_S4194304 : (⟨S_, .i32⟩ : BufTy).Contents (Elt F) → (⟨S4194304, .i32⟩ : BufTy).Contents (Elt F)),
    StableHlo.binary main_v48 main_arg6 main_v49 (muli : (⟨S4194304, .i32⟩ : BufTy).Contents (Elt F) → (⟨S4194304, .i32⟩ : BufTy).Contents (Elt F) → (⟨S4194304, .i32⟩ : BufTy).Contents (Elt F)),
    StableHlo.unary main_v47 main_v50 (id : (⟨S4194304, .i32⟩ : BufTy).Contents (Elt F) → (⟨S4194304, .i32⟩ : BufTy).Contents (Elt F)),
    StableHlo.binary main_v50 main_v49 main_v51 (addi : (⟨S4194304, .i32⟩ : BufTy).Contents (Elt F) → (⟨S4194304, .i32⟩ : BufTy).Contents (Elt F) → (⟨S4194304, .i32⟩ : BufTy).Contents (Elt F)),
    StableHlo.unary main_arg5 main_v52 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v52 main_v53 rfl shapeCasts_S4194304x1_S4194304,
    StableHlo.unary main_arg5 main_v54 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v54 main_v55 rfl shapeCasts_S4194304x1_S4194304,
    StableHlo.nullary main_c_21 (constantI S_ 32 1#32),
    StableHlo.unary main_c_21 main_v56 (broadcastInDim S4194304 ![] bcast_S_S4194304 : (⟨S_, .i32⟩ : BufTy).Contents (Elt F) → (⟨S4194304, .i32⟩ : BufTy).Contents (Elt F)),
    StableHlo.binary main_v53 main_v56 main_v57 (cmpi .eq : (⟨S4194304, .i32⟩ : BufTy).Contents (Elt F) → (⟨S4194304, .i32⟩ : BufTy).Contents (Elt F) → (⟨S4194304, .i1⟩ : BufTy).Contents (Elt F)),
    StableHlo.nullary main_c_22 (constantI S_ 32 0#32),
    StableHlo.unary main_c_22 main_v58 (broadcastInDim S4194304 ![] bcast_S_S4194304 : (⟨S_, .i32⟩ : BufTy).Contents (Elt F) → (⟨S4194304, .i32⟩ : BufTy).Contents (Elt F)),
    StableHlo.binary main_v55 main_v58 main_v59 (cmpi .eq : (⟨S4194304, .i32⟩ : BufTy).Contents (Elt F) → (⟨S4194304, .i32⟩ : BufTy).Contents (Elt F) → (⟨S4194304, .i1⟩ : BufTy).Contents (Elt F)),
    StableHlo.binary main_v57 main_v59 main_v60 (andi : (⟨S4194304, .i1⟩ : BufTy).Contents (Elt F) → (⟨S4194304, .i1⟩ : BufTy).Contents (Elt F) → (⟨S4194304, .i1⟩ : BufTy).Contents (Elt F)),
    StableHlo.nullary main_c_23 (constantI S_ 32 0#32),
    StableHlo.unary main_c_23 main_v61 (broadcastInDim S4194304 ![] bcast_S_S4194304 : (⟨S_, .i32⟩ : BufTy).Contents (Elt F) → (⟨S4194304, .i32⟩ : BufTy).Contents (Elt F)),
    StableHlo.binary main_v53 main_v61 main_v62 (cmpi .eq : (⟨S4194304, .i32⟩ : BufTy).Contents (Elt F) → (⟨S4194304, .i32⟩ : BufTy).Contents (Elt F) → (⟨S4194304, .i1⟩ : BufTy).Contents (Elt F)),
    StableHlo.nullary main_c_24 (constantI S_ 32 1#32),
    StableHlo.unary main_c_24 main_v63 (broadcastInDim S4194304 ![] bcast_S_S4194304 : (⟨S_, .i32⟩ : BufTy).Contents (Elt F) → (⟨S4194304, .i32⟩ : BufTy).Contents (Elt F)),
    StableHlo.binary main_v55 main_v63 main_v64 (cmpi .eq : (⟨S4194304, .i32⟩ : BufTy).Contents (Elt F) → (⟨S4194304, .i32⟩ : BufTy).Contents (Elt F) → (⟨S4194304, .i1⟩ : BufTy).Contents (Elt F)),
    StableHlo.binary main_v62 main_v64 main_v65 (andi : (⟨S4194304, .i1⟩ : BufTy).Contents (Elt F) → (⟨S4194304, .i1⟩ : BufTy).Contents (Elt F) → (⟨S4194304, .i1⟩ : BufTy).Contents (Elt F)),
    StableHlo.nullary main_c_25 (constantI S_ 32 1#32),
    StableHlo.unary main_c_25 main_v66 (broadcastInDim S4194304 ![] bcast_S_S4194304 : (⟨S_, .i32⟩ : BufTy).Contents (Elt F) → (⟨S4194304, .i32⟩ : BufTy).Contents (Elt F)),
    StableHlo.binary main_v53 main_v66 main_v67 (cmpi .eq : (⟨S4194304, .i32⟩ : BufTy).Contents (Elt F) → (⟨S4194304, .i32⟩ : BufTy).Contents (Elt F) → (⟨S4194304, .i1⟩ : BufTy).Contents (Elt F)),
    StableHlo.nullary main_c_26 (constantI S_ 32 1#32),
    StableHlo.unary main_c_26 main_v68 (broadcastInDim S4194304 ![] bcast_S_S4194304 : (⟨S_, .i32⟩ : BufTy).Contents (Elt F) → (⟨S4194304, .i32⟩ : BufTy).Contents (Elt F)),
    StableHlo.binary main_v55 main_v68 main_v69 (cmpi .eq : (⟨S4194304, .i32⟩ : BufTy).Contents (Elt F) → (⟨S4194304, .i32⟩ : BufTy).Contents (Elt F) → (⟨S4194304, .i1⟩ : BufTy).Contents (Elt F)),
    StableHlo.binary main_v67 main_v69 main_v70 (andi : (⟨S4194304, .i1⟩ : BufTy).Contents (Elt F) → (⟨S4194304, .i1⟩ : BufTy).Contents (Elt F) → (⟨S4194304, .i1⟩ : BufTy).Contents (Elt F)),
    StableHlo.nullary main_c_27 (constantI S_ 32 2#32),
    StableHlo.nullary main_c_28 (constantI S_ 32 3#32) ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 3 host operations of @_where (main_call6), window 1 (statements 61 … 120), in order:
    main_call6_v0 … main_v71. -/
abbrev main_part1_ops7 : List (HloOp τ sig (Elt F)) :=
  [ StableHlo.TRef.unary (.of main_c_27 : StableHlo.TRef sig ⟨S_, .i32⟩) (.of main_call6_v0 : StableHlo.TRef sig ⟨S4194304, .i32⟩) (broadcastInDim S4194304 ![] bcast_S_S4194304),
    StableHlo.TRef.unary (.of main_c_28 : StableHlo.TRef sig ⟨S_, .i32⟩) (.of main_call6_v1 : StableHlo.TRef sig ⟨S4194304, .i32⟩) (broadcastInDim S4194304 ![] bcast_S_S4194304),
    StableHlo.TRef.ternary (.of main_v70 : StableHlo.TRef sig ⟨S4194304, .i1⟩) (.of main_call6_v0 : StableHlo.TRef sig ⟨S4194304, .i32⟩) (.of main_call6_v1 : StableHlo.TRef sig ⟨S4194304, .i32⟩) (.of main_v71 : StableHlo.TRef sig ⟨S4194304, .i32⟩) select ]
theorem main_part1_ops7_sub : (main_part1_ops7 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @main, window 1 (statements 61 … 120), in order:
    main_c_29 … main_c_29. -/
abbrev main_part1_ops8 : List (HloOp τ sig (Elt F)) :=
  [ StableHlo.nullary main_c_29 (constantI S_ 32 1#32) ]
theorem main_part1_ops8_sub : (main_part1_ops8 : List (HloOp τ sig (Elt F))).Forall fun op => op.bufs ⊆ StableHlo.tcRefs τ sig :=
  StableHlo.nullary_bufs_sub ..
/-- 2 host operations of @_where_0 (main_call7), window 1 (statements 61 … 120), in order:
    main_call7_v0 … main_v72. -/
abbrev main_part1_ops9 : List (HloOp τ sig (Elt F)) :=
  [ StableHlo.TRef.unary (.of main_c_29 : StableHlo.TRef sig ⟨S_, .i32⟩) (.of main_call7_v0 : StableHlo.TRef sig ⟨S4194304, .i32⟩) (broadcastInDim S4194304 ![] bcast_S_S4194304),
    StableHlo.TRef.ternary (.of main_v65 : StableHlo.TRef sig ⟨S4194304, .i1⟩) (.of main_call7_v0 : StableHlo.TRef sig ⟨S4194304, .i32⟩) (.of main_v71 : StableHlo.TRef sig ⟨S4194304, .i32⟩) (.of main_v72 : StableHlo.TRef sig ⟨S4194304, .i32⟩) select ]
theorem main_part1_ops9_sub : (main_part1_ops9 : List (HloOp τ sig (Elt F))).Forall fun op => op.bufs ⊆ StableHlo.tcRefs τ sig :=
  ⟨StableHlo.unary_bufs_sub .., StableHlo.ternary_bufs_sub ..⟩
/-- 1 host operation of @main, window 1 (statements 61 … 120), in order:
    main_c_30 … main_c_30. -/
abbrev main_part1_ops10 : List (HloOp τ sig (Elt F)) :=
  [ StableHlo.nullary main_c_30 (constantI S_ 32 0#32) ]
theorem main_part1_ops10_sub : (main_part1_ops10 : List (HloOp τ sig (Elt F))).Forall fun op => op.bufs ⊆ StableHlo.tcRefs τ sig :=
  StableHlo.nullary_bufs_sub ..
/-- 2 host operations of @_where_0 (main_call8), window 1 (statements 61 … 120), in order:
    main_call8_v0 … main_v73. -/
abbrev main_part1_ops11 : List (HloOp τ sig (Elt F)) :=
  [ StableHlo.TRef.unary (.of main_c_30 : StableHlo.TRef sig ⟨S_, .i32⟩) (.of main_call8_v0 : StableHlo.TRef sig ⟨S4194304, .i32⟩) (broadcastInDim S4194304 ![] bcast_S_S4194304),
    StableHlo.TRef.ternary (.of main_v60 : StableHlo.TRef sig ⟨S4194304, .i1⟩) (.of main_call8_v0 : StableHlo.TRef sig ⟨S4194304, .i32⟩) (.of main_v72 : StableHlo.TRef sig ⟨S4194304, .i32⟩) (.of main_v73 : StableHlo.TRef sig ⟨S4194304, .i32⟩) select ]
theorem main_part1_ops11_sub : (main_part1_ops11 : List (HloOp τ sig (Elt F))).Forall fun op => op.bufs ⊆ StableHlo.tcRefs τ sig :=
  ⟨StableHlo.unary_bufs_sub .., StableHlo.ternary_bufs_sub ..⟩
/-- 14 host operations of @main, window 1 (statements 61 … 120), in order:
    main_c_31 … main_v83. -/
abbrev main_part1_ops12 : List (HloOp τ sig (Elt F)) :=
  [ StableHlo.nullary main_c_31 (constantI S_ 32 4#32),
    StableHlo.unary main_c_31 main_v74 (broadcastInDim S4194304 ![] bcast_S_S4194304 : (⟨S_, .i32⟩ : BufTy).Contents (Elt F) → (⟨S4194304, .i32⟩ : BufTy).Contents (Elt F)),
    StableHlo.binary main_v74 main_arg6 main_v75 (muli : (⟨S4194304, .i32⟩ : BufTy).Contents (Elt F) → (⟨S4194304, .i32⟩ : BufTy).Contents (Elt F) → (⟨S4194304, .i32⟩ : BufTy).Contents (Elt F)),
    StableHlo.unary main_v73 main_v76 (id : (⟨S4194304, .i32⟩ : BufTy).Contents (Elt F) → (⟨S4194304, .i32⟩ : BufTy).Contents (Elt F)),
    StableHlo.binary main_v76 main_v75 main_v77 (addi : (⟨S4194304, .i32⟩ : BufTy).Contents (Elt F) → (⟨S4194304, .i32⟩ : BufTy).Contents (Elt F) → (⟨S4194304, .i32⟩ : BufTy).Contents (Elt F)),
    StableHlo.nullary main_c_32 (constantI S_ 32 0#32),
    StableHlo.unary main_c_32 main_v78 (broadcastInDim S4194304 ![] bcast_S_S4194304 : (⟨S_, .i32⟩ : BufTy).Contents (Elt F) → (⟨S4194304, .i32⟩ : BufTy).Contents (Elt F)),
    StableHlo.binary main_v25 main_v78 main_v79 (cmpi .eq : (⟨S4194304, .i32⟩ : BufTy).Contents (Elt F) → (⟨S4194304, .i32⟩ : BufTy).Contents (Elt F) → (⟨S4194304, .i1⟩ : BufTy).Contents (Elt F)),
    StableHlo.nullary main_c_33 (constantI S_ 32 4#32),
    StableHlo.unary main_c_33 main_v80 (broadcastInDim S4194304 ![] bcast_S_S4194304 : (⟨S_, .i32⟩ : BufTy).Contents (Elt F) → (⟨S4194304, .i32⟩ : BufTy).Contents (Elt F)),
    StableHlo.binary main_v51 main_v80 main_v81 (cmpi .eq : (⟨S4194304, .i32⟩ : BufTy).Contents (Elt F) → (⟨S4194304, .i32⟩ : BufTy).Contents (Elt F) → (⟨S4194304, .i1⟩ : BufTy).Contents (Elt F)),
    StableHlo.binary main_v79 main_v81 main_v82 (andi : (⟨S4194304, .i1⟩ : BufTy).Contents (Elt F) → (⟨S4194304, .i1⟩ : BufTy).Contents (Elt F) → (⟨S4194304, .i1⟩ : BufTy).Contents (Elt F)),
    StableHlo.nullary main_c_34 (constantI S_ 32 4#32),
    StableHlo.unary main_c_34 main_v83 (broadcastInDim S4194304 ![] bcast_S_S4194304 : (⟨S_, .i32⟩ : BufTy).Contents (Elt F) → (⟨S4194304, .i32⟩ : BufTy).Contents (Elt F)) ]
theorem main_part1_ops12_sub : (main_part1_ops12 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub ..⟩
/-- Window 1's stretches, in order. -/
abbrev part1_opss : List (List (HloOp τ sig (Elt F))) :=
  [ main_part1_ops0,
    main_part1_ops1,
    main_part1_ops2,
    main_part1_ops3,
    main_part1_ops4,
    main_part1_ops5,
    main_part1_ops6,
    main_part1_ops7,
    main_part1_ops8,
    main_part1_ops9,
    main_part1_ops10,
    main_part1_ops11,
    main_part1_ops12 ]
theorem part1_opss_sub : (part1_opss : List (List (HloOp τ sig (Elt F)))).Forall fun l => l.Forall fun op => op.bufs ⊆ StableHlo.tcRefs τ sig :=
  ⟨main_part1_ops0_sub, main_part1_ops1_sub, main_part1_ops2_sub, main_part1_ops3_sub, main_part1_ops4_sub, main_part1_ops5_sub, main_part1_ops6_sub, main_part1_ops7_sub, main_part1_ops8_sub, main_part1_ops9_sub, main_part1_ops10_sub, main_part1_ops11_sub, main_part1_ops12_sub⟩

/-- 11 host operations of @main, window 2 (statements 121 … 180), in order:
    main_v84 … main_cst. -/
abbrev main_part2_ops0 : List (HloOp τ sig (Elt F)) :=
  [ StableHlo.binary main_v77 main_v83 main_v84 (cmpi .eq : (⟨S4194304, .i32⟩ : BufTy).Contents (Elt F) → (⟨S4194304, .i32⟩ : BufTy).Contents (Elt F) → (⟨S4194304, .i1⟩ : BufTy).Contents (Elt F)),
    StableHlo.binary main_v82 main_v84 main_v85 (andi : (⟨S4194304, .i1⟩ : BufTy).Contents (Elt F) → (⟨S4194304, .i1⟩ : BufTy).Contents (Elt F) → (⟨S4194304, .i1⟩ : BufTy).Contents (Elt F)),
    StableHlo.unary main_arg0 main_v86 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v86 main_v87 rfl shapeCasts_S4194304x1_S4194304,
    StableHlo.unary main_arg1 main_v88 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v88 main_v89 rfl shapeCasts_S4194304x1_S4194304,
    StableHlo.binary main_v87 main_v89 main_v90 (addf : (⟨S4194304, .f32⟩ : BufTy).Contents (Elt F) → (⟨S4194304, .f32⟩ : BufTy).Contents (Elt F) → (⟨S4194304, .f32⟩ : BufTy).Contents (Elt F)),
    StableHlo.unary main_arg2 main_v91 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v91 main_v92 rfl shapeCasts_S4194304x1_S4194304,
    StableHlo.binary main_v90 main_v92 main_v93 (subf : (⟨S4194304, .f32⟩ : BufTy).Contents (Elt F) → (⟨S4194304, .f32⟩ : BufTy).Contents (Elt F) → (⟨S4194304, .f32⟩ : BufTy).Contents (Elt F)),
    StableHlo.nullary main_cst (constant S_ .f32 0x00000000#32) ]
theorem main_part2_ops0_sub : (main_part2_ops0 : List (HloOp τ sig (Elt F))).Forall fun op => op.bufs ⊆ StableHlo.tcRefs τ sig :=
  ⟨StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call9), window 2 (statements 121 … 180), in order:
    main_call9_v0 … main_v94. -/
abbrev main_part2_ops1 : List (HloOp τ sig (Elt F)) :=
  [ StableHlo.TRef.unary (.of main_cst : StableHlo.TRef sig ⟨S_, .f32⟩) (.of main_call9_v0 : StableHlo.TRef sig ⟨S4194304, .f32⟩) (broadcastInDim S4194304 ![] bcast_S_S4194304),
    StableHlo.TRef.ternary (.of main_v85 : StableHlo.TRef sig ⟨S4194304, .i1⟩) (.of main_v93 : StableHlo.TRef sig ⟨S4194304, .f32⟩) (.of main_call9_v0 : StableHlo.TRef sig ⟨S4194304, .f32⟩) (.of main_v94 : StableHlo.TRef sig ⟨S4194304, .f32⟩) select ]
theorem main_part2_ops1_sub : (main_part2_ops1 : List (HloOp τ sig (Elt F))).Forall fun op => op.bufs ⊆ StableHlo.tcRefs τ sig :=
  ⟨StableHlo.unary_bufs_sub .., StableHlo.ternary_bufs_sub ..⟩
/-- 24 host operations of @main, window 2 (statements 121 … 180), in order:
    main_cst_35 … main_cst_40. -/
abbrev main_part2_ops2 : List (HloOp τ sig (Elt F)) :=
  [ StableHlo.nullary main_cst_35 (constant S_ .f32 0x00000000#32),
    StableHlo.binary main_v94 main_cst_35 main_v95 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_36 (constant S_ .f32 0x00000000#32),
    StableHlo.binary main_cst_36 main_v95 main_v96 (subf : (⟨S_, .f32⟩ : BufTy).Contents (Elt F) → (⟨S_, .f32⟩ : BufTy).Contents (Elt F) → (⟨S_, .f32⟩ : BufTy).Contents (Elt F)),
    StableHlo.nullary main_c_37 (constantI S_ 32 0#32),
    StableHlo.unary main_c_37 main_v97 (broadcastInDim S4194304 ![] bcast_S_S4194304 : (⟨S_, .i32⟩ : BufTy).Contents (Elt F) → (⟨S4194304, .i32⟩ : BufTy).Contents (Elt F)),
    StableHlo.binary main_v25 main_v97 main_v98 (cmpi .eq : (⟨S4194304, .i32⟩ : BufTy).Contents (Elt F) → (⟨S4194304, .i32⟩ : BufTy).Contents (Elt F) → (⟨S4194304, .i1⟩ : BufTy).Contents (Elt F)),
    StableHlo.nullary main_c_38 (constantI S_ 32 6#32),
    StableHlo.unary main_c_38 main_v99 (broadcastInDim S4194304 ![] bcast_S_S4194304 : (⟨S_, .i32⟩ : BufTy).Contents (Elt F) → (⟨S4194304, .i32⟩ : BufTy).Contents (Elt F)),
    StableHlo.binary main_v51 main_v99 main_v100 (cmpi .eq : (⟨S4194304, .i32⟩ : BufTy).Contents (Elt F) → (⟨S4194304, .i32⟩ : BufTy).Contents (Elt F) → (⟨S4194304, .i1⟩ : BufTy).Contents (Elt F)),
    StableHlo.binary main_v98 main_v100 main_v101 (andi : (⟨S4194304, .i1⟩ : BufTy).Contents (Elt F) → (⟨S4194304, .i1⟩ : BufTy).Contents (Elt F) → (⟨S4194304, .i1⟩ : BufTy).Contents (Elt F)),
    StableHlo.nullary main_c_39 (constantI S_ 32 4#32),
    StableHlo.unary main_c_39 main_v102 (broadcastInDim S4194304 ![] bcast_S_S4194304 : (⟨S_, .i32⟩ : BufTy).Contents (Elt F) → (⟨S4194304, .i32⟩ : BufTy).Contents (Elt F)),
    StableHlo.binary main_v77 main_v102 main_v103 (cmpi .eq : (⟨S4194304, .i32⟩ : BufTy).Contents (Elt F) → (⟨S4194304, .i32⟩ : BufTy).Contents (Elt F) → (⟨S4194304, .i1⟩ : BufTy).Contents (Elt F)),
    StableHlo.binary main_v101 main_v103 main_v104 (andi : (⟨S4194304, .i1⟩ : BufTy).Contents (Elt F) → (⟨S4194304, .i1⟩ : BufTy).Contents (Elt F) → (⟨S4194304, .i1⟩ : BufTy).Contents (Elt F)),
    StableHlo.unary main_arg0 main_v105 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v105 main_v106 rfl shapeCasts_S4194304x1_S4194304,
    StableHlo.unary main_arg1 main_v107 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v107 main_v108 rfl shapeCasts_S4194304x1_S4194304,
    StableHlo.binary main_v106 main_v108 main_v109 (addf : (⟨S4194304, .f32⟩ : BufTy).Contents (Elt F) → (⟨S4194304, .f32⟩ : BufTy).Contents (Elt F) → (⟨S4194304, .f32⟩ : BufTy).Contents (Elt F)),
    StableHlo.unary main_arg2 main_v110 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v110 main_v111 rfl shapeCasts_S4194304x1_S4194304,
    StableHlo.binary main_v109 main_v111 main_v112 (subf : (⟨S4194304, .f32⟩ : BufTy).Contents (Elt F) → (⟨S4194304, .f32⟩ : BufTy).Contents (Elt F) → (⟨S4194304, .f32⟩ : BufTy).Contents (Elt F)),
    StableHlo.nullary main_cst_40 (constant S_ .f32 0x00000000#32) ]
theorem main_part2_ops2_sub : (main_part2_ops2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call10), window 2 (statements 121 … 180), in order:
    main_call10_v0 … main_v113. -/
abbrev main_part2_ops3 : List (HloOp τ sig (Elt F)) :=
  [ StableHlo.TRef.unary (.of main_cst_40 : StableHlo.TRef sig ⟨S_, .f32⟩) (.of main_call10_v0 : StableHlo.TRef sig ⟨S4194304, .f32⟩) (broadcastInDim S4194304 ![] bcast_S_S4194304),
    StableHlo.TRef.ternary (.of main_v104 : StableHlo.TRef sig ⟨S4194304, .i1⟩) (.of main_v112 : StableHlo.TRef sig ⟨S4194304, .f32⟩) (.of main_call10_v0 : StableHlo.TRef sig ⟨S4194304, .f32⟩) (.of main_v113 : StableHlo.TRef sig ⟨S4194304, .f32⟩) select ]
theorem main_part2_ops3_sub : (main_part2_ops3 : List (HloOp τ sig (Elt F))).Forall fun op => op.bufs ⊆ StableHlo.tcRefs τ sig :=
  ⟨StableHlo.unary_bufs_sub .., StableHlo.ternary_bufs_sub ..⟩
/-- 23 host operations of @main, window 2 (statements 121 … 180), in order:
    main_cst_41 … main_cst_45. -/
abbrev main_part2_ops4 : List (HloOp τ sig (Elt F)) :=
  [ StableHlo.nullary main_cst_41 (constant S_ .f32 0x00000000#32),
    StableHlo.binary main_v113 main_cst_41 main_v114 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v96 main_v114 main_v115 (subf : (⟨S_, .f32⟩ : BufTy).Contents (Elt F) → (⟨S_, .f32⟩ : BufTy).Contents (Elt F) → (⟨S_, .f32⟩ : BufTy).Contents (Elt F)),
    StableHlo.nullary main_c_42 (constantI S_ 32 1#32),
    StableHlo.unary main_c_42 main_v116 (broadcastInDim S4194304 ![] bcast_S_S4194304 : (⟨S_, .i32⟩ : BufTy).Contents (Elt F) → (⟨S4194304, .i32⟩ : BufTy).Contents (Elt F)),
    StableHlo.binary main_v25 main_v116 main_v117 (cmpi .eq : (⟨S4194304, .i32⟩ : BufTy).Contents (Elt F) → (⟨S4194304, .i32⟩ : BufTy).Contents (Elt F) → (⟨S4194304, .i1⟩ : BufTy).Contents (Elt F)),
    StableHlo.nullary main_c_43 (constantI S_ 32 5#32),
    StableHlo.unary main_c_43 main_v118 (broadcastInDim S4194304 ![] bcast_S_S4194304 : (⟨S_, .i32⟩ : BufTy).Contents (Elt F) → (⟨S4194304, .i32⟩ : BufTy).Contents (Elt F)),
    StableHlo.binary main_v51 main_v118 main_v119 (cmpi .eq : (⟨S4194304, .i32⟩ : BufTy).Contents (Elt F) → (⟨S4194304, .i32⟩ : BufTy).Contents (Elt F) → (⟨S4194304, .i1⟩ : BufTy).Contents (Elt F)),
    StableHlo.binary main_v117 main_v119 main_v120 (andi : (⟨S4194304, .i1⟩ : BufTy).Contents (Elt F) → (⟨S4194304, .i1⟩ : BufTy).Contents (Elt F) → (⟨S4194304, .i1⟩ : BufTy).Contents (Elt F)),
    StableHlo.nullary main_c_44 (constantI S_ 32 5#32),
    StableHlo.unary main_c_44 main_v121 (broadcastInDim S4194304 ![] bcast_S_S4194304 : (⟨S_, .i32⟩ : BufTy).Contents (Elt F) → (⟨S4194304, .i32⟩ : BufTy).Contents (Elt F)),
    StableHlo.binary main_v77 main_v121 main_v122 (cmpi .eq : (⟨S4194304, .i32⟩ : BufTy).Contents (Elt F) → (⟨S4194304, .i32⟩ : BufTy).Contents (Elt F) → (⟨S4194304, .i1⟩ : BufTy).Contents (Elt F)),
    StableHlo.binary main_v120 main_v122 main_v123 (andi : (⟨S4194304, .i1⟩ : BufTy).Contents (Elt F) → (⟨S4194304, .i1⟩ : BufTy).Contents (Elt F) → (⟨S4194304, .i1⟩ : BufTy).Contents (Elt F)),
    StableHlo.unary main_arg0 main_v124 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v124 main_v125 rfl shapeCasts_S4194304x1_S4194304,
    StableHlo.unary main_arg1 main_v126 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v126 main_v127 rfl shapeCasts_S4194304x1_S4194304,
    StableHlo.binary main_v125 main_v127 main_v128 (addf : (⟨S4194304, .f32⟩ : BufTy).Contents (Elt F) → (⟨S4194304, .f32⟩ : BufTy).Contents (Elt F) → (⟨S4194304, .f32⟩ : BufTy).Contents (Elt F)),
    StableHlo.unary main_arg2 main_v129 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v129 main_v130 rfl shapeCasts_S4194304x1_S4194304,
    StableHlo.binary main_v128 main_v130 main_v131 (subf : (⟨S4194304, .f32⟩ : BufTy).Contents (Elt F) → (⟨S4194304, .f32⟩ : BufTy).Contents (Elt F) → (⟨S4194304, .f32⟩ : BufTy).Contents (Elt F)),
    StableHlo.nullary main_cst_45 (constant S_ .f32 0x00000000#32) ]
theorem main_part2_ops4_sub : (main_part2_ops4 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- Window 2's stretches, in order. -/
abbrev part2_opss : List (List (HloOp τ sig (Elt F))) :=
  [ main_part2_ops0,
    main_part2_ops1,
    main_part2_ops2,
    main_part2_ops3,
    main_part2_ops4 ]
theorem part2_opss_sub : (part2_opss : List (List (HloOp τ sig (Elt F)))).Forall fun l => l.Forall fun op => op.bufs ⊆ StableHlo.tcRefs τ sig :=
  ⟨main_part2_ops0_sub, main_part2_ops1_sub, main_part2_ops2_sub, main_part2_ops3_sub, main_part2_ops4_sub⟩

/-- 2 host operations of @_where_1 (main_call11), window 3 (statements 181 … 240), in order:
    main_call11_v0 … main_v132. -/
abbrev main_part3_ops0 : List (HloOp τ sig (Elt F)) :=
  [ StableHlo.TRef.unary (.of main_cst_45 : StableHlo.TRef sig ⟨S_, .f32⟩) (.of main_call11_v0 : StableHlo.TRef sig ⟨S4194304, .f32⟩) (broadcastInDim S4194304 ![] bcast_S_S4194304),
    StableHlo.TRef.ternary (.of main_v123 : StableHlo.TRef sig ⟨S4194304, .i1⟩) (.of main_v131 : StableHlo.TRef sig ⟨S4194304, .f32⟩) (.of main_call11_v0 : StableHlo.TRef sig ⟨S4194304, .f32⟩) (.of main_v132 : StableHlo.TRef sig ⟨S4194304, .f32⟩) select ]
theorem main_part3_ops0_sub : (main_part3_ops0 : List (HloOp τ sig (Elt F))).Forall fun op => op.bufs ⊆ StableHlo.tcRefs τ sig :=
  ⟨StableHlo.unary_bufs_sub .., StableHlo.ternary_bufs_sub ..⟩
/-- 23 host operations of @main, window 3 (statements 181 … 240), in order:
    main_cst_46 … main_cst_50. -/
abbrev main_part3_ops1 : List (HloOp τ sig (Elt F)) :=
  [ StableHlo.nullary main_cst_46 (constant S_ .f32 0x00000000#32),
    StableHlo.binary main_v132 main_cst_46 main_v133 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v115 main_v133 main_v134 (subf : (⟨S_, .f32⟩ : BufTy).Contents (Elt F) → (⟨S_, .f32⟩ : BufTy).Contents (Elt F) → (⟨S_, .f32⟩ : BufTy).Contents (Elt F)),
    StableHlo.nullary main_c_47 (constantI S_ 32 1#32),
    StableHlo.unary main_c_47 main_v135 (broadcastInDim S4194304 ![] bcast_S_S4194304 : (⟨S_, .i32⟩ : BufTy).Contents (Elt F) → (⟨S4194304, .i32⟩ : BufTy).Contents (Elt F)),
    StableHlo.binary main_v25 main_v135 main_v136 (cmpi .eq : (⟨S4194304, .i32⟩ : BufTy).Contents (Elt F) → (⟨S4194304, .i32⟩ : BufTy).Contents (Elt F) → (⟨S4194304, .i1⟩ : BufTy).Contents (Elt F)),
    StableHlo.nullary main_c_48 (constantI S_ 32 6#32),
    StableHlo.unary main_c_48 main_v137 (broadcastInDim S4194304 ![] bcast_S_S4194304 : (⟨S_, .i32⟩ : BufTy).Contents (Elt F) → (⟨S4194304, .i32⟩ : BufTy).Contents (Elt F)),
    StableHlo.binary main_v51 main_v137 main_v138 (cmpi .eq : (⟨S4194304, .i32⟩ : BufTy).Contents (Elt F) → (⟨S4194304, .i32⟩ : BufTy).Contents (Elt F) → (⟨S4194304, .i1⟩ : BufTy).Contents (Elt F)),
    StableHlo.binary main_v136 main_v138 main_v139 (andi : (⟨S4194304, .i1⟩ : BufTy).Contents (Elt F) → (⟨S4194304, .i1⟩ : BufTy).Contents (Elt F) → (⟨S4194304, .i1⟩ : BufTy).Contents (Elt F)),
    StableHlo.nullary main_c_49 (constantI S_ 32 5#32),
    StableHlo.unary main_c_49 main_v140 (broadcastInDim S4194304 ![] bcast_S_S4194304 : (⟨S_, .i32⟩ : BufTy).Contents (Elt F) → (⟨S4194304, .i32⟩ : BufTy).Contents (Elt F)),
    StableHlo.binary main_v77 main_v140 main_v141 (cmpi .eq : (⟨S4194304, .i32⟩ : BufTy).Contents (Elt F) → (⟨S4194304, .i32⟩ : BufTy).Contents (Elt F) → (⟨S4194304, .i1⟩ : BufTy).Contents (Elt F)),
    StableHlo.binary main_v139 main_v141 main_v142 (andi : (⟨S4194304, .i1⟩ : BufTy).Contents (Elt F) → (⟨S4194304, .i1⟩ : BufTy).Contents (Elt F) → (⟨S4194304, .i1⟩ : BufTy).Contents (Elt F)),
    StableHlo.unary main_arg0 main_v143 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v143 main_v144 rfl shapeCasts_S4194304x1_S4194304,
    StableHlo.unary main_arg1 main_v145 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v145 main_v146 rfl shapeCasts_S4194304x1_S4194304,
    StableHlo.binary main_v144 main_v146 main_v147 (addf : (⟨S4194304, .f32⟩ : BufTy).Contents (Elt F) → (⟨S4194304, .f32⟩ : BufTy).Contents (Elt F) → (⟨S4194304, .f32⟩ : BufTy).Contents (Elt F)),
    StableHlo.unary main_arg2 main_v148 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v148 main_v149 rfl shapeCasts_S4194304x1_S4194304,
    StableHlo.binary main_v147 main_v149 main_v150 (subf : (⟨S4194304, .f32⟩ : BufTy).Contents (Elt F) → (⟨S4194304, .f32⟩ : BufTy).Contents (Elt F) → (⟨S4194304, .f32⟩ : BufTy).Contents (Elt F)),
    StableHlo.nullary main_cst_50 (constant S_ .f32 0x00000000#32) ]
theorem main_part3_ops1_sub : (main_part3_ops1 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call12), window 3 (statements 181 … 240), in order:
    main_call12_v0 … main_v151. -/
abbrev main_part3_ops2 : List (HloOp τ sig (Elt F)) :=
  [ StableHlo.TRef.unary (.of main_cst_50 : StableHlo.TRef sig ⟨S_, .f32⟩) (.of main_call12_v0 : StableHlo.TRef sig ⟨S4194304, .f32⟩) (broadcastInDim S4194304 ![] bcast_S_S4194304),
    StableHlo.TRef.ternary (.of main_v142 : StableHlo.TRef sig ⟨S4194304, .i1⟩) (.of main_v150 : StableHlo.TRef sig ⟨S4194304, .f32⟩) (.of main_call12_v0 : StableHlo.TRef sig ⟨S4194304, .f32⟩) (.of main_v151 : StableHlo.TRef sig ⟨S4194304, .f32⟩) select ]
theorem main_part3_ops2_sub : (main_part3_ops2 : List (HloOp τ sig (Elt F))).Forall fun op => op.bufs ⊆ StableHlo.tcRefs τ sig :=
  ⟨StableHlo.unary_bufs_sub .., StableHlo.ternary_bufs_sub ..⟩
/-- 23 host operations of @main, window 3 (statements 181 … 240), in order:
    main_cst_51 … main_cst_55. -/
abbrev main_part3_ops3 : List (HloOp τ sig (Elt F)) :=
  [ StableHlo.nullary main_cst_51 (constant S_ .f32 0x00000000#32),
    StableHlo.binary main_v151 main_cst_51 main_v152 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v134 main_v152 main_v153 (subf : (⟨S_, .f32⟩ : BufTy).Contents (Elt F) → (⟨S_, .f32⟩ : BufTy).Contents (Elt F) → (⟨S_, .f32⟩ : BufTy).Contents (Elt F)),
    StableHlo.nullary main_c_52 (constantI S_ 32 2#32),
    StableHlo.unary main_c_52 main_v154 (broadcastInDim S4194304 ![] bcast_S_S4194304 : (⟨S_, .i32⟩ : BufTy).Contents (Elt F) → (⟨S4194304, .i32⟩ : BufTy).Contents (Elt F)),
    StableHlo.binary main_v25 main_v154 main_v155 (cmpi .eq : (⟨S4194304, .i32⟩ : BufTy).Contents (Elt F) → (⟨S4194304, .i32⟩ : BufTy).Contents (Elt F) → (⟨S4194304, .i1⟩ : BufTy).Contents (Elt F)),
    StableHlo.nullary main_c_53 (constantI S_ 32 4#32),
    StableHlo.unary main_c_53 main_v156 (broadcastInDim S4194304 ![] bcast_S_S4194304 : (⟨S_, .i32⟩ : BufTy).Contents (Elt F) → (⟨S4194304, .i32⟩ : BufTy).Contents (Elt F)),
    StableHlo.binary main_v51 main_v156 main_v157 (cmpi .eq : (⟨S4194304, .i32⟩ : BufTy).Contents (Elt F) → (⟨S4194304, .i32⟩ : BufTy).Contents (Elt F) → (⟨S4194304, .i1⟩ : BufTy).Contents (Elt F)),
    StableHlo.binary main_v155 main_v157 main_v158 (andi : (⟨S4194304, .i1⟩ : BufTy).Contents (Elt F) → (⟨S4194304, .i1⟩ : BufTy).Contents (Elt F) → (⟨S4194304, .i1⟩ : BufTy).Contents (Elt F)),
    StableHlo.nullary main_c_54 (constantI S_ 32 4#32),
    StableHlo.unary main_c_54 main_v159 (broadcastInDim S4194304 ![] bcast_S_S4194304 : (⟨S_, .i32⟩ : BufTy).Contents (Elt F) → (⟨S4194304, .i32⟩ : BufTy).Contents (Elt F)),
    StableHlo.binary main_v77 main_v159 main_v160 (cmpi .eq : (⟨S4194304, .i32⟩ : BufTy).Contents (Elt F) → (⟨S4194304, .i32⟩ : BufTy).Contents (Elt F) → (⟨S4194304, .i1⟩ : BufTy).Contents (Elt F)),
    StableHlo.binary main_v158 main_v160 main_v161 (andi : (⟨S4194304, .i1⟩ : BufTy).Contents (Elt F) → (⟨S4194304, .i1⟩ : BufTy).Contents (Elt F) → (⟨S4194304, .i1⟩ : BufTy).Contents (Elt F)),
    StableHlo.unary main_arg0 main_v162 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v162 main_v163 rfl shapeCasts_S4194304x1_S4194304,
    StableHlo.unary main_arg1 main_v164 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v164 main_v165 rfl shapeCasts_S4194304x1_S4194304,
    StableHlo.binary main_v163 main_v165 main_v166 (addf : (⟨S4194304, .f32⟩ : BufTy).Contents (Elt F) → (⟨S4194304, .f32⟩ : BufTy).Contents (Elt F) → (⟨S4194304, .f32⟩ : BufTy).Contents (Elt F)),
    StableHlo.unary main_arg2 main_v167 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v167 main_v168 rfl shapeCasts_S4194304x1_S4194304,
    StableHlo.binary main_v166 main_v168 main_v169 (subf : (⟨S4194304, .f32⟩ : BufTy).Contents (Elt F) → (⟨S4194304, .f32⟩ : BufTy).Contents (Elt F) → (⟨S4194304, .f32⟩ : BufTy).Contents (Elt F)),
    StableHlo.nullary main_cst_55 (constant S_ .f32 0x00000000#32) ]
theorem main_part3_ops3_sub : (main_part3_ops3 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call13), window 3 (statements 181 … 240), in order:
    main_call13_v0 … main_v170. -/
abbrev main_part3_ops4 : List (HloOp τ sig (Elt F)) :=
  [ StableHlo.TRef.unary (.of main_cst_55 : StableHlo.TRef sig ⟨S_, .f32⟩) (.of main_call13_v0 : StableHlo.TRef sig ⟨S4194304, .f32⟩) (broadcastInDim S4194304 ![] bcast_S_S4194304),
    StableHlo.TRef.ternary (.of main_v161 : StableHlo.TRef sig ⟨S4194304, .i1⟩) (.of main_v169 : StableHlo.TRef sig ⟨S4194304, .f32⟩) (.of main_call13_v0 : StableHlo.TRef sig ⟨S4194304, .f32⟩) (.of main_v170 : StableHlo.TRef sig ⟨S4194304, .f32⟩) select ]
theorem main_part3_ops4_sub : (main_part3_ops4 : List (HloOp τ sig (Elt F))).Forall fun op => op.bufs ⊆ StableHlo.tcRefs τ sig :=
  ⟨StableHlo.unary_bufs_sub .., StableHlo.ternary_bufs_sub ..⟩
/-- 11 host operations of @main, window 3 (statements 181 … 240), in order:
    main_cst_56 … main_c_59. -/
abbrev main_part3_ops5 : List (HloOp τ sig (Elt F)) :=
  [ StableHlo.nullary main_cst_56 (constant S_ .f32 0x00000000#32),
    StableHlo.binary main_v170 main_cst_56 main_v171 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v153 main_v171 main_v172 (subf : (⟨S_, .f32⟩ : BufTy).Contents (Elt F) → (⟨S_, .f32⟩ : BufTy).Contents (Elt F) → (⟨S_, .f32⟩ : BufTy).Contents (Elt F)),
    StableHlo.nullary main_c_57 (constantI S_ 32 2#32),
    StableHlo.unary main_c_57 main_v173 (broadcastInDim S4194304 ![] bcast_S_S4194304 : (⟨S_, .i32⟩ : BufTy).Contents (Elt F) → (⟨S4194304, .i32⟩ : BufTy).Contents (Elt F)),
    StableHlo.binary main_v25 main_v173 main_v174 (cmpi .eq : (⟨S4194304, .i32⟩ : BufTy).Contents (Elt F) → (⟨S4194304, .i32⟩ : BufTy).Contents (Elt F) → (⟨S4194304, .i1⟩ : BufTy).Contents (Elt F)),
    StableHlo.nullary main_c_58 (constantI S_ 32 5#32),
    StableHlo.unary main_c_58 main_v175 (broadcastInDim S4194304 ![] bcast_S_S4194304 : (⟨S_, .i32⟩ : BufTy).Contents (Elt F) → (⟨S4194304, .i32⟩ : BufTy).Contents (Elt F)),
    StableHlo.binary main_v51 main_v175 main_v176 (cmpi .eq : (⟨S4194304, .i32⟩ : BufTy).Contents (Elt F) → (⟨S4194304, .i32⟩ : BufTy).Contents (Elt F) → (⟨S4194304, .i1⟩ : BufTy).Contents (Elt F)),
    StableHlo.binary main_v174 main_v176 main_v177 (andi : (⟨S4194304, .i1⟩ : BufTy).Contents (Elt F) → (⟨S4194304, .i1⟩ : BufTy).Contents (Elt F) → (⟨S4194304, .i1⟩ : BufTy).Contents (Elt F)),
    StableHlo.nullary main_c_59 (constantI S_ 32 5#32) ]
theorem main_part3_ops5_sub : (main_part3_ops5 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩
/-- Window 3's stretches, in order. -/
abbrev part3_opss : List (List (HloOp τ sig (Elt F))) :=
  [ main_part3_ops0,
    main_part3_ops1,
    main_part3_ops2,
    main_part3_ops3,
    main_part3_ops4,
    main_part3_ops5 ]
theorem part3_opss_sub : (part3_opss : List (List (HloOp τ sig (Elt F)))).Forall fun l => l.Forall fun op => op.bufs ⊆ StableHlo.tcRefs τ sig :=
  ⟨main_part3_ops0_sub, main_part3_ops1_sub, main_part3_ops2_sub, main_part3_ops3_sub, main_part3_ops4_sub, main_part3_ops5_sub⟩

end Cert.ReferenceIdeal.Rn

end
-- ==== Proof.Rf.Ops1.lean ====
/- The reference's @main as operation lists: windows 4 … 7 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 12 host operations of @main, window 4 (statements 241 … 300), in order:
    main_v178 … main_cst_60. -/
abbrev main_part4_ops0 : List (HloOp τ sig (Elt F)) :=
  [ StableHlo.unary main_c_59 main_v178 (broadcastInDim S4194304 ![] bcast_S_S4194304 : (⟨S_, .i32⟩ : BufTy).Contents (Elt F) → (⟨S4194304, .i32⟩ : BufTy).Contents (Elt F)),
    StableHlo.binary main_v77 main_v178 main_v179 (cmpi .eq : (⟨S4194304, .i32⟩ : BufTy).Contents (Elt F) → (⟨S4194304, .i32⟩ : BufTy).Contents (Elt F) → (⟨S4194304, .i1⟩ : BufTy).Contents (Elt F)),
    StableHlo.binary main_v177 main_v179 main_v180 (andi : (⟨S4194304, .i1⟩ : BufTy).Contents (Elt F) → (⟨S4194304, .i1⟩ : BufTy).Contents (Elt F) → (⟨S4194304, .i1⟩ : BufTy).Contents (Elt F)),
    StableHlo.unary main_arg0 main_v181 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v181 main_v182 rfl shapeCasts_S4194304x1_S4194304,
    StableHlo.unary main_arg1 main_v183 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v183 main_v184 rfl shapeCasts_S4194304x1_S4194304,
    StableHlo.binary main_v182 main_v184 main_v185 (addf : (⟨S4194304, .f32⟩ : BufTy).Contents (Elt F) → (⟨S4194304, .f32⟩ : BufTy).Contents (Elt F) → (⟨S4194304, .f32⟩ : BufTy).Contents (Elt F)),
    StableHlo.unary main_arg2 main_v186 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v186 main_v187 rfl shapeCasts_S4194304x1_S4194304,
    StableHlo.binary main_v185 main_v187 main_v188 (subf : (⟨S4194304, .f32⟩ : BufTy).Contents (Elt F) → (⟨S4194304, .f32⟩ : BufTy).Contents (Elt F) → (⟨S4194304, .f32⟩ : BufTy).Contents (Elt F)),
    StableHlo.nullary main_cst_60 (constant S_ .f32 0x00000000#32) ]
theorem main_part4_ops0_sub : (main_part4_ops0 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call14), window 4 (statements 241 … 300), in order:
    main_call14_v0 … main_v189. -/
abbrev main_part4_ops1 : List (HloOp τ sig (Elt F)) :=
  [ StableHlo.TRef.unary (.of main_cst_60 : StableHlo.TRef sig ⟨S_, .f32⟩) (.of main_call14_v0 : StableHlo.TRef sig ⟨S4194304, .f32⟩) (broadcastInDim S4194304 ![] bcast_S_S4194304),
    StableHlo.TRef.ternary (.of main_v180 : StableHlo.TRef sig ⟨S4194304, .i1⟩) (.of main_v188 : StableHlo.TRef sig ⟨S4194304, .f32⟩) (.of main_call14_v0 : StableHlo.TRef sig ⟨S4194304, .f32⟩) (.of main_v189 : StableHlo.TRef sig ⟨S4194304, .f32⟩) select ]
theorem main_part4_ops1_sub : (main_part4_ops1 : List (HloOp τ sig (Elt F))).Forall fun op => op.bufs ⊆ StableHlo.tcRefs τ sig :=
  ⟨StableHlo.unary_bufs_sub .., StableHlo.ternary_bufs_sub ..⟩
/-- 23 host operations of @main, window 4 (statements 241 … 300), in order:
    main_cst_61 … main_cst_65. -/
abbrev main_part4_ops2 : List (HloOp τ sig (Elt F)) :=
  [ StableHlo.nullary main_cst_61 (constant S_ .f32 0x00000000#32),
    StableHlo.binary main_v189 main_cst_61 main_v190 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v172 main_v190 main_v191 (subf : (⟨S_, .f32⟩ : BufTy).Contents (Elt F) → (⟨S_, .f32⟩ : BufTy).Contents (Elt F) → (⟨S_, .f32⟩ : BufTy).Contents (Elt F)),
    StableHlo.nullary main_c_62 (constantI S_ 32 2#32),
    StableHlo.unary main_c_62 main_v192 (broadcastInDim S4194304 ![] bcast_S_S4194304 : (⟨S_, .i32⟩ : BufTy).Contents (Elt F) → (⟨S4194304, .i32⟩ : BufTy).Contents (Elt F)),
    StableHlo.binary main_v25 main_v192 main_v193 (cmpi .eq : (⟨S4194304, .i32⟩ : BufTy).Contents (Elt F) → (⟨S4194304, .i32⟩ : BufTy).Contents (Elt F) → (⟨S4194304, .i1⟩ : BufTy).Contents (Elt F)),
    StableHlo.nullary main_c_63 (constantI S_ 32 6#32),
    StableHlo.unary main_c_63 main_v194 (broadcastInDim S4194304 ![] bcast_S_S4194304 : (⟨S_, .i32⟩ : BufTy).Contents (Elt F) → (⟨S4194304, .i32⟩ : BufTy).Contents (Elt F)),
    StableHlo.binary main_v51 main_v194 main_v195 (cmpi .eq : (⟨S4194304, .i32⟩ : BufTy).Contents (Elt F) → (⟨S4194304, .i32⟩ : BufTy).Contents (Elt F) → (⟨S4194304, .i1⟩ : BufTy).Contents (Elt F)),
    StableHlo.binary main_v193 main_v195 main_v196 (andi : (⟨S4194304, .i1⟩ : BufTy).Contents (Elt F) → (⟨S4194304, .i1⟩ : BufTy).Contents (Elt F) → (⟨S4194304, .i1⟩ : BufTy).Contents (Elt F)),
    StableHlo.nullary main_c_64 (constantI S_ 32 6#32),
    StableHlo.unary main_c_64 main_v197 (broadcastInDim S4194304 ![] bcast_S_S4194304 : (⟨S_, .i32⟩ : BufTy).Contents (Elt F) → (⟨S4194304, .i32⟩ : BufTy).Contents (Elt F)),
    StableHlo.binary main_v77 main_v197 main_v198 (cmpi .eq : (⟨S4194304, .i32⟩ : BufTy).Contents (Elt F) → (⟨S4194304, .i32⟩ : BufTy).Contents (Elt F) → (⟨S4194304, .i1⟩ : BufTy).Contents (Elt F)),
    StableHlo.binary main_v196 main_v198 main_v199 (andi : (⟨S4194304, .i1⟩ : BufTy).Contents (Elt F) → (⟨S4194304, .i1⟩ : BufTy).Contents (Elt F) → (⟨S4194304, .i1⟩ : BufTy).Contents (Elt F)),
    StableHlo.unary main_arg0 main_v200 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v200 main_v201 rfl shapeCasts_S4194304x1_S4194304,
    StableHlo.unary main_arg1 main_v202 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v202 main_v203 rfl shapeCasts_S4194304x1_S4194304,
    StableHlo.binary main_v201 main_v203 main_v204 (addf : (⟨S4194304, .f32⟩ : BufTy).Contents (Elt F) → (⟨S4194304, .f32⟩ : BufTy).Contents (Elt F) → (⟨S4194304, .f32⟩ : BufTy).Contents (Elt F)),
    StableHlo.unary main_arg2 main_v205 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v205 main_v206 rfl shapeCasts_S4194304x1_S4194304,
    StableHlo.binary main_v204 main_v206 main_v207 (subf : (⟨S4194304, .f32⟩ : BufTy).Contents (Elt F) → (⟨S4194304, .f32⟩ : BufTy).Contents (Elt F) → (⟨S4194304, .f32⟩ : BufTy).Contents (Elt F)),
    StableHlo.nullary main_cst_65 (constant S_ .f32 0x00000000#32) ]
theorem main_part4_ops2_sub : (main_part4_ops2 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call15), window 4 (statements 241 … 300), in order:
    main_call15_v0 … main_v208. -/
abbrev main_part4_ops3 : List (HloOp τ sig (Elt F)) :=
  [ StableHlo.TRef.unary (.of main_cst_65 : StableHlo.TRef sig ⟨S_, .f32⟩) (.of main_call15_v0 : StableHlo.TRef sig ⟨S4194304, .f32⟩) (broadcastInDim S4194304 ![] bcast_S_S4194304),
    StableHlo.TRef.ternary (.of main_v199 : StableHlo.TRef sig ⟨S4194304, .i1⟩) (.of main_v207 : StableHlo.TRef sig ⟨S4194304, .f32⟩) (.of main_call15_v0 : StableHlo.TRef sig ⟨S4194304, .f32⟩) (.of main_v208 : StableHlo.TRef sig ⟨S4194304, .f32⟩) select ]
theorem main_part4_ops3_sub : (main_part4_ops3 : List (HloOp τ sig (Elt F))).Forall fun op => op.bufs ⊆ StableHlo.tcRefs τ sig :=
  ⟨StableHlo.unary_bufs_sub .., StableHlo.ternary_bufs_sub ..⟩
/-- 23 host operations of @main, window 4 (statements 241 … 300), in order:
    main_cst_66 … main_cst_70. -/
abbrev main_part4_ops4 : List (HloOp τ sig (Elt F)) :=
  [ StableHlo.nullary main_cst_66 (constant S_ .f32 0x00000000#32),
    StableHlo.binary main_v208 main_cst_66 main_v209 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v191 main_v209 main_v210 (subf : (⟨S_, .f32⟩ : BufTy).Contents (Elt F) → (⟨S_, .f32⟩ : BufTy).Contents (Elt F) → (⟨S_, .f32⟩ : BufTy).Contents (Elt F)),
    StableHlo.nullary main_c_67 (constantI S_ 32 2#32),
    StableHlo.unary main_c_67 main_v211 (broadcastInDim S4194304 ![] bcast_S_S4194304 : (⟨S_, .i32⟩ : BufTy).Contents (Elt F) → (⟨S4194304, .i32⟩ : BufTy).Contents (Elt F)),
    StableHlo.binary main_v25 main_v211 main_v212 (cmpi .eq : (⟨S4194304, .i32⟩ : BufTy).Contents (Elt F) → (⟨S4194304, .i32⟩ : BufTy).Contents (Elt F) → (⟨S4194304, .i1⟩ : BufTy).Contents (Elt F)),
    StableHlo.nullary main_c_68 (constantI S_ 32 7#32),
    StableHlo.unary main_c_68 main_v213 (broadcastInDim S4194304 ![] bcast_S_S4194304 : (⟨S_, .i32⟩ : BufTy).Contents (Elt F) → (⟨S4194304, .i32⟩ : BufTy).Contents (Elt F)),
    StableHlo.binary main_v51 main_v213 main_v214 (cmpi .eq : (⟨S4194304, .i32⟩ : BufTy).Contents (Elt F) → (⟨S4194304, .i32⟩ : BufTy).Contents (Elt F) → (⟨S4194304, .i1⟩ : BufTy).Contents (Elt F)),
    StableHlo.binary main_v212 main_v214 main_v215 (andi : (⟨S4194304, .i1⟩ : BufTy).Contents (Elt F) → (⟨S4194304, .i1⟩ : BufTy).Contents (Elt F) → (⟨S4194304, .i1⟩ : BufTy).Contents (Elt F)),
    StableHlo.nullary main_c_69 (constantI S_ 32 7#32),
    StableHlo.unary main_c_69 main_v216 (broadcastInDim S4194304 ![] bcast_S_S4194304 : (⟨S_, .i32⟩ : BufTy).Contents (Elt F) → (⟨S4194304, .i32⟩ : BufTy).Contents (Elt F)),
    StableHlo.binary main_v77 main_v216 main_v217 (cmpi .eq : (⟨S4194304, .i32⟩ : BufTy).Contents (Elt F) → (⟨S4194304, .i32⟩ : BufTy).Contents (Elt F) → (⟨S4194304, .i1⟩ : BufTy).Contents (Elt F)),
    StableHlo.binary main_v215 main_v217 main_v218 (andi : (⟨S4194304, .i1⟩ : BufTy).Contents (Elt F) → (⟨S4194304, .i1⟩ : BufTy).Contents (Elt F) → (⟨S4194304, .i1⟩ : BufTy).Contents (Elt F)),
    StableHlo.unary main_arg0 main_v219 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v219 main_v220 rfl shapeCasts_S4194304x1_S4194304,
    StableHlo.unary main_arg1 main_v221 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v221 main_v222 rfl shapeCasts_S4194304x1_S4194304,
    StableHlo.binary main_v220 main_v222 main_v223 (addf : (⟨S4194304, .f32⟩ : BufTy).Contents (Elt F) → (⟨S4194304, .f32⟩ : BufTy).Contents (Elt F) → (⟨S4194304, .f32⟩ : BufTy).Contents (Elt F)),
    StableHlo.unary main_arg2 main_v224 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v224 main_v225 rfl shapeCasts_S4194304x1_S4194304,
    StableHlo.binary main_v223 main_v225 main_v226 (subf : (⟨S4194304, .f32⟩ : BufTy).Contents (Elt F) → (⟨S4194304, .f32⟩ : BufTy).Contents (Elt F) → (⟨S4194304, .f32⟩ : BufTy).Contents (Elt F)),
    StableHlo.nullary main_cst_70 (constant S_ .f32 0x00000000#32) ]
theorem main_part4_ops4_sub : (main_part4_ops4 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- Window 4's stretches, in order. -/
abbrev part4_opss : List (List (HloOp τ sig (Elt F))) :=
  [ main_part4_ops0,
    main_part4_ops1,
    main_part4_ops2,
    main_part4_ops3,
    main_part4_ops4 ]
theorem part4_opss_sub : (part4_opss : List (List (HloOp τ sig (Elt F)))).Forall fun l => l.Forall fun op => op.bufs ⊆ StableHlo.tcRefs τ sig :=
  ⟨main_part4_ops0_sub, main_part4_ops1_sub, main_part4_ops2_sub, main_part4_ops3_sub, main_part4_ops4_sub⟩

/-- 2 host operations of @_where_1 (main_call16), window 5 (statements 301 … 360), in order:
    main_call16_v0 … main_v227. -/
abbrev main_part5_ops0 : List (HloOp τ sig (Elt F)) :=
  [ StableHlo.TRef.unary (.of main_cst_70 : StableHlo.TRef sig ⟨S_, .f32⟩) (.of main_call16_v0 : StableHlo.TRef sig ⟨S4194304, .f32⟩) (broadcastInDim S4194304 ![] bcast_S_S4194304),
    StableHlo.TRef.ternary (.of main_v218 : StableHlo.TRef sig ⟨S4194304, .i1⟩) (.of main_v226 : StableHlo.TRef sig ⟨S4194304, .f32⟩) (.of main_call16_v0 : StableHlo.TRef sig ⟨S4194304, .f32⟩) (.of main_v227 : StableHlo.TRef sig ⟨S4194304, .f32⟩) select ]
theorem main_part5_ops0_sub : (main_part5_ops0 : List (HloOp τ sig (Elt F))).Forall fun op => op.bufs ⊆ StableHlo.tcRefs τ sig :=
  ⟨StableHlo.unary_bufs_sub .., StableHlo.ternary_bufs_sub ..⟩
/-- 23 host operations of @main, window 5 (statements 301 … 360), in order:
    main_cst_71 … main_cst_75. -/
abbrev main_part5_ops1 : List (HloOp τ sig (Elt F)) :=
  [ StableHlo.nullary main_cst_71 (constant S_ .f32 0x00000000#32),
    StableHlo.binary main_v227 main_cst_71 main_v228 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v210 main_v228 main_v229 (subf : (⟨S_, .f32⟩ : BufTy).Contents (Elt F) → (⟨S_, .f32⟩ : BufTy).Contents (Elt F) → (⟨S_, .f32⟩ : BufTy).Contents (Elt F)),
    StableHlo.nullary main_c_72 (constantI S_ 32 4#32),
    StableHlo.unary main_c_72 main_v230 (broadcastInDim S4194304 ![] bcast_S_S4194304 : (⟨S_, .i32⟩ : BufTy).Contents (Elt F) → (⟨S4194304, .i32⟩ : BufTy).Contents (Elt F)),
    StableHlo.binary main_v25 main_v230 main_v231 (cmpi .eq : (⟨S4194304, .i32⟩ : BufTy).Contents (Elt F) → (⟨S4194304, .i32⟩ : BufTy).Contents (Elt F) → (⟨S4194304, .i1⟩ : BufTy).Contents (Elt F)),
    StableHlo.nullary main_c_73 (constantI S_ 32 0#32),
    StableHlo.unary main_c_73 main_v232 (broadcastInDim S4194304 ![] bcast_S_S4194304 : (⟨S_, .i32⟩ : BufTy).Contents (Elt F) → (⟨S4194304, .i32⟩ : BufTy).Contents (Elt F)),
    StableHlo.binary main_v51 main_v232 main_v233 (cmpi .eq : (⟨S4194304, .i32⟩ : BufTy).Contents (Elt F) → (⟨S4194304, .i32⟩ : BufTy).Contents (Elt F) → (⟨S4194304, .i1⟩ : BufTy).Contents (Elt F)),
    StableHlo.binary main_v231 main_v233 main_v234 (andi : (⟨S4194304, .i1⟩ : BufTy).Contents (Elt F) → (⟨S4194304, .i1⟩ : BufTy).Contents (Elt F) → (⟨S4194304, .i1⟩ : BufTy).Contents (Elt F)),
    StableHlo.nullary main_c_74 (constantI S_ 32 4#32),
    StableHlo.unary main_c_74 main_v235 (broadcastInDim S4194304 ![] bcast_S_S4194304 : (⟨S_, .i32⟩ : BufTy).Contents (Elt F) → (⟨S4194304, .i32⟩ : BufTy).Contents (Elt F)),
    StableHlo.binary main_v77 main_v235 main_v236 (cmpi .eq : (⟨S4194304, .i32⟩ : BufTy).Contents (Elt F) → (⟨S4194304, .i32⟩ : BufTy).Contents (Elt F) → (⟨S4194304, .i1⟩ : BufTy).Contents (Elt F)),
    StableHlo.binary main_v234 main_v236 main_v237 (andi : (⟨S4194304, .i1⟩ : BufTy).Contents (Elt F) → (⟨S4194304, .i1⟩ : BufTy).Contents (Elt F) → (⟨S4194304, .i1⟩ : BufTy).Contents (Elt F)),
    StableHlo.unary main_arg0 main_v238 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v238 main_v239 rfl shapeCasts_S4194304x1_S4194304,
    StableHlo.unary main_arg1 main_v240 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v240 main_v241 rfl shapeCasts_S4194304x1_S4194304,
    StableHlo.binary main_v239 main_v241 main_v242 (addf : (⟨S4194304, .f32⟩ : BufTy).Contents (Elt F) → (⟨S4194304, .f32⟩ : BufTy).Contents (Elt F) → (⟨S4194304, .f32⟩ : BufTy).Contents (Elt F)),
    StableHlo.unary main_arg2 main_v243 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v243 main_v244 rfl shapeCasts_S4194304x1_S4194304,
    StableHlo.binary main_v242 main_v244 main_v245 (subf : (⟨S4194304, .f32⟩ : BufTy).Contents (Elt F) → (⟨S4194304, .f32⟩ : BufTy).Contents (Elt F) → (⟨S4194304, .f32⟩ : BufTy).Contents (Elt F)),
    StableHlo.nullary main_cst_75 (constant S_ .f32 0x00000000#32) ]
theorem main_part5_ops1_sub : (main_part5_ops1 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call17), window 5 (statements 301 … 360), in order:
    main_call17_v0 … main_v246. -/
abbrev main_part5_ops2 : List (HloOp τ sig (Elt F)) :=
  [ StableHlo.TRef.unary (.of main_cst_75 : StableHlo.TRef sig ⟨S_, .f32⟩) (.of main_call17_v0 : StableHlo.TRef sig ⟨S4194304, .f32⟩) (broadcastInDim S4194304 ![] bcast_S_S4194304),
    StableHlo.TRef.ternary (.of main_v237 : StableHlo.TRef sig ⟨S4194304, .i1⟩) (.of main_v245 : StableHlo.TRef sig ⟨S4194304, .f32⟩) (.of main_call17_v0 : StableHlo.TRef sig ⟨S4194304, .f32⟩) (.of main_v246 : StableHlo.TRef sig ⟨S4194304, .f32⟩) select ]
theorem main_part5_ops2_sub : (main_part5_ops2 : List (HloOp τ sig (Elt F))).Forall fun op => op.bufs ⊆ StableHlo.tcRefs τ sig :=
  ⟨StableHlo.unary_bufs_sub .., StableHlo.ternary_bufs_sub ..⟩
/-- 23 host operations of @main, window 5 (statements 301 … 360), in order:
    main_cst_76 … main_cst_80. -/
abbrev main_part5_ops3 : List (HloOp τ sig (Elt F)) :=
  [ StableHlo.nullary main_cst_76 (constant S_ .f32 0x00000000#32),
    StableHlo.binary main_v246 main_cst_76 main_v247 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v229 main_v247 main_v248 (subf : (⟨S_, .f32⟩ : BufTy).Contents (Elt F) → (⟨S_, .f32⟩ : BufTy).Contents (Elt F) → (⟨S_, .f32⟩ : BufTy).Contents (Elt F)),
    StableHlo.nullary main_c_77 (constantI S_ 32 4#32),
    StableHlo.unary main_c_77 main_v249 (broadcastInDim S4194304 ![] bcast_S_S4194304 : (⟨S_, .i32⟩ : BufTy).Contents (Elt F) → (⟨S4194304, .i32⟩ : BufTy).Contents (Elt F)),
    StableHlo.binary main_v25 main_v249 main_v250 (cmpi .eq : (⟨S4194304, .i32⟩ : BufTy).Contents (Elt F) → (⟨S4194304, .i32⟩ : BufTy).Contents (Elt F) → (⟨S4194304, .i1⟩ : BufTy).Contents (Elt F)),
    StableHlo.nullary main_c_78 (constantI S_ 32 2#32),
    StableHlo.unary main_c_78 main_v251 (broadcastInDim S4194304 ![] bcast_S_S4194304 : (⟨S_, .i32⟩ : BufTy).Contents (Elt F) → (⟨S4194304, .i32⟩ : BufTy).Contents (Elt F)),
    StableHlo.binary main_v51 main_v251 main_v252 (cmpi .eq : (⟨S4194304, .i32⟩ : BufTy).Contents (Elt F) → (⟨S4194304, .i32⟩ : BufTy).Contents (Elt F) → (⟨S4194304, .i1⟩ : BufTy).Contents (Elt F)),
    StableHlo.binary main_v250 main_v252 main_v253 (andi : (⟨S4194304, .i1⟩ : BufTy).Contents (Elt F) → (⟨S4194304, .i1⟩ : BufTy).Contents (Elt F) → (⟨S4194304, .i1⟩ : BufTy).Contents (Elt F)),
    StableHlo.nullary main_c_79 (constantI S_ 32 4#32),
    StableHlo.unary main_c_79 main_v254 (broadcastInDim S4194304 ![] bcast_S_S4194304 : (⟨S_, .i32⟩ : BufTy).Contents (Elt F) → (⟨S4194304, .i32⟩ : BufTy).Contents (Elt F)),
    StableHlo.binary main_v77 main_v254 main_v255 (cmpi .eq : (⟨S4194304, .i32⟩ : BufTy).Contents (Elt F) → (⟨S4194304, .i32⟩ : BufTy).Contents (Elt F) → (⟨S4194304, .i1⟩ : BufTy).Contents (Elt F)),
    StableHlo.binary main_v253 main_v255 main_v256 (andi : (⟨S4194304, .i1⟩ : BufTy).Contents (Elt F) → (⟨S4194304, .i1⟩ : BufTy).Contents (Elt F) → (⟨S4194304, .i1⟩ : BufTy).Contents (Elt F)),
    StableHlo.unary main_arg0 main_v257 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v257 main_v258 rfl shapeCasts_S4194304x1_S4194304,
    StableHlo.unary main_arg1 main_v259 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v259 main_v260 rfl shapeCasts_S4194304x1_S4194304,
    StableHlo.binary main_v258 main_v260 main_v261 (addf : (⟨S4194304, .f32⟩ : BufTy).Contents (Elt F) → (⟨S4194304, .f32⟩ : BufTy).Contents (Elt F) → (⟨S4194304, .f32⟩ : BufTy).Contents (Elt F)),
    StableHlo.unary main_arg2 main_v262 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v262 main_v263 rfl shapeCasts_S4194304x1_S4194304,
    StableHlo.binary main_v261 main_v263 main_v264 (subf : (⟨S4194304, .f32⟩ : BufTy).Contents (Elt F) → (⟨S4194304, .f32⟩ : BufTy).Contents (Elt F) → (⟨S4194304, .f32⟩ : BufTy).Contents (Elt F)),
    StableHlo.nullary main_cst_80 (constant S_ .f32 0x00000000#32) ]
theorem main_part5_ops3_sub : (main_part5_ops3 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call18), window 5 (statements 301 … 360), in order:
    main_call18_v0 … main_v265. -/
abbrev main_part5_ops4 : List (HloOp τ sig (Elt F)) :=
  [ StableHlo.TRef.unary (.of main_cst_80 : StableHlo.TRef sig ⟨S_, .f32⟩) (.of main_call18_v0 : StableHlo.TRef sig ⟨S4194304, .f32⟩) (broadcastInDim S4194304 ![] bcast_S_S4194304),
    StableHlo.TRef.ternary (.of main_v256 : StableHlo.TRef sig ⟨S4194304, .i1⟩) (.of main_v264 : StableHlo.TRef sig ⟨S4194304, .f32⟩) (.of main_call18_v0 : StableHlo.TRef sig ⟨S4194304, .f32⟩) (.of main_v265 : StableHlo.TRef sig ⟨S4194304, .f32⟩) select ]
theorem main_part5_ops4_sub : (main_part5_ops4 : List (HloOp τ sig (Elt F))).Forall fun op => op.bufs ⊆ StableHlo.tcRefs τ sig :=
  ⟨StableHlo.unary_bufs_sub .., StableHlo.ternary_bufs_sub ..⟩
/-- 11 host operations of @main, window 5 (statements 301 … 360), in order:
    main_cst_81 … main_c_84. -/
abbrev main_part5_ops5 : List (HloOp τ sig (Elt F)) :=
  [ StableHlo.nullary main_cst_81 (constant S_ .f32 0x00000000#32),
    StableHlo.binary main_v265 main_cst_81 main_v266 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v248 main_v266 main_v267 (subf : (⟨S_, .f32⟩ : BufTy).Contents (Elt F) → (⟨S_, .f32⟩ : BufTy).Contents (Elt F) → (⟨S_, .f32⟩ : BufTy).Contents (Elt F)),
    StableHlo.nullary main_c_82 (constantI S_ 32 5#32),
    StableHlo.unary main_c_82 main_v268 (broadcastInDim S4194304 ![] bcast_S_S4194304 : (⟨S_, .i32⟩ : BufTy).Contents (Elt F) → (⟨S4194304, .i32⟩ : BufTy).Contents (Elt F)),
    StableHlo.binary main_v25 main_v268 main_v269 (cmpi .eq : (⟨S4194304, .i32⟩ : BufTy).Contents (Elt F) → (⟨S4194304, .i32⟩ : BufTy).Contents (Elt F) → (⟨S4194304, .i1⟩ : BufTy).Contents (Elt F)),
    StableHlo.nullary main_c_83 (constantI S_ 32 1#32),
    StableHlo.unary main_c_83 main_v270 (broadcastInDim S4194304 ![] bcast_S_S4194304 : (⟨S_, .i32⟩ : BufTy).Contents (Elt F) → (⟨S4194304, .i32⟩ : BufTy).Contents (Elt F)),
    StableHlo.binary main_v51 main_v270 main_v271 (cmpi .eq : (⟨S4194304, .i32⟩ : BufTy).Contents (Elt F) → (⟨S4194304, .i32⟩ : BufTy).Contents (Elt F) → (⟨S4194304, .i1⟩ : BufTy).Contents (Elt F)),
    StableHlo.binary main_v269 main_v271 main_v272 (andi : (⟨S4194304, .i1⟩ : BufTy).Contents (Elt F) → (⟨S4194304, .i1⟩ : BufTy).Contents (Elt F) → (⟨S4194304, .i1⟩ : BufTy).Contents (Elt F)),
    StableHlo.nullary main_c_84 (constantI S_ 32 5#32) ]
theorem main_part5_ops5_sub : (main_part5_ops5 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩
/-- Window 5's stretches, in order. -/
abbrev part5_opss : List (List (HloOp τ sig (Elt F))) :=
  [ main_part5_ops0,
    main_part5_ops1,
    main_part5_ops2,
    main_part5_ops3,
    main_part5_ops4,
    main_part5_ops5 ]
theorem part5_opss_sub : (part5_opss : List (List (HloOp τ sig (Elt F)))).Forall fun l => l.Forall fun op => op.bufs ⊆ StableHlo.tcRefs τ sig :=
  ⟨main_part5_ops0_sub, main_part5_ops1_sub, main_part5_ops2_sub, main_part5_ops3_sub, main_part5_ops4_sub, main_part5_ops5_sub⟩

/-- 12 host operations of @main, window 6 (statements 361 … 420), in order:
    main_v273 … main_cst_85. -/
abbrev main_part6_ops0 : List (HloOp τ sig (Elt F)) :=
  [ StableHlo.unary main_c_84 main_v273 (broadcastInDim S4194304 ![] bcast_S_S4194304 : (⟨S_, .i32⟩ : BufTy).Contents (Elt F) → (⟨S4194304, .i32⟩ : BufTy).Contents (Elt F)),
    StableHlo.binary main_v77 main_v273 main_v274 (cmpi .eq : (⟨S4194304, .i32⟩ : BufTy).Contents (Elt F) → (⟨S4194304, .i32⟩ : BufTy).Contents (Elt F) → (⟨S4194304, .i1⟩ : BufTy).Contents (Elt F)),
    StableHlo.binary main_v272 main_v274 main_v275 (andi : (⟨S4194304, .i1⟩ : BufTy).Contents (Elt F) → (⟨S4194304, .i1⟩ : BufTy).Contents (Elt F) → (⟨S4194304, .i1⟩ : BufTy).Contents (Elt F)),
    StableHlo.unary main_arg0 main_v276 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v276 main_v277 rfl shapeCasts_S4194304x1_S4194304,
    StableHlo.unary main_arg1 main_v278 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v278 main_v279 rfl shapeCasts_S4194304x1_S4194304,
    StableHlo.binary main_v277 main_v279 main_v280 (addf : (⟨S4194304, .f32⟩ : BufTy).Contents (Elt F) → (⟨S4194304, .f32⟩ : BufTy).Contents (Elt F) → (⟨S4194304, .f32⟩ : BufTy).Contents (Elt F)),
    StableHlo.unary main_arg2 main_v281 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v281 main_v282 rfl shapeCasts_S4194304x1_S4194304,
    StableHlo.binary main_v280 main_v282 main_v283 (subf : (⟨S4194304, .f32⟩ : BufTy).Contents (Elt F) → (⟨S4194304, .f32⟩ : BufTy).Contents (Elt F) → (⟨S4194304, .f32⟩ : BufTy).Contents (Elt F)),
    StableHlo.nullary main_cst_85 (constant S_ .f32 0x00000000#32) ]
theorem main_part6_ops0_sub : (main_part6_ops0 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call19), window 6 (statements 361 … 420), in order:
    main_call19_v0 … main_v284. -/
abbrev main_part6_ops1 : List (HloOp τ sig (Elt F)) :=
  [ StableHlo.TRef.unary (.of main_cst_85 : StableHlo.TRef sig ⟨S_, .f32⟩) (.of main_call19_v0 : StableHlo.TRef sig ⟨S4194304, .f32⟩) (broadcastInDim S4194304 ![] bcast_S_S4194304),
    StableHlo.TRef.ternary (.of main_v275 : StableHlo.TRef sig ⟨S4194304, .i1⟩) (.of main_v283 : StableHlo.TRef sig ⟨S4194304, .f32⟩) (.of main_call19_v0 : StableHlo.TRef sig ⟨S4194304, .f32⟩) (.of main_v284 : StableHlo.TRef sig ⟨S4194304, .f32⟩) select ]
theorem main_part6_ops1_sub : (main_part6_ops1 : List (HloOp τ sig (Elt F))).Forall fun op => op.bufs ⊆ StableHlo.tcRefs τ sig :=
  ⟨StableHlo.unary_bufs_sub .., StableHlo.ternary_bufs_sub ..⟩
/-- 23 host operations of @main, window 6 (statements 361 … 420), in order:
    main_cst_86 … main_cst_90. -/
abbrev main_part6_ops2 : List (HloOp τ sig (Elt F)) :=
  [ StableHlo.nullary main_cst_86 (constant S_ .f32 0x00000000#32),
    StableHlo.binary main_v284 main_cst_86 main_v285 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v267 main_v285 main_v286 (subf : (⟨S_, .f32⟩ : BufTy).Contents (Elt F) → (⟨S_, .f32⟩ : BufTy).Contents (Elt F) → (⟨S_, .f32⟩ : BufTy).Contents (Elt F)),
    StableHlo.nullary main_c_87 (constantI S_ 32 5#32),
    StableHlo.unary main_c_87 main_v287 (broadcastInDim S4194304 ![] bcast_S_S4194304 : (⟨S_, .i32⟩ : BufTy).Contents (Elt F) → (⟨S4194304, .i32⟩ : BufTy).Contents (Elt F)),
    StableHlo.binary main_v25 main_v287 main_v288 (cmpi .eq : (⟨S4194304, .i32⟩ : BufTy).Contents (Elt F) → (⟨S4194304, .i32⟩ : BufTy).Contents (Elt F) → (⟨S4194304, .i1⟩ : BufTy).Contents (Elt F)),
    StableHlo.nullary main_c_88 (constantI S_ 32 2#32),
    StableHlo.unary main_c_88 main_v289 (broadcastInDim S4194304 ![] bcast_S_S4194304 : (⟨S_, .i32⟩ : BufTy).Contents (Elt F) → (⟨S4194304, .i32⟩ : BufTy).Contents (Elt F)),
    StableHlo.binary main_v51 main_v289 main_v290 (cmpi .eq : (⟨S4194304, .i32⟩ : BufTy).Contents (Elt F) → (⟨S4194304, .i32⟩ : BufTy).Contents (Elt F) → (⟨S4194304, .i1⟩ : BufTy).Contents (Elt F)),
    StableHlo.binary main_v288 main_v290 main_v291 (andi : (⟨S4194304, .i1⟩ : BufTy).Contents (Elt F) → (⟨S4194304, .i1⟩ : BufTy).Contents (Elt F) → (⟨S4194304, .i1⟩ : BufTy).Contents (Elt F)),
    StableHlo.nullary main_c_89 (constantI S_ 32 5#32),
    StableHlo.unary main_c_89 main_v292 (broadcastInDim S4194304 ![] bcast_S_S4194304 : (⟨S_, .i32⟩ : BufTy).Contents (Elt F) → (⟨S4194304, .i32⟩ : BufTy).Contents (Elt F)),
    StableHlo.binary main_v77 main_v292 main_v293 (cmpi .eq : (⟨S4194304, .i32⟩ : BufTy).Contents (Elt F) → (⟨S4194304, .i32⟩ : BufTy).Contents (Elt F) → (⟨S4194304, .i1⟩ : BufTy).Contents (Elt F)),
    StableHlo.binary main_v291 main_v293 main_v294 (andi : (⟨S4194304, .i1⟩ : BufTy).Contents (Elt F) → (⟨S4194304, .i1⟩ : BufTy).Contents (Elt F) → (⟨S4194304, .i1⟩ : BufTy).Contents (Elt F)),
    StableHlo.unary main_arg0 main_v295 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v295 main_v296 rfl shapeCasts_S4194304x1_S4194304,
    StableHlo.unary main_arg1 main_v297 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v297 main_v298 rfl shapeCasts_S4194304x1_S4194304,
    StableHlo.binary main_v296 main_v298 main_v299 (addf : (⟨S4194304, .f32⟩ : BufTy).Contents (Elt F) → (⟨S4194304, .f32⟩ : BufTy).Contents (Elt F) → (⟨S4194304, .f32⟩ : BufTy).Contents (Elt F)),
    StableHlo.unary main_arg2 main_v300 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v300 main_v301 rfl shapeCasts_S4194304x1_S4194304,
    StableHlo.binary main_v299 main_v301 main_v302 (subf : (⟨S4194304, .f32⟩ : BufTy).Contents (Elt F) → (⟨S4194304, .f32⟩ : BufTy).Contents (Elt F) → (⟨S4194304, .f32⟩ : BufTy).Contents (Elt F)),
    StableHlo.nullary main_cst_90 (constant S_ .f32 0x00000000#32) ]
theorem main_part6_ops2_sub : (main_part6_ops2 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call20), window 6 (statements 361 … 420), in order:
    main_call20_v0 … main_v303. -/
abbrev main_part6_ops3 : List (HloOp τ sig (Elt F)) :=
  [ StableHlo.TRef.unary (.of main_cst_90 : StableHlo.TRef sig ⟨S_, .f32⟩) (.of main_call20_v0 : StableHlo.TRef sig ⟨S4194304, .f32⟩) (broadcastInDim S4194304 ![] bcast_S_S4194304),
    StableHlo.TRef.ternary (.of main_v294 : StableHlo.TRef sig ⟨S4194304, .i1⟩) (.of main_v302 : StableHlo.TRef sig ⟨S4194304, .f32⟩) (.of main_call20_v0 : StableHlo.TRef sig ⟨S4194304, .f32⟩) (.of main_v303 : StableHlo.TRef sig ⟨S4194304, .f32⟩) select ]
theorem main_part6_ops3_sub : (main_part6_ops3 : List (HloOp τ sig (Elt F))).Forall fun op => op.bufs ⊆ StableHlo.tcRefs τ sig :=
  ⟨StableHlo.unary_bufs_sub .., StableHlo.ternary_bufs_sub ..⟩
/-- 23 host operations of @main, window 6 (statements 361 … 420), in order:
    main_cst_91 … main_cst_95. -/
abbrev main_part6_ops4 : List (HloOp τ sig (Elt F)) :=
  [ StableHlo.nullary main_cst_91 (constant S_ .f32 0x00000000#32),
    StableHlo.binary main_v303 main_cst_91 main_v304 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v286 main_v304 main_v305 (subf : (⟨S_, .f32⟩ : BufTy).Contents (Elt F) → (⟨S_, .f32⟩ : BufTy).Contents (Elt F) → (⟨S_, .f32⟩ : BufTy).Contents (Elt F)),
    StableHlo.nullary main_c_92 (constantI S_ 32 6#32),
    StableHlo.unary main_c_92 main_v306 (broadcastInDim S4194304 ![] bcast_S_S4194304 : (⟨S_, .i32⟩ : BufTy).Contents (Elt F) → (⟨S4194304, .i32⟩ : BufTy).Contents (Elt F)),
    StableHlo.binary main_v25 main_v306 main_v307 (cmpi .eq : (⟨S4194304, .i32⟩ : BufTy).Contents (Elt F) → (⟨S4194304, .i32⟩ : BufTy).Contents (Elt F) → (⟨S4194304, .i1⟩ : BufTy).Contents (Elt F)),
    StableHlo.nullary main_c_93 (constantI S_ 32 2#32),
    StableHlo.unary main_c_93 main_v308 (broadcastInDim S4194304 ![] bcast_S_S4194304 : (⟨S_, .i32⟩ : BufTy).Contents (Elt F) → (⟨S4194304, .i32⟩ : BufTy).Contents (Elt F)),
    StableHlo.binary main_v51 main_v308 main_v309 (cmpi .eq : (⟨S4194304, .i32⟩ : BufTy).Contents (Elt F) → (⟨S4194304, .i32⟩ : BufTy).Contents (Elt F) → (⟨S4194304, .i1⟩ : BufTy).Contents (Elt F)),
    StableHlo.binary main_v307 main_v309 main_v310 (andi : (⟨S4194304, .i1⟩ : BufTy).Contents (Elt F) → (⟨S4194304, .i1⟩ : BufTy).Contents (Elt F) → (⟨S4194304, .i1⟩ : BufTy).Contents (Elt F)),
    StableHlo.nullary main_c_94 (constantI S_ 32 6#32),
    StableHlo.unary main_c_94 main_v311 (broadcastInDim S4194304 ![] bcast_S_S4194304 : (⟨S_, .i32⟩ : BufTy).Contents (Elt F) → (⟨S4194304, .i32⟩ : BufTy).Contents (Elt F)),
    StableHlo.binary main_v77 main_v311 main_v312 (cmpi .eq : (⟨S4194304, .i32⟩ : BufTy).Contents (Elt F) → (⟨S4194304, .i32⟩ : BufTy).Contents (Elt F) → (⟨S4194304, .i1⟩ : BufTy).Contents (Elt F)),
    StableHlo.binary main_v310 main_v312 main_v313 (andi : (⟨S4194304, .i1⟩ : BufTy).Contents (Elt F) → (⟨S4194304, .i1⟩ : BufTy).Contents (Elt F) → (⟨S4194304, .i1⟩ : BufTy).Contents (Elt F)),
    StableHlo.unary main_arg0 main_v314 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v314 main_v315 rfl shapeCasts_S4194304x1_S4194304,
    StableHlo.unary main_arg1 main_v316 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v316 main_v317 rfl shapeCasts_S4194304x1_S4194304,
    StableHlo.binary main_v315 main_v317 main_v318 (addf : (⟨S4194304, .f32⟩ : BufTy).Contents (Elt F) → (⟨S4194304, .f32⟩ : BufTy).Contents (Elt F) → (⟨S4194304, .f32⟩ : BufTy).Contents (Elt F)),
    StableHlo.unary main_arg2 main_v319 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v319 main_v320 rfl shapeCasts_S4194304x1_S4194304,
    StableHlo.binary main_v318 main_v320 main_v321 (subf : (⟨S4194304, .f32⟩ : BufTy).Contents (Elt F) → (⟨S4194304, .f32⟩ : BufTy).Contents (Elt F) → (⟨S4194304, .f32⟩ : BufTy).Contents (Elt F)),
    StableHlo.nullary main_cst_95 (constant S_ .f32 0x00000000#32) ]
theorem main_part6_ops4_sub : (main_part6_ops4 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- Window 6's stretches, in order. -/
abbrev part6_opss : List (List (HloOp τ sig (Elt F))) :=
  [ main_part6_ops0,
    main_part6_ops1,
    main_part6_ops2,
    main_part6_ops3,
    main_part6_ops4 ]
theorem part6_opss_sub : (part6_opss : List (List (HloOp τ sig (Elt F)))).Forall fun l => l.Forall fun op => op.bufs ⊆ StableHlo.tcRefs τ sig :=
  ⟨main_part6_ops0_sub, main_part6_ops1_sub, main_part6_ops2_sub, main_part6_ops3_sub, main_part6_ops4_sub⟩

/-- 2 host operations of @_where_1 (main_call21), window 7 (statements 421 … 480), in order:
    main_call21_v0 … main_v322. -/
abbrev main_part7_ops0 : List (HloOp τ sig (Elt F)) :=
  [ StableHlo.TRef.unary (.of main_cst_95 : StableHlo.TRef sig ⟨S_, .f32⟩) (.of main_call21_v0 : StableHlo.TRef sig ⟨S4194304, .f32⟩) (broadcastInDim S4194304 ![] bcast_S_S4194304),
    StableHlo.TRef.ternary (.of main_v313 : StableHlo.TRef sig ⟨S4194304, .i1⟩) (.of main_v321 : StableHlo.TRef sig ⟨S4194304, .f32⟩) (.of main_call21_v0 : StableHlo.TRef sig ⟨S4194304, .f32⟩) (.of main_v322 : StableHlo.TRef sig ⟨S4194304, .f32⟩) select ]
theorem main_part7_ops0_sub : (main_part7_ops0 : List (HloOp τ sig (Elt F))).Forall fun op => op.bufs ⊆ StableHlo.tcRefs τ sig :=
  ⟨StableHlo.unary_bufs_sub .., StableHlo.ternary_bufs_sub ..⟩
/-- 23 host operations of @main, window 7 (statements 421 … 480), in order:
    main_cst_96 … main_cst_100. -/
abbrev main_part7_ops1 : List (HloOp τ sig (Elt F)) :=
  [ StableHlo.nullary main_cst_96 (constant S_ .f32 0x00000000#32),
    StableHlo.binary main_v322 main_cst_96 main_v323 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v305 main_v323 main_v324 (subf : (⟨S_, .f32⟩ : BufTy).Contents (Elt F) → (⟨S_, .f32⟩ : BufTy).Contents (Elt F) → (⟨S_, .f32⟩ : BufTy).Contents (Elt F)),
    StableHlo.nullary main_c_97 (constantI S_ 32 7#32),
    StableHlo.unary main_c_97 main_v325 (broadcastInDim S4194304 ![] bcast_S_S4194304 : (⟨S_, .i32⟩ : BufTy).Contents (Elt F) → (⟨S4194304, .i32⟩ : BufTy).Contents (Elt F)),
    StableHlo.binary main_v25 main_v325 main_v326 (cmpi .eq : (⟨S4194304, .i32⟩ : BufTy).Contents (Elt F) → (⟨S4194304, .i32⟩ : BufTy).Contents (Elt F) → (⟨S4194304, .i1⟩ : BufTy).Contents (Elt F)),
    StableHlo.nullary main_c_98 (constantI S_ 32 2#32),
    StableHlo.unary main_c_98 main_v327 (broadcastInDim S4194304 ![] bcast_S_S4194304 : (⟨S_, .i32⟩ : BufTy).Contents (Elt F) → (⟨S4194304, .i32⟩ : BufTy).Contents (Elt F)),
    StableHlo.binary main_v51 main_v327 main_v328 (cmpi .eq : (⟨S4194304, .i32⟩ : BufTy).Contents (Elt F) → (⟨S4194304, .i32⟩ : BufTy).Contents (Elt F) → (⟨S4194304, .i1⟩ : BufTy).Contents (Elt F)),
    StableHlo.binary main_v326 main_v328 main_v329 (andi : (⟨S4194304, .i1⟩ : BufTy).Contents (Elt F) → (⟨S4194304, .i1⟩ : BufTy).Contents (Elt F) → (⟨S4194304, .i1⟩ : BufTy).Contents (Elt F)),
    StableHlo.nullary main_c_99 (constantI S_ 32 7#32),
    StableHlo.unary main_c_99 main_v330 (broadcastInDim S4194304 ![] bcast_S_S4194304 : (⟨S_, .i32⟩ : BufTy).Contents (Elt F) → (⟨S4194304, .i32⟩ : BufTy).Contents (Elt F)),
    StableHlo.binary main_v77 main_v330 main_v331 (cmpi .eq : (⟨S4194304, .i32⟩ : BufTy).Contents (Elt F) → (⟨S4194304, .i32⟩ : BufTy).Contents (Elt F) → (⟨S4194304, .i1⟩ : BufTy).Contents (Elt F)),
    StableHlo.binary main_v329 main_v331 main_v332 (andi : (⟨S4194304, .i1⟩ : BufTy).Contents (Elt F) → (⟨S4194304, .i1⟩ : BufTy).Contents (Elt F) → (⟨S4194304, .i1⟩ : BufTy).Contents (Elt F)),
    StableHlo.unary main_arg0 main_v333 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v333 main_v334 rfl shapeCasts_S4194304x1_S4194304,
    StableHlo.unary main_arg1 main_v335 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v335 main_v336 rfl shapeCasts_S4194304x1_S4194304,
    StableHlo.binary main_v334 main_v336 main_v337 (addf : (⟨S4194304, .f32⟩ : BufTy).Contents (Elt F) → (⟨S4194304, .f32⟩ : BufTy).Contents (Elt F) → (⟨S4194304, .f32⟩ : BufTy).Contents (Elt F)),
    StableHlo.unary main_arg2 main_v338 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v338 main_v339 rfl shapeCasts_S4194304x1_S4194304,
    StableHlo.binary main_v337 main_v339 main_v340 (subf : (⟨S4194304, .f32⟩ : BufTy).Contents (Elt F) → (⟨S4194304, .f32⟩ : BufTy).Contents (Elt F) → (⟨S4194304, .f32⟩ : BufTy).Contents (Elt F)),
    StableHlo.nullary main_cst_100 (constant S_ .f32 0x00000000#32) ]
theorem main_part7_ops1_sub : (main_part7_ops1 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub ..⟩
/-- 2 host operations of @_where_1 (main_call22), window 7 (statements 421 … 480), in order:
    main_call22_v0 … main_v341. -/
abbrev main_part7_ops2 : List (HloOp τ sig (Elt F)) :=
  [ StableHlo.TRef.unary (.of main_cst_100 : StableHlo.TRef sig ⟨S_, .f32⟩) (.of main_call22_v0 : StableHlo.TRef sig ⟨S4194304, .f32⟩) (broadcastInDim S4194304 ![] bcast_S_S4194304),
    StableHlo.TRef.ternary (.of main_v332 : StableHlo.TRef sig ⟨S4194304, .i1⟩) (.of main_v340 : StableHlo.TRef sig ⟨S4194304, .f32⟩) (.of main_call22_v0 : StableHlo.TRef sig ⟨S4194304, .f32⟩) (.of main_v341 : StableHlo.TRef sig ⟨S4194304, .f32⟩) select ]
theorem main_part7_ops2_sub : (main_part7_ops2 : List (HloOp τ sig (Elt F))).Forall fun op => op.bufs ⊆ StableHlo.tcRefs τ sig :=
  ⟨StableHlo.unary_bufs_sub .., StableHlo.ternary_bufs_sub ..⟩
/-- 15 host operations of @main, window 7 (statements 421 … 480), in order:
    main_cst_101 … main_v352. -/
abbrev main_part7_ops3 : List (HloOp τ sig (Elt F)) :=
  [ StableHlo.nullary main_cst_101 (constant S_ .f32 0x00000000#32),
    StableHlo.binary main_v341 main_cst_101 main_v342 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v324 main_v342 main_v343 (subf : (⟨S_, .f32⟩ : BufTy).Contents (Elt F) → (⟨S_, .f32⟩ : BufTy).Contents (Elt F) → (⟨S_, .f32⟩ : BufTy).Contents (Elt F)),
    StableHlo.nullary main_c_102 (constantI S_ 32 0#32),
    StableHlo.unary main_c_102 main_v344 (broadcastInDim S4194304 ![] bcast_S_S4194304 : (⟨S_, .i32⟩ : BufTy).Contents (Elt F) → (⟨S4194304, .i32⟩ : BufTy).Contents (Elt F)),
    StableHlo.binary main_v25 main_v344 main_v345 (cmpi .eq : (⟨S4194304, .i32⟩ : BufTy).Contents (Elt F) → (⟨S4194304, .i32⟩ : BufTy).Contents (Elt F) → (⟨S4194304, .i1⟩ : BufTy).Contents (Elt F)),
    StableHlo.nullary main_c_103 (constantI S_ 32 4#32),
    StableHlo.unary main_c_103 main_v346 (broadcastInDim S4194304 ![] bcast_S_S4194304 : (⟨S_, .i32⟩ : BufTy).Contents (Elt F) → (⟨S4194304, .i32⟩ : BufTy).Contents (Elt F)),
    StableHlo.binary main_v51 main_v346 main_v347 (cmpi .eq : (⟨S4194304, .i32⟩ : BufTy).Contents (Elt F) → (⟨S4194304, .i32⟩ : BufTy).Contents (Elt F) → (⟨S4194304, .i1⟩ : BufTy).Contents (Elt F)),
    StableHlo.binary main_v345 main_v347 main_v348 (andi : (⟨S4194304, .i1⟩ : BufTy).Contents (Elt F) → (⟨S4194304, .i1⟩ : BufTy).Contents (Elt F) → (⟨S4194304, .i1⟩ : BufTy).Contents (Elt F)),
    StableHlo.nullary main_c_104 (constantI S_ 32 1#32),
    StableHlo.unary main_c_104 main_v349 (broadcastInDim S4194304 ![] bcast_S_S4194304 : (⟨S_, .i32⟩ : BufTy).Contents (Elt F) → (⟨S4194304, .i32⟩ : BufTy).Contents (Elt F)),
    StableHlo.binary main_v77 main_v349 main_v350 (cmpi .eq : (⟨S4194304, .i32⟩ : BufTy).Contents (Elt F) → (⟨S4194304, .i32⟩ : BufTy).Contents (Elt F) → (⟨S4194304, .i1⟩ : BufTy).Contents (Elt F)),
    StableHlo.binary main_v348 main_v350 main_v351 (andi : (⟨S4194304, .i1⟩ : BufTy).Contents (Elt F) → (⟨S4194304, .i1⟩ : BufTy).Contents (Elt F) → (⟨S4194304, .i1⟩ : BufTy).Contents (Elt F)),
    StableHlo.unary main_v351 main_v352 ((extui 32 · natLt_1_32) : (⟨S4194304, .i1⟩ : BufTy).Contents (Elt F) → (⟨S4194304, .i32⟩ : BufTy).Contents (Elt F)) ]
theorem main_part7_ops3_sub : (main_part7_ops3 : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call23), window 7 (statements 421 … 480), in order:
    main_call23_call0_c … main_v353. -/
abbrev main_part7_ops4 : List (HloOp τ sig (Elt F)) :=
  [ StableHlo.TRef.nullary (.of main_call23_call0_c : StableHlo.TRef sig ⟨S_, .i32⟩) (constantI S_ 32 0#32),
    StableHlo.TRef.unary (.of main_call23_call0_c : StableHlo.TRef sig ⟨S_, .i32⟩) (.of main_call23_call0_v0 : StableHlo.TRef sig ⟨S_, .i32⟩) (broadcastInDim S_ ![] bcast_S_S_),
    StableHlo.TRef.binary (.of main_v352 : StableHlo.TRef sig ⟨S4194304, .i32⟩) (.of main_call23_call0_v0 : StableHlo.TRef sig ⟨S_, .i32⟩) (.of main_v353 : StableHlo.TRef sig ⟨S4194304, .i32⟩) (fun x v => Host.reduceWindow IntOp.addi ![4194304] ![1] ![4194303] ![0] x v reduceWindows_S4194304_S4194304_w4194304s1p4194303_0 h_S_) ]
theorem main_part7_ops4_sub : (main_part7_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 7 (statements 421 … 480), in order:
    main_v354 … main_v357. -/
abbrev main_part7_ops5 : List (HloOp τ sig (Elt F)) :=
  [ StableHlo.unary main_v353 main_v354 ((extractStridedSlice S1 ![4194303] · slices_S4194304_S1_4194303) : (⟨S4194304, .i32⟩ : BufTy).Contents (Elt F) → (⟨S1, .i32⟩ : BufTy).Contents (Elt F)),
    StableHlo.reshape main_v354 main_v355 rfl shapeCasts_S1_S_,
    StableHlo.nullary main_c_105 (constantI S_ 32 1#32),
    StableHlo.unary main_c_105 main_v356 (broadcastInDim S4194304 ![] bcast_S_S4194304 : (⟨S_, .i32⟩ : BufTy).Contents (Elt F) → (⟨S4194304, .i32⟩ : BufTy).Contents (Elt F)),
    StableHlo.binary main_v353 main_v356 main_v357 (cmpi .eq : (⟨S4194304, .i32⟩ : BufTy).Contents (Elt F) → (⟨S4194304, .i32⟩ : BufTy).Contents (Elt F) → (⟨S4194304, .i1⟩ : BufTy).Contents (Elt F)) ]
theorem main_part7_ops5_sub : (main_part7_ops5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call24), window 7 (statements 421 … 480), in order:
    main_call24_v0 … main_v358. -/
abbrev main_part7_ops6 : List (HloOp τ sig (Elt F)) :=
  [ StableHlo.TRef.nullary (.of main_call24_v0 : StableHlo.TRef sig ⟨S4194304, .i32⟩) (iotaInDim S4194304 32 0),
    StableHlo.TRef.nullary (.of main_call24_c : StableHlo.TRef sig ⟨S_, .i1⟩) (constantI S_ 1 0#1),
    StableHlo.TRef.nullary (.of main_call24_c_0 : StableHlo.TRef sig ⟨S_, .i32⟩) (constantI S_ 32 0#32),
    StableHlo.TRef.quaternary (.of main_v357 : StableHlo.TRef sig ⟨S4194304, .i1⟩) (.of main_call24_v0 : StableHlo.TRef sig ⟨S4194304, .i32⟩) (.of main_call24_c : StableHlo.TRef sig ⟨S_, .i1⟩) (.of main_call24_c_0 : StableHlo.TRef sig ⟨S_, .i32⟩) (.of main_call24_v1_0 : StableHlo.TRef sig ⟨S_, .i1⟩) (fun x y u v j => (Host.reduce2 reducer_argmax_i1_i32 x y u v reducesTo_S4194304_S_d0 h_S_ j).1),
    StableHlo.TRef.quaternary (.of main_v357 : StableHlo.TRef sig ⟨S4194304, .i1⟩) (.of main_call24_v0 : StableHlo.TRef sig ⟨S4194304, .i32⟩) (.of main_call24_c : StableHlo.TRef sig ⟨S_, .i1⟩) (.of main_call24_c_0 : StableHlo.TRef sig ⟨S_, .i32⟩) (.of main_v358 : StableHlo.TRef sig ⟨S_, .i32⟩) (fun x y u v j => (Host.reduce2 reducer_argmax_i1_i32 x y u v reducesTo_S4194304_S_d0 h_S_ j).2) ]
theorem main_part7_ops6_sub : (main_part7_ops6 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 7 (statements 421 … 480), in order:
    main_c_106 … main_v360. -/
abbrev main_part7_ops7 : List (HloOp τ sig (Elt F)) :=
  [ StableHlo.nullary main_c_106 (constantI S_ 32 2#32),
    StableHlo.unary main_c_106 main_v359 (broadcastInDim S4194304 ![] bcast_S_S4194304 : (⟨S_, .i32⟩ : BufTy).Contents (Elt F) → (⟨S4194304, .i32⟩ : BufTy).Contents (Elt F)),
    StableHlo.binary main_v353 main_v359 main_v360 (cmpi .eq : (⟨S4194304, .i32⟩ : BufTy).Contents (Elt F) → (⟨S4194304, .i32⟩ : BufTy).Contents (Elt F) → (⟨S4194304, .i1⟩ : BufTy).Contents (Elt F)) ]
theorem main_part7_ops7_sub : (main_part7_ops7 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call25), window 7 (statements 421 … 480), in order:
    main_call25_v0 … main_v361. -/
abbrev main_part7_ops8 : List (HloOp τ sig (Elt F)) :=
  [ StableHlo.TRef.nullary (.of main_call25_v0 : StableHlo.TRef sig ⟨S4194304, .i32⟩) (iotaInDim S4194304 32 0),
    StableHlo.TRef.nullary (.of main_call25_c : StableHlo.TRef sig ⟨S_, .i1⟩) (constantI S_ 1 0#1),
    StableHlo.TRef.nullary (.of main_call25_c_0 : StableHlo.TRef sig ⟨S_, .i32⟩) (constantI S_ 32 0#32),
    StableHlo.TRef.quaternary (.of main_v360 : StableHlo.TRef sig ⟨S4194304, .i1⟩) (.of main_call25_v0 : StableHlo.TRef sig ⟨S4194304, .i32⟩) (.of main_call25_c : StableHlo.TRef sig ⟨S_, .i1⟩) (.of main_call25_c_0 : StableHlo.TRef sig ⟨S_, .i32⟩) (.of main_call25_v1_0 : StableHlo.TRef sig ⟨S_, .i1⟩) (fun x y u v j => (Host.reduce2 reducer_argmax_i1_i32 x y u v reducesTo_S4194304_S_d0 h_S_ j).1),
    StableHlo.TRef.quaternary (.of main_v360 : StableHlo.TRef sig ⟨S4194304, .i1⟩) (.of main_call25_v0 : StableHlo.TRef sig ⟨S4194304, .i32⟩) (.of main_call25_c : StableHlo.TRef sig ⟨S_, .i1⟩) (.of main_call25_c_0 : StableHlo.TRef sig ⟨S_, .i32⟩) (.of main_v361 : StableHlo.TRef sig ⟨S_, .i32⟩) (fun x y u v j => (Host.reduce2 reducer_argmax_i1_i32 x y u v reducesTo_S4194304_S_d0 h_S_ j).2) ]
theorem main_part7_ops8_sub : (main_part7_ops8 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 7 (statements 421 … 480), in order:
    main_c_107 … main_v363. -/
abbrev main_part7_ops9 : List (HloOp τ sig (Elt F)) :=
  [ StableHlo.nullary main_c_107 (constantI S_ 32 1#32),
    StableHlo.unary main_c_107 main_v362 (broadcastInDim S4194304 ![] bcast_S_S4194304 : (⟨S_, .i32⟩ : BufTy).Contents (Elt F) → (⟨S4194304, .i32⟩ : BufTy).Contents (Elt F)),
    StableHlo.binary main_v353 main_v362 main_v363 (cmpi .eq : (⟨S4194304, .i32⟩ : BufTy).Contents (Elt F) → (⟨S4194304, .i32⟩ : BufTy).Contents (Elt F) → (⟨S4194304, .i1⟩ : BufTy).Contents (Elt F)) ]
theorem main_part7_ops9_sub : (main_part7_ops9 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call26), window 7 (statements 421 … 480), in order:
    main_call26_v0 … main_v364. -/
abbrev main_part7_ops10 : List (HloOp τ sig (Elt F)) :=
  [ StableHlo.TRef.nullary (.of main_call26_v0 : StableHlo.TRef sig ⟨S4194304, .i32⟩) (iotaInDim S4194304 32 0),
    StableHlo.TRef.nullary (.of main_call26_c : StableHlo.TRef sig ⟨S_, .i1⟩) (constantI S_ 1 0#1),
    StableHlo.TRef.nullary (.of main_call26_c_0 : StableHlo.TRef sig ⟨S_, .i32⟩) (constantI S_ 32 0#32),
    StableHlo.TRef.quaternary (.of main_v363 : StableHlo.TRef sig ⟨S4194304, .i1⟩) (.of main_call26_v0 : StableHlo.TRef sig ⟨S4194304, .i32⟩) (.of main_call26_c : StableHlo.TRef sig ⟨S_, .i1⟩) (.of main_call26_c_0 : StableHlo.TRef sig ⟨S_, .i32⟩) (.of main_call26_v1_0 : StableHlo.TRef sig ⟨S_, .i1⟩) (fun x y u v j => (Host.reduce2 reducer_argmax_i1_i32 x y u v reducesTo_S4194304_S_d0 h_S_ j).1),
    StableHlo.TRef.quaternary (.of main_v363 : StableHlo.TRef sig ⟨S4194304, .i1⟩) (.of main_call26_v0 : StableHlo.TRef sig ⟨S4194304, .i32⟩) (.of main_call26_c : StableHlo.TRef sig ⟨S_, .i1⟩) (.of main_call26_c_0 : StableHlo.TRef sig ⟨S_, .i32⟩) (.of main_v364 : StableHlo.TRef sig ⟨S_, .i32⟩) (fun x y u v j => (Host.reduce2 reducer_argmax_i1_i32 x y u v reducesTo_S4194304_S_d0 h_S_ j).2) ]
theorem main_part7_ops10_sub : (main_part7_ops10 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 5 host operations of @main, window 7 (statements 421 … 480), in order:
    main_c_108 … main_v367. -/
abbrev main_part7_ops11 : List (HloOp τ sig (Elt F)) :=
  [ StableHlo.nullary main_c_108 (constantI S_ 32 0#32),
    StableHlo.binary main_v358 main_c_108 main_v365 (cmpi .slt : (⟨S_, .i32⟩ : BufTy).Contents (Elt F) → (⟨S_, .i32⟩ : BufTy).Contents (Elt F) → (⟨S_, .i1⟩ : BufTy).Contents (Elt F)),
    StableHlo.nullary main_c_109 (constantI S_ 32 4194304#32),
    StableHlo.binary main_v358 main_c_109 main_v366 (addi : (⟨S_, .i32⟩ : BufTy).Contents (Elt F) → (⟨S_, .i32⟩ : BufTy).Contents (Elt F) → (⟨S_, .i32⟩ : BufTy).Contents (Elt F)),
    StableHlo.ternary main_v365 main_v366 main_v358 main_v367 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem main_part7_ops11_sub : (main_part7_ops11 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub ..⟩
/-- Window 7's stretches, in order. -/
abbrev part7_opss : List (List (HloOp τ sig (Elt F))) :=
  [ main_part7_ops0,
    main_part7_ops1,
    main_part7_ops2,
    main_part7_ops3,
    main_part7_ops4,
    main_part7_ops5,
    main_part7_ops6,
    main_part7_ops7,
    main_part7_ops8,
    main_part7_ops9,
    main_part7_ops10,
    main_part7_ops11 ]
theorem part7_opss_sub : (part7_opss : List (List (HloOp τ sig (Elt F)))).Forall fun l => l.Forall fun op => op.bufs ⊆ StableHlo.tcRefs τ sig :=
  ⟨main_part7_ops0_sub, main_part7_ops1_sub, main_part7_ops2_sub, main_part7_ops3_sub, main_part7_ops4_sub, main_part7_ops5_sub, main_part7_ops6_sub, main_part7_ops7_sub, main_part7_ops8_sub, main_part7_ops9_sub, main_part7_ops10_sub, main_part7_ops11_sub⟩

end Cert.ReferenceIdeal.Rn

end
-- ==== Proof.Rf.Ops2.lean ====
/- The reference's @main as operation lists: windows 8 … 11 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 50 host operations of @main, window 8 (statements 481 … 540), in order:
    main_c_110 … main_v397. -/
abbrev main_part8_ops0 : List (HloOp τ sig (Elt F)) :=
  ( StableHlo.nullary main_c_110 (constantI S_ 32 0#32)
  :: StableHlo.nullary main_c_111 (constantI S_ 32 0#32)
  :: StableHlo.binary main_c_110 main_c_111 main_v368 (cmpi .slt : (⟨S_, .i32⟩ : BufTy).Contents (Elt F) → (⟨S_, .i32⟩ : BufTy).Contents (Elt F) → (⟨S_, .i1⟩ : BufTy).Contents (Elt F))
  :: StableHlo.nullary main_c_112 (constantI S_ 32 0#32)
  :: StableHlo.nullary main_c_113 (constantI S_ 32 2#32)
  :: StableHlo.binary main_c_112 main_c_113 main_v369 (addi : (⟨S_, .i32⟩ : BufTy).Contents (Elt F) → (⟨S_, .i32⟩ : BufTy).Contents (Elt F) → (⟨S_, .i32⟩ : BufTy).Contents (Elt F))
  :: StableHlo.nullary main_c_114 (constantI S_ 32 0#32)
  :: StableHlo.ternary main_v368 main_v369 main_c_114 main_v370 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v367, main_v370] ⟨S_, .i32⟩ main_v371 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v371 main_v372 rfl shapeCasts_S1x2_S2
  :: StableHlo.nullary main_c_115 (constantI S_ 32 0#32)
  :: StableHlo.binary main_v361 main_c_115 main_v373 (cmpi .slt : (⟨S_, .i32⟩ : BufTy).Contents (Elt F) → (⟨S_, .i32⟩ : BufTy).Contents (Elt F) → (⟨S_, .i1⟩ : BufTy).Contents (Elt F))
  :: StableHlo.nullary main_c_116 (constantI S_ 32 4194304#32)
  :: StableHlo.binary main_v361 main_c_116 main_v374 (addi : (⟨S_, .i32⟩ : BufTy).Contents (Elt F) → (⟨S_, .i32⟩ : BufTy).Contents (Elt F) → (⟨S_, .i32⟩ : BufTy).Contents (Elt F))
  :: StableHlo.ternary main_v373 main_v374 main_v361 main_v375 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_117 (constantI S_ 32 0#32)
  :: StableHlo.nullary main_c_118 (constantI S_ 32 0#32)
  :: StableHlo.binary main_c_117 main_c_118 main_v376 (cmpi .slt : (⟨S_, .i32⟩ : BufTy).Contents (Elt F) → (⟨S_, .i32⟩ : BufTy).Contents (Elt F) → (⟨S_, .i1⟩ : BufTy).Contents (Elt F))
  :: StableHlo.nullary main_c_119 (constantI S_ 32 0#32)
  :: StableHlo.nullary main_c_120 (constantI S_ 32 2#32)
  :: StableHlo.binary main_c_119 main_c_120 main_v377 (addi : (⟨S_, .i32⟩ : BufTy).Contents (Elt F) → (⟨S_, .i32⟩ : BufTy).Contents (Elt F) → (⟨S_, .i32⟩ : BufTy).Contents (Elt F))
  :: StableHlo.nullary main_c_121 (constantI S_ 32 0#32)
  :: StableHlo.ternary main_v376 main_v377 main_c_121 main_v378 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v375, main_v378] ⟨S_, .i32⟩ main_v379 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v379 main_v380 rfl shapeCasts_S1x2_S2
  :: StableHlo.binary main_v372 main_v380 main_v381 (addf : (⟨S2, .f32⟩ : BufTy).Contents (Elt F) → (⟨S2, .f32⟩ : BufTy).Contents (Elt F) → (⟨S2, .f32⟩ : BufTy).Contents (Elt F))
  :: StableHlo.nullary main_c_122 (constantI S_ 32 0#32)
  :: StableHlo.binary main_v364 main_c_122 main_v382 (cmpi .slt : (⟨S_, .i32⟩ : BufTy).Contents (Elt F) → (⟨S_, .i32⟩ : BufTy).Contents (Elt F) → (⟨S_, .i1⟩ : BufTy).Contents (Elt F))
  :: StableHlo.nullary main_c_123 (constantI S_ 32 4194304#32)
  :: StableHlo.binary main_v364 main_c_123 main_v383 (addi : (⟨S_, .i32⟩ : BufTy).Contents (Elt F) → (⟨S_, .i32⟩ : BufTy).Contents (Elt F) → (⟨S_, .i32⟩ : BufTy).Contents (Elt F))
  :: StableHlo.ternary main_v382 main_v383 main_v364 main_v384 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_124 (constantI S_ 32 0#32)
  :: StableHlo.nullary main_c_125 (constantI S_ 32 0#32)
  :: StableHlo.binary main_c_124 main_c_125 main_v385 (cmpi .slt : (⟨S_, .i32⟩ : BufTy).Contents (Elt F) → (⟨S_, .i32⟩ : BufTy).Contents (Elt F) → (⟨S_, .i1⟩ : BufTy).Contents (Elt F))
  :: StableHlo.nullary main_c_126 (constantI S_ 32 0#32)
  :: StableHlo.nullary main_c_127 (constantI S_ 32 2#32)
  :: StableHlo.binary main_c_126 main_c_127 main_v386 (addi : (⟨S_, .i32⟩ : BufTy).Contents (Elt F) → (⟨S_, .i32⟩ : BufTy).Contents (Elt F) → (⟨S_, .i32⟩ : BufTy).Contents (Elt F))
  :: StableHlo.nullary main_c_128 (constantI S_ 32 0#32)
  :: StableHlo.ternary main_v385 main_v386 main_c_128 main_v387 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v384, main_v387] ⟨S_, .i32⟩ main_v388 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v388 main_v389 rfl shapeCasts_S1x2_S2
  :: StableHlo.nullary main_cst_129 (constant S_ .f32 0xBF317218#32)
  :: StableHlo.unary main_cst_129 main_v390 (broadcastInDim S2 ![] bcast_S_S2 : (⟨S_, .f32⟩ : BufTy).Contents (Elt F) → (⟨S2, .f32⟩ : BufTy).Contents (Elt F))
  :: StableHlo.binary main_v389 main_v390 main_v391 (cmpf .ogt : (⟨S2, .f32⟩ : BufTy).Contents (Elt F) → (⟨S2, .f32⟩ : BufTy).Contents (Elt F) → (⟨S2, .i1⟩ : BufTy).Contents (Elt F))
  :: StableHlo.unary main_v389 main_v392 (Host.expm1 : (⟨S2, .f32⟩ : BufTy).Contents (Elt F) → (⟨S2, .f32⟩ : BufTy).Contents (Elt F))
  :: StableHlo.unary main_v392 main_v393 (Host.negf : (⟨S2, .f32⟩ : BufTy).Contents (Elt F) → (⟨S2, .f32⟩ : BufTy).Contents (Elt F))
  :: StableHlo.unary main_v393 main_v394 (Host.log : (⟨S2, .f32⟩ : BufTy).Contents (Elt F) → (⟨S2, .f32⟩ : BufTy).Contents (Elt F))
  :: StableHlo.unary main_v389 main_v395 (Host.exp : (⟨S2, .f32⟩ : BufTy).Contents (Elt F) → (⟨S2, .f32⟩ : BufTy).Contents (Elt F))
  :: StableHlo.unary main_v395 main_v396 (Host.negf : (⟨S2, .f32⟩ : BufTy).Contents (Elt F) → (⟨S2, .f32⟩ : BufTy).Contents (Elt F))
  :: StableHlo.unary main_v396 main_v397 (Host.log1p : (⟨S2, .f32⟩ : BufTy).Contents (Elt F) → (⟨S2, .f32⟩ : BufTy).Contents (Elt F))
  :: [] )
theorem main_part8_ops0_sub : (main_part8_ops0 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call27), window 8 (statements 481 … 540), in order:
    main_v398 … main_v398. -/
abbrev main_part8_ops1 : List (HloOp τ sig (Elt F)) :=
  [ StableHlo.TRef.ternary (.of main_v391 : StableHlo.TRef sig ⟨S2, .i1⟩) (.of main_v394 : StableHlo.TRef sig ⟨S2, .f32⟩) (.of main_v397 : StableHlo.TRef sig ⟨S2, .f32⟩) (.of main_v398 : StableHlo.TRef sig ⟨S2, .f32⟩) select ]
theorem main_part8_ops1_sub : (main_part8_ops1 : List (HloOp τ sig (Elt F))).Forall fun op => op.bufs ⊆ StableHlo.tcRefs τ sig :=
  StableHlo.ternary_bufs_sub ..
/-- 6 host operations of @main, window 8 (statements 481 … 540), in order:
    main_v399 … main_cst_132. -/
abbrev main_part8_ops2 : List (HloOp τ sig (Elt F)) :=
  [ StableHlo.binary main_v381 main_v398 main_v399 (subf : (⟨S2, .f32⟩ : BufTy).Contents (Elt F) → (⟨S2, .f32⟩ : BufTy).Contents (Elt F) → (⟨S2, .f32⟩ : BufTy).Contents (Elt F)),
    StableHlo.nullary main_cst_130 (constant S_ .f32 0x00000000#32),
    StableHlo.binary main_v399 main_cst_130 main_v400 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_131 (constantI S_ 32 0#32),
    StableHlo.binary main_v355 main_c_131 main_v401 (cmpi .sgt : (⟨S_, .i32⟩ : BufTy).Contents (Elt F) → (⟨S_, .i32⟩ : BufTy).Contents (Elt F) → (⟨S_, .i1⟩ : BufTy).Contents (Elt F)),
    StableHlo.nullary main_cst_132 (constant S_ .f32 0x00000000#32) ]
theorem main_part8_ops2_sub : (main_part8_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call28), window 8 (statements 481 … 540), in order:
    main_v402 … main_v402. -/
abbrev main_part8_ops3 : List (HloOp τ sig (Elt F)) :=
  [ StableHlo.TRef.ternary (.of main_v401 : StableHlo.TRef sig ⟨S_, .i1⟩) (.of main_v400 : StableHlo.TRef sig ⟨S_, .f32⟩) (.of main_cst_132 : StableHlo.TRef sig ⟨S_, .f32⟩) (.of main_v402 : StableHlo.TRef sig ⟨S_, .f32⟩) select ]
theorem main_part8_ops3_sub : (main_part8_ops3 : List (HloOp τ sig (Elt F))).Forall fun op => op.bufs ⊆ StableHlo.tcRefs τ sig :=
  StableHlo.ternary_bufs_sub ..
/-- 2 host operations of @main, window 8 (statements 481 … 540), in order:
    main_v403 … main_c_133. -/
abbrev main_part8_ops4 : List (HloOp τ sig (Elt F)) :=
  [ StableHlo.binary main_v343 main_v402 main_v403 (subf : (⟨S_, .f32⟩ : BufTy).Contents (Elt F) → (⟨S_, .f32⟩ : BufTy).Contents (Elt F) → (⟨S_, .f32⟩ : BufTy).Contents (Elt F)),
    StableHlo.nullary main_c_133 (constantI S_ 32 0#32) ]
theorem main_part8_ops4_sub : (main_part8_ops4 : List (HloOp τ sig (Elt F))).Forall fun op => op.bufs ⊆ StableHlo.tcRefs τ sig :=
  ⟨StableHlo.binary_bufs_sub .., StableHlo.nullary_bufs_sub ..⟩
/-- Window 8's stretches, in order. -/
abbrev part8_opss : List (List (HloOp τ sig (Elt F))) :=
  [ main_part8_ops0,
    main_part8_ops1,
    main_part8_ops2,
    main_part8_ops3,
    main_part8_ops4 ]
theorem part8_opss_sub : (part8_opss : List (List (HloOp τ sig (Elt F)))).Forall fun l => l.Forall fun op => op.bufs ⊆ StableHlo.tcRefs τ sig :=
  ⟨main_part8_ops0_sub, main_part8_ops1_sub, main_part8_ops2_sub, main_part8_ops3_sub, main_part8_ops4_sub⟩

/-- 11 host operations of @main, window 9 (statements 541 … 600), in order:
    main_v404 … main_v412. -/
abbrev main_part9_ops0 : List (HloOp τ sig (Elt F)) :=
  [ StableHlo.unary main_c_133 main_v404 (broadcastInDim S4194304 ![] bcast_S_S4194304 : (⟨S_, .i32⟩ : BufTy).Contents (Elt F) → (⟨S4194304, .i32⟩ : BufTy).Contents (Elt F)),
    StableHlo.binary main_v25 main_v404 main_v405 (cmpi .eq : (⟨S4194304, .i32⟩ : BufTy).Contents (Elt F) → (⟨S4194304, .i32⟩ : BufTy).Contents (Elt F) → (⟨S4194304, .i1⟩ : BufTy).Contents (Elt F)),
    StableHlo.nullary main_c_134 (constantI S_ 32 4#32),
    StableHlo.unary main_c_134 main_v406 (broadcastInDim S4194304 ![] bcast_S_S4194304 : (⟨S_, .i32⟩ : BufTy).Contents (Elt F) → (⟨S4194304, .i32⟩ : BufTy).Contents (Elt F)),
    StableHlo.binary main_v51 main_v406 main_v407 (cmpi .eq : (⟨S4194304, .i32⟩ : BufTy).Contents (Elt F) → (⟨S4194304, .i32⟩ : BufTy).Contents (Elt F) → (⟨S4194304, .i1⟩ : BufTy).Contents (Elt F)),
    StableHlo.binary main_v405 main_v407 main_v408 (andi : (⟨S4194304, .i1⟩ : BufTy).Contents (Elt F) → (⟨S4194304, .i1⟩ : BufTy).Contents (Elt F) → (⟨S4194304, .i1⟩ : BufTy).Contents (Elt F)),
    StableHlo.nullary main_c_135 (constantI S_ 32 2#32),
    StableHlo.unary main_c_135 main_v409 (broadcastInDim S4194304 ![] bcast_S_S4194304 : (⟨S_, .i32⟩ : BufTy).Contents (Elt F) → (⟨S4194304, .i32⟩ : BufTy).Contents (Elt F)),
    StableHlo.binary main_v77 main_v409 main_v410 (cmpi .eq : (⟨S4194304, .i32⟩ : BufTy).Contents (Elt F) → (⟨S4194304, .i32⟩ : BufTy).Contents (Elt F) → (⟨S4194304, .i1⟩ : BufTy).Contents (Elt F)),
    StableHlo.binary main_v408 main_v410 main_v411 (andi : (⟨S4194304, .i1⟩ : BufTy).Contents (Elt F) → (⟨S4194304, .i1⟩ : BufTy).Contents (Elt F) → (⟨S4194304, .i1⟩ : BufTy).Contents (Elt F)),
    StableHlo.unary main_v411 main_v412 ((extui 32 · natLt_1_32) : (⟨S4194304, .i1⟩ : BufTy).Contents (Elt F) → (⟨S4194304, .i32⟩ : BufTy).Contents (Elt F)) ]
theorem main_part9_ops0_sub : (main_part9_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call29), window 9 (statements 541 … 600), in order:
    main_call29_call0_c … main_v413. -/
abbrev main_part9_ops1 : List (HloOp τ sig (Elt F)) :=
  [ StableHlo.TRef.nullary (.of main_call29_call0_c : StableHlo.TRef sig ⟨S_, .i32⟩) (constantI S_ 32 0#32),
    StableHlo.TRef.unary (.of main_call29_call0_c : StableHlo.TRef sig ⟨S_, .i32⟩) (.of main_call29_call0_v0 : StableHlo.TRef sig ⟨S_, .i32⟩) (broadcastInDim S_ ![] bcast_S_S_),
    StableHlo.TRef.binary (.of main_v412 : StableHlo.TRef sig ⟨S4194304, .i32⟩) (.of main_call29_call0_v0 : StableHlo.TRef sig ⟨S_, .i32⟩) (.of main_v413 : StableHlo.TRef sig ⟨S4194304, .i32⟩) (fun x v => Host.reduceWindow IntOp.addi ![4194304] ![1] ![4194303] ![0] x v reduceWindows_S4194304_S4194304_w4194304s1p4194303_0 h_S_) ]
theorem main_part9_ops1_sub : (main_part9_ops1 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 9 (statements 541 … 600), in order:
    main_v414 … main_v417. -/
abbrev main_part9_ops2 : List (HloOp τ sig (Elt F)) :=
  [ StableHlo.unary main_v413 main_v414 ((extractStridedSlice S1 ![4194303] · slices_S4194304_S1_4194303) : (⟨S4194304, .i32⟩ : BufTy).Contents (Elt F) → (⟨S1, .i32⟩ : BufTy).Contents (Elt F)),
    StableHlo.reshape main_v414 main_v415 rfl shapeCasts_S1_S_,
    StableHlo.nullary main_c_136 (constantI S_ 32 1#32),
    StableHlo.unary main_c_136 main_v416 (broadcastInDim S4194304 ![] bcast_S_S4194304 : (⟨S_, .i32⟩ : BufTy).Contents (Elt F) → (⟨S4194304, .i32⟩ : BufTy).Contents (Elt F)),
    StableHlo.binary main_v413 main_v416 main_v417 (cmpi .eq : (⟨S4194304, .i32⟩ : BufTy).Contents (Elt F) → (⟨S4194304, .i32⟩ : BufTy).Contents (Elt F) → (⟨S4194304, .i1⟩ : BufTy).Contents (Elt F)) ]
theorem main_part9_ops2_sub : (main_part9_ops2 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call30), window 9 (statements 541 … 600), in order:
    main_call30_v0 … main_v418. -/
abbrev main_part9_ops3 : List (HloOp τ sig (Elt F)) :=
  [ StableHlo.TRef.nullary (.of main_call30_v0 : StableHlo.TRef sig ⟨S4194304, .i32⟩) (iotaInDim S4194304 32 0),
    StableHlo.TRef.nullary (.of main_call30_c : StableHlo.TRef sig ⟨S_, .i1⟩) (constantI S_ 1 0#1),
    StableHlo.TRef.nullary (.of main_call30_c_0 : StableHlo.TRef sig ⟨S_, .i32⟩) (constantI S_ 32 0#32),
    StableHlo.TRef.quaternary (.of main_v417 : StableHlo.TRef sig ⟨S4194304, .i1⟩) (.of main_call30_v0 : StableHlo.TRef sig ⟨S4194304, .i32⟩) (.of main_call30_c : StableHlo.TRef sig ⟨S_, .i1⟩) (.of main_call30_c_0 : StableHlo.TRef sig ⟨S_, .i32⟩) (.of main_call30_v1_0 : StableHlo.TRef sig ⟨S_, .i1⟩) (fun x y u v j => (Host.reduce2 reducer_argmax_i1_i32 x y u v reducesTo_S4194304_S_d0 h_S_ j).1),
    StableHlo.TRef.quaternary (.of main_v417 : StableHlo.TRef sig ⟨S4194304, .i1⟩) (.of main_call30_v0 : StableHlo.TRef sig ⟨S4194304, .i32⟩) (.of main_call30_c : StableHlo.TRef sig ⟨S_, .i1⟩) (.of main_call30_c_0 : StableHlo.TRef sig ⟨S_, .i32⟩) (.of main_v418 : StableHlo.TRef sig ⟨S_, .i32⟩) (fun x y u v j => (Host.reduce2 reducer_argmax_i1_i32 x y u v reducesTo_S4194304_S_d0 h_S_ j).2) ]
theorem main_part9_ops3_sub : (main_part9_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 9 (statements 541 … 600), in order:
    main_c_137 … main_v420. -/
abbrev main_part9_ops4 : List (HloOp τ sig (Elt F)) :=
  [ StableHlo.nullary main_c_137 (constantI S_ 32 2#32),
    StableHlo.unary main_c_137 main_v419 (broadcastInDim S4194304 ![] bcast_S_S4194304 : (⟨S_, .i32⟩ : BufTy).Contents (Elt F) → (⟨S4194304, .i32⟩ : BufTy).Contents (Elt F)),
    StableHlo.binary main_v413 main_v419 main_v420 (cmpi .eq : (⟨S4194304, .i32⟩ : BufTy).Contents (Elt F) → (⟨S4194304, .i32⟩ : BufTy).Contents (Elt F) → (⟨S4194304, .i1⟩ : BufTy).Contents (Elt F)) ]
theorem main_part9_ops4_sub : (main_part9_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call31), window 9 (statements 541 … 600), in order:
    main_call31_v0 … main_v421. -/
abbrev main_part9_ops5 : List (HloOp τ sig (Elt F)) :=
  [ StableHlo.TRef.nullary (.of main_call31_v0 : StableHlo.TRef sig ⟨S4194304, .i32⟩) (iotaInDim S4194304 32 0),
    StableHlo.TRef.nullary (.of main_call31_c : StableHlo.TRef sig ⟨S_, .i1⟩) (constantI S_ 1 0#1),
    StableHlo.TRef.nullary (.of main_call31_c_0 : StableHlo.TRef sig ⟨S_, .i32⟩) (constantI S_ 32 0#32),
    StableHlo.TRef.quaternary (.of main_v420 : StableHlo.TRef sig ⟨S4194304, .i1⟩) (.of main_call31_v0 : StableHlo.TRef sig ⟨S4194304, .i32⟩) (.of main_call31_c : StableHlo.TRef sig ⟨S_, .i1⟩) (.of main_call31_c_0 : StableHlo.TRef sig ⟨S_, .i32⟩) (.of main_call31_v1_0 : StableHlo.TRef sig ⟨S_, .i1⟩) (fun x y u v j => (Host.reduce2 reducer_argmax_i1_i32 x y u v reducesTo_S4194304_S_d0 h_S_ j).1),
    StableHlo.TRef.quaternary (.of main_v420 : StableHlo.TRef sig ⟨S4194304, .i1⟩) (.of main_call31_v0 : StableHlo.TRef sig ⟨S4194304, .i32⟩) (.of main_call31_c : StableHlo.TRef sig ⟨S_, .i1⟩) (.of main_call31_c_0 : StableHlo.TRef sig ⟨S_, .i32⟩) (.of main_v421 : StableHlo.TRef sig ⟨S_, .i32⟩) (fun x y u v j => (Host.reduce2 reducer_argmax_i1_i32 x y u v reducesTo_S4194304_S_d0 h_S_ j).2) ]
theorem main_part9_ops5_sub : (main_part9_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 9 (statements 541 … 600), in order:
    main_c_138 … main_v423. -/
abbrev main_part9_ops6 : List (HloOp τ sig (Elt F)) :=
  [ StableHlo.nullary main_c_138 (constantI S_ 32 1#32),
    StableHlo.unary main_c_138 main_v422 (broadcastInDim S4194304 ![] bcast_S_S4194304 : (⟨S_, .i32⟩ : BufTy).Contents (Elt F) → (⟨S4194304, .i32⟩ : BufTy).Contents (Elt F)),
    StableHlo.binary main_v413 main_v422 main_v423 (cmpi .eq : (⟨S4194304, .i32⟩ : BufTy).Contents (Elt F) → (⟨S4194304, .i32⟩ : BufTy).Contents (Elt F) → (⟨S4194304, .i1⟩ : BufTy).Contents (Elt F)) ]
theorem main_part9_ops6_sub : (main_part9_ops6 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call32), window 9 (statements 541 … 600), in order:
    main_call32_v0 … main_v424. -/
abbrev main_part9_ops7 : List (HloOp τ sig (Elt F)) :=
  [ StableHlo.TRef.nullary (.of main_call32_v0 : StableHlo.TRef sig ⟨S4194304, .i32⟩) (iotaInDim S4194304 32 0),
    StableHlo.TRef.nullary (.of main_call32_c : StableHlo.TRef sig ⟨S_, .i1⟩) (constantI S_ 1 0#1),
    StableHlo.TRef.nullary (.of main_call32_c_0 : StableHlo.TRef sig ⟨S_, .i32⟩) (constantI S_ 32 0#32),
    StableHlo.TRef.quaternary (.of main_v423 : StableHlo.TRef sig ⟨S4194304, .i1⟩) (.of main_call32_v0 : StableHlo.TRef sig ⟨S4194304, .i32⟩) (.of main_call32_c : StableHlo.TRef sig ⟨S_, .i1⟩) (.of main_call32_c_0 : StableHlo.TRef sig ⟨S_, .i32⟩) (.of main_call32_v1_0 : StableHlo.TRef sig ⟨S_, .i1⟩) (fun x y u v j => (Host.reduce2 reducer_argmax_i1_i32 x y u v reducesTo_S4194304_S_d0 h_S_ j).1),
    StableHlo.TRef.quaternary (.of main_v423 : StableHlo.TRef sig ⟨S4194304, .i1⟩) (.of main_call32_v0 : StableHlo.TRef sig ⟨S4194304, .i32⟩) (.of main_call32_c : StableHlo.TRef sig ⟨S_, .i1⟩) (.of main_call32_c_0 : StableHlo.TRef sig ⟨S_, .i32⟩) (.of main_v424 : StableHlo.TRef sig ⟨S_, .i32⟩) (fun x y u v j => (Host.reduce2 reducer_argmax_i1_i32 x y u v reducesTo_S4194304_S_d0 h_S_ j).2) ]
theorem main_part9_ops7_sub : (main_part9_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 34 host operations of @main, window 9 (statements 541 … 600), in order:
    main_c_139 … main_c_154. -/
abbrev main_part9_ops8 : List (HloOp τ sig (Elt F)) :=
  ( StableHlo.nullary main_c_139 (constantI S_ 32 0#32)
  :: StableHlo.binary main_v418 main_c_139 main_v425 (cmpi .slt : (⟨S_, .i32⟩ : BufTy).Contents (Elt F) → (⟨S_, .i32⟩ : BufTy).Contents (Elt F) → (⟨S_, .i1⟩ : BufTy).Contents (Elt F))
  :: StableHlo.nullary main_c_140 (constantI S_ 32 4194304#32)
  :: StableHlo.binary main_v418 main_c_140 main_v426 (addi : (⟨S_, .i32⟩ : BufTy).Contents (Elt F) → (⟨S_, .i32⟩ : BufTy).Contents (Elt F) → (⟨S_, .i32⟩ : BufTy).Contents (Elt F))
  :: StableHlo.ternary main_v425 main_v426 main_v418 main_v427 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_141 (constantI S_ 32 0#32)
  :: StableHlo.nullary main_c_142 (constantI S_ 32 0#32)
  :: StableHlo.binary main_c_141 main_c_142 main_v428 (cmpi .slt : (⟨S_, .i32⟩ : BufTy).Contents (Elt F) → (⟨S_, .i32⟩ : BufTy).Contents (Elt F) → (⟨S_, .i1⟩ : BufTy).Contents (Elt F))
  :: StableHlo.nullary main_c_143 (constantI S_ 32 0#32)
  :: StableHlo.nullary main_c_144 (constantI S_ 32 2#32)
  :: StableHlo.binary main_c_143 main_c_144 main_v429 (addi : (⟨S_, .i32⟩ : BufTy).Contents (Elt F) → (⟨S_, .i32⟩ : BufTy).Contents (Elt F) → (⟨S_, .i32⟩ : BufTy).Contents (Elt F))
  :: StableHlo.nullary main_c_145 (constantI S_ 32 0#32)
  :: StableHlo.ternary main_v428 main_v429 main_c_145 main_v430 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v427, main_v430] ⟨S_, .i32⟩ main_v431 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v431 main_v432 rfl shapeCasts_S1x2_S2
  :: StableHlo.nullary main_c_146 (constantI S_ 32 0#32)
  :: StableHlo.binary main_v421 main_c_146 main_v433 (cmpi .slt : (⟨S_, .i32⟩ : BufTy).Contents (Elt F) → (⟨S_, .i32⟩ : BufTy).Contents (Elt F) → (⟨S_, .i1⟩ : BufTy).Contents (Elt F))
  :: StableHlo.nullary main_c_147 (constantI S_ 32 4194304#32)
  :: StableHlo.binary main_v421 main_c_147 main_v434 (addi : (⟨S_, .i32⟩ : BufTy).Contents (Elt F) → (⟨S_, .i32⟩ : BufTy).Contents (Elt F) → (⟨S_, .i32⟩ : BufTy).Contents (Elt F))
  :: StableHlo.ternary main_v433 main_v434 main_v421 main_v435 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_148 (constantI S_ 32 0#32)
  :: StableHlo.nullary main_c_149 (constantI S_ 32 0#32)
  :: StableHlo.binary main_c_148 main_c_149 main_v436 (cmpi .slt : (⟨S_, .i32⟩ : BufTy).Contents (Elt F) → (⟨S_, .i32⟩ : BufTy).Contents (Elt F) → (⟨S_, .i1⟩ : BufTy).Contents (Elt F))
  :: StableHlo.nullary main_c_150 (constantI S_ 32 0#32)
  :: StableHlo.nullary main_c_151 (constantI S_ 32 2#32)
  :: StableHlo.binary main_c_150 main_c_151 main_v437 (addi : (⟨S_, .i32⟩ : BufTy).Contents (Elt F) → (⟨S_, .i32⟩ : BufTy).Contents (Elt F) → (⟨S_, .i32⟩ : BufTy).Contents (Elt F))
  :: StableHlo.nullary main_c_152 (constantI S_ 32 0#32)
  :: StableHlo.ternary main_v436 main_v437 main_c_152 main_v438 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v435, main_v438] ⟨S_, .i32⟩ main_v439 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v439 main_v440 rfl shapeCasts_S1x2_S2
  :: StableHlo.binary main_v432 main_v440 main_v441 (addf : (⟨S2, .f32⟩ : BufTy).Contents (Elt F) → (⟨S2, .f32⟩ : BufTy).Contents (Elt F) → (⟨S2, .f32⟩ : BufTy).Contents (Elt F))
  :: StableHlo.nullary main_c_153 (constantI S_ 32 0#32)
  :: StableHlo.binary main_v424 main_c_153 main_v442 (cmpi .slt : (⟨S_, .i32⟩ : BufTy).Contents (Elt F) → (⟨S_, .i32⟩ : BufTy).Contents (Elt F) → (⟨S_, .i1⟩ : BufTy).Contents (Elt F))
  :: StableHlo.nullary main_c_154 (constantI S_ 32 4194304#32)
  :: [] )
theorem main_part9_ops8_sub : (main_part9_ops8 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub ..⟩
/-- Window 9's stretches, in order. -/
abbrev part9_opss : List (List (HloOp τ sig (Elt F))) :=
  [ main_part9_ops0,
    main_part9_ops1,
    main_part9_ops2,
    main_part9_ops3,
    main_part9_ops4,
    main_part9_ops5,
    main_part9_ops6,
    main_part9_ops7,
    main_part9_ops8 ]
theorem part9_opss_sub : (part9_opss : List (List (HloOp τ sig (Elt F)))).Forall fun l => l.Forall fun op => op.bufs ⊆ StableHlo.tcRefs τ sig :=
  ⟨main_part9_ops0_sub, main_part9_ops1_sub, main_part9_ops2_sub, main_part9_ops3_sub, main_part9_ops4_sub, main_part9_ops5_sub, main_part9_ops6_sub, main_part9_ops7_sub, main_part9_ops8_sub⟩

/-- 21 host operations of @main, window 10 (statements 601 … 660), in order:
    main_v443 … main_v457. -/
abbrev main_part10_ops0 : List (HloOp τ sig (Elt F)) :=
  [ StableHlo.binary main_v424 main_c_154 main_v443 (addi : (⟨S_, .i32⟩ : BufTy).Contents (Elt F) → (⟨S_, .i32⟩ : BufTy).Contents (Elt F) → (⟨S_, .i32⟩ : BufTy).Contents (Elt F)),
    StableHlo.ternary main_v442 main_v443 main_v424 main_v444 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_155 (constantI S_ 32 0#32),
    StableHlo.nullary main_c_156 (constantI S_ 32 0#32),
    StableHlo.binary main_c_155 main_c_156 main_v445 (cmpi .slt : (⟨S_, .i32⟩ : BufTy).Contents (Elt F) → (⟨S_, .i32⟩ : BufTy).Contents (Elt F) → (⟨S_, .i1⟩ : BufTy).Contents (Elt F)),
    StableHlo.nullary main_c_157 (constantI S_ 32 0#32),
    StableHlo.nullary main_c_158 (constantI S_ 32 2#32),
    StableHlo.binary main_c_157 main_c_158 main_v446 (addi : (⟨S_, .i32⟩ : BufTy).Contents (Elt F) → (⟨S_, .i32⟩ : BufTy).Contents (Elt F) → (⟨S_, .i32⟩ : BufTy).Contents (Elt F)),
    StableHlo.nullary main_c_159 (constantI S_ 32 0#32),
    StableHlo.ternary main_v445 main_v446 main_c_159 main_v447 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v444, main_v447] ⟨S_, .i32⟩ main_v448 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v448 main_v449 rfl shapeCasts_S1x2_S2,
    StableHlo.nullary main_cst_160 (constant S_ .f32 0xBF317218#32),
    StableHlo.unary main_cst_160 main_v450 (broadcastInDim S2 ![] bcast_S_S2 : (⟨S_, .f32⟩ : BufTy).Contents (Elt F) → (⟨S2, .f32⟩ : BufTy).Contents (Elt F)),
    StableHlo.binary main_v449 main_v450 main_v451 (cmpf .ogt : (⟨S2, .f32⟩ : BufTy).Contents (Elt F) → (⟨S2, .f32⟩ : BufTy).Contents (Elt F) → (⟨S2, .i1⟩ : BufTy).Contents (Elt F)),
    StableHlo.unary main_v449 main_v452 (Host.expm1 : (⟨S2, .f32⟩ : BufTy).Contents (Elt F) → (⟨S2, .f32⟩ : BufTy).Contents (Elt F)),
    StableHlo.unary main_v452 main_v453 (Host.negf : (⟨S2, .f32⟩ : BufTy).Contents (Elt F) → (⟨S2, .f32⟩ : BufTy).Contents (Elt F)),
    StableHlo.unary main_v453 main_v454 (Host.log : (⟨S2, .f32⟩ : BufTy).Contents (Elt F) → (⟨S2, .f32⟩ : BufTy).Contents (Elt F)),
    StableHlo.unary main_v449 main_v455 (Host.exp : (⟨S2, .f32⟩ : BufTy).Contents (Elt F) → (⟨S2, .f32⟩ : BufTy).Contents (Elt F)),
    StableHlo.unary main_v455 main_v456 (Host.negf : (⟨S2, .f32⟩ : BufTy).Contents (Elt F) → (⟨S2, .f32⟩ : BufTy).Contents (Elt F)),
    StableHlo.unary main_v456 main_v457 (Host.log1p : (⟨S2, .f32⟩ : BufTy).Contents (Elt F) → (⟨S2, .f32⟩ : BufTy).Contents (Elt F)) ]
theorem main_part10_ops0_sub : (main_part10_ops0 : List (HloOp τ sig (Elt F))).Forall fun op => op.bufs ⊆ StableHlo.tcRefs τ sig :=
  ⟨StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call33), window 10 (statements 601 … 660), in order:
    main_v458 … main_v458. -/
abbrev main_part10_ops1 : List (HloOp τ sig (Elt F)) :=
  [ StableHlo.TRef.ternary (.of main_v451 : StableHlo.TRef sig ⟨S2, .i1⟩) (.of main_v454 : StableHlo.TRef sig ⟨S2, .f32⟩) (.of main_v457 : StableHlo.TRef sig ⟨S2, .f32⟩) (.of main_v458 : StableHlo.TRef sig ⟨S2, .f32⟩) select ]
theorem main_part10_ops1_sub : (main_part10_ops1 : List (HloOp τ sig (Elt F))).Forall fun op => op.bufs ⊆ StableHlo.tcRefs τ sig :=
  StableHlo.ternary_bufs_sub ..
/-- 6 host operations of @main, window 10 (statements 601 … 660), in order:
    main_v459 … main_cst_163. -/
abbrev main_part10_ops2 : List (HloOp τ sig (Elt F)) :=
  [ StableHlo.binary main_v441 main_v458 main_v459 (subf : (⟨S2, .f32⟩ : BufTy).Contents (Elt F) → (⟨S2, .f32⟩ : BufTy).Contents (Elt F) → (⟨S2, .f32⟩ : BufTy).Contents (Elt F)),
    StableHlo.nullary main_cst_161 (constant S_ .f32 0x00000000#32),
    StableHlo.binary main_v459 main_cst_161 main_v460 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_162 (constantI S_ 32 0#32),
    StableHlo.binary main_v415 main_c_162 main_v461 (cmpi .sgt : (⟨S_, .i32⟩ : BufTy).Contents (Elt F) → (⟨S_, .i32⟩ : BufTy).Contents (Elt F) → (⟨S_, .i1⟩ : BufTy).Contents (Elt F)),
    StableHlo.nullary main_cst_163 (constant S_ .f32 0x00000000#32) ]
theorem main_part10_ops2_sub : (main_part10_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call34), window 10 (statements 601 … 660), in order:
    main_v462 … main_v462. -/
abbrev main_part10_ops3 : List (HloOp τ sig (Elt F)) :=
  [ StableHlo.TRef.ternary (.of main_v461 : StableHlo.TRef sig ⟨S_, .i1⟩) (.of main_v460 : StableHlo.TRef sig ⟨S_, .f32⟩) (.of main_cst_163 : StableHlo.TRef sig ⟨S_, .f32⟩) (.of main_v462 : StableHlo.TRef sig ⟨S_, .f32⟩) select ]
theorem main_part10_ops3_sub : (main_part10_ops3 : List (HloOp τ sig (Elt F))).Forall fun op => op.bufs ⊆ StableHlo.tcRefs τ sig :=
  StableHlo.ternary_bufs_sub ..
/-- 13 host operations of @main, window 10 (statements 601 … 660), in order:
    main_v463 … main_v472. -/
abbrev main_part10_ops4 : List (HloOp τ sig (Elt F)) :=
  [ StableHlo.binary main_v403 main_v462 main_v463 (subf : (⟨S_, .f32⟩ : BufTy).Contents (Elt F) → (⟨S_, .f32⟩ : BufTy).Contents (Elt F) → (⟨S_, .f32⟩ : BufTy).Contents (Elt F)),
    StableHlo.nullary main_c_164 (constantI S_ 32 0#32),
    StableHlo.unary main_c_164 main_v464 (broadcastInDim S4194304 ![] bcast_S_S4194304 : (⟨S_, .i32⟩ : BufTy).Contents (Elt F) → (⟨S4194304, .i32⟩ : BufTy).Contents (Elt F)),
    StableHlo.binary main_v25 main_v464 main_v465 (cmpi .eq : (⟨S4194304, .i32⟩ : BufTy).Contents (Elt F) → (⟨S4194304, .i32⟩ : BufTy).Contents (Elt F) → (⟨S4194304, .i1⟩ : BufTy).Contents (Elt F)),
    StableHlo.nullary main_c_165 (constantI S_ 32 6#32),
    StableHlo.unary main_c_165 main_v466 (broadcastInDim S4194304 ![] bcast_S_S4194304 : (⟨S_, .i32⟩ : BufTy).Contents (Elt F) → (⟨S4194304, .i32⟩ : BufTy).Contents (Elt F)),
    StableHlo.binary main_v51 main_v466 main_v467 (cmpi .eq : (⟨S4194304, .i32⟩ : BufTy).Contents (Elt F) → (⟨S4194304, .i32⟩ : BufTy).Contents (Elt F) → (⟨S4194304, .i1⟩ : BufTy).Contents (Elt F)),
    StableHlo.binary main_v465 main_v467 main_v468 (andi : (⟨S4194304, .i1⟩ : BufTy).Contents (Elt F) → (⟨S4194304, .i1⟩ : BufTy).Contents (Elt F) → (⟨S4194304, .i1⟩ : BufTy).Contents (Elt F)),
    StableHlo.nullary main_c_166 (constantI S_ 32 1#32),
    StableHlo.unary main_c_166 main_v469 (broadcastInDim S4194304 ![] bcast_S_S4194304 : (⟨S_, .i32⟩ : BufTy).Contents (Elt F) → (⟨S4194304, .i32⟩ : BufTy).Contents (Elt F)),
    StableHlo.binary main_v77 main_v469 main_v470 (cmpi .eq : (⟨S4194304, .i32⟩ : BufTy).Contents (Elt F) → (⟨S4194304, .i32⟩ : BufTy).Contents (Elt F) → (⟨S4194304, .i1⟩ : BufTy).Contents (Elt F)),
    StableHlo.binary main_v468 main_v470 main_v471 (andi : (⟨S4194304, .i1⟩ : BufTy).Contents (Elt F) → (⟨S4194304, .i1⟩ : BufTy).Contents (Elt F) → (⟨S4194304, .i1⟩ : BufTy).Contents (Elt F)),
    StableHlo.unary main_v471 main_v472 ((extui 32 · natLt_1_32) : (⟨S4194304, .i1⟩ : BufTy).Contents (Elt F) → (⟨S4194304, .i32⟩ : BufTy).Contents (Elt F)) ]
theorem main_part10_ops4_sub : (main_part10_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call35), window 10 (statements 601 … 660), in order:
    main_call35_call0_c … main_v473. -/
abbrev main_part10_ops5 : List (HloOp τ sig (Elt F)) :=
  [ StableHlo.TRef.nullary (.of main_call35_call0_c : StableHlo.TRef sig ⟨S_, .i32⟩) (constantI S_ 32 0#32),
    StableHlo.TRef.unary (.of main_call35_call0_c : StableHlo.TRef sig ⟨S_, .i32⟩) (.of main_call35_call0_v0 : StableHlo.TRef sig ⟨S_, .i32⟩) (broadcastInDim S_ ![] bcast_S_S_),
    StableHlo.TRef.binary (.of main_v472 : StableHlo.TRef sig ⟨S4194304, .i32⟩) (.of main_call35_call0_v0 : StableHlo.TRef sig ⟨S_, .i32⟩) (.of main_v473 : StableHlo.TRef sig ⟨S4194304, .i32⟩) (fun x v => Host.reduceWindow IntOp.addi ![4194304] ![1] ![4194303] ![0] x v reduceWindows_S4194304_S4194304_w4194304s1p4194303_0 h_S_) ]
theorem main_part10_ops5_sub : (main_part10_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 10 (statements 601 … 660), in order:
    main_v474 … main_v477. -/
abbrev main_part10_ops6 : List (HloOp τ sig (Elt F)) :=
  [ StableHlo.unary main_v473 main_v474 ((extractStridedSlice S1 ![4194303] · slices_S4194304_S1_4194303) : (⟨S4194304, .i32⟩ : BufTy).Contents (Elt F) → (⟨S1, .i32⟩ : BufTy).Contents (Elt F)),
    StableHlo.reshape main_v474 main_v475 rfl shapeCasts_S1_S_,
    StableHlo.nullary main_c_167 (constantI S_ 32 1#32),
    StableHlo.unary main_c_167 main_v476 (broadcastInDim S4194304 ![] bcast_S_S4194304 : (⟨S_, .i32⟩ : BufTy).Contents (Elt F) → (⟨S4194304, .i32⟩ : BufTy).Contents (Elt F)),
    StableHlo.binary main_v473 main_v476 main_v477 (cmpi .eq : (⟨S4194304, .i32⟩ : BufTy).Contents (Elt F) → (⟨S4194304, .i32⟩ : BufTy).Contents (Elt F) → (⟨S4194304, .i1⟩ : BufTy).Contents (Elt F)) ]
theorem main_part10_ops6_sub : (main_part10_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call36), window 10 (statements 601 … 660), in order:
    main_call36_v0 … main_v478. -/
abbrev main_part10_ops7 : List (HloOp τ sig (Elt F)) :=
  [ StableHlo.TRef.nullary (.of main_call36_v0 : StableHlo.TRef sig ⟨S4194304, .i32⟩) (iotaInDim S4194304 32 0),
    StableHlo.TRef.nullary (.of main_call36_c : StableHlo.TRef sig ⟨S_, .i1⟩) (constantI S_ 1 0#1),
    StableHlo.TRef.nullary (.of main_call36_c_0 : StableHlo.TRef sig ⟨S_, .i32⟩) (constantI S_ 32 0#32),
    StableHlo.TRef.quaternary (.of main_v477 : StableHlo.TRef sig ⟨S4194304, .i1⟩) (.of main_call36_v0 : StableHlo.TRef sig ⟨S4194304, .i32⟩) (.of main_call36_c : StableHlo.TRef sig ⟨S_, .i1⟩) (.of main_call36_c_0 : StableHlo.TRef sig ⟨S_, .i32⟩) (.of main_call36_v1_0 : StableHlo.TRef sig ⟨S_, .i1⟩) (fun x y u v j => (Host.reduce2 reducer_argmax_i1_i32 x y u v reducesTo_S4194304_S_d0 h_S_ j).1),
    StableHlo.TRef.quaternary (.of main_v477 : StableHlo.TRef sig ⟨S4194304, .i1⟩) (.of main_call36_v0 : StableHlo.TRef sig ⟨S4194304, .i32⟩) (.of main_call36_c : StableHlo.TRef sig ⟨S_, .i1⟩) (.of main_call36_c_0 : StableHlo.TRef sig ⟨S_, .i32⟩) (.of main_v478 : StableHlo.TRef sig ⟨S_, .i32⟩) (fun x y u v j => (Host.reduce2 reducer_argmax_i1_i32 x y u v reducesTo_S4194304_S_d0 h_S_ j).2) ]
theorem main_part10_ops7_sub : (main_part10_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 10 (statements 601 … 660), in order:
    main_c_168 … main_v480. -/
abbrev main_part10_ops8 : List (HloOp τ sig (Elt F)) :=
  [ StableHlo.nullary main_c_168 (constantI S_ 32 2#32),
    StableHlo.unary main_c_168 main_v479 (broadcastInDim S4194304 ![] bcast_S_S4194304 : (⟨S_, .i32⟩ : BufTy).Contents (Elt F) → (⟨S4194304, .i32⟩ : BufTy).Contents (Elt F)),
    StableHlo.binary main_v473 main_v479 main_v480 (cmpi .eq : (⟨S4194304, .i32⟩ : BufTy).Contents (Elt F) → (⟨S4194304, .i32⟩ : BufTy).Contents (Elt F) → (⟨S4194304, .i1⟩ : BufTy).Contents (Elt F)) ]
theorem main_part10_ops8_sub : (main_part10_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call37), window 10 (statements 601 … 660), in order:
    main_call37_v0 … main_v481. -/
abbrev main_part10_ops9 : List (HloOp τ sig (Elt F)) :=
  [ StableHlo.TRef.nullary (.of main_call37_v0 : StableHlo.TRef sig ⟨S4194304, .i32⟩) (iotaInDim S4194304 32 0),
    StableHlo.TRef.nullary (.of main_call37_c : StableHlo.TRef sig ⟨S_, .i1⟩) (constantI S_ 1 0#1),
    StableHlo.TRef.nullary (.of main_call37_c_0 : StableHlo.TRef sig ⟨S_, .i32⟩) (constantI S_ 32 0#32),
    StableHlo.TRef.quaternary (.of main_v480 : StableHlo.TRef sig ⟨S4194304, .i1⟩) (.of main_call37_v0 : StableHlo.TRef sig ⟨S4194304, .i32⟩) (.of main_call37_c : StableHlo.TRef sig ⟨S_, .i1⟩) (.of main_call37_c_0 : StableHlo.TRef sig ⟨S_, .i32⟩) (.of main_call37_v1_0 : StableHlo.TRef sig ⟨S_, .i1⟩) (fun x y u v j => (Host.reduce2 reducer_argmax_i1_i32 x y u v reducesTo_S4194304_S_d0 h_S_ j).1),
    StableHlo.TRef.quaternary (.of main_v480 : StableHlo.TRef sig ⟨S4194304, .i1⟩) (.of main_call37_v0 : StableHlo.TRef sig ⟨S4194304, .i32⟩) (.of main_call37_c : StableHlo.TRef sig ⟨S_, .i1⟩) (.of main_call37_c_0 : StableHlo.TRef sig ⟨S_, .i32⟩) (.of main_v481 : StableHlo.TRef sig ⟨S_, .i32⟩) (fun x y u v j => (Host.reduce2 reducer_argmax_i1_i32 x y u v reducesTo_S4194304_S_d0 h_S_ j).2) ]
theorem main_part10_ops9_sub : (main_part10_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 10 (statements 601 … 660), in order:
    main_c_169 … main_v483. -/
abbrev main_part10_ops10 : List (HloOp τ sig (Elt F)) :=
  [ StableHlo.nullary main_c_169 (constantI S_ 32 1#32),
    StableHlo.unary main_c_169 main_v482 (broadcastInDim S4194304 ![] bcast_S_S4194304 : (⟨S_, .i32⟩ : BufTy).Contents (Elt F) → (⟨S4194304, .i32⟩ : BufTy).Contents (Elt F)),
    StableHlo.binary main_v473 main_v482 main_v483 (cmpi .eq : (⟨S4194304, .i32⟩ : BufTy).Contents (Elt F) → (⟨S4194304, .i32⟩ : BufTy).Contents (Elt F) → (⟨S4194304, .i1⟩ : BufTy).Contents (Elt F)) ]
theorem main_part10_ops10_sub : (main_part10_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call38), window 10 (statements 601 … 660), in order:
    main_call38_v0 … main_v484. -/
abbrev main_part10_ops11 : List (HloOp τ sig (Elt F)) :=
  [ StableHlo.TRef.nullary (.of main_call38_v0 : StableHlo.TRef sig ⟨S4194304, .i32⟩) (iotaInDim S4194304 32 0),
    StableHlo.TRef.nullary (.of main_call38_c : StableHlo.TRef sig ⟨S_, .i1⟩) (constantI S_ 1 0#1),
    StableHlo.TRef.nullary (.of main_call38_c_0 : StableHlo.TRef sig ⟨S_, .i32⟩) (constantI S_ 32 0#32),
    StableHlo.TRef.quaternary (.of main_v483 : StableHlo.TRef sig ⟨S4194304, .i1⟩) (.of main_call38_v0 : StableHlo.TRef sig ⟨S4194304, .i32⟩) (.of main_call38_c : StableHlo.TRef sig ⟨S_, .i1⟩) (.of main_call38_c_0 : StableHlo.TRef sig ⟨S_, .i32⟩) (.of main_call38_v1_0 : StableHlo.TRef sig ⟨S_, .i1⟩) (fun x y u v j => (Host.reduce2 reducer_argmax_i1_i32 x y u v reducesTo_S4194304_S_d0 h_S_ j).1),
    StableHlo.TRef.quaternary (.of main_v483 : StableHlo.TRef sig ⟨S4194304, .i1⟩) (.of main_call38_v0 : StableHlo.TRef sig ⟨S4194304, .i32⟩) (.of main_call38_c : StableHlo.TRef sig ⟨S_, .i1⟩) (.of main_call38_c_0 : StableHlo.TRef sig ⟨S_, .i32⟩) (.of main_v484 : StableHlo.TRef sig ⟨S_, .i32⟩) (fun x y u v j => (Host.reduce2 reducer_argmax_i1_i32 x y u v reducesTo_S4194304_S_d0 h_S_ j).2) ]
theorem main_part10_ops11_sub : (main_part10_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 10 (statements 601 … 660), in order:
    main_c_170 … main_c_171. -/
abbrev main_part10_ops12 : List (HloOp τ sig (Elt F)) :=
  [ StableHlo.nullary main_c_170 (constantI S_ 32 0#32),
    StableHlo.binary main_v478 main_c_170 main_v485 (cmpi .slt : (⟨S_, .i32⟩ : BufTy).Contents (Elt F) → (⟨S_, .i32⟩ : BufTy).Contents (Elt F) → (⟨S_, .i1⟩ : BufTy).Contents (Elt F)),
    StableHlo.nullary main_c_171 (constantI S_ 32 4194304#32) ]
theorem main_part10_ops12_sub : (main_part10_ops12 : List (HloOp τ sig (Elt F))).Forall fun op => op.bufs ⊆ StableHlo.tcRefs τ sig :=
  ⟨StableHlo.nullary_bufs_sub .., StableHlo.binary_bufs_sub .., StableHlo.nullary_bufs_sub ..⟩
/-- Window 10's stretches, in order. -/
abbrev part10_opss : List (List (HloOp τ sig (Elt F))) :=
  [ main_part10_ops0,
    main_part10_ops1,
    main_part10_ops2,
    main_part10_ops3,
    main_part10_ops4,
    main_part10_ops5,
    main_part10_ops6,
    main_part10_ops7,
    main_part10_ops8,
    main_part10_ops9,
    main_part10_ops10,
    main_part10_ops11,
    main_part10_ops12 ]
theorem part10_opss_sub : (part10_opss : List (List (HloOp τ sig (Elt F)))).Forall fun l => l.Forall fun op => op.bufs ⊆ StableHlo.tcRefs τ sig :=
  ⟨main_part10_ops0_sub, main_part10_ops1_sub, main_part10_ops2_sub, main_part10_ops3_sub, main_part10_ops4_sub, main_part10_ops5_sub, main_part10_ops6_sub, main_part10_ops7_sub, main_part10_ops8_sub, main_part10_ops9_sub, main_part10_ops10_sub, main_part10_ops11_sub, main_part10_ops12_sub⟩

/-- 52 host operations of @main, window 11 (statements 661 … 720), in order:
    main_v486 … main_v517. -/
abbrev main_part11_ops0 : List (HloOp τ sig (Elt F)) :=
  ( StableHlo.binary main_v478 main_c_171 main_v486 (addi : (⟨S_, .i32⟩ : BufTy).Contents (Elt F) → (⟨S_, .i32⟩ : BufTy).Contents (Elt F) → (⟨S_, .i32⟩ : BufTy).Contents (Elt F))
  :: StableHlo.ternary main_v485 main_v486 main_v478 main_v487 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_172 (constantI S_ 32 0#32)
  :: StableHlo.nullary main_c_173 (constantI S_ 32 0#32)
  :: StableHlo.binary main_c_172 main_c_173 main_v488 (cmpi .slt : (⟨S_, .i32⟩ : BufTy).Contents (Elt F) → (⟨S_, .i32⟩ : BufTy).Contents (Elt F) → (⟨S_, .i1⟩ : BufTy).Contents (Elt F))
  :: StableHlo.nullary main_c_174 (constantI S_ 32 0#32)
  :: StableHlo.nullary main_c_175 (constantI S_ 32 2#32)
  :: StableHlo.binary main_c_174 main_c_175 main_v489 (addi : (⟨S_, .i32⟩ : BufTy).Contents (Elt F) → (⟨S_, .i32⟩ : BufTy).Contents (Elt F) → (⟨S_, .i32⟩ : BufTy).Contents (Elt F))
  :: StableHlo.nullary main_c_176 (constantI S_ 32 0#32)
  :: StableHlo.ternary main_v488 main_v489 main_c_176 main_v490 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v487, main_v490] ⟨S_, .i32⟩ main_v491 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v491 main_v492 rfl shapeCasts_S1x2_S2
  :: StableHlo.nullary main_c_177 (constantI S_ 32 0#32)
  :: StableHlo.binary main_v481 main_c_177 main_v493 (cmpi .slt : (⟨S_, .i32⟩ : BufTy).Contents (Elt F) → (⟨S_, .i32⟩ : BufTy).Contents (Elt F) → (⟨S_, .i1⟩ : BufTy).Contents (Elt F))
  :: StableHlo.nullary main_c_178 (constantI S_ 32 4194304#32)
  :: StableHlo.binary main_v481 main_c_178 main_v494 (addi : (⟨S_, .i32⟩ : BufTy).Contents (Elt F) → (⟨S_, .i32⟩ : BufTy).Contents (Elt F) → (⟨S_, .i32⟩ : BufTy).Contents (Elt F))
  :: StableHlo.ternary main_v493 main_v494 main_v481 main_v495 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_179 (constantI S_ 32 0#32)
  :: StableHlo.nullary main_c_180 (constantI S_ 32 0#32)
  :: StableHlo.binary main_c_179 main_c_180 main_v496 (cmpi .slt : (⟨S_, .i32⟩ : BufTy).Contents (Elt F) → (⟨S_, .i32⟩ : BufTy).Contents (Elt F) → (⟨S_, .i1⟩ : BufTy).Contents (Elt F))
  :: StableHlo.nullary main_c_181 (constantI S_ 32 0#32)
  :: StableHlo.nullary main_c_182 (constantI S_ 32 2#32)
  :: StableHlo.binary main_c_181 main_c_182 main_v497 (addi : (⟨S_, .i32⟩ : BufTy).Contents (Elt F) → (⟨S_, .i32⟩ : BufTy).Contents (Elt F) → (⟨S_, .i32⟩ : BufTy).Contents (Elt F))
  :: StableHlo.nullary main_c_183 (constantI S_ 32 0#32)
  :: StableHlo.ternary main_v496 main_v497 main_c_183 main_v498 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v495, main_v498] ⟨S_, .i32⟩ main_v499 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v499 main_v500 rfl shapeCasts_S1x2_S2
  :: StableHlo.binary main_v492 main_v500 main_v501 (addf : (⟨S2, .f32⟩ : BufTy).Contents (Elt F) → (⟨S2, .f32⟩ : BufTy).Contents (Elt F) → (⟨S2, .f32⟩ : BufTy).Contents (Elt F))
  :: StableHlo.nullary main_c_184 (constantI S_ 32 0#32)
  :: StableHlo.binary main_v484 main_c_184 main_v502 (cmpi .slt : (⟨S_, .i32⟩ : BufTy).Contents (Elt F) → (⟨S_, .i32⟩ : BufTy).Contents (Elt F) → (⟨S_, .i1⟩ : BufTy).Contents (Elt F))
  :: StableHlo.nullary main_c_185 (constantI S_ 32 4194304#32)
  :: StableHlo.binary main_v484 main_c_185 main_v503 (addi : (⟨S_, .i32⟩ : BufTy).Contents (Elt F) → (⟨S_, .i32⟩ : BufTy).Contents (Elt F) → (⟨S_, .i32⟩ : BufTy).Contents (Elt F))
  :: StableHlo.ternary main_v502 main_v503 main_v484 main_v504 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_186 (constantI S_ 32 0#32)
  :: StableHlo.nullary main_c_187 (constantI S_ 32 0#32)
  :: StableHlo.binary main_c_186 main_c_187 main_v505 (cmpi .slt : (⟨S_, .i32⟩ : BufTy).Contents (Elt F) → (⟨S_, .i32⟩ : BufTy).Contents (Elt F) → (⟨S_, .i1⟩ : BufTy).Contents (Elt F))
  :: StableHlo.nullary main_c_188 (constantI S_ 32 0#32)
  :: StableHlo.nullary main_c_189 (constantI S_ 32 2#32)
  :: StableHlo.binary main_c_188 main_c_189 main_v506 (addi : (⟨S_, .i32⟩ : BufTy).Contents (Elt F) → (⟨S_, .i32⟩ : BufTy).Contents (Elt F) → (⟨S_, .i32⟩ : BufTy).Contents (Elt F))
  :: StableHlo.nullary main_c_190 (constantI S_ 32 0#32)
  :: StableHlo.ternary main_v505 main_v506 main_c_190 main_v507 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v504, main_v507] ⟨S_, .i32⟩ main_v508 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v508 main_v509 rfl shapeCasts_S1x2_S2
  :: StableHlo.nullary main_cst_191 (constant S_ .f32 0xBF317218#32)
  :: StableHlo.unary main_cst_191 main_v510 (broadcastInDim S2 ![] bcast_S_S2 : (⟨S_, .f32⟩ : BufTy).Contents (Elt F) → (⟨S2, .f32⟩ : BufTy).Contents (Elt F))
  :: StableHlo.binary main_v509 main_v510 main_v511 (cmpf .ogt : (⟨S2, .f32⟩ : BufTy).Contents (Elt F) → (⟨S2, .f32⟩ : BufTy).Contents (Elt F) → (⟨S2, .i1⟩ : BufTy).Contents (Elt F))
  :: StableHlo.unary main_v509 main_v512 (Host.expm1 : (⟨S2, .f32⟩ : BufTy).Contents (Elt F) → (⟨S2, .f32⟩ : BufTy).Contents (Elt F))
  :: StableHlo.unary main_v512 main_v513 (Host.negf : (⟨S2, .f32⟩ : BufTy).Contents (Elt F) → (⟨S2, .f32⟩ : BufTy).Contents (Elt F))
  :: StableHlo.unary main_v513 main_v514 (Host.log : (⟨S2, .f32⟩ : BufTy).Contents (Elt F) → (⟨S2, .f32⟩ : BufTy).Contents (Elt F))
  :: StableHlo.unary main_v509 main_v515 (Host.exp : (⟨S2, .f32⟩ : BufTy).Contents (Elt F) → (⟨S2, .f32⟩ : BufTy).Contents (Elt F))
  :: StableHlo.unary main_v515 main_v516 (Host.negf : (⟨S2, .f32⟩ : BufTy).Contents (Elt F) → (⟨S2, .f32⟩ : BufTy).Contents (Elt F))
  :: StableHlo.unary main_v516 main_v517 (Host.log1p : (⟨S2, .f32⟩ : BufTy).Contents (Elt F) → (⟨S2, .f32⟩ : BufTy).Contents (Elt F))
  :: [] )
theorem main_part11_ops0_sub : (main_part11_ops0 : List (HloOp τ sig (Elt F))).Forall fun op => op.bufs ⊆ StableHlo.tcRefs τ sig :=
  ⟨StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call39), window 11 (statements 661 … 720), in order:
    main_v518 … main_v518. -/
abbrev main_part11_ops1 : List (HloOp τ sig (Elt F)) :=
  [ StableHlo.TRef.ternary (.of main_v511 : StableHlo.TRef sig ⟨S2, .i1⟩) (.of main_v514 : StableHlo.TRef sig ⟨S2, .f32⟩) (.of main_v517 : StableHlo.TRef sig ⟨S2, .f32⟩) (.of main_v518 : StableHlo.TRef sig ⟨S2, .f32⟩) select ]
theorem main_part11_ops1_sub : (main_part11_ops1 : List (HloOp τ sig (Elt F))).Forall fun op => op.bufs ⊆ StableHlo.tcRefs τ sig :=
  StableHlo.ternary_bufs_sub ..
/-- 6 host operations of @main, window 11 (statements 661 … 720), in order:
    main_v519 … main_cst_194. -/
abbrev main_part11_ops2 : List (HloOp τ sig (Elt F)) :=
  [ StableHlo.binary main_v501 main_v518 main_v519 (subf : (⟨S2, .f32⟩ : BufTy).Contents (Elt F) → (⟨S2, .f32⟩ : BufTy).Contents (Elt F) → (⟨S2, .f32⟩ : BufTy).Contents (Elt F)),
    StableHlo.nullary main_cst_192 (constant S_ .f32 0x00000000#32),
    StableHlo.binary main_v519 main_cst_192 main_v520 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_193 (constantI S_ 32 0#32),
    StableHlo.binary main_v475 main_c_193 main_v521 (cmpi .sgt : (⟨S_, .i32⟩ : BufTy).Contents (Elt F) → (⟨S_, .i32⟩ : BufTy).Contents (Elt F) → (⟨S_, .i1⟩ : BufTy).Contents (Elt F)),
    StableHlo.nullary main_cst_194 (constant S_ .f32 0x00000000#32) ]
theorem main_part11_ops2_sub : (main_part11_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call40), window 11 (statements 661 … 720), in order:
    main_v522 … main_v522. -/
abbrev main_part11_ops3 : List (HloOp τ sig (Elt F)) :=
  [ StableHlo.TRef.ternary (.of main_v521 : StableHlo.TRef sig ⟨S_, .i1⟩) (.of main_v520 : StableHlo.TRef sig ⟨S_, .f32⟩) (.of main_cst_194 : StableHlo.TRef sig ⟨S_, .f32⟩) (.of main_v522 : StableHlo.TRef sig ⟨S_, .f32⟩) select ]
theorem main_part11_ops3_sub : (main_part11_ops3 : List (HloOp τ sig (Elt F))).Forall fun op => op.bufs ⊆ StableHlo.tcRefs τ sig :=
  StableHlo.ternary_bufs_sub ..
/-- Window 11's stretches, in order. -/
abbrev part11_opss : List (List (HloOp τ sig (Elt F))) :=
  [ main_part11_ops0,
    main_part11_ops1,
    main_part11_ops2,
    main_part11_ops3 ]
theorem part11_opss_sub : (part11_opss : List (List (HloOp τ sig (Elt F)))).Forall fun l => l.Forall fun op => op.bufs ⊆ StableHlo.tcRefs τ sig :=
  ⟨main_part11_ops0_sub, main_part11_ops1_sub, main_part11_ops2_sub, main_part11_ops3_sub⟩

end Cert.ReferenceIdeal.Rn

end
-- ==== Proof.Rf.Ops3.lean ====
/- The reference's @main as operation lists: windows 12 … 15 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 13 host operations of @main, window 12 (statements 721 … 780), in order:
    main_v523 … main_v532. -/
abbrev main_part12_ops0 : List (HloOp τ sig (Elt F)) :=
  [ StableHlo.binary main_v463 main_v522 main_v523 (subf : (⟨S_, .f32⟩ : BufTy).Contents (Elt F) → (⟨S_, .f32⟩ : BufTy).Contents (Elt F) → (⟨S_, .f32⟩ : BufTy).Contents (Elt F)),
    StableHlo.nullary main_c_195 (constantI S_ 32 0#32),
    StableHlo.unary main_c_195 main_v524 (broadcastInDim S4194304 ![] bcast_S_S4194304 : (⟨S_, .i32⟩ : BufTy).Contents (Elt F) → (⟨S4194304, .i32⟩ : BufTy).Contents (Elt F)),
    StableHlo.binary main_v25 main_v524 main_v525 (cmpi .eq : (⟨S4194304, .i32⟩ : BufTy).Contents (Elt F) → (⟨S4194304, .i32⟩ : BufTy).Contents (Elt F) → (⟨S4194304, .i1⟩ : BufTy).Contents (Elt F)),
    StableHlo.nullary main_c_196 (constantI S_ 32 6#32),
    StableHlo.unary main_c_196 main_v526 (broadcastInDim S4194304 ![] bcast_S_S4194304 : (⟨S_, .i32⟩ : BufTy).Contents (Elt F) → (⟨S4194304, .i32⟩ : BufTy).Contents (Elt F)),
    StableHlo.binary main_v51 main_v526 main_v527 (cmpi .eq : (⟨S4194304, .i32⟩ : BufTy).Contents (Elt F) → (⟨S4194304, .i32⟩ : BufTy).Contents (Elt F) → (⟨S4194304, .i1⟩ : BufTy).Contents (Elt F)),
    StableHlo.binary main_v525 main_v527 main_v528 (andi : (⟨S4194304, .i1⟩ : BufTy).Contents (Elt F) → (⟨S4194304, .i1⟩ : BufTy).Contents (Elt F) → (⟨S4194304, .i1⟩ : BufTy).Contents (Elt F)),
    StableHlo.nullary main_c_197 (constantI S_ 32 2#32),
    StableHlo.unary main_c_197 main_v529 (broadcastInDim S4194304 ![] bcast_S_S4194304 : (⟨S_, .i32⟩ : BufTy).Contents (Elt F) → (⟨S4194304, .i32⟩ : BufTy).Contents (Elt F)),
    StableHlo.binary main_v77 main_v529 main_v530 (cmpi .eq : (⟨S4194304, .i32⟩ : BufTy).Contents (Elt F) → (⟨S4194304, .i32⟩ : BufTy).Contents (Elt F) → (⟨S4194304, .i1⟩ : BufTy).Contents (Elt F)),
    StableHlo.binary main_v528 main_v530 main_v531 (andi : (⟨S4194304, .i1⟩ : BufTy).Contents (Elt F) → (⟨S4194304, .i1⟩ : BufTy).Contents (Elt F) → (⟨S4194304, .i1⟩ : BufTy).Contents (Elt F)),
    StableHlo.unary main_v531 main_v532 ((extui 32 · natLt_1_32) : (⟨S4194304, .i1⟩ : BufTy).Contents (Elt F) → (⟨S4194304, .i32⟩ : BufTy).Contents (Elt F)) ]
theorem main_part12_ops0_sub : (main_part12_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call41), window 12 (statements 721 … 780), in order:
    main_call41_call0_c … main_v533. -/
abbrev main_part12_ops1 : List (HloOp τ sig (Elt F)) :=
  [ StableHlo.TRef.nullary (.of main_call41_call0_c : StableHlo.TRef sig ⟨S_, .i32⟩) (constantI S_ 32 0#32),
    StableHlo.TRef.unary (.of main_call41_call0_c : StableHlo.TRef sig ⟨S_, .i32⟩) (.of main_call41_call0_v0 : StableHlo.TRef sig ⟨S_, .i32⟩) (broadcastInDim S_ ![] bcast_S_S_),
    StableHlo.TRef.binary (.of main_v532 : StableHlo.TRef sig ⟨S4194304, .i32⟩) (.of main_call41_call0_v0 : StableHlo.TRef sig ⟨S_, .i32⟩) (.of main_v533 : StableHlo.TRef sig ⟨S4194304, .i32⟩) (fun x v => Host.reduceWindow IntOp.addi ![4194304] ![1] ![4194303] ![0] x v reduceWindows_S4194304_S4194304_w4194304s1p4194303_0 h_S_) ]
theorem main_part12_ops1_sub : (main_part12_ops1 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 12 (statements 721 … 780), in order:
    main_v534 … main_v537. -/
abbrev main_part12_ops2 : List (HloOp τ sig (Elt F)) :=
  [ StableHlo.unary main_v533 main_v534 ((extractStridedSlice S1 ![4194303] · slices_S4194304_S1_4194303) : (⟨S4194304, .i32⟩ : BufTy).Contents (Elt F) → (⟨S1, .i32⟩ : BufTy).Contents (Elt F)),
    StableHlo.reshape main_v534 main_v535 rfl shapeCasts_S1_S_,
    StableHlo.nullary main_c_198 (constantI S_ 32 1#32),
    StableHlo.unary main_c_198 main_v536 (broadcastInDim S4194304 ![] bcast_S_S4194304 : (⟨S_, .i32⟩ : BufTy).Contents (Elt F) → (⟨S4194304, .i32⟩ : BufTy).Contents (Elt F)),
    StableHlo.binary main_v533 main_v536 main_v537 (cmpi .eq : (⟨S4194304, .i32⟩ : BufTy).Contents (Elt F) → (⟨S4194304, .i32⟩ : BufTy).Contents (Elt F) → (⟨S4194304, .i1⟩ : BufTy).Contents (Elt F)) ]
theorem main_part12_ops2_sub : (main_part12_ops2 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call42), window 12 (statements 721 … 780), in order:
    main_call42_v0 … main_v538. -/
abbrev main_part12_ops3 : List (HloOp τ sig (Elt F)) :=
  [ StableHlo.TRef.nullary (.of main_call42_v0 : StableHlo.TRef sig ⟨S4194304, .i32⟩) (iotaInDim S4194304 32 0),
    StableHlo.TRef.nullary (.of main_call42_c : StableHlo.TRef sig ⟨S_, .i1⟩) (constantI S_ 1 0#1),
    StableHlo.TRef.nullary (.of main_call42_c_0 : StableHlo.TRef sig ⟨S_, .i32⟩) (constantI S_ 32 0#32),
    StableHlo.TRef.quaternary (.of main_v537 : StableHlo.TRef sig ⟨S4194304, .i1⟩) (.of main_call42_v0 : StableHlo.TRef sig ⟨S4194304, .i32⟩) (.of main_call42_c : StableHlo.TRef sig ⟨S_, .i1⟩) (.of main_call42_c_0 : StableHlo.TRef sig ⟨S_, .i32⟩) (.of main_call42_v1_0 : StableHlo.TRef sig ⟨S_, .i1⟩) (fun x y u v j => (Host.reduce2 reducer_argmax_i1_i32 x y u v reducesTo_S4194304_S_d0 h_S_ j).1),
    StableHlo.TRef.quaternary (.of main_v537 : StableHlo.TRef sig ⟨S4194304, .i1⟩) (.of main_call42_v0 : StableHlo.TRef sig ⟨S4194304, .i32⟩) (.of main_call42_c : StableHlo.TRef sig ⟨S_, .i1⟩) (.of main_call42_c_0 : StableHlo.TRef sig ⟨S_, .i32⟩) (.of main_v538 : StableHlo.TRef sig ⟨S_, .i32⟩) (fun x y u v j => (Host.reduce2 reducer_argmax_i1_i32 x y u v reducesTo_S4194304_S_d0 h_S_ j).2) ]
theorem main_part12_ops3_sub : (main_part12_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 12 (statements 721 … 780), in order:
    main_c_199 … main_v540. -/
abbrev main_part12_ops4 : List (HloOp τ sig (Elt F)) :=
  [ StableHlo.nullary main_c_199 (constantI S_ 32 2#32),
    StableHlo.unary main_c_199 main_v539 (broadcastInDim S4194304 ![] bcast_S_S4194304 : (⟨S_, .i32⟩ : BufTy).Contents (Elt F) → (⟨S4194304, .i32⟩ : BufTy).Contents (Elt F)),
    StableHlo.binary main_v533 main_v539 main_v540 (cmpi .eq : (⟨S4194304, .i32⟩ : BufTy).Contents (Elt F) → (⟨S4194304, .i32⟩ : BufTy).Contents (Elt F) → (⟨S4194304, .i1⟩ : BufTy).Contents (Elt F)) ]
theorem main_part12_ops4_sub : (main_part12_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call43), window 12 (statements 721 … 780), in order:
    main_call43_v0 … main_v541. -/
abbrev main_part12_ops5 : List (HloOp τ sig (Elt F)) :=
  [ StableHlo.TRef.nullary (.of main_call43_v0 : StableHlo.TRef sig ⟨S4194304, .i32⟩) (iotaInDim S4194304 32 0),
    StableHlo.TRef.nullary (.of main_call43_c : StableHlo.TRef sig ⟨S_, .i1⟩) (constantI S_ 1 0#1),
    StableHlo.TRef.nullary (.of main_call43_c_0 : StableHlo.TRef sig ⟨S_, .i32⟩) (constantI S_ 32 0#32),
    StableHlo.TRef.quaternary (.of main_v540 : StableHlo.TRef sig ⟨S4194304, .i1⟩) (.of main_call43_v0 : StableHlo.TRef sig ⟨S4194304, .i32⟩) (.of main_call43_c : StableHlo.TRef sig ⟨S_, .i1⟩) (.of main_call43_c_0 : StableHlo.TRef sig ⟨S_, .i32⟩) (.of main_call43_v1_0 : StableHlo.TRef sig ⟨S_, .i1⟩) (fun x y u v j => (Host.reduce2 reducer_argmax_i1_i32 x y u v reducesTo_S4194304_S_d0 h_S_ j).1),
    StableHlo.TRef.quaternary (.of main_v540 : StableHlo.TRef sig ⟨S4194304, .i1⟩) (.of main_call43_v0 : StableHlo.TRef sig ⟨S4194304, .i32⟩) (.of main_call43_c : StableHlo.TRef sig ⟨S_, .i1⟩) (.of main_call43_c_0 : StableHlo.TRef sig ⟨S_, .i32⟩) (.of main_v541 : StableHlo.TRef sig ⟨S_, .i32⟩) (fun x y u v j => (Host.reduce2 reducer_argmax_i1_i32 x y u v reducesTo_S4194304_S_d0 h_S_ j).2) ]
theorem main_part12_ops5_sub : (main_part12_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 12 (statements 721 … 780), in order:
    main_c_200 … main_v543. -/
abbrev main_part12_ops6 : List (HloOp τ sig (Elt F)) :=
  [ StableHlo.nullary main_c_200 (constantI S_ 32 1#32),
    StableHlo.unary main_c_200 main_v542 (broadcastInDim S4194304 ![] bcast_S_S4194304 : (⟨S_, .i32⟩ : BufTy).Contents (Elt F) → (⟨S4194304, .i32⟩ : BufTy).Contents (Elt F)),
    StableHlo.binary main_v533 main_v542 main_v543 (cmpi .eq : (⟨S4194304, .i32⟩ : BufTy).Contents (Elt F) → (⟨S4194304, .i32⟩ : BufTy).Contents (Elt F) → (⟨S4194304, .i1⟩ : BufTy).Contents (Elt F)) ]
theorem main_part12_ops6_sub : (main_part12_ops6 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call44), window 12 (statements 721 … 780), in order:
    main_call44_v0 … main_v544. -/
abbrev main_part12_ops7 : List (HloOp τ sig (Elt F)) :=
  [ StableHlo.TRef.nullary (.of main_call44_v0 : StableHlo.TRef sig ⟨S4194304, .i32⟩) (iotaInDim S4194304 32 0),
    StableHlo.TRef.nullary (.of main_call44_c : StableHlo.TRef sig ⟨S_, .i1⟩) (constantI S_ 1 0#1),
    StableHlo.TRef.nullary (.of main_call44_c_0 : StableHlo.TRef sig ⟨S_, .i32⟩) (constantI S_ 32 0#32),
    StableHlo.TRef.quaternary (.of main_v543 : StableHlo.TRef sig ⟨S4194304, .i1⟩) (.of main_call44_v0 : StableHlo.TRef sig ⟨S4194304, .i32⟩) (.of main_call44_c : StableHlo.TRef sig ⟨S_, .i1⟩) (.of main_call44_c_0 : StableHlo.TRef sig ⟨S_, .i32⟩) (.of main_call44_v1_0 : StableHlo.TRef sig ⟨S_, .i1⟩) (fun x y u v j => (Host.reduce2 reducer_argmax_i1_i32 x y u v reducesTo_S4194304_S_d0 h_S_ j).1),
    StableHlo.TRef.quaternary (.of main_v543 : StableHlo.TRef sig ⟨S4194304, .i1⟩) (.of main_call44_v0 : StableHlo.TRef sig ⟨S4194304, .i32⟩) (.of main_call44_c : StableHlo.TRef sig ⟨S_, .i1⟩) (.of main_call44_c_0 : StableHlo.TRef sig ⟨S_, .i32⟩) (.of main_v544 : StableHlo.TRef sig ⟨S_, .i32⟩) (fun x y u v j => (Host.reduce2 reducer_argmax_i1_i32 x y u v reducesTo_S4194304_S_d0 h_S_ j).2) ]
theorem main_part12_ops7_sub : (main_part12_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 32 host operations of @main, window 12 (statements 721 … 780), in order:
    main_c_201 … main_c_215. -/
abbrev main_part12_ops8 : List (HloOp τ sig (Elt F)) :=
  [ StableHlo.nullary main_c_201 (constantI S_ 32 0#32),
    StableHlo.binary main_v538 main_c_201 main_v545 (cmpi .slt : (⟨S_, .i32⟩ : BufTy).Contents (Elt F) → (⟨S_, .i32⟩ : BufTy).Contents (Elt F) → (⟨S_, .i1⟩ : BufTy).Contents (Elt F)),
    StableHlo.nullary main_c_202 (constantI S_ 32 4194304#32),
    StableHlo.binary main_v538 main_c_202 main_v546 (addi : (⟨S_, .i32⟩ : BufTy).Contents (Elt F) → (⟨S_, .i32⟩ : BufTy).Contents (Elt F) → (⟨S_, .i32⟩ : BufTy).Contents (Elt F)),
    StableHlo.ternary main_v545 main_v546 main_v538 main_v547 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_203 (constantI S_ 32 0#32),
    StableHlo.nullary main_c_204 (constantI S_ 32 0#32),
    StableHlo.binary main_c_203 main_c_204 main_v548 (cmpi .slt : (⟨S_, .i32⟩ : BufTy).Contents (Elt F) → (⟨S_, .i32⟩ : BufTy).Contents (Elt F) → (⟨S_, .i1⟩ : BufTy).Contents (Elt F)),
    StableHlo.nullary main_c_205 (constantI S_ 32 0#32),
    StableHlo.nullary main_c_206 (constantI S_ 32 2#32),
    StableHlo.binary main_c_205 main_c_206 main_v549 (addi : (⟨S_, .i32⟩ : BufTy).Contents (Elt F) → (⟨S_, .i32⟩ : BufTy).Contents (Elt F) → (⟨S_, .i32⟩ : BufTy).Contents (Elt F)),
    StableHlo.nullary main_c_207 (constantI S_ 32 0#32),
    StableHlo.ternary main_v548 main_v549 main_c_207 main_v550 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v547, main_v550] ⟨S_, .i32⟩ main_v551 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v551 main_v552 rfl shapeCasts_S1x2_S2,
    StableHlo.nullary main_c_208 (constantI S_ 32 0#32),
    StableHlo.binary main_v541 main_c_208 main_v553 (cmpi .slt : (⟨S_, .i32⟩ : BufTy).Contents (Elt F) → (⟨S_, .i32⟩ : BufTy).Contents (Elt F) → (⟨S_, .i1⟩ : BufTy).Contents (Elt F)),
    StableHlo.nullary main_c_209 (constantI S_ 32 4194304#32),
    StableHlo.binary main_v541 main_c_209 main_v554 (addi : (⟨S_, .i32⟩ : BufTy).Contents (Elt F) → (⟨S_, .i32⟩ : BufTy).Contents (Elt F) → (⟨S_, .i32⟩ : BufTy).Contents (Elt F)),
    StableHlo.ternary main_v553 main_v554 main_v541 main_v555 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_210 (constantI S_ 32 0#32),
    StableHlo.nullary main_c_211 (constantI S_ 32 0#32),
    StableHlo.binary main_c_210 main_c_211 main_v556 (cmpi .slt : (⟨S_, .i32⟩ : BufTy).Contents (Elt F) → (⟨S_, .i32⟩ : BufTy).Contents (Elt F) → (⟨S_, .i1⟩ : BufTy).Contents (Elt F)),
    StableHlo.nullary main_c_212 (constantI S_ 32 0#32),
    StableHlo.nullary main_c_213 (constantI S_ 32 2#32),
    StableHlo.binary main_c_212 main_c_213 main_v557 (addi : (⟨S_, .i32⟩ : BufTy).Contents (Elt F) → (⟨S_, .i32⟩ : BufTy).Contents (Elt F) → (⟨S_, .i32⟩ : BufTy).Contents (Elt F)),
    StableHlo.nullary main_c_214 (constantI S_ 32 0#32),
    StableHlo.ternary main_v556 main_v557 main_c_214 main_v558 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg1 ![main_v555, main_v558] ⟨S_, .i32⟩ main_v559 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v559 main_v560 rfl shapeCasts_S1x2_S2,
    StableHlo.binary main_v552 main_v560 main_v561 (addf : (⟨S2, .f32⟩ : BufTy).Contents (Elt F) → (⟨S2, .f32⟩ : BufTy).Contents (Elt F) → (⟨S2, .f32⟩ : BufTy).Contents (Elt F)),
    StableHlo.nullary main_c_215 (constantI S_ 32 0#32) ]
theorem main_part12_ops8_sub : (main_part12_ops8 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub ..⟩
/-- Window 12's stretches, in order. -/
abbrev part12_opss : List (List (HloOp τ sig (Elt F))) :=
  [ main_part12_ops0,
    main_part12_ops1,
    main_part12_ops2,
    main_part12_ops3,
    main_part12_ops4,
    main_part12_ops5,
    main_part12_ops6,
    main_part12_ops7,
    main_part12_ops8 ]
theorem part12_opss_sub : (part12_opss : List (List (HloOp τ sig (Elt F)))).Forall fun l => l.Forall fun op => op.bufs ⊆ StableHlo.tcRefs τ sig :=
  ⟨main_part12_ops0_sub, main_part12_ops1_sub, main_part12_ops2_sub, main_part12_ops3_sub, main_part12_ops4_sub, main_part12_ops5_sub, main_part12_ops6_sub, main_part12_ops7_sub, main_part12_ops8_sub⟩

/-- 23 host operations of @main, window 13 (statements 781 … 840), in order:
    main_v562 … main_v577. -/
abbrev main_part13_ops0 : List (HloOp τ sig (Elt F)) :=
  [ StableHlo.binary main_v544 main_c_215 main_v562 (cmpi .slt : (⟨S_, .i32⟩ : BufTy).Contents (Elt F) → (⟨S_, .i32⟩ : BufTy).Contents (Elt F) → (⟨S_, .i1⟩ : BufTy).Contents (Elt F)),
    StableHlo.nullary main_c_216 (constantI S_ 32 4194304#32),
    StableHlo.binary main_v544 main_c_216 main_v563 (addi : (⟨S_, .i32⟩ : BufTy).Contents (Elt F) → (⟨S_, .i32⟩ : BufTy).Contents (Elt F) → (⟨S_, .i32⟩ : BufTy).Contents (Elt F)),
    StableHlo.ternary main_v562 main_v563 main_v544 main_v564 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_217 (constantI S_ 32 0#32),
    StableHlo.nullary main_c_218 (constantI S_ 32 0#32),
    StableHlo.binary main_c_217 main_c_218 main_v565 (cmpi .slt : (⟨S_, .i32⟩ : BufTy).Contents (Elt F) → (⟨S_, .i32⟩ : BufTy).Contents (Elt F) → (⟨S_, .i1⟩ : BufTy).Contents (Elt F)),
    StableHlo.nullary main_c_219 (constantI S_ 32 0#32),
    StableHlo.nullary main_c_220 (constantI S_ 32 2#32),
    StableHlo.binary main_c_219 main_c_220 main_v566 (addi : (⟨S_, .i32⟩ : BufTy).Contents (Elt F) → (⟨S_, .i32⟩ : BufTy).Contents (Elt F) → (⟨S_, .i32⟩ : BufTy).Contents (Elt F)),
    StableHlo.nullary main_c_221 (constantI S_ 32 0#32),
    StableHlo.ternary main_v565 main_v566 main_c_221 main_v567 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v564, main_v567] ⟨S_, .i32⟩ main_v568 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v568 main_v569 rfl shapeCasts_S1x2_S2,
    StableHlo.nullary main_cst_222 (constant S_ .f32 0xBF317218#32),
    StableHlo.unary main_cst_222 main_v570 (broadcastInDim S2 ![] bcast_S_S2 : (⟨S_, .f32⟩ : BufTy).Contents (Elt F) → (⟨S2, .f32⟩ : BufTy).Contents (Elt F)),
    StableHlo.binary main_v569 main_v570 main_v571 (cmpf .ogt : (⟨S2, .f32⟩ : BufTy).Contents (Elt F) → (⟨S2, .f32⟩ : BufTy).Contents (Elt F) → (⟨S2, .i1⟩ : BufTy).Contents (Elt F)),
    StableHlo.unary main_v569 main_v572 (Host.expm1 : (⟨S2, .f32⟩ : BufTy).Contents (Elt F) → (⟨S2, .f32⟩ : BufTy).Contents (Elt F)),
    StableHlo.unary main_v572 main_v573 (Host.negf : (⟨S2, .f32⟩ : BufTy).Contents (Elt F) → (⟨S2, .f32⟩ : BufTy).Contents (Elt F)),
    StableHlo.unary main_v573 main_v574 (Host.log : (⟨S2, .f32⟩ : BufTy).Contents (Elt F) → (⟨S2, .f32⟩ : BufTy).Contents (Elt F)),
    StableHlo.unary main_v569 main_v575 (Host.exp : (⟨S2, .f32⟩ : BufTy).Contents (Elt F) → (⟨S2, .f32⟩ : BufTy).Contents (Elt F)),
    StableHlo.unary main_v575 main_v576 (Host.negf : (⟨S2, .f32⟩ : BufTy).Contents (Elt F) → (⟨S2, .f32⟩ : BufTy).Contents (Elt F)),
    StableHlo.unary main_v576 main_v577 (Host.log1p : (⟨S2, .f32⟩ : BufTy).Contents (Elt F) → (⟨S2, .f32⟩ : BufTy).Contents (Elt F)) ]
theorem main_part13_ops0_sub : (main_part13_ops0 : List (HloOp τ sig (Elt F))).Forall fun op => op.bufs ⊆ StableHlo.tcRefs τ sig :=
  ⟨StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call45), window 13 (statements 781 … 840), in order:
    main_v578 … main_v578. -/
abbrev main_part13_ops1 : List (HloOp τ sig (Elt F)) :=
  [ StableHlo.TRef.ternary (.of main_v571 : StableHlo.TRef sig ⟨S2, .i1⟩) (.of main_v574 : StableHlo.TRef sig ⟨S2, .f32⟩) (.of main_v577 : StableHlo.TRef sig ⟨S2, .f32⟩) (.of main_v578 : StableHlo.TRef sig ⟨S2, .f32⟩) select ]
theorem main_part13_ops1_sub : (main_part13_ops1 : List (HloOp τ sig (Elt F))).Forall fun op => op.bufs ⊆ StableHlo.tcRefs τ sig :=
  StableHlo.ternary_bufs_sub ..
/-- 6 host operations of @main, window 13 (statements 781 … 840), in order:
    main_v579 … main_cst_225. -/
abbrev main_part13_ops2 : List (HloOp τ sig (Elt F)) :=
  [ StableHlo.binary main_v561 main_v578 main_v579 (subf : (⟨S2, .f32⟩ : BufTy).Contents (Elt F) → (⟨S2, .f32⟩ : BufTy).Contents (Elt F) → (⟨S2, .f32⟩ : BufTy).Contents (Elt F)),
    StableHlo.nullary main_cst_223 (constant S_ .f32 0x00000000#32),
    StableHlo.binary main_v579 main_cst_223 main_v580 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_224 (constantI S_ 32 0#32),
    StableHlo.binary main_v535 main_c_224 main_v581 (cmpi .sgt : (⟨S_, .i32⟩ : BufTy).Contents (Elt F) → (⟨S_, .i32⟩ : BufTy).Contents (Elt F) → (⟨S_, .i1⟩ : BufTy).Contents (Elt F)),
    StableHlo.nullary main_cst_225 (constant S_ .f32 0x00000000#32) ]
theorem main_part13_ops2_sub : (main_part13_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call46), window 13 (statements 781 … 840), in order:
    main_v582 … main_v582. -/
abbrev main_part13_ops3 : List (HloOp τ sig (Elt F)) :=
  [ StableHlo.TRef.ternary (.of main_v581 : StableHlo.TRef sig ⟨S_, .i1⟩) (.of main_v580 : StableHlo.TRef sig ⟨S_, .f32⟩) (.of main_cst_225 : StableHlo.TRef sig ⟨S_, .f32⟩) (.of main_v582 : StableHlo.TRef sig ⟨S_, .f32⟩) select ]
theorem main_part13_ops3_sub : (main_part13_ops3 : List (HloOp τ sig (Elt F))).Forall fun op => op.bufs ⊆ StableHlo.tcRefs τ sig :=
  StableHlo.ternary_bufs_sub ..
/-- 13 host operations of @main, window 13 (statements 781 … 840), in order:
    main_v583 … main_v592. -/
abbrev main_part13_ops4 : List (HloOp τ sig (Elt F)) :=
  [ StableHlo.binary main_v523 main_v582 main_v583 (subf : (⟨S_, .f32⟩ : BufTy).Contents (Elt F) → (⟨S_, .f32⟩ : BufTy).Contents (Elt F) → (⟨S_, .f32⟩ : BufTy).Contents (Elt F)),
    StableHlo.nullary main_c_226 (constantI S_ 32 1#32),
    StableHlo.unary main_c_226 main_v584 (broadcastInDim S4194304 ![] bcast_S_S4194304 : (⟨S_, .i32⟩ : BufTy).Contents (Elt F) → (⟨S4194304, .i32⟩ : BufTy).Contents (Elt F)),
    StableHlo.binary main_v25 main_v584 main_v585 (cmpi .eq : (⟨S4194304, .i32⟩ : BufTy).Contents (Elt F) → (⟨S4194304, .i32⟩ : BufTy).Contents (Elt F) → (⟨S4194304, .i1⟩ : BufTy).Contents (Elt F)),
    StableHlo.nullary main_c_227 (constantI S_ 32 5#32),
    StableHlo.unary main_c_227 main_v586 (broadcastInDim S4194304 ![] bcast_S_S4194304 : (⟨S_, .i32⟩ : BufTy).Contents (Elt F) → (⟨S4194304, .i32⟩ : BufTy).Contents (Elt F)),
    StableHlo.binary main_v51 main_v586 main_v587 (cmpi .eq : (⟨S4194304, .i32⟩ : BufTy).Contents (Elt F) → (⟨S4194304, .i32⟩ : BufTy).Contents (Elt F) → (⟨S4194304, .i1⟩ : BufTy).Contents (Elt F)),
    StableHlo.binary main_v585 main_v587 main_v588 (andi : (⟨S4194304, .i1⟩ : BufTy).Contents (Elt F) → (⟨S4194304, .i1⟩ : BufTy).Contents (Elt F) → (⟨S4194304, .i1⟩ : BufTy).Contents (Elt F)),
    StableHlo.nullary main_c_228 (constantI S_ 32 0#32),
    StableHlo.unary main_c_228 main_v589 (broadcastInDim S4194304 ![] bcast_S_S4194304 : (⟨S_, .i32⟩ : BufTy).Contents (Elt F) → (⟨S4194304, .i32⟩ : BufTy).Contents (Elt F)),
    StableHlo.binary main_v77 main_v589 main_v590 (cmpi .eq : (⟨S4194304, .i32⟩ : BufTy).Contents (Elt F) → (⟨S4194304, .i32⟩ : BufTy).Contents (Elt F) → (⟨S4194304, .i1⟩ : BufTy).Contents (Elt F)),
    StableHlo.binary main_v588 main_v590 main_v591 (andi : (⟨S4194304, .i1⟩ : BufTy).Contents (Elt F) → (⟨S4194304, .i1⟩ : BufTy).Contents (Elt F) → (⟨S4194304, .i1⟩ : BufTy).Contents (Elt F)),
    StableHlo.unary main_v591 main_v592 ((extui 32 · natLt_1_32) : (⟨S4194304, .i1⟩ : BufTy).Contents (Elt F) → (⟨S4194304, .i32⟩ : BufTy).Contents (Elt F)) ]
theorem main_part13_ops4_sub : (main_part13_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call47), window 13 (statements 781 … 840), in order:
    main_call47_call0_c … main_v593. -/
abbrev main_part13_ops5 : List (HloOp τ sig (Elt F)) :=
  [ StableHlo.TRef.nullary (.of main_call47_call0_c : StableHlo.TRef sig ⟨S_, .i32⟩) (constantI S_ 32 0#32),
    StableHlo.TRef.unary (.of main_call47_call0_c : StableHlo.TRef sig ⟨S_, .i32⟩) (.of main_call47_call0_v0 : StableHlo.TRef sig ⟨S_, .i32⟩) (broadcastInDim S_ ![] bcast_S_S_),
    StableHlo.TRef.binary (.of main_v592 : StableHlo.TRef sig ⟨S4194304, .i32⟩) (.of main_call47_call0_v0 : StableHlo.TRef sig ⟨S_, .i32⟩) (.of main_v593 : StableHlo.TRef sig ⟨S4194304, .i32⟩) (fun x v => Host.reduceWindow IntOp.addi ![4194304] ![1] ![4194303] ![0] x v reduceWindows_S4194304_S4194304_w4194304s1p4194303_0 h_S_) ]
theorem main_part13_ops5_sub : (main_part13_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 13 (statements 781 … 840), in order:
    main_v594 … main_v597. -/
abbrev main_part13_ops6 : List (HloOp τ sig (Elt F)) :=
  [ StableHlo.unary main_v593 main_v594 ((extractStridedSlice S1 ![4194303] · slices_S4194304_S1_4194303) : (⟨S4194304, .i32⟩ : BufTy).Contents (Elt F) → (⟨S1, .i32⟩ : BufTy).Contents (Elt F)),
    StableHlo.reshape main_v594 main_v595 rfl shapeCasts_S1_S_,
    StableHlo.nullary main_c_229 (constantI S_ 32 1#32),
    StableHlo.unary main_c_229 main_v596 (broadcastInDim S4194304 ![] bcast_S_S4194304 : (⟨S_, .i32⟩ : BufTy).Contents (Elt F) → (⟨S4194304, .i32⟩ : BufTy).Contents (Elt F)),
    StableHlo.binary main_v593 main_v596 main_v597 (cmpi .eq : (⟨S4194304, .i32⟩ : BufTy).Contents (Elt F) → (⟨S4194304, .i32⟩ : BufTy).Contents (Elt F) → (⟨S4194304, .i1⟩ : BufTy).Contents (Elt F)) ]
theorem main_part13_ops6_sub : (main_part13_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call48), window 13 (statements 781 … 840), in order:
    main_call48_v0 … main_v598. -/
abbrev main_part13_ops7 : List (HloOp τ sig (Elt F)) :=
  [ StableHlo.TRef.nullary (.of main_call48_v0 : StableHlo.TRef sig ⟨S4194304, .i32⟩) (iotaInDim S4194304 32 0),
    StableHlo.TRef.nullary (.of main_call48_c : StableHlo.TRef sig ⟨S_, .i1⟩) (constantI S_ 1 0#1),
    StableHlo.TRef.nullary (.of main_call48_c_0 : StableHlo.TRef sig ⟨S_, .i32⟩) (constantI S_ 32 0#32),
    StableHlo.TRef.quaternary (.of main_v597 : StableHlo.TRef sig ⟨S4194304, .i1⟩) (.of main_call48_v0 : StableHlo.TRef sig ⟨S4194304, .i32⟩) (.of main_call48_c : StableHlo.TRef sig ⟨S_, .i1⟩) (.of main_call48_c_0 : StableHlo.TRef sig ⟨S_, .i32⟩) (.of main_call48_v1_0 : StableHlo.TRef sig ⟨S_, .i1⟩) (fun x y u v j => (Host.reduce2 reducer_argmax_i1_i32 x y u v reducesTo_S4194304_S_d0 h_S_ j).1),
    StableHlo.TRef.quaternary (.of main_v597 : StableHlo.TRef sig ⟨S4194304, .i1⟩) (.of main_call48_v0 : StableHlo.TRef sig ⟨S4194304, .i32⟩) (.of main_call48_c : StableHlo.TRef sig ⟨S_, .i1⟩) (.of main_call48_c_0 : StableHlo.TRef sig ⟨S_, .i32⟩) (.of main_v598 : StableHlo.TRef sig ⟨S_, .i32⟩) (fun x y u v j => (Host.reduce2 reducer_argmax_i1_i32 x y u v reducesTo_S4194304_S_d0 h_S_ j).2) ]
theorem main_part13_ops7_sub : (main_part13_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 13 (statements 781 … 840), in order:
    main_c_230 … main_v600. -/
abbrev main_part13_ops8 : List (HloOp τ sig (Elt F)) :=
  [ StableHlo.nullary main_c_230 (constantI S_ 32 2#32),
    StableHlo.unary main_c_230 main_v599 (broadcastInDim S4194304 ![] bcast_S_S4194304 : (⟨S_, .i32⟩ : BufTy).Contents (Elt F) → (⟨S4194304, .i32⟩ : BufTy).Contents (Elt F)),
    StableHlo.binary main_v593 main_v599 main_v600 (cmpi .eq : (⟨S4194304, .i32⟩ : BufTy).Contents (Elt F) → (⟨S4194304, .i32⟩ : BufTy).Contents (Elt F) → (⟨S4194304, .i1⟩ : BufTy).Contents (Elt F)) ]
theorem main_part13_ops8_sub : (main_part13_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call49), window 13 (statements 781 … 840), in order:
    main_call49_v0 … main_v601. -/
abbrev main_part13_ops9 : List (HloOp τ sig (Elt F)) :=
  [ StableHlo.TRef.nullary (.of main_call49_v0 : StableHlo.TRef sig ⟨S4194304, .i32⟩) (iotaInDim S4194304 32 0),
    StableHlo.TRef.nullary (.of main_call49_c : StableHlo.TRef sig ⟨S_, .i1⟩) (constantI S_ 1 0#1),
    StableHlo.TRef.nullary (.of main_call49_c_0 : StableHlo.TRef sig ⟨S_, .i32⟩) (constantI S_ 32 0#32),
    StableHlo.TRef.quaternary (.of main_v600 : StableHlo.TRef sig ⟨S4194304, .i1⟩) (.of main_call49_v0 : StableHlo.TRef sig ⟨S4194304, .i32⟩) (.of main_call49_c : StableHlo.TRef sig ⟨S_, .i1⟩) (.of main_call49_c_0 : StableHlo.TRef sig ⟨S_, .i32⟩) (.of main_call49_v1_0 : StableHlo.TRef sig ⟨S_, .i1⟩) (fun x y u v j => (Host.reduce2 reducer_argmax_i1_i32 x y u v reducesTo_S4194304_S_d0 h_S_ j).1),
    StableHlo.TRef.quaternary (.of main_v600 : StableHlo.TRef sig ⟨S4194304, .i1⟩) (.of main_call49_v0 : StableHlo.TRef sig ⟨S4194304, .i32⟩) (.of main_call49_c : StableHlo.TRef sig ⟨S_, .i1⟩) (.of main_call49_c_0 : StableHlo.TRef sig ⟨S_, .i32⟩) (.of main_v601 : StableHlo.TRef sig ⟨S_, .i32⟩) (fun x y u v j => (Host.reduce2 reducer_argmax_i1_i32 x y u v reducesTo_S4194304_S_d0 h_S_ j).2) ]
theorem main_part13_ops9_sub : (main_part13_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 13 (statements 781 … 840), in order:
    main_c_231 … main_v603. -/
abbrev main_part13_ops10 : List (HloOp τ sig (Elt F)) :=
  [ StableHlo.nullary main_c_231 (constantI S_ 32 1#32),
    StableHlo.unary main_c_231 main_v602 (broadcastInDim S4194304 ![] bcast_S_S4194304 : (⟨S_, .i32⟩ : BufTy).Contents (Elt F) → (⟨S4194304, .i32⟩ : BufTy).Contents (Elt F)),
    StableHlo.binary main_v593 main_v602 main_v603 (cmpi .eq : (⟨S4194304, .i32⟩ : BufTy).Contents (Elt F) → (⟨S4194304, .i32⟩ : BufTy).Contents (Elt F) → (⟨S4194304, .i1⟩ : BufTy).Contents (Elt F)) ]
theorem main_part13_ops10_sub : (main_part13_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call50), window 13 (statements 781 … 840), in order:
    main_call50_v0 … main_v604. -/
abbrev main_part13_ops11 : List (HloOp τ sig (Elt F)) :=
  [ StableHlo.TRef.nullary (.of main_call50_v0 : StableHlo.TRef sig ⟨S4194304, .i32⟩) (iotaInDim S4194304 32 0),
    StableHlo.TRef.nullary (.of main_call50_c : StableHlo.TRef sig ⟨S_, .i1⟩) (constantI S_ 1 0#1),
    StableHlo.TRef.nullary (.of main_call50_c_0 : StableHlo.TRef sig ⟨S_, .i32⟩) (constantI S_ 32 0#32),
    StableHlo.TRef.quaternary (.of main_v603 : StableHlo.TRef sig ⟨S4194304, .i1⟩) (.of main_call50_v0 : StableHlo.TRef sig ⟨S4194304, .i32⟩) (.of main_call50_c : StableHlo.TRef sig ⟨S_, .i1⟩) (.of main_call50_c_0 : StableHlo.TRef sig ⟨S_, .i32⟩) (.of main_call50_v1_0 : StableHlo.TRef sig ⟨S_, .i1⟩) (fun x y u v j => (Host.reduce2 reducer_argmax_i1_i32 x y u v reducesTo_S4194304_S_d0 h_S_ j).1),
    StableHlo.TRef.quaternary (.of main_v603 : StableHlo.TRef sig ⟨S4194304, .i1⟩) (.of main_call50_v0 : StableHlo.TRef sig ⟨S4194304, .i32⟩) (.of main_call50_c : StableHlo.TRef sig ⟨S_, .i1⟩) (.of main_call50_c_0 : StableHlo.TRef sig ⟨S_, .i32⟩) (.of main_v604 : StableHlo.TRef sig ⟨S_, .i32⟩) (fun x y u v j => (Host.reduce2 reducer_argmax_i1_i32 x y u v reducesTo_S4194304_S_d0 h_S_ j).2) ]
theorem main_part13_ops11_sub : (main_part13_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, window 13 (statements 781 … 840), in order:
    main_c_232 … main_c_232. -/
abbrev main_part13_ops12 : List (HloOp τ sig (Elt F)) :=
  [ StableHlo.nullary main_c_232 (constantI S_ 32 0#32) ]
theorem main_part13_ops12_sub : (main_part13_ops12 : List (HloOp τ sig (Elt F))).Forall fun op => op.bufs ⊆ StableHlo.tcRefs τ sig :=
  StableHlo.nullary_bufs_sub ..
/-- Window 13's stretches, in order. -/
abbrev part13_opss : List (List (HloOp τ sig (Elt F))) :=
  [ main_part13_ops0,
    main_part13_ops1,
    main_part13_ops2,
    main_part13_ops3,
    main_part13_ops4,
    main_part13_ops5,
    main_part13_ops6,
    main_part13_ops7,
    main_part13_ops8,
    main_part13_ops9,
    main_part13_ops10,
    main_part13_ops11,
    main_part13_ops12 ]
theorem part13_opss_sub : (part13_opss : List (List (HloOp τ sig (Elt F)))).Forall fun l => l.Forall fun op => op.bufs ⊆ StableHlo.tcRefs τ sig :=
  ⟨main_part13_ops0_sub, main_part13_ops1_sub, main_part13_ops2_sub, main_part13_ops3_sub, main_part13_ops4_sub, main_part13_ops5_sub, main_part13_ops6_sub, main_part13_ops7_sub, main_part13_ops8_sub, main_part13_ops9_sub, main_part13_ops10_sub, main_part13_ops11_sub, main_part13_ops12_sub⟩

/-- 54 host operations of @main, window 14 (statements 841 … 900), in order:
    main_v605 … main_v637. -/
abbrev main_part14_ops0 : List (HloOp τ sig (Elt F)) :=
  ( StableHlo.binary main_v598 main_c_232 main_v605 (cmpi .slt : (⟨S_, .i32⟩ : BufTy).Contents (Elt F) → (⟨S_, .i32⟩ : BufTy).Contents (Elt F) → (⟨S_, .i1⟩ : BufTy).Contents (Elt F))
  :: StableHlo.nullary main_c_233 (constantI S_ 32 4194304#32)
  :: StableHlo.binary main_v598 main_c_233 main_v606 (addi : (⟨S_, .i32⟩ : BufTy).Contents (Elt F) → (⟨S_, .i32⟩ : BufTy).Contents (Elt F) → (⟨S_, .i32⟩ : BufTy).Contents (Elt F))
  :: StableHlo.ternary main_v605 main_v606 main_v598 main_v607 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_234 (constantI S_ 32 0#32)
  :: StableHlo.nullary main_c_235 (constantI S_ 32 0#32)
  :: StableHlo.binary main_c_234 main_c_235 main_v608 (cmpi .slt : (⟨S_, .i32⟩ : BufTy).Contents (Elt F) → (⟨S_, .i32⟩ : BufTy).Contents (Elt F) → (⟨S_, .i1⟩ : BufTy).Contents (Elt F))
  :: StableHlo.nullary main_c_236 (constantI S_ 32 0#32)
  :: StableHlo.nullary main_c_237 (constantI S_ 32 2#32)
  :: StableHlo.binary main_c_236 main_c_237 main_v609 (addi : (⟨S_, .i32⟩ : BufTy).Contents (Elt F) → (⟨S_, .i32⟩ : BufTy).Contents (Elt F) → (⟨S_, .i32⟩ : BufTy).Contents (Elt F))
  :: StableHlo.nullary main_c_238 (constantI S_ 32 0#32)
  :: StableHlo.ternary main_v608 main_v609 main_c_238 main_v610 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v607, main_v610] ⟨S_, .i32⟩ main_v611 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v611 main_v612 rfl shapeCasts_S1x2_S2
  :: StableHlo.nullary main_c_239 (constantI S_ 32 0#32)
  :: StableHlo.binary main_v601 main_c_239 main_v613 (cmpi .slt : (⟨S_, .i32⟩ : BufTy).Contents (Elt F) → (⟨S_, .i32⟩ : BufTy).Contents (Elt F) → (⟨S_, .i1⟩ : BufTy).Contents (Elt F))
  :: StableHlo.nullary main_c_240 (constantI S_ 32 4194304#32)
  :: StableHlo.binary main_v601 main_c_240 main_v614 (addi : (⟨S_, .i32⟩ : BufTy).Contents (Elt F) → (⟨S_, .i32⟩ : BufTy).Contents (Elt F) → (⟨S_, .i32⟩ : BufTy).Contents (Elt F))
  :: StableHlo.ternary main_v613 main_v614 main_v601 main_v615 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_241 (constantI S_ 32 0#32)
  :: StableHlo.nullary main_c_242 (constantI S_ 32 0#32)
  :: StableHlo.binary main_c_241 main_c_242 main_v616 (cmpi .slt : (⟨S_, .i32⟩ : BufTy).Contents (Elt F) → (⟨S_, .i32⟩ : BufTy).Contents (Elt F) → (⟨S_, .i1⟩ : BufTy).Contents (Elt F))
  :: StableHlo.nullary main_c_243 (constantI S_ 32 0#32)
  :: StableHlo.nullary main_c_244 (constantI S_ 32 2#32)
  :: StableHlo.binary main_c_243 main_c_244 main_v617 (addi : (⟨S_, .i32⟩ : BufTy).Contents (Elt F) → (⟨S_, .i32⟩ : BufTy).Contents (Elt F) → (⟨S_, .i32⟩ : BufTy).Contents (Elt F))
  :: StableHlo.nullary main_c_245 (constantI S_ 32 0#32)
  :: StableHlo.ternary main_v616 main_v617 main_c_245 main_v618 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v615, main_v618] ⟨S_, .i32⟩ main_v619 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v619 main_v620 rfl shapeCasts_S1x2_S2
  :: StableHlo.binary main_v612 main_v620 main_v621 (addf : (⟨S2, .f32⟩ : BufTy).Contents (Elt F) → (⟨S2, .f32⟩ : BufTy).Contents (Elt F) → (⟨S2, .f32⟩ : BufTy).Contents (Elt F))
  :: StableHlo.nullary main_c_246 (constantI S_ 32 0#32)
  :: StableHlo.binary main_v604 main_c_246 main_v622 (cmpi .slt : (⟨S_, .i32⟩ : BufTy).Contents (Elt F) → (⟨S_, .i32⟩ : BufTy).Contents (Elt F) → (⟨S_, .i1⟩ : BufTy).Contents (Elt F))
  :: StableHlo.nullary main_c_247 (constantI S_ 32 4194304#32)
  :: StableHlo.binary main_v604 main_c_247 main_v623 (addi : (⟨S_, .i32⟩ : BufTy).Contents (Elt F) → (⟨S_, .i32⟩ : BufTy).Contents (Elt F) → (⟨S_, .i32⟩ : BufTy).Contents (Elt F))
  :: StableHlo.ternary main_v622 main_v623 main_v604 main_v624 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_248 (constantI S_ 32 0#32)
  :: StableHlo.nullary main_c_249 (constantI S_ 32 0#32)
  :: StableHlo.binary main_c_248 main_c_249 main_v625 (cmpi .slt : (⟨S_, .i32⟩ : BufTy).Contents (Elt F) → (⟨S_, .i32⟩ : BufTy).Contents (Elt F) → (⟨S_, .i1⟩ : BufTy).Contents (Elt F))
  :: StableHlo.nullary main_c_250 (constantI S_ 32 0#32)
  :: StableHlo.nullary main_c_251 (constantI S_ 32 2#32)
  :: StableHlo.binary main_c_250 main_c_251 main_v626 (addi : (⟨S_, .i32⟩ : BufTy).Contents (Elt F) → (⟨S_, .i32⟩ : BufTy).Contents (Elt F) → (⟨S_, .i32⟩ : BufTy).Contents (Elt F))
  :: StableHlo.nullary main_c_252 (constantI S_ 32 0#32)
  :: StableHlo.ternary main_v625 main_v626 main_c_252 main_v627 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v624, main_v627] ⟨S_, .i32⟩ main_v628 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v628 main_v629 rfl shapeCasts_S1x2_S2
  :: StableHlo.nullary main_cst_253 (constant S_ .f32 0xBF317218#32)
  :: StableHlo.unary main_cst_253 main_v630 (broadcastInDim S2 ![] bcast_S_S2 : (⟨S_, .f32⟩ : BufTy).Contents (Elt F) → (⟨S2, .f32⟩ : BufTy).Contents (Elt F))
  :: StableHlo.binary main_v629 main_v630 main_v631 (cmpf .ogt : (⟨S2, .f32⟩ : BufTy).Contents (Elt F) → (⟨S2, .f32⟩ : BufTy).Contents (Elt F) → (⟨S2, .i1⟩ : BufTy).Contents (Elt F))
  :: StableHlo.unary main_v629 main_v632 (Host.expm1 : (⟨S2, .f32⟩ : BufTy).Contents (Elt F) → (⟨S2, .f32⟩ : BufTy).Contents (Elt F))
  :: StableHlo.unary main_v632 main_v633 (Host.negf : (⟨S2, .f32⟩ : BufTy).Contents (Elt F) → (⟨S2, .f32⟩ : BufTy).Contents (Elt F))
  :: StableHlo.unary main_v633 main_v634 (Host.log : (⟨S2, .f32⟩ : BufTy).Contents (Elt F) → (⟨S2, .f32⟩ : BufTy).Contents (Elt F))
  :: StableHlo.unary main_v629 main_v635 (Host.exp : (⟨S2, .f32⟩ : BufTy).Contents (Elt F) → (⟨S2, .f32⟩ : BufTy).Contents (Elt F))
  :: StableHlo.unary main_v635 main_v636 (Host.negf : (⟨S2, .f32⟩ : BufTy).Contents (Elt F) → (⟨S2, .f32⟩ : BufTy).Contents (Elt F))
  :: StableHlo.unary main_v636 main_v637 (Host.log1p : (⟨S2, .f32⟩ : BufTy).Contents (Elt F) → (⟨S2, .f32⟩ : BufTy).Contents (Elt F))
  :: [] )
theorem main_part14_ops0_sub : (main_part14_ops0 : List (HloOp τ sig (Elt F))).Forall fun op => op.bufs ⊆ StableHlo.tcRefs τ sig :=
  ⟨StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call51), window 14 (statements 841 … 900), in order:
    main_v638 … main_v638. -/
abbrev main_part14_ops1 : List (HloOp τ sig (Elt F)) :=
  [ StableHlo.TRef.ternary (.of main_v631 : StableHlo.TRef sig ⟨S2, .i1⟩) (.of main_v634 : StableHlo.TRef sig ⟨S2, .f32⟩) (.of main_v637 : StableHlo.TRef sig ⟨S2, .f32⟩) (.of main_v638 : StableHlo.TRef sig ⟨S2, .f32⟩) select ]
theorem main_part14_ops1_sub : (main_part14_ops1 : List (HloOp τ sig (Elt F))).Forall fun op => op.bufs ⊆ StableHlo.tcRefs τ sig :=
  StableHlo.ternary_bufs_sub ..
/-- 5 host operations of @main, window 14 (statements 841 … 900), in order:
    main_v639 … main_v641. -/
abbrev main_part14_ops2 : List (HloOp τ sig (Elt F)) :=
  [ StableHlo.binary main_v621 main_v638 main_v639 (subf : (⟨S2, .f32⟩ : BufTy).Contents (Elt F) → (⟨S2, .f32⟩ : BufTy).Contents (Elt F) → (⟨S2, .f32⟩ : BufTy).Contents (Elt F)),
    StableHlo.nullary main_cst_254 (constant S_ .f32 0x00000000#32),
    StableHlo.binary main_v639 main_cst_254 main_v640 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_255 (constantI S_ 32 0#32),
    StableHlo.binary main_v595 main_c_255 main_v641 (cmpi .sgt : (⟨S_, .i32⟩ : BufTy).Contents (Elt F) → (⟨S_, .i32⟩ : BufTy).Contents (Elt F) → (⟨S_, .i1⟩ : BufTy).Contents (Elt F)) ]
theorem main_part14_ops2_sub : (main_part14_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub ..⟩
/-- Window 14's stretches, in order. -/
abbrev part14_opss : List (List (HloOp τ sig (Elt F))) :=
  [ main_part14_ops0,
    main_part14_ops1,
    main_part14_ops2 ]
theorem part14_opss_sub : (part14_opss : List (List (HloOp τ sig (Elt F)))).Forall fun l => l.Forall fun op => op.bufs ⊆ StableHlo.tcRefs τ sig :=
  ⟨main_part14_ops0_sub, main_part14_ops1_sub, main_part14_ops2_sub⟩

/-- 1 host operation of @main, window 15 (statements 901 … 960), in order:
    main_cst_256 … main_cst_256. -/
abbrev main_part15_ops0 : List (HloOp τ sig (Elt F)) :=
  [ StableHlo.nullary main_cst_256 (constant S_ .f32 0x00000000#32) ]
theorem main_part15_ops0_sub : (main_part15_ops0 : List (HloOp τ sig (Elt F))).Forall fun op => op.bufs ⊆ StableHlo.tcRefs τ sig :=
  StableHlo.nullary_bufs_sub ..
/-- 1 host operation of @_where_4 (main_call52), window 15 (statements 901 … 960), in order:
    main_v642 … main_v642. -/
abbrev main_part15_ops1 : List (HloOp τ sig (Elt F)) :=
  [ StableHlo.TRef.ternary (.of main_v641 : StableHlo.TRef sig ⟨S_, .i1⟩) (.of main_v640 : StableHlo.TRef sig ⟨S_, .f32⟩) (.of main_cst_256 : StableHlo.TRef sig ⟨S_, .f32⟩) (.of main_v642 : StableHlo.TRef sig ⟨S_, .f32⟩) select ]
theorem main_part15_ops1_sub : (main_part15_ops1 : List (HloOp τ sig (Elt F))).Forall fun op => op.bufs ⊆ StableHlo.tcRefs τ sig :=
  StableHlo.ternary_bufs_sub ..
/-- 13 host operations of @main, window 15 (statements 901 … 960), in order:
    main_v643 … main_v652. -/
abbrev main_part15_ops2 : List (HloOp τ sig (Elt F)) :=
  [ StableHlo.binary main_v583 main_v642 main_v643 (subf : (⟨S_, .f32⟩ : BufTy).Contents (Elt F) → (⟨S_, .f32⟩ : BufTy).Contents (Elt F) → (⟨S_, .f32⟩ : BufTy).Contents (Elt F)),
    StableHlo.nullary main_c_257 (constantI S_ 32 1#32),
    StableHlo.unary main_c_257 main_v644 (broadcastInDim S4194304 ![] bcast_S_S4194304 : (⟨S_, .i32⟩ : BufTy).Contents (Elt F) → (⟨S4194304, .i32⟩ : BufTy).Contents (Elt F)),
    StableHlo.binary main_v25 main_v644 main_v645 (cmpi .eq : (⟨S4194304, .i32⟩ : BufTy).Contents (Elt F) → (⟨S4194304, .i32⟩ : BufTy).Contents (Elt F) → (⟨S4194304, .i1⟩ : BufTy).Contents (Elt F)),
    StableHlo.nullary main_c_258 (constantI S_ 32 5#32),
    StableHlo.unary main_c_258 main_v646 (broadcastInDim S4194304 ![] bcast_S_S4194304 : (⟨S_, .i32⟩ : BufTy).Contents (Elt F) → (⟨S4194304, .i32⟩ : BufTy).Contents (Elt F)),
    StableHlo.binary main_v51 main_v646 main_v647 (cmpi .eq : (⟨S4194304, .i32⟩ : BufTy).Contents (Elt F) → (⟨S4194304, .i32⟩ : BufTy).Contents (Elt F) → (⟨S4194304, .i1⟩ : BufTy).Contents (Elt F)),
    StableHlo.binary main_v645 main_v647 main_v648 (andi : (⟨S4194304, .i1⟩ : BufTy).Contents (Elt F) → (⟨S4194304, .i1⟩ : BufTy).Contents (Elt F) → (⟨S4194304, .i1⟩ : BufTy).Contents (Elt F)),
    StableHlo.nullary main_c_259 (constantI S_ 32 2#32),
    StableHlo.unary main_c_259 main_v649 (broadcastInDim S4194304 ![] bcast_S_S4194304 : (⟨S_, .i32⟩ : BufTy).Contents (Elt F) → (⟨S4194304, .i32⟩ : BufTy).Contents (Elt F)),
    StableHlo.binary main_v77 main_v649 main_v650 (cmpi .eq : (⟨S4194304, .i32⟩ : BufTy).Contents (Elt F) → (⟨S4194304, .i32⟩ : BufTy).Contents (Elt F) → (⟨S4194304, .i1⟩ : BufTy).Contents (Elt F)),
    StableHlo.binary main_v648 main_v650 main_v651 (andi : (⟨S4194304, .i1⟩ : BufTy).Contents (Elt F) → (⟨S4194304, .i1⟩ : BufTy).Contents (Elt F) → (⟨S4194304, .i1⟩ : BufTy).Contents (Elt F)),
    StableHlo.unary main_v651 main_v652 ((extui 32 · natLt_1_32) : (⟨S4194304, .i1⟩ : BufTy).Contents (Elt F) → (⟨S4194304, .i32⟩ : BufTy).Contents (Elt F)) ]
theorem main_part15_ops2_sub : (main_part15_ops2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call53), window 15 (statements 901 … 960), in order:
    main_call53_call0_c … main_v653. -/
abbrev main_part15_ops3 : List (HloOp τ sig (Elt F)) :=
  [ StableHlo.TRef.nullary (.of main_call53_call0_c : StableHlo.TRef sig ⟨S_, .i32⟩) (constantI S_ 32 0#32),
    StableHlo.TRef.unary (.of main_call53_call0_c : StableHlo.TRef sig ⟨S_, .i32⟩) (.of main_call53_call0_v0 : StableHlo.TRef sig ⟨S_, .i32⟩) (broadcastInDim S_ ![] bcast_S_S_),
    StableHlo.TRef.binary (.of main_v652 : StableHlo.TRef sig ⟨S4194304, .i32⟩) (.of main_call53_call0_v0 : StableHlo.TRef sig ⟨S_, .i32⟩) (.of main_v653 : StableHlo.TRef sig ⟨S4194304, .i32⟩) (fun x v => Host.reduceWindow IntOp.addi ![4194304] ![1] ![4194303] ![0] x v reduceWindows_S4194304_S4194304_w4194304s1p4194303_0 h_S_) ]
theorem main_part15_ops3_sub : (main_part15_ops3 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 15 (statements 901 … 960), in order:
    main_v654 … main_v657. -/
abbrev main_part15_ops4 : List (HloOp τ sig (Elt F)) :=
  [ StableHlo.unary main_v653 main_v654 ((extractStridedSlice S1 ![4194303] · slices_S4194304_S1_4194303) : (⟨S4194304, .i32⟩ : BufTy).Contents (Elt F) → (⟨S1, .i32⟩ : BufTy).Contents (Elt F)),
    StableHlo.reshape main_v654 main_v655 rfl shapeCasts_S1_S_,
    StableHlo.nullary main_c_260 (constantI S_ 32 1#32),
    StableHlo.unary main_c_260 main_v656 (broadcastInDim S4194304 ![] bcast_S_S4194304 : (⟨S_, .i32⟩ : BufTy).Contents (Elt F) → (⟨S4194304, .i32⟩ : BufTy).Contents (Elt F)),
    StableHlo.binary main_v653 main_v656 main_v657 (cmpi .eq : (⟨S4194304, .i32⟩ : BufTy).Contents (Elt F) → (⟨S4194304, .i32⟩ : BufTy).Contents (Elt F) → (⟨S4194304, .i1⟩ : BufTy).Contents (Elt F)) ]
theorem main_part15_ops4_sub : (main_part15_ops4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call54), window 15 (statements 901 … 960), in order:
    main_call54_v0 … main_v658. -/
abbrev main_part15_ops5 : List (HloOp τ sig (Elt F)) :=
  [ StableHlo.TRef.nullary (.of main_call54_v0 : StableHlo.TRef sig ⟨S4194304, .i32⟩) (iotaInDim S4194304 32 0),
    StableHlo.TRef.nullary (.of main_call54_c : StableHlo.TRef sig ⟨S_, .i1⟩) (constantI S_ 1 0#1),
    StableHlo.TRef.nullary (.of main_call54_c_0 : StableHlo.TRef sig ⟨S_, .i32⟩) (constantI S_ 32 0#32),
    StableHlo.TRef.quaternary (.of main_v657 : StableHlo.TRef sig ⟨S4194304, .i1⟩) (.of main_call54_v0 : StableHlo.TRef sig ⟨S4194304, .i32⟩) (.of main_call54_c : StableHlo.TRef sig ⟨S_, .i1⟩) (.of main_call54_c_0 : StableHlo.TRef sig ⟨S_, .i32⟩) (.of main_call54_v1_0 : StableHlo.TRef sig ⟨S_, .i1⟩) (fun x y u v j => (Host.reduce2 reducer_argmax_i1_i32 x y u v reducesTo_S4194304_S_d0 h_S_ j).1),
    StableHlo.TRef.quaternary (.of main_v657 : StableHlo.TRef sig ⟨S4194304, .i1⟩) (.of main_call54_v0 : StableHlo.TRef sig ⟨S4194304, .i32⟩) (.of main_call54_c : StableHlo.TRef sig ⟨S_, .i1⟩) (.of main_call54_c_0 : StableHlo.TRef sig ⟨S_, .i32⟩) (.of main_v658 : StableHlo.TRef sig ⟨S_, .i32⟩) (fun x y u v j => (Host.reduce2 reducer_argmax_i1_i32 x y u v reducesTo_S4194304_S_d0 h_S_ j).2) ]
theorem main_part15_ops5_sub : (main_part15_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 15 (statements 901 … 960), in order:
    main_c_261 … main_v660. -/
abbrev main_part15_ops6 : List (HloOp τ sig (Elt F)) :=
  [ StableHlo.nullary main_c_261 (constantI S_ 32 2#32),
    StableHlo.unary main_c_261 main_v659 (broadcastInDim S4194304 ![] bcast_S_S4194304 : (⟨S_, .i32⟩ : BufTy).Contents (Elt F) → (⟨S4194304, .i32⟩ : BufTy).Contents (Elt F)),
    StableHlo.binary main_v653 main_v659 main_v660 (cmpi .eq : (⟨S4194304, .i32⟩ : BufTy).Contents (Elt F) → (⟨S4194304, .i32⟩ : BufTy).Contents (Elt F) → (⟨S4194304, .i1⟩ : BufTy).Contents (Elt F)) ]
theorem main_part15_ops6_sub : (main_part15_ops6 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call55), window 15 (statements 901 … 960), in order:
    main_call55_v0 … main_v661. -/
abbrev main_part15_ops7 : List (HloOp τ sig (Elt F)) :=
  [ StableHlo.TRef.nullary (.of main_call55_v0 : StableHlo.TRef sig ⟨S4194304, .i32⟩) (iotaInDim S4194304 32 0),
    StableHlo.TRef.nullary (.of main_call55_c : StableHlo.TRef sig ⟨S_, .i1⟩) (constantI S_ 1 0#1),
    StableHlo.TRef.nullary (.of main_call55_c_0 : StableHlo.TRef sig ⟨S_, .i32⟩) (constantI S_ 32 0#32),
    StableHlo.TRef.quaternary (.of main_v660 : StableHlo.TRef sig ⟨S4194304, .i1⟩) (.of main_call55_v0 : StableHlo.TRef sig ⟨S4194304, .i32⟩) (.of main_call55_c : StableHlo.TRef sig ⟨S_, .i1⟩) (.of main_call55_c_0 : StableHlo.TRef sig ⟨S_, .i32⟩) (.of main_call55_v1_0 : StableHlo.TRef sig ⟨S_, .i1⟩) (fun x y u v j => (Host.reduce2 reducer_argmax_i1_i32 x y u v reducesTo_S4194304_S_d0 h_S_ j).1),
    StableHlo.TRef.quaternary (.of main_v660 : StableHlo.TRef sig ⟨S4194304, .i1⟩) (.of main_call55_v0 : StableHlo.TRef sig ⟨S4194304, .i32⟩) (.of main_call55_c : StableHlo.TRef sig ⟨S_, .i1⟩) (.of main_call55_c_0 : StableHlo.TRef sig ⟨S_, .i32⟩) (.of main_v661 : StableHlo.TRef sig ⟨S_, .i32⟩) (fun x y u v j => (Host.reduce2 reducer_argmax_i1_i32 x y u v reducesTo_S4194304_S_d0 h_S_ j).2) ]
theorem main_part15_ops7_sub : (main_part15_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 15 (statements 901 … 960), in order:
    main_c_262 … main_v663. -/
abbrev main_part15_ops8 : List (HloOp τ sig (Elt F)) :=
  [ StableHlo.nullary main_c_262 (constantI S_ 32 1#32),
    StableHlo.unary main_c_262 main_v662 (broadcastInDim S4194304 ![] bcast_S_S4194304 : (⟨S_, .i32⟩ : BufTy).Contents (Elt F) → (⟨S4194304, .i32⟩ : BufTy).Contents (Elt F)),
    StableHlo.binary main_v653 main_v662 main_v663 (cmpi .eq : (⟨S4194304, .i32⟩ : BufTy).Contents (Elt F) → (⟨S4194304, .i32⟩ : BufTy).Contents (Elt F) → (⟨S4194304, .i1⟩ : BufTy).Contents (Elt F)) ]
theorem main_part15_ops8_sub : (main_part15_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call56), window 15 (statements 901 … 960), in order:
    main_call56_v0 … main_v664. -/
abbrev main_part15_ops9 : List (HloOp τ sig (Elt F)) :=
  [ StableHlo.TRef.nullary (.of main_call56_v0 : StableHlo.TRef sig ⟨S4194304, .i32⟩) (iotaInDim S4194304 32 0),
    StableHlo.TRef.nullary (.of main_call56_c : StableHlo.TRef sig ⟨S_, .i1⟩) (constantI S_ 1 0#1),
    StableHlo.TRef.nullary (.of main_call56_c_0 : StableHlo.TRef sig ⟨S_, .i32⟩) (constantI S_ 32 0#32),
    StableHlo.TRef.quaternary (.of main_v663 : StableHlo.TRef sig ⟨S4194304, .i1⟩) (.of main_call56_v0 : StableHlo.TRef sig ⟨S4194304, .i32⟩) (.of main_call56_c : StableHlo.TRef sig ⟨S_, .i1⟩) (.of main_call56_c_0 : StableHlo.TRef sig ⟨S_, .i32⟩) (.of main_call56_v1_0 : StableHlo.TRef sig ⟨S_, .i1⟩) (fun x y u v j => (Host.reduce2 reducer_argmax_i1_i32 x y u v reducesTo_S4194304_S_d0 h_S_ j).1),
    StableHlo.TRef.quaternary (.of main_v663 : StableHlo.TRef sig ⟨S4194304, .i1⟩) (.of main_call56_v0 : StableHlo.TRef sig ⟨S4194304, .i32⟩) (.of main_call56_c : StableHlo.TRef sig ⟨S_, .i1⟩) (.of main_call56_c_0 : StableHlo.TRef sig ⟨S_, .i32⟩) (.of main_v664 : StableHlo.TRef sig ⟨S_, .i32⟩) (fun x y u v j => (Host.reduce2 reducer_argmax_i1_i32 x y u v reducesTo_S4194304_S_d0 h_S_ j).2) ]
theorem main_part15_ops9_sub : (main_part15_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 30 host operations of @main, window 15 (statements 901 … 960), in order:
    main_c_263 … main_v680. -/
abbrev main_part15_ops10 : List (HloOp τ sig (Elt F)) :=
  [ StableHlo.nullary main_c_263 (constantI S_ 32 0#32),
    StableHlo.binary main_v658 main_c_263 main_v665 (cmpi .slt : (⟨S_, .i32⟩ : BufTy).Contents (Elt F) → (⟨S_, .i32⟩ : BufTy).Contents (Elt F) → (⟨S_, .i1⟩ : BufTy).Contents (Elt F)),
    StableHlo.nullary main_c_264 (constantI S_ 32 4194304#32),
    StableHlo.binary main_v658 main_c_264 main_v666 (addi : (⟨S_, .i32⟩ : BufTy).Contents (Elt F) → (⟨S_, .i32⟩ : BufTy).Contents (Elt F) → (⟨S_, .i32⟩ : BufTy).Contents (Elt F)),
    StableHlo.ternary main_v665 main_v666 main_v658 main_v667 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_265 (constantI S_ 32 0#32),
    StableHlo.nullary main_c_266 (constantI S_ 32 0#32),
    StableHlo.binary main_c_265 main_c_266 main_v668 (cmpi .slt : (⟨S_, .i32⟩ : BufTy).Contents (Elt F) → (⟨S_, .i32⟩ : BufTy).Contents (Elt F) → (⟨S_, .i1⟩ : BufTy).Contents (Elt F)),
    StableHlo.nullary main_c_267 (constantI S_ 32 0#32),
    StableHlo.nullary main_c_268 (constantI S_ 32 2#32),
    StableHlo.binary main_c_267 main_c_268 main_v669 (addi : (⟨S_, .i32⟩ : BufTy).Contents (Elt F) → (⟨S_, .i32⟩ : BufTy).Contents (Elt F) → (⟨S_, .i32⟩ : BufTy).Contents (Elt F)),
    StableHlo.nullary main_c_269 (constantI S_ 32 0#32),
    StableHlo.ternary main_v668 main_v669 main_c_269 main_v670 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v667, main_v670] ⟨S_, .i32⟩ main_v671 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v671 main_v672 rfl shapeCasts_S1x2_S2,
    StableHlo.nullary main_c_270 (constantI S_ 32 0#32),
    StableHlo.binary main_v661 main_c_270 main_v673 (cmpi .slt : (⟨S_, .i32⟩ : BufTy).Contents (Elt F) → (⟨S_, .i32⟩ : BufTy).Contents (Elt F) → (⟨S_, .i1⟩ : BufTy).Contents (Elt F)),
    StableHlo.nullary main_c_271 (constantI S_ 32 4194304#32),
    StableHlo.binary main_v661 main_c_271 main_v674 (addi : (⟨S_, .i32⟩ : BufTy).Contents (Elt F) → (⟨S_, .i32⟩ : BufTy).Contents (Elt F) → (⟨S_, .i32⟩ : BufTy).Contents (Elt F)),
    StableHlo.ternary main_v673 main_v674 main_v661 main_v675 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_272 (constantI S_ 32 0#32),
    StableHlo.nullary main_c_273 (constantI S_ 32 0#32),
    StableHlo.binary main_c_272 main_c_273 main_v676 (cmpi .slt : (⟨S_, .i32⟩ : BufTy).Contents (Elt F) → (⟨S_, .i32⟩ : BufTy).Contents (Elt F) → (⟨S_, .i1⟩ : BufTy).Contents (Elt F)),
    StableHlo.nullary main_c_274 (constantI S_ 32 0#32),
    StableHlo.nullary main_c_275 (constantI S_ 32 2#32),
    StableHlo.binary main_c_274 main_c_275 main_v677 (addi : (⟨S_, .i32⟩ : BufTy).Contents (Elt F) → (⟨S_, .i32⟩ : BufTy).Contents (Elt F) → (⟨S_, .i32⟩ : BufTy).Contents (Elt F)),
    StableHlo.nullary main_c_276 (constantI S_ 32 0#32),
    StableHlo.ternary main_v676 main_v677 main_c_276 main_v678 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg1 ![main_v675, main_v678] ⟨S_, .i32⟩ main_v679 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v679 main_v680 rfl shapeCasts_S1x2_S2 ]
theorem main_part15_ops10_sub : (main_part15_ops10 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub ..⟩
/-- Window 15's stretches, in order. -/
abbrev part15_opss : List (List (HloOp τ sig (Elt F))) :=
  [ main_part15_ops0,
    main_part15_ops1,
    main_part15_ops2,
    main_part15_ops3,
    main_part15_ops4,
    main_part15_ops5,
    main_part15_ops6,
    main_part15_ops7,
    main_part15_ops8,
    main_part15_ops9,
    main_part15_ops10 ]
theorem part15_opss_sub : (part15_opss : List (List (HloOp τ sig (Elt F)))).Forall fun l => l.Forall fun op => op.bufs ⊆ StableHlo.tcRefs τ sig :=
  ⟨main_part15_ops0_sub, main_part15_ops1_sub, main_part15_ops2_sub, main_part15_ops3_sub, main_part15_ops4_sub, main_part15_ops5_sub, main_part15_ops6_sub, main_part15_ops7_sub, main_part15_ops8_sub, main_part15_ops9_sub, main_part15_ops10_sub⟩

end Cert.ReferenceIdeal.Rn

end
-- ==== Proof.Rf.Ops4.lean ====
/- The reference's @main as operation lists: windows 16 … 19 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 25 host operations of @main, window 16 (statements 961 … 1020), in order:
    main_v681 … main_v697. -/
abbrev main_part16_ops0 : List (HloOp τ sig (Elt F)) :=
  [ StableHlo.binary main_v672 main_v680 main_v681 (addf : (⟨S2, .f32⟩ : BufTy).Contents (Elt F) → (⟨S2, .f32⟩ : BufTy).Contents (Elt F) → (⟨S2, .f32⟩ : BufTy).Contents (Elt F)),
    StableHlo.nullary main_c_277 (constantI S_ 32 0#32),
    StableHlo.binary main_v664 main_c_277 main_v682 (cmpi .slt : (⟨S_, .i32⟩ : BufTy).Contents (Elt F) → (⟨S_, .i32⟩ : BufTy).Contents (Elt F) → (⟨S_, .i1⟩ : BufTy).Contents (Elt F)),
    StableHlo.nullary main_c_278 (constantI S_ 32 4194304#32),
    StableHlo.binary main_v664 main_c_278 main_v683 (addi : (⟨S_, .i32⟩ : BufTy).Contents (Elt F) → (⟨S_, .i32⟩ : BufTy).Contents (Elt F) → (⟨S_, .i32⟩ : BufTy).Contents (Elt F)),
    StableHlo.ternary main_v682 main_v683 main_v664 main_v684 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_279 (constantI S_ 32 0#32),
    StableHlo.nullary main_c_280 (constantI S_ 32 0#32),
    StableHlo.binary main_c_279 main_c_280 main_v685 (cmpi .slt : (⟨S_, .i32⟩ : BufTy).Contents (Elt F) → (⟨S_, .i32⟩ : BufTy).Contents (Elt F) → (⟨S_, .i1⟩ : BufTy).Contents (Elt F)),
    StableHlo.nullary main_c_281 (constantI S_ 32 0#32),
    StableHlo.nullary main_c_282 (constantI S_ 32 2#32),
    StableHlo.binary main_c_281 main_c_282 main_v686 (addi : (⟨S_, .i32⟩ : BufTy).Contents (Elt F) → (⟨S_, .i32⟩ : BufTy).Contents (Elt F) → (⟨S_, .i32⟩ : BufTy).Contents (Elt F)),
    StableHlo.nullary main_c_283 (constantI S_ 32 0#32),
    StableHlo.ternary main_v685 main_v686 main_c_283 main_v687 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v684, main_v687] ⟨S_, .i32⟩ main_v688 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v688 main_v689 rfl shapeCasts_S1x2_S2,
    StableHlo.nullary main_cst_284 (constant S_ .f32 0xBF317218#32),
    StableHlo.unary main_cst_284 main_v690 (broadcastInDim S2 ![] bcast_S_S2 : (⟨S_, .f32⟩ : BufTy).Contents (Elt F) → (⟨S2, .f32⟩ : BufTy).Contents (Elt F)),
    StableHlo.binary main_v689 main_v690 main_v691 (cmpf .ogt : (⟨S2, .f32⟩ : BufTy).Contents (Elt F) → (⟨S2, .f32⟩ : BufTy).Contents (Elt F) → (⟨S2, .i1⟩ : BufTy).Contents (Elt F)),
    StableHlo.unary main_v689 main_v692 (Host.expm1 : (⟨S2, .f32⟩ : BufTy).Contents (Elt F) → (⟨S2, .f32⟩ : BufTy).Contents (Elt F)),
    StableHlo.unary main_v692 main_v693 (Host.negf : (⟨S2, .f32⟩ : BufTy).Contents (Elt F) → (⟨S2, .f32⟩ : BufTy).Contents (Elt F)),
    StableHlo.unary main_v693 main_v694 (Host.log : (⟨S2, .f32⟩ : BufTy).Contents (Elt F) → (⟨S2, .f32⟩ : BufTy).Contents (Elt F)),
    StableHlo.unary main_v689 main_v695 (Host.exp : (⟨S2, .f32⟩ : BufTy).Contents (Elt F) → (⟨S2, .f32⟩ : BufTy).Contents (Elt F)),
    StableHlo.unary main_v695 main_v696 (Host.negf : (⟨S2, .f32⟩ : BufTy).Contents (Elt F) → (⟨S2, .f32⟩ : BufTy).Contents (Elt F)),
    StableHlo.unary main_v696 main_v697 (Host.log1p : (⟨S2, .f32⟩ : BufTy).Contents (Elt F) → (⟨S2, .f32⟩ : BufTy).Contents (Elt F)) ]
theorem main_part16_ops0_sub : (main_part16_ops0 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call57), window 16 (statements 961 … 1020), in order:
    main_v698 … main_v698. -/
abbrev main_part16_ops1 : List (HloOp τ sig (Elt F)) :=
  [ StableHlo.TRef.ternary (.of main_v691 : StableHlo.TRef sig ⟨S2, .i1⟩) (.of main_v694 : StableHlo.TRef sig ⟨S2, .f32⟩) (.of main_v697 : StableHlo.TRef sig ⟨S2, .f32⟩) (.of main_v698 : StableHlo.TRef sig ⟨S2, .f32⟩) select ]
theorem main_part16_ops1_sub : (main_part16_ops1 : List (HloOp τ sig (Elt F))).Forall fun op => op.bufs ⊆ StableHlo.tcRefs τ sig :=
  StableHlo.ternary_bufs_sub ..
/-- 6 host operations of @main, window 16 (statements 961 … 1020), in order:
    main_v699 … main_cst_287. -/
abbrev main_part16_ops2 : List (HloOp τ sig (Elt F)) :=
  [ StableHlo.binary main_v681 main_v698 main_v699 (subf : (⟨S2, .f32⟩ : BufTy).Contents (Elt F) → (⟨S2, .f32⟩ : BufTy).Contents (Elt F) → (⟨S2, .f32⟩ : BufTy).Contents (Elt F)),
    StableHlo.nullary main_cst_285 (constant S_ .f32 0x00000000#32),
    StableHlo.binary main_v699 main_cst_285 main_v700 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_286 (constantI S_ 32 0#32),
    StableHlo.binary main_v655 main_c_286 main_v701 (cmpi .sgt : (⟨S_, .i32⟩ : BufTy).Contents (Elt F) → (⟨S_, .i32⟩ : BufTy).Contents (Elt F) → (⟨S_, .i1⟩ : BufTy).Contents (Elt F)),
    StableHlo.nullary main_cst_287 (constant S_ .f32 0x00000000#32) ]
theorem main_part16_ops2_sub : (main_part16_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call58), window 16 (statements 961 … 1020), in order:
    main_v702 … main_v702. -/
abbrev main_part16_ops3 : List (HloOp τ sig (Elt F)) :=
  [ StableHlo.TRef.ternary (.of main_v701 : StableHlo.TRef sig ⟨S_, .i1⟩) (.of main_v700 : StableHlo.TRef sig ⟨S_, .f32⟩) (.of main_cst_287 : StableHlo.TRef sig ⟨S_, .f32⟩) (.of main_v702 : StableHlo.TRef sig ⟨S_, .f32⟩) select ]
theorem main_part16_ops3_sub : (main_part16_ops3 : List (HloOp τ sig (Elt F))).Forall fun op => op.bufs ⊆ StableHlo.tcRefs τ sig :=
  StableHlo.ternary_bufs_sub ..
/-- 13 host operations of @main, window 16 (statements 961 … 1020), in order:
    main_v703 … main_v712. -/
abbrev main_part16_ops4 : List (HloOp τ sig (Elt F)) :=
  [ StableHlo.binary main_v643 main_v702 main_v703 (subf : (⟨S_, .f32⟩ : BufTy).Contents (Elt F) → (⟨S_, .f32⟩ : BufTy).Contents (Elt F) → (⟨S_, .f32⟩ : BufTy).Contents (Elt F)),
    StableHlo.nullary main_c_288 (constantI S_ 32 1#32),
    StableHlo.unary main_c_288 main_v704 (broadcastInDim S4194304 ![] bcast_S_S4194304 : (⟨S_, .i32⟩ : BufTy).Contents (Elt F) → (⟨S4194304, .i32⟩ : BufTy).Contents (Elt F)),
    StableHlo.binary main_v25 main_v704 main_v705 (cmpi .eq : (⟨S4194304, .i32⟩ : BufTy).Contents (Elt F) → (⟨S4194304, .i32⟩ : BufTy).Contents (Elt F) → (⟨S4194304, .i1⟩ : BufTy).Contents (Elt F)),
    StableHlo.nullary main_c_289 (constantI S_ 32 6#32),
    StableHlo.unary main_c_289 main_v706 (broadcastInDim S4194304 ![] bcast_S_S4194304 : (⟨S_, .i32⟩ : BufTy).Contents (Elt F) → (⟨S4194304, .i32⟩ : BufTy).Contents (Elt F)),
    StableHlo.binary main_v51 main_v706 main_v707 (cmpi .eq : (⟨S4194304, .i32⟩ : BufTy).Contents (Elt F) → (⟨S4194304, .i32⟩ : BufTy).Contents (Elt F) → (⟨S4194304, .i1⟩ : BufTy).Contents (Elt F)),
    StableHlo.binary main_v705 main_v707 main_v708 (andi : (⟨S4194304, .i1⟩ : BufTy).Contents (Elt F) → (⟨S4194304, .i1⟩ : BufTy).Contents (Elt F) → (⟨S4194304, .i1⟩ : BufTy).Contents (Elt F)),
    StableHlo.nullary main_c_290 (constantI S_ 32 0#32),
    StableHlo.unary main_c_290 main_v709 (broadcastInDim S4194304 ![] bcast_S_S4194304 : (⟨S_, .i32⟩ : BufTy).Contents (Elt F) → (⟨S4194304, .i32⟩ : BufTy).Contents (Elt F)),
    StableHlo.binary main_v77 main_v709 main_v710 (cmpi .eq : (⟨S4194304, .i32⟩ : BufTy).Contents (Elt F) → (⟨S4194304, .i32⟩ : BufTy).Contents (Elt F) → (⟨S4194304, .i1⟩ : BufTy).Contents (Elt F)),
    StableHlo.binary main_v708 main_v710 main_v711 (andi : (⟨S4194304, .i1⟩ : BufTy).Contents (Elt F) → (⟨S4194304, .i1⟩ : BufTy).Contents (Elt F) → (⟨S4194304, .i1⟩ : BufTy).Contents (Elt F)),
    StableHlo.unary main_v711 main_v712 ((extui 32 · natLt_1_32) : (⟨S4194304, .i1⟩ : BufTy).Contents (Elt F) → (⟨S4194304, .i32⟩ : BufTy).Contents (Elt F)) ]
theorem main_part16_ops4_sub : (main_part16_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call59), window 16 (statements 961 … 1020), in order:
    main_call59_call0_c … main_v713. -/
abbrev main_part16_ops5 : List (HloOp τ sig (Elt F)) :=
  [ StableHlo.TRef.nullary (.of main_call59_call0_c : StableHlo.TRef sig ⟨S_, .i32⟩) (constantI S_ 32 0#32),
    StableHlo.TRef.unary (.of main_call59_call0_c : StableHlo.TRef sig ⟨S_, .i32⟩) (.of main_call59_call0_v0 : StableHlo.TRef sig ⟨S_, .i32⟩) (broadcastInDim S_ ![] bcast_S_S_),
    StableHlo.TRef.binary (.of main_v712 : StableHlo.TRef sig ⟨S4194304, .i32⟩) (.of main_call59_call0_v0 : StableHlo.TRef sig ⟨S_, .i32⟩) (.of main_v713 : StableHlo.TRef sig ⟨S4194304, .i32⟩) (fun x v => Host.reduceWindow IntOp.addi ![4194304] ![1] ![4194303] ![0] x v reduceWindows_S4194304_S4194304_w4194304s1p4194303_0 h_S_) ]
theorem main_part16_ops5_sub : (main_part16_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 16 (statements 961 … 1020), in order:
    main_v714 … main_v717. -/
abbrev main_part16_ops6 : List (HloOp τ sig (Elt F)) :=
  [ StableHlo.unary main_v713 main_v714 ((extractStridedSlice S1 ![4194303] · slices_S4194304_S1_4194303) : (⟨S4194304, .i32⟩ : BufTy).Contents (Elt F) → (⟨S1, .i32⟩ : BufTy).Contents (Elt F)),
    StableHlo.reshape main_v714 main_v715 rfl shapeCasts_S1_S_,
    StableHlo.nullary main_c_291 (constantI S_ 32 1#32),
    StableHlo.unary main_c_291 main_v716 (broadcastInDim S4194304 ![] bcast_S_S4194304 : (⟨S_, .i32⟩ : BufTy).Contents (Elt F) → (⟨S4194304, .i32⟩ : BufTy).Contents (Elt F)),
    StableHlo.binary main_v713 main_v716 main_v717 (cmpi .eq : (⟨S4194304, .i32⟩ : BufTy).Contents (Elt F) → (⟨S4194304, .i32⟩ : BufTy).Contents (Elt F) → (⟨S4194304, .i1⟩ : BufTy).Contents (Elt F)) ]
theorem main_part16_ops6_sub : (main_part16_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call60), window 16 (statements 961 … 1020), in order:
    main_call60_v0 … main_v718. -/
abbrev main_part16_ops7 : List (HloOp τ sig (Elt F)) :=
  [ StableHlo.TRef.nullary (.of main_call60_v0 : StableHlo.TRef sig ⟨S4194304, .i32⟩) (iotaInDim S4194304 32 0),
    StableHlo.TRef.nullary (.of main_call60_c : StableHlo.TRef sig ⟨S_, .i1⟩) (constantI S_ 1 0#1),
    StableHlo.TRef.nullary (.of main_call60_c_0 : StableHlo.TRef sig ⟨S_, .i32⟩) (constantI S_ 32 0#32),
    StableHlo.TRef.quaternary (.of main_v717 : StableHlo.TRef sig ⟨S4194304, .i1⟩) (.of main_call60_v0 : StableHlo.TRef sig ⟨S4194304, .i32⟩) (.of main_call60_c : StableHlo.TRef sig ⟨S_, .i1⟩) (.of main_call60_c_0 : StableHlo.TRef sig ⟨S_, .i32⟩) (.of main_call60_v1_0 : StableHlo.TRef sig ⟨S_, .i1⟩) (fun x y u v j => (Host.reduce2 reducer_argmax_i1_i32 x y u v reducesTo_S4194304_S_d0 h_S_ j).1),
    StableHlo.TRef.quaternary (.of main_v717 : StableHlo.TRef sig ⟨S4194304, .i1⟩) (.of main_call60_v0 : StableHlo.TRef sig ⟨S4194304, .i32⟩) (.of main_call60_c : StableHlo.TRef sig ⟨S_, .i1⟩) (.of main_call60_c_0 : StableHlo.TRef sig ⟨S_, .i32⟩) (.of main_v718 : StableHlo.TRef sig ⟨S_, .i32⟩) (fun x y u v j => (Host.reduce2 reducer_argmax_i1_i32 x y u v reducesTo_S4194304_S_d0 h_S_ j).2) ]
theorem main_part16_ops7_sub : (main_part16_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 16 (statements 961 … 1020), in order:
    main_c_292 … main_v720. -/
abbrev main_part16_ops8 : List (HloOp τ sig (Elt F)) :=
  [ StableHlo.nullary main_c_292 (constantI S_ 32 2#32),
    StableHlo.unary main_c_292 main_v719 (broadcastInDim S4194304 ![] bcast_S_S4194304 : (⟨S_, .i32⟩ : BufTy).Contents (Elt F) → (⟨S4194304, .i32⟩ : BufTy).Contents (Elt F)),
    StableHlo.binary main_v713 main_v719 main_v720 (cmpi .eq : (⟨S4194304, .i32⟩ : BufTy).Contents (Elt F) → (⟨S4194304, .i32⟩ : BufTy).Contents (Elt F) → (⟨S4194304, .i1⟩ : BufTy).Contents (Elt F)) ]
theorem main_part16_ops8_sub : (main_part16_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call61), window 16 (statements 961 … 1020), in order:
    main_call61_v0 … main_v721. -/
abbrev main_part16_ops9 : List (HloOp τ sig (Elt F)) :=
  [ StableHlo.TRef.nullary (.of main_call61_v0 : StableHlo.TRef sig ⟨S4194304, .i32⟩) (iotaInDim S4194304 32 0),
    StableHlo.TRef.nullary (.of main_call61_c : StableHlo.TRef sig ⟨S_, .i1⟩) (constantI S_ 1 0#1),
    StableHlo.TRef.nullary (.of main_call61_c_0 : StableHlo.TRef sig ⟨S_, .i32⟩) (constantI S_ 32 0#32),
    StableHlo.TRef.quaternary (.of main_v720 : StableHlo.TRef sig ⟨S4194304, .i1⟩) (.of main_call61_v0 : StableHlo.TRef sig ⟨S4194304, .i32⟩) (.of main_call61_c : StableHlo.TRef sig ⟨S_, .i1⟩) (.of main_call61_c_0 : StableHlo.TRef sig ⟨S_, .i32⟩) (.of main_call61_v1_0 : StableHlo.TRef sig ⟨S_, .i1⟩) (fun x y u v j => (Host.reduce2 reducer_argmax_i1_i32 x y u v reducesTo_S4194304_S_d0 h_S_ j).1),
    StableHlo.TRef.quaternary (.of main_v720 : StableHlo.TRef sig ⟨S4194304, .i1⟩) (.of main_call61_v0 : StableHlo.TRef sig ⟨S4194304, .i32⟩) (.of main_call61_c : StableHlo.TRef sig ⟨S_, .i1⟩) (.of main_call61_c_0 : StableHlo.TRef sig ⟨S_, .i32⟩) (.of main_v721 : StableHlo.TRef sig ⟨S_, .i32⟩) (fun x y u v j => (Host.reduce2 reducer_argmax_i1_i32 x y u v reducesTo_S4194304_S_d0 h_S_ j).2) ]
theorem main_part16_ops9_sub : (main_part16_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 16 (statements 961 … 1020), in order:
    main_c_293 … main_v723. -/
abbrev main_part16_ops10 : List (HloOp τ sig (Elt F)) :=
  [ StableHlo.nullary main_c_293 (constantI S_ 32 1#32),
    StableHlo.unary main_c_293 main_v722 (broadcastInDim S4194304 ![] bcast_S_S4194304 : (⟨S_, .i32⟩ : BufTy).Contents (Elt F) → (⟨S4194304, .i32⟩ : BufTy).Contents (Elt F)),
    StableHlo.binary main_v713 main_v722 main_v723 (cmpi .eq : (⟨S4194304, .i32⟩ : BufTy).Contents (Elt F) → (⟨S4194304, .i32⟩ : BufTy).Contents (Elt F) → (⟨S4194304, .i1⟩ : BufTy).Contents (Elt F)) ]
theorem main_part16_ops10_sub : (main_part16_ops10 : List (HloOp τ sig (Elt F))).Forall fun op => op.bufs ⊆ StableHlo.tcRefs τ sig :=
  ⟨StableHlo.nullary_bufs_sub .., StableHlo.unary_bufs_sub .., StableHlo.binary_bufs_sub ..⟩
/-- Window 16's stretches, in order. -/
abbrev part16_opss : List (List (HloOp τ sig (Elt F))) :=
  [ main_part16_ops0,
    main_part16_ops1,
    main_part16_ops2,
    main_part16_ops3,
    main_part16_ops4,
    main_part16_ops5,
    main_part16_ops6,
    main_part16_ops7,
    main_part16_ops8,
    main_part16_ops9,
    main_part16_ops10 ]
theorem part16_opss_sub : (part16_opss : List (List (HloOp τ sig (Elt F)))).Forall fun l => l.Forall fun op => op.bufs ⊆ StableHlo.tcRefs τ sig :=
  ⟨main_part16_ops0_sub, main_part16_ops1_sub, main_part16_ops2_sub, main_part16_ops3_sub, main_part16_ops4_sub, main_part16_ops5_sub, main_part16_ops6_sub, main_part16_ops7_sub, main_part16_ops8_sub, main_part16_ops9_sub, main_part16_ops10_sub⟩

/-- 5 host operations of @argmax (main_call62), window 17 (statements 1021 … 1080), in order:
    main_call62_v0 … main_v724. -/
abbrev main_part17_ops0 : List (HloOp τ sig (Elt F)) :=
  [ StableHlo.TRef.nullary (.of main_call62_v0 : StableHlo.TRef sig ⟨S4194304, .i32⟩) (iotaInDim S4194304 32 0),
    StableHlo.TRef.nullary (.of main_call62_c : StableHlo.TRef sig ⟨S_, .i1⟩) (constantI S_ 1 0#1),
    StableHlo.TRef.nullary (.of main_call62_c_0 : StableHlo.TRef sig ⟨S_, .i32⟩) (constantI S_ 32 0#32),
    StableHlo.TRef.quaternary (.of main_v723 : StableHlo.TRef sig ⟨S4194304, .i1⟩) (.of main_call62_v0 : StableHlo.TRef sig ⟨S4194304, .i32⟩) (.of main_call62_c : StableHlo.TRef sig ⟨S_, .i1⟩) (.of main_call62_c_0 : StableHlo.TRef sig ⟨S_, .i32⟩) (.of main_call62_v1_0 : StableHlo.TRef sig ⟨S_, .i1⟩) (fun x y u v j => (Host.reduce2 reducer_argmax_i1_i32 x y u v reducesTo_S4194304_S_d0 h_S_ j).1),
    StableHlo.TRef.quaternary (.of main_v723 : StableHlo.TRef sig ⟨S4194304, .i1⟩) (.of main_call62_v0 : StableHlo.TRef sig ⟨S4194304, .i32⟩) (.of main_call62_c : StableHlo.TRef sig ⟨S_, .i1⟩) (.of main_call62_c_0 : StableHlo.TRef sig ⟨S_, .i32⟩) (.of main_v724 : StableHlo.TRef sig ⟨S_, .i32⟩) (fun x y u v j => (Host.reduce2 reducer_argmax_i1_i32 x y u v reducesTo_S4194304_S_d0 h_S_ j).2) ]
theorem main_part17_ops0_sub : (main_part17_ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 55 host operations of @main, window 17 (statements 1021 … 1080), in order:
    main_c_294 … main_v757. -/
abbrev main_part17_ops1 : List (HloOp τ sig (Elt F)) :=
  ( StableHlo.nullary main_c_294 (constantI S_ 32 0#32)
  :: StableHlo.binary main_v718 main_c_294 main_v725 (cmpi .slt : (⟨S_, .i32⟩ : BufTy).Contents (Elt F) → (⟨S_, .i32⟩ : BufTy).Contents (Elt F) → (⟨S_, .i1⟩ : BufTy).Contents (Elt F))
  :: StableHlo.nullary main_c_295 (constantI S_ 32 4194304#32)
  :: StableHlo.binary main_v718 main_c_295 main_v726 (addi : (⟨S_, .i32⟩ : BufTy).Contents (Elt F) → (⟨S_, .i32⟩ : BufTy).Contents (Elt F) → (⟨S_, .i32⟩ : BufTy).Contents (Elt F))
  :: StableHlo.ternary main_v725 main_v726 main_v718 main_v727 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_296 (constantI S_ 32 0#32)
  :: StableHlo.nullary main_c_297 (constantI S_ 32 0#32)
  :: StableHlo.binary main_c_296 main_c_297 main_v728 (cmpi .slt : (⟨S_, .i32⟩ : BufTy).Contents (Elt F) → (⟨S_, .i32⟩ : BufTy).Contents (Elt F) → (⟨S_, .i1⟩ : BufTy).Contents (Elt F))
  :: StableHlo.nullary main_c_298 (constantI S_ 32 0#32)
  :: StableHlo.nullary main_c_299 (constantI S_ 32 2#32)
  :: StableHlo.binary main_c_298 main_c_299 main_v729 (addi : (⟨S_, .i32⟩ : BufTy).Contents (Elt F) → (⟨S_, .i32⟩ : BufTy).Contents (Elt F) → (⟨S_, .i32⟩ : BufTy).Contents (Elt F))
  :: StableHlo.nullary main_c_300 (constantI S_ 32 0#32)
  :: StableHlo.ternary main_v728 main_v729 main_c_300 main_v730 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v727, main_v730] ⟨S_, .i32⟩ main_v731 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v731 main_v732 rfl shapeCasts_S1x2_S2
  :: StableHlo.nullary main_c_301 (constantI S_ 32 0#32)
  :: StableHlo.binary main_v721 main_c_301 main_v733 (cmpi .slt : (⟨S_, .i32⟩ : BufTy).Contents (Elt F) → (⟨S_, .i32⟩ : BufTy).Contents (Elt F) → (⟨S_, .i1⟩ : BufTy).Contents (Elt F))
  :: StableHlo.nullary main_c_302 (constantI S_ 32 4194304#32)
  :: StableHlo.binary main_v721 main_c_302 main_v734 (addi : (⟨S_, .i32⟩ : BufTy).Contents (Elt F) → (⟨S_, .i32⟩ : BufTy).Contents (Elt F) → (⟨S_, .i32⟩ : BufTy).Contents (Elt F))
  :: StableHlo.ternary main_v733 main_v734 main_v721 main_v735 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_303 (constantI S_ 32 0#32)
  :: StableHlo.nullary main_c_304 (constantI S_ 32 0#32)
  :: StableHlo.binary main_c_303 main_c_304 main_v736 (cmpi .slt : (⟨S_, .i32⟩ : BufTy).Contents (Elt F) → (⟨S_, .i32⟩ : BufTy).Contents (Elt F) → (⟨S_, .i1⟩ : BufTy).Contents (Elt F))
  :: StableHlo.nullary main_c_305 (constantI S_ 32 0#32)
  :: StableHlo.nullary main_c_306 (constantI S_ 32 2#32)
  :: StableHlo.binary main_c_305 main_c_306 main_v737 (addi : (⟨S_, .i32⟩ : BufTy).Contents (Elt F) → (⟨S_, .i32⟩ : BufTy).Contents (Elt F) → (⟨S_, .i32⟩ : BufTy).Contents (Elt F))
  :: StableHlo.nullary main_c_307 (constantI S_ 32 0#32)
  :: StableHlo.ternary main_v736 main_v737 main_c_307 main_v738 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v735, main_v738] ⟨S_, .i32⟩ main_v739 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v739 main_v740 rfl shapeCasts_S1x2_S2
  :: StableHlo.binary main_v732 main_v740 main_v741 (addf : (⟨S2, .f32⟩ : BufTy).Contents (Elt F) → (⟨S2, .f32⟩ : BufTy).Contents (Elt F) → (⟨S2, .f32⟩ : BufTy).Contents (Elt F))
  :: StableHlo.nullary main_c_308 (constantI S_ 32 0#32)
  :: StableHlo.binary main_v724 main_c_308 main_v742 (cmpi .slt : (⟨S_, .i32⟩ : BufTy).Contents (Elt F) → (⟨S_, .i32⟩ : BufTy).Contents (Elt F) → (⟨S_, .i1⟩ : BufTy).Contents (Elt F))
  :: StableHlo.nullary main_c_309 (constantI S_ 32 4194304#32)
  :: StableHlo.binary main_v724 main_c_309 main_v743 (addi : (⟨S_, .i32⟩ : BufTy).Contents (Elt F) → (⟨S_, .i32⟩ : BufTy).Contents (Elt F) → (⟨S_, .i32⟩ : BufTy).Contents (Elt F))
  :: StableHlo.ternary main_v742 main_v743 main_v724 main_v744 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_310 (constantI S_ 32 0#32)
  :: StableHlo.nullary main_c_311 (constantI S_ 32 0#32)
  :: StableHlo.binary main_c_310 main_c_311 main_v745 (cmpi .slt : (⟨S_, .i32⟩ : BufTy).Contents (Elt F) → (⟨S_, .i32⟩ : BufTy).Contents (Elt F) → (⟨S_, .i1⟩ : BufTy).Contents (Elt F))
  :: StableHlo.nullary main_c_312 (constantI S_ 32 0#32)
  :: StableHlo.nullary main_c_313 (constantI S_ 32 2#32)
  :: StableHlo.binary main_c_312 main_c_313 main_v746 (addi : (⟨S_, .i32⟩ : BufTy).Contents (Elt F) → (⟨S_, .i32⟩ : BufTy).Contents (Elt F) → (⟨S_, .i32⟩ : BufTy).Contents (Elt F))
  :: StableHlo.nullary main_c_314 (constantI S_ 32 0#32)
  :: StableHlo.ternary main_v745 main_v746 main_c_314 main_v747 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v744, main_v747] ⟨S_, .i32⟩ main_v748 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v748 main_v749 rfl shapeCasts_S1x2_S2
  :: StableHlo.nullary main_cst_315 (constant S_ .f32 0xBF317218#32)
  :: StableHlo.unary main_cst_315 main_v750 (broadcastInDim S2 ![] bcast_S_S2 : (⟨S_, .f32⟩ : BufTy).Contents (Elt F) → (⟨S2, .f32⟩ : BufTy).Contents (Elt F))
  :: StableHlo.binary main_v749 main_v750 main_v751 (cmpf .ogt : (⟨S2, .f32⟩ : BufTy).Contents (Elt F) → (⟨S2, .f32⟩ : BufTy).Contents (Elt F) → (⟨S2, .i1⟩ : BufTy).Contents (Elt F))
  :: StableHlo.unary main_v749 main_v752 (Host.expm1 : (⟨S2, .f32⟩ : BufTy).Contents (Elt F) → (⟨S2, .f32⟩ : BufTy).Contents (Elt F))
  :: StableHlo.unary main_v752 main_v753 (Host.negf : (⟨S2, .f32⟩ : BufTy).Contents (Elt F) → (⟨S2, .f32⟩ : BufTy).Contents (Elt F))
  :: StableHlo.unary main_v753 main_v754 (Host.log : (⟨S2, .f32⟩ : BufTy).Contents (Elt F) → (⟨S2, .f32⟩ : BufTy).Contents (Elt F))
  :: StableHlo.unary main_v749 main_v755 (Host.exp : (⟨S2, .f32⟩ : BufTy).Contents (Elt F) → (⟨S2, .f32⟩ : BufTy).Contents (Elt F))
  :: StableHlo.unary main_v755 main_v756 (Host.negf : (⟨S2, .f32⟩ : BufTy).Contents (Elt F) → (⟨S2, .f32⟩ : BufTy).Contents (Elt F))
  :: StableHlo.unary main_v756 main_v757 (Host.log1p : (⟨S2, .f32⟩ : BufTy).Contents (Elt F) → (⟨S2, .f32⟩ : BufTy).Contents (Elt F))
  :: [] )
theorem main_part17_ops1_sub : (main_part17_ops1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call63), window 17 (statements 1021 … 1080), in order:
    main_v758 … main_v758. -/
abbrev main_part17_ops2 : List (HloOp τ sig (Elt F)) :=
  [ StableHlo.TRef.ternary (.of main_v751 : StableHlo.TRef sig ⟨S2, .i1⟩) (.of main_v754 : StableHlo.TRef sig ⟨S2, .f32⟩) (.of main_v757 : StableHlo.TRef sig ⟨S2, .f32⟩) (.of main_v758 : StableHlo.TRef sig ⟨S2, .f32⟩) select ]
theorem main_part17_ops2_sub : (main_part17_ops2 : List (HloOp τ sig (Elt F))).Forall fun op => op.bufs ⊆ StableHlo.tcRefs τ sig :=
  StableHlo.ternary_bufs_sub ..
/-- 3 host operations of @main, window 17 (statements 1021 … 1080), in order:
    main_v759 … main_v760. -/
abbrev main_part17_ops3 : List (HloOp τ sig (Elt F)) :=
  [ StableHlo.binary main_v741 main_v758 main_v759 (subf : (⟨S2, .f32⟩ : BufTy).Contents (Elt F) → (⟨S2, .f32⟩ : BufTy).Contents (Elt F) → (⟨S2, .f32⟩ : BufTy).Contents (Elt F)),
    StableHlo.nullary main_cst_316 (constant S_ .f32 0x00000000#32),
    StableHlo.binary main_v759 main_cst_316 main_v760 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)) ]
theorem main_part17_ops3_sub : (main_part17_ops3 : List (HloOp τ sig (Elt F))).Forall fun op => op.bufs ⊆ StableHlo.tcRefs τ sig :=
  ⟨StableHlo.binary_bufs_sub .., StableHlo.nullary_bufs_sub .., StableHlo.binary_bufs_sub ..⟩
/-- Window 17's stretches, in order. -/
abbrev part17_opss : List (List (HloOp τ sig (Elt F))) :=
  [ main_part17_ops0,
    main_part17_ops1,
    main_part17_ops2,
    main_part17_ops3 ]
theorem part17_opss_sub : (part17_opss : List (List (HloOp τ sig (Elt F)))).Forall fun l => l.Forall fun op => op.bufs ⊆ StableHlo.tcRefs τ sig :=
  ⟨main_part17_ops0_sub, main_part17_ops1_sub, main_part17_ops2_sub, main_part17_ops3_sub⟩

/-- 3 host operations of @main, window 18 (statements 1081 … 1140), in order:
    main_c_317 … main_cst_318. -/
abbrev main_part18_ops0 : List (HloOp τ sig (Elt F)) :=
  [ StableHlo.nullary main_c_317 (constantI S_ 32 0#32),
    StableHlo.binary main_v715 main_c_317 main_v761 (cmpi .sgt : (⟨S_, .i32⟩ : BufTy).Contents (Elt F) → (⟨S_, .i32⟩ : BufTy).Contents (Elt F) → (⟨S_, .i1⟩ : BufTy).Contents (Elt F)),
    StableHlo.nullary main_cst_318 (constant S_ .f32 0x00000000#32) ]
theorem main_part18_ops0_sub : (main_part18_ops0 : List (HloOp τ sig (Elt F))).Forall fun op => op.bufs ⊆ StableHlo.tcRefs τ sig :=
  ⟨StableHlo.nullary_bufs_sub .., StableHlo.binary_bufs_sub .., StableHlo.nullary_bufs_sub ..⟩
/-- 1 host operation of @_where_4 (main_call64), window 18 (statements 1081 … 1140), in order:
    main_v762 … main_v762. -/
abbrev main_part18_ops1 : List (HloOp τ sig (Elt F)) :=
  [ StableHlo.TRef.ternary (.of main_v761 : StableHlo.TRef sig ⟨S_, .i1⟩) (.of main_v760 : StableHlo.TRef sig ⟨S_, .f32⟩) (.of main_cst_318 : StableHlo.TRef sig ⟨S_, .f32⟩) (.of main_v762 : StableHlo.TRef sig ⟨S_, .f32⟩) select ]
theorem main_part18_ops1_sub : (main_part18_ops1 : List (HloOp τ sig (Elt F))).Forall fun op => op.bufs ⊆ StableHlo.tcRefs τ sig :=
  StableHlo.ternary_bufs_sub ..
/-- 13 host operations of @main, window 18 (statements 1081 … 1140), in order:
    main_v763 … main_v772. -/
abbrev main_part18_ops2 : List (HloOp τ sig (Elt F)) :=
  [ StableHlo.binary main_v703 main_v762 main_v763 (subf : (⟨S_, .f32⟩ : BufTy).Contents (Elt F) → (⟨S_, .f32⟩ : BufTy).Contents (Elt F) → (⟨S_, .f32⟩ : BufTy).Contents (Elt F)),
    StableHlo.nullary main_c_319 (constantI S_ 32 1#32),
    StableHlo.unary main_c_319 main_v764 (broadcastInDim S4194304 ![] bcast_S_S4194304 : (⟨S_, .i32⟩ : BufTy).Contents (Elt F) → (⟨S4194304, .i32⟩ : BufTy).Contents (Elt F)),
    StableHlo.binary main_v25 main_v764 main_v765 (cmpi .eq : (⟨S4194304, .i32⟩ : BufTy).Contents (Elt F) → (⟨S4194304, .i32⟩ : BufTy).Contents (Elt F) → (⟨S4194304, .i1⟩ : BufTy).Contents (Elt F)),
    StableHlo.nullary main_c_320 (constantI S_ 32 6#32),
    StableHlo.unary main_c_320 main_v766 (broadcastInDim S4194304 ![] bcast_S_S4194304 : (⟨S_, .i32⟩ : BufTy).Contents (Elt F) → (⟨S4194304, .i32⟩ : BufTy).Contents (Elt F)),
    StableHlo.binary main_v51 main_v766 main_v767 (cmpi .eq : (⟨S4194304, .i32⟩ : BufTy).Contents (Elt F) → (⟨S4194304, .i32⟩ : BufTy).Contents (Elt F) → (⟨S4194304, .i1⟩ : BufTy).Contents (Elt F)),
    StableHlo.binary main_v765 main_v767 main_v768 (andi : (⟨S4194304, .i1⟩ : BufTy).Contents (Elt F) → (⟨S4194304, .i1⟩ : BufTy).Contents (Elt F) → (⟨S4194304, .i1⟩ : BufTy).Contents (Elt F)),
    StableHlo.nullary main_c_321 (constantI S_ 32 2#32),
    StableHlo.unary main_c_321 main_v769 (broadcastInDim S4194304 ![] bcast_S_S4194304 : (⟨S_, .i32⟩ : BufTy).Contents (Elt F) → (⟨S4194304, .i32⟩ : BufTy).Contents (Elt F)),
    StableHlo.binary main_v77 main_v769 main_v770 (cmpi .eq : (⟨S4194304, .i32⟩ : BufTy).Contents (Elt F) → (⟨S4194304, .i32⟩ : BufTy).Contents (Elt F) → (⟨S4194304, .i1⟩ : BufTy).Contents (Elt F)),
    StableHlo.binary main_v768 main_v770 main_v771 (andi : (⟨S4194304, .i1⟩ : BufTy).Contents (Elt F) → (⟨S4194304, .i1⟩ : BufTy).Contents (Elt F) → (⟨S4194304, .i1⟩ : BufTy).Contents (Elt F)),
    StableHlo.unary main_v771 main_v772 ((extui 32 · natLt_1_32) : (⟨S4194304, .i1⟩ : BufTy).Contents (Elt F) → (⟨S4194304, .i32⟩ : BufTy).Contents (Elt F)) ]
theorem main_part18_ops2_sub : (main_part18_ops2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call65), window 18 (statements 1081 … 1140), in order:
    main_call65_call0_c … main_v773. -/
abbrev main_part18_ops3 : List (HloOp τ sig (Elt F)) :=
  [ StableHlo.TRef.nullary (.of main_call65_call0_c : StableHlo.TRef sig ⟨S_, .i32⟩) (constantI S_ 32 0#32),
    StableHlo.TRef.unary (.of main_call65_call0_c : StableHlo.TRef sig ⟨S_, .i32⟩) (.of main_call65_call0_v0 : StableHlo.TRef sig ⟨S_, .i32⟩) (broadcastInDim S_ ![] bcast_S_S_),
    StableHlo.TRef.binary (.of main_v772 : StableHlo.TRef sig ⟨S4194304, .i32⟩) (.of main_call65_call0_v0 : StableHlo.TRef sig ⟨S_, .i32⟩) (.of main_v773 : StableHlo.TRef sig ⟨S4194304, .i32⟩) (fun x v => Host.reduceWindow IntOp.addi ![4194304] ![1] ![4194303] ![0] x v reduceWindows_S4194304_S4194304_w4194304s1p4194303_0 h_S_) ]
theorem main_part18_ops3_sub : (main_part18_ops3 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 18 (statements 1081 … 1140), in order:
    main_v774 … main_v777. -/
abbrev main_part18_ops4 : List (HloOp τ sig (Elt F)) :=
  [ StableHlo.unary main_v773 main_v774 ((extractStridedSlice S1 ![4194303] · slices_S4194304_S1_4194303) : (⟨S4194304, .i32⟩ : BufTy).Contents (Elt F) → (⟨S1, .i32⟩ : BufTy).Contents (Elt F)),
    StableHlo.reshape main_v774 main_v775 rfl shapeCasts_S1_S_,
    StableHlo.nullary main_c_322 (constantI S_ 32 1#32),
    StableHlo.unary main_c_322 main_v776 (broadcastInDim S4194304 ![] bcast_S_S4194304 : (⟨S_, .i32⟩ : BufTy).Contents (Elt F) → (⟨S4194304, .i32⟩ : BufTy).Contents (Elt F)),
    StableHlo.binary main_v773 main_v776 main_v777 (cmpi .eq : (⟨S4194304, .i32⟩ : BufTy).Contents (Elt F) → (⟨S4194304, .i32⟩ : BufTy).Contents (Elt F) → (⟨S4194304, .i1⟩ : BufTy).Contents (Elt F)) ]
theorem main_part18_ops4_sub : (main_part18_ops4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call66), window 18 (statements 1081 … 1140), in order:
    main_call66_v0 … main_v778. -/
abbrev main_part18_ops5 : List (HloOp τ sig (Elt F)) :=
  [ StableHlo.TRef.nullary (.of main_call66_v0 : StableHlo.TRef sig ⟨S4194304, .i32⟩) (iotaInDim S4194304 32 0),
    StableHlo.TRef.nullary (.of main_call66_c : StableHlo.TRef sig ⟨S_, .i1⟩) (constantI S_ 1 0#1),
    StableHlo.TRef.nullary (.of main_call66_c_0 : StableHlo.TRef sig ⟨S_, .i32⟩) (constantI S_ 32 0#32),
    StableHlo.TRef.quaternary (.of main_v777 : StableHlo.TRef sig ⟨S4194304, .i1⟩) (.of main_call66_v0 : StableHlo.TRef sig ⟨S4194304, .i32⟩) (.of main_call66_c : StableHlo.TRef sig ⟨S_, .i1⟩) (.of main_call66_c_0 : StableHlo.TRef sig ⟨S_, .i32⟩) (.of main_call66_v1_0 : StableHlo.TRef sig ⟨S_, .i1⟩) (fun x y u v j => (Host.reduce2 reducer_argmax_i1_i32 x y u v reducesTo_S4194304_S_d0 h_S_ j).1),
    StableHlo.TRef.quaternary (.of main_v777 : StableHlo.TRef sig ⟨S4194304, .i1⟩) (.of main_call66_v0 : StableHlo.TRef sig ⟨S4194304, .i32⟩) (.of main_call66_c : StableHlo.TRef sig ⟨S_, .i1⟩) (.of main_call66_c_0 : StableHlo.TRef sig ⟨S_, .i32⟩) (.of main_v778 : StableHlo.TRef sig ⟨S_, .i32⟩) (fun x y u v j => (Host.reduce2 reducer_argmax_i1_i32 x y u v reducesTo_S4194304_S_d0 h_S_ j).2) ]
theorem main_part18_ops5_sub : (main_part18_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 18 (statements 1081 … 1140), in order:
    main_c_323 … main_v780. -/
abbrev main_part18_ops6 : List (HloOp τ sig (Elt F)) :=
  [ StableHlo.nullary main_c_323 (constantI S_ 32 2#32),
    StableHlo.unary main_c_323 main_v779 (broadcastInDim S4194304 ![] bcast_S_S4194304 : (⟨S_, .i32⟩ : BufTy).Contents (Elt F) → (⟨S4194304, .i32⟩ : BufTy).Contents (Elt F)),
    StableHlo.binary main_v773 main_v779 main_v780 (cmpi .eq : (⟨S4194304, .i32⟩ : BufTy).Contents (Elt F) → (⟨S4194304, .i32⟩ : BufTy).Contents (Elt F) → (⟨S4194304, .i1⟩ : BufTy).Contents (Elt F)) ]
theorem main_part18_ops6_sub : (main_part18_ops6 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call67), window 18 (statements 1081 … 1140), in order:
    main_call67_v0 … main_v781. -/
abbrev main_part18_ops7 : List (HloOp τ sig (Elt F)) :=
  [ StableHlo.TRef.nullary (.of main_call67_v0 : StableHlo.TRef sig ⟨S4194304, .i32⟩) (iotaInDim S4194304 32 0),
    StableHlo.TRef.nullary (.of main_call67_c : StableHlo.TRef sig ⟨S_, .i1⟩) (constantI S_ 1 0#1),
    StableHlo.TRef.nullary (.of main_call67_c_0 : StableHlo.TRef sig ⟨S_, .i32⟩) (constantI S_ 32 0#32),
    StableHlo.TRef.quaternary (.of main_v780 : StableHlo.TRef sig ⟨S4194304, .i1⟩) (.of main_call67_v0 : StableHlo.TRef sig ⟨S4194304, .i32⟩) (.of main_call67_c : StableHlo.TRef sig ⟨S_, .i1⟩) (.of main_call67_c_0 : StableHlo.TRef sig ⟨S_, .i32⟩) (.of main_call67_v1_0 : StableHlo.TRef sig ⟨S_, .i1⟩) (fun x y u v j => (Host.reduce2 reducer_argmax_i1_i32 x y u v reducesTo_S4194304_S_d0 h_S_ j).1),
    StableHlo.TRef.quaternary (.of main_v780 : StableHlo.TRef sig ⟨S4194304, .i1⟩) (.of main_call67_v0 : StableHlo.TRef sig ⟨S4194304, .i32⟩) (.of main_call67_c : StableHlo.TRef sig ⟨S_, .i1⟩) (.of main_call67_c_0 : StableHlo.TRef sig ⟨S_, .i32⟩) (.of main_v781 : StableHlo.TRef sig ⟨S_, .i32⟩) (fun x y u v j => (Host.reduce2 reducer_argmax_i1_i32 x y u v reducesTo_S4194304_S_d0 h_S_ j).2) ]
theorem main_part18_ops7_sub : (main_part18_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 18 (statements 1081 … 1140), in order:
    main_c_324 … main_v783. -/
abbrev main_part18_ops8 : List (HloOp τ sig (Elt F)) :=
  [ StableHlo.nullary main_c_324 (constantI S_ 32 1#32),
    StableHlo.unary main_c_324 main_v782 (broadcastInDim S4194304 ![] bcast_S_S4194304 : (⟨S_, .i32⟩ : BufTy).Contents (Elt F) → (⟨S4194304, .i32⟩ : BufTy).Contents (Elt F)),
    StableHlo.binary main_v773 main_v782 main_v783 (cmpi .eq : (⟨S4194304, .i32⟩ : BufTy).Contents (Elt F) → (⟨S4194304, .i32⟩ : BufTy).Contents (Elt F) → (⟨S4194304, .i1⟩ : BufTy).Contents (Elt F)) ]
theorem main_part18_ops8_sub : (main_part18_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call68), window 18 (statements 1081 … 1140), in order:
    main_call68_v0 … main_v784. -/
abbrev main_part18_ops9 : List (HloOp τ sig (Elt F)) :=
  [ StableHlo.TRef.nullary (.of main_call68_v0 : StableHlo.TRef sig ⟨S4194304, .i32⟩) (iotaInDim S4194304 32 0),
    StableHlo.TRef.nullary (.of main_call68_c : StableHlo.TRef sig ⟨S_, .i1⟩) (constantI S_ 1 0#1),
    StableHlo.TRef.nullary (.of main_call68_c_0 : StableHlo.TRef sig ⟨S_, .i32⟩) (constantI S_ 32 0#32),
    StableHlo.TRef.quaternary (.of main_v783 : StableHlo.TRef sig ⟨S4194304, .i1⟩) (.of main_call68_v0 : StableHlo.TRef sig ⟨S4194304, .i32⟩) (.of main_call68_c : StableHlo.TRef sig ⟨S_, .i1⟩) (.of main_call68_c_0 : StableHlo.TRef sig ⟨S_, .i32⟩) (.of main_call68_v1_0 : StableHlo.TRef sig ⟨S_, .i1⟩) (fun x y u v j => (Host.reduce2 reducer_argmax_i1_i32 x y u v reducesTo_S4194304_S_d0 h_S_ j).1),
    StableHlo.TRef.quaternary (.of main_v783 : StableHlo.TRef sig ⟨S4194304, .i1⟩) (.of main_call68_v0 : StableHlo.TRef sig ⟨S4194304, .i32⟩) (.of main_call68_c : StableHlo.TRef sig ⟨S_, .i1⟩) (.of main_call68_c_0 : StableHlo.TRef sig ⟨S_, .i32⟩) (.of main_v784 : StableHlo.TRef sig ⟨S_, .i32⟩) (fun x y u v j => (Host.reduce2 reducer_argmax_i1_i32 x y u v reducesTo_S4194304_S_d0 h_S_ j).2) ]
theorem main_part18_ops9_sub : (main_part18_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 28 host operations of @main, window 18 (statements 1081 … 1140), in order:
    main_c_325 … main_v798. -/
abbrev main_part18_ops10 : List (HloOp τ sig (Elt F)) :=
  [ StableHlo.nullary main_c_325 (constantI S_ 32 0#32),
    StableHlo.binary main_v778 main_c_325 main_v785 (cmpi .slt : (⟨S_, .i32⟩ : BufTy).Contents (Elt F) → (⟨S_, .i32⟩ : BufTy).Contents (Elt F) → (⟨S_, .i1⟩ : BufTy).Contents (Elt F)),
    StableHlo.nullary main_c_326 (constantI S_ 32 4194304#32),
    StableHlo.binary main_v778 main_c_326 main_v786 (addi : (⟨S_, .i32⟩ : BufTy).Contents (Elt F) → (⟨S_, .i32⟩ : BufTy).Contents (Elt F) → (⟨S_, .i32⟩ : BufTy).Contents (Elt F)),
    StableHlo.ternary main_v785 main_v786 main_v778 main_v787 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_327 (constantI S_ 32 0#32),
    StableHlo.nullary main_c_328 (constantI S_ 32 0#32),
    StableHlo.binary main_c_327 main_c_328 main_v788 (cmpi .slt : (⟨S_, .i32⟩ : BufTy).Contents (Elt F) → (⟨S_, .i32⟩ : BufTy).Contents (Elt F) → (⟨S_, .i1⟩ : BufTy).Contents (Elt F)),
    StableHlo.nullary main_c_329 (constantI S_ 32 0#32),
    StableHlo.nullary main_c_330 (constantI S_ 32 2#32),
    StableHlo.binary main_c_329 main_c_330 main_v789 (addi : (⟨S_, .i32⟩ : BufTy).Contents (Elt F) → (⟨S_, .i32⟩ : BufTy).Contents (Elt F) → (⟨S_, .i32⟩ : BufTy).Contents (Elt F)),
    StableHlo.nullary main_c_331 (constantI S_ 32 0#32),
    StableHlo.ternary main_v788 main_v789 main_c_331 main_v790 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v787, main_v790] ⟨S_, .i32⟩ main_v791 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v791 main_v792 rfl shapeCasts_S1x2_S2,
    StableHlo.nullary main_c_332 (constantI S_ 32 0#32),
    StableHlo.binary main_v781 main_c_332 main_v793 (cmpi .slt : (⟨S_, .i32⟩ : BufTy).Contents (Elt F) → (⟨S_, .i32⟩ : BufTy).Contents (Elt F) → (⟨S_, .i1⟩ : BufTy).Contents (Elt F)),
    StableHlo.nullary main_c_333 (constantI S_ 32 4194304#32),
    StableHlo.binary main_v781 main_c_333 main_v794 (addi : (⟨S_, .i32⟩ : BufTy).Contents (Elt F) → (⟨S_, .i32⟩ : BufTy).Contents (Elt F) → (⟨S_, .i32⟩ : BufTy).Contents (Elt F)),
    StableHlo.ternary main_v793 main_v794 main_v781 main_v795 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_334 (constantI S_ 32 0#32),
    StableHlo.nullary main_c_335 (constantI S_ 32 0#32),
    StableHlo.binary main_c_334 main_c_335 main_v796 (cmpi .slt : (⟨S_, .i32⟩ : BufTy).Contents (Elt F) → (⟨S_, .i32⟩ : BufTy).Contents (Elt F) → (⟨S_, .i1⟩ : BufTy).Contents (Elt F)),
    StableHlo.nullary main_c_336 (constantI S_ 32 0#32),
    StableHlo.nullary main_c_337 (constantI S_ 32 2#32),
    StableHlo.binary main_c_336 main_c_337 main_v797 (addi : (⟨S_, .i32⟩ : BufTy).Contents (Elt F) → (⟨S_, .i32⟩ : BufTy).Contents (Elt F) → (⟨S_, .i32⟩ : BufTy).Contents (Elt F)),
    StableHlo.nullary main_c_338 (constantI S_ 32 0#32),
    StableHlo.ternary main_v796 main_v797 main_c_338 main_v798 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem main_part18_ops10_sub : (main_part18_ops10 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub ..⟩
/-- Window 18's stretches, in order. -/
abbrev part18_opss : List (List (HloOp τ sig (Elt F))) :=
  [ main_part18_ops0,
    main_part18_ops1,
    main_part18_ops2,
    main_part18_ops3,
    main_part18_ops4,
    main_part18_ops5,
    main_part18_ops6,
    main_part18_ops7,
    main_part18_ops8,
    main_part18_ops9,
    main_part18_ops10 ]
theorem part18_opss_sub : (part18_opss : List (List (HloOp τ sig (Elt F)))).Forall fun l => l.Forall fun op => op.bufs ⊆ StableHlo.tcRefs τ sig :=
  ⟨main_part18_ops0_sub, main_part18_ops1_sub, main_part18_ops2_sub, main_part18_ops3_sub, main_part18_ops4_sub, main_part18_ops5_sub, main_part18_ops6_sub, main_part18_ops7_sub, main_part18_ops8_sub, main_part18_ops9_sub, main_part18_ops10_sub⟩

/-- 27 host operations of @main, window 19 (statements 1141 … 1200), in order:
    main_v799 … main_v817. -/
abbrev main_part19_ops0 : List (HloOp τ sig (Elt F)) :=
  [ StableHlo.unaryIndexed main_arg1 ![main_v795, main_v798] ⟨S_, .i32⟩ main_v799 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v799 main_v800 rfl shapeCasts_S1x2_S2,
    StableHlo.binary main_v792 main_v800 main_v801 (addf : (⟨S2, .f32⟩ : BufTy).Contents (Elt F) → (⟨S2, .f32⟩ : BufTy).Contents (Elt F) → (⟨S2, .f32⟩ : BufTy).Contents (Elt F)),
    StableHlo.nullary main_c_339 (constantI S_ 32 0#32),
    StableHlo.binary main_v784 main_c_339 main_v802 (cmpi .slt : (⟨S_, .i32⟩ : BufTy).Contents (Elt F) → (⟨S_, .i32⟩ : BufTy).Contents (Elt F) → (⟨S_, .i1⟩ : BufTy).Contents (Elt F)),
    StableHlo.nullary main_c_340 (constantI S_ 32 4194304#32),
    StableHlo.binary main_v784 main_c_340 main_v803 (addi : (⟨S_, .i32⟩ : BufTy).Contents (Elt F) → (⟨S_, .i32⟩ : BufTy).Contents (Elt F) → (⟨S_, .i32⟩ : BufTy).Contents (Elt F)),
    StableHlo.ternary main_v802 main_v803 main_v784 main_v804 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_341 (constantI S_ 32 0#32),
    StableHlo.nullary main_c_342 (constantI S_ 32 0#32),
    StableHlo.binary main_c_341 main_c_342 main_v805 (cmpi .slt : (⟨S_, .i32⟩ : BufTy).Contents (Elt F) → (⟨S_, .i32⟩ : BufTy).Contents (Elt F) → (⟨S_, .i1⟩ : BufTy).Contents (Elt F)),
    StableHlo.nullary main_c_343 (constantI S_ 32 0#32),
    StableHlo.nullary main_c_344 (constantI S_ 32 2#32),
    StableHlo.binary main_c_343 main_c_344 main_v806 (addi : (⟨S_, .i32⟩ : BufTy).Contents (Elt F) → (⟨S_, .i32⟩ : BufTy).Contents (Elt F) → (⟨S_, .i32⟩ : BufTy).Contents (Elt F)),
    StableHlo.nullary main_c_345 (constantI S_ 32 0#32),
    StableHlo.ternary main_v805 main_v806 main_c_345 main_v807 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v804, main_v807] ⟨S_, .i32⟩ main_v808 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v808 main_v809 rfl shapeCasts_S1x2_S2,
    StableHlo.nullary main_cst_346 (constant S_ .f32 0xBF317218#32),
    StableHlo.unary main_cst_346 main_v810 (broadcastInDim S2 ![] bcast_S_S2 : (⟨S_, .f32⟩ : BufTy).Contents (Elt F) → (⟨S2, .f32⟩ : BufTy).Contents (Elt F)),
    StableHlo.binary main_v809 main_v810 main_v811 (cmpf .ogt : (⟨S2, .f32⟩ : BufTy).Contents (Elt F) → (⟨S2, .f32⟩ : BufTy).Contents (Elt F) → (⟨S2, .i1⟩ : BufTy).Contents (Elt F)),
    StableHlo.unary main_v809 main_v812 (Host.expm1 : (⟨S2, .f32⟩ : BufTy).Contents (Elt F) → (⟨S2, .f32⟩ : BufTy).Contents (Elt F)),
    StableHlo.unary main_v812 main_v813 (Host.negf : (⟨S2, .f32⟩ : BufTy).Contents (Elt F) → (⟨S2, .f32⟩ : BufTy).Contents (Elt F)),
    StableHlo.unary main_v813 main_v814 (Host.log : (⟨S2, .f32⟩ : BufTy).Contents (Elt F) → (⟨S2, .f32⟩ : BufTy).Contents (Elt F)),
    StableHlo.unary main_v809 main_v815 (Host.exp : (⟨S2, .f32⟩ : BufTy).Contents (Elt F) → (⟨S2, .f32⟩ : BufTy).Contents (Elt F)),
    StableHlo.unary main_v815 main_v816 (Host.negf : (⟨S2, .f32⟩ : BufTy).Contents (Elt F) → (⟨S2, .f32⟩ : BufTy).Contents (Elt F)),
    StableHlo.unary main_v816 main_v817 (Host.log1p : (⟨S2, .f32⟩ : BufTy).Contents (Elt F) → (⟨S2, .f32⟩ : BufTy).Contents (Elt F)) ]
theorem main_part19_ops0_sub : (main_part19_ops0 : List (HloOp τ sig (Elt F))).Forall fun op => op.bufs ⊆ StableHlo.tcRefs τ sig :=
  ⟨StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call69), window 19 (statements 1141 … 1200), in order:
    main_v818 … main_v818. -/
abbrev main_part19_ops1 : List (HloOp τ sig (Elt F)) :=
  [ StableHlo.TRef.ternary (.of main_v811 : StableHlo.TRef sig ⟨S2, .i1⟩) (.of main_v814 : StableHlo.TRef sig ⟨S2, .f32⟩) (.of main_v817 : StableHlo.TRef sig ⟨S2, .f32⟩) (.of main_v818 : StableHlo.TRef sig ⟨S2, .f32⟩) select ]
theorem main_part19_ops1_sub : (main_part19_ops1 : List (HloOp τ sig (Elt F))).Forall fun op => op.bufs ⊆ StableHlo.tcRefs τ sig :=
  StableHlo.ternary_bufs_sub ..
/-- 6 host operations of @main, window 19 (statements 1141 … 1200), in order:
    main_v819 … main_cst_349. -/
abbrev main_part19_ops2 : List (HloOp τ sig (Elt F)) :=
  [ StableHlo.binary main_v801 main_v818 main_v819 (subf : (⟨S2, .f32⟩ : BufTy).Contents (Elt F) → (⟨S2, .f32⟩ : BufTy).Contents (Elt F) → (⟨S2, .f32⟩ : BufTy).Contents (Elt F)),
    StableHlo.nullary main_cst_347 (constant S_ .f32 0x00000000#32),
    StableHlo.binary main_v819 main_cst_347 main_v820 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_348 (constantI S_ 32 0#32),
    StableHlo.binary main_v775 main_c_348 main_v821 (cmpi .sgt : (⟨S_, .i32⟩ : BufTy).Contents (Elt F) → (⟨S_, .i32⟩ : BufTy).Contents (Elt F) → (⟨S_, .i1⟩ : BufTy).Contents (Elt F)),
    StableHlo.nullary main_cst_349 (constant S_ .f32 0x00000000#32) ]
theorem main_part19_ops2_sub : (main_part19_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call70), window 19 (statements 1141 … 1200), in order:
    main_v822 … main_v822. -/
abbrev main_part19_ops3 : List (HloOp τ sig (Elt F)) :=
  [ StableHlo.TRef.ternary (.of main_v821 : StableHlo.TRef sig ⟨S_, .i1⟩) (.of main_v820 : StableHlo.TRef sig ⟨S_, .f32⟩) (.of main_cst_349 : StableHlo.TRef sig ⟨S_, .f32⟩) (.of main_v822 : StableHlo.TRef sig ⟨S_, .f32⟩) select ]
theorem main_part19_ops3_sub : (main_part19_ops3 : List (HloOp τ sig (Elt F))).Forall fun op => op.bufs ⊆ StableHlo.tcRefs τ sig :=
  StableHlo.ternary_bufs_sub ..
/-- 13 host operations of @main, window 19 (statements 1141 … 1200), in order:
    main_v823 … main_v832. -/
abbrev main_part19_ops4 : List (HloOp τ sig (Elt F)) :=
  [ StableHlo.binary main_v763 main_v822 main_v823 (subf : (⟨S_, .f32⟩ : BufTy).Contents (Elt F) → (⟨S_, .f32⟩ : BufTy).Contents (Elt F) → (⟨S_, .f32⟩ : BufTy).Contents (Elt F)),
    StableHlo.nullary main_c_350 (constantI S_ 32 2#32),
    StableHlo.unary main_c_350 main_v824 (broadcastInDim S4194304 ![] bcast_S_S4194304 : (⟨S_, .i32⟩ : BufTy).Contents (Elt F) → (⟨S4194304, .i32⟩ : BufTy).Contents (Elt F)),
    StableHlo.binary main_v25 main_v824 main_v825 (cmpi .eq : (⟨S4194304, .i32⟩ : BufTy).Contents (Elt F) → (⟨S4194304, .i32⟩ : BufTy).Contents (Elt F) → (⟨S4194304, .i1⟩ : BufTy).Contents (Elt F)),
    StableHlo.nullary main_c_351 (constantI S_ 32 4#32),
    StableHlo.unary main_c_351 main_v826 (broadcastInDim S4194304 ![] bcast_S_S4194304 : (⟨S_, .i32⟩ : BufTy).Contents (Elt F) → (⟨S4194304, .i32⟩ : BufTy).Contents (Elt F)),
    StableHlo.binary main_v51 main_v826 main_v827 (cmpi .eq : (⟨S4194304, .i32⟩ : BufTy).Contents (Elt F) → (⟨S4194304, .i32⟩ : BufTy).Contents (Elt F) → (⟨S4194304, .i1⟩ : BufTy).Contents (Elt F)),
    StableHlo.binary main_v825 main_v827 main_v828 (andi : (⟨S4194304, .i1⟩ : BufTy).Contents (Elt F) → (⟨S4194304, .i1⟩ : BufTy).Contents (Elt F) → (⟨S4194304, .i1⟩ : BufTy).Contents (Elt F)),
    StableHlo.nullary main_c_352 (constantI S_ 32 1#32),
    StableHlo.unary main_c_352 main_v829 (broadcastInDim S4194304 ![] bcast_S_S4194304 : (⟨S_, .i32⟩ : BufTy).Contents (Elt F) → (⟨S4194304, .i32⟩ : BufTy).Contents (Elt F)),
    StableHlo.binary main_v77 main_v829 main_v830 (cmpi .eq : (⟨S4194304, .i32⟩ : BufTy).Contents (Elt F) → (⟨S4194304, .i32⟩ : BufTy).Contents (Elt F) → (⟨S4194304, .i1⟩ : BufTy).Contents (Elt F)),
    StableHlo.binary main_v828 main_v830 main_v831 (andi : (⟨S4194304, .i1⟩ : BufTy).Contents (Elt F) → (⟨S4194304, .i1⟩ : BufTy).Contents (Elt F) → (⟨S4194304, .i1⟩ : BufTy).Contents (Elt F)),
    StableHlo.unary main_v831 main_v832 ((extui 32 · natLt_1_32) : (⟨S4194304, .i1⟩ : BufTy).Contents (Elt F) → (⟨S4194304, .i32⟩ : BufTy).Contents (Elt F)) ]
theorem main_part19_ops4_sub : (main_part19_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call71), window 19 (statements 1141 … 1200), in order:
    main_call71_call0_c … main_v833. -/
abbrev main_part19_ops5 : List (HloOp τ sig (Elt F)) :=
  [ StableHlo.TRef.nullary (.of main_call71_call0_c : StableHlo.TRef sig ⟨S_, .i32⟩) (constantI S_ 32 0#32),
    StableHlo.TRef.unary (.of main_call71_call0_c : StableHlo.TRef sig ⟨S_, .i32⟩) (.of main_call71_call0_v0 : StableHlo.TRef sig ⟨S_, .i32⟩) (broadcastInDim S_ ![] bcast_S_S_),
    StableHlo.TRef.binary (.of main_v832 : StableHlo.TRef sig ⟨S4194304, .i32⟩) (.of main_call71_call0_v0 : StableHlo.TRef sig ⟨S_, .i32⟩) (.of main_v833 : StableHlo.TRef sig ⟨S4194304, .i32⟩) (fun x v => Host.reduceWindow IntOp.addi ![4194304] ![1] ![4194303] ![0] x v reduceWindows_S4194304_S4194304_w4194304s1p4194303_0 h_S_) ]
theorem main_part19_ops5_sub : (main_part19_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 19 (statements 1141 … 1200), in order:
    main_v834 … main_v837. -/
abbrev main_part19_ops6 : List (HloOp τ sig (Elt F)) :=
  [ StableHlo.unary main_v833 main_v834 ((extractStridedSlice S1 ![4194303] · slices_S4194304_S1_4194303) : (⟨S4194304, .i32⟩ : BufTy).Contents (Elt F) → (⟨S1, .i32⟩ : BufTy).Contents (Elt F)),
    StableHlo.reshape main_v834 main_v835 rfl shapeCasts_S1_S_,
    StableHlo.nullary main_c_353 (constantI S_ 32 1#32),
    StableHlo.unary main_c_353 main_v836 (broadcastInDim S4194304 ![] bcast_S_S4194304 : (⟨S_, .i32⟩ : BufTy).Contents (Elt F) → (⟨S4194304, .i32⟩ : BufTy).Contents (Elt F)),
    StableHlo.binary main_v833 main_v836 main_v837 (cmpi .eq : (⟨S4194304, .i32⟩ : BufTy).Contents (Elt F) → (⟨S4194304, .i32⟩ : BufTy).Contents (Elt F) → (⟨S4194304, .i1⟩ : BufTy).Contents (Elt F)) ]
theorem main_part19_ops6_sub : (main_part19_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call72), window 19 (statements 1141 … 1200), in order:
    main_call72_v0 … main_v838. -/
abbrev main_part19_ops7 : List (HloOp τ sig (Elt F)) :=
  [ StableHlo.TRef.nullary (.of main_call72_v0 : StableHlo.TRef sig ⟨S4194304, .i32⟩) (iotaInDim S4194304 32 0),
    StableHlo.TRef.nullary (.of main_call72_c : StableHlo.TRef sig ⟨S_, .i1⟩) (constantI S_ 1 0#1),
    StableHlo.TRef.nullary (.of main_call72_c_0 : StableHlo.TRef sig ⟨S_, .i32⟩) (constantI S_ 32 0#32),
    StableHlo.TRef.quaternary (.of main_v837 : StableHlo.TRef sig ⟨S4194304, .i1⟩) (.of main_call72_v0 : StableHlo.TRef sig ⟨S4194304, .i32⟩) (.of main_call72_c : StableHlo.TRef sig ⟨S_, .i1⟩) (.of main_call72_c_0 : StableHlo.TRef sig ⟨S_, .i32⟩) (.of main_call72_v1_0 : StableHlo.TRef sig ⟨S_, .i1⟩) (fun x y u v j => (Host.reduce2 reducer_argmax_i1_i32 x y u v reducesTo_S4194304_S_d0 h_S_ j).1),
    StableHlo.TRef.quaternary (.of main_v837 : StableHlo.TRef sig ⟨S4194304, .i1⟩) (.of main_call72_v0 : StableHlo.TRef sig ⟨S4194304, .i32⟩) (.of main_call72_c : StableHlo.TRef sig ⟨S_, .i1⟩) (.of main_call72_c_0 : StableHlo.TRef sig ⟨S_, .i32⟩) (.of main_v838 : StableHlo.TRef sig ⟨S_, .i32⟩) (fun x y u v j => (Host.reduce2 reducer_argmax_i1_i32 x y u v reducesTo_S4194304_S_d0 h_S_ j).2) ]
theorem main_part19_ops7_sub : (main_part19_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 19 (statements 1141 … 1200), in order:
    main_c_354 … main_v840. -/
abbrev main_part19_ops8 : List (HloOp τ sig (Elt F)) :=
  [ StableHlo.nullary main_c_354 (constantI S_ 32 2#32),
    StableHlo.unary main_c_354 main_v839 (broadcastInDim S4194304 ![] bcast_S_S4194304 : (⟨S_, .i32⟩ : BufTy).Contents (Elt F) → (⟨S4194304, .i32⟩ : BufTy).Contents (Elt F)),
    StableHlo.binary main_v833 main_v839 main_v840 (cmpi .eq : (⟨S4194304, .i32⟩ : BufTy).Contents (Elt F) → (⟨S4194304, .i32⟩ : BufTy).Contents (Elt F) → (⟨S4194304, .i1⟩ : BufTy).Contents (Elt F)) ]
theorem main_part19_ops8_sub : (main_part19_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call73), window 19 (statements 1141 … 1200), in order:
    main_call73_v0 … main_v841. -/
abbrev main_part19_ops9 : List (HloOp τ sig (Elt F)) :=
  [ StableHlo.TRef.nullary (.of main_call73_v0 : StableHlo.TRef sig ⟨S4194304, .i32⟩) (iotaInDim S4194304 32 0),
    StableHlo.TRef.nullary (.of main_call73_c : StableHlo.TRef sig ⟨S_, .i1⟩) (constantI S_ 1 0#1),
    StableHlo.TRef.nullary (.of main_call73_c_0 : StableHlo.TRef sig ⟨S_, .i32⟩) (constantI S_ 32 0#32),
    StableHlo.TRef.quaternary (.of main_v840 : StableHlo.TRef sig ⟨S4194304, .i1⟩) (.of main_call73_v0 : StableHlo.TRef sig ⟨S4194304, .i32⟩) (.of main_call73_c : StableHlo.TRef sig ⟨S_, .i1⟩) (.of main_call73_c_0 : StableHlo.TRef sig ⟨S_, .i32⟩) (.of main_call73_v1_0 : StableHlo.TRef sig ⟨S_, .i1⟩) (fun x y u v j => (Host.reduce2 reducer_argmax_i1_i32 x y u v reducesTo_S4194304_S_d0 h_S_ j).1),
    StableHlo.TRef.quaternary (.of main_v840 : StableHlo.TRef sig ⟨S4194304, .i1⟩) (.of main_call73_v0 : StableHlo.TRef sig ⟨S4194304, .i32⟩) (.of main_call73_c : StableHlo.TRef sig ⟨S_, .i1⟩) (.of main_call73_c_0 : StableHlo.TRef sig ⟨S_, .i32⟩) (.of main_v841 : StableHlo.TRef sig ⟨S_, .i32⟩) (fun x y u v j => (Host.reduce2 reducer_argmax_i1_i32 x y u v reducesTo_S4194304_S_d0 h_S_ j).2) ]
theorem main_part19_ops9_sub : (main_part19_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, window 19 (statements 1141 … 1200), in order:
    main_c_355 … main_c_355. -/
abbrev main_part19_ops10 : List (HloOp τ sig (Elt F)) :=
  [ StableHlo.nullary main_c_355 (constantI S_ 32 1#32) ]
theorem main_part19_ops10_sub : (main_part19_ops10 : List (HloOp τ sig (Elt F))).Forall fun op => op.bufs ⊆ StableHlo.tcRefs τ sig :=
  StableHlo.nullary_bufs_sub ..
/-- Window 19's stretches, in order. -/
abbrev part19_opss : List (List (HloOp τ sig (Elt F))) :=
  [ main_part19_ops0,
    main_part19_ops1,
    main_part19_ops2,
    main_part19_ops3,
    main_part19_ops4,
    main_part19_ops5,
    main_part19_ops6,
    main_part19_ops7,
    main_part19_ops8,
    main_part19_ops9,
    main_part19_ops10 ]
theorem part19_opss_sub : (part19_opss : List (List (HloOp τ sig (Elt F)))).Forall fun l => l.Forall fun op => op.bufs ⊆ StableHlo.tcRefs τ sig :=
  ⟨main_part19_ops0_sub, main_part19_ops1_sub, main_part19_ops2_sub, main_part19_ops3_sub, main_part19_ops4_sub, main_part19_ops5_sub, main_part19_ops6_sub, main_part19_ops7_sub, main_part19_ops8_sub, main_part19_ops9_sub, main_part19_ops10_sub⟩

end Cert.ReferenceIdeal.Rn

end
-- ==== Proof.Rf.Ops5.lean ====
/- The reference's @main as operation lists: windows 20 … 23 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 2 host operations of @main, window 20 (statements 1201 … 1260), in order:
    main_v842 … main_v843. -/
abbrev main_part20_ops0 : List (HloOp τ sig (Elt F)) :=
  [ StableHlo.unary main_c_355 main_v842 (broadcastInDim S4194304 ![] bcast_S_S4194304 : (⟨S_, .i32⟩ : BufTy).Contents (Elt F) → (⟨S4194304, .i32⟩ : BufTy).Contents (Elt F)),
    StableHlo.binary main_v833 main_v842 main_v843 (cmpi .eq : (⟨S4194304, .i32⟩ : BufTy).Contents (Elt F) → (⟨S4194304, .i32⟩ : BufTy).Contents (Elt F) → (⟨S4194304, .i1⟩ : BufTy).Contents (Elt F)) ]
theorem main_part20_ops0_sub : (main_part20_ops0 : List (HloOp τ sig (Elt F))).Forall fun op => op.bufs ⊆ StableHlo.tcRefs τ sig :=
  ⟨StableHlo.unary_bufs_sub .., StableHlo.binary_bufs_sub ..⟩
/-- 5 host operations of @argmax (main_call74), window 20 (statements 1201 … 1260), in order:
    main_call74_v0 … main_v844. -/
abbrev main_part20_ops1 : List (HloOp τ sig (Elt F)) :=
  [ StableHlo.TRef.nullary (.of main_call74_v0 : StableHlo.TRef sig ⟨S4194304, .i32⟩) (iotaInDim S4194304 32 0),
    StableHlo.TRef.nullary (.of main_call74_c : StableHlo.TRef sig ⟨S_, .i1⟩) (constantI S_ 1 0#1),
    StableHlo.TRef.nullary (.of main_call74_c_0 : StableHlo.TRef sig ⟨S_, .i32⟩) (constantI S_ 32 0#32),
    StableHlo.TRef.quaternary (.of main_v843 : StableHlo.TRef sig ⟨S4194304, .i1⟩) (.of main_call74_v0 : StableHlo.TRef sig ⟨S4194304, .i32⟩) (.of main_call74_c : StableHlo.TRef sig ⟨S_, .i1⟩) (.of main_call74_c_0 : StableHlo.TRef sig ⟨S_, .i32⟩) (.of main_call74_v1_0 : StableHlo.TRef sig ⟨S_, .i1⟩) (fun x y u v j => (Host.reduce2 reducer_argmax_i1_i32 x y u v reducesTo_S4194304_S_d0 h_S_ j).1),
    StableHlo.TRef.quaternary (.of main_v843 : StableHlo.TRef sig ⟨S4194304, .i1⟩) (.of main_call74_v0 : StableHlo.TRef sig ⟨S4194304, .i32⟩) (.of main_call74_c : StableHlo.TRef sig ⟨S_, .i1⟩) (.of main_call74_c_0 : StableHlo.TRef sig ⟨S_, .i32⟩) (.of main_v844 : StableHlo.TRef sig ⟨S_, .i32⟩) (fun x y u v j => (Host.reduce2 reducer_argmax_i1_i32 x y u v reducesTo_S4194304_S_d0 h_S_ j).2) ]
theorem main_part20_ops1_sub : (main_part20_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 55 host operations of @main, window 20 (statements 1201 … 1260), in order:
    main_c_356 … main_v877. -/
abbrev main_part20_ops2 : List (HloOp τ sig (Elt F)) :=
  ( StableHlo.nullary main_c_356 (constantI S_ 32 0#32)
  :: StableHlo.binary main_v838 main_c_356 main_v845 (cmpi .slt : (⟨S_, .i32⟩ : BufTy).Contents (Elt F) → (⟨S_, .i32⟩ : BufTy).Contents (Elt F) → (⟨S_, .i1⟩ : BufTy).Contents (Elt F))
  :: StableHlo.nullary main_c_357 (constantI S_ 32 4194304#32)
  :: StableHlo.binary main_v838 main_c_357 main_v846 (addi : (⟨S_, .i32⟩ : BufTy).Contents (Elt F) → (⟨S_, .i32⟩ : BufTy).Contents (Elt F) → (⟨S_, .i32⟩ : BufTy).Contents (Elt F))
  :: StableHlo.ternary main_v845 main_v846 main_v838 main_v847 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_358 (constantI S_ 32 0#32)
  :: StableHlo.nullary main_c_359 (constantI S_ 32 0#32)
  :: StableHlo.binary main_c_358 main_c_359 main_v848 (cmpi .slt : (⟨S_, .i32⟩ : BufTy).Contents (Elt F) → (⟨S_, .i32⟩ : BufTy).Contents (Elt F) → (⟨S_, .i1⟩ : BufTy).Contents (Elt F))
  :: StableHlo.nullary main_c_360 (constantI S_ 32 0#32)
  :: StableHlo.nullary main_c_361 (constantI S_ 32 2#32)
  :: StableHlo.binary main_c_360 main_c_361 main_v849 (addi : (⟨S_, .i32⟩ : BufTy).Contents (Elt F) → (⟨S_, .i32⟩ : BufTy).Contents (Elt F) → (⟨S_, .i32⟩ : BufTy).Contents (Elt F))
  :: StableHlo.nullary main_c_362 (constantI S_ 32 0#32)
  :: StableHlo.ternary main_v848 main_v849 main_c_362 main_v850 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v847, main_v850] ⟨S_, .i32⟩ main_v851 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v851 main_v852 rfl shapeCasts_S1x2_S2
  :: StableHlo.nullary main_c_363 (constantI S_ 32 0#32)
  :: StableHlo.binary main_v841 main_c_363 main_v853 (cmpi .slt : (⟨S_, .i32⟩ : BufTy).Contents (Elt F) → (⟨S_, .i32⟩ : BufTy).Contents (Elt F) → (⟨S_, .i1⟩ : BufTy).Contents (Elt F))
  :: StableHlo.nullary main_c_364 (constantI S_ 32 4194304#32)
  :: StableHlo.binary main_v841 main_c_364 main_v854 (addi : (⟨S_, .i32⟩ : BufTy).Contents (Elt F) → (⟨S_, .i32⟩ : BufTy).Contents (Elt F) → (⟨S_, .i32⟩ : BufTy).Contents (Elt F))
  :: StableHlo.ternary main_v853 main_v854 main_v841 main_v855 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_365 (constantI S_ 32 0#32)
  :: StableHlo.nullary main_c_366 (constantI S_ 32 0#32)
  :: StableHlo.binary main_c_365 main_c_366 main_v856 (cmpi .slt : (⟨S_, .i32⟩ : BufTy).Contents (Elt F) → (⟨S_, .i32⟩ : BufTy).Contents (Elt F) → (⟨S_, .i1⟩ : BufTy).Contents (Elt F))
  :: StableHlo.nullary main_c_367 (constantI S_ 32 0#32)
  :: StableHlo.nullary main_c_368 (constantI S_ 32 2#32)
  :: StableHlo.binary main_c_367 main_c_368 main_v857 (addi : (⟨S_, .i32⟩ : BufTy).Contents (Elt F) → (⟨S_, .i32⟩ : BufTy).Contents (Elt F) → (⟨S_, .i32⟩ : BufTy).Contents (Elt F))
  :: StableHlo.nullary main_c_369 (constantI S_ 32 0#32)
  :: StableHlo.ternary main_v856 main_v857 main_c_369 main_v858 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v855, main_v858] ⟨S_, .i32⟩ main_v859 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v859 main_v860 rfl shapeCasts_S1x2_S2
  :: StableHlo.binary main_v852 main_v860 main_v861 (addf : (⟨S2, .f32⟩ : BufTy).Contents (Elt F) → (⟨S2, .f32⟩ : BufTy).Contents (Elt F) → (⟨S2, .f32⟩ : BufTy).Contents (Elt F))
  :: StableHlo.nullary main_c_370 (constantI S_ 32 0#32)
  :: StableHlo.binary main_v844 main_c_370 main_v862 (cmpi .slt : (⟨S_, .i32⟩ : BufTy).Contents (Elt F) → (⟨S_, .i32⟩ : BufTy).Contents (Elt F) → (⟨S_, .i1⟩ : BufTy).Contents (Elt F))
  :: StableHlo.nullary main_c_371 (constantI S_ 32 4194304#32)
  :: StableHlo.binary main_v844 main_c_371 main_v863 (addi : (⟨S_, .i32⟩ : BufTy).Contents (Elt F) → (⟨S_, .i32⟩ : BufTy).Contents (Elt F) → (⟨S_, .i32⟩ : BufTy).Contents (Elt F))
  :: StableHlo.ternary main_v862 main_v863 main_v844 main_v864 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_372 (constantI S_ 32 0#32)
  :: StableHlo.nullary main_c_373 (constantI S_ 32 0#32)
  :: StableHlo.binary main_c_372 main_c_373 main_v865 (cmpi .slt : (⟨S_, .i32⟩ : BufTy).Contents (Elt F) → (⟨S_, .i32⟩ : BufTy).Contents (Elt F) → (⟨S_, .i1⟩ : BufTy).Contents (Elt F))
  :: StableHlo.nullary main_c_374 (constantI S_ 32 0#32)
  :: StableHlo.nullary main_c_375 (constantI S_ 32 2#32)
  :: StableHlo.binary main_c_374 main_c_375 main_v866 (addi : (⟨S_, .i32⟩ : BufTy).Contents (Elt F) → (⟨S_, .i32⟩ : BufTy).Contents (Elt F) → (⟨S_, .i32⟩ : BufTy).Contents (Elt F))
  :: StableHlo.nullary main_c_376 (constantI S_ 32 0#32)
  :: StableHlo.ternary main_v865 main_v866 main_c_376 main_v867 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v864, main_v867] ⟨S_, .i32⟩ main_v868 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v868 main_v869 rfl shapeCasts_S1x2_S2
  :: StableHlo.nullary main_cst_377 (constant S_ .f32 0xBF317218#32)
  :: StableHlo.unary main_cst_377 main_v870 (broadcastInDim S2 ![] bcast_S_S2 : (⟨S_, .f32⟩ : BufTy).Contents (Elt F) → (⟨S2, .f32⟩ : BufTy).Contents (Elt F))
  :: StableHlo.binary main_v869 main_v870 main_v871 (cmpf .ogt : (⟨S2, .f32⟩ : BufTy).Contents (Elt F) → (⟨S2, .f32⟩ : BufTy).Contents (Elt F) → (⟨S2, .i1⟩ : BufTy).Contents (Elt F))
  :: StableHlo.unary main_v869 main_v872 (Host.expm1 : (⟨S2, .f32⟩ : BufTy).Contents (Elt F) → (⟨S2, .f32⟩ : BufTy).Contents (Elt F))
  :: StableHlo.unary main_v872 main_v873 (Host.negf : (⟨S2, .f32⟩ : BufTy).Contents (Elt F) → (⟨S2, .f32⟩ : BufTy).Contents (Elt F))
  :: StableHlo.unary main_v873 main_v874 (Host.log : (⟨S2, .f32⟩ : BufTy).Contents (Elt F) → (⟨S2, .f32⟩ : BufTy).Contents (Elt F))
  :: StableHlo.unary main_v869 main_v875 (Host.exp : (⟨S2, .f32⟩ : BufTy).Contents (Elt F) → (⟨S2, .f32⟩ : BufTy).Contents (Elt F))
  :: StableHlo.unary main_v875 main_v876 (Host.negf : (⟨S2, .f32⟩ : BufTy).Contents (Elt F) → (⟨S2, .f32⟩ : BufTy).Contents (Elt F))
  :: StableHlo.unary main_v876 main_v877 (Host.log1p : (⟨S2, .f32⟩ : BufTy).Contents (Elt F) → (⟨S2, .f32⟩ : BufTy).Contents (Elt F))
  :: [] )
theorem main_part20_ops2_sub : (main_part20_ops2 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call75), window 20 (statements 1201 … 1260), in order:
    main_v878 … main_v878. -/
abbrev main_part20_ops3 : List (HloOp τ sig (Elt F)) :=
  [ StableHlo.TRef.ternary (.of main_v871 : StableHlo.TRef sig ⟨S2, .i1⟩) (.of main_v874 : StableHlo.TRef sig ⟨S2, .f32⟩) (.of main_v877 : StableHlo.TRef sig ⟨S2, .f32⟩) (.of main_v878 : StableHlo.TRef sig ⟨S2, .f32⟩) select ]
theorem main_part20_ops3_sub : (main_part20_ops3 : List (HloOp τ sig (Elt F))).Forall fun op => op.bufs ⊆ StableHlo.tcRefs τ sig :=
  StableHlo.ternary_bufs_sub ..
/-- 1 host operation of @main, window 20 (statements 1201 … 1260), in order:
    main_v879 … main_v879. -/
abbrev main_part20_ops4 : List (HloOp τ sig (Elt F)) :=
  [ StableHlo.binary main_v861 main_v878 main_v879 (subf : (⟨S2, .f32⟩ : BufTy).Contents (Elt F) → (⟨S2, .f32⟩ : BufTy).Contents (Elt F) → (⟨S2, .f32⟩ : BufTy).Contents (Elt F)) ]
theorem main_part20_ops4_sub : (main_part20_ops4 : List (HloOp τ sig (Elt F))).Forall fun op => op.bufs ⊆ StableHlo.tcRefs τ sig :=
  StableHlo.binary_bufs_sub ..
/-- Window 20's stretches, in order. -/
abbrev part20_opss : List (List (HloOp τ sig (Elt F))) :=
  [ main_part20_ops0,
    main_part20_ops1,
    main_part20_ops2,
    main_part20_ops3,
    main_part20_ops4 ]
theorem part20_opss_sub : (part20_opss : List (List (HloOp τ sig (Elt F)))).Forall fun l => l.Forall fun op => op.bufs ⊆ StableHlo.tcRefs τ sig :=
  ⟨main_part20_ops0_sub, main_part20_ops1_sub, main_part20_ops2_sub, main_part20_ops3_sub, main_part20_ops4_sub⟩

/-- 5 host operations of @main, window 21 (statements 1261 … 1320), in order:
    main_cst_378 … main_cst_380. -/
abbrev main_part21_ops0 : List (HloOp τ sig (Elt F)) :=
  [ StableHlo.nullary main_cst_378 (constant S_ .f32 0x00000000#32),
    StableHlo.binary main_v879 main_cst_378 main_v880 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_379 (constantI S_ 32 0#32),
    StableHlo.binary main_v835 main_c_379 main_v881 (cmpi .sgt : (⟨S_, .i32⟩ : BufTy).Contents (Elt F) → (⟨S_, .i32⟩ : BufTy).Contents (Elt F) → (⟨S_, .i1⟩ : BufTy).Contents (Elt F)),
    StableHlo.nullary main_cst_380 (constant S_ .f32 0x00000000#32) ]
theorem main_part21_ops0_sub : (main_part21_ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub ..⟩
/-- 1 host operation of @_where_4 (main_call76), window 21 (statements 1261 … 1320), in order:
    main_v882 … main_v882. -/
abbrev main_part21_ops1 : List (HloOp τ sig (Elt F)) :=
  [ StableHlo.TRef.ternary (.of main_v881 : StableHlo.TRef sig ⟨S_, .i1⟩) (.of main_v880 : StableHlo.TRef sig ⟨S_, .f32⟩) (.of main_cst_380 : StableHlo.TRef sig ⟨S_, .f32⟩) (.of main_v882 : StableHlo.TRef sig ⟨S_, .f32⟩) select ]
theorem main_part21_ops1_sub : (main_part21_ops1 : List (HloOp τ sig (Elt F))).Forall fun op => op.bufs ⊆ StableHlo.tcRefs τ sig :=
  StableHlo.ternary_bufs_sub ..
/-- 13 host operations of @main, window 21 (statements 1261 … 1320), in order:
    main_v883 … main_v892. -/
abbrev main_part21_ops2 : List (HloOp τ sig (Elt F)) :=
  [ StableHlo.binary main_v823 main_v882 main_v883 (subf : (⟨S_, .f32⟩ : BufTy).Contents (Elt F) → (⟨S_, .f32⟩ : BufTy).Contents (Elt F) → (⟨S_, .f32⟩ : BufTy).Contents (Elt F)),
    StableHlo.nullary main_c_381 (constantI S_ 32 2#32),
    StableHlo.unary main_c_381 main_v884 (broadcastInDim S4194304 ![] bcast_S_S4194304 : (⟨S_, .i32⟩ : BufTy).Contents (Elt F) → (⟨S4194304, .i32⟩ : BufTy).Contents (Elt F)),
    StableHlo.binary main_v25 main_v884 main_v885 (cmpi .eq : (⟨S4194304, .i32⟩ : BufTy).Contents (Elt F) → (⟨S4194304, .i32⟩ : BufTy).Contents (Elt F) → (⟨S4194304, .i1⟩ : BufTy).Contents (Elt F)),
    StableHlo.nullary main_c_382 (constantI S_ 32 4#32),
    StableHlo.unary main_c_382 main_v886 (broadcastInDim S4194304 ![] bcast_S_S4194304 : (⟨S_, .i32⟩ : BufTy).Contents (Elt F) → (⟨S4194304, .i32⟩ : BufTy).Contents (Elt F)),
    StableHlo.binary main_v51 main_v886 main_v887 (cmpi .eq : (⟨S4194304, .i32⟩ : BufTy).Contents (Elt F) → (⟨S4194304, .i32⟩ : BufTy).Contents (Elt F) → (⟨S4194304, .i1⟩ : BufTy).Contents (Elt F)),
    StableHlo.binary main_v885 main_v887 main_v888 (andi : (⟨S4194304, .i1⟩ : BufTy).Contents (Elt F) → (⟨S4194304, .i1⟩ : BufTy).Contents (Elt F) → (⟨S4194304, .i1⟩ : BufTy).Contents (Elt F)),
    StableHlo.nullary main_c_383 (constantI S_ 32 2#32),
    StableHlo.unary main_c_383 main_v889 (broadcastInDim S4194304 ![] bcast_S_S4194304 : (⟨S_, .i32⟩ : BufTy).Contents (Elt F) → (⟨S4194304, .i32⟩ : BufTy).Contents (Elt F)),
    StableHlo.binary main_v77 main_v889 main_v890 (cmpi .eq : (⟨S4194304, .i32⟩ : BufTy).Contents (Elt F) → (⟨S4194304, .i32⟩ : BufTy).Contents (Elt F) → (⟨S4194304, .i1⟩ : BufTy).Contents (Elt F)),
    StableHlo.binary main_v888 main_v890 main_v891 (andi : (⟨S4194304, .i1⟩ : BufTy).Contents (Elt F) → (⟨S4194304, .i1⟩ : BufTy).Contents (Elt F) → (⟨S4194304, .i1⟩ : BufTy).Contents (Elt F)),
    StableHlo.unary main_v891 main_v892 ((extui 32 · natLt_1_32) : (⟨S4194304, .i1⟩ : BufTy).Contents (Elt F) → (⟨S4194304, .i32⟩ : BufTy).Contents (Elt F)) ]
theorem main_part21_ops2_sub : (main_part21_ops2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call77), window 21 (statements 1261 … 1320), in order:
    main_call77_call0_c … main_v893. -/
abbrev main_part21_ops3 : List (HloOp τ sig (Elt F)) :=
  [ StableHlo.TRef.nullary (.of main_call77_call0_c : StableHlo.TRef sig ⟨S_, .i32⟩) (constantI S_ 32 0#32),
    StableHlo.TRef.unary (.of main_call77_call0_c : StableHlo.TRef sig ⟨S_, .i32⟩) (.of main_call77_call0_v0 : StableHlo.TRef sig ⟨S_, .i32⟩) (broadcastInDim S_ ![] bcast_S_S_),
    StableHlo.TRef.binary (.of main_v892 : StableHlo.TRef sig ⟨S4194304, .i32⟩) (.of main_call77_call0_v0 : StableHlo.TRef sig ⟨S_, .i32⟩) (.of main_v893 : StableHlo.TRef sig ⟨S4194304, .i32⟩) (fun x v => Host.reduceWindow IntOp.addi ![4194304] ![1] ![4194303] ![0] x v reduceWindows_S4194304_S4194304_w4194304s1p4194303_0 h_S_) ]
theorem main_part21_ops3_sub : (main_part21_ops3 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 21 (statements 1261 … 1320), in order:
    main_v894 … main_v897. -/
abbrev main_part21_ops4 : List (HloOp τ sig (Elt F)) :=
  [ StableHlo.unary main_v893 main_v894 ((extractStridedSlice S1 ![4194303] · slices_S4194304_S1_4194303) : (⟨S4194304, .i32⟩ : BufTy).Contents (Elt F) → (⟨S1, .i32⟩ : BufTy).Contents (Elt F)),
    StableHlo.reshape main_v894 main_v895 rfl shapeCasts_S1_S_,
    StableHlo.nullary main_c_384 (constantI S_ 32 1#32),
    StableHlo.unary main_c_384 main_v896 (broadcastInDim S4194304 ![] bcast_S_S4194304 : (⟨S_, .i32⟩ : BufTy).Contents (Elt F) → (⟨S4194304, .i32⟩ : BufTy).Contents (Elt F)),
    StableHlo.binary main_v893 main_v896 main_v897 (cmpi .eq : (⟨S4194304, .i32⟩ : BufTy).Contents (Elt F) → (⟨S4194304, .i32⟩ : BufTy).Contents (Elt F) → (⟨S4194304, .i1⟩ : BufTy).Contents (Elt F)) ]
theorem main_part21_ops4_sub : (main_part21_ops4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call78), window 21 (statements 1261 … 1320), in order:
    main_call78_v0 … main_v898. -/
abbrev main_part21_ops5 : List (HloOp τ sig (Elt F)) :=
  [ StableHlo.TRef.nullary (.of main_call78_v0 : StableHlo.TRef sig ⟨S4194304, .i32⟩) (iotaInDim S4194304 32 0),
    StableHlo.TRef.nullary (.of main_call78_c : StableHlo.TRef sig ⟨S_, .i1⟩) (constantI S_ 1 0#1),
    StableHlo.TRef.nullary (.of main_call78_c_0 : StableHlo.TRef sig ⟨S_, .i32⟩) (constantI S_ 32 0#32),
    StableHlo.TRef.quaternary (.of main_v897 : StableHlo.TRef sig ⟨S4194304, .i1⟩) (.of main_call78_v0 : StableHlo.TRef sig ⟨S4194304, .i32⟩) (.of main_call78_c : StableHlo.TRef sig ⟨S_, .i1⟩) (.of main_call78_c_0 : StableHlo.TRef sig ⟨S_, .i32⟩) (.of main_call78_v1_0 : StableHlo.TRef sig ⟨S_, .i1⟩) (fun x y u v j => (Host.reduce2 reducer_argmax_i1_i32 x y u v reducesTo_S4194304_S_d0 h_S_ j).1),
    StableHlo.TRef.quaternary (.of main_v897 : StableHlo.TRef sig ⟨S4194304, .i1⟩) (.of main_call78_v0 : StableHlo.TRef sig ⟨S4194304, .i32⟩) (.of main_call78_c : StableHlo.TRef sig ⟨S_, .i1⟩) (.of main_call78_c_0 : StableHlo.TRef sig ⟨S_, .i32⟩) (.of main_v898 : StableHlo.TRef sig ⟨S_, .i32⟩) (fun x y u v j => (Host.reduce2 reducer_argmax_i1_i32 x y u v reducesTo_S4194304_S_d0 h_S_ j).2) ]
theorem main_part21_ops5_sub : (main_part21_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 21 (statements 1261 … 1320), in order:
    main_c_385 … main_v900. -/
abbrev main_part21_ops6 : List (HloOp τ sig (Elt F)) :=
  [ StableHlo.nullary main_c_385 (constantI S_ 32 2#32),
    StableHlo.unary main_c_385 main_v899 (broadcastInDim S4194304 ![] bcast_S_S4194304 : (⟨S_, .i32⟩ : BufTy).Contents (Elt F) → (⟨S4194304, .i32⟩ : BufTy).Contents (Elt F)),
    StableHlo.binary main_v893 main_v899 main_v900 (cmpi .eq : (⟨S4194304, .i32⟩ : BufTy).Contents (Elt F) → (⟨S4194304, .i32⟩ : BufTy).Contents (Elt F) → (⟨S4194304, .i1⟩ : BufTy).Contents (Elt F)) ]
theorem main_part21_ops6_sub : (main_part21_ops6 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call79), window 21 (statements 1261 … 1320), in order:
    main_call79_v0 … main_v901. -/
abbrev main_part21_ops7 : List (HloOp τ sig (Elt F)) :=
  [ StableHlo.TRef.nullary (.of main_call79_v0 : StableHlo.TRef sig ⟨S4194304, .i32⟩) (iotaInDim S4194304 32 0),
    StableHlo.TRef.nullary (.of main_call79_c : StableHlo.TRef sig ⟨S_, .i1⟩) (constantI S_ 1 0#1),
    StableHlo.TRef.nullary (.of main_call79_c_0 : StableHlo.TRef sig ⟨S_, .i32⟩) (constantI S_ 32 0#32),
    StableHlo.TRef.quaternary (.of main_v900 : StableHlo.TRef sig ⟨S4194304, .i1⟩) (.of main_call79_v0 : StableHlo.TRef sig ⟨S4194304, .i32⟩) (.of main_call79_c : StableHlo.TRef sig ⟨S_, .i1⟩) (.of main_call79_c_0 : StableHlo.TRef sig ⟨S_, .i32⟩) (.of main_call79_v1_0 : StableHlo.TRef sig ⟨S_, .i1⟩) (fun x y u v j => (Host.reduce2 reducer_argmax_i1_i32 x y u v reducesTo_S4194304_S_d0 h_S_ j).1),
    StableHlo.TRef.quaternary (.of main_v900 : StableHlo.TRef sig ⟨S4194304, .i1⟩) (.of main_call79_v0 : StableHlo.TRef sig ⟨S4194304, .i32⟩) (.of main_call79_c : StableHlo.TRef sig ⟨S_, .i1⟩) (.of main_call79_c_0 : StableHlo.TRef sig ⟨S_, .i32⟩) (.of main_v901 : StableHlo.TRef sig ⟨S_, .i32⟩) (fun x y u v j => (Host.reduce2 reducer_argmax_i1_i32 x y u v reducesTo_S4194304_S_d0 h_S_ j).2) ]
theorem main_part21_ops7_sub : (main_part21_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 21 (statements 1261 … 1320), in order:
    main_c_386 … main_v903. -/
abbrev main_part21_ops8 : List (HloOp τ sig (Elt F)) :=
  [ StableHlo.nullary main_c_386 (constantI S_ 32 1#32),
    StableHlo.unary main_c_386 main_v902 (broadcastInDim S4194304 ![] bcast_S_S4194304 : (⟨S_, .i32⟩ : BufTy).Contents (Elt F) → (⟨S4194304, .i32⟩ : BufTy).Contents (Elt F)),
    StableHlo.binary main_v893 main_v902 main_v903 (cmpi .eq : (⟨S4194304, .i32⟩ : BufTy).Contents (Elt F) → (⟨S4194304, .i32⟩ : BufTy).Contents (Elt F) → (⟨S4194304, .i1⟩ : BufTy).Contents (Elt F)) ]
theorem main_part21_ops8_sub : (main_part21_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call80), window 21 (statements 1261 … 1320), in order:
    main_call80_v0 … main_v904. -/
abbrev main_part21_ops9 : List (HloOp τ sig (Elt F)) :=
  [ StableHlo.TRef.nullary (.of main_call80_v0 : StableHlo.TRef sig ⟨S4194304, .i32⟩) (iotaInDim S4194304 32 0),
    StableHlo.TRef.nullary (.of main_call80_c : StableHlo.TRef sig ⟨S_, .i1⟩) (constantI S_ 1 0#1),
    StableHlo.TRef.nullary (.of main_call80_c_0 : StableHlo.TRef sig ⟨S_, .i32⟩) (constantI S_ 32 0#32),
    StableHlo.TRef.quaternary (.of main_v903 : StableHlo.TRef sig ⟨S4194304, .i1⟩) (.of main_call80_v0 : StableHlo.TRef sig ⟨S4194304, .i32⟩) (.of main_call80_c : StableHlo.TRef sig ⟨S_, .i1⟩) (.of main_call80_c_0 : StableHlo.TRef sig ⟨S_, .i32⟩) (.of main_call80_v1_0 : StableHlo.TRef sig ⟨S_, .i1⟩) (fun x y u v j => (Host.reduce2 reducer_argmax_i1_i32 x y u v reducesTo_S4194304_S_d0 h_S_ j).1),
    StableHlo.TRef.quaternary (.of main_v903 : StableHlo.TRef sig ⟨S4194304, .i1⟩) (.of main_call80_v0 : StableHlo.TRef sig ⟨S4194304, .i32⟩) (.of main_call80_c : StableHlo.TRef sig ⟨S_, .i1⟩) (.of main_call80_c_0 : StableHlo.TRef sig ⟨S_, .i32⟩) (.of main_v904 : StableHlo.TRef sig ⟨S_, .i32⟩) (fun x y u v j => (Host.reduce2 reducer_argmax_i1_i32 x y u v reducesTo_S4194304_S_d0 h_S_ j).2) ]
theorem main_part21_ops9_sub : (main_part21_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 26 host operations of @main, window 21 (statements 1261 … 1320), in order:
    main_c_387 … main_v917. -/
abbrev main_part21_ops10 : List (HloOp τ sig (Elt F)) :=
  [ StableHlo.nullary main_c_387 (constantI S_ 32 0#32),
    StableHlo.binary main_v898 main_c_387 main_v905 (cmpi .slt : (⟨S_, .i32⟩ : BufTy).Contents (Elt F) → (⟨S_, .i32⟩ : BufTy).Contents (Elt F) → (⟨S_, .i1⟩ : BufTy).Contents (Elt F)),
    StableHlo.nullary main_c_388 (constantI S_ 32 4194304#32),
    StableHlo.binary main_v898 main_c_388 main_v906 (addi : (⟨S_, .i32⟩ : BufTy).Contents (Elt F) → (⟨S_, .i32⟩ : BufTy).Contents (Elt F) → (⟨S_, .i32⟩ : BufTy).Contents (Elt F)),
    StableHlo.ternary main_v905 main_v906 main_v898 main_v907 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_389 (constantI S_ 32 0#32),
    StableHlo.nullary main_c_390 (constantI S_ 32 0#32),
    StableHlo.binary main_c_389 main_c_390 main_v908 (cmpi .slt : (⟨S_, .i32⟩ : BufTy).Contents (Elt F) → (⟨S_, .i32⟩ : BufTy).Contents (Elt F) → (⟨S_, .i1⟩ : BufTy).Contents (Elt F)),
    StableHlo.nullary main_c_391 (constantI S_ 32 0#32),
    StableHlo.nullary main_c_392 (constantI S_ 32 2#32),
    StableHlo.binary main_c_391 main_c_392 main_v909 (addi : (⟨S_, .i32⟩ : BufTy).Contents (Elt F) → (⟨S_, .i32⟩ : BufTy).Contents (Elt F) → (⟨S_, .i32⟩ : BufTy).Contents (Elt F)),
    StableHlo.nullary main_c_393 (constantI S_ 32 0#32),
    StableHlo.ternary main_v908 main_v909 main_c_393 main_v910 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v907, main_v910] ⟨S_, .i32⟩ main_v911 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v911 main_v912 rfl shapeCasts_S1x2_S2,
    StableHlo.nullary main_c_394 (constantI S_ 32 0#32),
    StableHlo.binary main_v901 main_c_394 main_v913 (cmpi .slt : (⟨S_, .i32⟩ : BufTy).Contents (Elt F) → (⟨S_, .i32⟩ : BufTy).Contents (Elt F) → (⟨S_, .i1⟩ : BufTy).Contents (Elt F)),
    StableHlo.nullary main_c_395 (constantI S_ 32 4194304#32),
    StableHlo.binary main_v901 main_c_395 main_v914 (addi : (⟨S_, .i32⟩ : BufTy).Contents (Elt F) → (⟨S_, .i32⟩ : BufTy).Contents (Elt F) → (⟨S_, .i32⟩ : BufTy).Contents (Elt F)),
    StableHlo.ternary main_v913 main_v914 main_v901 main_v915 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_396 (constantI S_ 32 0#32),
    StableHlo.nullary main_c_397 (constantI S_ 32 0#32),
    StableHlo.binary main_c_396 main_c_397 main_v916 (cmpi .slt : (⟨S_, .i32⟩ : BufTy).Contents (Elt F) → (⟨S_, .i32⟩ : BufTy).Contents (Elt F) → (⟨S_, .i1⟩ : BufTy).Contents (Elt F)),
    StableHlo.nullary main_c_398 (constantI S_ 32 0#32),
    StableHlo.nullary main_c_399 (constantI S_ 32 2#32),
    StableHlo.binary main_c_398 main_c_399 main_v917 (addi : (⟨S_, .i32⟩ : BufTy).Contents (Elt F) → (⟨S_, .i32⟩ : BufTy).Contents (Elt F) → (⟨S_, .i32⟩ : BufTy).Contents (Elt F)) ]
theorem main_part21_ops10_sub : (main_part21_ops10 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub ..⟩
/-- Window 21's stretches, in order. -/
abbrev part21_opss : List (List (HloOp τ sig (Elt F))) :=
  [ main_part21_ops0,
    main_part21_ops1,
    main_part21_ops2,
    main_part21_ops3,
    main_part21_ops4,
    main_part21_ops5,
    main_part21_ops6,
    main_part21_ops7,
    main_part21_ops8,
    main_part21_ops9,
    main_part21_ops10 ]
theorem part21_opss_sub : (part21_opss : List (List (HloOp τ sig (Elt F)))).Forall fun l => l.Forall fun op => op.bufs ⊆ StableHlo.tcRefs τ sig :=
  ⟨main_part21_ops0_sub, main_part21_ops1_sub, main_part21_ops2_sub, main_part21_ops3_sub, main_part21_ops4_sub, main_part21_ops5_sub, main_part21_ops6_sub, main_part21_ops7_sub, main_part21_ops8_sub, main_part21_ops9_sub, main_part21_ops10_sub⟩

/-- 29 host operations of @main, window 22 (statements 1321 … 1380), in order:
    main_c_400 … main_v937. -/
abbrev main_part22_ops0 : List (HloOp τ sig (Elt F)) :=
  [ StableHlo.nullary main_c_400 (constantI S_ 32 0#32),
    StableHlo.ternary main_v916 main_v917 main_c_400 main_v918 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg1 ![main_v915, main_v918] ⟨S_, .i32⟩ main_v919 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v919 main_v920 rfl shapeCasts_S1x2_S2,
    StableHlo.binary main_v912 main_v920 main_v921 (addf : (⟨S2, .f32⟩ : BufTy).Contents (Elt F) → (⟨S2, .f32⟩ : BufTy).Contents (Elt F) → (⟨S2, .f32⟩ : BufTy).Contents (Elt F)),
    StableHlo.nullary main_c_401 (constantI S_ 32 0#32),
    StableHlo.binary main_v904 main_c_401 main_v922 (cmpi .slt : (⟨S_, .i32⟩ : BufTy).Contents (Elt F) → (⟨S_, .i32⟩ : BufTy).Contents (Elt F) → (⟨S_, .i1⟩ : BufTy).Contents (Elt F)),
    StableHlo.nullary main_c_402 (constantI S_ 32 4194304#32),
    StableHlo.binary main_v904 main_c_402 main_v923 (addi : (⟨S_, .i32⟩ : BufTy).Contents (Elt F) → (⟨S_, .i32⟩ : BufTy).Contents (Elt F) → (⟨S_, .i32⟩ : BufTy).Contents (Elt F)),
    StableHlo.ternary main_v922 main_v923 main_v904 main_v924 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_403 (constantI S_ 32 0#32),
    StableHlo.nullary main_c_404 (constantI S_ 32 0#32),
    StableHlo.binary main_c_403 main_c_404 main_v925 (cmpi .slt : (⟨S_, .i32⟩ : BufTy).Contents (Elt F) → (⟨S_, .i32⟩ : BufTy).Contents (Elt F) → (⟨S_, .i1⟩ : BufTy).Contents (Elt F)),
    StableHlo.nullary main_c_405 (constantI S_ 32 0#32),
    StableHlo.nullary main_c_406 (constantI S_ 32 2#32),
    StableHlo.binary main_c_405 main_c_406 main_v926 (addi : (⟨S_, .i32⟩ : BufTy).Contents (Elt F) → (⟨S_, .i32⟩ : BufTy).Contents (Elt F) → (⟨S_, .i32⟩ : BufTy).Contents (Elt F)),
    StableHlo.nullary main_c_407 (constantI S_ 32 0#32),
    StableHlo.ternary main_v925 main_v926 main_c_407 main_v927 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v924, main_v927] ⟨S_, .i32⟩ main_v928 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v928 main_v929 rfl shapeCasts_S1x2_S2,
    StableHlo.nullary main_cst_408 (constant S_ .f32 0xBF317218#32),
    StableHlo.unary main_cst_408 main_v930 (broadcastInDim S2 ![] bcast_S_S2 : (⟨S_, .f32⟩ : BufTy).Contents (Elt F) → (⟨S2, .f32⟩ : BufTy).Contents (Elt F)),
    StableHlo.binary main_v929 main_v930 main_v931 (cmpf .ogt : (⟨S2, .f32⟩ : BufTy).Contents (Elt F) → (⟨S2, .f32⟩ : BufTy).Contents (Elt F) → (⟨S2, .i1⟩ : BufTy).Contents (Elt F)),
    StableHlo.unary main_v929 main_v932 (Host.expm1 : (⟨S2, .f32⟩ : BufTy).Contents (Elt F) → (⟨S2, .f32⟩ : BufTy).Contents (Elt F)),
    StableHlo.unary main_v932 main_v933 (Host.negf : (⟨S2, .f32⟩ : BufTy).Contents (Elt F) → (⟨S2, .f32⟩ : BufTy).Contents (Elt F)),
    StableHlo.unary main_v933 main_v934 (Host.log : (⟨S2, .f32⟩ : BufTy).Contents (Elt F) → (⟨S2, .f32⟩ : BufTy).Contents (Elt F)),
    StableHlo.unary main_v929 main_v935 (Host.exp : (⟨S2, .f32⟩ : BufTy).Contents (Elt F) → (⟨S2, .f32⟩ : BufTy).Contents (Elt F)),
    StableHlo.unary main_v935 main_v936 (Host.negf : (⟨S2, .f32⟩ : BufTy).Contents (Elt F) → (⟨S2, .f32⟩ : BufTy).Contents (Elt F)),
    StableHlo.unary main_v936 main_v937 (Host.log1p : (⟨S2, .f32⟩ : BufTy).Contents (Elt F) → (⟨S2, .f32⟩ : BufTy).Contents (Elt F)) ]
theorem main_part22_ops0_sub : (main_part22_ops0 : List (HloOp τ sig (Elt F))).Forall fun op => op.bufs ⊆ StableHlo.tcRefs τ sig :=
  ⟨StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call81), window 22 (statements 1321 … 1380), in order:
    main_v938 … main_v938. -/
abbrev main_part22_ops1 : List (HloOp τ sig (Elt F)) :=
  [ StableHlo.TRef.ternary (.of main_v931 : StableHlo.TRef sig ⟨S2, .i1⟩) (.of main_v934 : StableHlo.TRef sig ⟨S2, .f32⟩) (.of main_v937 : StableHlo.TRef sig ⟨S2, .f32⟩) (.of main_v938 : StableHlo.TRef sig ⟨S2, .f32⟩) select ]
theorem main_part22_ops1_sub : (main_part22_ops1 : List (HloOp τ sig (Elt F))).Forall fun op => op.bufs ⊆ StableHlo.tcRefs τ sig :=
  StableHlo.ternary_bufs_sub ..
/-- 6 host operations of @main, window 22 (statements 1321 … 1380), in order:
    main_v939 … main_cst_411. -/
abbrev main_part22_ops2 : List (HloOp τ sig (Elt F)) :=
  [ StableHlo.binary main_v921 main_v938 main_v939 (subf : (⟨S2, .f32⟩ : BufTy).Contents (Elt F) → (⟨S2, .f32⟩ : BufTy).Contents (Elt F) → (⟨S2, .f32⟩ : BufTy).Contents (Elt F)),
    StableHlo.nullary main_cst_409 (constant S_ .f32 0x00000000#32),
    StableHlo.binary main_v939 main_cst_409 main_v940 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_410 (constantI S_ 32 0#32),
    StableHlo.binary main_v895 main_c_410 main_v941 (cmpi .sgt : (⟨S_, .i32⟩ : BufTy).Contents (Elt F) → (⟨S_, .i32⟩ : BufTy).Contents (Elt F) → (⟨S_, .i1⟩ : BufTy).Contents (Elt F)),
    StableHlo.nullary main_cst_411 (constant S_ .f32 0x00000000#32) ]
theorem main_part22_ops2_sub : (main_part22_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call82), window 22 (statements 1321 … 1380), in order:
    main_v942 … main_v942. -/
abbrev main_part22_ops3 : List (HloOp τ sig (Elt F)) :=
  [ StableHlo.TRef.ternary (.of main_v941 : StableHlo.TRef sig ⟨S_, .i1⟩) (.of main_v940 : StableHlo.TRef sig ⟨S_, .f32⟩) (.of main_cst_411 : StableHlo.TRef sig ⟨S_, .f32⟩) (.of main_v942 : StableHlo.TRef sig ⟨S_, .f32⟩) select ]
theorem main_part22_ops3_sub : (main_part22_ops3 : List (HloOp τ sig (Elt F))).Forall fun op => op.bufs ⊆ StableHlo.tcRefs τ sig :=
  StableHlo.ternary_bufs_sub ..
/-- 13 host operations of @main, window 22 (statements 1321 … 1380), in order:
    main_v943 … main_v952. -/
abbrev main_part22_ops4 : List (HloOp τ sig (Elt F)) :=
  [ StableHlo.binary main_v883 main_v942 main_v943 (subf : (⟨S_, .f32⟩ : BufTy).Contents (Elt F) → (⟨S_, .f32⟩ : BufTy).Contents (Elt F) → (⟨S_, .f32⟩ : BufTy).Contents (Elt F)),
    StableHlo.nullary main_c_412 (constantI S_ 32 2#32),
    StableHlo.unary main_c_412 main_v944 (broadcastInDim S4194304 ![] bcast_S_S4194304 : (⟨S_, .i32⟩ : BufTy).Contents (Elt F) → (⟨S4194304, .i32⟩ : BufTy).Contents (Elt F)),
    StableHlo.binary main_v25 main_v944 main_v945 (cmpi .eq : (⟨S4194304, .i32⟩ : BufTy).Contents (Elt F) → (⟨S4194304, .i32⟩ : BufTy).Contents (Elt F) → (⟨S4194304, .i1⟩ : BufTy).Contents (Elt F)),
    StableHlo.nullary main_c_413 (constantI S_ 32 5#32),
    StableHlo.unary main_c_413 main_v946 (broadcastInDim S4194304 ![] bcast_S_S4194304 : (⟨S_, .i32⟩ : BufTy).Contents (Elt F) → (⟨S4194304, .i32⟩ : BufTy).Contents (Elt F)),
    StableHlo.binary main_v51 main_v946 main_v947 (cmpi .eq : (⟨S4194304, .i32⟩ : BufTy).Contents (Elt F) → (⟨S4194304, .i32⟩ : BufTy).Contents (Elt F) → (⟨S4194304, .i1⟩ : BufTy).Contents (Elt F)),
    StableHlo.binary main_v945 main_v947 main_v948 (andi : (⟨S4194304, .i1⟩ : BufTy).Contents (Elt F) → (⟨S4194304, .i1⟩ : BufTy).Contents (Elt F) → (⟨S4194304, .i1⟩ : BufTy).Contents (Elt F)),
    StableHlo.nullary main_c_414 (constantI S_ 32 0#32),
    StableHlo.unary main_c_414 main_v949 (broadcastInDim S4194304 ![] bcast_S_S4194304 : (⟨S_, .i32⟩ : BufTy).Contents (Elt F) → (⟨S4194304, .i32⟩ : BufTy).Contents (Elt F)),
    StableHlo.binary main_v77 main_v949 main_v950 (cmpi .eq : (⟨S4194304, .i32⟩ : BufTy).Contents (Elt F) → (⟨S4194304, .i32⟩ : BufTy).Contents (Elt F) → (⟨S4194304, .i1⟩ : BufTy).Contents (Elt F)),
    StableHlo.binary main_v948 main_v950 main_v951 (andi : (⟨S4194304, .i1⟩ : BufTy).Contents (Elt F) → (⟨S4194304, .i1⟩ : BufTy).Contents (Elt F) → (⟨S4194304, .i1⟩ : BufTy).Contents (Elt F)),
    StableHlo.unary main_v951 main_v952 ((extui 32 · natLt_1_32) : (⟨S4194304, .i1⟩ : BufTy).Contents (Elt F) → (⟨S4194304, .i32⟩ : BufTy).Contents (Elt F)) ]
theorem main_part22_ops4_sub : (main_part22_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call83), window 22 (statements 1321 … 1380), in order:
    main_call83_call0_c … main_v953. -/
abbrev main_part22_ops5 : List (HloOp τ sig (Elt F)) :=
  [ StableHlo.TRef.nullary (.of main_call83_call0_c : StableHlo.TRef sig ⟨S_, .i32⟩) (constantI S_ 32 0#32),
    StableHlo.TRef.unary (.of main_call83_call0_c : StableHlo.TRef sig ⟨S_, .i32⟩) (.of main_call83_call0_v0 : StableHlo.TRef sig ⟨S_, .i32⟩) (broadcastInDim S_ ![] bcast_S_S_),
    StableHlo.TRef.binary (.of main_v952 : StableHlo.TRef sig ⟨S4194304, .i32⟩) (.of main_call83_call0_v0 : StableHlo.TRef sig ⟨S_, .i32⟩) (.of main_v953 : StableHlo.TRef sig ⟨S4194304, .i32⟩) (fun x v => Host.reduceWindow IntOp.addi ![4194304] ![1] ![4194303] ![0] x v reduceWindows_S4194304_S4194304_w4194304s1p4194303_0 h_S_) ]
theorem main_part22_ops5_sub : (main_part22_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 22 (statements 1321 … 1380), in order:
    main_v954 … main_v957. -/
abbrev main_part22_ops6 : List (HloOp τ sig (Elt F)) :=
  [ StableHlo.unary main_v953 main_v954 ((extractStridedSlice S1 ![4194303] · slices_S4194304_S1_4194303) : (⟨S4194304, .i32⟩ : BufTy).Contents (Elt F) → (⟨S1, .i32⟩ : BufTy).Contents (Elt F)),
    StableHlo.reshape main_v954 main_v955 rfl shapeCasts_S1_S_,
    StableHlo.nullary main_c_415 (constantI S_ 32 1#32),
    StableHlo.unary main_c_415 main_v956 (broadcastInDim S4194304 ![] bcast_S_S4194304 : (⟨S_, .i32⟩ : BufTy).Contents (Elt F) → (⟨S4194304, .i32⟩ : BufTy).Contents (Elt F)),
    StableHlo.binary main_v953 main_v956 main_v957 (cmpi .eq : (⟨S4194304, .i32⟩ : BufTy).Contents (Elt F) → (⟨S4194304, .i32⟩ : BufTy).Contents (Elt F) → (⟨S4194304, .i1⟩ : BufTy).Contents (Elt F)) ]
theorem main_part22_ops6_sub : (main_part22_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call84), window 22 (statements 1321 … 1380), in order:
    main_call84_v0 … main_v958. -/
abbrev main_part22_ops7 : List (HloOp τ sig (Elt F)) :=
  [ StableHlo.TRef.nullary (.of main_call84_v0 : StableHlo.TRef sig ⟨S4194304, .i32⟩) (iotaInDim S4194304 32 0),
    StableHlo.TRef.nullary (.of main_call84_c : StableHlo.TRef sig ⟨S_, .i1⟩) (constantI S_ 1 0#1),
    StableHlo.TRef.nullary (.of main_call84_c_0 : StableHlo.TRef sig ⟨S_, .i32⟩) (constantI S_ 32 0#32),
    StableHlo.TRef.quaternary (.of main_v957 : StableHlo.TRef sig ⟨S4194304, .i1⟩) (.of main_call84_v0 : StableHlo.TRef sig ⟨S4194304, .i32⟩) (.of main_call84_c : StableHlo.TRef sig ⟨S_, .i1⟩) (.of main_call84_c_0 : StableHlo.TRef sig ⟨S_, .i32⟩) (.of main_call84_v1_0 : StableHlo.TRef sig ⟨S_, .i1⟩) (fun x y u v j => (Host.reduce2 reducer_argmax_i1_i32 x y u v reducesTo_S4194304_S_d0 h_S_ j).1),
    StableHlo.TRef.quaternary (.of main_v957 : StableHlo.TRef sig ⟨S4194304, .i1⟩) (.of main_call84_v0 : StableHlo.TRef sig ⟨S4194304, .i32⟩) (.of main_call84_c : StableHlo.TRef sig ⟨S_, .i1⟩) (.of main_call84_c_0 : StableHlo.TRef sig ⟨S_, .i32⟩) (.of main_v958 : StableHlo.TRef sig ⟨S_, .i32⟩) (fun x y u v j => (Host.reduce2 reducer_argmax_i1_i32 x y u v reducesTo_S4194304_S_d0 h_S_ j).2) ]
theorem main_part22_ops7_sub : (main_part22_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 22 (statements 1321 … 1380), in order:
    main_c_416 … main_v960. -/
abbrev main_part22_ops8 : List (HloOp τ sig (Elt F)) :=
  [ StableHlo.nullary main_c_416 (constantI S_ 32 2#32),
    StableHlo.unary main_c_416 main_v959 (broadcastInDim S4194304 ![] bcast_S_S4194304 : (⟨S_, .i32⟩ : BufTy).Contents (Elt F) → (⟨S4194304, .i32⟩ : BufTy).Contents (Elt F)),
    StableHlo.binary main_v953 main_v959 main_v960 (cmpi .eq : (⟨S4194304, .i32⟩ : BufTy).Contents (Elt F) → (⟨S4194304, .i32⟩ : BufTy).Contents (Elt F) → (⟨S4194304, .i1⟩ : BufTy).Contents (Elt F)) ]
theorem main_part22_ops8_sub : (main_part22_ops8 : List (HloOp τ sig (Elt F))).Forall fun op => op.bufs ⊆ StableHlo.tcRefs τ sig :=
  ⟨StableHlo.nullary_bufs_sub .., StableHlo.unary_bufs_sub .., StableHlo.binary_bufs_sub ..⟩
/-- Window 22's stretches, in order. -/
abbrev part22_opss : List (List (HloOp τ sig (Elt F))) :=
  [ main_part22_ops0,
    main_part22_ops1,
    main_part22_ops2,
    main_part22_ops3,
    main_part22_ops4,
    main_part22_ops5,
    main_part22_ops6,
    main_part22_ops7,
    main_part22_ops8 ]
theorem part22_opss_sub : (part22_opss : List (List (HloOp τ sig (Elt F)))).Forall fun l => l.Forall fun op => op.bufs ⊆ StableHlo.tcRefs τ sig :=
  ⟨main_part22_ops0_sub, main_part22_ops1_sub, main_part22_ops2_sub, main_part22_ops3_sub, main_part22_ops4_sub, main_part22_ops5_sub, main_part22_ops6_sub, main_part22_ops7_sub, main_part22_ops8_sub⟩

/-- 5 host operations of @argmax (main_call85), window 23 (statements 1381 … 1440), in order:
    main_call85_v0 … main_v961. -/
abbrev main_part23_ops0 : List (HloOp τ sig (Elt F)) :=
  [ StableHlo.TRef.nullary (.of main_call85_v0 : StableHlo.TRef sig ⟨S4194304, .i32⟩) (iotaInDim S4194304 32 0),
    StableHlo.TRef.nullary (.of main_call85_c : StableHlo.TRef sig ⟨S_, .i1⟩) (constantI S_ 1 0#1),
    StableHlo.TRef.nullary (.of main_call85_c_0 : StableHlo.TRef sig ⟨S_, .i32⟩) (constantI S_ 32 0#32),
    StableHlo.TRef.quaternary (.of main_v960 : StableHlo.TRef sig ⟨S4194304, .i1⟩) (.of main_call85_v0 : StableHlo.TRef sig ⟨S4194304, .i32⟩) (.of main_call85_c : StableHlo.TRef sig ⟨S_, .i1⟩) (.of main_call85_c_0 : StableHlo.TRef sig ⟨S_, .i32⟩) (.of main_call85_v1_0 : StableHlo.TRef sig ⟨S_, .i1⟩) (fun x y u v j => (Host.reduce2 reducer_argmax_i1_i32 x y u v reducesTo_S4194304_S_d0 h_S_ j).1),
    StableHlo.TRef.quaternary (.of main_v960 : StableHlo.TRef sig ⟨S4194304, .i1⟩) (.of main_call85_v0 : StableHlo.TRef sig ⟨S4194304, .i32⟩) (.of main_call85_c : StableHlo.TRef sig ⟨S_, .i1⟩) (.of main_call85_c_0 : StableHlo.TRef sig ⟨S_, .i32⟩) (.of main_v961 : StableHlo.TRef sig ⟨S_, .i32⟩) (fun x y u v j => (Host.reduce2 reducer_argmax_i1_i32 x y u v reducesTo_S4194304_S_d0 h_S_ j).2) ]
theorem main_part23_ops0_sub : (main_part23_ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 23 (statements 1381 … 1440), in order:
    main_c_417 … main_v963. -/
abbrev main_part23_ops1 : List (HloOp τ sig (Elt F)) :=
  [ StableHlo.nullary main_c_417 (constantI S_ 32 1#32),
    StableHlo.unary main_c_417 main_v962 (broadcastInDim S4194304 ![] bcast_S_S4194304 : (⟨S_, .i32⟩ : BufTy).Contents (Elt F) → (⟨S4194304, .i32⟩ : BufTy).Contents (Elt F)),
    StableHlo.binary main_v953 main_v962 main_v963 (cmpi .eq : (⟨S4194304, .i32⟩ : BufTy).Contents (Elt F) → (⟨S4194304, .i32⟩ : BufTy).Contents (Elt F) → (⟨S4194304, .i1⟩ : BufTy).Contents (Elt F)) ]
theorem main_part23_ops1_sub : (main_part23_ops1 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call86), window 23 (statements 1381 … 1440), in order:
    main_call86_v0 … main_v964. -/
abbrev main_part23_ops2 : List (HloOp τ sig (Elt F)) :=
  [ StableHlo.TRef.nullary (.of main_call86_v0 : StableHlo.TRef sig ⟨S4194304, .i32⟩) (iotaInDim S4194304 32 0),
    StableHlo.TRef.nullary (.of main_call86_c : StableHlo.TRef sig ⟨S_, .i1⟩) (constantI S_ 1 0#1),
    StableHlo.TRef.nullary (.of main_call86_c_0 : StableHlo.TRef sig ⟨S_, .i32⟩) (constantI S_ 32 0#32),
    StableHlo.TRef.quaternary (.of main_v963 : StableHlo.TRef sig ⟨S4194304, .i1⟩) (.of main_call86_v0 : StableHlo.TRef sig ⟨S4194304, .i32⟩) (.of main_call86_c : StableHlo.TRef sig ⟨S_, .i1⟩) (.of main_call86_c_0 : StableHlo.TRef sig ⟨S_, .i32⟩) (.of main_call86_v1_0 : StableHlo.TRef sig ⟨S_, .i1⟩) (fun x y u v j => (Host.reduce2 reducer_argmax_i1_i32 x y u v reducesTo_S4194304_S_d0 h_S_ j).1),
    StableHlo.TRef.quaternary (.of main_v963 : StableHlo.TRef sig ⟨S4194304, .i1⟩) (.of main_call86_v0 : StableHlo.TRef sig ⟨S4194304, .i32⟩) (.of main_call86_c : StableHlo.TRef sig ⟨S_, .i1⟩) (.of main_call86_c_0 : StableHlo.TRef sig ⟨S_, .i32⟩) (.of main_v964 : StableHlo.TRef sig ⟨S_, .i32⟩) (fun x y u v j => (Host.reduce2 reducer_argmax_i1_i32 x y u v reducesTo_S4194304_S_d0 h_S_ j).2) ]
theorem main_part23_ops2_sub : (main_part23_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 55 host operations of @main, window 23 (statements 1381 … 1440), in order:
    main_c_418 … main_v997. -/
abbrev main_part23_ops3 : List (HloOp τ sig (Elt F)) :=
  ( StableHlo.nullary main_c_418 (constantI S_ 32 0#32)
  :: StableHlo.binary main_v958 main_c_418 main_v965 (cmpi .slt : (⟨S_, .i32⟩ : BufTy).Contents (Elt F) → (⟨S_, .i32⟩ : BufTy).Contents (Elt F) → (⟨S_, .i1⟩ : BufTy).Contents (Elt F))
  :: StableHlo.nullary main_c_419 (constantI S_ 32 4194304#32)
  :: StableHlo.binary main_v958 main_c_419 main_v966 (addi : (⟨S_, .i32⟩ : BufTy).Contents (Elt F) → (⟨S_, .i32⟩ : BufTy).Contents (Elt F) → (⟨S_, .i32⟩ : BufTy).Contents (Elt F))
  :: StableHlo.ternary main_v965 main_v966 main_v958 main_v967 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_420 (constantI S_ 32 0#32)
  :: StableHlo.nullary main_c_421 (constantI S_ 32 0#32)
  :: StableHlo.binary main_c_420 main_c_421 main_v968 (cmpi .slt : (⟨S_, .i32⟩ : BufTy).Contents (Elt F) → (⟨S_, .i32⟩ : BufTy).Contents (Elt F) → (⟨S_, .i1⟩ : BufTy).Contents (Elt F))
  :: StableHlo.nullary main_c_422 (constantI S_ 32 0#32)
  :: StableHlo.nullary main_c_423 (constantI S_ 32 2#32)
  :: StableHlo.binary main_c_422 main_c_423 main_v969 (addi : (⟨S_, .i32⟩ : BufTy).Contents (Elt F) → (⟨S_, .i32⟩ : BufTy).Contents (Elt F) → (⟨S_, .i32⟩ : BufTy).Contents (Elt F))
  :: StableHlo.nullary main_c_424 (constantI S_ 32 0#32)
  :: StableHlo.ternary main_v968 main_v969 main_c_424 main_v970 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v967, main_v970] ⟨S_, .i32⟩ main_v971 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v971 main_v972 rfl shapeCasts_S1x2_S2
  :: StableHlo.nullary main_c_425 (constantI S_ 32 0#32)
  :: StableHlo.binary main_v961 main_c_425 main_v973 (cmpi .slt : (⟨S_, .i32⟩ : BufTy).Contents (Elt F) → (⟨S_, .i32⟩ : BufTy).Contents (Elt F) → (⟨S_, .i1⟩ : BufTy).Contents (Elt F))
  :: StableHlo.nullary main_c_426 (constantI S_ 32 4194304#32)
  :: StableHlo.binary main_v961 main_c_426 main_v974 (addi : (⟨S_, .i32⟩ : BufTy).Contents (Elt F) → (⟨S_, .i32⟩ : BufTy).Contents (Elt F) → (⟨S_, .i32⟩ : BufTy).Contents (Elt F))
  :: StableHlo.ternary main_v973 main_v974 main_v961 main_v975 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_427 (constantI S_ 32 0#32)
  :: StableHlo.nullary main_c_428 (constantI S_ 32 0#32)
  :: StableHlo.binary main_c_427 main_c_428 main_v976 (cmpi .slt : (⟨S_, .i32⟩ : BufTy).Contents (Elt F) → (⟨S_, .i32⟩ : BufTy).Contents (Elt F) → (⟨S_, .i1⟩ : BufTy).Contents (Elt F))
  :: StableHlo.nullary main_c_429 (constantI S_ 32 0#32)
  :: StableHlo.nullary main_c_430 (constantI S_ 32 2#32)
  :: StableHlo.binary main_c_429 main_c_430 main_v977 (addi : (⟨S_, .i32⟩ : BufTy).Contents (Elt F) → (⟨S_, .i32⟩ : BufTy).Contents (Elt F) → (⟨S_, .i32⟩ : BufTy).Contents (Elt F))
  :: StableHlo.nullary main_c_431 (constantI S_ 32 0#32)
  :: StableHlo.ternary main_v976 main_v977 main_c_431 main_v978 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v975, main_v978] ⟨S_, .i32⟩ main_v979 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v979 main_v980 rfl shapeCasts_S1x2_S2
  :: StableHlo.binary main_v972 main_v980 main_v981 (addf : (⟨S2, .f32⟩ : BufTy).Contents (Elt F) → (⟨S2, .f32⟩ : BufTy).Contents (Elt F) → (⟨S2, .f32⟩ : BufTy).Contents (Elt F))
  :: StableHlo.nullary main_c_432 (constantI S_ 32 0#32)
  :: StableHlo.binary main_v964 main_c_432 main_v982 (cmpi .slt : (⟨S_, .i32⟩ : BufTy).Contents (Elt F) → (⟨S_, .i32⟩ : BufTy).Contents (Elt F) → (⟨S_, .i1⟩ : BufTy).Contents (Elt F))
  :: StableHlo.nullary main_c_433 (constantI S_ 32 4194304#32)
  :: StableHlo.binary main_v964 main_c_433 main_v983 (addi : (⟨S_, .i32⟩ : BufTy).Contents (Elt F) → (⟨S_, .i32⟩ : BufTy).Contents (Elt F) → (⟨S_, .i32⟩ : BufTy).Contents (Elt F))
  :: StableHlo.ternary main_v982 main_v983 main_v964 main_v984 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_434 (constantI S_ 32 0#32)
  :: StableHlo.nullary main_c_435 (constantI S_ 32 0#32)
  :: StableHlo.binary main_c_434 main_c_435 main_v985 (cmpi .slt : (⟨S_, .i32⟩ : BufTy).Contents (Elt F) → (⟨S_, .i32⟩ : BufTy).Contents (Elt F) → (⟨S_, .i1⟩ : BufTy).Contents (Elt F))
  :: StableHlo.nullary main_c_436 (constantI S_ 32 0#32)
  :: StableHlo.nullary main_c_437 (constantI S_ 32 2#32)
  :: StableHlo.binary main_c_436 main_c_437 main_v986 (addi : (⟨S_, .i32⟩ : BufTy).Contents (Elt F) → (⟨S_, .i32⟩ : BufTy).Contents (Elt F) → (⟨S_, .i32⟩ : BufTy).Contents (Elt F))
  :: StableHlo.nullary main_c_438 (constantI S_ 32 0#32)
  :: StableHlo.ternary main_v985 main_v986 main_c_438 main_v987 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v984, main_v987] ⟨S_, .i32⟩ main_v988 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v988 main_v989 rfl shapeCasts_S1x2_S2
  :: StableHlo.nullary main_cst_439 (constant S_ .f32 0xBF317218#32)
  :: StableHlo.unary main_cst_439 main_v990 (broadcastInDim S2 ![] bcast_S_S2 : (⟨S_, .f32⟩ : BufTy).Contents (Elt F) → (⟨S2, .f32⟩ : BufTy).Contents (Elt F))
  :: StableHlo.binary main_v989 main_v990 main_v991 (cmpf .ogt : (⟨S2, .f32⟩ : BufTy).Contents (Elt F) → (⟨S2, .f32⟩ : BufTy).Contents (Elt F) → (⟨S2, .i1⟩ : BufTy).Contents (Elt F))
  :: StableHlo.unary main_v989 main_v992 (Host.expm1 : (⟨S2, .f32⟩ : BufTy).Contents (Elt F) → (⟨S2, .f32⟩ : BufTy).Contents (Elt F))
  :: StableHlo.unary main_v992 main_v993 (Host.negf : (⟨S2, .f32⟩ : BufTy).Contents (Elt F) → (⟨S2, .f32⟩ : BufTy).Contents (Elt F))
  :: StableHlo.unary main_v993 main_v994 (Host.log : (⟨S2, .f32⟩ : BufTy).Contents (Elt F) → (⟨S2, .f32⟩ : BufTy).Contents (Elt F))
  :: StableHlo.unary main_v989 main_v995 (Host.exp : (⟨S2, .f32⟩ : BufTy).Contents (Elt F) → (⟨S2, .f32⟩ : BufTy).Contents (Elt F))
  :: StableHlo.unary main_v995 main_v996 (Host.negf : (⟨S2, .f32⟩ : BufTy).Contents (Elt F) → (⟨S2, .f32⟩ : BufTy).Contents (Elt F))
  :: StableHlo.unary main_v996 main_v997 (Host.log1p : (⟨S2, .f32⟩ : BufTy).Contents (Elt F) → (⟨S2, .f32⟩ : BufTy).Contents (Elt F))
  :: [] )
theorem main_part23_ops3_sub : (main_part23_ops3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- Window 23's stretches, in order. -/
abbrev part23_opss : List (List (HloOp τ sig (Elt F))) :=
  [ main_part23_ops0,
    main_part23_ops1,
    main_part23_ops2,
    main_part23_ops3 ]
theorem part23_opss_sub : (part23_opss : List (List (HloOp τ sig (Elt F)))).Forall fun l => l.Forall fun op => op.bufs ⊆ StableHlo.tcRefs τ sig :=
  ⟨main_part23_ops0_sub, main_part23_ops1_sub, main_part23_ops2_sub, main_part23_ops3_sub⟩

end Cert.ReferenceIdeal.Rn

end
-- ==== Proof.Rf.Ops6.lean ====
/- The reference's @main as operation lists: windows 24 … 27 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 1 host operation of @_where_3 (main_call87), window 24 (statements 1441 … 1500), in order:
    main_v998 … main_v998. -/
abbrev main_part24_ops0 : List (HloOp τ sig (Elt F)) :=
  [ StableHlo.TRef.ternary (.of main_v991 : StableHlo.TRef sig ⟨S2, .i1⟩) (.of main_v994 : StableHlo.TRef sig ⟨S2, .f32⟩) (.of main_v997 : StableHlo.TRef sig ⟨S2, .f32⟩) (.of main_v998 : StableHlo.TRef sig ⟨S2, .f32⟩) select ]
theorem main_part24_ops0_sub : (main_part24_ops0 : List (HloOp τ sig (Elt F))).Forall fun op => op.bufs ⊆ StableHlo.tcRefs τ sig :=
  StableHlo.ternary_bufs_sub ..
/-- 6 host operations of @main, window 24 (statements 1441 … 1500), in order:
    main_v999 … main_cst_442. -/
abbrev main_part24_ops1 : List (HloOp τ sig (Elt F)) :=
  [ StableHlo.binary main_v981 main_v998 main_v999 (subf : (⟨S2, .f32⟩ : BufTy).Contents (Elt F) → (⟨S2, .f32⟩ : BufTy).Contents (Elt F) → (⟨S2, .f32⟩ : BufTy).Contents (Elt F)),
    StableHlo.nullary main_cst_440 (constant S_ .f32 0x00000000#32),
    StableHlo.binary main_v999 main_cst_440 main_v1000 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_441 (constantI S_ 32 0#32),
    StableHlo.binary main_v955 main_c_441 main_v1001 (cmpi .sgt : (⟨S_, .i32⟩ : BufTy).Contents (Elt F) → (⟨S_, .i32⟩ : BufTy).Contents (Elt F) → (⟨S_, .i1⟩ : BufTy).Contents (Elt F)),
    StableHlo.nullary main_cst_442 (constant S_ .f32 0x00000000#32) ]
theorem main_part24_ops1_sub : (main_part24_ops1 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call88), window 24 (statements 1441 … 1500), in order:
    main_v1002 … main_v1002. -/
abbrev main_part24_ops2 : List (HloOp τ sig (Elt F)) :=
  [ StableHlo.TRef.ternary (.of main_v1001 : StableHlo.TRef sig ⟨S_, .i1⟩) (.of main_v1000 : StableHlo.TRef sig ⟨S_, .f32⟩) (.of main_cst_442 : StableHlo.TRef sig ⟨S_, .f32⟩) (.of main_v1002 : StableHlo.TRef sig ⟨S_, .f32⟩) select ]
theorem main_part24_ops2_sub : (main_part24_ops2 : List (HloOp τ sig (Elt F))).Forall fun op => op.bufs ⊆ StableHlo.tcRefs τ sig :=
  StableHlo.ternary_bufs_sub ..
/-- 13 host operations of @main, window 24 (statements 1441 … 1500), in order:
    main_v1003 … main_v1012. -/
abbrev main_part24_ops3 : List (HloOp τ sig (Elt F)) :=
  [ StableHlo.binary main_v943 main_v1002 main_v1003 (subf : (⟨S_, .f32⟩ : BufTy).Contents (Elt F) → (⟨S_, .f32⟩ : BufTy).Contents (Elt F) → (⟨S_, .f32⟩ : BufTy).Contents (Elt F)),
    StableHlo.nullary main_c_443 (constantI S_ 32 2#32),
    StableHlo.unary main_c_443 main_v1004 (broadcastInDim S4194304 ![] bcast_S_S4194304 : (⟨S_, .i32⟩ : BufTy).Contents (Elt F) → (⟨S4194304, .i32⟩ : BufTy).Contents (Elt F)),
    StableHlo.binary main_v25 main_v1004 main_v1005 (cmpi .eq : (⟨S4194304, .i32⟩ : BufTy).Contents (Elt F) → (⟨S4194304, .i32⟩ : BufTy).Contents (Elt F) → (⟨S4194304, .i1⟩ : BufTy).Contents (Elt F)),
    StableHlo.nullary main_c_444 (constantI S_ 32 5#32),
    StableHlo.unary main_c_444 main_v1006 (broadcastInDim S4194304 ![] bcast_S_S4194304 : (⟨S_, .i32⟩ : BufTy).Contents (Elt F) → (⟨S4194304, .i32⟩ : BufTy).Contents (Elt F)),
    StableHlo.binary main_v51 main_v1006 main_v1007 (cmpi .eq : (⟨S4194304, .i32⟩ : BufTy).Contents (Elt F) → (⟨S4194304, .i32⟩ : BufTy).Contents (Elt F) → (⟨S4194304, .i1⟩ : BufTy).Contents (Elt F)),
    StableHlo.binary main_v1005 main_v1007 main_v1008 (andi : (⟨S4194304, .i1⟩ : BufTy).Contents (Elt F) → (⟨S4194304, .i1⟩ : BufTy).Contents (Elt F) → (⟨S4194304, .i1⟩ : BufTy).Contents (Elt F)),
    StableHlo.nullary main_c_445 (constantI S_ 32 2#32),
    StableHlo.unary main_c_445 main_v1009 (broadcastInDim S4194304 ![] bcast_S_S4194304 : (⟨S_, .i32⟩ : BufTy).Contents (Elt F) → (⟨S4194304, .i32⟩ : BufTy).Contents (Elt F)),
    StableHlo.binary main_v77 main_v1009 main_v1010 (cmpi .eq : (⟨S4194304, .i32⟩ : BufTy).Contents (Elt F) → (⟨S4194304, .i32⟩ : BufTy).Contents (Elt F) → (⟨S4194304, .i1⟩ : BufTy).Contents (Elt F)),
    StableHlo.binary main_v1008 main_v1010 main_v1011 (andi : (⟨S4194304, .i1⟩ : BufTy).Contents (Elt F) → (⟨S4194304, .i1⟩ : BufTy).Contents (Elt F) → (⟨S4194304, .i1⟩ : BufTy).Contents (Elt F)),
    StableHlo.unary main_v1011 main_v1012 ((extui 32 · natLt_1_32) : (⟨S4194304, .i1⟩ : BufTy).Contents (Elt F) → (⟨S4194304, .i32⟩ : BufTy).Contents (Elt F)) ]
theorem main_part24_ops3_sub : (main_part24_ops3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call89), window 24 (statements 1441 … 1500), in order:
    main_call89_call0_c … main_v1013. -/
abbrev main_part24_ops4 : List (HloOp τ sig (Elt F)) :=
  [ StableHlo.TRef.nullary (.of main_call89_call0_c : StableHlo.TRef sig ⟨S_, .i32⟩) (constantI S_ 32 0#32),
    StableHlo.TRef.unary (.of main_call89_call0_c : StableHlo.TRef sig ⟨S_, .i32⟩) (.of main_call89_call0_v0 : StableHlo.TRef sig ⟨S_, .i32⟩) (broadcastInDim S_ ![] bcast_S_S_),
    StableHlo.TRef.binary (.of main_v1012 : StableHlo.TRef sig ⟨S4194304, .i32⟩) (.of main_call89_call0_v0 : StableHlo.TRef sig ⟨S_, .i32⟩) (.of main_v1013 : StableHlo.TRef sig ⟨S4194304, .i32⟩) (fun x v => Host.reduceWindow IntOp.addi ![4194304] ![1] ![4194303] ![0] x v reduceWindows_S4194304_S4194304_w4194304s1p4194303_0 h_S_) ]
theorem main_part24_ops4_sub : (main_part24_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 24 (statements 1441 … 1500), in order:
    main_v1014 … main_v1017. -/
abbrev main_part24_ops5 : List (HloOp τ sig (Elt F)) :=
  [ StableHlo.unary main_v1013 main_v1014 ((extractStridedSlice S1 ![4194303] · slices_S4194304_S1_4194303) : (⟨S4194304, .i32⟩ : BufTy).Contents (Elt F) → (⟨S1, .i32⟩ : BufTy).Contents (Elt F)),
    StableHlo.reshape main_v1014 main_v1015 rfl shapeCasts_S1_S_,
    StableHlo.nullary main_c_446 (constantI S_ 32 1#32),
    StableHlo.unary main_c_446 main_v1016 (broadcastInDim S4194304 ![] bcast_S_S4194304 : (⟨S_, .i32⟩ : BufTy).Contents (Elt F) → (⟨S4194304, .i32⟩ : BufTy).Contents (Elt F)),
    StableHlo.binary main_v1013 main_v1016 main_v1017 (cmpi .eq : (⟨S4194304, .i32⟩ : BufTy).Contents (Elt F) → (⟨S4194304, .i32⟩ : BufTy).Contents (Elt F) → (⟨S4194304, .i1⟩ : BufTy).Contents (Elt F)) ]
theorem main_part24_ops5_sub : (main_part24_ops5 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call90), window 24 (statements 1441 … 1500), in order:
    main_call90_v0 … main_v1018. -/
abbrev main_part24_ops6 : List (HloOp τ sig (Elt F)) :=
  [ StableHlo.TRef.nullary (.of main_call90_v0 : StableHlo.TRef sig ⟨S4194304, .i32⟩) (iotaInDim S4194304 32 0),
    StableHlo.TRef.nullary (.of main_call90_c : StableHlo.TRef sig ⟨S_, .i1⟩) (constantI S_ 1 0#1),
    StableHlo.TRef.nullary (.of main_call90_c_0 : StableHlo.TRef sig ⟨S_, .i32⟩) (constantI S_ 32 0#32),
    StableHlo.TRef.quaternary (.of main_v1017 : StableHlo.TRef sig ⟨S4194304, .i1⟩) (.of main_call90_v0 : StableHlo.TRef sig ⟨S4194304, .i32⟩) (.of main_call90_c : StableHlo.TRef sig ⟨S_, .i1⟩) (.of main_call90_c_0 : StableHlo.TRef sig ⟨S_, .i32⟩) (.of main_call90_v1_0 : StableHlo.TRef sig ⟨S_, .i1⟩) (fun x y u v j => (Host.reduce2 reducer_argmax_i1_i32 x y u v reducesTo_S4194304_S_d0 h_S_ j).1),
    StableHlo.TRef.quaternary (.of main_v1017 : StableHlo.TRef sig ⟨S4194304, .i1⟩) (.of main_call90_v0 : StableHlo.TRef sig ⟨S4194304, .i32⟩) (.of main_call90_c : StableHlo.TRef sig ⟨S_, .i1⟩) (.of main_call90_c_0 : StableHlo.TRef sig ⟨S_, .i32⟩) (.of main_v1018 : StableHlo.TRef sig ⟨S_, .i32⟩) (fun x y u v j => (Host.reduce2 reducer_argmax_i1_i32 x y u v reducesTo_S4194304_S_d0 h_S_ j).2) ]
theorem main_part24_ops6_sub : (main_part24_ops6 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 24 (statements 1441 … 1500), in order:
    main_c_447 … main_v1020. -/
abbrev main_part24_ops7 : List (HloOp τ sig (Elt F)) :=
  [ StableHlo.nullary main_c_447 (constantI S_ 32 2#32),
    StableHlo.unary main_c_447 main_v1019 (broadcastInDim S4194304 ![] bcast_S_S4194304 : (⟨S_, .i32⟩ : BufTy).Contents (Elt F) → (⟨S4194304, .i32⟩ : BufTy).Contents (Elt F)),
    StableHlo.binary main_v1013 main_v1019 main_v1020 (cmpi .eq : (⟨S4194304, .i32⟩ : BufTy).Contents (Elt F) → (⟨S4194304, .i32⟩ : BufTy).Contents (Elt F) → (⟨S4194304, .i1⟩ : BufTy).Contents (Elt F)) ]
theorem main_part24_ops7_sub : (main_part24_ops7 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call91), window 24 (statements 1441 … 1500), in order:
    main_call91_v0 … main_v1021. -/
abbrev main_part24_ops8 : List (HloOp τ sig (Elt F)) :=
  [ StableHlo.TRef.nullary (.of main_call91_v0 : StableHlo.TRef sig ⟨S4194304, .i32⟩) (iotaInDim S4194304 32 0),
    StableHlo.TRef.nullary (.of main_call91_c : StableHlo.TRef sig ⟨S_, .i1⟩) (constantI S_ 1 0#1),
    StableHlo.TRef.nullary (.of main_call91_c_0 : StableHlo.TRef sig ⟨S_, .i32⟩) (constantI S_ 32 0#32),
    StableHlo.TRef.quaternary (.of main_v1020 : StableHlo.TRef sig ⟨S4194304, .i1⟩) (.of main_call91_v0 : StableHlo.TRef sig ⟨S4194304, .i32⟩) (.of main_call91_c : StableHlo.TRef sig ⟨S_, .i1⟩) (.of main_call91_c_0 : StableHlo.TRef sig ⟨S_, .i32⟩) (.of main_call91_v1_0 : StableHlo.TRef sig ⟨S_, .i1⟩) (fun x y u v j => (Host.reduce2 reducer_argmax_i1_i32 x y u v reducesTo_S4194304_S_d0 h_S_ j).1),
    StableHlo.TRef.quaternary (.of main_v1020 : StableHlo.TRef sig ⟨S4194304, .i1⟩) (.of main_call91_v0 : StableHlo.TRef sig ⟨S4194304, .i32⟩) (.of main_call91_c : StableHlo.TRef sig ⟨S_, .i1⟩) (.of main_call91_c_0 : StableHlo.TRef sig ⟨S_, .i32⟩) (.of main_v1021 : StableHlo.TRef sig ⟨S_, .i32⟩) (fun x y u v j => (Host.reduce2 reducer_argmax_i1_i32 x y u v reducesTo_S4194304_S_d0 h_S_ j).2) ]
theorem main_part24_ops8_sub : (main_part24_ops8 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 24 (statements 1441 … 1500), in order:
    main_c_448 … main_v1023. -/
abbrev main_part24_ops9 : List (HloOp τ sig (Elt F)) :=
  [ StableHlo.nullary main_c_448 (constantI S_ 32 1#32),
    StableHlo.unary main_c_448 main_v1022 (broadcastInDim S4194304 ![] bcast_S_S4194304 : (⟨S_, .i32⟩ : BufTy).Contents (Elt F) → (⟨S4194304, .i32⟩ : BufTy).Contents (Elt F)),
    StableHlo.binary main_v1013 main_v1022 main_v1023 (cmpi .eq : (⟨S4194304, .i32⟩ : BufTy).Contents (Elt F) → (⟨S4194304, .i32⟩ : BufTy).Contents (Elt F) → (⟨S4194304, .i1⟩ : BufTy).Contents (Elt F)) ]
theorem main_part24_ops9_sub : (main_part24_ops9 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call92), window 24 (statements 1441 … 1500), in order:
    main_call92_v0 … main_v1024. -/
abbrev main_part24_ops10 : List (HloOp τ sig (Elt F)) :=
  [ StableHlo.TRef.nullary (.of main_call92_v0 : StableHlo.TRef sig ⟨S4194304, .i32⟩) (iotaInDim S4194304 32 0),
    StableHlo.TRef.nullary (.of main_call92_c : StableHlo.TRef sig ⟨S_, .i1⟩) (constantI S_ 1 0#1),
    StableHlo.TRef.nullary (.of main_call92_c_0 : StableHlo.TRef sig ⟨S_, .i32⟩) (constantI S_ 32 0#32),
    StableHlo.TRef.quaternary (.of main_v1023 : StableHlo.TRef sig ⟨S4194304, .i1⟩) (.of main_call92_v0 : StableHlo.TRef sig ⟨S4194304, .i32⟩) (.of main_call92_c : StableHlo.TRef sig ⟨S_, .i1⟩) (.of main_call92_c_0 : StableHlo.TRef sig ⟨S_, .i32⟩) (.of main_call92_v1_0 : StableHlo.TRef sig ⟨S_, .i1⟩) (fun x y u v j => (Host.reduce2 reducer_argmax_i1_i32 x y u v reducesTo_S4194304_S_d0 h_S_ j).1),
    StableHlo.TRef.quaternary (.of main_v1023 : StableHlo.TRef sig ⟨S4194304, .i1⟩) (.of main_call92_v0 : StableHlo.TRef sig ⟨S4194304, .i32⟩) (.of main_call92_c : StableHlo.TRef sig ⟨S_, .i1⟩) (.of main_call92_c_0 : StableHlo.TRef sig ⟨S_, .i32⟩) (.of main_v1024 : StableHlo.TRef sig ⟨S_, .i32⟩) (fun x y u v j => (Host.reduce2 reducer_argmax_i1_i32 x y u v reducesTo_S4194304_S_d0 h_S_ j).2) ]
theorem main_part24_ops10_sub : (main_part24_ops10 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 24 host operations of @main, window 24 (statements 1441 … 1500), in order:
    main_c_449 … main_c_460. -/
abbrev main_part24_ops11 : List (HloOp τ sig (Elt F)) :=
  [ StableHlo.nullary main_c_449 (constantI S_ 32 0#32),
    StableHlo.binary main_v1018 main_c_449 main_v1025 (cmpi .slt : (⟨S_, .i32⟩ : BufTy).Contents (Elt F) → (⟨S_, .i32⟩ : BufTy).Contents (Elt F) → (⟨S_, .i1⟩ : BufTy).Contents (Elt F)),
    StableHlo.nullary main_c_450 (constantI S_ 32 4194304#32),
    StableHlo.binary main_v1018 main_c_450 main_v1026 (addi : (⟨S_, .i32⟩ : BufTy).Contents (Elt F) → (⟨S_, .i32⟩ : BufTy).Contents (Elt F) → (⟨S_, .i32⟩ : BufTy).Contents (Elt F)),
    StableHlo.ternary main_v1025 main_v1026 main_v1018 main_v1027 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_451 (constantI S_ 32 0#32),
    StableHlo.nullary main_c_452 (constantI S_ 32 0#32),
    StableHlo.binary main_c_451 main_c_452 main_v1028 (cmpi .slt : (⟨S_, .i32⟩ : BufTy).Contents (Elt F) → (⟨S_, .i32⟩ : BufTy).Contents (Elt F) → (⟨S_, .i1⟩ : BufTy).Contents (Elt F)),
    StableHlo.nullary main_c_453 (constantI S_ 32 0#32),
    StableHlo.nullary main_c_454 (constantI S_ 32 2#32),
    StableHlo.binary main_c_453 main_c_454 main_v1029 (addi : (⟨S_, .i32⟩ : BufTy).Contents (Elt F) → (⟨S_, .i32⟩ : BufTy).Contents (Elt F) → (⟨S_, .i32⟩ : BufTy).Contents (Elt F)),
    StableHlo.nullary main_c_455 (constantI S_ 32 0#32),
    StableHlo.ternary main_v1028 main_v1029 main_c_455 main_v1030 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1027, main_v1030] ⟨S_, .i32⟩ main_v1031 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1031 main_v1032 rfl shapeCasts_S1x2_S2,
    StableHlo.nullary main_c_456 (constantI S_ 32 0#32),
    StableHlo.binary main_v1021 main_c_456 main_v1033 (cmpi .slt : (⟨S_, .i32⟩ : BufTy).Contents (Elt F) → (⟨S_, .i32⟩ : BufTy).Contents (Elt F) → (⟨S_, .i1⟩ : BufTy).Contents (Elt F)),
    StableHlo.nullary main_c_457 (constantI S_ 32 4194304#32),
    StableHlo.binary main_v1021 main_c_457 main_v1034 (addi : (⟨S_, .i32⟩ : BufTy).Contents (Elt F) → (⟨S_, .i32⟩ : BufTy).Contents (Elt F) → (⟨S_, .i32⟩ : BufTy).Contents (Elt F)),
    StableHlo.ternary main_v1033 main_v1034 main_v1021 main_v1035 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_458 (constantI S_ 32 0#32),
    StableHlo.nullary main_c_459 (constantI S_ 32 0#32),
    StableHlo.binary main_c_458 main_c_459 main_v1036 (cmpi .slt : (⟨S_, .i32⟩ : BufTy).Contents (Elt F) → (⟨S_, .i32⟩ : BufTy).Contents (Elt F) → (⟨S_, .i1⟩ : BufTy).Contents (Elt F)),
    StableHlo.nullary main_c_460 (constantI S_ 32 0#32) ]
theorem main_part24_ops11_sub : (main_part24_ops11 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub ..⟩
/-- Window 24's stretches, in order. -/
abbrev part24_opss : List (List (HloOp τ sig (Elt F))) :=
  [ main_part24_ops0,
    main_part24_ops1,
    main_part24_ops2,
    main_part24_ops3,
    main_part24_ops4,
    main_part24_ops5,
    main_part24_ops6,
    main_part24_ops7,
    main_part24_ops8,
    main_part24_ops9,
    main_part24_ops10,
    main_part24_ops11 ]
theorem part24_opss_sub : (part24_opss : List (List (HloOp τ sig (Elt F)))).Forall fun l => l.Forall fun op => op.bufs ⊆ StableHlo.tcRefs τ sig :=
  ⟨main_part24_ops0_sub, main_part24_ops1_sub, main_part24_ops2_sub, main_part24_ops3_sub, main_part24_ops4_sub, main_part24_ops5_sub, main_part24_ops6_sub, main_part24_ops7_sub, main_part24_ops8_sub, main_part24_ops9_sub, main_part24_ops10_sub, main_part24_ops11_sub⟩

/-- 31 host operations of @main, window 25 (statements 1501 … 1560), in order:
    main_c_461 … main_v1057. -/
abbrev main_part25_ops0 : List (HloOp τ sig (Elt F)) :=
  [ StableHlo.nullary main_c_461 (constantI S_ 32 2#32),
    StableHlo.binary main_c_460 main_c_461 main_v1037 (addi : (⟨S_, .i32⟩ : BufTy).Contents (Elt F) → (⟨S_, .i32⟩ : BufTy).Contents (Elt F) → (⟨S_, .i32⟩ : BufTy).Contents (Elt F)),
    StableHlo.nullary main_c_462 (constantI S_ 32 0#32),
    StableHlo.ternary main_v1036 main_v1037 main_c_462 main_v1038 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg1 ![main_v1035, main_v1038] ⟨S_, .i32⟩ main_v1039 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1039 main_v1040 rfl shapeCasts_S1x2_S2,
    StableHlo.binary main_v1032 main_v1040 main_v1041 (addf : (⟨S2, .f32⟩ : BufTy).Contents (Elt F) → (⟨S2, .f32⟩ : BufTy).Contents (Elt F) → (⟨S2, .f32⟩ : BufTy).Contents (Elt F)),
    StableHlo.nullary main_c_463 (constantI S_ 32 0#32),
    StableHlo.binary main_v1024 main_c_463 main_v1042 (cmpi .slt : (⟨S_, .i32⟩ : BufTy).Contents (Elt F) → (⟨S_, .i32⟩ : BufTy).Contents (Elt F) → (⟨S_, .i1⟩ : BufTy).Contents (Elt F)),
    StableHlo.nullary main_c_464 (constantI S_ 32 4194304#32),
    StableHlo.binary main_v1024 main_c_464 main_v1043 (addi : (⟨S_, .i32⟩ : BufTy).Contents (Elt F) → (⟨S_, .i32⟩ : BufTy).Contents (Elt F) → (⟨S_, .i32⟩ : BufTy).Contents (Elt F)),
    StableHlo.ternary main_v1042 main_v1043 main_v1024 main_v1044 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_465 (constantI S_ 32 0#32),
    StableHlo.nullary main_c_466 (constantI S_ 32 0#32),
    StableHlo.binary main_c_465 main_c_466 main_v1045 (cmpi .slt : (⟨S_, .i32⟩ : BufTy).Contents (Elt F) → (⟨S_, .i32⟩ : BufTy).Contents (Elt F) → (⟨S_, .i1⟩ : BufTy).Contents (Elt F)),
    StableHlo.nullary main_c_467 (constantI S_ 32 0#32),
    StableHlo.nullary main_c_468 (constantI S_ 32 2#32),
    StableHlo.binary main_c_467 main_c_468 main_v1046 (addi : (⟨S_, .i32⟩ : BufTy).Contents (Elt F) → (⟨S_, .i32⟩ : BufTy).Contents (Elt F) → (⟨S_, .i32⟩ : BufTy).Contents (Elt F)),
    StableHlo.nullary main_c_469 (constantI S_ 32 0#32),
    StableHlo.ternary main_v1045 main_v1046 main_c_469 main_v1047 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg2 ![main_v1044, main_v1047] ⟨S_, .i32⟩ main_v1048 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1048 main_v1049 rfl shapeCasts_S1x2_S2,
    StableHlo.nullary main_cst_470 (constant S_ .f32 0xBF317218#32),
    StableHlo.unary main_cst_470 main_v1050 (broadcastInDim S2 ![] bcast_S_S2 : (⟨S_, .f32⟩ : BufTy).Contents (Elt F) → (⟨S2, .f32⟩ : BufTy).Contents (Elt F)),
    StableHlo.binary main_v1049 main_v1050 main_v1051 (cmpf .ogt : (⟨S2, .f32⟩ : BufTy).Contents (Elt F) → (⟨S2, .f32⟩ : BufTy).Contents (Elt F) → (⟨S2, .i1⟩ : BufTy).Contents (Elt F)),
    StableHlo.unary main_v1049 main_v1052 (Host.expm1 : (⟨S2, .f32⟩ : BufTy).Contents (Elt F) → (⟨S2, .f32⟩ : BufTy).Contents (Elt F)),
    StableHlo.unary main_v1052 main_v1053 (Host.negf : (⟨S2, .f32⟩ : BufTy).Contents (Elt F) → (⟨S2, .f32⟩ : BufTy).Contents (Elt F)),
    StableHlo.unary main_v1053 main_v1054 (Host.log : (⟨S2, .f32⟩ : BufTy).Contents (Elt F) → (⟨S2, .f32⟩ : BufTy).Contents (Elt F)),
    StableHlo.unary main_v1049 main_v1055 (Host.exp : (⟨S2, .f32⟩ : BufTy).Contents (Elt F) → (⟨S2, .f32⟩ : BufTy).Contents (Elt F)),
    StableHlo.unary main_v1055 main_v1056 (Host.negf : (⟨S2, .f32⟩ : BufTy).Contents (Elt F) → (⟨S2, .f32⟩ : BufTy).Contents (Elt F)),
    StableHlo.unary main_v1056 main_v1057 (Host.log1p : (⟨S2, .f32⟩ : BufTy).Contents (Elt F) → (⟨S2, .f32⟩ : BufTy).Contents (Elt F)) ]
theorem main_part25_ops0_sub : (main_part25_ops0 : List (HloOp τ sig (Elt F))).Forall fun op => op.bufs ⊆ StableHlo.tcRefs τ sig :=
  ⟨StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call93), window 25 (statements 1501 … 1560), in order:
    main_v1058 … main_v1058. -/
abbrev main_part25_ops1 : List (HloOp τ sig (Elt F)) :=
  [ StableHlo.TRef.ternary (.of main_v1051 : StableHlo.TRef sig ⟨S2, .i1⟩) (.of main_v1054 : StableHlo.TRef sig ⟨S2, .f32⟩) (.of main_v1057 : StableHlo.TRef sig ⟨S2, .f32⟩) (.of main_v1058 : StableHlo.TRef sig ⟨S2, .f32⟩) select ]
theorem main_part25_ops1_sub : (main_part25_ops1 : List (HloOp τ sig (Elt F))).Forall fun op => op.bufs ⊆ StableHlo.tcRefs τ sig :=
  StableHlo.ternary_bufs_sub ..
/-- 6 host operations of @main, window 25 (statements 1501 … 1560), in order:
    main_v1059 … main_cst_473. -/
abbrev main_part25_ops2 : List (HloOp τ sig (Elt F)) :=
  [ StableHlo.binary main_v1041 main_v1058 main_v1059 (subf : (⟨S2, .f32⟩ : BufTy).Contents (Elt F) → (⟨S2, .f32⟩ : BufTy).Contents (Elt F) → (⟨S2, .f32⟩ : BufTy).Contents (Elt F)),
    StableHlo.nullary main_cst_471 (constant S_ .f32 0x00000000#32),
    StableHlo.binary main_v1059 main_cst_471 main_v1060 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_472 (constantI S_ 32 0#32),
    StableHlo.binary main_v1015 main_c_472 main_v1061 (cmpi .sgt : (⟨S_, .i32⟩ : BufTy).Contents (Elt F) → (⟨S_, .i32⟩ : BufTy).Contents (Elt F) → (⟨S_, .i1⟩ : BufTy).Contents (Elt F)),
    StableHlo.nullary main_cst_473 (constant S_ .f32 0x00000000#32) ]
theorem main_part25_ops2_sub : (main_part25_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call94), window 25 (statements 1501 … 1560), in order:
    main_v1062 … main_v1062. -/
abbrev main_part25_ops3 : List (HloOp τ sig (Elt F)) :=
  [ StableHlo.TRef.ternary (.of main_v1061 : StableHlo.TRef sig ⟨S_, .i1⟩) (.of main_v1060 : StableHlo.TRef sig ⟨S_, .f32⟩) (.of main_cst_473 : StableHlo.TRef sig ⟨S_, .f32⟩) (.of main_v1062 : StableHlo.TRef sig ⟨S_, .f32⟩) select ]
theorem main_part25_ops3_sub : (main_part25_ops3 : List (HloOp τ sig (Elt F))).Forall fun op => op.bufs ⊆ StableHlo.tcRefs τ sig :=
  StableHlo.ternary_bufs_sub ..
/-- 13 host operations of @main, window 25 (statements 1501 … 1560), in order:
    main_v1063 … main_v1072. -/
abbrev main_part25_ops4 : List (HloOp τ sig (Elt F)) :=
  [ StableHlo.binary main_v1003 main_v1062 main_v1063 (subf : (⟨S_, .f32⟩ : BufTy).Contents (Elt F) → (⟨S_, .f32⟩ : BufTy).Contents (Elt F) → (⟨S_, .f32⟩ : BufTy).Contents (Elt F)),
    StableHlo.nullary main_c_474 (constantI S_ 32 4#32),
    StableHlo.unary main_c_474 main_v1064 (broadcastInDim S4194304 ![] bcast_S_S4194304 : (⟨S_, .i32⟩ : BufTy).Contents (Elt F) → (⟨S4194304, .i32⟩ : BufTy).Contents (Elt F)),
    StableHlo.binary main_v25 main_v1064 main_v1065 (cmpi .eq : (⟨S4194304, .i32⟩ : BufTy).Contents (Elt F) → (⟨S4194304, .i32⟩ : BufTy).Contents (Elt F) → (⟨S4194304, .i1⟩ : BufTy).Contents (Elt F)),
    StableHlo.nullary main_c_475 (constantI S_ 32 0#32),
    StableHlo.unary main_c_475 main_v1066 (broadcastInDim S4194304 ![] bcast_S_S4194304 : (⟨S_, .i32⟩ : BufTy).Contents (Elt F) → (⟨S4194304, .i32⟩ : BufTy).Contents (Elt F)),
    StableHlo.binary main_v51 main_v1066 main_v1067 (cmpi .eq : (⟨S4194304, .i32⟩ : BufTy).Contents (Elt F) → (⟨S4194304, .i32⟩ : BufTy).Contents (Elt F) → (⟨S4194304, .i1⟩ : BufTy).Contents (Elt F)),
    StableHlo.binary main_v1065 main_v1067 main_v1068 (andi : (⟨S4194304, .i1⟩ : BufTy).Contents (Elt F) → (⟨S4194304, .i1⟩ : BufTy).Contents (Elt F) → (⟨S4194304, .i1⟩ : BufTy).Contents (Elt F)),
    StableHlo.nullary main_c_476 (constantI S_ 32 1#32),
    StableHlo.unary main_c_476 main_v1069 (broadcastInDim S4194304 ![] bcast_S_S4194304 : (⟨S_, .i32⟩ : BufTy).Contents (Elt F) → (⟨S4194304, .i32⟩ : BufTy).Contents (Elt F)),
    StableHlo.binary main_v77 main_v1069 main_v1070 (cmpi .eq : (⟨S4194304, .i32⟩ : BufTy).Contents (Elt F) → (⟨S4194304, .i32⟩ : BufTy).Contents (Elt F) → (⟨S4194304, .i1⟩ : BufTy).Contents (Elt F)),
    StableHlo.binary main_v1068 main_v1070 main_v1071 (andi : (⟨S4194304, .i1⟩ : BufTy).Contents (Elt F) → (⟨S4194304, .i1⟩ : BufTy).Contents (Elt F) → (⟨S4194304, .i1⟩ : BufTy).Contents (Elt F)),
    StableHlo.unary main_v1071 main_v1072 ((extui 32 · natLt_1_32) : (⟨S4194304, .i1⟩ : BufTy).Contents (Elt F) → (⟨S4194304, .i32⟩ : BufTy).Contents (Elt F)) ]
theorem main_part25_ops4_sub : (main_part25_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call95), window 25 (statements 1501 … 1560), in order:
    main_call95_call0_c … main_v1073. -/
abbrev main_part25_ops5 : List (HloOp τ sig (Elt F)) :=
  [ StableHlo.TRef.nullary (.of main_call95_call0_c : StableHlo.TRef sig ⟨S_, .i32⟩) (constantI S_ 32 0#32),
    StableHlo.TRef.unary (.of main_call95_call0_c : StableHlo.TRef sig ⟨S_, .i32⟩) (.of main_call95_call0_v0 : StableHlo.TRef sig ⟨S_, .i32⟩) (broadcastInDim S_ ![] bcast_S_S_),
    StableHlo.TRef.binary (.of main_v1072 : StableHlo.TRef sig ⟨S4194304, .i32⟩) (.of main_call95_call0_v0 : StableHlo.TRef sig ⟨S_, .i32⟩) (.of main_v1073 : StableHlo.TRef sig ⟨S4194304, .i32⟩) (fun x v => Host.reduceWindow IntOp.addi ![4194304] ![1] ![4194303] ![0] x v reduceWindows_S4194304_S4194304_w4194304s1p4194303_0 h_S_) ]
theorem main_part25_ops5_sub : (main_part25_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 25 (statements 1501 … 1560), in order:
    main_v1074 … main_v1077. -/
abbrev main_part25_ops6 : List (HloOp τ sig (Elt F)) :=
  [ StableHlo.unary main_v1073 main_v1074 ((extractStridedSlice S1 ![4194303] · slices_S4194304_S1_4194303) : (⟨S4194304, .i32⟩ : BufTy).Contents (Elt F) → (⟨S1, .i32⟩ : BufTy).Contents (Elt F)),
    StableHlo.reshape main_v1074 main_v1075 rfl shapeCasts_S1_S_,
    StableHlo.nullary main_c_477 (constantI S_ 32 2#32),
    StableHlo.unary main_c_477 main_v1076 (broadcastInDim S4194304 ![] bcast_S_S4194304 : (⟨S_, .i32⟩ : BufTy).Contents (Elt F) → (⟨S4194304, .i32⟩ : BufTy).Contents (Elt F)),
    StableHlo.binary main_v1073 main_v1076 main_v1077 (cmpi .eq : (⟨S4194304, .i32⟩ : BufTy).Contents (Elt F) → (⟨S4194304, .i32⟩ : BufTy).Contents (Elt F) → (⟨S4194304, .i1⟩ : BufTy).Contents (Elt F)) ]
theorem main_part25_ops6_sub : (main_part25_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call96), window 25 (statements 1501 … 1560), in order:
    main_call96_v0 … main_v1078. -/
abbrev main_part25_ops7 : List (HloOp τ sig (Elt F)) :=
  [ StableHlo.TRef.nullary (.of main_call96_v0 : StableHlo.TRef sig ⟨S4194304, .i32⟩) (iotaInDim S4194304 32 0),
    StableHlo.TRef.nullary (.of main_call96_c : StableHlo.TRef sig ⟨S_, .i1⟩) (constantI S_ 1 0#1),
    StableHlo.TRef.nullary (.of main_call96_c_0 : StableHlo.TRef sig ⟨S_, .i32⟩) (constantI S_ 32 0#32),
    StableHlo.TRef.quaternary (.of main_v1077 : StableHlo.TRef sig ⟨S4194304, .i1⟩) (.of main_call96_v0 : StableHlo.TRef sig ⟨S4194304, .i32⟩) (.of main_call96_c : StableHlo.TRef sig ⟨S_, .i1⟩) (.of main_call96_c_0 : StableHlo.TRef sig ⟨S_, .i32⟩) (.of main_call96_v1_0 : StableHlo.TRef sig ⟨S_, .i1⟩) (fun x y u v j => (Host.reduce2 reducer_argmax_i1_i32 x y u v reducesTo_S4194304_S_d0 h_S_ j).1),
    StableHlo.TRef.quaternary (.of main_v1077 : StableHlo.TRef sig ⟨S4194304, .i1⟩) (.of main_call96_v0 : StableHlo.TRef sig ⟨S4194304, .i32⟩) (.of main_call96_c : StableHlo.TRef sig ⟨S_, .i1⟩) (.of main_call96_c_0 : StableHlo.TRef sig ⟨S_, .i32⟩) (.of main_v1078 : StableHlo.TRef sig ⟨S_, .i32⟩) (fun x y u v j => (Host.reduce2 reducer_argmax_i1_i32 x y u v reducesTo_S4194304_S_d0 h_S_ j).2) ]
theorem main_part25_ops7_sub : (main_part25_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of @main, window 25 (statements 1501 … 1560), in order:
    main_c_478 … main_c_478. -/
abbrev main_part25_ops8 : List (HloOp τ sig (Elt F)) :=
  [ StableHlo.nullary main_c_478 (constantI S_ 32 1#32) ]
theorem main_part25_ops8_sub : (main_part25_ops8 : List (HloOp τ sig (Elt F))).Forall fun op => op.bufs ⊆ StableHlo.tcRefs τ sig :=
  StableHlo.nullary_bufs_sub ..
/-- Window 25's stretches, in order. -/
abbrev part25_opss : List (List (HloOp τ sig (Elt F))) :=
  [ main_part25_ops0,
    main_part25_ops1,
    main_part25_ops2,
    main_part25_ops3,
    main_part25_ops4,
    main_part25_ops5,
    main_part25_ops6,
    main_part25_ops7,
    main_part25_ops8 ]
theorem part25_opss_sub : (part25_opss : List (List (HloOp τ sig (Elt F)))).Forall fun l => l.Forall fun op => op.bufs ⊆ StableHlo.tcRefs τ sig :=
  ⟨main_part25_ops0_sub, main_part25_ops1_sub, main_part25_ops2_sub, main_part25_ops3_sub, main_part25_ops4_sub, main_part25_ops5_sub, main_part25_ops6_sub, main_part25_ops7_sub, main_part25_ops8_sub⟩

/-- 2 host operations of @main, window 26 (statements 1561 … 1620), in order:
    main_v1079 … main_v1080. -/
abbrev main_part26_ops0 : List (HloOp τ sig (Elt F)) :=
  [ StableHlo.unary main_c_478 main_v1079 (broadcastInDim S4194304 ![] bcast_S_S4194304 : (⟨S_, .i32⟩ : BufTy).Contents (Elt F) → (⟨S4194304, .i32⟩ : BufTy).Contents (Elt F)),
    StableHlo.binary main_v1073 main_v1079 main_v1080 (cmpi .eq : (⟨S4194304, .i32⟩ : BufTy).Contents (Elt F) → (⟨S4194304, .i32⟩ : BufTy).Contents (Elt F) → (⟨S4194304, .i1⟩ : BufTy).Contents (Elt F)) ]
theorem main_part26_ops0_sub : (main_part26_ops0 : List (HloOp τ sig (Elt F))).Forall fun op => op.bufs ⊆ StableHlo.tcRefs τ sig :=
  ⟨StableHlo.unary_bufs_sub .., StableHlo.binary_bufs_sub ..⟩
/-- 5 host operations of @argmax (main_call97), window 26 (statements 1561 … 1620), in order:
    main_call97_v0 … main_v1081. -/
abbrev main_part26_ops1 : List (HloOp τ sig (Elt F)) :=
  [ StableHlo.TRef.nullary (.of main_call97_v0 : StableHlo.TRef sig ⟨S4194304, .i32⟩) (iotaInDim S4194304 32 0),
    StableHlo.TRef.nullary (.of main_call97_c : StableHlo.TRef sig ⟨S_, .i1⟩) (constantI S_ 1 0#1),
    StableHlo.TRef.nullary (.of main_call97_c_0 : StableHlo.TRef sig ⟨S_, .i32⟩) (constantI S_ 32 0#32),
    StableHlo.TRef.quaternary (.of main_v1080 : StableHlo.TRef sig ⟨S4194304, .i1⟩) (.of main_call97_v0 : StableHlo.TRef sig ⟨S4194304, .i32⟩) (.of main_call97_c : StableHlo.TRef sig ⟨S_, .i1⟩) (.of main_call97_c_0 : StableHlo.TRef sig ⟨S_, .i32⟩) (.of main_call97_v1_0 : StableHlo.TRef sig ⟨S_, .i1⟩) (fun x y u v j => (Host.reduce2 reducer_argmax_i1_i32 x y u v reducesTo_S4194304_S_d0 h_S_ j).1),
    StableHlo.TRef.quaternary (.of main_v1080 : StableHlo.TRef sig ⟨S4194304, .i1⟩) (.of main_call97_v0 : StableHlo.TRef sig ⟨S4194304, .i32⟩) (.of main_call97_c : StableHlo.TRef sig ⟨S_, .i1⟩) (.of main_call97_c_0 : StableHlo.TRef sig ⟨S_, .i32⟩) (.of main_v1081 : StableHlo.TRef sig ⟨S_, .i32⟩) (fun x y u v j => (Host.reduce2 reducer_argmax_i1_i32 x y u v reducesTo_S4194304_S_d0 h_S_ j).2) ]
theorem main_part26_ops1_sub : (main_part26_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 26 (statements 1561 … 1620), in order:
    main_c_479 … main_v1083. -/
abbrev main_part26_ops2 : List (HloOp τ sig (Elt F)) :=
  [ StableHlo.nullary main_c_479 (constantI S_ 32 1#32),
    StableHlo.unary main_c_479 main_v1082 (broadcastInDim S4194304 ![] bcast_S_S4194304 : (⟨S_, .i32⟩ : BufTy).Contents (Elt F) → (⟨S4194304, .i32⟩ : BufTy).Contents (Elt F)),
    StableHlo.binary main_v1073 main_v1082 main_v1083 (cmpi .eq : (⟨S4194304, .i32⟩ : BufTy).Contents (Elt F) → (⟨S4194304, .i32⟩ : BufTy).Contents (Elt F) → (⟨S4194304, .i1⟩ : BufTy).Contents (Elt F)) ]
theorem main_part26_ops2_sub : (main_part26_ops2 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call98), window 26 (statements 1561 … 1620), in order:
    main_call98_v0 … main_v1084. -/
abbrev main_part26_ops3 : List (HloOp τ sig (Elt F)) :=
  [ StableHlo.TRef.nullary (.of main_call98_v0 : StableHlo.TRef sig ⟨S4194304, .i32⟩) (iotaInDim S4194304 32 0),
    StableHlo.TRef.nullary (.of main_call98_c : StableHlo.TRef sig ⟨S_, .i1⟩) (constantI S_ 1 0#1),
    StableHlo.TRef.nullary (.of main_call98_c_0 : StableHlo.TRef sig ⟨S_, .i32⟩) (constantI S_ 32 0#32),
    StableHlo.TRef.quaternary (.of main_v1083 : StableHlo.TRef sig ⟨S4194304, .i1⟩) (.of main_call98_v0 : StableHlo.TRef sig ⟨S4194304, .i32⟩) (.of main_call98_c : StableHlo.TRef sig ⟨S_, .i1⟩) (.of main_call98_c_0 : StableHlo.TRef sig ⟨S_, .i32⟩) (.of main_call98_v1_0 : StableHlo.TRef sig ⟨S_, .i1⟩) (fun x y u v j => (Host.reduce2 reducer_argmax_i1_i32 x y u v reducesTo_S4194304_S_d0 h_S_ j).1),
    StableHlo.TRef.quaternary (.of main_v1083 : StableHlo.TRef sig ⟨S4194304, .i1⟩) (.of main_call98_v0 : StableHlo.TRef sig ⟨S4194304, .i32⟩) (.of main_call98_c : StableHlo.TRef sig ⟨S_, .i1⟩) (.of main_call98_c_0 : StableHlo.TRef sig ⟨S_, .i32⟩) (.of main_v1084 : StableHlo.TRef sig ⟨S_, .i32⟩) (fun x y u v j => (Host.reduce2 reducer_argmax_i1_i32 x y u v reducesTo_S4194304_S_d0 h_S_ j).2) ]
theorem main_part26_ops3_sub : (main_part26_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 53 host operations of @main, window 26 (statements 1561 … 1620), in order:
    main_c_480 … main_v1115. -/
abbrev main_part26_ops4 : List (HloOp τ sig (Elt F)) :=
  ( StableHlo.nullary main_c_480 (constantI S_ 32 0#32)
  :: StableHlo.binary main_v1078 main_c_480 main_v1085 (cmpi .slt : (⟨S_, .i32⟩ : BufTy).Contents (Elt F) → (⟨S_, .i32⟩ : BufTy).Contents (Elt F) → (⟨S_, .i1⟩ : BufTy).Contents (Elt F))
  :: StableHlo.nullary main_c_481 (constantI S_ 32 4194304#32)
  :: StableHlo.binary main_v1078 main_c_481 main_v1086 (addi : (⟨S_, .i32⟩ : BufTy).Contents (Elt F) → (⟨S_, .i32⟩ : BufTy).Contents (Elt F) → (⟨S_, .i32⟩ : BufTy).Contents (Elt F))
  :: StableHlo.ternary main_v1085 main_v1086 main_v1078 main_v1087 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_482 (constantI S_ 32 0#32)
  :: StableHlo.nullary main_c_483 (constantI S_ 32 0#32)
  :: StableHlo.binary main_c_482 main_c_483 main_v1088 (cmpi .slt : (⟨S_, .i32⟩ : BufTy).Contents (Elt F) → (⟨S_, .i32⟩ : BufTy).Contents (Elt F) → (⟨S_, .i1⟩ : BufTy).Contents (Elt F))
  :: StableHlo.nullary main_c_484 (constantI S_ 32 0#32)
  :: StableHlo.nullary main_c_485 (constantI S_ 32 2#32)
  :: StableHlo.binary main_c_484 main_c_485 main_v1089 (addi : (⟨S_, .i32⟩ : BufTy).Contents (Elt F) → (⟨S_, .i32⟩ : BufTy).Contents (Elt F) → (⟨S_, .i32⟩ : BufTy).Contents (Elt F))
  :: StableHlo.nullary main_c_486 (constantI S_ 32 0#32)
  :: StableHlo.ternary main_v1088 main_v1089 main_c_486 main_v1090 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v1087, main_v1090] ⟨S_, .i32⟩ main_v1091 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1091 main_v1092 rfl shapeCasts_S1x2_S2
  :: StableHlo.nullary main_c_487 (constantI S_ 32 0#32)
  :: StableHlo.binary main_v1081 main_c_487 main_v1093 (cmpi .slt : (⟨S_, .i32⟩ : BufTy).Contents (Elt F) → (⟨S_, .i32⟩ : BufTy).Contents (Elt F) → (⟨S_, .i1⟩ : BufTy).Contents (Elt F))
  :: StableHlo.nullary main_c_488 (constantI S_ 32 4194304#32)
  :: StableHlo.binary main_v1081 main_c_488 main_v1094 (addi : (⟨S_, .i32⟩ : BufTy).Contents (Elt F) → (⟨S_, .i32⟩ : BufTy).Contents (Elt F) → (⟨S_, .i32⟩ : BufTy).Contents (Elt F))
  :: StableHlo.ternary main_v1093 main_v1094 main_v1081 main_v1095 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_489 (constantI S_ 32 0#32)
  :: StableHlo.nullary main_c_490 (constantI S_ 32 0#32)
  :: StableHlo.binary main_c_489 main_c_490 main_v1096 (cmpi .slt : (⟨S_, .i32⟩ : BufTy).Contents (Elt F) → (⟨S_, .i32⟩ : BufTy).Contents (Elt F) → (⟨S_, .i1⟩ : BufTy).Contents (Elt F))
  :: StableHlo.nullary main_c_491 (constantI S_ 32 0#32)
  :: StableHlo.nullary main_c_492 (constantI S_ 32 2#32)
  :: StableHlo.binary main_c_491 main_c_492 main_v1097 (addi : (⟨S_, .i32⟩ : BufTy).Contents (Elt F) → (⟨S_, .i32⟩ : BufTy).Contents (Elt F) → (⟨S_, .i32⟩ : BufTy).Contents (Elt F))
  :: StableHlo.nullary main_c_493 (constantI S_ 32 0#32)
  :: StableHlo.ternary main_v1096 main_v1097 main_c_493 main_v1098 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1095, main_v1098] ⟨S_, .i32⟩ main_v1099 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1099 main_v1100 rfl shapeCasts_S1x2_S2
  :: StableHlo.binary main_v1092 main_v1100 main_v1101 (addf : (⟨S2, .f32⟩ : BufTy).Contents (Elt F) → (⟨S2, .f32⟩ : BufTy).Contents (Elt F) → (⟨S2, .f32⟩ : BufTy).Contents (Elt F))
  :: StableHlo.nullary main_c_494 (constantI S_ 32 0#32)
  :: StableHlo.binary main_v1084 main_c_494 main_v1102 (cmpi .slt : (⟨S_, .i32⟩ : BufTy).Contents (Elt F) → (⟨S_, .i32⟩ : BufTy).Contents (Elt F) → (⟨S_, .i1⟩ : BufTy).Contents (Elt F))
  :: StableHlo.nullary main_c_495 (constantI S_ 32 4194304#32)
  :: StableHlo.binary main_v1084 main_c_495 main_v1103 (addi : (⟨S_, .i32⟩ : BufTy).Contents (Elt F) → (⟨S_, .i32⟩ : BufTy).Contents (Elt F) → (⟨S_, .i32⟩ : BufTy).Contents (Elt F))
  :: StableHlo.ternary main_v1102 main_v1103 main_v1084 main_v1104 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_496 (constantI S_ 32 0#32)
  :: StableHlo.nullary main_c_497 (constantI S_ 32 0#32)
  :: StableHlo.binary main_c_496 main_c_497 main_v1105 (cmpi .slt : (⟨S_, .i32⟩ : BufTy).Contents (Elt F) → (⟨S_, .i32⟩ : BufTy).Contents (Elt F) → (⟨S_, .i1⟩ : BufTy).Contents (Elt F))
  :: StableHlo.nullary main_c_498 (constantI S_ 32 0#32)
  :: StableHlo.nullary main_c_499 (constantI S_ 32 2#32)
  :: StableHlo.binary main_c_498 main_c_499 main_v1106 (addi : (⟨S_, .i32⟩ : BufTy).Contents (Elt F) → (⟨S_, .i32⟩ : BufTy).Contents (Elt F) → (⟨S_, .i32⟩ : BufTy).Contents (Elt F))
  :: StableHlo.nullary main_c_500 (constantI S_ 32 0#32)
  :: StableHlo.ternary main_v1105 main_v1106 main_c_500 main_v1107 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1104, main_v1107] ⟨S_, .i32⟩ main_v1108 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1108 main_v1109 rfl shapeCasts_S1x2_S2
  :: StableHlo.nullary main_cst_501 (constant S_ .f32 0xBF317218#32)
  :: StableHlo.unary main_cst_501 main_v1110 (broadcastInDim S2 ![] bcast_S_S2 : (⟨S_, .f32⟩ : BufTy).Contents (Elt F) → (⟨S2, .f32⟩ : BufTy).Contents (Elt F))
  :: StableHlo.binary main_v1109 main_v1110 main_v1111 (cmpf .ogt : (⟨S2, .f32⟩ : BufTy).Contents (Elt F) → (⟨S2, .f32⟩ : BufTy).Contents (Elt F) → (⟨S2, .i1⟩ : BufTy).Contents (Elt F))
  :: StableHlo.unary main_v1109 main_v1112 (Host.expm1 : (⟨S2, .f32⟩ : BufTy).Contents (Elt F) → (⟨S2, .f32⟩ : BufTy).Contents (Elt F))
  :: StableHlo.unary main_v1112 main_v1113 (Host.negf : (⟨S2, .f32⟩ : BufTy).Contents (Elt F) → (⟨S2, .f32⟩ : BufTy).Contents (Elt F))
  :: StableHlo.unary main_v1113 main_v1114 (Host.log : (⟨S2, .f32⟩ : BufTy).Contents (Elt F) → (⟨S2, .f32⟩ : BufTy).Contents (Elt F))
  :: StableHlo.unary main_v1109 main_v1115 (Host.exp : (⟨S2, .f32⟩ : BufTy).Contents (Elt F) → (⟨S2, .f32⟩ : BufTy).Contents (Elt F))
  :: [] )
theorem main_part26_ops4_sub : (main_part26_ops4 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub ..⟩
/-- Window 26's stretches, in order. -/
abbrev part26_opss : List (List (HloOp τ sig (Elt F))) :=
  [ main_part26_ops0,
    main_part26_ops1,
    main_part26_ops2,
    main_part26_ops3,
    main_part26_ops4 ]
theorem part26_opss_sub : (part26_opss : List (List (HloOp τ sig (Elt F)))).Forall fun l => l.Forall fun op => op.bufs ⊆ StableHlo.tcRefs τ sig :=
  ⟨main_part26_ops0_sub, main_part26_ops1_sub, main_part26_ops2_sub, main_part26_ops3_sub, main_part26_ops4_sub⟩

/-- 2 host operations of @main, window 27 (statements 1621 … 1680), in order:
    main_v1116 … main_v1117. -/
abbrev main_part27_ops0 : List (HloOp τ sig (Elt F)) :=
  [ StableHlo.unary main_v1115 main_v1116 (Host.negf : (⟨S2, .f32⟩ : BufTy).Contents (Elt F) → (⟨S2, .f32⟩ : BufTy).Contents (Elt F)),
    StableHlo.unary main_v1116 main_v1117 (Host.log1p : (⟨S2, .f32⟩ : BufTy).Contents (Elt F) → (⟨S2, .f32⟩ : BufTy).Contents (Elt F)) ]
theorem main_part27_ops0_sub : (main_part27_ops0 : List (HloOp τ sig (Elt F))).Forall fun op => op.bufs ⊆ StableHlo.tcRefs τ sig :=
  ⟨StableHlo.unary_bufs_sub .., StableHlo.unary_bufs_sub ..⟩
/-- 1 host operation of @_where_3 (main_call99), window 27 (statements 1621 … 1680), in order:
    main_v1118 … main_v1118. -/
abbrev main_part27_ops1 : List (HloOp τ sig (Elt F)) :=
  [ StableHlo.TRef.ternary (.of main_v1111 : StableHlo.TRef sig ⟨S2, .i1⟩) (.of main_v1114 : StableHlo.TRef sig ⟨S2, .f32⟩) (.of main_v1117 : StableHlo.TRef sig ⟨S2, .f32⟩) (.of main_v1118 : StableHlo.TRef sig ⟨S2, .f32⟩) select ]
theorem main_part27_ops1_sub : (main_part27_ops1 : List (HloOp τ sig (Elt F))).Forall fun op => op.bufs ⊆ StableHlo.tcRefs τ sig :=
  StableHlo.ternary_bufs_sub ..
/-- 6 host operations of @main, window 27 (statements 1621 … 1680), in order:
    main_v1119 … main_cst_504. -/
abbrev main_part27_ops2 : List (HloOp τ sig (Elt F)) :=
  [ StableHlo.binary main_v1101 main_v1118 main_v1119 (subf : (⟨S2, .f32⟩ : BufTy).Contents (Elt F) → (⟨S2, .f32⟩ : BufTy).Contents (Elt F) → (⟨S2, .f32⟩ : BufTy).Contents (Elt F)),
    StableHlo.nullary main_cst_502 (constant S_ .f32 0x00000000#32),
    StableHlo.binary main_v1119 main_cst_502 main_v1120 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_503 (constantI S_ 32 0#32),
    StableHlo.binary main_v1075 main_c_503 main_v1121 (cmpi .sgt : (⟨S_, .i32⟩ : BufTy).Contents (Elt F) → (⟨S_, .i32⟩ : BufTy).Contents (Elt F) → (⟨S_, .i1⟩ : BufTy).Contents (Elt F)),
    StableHlo.nullary main_cst_504 (constant S_ .f32 0x00000000#32) ]
theorem main_part27_ops2_sub : (main_part27_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call100), window 27 (statements 1621 … 1680), in order:
    main_v1122 … main_v1122. -/
abbrev main_part27_ops3 : List (HloOp τ sig (Elt F)) :=
  [ StableHlo.TRef.ternary (.of main_v1121 : StableHlo.TRef sig ⟨S_, .i1⟩) (.of main_v1120 : StableHlo.TRef sig ⟨S_, .f32⟩) (.of main_cst_504 : StableHlo.TRef sig ⟨S_, .f32⟩) (.of main_v1122 : StableHlo.TRef sig ⟨S_, .f32⟩) select ]
theorem main_part27_ops3_sub : (main_part27_ops3 : List (HloOp τ sig (Elt F))).Forall fun op => op.bufs ⊆ StableHlo.tcRefs τ sig :=
  StableHlo.ternary_bufs_sub ..
/-- 13 host operations of @main, window 27 (statements 1621 … 1680), in order:
    main_v1123 … main_v1132. -/
abbrev main_part27_ops4 : List (HloOp τ sig (Elt F)) :=
  [ StableHlo.binary main_v1063 main_v1122 main_v1123 (subf : (⟨S_, .f32⟩ : BufTy).Contents (Elt F) → (⟨S_, .f32⟩ : BufTy).Contents (Elt F) → (⟨S_, .f32⟩ : BufTy).Contents (Elt F)),
    StableHlo.nullary main_c_505 (constantI S_ 32 4#32),
    StableHlo.unary main_c_505 main_v1124 (broadcastInDim S4194304 ![] bcast_S_S4194304 : (⟨S_, .i32⟩ : BufTy).Contents (Elt F) → (⟨S4194304, .i32⟩ : BufTy).Contents (Elt F)),
    StableHlo.binary main_v25 main_v1124 main_v1125 (cmpi .eq : (⟨S4194304, .i32⟩ : BufTy).Contents (Elt F) → (⟨S4194304, .i32⟩ : BufTy).Contents (Elt F) → (⟨S4194304, .i1⟩ : BufTy).Contents (Elt F)),
    StableHlo.nullary main_c_506 (constantI S_ 32 0#32),
    StableHlo.unary main_c_506 main_v1126 (broadcastInDim S4194304 ![] bcast_S_S4194304 : (⟨S_, .i32⟩ : BufTy).Contents (Elt F) → (⟨S4194304, .i32⟩ : BufTy).Contents (Elt F)),
    StableHlo.binary main_v51 main_v1126 main_v1127 (cmpi .eq : (⟨S4194304, .i32⟩ : BufTy).Contents (Elt F) → (⟨S4194304, .i32⟩ : BufTy).Contents (Elt F) → (⟨S4194304, .i1⟩ : BufTy).Contents (Elt F)),
    StableHlo.binary main_v1125 main_v1127 main_v1128 (andi : (⟨S4194304, .i1⟩ : BufTy).Contents (Elt F) → (⟨S4194304, .i1⟩ : BufTy).Contents (Elt F) → (⟨S4194304, .i1⟩ : BufTy).Contents (Elt F)),
    StableHlo.nullary main_c_507 (constantI S_ 32 2#32),
    StableHlo.unary main_c_507 main_v1129 (broadcastInDim S4194304 ![] bcast_S_S4194304 : (⟨S_, .i32⟩ : BufTy).Contents (Elt F) → (⟨S4194304, .i32⟩ : BufTy).Contents (Elt F)),
    StableHlo.binary main_v77 main_v1129 main_v1130 (cmpi .eq : (⟨S4194304, .i32⟩ : BufTy).Contents (Elt F) → (⟨S4194304, .i32⟩ : BufTy).Contents (Elt F) → (⟨S4194304, .i1⟩ : BufTy).Contents (Elt F)),
    StableHlo.binary main_v1128 main_v1130 main_v1131 (andi : (⟨S4194304, .i1⟩ : BufTy).Contents (Elt F) → (⟨S4194304, .i1⟩ : BufTy).Contents (Elt F) → (⟨S4194304, .i1⟩ : BufTy).Contents (Elt F)),
    StableHlo.unary main_v1131 main_v1132 ((extui 32 · natLt_1_32) : (⟨S4194304, .i1⟩ : BufTy).Contents (Elt F) → (⟨S4194304, .i32⟩ : BufTy).Contents (Elt F)) ]
theorem main_part27_ops4_sub : (main_part27_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call101), window 27 (statements 1621 … 1680), in order:
    main_call101_call0_c … main_v1133. -/
abbrev main_part27_ops5 : List (HloOp τ sig (Elt F)) :=
  [ StableHlo.TRef.nullary (.of main_call101_call0_c : StableHlo.TRef sig ⟨S_, .i32⟩) (constantI S_ 32 0#32),
    StableHlo.TRef.unary (.of main_call101_call0_c : StableHlo.TRef sig ⟨S_, .i32⟩) (.of main_call101_call0_v0 : StableHlo.TRef sig ⟨S_, .i32⟩) (broadcastInDim S_ ![] bcast_S_S_),
    StableHlo.TRef.binary (.of main_v1132 : StableHlo.TRef sig ⟨S4194304, .i32⟩) (.of main_call101_call0_v0 : StableHlo.TRef sig ⟨S_, .i32⟩) (.of main_v1133 : StableHlo.TRef sig ⟨S4194304, .i32⟩) (fun x v => Host.reduceWindow IntOp.addi ![4194304] ![1] ![4194303] ![0] x v reduceWindows_S4194304_S4194304_w4194304s1p4194303_0 h_S_) ]
theorem main_part27_ops5_sub : (main_part27_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 27 (statements 1621 … 1680), in order:
    main_v1134 … main_v1137. -/
abbrev main_part27_ops6 : List (HloOp τ sig (Elt F)) :=
  [ StableHlo.unary main_v1133 main_v1134 ((extractStridedSlice S1 ![4194303] · slices_S4194304_S1_4194303) : (⟨S4194304, .i32⟩ : BufTy).Contents (Elt F) → (⟨S1, .i32⟩ : BufTy).Contents (Elt F)),
    StableHlo.reshape main_v1134 main_v1135 rfl shapeCasts_S1_S_,
    StableHlo.nullary main_c_508 (constantI S_ 32 2#32),
    StableHlo.unary main_c_508 main_v1136 (broadcastInDim S4194304 ![] bcast_S_S4194304 : (⟨S_, .i32⟩ : BufTy).Contents (Elt F) → (⟨S4194304, .i32⟩ : BufTy).Contents (Elt F)),
    StableHlo.binary main_v1133 main_v1136 main_v1137 (cmpi .eq : (⟨S4194304, .i32⟩ : BufTy).Contents (Elt F) → (⟨S4194304, .i32⟩ : BufTy).Contents (Elt F) → (⟨S4194304, .i1⟩ : BufTy).Contents (Elt F)) ]
theorem main_part27_ops6_sub : (main_part27_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call102), window 27 (statements 1621 … 1680), in order:
    main_call102_v0 … main_v1138. -/
abbrev main_part27_ops7 : List (HloOp τ sig (Elt F)) :=
  [ StableHlo.TRef.nullary (.of main_call102_v0 : StableHlo.TRef sig ⟨S4194304, .i32⟩) (iotaInDim S4194304 32 0),
    StableHlo.TRef.nullary (.of main_call102_c : StableHlo.TRef sig ⟨S_, .i1⟩) (constantI S_ 1 0#1),
    StableHlo.TRef.nullary (.of main_call102_c_0 : StableHlo.TRef sig ⟨S_, .i32⟩) (constantI S_ 32 0#32),
    StableHlo.TRef.quaternary (.of main_v1137 : StableHlo.TRef sig ⟨S4194304, .i1⟩) (.of main_call102_v0 : StableHlo.TRef sig ⟨S4194304, .i32⟩) (.of main_call102_c : StableHlo.TRef sig ⟨S_, .i1⟩) (.of main_call102_c_0 : StableHlo.TRef sig ⟨S_, .i32⟩) (.of main_call102_v1_0 : StableHlo.TRef sig ⟨S_, .i1⟩) (fun x y u v j => (Host.reduce2 reducer_argmax_i1_i32 x y u v reducesTo_S4194304_S_d0 h_S_ j).1),
    StableHlo.TRef.quaternary (.of main_v1137 : StableHlo.TRef sig ⟨S4194304, .i1⟩) (.of main_call102_v0 : StableHlo.TRef sig ⟨S4194304, .i32⟩) (.of main_call102_c : StableHlo.TRef sig ⟨S_, .i1⟩) (.of main_call102_c_0 : StableHlo.TRef sig ⟨S_, .i32⟩) (.of main_v1138 : StableHlo.TRef sig ⟨S_, .i32⟩) (fun x y u v j => (Host.reduce2 reducer_argmax_i1_i32 x y u v reducesTo_S4194304_S_d0 h_S_ j).2) ]
theorem main_part27_ops7_sub : (main_part27_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 27 (statements 1621 … 1680), in order:
    main_c_509 … main_v1140. -/
abbrev main_part27_ops8 : List (HloOp τ sig (Elt F)) :=
  [ StableHlo.nullary main_c_509 (constantI S_ 32 1#32),
    StableHlo.unary main_c_509 main_v1139 (broadcastInDim S4194304 ![] bcast_S_S4194304 : (⟨S_, .i32⟩ : BufTy).Contents (Elt F) → (⟨S4194304, .i32⟩ : BufTy).Contents (Elt F)),
    StableHlo.binary main_v1133 main_v1139 main_v1140 (cmpi .eq : (⟨S4194304, .i32⟩ : BufTy).Contents (Elt F) → (⟨S4194304, .i32⟩ : BufTy).Contents (Elt F) → (⟨S4194304, .i1⟩ : BufTy).Contents (Elt F)) ]
theorem main_part27_ops8_sub : (main_part27_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call103), window 27 (statements 1621 … 1680), in order:
    main_call103_v0 … main_v1141. -/
abbrev main_part27_ops9 : List (HloOp τ sig (Elt F)) :=
  [ StableHlo.TRef.nullary (.of main_call103_v0 : StableHlo.TRef sig ⟨S4194304, .i32⟩) (iotaInDim S4194304 32 0),
    StableHlo.TRef.nullary (.of main_call103_c : StableHlo.TRef sig ⟨S_, .i1⟩) (constantI S_ 1 0#1),
    StableHlo.TRef.nullary (.of main_call103_c_0 : StableHlo.TRef sig ⟨S_, .i32⟩) (constantI S_ 32 0#32),
    StableHlo.TRef.quaternary (.of main_v1140 : StableHlo.TRef sig ⟨S4194304, .i1⟩) (.of main_call103_v0 : StableHlo.TRef sig ⟨S4194304, .i32⟩) (.of main_call103_c : StableHlo.TRef sig ⟨S_, .i1⟩) (.of main_call103_c_0 : StableHlo.TRef sig ⟨S_, .i32⟩) (.of main_call103_v1_0 : StableHlo.TRef sig ⟨S_, .i1⟩) (fun x y u v j => (Host.reduce2 reducer_argmax_i1_i32 x y u v reducesTo_S4194304_S_d0 h_S_ j).1),
    StableHlo.TRef.quaternary (.of main_v1140 : StableHlo.TRef sig ⟨S4194304, .i1⟩) (.of main_call103_v0 : StableHlo.TRef sig ⟨S4194304, .i32⟩) (.of main_call103_c : StableHlo.TRef sig ⟨S_, .i1⟩) (.of main_call103_c_0 : StableHlo.TRef sig ⟨S_, .i32⟩) (.of main_v1141 : StableHlo.TRef sig ⟨S_, .i32⟩) (fun x y u v j => (Host.reduce2 reducer_argmax_i1_i32 x y u v reducesTo_S4194304_S_d0 h_S_ j).2) ]
theorem main_part27_ops9_sub : (main_part27_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 27 (statements 1621 … 1680), in order:
    main_c_510 … main_v1143. -/
abbrev main_part27_ops10 : List (HloOp τ sig (Elt F)) :=
  [ StableHlo.nullary main_c_510 (constantI S_ 32 1#32),
    StableHlo.unary main_c_510 main_v1142 (broadcastInDim S4194304 ![] bcast_S_S4194304 : (⟨S_, .i32⟩ : BufTy).Contents (Elt F) → (⟨S4194304, .i32⟩ : BufTy).Contents (Elt F)),
    StableHlo.binary main_v1133 main_v1142 main_v1143 (cmpi .eq : (⟨S4194304, .i32⟩ : BufTy).Contents (Elt F) → (⟨S4194304, .i32⟩ : BufTy).Contents (Elt F) → (⟨S4194304, .i1⟩ : BufTy).Contents (Elt F)) ]
theorem main_part27_ops10_sub : (main_part27_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call104), window 27 (statements 1621 … 1680), in order:
    main_call104_v0 … main_v1144. -/
abbrev main_part27_ops11 : List (HloOp τ sig (Elt F)) :=
  [ StableHlo.TRef.nullary (.of main_call104_v0 : StableHlo.TRef sig ⟨S4194304, .i32⟩) (iotaInDim S4194304 32 0),
    StableHlo.TRef.nullary (.of main_call104_c : StableHlo.TRef sig ⟨S_, .i1⟩) (constantI S_ 1 0#1),
    StableHlo.TRef.nullary (.of main_call104_c_0 : StableHlo.TRef sig ⟨S_, .i32⟩) (constantI S_ 32 0#32),
    StableHlo.TRef.quaternary (.of main_v1143 : StableHlo.TRef sig ⟨S4194304, .i1⟩) (.of main_call104_v0 : StableHlo.TRef sig ⟨S4194304, .i32⟩) (.of main_call104_c : StableHlo.TRef sig ⟨S_, .i1⟩) (.of main_call104_c_0 : StableHlo.TRef sig ⟨S_, .i32⟩) (.of main_call104_v1_0 : StableHlo.TRef sig ⟨S_, .i1⟩) (fun x y u v j => (Host.reduce2 reducer_argmax_i1_i32 x y u v reducesTo_S4194304_S_d0 h_S_ j).1),
    StableHlo.TRef.quaternary (.of main_v1143 : StableHlo.TRef sig ⟨S4194304, .i1⟩) (.of main_call104_v0 : StableHlo.TRef sig ⟨S4194304, .i32⟩) (.of main_call104_c : StableHlo.TRef sig ⟨S_, .i1⟩) (.of main_call104_c_0 : StableHlo.TRef sig ⟨S_, .i32⟩) (.of main_v1144 : StableHlo.TRef sig ⟨S_, .i32⟩) (fun x y u v j => (Host.reduce2 reducer_argmax_i1_i32 x y u v reducesTo_S4194304_S_d0 h_S_ j).2) ]
theorem main_part27_ops11_sub : (main_part27_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 22 host operations of @main, window 27 (statements 1621 … 1680), in order:
    main_c_511 … main_c_521. -/
abbrev main_part27_ops12 : List (HloOp τ sig (Elt F)) :=
  [ StableHlo.nullary main_c_511 (constantI S_ 32 0#32),
    StableHlo.binary main_v1138 main_c_511 main_v1145 (cmpi .slt : (⟨S_, .i32⟩ : BufTy).Contents (Elt F) → (⟨S_, .i32⟩ : BufTy).Contents (Elt F) → (⟨S_, .i1⟩ : BufTy).Contents (Elt F)),
    StableHlo.nullary main_c_512 (constantI S_ 32 4194304#32),
    StableHlo.binary main_v1138 main_c_512 main_v1146 (addi : (⟨S_, .i32⟩ : BufTy).Contents (Elt F) → (⟨S_, .i32⟩ : BufTy).Contents (Elt F) → (⟨S_, .i32⟩ : BufTy).Contents (Elt F)),
    StableHlo.ternary main_v1145 main_v1146 main_v1138 main_v1147 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_513 (constantI S_ 32 0#32),
    StableHlo.nullary main_c_514 (constantI S_ 32 0#32),
    StableHlo.binary main_c_513 main_c_514 main_v1148 (cmpi .slt : (⟨S_, .i32⟩ : BufTy).Contents (Elt F) → (⟨S_, .i32⟩ : BufTy).Contents (Elt F) → (⟨S_, .i1⟩ : BufTy).Contents (Elt F)),
    StableHlo.nullary main_c_515 (constantI S_ 32 0#32),
    StableHlo.nullary main_c_516 (constantI S_ 32 2#32),
    StableHlo.binary main_c_515 main_c_516 main_v1149 (addi : (⟨S_, .i32⟩ : BufTy).Contents (Elt F) → (⟨S_, .i32⟩ : BufTy).Contents (Elt F) → (⟨S_, .i32⟩ : BufTy).Contents (Elt F)),
    StableHlo.nullary main_c_517 (constantI S_ 32 0#32),
    StableHlo.ternary main_v1148 main_v1149 main_c_517 main_v1150 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1147, main_v1150] ⟨S_, .i32⟩ main_v1151 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1151 main_v1152 rfl shapeCasts_S1x2_S2,
    StableHlo.nullary main_c_518 (constantI S_ 32 0#32),
    StableHlo.binary main_v1141 main_c_518 main_v1153 (cmpi .slt : (⟨S_, .i32⟩ : BufTy).Contents (Elt F) → (⟨S_, .i32⟩ : BufTy).Contents (Elt F) → (⟨S_, .i1⟩ : BufTy).Contents (Elt F)),
    StableHlo.nullary main_c_519 (constantI S_ 32 4194304#32),
    StableHlo.binary main_v1141 main_c_519 main_v1154 (addi : (⟨S_, .i32⟩ : BufTy).Contents (Elt F) → (⟨S_, .i32⟩ : BufTy).Contents (Elt F) → (⟨S_, .i32⟩ : BufTy).Contents (Elt F)),
    StableHlo.ternary main_v1153 main_v1154 main_v1141 main_v1155 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_520 (constantI S_ 32 0#32),
    StableHlo.nullary main_c_521 (constantI S_ 32 0#32) ]
theorem main_part27_ops12_sub : (main_part27_ops12 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub ..⟩
/-- Window 27's stretches, in order. -/
abbrev part27_opss : List (List (HloOp τ sig (Elt F))) :=
  [ main_part27_ops0,
    main_part27_ops1,
    main_part27_ops2,
    main_part27_ops3,
    main_part27_ops4,
    main_part27_ops5,
    main_part27_ops6,
    main_part27_ops7,
    main_part27_ops8,
    main_part27_ops9,
    main_part27_ops10,
    main_part27_ops11,
    main_part27_ops12 ]
theorem part27_opss_sub : (part27_opss : List (List (HloOp τ sig (Elt F)))).Forall fun l => l.Forall fun op => op.bufs ⊆ StableHlo.tcRefs τ sig :=
  ⟨main_part27_ops0_sub, main_part27_ops1_sub, main_part27_ops2_sub, main_part27_ops3_sub, main_part27_ops4_sub, main_part27_ops5_sub, main_part27_ops6_sub, main_part27_ops7_sub, main_part27_ops8_sub, main_part27_ops9_sub, main_part27_ops10_sub, main_part27_ops11_sub, main_part27_ops12_sub⟩

end Cert.ReferenceIdeal.Rn

end
-- ==== Proof.Rf.Ops7.lean ====
/- The reference's @main as operation lists: windows 28 … 31 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 33 host operations of @main, window 28 (statements 1681 … 1740), in order:
    main_v1156 … main_v1177. -/
abbrev main_part28_ops0 : List (HloOp τ sig (Elt F)) :=
  ( StableHlo.binary main_c_520 main_c_521 main_v1156 (cmpi .slt : (⟨S_, .i32⟩ : BufTy).Contents (Elt F) → (⟨S_, .i32⟩ : BufTy).Contents (Elt F) → (⟨S_, .i1⟩ : BufTy).Contents (Elt F))
  :: StableHlo.nullary main_c_522 (constantI S_ 32 0#32)
  :: StableHlo.nullary main_c_523 (constantI S_ 32 2#32)
  :: StableHlo.binary main_c_522 main_c_523 main_v1157 (addi : (⟨S_, .i32⟩ : BufTy).Contents (Elt F) → (⟨S_, .i32⟩ : BufTy).Contents (Elt F) → (⟨S_, .i32⟩ : BufTy).Contents (Elt F))
  :: StableHlo.nullary main_c_524 (constantI S_ 32 0#32)
  :: StableHlo.ternary main_v1156 main_v1157 main_c_524 main_v1158 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1155, main_v1158] ⟨S_, .i32⟩ main_v1159 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1159 main_v1160 rfl shapeCasts_S1x2_S2
  :: StableHlo.binary main_v1152 main_v1160 main_v1161 (addf : (⟨S2, .f32⟩ : BufTy).Contents (Elt F) → (⟨S2, .f32⟩ : BufTy).Contents (Elt F) → (⟨S2, .f32⟩ : BufTy).Contents (Elt F))
  :: StableHlo.nullary main_c_525 (constantI S_ 32 0#32)
  :: StableHlo.binary main_v1144 main_c_525 main_v1162 (cmpi .slt : (⟨S_, .i32⟩ : BufTy).Contents (Elt F) → (⟨S_, .i32⟩ : BufTy).Contents (Elt F) → (⟨S_, .i1⟩ : BufTy).Contents (Elt F))
  :: StableHlo.nullary main_c_526 (constantI S_ 32 4194304#32)
  :: StableHlo.binary main_v1144 main_c_526 main_v1163 (addi : (⟨S_, .i32⟩ : BufTy).Contents (Elt F) → (⟨S_, .i32⟩ : BufTy).Contents (Elt F) → (⟨S_, .i32⟩ : BufTy).Contents (Elt F))
  :: StableHlo.ternary main_v1162 main_v1163 main_v1144 main_v1164 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_527 (constantI S_ 32 0#32)
  :: StableHlo.nullary main_c_528 (constantI S_ 32 0#32)
  :: StableHlo.binary main_c_527 main_c_528 main_v1165 (cmpi .slt : (⟨S_, .i32⟩ : BufTy).Contents (Elt F) → (⟨S_, .i32⟩ : BufTy).Contents (Elt F) → (⟨S_, .i1⟩ : BufTy).Contents (Elt F))
  :: StableHlo.nullary main_c_529 (constantI S_ 32 0#32)
  :: StableHlo.nullary main_c_530 (constantI S_ 32 2#32)
  :: StableHlo.binary main_c_529 main_c_530 main_v1166 (addi : (⟨S_, .i32⟩ : BufTy).Contents (Elt F) → (⟨S_, .i32⟩ : BufTy).Contents (Elt F) → (⟨S_, .i32⟩ : BufTy).Contents (Elt F))
  :: StableHlo.nullary main_c_531 (constantI S_ 32 0#32)
  :: StableHlo.ternary main_v1165 main_v1166 main_c_531 main_v1167 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1164, main_v1167] ⟨S_, .i32⟩ main_v1168 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1168 main_v1169 rfl shapeCasts_S1x2_S2
  :: StableHlo.nullary main_cst_532 (constant S_ .f32 0xBF317218#32)
  :: StableHlo.unary main_cst_532 main_v1170 (broadcastInDim S2 ![] bcast_S_S2 : (⟨S_, .f32⟩ : BufTy).Contents (Elt F) → (⟨S2, .f32⟩ : BufTy).Contents (Elt F))
  :: StableHlo.binary main_v1169 main_v1170 main_v1171 (cmpf .ogt : (⟨S2, .f32⟩ : BufTy).Contents (Elt F) → (⟨S2, .f32⟩ : BufTy).Contents (Elt F) → (⟨S2, .i1⟩ : BufTy).Contents (Elt F))
  :: StableHlo.unary main_v1169 main_v1172 (Host.expm1 : (⟨S2, .f32⟩ : BufTy).Contents (Elt F) → (⟨S2, .f32⟩ : BufTy).Contents (Elt F))
  :: StableHlo.unary main_v1172 main_v1173 (Host.negf : (⟨S2, .f32⟩ : BufTy).Contents (Elt F) → (⟨S2, .f32⟩ : BufTy).Contents (Elt F))
  :: StableHlo.unary main_v1173 main_v1174 (Host.log : (⟨S2, .f32⟩ : BufTy).Contents (Elt F) → (⟨S2, .f32⟩ : BufTy).Contents (Elt F))
  :: StableHlo.unary main_v1169 main_v1175 (Host.exp : (⟨S2, .f32⟩ : BufTy).Contents (Elt F) → (⟨S2, .f32⟩ : BufTy).Contents (Elt F))
  :: StableHlo.unary main_v1175 main_v1176 (Host.negf : (⟨S2, .f32⟩ : BufTy).Contents (Elt F) → (⟨S2, .f32⟩ : BufTy).Contents (Elt F))
  :: StableHlo.unary main_v1176 main_v1177 (Host.log1p : (⟨S2, .f32⟩ : BufTy).Contents (Elt F) → (⟨S2, .f32⟩ : BufTy).Contents (Elt F))
  :: [] )
theorem main_part28_ops0_sub : (main_part28_ops0 : List (HloOp τ sig (Elt F))).Forall fun op => op.bufs ⊆ StableHlo.tcRefs τ sig :=
  ⟨StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call105), window 28 (statements 1681 … 1740), in order:
    main_v1178 … main_v1178. -/
abbrev main_part28_ops1 : List (HloOp τ sig (Elt F)) :=
  [ StableHlo.TRef.ternary (.of main_v1171 : StableHlo.TRef sig ⟨S2, .i1⟩) (.of main_v1174 : StableHlo.TRef sig ⟨S2, .f32⟩) (.of main_v1177 : StableHlo.TRef sig ⟨S2, .f32⟩) (.of main_v1178 : StableHlo.TRef sig ⟨S2, .f32⟩) select ]
theorem main_part28_ops1_sub : (main_part28_ops1 : List (HloOp τ sig (Elt F))).Forall fun op => op.bufs ⊆ StableHlo.tcRefs τ sig :=
  StableHlo.ternary_bufs_sub ..
/-- 6 host operations of @main, window 28 (statements 1681 … 1740), in order:
    main_v1179 … main_cst_535. -/
abbrev main_part28_ops2 : List (HloOp τ sig (Elt F)) :=
  [ StableHlo.binary main_v1161 main_v1178 main_v1179 (subf : (⟨S2, .f32⟩ : BufTy).Contents (Elt F) → (⟨S2, .f32⟩ : BufTy).Contents (Elt F) → (⟨S2, .f32⟩ : BufTy).Contents (Elt F)),
    StableHlo.nullary main_cst_533 (constant S_ .f32 0x00000000#32),
    StableHlo.binary main_v1179 main_cst_533 main_v1180 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_534 (constantI S_ 32 0#32),
    StableHlo.binary main_v1135 main_c_534 main_v1181 (cmpi .sgt : (⟨S_, .i32⟩ : BufTy).Contents (Elt F) → (⟨S_, .i32⟩ : BufTy).Contents (Elt F) → (⟨S_, .i1⟩ : BufTy).Contents (Elt F)),
    StableHlo.nullary main_cst_535 (constant S_ .f32 0x00000000#32) ]
theorem main_part28_ops2_sub : (main_part28_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call106), window 28 (statements 1681 … 1740), in order:
    main_v1182 … main_v1182. -/
abbrev main_part28_ops3 : List (HloOp τ sig (Elt F)) :=
  [ StableHlo.TRef.ternary (.of main_v1181 : StableHlo.TRef sig ⟨S_, .i1⟩) (.of main_v1180 : StableHlo.TRef sig ⟨S_, .f32⟩) (.of main_cst_535 : StableHlo.TRef sig ⟨S_, .f32⟩) (.of main_v1182 : StableHlo.TRef sig ⟨S_, .f32⟩) select ]
theorem main_part28_ops3_sub : (main_part28_ops3 : List (HloOp τ sig (Elt F))).Forall fun op => op.bufs ⊆ StableHlo.tcRefs τ sig :=
  StableHlo.ternary_bufs_sub ..
/-- 13 host operations of @main, window 28 (statements 1681 … 1740), in order:
    main_v1183 … main_v1192. -/
abbrev main_part28_ops4 : List (HloOp τ sig (Elt F)) :=
  [ StableHlo.binary main_v1123 main_v1182 main_v1183 (subf : (⟨S_, .f32⟩ : BufTy).Contents (Elt F) → (⟨S_, .f32⟩ : BufTy).Contents (Elt F) → (⟨S_, .f32⟩ : BufTy).Contents (Elt F)),
    StableHlo.nullary main_c_536 (constantI S_ 32 4#32),
    StableHlo.unary main_c_536 main_v1184 (broadcastInDim S4194304 ![] bcast_S_S4194304 : (⟨S_, .i32⟩ : BufTy).Contents (Elt F) → (⟨S4194304, .i32⟩ : BufTy).Contents (Elt F)),
    StableHlo.binary main_v25 main_v1184 main_v1185 (cmpi .eq : (⟨S4194304, .i32⟩ : BufTy).Contents (Elt F) → (⟨S4194304, .i32⟩ : BufTy).Contents (Elt F) → (⟨S4194304, .i1⟩ : BufTy).Contents (Elt F)),
    StableHlo.nullary main_c_537 (constantI S_ 32 2#32),
    StableHlo.unary main_c_537 main_v1186 (broadcastInDim S4194304 ![] bcast_S_S4194304 : (⟨S_, .i32⟩ : BufTy).Contents (Elt F) → (⟨S4194304, .i32⟩ : BufTy).Contents (Elt F)),
    StableHlo.binary main_v51 main_v1186 main_v1187 (cmpi .eq : (⟨S4194304, .i32⟩ : BufTy).Contents (Elt F) → (⟨S4194304, .i32⟩ : BufTy).Contents (Elt F) → (⟨S4194304, .i1⟩ : BufTy).Contents (Elt F)),
    StableHlo.binary main_v1185 main_v1187 main_v1188 (andi : (⟨S4194304, .i1⟩ : BufTy).Contents (Elt F) → (⟨S4194304, .i1⟩ : BufTy).Contents (Elt F) → (⟨S4194304, .i1⟩ : BufTy).Contents (Elt F)),
    StableHlo.nullary main_c_538 (constantI S_ 32 1#32),
    StableHlo.unary main_c_538 main_v1189 (broadcastInDim S4194304 ![] bcast_S_S4194304 : (⟨S_, .i32⟩ : BufTy).Contents (Elt F) → (⟨S4194304, .i32⟩ : BufTy).Contents (Elt F)),
    StableHlo.binary main_v77 main_v1189 main_v1190 (cmpi .eq : (⟨S4194304, .i32⟩ : BufTy).Contents (Elt F) → (⟨S4194304, .i32⟩ : BufTy).Contents (Elt F) → (⟨S4194304, .i1⟩ : BufTy).Contents (Elt F)),
    StableHlo.binary main_v1188 main_v1190 main_v1191 (andi : (⟨S4194304, .i1⟩ : BufTy).Contents (Elt F) → (⟨S4194304, .i1⟩ : BufTy).Contents (Elt F) → (⟨S4194304, .i1⟩ : BufTy).Contents (Elt F)),
    StableHlo.unary main_v1191 main_v1192 ((extui 32 · natLt_1_32) : (⟨S4194304, .i1⟩ : BufTy).Contents (Elt F) → (⟨S4194304, .i32⟩ : BufTy).Contents (Elt F)) ]
theorem main_part28_ops4_sub : (main_part28_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call107), window 28 (statements 1681 … 1740), in order:
    main_call107_call0_c … main_v1193. -/
abbrev main_part28_ops5 : List (HloOp τ sig (Elt F)) :=
  [ StableHlo.TRef.nullary (.of main_call107_call0_c : StableHlo.TRef sig ⟨S_, .i32⟩) (constantI S_ 32 0#32),
    StableHlo.TRef.unary (.of main_call107_call0_c : StableHlo.TRef sig ⟨S_, .i32⟩) (.of main_call107_call0_v0 : StableHlo.TRef sig ⟨S_, .i32⟩) (broadcastInDim S_ ![] bcast_S_S_),
    StableHlo.TRef.binary (.of main_v1192 : StableHlo.TRef sig ⟨S4194304, .i32⟩) (.of main_call107_call0_v0 : StableHlo.TRef sig ⟨S_, .i32⟩) (.of main_v1193 : StableHlo.TRef sig ⟨S4194304, .i32⟩) (fun x v => Host.reduceWindow IntOp.addi ![4194304] ![1] ![4194303] ![0] x v reduceWindows_S4194304_S4194304_w4194304s1p4194303_0 h_S_) ]
theorem main_part28_ops5_sub : (main_part28_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 28 (statements 1681 … 1740), in order:
    main_v1194 … main_v1197. -/
abbrev main_part28_ops6 : List (HloOp τ sig (Elt F)) :=
  [ StableHlo.unary main_v1193 main_v1194 ((extractStridedSlice S1 ![4194303] · slices_S4194304_S1_4194303) : (⟨S4194304, .i32⟩ : BufTy).Contents (Elt F) → (⟨S1, .i32⟩ : BufTy).Contents (Elt F)),
    StableHlo.reshape main_v1194 main_v1195 rfl shapeCasts_S1_S_,
    StableHlo.nullary main_c_539 (constantI S_ 32 2#32),
    StableHlo.unary main_c_539 main_v1196 (broadcastInDim S4194304 ![] bcast_S_S4194304 : (⟨S_, .i32⟩ : BufTy).Contents (Elt F) → (⟨S4194304, .i32⟩ : BufTy).Contents (Elt F)),
    StableHlo.binary main_v1193 main_v1196 main_v1197 (cmpi .eq : (⟨S4194304, .i32⟩ : BufTy).Contents (Elt F) → (⟨S4194304, .i32⟩ : BufTy).Contents (Elt F) → (⟨S4194304, .i1⟩ : BufTy).Contents (Elt F)) ]
theorem main_part28_ops6_sub : (main_part28_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- Window 28's stretches, in order. -/
abbrev part28_opss : List (List (HloOp τ sig (Elt F))) :=
  [ main_part28_ops0,
    main_part28_ops1,
    main_part28_ops2,
    main_part28_ops3,
    main_part28_ops4,
    main_part28_ops5,
    main_part28_ops6 ]
theorem part28_opss_sub : (part28_opss : List (List (HloOp τ sig (Elt F)))).Forall fun l => l.Forall fun op => op.bufs ⊆ StableHlo.tcRefs τ sig :=
  ⟨main_part28_ops0_sub, main_part28_ops1_sub, main_part28_ops2_sub, main_part28_ops3_sub, main_part28_ops4_sub, main_part28_ops5_sub, main_part28_ops6_sub⟩

/-- 5 host operations of @argmax (main_call108), window 29 (statements 1741 … 1800), in order:
    main_call108_v0 … main_v1198. -/
abbrev main_part29_ops0 : List (HloOp τ sig (Elt F)) :=
  [ StableHlo.TRef.nullary (.of main_call108_v0 : StableHlo.TRef sig ⟨S4194304, .i32⟩) (iotaInDim S4194304 32 0),
    StableHlo.TRef.nullary (.of main_call108_c : StableHlo.TRef sig ⟨S_, .i1⟩) (constantI S_ 1 0#1),
    StableHlo.TRef.nullary (.of main_call108_c_0 : StableHlo.TRef sig ⟨S_, .i32⟩) (constantI S_ 32 0#32),
    StableHlo.TRef.quaternary (.of main_v1197 : StableHlo.TRef sig ⟨S4194304, .i1⟩) (.of main_call108_v0 : StableHlo.TRef sig ⟨S4194304, .i32⟩) (.of main_call108_c : StableHlo.TRef sig ⟨S_, .i1⟩) (.of main_call108_c_0 : StableHlo.TRef sig ⟨S_, .i32⟩) (.of main_call108_v1_0 : StableHlo.TRef sig ⟨S_, .i1⟩) (fun x y u v j => (Host.reduce2 reducer_argmax_i1_i32 x y u v reducesTo_S4194304_S_d0 h_S_ j).1),
    StableHlo.TRef.quaternary (.of main_v1197 : StableHlo.TRef sig ⟨S4194304, .i1⟩) (.of main_call108_v0 : StableHlo.TRef sig ⟨S4194304, .i32⟩) (.of main_call108_c : StableHlo.TRef sig ⟨S_, .i1⟩) (.of main_call108_c_0 : StableHlo.TRef sig ⟨S_, .i32⟩) (.of main_v1198 : StableHlo.TRef sig ⟨S_, .i32⟩) (fun x y u v j => (Host.reduce2 reducer_argmax_i1_i32 x y u v reducesTo_S4194304_S_d0 h_S_ j).2) ]
theorem main_part29_ops0_sub : (main_part29_ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 29 (statements 1741 … 1800), in order:
    main_c_540 … main_v1200. -/
abbrev main_part29_ops1 : List (HloOp τ sig (Elt F)) :=
  [ StableHlo.nullary main_c_540 (constantI S_ 32 1#32),
    StableHlo.unary main_c_540 main_v1199 (broadcastInDim S4194304 ![] bcast_S_S4194304 : (⟨S_, .i32⟩ : BufTy).Contents (Elt F) → (⟨S4194304, .i32⟩ : BufTy).Contents (Elt F)),
    StableHlo.binary main_v1193 main_v1199 main_v1200 (cmpi .eq : (⟨S4194304, .i32⟩ : BufTy).Contents (Elt F) → (⟨S4194304, .i32⟩ : BufTy).Contents (Elt F) → (⟨S4194304, .i1⟩ : BufTy).Contents (Elt F)) ]
theorem main_part29_ops1_sub : (main_part29_ops1 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call109), window 29 (statements 1741 … 1800), in order:
    main_call109_v0 … main_v1201. -/
abbrev main_part29_ops2 : List (HloOp τ sig (Elt F)) :=
  [ StableHlo.TRef.nullary (.of main_call109_v0 : StableHlo.TRef sig ⟨S4194304, .i32⟩) (iotaInDim S4194304 32 0),
    StableHlo.TRef.nullary (.of main_call109_c : StableHlo.TRef sig ⟨S_, .i1⟩) (constantI S_ 1 0#1),
    StableHlo.TRef.nullary (.of main_call109_c_0 : StableHlo.TRef sig ⟨S_, .i32⟩) (constantI S_ 32 0#32),
    StableHlo.TRef.quaternary (.of main_v1200 : StableHlo.TRef sig ⟨S4194304, .i1⟩) (.of main_call109_v0 : StableHlo.TRef sig ⟨S4194304, .i32⟩) (.of main_call109_c : StableHlo.TRef sig ⟨S_, .i1⟩) (.of main_call109_c_0 : StableHlo.TRef sig ⟨S_, .i32⟩) (.of main_call109_v1_0 : StableHlo.TRef sig ⟨S_, .i1⟩) (fun x y u v j => (Host.reduce2 reducer_argmax_i1_i32 x y u v reducesTo_S4194304_S_d0 h_S_ j).1),
    StableHlo.TRef.quaternary (.of main_v1200 : StableHlo.TRef sig ⟨S4194304, .i1⟩) (.of main_call109_v0 : StableHlo.TRef sig ⟨S4194304, .i32⟩) (.of main_call109_c : StableHlo.TRef sig ⟨S_, .i1⟩) (.of main_call109_c_0 : StableHlo.TRef sig ⟨S_, .i32⟩) (.of main_v1201 : StableHlo.TRef sig ⟨S_, .i32⟩) (fun x y u v j => (Host.reduce2 reducer_argmax_i1_i32 x y u v reducesTo_S4194304_S_d0 h_S_ j).2) ]
theorem main_part29_ops2_sub : (main_part29_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 29 (statements 1741 … 1800), in order:
    main_c_541 … main_v1203. -/
abbrev main_part29_ops3 : List (HloOp τ sig (Elt F)) :=
  [ StableHlo.nullary main_c_541 (constantI S_ 32 1#32),
    StableHlo.unary main_c_541 main_v1202 (broadcastInDim S4194304 ![] bcast_S_S4194304 : (⟨S_, .i32⟩ : BufTy).Contents (Elt F) → (⟨S4194304, .i32⟩ : BufTy).Contents (Elt F)),
    StableHlo.binary main_v1193 main_v1202 main_v1203 (cmpi .eq : (⟨S4194304, .i32⟩ : BufTy).Contents (Elt F) → (⟨S4194304, .i32⟩ : BufTy).Contents (Elt F) → (⟨S4194304, .i1⟩ : BufTy).Contents (Elt F)) ]
theorem main_part29_ops3_sub : (main_part29_ops3 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call110), window 29 (statements 1741 … 1800), in order:
    main_call110_v0 … main_v1204. -/
abbrev main_part29_ops4 : List (HloOp τ sig (Elt F)) :=
  [ StableHlo.TRef.nullary (.of main_call110_v0 : StableHlo.TRef sig ⟨S4194304, .i32⟩) (iotaInDim S4194304 32 0),
    StableHlo.TRef.nullary (.of main_call110_c : StableHlo.TRef sig ⟨S_, .i1⟩) (constantI S_ 1 0#1),
    StableHlo.TRef.nullary (.of main_call110_c_0 : StableHlo.TRef sig ⟨S_, .i32⟩) (constantI S_ 32 0#32),
    StableHlo.TRef.quaternary (.of main_v1203 : StableHlo.TRef sig ⟨S4194304, .i1⟩) (.of main_call110_v0 : StableHlo.TRef sig ⟨S4194304, .i32⟩) (.of main_call110_c : StableHlo.TRef sig ⟨S_, .i1⟩) (.of main_call110_c_0 : StableHlo.TRef sig ⟨S_, .i32⟩) (.of main_call110_v1_0 : StableHlo.TRef sig ⟨S_, .i1⟩) (fun x y u v j => (Host.reduce2 reducer_argmax_i1_i32 x y u v reducesTo_S4194304_S_d0 h_S_ j).1),
    StableHlo.TRef.quaternary (.of main_v1203 : StableHlo.TRef sig ⟨S4194304, .i1⟩) (.of main_call110_v0 : StableHlo.TRef sig ⟨S4194304, .i32⟩) (.of main_call110_c : StableHlo.TRef sig ⟨S_, .i1⟩) (.of main_call110_c_0 : StableHlo.TRef sig ⟨S_, .i32⟩) (.of main_v1204 : StableHlo.TRef sig ⟨S_, .i32⟩) (fun x y u v j => (Host.reduce2 reducer_argmax_i1_i32 x y u v reducesTo_S4194304_S_d0 h_S_ j).2) ]
theorem main_part29_ops4_sub : (main_part29_ops4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 51 host operations of @main, window 29 (statements 1741 … 1800), in order:
    main_c_542 … main_v1233. -/
abbrev main_part29_ops5 : List (HloOp τ sig (Elt F)) :=
  ( StableHlo.nullary main_c_542 (constantI S_ 32 0#32)
  :: StableHlo.binary main_v1198 main_c_542 main_v1205 (cmpi .slt : (⟨S_, .i32⟩ : BufTy).Contents (Elt F) → (⟨S_, .i32⟩ : BufTy).Contents (Elt F) → (⟨S_, .i1⟩ : BufTy).Contents (Elt F))
  :: StableHlo.nullary main_c_543 (constantI S_ 32 4194304#32)
  :: StableHlo.binary main_v1198 main_c_543 main_v1206 (addi : (⟨S_, .i32⟩ : BufTy).Contents (Elt F) → (⟨S_, .i32⟩ : BufTy).Contents (Elt F) → (⟨S_, .i32⟩ : BufTy).Contents (Elt F))
  :: StableHlo.ternary main_v1205 main_v1206 main_v1198 main_v1207 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_544 (constantI S_ 32 0#32)
  :: StableHlo.nullary main_c_545 (constantI S_ 32 0#32)
  :: StableHlo.binary main_c_544 main_c_545 main_v1208 (cmpi .slt : (⟨S_, .i32⟩ : BufTy).Contents (Elt F) → (⟨S_, .i32⟩ : BufTy).Contents (Elt F) → (⟨S_, .i1⟩ : BufTy).Contents (Elt F))
  :: StableHlo.nullary main_c_546 (constantI S_ 32 0#32)
  :: StableHlo.nullary main_c_547 (constantI S_ 32 2#32)
  :: StableHlo.binary main_c_546 main_c_547 main_v1209 (addi : (⟨S_, .i32⟩ : BufTy).Contents (Elt F) → (⟨S_, .i32⟩ : BufTy).Contents (Elt F) → (⟨S_, .i32⟩ : BufTy).Contents (Elt F))
  :: StableHlo.nullary main_c_548 (constantI S_ 32 0#32)
  :: StableHlo.ternary main_v1208 main_v1209 main_c_548 main_v1210 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v1207, main_v1210] ⟨S_, .i32⟩ main_v1211 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1211 main_v1212 rfl shapeCasts_S1x2_S2
  :: StableHlo.nullary main_c_549 (constantI S_ 32 0#32)
  :: StableHlo.binary main_v1201 main_c_549 main_v1213 (cmpi .slt : (⟨S_, .i32⟩ : BufTy).Contents (Elt F) → (⟨S_, .i32⟩ : BufTy).Contents (Elt F) → (⟨S_, .i1⟩ : BufTy).Contents (Elt F))
  :: StableHlo.nullary main_c_550 (constantI S_ 32 4194304#32)
  :: StableHlo.binary main_v1201 main_c_550 main_v1214 (addi : (⟨S_, .i32⟩ : BufTy).Contents (Elt F) → (⟨S_, .i32⟩ : BufTy).Contents (Elt F) → (⟨S_, .i32⟩ : BufTy).Contents (Elt F))
  :: StableHlo.ternary main_v1213 main_v1214 main_v1201 main_v1215 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_551 (constantI S_ 32 0#32)
  :: StableHlo.nullary main_c_552 (constantI S_ 32 0#32)
  :: StableHlo.binary main_c_551 main_c_552 main_v1216 (cmpi .slt : (⟨S_, .i32⟩ : BufTy).Contents (Elt F) → (⟨S_, .i32⟩ : BufTy).Contents (Elt F) → (⟨S_, .i1⟩ : BufTy).Contents (Elt F))
  :: StableHlo.nullary main_c_553 (constantI S_ 32 0#32)
  :: StableHlo.nullary main_c_554 (constantI S_ 32 2#32)
  :: StableHlo.binary main_c_553 main_c_554 main_v1217 (addi : (⟨S_, .i32⟩ : BufTy).Contents (Elt F) → (⟨S_, .i32⟩ : BufTy).Contents (Elt F) → (⟨S_, .i32⟩ : BufTy).Contents (Elt F))
  :: StableHlo.nullary main_c_555 (constantI S_ 32 0#32)
  :: StableHlo.ternary main_v1216 main_v1217 main_c_555 main_v1218 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1215, main_v1218] ⟨S_, .i32⟩ main_v1219 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1219 main_v1220 rfl shapeCasts_S1x2_S2
  :: StableHlo.binary main_v1212 main_v1220 main_v1221 (addf : (⟨S2, .f32⟩ : BufTy).Contents (Elt F) → (⟨S2, .f32⟩ : BufTy).Contents (Elt F) → (⟨S2, .f32⟩ : BufTy).Contents (Elt F))
  :: StableHlo.nullary main_c_556 (constantI S_ 32 0#32)
  :: StableHlo.binary main_v1204 main_c_556 main_v1222 (cmpi .slt : (⟨S_, .i32⟩ : BufTy).Contents (Elt F) → (⟨S_, .i32⟩ : BufTy).Contents (Elt F) → (⟨S_, .i1⟩ : BufTy).Contents (Elt F))
  :: StableHlo.nullary main_c_557 (constantI S_ 32 4194304#32)
  :: StableHlo.binary main_v1204 main_c_557 main_v1223 (addi : (⟨S_, .i32⟩ : BufTy).Contents (Elt F) → (⟨S_, .i32⟩ : BufTy).Contents (Elt F) → (⟨S_, .i32⟩ : BufTy).Contents (Elt F))
  :: StableHlo.ternary main_v1222 main_v1223 main_v1204 main_v1224 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_558 (constantI S_ 32 0#32)
  :: StableHlo.nullary main_c_559 (constantI S_ 32 0#32)
  :: StableHlo.binary main_c_558 main_c_559 main_v1225 (cmpi .slt : (⟨S_, .i32⟩ : BufTy).Contents (Elt F) → (⟨S_, .i32⟩ : BufTy).Contents (Elt F) → (⟨S_, .i1⟩ : BufTy).Contents (Elt F))
  :: StableHlo.nullary main_c_560 (constantI S_ 32 0#32)
  :: StableHlo.nullary main_c_561 (constantI S_ 32 2#32)
  :: StableHlo.binary main_c_560 main_c_561 main_v1226 (addi : (⟨S_, .i32⟩ : BufTy).Contents (Elt F) → (⟨S_, .i32⟩ : BufTy).Contents (Elt F) → (⟨S_, .i32⟩ : BufTy).Contents (Elt F))
  :: StableHlo.nullary main_c_562 (constantI S_ 32 0#32)
  :: StableHlo.ternary main_v1225 main_v1226 main_c_562 main_v1227 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1224, main_v1227] ⟨S_, .i32⟩ main_v1228 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1228 main_v1229 rfl shapeCasts_S1x2_S2
  :: StableHlo.nullary main_cst_563 (constant S_ .f32 0xBF317218#32)
  :: StableHlo.unary main_cst_563 main_v1230 (broadcastInDim S2 ![] bcast_S_S2 : (⟨S_, .f32⟩ : BufTy).Contents (Elt F) → (⟨S2, .f32⟩ : BufTy).Contents (Elt F))
  :: StableHlo.binary main_v1229 main_v1230 main_v1231 (cmpf .ogt : (⟨S2, .f32⟩ : BufTy).Contents (Elt F) → (⟨S2, .f32⟩ : BufTy).Contents (Elt F) → (⟨S2, .i1⟩ : BufTy).Contents (Elt F))
  :: StableHlo.unary main_v1229 main_v1232 (Host.expm1 : (⟨S2, .f32⟩ : BufTy).Contents (Elt F) → (⟨S2, .f32⟩ : BufTy).Contents (Elt F))
  :: StableHlo.unary main_v1232 main_v1233 (Host.negf : (⟨S2, .f32⟩ : BufTy).Contents (Elt F) → (⟨S2, .f32⟩ : BufTy).Contents (Elt F))
  :: [] )
theorem main_part29_ops5_sub : (main_part29_ops5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub ..⟩
/-- Window 29's stretches, in order. -/
abbrev part29_opss : List (List (HloOp τ sig (Elt F))) :=
  [ main_part29_ops0,
    main_part29_ops1,
    main_part29_ops2,
    main_part29_ops3,
    main_part29_ops4,
    main_part29_ops5 ]
theorem part29_opss_sub : (part29_opss : List (List (HloOp τ sig (Elt F)))).Forall fun l => l.Forall fun op => op.bufs ⊆ StableHlo.tcRefs τ sig :=
  ⟨main_part29_ops0_sub, main_part29_ops1_sub, main_part29_ops2_sub, main_part29_ops3_sub, main_part29_ops4_sub, main_part29_ops5_sub⟩

/-- 4 host operations of @main, window 30 (statements 1801 … 1860), in order:
    main_v1234 … main_v1237. -/
abbrev main_part30_ops0 : List (HloOp τ sig (Elt F)) :=
  [ StableHlo.unary main_v1233 main_v1234 (Host.log : (⟨S2, .f32⟩ : BufTy).Contents (Elt F) → (⟨S2, .f32⟩ : BufTy).Contents (Elt F)),
    StableHlo.unary main_v1229 main_v1235 (Host.exp : (⟨S2, .f32⟩ : BufTy).Contents (Elt F) → (⟨S2, .f32⟩ : BufTy).Contents (Elt F)),
    StableHlo.unary main_v1235 main_v1236 (Host.negf : (⟨S2, .f32⟩ : BufTy).Contents (Elt F) → (⟨S2, .f32⟩ : BufTy).Contents (Elt F)),
    StableHlo.unary main_v1236 main_v1237 (Host.log1p : (⟨S2, .f32⟩ : BufTy).Contents (Elt F) → (⟨S2, .f32⟩ : BufTy).Contents (Elt F)) ]
theorem main_part30_ops0_sub : (main_part30_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- 1 host operation of @_where_3 (main_call111), window 30 (statements 1801 … 1860), in order:
    main_v1238 … main_v1238. -/
abbrev main_part30_ops1 : List (HloOp τ sig (Elt F)) :=
  [ StableHlo.TRef.ternary (.of main_v1231 : StableHlo.TRef sig ⟨S2, .i1⟩) (.of main_v1234 : StableHlo.TRef sig ⟨S2, .f32⟩) (.of main_v1237 : StableHlo.TRef sig ⟨S2, .f32⟩) (.of main_v1238 : StableHlo.TRef sig ⟨S2, .f32⟩) select ]
theorem main_part30_ops1_sub : (main_part30_ops1 : List (HloOp τ sig (Elt F))).Forall fun op => op.bufs ⊆ StableHlo.tcRefs τ sig :=
  StableHlo.ternary_bufs_sub ..
/-- 6 host operations of @main, window 30 (statements 1801 … 1860), in order:
    main_v1239 … main_cst_566. -/
abbrev main_part30_ops2 : List (HloOp τ sig (Elt F)) :=
  [ StableHlo.binary main_v1221 main_v1238 main_v1239 (subf : (⟨S2, .f32⟩ : BufTy).Contents (Elt F) → (⟨S2, .f32⟩ : BufTy).Contents (Elt F) → (⟨S2, .f32⟩ : BufTy).Contents (Elt F)),
    StableHlo.nullary main_cst_564 (constant S_ .f32 0x00000000#32),
    StableHlo.binary main_v1239 main_cst_564 main_v1240 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_565 (constantI S_ 32 0#32),
    StableHlo.binary main_v1195 main_c_565 main_v1241 (cmpi .sgt : (⟨S_, .i32⟩ : BufTy).Contents (Elt F) → (⟨S_, .i32⟩ : BufTy).Contents (Elt F) → (⟨S_, .i1⟩ : BufTy).Contents (Elt F)),
    StableHlo.nullary main_cst_566 (constant S_ .f32 0x00000000#32) ]
theorem main_part30_ops2_sub : (main_part30_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call112), window 30 (statements 1801 … 1860), in order:
    main_v1242 … main_v1242. -/
abbrev main_part30_ops3 : List (HloOp τ sig (Elt F)) :=
  [ StableHlo.TRef.ternary (.of main_v1241 : StableHlo.TRef sig ⟨S_, .i1⟩) (.of main_v1240 : StableHlo.TRef sig ⟨S_, .f32⟩) (.of main_cst_566 : StableHlo.TRef sig ⟨S_, .f32⟩) (.of main_v1242 : StableHlo.TRef sig ⟨S_, .f32⟩) select ]
theorem main_part30_ops3_sub : (main_part30_ops3 : List (HloOp τ sig (Elt F))).Forall fun op => op.bufs ⊆ StableHlo.tcRefs τ sig :=
  StableHlo.ternary_bufs_sub ..
/-- 13 host operations of @main, window 30 (statements 1801 … 1860), in order:
    main_v1243 … main_v1252. -/
abbrev main_part30_ops4 : List (HloOp τ sig (Elt F)) :=
  [ StableHlo.binary main_v1183 main_v1242 main_v1243 (subf : (⟨S_, .f32⟩ : BufTy).Contents (Elt F) → (⟨S_, .f32⟩ : BufTy).Contents (Elt F) → (⟨S_, .f32⟩ : BufTy).Contents (Elt F)),
    StableHlo.nullary main_c_567 (constantI S_ 32 4#32),
    StableHlo.unary main_c_567 main_v1244 (broadcastInDim S4194304 ![] bcast_S_S4194304 : (⟨S_, .i32⟩ : BufTy).Contents (Elt F) → (⟨S4194304, .i32⟩ : BufTy).Contents (Elt F)),
    StableHlo.binary main_v25 main_v1244 main_v1245 (cmpi .eq : (⟨S4194304, .i32⟩ : BufTy).Contents (Elt F) → (⟨S4194304, .i32⟩ : BufTy).Contents (Elt F) → (⟨S4194304, .i1⟩ : BufTy).Contents (Elt F)),
    StableHlo.nullary main_c_568 (constantI S_ 32 2#32),
    StableHlo.unary main_c_568 main_v1246 (broadcastInDim S4194304 ![] bcast_S_S4194304 : (⟨S_, .i32⟩ : BufTy).Contents (Elt F) → (⟨S4194304, .i32⟩ : BufTy).Contents (Elt F)),
    StableHlo.binary main_v51 main_v1246 main_v1247 (cmpi .eq : (⟨S4194304, .i32⟩ : BufTy).Contents (Elt F) → (⟨S4194304, .i32⟩ : BufTy).Contents (Elt F) → (⟨S4194304, .i1⟩ : BufTy).Contents (Elt F)),
    StableHlo.binary main_v1245 main_v1247 main_v1248 (andi : (⟨S4194304, .i1⟩ : BufTy).Contents (Elt F) → (⟨S4194304, .i1⟩ : BufTy).Contents (Elt F) → (⟨S4194304, .i1⟩ : BufTy).Contents (Elt F)),
    StableHlo.nullary main_c_569 (constantI S_ 32 2#32),
    StableHlo.unary main_c_569 main_v1249 (broadcastInDim S4194304 ![] bcast_S_S4194304 : (⟨S_, .i32⟩ : BufTy).Contents (Elt F) → (⟨S4194304, .i32⟩ : BufTy).Contents (Elt F)),
    StableHlo.binary main_v77 main_v1249 main_v1250 (cmpi .eq : (⟨S4194304, .i32⟩ : BufTy).Contents (Elt F) → (⟨S4194304, .i32⟩ : BufTy).Contents (Elt F) → (⟨S4194304, .i1⟩ : BufTy).Contents (Elt F)),
    StableHlo.binary main_v1248 main_v1250 main_v1251 (andi : (⟨S4194304, .i1⟩ : BufTy).Contents (Elt F) → (⟨S4194304, .i1⟩ : BufTy).Contents (Elt F) → (⟨S4194304, .i1⟩ : BufTy).Contents (Elt F)),
    StableHlo.unary main_v1251 main_v1252 ((extui 32 · natLt_1_32) : (⟨S4194304, .i1⟩ : BufTy).Contents (Elt F) → (⟨S4194304, .i32⟩ : BufTy).Contents (Elt F)) ]
theorem main_part30_ops4_sub : (main_part30_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call113), window 30 (statements 1801 … 1860), in order:
    main_call113_call0_c … main_v1253. -/
abbrev main_part30_ops5 : List (HloOp τ sig (Elt F)) :=
  [ StableHlo.TRef.nullary (.of main_call113_call0_c : StableHlo.TRef sig ⟨S_, .i32⟩) (constantI S_ 32 0#32),
    StableHlo.TRef.unary (.of main_call113_call0_c : StableHlo.TRef sig ⟨S_, .i32⟩) (.of main_call113_call0_v0 : StableHlo.TRef sig ⟨S_, .i32⟩) (broadcastInDim S_ ![] bcast_S_S_),
    StableHlo.TRef.binary (.of main_v1252 : StableHlo.TRef sig ⟨S4194304, .i32⟩) (.of main_call113_call0_v0 : StableHlo.TRef sig ⟨S_, .i32⟩) (.of main_v1253 : StableHlo.TRef sig ⟨S4194304, .i32⟩) (fun x v => Host.reduceWindow IntOp.addi ![4194304] ![1] ![4194303] ![0] x v reduceWindows_S4194304_S4194304_w4194304s1p4194303_0 h_S_) ]
theorem main_part30_ops5_sub : (main_part30_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 30 (statements 1801 … 1860), in order:
    main_v1254 … main_v1257. -/
abbrev main_part30_ops6 : List (HloOp τ sig (Elt F)) :=
  [ StableHlo.unary main_v1253 main_v1254 ((extractStridedSlice S1 ![4194303] · slices_S4194304_S1_4194303) : (⟨S4194304, .i32⟩ : BufTy).Contents (Elt F) → (⟨S1, .i32⟩ : BufTy).Contents (Elt F)),
    StableHlo.reshape main_v1254 main_v1255 rfl shapeCasts_S1_S_,
    StableHlo.nullary main_c_570 (constantI S_ 32 2#32),
    StableHlo.unary main_c_570 main_v1256 (broadcastInDim S4194304 ![] bcast_S_S4194304 : (⟨S_, .i32⟩ : BufTy).Contents (Elt F) → (⟨S4194304, .i32⟩ : BufTy).Contents (Elt F)),
    StableHlo.binary main_v1253 main_v1256 main_v1257 (cmpi .eq : (⟨S4194304, .i32⟩ : BufTy).Contents (Elt F) → (⟨S4194304, .i32⟩ : BufTy).Contents (Elt F) → (⟨S4194304, .i1⟩ : BufTy).Contents (Elt F)) ]
theorem main_part30_ops6_sub : (main_part30_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call114), window 30 (statements 1801 … 1860), in order:
    main_call114_v0 … main_v1258. -/
abbrev main_part30_ops7 : List (HloOp τ sig (Elt F)) :=
  [ StableHlo.TRef.nullary (.of main_call114_v0 : StableHlo.TRef sig ⟨S4194304, .i32⟩) (iotaInDim S4194304 32 0),
    StableHlo.TRef.nullary (.of main_call114_c : StableHlo.TRef sig ⟨S_, .i1⟩) (constantI S_ 1 0#1),
    StableHlo.TRef.nullary (.of main_call114_c_0 : StableHlo.TRef sig ⟨S_, .i32⟩) (constantI S_ 32 0#32),
    StableHlo.TRef.quaternary (.of main_v1257 : StableHlo.TRef sig ⟨S4194304, .i1⟩) (.of main_call114_v0 : StableHlo.TRef sig ⟨S4194304, .i32⟩) (.of main_call114_c : StableHlo.TRef sig ⟨S_, .i1⟩) (.of main_call114_c_0 : StableHlo.TRef sig ⟨S_, .i32⟩) (.of main_call114_v1_0 : StableHlo.TRef sig ⟨S_, .i1⟩) (fun x y u v j => (Host.reduce2 reducer_argmax_i1_i32 x y u v reducesTo_S4194304_S_d0 h_S_ j).1),
    StableHlo.TRef.quaternary (.of main_v1257 : StableHlo.TRef sig ⟨S4194304, .i1⟩) (.of main_call114_v0 : StableHlo.TRef sig ⟨S4194304, .i32⟩) (.of main_call114_c : StableHlo.TRef sig ⟨S_, .i1⟩) (.of main_call114_c_0 : StableHlo.TRef sig ⟨S_, .i32⟩) (.of main_v1258 : StableHlo.TRef sig ⟨S_, .i32⟩) (fun x y u v j => (Host.reduce2 reducer_argmax_i1_i32 x y u v reducesTo_S4194304_S_d0 h_S_ j).2) ]
theorem main_part30_ops7_sub : (main_part30_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 30 (statements 1801 … 1860), in order:
    main_c_571 … main_v1260. -/
abbrev main_part30_ops8 : List (HloOp τ sig (Elt F)) :=
  [ StableHlo.nullary main_c_571 (constantI S_ 32 1#32),
    StableHlo.unary main_c_571 main_v1259 (broadcastInDim S4194304 ![] bcast_S_S4194304 : (⟨S_, .i32⟩ : BufTy).Contents (Elt F) → (⟨S4194304, .i32⟩ : BufTy).Contents (Elt F)),
    StableHlo.binary main_v1253 main_v1259 main_v1260 (cmpi .eq : (⟨S4194304, .i32⟩ : BufTy).Contents (Elt F) → (⟨S4194304, .i32⟩ : BufTy).Contents (Elt F) → (⟨S4194304, .i1⟩ : BufTy).Contents (Elt F)) ]
theorem main_part30_ops8_sub : (main_part30_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call115), window 30 (statements 1801 … 1860), in order:
    main_call115_v0 … main_v1261. -/
abbrev main_part30_ops9 : List (HloOp τ sig (Elt F)) :=
  [ StableHlo.TRef.nullary (.of main_call115_v0 : StableHlo.TRef sig ⟨S4194304, .i32⟩) (iotaInDim S4194304 32 0),
    StableHlo.TRef.nullary (.of main_call115_c : StableHlo.TRef sig ⟨S_, .i1⟩) (constantI S_ 1 0#1),
    StableHlo.TRef.nullary (.of main_call115_c_0 : StableHlo.TRef sig ⟨S_, .i32⟩) (constantI S_ 32 0#32),
    StableHlo.TRef.quaternary (.of main_v1260 : StableHlo.TRef sig ⟨S4194304, .i1⟩) (.of main_call115_v0 : StableHlo.TRef sig ⟨S4194304, .i32⟩) (.of main_call115_c : StableHlo.TRef sig ⟨S_, .i1⟩) (.of main_call115_c_0 : StableHlo.TRef sig ⟨S_, .i32⟩) (.of main_call115_v1_0 : StableHlo.TRef sig ⟨S_, .i1⟩) (fun x y u v j => (Host.reduce2 reducer_argmax_i1_i32 x y u v reducesTo_S4194304_S_d0 h_S_ j).1),
    StableHlo.TRef.quaternary (.of main_v1260 : StableHlo.TRef sig ⟨S4194304, .i1⟩) (.of main_call115_v0 : StableHlo.TRef sig ⟨S4194304, .i32⟩) (.of main_call115_c : StableHlo.TRef sig ⟨S_, .i1⟩) (.of main_call115_c_0 : StableHlo.TRef sig ⟨S_, .i32⟩) (.of main_v1261 : StableHlo.TRef sig ⟨S_, .i32⟩) (fun x y u v j => (Host.reduce2 reducer_argmax_i1_i32 x y u v reducesTo_S4194304_S_d0 h_S_ j).2) ]
theorem main_part30_ops9_sub : (main_part30_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 30 (statements 1801 … 1860), in order:
    main_c_572 … main_v1263. -/
abbrev main_part30_ops10 : List (HloOp τ sig (Elt F)) :=
  [ StableHlo.nullary main_c_572 (constantI S_ 32 1#32),
    StableHlo.unary main_c_572 main_v1262 (broadcastInDim S4194304 ![] bcast_S_S4194304 : (⟨S_, .i32⟩ : BufTy).Contents (Elt F) → (⟨S4194304, .i32⟩ : BufTy).Contents (Elt F)),
    StableHlo.binary main_v1253 main_v1262 main_v1263 (cmpi .eq : (⟨S4194304, .i32⟩ : BufTy).Contents (Elt F) → (⟨S4194304, .i32⟩ : BufTy).Contents (Elt F) → (⟨S4194304, .i1⟩ : BufTy).Contents (Elt F)) ]
theorem main_part30_ops10_sub : (main_part30_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call116), window 30 (statements 1801 … 1860), in order:
    main_call116_v0 … main_v1264. -/
abbrev main_part30_ops11 : List (HloOp τ sig (Elt F)) :=
  [ StableHlo.TRef.nullary (.of main_call116_v0 : StableHlo.TRef sig ⟨S4194304, .i32⟩) (iotaInDim S4194304 32 0),
    StableHlo.TRef.nullary (.of main_call116_c : StableHlo.TRef sig ⟨S_, .i1⟩) (constantI S_ 1 0#1),
    StableHlo.TRef.nullary (.of main_call116_c_0 : StableHlo.TRef sig ⟨S_, .i32⟩) (constantI S_ 32 0#32),
    StableHlo.TRef.quaternary (.of main_v1263 : StableHlo.TRef sig ⟨S4194304, .i1⟩) (.of main_call116_v0 : StableHlo.TRef sig ⟨S4194304, .i32⟩) (.of main_call116_c : StableHlo.TRef sig ⟨S_, .i1⟩) (.of main_call116_c_0 : StableHlo.TRef sig ⟨S_, .i32⟩) (.of main_call116_v1_0 : StableHlo.TRef sig ⟨S_, .i1⟩) (fun x y u v j => (Host.reduce2 reducer_argmax_i1_i32 x y u v reducesTo_S4194304_S_d0 h_S_ j).1),
    StableHlo.TRef.quaternary (.of main_v1263 : StableHlo.TRef sig ⟨S4194304, .i1⟩) (.of main_call116_v0 : StableHlo.TRef sig ⟨S4194304, .i32⟩) (.of main_call116_c : StableHlo.TRef sig ⟨S_, .i1⟩) (.of main_call116_c_0 : StableHlo.TRef sig ⟨S_, .i32⟩) (.of main_v1264 : StableHlo.TRef sig ⟨S_, .i32⟩) (fun x y u v j => (Host.reduce2 reducer_argmax_i1_i32 x y u v reducesTo_S4194304_S_d0 h_S_ j).2) ]
theorem main_part30_ops11_sub : (main_part30_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 20 host operations of @main, window 30 (statements 1801 … 1860), in order:
    main_c_573 … main_v1275. -/
abbrev main_part30_ops12 : List (HloOp τ sig (Elt F)) :=
  [ StableHlo.nullary main_c_573 (constantI S_ 32 0#32),
    StableHlo.binary main_v1258 main_c_573 main_v1265 (cmpi .slt : (⟨S_, .i32⟩ : BufTy).Contents (Elt F) → (⟨S_, .i32⟩ : BufTy).Contents (Elt F) → (⟨S_, .i1⟩ : BufTy).Contents (Elt F)),
    StableHlo.nullary main_c_574 (constantI S_ 32 4194304#32),
    StableHlo.binary main_v1258 main_c_574 main_v1266 (addi : (⟨S_, .i32⟩ : BufTy).Contents (Elt F) → (⟨S_, .i32⟩ : BufTy).Contents (Elt F) → (⟨S_, .i32⟩ : BufTy).Contents (Elt F)),
    StableHlo.ternary main_v1265 main_v1266 main_v1258 main_v1267 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_575 (constantI S_ 32 0#32),
    StableHlo.nullary main_c_576 (constantI S_ 32 0#32),
    StableHlo.binary main_c_575 main_c_576 main_v1268 (cmpi .slt : (⟨S_, .i32⟩ : BufTy).Contents (Elt F) → (⟨S_, .i32⟩ : BufTy).Contents (Elt F) → (⟨S_, .i1⟩ : BufTy).Contents (Elt F)),
    StableHlo.nullary main_c_577 (constantI S_ 32 0#32),
    StableHlo.nullary main_c_578 (constantI S_ 32 2#32),
    StableHlo.binary main_c_577 main_c_578 main_v1269 (addi : (⟨S_, .i32⟩ : BufTy).Contents (Elt F) → (⟨S_, .i32⟩ : BufTy).Contents (Elt F) → (⟨S_, .i32⟩ : BufTy).Contents (Elt F)),
    StableHlo.nullary main_c_579 (constantI S_ 32 0#32),
    StableHlo.ternary main_v1268 main_v1269 main_c_579 main_v1270 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1267, main_v1270] ⟨S_, .i32⟩ main_v1271 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1271 main_v1272 rfl shapeCasts_S1x2_S2,
    StableHlo.nullary main_c_580 (constantI S_ 32 0#32),
    StableHlo.binary main_v1261 main_c_580 main_v1273 (cmpi .slt : (⟨S_, .i32⟩ : BufTy).Contents (Elt F) → (⟨S_, .i32⟩ : BufTy).Contents (Elt F) → (⟨S_, .i1⟩ : BufTy).Contents (Elt F)),
    StableHlo.nullary main_c_581 (constantI S_ 32 4194304#32),
    StableHlo.binary main_v1261 main_c_581 main_v1274 (addi : (⟨S_, .i32⟩ : BufTy).Contents (Elt F) → (⟨S_, .i32⟩ : BufTy).Contents (Elt F) → (⟨S_, .i32⟩ : BufTy).Contents (Elt F)),
    StableHlo.ternary main_v1273 main_v1274 main_v1261 main_v1275 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem main_part30_ops12_sub : (main_part30_ops12 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub ..⟩
/-- Window 30's stretches, in order. -/
abbrev part30_opss : List (List (HloOp τ sig (Elt F))) :=
  [ main_part30_ops0,
    main_part30_ops1,
    main_part30_ops2,
    main_part30_ops3,
    main_part30_ops4,
    main_part30_ops5,
    main_part30_ops6,
    main_part30_ops7,
    main_part30_ops8,
    main_part30_ops9,
    main_part30_ops10,
    main_part30_ops11,
    main_part30_ops12 ]
theorem part30_opss_sub : (part30_opss : List (List (HloOp τ sig (Elt F)))).Forall fun l => l.Forall fun op => op.bufs ⊆ StableHlo.tcRefs τ sig :=
  ⟨main_part30_ops0_sub, main_part30_ops1_sub, main_part30_ops2_sub, main_part30_ops3_sub, main_part30_ops4_sub, main_part30_ops5_sub, main_part30_ops6_sub, main_part30_ops7_sub, main_part30_ops8_sub, main_part30_ops9_sub, main_part30_ops10_sub, main_part30_ops11_sub, main_part30_ops12_sub⟩

/-- 35 host operations of @main, window 31 (statements 1861 … 1920), in order:
    main_c_582 … main_v1297. -/
abbrev main_part31_ops0 : List (HloOp τ sig (Elt F)) :=
  ( StableHlo.nullary main_c_582 (constantI S_ 32 0#32)
  :: StableHlo.nullary main_c_583 (constantI S_ 32 0#32)
  :: StableHlo.binary main_c_582 main_c_583 main_v1276 (cmpi .slt : (⟨S_, .i32⟩ : BufTy).Contents (Elt F) → (⟨S_, .i32⟩ : BufTy).Contents (Elt F) → (⟨S_, .i1⟩ : BufTy).Contents (Elt F))
  :: StableHlo.nullary main_c_584 (constantI S_ 32 0#32)
  :: StableHlo.nullary main_c_585 (constantI S_ 32 2#32)
  :: StableHlo.binary main_c_584 main_c_585 main_v1277 (addi : (⟨S_, .i32⟩ : BufTy).Contents (Elt F) → (⟨S_, .i32⟩ : BufTy).Contents (Elt F) → (⟨S_, .i32⟩ : BufTy).Contents (Elt F))
  :: StableHlo.nullary main_c_586 (constantI S_ 32 0#32)
  :: StableHlo.ternary main_v1276 main_v1277 main_c_586 main_v1278 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1275, main_v1278] ⟨S_, .i32⟩ main_v1279 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1279 main_v1280 rfl shapeCasts_S1x2_S2
  :: StableHlo.binary main_v1272 main_v1280 main_v1281 (addf : (⟨S2, .f32⟩ : BufTy).Contents (Elt F) → (⟨S2, .f32⟩ : BufTy).Contents (Elt F) → (⟨S2, .f32⟩ : BufTy).Contents (Elt F))
  :: StableHlo.nullary main_c_587 (constantI S_ 32 0#32)
  :: StableHlo.binary main_v1264 main_c_587 main_v1282 (cmpi .slt : (⟨S_, .i32⟩ : BufTy).Contents (Elt F) → (⟨S_, .i32⟩ : BufTy).Contents (Elt F) → (⟨S_, .i1⟩ : BufTy).Contents (Elt F))
  :: StableHlo.nullary main_c_588 (constantI S_ 32 4194304#32)
  :: StableHlo.binary main_v1264 main_c_588 main_v1283 (addi : (⟨S_, .i32⟩ : BufTy).Contents (Elt F) → (⟨S_, .i32⟩ : BufTy).Contents (Elt F) → (⟨S_, .i32⟩ : BufTy).Contents (Elt F))
  :: StableHlo.ternary main_v1282 main_v1283 main_v1264 main_v1284 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_589 (constantI S_ 32 0#32)
  :: StableHlo.nullary main_c_590 (constantI S_ 32 0#32)
  :: StableHlo.binary main_c_589 main_c_590 main_v1285 (cmpi .slt : (⟨S_, .i32⟩ : BufTy).Contents (Elt F) → (⟨S_, .i32⟩ : BufTy).Contents (Elt F) → (⟨S_, .i1⟩ : BufTy).Contents (Elt F))
  :: StableHlo.nullary main_c_591 (constantI S_ 32 0#32)
  :: StableHlo.nullary main_c_592 (constantI S_ 32 2#32)
  :: StableHlo.binary main_c_591 main_c_592 main_v1286 (addi : (⟨S_, .i32⟩ : BufTy).Contents (Elt F) → (⟨S_, .i32⟩ : BufTy).Contents (Elt F) → (⟨S_, .i32⟩ : BufTy).Contents (Elt F))
  :: StableHlo.nullary main_c_593 (constantI S_ 32 0#32)
  :: StableHlo.ternary main_v1285 main_v1286 main_c_593 main_v1287 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1284, main_v1287] ⟨S_, .i32⟩ main_v1288 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1288 main_v1289 rfl shapeCasts_S1x2_S2
  :: StableHlo.nullary main_cst_594 (constant S_ .f32 0xBF317218#32)
  :: StableHlo.unary main_cst_594 main_v1290 (broadcastInDim S2 ![] bcast_S_S2 : (⟨S_, .f32⟩ : BufTy).Contents (Elt F) → (⟨S2, .f32⟩ : BufTy).Contents (Elt F))
  :: StableHlo.binary main_v1289 main_v1290 main_v1291 (cmpf .ogt : (⟨S2, .f32⟩ : BufTy).Contents (Elt F) → (⟨S2, .f32⟩ : BufTy).Contents (Elt F) → (⟨S2, .i1⟩ : BufTy).Contents (Elt F))
  :: StableHlo.unary main_v1289 main_v1292 (Host.expm1 : (⟨S2, .f32⟩ : BufTy).Contents (Elt F) → (⟨S2, .f32⟩ : BufTy).Contents (Elt F))
  :: StableHlo.unary main_v1292 main_v1293 (Host.negf : (⟨S2, .f32⟩ : BufTy).Contents (Elt F) → (⟨S2, .f32⟩ : BufTy).Contents (Elt F))
  :: StableHlo.unary main_v1293 main_v1294 (Host.log : (⟨S2, .f32⟩ : BufTy).Contents (Elt F) → (⟨S2, .f32⟩ : BufTy).Contents (Elt F))
  :: StableHlo.unary main_v1289 main_v1295 (Host.exp : (⟨S2, .f32⟩ : BufTy).Contents (Elt F) → (⟨S2, .f32⟩ : BufTy).Contents (Elt F))
  :: StableHlo.unary main_v1295 main_v1296 (Host.negf : (⟨S2, .f32⟩ : BufTy).Contents (Elt F) → (⟨S2, .f32⟩ : BufTy).Contents (Elt F))
  :: StableHlo.unary main_v1296 main_v1297 (Host.log1p : (⟨S2, .f32⟩ : BufTy).Contents (Elt F) → (⟨S2, .f32⟩ : BufTy).Contents (Elt F))
  :: [] )
theorem main_part31_ops0_sub : (main_part31_ops0 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call117), window 31 (statements 1861 … 1920), in order:
    main_v1298 … main_v1298. -/
abbrev main_part31_ops1 : List (HloOp τ sig (Elt F)) :=
  [ StableHlo.TRef.ternary (.of main_v1291 : StableHlo.TRef sig ⟨S2, .i1⟩) (.of main_v1294 : StableHlo.TRef sig ⟨S2, .f32⟩) (.of main_v1297 : StableHlo.TRef sig ⟨S2, .f32⟩) (.of main_v1298 : StableHlo.TRef sig ⟨S2, .f32⟩) select ]
theorem main_part31_ops1_sub : (main_part31_ops1 : List (HloOp τ sig (Elt F))).Forall fun op => op.bufs ⊆ StableHlo.tcRefs τ sig :=
  StableHlo.ternary_bufs_sub ..
/-- 6 host operations of @main, window 31 (statements 1861 … 1920), in order:
    main_v1299 … main_cst_597. -/
abbrev main_part31_ops2 : List (HloOp τ sig (Elt F)) :=
  [ StableHlo.binary main_v1281 main_v1298 main_v1299 (subf : (⟨S2, .f32⟩ : BufTy).Contents (Elt F) → (⟨S2, .f32⟩ : BufTy).Contents (Elt F) → (⟨S2, .f32⟩ : BufTy).Contents (Elt F)),
    StableHlo.nullary main_cst_595 (constant S_ .f32 0x00000000#32),
    StableHlo.binary main_v1299 main_cst_595 main_v1300 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_596 (constantI S_ 32 0#32),
    StableHlo.binary main_v1255 main_c_596 main_v1301 (cmpi .sgt : (⟨S_, .i32⟩ : BufTy).Contents (Elt F) → (⟨S_, .i32⟩ : BufTy).Contents (Elt F) → (⟨S_, .i1⟩ : BufTy).Contents (Elt F)),
    StableHlo.nullary main_cst_597 (constant S_ .f32 0x00000000#32) ]
theorem main_part31_ops2_sub : (main_part31_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call118), window 31 (statements 1861 … 1920), in order:
    main_v1302 … main_v1302. -/
abbrev main_part31_ops3 : List (HloOp τ sig (Elt F)) :=
  [ StableHlo.TRef.ternary (.of main_v1301 : StableHlo.TRef sig ⟨S_, .i1⟩) (.of main_v1300 : StableHlo.TRef sig ⟨S_, .f32⟩) (.of main_cst_597 : StableHlo.TRef sig ⟨S_, .f32⟩) (.of main_v1302 : StableHlo.TRef sig ⟨S_, .f32⟩) select ]
theorem main_part31_ops3_sub : (main_part31_ops3 : List (HloOp τ sig (Elt F))).Forall fun op => op.bufs ⊆ StableHlo.tcRefs τ sig :=
  StableHlo.ternary_bufs_sub ..
/-- 13 host operations of @main, window 31 (statements 1861 … 1920), in order:
    main_v1303 … main_v1312. -/
abbrev main_part31_ops4 : List (HloOp τ sig (Elt F)) :=
  [ StableHlo.binary main_v1243 main_v1302 main_v1303 (subf : (⟨S_, .f32⟩ : BufTy).Contents (Elt F) → (⟨S_, .f32⟩ : BufTy).Contents (Elt F) → (⟨S_, .f32⟩ : BufTy).Contents (Elt F)),
    StableHlo.nullary main_c_598 (constantI S_ 32 5#32),
    StableHlo.unary main_c_598 main_v1304 (broadcastInDim S4194304 ![] bcast_S_S4194304 : (⟨S_, .i32⟩ : BufTy).Contents (Elt F) → (⟨S4194304, .i32⟩ : BufTy).Contents (Elt F)),
    StableHlo.binary main_v25 main_v1304 main_v1305 (cmpi .eq : (⟨S4194304, .i32⟩ : BufTy).Contents (Elt F) → (⟨S4194304, .i32⟩ : BufTy).Contents (Elt F) → (⟨S4194304, .i1⟩ : BufTy).Contents (Elt F)),
    StableHlo.nullary main_c_599 (constantI S_ 32 1#32),
    StableHlo.unary main_c_599 main_v1306 (broadcastInDim S4194304 ![] bcast_S_S4194304 : (⟨S_, .i32⟩ : BufTy).Contents (Elt F) → (⟨S4194304, .i32⟩ : BufTy).Contents (Elt F)),
    StableHlo.binary main_v51 main_v1306 main_v1307 (cmpi .eq : (⟨S4194304, .i32⟩ : BufTy).Contents (Elt F) → (⟨S4194304, .i32⟩ : BufTy).Contents (Elt F) → (⟨S4194304, .i1⟩ : BufTy).Contents (Elt F)),
    StableHlo.binary main_v1305 main_v1307 main_v1308 (andi : (⟨S4194304, .i1⟩ : BufTy).Contents (Elt F) → (⟨S4194304, .i1⟩ : BufTy).Contents (Elt F) → (⟨S4194304, .i1⟩ : BufTy).Contents (Elt F)),
    StableHlo.nullary main_c_600 (constantI S_ 32 0#32),
    StableHlo.unary main_c_600 main_v1309 (broadcastInDim S4194304 ![] bcast_S_S4194304 : (⟨S_, .i32⟩ : BufTy).Contents (Elt F) → (⟨S4194304, .i32⟩ : BufTy).Contents (Elt F)),
    StableHlo.binary main_v77 main_v1309 main_v1310 (cmpi .eq : (⟨S4194304, .i32⟩ : BufTy).Contents (Elt F) → (⟨S4194304, .i32⟩ : BufTy).Contents (Elt F) → (⟨S4194304, .i1⟩ : BufTy).Contents (Elt F)),
    StableHlo.binary main_v1308 main_v1310 main_v1311 (andi : (⟨S4194304, .i1⟩ : BufTy).Contents (Elt F) → (⟨S4194304, .i1⟩ : BufTy).Contents (Elt F) → (⟨S4194304, .i1⟩ : BufTy).Contents (Elt F)),
    StableHlo.unary main_v1311 main_v1312 ((extui 32 · natLt_1_32) : (⟨S4194304, .i1⟩ : BufTy).Contents (Elt F) → (⟨S4194304, .i32⟩ : BufTy).Contents (Elt F)) ]
theorem main_part31_ops4_sub : (main_part31_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call119), window 31 (statements 1861 … 1920), in order:
    main_call119_call0_c … main_v1313. -/
abbrev main_part31_ops5 : List (HloOp τ sig (Elt F)) :=
  [ StableHlo.TRef.nullary (.of main_call119_call0_c : StableHlo.TRef sig ⟨S_, .i32⟩) (constantI S_ 32 0#32),
    StableHlo.TRef.unary (.of main_call119_call0_c : StableHlo.TRef sig ⟨S_, .i32⟩) (.of main_call119_call0_v0 : StableHlo.TRef sig ⟨S_, .i32⟩) (broadcastInDim S_ ![] bcast_S_S_),
    StableHlo.TRef.binary (.of main_v1312 : StableHlo.TRef sig ⟨S4194304, .i32⟩) (.of main_call119_call0_v0 : StableHlo.TRef sig ⟨S_, .i32⟩) (.of main_v1313 : StableHlo.TRef sig ⟨S4194304, .i32⟩) (fun x v => Host.reduceWindow IntOp.addi ![4194304] ![1] ![4194303] ![0] x v reduceWindows_S4194304_S4194304_w4194304s1p4194303_0 h_S_) ]
theorem main_part31_ops5_sub : (main_part31_ops5 : List (HloOp τ sig (Elt F))).Forall fun op => op.bufs ⊆ StableHlo.tcRefs τ sig :=
  ⟨StableHlo.nullary_bufs_sub .., StableHlo.unary_bufs_sub .., StableHlo.binary_bufs_sub ..⟩
/-- 3 host operations of @main, window 31 (statements 1861 … 1920), in order:
    main_v1314 … main_c_601. -/
abbrev main_part31_ops6 : List (HloOp τ sig (Elt F)) :=
  [ StableHlo.unary main_v1313 main_v1314 ((extractStridedSlice S1 ![4194303] · slices_S4194304_S1_4194303) : (⟨S4194304, .i32⟩ : BufTy).Contents (Elt F) → (⟨S1, .i32⟩ : BufTy).Contents (Elt F)),
    StableHlo.reshape main_v1314 main_v1315 rfl shapeCasts_S1_S_,
    StableHlo.nullary main_c_601 (constantI S_ 32 2#32) ]
theorem main_part31_ops6_sub : (main_part31_ops6 : List (HloOp τ sig (Elt F))).Forall fun op => op.bufs ⊆ StableHlo.tcRefs τ sig :=
  ⟨StableHlo.unary_bufs_sub .., StableHlo.reshape_bufs_sub .., StableHlo.nullary_bufs_sub ..⟩
/-- Window 31's stretches, in order. -/
abbrev part31_opss : List (List (HloOp τ sig (Elt F))) :=
  [ main_part31_ops0,
    main_part31_ops1,
    main_part31_ops2,
    main_part31_ops3,
    main_part31_ops4,
    main_part31_ops5,
    main_part31_ops6 ]
theorem part31_opss_sub : (part31_opss : List (List (HloOp τ sig (Elt F)))).Forall fun l => l.Forall fun op => op.bufs ⊆ StableHlo.tcRefs τ sig :=
  ⟨main_part31_ops0_sub, main_part31_ops1_sub, main_part31_ops2_sub, main_part31_ops3_sub, main_part31_ops4_sub, main_part31_ops5_sub, main_part31_ops6_sub⟩

end Cert.ReferenceIdeal.Rn

end
-- ==== Proof.Rf.Ops8.lean ====
/- The reference's @main as operation lists: windows 32 … 35 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 2 host operations of @main, window 32 (statements 1921 … 1980), in order:
    main_v1316 … main_v1317. -/
abbrev main_part32_ops0 : List (HloOp τ sig (Elt F)) :=
  [ StableHlo.unary main_c_601 main_v1316 (broadcastInDim S4194304 ![] bcast_S_S4194304 : (⟨S_, .i32⟩ : BufTy).Contents (Elt F) → (⟨S4194304, .i32⟩ : BufTy).Contents (Elt F)),
    StableHlo.binary main_v1313 main_v1316 main_v1317 (cmpi .eq : (⟨S4194304, .i32⟩ : BufTy).Contents (Elt F) → (⟨S4194304, .i32⟩ : BufTy).Contents (Elt F) → (⟨S4194304, .i1⟩ : BufTy).Contents (Elt F)) ]
theorem main_part32_ops0_sub : (main_part32_ops0 : List (HloOp τ sig (Elt F))).Forall fun op => op.bufs ⊆ StableHlo.tcRefs τ sig :=
  ⟨StableHlo.unary_bufs_sub .., StableHlo.binary_bufs_sub ..⟩
/-- 5 host operations of @argmax (main_call120), window 32 (statements 1921 … 1980), in order:
    main_call120_v0 … main_v1318. -/
abbrev main_part32_ops1 : List (HloOp τ sig (Elt F)) :=
  [ StableHlo.TRef.nullary (.of main_call120_v0 : StableHlo.TRef sig ⟨S4194304, .i32⟩) (iotaInDim S4194304 32 0),
    StableHlo.TRef.nullary (.of main_call120_c : StableHlo.TRef sig ⟨S_, .i1⟩) (constantI S_ 1 0#1),
    StableHlo.TRef.nullary (.of main_call120_c_0 : StableHlo.TRef sig ⟨S_, .i32⟩) (constantI S_ 32 0#32),
    StableHlo.TRef.quaternary (.of main_v1317 : StableHlo.TRef sig ⟨S4194304, .i1⟩) (.of main_call120_v0 : StableHlo.TRef sig ⟨S4194304, .i32⟩) (.of main_call120_c : StableHlo.TRef sig ⟨S_, .i1⟩) (.of main_call120_c_0 : StableHlo.TRef sig ⟨S_, .i32⟩) (.of main_call120_v1_0 : StableHlo.TRef sig ⟨S_, .i1⟩) (fun x y u v j => (Host.reduce2 reducer_argmax_i1_i32 x y u v reducesTo_S4194304_S_d0 h_S_ j).1),
    StableHlo.TRef.quaternary (.of main_v1317 : StableHlo.TRef sig ⟨S4194304, .i1⟩) (.of main_call120_v0 : StableHlo.TRef sig ⟨S4194304, .i32⟩) (.of main_call120_c : StableHlo.TRef sig ⟨S_, .i1⟩) (.of main_call120_c_0 : StableHlo.TRef sig ⟨S_, .i32⟩) (.of main_v1318 : StableHlo.TRef sig ⟨S_, .i32⟩) (fun x y u v j => (Host.reduce2 reducer_argmax_i1_i32 x y u v reducesTo_S4194304_S_d0 h_S_ j).2) ]
theorem main_part32_ops1_sub : (main_part32_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 32 (statements 1921 … 1980), in order:
    main_c_602 … main_v1320. -/
abbrev main_part32_ops2 : List (HloOp τ sig (Elt F)) :=
  [ StableHlo.nullary main_c_602 (constantI S_ 32 1#32),
    StableHlo.unary main_c_602 main_v1319 (broadcastInDim S4194304 ![] bcast_S_S4194304 : (⟨S_, .i32⟩ : BufTy).Contents (Elt F) → (⟨S4194304, .i32⟩ : BufTy).Contents (Elt F)),
    StableHlo.binary main_v1313 main_v1319 main_v1320 (cmpi .eq : (⟨S4194304, .i32⟩ : BufTy).Contents (Elt F) → (⟨S4194304, .i32⟩ : BufTy).Contents (Elt F) → (⟨S4194304, .i1⟩ : BufTy).Contents (Elt F)) ]
theorem main_part32_ops2_sub : (main_part32_ops2 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call121), window 32 (statements 1921 … 1980), in order:
    main_call121_v0 … main_v1321. -/
abbrev main_part32_ops3 : List (HloOp τ sig (Elt F)) :=
  [ StableHlo.TRef.nullary (.of main_call121_v0 : StableHlo.TRef sig ⟨S4194304, .i32⟩) (iotaInDim S4194304 32 0),
    StableHlo.TRef.nullary (.of main_call121_c : StableHlo.TRef sig ⟨S_, .i1⟩) (constantI S_ 1 0#1),
    StableHlo.TRef.nullary (.of main_call121_c_0 : StableHlo.TRef sig ⟨S_, .i32⟩) (constantI S_ 32 0#32),
    StableHlo.TRef.quaternary (.of main_v1320 : StableHlo.TRef sig ⟨S4194304, .i1⟩) (.of main_call121_v0 : StableHlo.TRef sig ⟨S4194304, .i32⟩) (.of main_call121_c : StableHlo.TRef sig ⟨S_, .i1⟩) (.of main_call121_c_0 : StableHlo.TRef sig ⟨S_, .i32⟩) (.of main_call121_v1_0 : StableHlo.TRef sig ⟨S_, .i1⟩) (fun x y u v j => (Host.reduce2 reducer_argmax_i1_i32 x y u v reducesTo_S4194304_S_d0 h_S_ j).1),
    StableHlo.TRef.quaternary (.of main_v1320 : StableHlo.TRef sig ⟨S4194304, .i1⟩) (.of main_call121_v0 : StableHlo.TRef sig ⟨S4194304, .i32⟩) (.of main_call121_c : StableHlo.TRef sig ⟨S_, .i1⟩) (.of main_call121_c_0 : StableHlo.TRef sig ⟨S_, .i32⟩) (.of main_v1321 : StableHlo.TRef sig ⟨S_, .i32⟩) (fun x y u v j => (Host.reduce2 reducer_argmax_i1_i32 x y u v reducesTo_S4194304_S_d0 h_S_ j).2) ]
theorem main_part32_ops3_sub : (main_part32_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 32 (statements 1921 … 1980), in order:
    main_c_603 … main_v1323. -/
abbrev main_part32_ops4 : List (HloOp τ sig (Elt F)) :=
  [ StableHlo.nullary main_c_603 (constantI S_ 32 1#32),
    StableHlo.unary main_c_603 main_v1322 (broadcastInDim S4194304 ![] bcast_S_S4194304 : (⟨S_, .i32⟩ : BufTy).Contents (Elt F) → (⟨S4194304, .i32⟩ : BufTy).Contents (Elt F)),
    StableHlo.binary main_v1313 main_v1322 main_v1323 (cmpi .eq : (⟨S4194304, .i32⟩ : BufTy).Contents (Elt F) → (⟨S4194304, .i32⟩ : BufTy).Contents (Elt F) → (⟨S4194304, .i1⟩ : BufTy).Contents (Elt F)) ]
theorem main_part32_ops4_sub : (main_part32_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call122), window 32 (statements 1921 … 1980), in order:
    main_call122_v0 … main_v1324. -/
abbrev main_part32_ops5 : List (HloOp τ sig (Elt F)) :=
  [ StableHlo.TRef.nullary (.of main_call122_v0 : StableHlo.TRef sig ⟨S4194304, .i32⟩) (iotaInDim S4194304 32 0),
    StableHlo.TRef.nullary (.of main_call122_c : StableHlo.TRef sig ⟨S_, .i1⟩) (constantI S_ 1 0#1),
    StableHlo.TRef.nullary (.of main_call122_c_0 : StableHlo.TRef sig ⟨S_, .i32⟩) (constantI S_ 32 0#32),
    StableHlo.TRef.quaternary (.of main_v1323 : StableHlo.TRef sig ⟨S4194304, .i1⟩) (.of main_call122_v0 : StableHlo.TRef sig ⟨S4194304, .i32⟩) (.of main_call122_c : StableHlo.TRef sig ⟨S_, .i1⟩) (.of main_call122_c_0 : StableHlo.TRef sig ⟨S_, .i32⟩) (.of main_call122_v1_0 : StableHlo.TRef sig ⟨S_, .i1⟩) (fun x y u v j => (Host.reduce2 reducer_argmax_i1_i32 x y u v reducesTo_S4194304_S_d0 h_S_ j).1),
    StableHlo.TRef.quaternary (.of main_v1323 : StableHlo.TRef sig ⟨S4194304, .i1⟩) (.of main_call122_v0 : StableHlo.TRef sig ⟨S4194304, .i32⟩) (.of main_call122_c : StableHlo.TRef sig ⟨S_, .i1⟩) (.of main_call122_c_0 : StableHlo.TRef sig ⟨S_, .i32⟩) (.of main_v1324 : StableHlo.TRef sig ⟨S_, .i32⟩) (fun x y u v j => (Host.reduce2 reducer_argmax_i1_i32 x y u v reducesTo_S4194304_S_d0 h_S_ j).2) ]
theorem main_part32_ops5_sub : (main_part32_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 49 host operations of @main, window 32 (statements 1921 … 1980), in order:
    main_c_604 … main_v1351. -/
abbrev main_part32_ops6 : List (HloOp τ sig (Elt F)) :=
  ( StableHlo.nullary main_c_604 (constantI S_ 32 0#32)
  :: StableHlo.binary main_v1318 main_c_604 main_v1325 (cmpi .slt : (⟨S_, .i32⟩ : BufTy).Contents (Elt F) → (⟨S_, .i32⟩ : BufTy).Contents (Elt F) → (⟨S_, .i1⟩ : BufTy).Contents (Elt F))
  :: StableHlo.nullary main_c_605 (constantI S_ 32 4194304#32)
  :: StableHlo.binary main_v1318 main_c_605 main_v1326 (addi : (⟨S_, .i32⟩ : BufTy).Contents (Elt F) → (⟨S_, .i32⟩ : BufTy).Contents (Elt F) → (⟨S_, .i32⟩ : BufTy).Contents (Elt F))
  :: StableHlo.ternary main_v1325 main_v1326 main_v1318 main_v1327 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_606 (constantI S_ 32 0#32)
  :: StableHlo.nullary main_c_607 (constantI S_ 32 0#32)
  :: StableHlo.binary main_c_606 main_c_607 main_v1328 (cmpi .slt : (⟨S_, .i32⟩ : BufTy).Contents (Elt F) → (⟨S_, .i32⟩ : BufTy).Contents (Elt F) → (⟨S_, .i1⟩ : BufTy).Contents (Elt F))
  :: StableHlo.nullary main_c_608 (constantI S_ 32 0#32)
  :: StableHlo.nullary main_c_609 (constantI S_ 32 2#32)
  :: StableHlo.binary main_c_608 main_c_609 main_v1329 (addi : (⟨S_, .i32⟩ : BufTy).Contents (Elt F) → (⟨S_, .i32⟩ : BufTy).Contents (Elt F) → (⟨S_, .i32⟩ : BufTy).Contents (Elt F))
  :: StableHlo.nullary main_c_610 (constantI S_ 32 0#32)
  :: StableHlo.ternary main_v1328 main_v1329 main_c_610 main_v1330 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v1327, main_v1330] ⟨S_, .i32⟩ main_v1331 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1331 main_v1332 rfl shapeCasts_S1x2_S2
  :: StableHlo.nullary main_c_611 (constantI S_ 32 0#32)
  :: StableHlo.binary main_v1321 main_c_611 main_v1333 (cmpi .slt : (⟨S_, .i32⟩ : BufTy).Contents (Elt F) → (⟨S_, .i32⟩ : BufTy).Contents (Elt F) → (⟨S_, .i1⟩ : BufTy).Contents (Elt F))
  :: StableHlo.nullary main_c_612 (constantI S_ 32 4194304#32)
  :: StableHlo.binary main_v1321 main_c_612 main_v1334 (addi : (⟨S_, .i32⟩ : BufTy).Contents (Elt F) → (⟨S_, .i32⟩ : BufTy).Contents (Elt F) → (⟨S_, .i32⟩ : BufTy).Contents (Elt F))
  :: StableHlo.ternary main_v1333 main_v1334 main_v1321 main_v1335 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_613 (constantI S_ 32 0#32)
  :: StableHlo.nullary main_c_614 (constantI S_ 32 0#32)
  :: StableHlo.binary main_c_613 main_c_614 main_v1336 (cmpi .slt : (⟨S_, .i32⟩ : BufTy).Contents (Elt F) → (⟨S_, .i32⟩ : BufTy).Contents (Elt F) → (⟨S_, .i1⟩ : BufTy).Contents (Elt F))
  :: StableHlo.nullary main_c_615 (constantI S_ 32 0#32)
  :: StableHlo.nullary main_c_616 (constantI S_ 32 2#32)
  :: StableHlo.binary main_c_615 main_c_616 main_v1337 (addi : (⟨S_, .i32⟩ : BufTy).Contents (Elt F) → (⟨S_, .i32⟩ : BufTy).Contents (Elt F) → (⟨S_, .i32⟩ : BufTy).Contents (Elt F))
  :: StableHlo.nullary main_c_617 (constantI S_ 32 0#32)
  :: StableHlo.ternary main_v1336 main_v1337 main_c_617 main_v1338 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1335, main_v1338] ⟨S_, .i32⟩ main_v1339 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1339 main_v1340 rfl shapeCasts_S1x2_S2
  :: StableHlo.binary main_v1332 main_v1340 main_v1341 (addf : (⟨S2, .f32⟩ : BufTy).Contents (Elt F) → (⟨S2, .f32⟩ : BufTy).Contents (Elt F) → (⟨S2, .f32⟩ : BufTy).Contents (Elt F))
  :: StableHlo.nullary main_c_618 (constantI S_ 32 0#32)
  :: StableHlo.binary main_v1324 main_c_618 main_v1342 (cmpi .slt : (⟨S_, .i32⟩ : BufTy).Contents (Elt F) → (⟨S_, .i32⟩ : BufTy).Contents (Elt F) → (⟨S_, .i1⟩ : BufTy).Contents (Elt F))
  :: StableHlo.nullary main_c_619 (constantI S_ 32 4194304#32)
  :: StableHlo.binary main_v1324 main_c_619 main_v1343 (addi : (⟨S_, .i32⟩ : BufTy).Contents (Elt F) → (⟨S_, .i32⟩ : BufTy).Contents (Elt F) → (⟨S_, .i32⟩ : BufTy).Contents (Elt F))
  :: StableHlo.ternary main_v1342 main_v1343 main_v1324 main_v1344 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_620 (constantI S_ 32 0#32)
  :: StableHlo.nullary main_c_621 (constantI S_ 32 0#32)
  :: StableHlo.binary main_c_620 main_c_621 main_v1345 (cmpi .slt : (⟨S_, .i32⟩ : BufTy).Contents (Elt F) → (⟨S_, .i32⟩ : BufTy).Contents (Elt F) → (⟨S_, .i1⟩ : BufTy).Contents (Elt F))
  :: StableHlo.nullary main_c_622 (constantI S_ 32 0#32)
  :: StableHlo.nullary main_c_623 (constantI S_ 32 2#32)
  :: StableHlo.binary main_c_622 main_c_623 main_v1346 (addi : (⟨S_, .i32⟩ : BufTy).Contents (Elt F) → (⟨S_, .i32⟩ : BufTy).Contents (Elt F) → (⟨S_, .i32⟩ : BufTy).Contents (Elt F))
  :: StableHlo.nullary main_c_624 (constantI S_ 32 0#32)
  :: StableHlo.ternary main_v1345 main_v1346 main_c_624 main_v1347 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1344, main_v1347] ⟨S_, .i32⟩ main_v1348 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1348 main_v1349 rfl shapeCasts_S1x2_S2
  :: StableHlo.nullary main_cst_625 (constant S_ .f32 0xBF317218#32)
  :: StableHlo.unary main_cst_625 main_v1350 (broadcastInDim S2 ![] bcast_S_S2 : (⟨S_, .f32⟩ : BufTy).Contents (Elt F) → (⟨S2, .f32⟩ : BufTy).Contents (Elt F))
  :: StableHlo.binary main_v1349 main_v1350 main_v1351 (cmpf .ogt : (⟨S2, .f32⟩ : BufTy).Contents (Elt F) → (⟨S2, .f32⟩ : BufTy).Contents (Elt F) → (⟨S2, .i1⟩ : BufTy).Contents (Elt F))
  :: [] )
theorem main_part32_ops6_sub : (main_part32_ops6 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub ..⟩
/-- Window 32's stretches, in order. -/
abbrev part32_opss : List (List (HloOp τ sig (Elt F))) :=
  [ main_part32_ops0,
    main_part32_ops1,
    main_part32_ops2,
    main_part32_ops3,
    main_part32_ops4,
    main_part32_ops5,
    main_part32_ops6 ]
theorem part32_opss_sub : (part32_opss : List (List (HloOp τ sig (Elt F)))).Forall fun l => l.Forall fun op => op.bufs ⊆ StableHlo.tcRefs τ sig :=
  ⟨main_part32_ops0_sub, main_part32_ops1_sub, main_part32_ops2_sub, main_part32_ops3_sub, main_part32_ops4_sub, main_part32_ops5_sub, main_part32_ops6_sub⟩

/-- 6 host operations of @main, window 33 (statements 1981 … 2040), in order:
    main_v1352 … main_v1357. -/
abbrev main_part33_ops0 : List (HloOp τ sig (Elt F)) :=
  [ StableHlo.unary main_v1349 main_v1352 (Host.expm1 : (⟨S2, .f32⟩ : BufTy).Contents (Elt F) → (⟨S2, .f32⟩ : BufTy).Contents (Elt F)),
    StableHlo.unary main_v1352 main_v1353 (Host.negf : (⟨S2, .f32⟩ : BufTy).Contents (Elt F) → (⟨S2, .f32⟩ : BufTy).Contents (Elt F)),
    StableHlo.unary main_v1353 main_v1354 (Host.log : (⟨S2, .f32⟩ : BufTy).Contents (Elt F) → (⟨S2, .f32⟩ : BufTy).Contents (Elt F)),
    StableHlo.unary main_v1349 main_v1355 (Host.exp : (⟨S2, .f32⟩ : BufTy).Contents (Elt F) → (⟨S2, .f32⟩ : BufTy).Contents (Elt F)),
    StableHlo.unary main_v1355 main_v1356 (Host.negf : (⟨S2, .f32⟩ : BufTy).Contents (Elt F) → (⟨S2, .f32⟩ : BufTy).Contents (Elt F)),
    StableHlo.unary main_v1356 main_v1357 (Host.log1p : (⟨S2, .f32⟩ : BufTy).Contents (Elt F) → (⟨S2, .f32⟩ : BufTy).Contents (Elt F)) ]
theorem main_part33_ops0_sub : (main_part33_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call123), window 33 (statements 1981 … 2040), in order:
    main_v1358 … main_v1358. -/
abbrev main_part33_ops1 : List (HloOp τ sig (Elt F)) :=
  [ StableHlo.TRef.ternary (.of main_v1351 : StableHlo.TRef sig ⟨S2, .i1⟩) (.of main_v1354 : StableHlo.TRef sig ⟨S2, .f32⟩) (.of main_v1357 : StableHlo.TRef sig ⟨S2, .f32⟩) (.of main_v1358 : StableHlo.TRef sig ⟨S2, .f32⟩) select ]
theorem main_part33_ops1_sub : (main_part33_ops1 : List (HloOp τ sig (Elt F))).Forall fun op => op.bufs ⊆ StableHlo.tcRefs τ sig :=
  StableHlo.ternary_bufs_sub ..
/-- 6 host operations of @main, window 33 (statements 1981 … 2040), in order:
    main_v1359 … main_cst_628. -/
abbrev main_part33_ops2 : List (HloOp τ sig (Elt F)) :=
  [ StableHlo.binary main_v1341 main_v1358 main_v1359 (subf : (⟨S2, .f32⟩ : BufTy).Contents (Elt F) → (⟨S2, .f32⟩ : BufTy).Contents (Elt F) → (⟨S2, .f32⟩ : BufTy).Contents (Elt F)),
    StableHlo.nullary main_cst_626 (constant S_ .f32 0x00000000#32),
    StableHlo.binary main_v1359 main_cst_626 main_v1360 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_627 (constantI S_ 32 0#32),
    StableHlo.binary main_v1315 main_c_627 main_v1361 (cmpi .sgt : (⟨S_, .i32⟩ : BufTy).Contents (Elt F) → (⟨S_, .i32⟩ : BufTy).Contents (Elt F) → (⟨S_, .i1⟩ : BufTy).Contents (Elt F)),
    StableHlo.nullary main_cst_628 (constant S_ .f32 0x00000000#32) ]
theorem main_part33_ops2_sub : (main_part33_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call124), window 33 (statements 1981 … 2040), in order:
    main_v1362 … main_v1362. -/
abbrev main_part33_ops3 : List (HloOp τ sig (Elt F)) :=
  [ StableHlo.TRef.ternary (.of main_v1361 : StableHlo.TRef sig ⟨S_, .i1⟩) (.of main_v1360 : StableHlo.TRef sig ⟨S_, .f32⟩) (.of main_cst_628 : StableHlo.TRef sig ⟨S_, .f32⟩) (.of main_v1362 : StableHlo.TRef sig ⟨S_, .f32⟩) select ]
theorem main_part33_ops3_sub : (main_part33_ops3 : List (HloOp τ sig (Elt F))).Forall fun op => op.bufs ⊆ StableHlo.tcRefs τ sig :=
  StableHlo.ternary_bufs_sub ..
/-- 13 host operations of @main, window 33 (statements 1981 … 2040), in order:
    main_v1363 … main_v1372. -/
abbrev main_part33_ops4 : List (HloOp τ sig (Elt F)) :=
  [ StableHlo.binary main_v1303 main_v1362 main_v1363 (subf : (⟨S_, .f32⟩ : BufTy).Contents (Elt F) → (⟨S_, .f32⟩ : BufTy).Contents (Elt F) → (⟨S_, .f32⟩ : BufTy).Contents (Elt F)),
    StableHlo.nullary main_c_629 (constantI S_ 32 5#32),
    StableHlo.unary main_c_629 main_v1364 (broadcastInDim S4194304 ![] bcast_S_S4194304 : (⟨S_, .i32⟩ : BufTy).Contents (Elt F) → (⟨S4194304, .i32⟩ : BufTy).Contents (Elt F)),
    StableHlo.binary main_v25 main_v1364 main_v1365 (cmpi .eq : (⟨S4194304, .i32⟩ : BufTy).Contents (Elt F) → (⟨S4194304, .i32⟩ : BufTy).Contents (Elt F) → (⟨S4194304, .i1⟩ : BufTy).Contents (Elt F)),
    StableHlo.nullary main_c_630 (constantI S_ 32 1#32),
    StableHlo.unary main_c_630 main_v1366 (broadcastInDim S4194304 ![] bcast_S_S4194304 : (⟨S_, .i32⟩ : BufTy).Contents (Elt F) → (⟨S4194304, .i32⟩ : BufTy).Contents (Elt F)),
    StableHlo.binary main_v51 main_v1366 main_v1367 (cmpi .eq : (⟨S4194304, .i32⟩ : BufTy).Contents (Elt F) → (⟨S4194304, .i32⟩ : BufTy).Contents (Elt F) → (⟨S4194304, .i1⟩ : BufTy).Contents (Elt F)),
    StableHlo.binary main_v1365 main_v1367 main_v1368 (andi : (⟨S4194304, .i1⟩ : BufTy).Contents (Elt F) → (⟨S4194304, .i1⟩ : BufTy).Contents (Elt F) → (⟨S4194304, .i1⟩ : BufTy).Contents (Elt F)),
    StableHlo.nullary main_c_631 (constantI S_ 32 2#32),
    StableHlo.unary main_c_631 main_v1369 (broadcastInDim S4194304 ![] bcast_S_S4194304 : (⟨S_, .i32⟩ : BufTy).Contents (Elt F) → (⟨S4194304, .i32⟩ : BufTy).Contents (Elt F)),
    StableHlo.binary main_v77 main_v1369 main_v1370 (cmpi .eq : (⟨S4194304, .i32⟩ : BufTy).Contents (Elt F) → (⟨S4194304, .i32⟩ : BufTy).Contents (Elt F) → (⟨S4194304, .i1⟩ : BufTy).Contents (Elt F)),
    StableHlo.binary main_v1368 main_v1370 main_v1371 (andi : (⟨S4194304, .i1⟩ : BufTy).Contents (Elt F) → (⟨S4194304, .i1⟩ : BufTy).Contents (Elt F) → (⟨S4194304, .i1⟩ : BufTy).Contents (Elt F)),
    StableHlo.unary main_v1371 main_v1372 ((extui 32 · natLt_1_32) : (⟨S4194304, .i1⟩ : BufTy).Contents (Elt F) → (⟨S4194304, .i32⟩ : BufTy).Contents (Elt F)) ]
theorem main_part33_ops4_sub : (main_part33_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call125), window 33 (statements 1981 … 2040), in order:
    main_call125_call0_c … main_v1373. -/
abbrev main_part33_ops5 : List (HloOp τ sig (Elt F)) :=
  [ StableHlo.TRef.nullary (.of main_call125_call0_c : StableHlo.TRef sig ⟨S_, .i32⟩) (constantI S_ 32 0#32),
    StableHlo.TRef.unary (.of main_call125_call0_c : StableHlo.TRef sig ⟨S_, .i32⟩) (.of main_call125_call0_v0 : StableHlo.TRef sig ⟨S_, .i32⟩) (broadcastInDim S_ ![] bcast_S_S_),
    StableHlo.TRef.binary (.of main_v1372 : StableHlo.TRef sig ⟨S4194304, .i32⟩) (.of main_call125_call0_v0 : StableHlo.TRef sig ⟨S_, .i32⟩) (.of main_v1373 : StableHlo.TRef sig ⟨S4194304, .i32⟩) (fun x v => Host.reduceWindow IntOp.addi ![4194304] ![1] ![4194303] ![0] x v reduceWindows_S4194304_S4194304_w4194304s1p4194303_0 h_S_) ]
theorem main_part33_ops5_sub : (main_part33_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 33 (statements 1981 … 2040), in order:
    main_v1374 … main_v1377. -/
abbrev main_part33_ops6 : List (HloOp τ sig (Elt F)) :=
  [ StableHlo.unary main_v1373 main_v1374 ((extractStridedSlice S1 ![4194303] · slices_S4194304_S1_4194303) : (⟨S4194304, .i32⟩ : BufTy).Contents (Elt F) → (⟨S1, .i32⟩ : BufTy).Contents (Elt F)),
    StableHlo.reshape main_v1374 main_v1375 rfl shapeCasts_S1_S_,
    StableHlo.nullary main_c_632 (constantI S_ 32 2#32),
    StableHlo.unary main_c_632 main_v1376 (broadcastInDim S4194304 ![] bcast_S_S4194304 : (⟨S_, .i32⟩ : BufTy).Contents (Elt F) → (⟨S4194304, .i32⟩ : BufTy).Contents (Elt F)),
    StableHlo.binary main_v1373 main_v1376 main_v1377 (cmpi .eq : (⟨S4194304, .i32⟩ : BufTy).Contents (Elt F) → (⟨S4194304, .i32⟩ : BufTy).Contents (Elt F) → (⟨S4194304, .i1⟩ : BufTy).Contents (Elt F)) ]
theorem main_part33_ops6_sub : (main_part33_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call126), window 33 (statements 1981 … 2040), in order:
    main_call126_v0 … main_v1378. -/
abbrev main_part33_ops7 : List (HloOp τ sig (Elt F)) :=
  [ StableHlo.TRef.nullary (.of main_call126_v0 : StableHlo.TRef sig ⟨S4194304, .i32⟩) (iotaInDim S4194304 32 0),
    StableHlo.TRef.nullary (.of main_call126_c : StableHlo.TRef sig ⟨S_, .i1⟩) (constantI S_ 1 0#1),
    StableHlo.TRef.nullary (.of main_call126_c_0 : StableHlo.TRef sig ⟨S_, .i32⟩) (constantI S_ 32 0#32),
    StableHlo.TRef.quaternary (.of main_v1377 : StableHlo.TRef sig ⟨S4194304, .i1⟩) (.of main_call126_v0 : StableHlo.TRef sig ⟨S4194304, .i32⟩) (.of main_call126_c : StableHlo.TRef sig ⟨S_, .i1⟩) (.of main_call126_c_0 : StableHlo.TRef sig ⟨S_, .i32⟩) (.of main_call126_v1_0 : StableHlo.TRef sig ⟨S_, .i1⟩) (fun x y u v j => (Host.reduce2 reducer_argmax_i1_i32 x y u v reducesTo_S4194304_S_d0 h_S_ j).1),
    StableHlo.TRef.quaternary (.of main_v1377 : StableHlo.TRef sig ⟨S4194304, .i1⟩) (.of main_call126_v0 : StableHlo.TRef sig ⟨S4194304, .i32⟩) (.of main_call126_c : StableHlo.TRef sig ⟨S_, .i1⟩) (.of main_call126_c_0 : StableHlo.TRef sig ⟨S_, .i32⟩) (.of main_v1378 : StableHlo.TRef sig ⟨S_, .i32⟩) (fun x y u v j => (Host.reduce2 reducer_argmax_i1_i32 x y u v reducesTo_S4194304_S_d0 h_S_ j).2) ]
theorem main_part33_ops7_sub : (main_part33_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 33 (statements 1981 … 2040), in order:
    main_c_633 … main_v1380. -/
abbrev main_part33_ops8 : List (HloOp τ sig (Elt F)) :=
  [ StableHlo.nullary main_c_633 (constantI S_ 32 1#32),
    StableHlo.unary main_c_633 main_v1379 (broadcastInDim S4194304 ![] bcast_S_S4194304 : (⟨S_, .i32⟩ : BufTy).Contents (Elt F) → (⟨S4194304, .i32⟩ : BufTy).Contents (Elt F)),
    StableHlo.binary main_v1373 main_v1379 main_v1380 (cmpi .eq : (⟨S4194304, .i32⟩ : BufTy).Contents (Elt F) → (⟨S4194304, .i32⟩ : BufTy).Contents (Elt F) → (⟨S4194304, .i1⟩ : BufTy).Contents (Elt F)) ]
theorem main_part33_ops8_sub : (main_part33_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call127), window 33 (statements 1981 … 2040), in order:
    main_call127_v0 … main_v1381. -/
abbrev main_part33_ops9 : List (HloOp τ sig (Elt F)) :=
  [ StableHlo.TRef.nullary (.of main_call127_v0 : StableHlo.TRef sig ⟨S4194304, .i32⟩) (iotaInDim S4194304 32 0),
    StableHlo.TRef.nullary (.of main_call127_c : StableHlo.TRef sig ⟨S_, .i1⟩) (constantI S_ 1 0#1),
    StableHlo.TRef.nullary (.of main_call127_c_0 : StableHlo.TRef sig ⟨S_, .i32⟩) (constantI S_ 32 0#32),
    StableHlo.TRef.quaternary (.of main_v1380 : StableHlo.TRef sig ⟨S4194304, .i1⟩) (.of main_call127_v0 : StableHlo.TRef sig ⟨S4194304, .i32⟩) (.of main_call127_c : StableHlo.TRef sig ⟨S_, .i1⟩) (.of main_call127_c_0 : StableHlo.TRef sig ⟨S_, .i32⟩) (.of main_call127_v1_0 : StableHlo.TRef sig ⟨S_, .i1⟩) (fun x y u v j => (Host.reduce2 reducer_argmax_i1_i32 x y u v reducesTo_S4194304_S_d0 h_S_ j).1),
    StableHlo.TRef.quaternary (.of main_v1380 : StableHlo.TRef sig ⟨S4194304, .i1⟩) (.of main_call127_v0 : StableHlo.TRef sig ⟨S4194304, .i32⟩) (.of main_call127_c : StableHlo.TRef sig ⟨S_, .i1⟩) (.of main_call127_c_0 : StableHlo.TRef sig ⟨S_, .i32⟩) (.of main_v1381 : StableHlo.TRef sig ⟨S_, .i32⟩) (fun x y u v j => (Host.reduce2 reducer_argmax_i1_i32 x y u v reducesTo_S4194304_S_d0 h_S_ j).2) ]
theorem main_part33_ops9_sub : (main_part33_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 33 (statements 1981 … 2040), in order:
    main_c_634 … main_v1383. -/
abbrev main_part33_ops10 : List (HloOp τ sig (Elt F)) :=
  [ StableHlo.nullary main_c_634 (constantI S_ 32 1#32),
    StableHlo.unary main_c_634 main_v1382 (broadcastInDim S4194304 ![] bcast_S_S4194304 : (⟨S_, .i32⟩ : BufTy).Contents (Elt F) → (⟨S4194304, .i32⟩ : BufTy).Contents (Elt F)),
    StableHlo.binary main_v1373 main_v1382 main_v1383 (cmpi .eq : (⟨S4194304, .i32⟩ : BufTy).Contents (Elt F) → (⟨S4194304, .i32⟩ : BufTy).Contents (Elt F) → (⟨S4194304, .i1⟩ : BufTy).Contents (Elt F)) ]
theorem main_part33_ops10_sub : (main_part33_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call128), window 33 (statements 1981 … 2040), in order:
    main_call128_v0 … main_v1384. -/
abbrev main_part33_ops11 : List (HloOp τ sig (Elt F)) :=
  [ StableHlo.TRef.nullary (.of main_call128_v0 : StableHlo.TRef sig ⟨S4194304, .i32⟩) (iotaInDim S4194304 32 0),
    StableHlo.TRef.nullary (.of main_call128_c : StableHlo.TRef sig ⟨S_, .i1⟩) (constantI S_ 1 0#1),
    StableHlo.TRef.nullary (.of main_call128_c_0 : StableHlo.TRef sig ⟨S_, .i32⟩) (constantI S_ 32 0#32),
    StableHlo.TRef.quaternary (.of main_v1383 : StableHlo.TRef sig ⟨S4194304, .i1⟩) (.of main_call128_v0 : StableHlo.TRef sig ⟨S4194304, .i32⟩) (.of main_call128_c : StableHlo.TRef sig ⟨S_, .i1⟩) (.of main_call128_c_0 : StableHlo.TRef sig ⟨S_, .i32⟩) (.of main_call128_v1_0 : StableHlo.TRef sig ⟨S_, .i1⟩) (fun x y u v j => (Host.reduce2 reducer_argmax_i1_i32 x y u v reducesTo_S4194304_S_d0 h_S_ j).1),
    StableHlo.TRef.quaternary (.of main_v1383 : StableHlo.TRef sig ⟨S4194304, .i1⟩) (.of main_call128_v0 : StableHlo.TRef sig ⟨S4194304, .i32⟩) (.of main_call128_c : StableHlo.TRef sig ⟨S_, .i1⟩) (.of main_call128_c_0 : StableHlo.TRef sig ⟨S_, .i32⟩) (.of main_v1384 : StableHlo.TRef sig ⟨S_, .i32⟩) (fun x y u v j => (Host.reduce2 reducer_argmax_i1_i32 x y u v reducesTo_S4194304_S_d0 h_S_ j).2) ]
theorem main_part33_ops11_sub : (main_part33_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 18 host operations of @main, window 33 (statements 1981 … 2040), in order:
    main_c_635 … main_c_643. -/
abbrev main_part33_ops12 : List (HloOp τ sig (Elt F)) :=
  [ StableHlo.nullary main_c_635 (constantI S_ 32 0#32),
    StableHlo.binary main_v1378 main_c_635 main_v1385 (cmpi .slt : (⟨S_, .i32⟩ : BufTy).Contents (Elt F) → (⟨S_, .i32⟩ : BufTy).Contents (Elt F) → (⟨S_, .i1⟩ : BufTy).Contents (Elt F)),
    StableHlo.nullary main_c_636 (constantI S_ 32 4194304#32),
    StableHlo.binary main_v1378 main_c_636 main_v1386 (addi : (⟨S_, .i32⟩ : BufTy).Contents (Elt F) → (⟨S_, .i32⟩ : BufTy).Contents (Elt F) → (⟨S_, .i32⟩ : BufTy).Contents (Elt F)),
    StableHlo.ternary main_v1385 main_v1386 main_v1378 main_v1387 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_637 (constantI S_ 32 0#32),
    StableHlo.nullary main_c_638 (constantI S_ 32 0#32),
    StableHlo.binary main_c_637 main_c_638 main_v1388 (cmpi .slt : (⟨S_, .i32⟩ : BufTy).Contents (Elt F) → (⟨S_, .i32⟩ : BufTy).Contents (Elt F) → (⟨S_, .i1⟩ : BufTy).Contents (Elt F)),
    StableHlo.nullary main_c_639 (constantI S_ 32 0#32),
    StableHlo.nullary main_c_640 (constantI S_ 32 2#32),
    StableHlo.binary main_c_639 main_c_640 main_v1389 (addi : (⟨S_, .i32⟩ : BufTy).Contents (Elt F) → (⟨S_, .i32⟩ : BufTy).Contents (Elt F) → (⟨S_, .i32⟩ : BufTy).Contents (Elt F)),
    StableHlo.nullary main_c_641 (constantI S_ 32 0#32),
    StableHlo.ternary main_v1388 main_v1389 main_c_641 main_v1390 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1387, main_v1390] ⟨S_, .i32⟩ main_v1391 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1391 main_v1392 rfl shapeCasts_S1x2_S2,
    StableHlo.nullary main_c_642 (constantI S_ 32 0#32),
    StableHlo.binary main_v1381 main_c_642 main_v1393 (cmpi .slt : (⟨S_, .i32⟩ : BufTy).Contents (Elt F) → (⟨S_, .i32⟩ : BufTy).Contents (Elt F) → (⟨S_, .i1⟩ : BufTy).Contents (Elt F)),
    StableHlo.nullary main_c_643 (constantI S_ 32 4194304#32) ]
theorem main_part33_ops12_sub : (main_part33_ops12 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub ..⟩
/-- Window 33's stretches, in order. -/
abbrev part33_opss : List (List (HloOp τ sig (Elt F))) :=
  [ main_part33_ops0,
    main_part33_ops1,
    main_part33_ops2,
    main_part33_ops3,
    main_part33_ops4,
    main_part33_ops5,
    main_part33_ops6,
    main_part33_ops7,
    main_part33_ops8,
    main_part33_ops9,
    main_part33_ops10,
    main_part33_ops11,
    main_part33_ops12 ]
theorem part33_opss_sub : (part33_opss : List (List (HloOp τ sig (Elt F)))).Forall fun l => l.Forall fun op => op.bufs ⊆ StableHlo.tcRefs τ sig :=
  ⟨main_part33_ops0_sub, main_part33_ops1_sub, main_part33_ops2_sub, main_part33_ops3_sub, main_part33_ops4_sub, main_part33_ops5_sub, main_part33_ops6_sub, main_part33_ops7_sub, main_part33_ops8_sub, main_part33_ops9_sub, main_part33_ops10_sub, main_part33_ops11_sub, main_part33_ops12_sub⟩

/-- 37 host operations of @main, window 34 (statements 2041 … 2100), in order:
    main_v1394 … main_v1417. -/
abbrev main_part34_ops0 : List (HloOp τ sig (Elt F)) :=
  ( StableHlo.binary main_v1381 main_c_643 main_v1394 (addi : (⟨S_, .i32⟩ : BufTy).Contents (Elt F) → (⟨S_, .i32⟩ : BufTy).Contents (Elt F) → (⟨S_, .i32⟩ : BufTy).Contents (Elt F))
  :: StableHlo.ternary main_v1393 main_v1394 main_v1381 main_v1395 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_644 (constantI S_ 32 0#32)
  :: StableHlo.nullary main_c_645 (constantI S_ 32 0#32)
  :: StableHlo.binary main_c_644 main_c_645 main_v1396 (cmpi .slt : (⟨S_, .i32⟩ : BufTy).Contents (Elt F) → (⟨S_, .i32⟩ : BufTy).Contents (Elt F) → (⟨S_, .i1⟩ : BufTy).Contents (Elt F))
  :: StableHlo.nullary main_c_646 (constantI S_ 32 0#32)
  :: StableHlo.nullary main_c_647 (constantI S_ 32 2#32)
  :: StableHlo.binary main_c_646 main_c_647 main_v1397 (addi : (⟨S_, .i32⟩ : BufTy).Contents (Elt F) → (⟨S_, .i32⟩ : BufTy).Contents (Elt F) → (⟨S_, .i32⟩ : BufTy).Contents (Elt F))
  :: StableHlo.nullary main_c_648 (constantI S_ 32 0#32)
  :: StableHlo.ternary main_v1396 main_v1397 main_c_648 main_v1398 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1395, main_v1398] ⟨S_, .i32⟩ main_v1399 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1399 main_v1400 rfl shapeCasts_S1x2_S2
  :: StableHlo.binary main_v1392 main_v1400 main_v1401 (addf : (⟨S2, .f32⟩ : BufTy).Contents (Elt F) → (⟨S2, .f32⟩ : BufTy).Contents (Elt F) → (⟨S2, .f32⟩ : BufTy).Contents (Elt F))
  :: StableHlo.nullary main_c_649 (constantI S_ 32 0#32)
  :: StableHlo.binary main_v1384 main_c_649 main_v1402 (cmpi .slt : (⟨S_, .i32⟩ : BufTy).Contents (Elt F) → (⟨S_, .i32⟩ : BufTy).Contents (Elt F) → (⟨S_, .i1⟩ : BufTy).Contents (Elt F))
  :: StableHlo.nullary main_c_650 (constantI S_ 32 4194304#32)
  :: StableHlo.binary main_v1384 main_c_650 main_v1403 (addi : (⟨S_, .i32⟩ : BufTy).Contents (Elt F) → (⟨S_, .i32⟩ : BufTy).Contents (Elt F) → (⟨S_, .i32⟩ : BufTy).Contents (Elt F))
  :: StableHlo.ternary main_v1402 main_v1403 main_v1384 main_v1404 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_651 (constantI S_ 32 0#32)
  :: StableHlo.nullary main_c_652 (constantI S_ 32 0#32)
  :: StableHlo.binary main_c_651 main_c_652 main_v1405 (cmpi .slt : (⟨S_, .i32⟩ : BufTy).Contents (Elt F) → (⟨S_, .i32⟩ : BufTy).Contents (Elt F) → (⟨S_, .i1⟩ : BufTy).Contents (Elt F))
  :: StableHlo.nullary main_c_653 (constantI S_ 32 0#32)
  :: StableHlo.nullary main_c_654 (constantI S_ 32 2#32)
  :: StableHlo.binary main_c_653 main_c_654 main_v1406 (addi : (⟨S_, .i32⟩ : BufTy).Contents (Elt F) → (⟨S_, .i32⟩ : BufTy).Contents (Elt F) → (⟨S_, .i32⟩ : BufTy).Contents (Elt F))
  :: StableHlo.nullary main_c_655 (constantI S_ 32 0#32)
  :: StableHlo.ternary main_v1405 main_v1406 main_c_655 main_v1407 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1404, main_v1407] ⟨S_, .i32⟩ main_v1408 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1408 main_v1409 rfl shapeCasts_S1x2_S2
  :: StableHlo.nullary main_cst_656 (constant S_ .f32 0xBF317218#32)
  :: StableHlo.unary main_cst_656 main_v1410 (broadcastInDim S2 ![] bcast_S_S2 : (⟨S_, .f32⟩ : BufTy).Contents (Elt F) → (⟨S2, .f32⟩ : BufTy).Contents (Elt F))
  :: StableHlo.binary main_v1409 main_v1410 main_v1411 (cmpf .ogt : (⟨S2, .f32⟩ : BufTy).Contents (Elt F) → (⟨S2, .f32⟩ : BufTy).Contents (Elt F) → (⟨S2, .i1⟩ : BufTy).Contents (Elt F))
  :: StableHlo.unary main_v1409 main_v1412 (Host.expm1 : (⟨S2, .f32⟩ : BufTy).Contents (Elt F) → (⟨S2, .f32⟩ : BufTy).Contents (Elt F))
  :: StableHlo.unary main_v1412 main_v1413 (Host.negf : (⟨S2, .f32⟩ : BufTy).Contents (Elt F) → (⟨S2, .f32⟩ : BufTy).Contents (Elt F))
  :: StableHlo.unary main_v1413 main_v1414 (Host.log : (⟨S2, .f32⟩ : BufTy).Contents (Elt F) → (⟨S2, .f32⟩ : BufTy).Contents (Elt F))
  :: StableHlo.unary main_v1409 main_v1415 (Host.exp : (⟨S2, .f32⟩ : BufTy).Contents (Elt F) → (⟨S2, .f32⟩ : BufTy).Contents (Elt F))
  :: StableHlo.unary main_v1415 main_v1416 (Host.negf : (⟨S2, .f32⟩ : BufTy).Contents (Elt F) → (⟨S2, .f32⟩ : BufTy).Contents (Elt F))
  :: StableHlo.unary main_v1416 main_v1417 (Host.log1p : (⟨S2, .f32⟩ : BufTy).Contents (Elt F) → (⟨S2, .f32⟩ : BufTy).Contents (Elt F))
  :: [] )
theorem main_part34_ops0_sub : (main_part34_ops0 : List (HloOp τ sig (Elt F))).Forall fun op => op.bufs ⊆ StableHlo.tcRefs τ sig :=
  ⟨StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call129), window 34 (statements 2041 … 2100), in order:
    main_v1418 … main_v1418. -/
abbrev main_part34_ops1 : List (HloOp τ sig (Elt F)) :=
  [ StableHlo.TRef.ternary (.of main_v1411 : StableHlo.TRef sig ⟨S2, .i1⟩) (.of main_v1414 : StableHlo.TRef sig ⟨S2, .f32⟩) (.of main_v1417 : StableHlo.TRef sig ⟨S2, .f32⟩) (.of main_v1418 : StableHlo.TRef sig ⟨S2, .f32⟩) select ]
theorem main_part34_ops1_sub : (main_part34_ops1 : List (HloOp τ sig (Elt F))).Forall fun op => op.bufs ⊆ StableHlo.tcRefs τ sig :=
  StableHlo.ternary_bufs_sub ..
/-- 6 host operations of @main, window 34 (statements 2041 … 2100), in order:
    main_v1419 … main_cst_659. -/
abbrev main_part34_ops2 : List (HloOp τ sig (Elt F)) :=
  [ StableHlo.binary main_v1401 main_v1418 main_v1419 (subf : (⟨S2, .f32⟩ : BufTy).Contents (Elt F) → (⟨S2, .f32⟩ : BufTy).Contents (Elt F) → (⟨S2, .f32⟩ : BufTy).Contents (Elt F)),
    StableHlo.nullary main_cst_657 (constant S_ .f32 0x00000000#32),
    StableHlo.binary main_v1419 main_cst_657 main_v1420 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_658 (constantI S_ 32 0#32),
    StableHlo.binary main_v1375 main_c_658 main_v1421 (cmpi .sgt : (⟨S_, .i32⟩ : BufTy).Contents (Elt F) → (⟨S_, .i32⟩ : BufTy).Contents (Elt F) → (⟨S_, .i1⟩ : BufTy).Contents (Elt F)),
    StableHlo.nullary main_cst_659 (constant S_ .f32 0x00000000#32) ]
theorem main_part34_ops2_sub : (main_part34_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call130), window 34 (statements 2041 … 2100), in order:
    main_v1422 … main_v1422. -/
abbrev main_part34_ops3 : List (HloOp τ sig (Elt F)) :=
  [ StableHlo.TRef.ternary (.of main_v1421 : StableHlo.TRef sig ⟨S_, .i1⟩) (.of main_v1420 : StableHlo.TRef sig ⟨S_, .f32⟩) (.of main_cst_659 : StableHlo.TRef sig ⟨S_, .f32⟩) (.of main_v1422 : StableHlo.TRef sig ⟨S_, .f32⟩) select ]
theorem main_part34_ops3_sub : (main_part34_ops3 : List (HloOp τ sig (Elt F))).Forall fun op => op.bufs ⊆ StableHlo.tcRefs τ sig :=
  StableHlo.ternary_bufs_sub ..
/-- 13 host operations of @main, window 34 (statements 2041 … 2100), in order:
    main_v1423 … main_v1432. -/
abbrev main_part34_ops4 : List (HloOp τ sig (Elt F)) :=
  [ StableHlo.binary main_v1363 main_v1422 main_v1423 (subf : (⟨S_, .f32⟩ : BufTy).Contents (Elt F) → (⟨S_, .f32⟩ : BufTy).Contents (Elt F) → (⟨S_, .f32⟩ : BufTy).Contents (Elt F)),
    StableHlo.nullary main_c_660 (constantI S_ 32 5#32),
    StableHlo.unary main_c_660 main_v1424 (broadcastInDim S4194304 ![] bcast_S_S4194304 : (⟨S_, .i32⟩ : BufTy).Contents (Elt F) → (⟨S4194304, .i32⟩ : BufTy).Contents (Elt F)),
    StableHlo.binary main_v25 main_v1424 main_v1425 (cmpi .eq : (⟨S4194304, .i32⟩ : BufTy).Contents (Elt F) → (⟨S4194304, .i32⟩ : BufTy).Contents (Elt F) → (⟨S4194304, .i1⟩ : BufTy).Contents (Elt F)),
    StableHlo.nullary main_c_661 (constantI S_ 32 2#32),
    StableHlo.unary main_c_661 main_v1426 (broadcastInDim S4194304 ![] bcast_S_S4194304 : (⟨S_, .i32⟩ : BufTy).Contents (Elt F) → (⟨S4194304, .i32⟩ : BufTy).Contents (Elt F)),
    StableHlo.binary main_v51 main_v1426 main_v1427 (cmpi .eq : (⟨S4194304, .i32⟩ : BufTy).Contents (Elt F) → (⟨S4194304, .i32⟩ : BufTy).Contents (Elt F) → (⟨S4194304, .i1⟩ : BufTy).Contents (Elt F)),
    StableHlo.binary main_v1425 main_v1427 main_v1428 (andi : (⟨S4194304, .i1⟩ : BufTy).Contents (Elt F) → (⟨S4194304, .i1⟩ : BufTy).Contents (Elt F) → (⟨S4194304, .i1⟩ : BufTy).Contents (Elt F)),
    StableHlo.nullary main_c_662 (constantI S_ 32 0#32),
    StableHlo.unary main_c_662 main_v1429 (broadcastInDim S4194304 ![] bcast_S_S4194304 : (⟨S_, .i32⟩ : BufTy).Contents (Elt F) → (⟨S4194304, .i32⟩ : BufTy).Contents (Elt F)),
    StableHlo.binary main_v77 main_v1429 main_v1430 (cmpi .eq : (⟨S4194304, .i32⟩ : BufTy).Contents (Elt F) → (⟨S4194304, .i32⟩ : BufTy).Contents (Elt F) → (⟨S4194304, .i1⟩ : BufTy).Contents (Elt F)),
    StableHlo.binary main_v1428 main_v1430 main_v1431 (andi : (⟨S4194304, .i1⟩ : BufTy).Contents (Elt F) → (⟨S4194304, .i1⟩ : BufTy).Contents (Elt F) → (⟨S4194304, .i1⟩ : BufTy).Contents (Elt F)),
    StableHlo.unary main_v1431 main_v1432 ((extui 32 · natLt_1_32) : (⟨S4194304, .i1⟩ : BufTy).Contents (Elt F) → (⟨S4194304, .i32⟩ : BufTy).Contents (Elt F)) ]
theorem main_part34_ops4_sub : (main_part34_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call131), window 34 (statements 2041 … 2100), in order:
    main_call131_call0_c … main_v1433. -/
abbrev main_part34_ops5 : List (HloOp τ sig (Elt F)) :=
  [ StableHlo.TRef.nullary (.of main_call131_call0_c : StableHlo.TRef sig ⟨S_, .i32⟩) (constantI S_ 32 0#32),
    StableHlo.TRef.unary (.of main_call131_call0_c : StableHlo.TRef sig ⟨S_, .i32⟩) (.of main_call131_call0_v0 : StableHlo.TRef sig ⟨S_, .i32⟩) (broadcastInDim S_ ![] bcast_S_S_),
    StableHlo.TRef.binary (.of main_v1432 : StableHlo.TRef sig ⟨S4194304, .i32⟩) (.of main_call131_call0_v0 : StableHlo.TRef sig ⟨S_, .i32⟩) (.of main_v1433 : StableHlo.TRef sig ⟨S4194304, .i32⟩) (fun x v => Host.reduceWindow IntOp.addi ![4194304] ![1] ![4194303] ![0] x v reduceWindows_S4194304_S4194304_w4194304s1p4194303_0 h_S_) ]
theorem main_part34_ops5_sub : (main_part34_ops5 : List (HloOp τ sig (Elt F))).Forall fun op => op.bufs ⊆ StableHlo.tcRefs τ sig :=
  ⟨StableHlo.nullary_bufs_sub .., StableHlo.unary_bufs_sub .., StableHlo.binary_bufs_sub ..⟩
/-- 1 host operation of @main, window 34 (statements 2041 … 2100), in order:
    main_v1434 … main_v1434. -/
abbrev main_part34_ops6 : List (HloOp τ sig (Elt F)) :=
  [ StableHlo.unary main_v1433 main_v1434 ((extractStridedSlice S1 ![4194303] · slices_S4194304_S1_4194303) : (⟨S4194304, .i32⟩ : BufTy).Contents (Elt F) → (⟨S1, .i32⟩ : BufTy).Contents (Elt F)) ]
theorem main_part34_ops6_sub : (main_part34_ops6 : List (HloOp τ sig (Elt F))).Forall fun op => op.bufs ⊆ StableHlo.tcRefs τ sig :=
  StableHlo.unary_bufs_sub ..
/-- Window 34's stretches, in order. -/
abbrev part34_opss : List (List (HloOp τ sig (Elt F))) :=
  [ main_part34_ops0,
    main_part34_ops1,
    main_part34_ops2,
    main_part34_ops3,
    main_part34_ops4,
    main_part34_ops5,
    main_part34_ops6 ]
theorem part34_opss_sub : (part34_opss : List (List (HloOp τ sig (Elt F)))).Forall fun l => l.Forall fun op => op.bufs ⊆ StableHlo.tcRefs τ sig :=
  ⟨main_part34_ops0_sub, main_part34_ops1_sub, main_part34_ops2_sub, main_part34_ops3_sub, main_part34_ops4_sub, main_part34_ops5_sub, main_part34_ops6_sub⟩

/-- 4 host operations of @main, window 35 (statements 2101 … 2160), in order:
    main_v1435 … main_v1437. -/
abbrev main_part35_ops0 : List (HloOp τ sig (Elt F)) :=
  [ StableHlo.reshape main_v1434 main_v1435 rfl shapeCasts_S1_S_,
    StableHlo.nullary main_c_663 (constantI S_ 32 2#32),
    StableHlo.unary main_c_663 main_v1436 (broadcastInDim S4194304 ![] bcast_S_S4194304 : (⟨S_, .i32⟩ : BufTy).Contents (Elt F) → (⟨S4194304, .i32⟩ : BufTy).Contents (Elt F)),
    StableHlo.binary main_v1433 main_v1436 main_v1437 (cmpi .eq : (⟨S4194304, .i32⟩ : BufTy).Contents (Elt F) → (⟨S4194304, .i32⟩ : BufTy).Contents (Elt F) → (⟨S4194304, .i1⟩ : BufTy).Contents (Elt F)) ]
theorem main_part35_ops0_sub : (main_part35_ops0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub ..⟩
/-- 5 host operations of @argmax (main_call132), window 35 (statements 2101 … 2160), in order:
    main_call132_v0 … main_v1438. -/
abbrev main_part35_ops1 : List (HloOp τ sig (Elt F)) :=
  [ StableHlo.TRef.nullary (.of main_call132_v0 : StableHlo.TRef sig ⟨S4194304, .i32⟩) (iotaInDim S4194304 32 0),
    StableHlo.TRef.nullary (.of main_call132_c : StableHlo.TRef sig ⟨S_, .i1⟩) (constantI S_ 1 0#1),
    StableHlo.TRef.nullary (.of main_call132_c_0 : StableHlo.TRef sig ⟨S_, .i32⟩) (constantI S_ 32 0#32),
    StableHlo.TRef.quaternary (.of main_v1437 : StableHlo.TRef sig ⟨S4194304, .i1⟩) (.of main_call132_v0 : StableHlo.TRef sig ⟨S4194304, .i32⟩) (.of main_call132_c : StableHlo.TRef sig ⟨S_, .i1⟩) (.of main_call132_c_0 : StableHlo.TRef sig ⟨S_, .i32⟩) (.of main_call132_v1_0 : StableHlo.TRef sig ⟨S_, .i1⟩) (fun x y u v j => (Host.reduce2 reducer_argmax_i1_i32 x y u v reducesTo_S4194304_S_d0 h_S_ j).1),
    StableHlo.TRef.quaternary (.of main_v1437 : StableHlo.TRef sig ⟨S4194304, .i1⟩) (.of main_call132_v0 : StableHlo.TRef sig ⟨S4194304, .i32⟩) (.of main_call132_c : StableHlo.TRef sig ⟨S_, .i1⟩) (.of main_call132_c_0 : StableHlo.TRef sig ⟨S_, .i32⟩) (.of main_v1438 : StableHlo.TRef sig ⟨S_, .i32⟩) (fun x y u v j => (Host.reduce2 reducer_argmax_i1_i32 x y u v reducesTo_S4194304_S_d0 h_S_ j).2) ]
theorem main_part35_ops1_sub : (main_part35_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 35 (statements 2101 … 2160), in order:
    main_c_664 … main_v1440. -/
abbrev main_part35_ops2 : List (HloOp τ sig (Elt F)) :=
  [ StableHlo.nullary main_c_664 (constantI S_ 32 1#32),
    StableHlo.unary main_c_664 main_v1439 (broadcastInDim S4194304 ![] bcast_S_S4194304 : (⟨S_, .i32⟩ : BufTy).Contents (Elt F) → (⟨S4194304, .i32⟩ : BufTy).Contents (Elt F)),
    StableHlo.binary main_v1433 main_v1439 main_v1440 (cmpi .eq : (⟨S4194304, .i32⟩ : BufTy).Contents (Elt F) → (⟨S4194304, .i32⟩ : BufTy).Contents (Elt F) → (⟨S4194304, .i1⟩ : BufTy).Contents (Elt F)) ]
theorem main_part35_ops2_sub : (main_part35_ops2 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call133), window 35 (statements 2101 … 2160), in order:
    main_call133_v0 … main_v1441. -/
abbrev main_part35_ops3 : List (HloOp τ sig (Elt F)) :=
  [ StableHlo.TRef.nullary (.of main_call133_v0 : StableHlo.TRef sig ⟨S4194304, .i32⟩) (iotaInDim S4194304 32 0),
    StableHlo.TRef.nullary (.of main_call133_c : StableHlo.TRef sig ⟨S_, .i1⟩) (constantI S_ 1 0#1),
    StableHlo.TRef.nullary (.of main_call133_c_0 : StableHlo.TRef sig ⟨S_, .i32⟩) (constantI S_ 32 0#32),
    StableHlo.TRef.quaternary (.of main_v1440 : StableHlo.TRef sig ⟨S4194304, .i1⟩) (.of main_call133_v0 : StableHlo.TRef sig ⟨S4194304, .i32⟩) (.of main_call133_c : StableHlo.TRef sig ⟨S_, .i1⟩) (.of main_call133_c_0 : StableHlo.TRef sig ⟨S_, .i32⟩) (.of main_call133_v1_0 : StableHlo.TRef sig ⟨S_, .i1⟩) (fun x y u v j => (Host.reduce2 reducer_argmax_i1_i32 x y u v reducesTo_S4194304_S_d0 h_S_ j).1),
    StableHlo.TRef.quaternary (.of main_v1440 : StableHlo.TRef sig ⟨S4194304, .i1⟩) (.of main_call133_v0 : StableHlo.TRef sig ⟨S4194304, .i32⟩) (.of main_call133_c : StableHlo.TRef sig ⟨S_, .i1⟩) (.of main_call133_c_0 : StableHlo.TRef sig ⟨S_, .i32⟩) (.of main_v1441 : StableHlo.TRef sig ⟨S_, .i32⟩) (fun x y u v j => (Host.reduce2 reducer_argmax_i1_i32 x y u v reducesTo_S4194304_S_d0 h_S_ j).2) ]
theorem main_part35_ops3_sub : (main_part35_ops3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 35 (statements 2101 … 2160), in order:
    main_c_665 … main_v1443. -/
abbrev main_part35_ops4 : List (HloOp τ sig (Elt F)) :=
  [ StableHlo.nullary main_c_665 (constantI S_ 32 1#32),
    StableHlo.unary main_c_665 main_v1442 (broadcastInDim S4194304 ![] bcast_S_S4194304 : (⟨S_, .i32⟩ : BufTy).Contents (Elt F) → (⟨S4194304, .i32⟩ : BufTy).Contents (Elt F)),
    StableHlo.binary main_v1433 main_v1442 main_v1443 (cmpi .eq : (⟨S4194304, .i32⟩ : BufTy).Contents (Elt F) → (⟨S4194304, .i32⟩ : BufTy).Contents (Elt F) → (⟨S4194304, .i1⟩ : BufTy).Contents (Elt F)) ]
theorem main_part35_ops4_sub : (main_part35_ops4 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call134), window 35 (statements 2101 … 2160), in order:
    main_call134_v0 … main_v1444. -/
abbrev main_part35_ops5 : List (HloOp τ sig (Elt F)) :=
  [ StableHlo.TRef.nullary (.of main_call134_v0 : StableHlo.TRef sig ⟨S4194304, .i32⟩) (iotaInDim S4194304 32 0),
    StableHlo.TRef.nullary (.of main_call134_c : StableHlo.TRef sig ⟨S_, .i1⟩) (constantI S_ 1 0#1),
    StableHlo.TRef.nullary (.of main_call134_c_0 : StableHlo.TRef sig ⟨S_, .i32⟩) (constantI S_ 32 0#32),
    StableHlo.TRef.quaternary (.of main_v1443 : StableHlo.TRef sig ⟨S4194304, .i1⟩) (.of main_call134_v0 : StableHlo.TRef sig ⟨S4194304, .i32⟩) (.of main_call134_c : StableHlo.TRef sig ⟨S_, .i1⟩) (.of main_call134_c_0 : StableHlo.TRef sig ⟨S_, .i32⟩) (.of main_call134_v1_0 : StableHlo.TRef sig ⟨S_, .i1⟩) (fun x y u v j => (Host.reduce2 reducer_argmax_i1_i32 x y u v reducesTo_S4194304_S_d0 h_S_ j).1),
    StableHlo.TRef.quaternary (.of main_v1443 : StableHlo.TRef sig ⟨S4194304, .i1⟩) (.of main_call134_v0 : StableHlo.TRef sig ⟨S4194304, .i32⟩) (.of main_call134_c : StableHlo.TRef sig ⟨S_, .i1⟩) (.of main_call134_c_0 : StableHlo.TRef sig ⟨S_, .i32⟩) (.of main_v1444 : StableHlo.TRef sig ⟨S_, .i32⟩) (fun x y u v j => (Host.reduce2 reducer_argmax_i1_i32 x y u v reducesTo_S4194304_S_d0 h_S_ j).2) ]
theorem main_part35_ops5_sub : (main_part35_ops5 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 47 host operations of @main, window 35 (statements 2101 … 2160), in order:
    main_c_666 … main_cst_687. -/
abbrev main_part35_ops6 : List (HloOp τ sig (Elt F)) :=
  ( StableHlo.nullary main_c_666 (constantI S_ 32 0#32)
  :: StableHlo.binary main_v1438 main_c_666 main_v1445 (cmpi .slt : (⟨S_, .i32⟩ : BufTy).Contents (Elt F) → (⟨S_, .i32⟩ : BufTy).Contents (Elt F) → (⟨S_, .i1⟩ : BufTy).Contents (Elt F))
  :: StableHlo.nullary main_c_667 (constantI S_ 32 4194304#32)
  :: StableHlo.binary main_v1438 main_c_667 main_v1446 (addi : (⟨S_, .i32⟩ : BufTy).Contents (Elt F) → (⟨S_, .i32⟩ : BufTy).Contents (Elt F) → (⟨S_, .i32⟩ : BufTy).Contents (Elt F))
  :: StableHlo.ternary main_v1445 main_v1446 main_v1438 main_v1447 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_668 (constantI S_ 32 0#32)
  :: StableHlo.nullary main_c_669 (constantI S_ 32 0#32)
  :: StableHlo.binary main_c_668 main_c_669 main_v1448 (cmpi .slt : (⟨S_, .i32⟩ : BufTy).Contents (Elt F) → (⟨S_, .i32⟩ : BufTy).Contents (Elt F) → (⟨S_, .i1⟩ : BufTy).Contents (Elt F))
  :: StableHlo.nullary main_c_670 (constantI S_ 32 0#32)
  :: StableHlo.nullary main_c_671 (constantI S_ 32 2#32)
  :: StableHlo.binary main_c_670 main_c_671 main_v1449 (addi : (⟨S_, .i32⟩ : BufTy).Contents (Elt F) → (⟨S_, .i32⟩ : BufTy).Contents (Elt F) → (⟨S_, .i32⟩ : BufTy).Contents (Elt F))
  :: StableHlo.nullary main_c_672 (constantI S_ 32 0#32)
  :: StableHlo.ternary main_v1448 main_v1449 main_c_672 main_v1450 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v1447, main_v1450] ⟨S_, .i32⟩ main_v1451 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1451 main_v1452 rfl shapeCasts_S1x2_S2
  :: StableHlo.nullary main_c_673 (constantI S_ 32 0#32)
  :: StableHlo.binary main_v1441 main_c_673 main_v1453 (cmpi .slt : (⟨S_, .i32⟩ : BufTy).Contents (Elt F) → (⟨S_, .i32⟩ : BufTy).Contents (Elt F) → (⟨S_, .i1⟩ : BufTy).Contents (Elt F))
  :: StableHlo.nullary main_c_674 (constantI S_ 32 4194304#32)
  :: StableHlo.binary main_v1441 main_c_674 main_v1454 (addi : (⟨S_, .i32⟩ : BufTy).Contents (Elt F) → (⟨S_, .i32⟩ : BufTy).Contents (Elt F) → (⟨S_, .i32⟩ : BufTy).Contents (Elt F))
  :: StableHlo.ternary main_v1453 main_v1454 main_v1441 main_v1455 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_675 (constantI S_ 32 0#32)
  :: StableHlo.nullary main_c_676 (constantI S_ 32 0#32)
  :: StableHlo.binary main_c_675 main_c_676 main_v1456 (cmpi .slt : (⟨S_, .i32⟩ : BufTy).Contents (Elt F) → (⟨S_, .i32⟩ : BufTy).Contents (Elt F) → (⟨S_, .i1⟩ : BufTy).Contents (Elt F))
  :: StableHlo.nullary main_c_677 (constantI S_ 32 0#32)
  :: StableHlo.nullary main_c_678 (constantI S_ 32 2#32)
  :: StableHlo.binary main_c_677 main_c_678 main_v1457 (addi : (⟨S_, .i32⟩ : BufTy).Contents (Elt F) → (⟨S_, .i32⟩ : BufTy).Contents (Elt F) → (⟨S_, .i32⟩ : BufTy).Contents (Elt F))
  :: StableHlo.nullary main_c_679 (constantI S_ 32 0#32)
  :: StableHlo.ternary main_v1456 main_v1457 main_c_679 main_v1458 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1455, main_v1458] ⟨S_, .i32⟩ main_v1459 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1459 main_v1460 rfl shapeCasts_S1x2_S2
  :: StableHlo.binary main_v1452 main_v1460 main_v1461 (addf : (⟨S2, .f32⟩ : BufTy).Contents (Elt F) → (⟨S2, .f32⟩ : BufTy).Contents (Elt F) → (⟨S2, .f32⟩ : BufTy).Contents (Elt F))
  :: StableHlo.nullary main_c_680 (constantI S_ 32 0#32)
  :: StableHlo.binary main_v1444 main_c_680 main_v1462 (cmpi .slt : (⟨S_, .i32⟩ : BufTy).Contents (Elt F) → (⟨S_, .i32⟩ : BufTy).Contents (Elt F) → (⟨S_, .i1⟩ : BufTy).Contents (Elt F))
  :: StableHlo.nullary main_c_681 (constantI S_ 32 4194304#32)
  :: StableHlo.binary main_v1444 main_c_681 main_v1463 (addi : (⟨S_, .i32⟩ : BufTy).Contents (Elt F) → (⟨S_, .i32⟩ : BufTy).Contents (Elt F) → (⟨S_, .i32⟩ : BufTy).Contents (Elt F))
  :: StableHlo.ternary main_v1462 main_v1463 main_v1444 main_v1464 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_682 (constantI S_ 32 0#32)
  :: StableHlo.nullary main_c_683 (constantI S_ 32 0#32)
  :: StableHlo.binary main_c_682 main_c_683 main_v1465 (cmpi .slt : (⟨S_, .i32⟩ : BufTy).Contents (Elt F) → (⟨S_, .i32⟩ : BufTy).Contents (Elt F) → (⟨S_, .i1⟩ : BufTy).Contents (Elt F))
  :: StableHlo.nullary main_c_684 (constantI S_ 32 0#32)
  :: StableHlo.nullary main_c_685 (constantI S_ 32 2#32)
  :: StableHlo.binary main_c_684 main_c_685 main_v1466 (addi : (⟨S_, .i32⟩ : BufTy).Contents (Elt F) → (⟨S_, .i32⟩ : BufTy).Contents (Elt F) → (⟨S_, .i32⟩ : BufTy).Contents (Elt F))
  :: StableHlo.nullary main_c_686 (constantI S_ 32 0#32)
  :: StableHlo.ternary main_v1465 main_v1466 main_c_686 main_v1467 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1464, main_v1467] ⟨S_, .i32⟩ main_v1468 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1468 main_v1469 rfl shapeCasts_S1x2_S2
  :: StableHlo.nullary main_cst_687 (constant S_ .f32 0xBF317218#32)
  :: [] )
theorem main_part35_ops6_sub : (main_part35_ops6 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub ..⟩
/-- Window 35's stretches, in order. -/
abbrev part35_opss : List (List (HloOp τ sig (Elt F))) :=
  [ main_part35_ops0,
    main_part35_ops1,
    main_part35_ops2,
    main_part35_ops3,
    main_part35_ops4,
    main_part35_ops5,
    main_part35_ops6 ]
theorem part35_opss_sub : (part35_opss : List (List (HloOp τ sig (Elt F)))).Forall fun l => l.Forall fun op => op.bufs ⊆ StableHlo.tcRefs τ sig :=
  ⟨main_part35_ops0_sub, main_part35_ops1_sub, main_part35_ops2_sub, main_part35_ops3_sub, main_part35_ops4_sub, main_part35_ops5_sub, main_part35_ops6_sub⟩

end Cert.ReferenceIdeal.Rn

end
-- ==== Proof.Rf.Ops9.lean ====
/- The reference's @main as operation lists: windows 36 … 39 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 8 host operations of @main, window 36 (statements 2161 … 2220), in order:
    main_v1470 … main_v1477. -/
abbrev main_part36_ops0 : List (HloOp τ sig (Elt F)) :=
  [ StableHlo.unary main_cst_687 main_v1470 (broadcastInDim S2 ![] bcast_S_S2 : (⟨S_, .f32⟩ : BufTy).Contents (Elt F) → (⟨S2, .f32⟩ : BufTy).Contents (Elt F)),
    StableHlo.binary main_v1469 main_v1470 main_v1471 (cmpf .ogt : (⟨S2, .f32⟩ : BufTy).Contents (Elt F) → (⟨S2, .f32⟩ : BufTy).Contents (Elt F) → (⟨S2, .i1⟩ : BufTy).Contents (Elt F)),
    StableHlo.unary main_v1469 main_v1472 (Host.expm1 : (⟨S2, .f32⟩ : BufTy).Contents (Elt F) → (⟨S2, .f32⟩ : BufTy).Contents (Elt F)),
    StableHlo.unary main_v1472 main_v1473 (Host.negf : (⟨S2, .f32⟩ : BufTy).Contents (Elt F) → (⟨S2, .f32⟩ : BufTy).Contents (Elt F)),
    StableHlo.unary main_v1473 main_v1474 (Host.log : (⟨S2, .f32⟩ : BufTy).Contents (Elt F) → (⟨S2, .f32⟩ : BufTy).Contents (Elt F)),
    StableHlo.unary main_v1469 main_v1475 (Host.exp : (⟨S2, .f32⟩ : BufTy).Contents (Elt F) → (⟨S2, .f32⟩ : BufTy).Contents (Elt F)),
    StableHlo.unary main_v1475 main_v1476 (Host.negf : (⟨S2, .f32⟩ : BufTy).Contents (Elt F) → (⟨S2, .f32⟩ : BufTy).Contents (Elt F)),
    StableHlo.unary main_v1476 main_v1477 (Host.log1p : (⟨S2, .f32⟩ : BufTy).Contents (Elt F) → (⟨S2, .f32⟩ : BufTy).Contents (Elt F)) ]
theorem main_part36_ops0_sub : (main_part36_ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call135), window 36 (statements 2161 … 2220), in order:
    main_v1478 … main_v1478. -/
abbrev main_part36_ops1 : List (HloOp τ sig (Elt F)) :=
  [ StableHlo.TRef.ternary (.of main_v1471 : StableHlo.TRef sig ⟨S2, .i1⟩) (.of main_v1474 : StableHlo.TRef sig ⟨S2, .f32⟩) (.of main_v1477 : StableHlo.TRef sig ⟨S2, .f32⟩) (.of main_v1478 : StableHlo.TRef sig ⟨S2, .f32⟩) select ]
theorem main_part36_ops1_sub : (main_part36_ops1 : List (HloOp τ sig (Elt F))).Forall fun op => op.bufs ⊆ StableHlo.tcRefs τ sig :=
  StableHlo.ternary_bufs_sub ..
/-- 6 host operations of @main, window 36 (statements 2161 … 2220), in order:
    main_v1479 … main_cst_690. -/
abbrev main_part36_ops2 : List (HloOp τ sig (Elt F)) :=
  [ StableHlo.binary main_v1461 main_v1478 main_v1479 (subf : (⟨S2, .f32⟩ : BufTy).Contents (Elt F) → (⟨S2, .f32⟩ : BufTy).Contents (Elt F) → (⟨S2, .f32⟩ : BufTy).Contents (Elt F)),
    StableHlo.nullary main_cst_688 (constant S_ .f32 0x00000000#32),
    StableHlo.binary main_v1479 main_cst_688 main_v1480 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_689 (constantI S_ 32 0#32),
    StableHlo.binary main_v1435 main_c_689 main_v1481 (cmpi .sgt : (⟨S_, .i32⟩ : BufTy).Contents (Elt F) → (⟨S_, .i32⟩ : BufTy).Contents (Elt F) → (⟨S_, .i1⟩ : BufTy).Contents (Elt F)),
    StableHlo.nullary main_cst_690 (constant S_ .f32 0x00000000#32) ]
theorem main_part36_ops2_sub : (main_part36_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call136), window 36 (statements 2161 … 2220), in order:
    main_v1482 … main_v1482. -/
abbrev main_part36_ops3 : List (HloOp τ sig (Elt F)) :=
  [ StableHlo.TRef.ternary (.of main_v1481 : StableHlo.TRef sig ⟨S_, .i1⟩) (.of main_v1480 : StableHlo.TRef sig ⟨S_, .f32⟩) (.of main_cst_690 : StableHlo.TRef sig ⟨S_, .f32⟩) (.of main_v1482 : StableHlo.TRef sig ⟨S_, .f32⟩) select ]
theorem main_part36_ops3_sub : (main_part36_ops3 : List (HloOp τ sig (Elt F))).Forall fun op => op.bufs ⊆ StableHlo.tcRefs τ sig :=
  StableHlo.ternary_bufs_sub ..
/-- 13 host operations of @main, window 36 (statements 2161 … 2220), in order:
    main_v1483 … main_v1492. -/
abbrev main_part36_ops4 : List (HloOp τ sig (Elt F)) :=
  [ StableHlo.binary main_v1423 main_v1482 main_v1483 (subf : (⟨S_, .f32⟩ : BufTy).Contents (Elt F) → (⟨S_, .f32⟩ : BufTy).Contents (Elt F) → (⟨S_, .f32⟩ : BufTy).Contents (Elt F)),
    StableHlo.nullary main_c_691 (constantI S_ 32 5#32),
    StableHlo.unary main_c_691 main_v1484 (broadcastInDim S4194304 ![] bcast_S_S4194304 : (⟨S_, .i32⟩ : BufTy).Contents (Elt F) → (⟨S4194304, .i32⟩ : BufTy).Contents (Elt F)),
    StableHlo.binary main_v25 main_v1484 main_v1485 (cmpi .eq : (⟨S4194304, .i32⟩ : BufTy).Contents (Elt F) → (⟨S4194304, .i32⟩ : BufTy).Contents (Elt F) → (⟨S4194304, .i1⟩ : BufTy).Contents (Elt F)),
    StableHlo.nullary main_c_692 (constantI S_ 32 2#32),
    StableHlo.unary main_c_692 main_v1486 (broadcastInDim S4194304 ![] bcast_S_S4194304 : (⟨S_, .i32⟩ : BufTy).Contents (Elt F) → (⟨S4194304, .i32⟩ : BufTy).Contents (Elt F)),
    StableHlo.binary main_v51 main_v1486 main_v1487 (cmpi .eq : (⟨S4194304, .i32⟩ : BufTy).Contents (Elt F) → (⟨S4194304, .i32⟩ : BufTy).Contents (Elt F) → (⟨S4194304, .i1⟩ : BufTy).Contents (Elt F)),
    StableHlo.binary main_v1485 main_v1487 main_v1488 (andi : (⟨S4194304, .i1⟩ : BufTy).Contents (Elt F) → (⟨S4194304, .i1⟩ : BufTy).Contents (Elt F) → (⟨S4194304, .i1⟩ : BufTy).Contents (Elt F)),
    StableHlo.nullary main_c_693 (constantI S_ 32 2#32),
    StableHlo.unary main_c_693 main_v1489 (broadcastInDim S4194304 ![] bcast_S_S4194304 : (⟨S_, .i32⟩ : BufTy).Contents (Elt F) → (⟨S4194304, .i32⟩ : BufTy).Contents (Elt F)),
    StableHlo.binary main_v77 main_v1489 main_v1490 (cmpi .eq : (⟨S4194304, .i32⟩ : BufTy).Contents (Elt F) → (⟨S4194304, .i32⟩ : BufTy).Contents (Elt F) → (⟨S4194304, .i1⟩ : BufTy).Contents (Elt F)),
    StableHlo.binary main_v1488 main_v1490 main_v1491 (andi : (⟨S4194304, .i1⟩ : BufTy).Contents (Elt F) → (⟨S4194304, .i1⟩ : BufTy).Contents (Elt F) → (⟨S4194304, .i1⟩ : BufTy).Contents (Elt F)),
    StableHlo.unary main_v1491 main_v1492 ((extui 32 · natLt_1_32) : (⟨S4194304, .i1⟩ : BufTy).Contents (Elt F) → (⟨S4194304, .i32⟩ : BufTy).Contents (Elt F)) ]
theorem main_part36_ops4_sub : (main_part36_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call137), window 36 (statements 2161 … 2220), in order:
    main_call137_call0_c … main_v1493. -/
abbrev main_part36_ops5 : List (HloOp τ sig (Elt F)) :=
  [ StableHlo.TRef.nullary (.of main_call137_call0_c : StableHlo.TRef sig ⟨S_, .i32⟩) (constantI S_ 32 0#32),
    StableHlo.TRef.unary (.of main_call137_call0_c : StableHlo.TRef sig ⟨S_, .i32⟩) (.of main_call137_call0_v0 : StableHlo.TRef sig ⟨S_, .i32⟩) (broadcastInDim S_ ![] bcast_S_S_),
    StableHlo.TRef.binary (.of main_v1492 : StableHlo.TRef sig ⟨S4194304, .i32⟩) (.of main_call137_call0_v0 : StableHlo.TRef sig ⟨S_, .i32⟩) (.of main_v1493 : StableHlo.TRef sig ⟨S4194304, .i32⟩) (fun x v => Host.reduceWindow IntOp.addi ![4194304] ![1] ![4194303] ![0] x v reduceWindows_S4194304_S4194304_w4194304s1p4194303_0 h_S_) ]
theorem main_part36_ops5_sub : (main_part36_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 36 (statements 2161 … 2220), in order:
    main_v1494 … main_v1497. -/
abbrev main_part36_ops6 : List (HloOp τ sig (Elt F)) :=
  [ StableHlo.unary main_v1493 main_v1494 ((extractStridedSlice S1 ![4194303] · slices_S4194304_S1_4194303) : (⟨S4194304, .i32⟩ : BufTy).Contents (Elt F) → (⟨S1, .i32⟩ : BufTy).Contents (Elt F)),
    StableHlo.reshape main_v1494 main_v1495 rfl shapeCasts_S1_S_,
    StableHlo.nullary main_c_694 (constantI S_ 32 2#32),
    StableHlo.unary main_c_694 main_v1496 (broadcastInDim S4194304 ![] bcast_S_S4194304 : (⟨S_, .i32⟩ : BufTy).Contents (Elt F) → (⟨S4194304, .i32⟩ : BufTy).Contents (Elt F)),
    StableHlo.binary main_v1493 main_v1496 main_v1497 (cmpi .eq : (⟨S4194304, .i32⟩ : BufTy).Contents (Elt F) → (⟨S4194304, .i32⟩ : BufTy).Contents (Elt F) → (⟨S4194304, .i1⟩ : BufTy).Contents (Elt F)) ]
theorem main_part36_ops6_sub : (main_part36_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call138), window 36 (statements 2161 … 2220), in order:
    main_call138_v0 … main_v1498. -/
abbrev main_part36_ops7 : List (HloOp τ sig (Elt F)) :=
  [ StableHlo.TRef.nullary (.of main_call138_v0 : StableHlo.TRef sig ⟨S4194304, .i32⟩) (iotaInDim S4194304 32 0),
    StableHlo.TRef.nullary (.of main_call138_c : StableHlo.TRef sig ⟨S_, .i1⟩) (constantI S_ 1 0#1),
    StableHlo.TRef.nullary (.of main_call138_c_0 : StableHlo.TRef sig ⟨S_, .i32⟩) (constantI S_ 32 0#32),
    StableHlo.TRef.quaternary (.of main_v1497 : StableHlo.TRef sig ⟨S4194304, .i1⟩) (.of main_call138_v0 : StableHlo.TRef sig ⟨S4194304, .i32⟩) (.of main_call138_c : StableHlo.TRef sig ⟨S_, .i1⟩) (.of main_call138_c_0 : StableHlo.TRef sig ⟨S_, .i32⟩) (.of main_call138_v1_0 : StableHlo.TRef sig ⟨S_, .i1⟩) (fun x y u v j => (Host.reduce2 reducer_argmax_i1_i32 x y u v reducesTo_S4194304_S_d0 h_S_ j).1),
    StableHlo.TRef.quaternary (.of main_v1497 : StableHlo.TRef sig ⟨S4194304, .i1⟩) (.of main_call138_v0 : StableHlo.TRef sig ⟨S4194304, .i32⟩) (.of main_call138_c : StableHlo.TRef sig ⟨S_, .i1⟩) (.of main_call138_c_0 : StableHlo.TRef sig ⟨S_, .i32⟩) (.of main_v1498 : StableHlo.TRef sig ⟨S_, .i32⟩) (fun x y u v j => (Host.reduce2 reducer_argmax_i1_i32 x y u v reducesTo_S4194304_S_d0 h_S_ j).2) ]
theorem main_part36_ops7_sub : (main_part36_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 36 (statements 2161 … 2220), in order:
    main_c_695 … main_v1500. -/
abbrev main_part36_ops8 : List (HloOp τ sig (Elt F)) :=
  [ StableHlo.nullary main_c_695 (constantI S_ 32 1#32),
    StableHlo.unary main_c_695 main_v1499 (broadcastInDim S4194304 ![] bcast_S_S4194304 : (⟨S_, .i32⟩ : BufTy).Contents (Elt F) → (⟨S4194304, .i32⟩ : BufTy).Contents (Elt F)),
    StableHlo.binary main_v1493 main_v1499 main_v1500 (cmpi .eq : (⟨S4194304, .i32⟩ : BufTy).Contents (Elt F) → (⟨S4194304, .i32⟩ : BufTy).Contents (Elt F) → (⟨S4194304, .i1⟩ : BufTy).Contents (Elt F)) ]
theorem main_part36_ops8_sub : (main_part36_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call139), window 36 (statements 2161 … 2220), in order:
    main_call139_v0 … main_v1501. -/
abbrev main_part36_ops9 : List (HloOp τ sig (Elt F)) :=
  [ StableHlo.TRef.nullary (.of main_call139_v0 : StableHlo.TRef sig ⟨S4194304, .i32⟩) (iotaInDim S4194304 32 0),
    StableHlo.TRef.nullary (.of main_call139_c : StableHlo.TRef sig ⟨S_, .i1⟩) (constantI S_ 1 0#1),
    StableHlo.TRef.nullary (.of main_call139_c_0 : StableHlo.TRef sig ⟨S_, .i32⟩) (constantI S_ 32 0#32),
    StableHlo.TRef.quaternary (.of main_v1500 : StableHlo.TRef sig ⟨S4194304, .i1⟩) (.of main_call139_v0 : StableHlo.TRef sig ⟨S4194304, .i32⟩) (.of main_call139_c : StableHlo.TRef sig ⟨S_, .i1⟩) (.of main_call139_c_0 : StableHlo.TRef sig ⟨S_, .i32⟩) (.of main_call139_v1_0 : StableHlo.TRef sig ⟨S_, .i1⟩) (fun x y u v j => (Host.reduce2 reducer_argmax_i1_i32 x y u v reducesTo_S4194304_S_d0 h_S_ j).1),
    StableHlo.TRef.quaternary (.of main_v1500 : StableHlo.TRef sig ⟨S4194304, .i1⟩) (.of main_call139_v0 : StableHlo.TRef sig ⟨S4194304, .i32⟩) (.of main_call139_c : StableHlo.TRef sig ⟨S_, .i1⟩) (.of main_call139_c_0 : StableHlo.TRef sig ⟨S_, .i32⟩) (.of main_v1501 : StableHlo.TRef sig ⟨S_, .i32⟩) (fun x y u v j => (Host.reduce2 reducer_argmax_i1_i32 x y u v reducesTo_S4194304_S_d0 h_S_ j).2) ]
theorem main_part36_ops9_sub : (main_part36_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 36 (statements 2161 … 2220), in order:
    main_c_696 … main_v1503. -/
abbrev main_part36_ops10 : List (HloOp τ sig (Elt F)) :=
  [ StableHlo.nullary main_c_696 (constantI S_ 32 1#32),
    StableHlo.unary main_c_696 main_v1502 (broadcastInDim S4194304 ![] bcast_S_S4194304 : (⟨S_, .i32⟩ : BufTy).Contents (Elt F) → (⟨S4194304, .i32⟩ : BufTy).Contents (Elt F)),
    StableHlo.binary main_v1493 main_v1502 main_v1503 (cmpi .eq : (⟨S4194304, .i32⟩ : BufTy).Contents (Elt F) → (⟨S4194304, .i32⟩ : BufTy).Contents (Elt F) → (⟨S4194304, .i1⟩ : BufTy).Contents (Elt F)) ]
theorem main_part36_ops10_sub : (main_part36_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call140), window 36 (statements 2161 … 2220), in order:
    main_call140_v0 … main_v1504. -/
abbrev main_part36_ops11 : List (HloOp τ sig (Elt F)) :=
  [ StableHlo.TRef.nullary (.of main_call140_v0 : StableHlo.TRef sig ⟨S4194304, .i32⟩) (iotaInDim S4194304 32 0),
    StableHlo.TRef.nullary (.of main_call140_c : StableHlo.TRef sig ⟨S_, .i1⟩) (constantI S_ 1 0#1),
    StableHlo.TRef.nullary (.of main_call140_c_0 : StableHlo.TRef sig ⟨S_, .i32⟩) (constantI S_ 32 0#32),
    StableHlo.TRef.quaternary (.of main_v1503 : StableHlo.TRef sig ⟨S4194304, .i1⟩) (.of main_call140_v0 : StableHlo.TRef sig ⟨S4194304, .i32⟩) (.of main_call140_c : StableHlo.TRef sig ⟨S_, .i1⟩) (.of main_call140_c_0 : StableHlo.TRef sig ⟨S_, .i32⟩) (.of main_call140_v1_0 : StableHlo.TRef sig ⟨S_, .i1⟩) (fun x y u v j => (Host.reduce2 reducer_argmax_i1_i32 x y u v reducesTo_S4194304_S_d0 h_S_ j).1),
    StableHlo.TRef.quaternary (.of main_v1503 : StableHlo.TRef sig ⟨S4194304, .i1⟩) (.of main_call140_v0 : StableHlo.TRef sig ⟨S4194304, .i32⟩) (.of main_call140_c : StableHlo.TRef sig ⟨S_, .i1⟩) (.of main_call140_c_0 : StableHlo.TRef sig ⟨S_, .i32⟩) (.of main_v1504 : StableHlo.TRef sig ⟨S_, .i32⟩) (fun x y u v j => (Host.reduce2 reducer_argmax_i1_i32 x y u v reducesTo_S4194304_S_d0 h_S_ j).2) ]
theorem main_part36_ops11_sub : (main_part36_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 16 host operations of @main, window 36 (statements 2161 … 2220), in order:
    main_c_697 … main_c_704. -/
abbrev main_part36_ops12 : List (HloOp τ sig (Elt F)) :=
  [ StableHlo.nullary main_c_697 (constantI S_ 32 0#32),
    StableHlo.binary main_v1498 main_c_697 main_v1505 (cmpi .slt : (⟨S_, .i32⟩ : BufTy).Contents (Elt F) → (⟨S_, .i32⟩ : BufTy).Contents (Elt F) → (⟨S_, .i1⟩ : BufTy).Contents (Elt F)),
    StableHlo.nullary main_c_698 (constantI S_ 32 4194304#32),
    StableHlo.binary main_v1498 main_c_698 main_v1506 (addi : (⟨S_, .i32⟩ : BufTy).Contents (Elt F) → (⟨S_, .i32⟩ : BufTy).Contents (Elt F) → (⟨S_, .i32⟩ : BufTy).Contents (Elt F)),
    StableHlo.ternary main_v1505 main_v1506 main_v1498 main_v1507 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_699 (constantI S_ 32 0#32),
    StableHlo.nullary main_c_700 (constantI S_ 32 0#32),
    StableHlo.binary main_c_699 main_c_700 main_v1508 (cmpi .slt : (⟨S_, .i32⟩ : BufTy).Contents (Elt F) → (⟨S_, .i32⟩ : BufTy).Contents (Elt F) → (⟨S_, .i1⟩ : BufTy).Contents (Elt F)),
    StableHlo.nullary main_c_701 (constantI S_ 32 0#32),
    StableHlo.nullary main_c_702 (constantI S_ 32 2#32),
    StableHlo.binary main_c_701 main_c_702 main_v1509 (addi : (⟨S_, .i32⟩ : BufTy).Contents (Elt F) → (⟨S_, .i32⟩ : BufTy).Contents (Elt F) → (⟨S_, .i32⟩ : BufTy).Contents (Elt F)),
    StableHlo.nullary main_c_703 (constantI S_ 32 0#32),
    StableHlo.ternary main_v1508 main_v1509 main_c_703 main_v1510 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1507, main_v1510] ⟨S_, .i32⟩ main_v1511 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)),
    StableHlo.reshape main_v1511 main_v1512 rfl shapeCasts_S1x2_S2,
    StableHlo.nullary main_c_704 (constantI S_ 32 0#32) ]
theorem main_part36_ops12_sub : (main_part36_ops12 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub ..⟩
/-- Window 36's stretches, in order. -/
abbrev part36_opss : List (List (HloOp τ sig (Elt F))) :=
  [ main_part36_ops0,
    main_part36_ops1,
    main_part36_ops2,
    main_part36_ops3,
    main_part36_ops4,
    main_part36_ops5,
    main_part36_ops6,
    main_part36_ops7,
    main_part36_ops8,
    main_part36_ops9,
    main_part36_ops10,
    main_part36_ops11,
    main_part36_ops12 ]
theorem part36_opss_sub : (part36_opss : List (List (HloOp τ sig (Elt F)))).Forall fun l => l.Forall fun op => op.bufs ⊆ StableHlo.tcRefs τ sig :=
  ⟨main_part36_ops0_sub, main_part36_ops1_sub, main_part36_ops2_sub, main_part36_ops3_sub, main_part36_ops4_sub, main_part36_ops5_sub, main_part36_ops6_sub, main_part36_ops7_sub, main_part36_ops8_sub, main_part36_ops9_sub, main_part36_ops10_sub, main_part36_ops11_sub, main_part36_ops12_sub⟩

/-- 39 host operations of @main, window 37 (statements 2221 … 2280), in order:
    main_v1513 … main_v1537. -/
abbrev main_part37_ops0 : List (HloOp τ sig (Elt F)) :=
  ( StableHlo.binary main_v1501 main_c_704 main_v1513 (cmpi .slt : (⟨S_, .i32⟩ : BufTy).Contents (Elt F) → (⟨S_, .i32⟩ : BufTy).Contents (Elt F) → (⟨S_, .i1⟩ : BufTy).Contents (Elt F))
  :: StableHlo.nullary main_c_705 (constantI S_ 32 4194304#32)
  :: StableHlo.binary main_v1501 main_c_705 main_v1514 (addi : (⟨S_, .i32⟩ : BufTy).Contents (Elt F) → (⟨S_, .i32⟩ : BufTy).Contents (Elt F) → (⟨S_, .i32⟩ : BufTy).Contents (Elt F))
  :: StableHlo.ternary main_v1513 main_v1514 main_v1501 main_v1515 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_706 (constantI S_ 32 0#32)
  :: StableHlo.nullary main_c_707 (constantI S_ 32 0#32)
  :: StableHlo.binary main_c_706 main_c_707 main_v1516 (cmpi .slt : (⟨S_, .i32⟩ : BufTy).Contents (Elt F) → (⟨S_, .i32⟩ : BufTy).Contents (Elt F) → (⟨S_, .i1⟩ : BufTy).Contents (Elt F))
  :: StableHlo.nullary main_c_708 (constantI S_ 32 0#32)
  :: StableHlo.nullary main_c_709 (constantI S_ 32 2#32)
  :: StableHlo.binary main_c_708 main_c_709 main_v1517 (addi : (⟨S_, .i32⟩ : BufTy).Contents (Elt F) → (⟨S_, .i32⟩ : BufTy).Contents (Elt F) → (⟨S_, .i32⟩ : BufTy).Contents (Elt F))
  :: StableHlo.nullary main_c_710 (constantI S_ 32 0#32)
  :: StableHlo.ternary main_v1516 main_v1517 main_c_710 main_v1518 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1515, main_v1518] ⟨S_, .i32⟩ main_v1519 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1519 main_v1520 rfl shapeCasts_S1x2_S2
  :: StableHlo.binary main_v1512 main_v1520 main_v1521 (addf : (⟨S2, .f32⟩ : BufTy).Contents (Elt F) → (⟨S2, .f32⟩ : BufTy).Contents (Elt F) → (⟨S2, .f32⟩ : BufTy).Contents (Elt F))
  :: StableHlo.nullary main_c_711 (constantI S_ 32 0#32)
  :: StableHlo.binary main_v1504 main_c_711 main_v1522 (cmpi .slt : (⟨S_, .i32⟩ : BufTy).Contents (Elt F) → (⟨S_, .i32⟩ : BufTy).Contents (Elt F) → (⟨S_, .i1⟩ : BufTy).Contents (Elt F))
  :: StableHlo.nullary main_c_712 (constantI S_ 32 4194304#32)
  :: StableHlo.binary main_v1504 main_c_712 main_v1523 (addi : (⟨S_, .i32⟩ : BufTy).Contents (Elt F) → (⟨S_, .i32⟩ : BufTy).Contents (Elt F) → (⟨S_, .i32⟩ : BufTy).Contents (Elt F))
  :: StableHlo.ternary main_v1522 main_v1523 main_v1504 main_v1524 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_713 (constantI S_ 32 0#32)
  :: StableHlo.nullary main_c_714 (constantI S_ 32 0#32)
  :: StableHlo.binary main_c_713 main_c_714 main_v1525 (cmpi .slt : (⟨S_, .i32⟩ : BufTy).Contents (Elt F) → (⟨S_, .i32⟩ : BufTy).Contents (Elt F) → (⟨S_, .i1⟩ : BufTy).Contents (Elt F))
  :: StableHlo.nullary main_c_715 (constantI S_ 32 0#32)
  :: StableHlo.nullary main_c_716 (constantI S_ 32 2#32)
  :: StableHlo.binary main_c_715 main_c_716 main_v1526 (addi : (⟨S_, .i32⟩ : BufTy).Contents (Elt F) → (⟨S_, .i32⟩ : BufTy).Contents (Elt F) → (⟨S_, .i32⟩ : BufTy).Contents (Elt F))
  :: StableHlo.nullary main_c_717 (constantI S_ 32 0#32)
  :: StableHlo.ternary main_v1525 main_v1526 main_c_717 main_v1527 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1524, main_v1527] ⟨S_, .i32⟩ main_v1528 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1528 main_v1529 rfl shapeCasts_S1x2_S2
  :: StableHlo.nullary main_cst_718 (constant S_ .f32 0xBF317218#32)
  :: StableHlo.unary main_cst_718 main_v1530 (broadcastInDim S2 ![] bcast_S_S2 : (⟨S_, .f32⟩ : BufTy).Contents (Elt F) → (⟨S2, .f32⟩ : BufTy).Contents (Elt F))
  :: StableHlo.binary main_v1529 main_v1530 main_v1531 (cmpf .ogt : (⟨S2, .f32⟩ : BufTy).Contents (Elt F) → (⟨S2, .f32⟩ : BufTy).Contents (Elt F) → (⟨S2, .i1⟩ : BufTy).Contents (Elt F))
  :: StableHlo.unary main_v1529 main_v1532 (Host.expm1 : (⟨S2, .f32⟩ : BufTy).Contents (Elt F) → (⟨S2, .f32⟩ : BufTy).Contents (Elt F))
  :: StableHlo.unary main_v1532 main_v1533 (Host.negf : (⟨S2, .f32⟩ : BufTy).Contents (Elt F) → (⟨S2, .f32⟩ : BufTy).Contents (Elt F))
  :: StableHlo.unary main_v1533 main_v1534 (Host.log : (⟨S2, .f32⟩ : BufTy).Contents (Elt F) → (⟨S2, .f32⟩ : BufTy).Contents (Elt F))
  :: StableHlo.unary main_v1529 main_v1535 (Host.exp : (⟨S2, .f32⟩ : BufTy).Contents (Elt F) → (⟨S2, .f32⟩ : BufTy).Contents (Elt F))
  :: StableHlo.unary main_v1535 main_v1536 (Host.negf : (⟨S2, .f32⟩ : BufTy).Contents (Elt F) → (⟨S2, .f32⟩ : BufTy).Contents (Elt F))
  :: StableHlo.unary main_v1536 main_v1537 (Host.log1p : (⟨S2, .f32⟩ : BufTy).Contents (Elt F) → (⟨S2, .f32⟩ : BufTy).Contents (Elt F))
  :: [] )
theorem main_part37_ops0_sub : (main_part37_ops0 : List (HloOp τ sig (Elt F))).Forall fun op => op.bufs ⊆ StableHlo.tcRefs τ sig :=
  ⟨StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call141), window 37 (statements 2221 … 2280), in order:
    main_v1538 … main_v1538. -/
abbrev main_part37_ops1 : List (HloOp τ sig (Elt F)) :=
  [ StableHlo.TRef.ternary (.of main_v1531 : StableHlo.TRef sig ⟨S2, .i1⟩) (.of main_v1534 : StableHlo.TRef sig ⟨S2, .f32⟩) (.of main_v1537 : StableHlo.TRef sig ⟨S2, .f32⟩) (.of main_v1538 : StableHlo.TRef sig ⟨S2, .f32⟩) select ]
theorem main_part37_ops1_sub : (main_part37_ops1 : List (HloOp τ sig (Elt F))).Forall fun op => op.bufs ⊆ StableHlo.tcRefs τ sig :=
  StableHlo.ternary_bufs_sub ..
/-- 6 host operations of @main, window 37 (statements 2221 … 2280), in order:
    main_v1539 … main_cst_721. -/
abbrev main_part37_ops2 : List (HloOp τ sig (Elt F)) :=
  [ StableHlo.binary main_v1521 main_v1538 main_v1539 (subf : (⟨S2, .f32⟩ : BufTy).Contents (Elt F) → (⟨S2, .f32⟩ : BufTy).Contents (Elt F) → (⟨S2, .f32⟩ : BufTy).Contents (Elt F)),
    StableHlo.nullary main_cst_719 (constant S_ .f32 0x00000000#32),
    StableHlo.binary main_v1539 main_cst_719 main_v1540 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_720 (constantI S_ 32 0#32),
    StableHlo.binary main_v1495 main_c_720 main_v1541 (cmpi .sgt : (⟨S_, .i32⟩ : BufTy).Contents (Elt F) → (⟨S_, .i32⟩ : BufTy).Contents (Elt F) → (⟨S_, .i1⟩ : BufTy).Contents (Elt F)),
    StableHlo.nullary main_cst_721 (constant S_ .f32 0x00000000#32) ]
theorem main_part37_ops2_sub : (main_part37_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call142), window 37 (statements 2221 … 2280), in order:
    main_v1542 … main_v1542. -/
abbrev main_part37_ops3 : List (HloOp τ sig (Elt F)) :=
  [ StableHlo.TRef.ternary (.of main_v1541 : StableHlo.TRef sig ⟨S_, .i1⟩) (.of main_v1540 : StableHlo.TRef sig ⟨S_, .f32⟩) (.of main_cst_721 : StableHlo.TRef sig ⟨S_, .f32⟩) (.of main_v1542 : StableHlo.TRef sig ⟨S_, .f32⟩) select ]
theorem main_part37_ops3_sub : (main_part37_ops3 : List (HloOp τ sig (Elt F))).Forall fun op => op.bufs ⊆ StableHlo.tcRefs τ sig :=
  StableHlo.ternary_bufs_sub ..
/-- 13 host operations of @main, window 37 (statements 2221 … 2280), in order:
    main_v1543 … main_v1552. -/
abbrev main_part37_ops4 : List (HloOp τ sig (Elt F)) :=
  [ StableHlo.binary main_v1483 main_v1542 main_v1543 (subf : (⟨S_, .f32⟩ : BufTy).Contents (Elt F) → (⟨S_, .f32⟩ : BufTy).Contents (Elt F) → (⟨S_, .f32⟩ : BufTy).Contents (Elt F)),
    StableHlo.nullary main_c_722 (constantI S_ 32 2#32),
    StableHlo.unary main_c_722 main_v1544 (broadcastInDim S4194304 ![] bcast_S_S4194304 : (⟨S_, .i32⟩ : BufTy).Contents (Elt F) → (⟨S4194304, .i32⟩ : BufTy).Contents (Elt F)),
    StableHlo.binary main_v25 main_v1544 main_v1545 (cmpi .eq : (⟨S4194304, .i32⟩ : BufTy).Contents (Elt F) → (⟨S4194304, .i32⟩ : BufTy).Contents (Elt F) → (⟨S4194304, .i1⟩ : BufTy).Contents (Elt F)),
    StableHlo.nullary main_c_723 (constantI S_ 32 7#32),
    StableHlo.unary main_c_723 main_v1546 (broadcastInDim S4194304 ![] bcast_S_S4194304 : (⟨S_, .i32⟩ : BufTy).Contents (Elt F) → (⟨S4194304, .i32⟩ : BufTy).Contents (Elt F)),
    StableHlo.binary main_v51 main_v1546 main_v1547 (cmpi .eq : (⟨S4194304, .i32⟩ : BufTy).Contents (Elt F) → (⟨S4194304, .i32⟩ : BufTy).Contents (Elt F) → (⟨S4194304, .i1⟩ : BufTy).Contents (Elt F)),
    StableHlo.binary main_v1545 main_v1547 main_v1548 (andi : (⟨S4194304, .i1⟩ : BufTy).Contents (Elt F) → (⟨S4194304, .i1⟩ : BufTy).Contents (Elt F) → (⟨S4194304, .i1⟩ : BufTy).Contents (Elt F)),
    StableHlo.nullary main_c_724 (constantI S_ 32 2#32),
    StableHlo.unary main_c_724 main_v1549 (broadcastInDim S4194304 ![] bcast_S_S4194304 : (⟨S_, .i32⟩ : BufTy).Contents (Elt F) → (⟨S4194304, .i32⟩ : BufTy).Contents (Elt F)),
    StableHlo.binary main_v77 main_v1549 main_v1550 (cmpi .eq : (⟨S4194304, .i32⟩ : BufTy).Contents (Elt F) → (⟨S4194304, .i32⟩ : BufTy).Contents (Elt F) → (⟨S4194304, .i1⟩ : BufTy).Contents (Elt F)),
    StableHlo.binary main_v1548 main_v1550 main_v1551 (andi : (⟨S4194304, .i1⟩ : BufTy).Contents (Elt F) → (⟨S4194304, .i1⟩ : BufTy).Contents (Elt F) → (⟨S4194304, .i1⟩ : BufTy).Contents (Elt F)),
    StableHlo.unary main_v1551 main_v1552 ((extui 32 · natLt_1_32) : (⟨S4194304, .i1⟩ : BufTy).Contents (Elt F) → (⟨S4194304, .i32⟩ : BufTy).Contents (Elt F)) ]
theorem main_part37_ops4_sub : (main_part37_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- Window 37's stretches, in order. -/
abbrev part37_opss : List (List (HloOp τ sig (Elt F))) :=
  [ main_part37_ops0,
    main_part37_ops1,
    main_part37_ops2,
    main_part37_ops3,
    main_part37_ops4 ]
theorem part37_opss_sub : (part37_opss : List (List (HloOp τ sig (Elt F)))).Forall fun l => l.Forall fun op => op.bufs ⊆ StableHlo.tcRefs τ sig :=
  ⟨main_part37_ops0_sub, main_part37_ops1_sub, main_part37_ops2_sub, main_part37_ops3_sub, main_part37_ops4_sub⟩

/-- 3 host operations of @cumsum (main_call143), window 38 (statements 2281 … 2340), in order:
    main_call143_call0_c … main_v1553. -/
abbrev main_part38_ops0 : List (HloOp τ sig (Elt F)) :=
  [ StableHlo.TRef.nullary (.of main_call143_call0_c : StableHlo.TRef sig ⟨S_, .i32⟩) (constantI S_ 32 0#32),
    StableHlo.TRef.unary (.of main_call143_call0_c : StableHlo.TRef sig ⟨S_, .i32⟩) (.of main_call143_call0_v0 : StableHlo.TRef sig ⟨S_, .i32⟩) (broadcastInDim S_ ![] bcast_S_S_),
    StableHlo.TRef.binary (.of main_v1552 : StableHlo.TRef sig ⟨S4194304, .i32⟩) (.of main_call143_call0_v0 : StableHlo.TRef sig ⟨S_, .i32⟩) (.of main_v1553 : StableHlo.TRef sig ⟨S4194304, .i32⟩) (fun x v => Host.reduceWindow IntOp.addi ![4194304] ![1] ![4194303] ![0] x v reduceWindows_S4194304_S4194304_w4194304s1p4194303_0 h_S_) ]
theorem main_part38_ops0_sub : (main_part38_ops0 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 38 (statements 2281 … 2340), in order:
    main_v1554 … main_v1557. -/
abbrev main_part38_ops1 : List (HloOp τ sig (Elt F)) :=
  [ StableHlo.unary main_v1553 main_v1554 ((extractStridedSlice S1 ![4194303] · slices_S4194304_S1_4194303) : (⟨S4194304, .i32⟩ : BufTy).Contents (Elt F) → (⟨S1, .i32⟩ : BufTy).Contents (Elt F)),
    StableHlo.reshape main_v1554 main_v1555 rfl shapeCasts_S1_S_,
    StableHlo.nullary main_c_725 (constantI S_ 32 1#32),
    StableHlo.unary main_c_725 main_v1556 (broadcastInDim S4194304 ![] bcast_S_S4194304 : (⟨S_, .i32⟩ : BufTy).Contents (Elt F) → (⟨S4194304, .i32⟩ : BufTy).Contents (Elt F)),
    StableHlo.binary main_v1553 main_v1556 main_v1557 (cmpi .eq : (⟨S4194304, .i32⟩ : BufTy).Contents (Elt F) → (⟨S4194304, .i32⟩ : BufTy).Contents (Elt F) → (⟨S4194304, .i1⟩ : BufTy).Contents (Elt F)) ]
theorem main_part38_ops1_sub : (main_part38_ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call144), window 38 (statements 2281 … 2340), in order:
    main_call144_v0 … main_v1558. -/
abbrev main_part38_ops2 : List (HloOp τ sig (Elt F)) :=
  [ StableHlo.TRef.nullary (.of main_call144_v0 : StableHlo.TRef sig ⟨S4194304, .i32⟩) (iotaInDim S4194304 32 0),
    StableHlo.TRef.nullary (.of main_call144_c : StableHlo.TRef sig ⟨S_, .i1⟩) (constantI S_ 1 0#1),
    StableHlo.TRef.nullary (.of main_call144_c_0 : StableHlo.TRef sig ⟨S_, .i32⟩) (constantI S_ 32 0#32),
    StableHlo.TRef.quaternary (.of main_v1557 : StableHlo.TRef sig ⟨S4194304, .i1⟩) (.of main_call144_v0 : StableHlo.TRef sig ⟨S4194304, .i32⟩) (.of main_call144_c : StableHlo.TRef sig ⟨S_, .i1⟩) (.of main_call144_c_0 : StableHlo.TRef sig ⟨S_, .i32⟩) (.of main_call144_v1_0 : StableHlo.TRef sig ⟨S_, .i1⟩) (fun x y u v j => (Host.reduce2 reducer_argmax_i1_i32 x y u v reducesTo_S4194304_S_d0 h_S_ j).1),
    StableHlo.TRef.quaternary (.of main_v1557 : StableHlo.TRef sig ⟨S4194304, .i1⟩) (.of main_call144_v0 : StableHlo.TRef sig ⟨S4194304, .i32⟩) (.of main_call144_c : StableHlo.TRef sig ⟨S_, .i1⟩) (.of main_call144_c_0 : StableHlo.TRef sig ⟨S_, .i32⟩) (.of main_v1558 : StableHlo.TRef sig ⟨S_, .i32⟩) (fun x y u v j => (Host.reduce2 reducer_argmax_i1_i32 x y u v reducesTo_S4194304_S_d0 h_S_ j).2) ]
theorem main_part38_ops2_sub : (main_part38_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 38 (statements 2281 … 2340), in order:
    main_c_726 … main_v1560. -/
abbrev main_part38_ops3 : List (HloOp τ sig (Elt F)) :=
  [ StableHlo.nullary main_c_726 (constantI S_ 32 2#32),
    StableHlo.unary main_c_726 main_v1559 (broadcastInDim S4194304 ![] bcast_S_S4194304 : (⟨S_, .i32⟩ : BufTy).Contents (Elt F) → (⟨S4194304, .i32⟩ : BufTy).Contents (Elt F)),
    StableHlo.binary main_v1553 main_v1559 main_v1560 (cmpi .eq : (⟨S4194304, .i32⟩ : BufTy).Contents (Elt F) → (⟨S4194304, .i32⟩ : BufTy).Contents (Elt F) → (⟨S4194304, .i1⟩ : BufTy).Contents (Elt F)) ]
theorem main_part38_ops3_sub : (main_part38_ops3 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call145), window 38 (statements 2281 … 2340), in order:
    main_call145_v0 … main_v1561. -/
abbrev main_part38_ops4 : List (HloOp τ sig (Elt F)) :=
  [ StableHlo.TRef.nullary (.of main_call145_v0 : StableHlo.TRef sig ⟨S4194304, .i32⟩) (iotaInDim S4194304 32 0),
    StableHlo.TRef.nullary (.of main_call145_c : StableHlo.TRef sig ⟨S_, .i1⟩) (constantI S_ 1 0#1),
    StableHlo.TRef.nullary (.of main_call145_c_0 : StableHlo.TRef sig ⟨S_, .i32⟩) (constantI S_ 32 0#32),
    StableHlo.TRef.quaternary (.of main_v1560 : StableHlo.TRef sig ⟨S4194304, .i1⟩) (.of main_call145_v0 : StableHlo.TRef sig ⟨S4194304, .i32⟩) (.of main_call145_c : StableHlo.TRef sig ⟨S_, .i1⟩) (.of main_call145_c_0 : StableHlo.TRef sig ⟨S_, .i32⟩) (.of main_call145_v1_0 : StableHlo.TRef sig ⟨S_, .i1⟩) (fun x y u v j => (Host.reduce2 reducer_argmax_i1_i32 x y u v reducesTo_S4194304_S_d0 h_S_ j).1),
    StableHlo.TRef.quaternary (.of main_v1560 : StableHlo.TRef sig ⟨S4194304, .i1⟩) (.of main_call145_v0 : StableHlo.TRef sig ⟨S4194304, .i32⟩) (.of main_call145_c : StableHlo.TRef sig ⟨S_, .i1⟩) (.of main_call145_c_0 : StableHlo.TRef sig ⟨S_, .i32⟩) (.of main_v1561 : StableHlo.TRef sig ⟨S_, .i32⟩) (fun x y u v j => (Host.reduce2 reducer_argmax_i1_i32 x y u v reducesTo_S4194304_S_d0 h_S_ j).2) ]
theorem main_part38_ops4_sub : (main_part38_ops4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 38 (statements 2281 … 2340), in order:
    main_c_727 … main_v1563. -/
abbrev main_part38_ops5 : List (HloOp τ sig (Elt F)) :=
  [ StableHlo.nullary main_c_727 (constantI S_ 32 1#32),
    StableHlo.unary main_c_727 main_v1562 (broadcastInDim S4194304 ![] bcast_S_S4194304 : (⟨S_, .i32⟩ : BufTy).Contents (Elt F) → (⟨S4194304, .i32⟩ : BufTy).Contents (Elt F)),
    StableHlo.binary main_v1553 main_v1562 main_v1563 (cmpi .eq : (⟨S4194304, .i32⟩ : BufTy).Contents (Elt F) → (⟨S4194304, .i32⟩ : BufTy).Contents (Elt F) → (⟨S4194304, .i1⟩ : BufTy).Contents (Elt F)) ]
theorem main_part38_ops5_sub : (main_part38_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call146), window 38 (statements 2281 … 2340), in order:
    main_call146_v0 … main_v1564. -/
abbrev main_part38_ops6 : List (HloOp τ sig (Elt F)) :=
  [ StableHlo.TRef.nullary (.of main_call146_v0 : StableHlo.TRef sig ⟨S4194304, .i32⟩) (iotaInDim S4194304 32 0),
    StableHlo.TRef.nullary (.of main_call146_c : StableHlo.TRef sig ⟨S_, .i1⟩) (constantI S_ 1 0#1),
    StableHlo.TRef.nullary (.of main_call146_c_0 : StableHlo.TRef sig ⟨S_, .i32⟩) (constantI S_ 32 0#32),
    StableHlo.TRef.quaternary (.of main_v1563 : StableHlo.TRef sig ⟨S4194304, .i1⟩) (.of main_call146_v0 : StableHlo.TRef sig ⟨S4194304, .i32⟩) (.of main_call146_c : StableHlo.TRef sig ⟨S_, .i1⟩) (.of main_call146_c_0 : StableHlo.TRef sig ⟨S_, .i32⟩) (.of main_call146_v1_0 : StableHlo.TRef sig ⟨S_, .i1⟩) (fun x y u v j => (Host.reduce2 reducer_argmax_i1_i32 x y u v reducesTo_S4194304_S_d0 h_S_ j).1),
    StableHlo.TRef.quaternary (.of main_v1563 : StableHlo.TRef sig ⟨S4194304, .i1⟩) (.of main_call146_v0 : StableHlo.TRef sig ⟨S4194304, .i32⟩) (.of main_call146_c : StableHlo.TRef sig ⟨S_, .i1⟩) (.of main_call146_c_0 : StableHlo.TRef sig ⟨S_, .i32⟩) (.of main_v1564 : StableHlo.TRef sig ⟨S_, .i32⟩) (fun x y u v j => (Host.reduce2 reducer_argmax_i1_i32 x y u v reducesTo_S4194304_S_d0 h_S_ j).2) ]
theorem main_part38_ops6_sub : (main_part38_ops6 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 45 host operations of @main, window 38 (statements 2281 … 2340), in order:
    main_c_728 … main_v1588. -/
abbrev main_part38_ops7 : List (HloOp τ sig (Elt F)) :=
  ( StableHlo.nullary main_c_728 (constantI S_ 32 0#32)
  :: StableHlo.binary main_v1558 main_c_728 main_v1565 (cmpi .slt : (⟨S_, .i32⟩ : BufTy).Contents (Elt F) → (⟨S_, .i32⟩ : BufTy).Contents (Elt F) → (⟨S_, .i1⟩ : BufTy).Contents (Elt F))
  :: StableHlo.nullary main_c_729 (constantI S_ 32 4194304#32)
  :: StableHlo.binary main_v1558 main_c_729 main_v1566 (addi : (⟨S_, .i32⟩ : BufTy).Contents (Elt F) → (⟨S_, .i32⟩ : BufTy).Contents (Elt F) → (⟨S_, .i32⟩ : BufTy).Contents (Elt F))
  :: StableHlo.ternary main_v1565 main_v1566 main_v1558 main_v1567 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_730 (constantI S_ 32 0#32)
  :: StableHlo.nullary main_c_731 (constantI S_ 32 0#32)
  :: StableHlo.binary main_c_730 main_c_731 main_v1568 (cmpi .slt : (⟨S_, .i32⟩ : BufTy).Contents (Elt F) → (⟨S_, .i32⟩ : BufTy).Contents (Elt F) → (⟨S_, .i1⟩ : BufTy).Contents (Elt F))
  :: StableHlo.nullary main_c_732 (constantI S_ 32 0#32)
  :: StableHlo.nullary main_c_733 (constantI S_ 32 2#32)
  :: StableHlo.binary main_c_732 main_c_733 main_v1569 (addi : (⟨S_, .i32⟩ : BufTy).Contents (Elt F) → (⟨S_, .i32⟩ : BufTy).Contents (Elt F) → (⟨S_, .i32⟩ : BufTy).Contents (Elt F))
  :: StableHlo.nullary main_c_734 (constantI S_ 32 0#32)
  :: StableHlo.ternary main_v1568 main_v1569 main_c_734 main_v1570 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg0 ![main_v1567, main_v1570] ⟨S_, .i32⟩ main_v1571 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1571 main_v1572 rfl shapeCasts_S1x2_S2
  :: StableHlo.nullary main_c_735 (constantI S_ 32 0#32)
  :: StableHlo.binary main_v1561 main_c_735 main_v1573 (cmpi .slt : (⟨S_, .i32⟩ : BufTy).Contents (Elt F) → (⟨S_, .i32⟩ : BufTy).Contents (Elt F) → (⟨S_, .i1⟩ : BufTy).Contents (Elt F))
  :: StableHlo.nullary main_c_736 (constantI S_ 32 4194304#32)
  :: StableHlo.binary main_v1561 main_c_736 main_v1574 (addi : (⟨S_, .i32⟩ : BufTy).Contents (Elt F) → (⟨S_, .i32⟩ : BufTy).Contents (Elt F) → (⟨S_, .i32⟩ : BufTy).Contents (Elt F))
  :: StableHlo.ternary main_v1573 main_v1574 main_v1561 main_v1575 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_737 (constantI S_ 32 0#32)
  :: StableHlo.nullary main_c_738 (constantI S_ 32 0#32)
  :: StableHlo.binary main_c_737 main_c_738 main_v1576 (cmpi .slt : (⟨S_, .i32⟩ : BufTy).Contents (Elt F) → (⟨S_, .i32⟩ : BufTy).Contents (Elt F) → (⟨S_, .i1⟩ : BufTy).Contents (Elt F))
  :: StableHlo.nullary main_c_739 (constantI S_ 32 0#32)
  :: StableHlo.nullary main_c_740 (constantI S_ 32 2#32)
  :: StableHlo.binary main_c_739 main_c_740 main_v1577 (addi : (⟨S_, .i32⟩ : BufTy).Contents (Elt F) → (⟨S_, .i32⟩ : BufTy).Contents (Elt F) → (⟨S_, .i32⟩ : BufTy).Contents (Elt F))
  :: StableHlo.nullary main_c_741 (constantI S_ 32 0#32)
  :: StableHlo.ternary main_v1576 main_v1577 main_c_741 main_v1578 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1575, main_v1578] ⟨S_, .i32⟩ main_v1579 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1579 main_v1580 rfl shapeCasts_S1x2_S2
  :: StableHlo.binary main_v1572 main_v1580 main_v1581 (addf : (⟨S2, .f32⟩ : BufTy).Contents (Elt F) → (⟨S2, .f32⟩ : BufTy).Contents (Elt F) → (⟨S2, .f32⟩ : BufTy).Contents (Elt F))
  :: StableHlo.nullary main_c_742 (constantI S_ 32 0#32)
  :: StableHlo.binary main_v1564 main_c_742 main_v1582 (cmpi .slt : (⟨S_, .i32⟩ : BufTy).Contents (Elt F) → (⟨S_, .i32⟩ : BufTy).Contents (Elt F) → (⟨S_, .i1⟩ : BufTy).Contents (Elt F))
  :: StableHlo.nullary main_c_743 (constantI S_ 32 4194304#32)
  :: StableHlo.binary main_v1564 main_c_743 main_v1583 (addi : (⟨S_, .i32⟩ : BufTy).Contents (Elt F) → (⟨S_, .i32⟩ : BufTy).Contents (Elt F) → (⟨S_, .i32⟩ : BufTy).Contents (Elt F))
  :: StableHlo.ternary main_v1582 main_v1583 main_v1564 main_v1584 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_744 (constantI S_ 32 0#32)
  :: StableHlo.nullary main_c_745 (constantI S_ 32 0#32)
  :: StableHlo.binary main_c_744 main_c_745 main_v1585 (cmpi .slt : (⟨S_, .i32⟩ : BufTy).Contents (Elt F) → (⟨S_, .i32⟩ : BufTy).Contents (Elt F) → (⟨S_, .i1⟩ : BufTy).Contents (Elt F))
  :: StableHlo.nullary main_c_746 (constantI S_ 32 0#32)
  :: StableHlo.nullary main_c_747 (constantI S_ 32 2#32)
  :: StableHlo.binary main_c_746 main_c_747 main_v1586 (addi : (⟨S_, .i32⟩ : BufTy).Contents (Elt F) → (⟨S_, .i32⟩ : BufTy).Contents (Elt F) → (⟨S_, .i32⟩ : BufTy).Contents (Elt F))
  :: StableHlo.nullary main_c_748 (constantI S_ 32 0#32)
  :: StableHlo.ternary main_v1585 main_v1586 main_c_748 main_v1587 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1584, main_v1587] ⟨S_, .i32⟩ main_v1588 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: [] )
theorem main_part38_ops7_sub : (main_part38_ops7 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub ..⟩
/-- Window 38's stretches, in order. -/
abbrev part38_opss : List (List (HloOp τ sig (Elt F))) :=
  [ main_part38_ops0,
    main_part38_ops1,
    main_part38_ops2,
    main_part38_ops3,
    main_part38_ops4,
    main_part38_ops5,
    main_part38_ops6,
    main_part38_ops7 ]
theorem part38_opss_sub : (part38_opss : List (List (HloOp τ sig (Elt F)))).Forall fun l => l.Forall fun op => op.bufs ⊆ StableHlo.tcRefs τ sig :=
  ⟨main_part38_ops0_sub, main_part38_ops1_sub, main_part38_ops2_sub, main_part38_ops3_sub, main_part38_ops4_sub, main_part38_ops5_sub, main_part38_ops6_sub, main_part38_ops7_sub⟩

/-- 10 host operations of @main, window 39 (statements 2341 … 2400), in order:
    main_v1589 … main_v1597. -/
abbrev main_part39_ops0 : List (HloOp τ sig (Elt F)) :=
  [ StableHlo.reshape main_v1588 main_v1589 rfl shapeCasts_S1x2_S2,
    StableHlo.nullary main_cst_749 (constant S_ .f32 0xBF317218#32),
    StableHlo.unary main_cst_749 main_v1590 (broadcastInDim S2 ![] bcast_S_S2 : (⟨S_, .f32⟩ : BufTy).Contents (Elt F) → (⟨S2, .f32⟩ : BufTy).Contents (Elt F)),
    StableHlo.binary main_v1589 main_v1590 main_v1591 (cmpf .ogt : (⟨S2, .f32⟩ : BufTy).Contents (Elt F) → (⟨S2, .f32⟩ : BufTy).Contents (Elt F) → (⟨S2, .i1⟩ : BufTy).Contents (Elt F)),
    StableHlo.unary main_v1589 main_v1592 (Host.expm1 : (⟨S2, .f32⟩ : BufTy).Contents (Elt F) → (⟨S2, .f32⟩ : BufTy).Contents (Elt F)),
    StableHlo.unary main_v1592 main_v1593 (Host.negf : (⟨S2, .f32⟩ : BufTy).Contents (Elt F) → (⟨S2, .f32⟩ : BufTy).Contents (Elt F)),
    StableHlo.unary main_v1593 main_v1594 (Host.log : (⟨S2, .f32⟩ : BufTy).Contents (Elt F) → (⟨S2, .f32⟩ : BufTy).Contents (Elt F)),
    StableHlo.unary main_v1589 main_v1595 (Host.exp : (⟨S2, .f32⟩ : BufTy).Contents (Elt F) → (⟨S2, .f32⟩ : BufTy).Contents (Elt F)),
    StableHlo.unary main_v1595 main_v1596 (Host.negf : (⟨S2, .f32⟩ : BufTy).Contents (Elt F) → (⟨S2, .f32⟩ : BufTy).Contents (Elt F)),
    StableHlo.unary main_v1596 main_v1597 (Host.log1p : (⟨S2, .f32⟩ : BufTy).Contents (Elt F) → (⟨S2, .f32⟩ : BufTy).Contents (Elt F)) ]
theorem main_part39_ops0_sub : (main_part39_ops0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call147), window 39 (statements 2341 … 2400), in order:
    main_v1598 … main_v1598. -/
abbrev main_part39_ops1 : List (HloOp τ sig (Elt F)) :=
  [ StableHlo.TRef.ternary (.of main_v1591 : StableHlo.TRef sig ⟨S2, .i1⟩) (.of main_v1594 : StableHlo.TRef sig ⟨S2, .f32⟩) (.of main_v1597 : StableHlo.TRef sig ⟨S2, .f32⟩) (.of main_v1598 : StableHlo.TRef sig ⟨S2, .f32⟩) select ]
theorem main_part39_ops1_sub : (main_part39_ops1 : List (HloOp τ sig (Elt F))).Forall fun op => op.bufs ⊆ StableHlo.tcRefs τ sig :=
  StableHlo.ternary_bufs_sub ..
/-- 6 host operations of @main, window 39 (statements 2341 … 2400), in order:
    main_v1599 … main_cst_752. -/
abbrev main_part39_ops2 : List (HloOp τ sig (Elt F)) :=
  [ StableHlo.binary main_v1581 main_v1598 main_v1599 (subf : (⟨S2, .f32⟩ : BufTy).Contents (Elt F) → (⟨S2, .f32⟩ : BufTy).Contents (Elt F) → (⟨S2, .f32⟩ : BufTy).Contents (Elt F)),
    StableHlo.nullary main_cst_750 (constant S_ .f32 0x00000000#32),
    StableHlo.binary main_v1599 main_cst_750 main_v1600 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_751 (constantI S_ 32 0#32),
    StableHlo.binary main_v1555 main_c_751 main_v1601 (cmpi .sgt : (⟨S_, .i32⟩ : BufTy).Contents (Elt F) → (⟨S_, .i32⟩ : BufTy).Contents (Elt F) → (⟨S_, .i1⟩ : BufTy).Contents (Elt F)),
    StableHlo.nullary main_cst_752 (constant S_ .f32 0x00000000#32) ]
theorem main_part39_ops2_sub : (main_part39_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call148), window 39 (statements 2341 … 2400), in order:
    main_v1602 … main_v1602. -/
abbrev main_part39_ops3 : List (HloOp τ sig (Elt F)) :=
  [ StableHlo.TRef.ternary (.of main_v1601 : StableHlo.TRef sig ⟨S_, .i1⟩) (.of main_v1600 : StableHlo.TRef sig ⟨S_, .f32⟩) (.of main_cst_752 : StableHlo.TRef sig ⟨S_, .f32⟩) (.of main_v1602 : StableHlo.TRef sig ⟨S_, .f32⟩) select ]
theorem main_part39_ops3_sub : (main_part39_ops3 : List (HloOp τ sig (Elt F))).Forall fun op => op.bufs ⊆ StableHlo.tcRefs τ sig :=
  StableHlo.ternary_bufs_sub ..
/-- 13 host operations of @main, window 39 (statements 2341 … 2400), in order:
    main_v1603 … main_v1612. -/
abbrev main_part39_ops4 : List (HloOp τ sig (Elt F)) :=
  [ StableHlo.binary main_v1543 main_v1602 main_v1603 (subf : (⟨S_, .f32⟩ : BufTy).Contents (Elt F) → (⟨S_, .f32⟩ : BufTy).Contents (Elt F) → (⟨S_, .f32⟩ : BufTy).Contents (Elt F)),
    StableHlo.nullary main_c_753 (constantI S_ 32 7#32),
    StableHlo.unary main_c_753 main_v1604 (broadcastInDim S4194304 ![] bcast_S_S4194304 : (⟨S_, .i32⟩ : BufTy).Contents (Elt F) → (⟨S4194304, .i32⟩ : BufTy).Contents (Elt F)),
    StableHlo.binary main_v25 main_v1604 main_v1605 (cmpi .eq : (⟨S4194304, .i32⟩ : BufTy).Contents (Elt F) → (⟨S4194304, .i32⟩ : BufTy).Contents (Elt F) → (⟨S4194304, .i1⟩ : BufTy).Contents (Elt F)),
    StableHlo.nullary main_c_754 (constantI S_ 32 2#32),
    StableHlo.unary main_c_754 main_v1606 (broadcastInDim S4194304 ![] bcast_S_S4194304 : (⟨S_, .i32⟩ : BufTy).Contents (Elt F) → (⟨S4194304, .i32⟩ : BufTy).Contents (Elt F)),
    StableHlo.binary main_v51 main_v1606 main_v1607 (cmpi .eq : (⟨S4194304, .i32⟩ : BufTy).Contents (Elt F) → (⟨S4194304, .i32⟩ : BufTy).Contents (Elt F) → (⟨S4194304, .i1⟩ : BufTy).Contents (Elt F)),
    StableHlo.binary main_v1605 main_v1607 main_v1608 (andi : (⟨S4194304, .i1⟩ : BufTy).Contents (Elt F) → (⟨S4194304, .i1⟩ : BufTy).Contents (Elt F) → (⟨S4194304, .i1⟩ : BufTy).Contents (Elt F)),
    StableHlo.nullary main_c_755 (constantI S_ 32 2#32),
    StableHlo.unary main_c_755 main_v1609 (broadcastInDim S4194304 ![] bcast_S_S4194304 : (⟨S_, .i32⟩ : BufTy).Contents (Elt F) → (⟨S4194304, .i32⟩ : BufTy).Contents (Elt F)),
    StableHlo.binary main_v77 main_v1609 main_v1610 (cmpi .eq : (⟨S4194304, .i32⟩ : BufTy).Contents (Elt F) → (⟨S4194304, .i32⟩ : BufTy).Contents (Elt F) → (⟨S4194304, .i1⟩ : BufTy).Contents (Elt F)),
    StableHlo.binary main_v1608 main_v1610 main_v1611 (andi : (⟨S4194304, .i1⟩ : BufTy).Contents (Elt F) → (⟨S4194304, .i1⟩ : BufTy).Contents (Elt F) → (⟨S4194304, .i1⟩ : BufTy).Contents (Elt F)),
    StableHlo.unary main_v1611 main_v1612 ((extui 32 · natLt_1_32) : (⟨S4194304, .i1⟩ : BufTy).Contents (Elt F) → (⟨S4194304, .i32⟩ : BufTy).Contents (Elt F)) ]
theorem main_part39_ops4_sub : (main_part39_ops4 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub ..⟩
/-- 3 host operations of @cumsum (main_call149), window 39 (statements 2341 … 2400), in order:
    main_call149_call0_c … main_v1613. -/
abbrev main_part39_ops5 : List (HloOp τ sig (Elt F)) :=
  [ StableHlo.TRef.nullary (.of main_call149_call0_c : StableHlo.TRef sig ⟨S_, .i32⟩) (constantI S_ 32 0#32),
    StableHlo.TRef.unary (.of main_call149_call0_c : StableHlo.TRef sig ⟨S_, .i32⟩) (.of main_call149_call0_v0 : StableHlo.TRef sig ⟨S_, .i32⟩) (broadcastInDim S_ ![] bcast_S_S_),
    StableHlo.TRef.binary (.of main_v1612 : StableHlo.TRef sig ⟨S4194304, .i32⟩) (.of main_call149_call0_v0 : StableHlo.TRef sig ⟨S_, .i32⟩) (.of main_v1613 : StableHlo.TRef sig ⟨S4194304, .i32⟩) (fun x v => Host.reduceWindow IntOp.addi ![4194304] ![1] ![4194303] ![0] x v reduceWindows_S4194304_S4194304_w4194304s1p4194303_0 h_S_) ]
theorem main_part39_ops5_sub : (main_part39_ops5 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @main, window 39 (statements 2341 … 2400), in order:
    main_v1614 … main_v1617. -/
abbrev main_part39_ops6 : List (HloOp τ sig (Elt F)) :=
  [ StableHlo.unary main_v1613 main_v1614 ((extractStridedSlice S1 ![4194303] · slices_S4194304_S1_4194303) : (⟨S4194304, .i32⟩ : BufTy).Contents (Elt F) → (⟨S1, .i32⟩ : BufTy).Contents (Elt F)),
    StableHlo.reshape main_v1614 main_v1615 rfl shapeCasts_S1_S_,
    StableHlo.nullary main_c_756 (constantI S_ 32 2#32),
    StableHlo.unary main_c_756 main_v1616 (broadcastInDim S4194304 ![] bcast_S_S4194304 : (⟨S_, .i32⟩ : BufTy).Contents (Elt F) → (⟨S4194304, .i32⟩ : BufTy).Contents (Elt F)),
    StableHlo.binary main_v1613 main_v1616 main_v1617 (cmpi .eq : (⟨S4194304, .i32⟩ : BufTy).Contents (Elt F) → (⟨S4194304, .i32⟩ : BufTy).Contents (Elt F) → (⟨S4194304, .i1⟩ : BufTy).Contents (Elt F)) ]
theorem main_part39_ops6_sub : (main_part39_ops6 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub ..⟩
/-- 5 host operations of @argmax (main_call150), window 39 (statements 2341 … 2400), in order:
    main_call150_v0 … main_v1618. -/
abbrev main_part39_ops7 : List (HloOp τ sig (Elt F)) :=
  [ StableHlo.TRef.nullary (.of main_call150_v0 : StableHlo.TRef sig ⟨S4194304, .i32⟩) (iotaInDim S4194304 32 0),
    StableHlo.TRef.nullary (.of main_call150_c : StableHlo.TRef sig ⟨S_, .i1⟩) (constantI S_ 1 0#1),
    StableHlo.TRef.nullary (.of main_call150_c_0 : StableHlo.TRef sig ⟨S_, .i32⟩) (constantI S_ 32 0#32),
    StableHlo.TRef.quaternary (.of main_v1617 : StableHlo.TRef sig ⟨S4194304, .i1⟩) (.of main_call150_v0 : StableHlo.TRef sig ⟨S4194304, .i32⟩) (.of main_call150_c : StableHlo.TRef sig ⟨S_, .i1⟩) (.of main_call150_c_0 : StableHlo.TRef sig ⟨S_, .i32⟩) (.of main_call150_v1_0 : StableHlo.TRef sig ⟨S_, .i1⟩) (fun x y u v j => (Host.reduce2 reducer_argmax_i1_i32 x y u v reducesTo_S4194304_S_d0 h_S_ j).1),
    StableHlo.TRef.quaternary (.of main_v1617 : StableHlo.TRef sig ⟨S4194304, .i1⟩) (.of main_call150_v0 : StableHlo.TRef sig ⟨S4194304, .i32⟩) (.of main_call150_c : StableHlo.TRef sig ⟨S_, .i1⟩) (.of main_call150_c_0 : StableHlo.TRef sig ⟨S_, .i32⟩) (.of main_v1618 : StableHlo.TRef sig ⟨S_, .i32⟩) (fun x y u v j => (Host.reduce2 reducer_argmax_i1_i32 x y u v reducesTo_S4194304_S_d0 h_S_ j).2) ]
theorem main_part39_ops7_sub : (main_part39_ops7 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 39 (statements 2341 … 2400), in order:
    main_c_757 … main_v1620. -/
abbrev main_part39_ops8 : List (HloOp τ sig (Elt F)) :=
  [ StableHlo.nullary main_c_757 (constantI S_ 32 1#32),
    StableHlo.unary main_c_757 main_v1619 (broadcastInDim S4194304 ![] bcast_S_S4194304 : (⟨S_, .i32⟩ : BufTy).Contents (Elt F) → (⟨S4194304, .i32⟩ : BufTy).Contents (Elt F)),
    StableHlo.binary main_v1613 main_v1619 main_v1620 (cmpi .eq : (⟨S4194304, .i32⟩ : BufTy).Contents (Elt F) → (⟨S4194304, .i32⟩ : BufTy).Contents (Elt F) → (⟨S4194304, .i1⟩ : BufTy).Contents (Elt F)) ]
theorem main_part39_ops8_sub : (main_part39_ops8 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call151), window 39 (statements 2341 … 2400), in order:
    main_call151_v0 … main_v1621. -/
abbrev main_part39_ops9 : List (HloOp τ sig (Elt F)) :=
  [ StableHlo.TRef.nullary (.of main_call151_v0 : StableHlo.TRef sig ⟨S4194304, .i32⟩) (iotaInDim S4194304 32 0),
    StableHlo.TRef.nullary (.of main_call151_c : StableHlo.TRef sig ⟨S_, .i1⟩) (constantI S_ 1 0#1),
    StableHlo.TRef.nullary (.of main_call151_c_0 : StableHlo.TRef sig ⟨S_, .i32⟩) (constantI S_ 32 0#32),
    StableHlo.TRef.quaternary (.of main_v1620 : StableHlo.TRef sig ⟨S4194304, .i1⟩) (.of main_call151_v0 : StableHlo.TRef sig ⟨S4194304, .i32⟩) (.of main_call151_c : StableHlo.TRef sig ⟨S_, .i1⟩) (.of main_call151_c_0 : StableHlo.TRef sig ⟨S_, .i32⟩) (.of main_call151_v1_0 : StableHlo.TRef sig ⟨S_, .i1⟩) (fun x y u v j => (Host.reduce2 reducer_argmax_i1_i32 x y u v reducesTo_S4194304_S_d0 h_S_ j).1),
    StableHlo.TRef.quaternary (.of main_v1620 : StableHlo.TRef sig ⟨S4194304, .i1⟩) (.of main_call151_v0 : StableHlo.TRef sig ⟨S4194304, .i32⟩) (.of main_call151_c : StableHlo.TRef sig ⟨S_, .i1⟩) (.of main_call151_c_0 : StableHlo.TRef sig ⟨S_, .i32⟩) (.of main_v1621 : StableHlo.TRef sig ⟨S_, .i32⟩) (fun x y u v j => (Host.reduce2 reducer_argmax_i1_i32 x y u v reducesTo_S4194304_S_d0 h_S_ j).2) ]
theorem main_part39_ops9_sub : (main_part39_ops9 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @main, window 39 (statements 2341 … 2400), in order:
    main_c_758 … main_v1623. -/
abbrev main_part39_ops10 : List (HloOp τ sig (Elt F)) :=
  [ StableHlo.nullary main_c_758 (constantI S_ 32 1#32),
    StableHlo.unary main_c_758 main_v1622 (broadcastInDim S4194304 ![] bcast_S_S4194304 : (⟨S_, .i32⟩ : BufTy).Contents (Elt F) → (⟨S4194304, .i32⟩ : BufTy).Contents (Elt F)),
    StableHlo.binary main_v1613 main_v1622 main_v1623 (cmpi .eq : (⟨S4194304, .i32⟩ : BufTy).Contents (Elt F) → (⟨S4194304, .i32⟩ : BufTy).Contents (Elt F) → (⟨S4194304, .i1⟩ : BufTy).Contents (Elt F)) ]
theorem main_part39_ops10_sub : (main_part39_ops10 : List (HloOp τ sig (Elt F))).Forall fun op => op.bufs ⊆ StableHlo.tcRefs τ sig :=
  ⟨StableHlo.nullary_bufs_sub .., StableHlo.unary_bufs_sub .., StableHlo.binary_bufs_sub ..⟩
/-- 5 host operations of @argmax (main_call152), window 39 (statements 2341 … 2400), in order:
    main_call152_v0 … main_v1624. -/
abbrev main_part39_ops11 : List (HloOp τ sig (Elt F)) :=
  [ StableHlo.TRef.nullary (.of main_call152_v0 : StableHlo.TRef sig ⟨S4194304, .i32⟩) (iotaInDim S4194304 32 0),
    StableHlo.TRef.nullary (.of main_call152_c : StableHlo.TRef sig ⟨S_, .i1⟩) (constantI S_ 1 0#1),
    StableHlo.TRef.nullary (.of main_call152_c_0 : StableHlo.TRef sig ⟨S_, .i32⟩) (constantI S_ 32 0#32),
    StableHlo.TRef.quaternary (.of main_v1623 : StableHlo.TRef sig ⟨S4194304, .i1⟩) (.of main_call152_v0 : StableHlo.TRef sig ⟨S4194304, .i32⟩) (.of main_call152_c : StableHlo.TRef sig ⟨S_, .i1⟩) (.of main_call152_c_0 : StableHlo.TRef sig ⟨S_, .i32⟩) (.of main_call152_v1_0 : StableHlo.TRef sig ⟨S_, .i1⟩) (fun x y u v j => (Host.reduce2 reducer_argmax_i1_i32 x y u v reducesTo_S4194304_S_d0 h_S_ j).1),
    StableHlo.TRef.quaternary (.of main_v1623 : StableHlo.TRef sig ⟨S4194304, .i1⟩) (.of main_call152_v0 : StableHlo.TRef sig ⟨S4194304, .i32⟩) (.of main_call152_c : StableHlo.TRef sig ⟨S_, .i1⟩) (.of main_call152_c_0 : StableHlo.TRef sig ⟨S_, .i32⟩) (.of main_v1624 : StableHlo.TRef sig ⟨S_, .i32⟩) (fun x y u v j => (Host.reduce2 reducer_argmax_i1_i32 x y u v reducesTo_S4194304_S_d0 h_S_ j).2) ]
theorem main_part39_ops11_sub : (main_part39_ops11 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 14 host operations of @main, window 39 (statements 2341 … 2400), in order:
    main_c_759 … main_v1631. -/
abbrev main_part39_ops12 : List (HloOp τ sig (Elt F)) :=
  [ StableHlo.nullary main_c_759 (constantI S_ 32 0#32),
    StableHlo.binary main_v1618 main_c_759 main_v1625 (cmpi .slt : (⟨S_, .i32⟩ : BufTy).Contents (Elt F) → (⟨S_, .i32⟩ : BufTy).Contents (Elt F) → (⟨S_, .i1⟩ : BufTy).Contents (Elt F)),
    StableHlo.nullary main_c_760 (constantI S_ 32 4194304#32),
    StableHlo.binary main_v1618 main_c_760 main_v1626 (addi : (⟨S_, .i32⟩ : BufTy).Contents (Elt F) → (⟨S_, .i32⟩ : BufTy).Contents (Elt F) → (⟨S_, .i32⟩ : BufTy).Contents (Elt F)),
    StableHlo.ternary main_v1625 main_v1626 main_v1618 main_v1627 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_761 (constantI S_ 32 0#32),
    StableHlo.nullary main_c_762 (constantI S_ 32 0#32),
    StableHlo.binary main_c_761 main_c_762 main_v1628 (cmpi .slt : (⟨S_, .i32⟩ : BufTy).Contents (Elt F) → (⟨S_, .i32⟩ : BufTy).Contents (Elt F) → (⟨S_, .i1⟩ : BufTy).Contents (Elt F)),
    StableHlo.nullary main_c_763 (constantI S_ 32 0#32),
    StableHlo.nullary main_c_764 (constantI S_ 32 2#32),
    StableHlo.binary main_c_763 main_c_764 main_v1629 (addi : (⟨S_, .i32⟩ : BufTy).Contents (Elt F) → (⟨S_, .i32⟩ : BufTy).Contents (Elt F) → (⟨S_, .i32⟩ : BufTy).Contents (Elt F)),
    StableHlo.nullary main_c_765 (constantI S_ 32 0#32),
    StableHlo.ternary main_v1628 main_v1629 main_c_765 main_v1630 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_arg0 ![main_v1627, main_v1630] ⟨S_, .i32⟩ main_v1631 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F)) ]
theorem main_part39_ops12_sub : (main_part39_ops12 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub ..⟩
/-- Window 39's stretches, in order. -/
abbrev part39_opss : List (List (HloOp τ sig (Elt F))) :=
  [ main_part39_ops0,
    main_part39_ops1,
    main_part39_ops2,
    main_part39_ops3,
    main_part39_ops4,
    main_part39_ops5,
    main_part39_ops6,
    main_part39_ops7,
    main_part39_ops8,
    main_part39_ops9,
    main_part39_ops10,
    main_part39_ops11,
    main_part39_ops12 ]
theorem part39_opss_sub : (part39_opss : List (List (HloOp τ sig (Elt F)))).Forall fun l => l.Forall fun op => op.bufs ⊆ StableHlo.tcRefs τ sig :=
  ⟨main_part39_ops0_sub, main_part39_ops1_sub, main_part39_ops2_sub, main_part39_ops3_sub, main_part39_ops4_sub, main_part39_ops5_sub, main_part39_ops6_sub, main_part39_ops7_sub, main_part39_ops8_sub, main_part39_ops9_sub, main_part39_ops10_sub, main_part39_ops11_sub, main_part39_ops12_sub⟩

end Cert.ReferenceIdeal.Rn

end
-- ==== Proof.Rf.Ops10.lean ====
/- The reference's @main as operation lists: windows 40 … 40 of its 41, each window's statements as its STRETCHES in
   order (a run of plain operations, or one module-local function's body over that call's buffer record), each
   operation touching TensorCore references only.  A table transcribed from the printed program. -/
import proofs.«404644_j25400436588780_1_alg».proof.Proof.Gen.ReferenceIdeal
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]
/-- 41 host operations of @main, window 40 (statements 2401 … 2451), in order:
    main_v1632 … main_v1657. -/
abbrev main_part40_ops0 : List (HloOp τ sig (Elt F)) :=
  ( StableHlo.reshape main_v1631 main_v1632 rfl shapeCasts_S1x2_S2
  :: StableHlo.nullary main_c_766 (constantI S_ 32 0#32)
  :: StableHlo.binary main_v1621 main_c_766 main_v1633 (cmpi .slt : (⟨S_, .i32⟩ : BufTy).Contents (Elt F) → (⟨S_, .i32⟩ : BufTy).Contents (Elt F) → (⟨S_, .i1⟩ : BufTy).Contents (Elt F))
  :: StableHlo.nullary main_c_767 (constantI S_ 32 4194304#32)
  :: StableHlo.binary main_v1621 main_c_767 main_v1634 (addi : (⟨S_, .i32⟩ : BufTy).Contents (Elt F) → (⟨S_, .i32⟩ : BufTy).Contents (Elt F) → (⟨S_, .i32⟩ : BufTy).Contents (Elt F))
  :: StableHlo.ternary main_v1633 main_v1634 main_v1621 main_v1635 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_768 (constantI S_ 32 0#32)
  :: StableHlo.nullary main_c_769 (constantI S_ 32 0#32)
  :: StableHlo.binary main_c_768 main_c_769 main_v1636 (cmpi .slt : (⟨S_, .i32⟩ : BufTy).Contents (Elt F) → (⟨S_, .i32⟩ : BufTy).Contents (Elt F) → (⟨S_, .i1⟩ : BufTy).Contents (Elt F))
  :: StableHlo.nullary main_c_770 (constantI S_ 32 0#32)
  :: StableHlo.nullary main_c_771 (constantI S_ 32 2#32)
  :: StableHlo.binary main_c_770 main_c_771 main_v1637 (addi : (⟨S_, .i32⟩ : BufTy).Contents (Elt F) → (⟨S_, .i32⟩ : BufTy).Contents (Elt F) → (⟨S_, .i32⟩ : BufTy).Contents (Elt F))
  :: StableHlo.nullary main_c_772 (constantI S_ 32 0#32)
  :: StableHlo.ternary main_v1636 main_v1637 main_c_772 main_v1638 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v1635, main_v1638] ⟨S_, .i32⟩ main_v1639 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1639 main_v1640 rfl shapeCasts_S1x2_S2
  :: StableHlo.binary main_v1632 main_v1640 main_v1641 (addf : (⟨S2, .f32⟩ : BufTy).Contents (Elt F) → (⟨S2, .f32⟩ : BufTy).Contents (Elt F) → (⟨S2, .f32⟩ : BufTy).Contents (Elt F))
  :: StableHlo.nullary main_c_773 (constantI S_ 32 0#32)
  :: StableHlo.binary main_v1624 main_c_773 main_v1642 (cmpi .slt : (⟨S_, .i32⟩ : BufTy).Contents (Elt F) → (⟨S_, .i32⟩ : BufTy).Contents (Elt F) → (⟨S_, .i1⟩ : BufTy).Contents (Elt F))
  :: StableHlo.nullary main_c_774 (constantI S_ 32 4194304#32)
  :: StableHlo.binary main_v1624 main_c_774 main_v1643 (addi : (⟨S_, .i32⟩ : BufTy).Contents (Elt F) → (⟨S_, .i32⟩ : BufTy).Contents (Elt F) → (⟨S_, .i32⟩ : BufTy).Contents (Elt F))
  :: StableHlo.ternary main_v1642 main_v1643 main_v1624 main_v1644 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_775 (constantI S_ 32 0#32)
  :: StableHlo.nullary main_c_776 (constantI S_ 32 0#32)
  :: StableHlo.binary main_c_775 main_c_776 main_v1645 (cmpi .slt : (⟨S_, .i32⟩ : BufTy).Contents (Elt F) → (⟨S_, .i32⟩ : BufTy).Contents (Elt F) → (⟨S_, .i1⟩ : BufTy).Contents (Elt F))
  :: StableHlo.nullary main_c_777 (constantI S_ 32 0#32)
  :: StableHlo.nullary main_c_778 (constantI S_ 32 2#32)
  :: StableHlo.binary main_c_777 main_c_778 main_v1646 (addi : (⟨S_, .i32⟩ : BufTy).Contents (Elt F) → (⟨S_, .i32⟩ : BufTy).Contents (Elt F) → (⟨S_, .i32⟩ : BufTy).Contents (Elt F))
  :: StableHlo.nullary main_c_779 (constantI S_ 32 0#32)
  :: StableHlo.ternary main_v1645 main_v1646 main_c_779 main_v1647 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg2 ![main_v1644, main_v1647] ⟨S_, .i32⟩ main_v1648 ((fun x i => Host.dynamicSlice S1x2 x (fun k => (i k (Shape.Idx.first h_S_)).toInt) sliceFits_S4194304x2_S1x2) : (⟨S4194304x2, .f32⟩ : BufTy).Contents (Elt F) → (Fin 2 → (⟨S_, .i32⟩ : BufTy).Contents (Elt F)) → (⟨S1x2, .f32⟩ : BufTy).Contents (Elt F))
  :: StableHlo.reshape main_v1648 main_v1649 rfl shapeCasts_S1x2_S2
  :: StableHlo.nullary main_cst_780 (constant S_ .f32 0xBF317218#32)
  :: StableHlo.unary main_cst_780 main_v1650 (broadcastInDim S2 ![] bcast_S_S2 : (⟨S_, .f32⟩ : BufTy).Contents (Elt F) → (⟨S2, .f32⟩ : BufTy).Contents (Elt F))
  :: StableHlo.binary main_v1649 main_v1650 main_v1651 (cmpf .ogt : (⟨S2, .f32⟩ : BufTy).Contents (Elt F) → (⟨S2, .f32⟩ : BufTy).Contents (Elt F) → (⟨S2, .i1⟩ : BufTy).Contents (Elt F))
  :: StableHlo.unary main_v1649 main_v1652 (Host.expm1 : (⟨S2, .f32⟩ : BufTy).Contents (Elt F) → (⟨S2, .f32⟩ : BufTy).Contents (Elt F))
  :: StableHlo.unary main_v1652 main_v1653 (Host.negf : (⟨S2, .f32⟩ : BufTy).Contents (Elt F) → (⟨S2, .f32⟩ : BufTy).Contents (Elt F))
  :: StableHlo.unary main_v1653 main_v1654 (Host.log : (⟨S2, .f32⟩ : BufTy).Contents (Elt F) → (⟨S2, .f32⟩ : BufTy).Contents (Elt F))
  :: StableHlo.unary main_v1649 main_v1655 (Host.exp : (⟨S2, .f32⟩ : BufTy).Contents (Elt F) → (⟨S2, .f32⟩ : BufTy).Contents (Elt F))
  :: StableHlo.unary main_v1655 main_v1656 (Host.negf : (⟨S2, .f32⟩ : BufTy).Contents (Elt F) → (⟨S2, .f32⟩ : BufTy).Contents (Elt F))
  :: StableHlo.unary main_v1656 main_v1657 (Host.log1p : (⟨S2, .f32⟩ : BufTy).Contents (Elt F) → (⟨S2, .f32⟩ : BufTy).Contents (Elt F))
  :: [] )
theorem main_part40_ops0_sub : (main_part40_ops0 : List (HloOp τ sig (Elt F))).Forall fun op => op.bufs ⊆ StableHlo.tcRefs τ sig :=
  ⟨StableHlo.reshape_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @_where_3 (main_call153), window 40 (statements 2401 … 2451), in order:
    main_v1658 … main_v1658. -/
abbrev main_part40_ops1 : List (HloOp τ sig (Elt F)) :=
  [ StableHlo.TRef.ternary (.of main_v1651 : StableHlo.TRef sig ⟨S2, .i1⟩) (.of main_v1654 : StableHlo.TRef sig ⟨S2, .f32⟩) (.of main_v1657 : StableHlo.TRef sig ⟨S2, .f32⟩) (.of main_v1658 : StableHlo.TRef sig ⟨S2, .f32⟩) select ]
theorem main_part40_ops1_sub : (main_part40_ops1 : List (HloOp τ sig (Elt F))).Forall fun op => op.bufs ⊆ StableHlo.tcRefs τ sig :=
  StableHlo.ternary_bufs_sub ..
/-- 6 host operations of @main, window 40 (statements 2401 … 2451), in order:
    main_v1659 … main_cst_783. -/
abbrev main_part40_ops2 : List (HloOp τ sig (Elt F)) :=
  [ StableHlo.binary main_v1641 main_v1658 main_v1659 (subf : (⟨S2, .f32⟩ : BufTy).Contents (Elt F) → (⟨S2, .f32⟩ : BufTy).Contents (Elt F) → (⟨S2, .f32⟩ : BufTy).Contents (Elt F)),
    StableHlo.nullary main_cst_781 (constant S_ .f32 0x00000000#32),
    StableHlo.binary main_v1659 main_cst_781 main_v1660 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_c_782 (constantI S_ 32 0#32),
    StableHlo.binary main_v1615 main_c_782 main_v1661 (cmpi .sgt : (⟨S_, .i32⟩ : BufTy).Contents (Elt F) → (⟨S_, .i32⟩ : BufTy).Contents (Elt F) → (⟨S_, .i1⟩ : BufTy).Contents (Elt F)),
    StableHlo.nullary main_cst_783 (constant S_ .f32 0x00000000#32) ]
theorem main_part40_ops2_sub : (main_part40_ops2 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub .., StableHlo.nullary_bufs_sub ..⟩
/-- 1 host operation of @_where_4 (main_call154), window 40 (statements 2401 … 2451), in order:
    main_v1662 … main_v1662. -/
abbrev main_part40_ops3 : List (HloOp τ sig (Elt F)) :=
  [ StableHlo.TRef.ternary (.of main_v1661 : StableHlo.TRef sig ⟨S_, .i1⟩) (.of main_v1660 : StableHlo.TRef sig ⟨S_, .f32⟩) (.of main_cst_783 : StableHlo.TRef sig ⟨S_, .f32⟩) (.of main_v1662 : StableHlo.TRef sig ⟨S_, .f32⟩) select ]
theorem main_part40_ops3_sub : (main_part40_ops3 : List (HloOp τ sig (Elt F))).Forall fun op => op.bufs ⊆ StableHlo.tcRefs τ sig :=
  StableHlo.ternary_bufs_sub ..
/-- 1 host operation of @main, window 40 (statements 2401 … 2451), in order:
    main_v1663 … main_v1663. -/
abbrev main_part40_ops4 : List (HloOp τ sig (Elt F)) :=
  [ StableHlo.binary main_v1603 main_v1662 main_v1663 (subf : (⟨S_, .f32⟩ : BufTy).Contents (Elt F) → (⟨S_, .f32⟩ : BufTy).Contents (Elt F) → (⟨S_, .f32⟩ : BufTy).Contents (Elt F)) ]
theorem main_part40_ops4_sub : (main_part40_ops4 : List (HloOp τ sig (Elt F))).Forall fun op => op.bufs ⊆ StableHlo.tcRefs τ sig :=
  StableHlo.binary_bufs_sub ..
/-- Window 40's stretches, in order. -/
abbrev part40_opss : List (List (HloOp τ sig (Elt F))) :=
  [ main_part40_ops0,
    main_part40_ops1,
    main_part40_ops2,
    main_part40_ops3,
    main_part40_ops4 ]
theorem part40_opss_sub : (part40_opss : List (List (HloOp τ sig (Elt F)))).Forall fun l => l.Forall fun op => op.bufs ⊆ StableHlo.tcRefs τ sig :=
  ⟨main_part40_ops0_sub, main_part40_ops1_sub, main_part40_ops2_sub, main_part40_ops3_sub, main_part40_ops4_sub⟩

end Cert.ReferenceIdeal.Rn

end
-- ==== Proof.Rf.Opss.lean ====
/- The reference's @main as the list of its stretches, in order (each a named list of operations of the window
   modules), and the same grouped by window.  A table transcribed from the printed program. -/
import proofs.«404644_j25400436588780_1_alg».proof.Proof.Rf.Ops0
import proofs.«404644_j25400436588780_1_alg».proof.Proof.Rf.Ops1
import proofs.«404644_j25400436588780_1_alg».proof.Proof.Rf.Ops2
import proofs.«404644_j25400436588780_1_alg».proof.Proof.Rf.Ops3
import proofs.«404644_j25400436588780_1_alg».proof.Proof.Rf.Ops4
import proofs.«404644_j25400436588780_1_alg».proof.Proof.Rf.Ops5
import proofs.«404644_j25400436588780_1_alg».proof.Proof.Rf.Ops6
import proofs.«404644_j25400436588780_1_alg».proof.Proof.Rf.Ops7
import proofs.«404644_j25400436588780_1_alg».proof.Proof.Rf.Ops8
import proofs.«404644_j25400436588780_1_alg».proof.Proof.Rf.Ops9
import proofs.«404644_j25400436588780_1_alg».proof.Proof.Rf.Ops10

noncomputable section

namespace Cert.ReferenceIdeal.Rn

open Cert.ReferenceIdeal Cert.ReferenceIdeal.Gen Idealize.ShloMosaic Idealize.ShloMosaic.TcCoe Idealize.SL.Sem

variable {F : FTy → Type} [FloatOps F]

/-- @main's 342 stretches (2784 host operations), in order. -/
abbrev opss : List (List (HloOp τ sig (Elt F))) :=
  ( main_part0_ops0
  :: main_part0_ops1
  :: main_part0_ops2
  :: main_part0_ops3
  :: main_part0_ops4
  :: main_part0_ops5
  :: main_part0_ops6
  :: main_part1_ops0
  :: main_part1_ops1
  :: main_part1_ops2
  :: main_part1_ops3
  :: main_part1_ops4
  :: main_part1_ops5
  :: main_part1_ops6
  :: main_part1_ops7
  :: main_part1_ops8
  :: main_part1_ops9
  :: main_part1_ops10
  :: main_part1_ops11
  :: main_part1_ops12
  :: main_part2_ops0
  :: main_part2_ops1
  :: main_part2_ops2
  :: main_part2_ops3
  :: main_part2_ops4
  :: main_part3_ops0
  :: main_part3_ops1
  :: main_part3_ops2
  :: main_part3_ops3
  :: main_part3_ops4
  :: main_part3_ops5
  :: main_part4_ops0
  :: main_part4_ops1
  :: main_part4_ops2
  :: main_part4_ops3
  :: main_part4_ops4
  :: main_part5_ops0
  :: main_part5_ops1
  :: main_part5_ops2
  :: main_part5_ops3
  :: main_part5_ops4
  :: main_part5_ops5
  :: main_part6_ops0
  :: main_part6_ops1
  :: main_part6_ops2
  :: main_part6_ops3
  :: main_part6_ops4
  :: main_part7_ops0
  :: main_part7_ops1
  :: main_part7_ops2
  :: main_part7_ops3
  :: main_part7_ops4
  :: main_part7_ops5
  :: main_part7_ops6
  :: main_part7_ops7
  :: main_part7_ops8
  :: main_part7_ops9
  :: main_part7_ops10
  :: main_part7_ops11
  :: main_part8_ops0
  :: main_part8_ops1
  :: main_part8_ops2
  :: main_part8_ops3
  :: main_part8_ops4
  :: main_part9_ops0
  :: main_part9_ops1
  :: main_part9_ops2
  :: main_part9_ops3
  :: main_part9_ops4
  :: main_part9_ops5
  :: main_part9_ops6
  :: main_part9_ops7
  :: main_part9_ops8
  :: main_part10_ops0
  :: main_part10_ops1
  :: main_part10_ops2
  :: main_part10_ops3
  :: main_part10_ops4
  :: main_part10_ops5
  :: main_part10_ops6
  :: main_part10_ops7
  :: main_part10_ops8
  :: main_part10_ops9
  :: main_part10_ops10
  :: main_part10_ops11
  :: main_part10_ops12
  :: main_part11_ops0
  :: main_part11_ops1
  :: main_part11_ops2
  :: main_part11_ops3
  :: main_part12_ops0
  :: main_part12_ops1
  :: main_part12_ops2
  :: main_part12_ops3
  :: main_part12_ops4
  :: main_part12_ops5
  :: main_part12_ops6
  :: main_part12_ops7
  :: main_part12_ops8
  :: main_part13_ops0
  :: main_part13_ops1
  :: main_part13_ops2
  :: main_part13_ops3
  :: main_part13_ops4
  :: main_part13_ops5
  :: main_part13_ops6
  :: main_part13_ops7
  :: main_part13_ops8
  :: main_part13_ops9
  :: main_part13_ops10
  :: main_part13_ops11
  :: main_part13_ops12
  :: main_part14_ops0
  :: main_part14_ops1
  :: main_part14_ops2
  :: main_part15_ops0
  :: main_part15_ops1
  :: main_part15_ops2
  :: main_part15_ops3
  :: main_part15_ops4
  :: main_part15_ops5
  :: main_part15_ops6
  :: main_part15_ops7
  :: main_part15_ops8
  :: main_part15_ops9
  :: main_part15_ops10
  :: main_part16_ops0
  :: main_part16_ops1
  :: main_part16_ops2
  :: main_part16_ops3
  :: main_part16_ops4
  :: main_part16_ops5
  :: main_part16_ops6
  :: main_part16_ops7
  :: main_part16_ops8
  :: main_part16_ops9
  :: main_part16_ops10
  :: main_part17_ops0
  :: main_part17_ops1
  :: main_part17_ops2
  :: main_part17_ops3
  :: main_part18_ops0
  :: main_part18_ops1
  :: main_part18_ops2
  :: main_part18_ops3
  :: main_part18_ops4
  :: main_part18_ops5
  :: main_part18_ops6
  :: main_part18_ops7
  :: main_part18_ops8
  :: main_part18_ops9
  :: main_part18_ops10
  :: main_part19_ops0
  :: main_part19_ops1
  :: main_part19_ops2
  :: main_part19_ops3
  :: main_part19_ops4
  :: main_part19_ops5
  :: main_part19_ops6
  :: main_part19_ops7
  :: main_part19_ops8
  :: main_part19_ops9
  :: main_part19_ops10
  :: main_part20_ops0
  :: main_part20_ops1
  :: main_part20_ops2
  :: main_part20_ops3
  :: main_part20_ops4
  :: main_part21_ops0
  :: main_part21_ops1
  :: main_part21_ops2
  :: main_part21_ops3
  :: main_part21_ops4
  :: main_part21_ops5
  :: main_part21_ops6
  :: main_part21_ops7
  :: main_part21_ops8
  :: main_part21_ops9
  :: main_part21_ops10
  :: main_part22_ops0
  :: main_part22_ops1
  :: main_part22_ops2
  :: main_part22_ops3
  :: main_part22_ops4
  :: main_part22_ops5
  :: main_part22_ops6
  :: main_part22_ops7
  :: main_part22_ops8
  :: main_part23_ops0
  :: main_part23_ops1
  :: main_part23_ops2
  :: main_part23_ops3
  :: main_part24_ops0
  :: main_part24_ops1
  :: main_part24_ops2
  :: main_part24_ops3
  :: main_part24_ops4
  :: main_part24_ops5
  :: main_part24_ops6
  :: main_part24_ops7
  :: main_part24_ops8
  :: main_part24_ops9
  :: main_part24_ops10
  :: main_part24_ops11
  :: main_part25_ops0
  :: main_part25_ops1
  :: main_part25_ops2
  :: main_part25_ops3
  :: main_part25_ops4
  :: main_part25_ops5
  :: main_part25_ops6
  :: main_part25_ops7
  :: main_part25_ops8
  :: main_part26_ops0
  :: main_part26_ops1
  :: main_part26_ops2
  :: main_part26_ops3
  :: main_part26_ops4
  :: main_part27_ops0
  :: main_part27_ops1
  :: main_part27_ops2
  :: main_part27_ops3
  :: main_part27_ops4
  :: main_part27_ops5
  :: main_part27_ops6
  :: main_part27_ops7
  :: main_part27_ops8
  :: main_part27_ops9
  :: main_part27_ops10
  :: main_part27_ops11
  :: main_part27_ops12
  :: main_part28_ops0
  :: main_part28_ops1
  :: main_part28_ops2
  :: main_part28_ops3
  :: main_part28_ops4
  :: main_part28_ops5
  :: main_part28_ops6
  :: main_part29_ops0
  :: main_part29_ops1
  :: main_part29_ops2
  :: main_part29_ops3
  :: main_part29_ops4
  :: main_part29_ops5
  :: main_part30_ops0
  :: main_part30_ops1
  :: main_part30_ops2
  :: main_part30_ops3
  :: main_part30_ops4
  :: main_part30_ops5
  :: main_part30_ops6
  :: main_part30_ops7
  :: main_part30_ops8
  :: main_part30_ops9
  :: main_part30_ops10
  :: main_part30_ops11
  :: main_part30_ops12
  :: main_part31_ops0
  :: main_part31_ops1
  :: main_part31_ops2
  :: main_part31_ops3
  :: main_part31_ops4
  :: main_part31_ops5
  :: main_part31_ops6
  :: main_part32_ops0
  :: main_part32_ops1
  :: main_part32_ops2
  :: main_part32_ops3
  :: main_part32_ops4
  :: main_part32_ops5
  :: main_part32_ops6
  :: main_part33_ops0
  :: main_part33_ops1
  :: main_part33_ops2
  :: main_part33_ops3
  :: main_part33_ops4
  :: main_part33_ops5
  :: main_part33_ops6
  :: main_part33_ops7
  :: main_part33_ops8
  :: main_part33_ops9
  :: main_part33_ops10
  :: main_part33_ops11
  :: main_part33_ops12
  :: main_part34_ops0
  :: main_part34_ops1
  :: main_part34_ops2
  :: main_part34_ops3
  :: main_part34_ops4
  :: main_part34_ops5
  :: main_part34_ops6
  :: main_part35_ops0
  :: main_part35_ops1
  :: main_part35_ops2
  :: main_part35_ops3
  :: main_part35_ops4
  :: main_part35_ops5
  :: main_part35_ops6
  :: main_part36_ops0
  :: main_part36_ops1
  :: main_part36_ops2
  :: main_part36_ops3
  :: main_part36_ops4
  :: main_part36_ops5
  :: main_part36_ops6
  :: main_part36_ops7
  :: main_part36_ops8
  :: main_part36_ops9
  :: main_part36_ops10
  :: main_part36_ops11
  :: main_part36_ops12
  :: main_part37_ops0
  :: main_part37_ops1
  :: main_part37_ops2
  :: main_part37_ops3
  :: main_part37_ops4
  :: main_part38_ops0
  :: main_part38_ops1
  :: main_part38_ops2
  :: main_part38_ops3
  :: main_part38_ops4
  :: main_part38_ops5
  :: main_part38_ops6
  :: main_part38_ops7
  :: main_part39_ops0
  :: main_part39_ops1
  :: main_part39_ops2
  :: main_part39_ops3
  :: main_part39_ops4
  :: main_part39_ops5
  :: main_part39_ops6
  :: main_part39_ops7
  :: main_part39_ops8
  :: main_part39_ops9
  :: main_part39_ops10
  :: main_part39_ops11
  :: main_part39_ops12
  :: main_part40_ops0
  :: main_part40_ops1
  :: main_part40_ops2
  :: main_part40_ops3
  :: main_part40_ops4
  :: [] )

/-- The same stretches window by window (41 windows). -/
abbrev wins : List (List (List (HloOp τ sig (Elt F)))) :=
  ( part0_opss
  :: part1_opss
  :: part2_opss
  :: part3_opss
  :: part4_opss
  :: part5_opss
  :: part6_opss
  :: part7_opss
  :: part8_opss
  :: part9_opss
  :: part10_opss
  :: part11_opss
  :: part12_opss
  :: part13_opss
  :: part14_opss
  :: part15_opss
  :: part16_opss
  :: part17_opss
  :: part18_opss
  :: part19_opss
  :: part20_opss
  :: part21_opss
  :: part22_opss
  :: part23_opss
  :: part24_opss
  :: part25_opss
  :: part26_opss
  :: part27_opss
  :: part28_opss
  :: part29_opss
  :: part30_opss
  :: part31_opss
  :: part32_opss
  :: part33_opss
  :: part34_opss
  :: part35_opss
  :: part36_opss
  :: part37_opss
  :: part38_opss
  :: part39_opss
  :: part40_opss
  :: [] )

theorem wins_sub : (wins : List (List (List (HloOp τ sig (Elt F))))).Forall fun w => w.Forall fun l => l.Forall fun op => op.bufs ⊆ StableHlo.tcRefs τ sig :=
  ⟨part0_opss_sub, part1_opss_sub, part2_opss_sub, part3_opss_sub, part4_opss_sub, part5_opss_sub, part6_opss_sub, part7_opss_sub, part8_opss_sub, part9_opss_sub, part10_opss_sub, part11_opss_sub, part12_opss_sub, part13_opss_sub, part14_opss_sub, part15_opss_sub, part16_opss_sub, part17_opss_sub, part18_opss_sub, part19_opss_sub, part20_opss_sub, part21_opss_sub, part22_opss_sub, part23_opss_sub, part24_opss_sub, part25_opss_sub, part26_opss_sub, part27_opss_sub, part28_opss_sub, part29_opss_sub, part30_opss_sub, part31_opss_sub, part32_opss_sub, part33_opss_sub, part34_opss_sub, part35_opss_sub, part36_opss_sub, part37_opss_sub, part38_opss_sub, part39_opss_sub, part40_opss_sub⟩

end Cert.ReferenceIdeal.Rn

end
-- ==== Proof.Rf.Chain.lean ====
/- The reference's @main is the chain of its stretches.  Each window of @main (a 'do' block of sixty statements, its
   last one in tail position) is, by unfolding alone, its stretches run in order; a window followed by the chain of
   the later windows' stretches is the chain of all of them; so @main, which runs its windows in order, is the chain
   of the whole list. -/
import proofs.«404644_j25400436588780_1_alg».proof.Proof.Rf.Opss
import Idealize.ShloMosaic.Lib.Pipeline.Regions

-- a window's unfolding nests once per operation of its longest stretch
set_option maxRecDepth 20000

noncomputable section

namespace Cert.ReferenceIdeal.Rn

open Cert.ReferenceIdeal Cert.ReferenceIdeal.Gen Idealize.ShloMosaic Idealize.ShloMosaic.TcCoe Idealize.SL.Sem

variable {F : FTy → Type} [FloatOps F]

/-- The programs of @main's thread: TensorCore effects over the (empty) table of kernel regions. -/
abbrev HostProg (F : FTy → Type) [FloatOps F] : Type 1 :=
  Prog (TpuEff nD τ sig (Elt F) (Pipeline.Sig Λ₀ (Fin 0) fun p => (pcfgs (F := F) p).Adm) .tc) PUnit

/-- Stretches run in order, the first given apart: the last one is in tail position (no closing return). -/
def runTail (l : List (HloOp τ sig (Elt F))) : List (List (HloOp τ sig (Elt F))) → HostProg F
  | [] => StableHlo.seq l
  | l' :: ls => StableHlo.seq l >>= fun _ => runTail l' ls

/-- A window's run: its stretches in order, the last in tail position. -/
def winK : List (List (HloOp τ sig (Elt F))) → HostProg F
  | [] => pure ⟨⟩
  | l :: ls => runTail l ls

theorem runTail_bind_chain (l : List (HloOp τ sig (Elt F))) (ls : List (List (HloOp τ sig (Elt F))))
    (qs : List (HostProg F)) :
    (runTail l ls >>= fun _ => Pipeline.chain qs) = Pipeline.chain ((l :: ls).map StableHlo.seq ++ qs) := by
  induction ls generalizing l with
  | nil => rfl
  | cons l' ls ih =>
    simp only [runTail, bind_assoc, ih, List.map_cons, List.cons_append, Pipeline.chain_cons]

/-- A window, then the chain of what follows it: the chain of the window's stretches and what follows. -/
theorem winK_bind_chain (ls : List (List (HloOp τ sig (Elt F)))) (qs : List (HostProg F)) :
    (winK ls >>= fun _ => Pipeline.chain qs) = Pipeline.chain (ls.map StableHlo.seq ++ qs) := by
  cases ls with
  | nil => simp only [winK, pure_bind, List.map_nil, List.nil_append]
  | cons l ls => exact runTail_bind_chain l ls qs

/-! ## The windows, each by unfolding -/

theorem main_part0_chain (c : Dev nD) : main_part0 (F := F) c = winK part0_opss := by chain_rfl
theorem main_part1_chain (c : Dev nD) : main_part1 (F := F) c = winK part1_opss := by chain_rfl
theorem main_part2_chain (c : Dev nD) : main_part2 (F := F) c = winK part2_opss := by chain_rfl
theorem main_part3_chain (c : Dev nD) : main_part3 (F := F) c = winK part3_opss := by chain_rfl
theorem main_part4_chain (c : Dev nD) : main_part4 (F := F) c = winK part4_opss := by chain_rfl
theorem main_part5_chain (c : Dev nD) : main_part5 (F := F) c = winK part5_opss := by chain_rfl
theorem main_part6_chain (c : Dev nD) : main_part6 (F := F) c = winK part6_opss := by chain_rfl
theorem main_part7_chain (c : Dev nD) : main_part7 (F := F) c = winK part7_opss := by chain_rfl
theorem main_part8_chain (c : Dev nD) : main_part8 (F := F) c = winK part8_opss := by chain_rfl
theorem main_part9_chain (c : Dev nD) : main_part9 (F := F) c = winK part9_opss := by chain_rfl
theorem main_part10_chain (c : Dev nD) : main_part10 (F := F) c = winK part10_opss := by chain_rfl
theorem main_part11_chain (c : Dev nD) : main_part11 (F := F) c = winK part11_opss := by chain_rfl
theorem main_part12_chain (c : Dev nD) : main_part12 (F := F) c = winK part12_opss := by chain_rfl
theorem main_part13_chain (c : Dev nD) : main_part13 (F := F) c = winK part13_opss := by chain_rfl
/-- Window 14, by rewriting: both sides re-associated to one right-nested sequence of the same operations. -/
theorem main_part14_chain (c : Dev nD) : main_part14 (F := F) c = winK part14_opss := by
  unfold main_part14
  simp only [winK, runTail, StableHlo.seq, bind_assoc, pure_bind, part14_opss, main_part14_ops0, main_part14_ops1,
    main_part14_ops2, fn_where_3.body]
  rfl
theorem main_part15_chain (c : Dev nD) : main_part15 (F := F) c = winK part15_opss := by chain_rfl
theorem main_part16_chain (c : Dev nD) : main_part16 (F := F) c = winK part16_opss := by chain_rfl
theorem main_part17_chain (c : Dev nD) : main_part17 (F := F) c = winK part17_opss := by chain_rfl
theorem main_part18_chain (c : Dev nD) : main_part18 (F := F) c = winK part18_opss := by chain_rfl
theorem main_part19_chain (c : Dev nD) : main_part19 (F := F) c = winK part19_opss := by chain_rfl
theorem main_part20_chain (c : Dev nD) : main_part20 (F := F) c = winK part20_opss := by chain_rfl
theorem main_part21_chain (c : Dev nD) : main_part21 (F := F) c = winK part21_opss := by chain_rfl
theorem main_part22_chain (c : Dev nD) : main_part22 (F := F) c = winK part22_opss := by chain_rfl
theorem main_part23_chain (c : Dev nD) : main_part23 (F := F) c = winK part23_opss := by chain_rfl
theorem main_part24_chain (c : Dev nD) : main_part24 (F := F) c = winK part24_opss := by chain_rfl
theorem main_part25_chain (c : Dev nD) : main_part25 (F := F) c = winK part25_opss := by chain_rfl
theorem main_part26_chain (c : Dev nD) : main_part26 (F := F) c = winK part26_opss := by chain_rfl
theorem main_part27_chain (c : Dev nD) : main_part27 (F := F) c = winK part27_opss := by chain_rfl
theorem main_part28_chain (c : Dev nD) : main_part28 (F := F) c = winK part28_opss := by chain_rfl
theorem main_part29_chain (c : Dev nD) : main_part29 (F := F) c = winK part29_opss := by chain_rfl
theorem main_part30_chain (c : Dev nD) : main_part30 (F := F) c = winK part30_opss := by chain_rfl
theorem main_part31_chain (c : Dev nD) : main_part31 (F := F) c = winK part31_opss := by chain_rfl
theorem main_part32_chain (c : Dev nD) : main_part32 (F := F) c = winK part32_opss := by chain_rfl
theorem main_part33_chain (c : Dev nD) : main_part33 (F := F) c = winK part33_opss := by chain_rfl
theorem main_part34_chain (c : Dev nD) : main_part34 (F := F) c = winK part34_opss := by chain_rfl
theorem main_part35_chain (c : Dev nD) : main_part35 (F := F) c = winK part35_opss := by chain_rfl
/-- Window 36, by rewriting as window 14. -/
theorem main_part36_chain (c : Dev nD) : main_part36 (F := F) c = winK part36_opss := by
  unfold main_part36
  simp only [winK, runTail, StableHlo.seq, bind_assoc, pure_bind, part36_opss, main_part36_ops0, main_part36_ops1,
    main_part36_ops2, main_part36_ops3, main_part36_ops4, main_part36_ops5, main_part36_ops6, main_part36_ops7,
    main_part36_ops8, main_part36_ops9, main_part36_ops10, main_part36_ops11, main_part36_ops12,
    fn_where_3.body, fn_where_4.body, fn_cumsum.body, fn_cumsum_2.body, fn_argmax.body]
  rfl
theorem main_part37_chain (c : Dev nD) : main_part37 (F := F) c = winK part37_opss := by chain_rfl
theorem main_part38_chain (c : Dev nD) : main_part38 (F := F) c = winK part38_opss := by chain_rfl
theorem main_part39_chain (c : Dev nD) : main_part39 (F := F) c = winK part39_opss := by chain_rfl
/-- The last window ends in @main's return: the chain of its stretches, closed. -/
theorem main_part40_chain (c : Dev nD) :
    main_part40 (F := F) c = Pipeline.chain (part40_opss.map StableHlo.seq) := by chain_rfl

/-! ## @main -/

/-- @main is the chain of its stretches: its windows in order, each rewritten to its own stretches from the last
    window backwards, a window absorbed into the chain of what follows it. -/
theorem main_chain (c : Dev nD) : main (F := F) c = Pipeline.chain (opss.map StableHlo.seq) := by
  delta main
  beta_reduce
  rewrite [main_part40_chain,
    main_part39_chain, winK_bind_chain, main_part38_chain, winK_bind_chain, main_part37_chain, winK_bind_chain,
    main_part36_chain, winK_bind_chain, main_part35_chain, winK_bind_chain, main_part34_chain, winK_bind_chain,
    main_part33_chain, winK_bind_chain, main_part32_chain, winK_bind_chain, main_part31_chain, winK_bind_chain,
    main_part30_chain, winK_bind_chain, main_part29_chain, winK_bind_chain, main_part28_chain, winK_bind_chain,
    main_part27_chain, winK_bind_chain, main_part26_chain, winK_bind_chain, main_part25_chain, winK_bind_chain,
    main_part24_chain, winK_bind_chain, main_part23_chain, winK_bind_chain, main_part22_chain, winK_bind_chain,
    main_part21_chain, winK_bind_chain, main_part20_chain, winK_bind_chain, main_part19_chain, winK_bind_chain,
    main_part18_chain, winK_bind_chain, main_part17_chain, winK_bind_chain, main_part16_chain, winK_bind_chain,
    main_part15_chain, winK_bind_chain, main_part14_chain, winK_bind_chain, main_part13_chain, winK_bind_chain,
    main_part12_chain, winK_bind_chain, main_part11_chain, winK_bind_chain, main_part10_chain, winK_bind_chain,
    main_part9_chain, winK_bind_chain, main_part8_chain, winK_bind_chain, main_part7_chain, winK_bind_chain,
    main_part6_chain, winK_bind_chain, main_part5_chain, winK_bind_chain, main_part4_chain, winK_bind_chain,
    main_part3_chain, winK_bind_chain, main_part2_chain, winK_bind_chain, main_part1_chain, winK_bind_chain,
    main_part0_chain, winK_bind_chain]
  chain_rfl

end Cert.ReferenceIdeal.Rn

end
-- ==== Proof.Rf.Fresh.lean ====
/- No operation of the reference's @main leaves a result undetermined: each is a StableHLO operation built by the
   library's builders, whose set of undetermined results is empty by definition.  Read off the lists, window by window. -/
import proofs.«404644_j25400436588780_1_alg».proof.Proof.Rf.Opss

noncomputable section

namespace Cert.ReferenceIdeal.Rn

open Cert.ReferenceIdeal Cert.ReferenceIdeal.Gen Idealize.ShloMosaic Idealize.ShloMosaic.TcCoe Idealize.SL.Sem

variable {F : FTy → Type} [FloatOps F]

/-- A conjunction over literal lists, each leaf an equation that holds by unfolding: split and close. -/
macro "fresh_all" : tactic => `(tactic| repeat' (first | exact rfl | refine ⟨?_, ?_⟩))

/-- Every operation of every stretch determines its results. -/
abbrev Determined (w : List (List (HloOp τ sig (Elt F)))) : Prop :=
  w.Forall fun l => l.Forall fun op => op.fresh = ∅

theorem part0_fresh : Determined (F := F) part0_opss := by fresh_all
theorem part1_fresh : Determined (F := F) part1_opss := by fresh_all
theorem part2_fresh : Determined (F := F) part2_opss := by fresh_all
theorem part3_fresh : Determined (F := F) part3_opss := by fresh_all
theorem part4_fresh : Determined (F := F) part4_opss := by fresh_all
theorem part5_fresh : Determined (F := F) part5_opss := by fresh_all
theorem part6_fresh : Determined (F := F) part6_opss := by fresh_all
theorem part7_fresh : Determined (F := F) part7_opss := by fresh_all
theorem part8_fresh : Determined (F := F) part8_opss := by fresh_all
theorem part9_fresh : Determined (F := F) part9_opss := by fresh_all
theorem part10_fresh : Determined (F := F) part10_opss := by fresh_all
theorem part11_fresh : Determined (F := F) part11_opss := by fresh_all
theorem part12_fresh : Determined (F := F) part12_opss := by fresh_all
theorem part13_fresh : Determined (F := F) part13_opss := by fresh_all
theorem part14_fresh : Determined (F := F) part14_opss := by fresh_all
theorem part15_fresh : Determined (F := F) part15_opss := by fresh_all
theorem part16_fresh : Determined (F := F) part16_opss := by fresh_all
theorem part17_fresh : Determined (F := F) part17_opss := by fresh_all
theorem part18_fresh : Determined (F := F) part18_opss := by fresh_all
theorem part19_fresh : Determined (F := F) part19_opss := by fresh_all
theorem part20_fresh : Determined (F := F) part20_opss := by fresh_all
theorem part21_fresh : Determined (F := F) part21_opss := by fresh_all
theorem part22_fresh : Determined (F := F) part22_opss := by fresh_all
theorem part23_fresh : Determined (F := F) part23_opss := by fresh_all
theorem part24_fresh : Determined (F := F) part24_opss := by fresh_all
theorem part25_fresh : Determined (F := F) part25_opss := by fresh_all
theorem part26_fresh : Determined (F := F) part26_opss := by fresh_all
theorem part27_fresh : Determined (F := F) part27_opss := by fresh_all
theorem part28_fresh : Determined (F := F) part28_opss := by fresh_all
theorem part29_fresh : Determined (F := F) part29_opss := by fresh_all
theorem part30_fresh : Determined (F := F) part30_opss := by fresh_all
theorem part31_fresh : Determined (F := F) part31_opss := by fresh_all
theorem part32_fresh : Determined (F := F) part32_opss := by fresh_all
theorem part33_fresh : Determined (F := F) part33_opss := by fresh_all
theorem part34_fresh : Determined (F := F) part34_opss := by fresh_all
theorem part35_fresh : Determined (F := F) part35_opss := by fresh_all
theorem part36_fresh : Determined (F := F) part36_opss := by fresh_all
theorem part37_fresh : Determined (F := F) part37_opss := by fresh_all
theorem part38_fresh : Determined (F := F) part38_opss := by fresh_all
theorem part39_fresh : Determined (F := F) part39_opss := by fresh_all
theorem part40_fresh : Determined (F := F) part40_opss := by fresh_all

/-- The same of every window. -/
theorem wins_fresh : (wins : List (List (List (HloOp τ sig (Elt F))))).Forall fun w => Determined w :=
  ⟨part0_fresh, part1_fresh, part2_fresh, part3_fresh, part4_fresh, part5_fresh, part6_fresh, part7_fresh,
   part8_fresh, part9_fresh, part10_fresh, part11_fresh, part12_fresh, part13_fresh, part14_fresh, part15_fresh,
   part16_fresh, part17_fresh, part18_fresh, part19_fresh, part20_fresh, part21_fresh, part22_fresh, part23_fresh,
   part24_fresh, part25_fresh, part26_fresh, part27_fresh, part28_fresh, part29_fresh, part30_fresh, part31_fresh,
   part32_fresh, part33_fresh, part34_fresh, part35_fresh, part36_fresh, part37_fresh, part38_fresh, part39_fresh,
   part40_fresh⟩

end Cert.ReferenceIdeal.Rn

end
-- ==== Proof.Rf.Run.lean ====
/- The run of the reference.  @main is the chain of its stretches (Chain.lean); a chain of straight lines is the
   straight line of their concatenation; every operation of it touches TensorCore references only and determines its
   results; the signature scopes nothing.  So the library's run of a straight line applies: every weakly fair
   execution terminates, each TensorCore buffer at the fold of the operations' results over the launch contents. -/
import proofs.«404644_j25400436588780_1_alg».proof.Proof.Rf.Chain
import proofs.«404644_j25400436588780_1_alg».proof.Proof.Rf.Fresh
import Idealize.ShloMosaic.Lib.StableHlo.Run

noncomputable section

namespace Cert.ReferenceIdeal.Rn

open Cert.ReferenceIdeal Cert.ReferenceIdeal.Gen Idealize.ShloMosaic Idealize.ShloMosaic.TcCoe Idealize.SL.Sem

variable {F : FTy → Type} [FloatOps F]

universe u

/-! ## Lists of lists -/

/-- A property of every element of every list is a property of every element of their concatenation. -/
theorem forall_flatten {α : Type u} {P : α → Prop} (ls : List (List α)) (h : ls.Forall fun l => l.Forall P) :
    ls.flatten.Forall P := by
  rw [List.forall_iff_forall_mem] at h ⊢
  intro x hx
  obtain ⟨l, hl, hxl⟩ := List.mem_flatten.1 hx
  exact List.forall_iff_forall_mem.1 (h l hl) x hxl

/-- The chain of straight lines is the straight line of their concatenation. -/
theorem chain_map_seq (ls : List (List (HloOp τ sig (Elt F)))) :
    (Pipeline.chain (ls.map StableHlo.seq) : HostProg F) = StableHlo.seq ls.flatten := by
  induction ls with
  | nil => rfl
  | cons l ls ih => rw [List.map_cons, Pipeline.chain_cons, ih, List.flatten_cons, StableHlo.seq_append]

/-- The contents after the stretches in order: after the first, then after the rest. -/
theorem after_flatten_cons (l : List (HloOp τ sig (Elt F))) (ls : List (List (HloOp τ sig (Elt F))))
    (V : Valuation τ sig (Elt F)) :
    StableHlo.after (l :: ls).flatten V = StableHlo.after ls.flatten (StableHlo.after l V) := by
  rw [List.flatten_cons]
  induction l generalizing V with
  | nil => rfl
  | cons op l ih => exact ih (op.result V)

/-- The contents after two lines run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-! ## @main as one straight line -/

/-- The stretches in order are the windows' stretches, window after window. -/
theorem opss_eq : (opss : List (List (HloOp τ sig (Elt F)))) = wins.flatten := rfl

/-- @main is the straight line of all its operations. -/
theorem main_eq (c : Dev nD) : main (F := F) c = StableHlo.seq opss.flatten :=
  (main_chain c).trans (chain_map_seq opss)

/-- Every operation touches TensorCore references only. -/
theorem opss_flatten_sub :
    (opss.flatten : List (HloOp τ sig (Elt F))).Forall fun op => op.bufs ⊆ StableHlo.tcRefs τ sig := by
  rw [opss_eq]
  exact forall_flatten _ (forall_flatten _ wins_sub)

/-- Every operation determines its results. -/
theorem opss_flatten_fresh : ∀ op ∈ (opss.flatten : List (HloOp τ sig (Elt F))), op.fresh = ∅ := by
  rw [opss_eq]
  exact List.forall_iff_forall_mem.1 (forall_flatten _ (forall_flatten _ wins_fresh))

/-! ## The signature scopes nothing -/

set_option maxRecDepth 20000 in
theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of @main
    terminates, each TensorCore buffer at the fold of the operations' results, stretch after stretch, over the
    launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after opss.flatten (fun b => m (d, b)) (Proc.devRef .tc b) :=
  StableHlo.run_seq scopedRefs_eq scopedSems_eq defs main (fun _ => opss.flatten) main_eq (fun _ => opss_flatten_sub) m ρ
    (fun _ => opss_flatten_fresh)

end Cert.ReferenceIdeal.Rn

end
-- ==== Proof.Rf.NoArg.lean ====
/- No operation of the reference's @main writes an argument: each operation writes one buffer, the buffer of the value
   it defines, and none of those is an argument's.  Read off the lists, stretch by stretch. -/
import proofs.«404644_j25400436588780_1_alg».proof.Proof.Rf.Opss
import Idealize.ShloMosaic.Lib.StableHlo.Run

noncomputable section

namespace Cert.ReferenceIdeal.As

open Cert.ReferenceIdeal Cert.ReferenceIdeal.Gen Cert.ReferenceIdeal.Rn Idealize.ShloMosaic Idealize.ShloMosaic.TcCoe
  Idealize.SL.Sem

variable {F : FTy → Type} [FloatOps F]

/-- The seven argument references. -/
abbrev argRefs : List (Ref sig .tc) := [main_arg0, main_arg1, main_arg2, main_arg3, main_arg4, main_arg5, main_arg6]

/-- The operation writes no argument. -/
def NoArg (op : HloOp τ sig (Elt F)) : Prop := ∀ r ∈ argRefs, (Proc.devRef .tc r : DevRef τ sig) ∉ op.writes

/-- An operation whose one written buffer is not an argument's writes no argument. -/
theorem noArg_of {op : HloOp τ sig (Elt F)} (y : Ref sig .tc) (hw : op.writes = {Proc.devRef .tc y}) (hy : y ∉ argRefs) :
    NoArg op := fun r hr h => hy (by
  rw [hw, Finset.mem_singleton] at h
  exact Proc.devRef_injective _ h ▸ hr)

theorem main_part0_ops0_noarg : (main_part0_ops0 : List (HloOp τ sig (Elt F))).Forall NoArg :=
  ⟨noArg_of main_v0 rfl (by decide),
   noArg_of main_v1 rfl (by decide),
   noArg_of main_v2 rfl (by decide),
   noArg_of main_v3 rfl (by decide),
   noArg_of main_c rfl (by decide),
   noArg_of main_v4 rfl (by decide),
   noArg_of main_v5 rfl (by decide),
   noArg_of main_c_0 rfl (by decide),
   noArg_of main_v6 rfl (by decide),
   noArg_of main_v7 rfl (by decide),
   noArg_of main_v8 rfl (by decide),
   noArg_of main_c_1 rfl (by decide),
   noArg_of main_v9 rfl (by decide),
   noArg_of main_v10 rfl (by decide),
   noArg_of main_c_2 rfl (by decide),
   noArg_of main_v11 rfl (by decide),
   noArg_of main_v12 rfl (by decide),
   noArg_of main_v13 rfl (by decide),
   noArg_of main_c_3 rfl (by decide),
   noArg_of main_v14 rfl (by decide),
   noArg_of main_v15 rfl (by decide),
   noArg_of main_c_4 rfl (by decide),
   noArg_of main_v16 rfl (by decide),
   noArg_of main_v17 rfl (by decide),
   noArg_of main_v18 rfl (by decide),
   noArg_of main_c_5 rfl (by decide),
   noArg_of main_c_6 rfl (by decide)⟩

theorem main_part0_ops1_noarg : (main_part0_ops1 : List (HloOp τ sig (Elt F))).Forall NoArg :=
  ⟨noArg_of main_call0_v0 rfl (by decide),
   noArg_of main_call0_v1 rfl (by decide),
   noArg_of main_v19 rfl (by decide)⟩

theorem main_part0_ops2_noarg : (main_part0_ops2 : List (HloOp τ sig (Elt F))).Forall NoArg :=
  noArg_of main_c_7 rfl (by decide)

theorem main_part0_ops3_noarg : (main_part0_ops3 : List (HloOp τ sig (Elt F))).Forall NoArg :=
  ⟨noArg_of main_call1_v0 rfl (by decide),
   noArg_of main_v20 rfl (by decide)⟩

theorem main_part0_ops4_noarg : (main_part0_ops4 : List (HloOp τ sig (Elt F))).Forall NoArg :=
  noArg_of main_c_8 rfl (by decide)

theorem main_part0_ops5_noarg : (main_part0_ops5 : List (HloOp τ sig (Elt F))).Forall NoArg :=
  ⟨noArg_of main_call2_v0 rfl (by decide),
   noArg_of main_v21 rfl (by decide)⟩

theorem main_part0_ops6_noarg : (main_part0_ops6 : List (HloOp τ sig (Elt F))).Forall NoArg :=
  ⟨noArg_of main_c_9 rfl (by decide),
   noArg_of main_v22 rfl (by decide),
   noArg_of main_v23 rfl (by decide),
   noArg_of main_v24 rfl (by decide),
   noArg_of main_v25 rfl (by decide),
   noArg_of main_v26 rfl (by decide),
   noArg_of main_v27 rfl (by decide),
   noArg_of main_v28 rfl (by decide),
   noArg_of main_v29 rfl (by decide),
   noArg_of main_c_10 rfl (by decide),
   noArg_of main_v30 rfl (by decide),
   noArg_of main_v31 rfl (by decide),
   noArg_of main_c_11 rfl (by decide),
   noArg_of main_v32 rfl (by decide),
   noArg_of main_v33 rfl (by decide),
   noArg_of main_v34 rfl (by decide),
   noArg_of main_c_12 rfl (by decide),
   noArg_of main_v35 rfl (by decide),
   noArg_of main_v36 rfl (by decide),
   noArg_of main_c_13 rfl (by decide),
   noArg_of main_v37 rfl (by decide),
   noArg_of main_v38 rfl (by decide),
   noArg_of main_v39 rfl (by decide),
   noArg_of main_c_14 rfl (by decide),
   noArg_of main_v40 rfl (by decide),
   noArg_of main_v41 rfl (by decide),
   noArg_of main_c_15 rfl (by decide),
   noArg_of main_v42 rfl (by decide)⟩

theorem main_part1_ops0_noarg : (main_part1_ops0 : List (HloOp τ sig (Elt F))).Forall NoArg :=
  ⟨noArg_of main_v43 rfl (by decide),
   noArg_of main_v44 rfl (by decide),
   noArg_of main_c_16 rfl (by decide),
   noArg_of main_c_17 rfl (by decide)⟩

theorem main_part1_ops1_noarg : (main_part1_ops1 : List (HloOp τ sig (Elt F))).Forall NoArg :=
  ⟨noArg_of main_call3_v0 rfl (by decide),
   noArg_of main_call3_v1 rfl (by decide),
   noArg_of main_v45 rfl (by decide)⟩

theorem main_part1_ops2_noarg : (main_part1_ops2 : List (HloOp τ sig (Elt F))).Forall NoArg :=
  noArg_of main_c_18 rfl (by decide)

theorem main_part1_ops3_noarg : (main_part1_ops3 : List (HloOp τ sig (Elt F))).Forall NoArg :=
  ⟨noArg_of main_call4_v0 rfl (by decide),
   noArg_of main_v46 rfl (by decide)⟩

theorem main_part1_ops4_noarg : (main_part1_ops4 : List (HloOp τ sig (Elt F))).Forall NoArg :=
  noArg_of main_c_19 rfl (by decide)

theorem main_part1_ops5_noarg : (main_part1_ops5 : List (HloOp τ sig (Elt F))).Forall NoArg :=
  ⟨noArg_of main_call5_v0 rfl (by decide),
   noArg_of main_v47 rfl (by decide)⟩

theorem main_part1_ops6_noarg : (main_part1_ops6 : List (HloOp τ sig (Elt F))).Forall NoArg :=
  ⟨noArg_of main_c_20 rfl (by decide),
   noArg_of main_v48 rfl (by decide),
   noArg_of main_v49 rfl (by decide),
   noArg_of main_v50 rfl (by decide),
   noArg_of main_v51 rfl (by decide),
   noArg_of main_v52 rfl (by decide),
   noArg_of main_v53 rfl (by decide),
   noArg_of main_v54 rfl (by decide),
   noArg_of main_v55 rfl (by decide),
   noArg_of main_c_21 rfl (by decide),
   noArg_of main_v56 rfl (by decide),
   noArg_of main_v57 rfl (by decide),
   noArg_of main_c_22 rfl (by decide),
   noArg_of main_v58 rfl (by decide),
   noArg_of main_v59 rfl (by decide),
   noArg_of main_v60 rfl (by decide),
   noArg_of main_c_23 rfl (by decide),
   noArg_of main_v61 rfl (by decide),
   noArg_of main_v62 rfl (by decide),
   noArg_of main_c_24 rfl (by decide),
   noArg_of main_v63 rfl (by decide),
   noArg_of main_v64 rfl (by decide),
   noArg_of main_v65 rfl (by decide),
   noArg_of main_c_25 rfl (by decide),
   noArg_of main_v66 rfl (by decide),
   noArg_of main_v67 rfl (by decide),
   noArg_of main_c_26 rfl (by decide),
   noArg_of main_v68 rfl (by decide),
   noArg_of main_v69 rfl (by decide),
   noArg_of main_v70 rfl (by decide),
   noArg_of main_c_27 rfl (by decide),
   noArg_of main_c_28 rfl (by decide)⟩

theorem main_part1_ops7_noarg : (main_part1_ops7 : List (HloOp τ sig (Elt F))).Forall NoArg :=
  ⟨noArg_of main_call6_v0 rfl (by decide),
   noArg_of main_call6_v1 rfl (by decide),
   noArg_of main_v71 rfl (by decide)⟩

theorem main_part1_ops8_noarg : (main_part1_ops8 : List (HloOp τ sig (Elt F))).Forall NoArg :=
  noArg_of main_c_29 rfl (by decide)

theorem main_part1_ops9_noarg : (main_part1_ops9 : List (HloOp τ sig (Elt F))).Forall NoArg :=
  ⟨noArg_of main_call7_v0 rfl (by decide),
   noArg_of main_v72 rfl (by decide)⟩

theorem main_part1_ops10_noarg : (main_part1_ops10 : List (HloOp τ sig (Elt F))).Forall NoArg :=
  noArg_of main_c_30 rfl (by decide)

theorem main_part1_ops11_noarg : (main_part1_ops11 : List (HloOp τ sig (Elt F))).Forall NoArg :=
  ⟨noArg_of main_call8_v0 rfl (by decide),
   noArg_of main_v73 rfl (by decide)⟩

theorem main_part1_ops12_noarg : (main_part1_ops12 : List (HloOp τ sig (Elt F))).Forall NoArg :=
  ⟨noArg_of main_c_31 rfl (by decide),
   noArg_of main_v74 rfl (by decide),
   noArg_of main_v75 rfl (by decide),
   noArg_of main_v76 rfl (by decide),
   noArg_of main_v77 rfl (by decide),
   noArg_of main_c_32 rfl (by decide),
   noArg_of main_v78 rfl (by decide),
   noArg_of main_v79 rfl (by decide),
   noArg_of main_c_33 rfl (by decide),
   noArg_of main_v80 rfl (by decide),
   noArg_of main_v81 rfl (by decide),
   noArg_of main_v82 rfl (by decide),
   noArg_of main_c_34 rfl (by decide),
   noArg_of main_v83 rfl (by decide)⟩

theorem main_part2_ops0_noarg : (main_part2_ops0 : List (HloOp τ sig (Elt F))).Forall NoArg :=
  ⟨noArg_of main_v84 rfl (by decide),
   noArg_of main_v85 rfl (by decide),
   noArg_of main_v86 rfl (by decide),
   noArg_of main_v87 rfl (by decide),
   noArg_of main_v88 rfl (by decide),
   noArg_of main_v89 rfl (by decide),
   noArg_of main_v90 rfl (by decide),
   noArg_of main_v91 rfl (by decide),
   noArg_of main_v92 rfl (by decide),
   noArg_of main_v93 rfl (by decide),
   noArg_of main_cst rfl (by decide)⟩

theorem main_part2_ops1_noarg : (main_part2_ops1 : List (HloOp τ sig (Elt F))).Forall NoArg :=
  ⟨noArg_of main_call9_v0 rfl (by decide),
   noArg_of main_v94 rfl (by decide)⟩

theorem main_part2_ops2_noarg : (main_part2_ops2 : List (HloOp τ sig (Elt F))).Forall NoArg :=
  ⟨noArg_of main_cst_35 rfl (by decide),
   noArg_of main_v95 rfl (by decide),
   noArg_of main_cst_36 rfl (by decide),
   noArg_of main_v96 rfl (by decide),
   noArg_of main_c_37 rfl (by decide),
   noArg_of main_v97 rfl (by decide),
   noArg_of main_v98 rfl (by decide),
   noArg_of main_c_38 rfl (by decide),
   noArg_of main_v99 rfl (by decide),
   noArg_of main_v100 rfl (by decide),
   noArg_of main_v101 rfl (by decide),
   noArg_of main_c_39 rfl (by decide),
   noArg_of main_v102 rfl (by decide),
   noArg_of main_v103 rfl (by decide),
   noArg_of main_v104 rfl (by decide),
   noArg_of main_v105 rfl (by decide),
   noArg_of main_v106 rfl (by decide),
   noArg_of main_v107 rfl (by decide),
   noArg_of main_v108 rfl (by decide),
   noArg_of main_v109 rfl (by decide),
   noArg_of main_v110 rfl (by decide),
   noArg_of main_v111 rfl (by decide),
   noArg_of main_v112 rfl (by decide),
   noArg_of main_cst_40 rfl (by decide)⟩

theorem main_part2_ops3_noarg : (main_part2_ops3 : List (HloOp τ sig (Elt F))).Forall NoArg :=
  ⟨noArg_of main_call10_v0 rfl (by decide),
   noArg_of main_v113 rfl (by decide)⟩

theorem main_part2_ops4_noarg : (main_part2_ops4 : List (HloOp τ sig (Elt F))).Forall NoArg :=
  ⟨noArg_of main_cst_41 rfl (by decide),
   noArg_of main_v114 rfl (by decide),
   noArg_of main_v115 rfl (by decide),
   noArg_of main_c_42 rfl (by decide),
   noArg_of main_v116 rfl (by decide),
   noArg_of main_v117 rfl (by decide),
   noArg_of main_c_43 rfl (by decide),
   noArg_of main_v118 rfl (by decide),
   noArg_of main_v119 rfl (by decide),
   noArg_of main_v120 rfl (by decide),
   noArg_of main_c_44 rfl (by decide),
   noArg_of main_v121 rfl (by decide),
   noArg_of main_v122 rfl (by decide),
   noArg_of main_v123 rfl (by decide),
   noArg_of main_v124 rfl (by decide),
   noArg_of main_v125 rfl (by decide),
   noArg_of main_v126 rfl (by decide),
   noArg_of main_v127 rfl (by decide),
   noArg_of main_v128 rfl (by decide),
   noArg_of main_v129 rfl (by decide),
   noArg_of main_v130 rfl (by decide),
   noArg_of main_v131 rfl (by decide),
   noArg_of main_cst_45 rfl (by decide)⟩

theorem main_part3_ops0_noarg : (main_part3_ops0 : List (HloOp τ sig (Elt F))).Forall NoArg :=
  ⟨noArg_of main_call11_v0 rfl (by decide),
   noArg_of main_v132 rfl (by decide)⟩

theorem main_part3_ops1_noarg : (main_part3_ops1 : List (HloOp τ sig (Elt F))).Forall NoArg :=
  ⟨noArg_of main_cst_46 rfl (by decide),
   noArg_of main_v133 rfl (by decide),
   noArg_of main_v134 rfl (by decide),
   noArg_of main_c_47 rfl (by decide),
   noArg_of main_v135 rfl (by decide),
   noArg_of main_v136 rfl (by decide),
   noArg_of main_c_48 rfl (by decide),
   noArg_of main_v137 rfl (by decide),
   noArg_of main_v138 rfl (by decide),
   noArg_of main_v139 rfl (by decide),
   noArg_of main_c_49 rfl (by decide),
   noArg_of main_v140 rfl (by decide),
   noArg_of main_v141 rfl (by decide),
   noArg_of main_v142 rfl (by decide),
   noArg_of main_v143 rfl (by decide),
   noArg_of main_v144 rfl (by decide),
   noArg_of main_v145 rfl (by decide),
   noArg_of main_v146 rfl (by decide),
   noArg_of main_v147 rfl (by decide),
   noArg_of main_v148 rfl (by decide),
   noArg_of main_v149 rfl (by decide),
   noArg_of main_v150 rfl (by decide),
   noArg_of main_cst_50 rfl (by decide)⟩

theorem main_part3_ops2_noarg : (main_part3_ops2 : List (HloOp τ sig (Elt F))).Forall NoArg :=
  ⟨noArg_of main_call12_v0 rfl (by decide),
   noArg_of main_v151 rfl (by decide)⟩

theorem main_part3_ops3_noarg : (main_part3_ops3 : List (HloOp τ sig (Elt F))).Forall NoArg :=
  ⟨noArg_of main_cst_51 rfl (by decide),
   noArg_of main_v152 rfl (by decide),
   noArg_of main_v153 rfl (by decide),
   noArg_of main_c_52 rfl (by decide),
   noArg_of main_v154 rfl (by decide),
   noArg_of main_v155 rfl (by decide),
   noArg_of main_c_53 rfl (by decide),
   noArg_of main_v156 rfl (by decide),
   noArg_of main_v157 rfl (by decide),
   noArg_of main_v158 rfl (by decide),
   noArg_of main_c_54 rfl (by decide),
   noArg_of main_v159 rfl (by decide),
   noArg_of main_v160 rfl (by decide),
   noArg_of main_v161 rfl (by decide),
   noArg_of main_v162 rfl (by decide),
   noArg_of main_v163 rfl (by decide),
   noArg_of main_v164 rfl (by decide),
   noArg_of main_v165 rfl (by decide),
   noArg_of main_v166 rfl (by decide),
   noArg_of main_v167 rfl (by decide),
   noArg_of main_v168 rfl (by decide),
   noArg_of main_v169 rfl (by decide),
   noArg_of main_cst_55 rfl (by decide)⟩

theorem main_part3_ops4_noarg : (main_part3_ops4 : List (HloOp τ sig (Elt F))).Forall NoArg :=
  ⟨noArg_of main_call13_v0 rfl (by decide),
   noArg_of main_v170 rfl (by decide)⟩

theorem main_part3_ops5_noarg : (main_part3_ops5 : List (HloOp τ sig (Elt F))).Forall NoArg :=
  ⟨noArg_of main_cst_56 rfl (by decide),
   noArg_of main_v171 rfl (by decide),
   noArg_of main_v172 rfl (by decide),
   noArg_of main_c_57 rfl (by decide),
   noArg_of main_v173 rfl (by decide),
   noArg_of main_v174 rfl (by decide),
   noArg_of main_c_58 rfl (by decide),
   noArg_of main_v175 rfl (by decide),
   noArg_of main_v176 rfl (by decide),
   noArg_of main_v177 rfl (by decide),
   noArg_of main_c_59 rfl (by decide)⟩

theorem main_part4_ops0_noarg : (main_part4_ops0 : List (HloOp τ sig (Elt F))).Forall NoArg :=
  ⟨noArg_of main_v178 rfl (by decide),
   noArg_of main_v179 rfl (by decide),
   noArg_of main_v180 rfl (by decide),
   noArg_of main_v181 rfl (by decide),
   noArg_of main_v182 rfl (by decide),
   noArg_of main_v183 rfl (by decide),
   noArg_of main_v184 rfl (by decide),
   noArg_of main_v185 rfl (by decide),
   noArg_of main_v186 rfl (by decide),
   noArg_of main_v187 rfl (by decide),
   noArg_of main_v188 rfl (by decide),
   noArg_of main_cst_60 rfl (by decide)⟩

theorem main_part4_ops1_noarg : (main_part4_ops1 : List (HloOp τ sig (Elt F))).Forall NoArg :=
  ⟨noArg_of main_call14_v0 rfl (by decide),
   noArg_of main_v189 rfl (by decide)⟩

theorem main_part4_ops2_noarg : (main_part4_ops2 : List (HloOp τ sig (Elt F))).Forall NoArg :=
  ⟨noArg_of main_cst_61 rfl (by decide),
   noArg_of main_v190 rfl (by decide),
   noArg_of main_v191 rfl (by decide),
   noArg_of main_c_62 rfl (by decide),
   noArg_of main_v192 rfl (by decide),
   noArg_of main_v193 rfl (by decide),
   noArg_of main_c_63 rfl (by decide),
   noArg_of main_v194 rfl (by decide),
   noArg_of main_v195 rfl (by decide),
   noArg_of main_v196 rfl (by decide),
   noArg_of main_c_64 rfl (by decide),
   noArg_of main_v197 rfl (by decide),
   noArg_of main_v198 rfl (by decide),
   noArg_of main_v199 rfl (by decide),
   noArg_of main_v200 rfl (by decide),
   noArg_of main_v201 rfl (by decide),
   noArg_of main_v202 rfl (by decide),
   noArg_of main_v203 rfl (by decide),
   noArg_of main_v204 rfl (by decide),
   noArg_of main_v205 rfl (by decide),
   noArg_of main_v206 rfl (by decide),
   noArg_of main_v207 rfl (by decide),
   noArg_of main_cst_65 rfl (by decide)⟩

theorem main_part4_ops3_noarg : (main_part4_ops3 : List (HloOp τ sig (Elt F))).Forall NoArg :=
  ⟨noArg_of main_call15_v0 rfl (by decide),
   noArg_of main_v208 rfl (by decide)⟩

theorem main_part4_ops4_noarg : (main_part4_ops4 : List (HloOp τ sig (Elt F))).Forall NoArg :=
  ⟨noArg_of main_cst_66 rfl (by decide),
   noArg_of main_v209 rfl (by decide),
   noArg_of main_v210 rfl (by decide),
   noArg_of main_c_67 rfl (by decide),
   noArg_of main_v211 rfl (by decide),
   noArg_of main_v212 rfl (by decide),
   noArg_of main_c_68 rfl (by decide),
   noArg_of main_v213 rfl (by decide),
   noArg_of main_v214 rfl (by decide),
   noArg_of main_v215 rfl (by decide),
   noArg_of main_c_69 rfl (by decide),
   noArg_of main_v216 rfl (by decide),
   noArg_of main_v217 rfl (by decide),
   noArg_of main_v218 rfl (by decide),
   noArg_of main_v219 rfl (by decide),
   noArg_of main_v220 rfl (by decide),
   noArg_of main_v221 rfl (by decide),
   noArg_of main_v222 rfl (by decide),
   noArg_of main_v223 rfl (by decide),
   noArg_of main_v224 rfl (by decide),
   noArg_of main_v225 rfl (by decide),
   noArg_of main_v226 rfl (by decide),
   noArg_of main_cst_70 rfl (by decide)⟩

theorem main_part5_ops0_noarg : (main_part5_ops0 : List (HloOp τ sig (Elt F))).Forall NoArg :=
  ⟨noArg_of main_call16_v0 rfl (by decide),
   noArg_of main_v227 rfl (by decide)⟩

theorem main_part5_ops1_noarg : (main_part5_ops1 : List (HloOp τ sig (Elt F))).Forall NoArg :=
  ⟨noArg_of main_cst_71 rfl (by decide),
   noArg_of main_v228 rfl (by decide),
   noArg_of main_v229 rfl (by decide),
   noArg_of main_c_72 rfl (by decide),
   noArg_of main_v230 rfl (by decide),
   noArg_of main_v231 rfl (by decide),
   noArg_of main_c_73 rfl (by decide),
   noArg_of main_v232 rfl (by decide),
   noArg_of main_v233 rfl (by decide),
   noArg_of main_v234 rfl (by decide),
   noArg_of main_c_74 rfl (by decide),
   noArg_of main_v235 rfl (by decide),
   noArg_of main_v236 rfl (by decide),
   noArg_of main_v237 rfl (by decide),
   noArg_of main_v238 rfl (by decide),
   noArg_of main_v239 rfl (by decide),
   noArg_of main_v240 rfl (by decide),
   noArg_of main_v241 rfl (by decide),
   noArg_of main_v242 rfl (by decide),
   noArg_of main_v243 rfl (by decide),
   noArg_of main_v244 rfl (by decide),
   noArg_of main_v245 rfl (by decide),
   noArg_of main_cst_75 rfl (by decide)⟩

theorem main_part5_ops2_noarg : (main_part5_ops2 : List (HloOp τ sig (Elt F))).Forall NoArg :=
  ⟨noArg_of main_call17_v0 rfl (by decide),
   noArg_of main_v246 rfl (by decide)⟩

theorem main_part5_ops3_noarg : (main_part5_ops3 : List (HloOp τ sig (Elt F))).Forall NoArg :=
  ⟨noArg_of main_cst_76 rfl (by decide),
   noArg_of main_v247 rfl (by decide),
   noArg_of main_v248 rfl (by decide),
   noArg_of main_c_77 rfl (by decide),
   noArg_of main_v249 rfl (by decide),
   noArg_of main_v250 rfl (by decide),
   noArg_of main_c_78 rfl (by decide),
   noArg_of main_v251 rfl (by decide),
   noArg_of main_v252 rfl (by decide),
   noArg_of main_v253 rfl (by decide),
   noArg_of main_c_79 rfl (by decide),
   noArg_of main_v254 rfl (by decide),
   noArg_of main_v255 rfl (by decide),
   noArg_of main_v256 rfl (by decide),
   noArg_of main_v257 rfl (by decide),
   noArg_of main_v258 rfl (by decide),
   noArg_of main_v259 rfl (by decide),
   noArg_of main_v260 rfl (by decide),
   noArg_of main_v261 rfl (by decide),
   noArg_of main_v262 rfl (by decide),
   noArg_of main_v263 rfl (by decide),
   noArg_of main_v264 rfl (by decide),
   noArg_of main_cst_80 rfl (by decide)⟩

theorem main_part5_ops4_noarg : (main_part5_ops4 : List (HloOp τ sig (Elt F))).Forall NoArg :=
  ⟨noArg_of main_call18_v0 rfl (by decide),
   noArg_of main_v265 rfl (by decide)⟩

theorem main_part5_ops5_noarg : (main_part5_ops5 : List (HloOp τ sig (Elt F))).Forall NoArg :=
  ⟨noArg_of main_cst_81 rfl (by decide),
   noArg_of main_v266 rfl (by decide),
   noArg_of main_v267 rfl (by decide),
   noArg_of main_c_82 rfl (by decide),
   noArg_of main_v268 rfl (by decide),
   noArg_of main_v269 rfl (by decide),
   noArg_of main_c_83 rfl (by decide),
   noArg_of main_v270 rfl (by decide),
   noArg_of main_v271 rfl (by decide),
   noArg_of main_v272 rfl (by decide),
   noArg_of main_c_84 rfl (by decide)⟩

theorem main_part6_ops0_noarg : (main_part6_ops0 : List (HloOp τ sig (Elt F))).Forall NoArg :=
  ⟨noArg_of main_v273 rfl (by decide),
   noArg_of main_v274 rfl (by decide),
   noArg_of main_v275 rfl (by decide),
   noArg_of main_v276 rfl (by decide),
   noArg_of main_v277 rfl (by decide),
   noArg_of main_v278 rfl (by decide),
   noArg_of main_v279 rfl (by decide),
   noArg_of main_v280 rfl (by decide),
   noArg_of main_v281 rfl (by decide),
   noArg_of main_v282 rfl (by decide),
   noArg_of main_v283 rfl (by decide),
   noArg_of main_cst_85 rfl (by decide)⟩

theorem main_part6_ops1_noarg : (main_part6_ops1 : List (HloOp τ sig (Elt F))).Forall NoArg :=
  ⟨noArg_of main_call19_v0 rfl (by decide),
   noArg_of main_v284 rfl (by decide)⟩

theorem main_part6_ops2_noarg : (main_part6_ops2 : List (HloOp τ sig (Elt F))).Forall NoArg :=
  ⟨noArg_of main_cst_86 rfl (by decide),
   noArg_of main_v285 rfl (by decide),
   noArg_of main_v286 rfl (by decide),
   noArg_of main_c_87 rfl (by decide),
   noArg_of main_v287 rfl (by decide),
   noArg_of main_v288 rfl (by decide),
   noArg_of main_c_88 rfl (by decide),
   noArg_of main_v289 rfl (by decide),
   noArg_of main_v290 rfl (by decide),
   noArg_of main_v291 rfl (by decide),
   noArg_of main_c_89 rfl (by decide),
   noArg_of main_v292 rfl (by decide),
   noArg_of main_v293 rfl (by decide),
   noArg_of main_v294 rfl (by decide),
   noArg_of main_v295 rfl (by decide),
   noArg_of main_v296 rfl (by decide),
   noArg_of main_v297 rfl (by decide),
   noArg_of main_v298 rfl (by decide),
   noArg_of main_v299 rfl (by decide),
   noArg_of main_v300 rfl (by decide),
   noArg_of main_v301 rfl (by decide),
   noArg_of main_v302 rfl (by decide),
   noArg_of main_cst_90 rfl (by decide)⟩

theorem main_part6_ops3_noarg : (main_part6_ops3 : List (HloOp τ sig (Elt F))).Forall NoArg :=
  ⟨noArg_of main_call20_v0 rfl (by decide),
   noArg_of main_v303 rfl (by decide)⟩

theorem main_part6_ops4_noarg : (main_part6_ops4 : List (HloOp τ sig (Elt F))).Forall NoArg :=
  ⟨noArg_of main_cst_91 rfl (by decide),
   noArg_of main_v304 rfl (by decide),
   noArg_of main_v305 rfl (by decide),
   noArg_of main_c_92 rfl (by decide),
   noArg_of main_v306 rfl (by decide),
   noArg_of main_v307 rfl (by decide),
   noArg_of main_c_93 rfl (by decide),
   noArg_of main_v308 rfl (by decide),
   noArg_of main_v309 rfl (by decide),
   noArg_of main_v310 rfl (by decide),
   noArg_of main_c_94 rfl (by decide),
   noArg_of main_v311 rfl (by decide),
   noArg_of main_v312 rfl (by decide),
   noArg_of main_v313 rfl (by decide),
   noArg_of main_v314 rfl (by decide),
   noArg_of main_v315 rfl (by decide),
   noArg_of main_v316 rfl (by decide),
   noArg_of main_v317 rfl (by decide),
   noArg_of main_v318 rfl (by decide),
   noArg_of main_v319 rfl (by decide),
   noArg_of main_v320 rfl (by decide),
   noArg_of main_v321 rfl (by decide),
   noArg_of main_cst_95 rfl (by decide)⟩

theorem main_part7_ops0_noarg : (main_part7_ops0 : List (HloOp τ sig (Elt F))).Forall NoArg :=
  ⟨noArg_of main_call21_v0 rfl (by decide),
   noArg_of main_v322 rfl (by decide)⟩

theorem main_part7_ops1_noarg : (main_part7_ops1 : List (HloOp τ sig (Elt F))).Forall NoArg :=
  ⟨noArg_of main_cst_96 rfl (by decide),
   noArg_of main_v323 rfl (by decide),
   noArg_of main_v324 rfl (by decide),
   noArg_of main_c_97 rfl (by decide),
   noArg_of main_v325 rfl (by decide),
   noArg_of main_v326 rfl (by decide),
   noArg_of main_c_98 rfl (by decide),
   noArg_of main_v327 rfl (by decide),
   noArg_of main_v328 rfl (by decide),
   noArg_of main_v329 rfl (by decide),
   noArg_of main_c_99 rfl (by decide),
   noArg_of main_v330 rfl (by decide),
   noArg_of main_v331 rfl (by decide),
   noArg_of main_v332 rfl (by decide),
   noArg_of main_v333 rfl (by decide),
   noArg_of main_v334 rfl (by decide),
   noArg_of main_v335 rfl (by decide),
   noArg_of main_v336 rfl (by decide),
   noArg_of main_v337 rfl (by decide),
   noArg_of main_v338 rfl (by decide),
   noArg_of main_v339 rfl (by decide),
   noArg_of main_v340 rfl (by decide),
   noArg_of main_cst_100 rfl (by decide)⟩

theorem main_part7_ops2_noarg : (main_part7_ops2 : List (HloOp τ sig (Elt F))).Forall NoArg :=
  ⟨noArg_of main_call22_v0 rfl (by decide),
   noArg_of main_v341 rfl (by decide)⟩

theorem main_part7_ops3_noarg : (main_part7_ops3 : List (HloOp τ sig (Elt F))).Forall NoArg :=
  ⟨noArg_of main_cst_101 rfl (by decide),
   noArg_of main_v342 rfl (by decide),
   noArg_of main_v343 rfl (by decide),
   noArg_of main_c_102 rfl (by decide),
   noArg_of main_v344 rfl (by decide),
   noArg_of main_v345 rfl (by decide),
   noArg_of main_c_103 rfl (by decide),
   noArg_of main_v346 rfl (by decide),
   noArg_of main_v347 rfl (by decide),
   noArg_of main_v348 rfl (by decide),
   noArg_of main_c_104 rfl (by decide),
   noArg_of main_v349 rfl (by decide),
   noArg_of main_v350 rfl (by decide),
   noArg_of main_v351 rfl (by decide),
   noArg_of main_v352 rfl (by decide)⟩

theorem main_part7_ops4_noarg : (main_part7_ops4 : List (HloOp τ sig (Elt F))).Forall NoArg :=
  ⟨noArg_of main_call23_call0_c rfl (by decide),
   noArg_of main_call23_call0_v0 rfl (by decide),
   noArg_of main_v353 rfl (by decide)⟩

theorem main_part7_ops5_noarg : (main_part7_ops5 : List (HloOp τ sig (Elt F))).Forall NoArg :=
  ⟨noArg_of main_v354 rfl (by decide),
   noArg_of main_v355 rfl (by decide),
   noArg_of main_c_105 rfl (by decide),
   noArg_of main_v356 rfl (by decide),
   noArg_of main_v357 rfl (by decide)⟩

theorem main_part7_ops6_noarg : (main_part7_ops6 : List (HloOp τ sig (Elt F))).Forall NoArg :=
  ⟨noArg_of main_call24_v0 rfl (by decide),
   noArg_of main_call24_c rfl (by decide),
   noArg_of main_call24_c_0 rfl (by decide),
   noArg_of main_call24_v1_0 rfl (by decide),
   noArg_of main_v358 rfl (by decide)⟩

theorem main_part7_ops7_noarg : (main_part7_ops7 : List (HloOp τ sig (Elt F))).Forall NoArg :=
  ⟨noArg_of main_c_106 rfl (by decide),
   noArg_of main_v359 rfl (by decide),
   noArg_of main_v360 rfl (by decide)⟩

theorem main_part7_ops8_noarg : (main_part7_ops8 : List (HloOp τ sig (Elt F))).Forall NoArg :=
  ⟨noArg_of main_call25_v0 rfl (by decide),
   noArg_of main_call25_c rfl (by decide),
   noArg_of main_call25_c_0 rfl (by decide),
   noArg_of main_call25_v1_0 rfl (by decide),
   noArg_of main_v361 rfl (by decide)⟩

theorem main_part7_ops9_noarg : (main_part7_ops9 : List (HloOp τ sig (Elt F))).Forall NoArg :=
  ⟨noArg_of main_c_107 rfl (by decide),
   noArg_of main_v362 rfl (by decide),
   noArg_of main_v363 rfl (by decide)⟩

theorem main_part7_ops10_noarg : (main_part7_ops10 : List (HloOp τ sig (Elt F))).Forall NoArg :=
  ⟨noArg_of main_call26_v0 rfl (by decide),
   noArg_of main_call26_c rfl (by decide),
   noArg_of main_call26_c_0 rfl (by decide),
   noArg_of main_call26_v1_0 rfl (by decide),
   noArg_of main_v364 rfl (by decide)⟩

theorem main_part7_ops11_noarg : (main_part7_ops11 : List (HloOp τ sig (Elt F))).Forall NoArg :=
  ⟨noArg_of main_c_108 rfl (by decide),
   noArg_of main_v365 rfl (by decide),
   noArg_of main_c_109 rfl (by decide),
   noArg_of main_v366 rfl (by decide),
   noArg_of main_v367 rfl (by decide)⟩

theorem main_part8_ops0_noarg : (main_part8_ops0 : List (HloOp τ sig (Elt F))).Forall NoArg :=
  ⟨noArg_of main_c_110 rfl (by decide),
   noArg_of main_c_111 rfl (by decide),
   noArg_of main_v368 rfl (by decide),
   noArg_of main_c_112 rfl (by decide),
   noArg_of main_c_113 rfl (by decide),
   noArg_of main_v369 rfl (by decide),
   noArg_of main_c_114 rfl (by decide),
   noArg_of main_v370 rfl (by decide),
   noArg_of main_v371 rfl (by decide),
   noArg_of main_v372 rfl (by decide),
   noArg_of main_c_115 rfl (by decide),
   noArg_of main_v373 rfl (by decide),
   noArg_of main_c_116 rfl (by decide),
   noArg_of main_v374 rfl (by decide),
   noArg_of main_v375 rfl (by decide),
   noArg_of main_c_117 rfl (by decide),
   noArg_of main_c_118 rfl (by decide),
   noArg_of main_v376 rfl (by decide),
   noArg_of main_c_119 rfl (by decide),
   noArg_of main_c_120 rfl (by decide),
   noArg_of main_v377 rfl (by decide),
   noArg_of main_c_121 rfl (by decide),
   noArg_of main_v378 rfl (by decide),
   noArg_of main_v379 rfl (by decide),
   noArg_of main_v380 rfl (by decide),
   noArg_of main_v381 rfl (by decide),
   noArg_of main_c_122 rfl (by decide),
   noArg_of main_v382 rfl (by decide),
   noArg_of main_c_123 rfl (by decide),
   noArg_of main_v383 rfl (by decide),
   noArg_of main_v384 rfl (by decide),
   noArg_of main_c_124 rfl (by decide),
   noArg_of main_c_125 rfl (by decide),
   noArg_of main_v385 rfl (by decide),
   noArg_of main_c_126 rfl (by decide),
   noArg_of main_c_127 rfl (by decide),
   noArg_of main_v386 rfl (by decide),
   noArg_of main_c_128 rfl (by decide),
   noArg_of main_v387 rfl (by decide),
   noArg_of main_v388 rfl (by decide),
   noArg_of main_v389 rfl (by decide),
   noArg_of main_cst_129 rfl (by decide),
   noArg_of main_v390 rfl (by decide),
   noArg_of main_v391 rfl (by decide),
   noArg_of main_v392 rfl (by decide),
   noArg_of main_v393 rfl (by decide),
   noArg_of main_v394 rfl (by decide),
   noArg_of main_v395 rfl (by decide),
   noArg_of main_v396 rfl (by decide),
   noArg_of main_v397 rfl (by decide)⟩

theorem main_part8_ops1_noarg : (main_part8_ops1 : List (HloOp τ sig (Elt F))).Forall NoArg :=
  noArg_of main_v398 rfl (by decide)

theorem main_part8_ops2_noarg : (main_part8_ops2 : List (HloOp τ sig (Elt F))).Forall NoArg :=
  ⟨noArg_of main_v399 rfl (by decide),
   noArg_of main_cst_130 rfl (by decide),
   noArg_of main_v400 rfl (by decide),
   noArg_of main_c_131 rfl (by decide),
   noArg_of main_v401 rfl (by decide),
   noArg_of main_cst_132 rfl (by decide)⟩

theorem main_part8_ops3_noarg : (main_part8_ops3 : List (HloOp τ sig (Elt F))).Forall NoArg :=
  noArg_of main_v402 rfl (by decide)

theorem main_part8_ops4_noarg : (main_part8_ops4 : List (HloOp τ sig (Elt F))).Forall NoArg :=
  ⟨noArg_of main_v403 rfl (by decide),
   noArg_of main_c_133 rfl (by decide)⟩

theorem main_part9_ops0_noarg : (main_part9_ops0 : List (HloOp τ sig (Elt F))).Forall NoArg :=
  ⟨noArg_of main_v404 rfl (by decide),
   noArg_of main_v405 rfl (by decide),
   noArg_of main_c_134 rfl (by decide),
   noArg_of main_v406 rfl (by decide),
   noArg_of main_v407 rfl (by decide),
   noArg_of main_v408 rfl (by decide),
   noArg_of main_c_135 rfl (by decide),
   noArg_of main_v409 rfl (by decide),
   noArg_of main_v410 rfl (by decide),
   noArg_of main_v411 rfl (by decide),
   noArg_of main_v412 rfl (by decide)⟩

theorem main_part9_ops1_noarg : (main_part9_ops1 : List (HloOp τ sig (Elt F))).Forall NoArg :=
  ⟨noArg_of main_call29_call0_c rfl (by decide),
   noArg_of main_call29_call0_v0 rfl (by decide),
   noArg_of main_v413 rfl (by decide)⟩

theorem main_part9_ops2_noarg : (main_part9_ops2 : List (HloOp τ sig (Elt F))).Forall NoArg :=
  ⟨noArg_of main_v414 rfl (by decide),
   noArg_of main_v415 rfl (by decide),
   noArg_of main_c_136 rfl (by decide),
   noArg_of main_v416 rfl (by decide),
   noArg_of main_v417 rfl (by decide)⟩

theorem main_part9_ops3_noarg : (main_part9_ops3 : List (HloOp τ sig (Elt F))).Forall NoArg :=
  ⟨noArg_of main_call30_v0 rfl (by decide),
   noArg_of main_call30_c rfl (by decide),
   noArg_of main_call30_c_0 rfl (by decide),
   noArg_of main_call30_v1_0 rfl (by decide),
   noArg_of main_v418 rfl (by decide)⟩

theorem main_part9_ops4_noarg : (main_part9_ops4 : List (HloOp τ sig (Elt F))).Forall NoArg :=
  ⟨noArg_of main_c_137 rfl (by decide),
   noArg_of main_v419 rfl (by decide),
   noArg_of main_v420 rfl (by decide)⟩

theorem main_part9_ops5_noarg : (main_part9_ops5 : List (HloOp τ sig (Elt F))).Forall NoArg :=
  ⟨noArg_of main_call31_v0 rfl (by decide),
   noArg_of main_call31_c rfl (by decide),
   noArg_of main_call31_c_0 rfl (by decide),
   noArg_of main_call31_v1_0 rfl (by decide),
   noArg_of main_v421 rfl (by decide)⟩

theorem main_part9_ops6_noarg : (main_part9_ops6 : List (HloOp τ sig (Elt F))).Forall NoArg :=
  ⟨noArg_of main_c_138 rfl (by decide),
   noArg_of main_v422 rfl (by decide),
   noArg_of main_v423 rfl (by decide)⟩

theorem main_part9_ops7_noarg : (main_part9_ops7 : List (HloOp τ sig (Elt F))).Forall NoArg :=
  ⟨noArg_of main_call32_v0 rfl (by decide),
   noArg_of main_call32_c rfl (by decide),
   noArg_of main_call32_c_0 rfl (by decide),
   noArg_of main_call32_v1_0 rfl (by decide),
   noArg_of main_v424 rfl (by decide)⟩

theorem main_part9_ops8_noarg : (main_part9_ops8 : List (HloOp τ sig (Elt F))).Forall NoArg :=
  ⟨noArg_of main_c_139 rfl (by decide),
   noArg_of main_v425 rfl (by decide),
   noArg_of main_c_140 rfl (by decide),
   noArg_of main_v426 rfl (by decide),
   noArg_of main_v427 rfl (by decide),
   noArg_of main_c_141 rfl (by decide),
   noArg_of main_c_142 rfl (by decide),
   noArg_of main_v428 rfl (by decide),
   noArg_of main_c_143 rfl (by decide),
   noArg_of main_c_144 rfl (by decide),
   noArg_of main_v429 rfl (by decide),
   noArg_of main_c_145 rfl (by decide),
   noArg_of main_v430 rfl (by decide),
   noArg_of main_v431 rfl (by decide),
   noArg_of main_v432 rfl (by decide),
   noArg_of main_c_146 rfl (by decide),
   noArg_of main_v433 rfl (by decide),
   noArg_of main_c_147 rfl (by decide),
   noArg_of main_v434 rfl (by decide),
   noArg_of main_v435 rfl (by decide),
   noArg_of main_c_148 rfl (by decide),
   noArg_of main_c_149 rfl (by decide),
   noArg_of main_v436 rfl (by decide),
   noArg_of main_c_150 rfl (by decide),
   noArg_of main_c_151 rfl (by decide),
   noArg_of main_v437 rfl (by decide),
   noArg_of main_c_152 rfl (by decide),
   noArg_of main_v438 rfl (by decide),
   noArg_of main_v439 rfl (by decide),
   noArg_of main_v440 rfl (by decide),
   noArg_of main_v441 rfl (by decide),
   noArg_of main_c_153 rfl (by decide),
   noArg_of main_v442 rfl (by decide),
   noArg_of main_c_154 rfl (by decide)⟩

theorem main_part10_ops0_noarg : (main_part10_ops0 : List (HloOp τ sig (Elt F))).Forall NoArg :=
  ⟨noArg_of main_v443 rfl (by decide),
   noArg_of main_v444 rfl (by decide),
   noArg_of main_c_155 rfl (by decide),
   noArg_of main_c_156 rfl (by decide),
   noArg_of main_v445 rfl (by decide),
   noArg_of main_c_157 rfl (by decide),
   noArg_of main_c_158 rfl (by decide),
   noArg_of main_v446 rfl (by decide),
   noArg_of main_c_159 rfl (by decide),
   noArg_of main_v447 rfl (by decide),
   noArg_of main_v448 rfl (by decide),
   noArg_of main_v449 rfl (by decide),
   noArg_of main_cst_160 rfl (by decide),
   noArg_of main_v450 rfl (by decide),
   noArg_of main_v451 rfl (by decide),
   noArg_of main_v452 rfl (by decide),
   noArg_of main_v453 rfl (by decide),
   noArg_of main_v454 rfl (by decide),
   noArg_of main_v455 rfl (by decide),
   noArg_of main_v456 rfl (by decide),
   noArg_of main_v457 rfl (by decide)⟩

theorem main_part10_ops1_noarg : (main_part10_ops1 : List (HloOp τ sig (Elt F))).Forall NoArg :=
  noArg_of main_v458 rfl (by decide)

theorem main_part10_ops2_noarg : (main_part10_ops2 : List (HloOp τ sig (Elt F))).Forall NoArg :=
  ⟨noArg_of main_v459 rfl (by decide),
   noArg_of main_cst_161 rfl (by decide),
   noArg_of main_v460 rfl (by decide),
   noArg_of main_c_162 rfl (by decide),
   noArg_of main_v461 rfl (by decide),
   noArg_of main_cst_163 rfl (by decide)⟩

theorem main_part10_ops3_noarg : (main_part10_ops3 : List (HloOp τ sig (Elt F))).Forall NoArg :=
  noArg_of main_v462 rfl (by decide)

theorem main_part10_ops4_noarg : (main_part10_ops4 : List (HloOp τ sig (Elt F))).Forall NoArg :=
  ⟨noArg_of main_v463 rfl (by decide),
   noArg_of main_c_164 rfl (by decide),
   noArg_of main_v464 rfl (by decide),
   noArg_of main_v465 rfl (by decide),
   noArg_of main_c_165 rfl (by decide),
   noArg_of main_v466 rfl (by decide),
   noArg_of main_v467 rfl (by decide),
   noArg_of main_v468 rfl (by decide),
   noArg_of main_c_166 rfl (by decide),
   noArg_of main_v469 rfl (by decide),
   noArg_of main_v470 rfl (by decide),
   noArg_of main_v471 rfl (by decide),
   noArg_of main_v472 rfl (by decide)⟩

theorem main_part10_ops5_noarg : (main_part10_ops5 : List (HloOp τ sig (Elt F))).Forall NoArg :=
  ⟨noArg_of main_call35_call0_c rfl (by decide),
   noArg_of main_call35_call0_v0 rfl (by decide),
   noArg_of main_v473 rfl (by decide)⟩

theorem main_part10_ops6_noarg : (main_part10_ops6 : List (HloOp τ sig (Elt F))).Forall NoArg :=
  ⟨noArg_of main_v474 rfl (by decide),
   noArg_of main_v475 rfl (by decide),
   noArg_of main_c_167 rfl (by decide),
   noArg_of main_v476 rfl (by decide),
   noArg_of main_v477 rfl (by decide)⟩

theorem main_part10_ops7_noarg : (main_part10_ops7 : List (HloOp τ sig (Elt F))).Forall NoArg :=
  ⟨noArg_of main_call36_v0 rfl (by decide),
   noArg_of main_call36_c rfl (by decide),
   noArg_of main_call36_c_0 rfl (by decide),
   noArg_of main_call36_v1_0 rfl (by decide),
   noArg_of main_v478 rfl (by decide)⟩

theorem main_part10_ops8_noarg : (main_part10_ops8 : List (HloOp τ sig (Elt F))).Forall NoArg :=
  ⟨noArg_of main_c_168 rfl (by decide),
   noArg_of main_v479 rfl (by decide),
   noArg_of main_v480 rfl (by decide)⟩

theorem main_part10_ops9_noarg : (main_part10_ops9 : List (HloOp τ sig (Elt F))).Forall NoArg :=
  ⟨noArg_of main_call37_v0 rfl (by decide),
   noArg_of main_call37_c rfl (by decide),
   noArg_of main_call37_c_0 rfl (by decide),
   noArg_of main_call37_v1_0 rfl (by decide),
   noArg_of main_v481 rfl (by decide)⟩

theorem main_part10_ops10_noarg : (main_part10_ops10 : List (HloOp τ sig (Elt F))).Forall NoArg :=
  ⟨noArg_of main_c_169 rfl (by decide),
   noArg_of main_v482 rfl (by decide),
   noArg_of main_v483 rfl (by decide)⟩

theorem main_part10_ops11_noarg : (main_part10_ops11 : List (HloOp τ sig (Elt F))).Forall NoArg :=
  ⟨noArg_of main_call38_v0 rfl (by decide),
   noArg_of main_call38_c rfl (by decide),
   noArg_of main_call38_c_0 rfl (by decide),
   noArg_of main_call38_v1_0 rfl (by decide),
   noArg_of main_v484 rfl (by decide)⟩

theorem main_part10_ops12_noarg : (main_part10_ops12 : List (HloOp τ sig (Elt F))).Forall NoArg :=
  ⟨noArg_of main_c_170 rfl (by decide),
   noArg_of main_v485 rfl (by decide),
   noArg_of main_c_171 rfl (by decide)⟩

theorem main_part11_ops0_noarg : (main_part11_ops0 : List (HloOp τ sig (Elt F))).Forall NoArg :=
  ⟨noArg_of main_v486 rfl (by decide),
   noArg_of main_v487 rfl (by decide),
   noArg_of main_c_172 rfl (by decide),
   noArg_of main_c_173 rfl (by decide),
   noArg_of main_v488 rfl (by decide),
   noArg_of main_c_174 rfl (by decide),
   noArg_of main_c_175 rfl (by decide),
   noArg_of main_v489 rfl (by decide),
   noArg_of main_c_176 rfl (by decide),
   noArg_of main_v490 rfl (by decide),
   noArg_of main_v491 rfl (by decide),
   noArg_of main_v492 rfl (by decide),
   noArg_of main_c_177 rfl (by decide),
   noArg_of main_v493 rfl (by decide),
   noArg_of main_c_178 rfl (by decide),
   noArg_of main_v494 rfl (by decide),
   noArg_of main_v495 rfl (by decide),
   noArg_of main_c_179 rfl (by decide),
   noArg_of main_c_180 rfl (by decide),
   noArg_of main_v496 rfl (by decide),
   noArg_of main_c_181 rfl (by decide),
   noArg_of main_c_182 rfl (by decide),
   noArg_of main_v497 rfl (by decide),
   noArg_of main_c_183 rfl (by decide),
   noArg_of main_v498 rfl (by decide),
   noArg_of main_v499 rfl (by decide),
   noArg_of main_v500 rfl (by decide),
   noArg_of main_v501 rfl (by decide),
   noArg_of main_c_184 rfl (by decide),
   noArg_of main_v502 rfl (by decide),
   noArg_of main_c_185 rfl (by decide),
   noArg_of main_v503 rfl (by decide),
   noArg_of main_v504 rfl (by decide),
   noArg_of main_c_186 rfl (by decide),
   noArg_of main_c_187 rfl (by decide),
   noArg_of main_v505 rfl (by decide),
   noArg_of main_c_188 rfl (by decide),
   noArg_of main_c_189 rfl (by decide),
   noArg_of main_v506 rfl (by decide),
   noArg_of main_c_190 rfl (by decide),
   noArg_of main_v507 rfl (by decide),
   noArg_of main_v508 rfl (by decide),
   noArg_of main_v509 rfl (by decide),
   noArg_of main_cst_191 rfl (by decide),
   noArg_of main_v510 rfl (by decide),
   noArg_of main_v511 rfl (by decide),
   noArg_of main_v512 rfl (by decide),
   noArg_of main_v513 rfl (by decide),
   noArg_of main_v514 rfl (by decide),
   noArg_of main_v515 rfl (by decide),
   noArg_of main_v516 rfl (by decide),
   noArg_of main_v517 rfl (by decide)⟩

theorem main_part11_ops1_noarg : (main_part11_ops1 : List (HloOp τ sig (Elt F))).Forall NoArg :=
  noArg_of main_v518 rfl (by decide)

theorem main_part11_ops2_noarg : (main_part11_ops2 : List (HloOp τ sig (Elt F))).Forall NoArg :=
  ⟨noArg_of main_v519 rfl (by decide),
   noArg_of main_cst_192 rfl (by decide),
   noArg_of main_v520 rfl (by decide),
   noArg_of main_c_193 rfl (by decide),
   noArg_of main_v521 rfl (by decide),
   noArg_of main_cst_194 rfl (by decide)⟩

theorem main_part11_ops3_noarg : (main_part11_ops3 : List (HloOp τ sig (Elt F))).Forall NoArg :=
  noArg_of main_v522 rfl (by decide)

theorem main_part12_ops0_noarg : (main_part12_ops0 : List (HloOp τ sig (Elt F))).Forall NoArg :=
  ⟨noArg_of main_v523 rfl (by decide),
   noArg_of main_c_195 rfl (by decide),
   noArg_of main_v524 rfl (by decide),
   noArg_of main_v525 rfl (by decide),
   noArg_of main_c_196 rfl (by decide),
   noArg_of main_v526 rfl (by decide),
   noArg_of main_v527 rfl (by decide),
   noArg_of main_v528 rfl (by decide),
   noArg_of main_c_197 rfl (by decide),
   noArg_of main_v529 rfl (by decide),
   noArg_of main_v530 rfl (by decide),
   noArg_of main_v531 rfl (by decide),
   noArg_of main_v532 rfl (by decide)⟩

theorem main_part12_ops1_noarg : (main_part12_ops1 : List (HloOp τ sig (Elt F))).Forall NoArg :=
  ⟨noArg_of main_call41_call0_c rfl (by decide),
   noArg_of main_call41_call0_v0 rfl (by decide),
   noArg_of main_v533 rfl (by decide)⟩

theorem main_part12_ops2_noarg : (main_part12_ops2 : List (HloOp τ sig (Elt F))).Forall NoArg :=
  ⟨noArg_of main_v534 rfl (by decide),
   noArg_of main_v535 rfl (by decide),
   noArg_of main_c_198 rfl (by decide),
   noArg_of main_v536 rfl (by decide),
   noArg_of main_v537 rfl (by decide)⟩

theorem main_part12_ops3_noarg : (main_part12_ops3 : List (HloOp τ sig (Elt F))).Forall NoArg :=
  ⟨noArg_of main_call42_v0 rfl (by decide),
   noArg_of main_call42_c rfl (by decide),
   noArg_of main_call42_c_0 rfl (by decide),
   noArg_of main_call42_v1_0 rfl (by decide),
   noArg_of main_v538 rfl (by decide)⟩

theorem main_part12_ops4_noarg : (main_part12_ops4 : List (HloOp τ sig (Elt F))).Forall NoArg :=
  ⟨noArg_of main_c_199 rfl (by decide),
   noArg_of main_v539 rfl (by decide),
   noArg_of main_v540 rfl (by decide)⟩

theorem main_part12_ops5_noarg : (main_part12_ops5 : List (HloOp τ sig (Elt F))).Forall NoArg :=
  ⟨noArg_of main_call43_v0 rfl (by decide),
   noArg_of main_call43_c rfl (by decide),
   noArg_of main_call43_c_0 rfl (by decide),
   noArg_of main_call43_v1_0 rfl (by decide),
   noArg_of main_v541 rfl (by decide)⟩

theorem main_part12_ops6_noarg : (main_part12_ops6 : List (HloOp τ sig (Elt F))).Forall NoArg :=
  ⟨noArg_of main_c_200 rfl (by decide),
   noArg_of main_v542 rfl (by decide),
   noArg_of main_v543 rfl (by decide)⟩

theorem main_part12_ops7_noarg : (main_part12_ops7 : List (HloOp τ sig (Elt F))).Forall NoArg :=
  ⟨noArg_of main_call44_v0 rfl (by decide),
   noArg_of main_call44_c rfl (by decide),
   noArg_of main_call44_c_0 rfl (by decide),
   noArg_of main_call44_v1_0 rfl (by decide),
   noArg_of main_v544 rfl (by decide)⟩

theorem main_part12_ops8_noarg : (main_part12_ops8 : List (HloOp τ sig (Elt F))).Forall NoArg :=
  ⟨noArg_of main_c_201 rfl (by decide),
   noArg_of main_v545 rfl (by decide),
   noArg_of main_c_202 rfl (by decide),
   noArg_of main_v546 rfl (by decide),
   noArg_of main_v547 rfl (by decide),
   noArg_of main_c_203 rfl (by decide),
   noArg_of main_c_204 rfl (by decide),
   noArg_of main_v548 rfl (by decide),
   noArg_of main_c_205 rfl (by decide),
   noArg_of main_c_206 rfl (by decide),
   noArg_of main_v549 rfl (by decide),
   noArg_of main_c_207 rfl (by decide),
   noArg_of main_v550 rfl (by decide),
   noArg_of main_v551 rfl (by decide),
   noArg_of main_v552 rfl (by decide),
   noArg_of main_c_208 rfl (by decide),
   noArg_of main_v553 rfl (by decide),
   noArg_of main_c_209 rfl (by decide),
   noArg_of main_v554 rfl (by decide),
   noArg_of main_v555 rfl (by decide),
   noArg_of main_c_210 rfl (by decide),
   noArg_of main_c_211 rfl (by decide),
   noArg_of main_v556 rfl (by decide),
   noArg_of main_c_212 rfl (by decide),
   noArg_of main_c_213 rfl (by decide),
   noArg_of main_v557 rfl (by decide),
   noArg_of main_c_214 rfl (by decide),
   noArg_of main_v558 rfl (by decide),
   noArg_of main_v559 rfl (by decide),
   noArg_of main_v560 rfl (by decide),
   noArg_of main_v561 rfl (by decide),
   noArg_of main_c_215 rfl (by decide)⟩

theorem main_part13_ops0_noarg : (main_part13_ops0 : List (HloOp τ sig (Elt F))).Forall NoArg :=
  ⟨noArg_of main_v562 rfl (by decide),
   noArg_of main_c_216 rfl (by decide),
   noArg_of main_v563 rfl (by decide),
   noArg_of main_v564 rfl (by decide),
   noArg_of main_c_217 rfl (by decide),
   noArg_of main_c_218 rfl (by decide),
   noArg_of main_v565 rfl (by decide),
   noArg_of main_c_219 rfl (by decide),
   noArg_of main_c_220 rfl (by decide),
   noArg_of main_v566 rfl (by decide),
   noArg_of main_c_221 rfl (by decide),
   noArg_of main_v567 rfl (by decide),
   noArg_of main_v568 rfl (by decide),
   noArg_of main_v569 rfl (by decide),
   noArg_of main_cst_222 rfl (by decide),
   noArg_of main_v570 rfl (by decide),
   noArg_of main_v571 rfl (by decide),
   noArg_of main_v572 rfl (by decide),
   noArg_of main_v573 rfl (by decide),
   noArg_of main_v574 rfl (by decide),
   noArg_of main_v575 rfl (by decide),
   noArg_of main_v576 rfl (by decide),
   noArg_of main_v577 rfl (by decide)⟩

theorem main_part13_ops1_noarg : (main_part13_ops1 : List (HloOp τ sig (Elt F))).Forall NoArg :=
  noArg_of main_v578 rfl (by decide)

theorem main_part13_ops2_noarg : (main_part13_ops2 : List (HloOp τ sig (Elt F))).Forall NoArg :=
  ⟨noArg_of main_v579 rfl (by decide),
   noArg_of main_cst_223 rfl (by decide),
   noArg_of main_v580 rfl (by decide),
   noArg_of main_c_224 rfl (by decide),
   noArg_of main_v581 rfl (by decide),
   noArg_of main_cst_225 rfl (by decide)⟩

theorem main_part13_ops3_noarg : (main_part13_ops3 : List (HloOp τ sig (Elt F))).Forall NoArg :=
  noArg_of main_v582 rfl (by decide)

theorem main_part13_ops4_noarg : (main_part13_ops4 : List (HloOp τ sig (Elt F))).Forall NoArg :=
  ⟨noArg_of main_v583 rfl (by decide),
   noArg_of main_c_226 rfl (by decide),
   noArg_of main_v584 rfl (by decide),
   noArg_of main_v585 rfl (by decide),
   noArg_of main_c_227 rfl (by decide),
   noArg_of main_v586 rfl (by decide),
   noArg_of main_v587 rfl (by decide),
   noArg_of main_v588 rfl (by decide),
   noArg_of main_c_228 rfl (by decide),
   noArg_of main_v589 rfl (by decide),
   noArg_of main_v590 rfl (by decide),
   noArg_of main_v591 rfl (by decide),
   noArg_of main_v592 rfl (by decide)⟩

theorem main_part13_ops5_noarg : (main_part13_ops5 : List (HloOp τ sig (Elt F))).Forall NoArg :=
  ⟨noArg_of main_call47_call0_c rfl (by decide),
   noArg_of main_call47_call0_v0 rfl (by decide),
   noArg_of main_v593 rfl (by decide)⟩

theorem main_part13_ops6_noarg : (main_part13_ops6 : List (HloOp τ sig (Elt F))).Forall NoArg :=
  ⟨noArg_of main_v594 rfl (by decide),
   noArg_of main_v595 rfl (by decide),
   noArg_of main_c_229 rfl (by decide),
   noArg_of main_v596 rfl (by decide),
   noArg_of main_v597 rfl (by decide)⟩

theorem main_part13_ops7_noarg : (main_part13_ops7 : List (HloOp τ sig (Elt F))).Forall NoArg :=
  ⟨noArg_of main_call48_v0 rfl (by decide),
   noArg_of main_call48_c rfl (by decide),
   noArg_of main_call48_c_0 rfl (by decide),
   noArg_of main_call48_v1_0 rfl (by decide),
   noArg_of main_v598 rfl (by decide)⟩

theorem main_part13_ops8_noarg : (main_part13_ops8 : List (HloOp τ sig (Elt F))).Forall NoArg :=
  ⟨noArg_of main_c_230 rfl (by decide),
   noArg_of main_v599 rfl (by decide),
   noArg_of main_v600 rfl (by decide)⟩

theorem main_part13_ops9_noarg : (main_part13_ops9 : List (HloOp τ sig (Elt F))).Forall NoArg :=
  ⟨noArg_of main_call49_v0 rfl (by decide),
   noArg_of main_call49_c rfl (by decide),
   noArg_of main_call49_c_0 rfl (by decide),
   noArg_of main_call49_v1_0 rfl (by decide),
   noArg_of main_v601 rfl (by decide)⟩

theorem main_part13_ops10_noarg : (main_part13_ops10 : List (HloOp τ sig (Elt F))).Forall NoArg :=
  ⟨noArg_of main_c_231 rfl (by decide),
   noArg_of main_v602 rfl (by decide),
   noArg_of main_v603 rfl (by decide)⟩

theorem main_part13_ops11_noarg : (main_part13_ops11 : List (HloOp τ sig (Elt F))).Forall NoArg :=
  ⟨noArg_of main_call50_v0 rfl (by decide),
   noArg_of main_call50_c rfl (by decide),
   noArg_of main_call50_c_0 rfl (by decide),
   noArg_of main_call50_v1_0 rfl (by decide),
   noArg_of main_v604 rfl (by decide)⟩

theorem main_part13_ops12_noarg : (main_part13_ops12 : List (HloOp τ sig (Elt F))).Forall NoArg :=
  noArg_of main_c_232 rfl (by decide)

theorem main_part14_ops0_noarg : (main_part14_ops0 : List (HloOp τ sig (Elt F))).Forall NoArg :=
  ⟨noArg_of main_v605 rfl (by decide),
   noArg_of main_c_233 rfl (by decide),
   noArg_of main_v606 rfl (by decide),
   noArg_of main_v607 rfl (by decide),
   noArg_of main_c_234 rfl (by decide),
   noArg_of main_c_235 rfl (by decide),
   noArg_of main_v608 rfl (by decide),
   noArg_of main_c_236 rfl (by decide),
   noArg_of main_c_237 rfl (by decide),
   noArg_of main_v609 rfl (by decide),
   noArg_of main_c_238 rfl (by decide),
   noArg_of main_v610 rfl (by decide),
   noArg_of main_v611 rfl (by decide),
   noArg_of main_v612 rfl (by decide),
   noArg_of main_c_239 rfl (by decide),
   noArg_of main_v613 rfl (by decide),
   noArg_of main_c_240 rfl (by decide),
   noArg_of main_v614 rfl (by decide),
   noArg_of main_v615 rfl (by decide),
   noArg_of main_c_241 rfl (by decide),
   noArg_of main_c_242 rfl (by decide),
   noArg_of main_v616 rfl (by decide),
   noArg_of main_c_243 rfl (by decide),
   noArg_of main_c_244 rfl (by decide),
   noArg_of main_v617 rfl (by decide),
   noArg_of main_c_245 rfl (by decide),
   noArg_of main_v618 rfl (by decide),
   noArg_of main_v619 rfl (by decide),
   noArg_of main_v620 rfl (by decide),
   noArg_of main_v621 rfl (by decide),
   noArg_of main_c_246 rfl (by decide),
   noArg_of main_v622 rfl (by decide),
   noArg_of main_c_247 rfl (by decide),
   noArg_of main_v623 rfl (by decide),
   noArg_of main_v624 rfl (by decide),
   noArg_of main_c_248 rfl (by decide),
   noArg_of main_c_249 rfl (by decide),
   noArg_of main_v625 rfl (by decide),
   noArg_of main_c_250 rfl (by decide),
   noArg_of main_c_251 rfl (by decide),
   noArg_of main_v626 rfl (by decide),
   noArg_of main_c_252 rfl (by decide),
   noArg_of main_v627 rfl (by decide),
   noArg_of main_v628 rfl (by decide),
   noArg_of main_v629 rfl (by decide),
   noArg_of main_cst_253 rfl (by decide),
   noArg_of main_v630 rfl (by decide),
   noArg_of main_v631 rfl (by decide),
   noArg_of main_v632 rfl (by decide),
   noArg_of main_v633 rfl (by decide),
   noArg_of main_v634 rfl (by decide),
   noArg_of main_v635 rfl (by decide),
   noArg_of main_v636 rfl (by decide),
   noArg_of main_v637 rfl (by decide)⟩

theorem main_part14_ops1_noarg : (main_part14_ops1 : List (HloOp τ sig (Elt F))).Forall NoArg :=
  noArg_of main_v638 rfl (by decide)

theorem main_part14_ops2_noarg : (main_part14_ops2 : List (HloOp τ sig (Elt F))).Forall NoArg :=
  ⟨noArg_of main_v639 rfl (by decide),
   noArg_of main_cst_254 rfl (by decide),
   noArg_of main_v640 rfl (by decide),
   noArg_of main_c_255 rfl (by decide),
   noArg_of main_v641 rfl (by decide)⟩

theorem main_part15_ops0_noarg : (main_part15_ops0 : List (HloOp τ sig (Elt F))).Forall NoArg :=
  noArg_of main_cst_256 rfl (by decide)

theorem main_part15_ops1_noarg : (main_part15_ops1 : List (HloOp τ sig (Elt F))).Forall NoArg :=
  noArg_of main_v642 rfl (by decide)

theorem main_part15_ops2_noarg : (main_part15_ops2 : List (HloOp τ sig (Elt F))).Forall NoArg :=
  ⟨noArg_of main_v643 rfl (by decide),
   noArg_of main_c_257 rfl (by decide),
   noArg_of main_v644 rfl (by decide),
   noArg_of main_v645 rfl (by decide),
   noArg_of main_c_258 rfl (by decide),
   noArg_of main_v646 rfl (by decide),
   noArg_of main_v647 rfl (by decide),
   noArg_of main_v648 rfl (by decide),
   noArg_of main_c_259 rfl (by decide),
   noArg_of main_v649 rfl (by decide),
   noArg_of main_v650 rfl (by decide),
   noArg_of main_v651 rfl (by decide),
   noArg_of main_v652 rfl (by decide)⟩

theorem main_part15_ops3_noarg : (main_part15_ops3 : List (HloOp τ sig (Elt F))).Forall NoArg :=
  ⟨noArg_of main_call53_call0_c rfl (by decide),
   noArg_of main_call53_call0_v0 rfl (by decide),
   noArg_of main_v653 rfl (by decide)⟩

theorem main_part15_ops4_noarg : (main_part15_ops4 : List (HloOp τ sig (Elt F))).Forall NoArg :=
  ⟨noArg_of main_v654 rfl (by decide),
   noArg_of main_v655 rfl (by decide),
   noArg_of main_c_260 rfl (by decide),
   noArg_of main_v656 rfl (by decide),
   noArg_of main_v657 rfl (by decide)⟩

theorem main_part15_ops5_noarg : (main_part15_ops5 : List (HloOp τ sig (Elt F))).Forall NoArg :=
  ⟨noArg_of main_call54_v0 rfl (by decide),
   noArg_of main_call54_c rfl (by decide),
   noArg_of main_call54_c_0 rfl (by decide),
   noArg_of main_call54_v1_0 rfl (by decide),
   noArg_of main_v658 rfl (by decide)⟩

theorem main_part15_ops6_noarg : (main_part15_ops6 : List (HloOp τ sig (Elt F))).Forall NoArg :=
  ⟨noArg_of main_c_261 rfl (by decide),
   noArg_of main_v659 rfl (by decide),
   noArg_of main_v660 rfl (by decide)⟩

theorem main_part15_ops7_noarg : (main_part15_ops7 : List (HloOp τ sig (Elt F))).Forall NoArg :=
  ⟨noArg_of main_call55_v0 rfl (by decide),
   noArg_of main_call55_c rfl (by decide),
   noArg_of main_call55_c_0 rfl (by decide),
   noArg_of main_call55_v1_0 rfl (by decide),
   noArg_of main_v661 rfl (by decide)⟩

theorem main_part15_ops8_noarg : (main_part15_ops8 : List (HloOp τ sig (Elt F))).Forall NoArg :=
  ⟨noArg_of main_c_262 rfl (by decide),
   noArg_of main_v662 rfl (by decide),
   noArg_of main_v663 rfl (by decide)⟩

theorem main_part15_ops9_noarg : (main_part15_ops9 : List (HloOp τ sig (Elt F))).Forall NoArg :=
  ⟨noArg_of main_call56_v0 rfl (by decide),
   noArg_of main_call56_c rfl (by decide),
   noArg_of main_call56_c_0 rfl (by decide),
   noArg_of main_call56_v1_0 rfl (by decide),
   noArg_of main_v664 rfl (by decide)⟩

theorem main_part15_ops10_noarg : (main_part15_ops10 : List (HloOp τ sig (Elt F))).Forall NoArg :=
  ⟨noArg_of main_c_263 rfl (by decide),
   noArg_of main_v665 rfl (by decide),
   noArg_of main_c_264 rfl (by decide),
   noArg_of main_v666 rfl (by decide),
   noArg_of main_v667 rfl (by decide),
   noArg_of main_c_265 rfl (by decide),
   noArg_of main_c_266 rfl (by decide),
   noArg_of main_v668 rfl (by decide),
   noArg_of main_c_267 rfl (by decide),
   noArg_of main_c_268 rfl (by decide),
   noArg_of main_v669 rfl (by decide),
   noArg_of main_c_269 rfl (by decide),
   noArg_of main_v670 rfl (by decide),
   noArg_of main_v671 rfl (by decide),
   noArg_of main_v672 rfl (by decide),
   noArg_of main_c_270 rfl (by decide),
   noArg_of main_v673 rfl (by decide),
   noArg_of main_c_271 rfl (by decide),
   noArg_of main_v674 rfl (by decide),
   noArg_of main_v675 rfl (by decide),
   noArg_of main_c_272 rfl (by decide),
   noArg_of main_c_273 rfl (by decide),
   noArg_of main_v676 rfl (by decide),
   noArg_of main_c_274 rfl (by decide),
   noArg_of main_c_275 rfl (by decide),
   noArg_of main_v677 rfl (by decide),
   noArg_of main_c_276 rfl (by decide),
   noArg_of main_v678 rfl (by decide),
   noArg_of main_v679 rfl (by decide),
   noArg_of main_v680 rfl (by decide)⟩

theorem main_part16_ops0_noarg : (main_part16_ops0 : List (HloOp τ sig (Elt F))).Forall NoArg :=
  ⟨noArg_of main_v681 rfl (by decide),
   noArg_of main_c_277 rfl (by decide),
   noArg_of main_v682 rfl (by decide),
   noArg_of main_c_278 rfl (by decide),
   noArg_of main_v683 rfl (by decide),
   noArg_of main_v684 rfl (by decide),
   noArg_of main_c_279 rfl (by decide),
   noArg_of main_c_280 rfl (by decide),
   noArg_of main_v685 rfl (by decide),
   noArg_of main_c_281 rfl (by decide),
   noArg_of main_c_282 rfl (by decide),
   noArg_of main_v686 rfl (by decide),
   noArg_of main_c_283 rfl (by decide),
   noArg_of main_v687 rfl (by decide),
   noArg_of main_v688 rfl (by decide),
   noArg_of main_v689 rfl (by decide),
   noArg_of main_cst_284 rfl (by decide),
   noArg_of main_v690 rfl (by decide),
   noArg_of main_v691 rfl (by decide),
   noArg_of main_v692 rfl (by decide),
   noArg_of main_v693 rfl (by decide),
   noArg_of main_v694 rfl (by decide),
   noArg_of main_v695 rfl (by decide),
   noArg_of main_v696 rfl (by decide),
   noArg_of main_v697 rfl (by decide)⟩

theorem main_part16_ops1_noarg : (main_part16_ops1 : List (HloOp τ sig (Elt F))).Forall NoArg :=
  noArg_of main_v698 rfl (by decide)

theorem main_part16_ops2_noarg : (main_part16_ops2 : List (HloOp τ sig (Elt F))).Forall NoArg :=
  ⟨noArg_of main_v699 rfl (by decide),
   noArg_of main_cst_285 rfl (by decide),
   noArg_of main_v700 rfl (by decide),
   noArg_of main_c_286 rfl (by decide),
   noArg_of main_v701 rfl (by decide),
   noArg_of main_cst_287 rfl (by decide)⟩

theorem main_part16_ops3_noarg : (main_part16_ops3 : List (HloOp τ sig (Elt F))).Forall NoArg :=
  noArg_of main_v702 rfl (by decide)

theorem main_part16_ops4_noarg : (main_part16_ops4 : List (HloOp τ sig (Elt F))).Forall NoArg :=
  ⟨noArg_of main_v703 rfl (by decide),
   noArg_of main_c_288 rfl (by decide),
   noArg_of main_v704 rfl (by decide),
   noArg_of main_v705 rfl (by decide),
   noArg_of main_c_289 rfl (by decide),
   noArg_of main_v706 rfl (by decide),
   noArg_of main_v707 rfl (by decide),
   noArg_of main_v708 rfl (by decide),
   noArg_of main_c_290 rfl (by decide),
   noArg_of main_v709 rfl (by decide),
   noArg_of main_v710 rfl (by decide),
   noArg_of main_v711 rfl (by decide),
   noArg_of main_v712 rfl (by decide)⟩

theorem main_part16_ops5_noarg : (main_part16_ops5 : List (HloOp τ sig (Elt F))).Forall NoArg :=
  ⟨noArg_of main_call59_call0_c rfl (by decide),
   noArg_of main_call59_call0_v0 rfl (by decide),
   noArg_of main_v713 rfl (by decide)⟩

theorem main_part16_ops6_noarg : (main_part16_ops6 : List (HloOp τ sig (Elt F))).Forall NoArg :=
  ⟨noArg_of main_v714 rfl (by decide),
   noArg_of main_v715 rfl (by decide),
   noArg_of main_c_291 rfl (by decide),
   noArg_of main_v716 rfl (by decide),
   noArg_of main_v717 rfl (by decide)⟩

theorem main_part16_ops7_noarg : (main_part16_ops7 : List (HloOp τ sig (Elt F))).Forall NoArg :=
  ⟨noArg_of main_call60_v0 rfl (by decide),
   noArg_of main_call60_c rfl (by decide),
   noArg_of main_call60_c_0 rfl (by decide),
   noArg_of main_call60_v1_0 rfl (by decide),
   noArg_of main_v718 rfl (by decide)⟩

theorem main_part16_ops8_noarg : (main_part16_ops8 : List (HloOp τ sig (Elt F))).Forall NoArg :=
  ⟨noArg_of main_c_292 rfl (by decide),
   noArg_of main_v719 rfl (by decide),
   noArg_of main_v720 rfl (by decide)⟩

theorem main_part16_ops9_noarg : (main_part16_ops9 : List (HloOp τ sig (Elt F))).Forall NoArg :=
  ⟨noArg_of main_call61_v0 rfl (by decide),
   noArg_of main_call61_c rfl (by decide),
   noArg_of main_call61_c_0 rfl (by decide),
   noArg_of main_call61_v1_0 rfl (by decide),
   noArg_of main_v721 rfl (by decide)⟩

theorem main_part16_ops10_noarg : (main_part16_ops10 : List (HloOp τ sig (Elt F))).Forall NoArg :=
  ⟨noArg_of main_c_293 rfl (by decide),
   noArg_of main_v722 rfl (by decide),
   noArg_of main_v723 rfl (by decide)⟩

theorem main_part17_ops0_noarg : (main_part17_ops0 : List (HloOp τ sig (Elt F))).Forall NoArg :=
  ⟨noArg_of main_call62_v0 rfl (by decide),
   noArg_of main_call62_c rfl (by decide),
   noArg_of main_call62_c_0 rfl (by decide),
   noArg_of main_call62_v1_0 rfl (by decide),
   noArg_of main_v724 rfl (by decide)⟩

theorem main_part17_ops1_noarg : (main_part17_ops1 : List (HloOp τ sig (Elt F))).Forall NoArg :=
  ⟨noArg_of main_c_294 rfl (by decide),
   noArg_of main_v725 rfl (by decide),
   noArg_of main_c_295 rfl (by decide),
   noArg_of main_v726 rfl (by decide),
   noArg_of main_v727 rfl (by decide),
   noArg_of main_c_296 rfl (by decide),
   noArg_of main_c_297 rfl (by decide),
   noArg_of main_v728 rfl (by decide),
   noArg_of main_c_298 rfl (by decide),
   noArg_of main_c_299 rfl (by decide),
   noArg_of main_v729 rfl (by decide),
   noArg_of main_c_300 rfl (by decide),
   noArg_of main_v730 rfl (by decide),
   noArg_of main_v731 rfl (by decide),
   noArg_of main_v732 rfl (by decide),
   noArg_of main_c_301 rfl (by decide),
   noArg_of main_v733 rfl (by decide),
   noArg_of main_c_302 rfl (by decide),
   noArg_of main_v734 rfl (by decide),
   noArg_of main_v735 rfl (by decide),
   noArg_of main_c_303 rfl (by decide),
   noArg_of main_c_304 rfl (by decide),
   noArg_of main_v736 rfl (by decide),
   noArg_of main_c_305 rfl (by decide),
   noArg_of main_c_306 rfl (by decide),
   noArg_of main_v737 rfl (by decide),
   noArg_of main_c_307 rfl (by decide),
   noArg_of main_v738 rfl (by decide),
   noArg_of main_v739 rfl (by decide),
   noArg_of main_v740 rfl (by decide),
   noArg_of main_v741 rfl (by decide),
   noArg_of main_c_308 rfl (by decide),
   noArg_of main_v742 rfl (by decide),
   noArg_of main_c_309 rfl (by decide),
   noArg_of main_v743 rfl (by decide),
   noArg_of main_v744 rfl (by decide),
   noArg_of main_c_310 rfl (by decide),
   noArg_of main_c_311 rfl (by decide),
   noArg_of main_v745 rfl (by decide),
   noArg_of main_c_312 rfl (by decide),
   noArg_of main_c_313 rfl (by decide),
   noArg_of main_v746 rfl (by decide),
   noArg_of main_c_314 rfl (by decide),
   noArg_of main_v747 rfl (by decide),
   noArg_of main_v748 rfl (by decide),
   noArg_of main_v749 rfl (by decide),
   noArg_of main_cst_315 rfl (by decide),
   noArg_of main_v750 rfl (by decide),
   noArg_of main_v751 rfl (by decide),
   noArg_of main_v752 rfl (by decide),
   noArg_of main_v753 rfl (by decide),
   noArg_of main_v754 rfl (by decide),
   noArg_of main_v755 rfl (by decide),
   noArg_of main_v756 rfl (by decide),
   noArg_of main_v757 rfl (by decide)⟩

theorem main_part17_ops2_noarg : (main_part17_ops2 : List (HloOp τ sig (Elt F))).Forall NoArg :=
  noArg_of main_v758 rfl (by decide)

theorem main_part17_ops3_noarg : (main_part17_ops3 : List (HloOp τ sig (Elt F))).Forall NoArg :=
  ⟨noArg_of main_v759 rfl (by decide),
   noArg_of main_cst_316 rfl (by decide),
   noArg_of main_v760 rfl (by decide)⟩

theorem main_part18_ops0_noarg : (main_part18_ops0 : List (HloOp τ sig (Elt F))).Forall NoArg :=
  ⟨noArg_of main_c_317 rfl (by decide),
   noArg_of main_v761 rfl (by decide),
   noArg_of main_cst_318 rfl (by decide)⟩

theorem main_part18_ops1_noarg : (main_part18_ops1 : List (HloOp τ sig (Elt F))).Forall NoArg :=
  noArg_of main_v762 rfl (by decide)

theorem main_part18_ops2_noarg : (main_part18_ops2 : List (HloOp τ sig (Elt F))).Forall NoArg :=
  ⟨noArg_of main_v763 rfl (by decide),
   noArg_of main_c_319 rfl (by decide),
   noArg_of main_v764 rfl (by decide),
   noArg_of main_v765 rfl (by decide),
   noArg_of main_c_320 rfl (by decide),
   noArg_of main_v766 rfl (by decide),
   noArg_of main_v767 rfl (by decide),
   noArg_of main_v768 rfl (by decide),
   noArg_of main_c_321 rfl (by decide),
   noArg_of main_v769 rfl (by decide),
   noArg_of main_v770 rfl (by decide),
   noArg_of main_v771 rfl (by decide),
   noArg_of main_v772 rfl (by decide)⟩

theorem main_part18_ops3_noarg : (main_part18_ops3 : List (HloOp τ sig (Elt F))).Forall NoArg :=
  ⟨noArg_of main_call65_call0_c rfl (by decide),
   noArg_of main_call65_call0_v0 rfl (by decide),
   noArg_of main_v773 rfl (by decide)⟩

theorem main_part18_ops4_noarg : (main_part18_ops4 : List (HloOp τ sig (Elt F))).Forall NoArg :=
  ⟨noArg_of main_v774 rfl (by decide),
   noArg_of main_v775 rfl (by decide),
   noArg_of main_c_322 rfl (by decide),
   noArg_of main_v776 rfl (by decide),
   noArg_of main_v777 rfl (by decide)⟩

theorem main_part18_ops5_noarg : (main_part18_ops5 : List (HloOp τ sig (Elt F))).Forall NoArg :=
  ⟨noArg_of main_call66_v0 rfl (by decide),
   noArg_of main_call66_c rfl (by decide),
   noArg_of main_call66_c_0 rfl (by decide),
   noArg_of main_call66_v1_0 rfl (by decide),
   noArg_of main_v778 rfl (by decide)⟩

theorem main_part18_ops6_noarg : (main_part18_ops6 : List (HloOp τ sig (Elt F))).Forall NoArg :=
  ⟨noArg_of main_c_323 rfl (by decide),
   noArg_of main_v779 rfl (by decide),
   noArg_of main_v780 rfl (by decide)⟩

theorem main_part18_ops7_noarg : (main_part18_ops7 : List (HloOp τ sig (Elt F))).Forall NoArg :=
  ⟨noArg_of main_call67_v0 rfl (by decide),
   noArg_of main_call67_c rfl (by decide),
   noArg_of main_call67_c_0 rfl (by decide),
   noArg_of main_call67_v1_0 rfl (by decide),
   noArg_of main_v781 rfl (by decide)⟩

theorem main_part18_ops8_noarg : (main_part18_ops8 : List (HloOp τ sig (Elt F))).Forall NoArg :=
  ⟨noArg_of main_c_324 rfl (by decide),
   noArg_of main_v782 rfl (by decide),
   noArg_of main_v783 rfl (by decide)⟩

theorem main_part18_ops9_noarg : (main_part18_ops9 : List (HloOp τ sig (Elt F))).Forall NoArg :=
  ⟨noArg_of main_call68_v0 rfl (by decide),
   noArg_of main_call68_c rfl (by decide),
   noArg_of main_call68_c_0 rfl (by decide),
   noArg_of main_call68_v1_0 rfl (by decide),
   noArg_of main_v784 rfl (by decide)⟩

theorem main_part18_ops10_noarg : (main_part18_ops10 : List (HloOp τ sig (Elt F))).Forall NoArg :=
  ⟨noArg_of main_c_325 rfl (by decide),
   noArg_of main_v785 rfl (by decide),
   noArg_of main_c_326 rfl (by decide),
   noArg_of main_v786 rfl (by decide),
   noArg_of main_v787 rfl (by decide),
   noArg_of main_c_327 rfl (by decide),
   noArg_of main_c_328 rfl (by decide),
   noArg_of main_v788 rfl (by decide),
   noArg_of main_c_329 rfl (by decide),
   noArg_of main_c_330 rfl (by decide),
   noArg_of main_v789 rfl (by decide),
   noArg_of main_c_331 rfl (by decide),
   noArg_of main_v790 rfl (by decide),
   noArg_of main_v791 rfl (by decide),
   noArg_of main_v792 rfl (by decide),
   noArg_of main_c_332 rfl (by decide),
   noArg_of main_v793 rfl (by decide),
   noArg_of main_c_333 rfl (by decide),
   noArg_of main_v794 rfl (by decide),
   noArg_of main_v795 rfl (by decide),
   noArg_of main_c_334 rfl (by decide),
   noArg_of main_c_335 rfl (by decide),
   noArg_of main_v796 rfl (by decide),
   noArg_of main_c_336 rfl (by decide),
   noArg_of main_c_337 rfl (by decide),
   noArg_of main_v797 rfl (by decide),
   noArg_of main_c_338 rfl (by decide),
   noArg_of main_v798 rfl (by decide)⟩

theorem main_part19_ops0_noarg : (main_part19_ops0 : List (HloOp τ sig (Elt F))).Forall NoArg :=
  ⟨noArg_of main_v799 rfl (by decide),
   noArg_of main_v800 rfl (by decide),
   noArg_of main_v801 rfl (by decide),
   noArg_of main_c_339 rfl (by decide),
   noArg_of main_v802 rfl (by decide),
   noArg_of main_c_340 rfl (by decide),
   noArg_of main_v803 rfl (by decide),
   noArg_of main_v804 rfl (by decide),
   noArg_of main_c_341 rfl (by decide),
   noArg_of main_c_342 rfl (by decide),
   noArg_of main_v805 rfl (by decide),
   noArg_of main_c_343 rfl (by decide),
   noArg_of main_c_344 rfl (by decide),
   noArg_of main_v806 rfl (by decide),
   noArg_of main_c_345 rfl (by decide),
   noArg_of main_v807 rfl (by decide),
   noArg_of main_v808 rfl (by decide),
   noArg_of main_v809 rfl (by decide),
   noArg_of main_cst_346 rfl (by decide),
   noArg_of main_v810 rfl (by decide),
   noArg_of main_v811 rfl (by decide),
   noArg_of main_v812 rfl (by decide),
   noArg_of main_v813 rfl (by decide),
   noArg_of main_v814 rfl (by decide),
   noArg_of main_v815 rfl (by decide),
   noArg_of main_v816 rfl (by decide),
   noArg_of main_v817 rfl (by decide)⟩

theorem main_part19_ops1_noarg : (main_part19_ops1 : List (HloOp τ sig (Elt F))).Forall NoArg :=
  noArg_of main_v818 rfl (by decide)

theorem main_part19_ops2_noarg : (main_part19_ops2 : List (HloOp τ sig (Elt F))).Forall NoArg :=
  ⟨noArg_of main_v819 rfl (by decide),
   noArg_of main_cst_347 rfl (by decide),
   noArg_of main_v820 rfl (by decide),
   noArg_of main_c_348 rfl (by decide),
   noArg_of main_v821 rfl (by decide),
   noArg_of main_cst_349 rfl (by decide)⟩

theorem main_part19_ops3_noarg : (main_part19_ops3 : List (HloOp τ sig (Elt F))).Forall NoArg :=
  noArg_of main_v822 rfl (by decide)

theorem main_part19_ops4_noarg : (main_part19_ops4 : List (HloOp τ sig (Elt F))).Forall NoArg :=
  ⟨noArg_of main_v823 rfl (by decide),
   noArg_of main_c_350 rfl (by decide),
   noArg_of main_v824 rfl (by decide),
   noArg_of main_v825 rfl (by decide),
   noArg_of main_c_351 rfl (by decide),
   noArg_of main_v826 rfl (by decide),
   noArg_of main_v827 rfl (by decide),
   noArg_of main_v828 rfl (by decide),
   noArg_of main_c_352 rfl (by decide),
   noArg_of main_v829 rfl (by decide),
   noArg_of main_v830 rfl (by decide),
   noArg_of main_v831 rfl (by decide),
   noArg_of main_v832 rfl (by decide)⟩

theorem main_part19_ops5_noarg : (main_part19_ops5 : List (HloOp τ sig (Elt F))).Forall NoArg :=
  ⟨noArg_of main_call71_call0_c rfl (by decide),
   noArg_of main_call71_call0_v0 rfl (by decide),
   noArg_of main_v833 rfl (by decide)⟩

theorem main_part19_ops6_noarg : (main_part19_ops6 : List (HloOp τ sig (Elt F))).Forall NoArg :=
  ⟨noArg_of main_v834 rfl (by decide),
   noArg_of main_v835 rfl (by decide),
   noArg_of main_c_353 rfl (by decide),
   noArg_of main_v836 rfl (by decide),
   noArg_of main_v837 rfl (by decide)⟩

theorem main_part19_ops7_noarg : (main_part19_ops7 : List (HloOp τ sig (Elt F))).Forall NoArg :=
  ⟨noArg_of main_call72_v0 rfl (by decide),
   noArg_of main_call72_c rfl (by decide),
   noArg_of main_call72_c_0 rfl (by decide),
   noArg_of main_call72_v1_0 rfl (by decide),
   noArg_of main_v838 rfl (by decide)⟩

theorem main_part19_ops8_noarg : (main_part19_ops8 : List (HloOp τ sig (Elt F))).Forall NoArg :=
  ⟨noArg_of main_c_354 rfl (by decide),
   noArg_of main_v839 rfl (by decide),
   noArg_of main_v840 rfl (by decide)⟩

theorem main_part19_ops9_noarg : (main_part19_ops9 : List (HloOp τ sig (Elt F))).Forall NoArg :=
  ⟨noArg_of main_call73_v0 rfl (by decide),
   noArg_of main_call73_c rfl (by decide),
   noArg_of main_call73_c_0 rfl (by decide),
   noArg_of main_call73_v1_0 rfl (by decide),
   noArg_of main_v841 rfl (by decide)⟩

theorem main_part19_ops10_noarg : (main_part19_ops10 : List (HloOp τ sig (Elt F))).Forall NoArg :=
  noArg_of main_c_355 rfl (by decide)

theorem main_part20_ops0_noarg : (main_part20_ops0 : List (HloOp τ sig (Elt F))).Forall NoArg :=
  ⟨noArg_of main_v842 rfl (by decide),
   noArg_of main_v843 rfl (by decide)⟩

theorem main_part20_ops1_noarg : (main_part20_ops1 : List (HloOp τ sig (Elt F))).Forall NoArg :=
  ⟨noArg_of main_call74_v0 rfl (by decide),
   noArg_of main_call74_c rfl (by decide),
   noArg_of main_call74_c_0 rfl (by decide),
   noArg_of main_call74_v1_0 rfl (by decide),
   noArg_of main_v844 rfl (by decide)⟩

theorem main_part20_ops2_noarg : (main_part20_ops2 : List (HloOp τ sig (Elt F))).Forall NoArg :=
  ⟨noArg_of main_c_356 rfl (by decide),
   noArg_of main_v845 rfl (by decide),
   noArg_of main_c_357 rfl (by decide),
   noArg_of main_v846 rfl (by decide),
   noArg_of main_v847 rfl (by decide),
   noArg_of main_c_358 rfl (by decide),
   noArg_of main_c_359 rfl (by decide),
   noArg_of main_v848 rfl (by decide),
   noArg_of main_c_360 rfl (by decide),
   noArg_of main_c_361 rfl (by decide),
   noArg_of main_v849 rfl (by decide),
   noArg_of main_c_362 rfl (by decide),
   noArg_of main_v850 rfl (by decide),
   noArg_of main_v851 rfl (by decide),
   noArg_of main_v852 rfl (by decide),
   noArg_of main_c_363 rfl (by decide),
   noArg_of main_v853 rfl (by decide),
   noArg_of main_c_364 rfl (by decide),
   noArg_of main_v854 rfl (by decide),
   noArg_of main_v855 rfl (by decide),
   noArg_of main_c_365 rfl (by decide),
   noArg_of main_c_366 rfl (by decide),
   noArg_of main_v856 rfl (by decide),
   noArg_of main_c_367 rfl (by decide),
   noArg_of main_c_368 rfl (by decide),
   noArg_of main_v857 rfl (by decide),
   noArg_of main_c_369 rfl (by decide),
   noArg_of main_v858 rfl (by decide),
   noArg_of main_v859 rfl (by decide),
   noArg_of main_v860 rfl (by decide),
   noArg_of main_v861 rfl (by decide),
   noArg_of main_c_370 rfl (by decide),
   noArg_of main_v862 rfl (by decide),
   noArg_of main_c_371 rfl (by decide),
   noArg_of main_v863 rfl (by decide),
   noArg_of main_v864 rfl (by decide),
   noArg_of main_c_372 rfl (by decide),
   noArg_of main_c_373 rfl (by decide),
   noArg_of main_v865 rfl (by decide),
   noArg_of main_c_374 rfl (by decide),
   noArg_of main_c_375 rfl (by decide),
   noArg_of main_v866 rfl (by decide),
   noArg_of main_c_376 rfl (by decide),
   noArg_of main_v867 rfl (by decide),
   noArg_of main_v868 rfl (by decide),
   noArg_of main_v869 rfl (by decide),
   noArg_of main_cst_377 rfl (by decide),
   noArg_of main_v870 rfl (by decide),
   noArg_of main_v871 rfl (by decide),
   noArg_of main_v872 rfl (by decide),
   noArg_of main_v873 rfl (by decide),
   noArg_of main_v874 rfl (by decide),
   noArg_of main_v875 rfl (by decide),
   noArg_of main_v876 rfl (by decide),
   noArg_of main_v877 rfl (by decide)⟩

theorem main_part20_ops3_noarg : (main_part20_ops3 : List (HloOp τ sig (Elt F))).Forall NoArg :=
  noArg_of main_v878 rfl (by decide)

theorem main_part20_ops4_noarg : (main_part20_ops4 : List (HloOp τ sig (Elt F))).Forall NoArg :=
  noArg_of main_v879 rfl (by decide)

theorem main_part21_ops0_noarg : (main_part21_ops0 : List (HloOp τ sig (Elt F))).Forall NoArg :=
  ⟨noArg_of main_cst_378 rfl (by decide),
   noArg_of main_v880 rfl (by decide),
   noArg_of main_c_379 rfl (by decide),
   noArg_of main_v881 rfl (by decide),
   noArg_of main_cst_380 rfl (by decide)⟩

theorem main_part21_ops1_noarg : (main_part21_ops1 : List (HloOp τ sig (Elt F))).Forall NoArg :=
  noArg_of main_v882 rfl (by decide)

theorem main_part21_ops2_noarg : (main_part21_ops2 : List (HloOp τ sig (Elt F))).Forall NoArg :=
  ⟨noArg_of main_v883 rfl (by decide),
   noArg_of main_c_381 rfl (by decide),
   noArg_of main_v884 rfl (by decide),
   noArg_of main_v885 rfl (by decide),
   noArg_of main_c_382 rfl (by decide),
   noArg_of main_v886 rfl (by decide),
   noArg_of main_v887 rfl (by decide),
   noArg_of main_v888 rfl (by decide),
   noArg_of main_c_383 rfl (by decide),
   noArg_of main_v889 rfl (by decide),
   noArg_of main_v890 rfl (by decide),
   noArg_of main_v891 rfl (by decide),
   noArg_of main_v892 rfl (by decide)⟩

theorem main_part21_ops3_noarg : (main_part21_ops3 : List (HloOp τ sig (Elt F))).Forall NoArg :=
  ⟨noArg_of main_call77_call0_c rfl (by decide),
   noArg_of main_call77_call0_v0 rfl (by decide),
   noArg_of main_v893 rfl (by decide)⟩

theorem main_part21_ops4_noarg : (main_part21_ops4 : List (HloOp τ sig (Elt F))).Forall NoArg :=
  ⟨noArg_of main_v894 rfl (by decide),
   noArg_of main_v895 rfl (by decide),
   noArg_of main_c_384 rfl (by decide),
   noArg_of main_v896 rfl (by decide),
   noArg_of main_v897 rfl (by decide)⟩

theorem main_part21_ops5_noarg : (main_part21_ops5 : List (HloOp τ sig (Elt F))).Forall NoArg :=
  ⟨noArg_of main_call78_v0 rfl (by decide),
   noArg_of main_call78_c rfl (by decide),
   noArg_of main_call78_c_0 rfl (by decide),
   noArg_of main_call78_v1_0 rfl (by decide),
   noArg_of main_v898 rfl (by decide)⟩

theorem main_part21_ops6_noarg : (main_part21_ops6 : List (HloOp τ sig (Elt F))).Forall NoArg :=
  ⟨noArg_of main_c_385 rfl (by decide),
   noArg_of main_v899 rfl (by decide),
   noArg_of main_v900 rfl (by decide)⟩

theorem main_part21_ops7_noarg : (main_part21_ops7 : List (HloOp τ sig (Elt F))).Forall NoArg :=
  ⟨noArg_of main_call79_v0 rfl (by decide),
   noArg_of main_call79_c rfl (by decide),
   noArg_of main_call79_c_0 rfl (by decide),
   noArg_of main_call79_v1_0 rfl (by decide),
   noArg_of main_v901 rfl (by decide)⟩

theorem main_part21_ops8_noarg : (main_part21_ops8 : List (HloOp τ sig (Elt F))).Forall NoArg :=
  ⟨noArg_of main_c_386 rfl (by decide),
   noArg_of main_v902 rfl (by decide),
   noArg_of main_v903 rfl (by decide)⟩

theorem main_part21_ops9_noarg : (main_part21_ops9 : List (HloOp τ sig (Elt F))).Forall NoArg :=
  ⟨noArg_of main_call80_v0 rfl (by decide),
   noArg_of main_call80_c rfl (by decide),
   noArg_of main_call80_c_0 rfl (by decide),
   noArg_of main_call80_v1_0 rfl (by decide),
   noArg_of main_v904 rfl (by decide)⟩

theorem main_part21_ops10_noarg : (main_part21_ops10 : List (HloOp τ sig (Elt F))).Forall NoArg :=
  ⟨noArg_of main_c_387 rfl (by decide),
   noArg_of main_v905 rfl (by decide),
   noArg_of main_c_388 rfl (by decide),
   noArg_of main_v906 rfl (by decide),
   noArg_of main_v907 rfl (by decide),
   noArg_of main_c_389 rfl (by decide),
   noArg_of main_c_390 rfl (by decide),
   noArg_of main_v908 rfl (by decide),
   noArg_of main_c_391 rfl (by decide),
   noArg_of main_c_392 rfl (by decide),
   noArg_of main_v909 rfl (by decide),
   noArg_of main_c_393 rfl (by decide),
   noArg_of main_v910 rfl (by decide),
   noArg_of main_v911 rfl (by decide),
   noArg_of main_v912 rfl (by decide),
   noArg_of main_c_394 rfl (by decide),
   noArg_of main_v913 rfl (by decide),
   noArg_of main_c_395 rfl (by decide),
   noArg_of main_v914 rfl (by decide),
   noArg_of main_v915 rfl (by decide),
   noArg_of main_c_396 rfl (by decide),
   noArg_of main_c_397 rfl (by decide),
   noArg_of main_v916 rfl (by decide),
   noArg_of main_c_398 rfl (by decide),
   noArg_of main_c_399 rfl (by decide),
   noArg_of main_v917 rfl (by decide)⟩

theorem main_part22_ops0_noarg : (main_part22_ops0 : List (HloOp τ sig (Elt F))).Forall NoArg :=
  ⟨noArg_of main_c_400 rfl (by decide),
   noArg_of main_v918 rfl (by decide),
   noArg_of main_v919 rfl (by decide),
   noArg_of main_v920 rfl (by decide),
   noArg_of main_v921 rfl (by decide),
   noArg_of main_c_401 rfl (by decide),
   noArg_of main_v922 rfl (by decide),
   noArg_of main_c_402 rfl (by decide),
   noArg_of main_v923 rfl (by decide),
   noArg_of main_v924 rfl (by decide),
   noArg_of main_c_403 rfl (by decide),
   noArg_of main_c_404 rfl (by decide),
   noArg_of main_v925 rfl (by decide),
   noArg_of main_c_405 rfl (by decide),
   noArg_of main_c_406 rfl (by decide),
   noArg_of main_v926 rfl (by decide),
   noArg_of main_c_407 rfl (by decide),
   noArg_of main_v927 rfl (by decide),
   noArg_of main_v928 rfl (by decide),
   noArg_of main_v929 rfl (by decide),
   noArg_of main_cst_408 rfl (by decide),
   noArg_of main_v930 rfl (by decide),
   noArg_of main_v931 rfl (by decide),
   noArg_of main_v932 rfl (by decide),
   noArg_of main_v933 rfl (by decide),
   noArg_of main_v934 rfl (by decide),
   noArg_of main_v935 rfl (by decide),
   noArg_of main_v936 rfl (by decide),
   noArg_of main_v937 rfl (by decide)⟩

theorem main_part22_ops1_noarg : (main_part22_ops1 : List (HloOp τ sig (Elt F))).Forall NoArg :=
  noArg_of main_v938 rfl (by decide)

theorem main_part22_ops2_noarg : (main_part22_ops2 : List (HloOp τ sig (Elt F))).Forall NoArg :=
  ⟨noArg_of main_v939 rfl (by decide),
   noArg_of main_cst_409 rfl (by decide),
   noArg_of main_v940 rfl (by decide),
   noArg_of main_c_410 rfl (by decide),
   noArg_of main_v941 rfl (by decide),
   noArg_of main_cst_411 rfl (by decide)⟩

theorem main_part22_ops3_noarg : (main_part22_ops3 : List (HloOp τ sig (Elt F))).Forall NoArg :=
  noArg_of main_v942 rfl (by decide)

theorem main_part22_ops4_noarg : (main_part22_ops4 : List (HloOp τ sig (Elt F))).Forall NoArg :=
  ⟨noArg_of main_v943 rfl (by decide),
   noArg_of main_c_412 rfl (by decide),
   noArg_of main_v944 rfl (by decide),
   noArg_of main_v945 rfl (by decide),
   noArg_of main_c_413 rfl (by decide),
   noArg_of main_v946 rfl (by decide),
   noArg_of main_v947 rfl (by decide),
   noArg_of main_v948 rfl (by decide),
   noArg_of main_c_414 rfl (by decide),
   noArg_of main_v949 rfl (by decide),
   noArg_of main_v950 rfl (by decide),
   noArg_of main_v951 rfl (by decide),
   noArg_of main_v952 rfl (by decide)⟩

theorem main_part22_ops5_noarg : (main_part22_ops5 : List (HloOp τ sig (Elt F))).Forall NoArg :=
  ⟨noArg_of main_call83_call0_c rfl (by decide),
   noArg_of main_call83_call0_v0 rfl (by decide),
   noArg_of main_v953 rfl (by decide)⟩

theorem main_part22_ops6_noarg : (main_part22_ops6 : List (HloOp τ sig (Elt F))).Forall NoArg :=
  ⟨noArg_of main_v954 rfl (by decide),
   noArg_of main_v955 rfl (by decide),
   noArg_of main_c_415 rfl (by decide),
   noArg_of main_v956 rfl (by decide),
   noArg_of main_v957 rfl (by decide)⟩

theorem main_part22_ops7_noarg : (main_part22_ops7 : List (HloOp τ sig (Elt F))).Forall NoArg :=
  ⟨noArg_of main_call84_v0 rfl (by decide),
   noArg_of main_call84_c rfl (by decide),
   noArg_of main_call84_c_0 rfl (by decide),
   noArg_of main_call84_v1_0 rfl (by decide),
   noArg_of main_v958 rfl (by decide)⟩

theorem main_part22_ops8_noarg : (main_part22_ops8 : List (HloOp τ sig (Elt F))).Forall NoArg :=
  ⟨noArg_of main_c_416 rfl (by decide),
   noArg_of main_v959 rfl (by decide),
   noArg_of main_v960 rfl (by decide)⟩

theorem main_part23_ops0_noarg : (main_part23_ops0 : List (HloOp τ sig (Elt F))).Forall NoArg :=
  ⟨noArg_of main_call85_v0 rfl (by decide),
   noArg_of main_call85_c rfl (by decide),
   noArg_of main_call85_c_0 rfl (by decide),
   noArg_of main_call85_v1_0 rfl (by decide),
   noArg_of main_v961 rfl (by decide)⟩

theorem main_part23_ops1_noarg : (main_part23_ops1 : List (HloOp τ sig (Elt F))).Forall NoArg :=
  ⟨noArg_of main_c_417 rfl (by decide),
   noArg_of main_v962 rfl (by decide),
   noArg_of main_v963 rfl (by decide)⟩

theorem main_part23_ops2_noarg : (main_part23_ops2 : List (HloOp τ sig (Elt F))).Forall NoArg :=
  ⟨noArg_of main_call86_v0 rfl (by decide),
   noArg_of main_call86_c rfl (by decide),
   noArg_of main_call86_c_0 rfl (by decide),
   noArg_of main_call86_v1_0 rfl (by decide),
   noArg_of main_v964 rfl (by decide)⟩

theorem main_part23_ops3_noarg : (main_part23_ops3 : List (HloOp τ sig (Elt F))).Forall NoArg :=
  ⟨noArg_of main_c_418 rfl (by decide),
   noArg_of main_v965 rfl (by decide),
   noArg_of main_c_419 rfl (by decide),
   noArg_of main_v966 rfl (by decide),
   noArg_of main_v967 rfl (by decide),
   noArg_of main_c_420 rfl (by decide),
   noArg_of main_c_421 rfl (by decide),
   noArg_of main_v968 rfl (by decide),
   noArg_of main_c_422 rfl (by decide),
   noArg_of main_c_423 rfl (by decide),
   noArg_of main_v969 rfl (by decide),
   noArg_of main_c_424 rfl (by decide),
   noArg_of main_v970 rfl (by decide),
   noArg_of main_v971 rfl (by decide),
   noArg_of main_v972 rfl (by decide),
   noArg_of main_c_425 rfl (by decide),
   noArg_of main_v973 rfl (by decide),
   noArg_of main_c_426 rfl (by decide),
   noArg_of main_v974 rfl (by decide),
   noArg_of main_v975 rfl (by decide),
   noArg_of main_c_427 rfl (by decide),
   noArg_of main_c_428 rfl (by decide),
   noArg_of main_v976 rfl (by decide),
   noArg_of main_c_429 rfl (by decide),
   noArg_of main_c_430 rfl (by decide),
   noArg_of main_v977 rfl (by decide),
   noArg_of main_c_431 rfl (by decide),
   noArg_of main_v978 rfl (by decide),
   noArg_of main_v979 rfl (by decide),
   noArg_of main_v980 rfl (by decide),
   noArg_of main_v981 rfl (by decide),
   noArg_of main_c_432 rfl (by decide),
   noArg_of main_v982 rfl (by decide),
   noArg_of main_c_433 rfl (by decide),
   noArg_of main_v983 rfl (by decide),
   noArg_of main_v984 rfl (by decide),
   noArg_of main_c_434 rfl (by decide),
   noArg_of main_c_435 rfl (by decide),
   noArg_of main_v985 rfl (by decide),
   noArg_of main_c_436 rfl (by decide),
   noArg_of main_c_437 rfl (by decide),
   noArg_of main_v986 rfl (by decide),
   noArg_of main_c_438 rfl (by decide),
   noArg_of main_v987 rfl (by decide),
   noArg_of main_v988 rfl (by decide),
   noArg_of main_v989 rfl (by decide),
   noArg_of main_cst_439 rfl (by decide),
   noArg_of main_v990 rfl (by decide),
   noArg_of main_v991 rfl (by decide),
   noArg_of main_v992 rfl (by decide),
   noArg_of main_v993 rfl (by decide),
   noArg_of main_v994 rfl (by decide),
   noArg_of main_v995 rfl (by decide),
   noArg_of main_v996 rfl (by decide),
   noArg_of main_v997 rfl (by decide)⟩

theorem main_part24_ops0_noarg : (main_part24_ops0 : List (HloOp τ sig (Elt F))).Forall NoArg :=
  noArg_of main_v998 rfl (by decide)

theorem main_part24_ops1_noarg : (main_part24_ops1 : List (HloOp τ sig (Elt F))).Forall NoArg :=
  ⟨noArg_of main_v999 rfl (by decide),
   noArg_of main_cst_440 rfl (by decide),
   noArg_of main_v1000 rfl (by decide),
   noArg_of main_c_441 rfl (by decide),
   noArg_of main_v1001 rfl (by decide),
   noArg_of main_cst_442 rfl (by decide)⟩

theorem main_part24_ops2_noarg : (main_part24_ops2 : List (HloOp τ sig (Elt F))).Forall NoArg :=
  noArg_of main_v1002 rfl (by decide)

theorem main_part24_ops3_noarg : (main_part24_ops3 : List (HloOp τ sig (Elt F))).Forall NoArg :=
  ⟨noArg_of main_v1003 rfl (by decide),
   noArg_of main_c_443 rfl (by decide),
   noArg_of main_v1004 rfl (by decide),
   noArg_of main_v1005 rfl (by decide),
   noArg_of main_c_444 rfl (by decide),
   noArg_of main_v1006 rfl (by decide),
   noArg_of main_v1007 rfl (by decide),
   noArg_of main_v1008 rfl (by decide),
   noArg_of main_c_445 rfl (by decide),
   noArg_of main_v1009 rfl (by decide),
   noArg_of main_v1010 rfl (by decide),
   noArg_of main_v1011 rfl (by decide),
   noArg_of main_v1012 rfl (by decide)⟩

theorem main_part24_ops4_noarg : (main_part24_ops4 : List (HloOp τ sig (Elt F))).Forall NoArg :=
  ⟨noArg_of main_call89_call0_c rfl (by decide),
   noArg_of main_call89_call0_v0 rfl (by decide),
   noArg_of main_v1013 rfl (by decide)⟩

theorem main_part24_ops5_noarg : (main_part24_ops5 : List (HloOp τ sig (Elt F))).Forall NoArg :=
  ⟨noArg_of main_v1014 rfl (by decide),
   noArg_of main_v1015 rfl (by decide),
   noArg_of main_c_446 rfl (by decide),
   noArg_of main_v1016 rfl (by decide),
   noArg_of main_v1017 rfl (by decide)⟩

theorem main_part24_ops6_noarg : (main_part24_ops6 : List (HloOp τ sig (Elt F))).Forall NoArg :=
  ⟨noArg_of main_call90_v0 rfl (by decide),
   noArg_of main_call90_c rfl (by decide),
   noArg_of main_call90_c_0 rfl (by decide),
   noArg_of main_call90_v1_0 rfl (by decide),
   noArg_of main_v1018 rfl (by decide)⟩

theorem main_part24_ops7_noarg : (main_part24_ops7 : List (HloOp τ sig (Elt F))).Forall NoArg :=
  ⟨noArg_of main_c_447 rfl (by decide),
   noArg_of main_v1019 rfl (by decide),
   noArg_of main_v1020 rfl (by decide)⟩

theorem main_part24_ops8_noarg : (main_part24_ops8 : List (HloOp τ sig (Elt F))).Forall NoArg :=
  ⟨noArg_of main_call91_v0 rfl (by decide),
   noArg_of main_call91_c rfl (by decide),
   noArg_of main_call91_c_0 rfl (by decide),
   noArg_of main_call91_v1_0 rfl (by decide),
   noArg_of main_v1021 rfl (by decide)⟩

theorem main_part24_ops9_noarg : (main_part24_ops9 : List (HloOp τ sig (Elt F))).Forall NoArg :=
  ⟨noArg_of main_c_448 rfl (by decide),
   noArg_of main_v1022 rfl (by decide),
   noArg_of main_v1023 rfl (by decide)⟩

theorem main_part24_ops10_noarg : (main_part24_ops10 : List (HloOp τ sig (Elt F))).Forall NoArg :=
  ⟨noArg_of main_call92_v0 rfl (by decide),
   noArg_of main_call92_c rfl (by decide),
   noArg_of main_call92_c_0 rfl (by decide),
   noArg_of main_call92_v1_0 rfl (by decide),
   noArg_of main_v1024 rfl (by decide)⟩

theorem main_part24_ops11_noarg : (main_part24_ops11 : List (HloOp τ sig (Elt F))).Forall NoArg :=
  ⟨noArg_of main_c_449 rfl (by decide),
   noArg_of main_v1025 rfl (by decide),
   noArg_of main_c_450 rfl (by decide),
   noArg_of main_v1026 rfl (by decide),
   noArg_of main_v1027 rfl (by decide),
   noArg_of main_c_451 rfl (by decide),
   noArg_of main_c_452 rfl (by decide),
   noArg_of main_v1028 rfl (by decide),
   noArg_of main_c_453 rfl (by decide),
   noArg_of main_c_454 rfl (by decide),
   noArg_of main_v1029 rfl (by decide),
   noArg_of main_c_455 rfl (by decide),
   noArg_of main_v1030 rfl (by decide),
   noArg_of main_v1031 rfl (by decide),
   noArg_of main_v1032 rfl (by decide),
   noArg_of main_c_456 rfl (by decide),
   noArg_of main_v1033 rfl (by decide),
   noArg_of main_c_457 rfl (by decide),
   noArg_of main_v1034 rfl (by decide),
   noArg_of main_v1035 rfl (by decide),
   noArg_of main_c_458 rfl (by decide),
   noArg_of main_c_459 rfl (by decide),
   noArg_of main_v1036 rfl (by decide),
   noArg_of main_c_460 rfl (by decide)⟩

theorem main_part25_ops0_noarg : (main_part25_ops0 : List (HloOp τ sig (Elt F))).Forall NoArg :=
  ⟨noArg_of main_c_461 rfl (by decide),
   noArg_of main_v1037 rfl (by decide),
   noArg_of main_c_462 rfl (by decide),
   noArg_of main_v1038 rfl (by decide),
   noArg_of main_v1039 rfl (by decide),
   noArg_of main_v1040 rfl (by decide),
   noArg_of main_v1041 rfl (by decide),
   noArg_of main_c_463 rfl (by decide),
   noArg_of main_v1042 rfl (by decide),
   noArg_of main_c_464 rfl (by decide),
   noArg_of main_v1043 rfl (by decide),
   noArg_of main_v1044 rfl (by decide),
   noArg_of main_c_465 rfl (by decide),
   noArg_of main_c_466 rfl (by decide),
   noArg_of main_v1045 rfl (by decide),
   noArg_of main_c_467 rfl (by decide),
   noArg_of main_c_468 rfl (by decide),
   noArg_of main_v1046 rfl (by decide),
   noArg_of main_c_469 rfl (by decide),
   noArg_of main_v1047 rfl (by decide),
   noArg_of main_v1048 rfl (by decide),
   noArg_of main_v1049 rfl (by decide),
   noArg_of main_cst_470 rfl (by decide),
   noArg_of main_v1050 rfl (by decide),
   noArg_of main_v1051 rfl (by decide),
   noArg_of main_v1052 rfl (by decide),
   noArg_of main_v1053 rfl (by decide),
   noArg_of main_v1054 rfl (by decide),
   noArg_of main_v1055 rfl (by decide),
   noArg_of main_v1056 rfl (by decide),
   noArg_of main_v1057 rfl (by decide)⟩

theorem main_part25_ops1_noarg : (main_part25_ops1 : List (HloOp τ sig (Elt F))).Forall NoArg :=
  noArg_of main_v1058 rfl (by decide)

theorem main_part25_ops2_noarg : (main_part25_ops2 : List (HloOp τ sig (Elt F))).Forall NoArg :=
  ⟨noArg_of main_v1059 rfl (by decide),
   noArg_of main_cst_471 rfl (by decide),
   noArg_of main_v1060 rfl (by decide),
   noArg_of main_c_472 rfl (by decide),
   noArg_of main_v1061 rfl (by decide),
   noArg_of main_cst_473 rfl (by decide)⟩

theorem main_part25_ops3_noarg : (main_part25_ops3 : List (HloOp τ sig (Elt F))).Forall NoArg :=
  noArg_of main_v1062 rfl (by decide)

theorem main_part25_ops4_noarg : (main_part25_ops4 : List (HloOp τ sig (Elt F))).Forall NoArg :=
  ⟨noArg_of main_v1063 rfl (by decide),
   noArg_of main_c_474 rfl (by decide),
   noArg_of main_v1064 rfl (by decide),
   noArg_of main_v1065 rfl (by decide),
   noArg_of main_c_475 rfl (by decide),
   noArg_of main_v1066 rfl (by decide),
   noArg_of main_v1067 rfl (by decide),
   noArg_of main_v1068 rfl (by decide),
   noArg_of main_c_476 rfl (by decide),
   noArg_of main_v1069 rfl (by decide),
   noArg_of main_v1070 rfl (by decide),
   noArg_of main_v1071 rfl (by decide),
   noArg_of main_v1072 rfl (by decide)⟩

theorem main_part25_ops5_noarg : (main_part25_ops5 : List (HloOp τ sig (Elt F))).Forall NoArg :=
  ⟨noArg_of main_call95_call0_c rfl (by decide),
   noArg_of main_call95_call0_v0 rfl (by decide),
   noArg_of main_v1073 rfl (by decide)⟩

theorem main_part25_ops6_noarg : (main_part25_ops6 : List (HloOp τ sig (Elt F))).Forall NoArg :=
  ⟨noArg_of main_v1074 rfl (by decide),
   noArg_of main_v1075 rfl (by decide),
   noArg_of main_c_477 rfl (by decide),
   noArg_of main_v1076 rfl (by decide),
   noArg_of main_v1077 rfl (by decide)⟩

theorem main_part25_ops7_noarg : (main_part25_ops7 : List (HloOp τ sig (Elt F))).Forall NoArg :=
  ⟨noArg_of main_call96_v0 rfl (by decide),
   noArg_of main_call96_c rfl (by decide),
   noArg_of main_call96_c_0 rfl (by decide),
   noArg_of main_call96_v1_0 rfl (by decide),
   noArg_of main_v1078 rfl (by decide)⟩

theorem main_part25_ops8_noarg : (main_part25_ops8 : List (HloOp τ sig (Elt F))).Forall NoArg :=
  noArg_of main_c_478 rfl (by decide)

theorem main_part26_ops0_noarg : (main_part26_ops0 : List (HloOp τ sig (Elt F))).Forall NoArg :=
  ⟨noArg_of main_v1079 rfl (by decide),
   noArg_of main_v1080 rfl (by decide)⟩

theorem main_part26_ops1_noarg : (main_part26_ops1 : List (HloOp τ sig (Elt F))).Forall NoArg :=
  ⟨noArg_of main_call97_v0 rfl (by decide),
   noArg_of main_call97_c rfl (by decide),
   noArg_of main_call97_c_0 rfl (by decide),
   noArg_of main_call97_v1_0 rfl (by decide),
   noArg_of main_v1081 rfl (by decide)⟩

theorem main_part26_ops2_noarg : (main_part26_ops2 : List (HloOp τ sig (Elt F))).Forall NoArg :=
  ⟨noArg_of main_c_479 rfl (by decide),
   noArg_of main_v1082 rfl (by decide),
   noArg_of main_v1083 rfl (by decide)⟩

theorem main_part26_ops3_noarg : (main_part26_ops3 : List (HloOp τ sig (Elt F))).Forall NoArg :=
  ⟨noArg_of main_call98_v0 rfl (by decide),
   noArg_of main_call98_c rfl (by decide),
   noArg_of main_call98_c_0 rfl (by decide),
   noArg_of main_call98_v1_0 rfl (by decide),
   noArg_of main_v1084 rfl (by decide)⟩

theorem main_part26_ops4_noarg : (main_part26_ops4 : List (HloOp τ sig (Elt F))).Forall NoArg :=
  ⟨noArg_of main_c_480 rfl (by decide),
   noArg_of main_v1085 rfl (by decide),
   noArg_of main_c_481 rfl (by decide),
   noArg_of main_v1086 rfl (by decide),
   noArg_of main_v1087 rfl (by decide),
   noArg_of main_c_482 rfl (by decide),
   noArg_of main_c_483 rfl (by decide),
   noArg_of main_v1088 rfl (by decide),
   noArg_of main_c_484 rfl (by decide),
   noArg_of main_c_485 rfl (by decide),
   noArg_of main_v1089 rfl (by decide),
   noArg_of main_c_486 rfl (by decide),
   noArg_of main_v1090 rfl (by decide),
   noArg_of main_v1091 rfl (by decide),
   noArg_of main_v1092 rfl (by decide),
   noArg_of main_c_487 rfl (by decide),
   noArg_of main_v1093 rfl (by decide),
   noArg_of main_c_488 rfl (by decide),
   noArg_of main_v1094 rfl (by decide),
   noArg_of main_v1095 rfl (by decide),
   noArg_of main_c_489 rfl (by decide),
   noArg_of main_c_490 rfl (by decide),
   noArg_of main_v1096 rfl (by decide),
   noArg_of main_c_491 rfl (by decide),
   noArg_of main_c_492 rfl (by decide),
   noArg_of main_v1097 rfl (by decide),
   noArg_of main_c_493 rfl (by decide),
   noArg_of main_v1098 rfl (by decide),
   noArg_of main_v1099 rfl (by decide),
   noArg_of main_v1100 rfl (by decide),
   noArg_of main_v1101 rfl (by decide),
   noArg_of main_c_494 rfl (by decide),
   noArg_of main_v1102 rfl (by decide),
   noArg_of main_c_495 rfl (by decide),
   noArg_of main_v1103 rfl (by decide),
   noArg_of main_v1104 rfl (by decide),
   noArg_of main_c_496 rfl (by decide),
   noArg_of main_c_497 rfl (by decide),
   noArg_of main_v1105 rfl (by decide),
   noArg_of main_c_498 rfl (by decide),
   noArg_of main_c_499 rfl (by decide),
   noArg_of main_v1106 rfl (by decide),
   noArg_of main_c_500 rfl (by decide),
   noArg_of main_v1107 rfl (by decide),
   noArg_of main_v1108 rfl (by decide),
   noArg_of main_v1109 rfl (by decide),
   noArg_of main_cst_501 rfl (by decide),
   noArg_of main_v1110 rfl (by decide),
   noArg_of main_v1111 rfl (by decide),
   noArg_of main_v1112 rfl (by decide),
   noArg_of main_v1113 rfl (by decide),
   noArg_of main_v1114 rfl (by decide),
   noArg_of main_v1115 rfl (by decide)⟩

theorem main_part27_ops0_noarg : (main_part27_ops0 : List (HloOp τ sig (Elt F))).Forall NoArg :=
  ⟨noArg_of main_v1116 rfl (by decide),
   noArg_of main_v1117 rfl (by decide)⟩

theorem main_part27_ops1_noarg : (main_part27_ops1 : List (HloOp τ sig (Elt F))).Forall NoArg :=
  noArg_of main_v1118 rfl (by decide)

theorem main_part27_ops2_noarg : (main_part27_ops2 : List (HloOp τ sig (Elt F))).Forall NoArg :=
  ⟨noArg_of main_v1119 rfl (by decide),
   noArg_of main_cst_502 rfl (by decide),
   noArg_of main_v1120 rfl (by decide),
   noArg_of main_c_503 rfl (by decide),
   noArg_of main_v1121 rfl (by decide),
   noArg_of main_cst_504 rfl (by decide)⟩

theorem main_part27_ops3_noarg : (main_part27_ops3 : List (HloOp τ sig (Elt F))).Forall NoArg :=
  noArg_of main_v1122 rfl (by decide)

theorem main_part27_ops4_noarg : (main_part27_ops4 : List (HloOp τ sig (Elt F))).Forall NoArg :=
  ⟨noArg_of main_v1123 rfl (by decide),
   noArg_of main_c_505 rfl (by decide),
   noArg_of main_v1124 rfl (by decide),
   noArg_of main_v1125 rfl (by decide),
   noArg_of main_c_506 rfl (by decide),
   noArg_of main_v1126 rfl (by decide),
   noArg_of main_v1127 rfl (by decide),
   noArg_of main_v1128 rfl (by decide),
   noArg_of main_c_507 rfl (by decide),
   noArg_of main_v1129 rfl (by decide),
   noArg_of main_v1130 rfl (by decide),
   noArg_of main_v1131 rfl (by decide),
   noArg_of main_v1132 rfl (by decide)⟩

theorem main_part27_ops5_noarg : (main_part27_ops5 : List (HloOp τ sig (Elt F))).Forall NoArg :=
  ⟨noArg_of main_call101_call0_c rfl (by decide),
   noArg_of main_call101_call0_v0 rfl (by decide),
   noArg_of main_v1133 rfl (by decide)⟩

theorem main_part27_ops6_noarg : (main_part27_ops6 : List (HloOp τ sig (Elt F))).Forall NoArg :=
  ⟨noArg_of main_v1134 rfl (by decide),
   noArg_of main_v1135 rfl (by decide),
   noArg_of main_c_508 rfl (by decide),
   noArg_of main_v1136 rfl (by decide),
   noArg_of main_v1137 rfl (by decide)⟩

theorem main_part27_ops7_noarg : (main_part27_ops7 : List (HloOp τ sig (Elt F))).Forall NoArg :=
  ⟨noArg_of main_call102_v0 rfl (by decide),
   noArg_of main_call102_c rfl (by decide),
   noArg_of main_call102_c_0 rfl (by decide),
   noArg_of main_call102_v1_0 rfl (by decide),
   noArg_of main_v1138 rfl (by decide)⟩

theorem main_part27_ops8_noarg : (main_part27_ops8 : List (HloOp τ sig (Elt F))).Forall NoArg :=
  ⟨noArg_of main_c_509 rfl (by decide),
   noArg_of main_v1139 rfl (by decide),
   noArg_of main_v1140 rfl (by decide)⟩

theorem main_part27_ops9_noarg : (main_part27_ops9 : List (HloOp τ sig (Elt F))).Forall NoArg :=
  ⟨noArg_of main_call103_v0 rfl (by decide),
   noArg_of main_call103_c rfl (by decide),
   noArg_of main_call103_c_0 rfl (by decide),
   noArg_of main_call103_v1_0 rfl (by decide),
   noArg_of main_v1141 rfl (by decide)⟩

theorem main_part27_ops10_noarg : (main_part27_ops10 : List (HloOp τ sig (Elt F))).Forall NoArg :=
  ⟨noArg_of main_c_510 rfl (by decide),
   noArg_of main_v1142 rfl (by decide),
   noArg_of main_v1143 rfl (by decide)⟩

theorem main_part27_ops11_noarg : (main_part27_ops11 : List (HloOp τ sig (Elt F))).Forall NoArg :=
  ⟨noArg_of main_call104_v0 rfl (by decide),
   noArg_of main_call104_c rfl (by decide),
   noArg_of main_call104_c_0 rfl (by decide),
   noArg_of main_call104_v1_0 rfl (by decide),
   noArg_of main_v1144 rfl (by decide)⟩

theorem main_part27_ops12_noarg : (main_part27_ops12 : List (HloOp τ sig (Elt F))).Forall NoArg :=
  ⟨noArg_of main_c_511 rfl (by decide),
   noArg_of main_v1145 rfl (by decide),
   noArg_of main_c_512 rfl (by decide),
   noArg_of main_v1146 rfl (by decide),
   noArg_of main_v1147 rfl (by decide),
   noArg_of main_c_513 rfl (by decide),
   noArg_of main_c_514 rfl (by decide),
   noArg_of main_v1148 rfl (by decide),
   noArg_of main_c_515 rfl (by decide),
   noArg_of main_c_516 rfl (by decide),
   noArg_of main_v1149 rfl (by decide),
   noArg_of main_c_517 rfl (by decide),
   noArg_of main_v1150 rfl (by decide),
   noArg_of main_v1151 rfl (by decide),
   noArg_of main_v1152 rfl (by decide),
   noArg_of main_c_518 rfl (by decide),
   noArg_of main_v1153 rfl (by decide),
   noArg_of main_c_519 rfl (by decide),
   noArg_of main_v1154 rfl (by decide),
   noArg_of main_v1155 rfl (by decide),
   noArg_of main_c_520 rfl (by decide),
   noArg_of main_c_521 rfl (by decide)⟩

theorem main_part28_ops0_noarg : (main_part28_ops0 : List (HloOp τ sig (Elt F))).Forall NoArg :=
  ⟨noArg_of main_v1156 rfl (by decide),
   noArg_of main_c_522 rfl (by decide),
   noArg_of main_c_523 rfl (by decide),
   noArg_of main_v1157 rfl (by decide),
   noArg_of main_c_524 rfl (by decide),
   noArg_of main_v1158 rfl (by decide),
   noArg_of main_v1159 rfl (by decide),
   noArg_of main_v1160 rfl (by decide),
   noArg_of main_v1161 rfl (by decide),
   noArg_of main_c_525 rfl (by decide),
   noArg_of main_v1162 rfl (by decide),
   noArg_of main_c_526 rfl (by decide),
   noArg_of main_v1163 rfl (by decide),
   noArg_of main_v1164 rfl (by decide),
   noArg_of main_c_527 rfl (by decide),
   noArg_of main_c_528 rfl (by decide),
   noArg_of main_v1165 rfl (by decide),
   noArg_of main_c_529 rfl (by decide),
   noArg_of main_c_530 rfl (by decide),
   noArg_of main_v1166 rfl (by decide),
   noArg_of main_c_531 rfl (by decide),
   noArg_of main_v1167 rfl (by decide),
   noArg_of main_v1168 rfl (by decide),
   noArg_of main_v1169 rfl (by decide),
   noArg_of main_cst_532 rfl (by decide),
   noArg_of main_v1170 rfl (by decide),
   noArg_of main_v1171 rfl (by decide),
   noArg_of main_v1172 rfl (by decide),
   noArg_of main_v1173 rfl (by decide),
   noArg_of main_v1174 rfl (by decide),
   noArg_of main_v1175 rfl (by decide),
   noArg_of main_v1176 rfl (by decide),
   noArg_of main_v1177 rfl (by decide)⟩

theorem main_part28_ops1_noarg : (main_part28_ops1 : List (HloOp τ sig (Elt F))).Forall NoArg :=
  noArg_of main_v1178 rfl (by decide)

theorem main_part28_ops2_noarg : (main_part28_ops2 : List (HloOp τ sig (Elt F))).Forall NoArg :=
  ⟨noArg_of main_v1179 rfl (by decide),
   noArg_of main_cst_533 rfl (by decide),
   noArg_of main_v1180 rfl (by decide),
   noArg_of main_c_534 rfl (by decide),
   noArg_of main_v1181 rfl (by decide),
   noArg_of main_cst_535 rfl (by decide)⟩

theorem main_part28_ops3_noarg : (main_part28_ops3 : List (HloOp τ sig (Elt F))).Forall NoArg :=
  noArg_of main_v1182 rfl (by decide)

theorem main_part28_ops4_noarg : (main_part28_ops4 : List (HloOp τ sig (Elt F))).Forall NoArg :=
  ⟨noArg_of main_v1183 rfl (by decide),
   noArg_of main_c_536 rfl (by decide),
   noArg_of main_v1184 rfl (by decide),
   noArg_of main_v1185 rfl (by decide),
   noArg_of main_c_537 rfl (by decide),
   noArg_of main_v1186 rfl (by decide),
   noArg_of main_v1187 rfl (by decide),
   noArg_of main_v1188 rfl (by decide),
   noArg_of main_c_538 rfl (by decide),
   noArg_of main_v1189 rfl (by decide),
   noArg_of main_v1190 rfl (by decide),
   noArg_of main_v1191 rfl (by decide),
   noArg_of main_v1192 rfl (by decide)⟩

theorem main_part28_ops5_noarg : (main_part28_ops5 : List (HloOp τ sig (Elt F))).Forall NoArg :=
  ⟨noArg_of main_call107_call0_c rfl (by decide),
   noArg_of main_call107_call0_v0 rfl (by decide),
   noArg_of main_v1193 rfl (by decide)⟩

theorem main_part28_ops6_noarg : (main_part28_ops6 : List (HloOp τ sig (Elt F))).Forall NoArg :=
  ⟨noArg_of main_v1194 rfl (by decide),
   noArg_of main_v1195 rfl (by decide),
   noArg_of main_c_539 rfl (by decide),
   noArg_of main_v1196 rfl (by decide),
   noArg_of main_v1197 rfl (by decide)⟩

theorem main_part29_ops0_noarg : (main_part29_ops0 : List (HloOp τ sig (Elt F))).Forall NoArg :=
  ⟨noArg_of main_call108_v0 rfl (by decide),
   noArg_of main_call108_c rfl (by decide),
   noArg_of main_call108_c_0 rfl (by decide),
   noArg_of main_call108_v1_0 rfl (by decide),
   noArg_of main_v1198 rfl (by decide)⟩

theorem main_part29_ops1_noarg : (main_part29_ops1 : List (HloOp τ sig (Elt F))).Forall NoArg :=
  ⟨noArg_of main_c_540 rfl (by decide),
   noArg_of main_v1199 rfl (by decide),
   noArg_of main_v1200 rfl (by decide)⟩

theorem main_part29_ops2_noarg : (main_part29_ops2 : List (HloOp τ sig (Elt F))).Forall NoArg :=
  ⟨noArg_of main_call109_v0 rfl (by decide),
   noArg_of main_call109_c rfl (by decide),
   noArg_of main_call109_c_0 rfl (by decide),
   noArg_of main_call109_v1_0 rfl (by decide),
   noArg_of main_v1201 rfl (by decide)⟩

theorem main_part29_ops3_noarg : (main_part29_ops3 : List (HloOp τ sig (Elt F))).Forall NoArg :=
  ⟨noArg_of main_c_541 rfl (by decide),
   noArg_of main_v1202 rfl (by decide),
   noArg_of main_v1203 rfl (by decide)⟩

theorem main_part29_ops4_noarg : (main_part29_ops4 : List (HloOp τ sig (Elt F))).Forall NoArg :=
  ⟨noArg_of main_call110_v0 rfl (by decide),
   noArg_of main_call110_c rfl (by decide),
   noArg_of main_call110_c_0 rfl (by decide),
   noArg_of main_call110_v1_0 rfl (by decide),
   noArg_of main_v1204 rfl (by decide)⟩

theorem main_part29_ops5_noarg : (main_part29_ops5 : List (HloOp τ sig (Elt F))).Forall NoArg :=
  ⟨noArg_of main_c_542 rfl (by decide),
   noArg_of main_v1205 rfl (by decide),
   noArg_of main_c_543 rfl (by decide),
   noArg_of main_v1206 rfl (by decide),
   noArg_of main_v1207 rfl (by decide),
   noArg_of main_c_544 rfl (by decide),
   noArg_of main_c_545 rfl (by decide),
   noArg_of main_v1208 rfl (by decide),
   noArg_of main_c_546 rfl (by decide),
   noArg_of main_c_547 rfl (by decide),
   noArg_of main_v1209 rfl (by decide),
   noArg_of main_c_548 rfl (by decide),
   noArg_of main_v1210 rfl (by decide),
   noArg_of main_v1211 rfl (by decide),
   noArg_of main_v1212 rfl (by decide),
   noArg_of main_c_549 rfl (by decide),
   noArg_of main_v1213 rfl (by decide),
   noArg_of main_c_550 rfl (by decide),
   noArg_of main_v1214 rfl (by decide),
   noArg_of main_v1215 rfl (by decide),
   noArg_of main_c_551 rfl (by decide),
   noArg_of main_c_552 rfl (by decide),
   noArg_of main_v1216 rfl (by decide),
   noArg_of main_c_553 rfl (by decide),
   noArg_of main_c_554 rfl (by decide),
   noArg_of main_v1217 rfl (by decide),
   noArg_of main_c_555 rfl (by decide),
   noArg_of main_v1218 rfl (by decide),
   noArg_of main_v1219 rfl (by decide),
   noArg_of main_v1220 rfl (by decide),
   noArg_of main_v1221 rfl (by decide),
   noArg_of main_c_556 rfl (by decide),
   noArg_of main_v1222 rfl (by decide),
   noArg_of main_c_557 rfl (by decide),
   noArg_of main_v1223 rfl (by decide),
   noArg_of main_v1224 rfl (by decide),
   noArg_of main_c_558 rfl (by decide),
   noArg_of main_c_559 rfl (by decide),
   noArg_of main_v1225 rfl (by decide),
   noArg_of main_c_560 rfl (by decide),
   noArg_of main_c_561 rfl (by decide),
   noArg_of main_v1226 rfl (by decide),
   noArg_of main_c_562 rfl (by decide),
   noArg_of main_v1227 rfl (by decide),
   noArg_of main_v1228 rfl (by decide),
   noArg_of main_v1229 rfl (by decide),
   noArg_of main_cst_563 rfl (by decide),
   noArg_of main_v1230 rfl (by decide),
   noArg_of main_v1231 rfl (by decide),
   noArg_of main_v1232 rfl (by decide),
   noArg_of main_v1233 rfl (by decide)⟩

theorem main_part30_ops0_noarg : (main_part30_ops0 : List (HloOp τ sig (Elt F))).Forall NoArg :=
  ⟨noArg_of main_v1234 rfl (by decide),
   noArg_of main_v1235 rfl (by decide),
   noArg_of main_v1236 rfl (by decide),
   noArg_of main_v1237 rfl (by decide)⟩

theorem main_part30_ops1_noarg : (main_part30_ops1 : List (HloOp τ sig (Elt F))).Forall NoArg :=
  noArg_of main_v1238 rfl (by decide)

theorem main_part30_ops2_noarg : (main_part30_ops2 : List (HloOp τ sig (Elt F))).Forall NoArg :=
  ⟨noArg_of main_v1239 rfl (by decide),
   noArg_of main_cst_564 rfl (by decide),
   noArg_of main_v1240 rfl (by decide),
   noArg_of main_c_565 rfl (by decide),
   noArg_of main_v1241 rfl (by decide),
   noArg_of main_cst_566 rfl (by decide)⟩

theorem main_part30_ops3_noarg : (main_part30_ops3 : List (HloOp τ sig (Elt F))).Forall NoArg :=
  noArg_of main_v1242 rfl (by decide)

theorem main_part30_ops4_noarg : (main_part30_ops4 : List (HloOp τ sig (Elt F))).Forall NoArg :=
  ⟨noArg_of main_v1243 rfl (by decide),
   noArg_of main_c_567 rfl (by decide),
   noArg_of main_v1244 rfl (by decide),
   noArg_of main_v1245 rfl (by decide),
   noArg_of main_c_568 rfl (by decide),
   noArg_of main_v1246 rfl (by decide),
   noArg_of main_v1247 rfl (by decide),
   noArg_of main_v1248 rfl (by decide),
   noArg_of main_c_569 rfl (by decide),
   noArg_of main_v1249 rfl (by decide),
   noArg_of main_v1250 rfl (by decide),
   noArg_of main_v1251 rfl (by decide),
   noArg_of main_v1252 rfl (by decide)⟩

theorem main_part30_ops5_noarg : (main_part30_ops5 : List (HloOp τ sig (Elt F))).Forall NoArg :=
  ⟨noArg_of main_call113_call0_c rfl (by decide),
   noArg_of main_call113_call0_v0 rfl (by decide),
   noArg_of main_v1253 rfl (by decide)⟩

theorem main_part30_ops6_noarg : (main_part30_ops6 : List (HloOp τ sig (Elt F))).Forall NoArg :=
  ⟨noArg_of main_v1254 rfl (by decide),
   noArg_of main_v1255 rfl (by decide),
   noArg_of main_c_570 rfl (by decide),
   noArg_of main_v1256 rfl (by decide),
   noArg_of main_v1257 rfl (by decide)⟩

theorem main_part30_ops7_noarg : (main_part30_ops7 : List (HloOp τ sig (Elt F))).Forall NoArg :=
  ⟨noArg_of main_call114_v0 rfl (by decide),
   noArg_of main_call114_c rfl (by decide),
   noArg_of main_call114_c_0 rfl (by decide),
   noArg_of main_call114_v1_0 rfl (by decide),
   noArg_of main_v1258 rfl (by decide)⟩

theorem main_part30_ops8_noarg : (main_part30_ops8 : List (HloOp τ sig (Elt F))).Forall NoArg :=
  ⟨noArg_of main_c_571 rfl (by decide),
   noArg_of main_v1259 rfl (by decide),
   noArg_of main_v1260 rfl (by decide)⟩

theorem main_part30_ops9_noarg : (main_part30_ops9 : List (HloOp τ sig (Elt F))).Forall NoArg :=
  ⟨noArg_of main_call115_v0 rfl (by decide),
   noArg_of main_call115_c rfl (by decide),
   noArg_of main_call115_c_0 rfl (by decide),
   noArg_of main_call115_v1_0 rfl (by decide),
   noArg_of main_v1261 rfl (by decide)⟩

theorem main_part30_ops10_noarg : (main_part30_ops10 : List (HloOp τ sig (Elt F))).Forall NoArg :=
  ⟨noArg_of main_c_572 rfl (by decide),
   noArg_of main_v1262 rfl (by decide),
   noArg_of main_v1263 rfl (by decide)⟩

theorem main_part30_ops11_noarg : (main_part30_ops11 : List (HloOp τ sig (Elt F))).Forall NoArg :=
  ⟨noArg_of main_call116_v0 rfl (by decide),
   noArg_of main_call116_c rfl (by decide),
   noArg_of main_call116_c_0 rfl (by decide),
   noArg_of main_call116_v1_0 rfl (by decide),
   noArg_of main_v1264 rfl (by decide)⟩

theorem main_part30_ops12_noarg : (main_part30_ops12 : List (HloOp τ sig (Elt F))).Forall NoArg :=
  ⟨noArg_of main_c_573 rfl (by decide),
   noArg_of main_v1265 rfl (by decide),
   noArg_of main_c_574 rfl (by decide),
   noArg_of main_v1266 rfl (by decide),
   noArg_of main_v1267 rfl (by decide),
   noArg_of main_c_575 rfl (by decide),
   noArg_of main_c_576 rfl (by decide),
   noArg_of main_v1268 rfl (by decide),
   noArg_of main_c_577 rfl (by decide),
   noArg_of main_c_578 rfl (by decide),
   noArg_of main_v1269 rfl (by decide),
   noArg_of main_c_579 rfl (by decide),
   noArg_of main_v1270 rfl (by decide),
   noArg_of main_v1271 rfl (by decide),
   noArg_of main_v1272 rfl (by decide),
   noArg_of main_c_580 rfl (by decide),
   noArg_of main_v1273 rfl (by decide),
   noArg_of main_c_581 rfl (by decide),
   noArg_of main_v1274 rfl (by decide),
   noArg_of main_v1275 rfl (by decide)⟩

theorem main_part31_ops0_noarg : (main_part31_ops0 : List (HloOp τ sig (Elt F))).Forall NoArg :=
  ⟨noArg_of main_c_582 rfl (by decide),
   noArg_of main_c_583 rfl (by decide),
   noArg_of main_v1276 rfl (by decide),
   noArg_of main_c_584 rfl (by decide),
   noArg_of main_c_585 rfl (by decide),
   noArg_of main_v1277 rfl (by decide),
   noArg_of main_c_586 rfl (by decide),
   noArg_of main_v1278 rfl (by decide),
   noArg_of main_v1279 rfl (by decide),
   noArg_of main_v1280 rfl (by decide),
   noArg_of main_v1281 rfl (by decide),
   noArg_of main_c_587 rfl (by decide),
   noArg_of main_v1282 rfl (by decide),
   noArg_of main_c_588 rfl (by decide),
   noArg_of main_v1283 rfl (by decide),
   noArg_of main_v1284 rfl (by decide),
   noArg_of main_c_589 rfl (by decide),
   noArg_of main_c_590 rfl (by decide),
   noArg_of main_v1285 rfl (by decide),
   noArg_of main_c_591 rfl (by decide),
   noArg_of main_c_592 rfl (by decide),
   noArg_of main_v1286 rfl (by decide),
   noArg_of main_c_593 rfl (by decide),
   noArg_of main_v1287 rfl (by decide),
   noArg_of main_v1288 rfl (by decide),
   noArg_of main_v1289 rfl (by decide),
   noArg_of main_cst_594 rfl (by decide),
   noArg_of main_v1290 rfl (by decide),
   noArg_of main_v1291 rfl (by decide),
   noArg_of main_v1292 rfl (by decide),
   noArg_of main_v1293 rfl (by decide),
   noArg_of main_v1294 rfl (by decide),
   noArg_of main_v1295 rfl (by decide),
   noArg_of main_v1296 rfl (by decide),
   noArg_of main_v1297 rfl (by decide)⟩

theorem main_part31_ops1_noarg : (main_part31_ops1 : List (HloOp τ sig (Elt F))).Forall NoArg :=
  noArg_of main_v1298 rfl (by decide)

theorem main_part31_ops2_noarg : (main_part31_ops2 : List (HloOp τ sig (Elt F))).Forall NoArg :=
  ⟨noArg_of main_v1299 rfl (by decide),
   noArg_of main_cst_595 rfl (by decide),
   noArg_of main_v1300 rfl (by decide),
   noArg_of main_c_596 rfl (by decide),
   noArg_of main_v1301 rfl (by decide),
   noArg_of main_cst_597 rfl (by decide)⟩

theorem main_part31_ops3_noarg : (main_part31_ops3 : List (HloOp τ sig (Elt F))).Forall NoArg :=
  noArg_of main_v1302 rfl (by decide)

theorem main_part31_ops4_noarg : (main_part31_ops4 : List (HloOp τ sig (Elt F))).Forall NoArg :=
  ⟨noArg_of main_v1303 rfl (by decide),
   noArg_of main_c_598 rfl (by decide),
   noArg_of main_v1304 rfl (by decide),
   noArg_of main_v1305 rfl (by decide),
   noArg_of main_c_599 rfl (by decide),
   noArg_of main_v1306 rfl (by decide),
   noArg_of main_v1307 rfl (by decide),
   noArg_of main_v1308 rfl (by decide),
   noArg_of main_c_600 rfl (by decide),
   noArg_of main_v1309 rfl (by decide),
   noArg_of main_v1310 rfl (by decide),
   noArg_of main_v1311 rfl (by decide),
   noArg_of main_v1312 rfl (by decide)⟩

theorem main_part31_ops5_noarg : (main_part31_ops5 : List (HloOp τ sig (Elt F))).Forall NoArg :=
  ⟨noArg_of main_call119_call0_c rfl (by decide),
   noArg_of main_call119_call0_v0 rfl (by decide),
   noArg_of main_v1313 rfl (by decide)⟩

theorem main_part31_ops6_noarg : (main_part31_ops6 : List (HloOp τ sig (Elt F))).Forall NoArg :=
  ⟨noArg_of main_v1314 rfl (by decide),
   noArg_of main_v1315 rfl (by decide),
   noArg_of main_c_601 rfl (by decide)⟩

theorem main_part32_ops0_noarg : (main_part32_ops0 : List (HloOp τ sig (Elt F))).Forall NoArg :=
  ⟨noArg_of main_v1316 rfl (by decide),
   noArg_of main_v1317 rfl (by decide)⟩

theorem main_part32_ops1_noarg : (main_part32_ops1 : List (HloOp τ sig (Elt F))).Forall NoArg :=
  ⟨noArg_of main_call120_v0 rfl (by decide),
   noArg_of main_call120_c rfl (by decide),
   noArg_of main_call120_c_0 rfl (by decide),
   noArg_of main_call120_v1_0 rfl (by decide),
   noArg_of main_v1318 rfl (by decide)⟩

theorem main_part32_ops2_noarg : (main_part32_ops2 : List (HloOp τ sig (Elt F))).Forall NoArg :=
  ⟨noArg_of main_c_602 rfl (by decide),
   noArg_of main_v1319 rfl (by decide),
   noArg_of main_v1320 rfl (by decide)⟩

theorem main_part32_ops3_noarg : (main_part32_ops3 : List (HloOp τ sig (Elt F))).Forall NoArg :=
  ⟨noArg_of main_call121_v0 rfl (by decide),
   noArg_of main_call121_c rfl (by decide),
   noArg_of main_call121_c_0 rfl (by decide),
   noArg_of main_call121_v1_0 rfl (by decide),
   noArg_of main_v1321 rfl (by decide)⟩

theorem main_part32_ops4_noarg : (main_part32_ops4 : List (HloOp τ sig (Elt F))).Forall NoArg :=
  ⟨noArg_of main_c_603 rfl (by decide),
   noArg_of main_v1322 rfl (by decide),
   noArg_of main_v1323 rfl (by decide)⟩

theorem main_part32_ops5_noarg : (main_part32_ops5 : List (HloOp τ sig (Elt F))).Forall NoArg :=
  ⟨noArg_of main_call122_v0 rfl (by decide),
   noArg_of main_call122_c rfl (by decide),
   noArg_of main_call122_c_0 rfl (by decide),
   noArg_of main_call122_v1_0 rfl (by decide),
   noArg_of main_v1324 rfl (by decide)⟩

theorem main_part32_ops6_noarg : (main_part32_ops6 : List (HloOp τ sig (Elt F))).Forall NoArg :=
  ⟨noArg_of main_c_604 rfl (by decide),
   noArg_of main_v1325 rfl (by decide),
   noArg_of main_c_605 rfl (by decide),
   noArg_of main_v1326 rfl (by decide),
   noArg_of main_v1327 rfl (by decide),
   noArg_of main_c_606 rfl (by decide),
   noArg_of main_c_607 rfl (by decide),
   noArg_of main_v1328 rfl (by decide),
   noArg_of main_c_608 rfl (by decide),
   noArg_of main_c_609 rfl (by decide),
   noArg_of main_v1329 rfl (by decide),
   noArg_of main_c_610 rfl (by decide),
   noArg_of main_v1330 rfl (by decide),
   noArg_of main_v1331 rfl (by decide),
   noArg_of main_v1332 rfl (by decide),
   noArg_of main_c_611 rfl (by decide),
   noArg_of main_v1333 rfl (by decide),
   noArg_of main_c_612 rfl (by decide),
   noArg_of main_v1334 rfl (by decide),
   noArg_of main_v1335 rfl (by decide),
   noArg_of main_c_613 rfl (by decide),
   noArg_of main_c_614 rfl (by decide),
   noArg_of main_v1336 rfl (by decide),
   noArg_of main_c_615 rfl (by decide),
   noArg_of main_c_616 rfl (by decide),
   noArg_of main_v1337 rfl (by decide),
   noArg_of main_c_617 rfl (by decide),
   noArg_of main_v1338 rfl (by decide),
   noArg_of main_v1339 rfl (by decide),
   noArg_of main_v1340 rfl (by decide),
   noArg_of main_v1341 rfl (by decide),
   noArg_of main_c_618 rfl (by decide),
   noArg_of main_v1342 rfl (by decide),
   noArg_of main_c_619 rfl (by decide),
   noArg_of main_v1343 rfl (by decide),
   noArg_of main_v1344 rfl (by decide),
   noArg_of main_c_620 rfl (by decide),
   noArg_of main_c_621 rfl (by decide),
   noArg_of main_v1345 rfl (by decide),
   noArg_of main_c_622 rfl (by decide),
   noArg_of main_c_623 rfl (by decide),
   noArg_of main_v1346 rfl (by decide),
   noArg_of main_c_624 rfl (by decide),
   noArg_of main_v1347 rfl (by decide),
   noArg_of main_v1348 rfl (by decide),
   noArg_of main_v1349 rfl (by decide),
   noArg_of main_cst_625 rfl (by decide),
   noArg_of main_v1350 rfl (by decide),
   noArg_of main_v1351 rfl (by decide)⟩

theorem main_part33_ops0_noarg : (main_part33_ops0 : List (HloOp τ sig (Elt F))).Forall NoArg :=
  ⟨noArg_of main_v1352 rfl (by decide),
   noArg_of main_v1353 rfl (by decide),
   noArg_of main_v1354 rfl (by decide),
   noArg_of main_v1355 rfl (by decide),
   noArg_of main_v1356 rfl (by decide),
   noArg_of main_v1357 rfl (by decide)⟩

theorem main_part33_ops1_noarg : (main_part33_ops1 : List (HloOp τ sig (Elt F))).Forall NoArg :=
  noArg_of main_v1358 rfl (by decide)

theorem main_part33_ops2_noarg : (main_part33_ops2 : List (HloOp τ sig (Elt F))).Forall NoArg :=
  ⟨noArg_of main_v1359 rfl (by decide),
   noArg_of main_cst_626 rfl (by decide),
   noArg_of main_v1360 rfl (by decide),
   noArg_of main_c_627 rfl (by decide),
   noArg_of main_v1361 rfl (by decide),
   noArg_of main_cst_628 rfl (by decide)⟩

theorem main_part33_ops3_noarg : (main_part33_ops3 : List (HloOp τ sig (Elt F))).Forall NoArg :=
  noArg_of main_v1362 rfl (by decide)

theorem main_part33_ops4_noarg : (main_part33_ops4 : List (HloOp τ sig (Elt F))).Forall NoArg :=
  ⟨noArg_of main_v1363 rfl (by decide),
   noArg_of main_c_629 rfl (by decide),
   noArg_of main_v1364 rfl (by decide),
   noArg_of main_v1365 rfl (by decide),
   noArg_of main_c_630 rfl (by decide),
   noArg_of main_v1366 rfl (by decide),
   noArg_of main_v1367 rfl (by decide),
   noArg_of main_v1368 rfl (by decide),
   noArg_of main_c_631 rfl (by decide),
   noArg_of main_v1369 rfl (by decide),
   noArg_of main_v1370 rfl (by decide),
   noArg_of main_v1371 rfl (by decide),
   noArg_of main_v1372 rfl (by decide)⟩

theorem main_part33_ops5_noarg : (main_part33_ops5 : List (HloOp τ sig (Elt F))).Forall NoArg :=
  ⟨noArg_of main_call125_call0_c rfl (by decide),
   noArg_of main_call125_call0_v0 rfl (by decide),
   noArg_of main_v1373 rfl (by decide)⟩

theorem main_part33_ops6_noarg : (main_part33_ops6 : List (HloOp τ sig (Elt F))).Forall NoArg :=
  ⟨noArg_of main_v1374 rfl (by decide),
   noArg_of main_v1375 rfl (by decide),
   noArg_of main_c_632 rfl (by decide),
   noArg_of main_v1376 rfl (by decide),
   noArg_of main_v1377 rfl (by decide)⟩

theorem main_part33_ops7_noarg : (main_part33_ops7 : List (HloOp τ sig (Elt F))).Forall NoArg :=
  ⟨noArg_of main_call126_v0 rfl (by decide),
   noArg_of main_call126_c rfl (by decide),
   noArg_of main_call126_c_0 rfl (by decide),
   noArg_of main_call126_v1_0 rfl (by decide),
   noArg_of main_v1378 rfl (by decide)⟩

theorem main_part33_ops8_noarg : (main_part33_ops8 : List (HloOp τ sig (Elt F))).Forall NoArg :=
  ⟨noArg_of main_c_633 rfl (by decide),
   noArg_of main_v1379 rfl (by decide),
   noArg_of main_v1380 rfl (by decide)⟩

theorem main_part33_ops9_noarg : (main_part33_ops9 : List (HloOp τ sig (Elt F))).Forall NoArg :=
  ⟨noArg_of main_call127_v0 rfl (by decide),
   noArg_of main_call127_c rfl (by decide),
   noArg_of main_call127_c_0 rfl (by decide),
   noArg_of main_call127_v1_0 rfl (by decide),
   noArg_of main_v1381 rfl (by decide)⟩

theorem main_part33_ops10_noarg : (main_part33_ops10 : List (HloOp τ sig (Elt F))).Forall NoArg :=
  ⟨noArg_of main_c_634 rfl (by decide),
   noArg_of main_v1382 rfl (by decide),
   noArg_of main_v1383 rfl (by decide)⟩

theorem main_part33_ops11_noarg : (main_part33_ops11 : List (HloOp τ sig (Elt F))).Forall NoArg :=
  ⟨noArg_of main_call128_v0 rfl (by decide),
   noArg_of main_call128_c rfl (by decide),
   noArg_of main_call128_c_0 rfl (by decide),
   noArg_of main_call128_v1_0 rfl (by decide),
   noArg_of main_v1384 rfl (by decide)⟩

theorem main_part33_ops12_noarg : (main_part33_ops12 : List (HloOp τ sig (Elt F))).Forall NoArg :=
  ⟨noArg_of main_c_635 rfl (by decide),
   noArg_of main_v1385 rfl (by decide),
   noArg_of main_c_636 rfl (by decide),
   noArg_of main_v1386 rfl (by decide),
   noArg_of main_v1387 rfl (by decide),
   noArg_of main_c_637 rfl (by decide),
   noArg_of main_c_638 rfl (by decide),
   noArg_of main_v1388 rfl (by decide),
   noArg_of main_c_639 rfl (by decide),
   noArg_of main_c_640 rfl (by decide),
   noArg_of main_v1389 rfl (by decide),
   noArg_of main_c_641 rfl (by decide),
   noArg_of main_v1390 rfl (by decide),
   noArg_of main_v1391 rfl (by decide),
   noArg_of main_v1392 rfl (by decide),
   noArg_of main_c_642 rfl (by decide),
   noArg_of main_v1393 rfl (by decide),
   noArg_of main_c_643 rfl (by decide)⟩

theorem main_part34_ops0_noarg : (main_part34_ops0 : List (HloOp τ sig (Elt F))).Forall NoArg :=
  ⟨noArg_of main_v1394 rfl (by decide),
   noArg_of main_v1395 rfl (by decide),
   noArg_of main_c_644 rfl (by decide),
   noArg_of main_c_645 rfl (by decide),
   noArg_of main_v1396 rfl (by decide),
   noArg_of main_c_646 rfl (by decide),
   noArg_of main_c_647 rfl (by decide),
   noArg_of main_v1397 rfl (by decide),
   noArg_of main_c_648 rfl (by decide),
   noArg_of main_v1398 rfl (by decide),
   noArg_of main_v1399 rfl (by decide),
   noArg_of main_v1400 rfl (by decide),
   noArg_of main_v1401 rfl (by decide),
   noArg_of main_c_649 rfl (by decide),
   noArg_of main_v1402 rfl (by decide),
   noArg_of main_c_650 rfl (by decide),
   noArg_of main_v1403 rfl (by decide),
   noArg_of main_v1404 rfl (by decide),
   noArg_of main_c_651 rfl (by decide),
   noArg_of main_c_652 rfl (by decide),
   noArg_of main_v1405 rfl (by decide),
   noArg_of main_c_653 rfl (by decide),
   noArg_of main_c_654 rfl (by decide),
   noArg_of main_v1406 rfl (by decide),
   noArg_of main_c_655 rfl (by decide),
   noArg_of main_v1407 rfl (by decide),
   noArg_of main_v1408 rfl (by decide),
   noArg_of main_v1409 rfl (by decide),
   noArg_of main_cst_656 rfl (by decide),
   noArg_of main_v1410 rfl (by decide),
   noArg_of main_v1411 rfl (by decide),
   noArg_of main_v1412 rfl (by decide),
   noArg_of main_v1413 rfl (by decide),
   noArg_of main_v1414 rfl (by decide),
   noArg_of main_v1415 rfl (by decide),
   noArg_of main_v1416 rfl (by decide),
   noArg_of main_v1417 rfl (by decide)⟩

theorem main_part34_ops1_noarg : (main_part34_ops1 : List (HloOp τ sig (Elt F))).Forall NoArg :=
  noArg_of main_v1418 rfl (by decide)

theorem main_part34_ops2_noarg : (main_part34_ops2 : List (HloOp τ sig (Elt F))).Forall NoArg :=
  ⟨noArg_of main_v1419 rfl (by decide),
   noArg_of main_cst_657 rfl (by decide),
   noArg_of main_v1420 rfl (by decide),
   noArg_of main_c_658 rfl (by decide),
   noArg_of main_v1421 rfl (by decide),
   noArg_of main_cst_659 rfl (by decide)⟩

theorem main_part34_ops3_noarg : (main_part34_ops3 : List (HloOp τ sig (Elt F))).Forall NoArg :=
  noArg_of main_v1422 rfl (by decide)

theorem main_part34_ops4_noarg : (main_part34_ops4 : List (HloOp τ sig (Elt F))).Forall NoArg :=
  ⟨noArg_of main_v1423 rfl (by decide),
   noArg_of main_c_660 rfl (by decide),
   noArg_of main_v1424 rfl (by decide),
   noArg_of main_v1425 rfl (by decide),
   noArg_of main_c_661 rfl (by decide),
   noArg_of main_v1426 rfl (by decide),
   noArg_of main_v1427 rfl (by decide),
   noArg_of main_v1428 rfl (by decide),
   noArg_of main_c_662 rfl (by decide),
   noArg_of main_v1429 rfl (by decide),
   noArg_of main_v1430 rfl (by decide),
   noArg_of main_v1431 rfl (by decide),
   noArg_of main_v1432 rfl (by decide)⟩

theorem main_part34_ops5_noarg : (main_part34_ops5 : List (HloOp τ sig (Elt F))).Forall NoArg :=
  ⟨noArg_of main_call131_call0_c rfl (by decide),
   noArg_of main_call131_call0_v0 rfl (by decide),
   noArg_of main_v1433 rfl (by decide)⟩

theorem main_part34_ops6_noarg : (main_part34_ops6 : List (HloOp τ sig (Elt F))).Forall NoArg :=
  noArg_of main_v1434 rfl (by decide)

theorem main_part35_ops0_noarg : (main_part35_ops0 : List (HloOp τ sig (Elt F))).Forall NoArg :=
  ⟨noArg_of main_v1435 rfl (by decide),
   noArg_of main_c_663 rfl (by decide),
   noArg_of main_v1436 rfl (by decide),
   noArg_of main_v1437 rfl (by decide)⟩

theorem main_part35_ops1_noarg : (main_part35_ops1 : List (HloOp τ sig (Elt F))).Forall NoArg :=
  ⟨noArg_of main_call132_v0 rfl (by decide),
   noArg_of main_call132_c rfl (by decide),
   noArg_of main_call132_c_0 rfl (by decide),
   noArg_of main_call132_v1_0 rfl (by decide),
   noArg_of main_v1438 rfl (by decide)⟩

theorem main_part35_ops2_noarg : (main_part35_ops2 : List (HloOp τ sig (Elt F))).Forall NoArg :=
  ⟨noArg_of main_c_664 rfl (by decide),
   noArg_of main_v1439 rfl (by decide),
   noArg_of main_v1440 rfl (by decide)⟩

theorem main_part35_ops3_noarg : (main_part35_ops3 : List (HloOp τ sig (Elt F))).Forall NoArg :=
  ⟨noArg_of main_call133_v0 rfl (by decide),
   noArg_of main_call133_c rfl (by decide),
   noArg_of main_call133_c_0 rfl (by decide),
   noArg_of main_call133_v1_0 rfl (by decide),
   noArg_of main_v1441 rfl (by decide)⟩

theorem main_part35_ops4_noarg : (main_part35_ops4 : List (HloOp τ sig (Elt F))).Forall NoArg :=
  ⟨noArg_of main_c_665 rfl (by decide),
   noArg_of main_v1442 rfl (by decide),
   noArg_of main_v1443 rfl (by decide)⟩

theorem main_part35_ops5_noarg : (main_part35_ops5 : List (HloOp τ sig (Elt F))).Forall NoArg :=
  ⟨noArg_of main_call134_v0 rfl (by decide),
   noArg_of main_call134_c rfl (by decide),
   noArg_of main_call134_c_0 rfl (by decide),
   noArg_of main_call134_v1_0 rfl (by decide),
   noArg_of main_v1444 rfl (by decide)⟩

theorem main_part35_ops6_noarg : (main_part35_ops6 : List (HloOp τ sig (Elt F))).Forall NoArg :=
  ⟨noArg_of main_c_666 rfl (by decide),
   noArg_of main_v1445 rfl (by decide),
   noArg_of main_c_667 rfl (by decide),
   noArg_of main_v1446 rfl (by decide),
   noArg_of main_v1447 rfl (by decide),
   noArg_of main_c_668 rfl (by decide),
   noArg_of main_c_669 rfl (by decide),
   noArg_of main_v1448 rfl (by decide),
   noArg_of main_c_670 rfl (by decide),
   noArg_of main_c_671 rfl (by decide),
   noArg_of main_v1449 rfl (by decide),
   noArg_of main_c_672 rfl (by decide),
   noArg_of main_v1450 rfl (by decide),
   noArg_of main_v1451 rfl (by decide),
   noArg_of main_v1452 rfl (by decide),
   noArg_of main_c_673 rfl (by decide),
   noArg_of main_v1453 rfl (by decide),
   noArg_of main_c_674 rfl (by decide),
   noArg_of main_v1454 rfl (by decide),
   noArg_of main_v1455 rfl (by decide),
   noArg_of main_c_675 rfl (by decide),
   noArg_of main_c_676 rfl (by decide),
   noArg_of main_v1456 rfl (by decide),
   noArg_of main_c_677 rfl (by decide),
   noArg_of main_c_678 rfl (by decide),
   noArg_of main_v1457 rfl (by decide),
   noArg_of main_c_679 rfl (by decide),
   noArg_of main_v1458 rfl (by decide),
   noArg_of main_v1459 rfl (by decide),
   noArg_of main_v1460 rfl (by decide),
   noArg_of main_v1461 rfl (by decide),
   noArg_of main_c_680 rfl (by decide),
   noArg_of main_v1462 rfl (by decide),
   noArg_of main_c_681 rfl (by decide),
   noArg_of main_v1463 rfl (by decide),
   noArg_of main_v1464 rfl (by decide),
   noArg_of main_c_682 rfl (by decide),
   noArg_of main_c_683 rfl (by decide),
   noArg_of main_v1465 rfl (by decide),
   noArg_of main_c_684 rfl (by decide),
   noArg_of main_c_685 rfl (by decide),
   noArg_of main_v1466 rfl (by decide),
   noArg_of main_c_686 rfl (by decide),
   noArg_of main_v1467 rfl (by decide),
   noArg_of main_v1468 rfl (by decide),
   noArg_of main_v1469 rfl (by decide),
   noArg_of main_cst_687 rfl (by decide)⟩

theorem main_part36_ops0_noarg : (main_part36_ops0 : List (HloOp τ sig (Elt F))).Forall NoArg :=
  ⟨noArg_of main_v1470 rfl (by decide),
   noArg_of main_v1471 rfl (by decide),
   noArg_of main_v1472 rfl (by decide),
   noArg_of main_v1473 rfl (by decide),
   noArg_of main_v1474 rfl (by decide),
   noArg_of main_v1475 rfl (by decide),
   noArg_of main_v1476 rfl (by decide),
   noArg_of main_v1477 rfl (by decide)⟩

theorem main_part36_ops1_noarg : (main_part36_ops1 : List (HloOp τ sig (Elt F))).Forall NoArg :=
  noArg_of main_v1478 rfl (by decide)

theorem main_part36_ops2_noarg : (main_part36_ops2 : List (HloOp τ sig (Elt F))).Forall NoArg :=
  ⟨noArg_of main_v1479 rfl (by decide),
   noArg_of main_cst_688 rfl (by decide),
   noArg_of main_v1480 rfl (by decide),
   noArg_of main_c_689 rfl (by decide),
   noArg_of main_v1481 rfl (by decide),
   noArg_of main_cst_690 rfl (by decide)⟩

theorem main_part36_ops3_noarg : (main_part36_ops3 : List (HloOp τ sig (Elt F))).Forall NoArg :=
  noArg_of main_v1482 rfl (by decide)

theorem main_part36_ops4_noarg : (main_part36_ops4 : List (HloOp τ sig (Elt F))).Forall NoArg :=
  ⟨noArg_of main_v1483 rfl (by decide),
   noArg_of main_c_691 rfl (by decide),
   noArg_of main_v1484 rfl (by decide),
   noArg_of main_v1485 rfl (by decide),
   noArg_of main_c_692 rfl (by decide),
   noArg_of main_v1486 rfl (by decide),
   noArg_of main_v1487 rfl (by decide),
   noArg_of main_v1488 rfl (by decide),
   noArg_of main_c_693 rfl (by decide),
   noArg_of main_v1489 rfl (by decide),
   noArg_of main_v1490 rfl (by decide),
   noArg_of main_v1491 rfl (by decide),
   noArg_of main_v1492 rfl (by decide)⟩

theorem main_part36_ops5_noarg : (main_part36_ops5 : List (HloOp τ sig (Elt F))).Forall NoArg :=
  ⟨noArg_of main_call137_call0_c rfl (by decide),
   noArg_of main_call137_call0_v0 rfl (by decide),
   noArg_of main_v1493 rfl (by decide)⟩

theorem main_part36_ops6_noarg : (main_part36_ops6 : List (HloOp τ sig (Elt F))).Forall NoArg :=
  ⟨noArg_of main_v1494 rfl (by decide),
   noArg_of main_v1495 rfl (by decide),
   noArg_of main_c_694 rfl (by decide),
   noArg_of main_v1496 rfl (by decide),
   noArg_of main_v1497 rfl (by decide)⟩

theorem main_part36_ops7_noarg : (main_part36_ops7 : List (HloOp τ sig (Elt F))).Forall NoArg :=
  ⟨noArg_of main_call138_v0 rfl (by decide),
   noArg_of main_call138_c rfl (by decide),
   noArg_of main_call138_c_0 rfl (by decide),
   noArg_of main_call138_v1_0 rfl (by decide),
   noArg_of main_v1498 rfl (by decide)⟩

theorem main_part36_ops8_noarg : (main_part36_ops8 : List (HloOp τ sig (Elt F))).Forall NoArg :=
  ⟨noArg_of main_c_695 rfl (by decide),
   noArg_of main_v1499 rfl (by decide),
   noArg_of main_v1500 rfl (by decide)⟩

theorem main_part36_ops9_noarg : (main_part36_ops9 : List (HloOp τ sig (Elt F))).Forall NoArg :=
  ⟨noArg_of main_call139_v0 rfl (by decide),
   noArg_of main_call139_c rfl (by decide),
   noArg_of main_call139_c_0 rfl (by decide),
   noArg_of main_call139_v1_0 rfl (by decide),
   noArg_of main_v1501 rfl (by decide)⟩

theorem main_part36_ops10_noarg : (main_part36_ops10 : List (HloOp τ sig (Elt F))).Forall NoArg :=
  ⟨noArg_of main_c_696 rfl (by decide),
   noArg_of main_v1502 rfl (by decide),
   noArg_of main_v1503 rfl (by decide)⟩

theorem main_part36_ops11_noarg : (main_part36_ops11 : List (HloOp τ sig (Elt F))).Forall NoArg :=
  ⟨noArg_of main_call140_v0 rfl (by decide),
   noArg_of main_call140_c rfl (by decide),
   noArg_of main_call140_c_0 rfl (by decide),
   noArg_of main_call140_v1_0 rfl (by decide),
   noArg_of main_v1504 rfl (by decide)⟩

theorem main_part36_ops12_noarg : (main_part36_ops12 : List (HloOp τ sig (Elt F))).Forall NoArg :=
  ⟨noArg_of main_c_697 rfl (by decide),
   noArg_of main_v1505 rfl (by decide),
   noArg_of main_c_698 rfl (by decide),
   noArg_of main_v1506 rfl (by decide),
   noArg_of main_v1507 rfl (by decide),
   noArg_of main_c_699 rfl (by decide),
   noArg_of main_c_700 rfl (by decide),
   noArg_of main_v1508 rfl (by decide),
   noArg_of main_c_701 rfl (by decide),
   noArg_of main_c_702 rfl (by decide),
   noArg_of main_v1509 rfl (by decide),
   noArg_of main_c_703 rfl (by decide),
   noArg_of main_v1510 rfl (by decide),
   noArg_of main_v1511 rfl (by decide),
   noArg_of main_v1512 rfl (by decide),
   noArg_of main_c_704 rfl (by decide)⟩

theorem main_part37_ops0_noarg : (main_part37_ops0 : List (HloOp τ sig (Elt F))).Forall NoArg :=
  ⟨noArg_of main_v1513 rfl (by decide),
   noArg_of main_c_705 rfl (by decide),
   noArg_of main_v1514 rfl (by decide),
   noArg_of main_v1515 rfl (by decide),
   noArg_of main_c_706 rfl (by decide),
   noArg_of main_c_707 rfl (by decide),
   noArg_of main_v1516 rfl (by decide),
   noArg_of main_c_708 rfl (by decide),
   noArg_of main_c_709 rfl (by decide),
   noArg_of main_v1517 rfl (by decide),
   noArg_of main_c_710 rfl (by decide),
   noArg_of main_v1518 rfl (by decide),
   noArg_of main_v1519 rfl (by decide),
   noArg_of main_v1520 rfl (by decide),
   noArg_of main_v1521 rfl (by decide),
   noArg_of main_c_711 rfl (by decide),
   noArg_of main_v1522 rfl (by decide),
   noArg_of main_c_712 rfl (by decide),
   noArg_of main_v1523 rfl (by decide),
   noArg_of main_v1524 rfl (by decide),
   noArg_of main_c_713 rfl (by decide),
   noArg_of main_c_714 rfl (by decide),
   noArg_of main_v1525 rfl (by decide),
   noArg_of main_c_715 rfl (by decide),
   noArg_of main_c_716 rfl (by decide),
   noArg_of main_v1526 rfl (by decide),
   noArg_of main_c_717 rfl (by decide),
   noArg_of main_v1527 rfl (by decide),
   noArg_of main_v1528 rfl (by decide),
   noArg_of main_v1529 rfl (by decide),
   noArg_of main_cst_718 rfl (by decide),
   noArg_of main_v1530 rfl (by decide),
   noArg_of main_v1531 rfl (by decide),
   noArg_of main_v1532 rfl (by decide),
   noArg_of main_v1533 rfl (by decide),
   noArg_of main_v1534 rfl (by decide),
   noArg_of main_v1535 rfl (by decide),
   noArg_of main_v1536 rfl (by decide),
   noArg_of main_v1537 rfl (by decide)⟩

theorem main_part37_ops1_noarg : (main_part37_ops1 : List (HloOp τ sig (Elt F))).Forall NoArg :=
  noArg_of main_v1538 rfl (by decide)

theorem main_part37_ops2_noarg : (main_part37_ops2 : List (HloOp τ sig (Elt F))).Forall NoArg :=
  ⟨noArg_of main_v1539 rfl (by decide),
   noArg_of main_cst_719 rfl (by decide),
   noArg_of main_v1540 rfl (by decide),
   noArg_of main_c_720 rfl (by decide),
   noArg_of main_v1541 rfl (by decide),
   noArg_of main_cst_721 rfl (by decide)⟩

theorem main_part37_ops3_noarg : (main_part37_ops3 : List (HloOp τ sig (Elt F))).Forall NoArg :=
  noArg_of main_v1542 rfl (by decide)

theorem main_part37_ops4_noarg : (main_part37_ops4 : List (HloOp τ sig (Elt F))).Forall NoArg :=
  ⟨noArg_of main_v1543 rfl (by decide),
   noArg_of main_c_722 rfl (by decide),
   noArg_of main_v1544 rfl (by decide),
   noArg_of main_v1545 rfl (by decide),
   noArg_of main_c_723 rfl (by decide),
   noArg_of main_v1546 rfl (by decide),
   noArg_of main_v1547 rfl (by decide),
   noArg_of main_v1548 rfl (by decide),
   noArg_of main_c_724 rfl (by decide),
   noArg_of main_v1549 rfl (by decide),
   noArg_of main_v1550 rfl (by decide),
   noArg_of main_v1551 rfl (by decide),
   noArg_of main_v1552 rfl (by decide)⟩

theorem main_part38_ops0_noarg : (main_part38_ops0 : List (HloOp τ sig (Elt F))).Forall NoArg :=
  ⟨noArg_of main_call143_call0_c rfl (by decide),
   noArg_of main_call143_call0_v0 rfl (by decide),
   noArg_of main_v1553 rfl (by decide)⟩

theorem main_part38_ops1_noarg : (main_part38_ops1 : List (HloOp τ sig (Elt F))).Forall NoArg :=
  ⟨noArg_of main_v1554 rfl (by decide),
   noArg_of main_v1555 rfl (by decide),
   noArg_of main_c_725 rfl (by decide),
   noArg_of main_v1556 rfl (by decide),
   noArg_of main_v1557 rfl (by decide)⟩

theorem main_part38_ops2_noarg : (main_part38_ops2 : List (HloOp τ sig (Elt F))).Forall NoArg :=
  ⟨noArg_of main_call144_v0 rfl (by decide),
   noArg_of main_call144_c rfl (by decide),
   noArg_of main_call144_c_0 rfl (by decide),
   noArg_of main_call144_v1_0 rfl (by decide),
   noArg_of main_v1558 rfl (by decide)⟩

theorem main_part38_ops3_noarg : (main_part38_ops3 : List (HloOp τ sig (Elt F))).Forall NoArg :=
  ⟨noArg_of main_c_726 rfl (by decide),
   noArg_of main_v1559 rfl (by decide),
   noArg_of main_v1560 rfl (by decide)⟩

theorem main_part38_ops4_noarg : (main_part38_ops4 : List (HloOp τ sig (Elt F))).Forall NoArg :=
  ⟨noArg_of main_call145_v0 rfl (by decide),
   noArg_of main_call145_c rfl (by decide),
   noArg_of main_call145_c_0 rfl (by decide),
   noArg_of main_call145_v1_0 rfl (by decide),
   noArg_of main_v1561 rfl (by decide)⟩

theorem main_part38_ops5_noarg : (main_part38_ops5 : List (HloOp τ sig (Elt F))).Forall NoArg :=
  ⟨noArg_of main_c_727 rfl (by decide),
   noArg_of main_v1562 rfl (by decide),
   noArg_of main_v1563 rfl (by decide)⟩

theorem main_part38_ops6_noarg : (main_part38_ops6 : List (HloOp τ sig (Elt F))).Forall NoArg :=
  ⟨noArg_of main_call146_v0 rfl (by decide),
   noArg_of main_call146_c rfl (by decide),
   noArg_of main_call146_c_0 rfl (by decide),
   noArg_of main_call146_v1_0 rfl (by decide),
   noArg_of main_v1564 rfl (by decide)⟩

theorem main_part38_ops7_noarg : (main_part38_ops7 : List (HloOp τ sig (Elt F))).Forall NoArg :=
  ⟨noArg_of main_c_728 rfl (by decide),
   noArg_of main_v1565 rfl (by decide),
   noArg_of main_c_729 rfl (by decide),
   noArg_of main_v1566 rfl (by decide),
   noArg_of main_v1567 rfl (by decide),
   noArg_of main_c_730 rfl (by decide),
   noArg_of main_c_731 rfl (by decide),
   noArg_of main_v1568 rfl (by decide),
   noArg_of main_c_732 rfl (by decide),
   noArg_of main_c_733 rfl (by decide),
   noArg_of main_v1569 rfl (by decide),
   noArg_of main_c_734 rfl (by decide),
   noArg_of main_v1570 rfl (by decide),
   noArg_of main_v1571 rfl (by decide),
   noArg_of main_v1572 rfl (by decide),
   noArg_of main_c_735 rfl (by decide),
   noArg_of main_v1573 rfl (by decide),
   noArg_of main_c_736 rfl (by decide),
   noArg_of main_v1574 rfl (by decide),
   noArg_of main_v1575 rfl (by decide),
   noArg_of main_c_737 rfl (by decide),
   noArg_of main_c_738 rfl (by decide),
   noArg_of main_v1576 rfl (by decide),
   noArg_of main_c_739 rfl (by decide),
   noArg_of main_c_740 rfl (by decide),
   noArg_of main_v1577 rfl (by decide),
   noArg_of main_c_741 rfl (by decide),
   noArg_of main_v1578 rfl (by decide),
   noArg_of main_v1579 rfl (by decide),
   noArg_of main_v1580 rfl (by decide),
   noArg_of main_v1581 rfl (by decide),
   noArg_of main_c_742 rfl (by decide),
   noArg_of main_v1582 rfl (by decide),
   noArg_of main_c_743 rfl (by decide),
   noArg_of main_v1583 rfl (by decide),
   noArg_of main_v1584 rfl (by decide),
   noArg_of main_c_744 rfl (by decide),
   noArg_of main_c_745 rfl (by decide),
   noArg_of main_v1585 rfl (by decide),
   noArg_of main_c_746 rfl (by decide),
   noArg_of main_c_747 rfl (by decide),
   noArg_of main_v1586 rfl (by decide),
   noArg_of main_c_748 rfl (by decide),
   noArg_of main_v1587 rfl (by decide),
   noArg_of main_v1588 rfl (by decide)⟩

theorem main_part39_ops0_noarg : (main_part39_ops0 : List (HloOp τ sig (Elt F))).Forall NoArg :=
  ⟨noArg_of main_v1589 rfl (by decide),
   noArg_of main_cst_749 rfl (by decide),
   noArg_of main_v1590 rfl (by decide),
   noArg_of main_v1591 rfl (by decide),
   noArg_of main_v1592 rfl (by decide),
   noArg_of main_v1593 rfl (by decide),
   noArg_of main_v1594 rfl (by decide),
   noArg_of main_v1595 rfl (by decide),
   noArg_of main_v1596 rfl (by decide),
   noArg_of main_v1597 rfl (by decide)⟩

theorem main_part39_ops1_noarg : (main_part39_ops1 : List (HloOp τ sig (Elt F))).Forall NoArg :=
  noArg_of main_v1598 rfl (by decide)

theorem main_part39_ops2_noarg : (main_part39_ops2 : List (HloOp τ sig (Elt F))).Forall NoArg :=
  ⟨noArg_of main_v1599 rfl (by decide),
   noArg_of main_cst_750 rfl (by decide),
   noArg_of main_v1600 rfl (by decide),
   noArg_of main_c_751 rfl (by decide),
   noArg_of main_v1601 rfl (by decide),
   noArg_of main_cst_752 rfl (by decide)⟩

theorem main_part39_ops3_noarg : (main_part39_ops3 : List (HloOp τ sig (Elt F))).Forall NoArg :=
  noArg_of main_v1602 rfl (by decide)

theorem main_part39_ops4_noarg : (main_part39_ops4 : List (HloOp τ sig (Elt F))).Forall NoArg :=
  ⟨noArg_of main_v1603 rfl (by decide),
   noArg_of main_c_753 rfl (by decide),
   noArg_of main_v1604 rfl (by decide),
   noArg_of main_v1605 rfl (by decide),
   noArg_of main_c_754 rfl (by decide),
   noArg_of main_v1606 rfl (by decide),
   noArg_of main_v1607 rfl (by decide),
   noArg_of main_v1608 rfl (by decide),
   noArg_of main_c_755 rfl (by decide),
   noArg_of main_v1609 rfl (by decide),
   noArg_of main_v1610 rfl (by decide),
   noArg_of main_v1611 rfl (by decide),
   noArg_of main_v1612 rfl (by decide)⟩

theorem main_part39_ops5_noarg : (main_part39_ops5 : List (HloOp τ sig (Elt F))).Forall NoArg :=
  ⟨noArg_of main_call149_call0_c rfl (by decide),
   noArg_of main_call149_call0_v0 rfl (by decide),
   noArg_of main_v1613 rfl (by decide)⟩

theorem main_part39_ops6_noarg : (main_part39_ops6 : List (HloOp τ sig (Elt F))).Forall NoArg :=
  ⟨noArg_of main_v1614 rfl (by decide),
   noArg_of main_v1615 rfl (by decide),
   noArg_of main_c_756 rfl (by decide),
   noArg_of main_v1616 rfl (by decide),
   noArg_of main_v1617 rfl (by decide)⟩

theorem main_part39_ops7_noarg : (main_part39_ops7 : List (HloOp τ sig (Elt F))).Forall NoArg :=
  ⟨noArg_of main_call150_v0 rfl (by decide),
   noArg_of main_call150_c rfl (by decide),
   noArg_of main_call150_c_0 rfl (by decide),
   noArg_of main_call150_v1_0 rfl (by decide),
   noArg_of main_v1618 rfl (by decide)⟩

theorem main_part39_ops8_noarg : (main_part39_ops8 : List (HloOp τ sig (Elt F))).Forall NoArg :=
  ⟨noArg_of main_c_757 rfl (by decide),
   noArg_of main_v1619 rfl (by decide),
   noArg_of main_v1620 rfl (by decide)⟩

theorem main_part39_ops9_noarg : (main_part39_ops9 : List (HloOp τ sig (Elt F))).Forall NoArg :=
  ⟨noArg_of main_call151_v0 rfl (by decide),
   noArg_of main_call151_c rfl (by decide),
   noArg_of main_call151_c_0 rfl (by decide),
   noArg_of main_call151_v1_0 rfl (by decide),
   noArg_of main_v1621 rfl (by decide)⟩

theorem main_part39_ops10_noarg : (main_part39_ops10 : List (HloOp τ sig (Elt F))).Forall NoArg :=
  ⟨noArg_of main_c_758 rfl (by decide),
   noArg_of main_v1622 rfl (by decide),
   noArg_of main_v1623 rfl (by decide)⟩

theorem main_part39_ops11_noarg : (main_part39_ops11 : List (HloOp τ sig (Elt F))).Forall NoArg :=
  ⟨noArg_of main_call152_v0 rfl (by decide),
   noArg_of main_call152_c rfl (by decide),
   noArg_of main_call152_c_0 rfl (by decide),
   noArg_of main_call152_v1_0 rfl (by decide),
   noArg_of main_v1624 rfl (by decide)⟩

theorem main_part39_ops12_noarg : (main_part39_ops12 : List (HloOp τ sig (Elt F))).Forall NoArg :=
  ⟨noArg_of main_c_759 rfl (by decide),
   noArg_of main_v1625 rfl (by decide),
   noArg_of main_c_760 rfl (by decide),
   noArg_of main_v1626 rfl (by decide),
   noArg_of main_v1627 rfl (by decide),
   noArg_of main_c_761 rfl (by decide),
   noArg_of main_c_762 rfl (by decide),
   noArg_of main_v1628 rfl (by decide),
   noArg_of main_c_763 rfl (by decide),
   noArg_of main_c_764 rfl (by decide),
   noArg_of main_v1629 rfl (by decide),
   noArg_of main_c_765 rfl (by decide),
   noArg_of main_v1630 rfl (by decide),
   noArg_of main_v1631 rfl (by decide)⟩

theorem main_part40_ops0_noarg : (main_part40_ops0 : List (HloOp τ sig (Elt F))).Forall NoArg :=
  ⟨noArg_of main_v1632 rfl (by decide),
   noArg_of main_c_766 rfl (by decide),
   noArg_of main_v1633 rfl (by decide),
   noArg_of main_c_767 rfl (by decide),
   noArg_of main_v1634 rfl (by decide),
   noArg_of main_v1635 rfl (by decide),
   noArg_of main_c_768 rfl (by decide),
   noArg_of main_c_769 rfl (by decide),
   noArg_of main_v1636 rfl (by decide),
   noArg_of main_c_770 rfl (by decide),
   noArg_of main_c_771 rfl (by decide),
   noArg_of main_v1637 rfl (by decide),
   noArg_of main_c_772 rfl (by decide),
   noArg_of main_v1638 rfl (by decide),
   noArg_of main_v1639 rfl (by decide),
   noArg_of main_v1640 rfl (by decide),
   noArg_of main_v1641 rfl (by decide),
   noArg_of main_c_773 rfl (by decide),
   noArg_of main_v1642 rfl (by decide),
   noArg_of main_c_774 rfl (by decide),
   noArg_of main_v1643 rfl (by decide),
   noArg_of main_v1644 rfl (by decide),
   noArg_of main_c_775 rfl (by decide),
   noArg_of main_c_776 rfl (by decide),
   noArg_of main_v1645 rfl (by decide),
   noArg_of main_c_777 rfl (by decide),
   noArg_of main_c_778 rfl (by decide),
   noArg_of main_v1646 rfl (by decide),
   noArg_of main_c_779 rfl (by decide),
   noArg_of main_v1647 rfl (by decide),
   noArg_of main_v1648 rfl (by decide),
   noArg_of main_v1649 rfl (by decide),
   noArg_of main_cst_780 rfl (by decide),
   noArg_of main_v1650 rfl (by decide),
   noArg_of main_v1651 rfl (by decide),
   noArg_of main_v1652 rfl (by decide),
   noArg_of main_v1653 rfl (by decide),
   noArg_of main_v1654 rfl (by decide),
   noArg_of main_v1655 rfl (by decide),
   noArg_of main_v1656 rfl (by decide),
   noArg_of main_v1657 rfl (by decide)⟩

theorem main_part40_ops1_noarg : (main_part40_ops1 : List (HloOp τ sig (Elt F))).Forall NoArg :=
  noArg_of main_v1658 rfl (by decide)

theorem main_part40_ops2_noarg : (main_part40_ops2 : List (HloOp τ sig (Elt F))).Forall NoArg :=
  ⟨noArg_of main_v1659 rfl (by decide),
   noArg_of main_cst_781 rfl (by decide),
   noArg_of main_v1660 rfl (by decide),
   noArg_of main_c_782 rfl (by decide),
   noArg_of main_v1661 rfl (by decide),
   noArg_of main_cst_783 rfl (by decide)⟩

theorem main_part40_ops3_noarg : (main_part40_ops3 : List (HloOp τ sig (Elt F))).Forall NoArg :=
  noArg_of main_v1662 rfl (by decide)

theorem main_part40_ops4_noarg : (main_part40_ops4 : List (HloOp τ sig (Elt F))).Forall NoArg :=
  noArg_of main_v1663 rfl (by decide)

/-- No operation of any stretch writes an argument. -/
theorem opss_noarg : (opss : List (List (HloOp τ sig (Elt F)))).Forall fun l => l.Forall NoArg :=
  ⟨main_part0_ops0_noarg,
   main_part0_ops1_noarg,
   main_part0_ops2_noarg,
   main_part0_ops3_noarg,
   main_part0_ops4_noarg,
   main_part0_ops5_noarg,
   main_part0_ops6_noarg,
   main_part1_ops0_noarg,
   main_part1_ops1_noarg,
   main_part1_ops2_noarg,
   main_part1_ops3_noarg,
   main_part1_ops4_noarg,
   main_part1_ops5_noarg,
   main_part1_ops6_noarg,
   main_part1_ops7_noarg,
   main_part1_ops8_noarg,
   main_part1_ops9_noarg,
   main_part1_ops10_noarg,
   main_part1_ops11_noarg,
   main_part1_ops12_noarg,
   main_part2_ops0_noarg,
   main_part2_ops1_noarg,
   main_part2_ops2_noarg,
   main_part2_ops3_noarg,
   main_part2_ops4_noarg,
   main_part3_ops0_noarg,
   main_part3_ops1_noarg,
   main_part3_ops2_noarg,
   main_part3_ops3_noarg,
   main_part3_ops4_noarg,
   main_part3_ops5_noarg,
   main_part4_ops0_noarg,
   main_part4_ops1_noarg,
   main_part4_ops2_noarg,
   main_part4_ops3_noarg,
   main_part4_ops4_noarg,
   main_part5_ops0_noarg,
   main_part5_ops1_noarg,
   main_part5_ops2_noarg,
   main_part5_ops3_noarg,
   main_part5_ops4_noarg,
   main_part5_ops5_noarg,
   main_part6_ops0_noarg,
   main_part6_ops1_noarg,
   main_part6_ops2_noarg,
   main_part6_ops3_noarg,
   main_part6_ops4_noarg,
   main_part7_ops0_noarg,
   main_part7_ops1_noarg,
   main_part7_ops2_noarg,
   main_part7_ops3_noarg,
   main_part7_ops4_noarg,
   main_part7_ops5_noarg,
   main_part7_ops6_noarg,
   main_part7_ops7_noarg,
   main_part7_ops8_noarg,
   main_part7_ops9_noarg,
   main_part7_ops10_noarg,
   main_part7_ops11_noarg,
   main_part8_ops0_noarg,
   main_part8_ops1_noarg,
   main_part8_ops2_noarg,
   main_part8_ops3_noarg,
   main_part8_ops4_noarg,
   main_part9_ops0_noarg,
   main_part9_ops1_noarg,
   main_part9_ops2_noarg,
   main_part9_ops3_noarg,
   main_part9_ops4_noarg,
   main_part9_ops5_noarg,
   main_part9_ops6_noarg,
   main_part9_ops7_noarg,
   main_part9_ops8_noarg,
   main_part10_ops0_noarg,
   main_part10_ops1_noarg,
   main_part10_ops2_noarg,
   main_part10_ops3_noarg,
   main_part10_ops4_noarg,
   main_part10_ops5_noarg,
   main_part10_ops6_noarg,
   main_part10_ops7_noarg,
   main_part10_ops8_noarg,
   main_part10_ops9_noarg,
   main_part10_ops10_noarg,
   main_part10_ops11_noarg,
   main_part10_ops12_noarg,
   main_part11_ops0_noarg,
   main_part11_ops1_noarg,
   main_part11_ops2_noarg,
   main_part11_ops3_noarg,
   main_part12_ops0_noarg,
   main_part12_ops1_noarg,
   main_part12_ops2_noarg,
   main_part12_ops3_noarg,
   main_part12_ops4_noarg,
   main_part12_ops5_noarg,
   main_part12_ops6_noarg,
   main_part12_ops7_noarg,
   main_part12_ops8_noarg,
   main_part13_ops0_noarg,
   main_part13_ops1_noarg,
   main_part13_ops2_noarg,
   main_part13_ops3_noarg,
   main_part13_ops4_noarg,
   main_part13_ops5_noarg,
   main_part13_ops6_noarg,
   main_part13_ops7_noarg,
   main_part13_ops8_noarg,
   main_part13_ops9_noarg,
   main_part13_ops10_noarg,
   main_part13_ops11_noarg,
   main_part13_ops12_noarg,
   main_part14_ops0_noarg,
   main_part14_ops1_noarg,
   main_part14_ops2_noarg,
   main_part15_ops0_noarg,
   main_part15_ops1_noarg,
   main_part15_ops2_noarg,
   main_part15_ops3_noarg,
   main_part15_ops4_noarg,
   main_part15_ops5_noarg,
   main_part15_ops6_noarg,
   main_part15_ops7_noarg,
   main_part15_ops8_noarg,
   main_part15_ops9_noarg,
   main_part15_ops10_noarg,
   main_part16_ops0_noarg,
   main_part16_ops1_noarg,
   main_part16_ops2_noarg,
   main_part16_ops3_noarg,
   main_part16_ops4_noarg,
   main_part16_ops5_noarg,
   main_part16_ops6_noarg,
   main_part16_ops7_noarg,
   main_part16_ops8_noarg,
   main_part16_ops9_noarg,
   main_part16_ops10_noarg,
   main_part17_ops0_noarg,
   main_part17_ops1_noarg,
   main_part17_ops2_noarg,
   main_part17_ops3_noarg,
   main_part18_ops0_noarg,
   main_part18_ops1_noarg,
   main_part18_ops2_noarg,
   main_part18_ops3_noarg,
   main_part18_ops4_noarg,
   main_part18_ops5_noarg,
   main_part18_ops6_noarg,
   main_part18_ops7_noarg,
   main_part18_ops8_noarg,
   main_part18_ops9_noarg,
   main_part18_ops10_noarg,
   main_part19_ops0_noarg,
   main_part19_ops1_noarg,
   main_part19_ops2_noarg,
   main_part19_ops3_noarg,
   main_part19_ops4_noarg,
   main_part19_ops5_noarg,
   main_part19_ops6_noarg,
   main_part19_ops7_noarg,
   main_part19_ops8_noarg,
   main_part19_ops9_noarg,
   main_part19_ops10_noarg,
   main_part20_ops0_noarg,
   main_part20_ops1_noarg,
   main_part20_ops2_noarg,
   main_part20_ops3_noarg,
   main_part20_ops4_noarg,
   main_part21_ops0_noarg,
   main_part21_ops1_noarg,
   main_part21_ops2_noarg,
   main_part21_ops3_noarg,
   main_part21_ops4_noarg,
   main_part21_ops5_noarg,
   main_part21_ops6_noarg,
   main_part21_ops7_noarg,
   main_part21_ops8_noarg,
   main_part21_ops9_noarg,
   main_part21_ops10_noarg,
   main_part22_ops0_noarg,
   main_part22_ops1_noarg,
   main_part22_ops2_noarg,
   main_part22_ops3_noarg,
   main_part22_ops4_noarg,
   main_part22_ops5_noarg,
   main_part22_ops6_noarg,
   main_part22_ops7_noarg,
   main_part22_ops8_noarg,
   main_part23_ops0_noarg,
   main_part23_ops1_noarg,
   main_part23_ops2_noarg,
   main_part23_ops3_noarg,
   main_part24_ops0_noarg,
   main_part24_ops1_noarg,
   main_part24_ops2_noarg,
   main_part24_ops3_noarg,
   main_part24_ops4_noarg,
   main_part24_ops5_noarg,
   main_part24_ops6_noarg,
   main_part24_ops7_noarg,
   main_part24_ops8_noarg,
   main_part24_ops9_noarg,
   main_part24_ops10_noarg,
   main_part24_ops11_noarg,
   main_part25_ops0_noarg,
   main_part25_ops1_noarg,
   main_part25_ops2_noarg,
   main_part25_ops3_noarg,
   main_part25_ops4_noarg,
   main_part25_ops5_noarg,
   main_part25_ops6_noarg,
   main_part25_ops7_noarg,
   main_part25_ops8_noarg,
   main_part26_ops0_noarg,
   main_part26_ops1_noarg,
   main_part26_ops2_noarg,
   main_part26_ops3_noarg,
   main_part26_ops4_noarg,
   main_part27_ops0_noarg,
   main_part27_ops1_noarg,
   main_part27_ops2_noarg,
   main_part27_ops3_noarg,
   main_part27_ops4_noarg,
   main_part27_ops5_noarg,
   main_part27_ops6_noarg,
   main_part27_ops7_noarg,
   main_part27_ops8_noarg,
   main_part27_ops9_noarg,
   main_part27_ops10_noarg,
   main_part27_ops11_noarg,
   main_part27_ops12_noarg,
   main_part28_ops0_noarg,
   main_part28_ops1_noarg,
   main_part28_ops2_noarg,
   main_part28_ops3_noarg,
   main_part28_ops4_noarg,
   main_part28_ops5_noarg,
   main_part28_ops6_noarg,
   main_part29_ops0_noarg,
   main_part29_ops1_noarg,
   main_part29_ops2_noarg,
   main_part29_ops3_noarg,
   main_part29_ops4_noarg,
   main_part29_ops5_noarg,
   main_part30_ops0_noarg,
   main_part30_ops1_noarg,
   main_part30_ops2_noarg,
   main_part30_ops3_noarg,
   main_part30_ops4_noarg,
   main_part30_ops5_noarg,
   main_part30_ops6_noarg,
   main_part30_ops7_noarg,
   main_part30_ops8_noarg,
   main_part30_ops9_noarg,
   main_part30_ops10_noarg,
   main_part30_ops11_noarg,
   main_part30_ops12_noarg,
   main_part31_ops0_noarg,
   main_part31_ops1_noarg,
   main_part31_ops2_noarg,
   main_part31_ops3_noarg,
   main_part31_ops4_noarg,
   main_part31_ops5_noarg,
   main_part31_ops6_noarg,
   main_part32_ops0_noarg,
   main_part32_ops1_noarg,
   main_part32_ops2_noarg,
   main_part32_ops3_noarg,
   main_part32_ops4_noarg,
   main_part32_ops5_noarg,
   main_part32_ops6_noarg,
   main_part33_ops0_noarg,
   main_part33_ops1_noarg,
   main_part33_ops2_noarg,
   main_part33_ops3_noarg,
   main_part33_ops4_noarg,
   main_part33_ops5_noarg,
   main_part33_ops6_noarg,
   main_part33_ops7_noarg,
   main_part33_ops8_noarg,
   main_part33_ops9_noarg,
   main_part33_ops10_noarg,
   main_part33_ops11_noarg,
   main_part33_ops12_noarg,
   main_part34_ops0_noarg,
   main_part34_ops1_noarg,
   main_part34_ops2_noarg,
   main_part34_ops3_noarg,
   main_part34_ops4_noarg,
   main_part34_ops5_noarg,
   main_part34_ops6_noarg,
   main_part35_ops0_noarg,
   main_part35_ops1_noarg,
   main_part35_ops2_noarg,
   main_part35_ops3_noarg,
   main_part35_ops4_noarg,
   main_part35_ops5_noarg,
   main_part35_ops6_noarg,
   main_part36_ops0_noarg,
   main_part36_ops1_noarg,
   main_part36_ops2_noarg,
   main_part36_ops3_noarg,
   main_part36_ops4_noarg,
   main_part36_ops5_noarg,
   main_part36_ops6_noarg,
   main_part36_ops7_noarg,
   main_part36_ops8_noarg,
   main_part36_ops9_noarg,
   main_part36_ops10_noarg,
   main_part36_ops11_noarg,
   main_part36_ops12_noarg,
   main_part37_ops0_noarg,
   main_part37_ops1_noarg,
   main_part37_ops2_noarg,
   main_part37_ops3_noarg,
   main_part37_ops4_noarg,
   main_part38_ops0_noarg,
   main_part38_ops1_noarg,
   main_part38_ops2_noarg,
   main_part38_ops3_noarg,
   main_part38_ops4_noarg,
   main_part38_ops5_noarg,
   main_part38_ops6_noarg,
   main_part38_ops7_noarg,
   main_part39_ops0_noarg,
   main_part39_ops1_noarg,
   main_part39_ops2_noarg,
   main_part39_ops3_noarg,
   main_part39_ops4_noarg,
   main_part39_ops5_noarg,
   main_part39_ops6_noarg,
   main_part39_ops7_noarg,
   main_part39_ops8_noarg,
   main_part39_ops9_noarg,
   main_part39_ops10_noarg,
   main_part39_ops11_noarg,
   main_part39_ops12_noarg,
   main_part40_ops0_noarg,
   main_part40_ops1_noarg,
   main_part40_ops2_noarg,
   main_part40_ops3_noarg,
   main_part40_ops4_noarg⟩

end Cert.ReferenceIdeal.As

end
-- ==== Proof.Rf.FrameR.lean ====
/- The reference's frame: it runs to the end, faults nowhere, and leaves its seven arguments unchanged — no operation
   of @main writes an argument's buffer, so each argument's buffer holds after the run what it held at launch. -/
import proofs.«404644_j25400436588780_1_alg».proof.Proof.Rf.Run
import proofs.«404644_j25400436588780_1_alg».proof.Proof.Rf.NoArg

noncomputable section

namespace Cert.ReferenceIdeal.As

open Cert.ReferenceIdeal Cert.ReferenceIdeal.Gen Cert.ReferenceIdeal.Rn Idealize.ShloMosaic Idealize.ShloMosaic.TcCoe
  Idealize.SL.Sem

variable {F : FTy → Type} [FloatOps F]

/-- No operation of @main, all stretches in order, writes an argument. -/
theorem opss_flatten_noarg : ∀ op ∈ (opss.flatten : List (HloOp τ sig (Elt F))), NoArg op :=
  List.forall_iff_forall_mem.1 (forall_flatten _ opss_noarg)

/-- An argument's buffer holds after all the operations what it held before them. -/
theorem after_opss_arg (V : Valuation τ sig (Elt F)) {r : Ref sig .tc} (hr : r ∈ argRefs) :
    StableHlo.after (opss.flatten : List (HloOp τ sig (Elt F))) V (Proc.devRef .tc r) = V (Proc.devRef .tc r) :=
  StableHlo.after_of_forall_not_mem _ V fun op hop => opss_flatten_noarg op hop r hr

/-- The reference runs (terminates, no fault) and its argument arrays end unchanged. -/
theorem frameR (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0).trans (after_opss_arg _ (by decide)),
     (h c main_arg1).trans (after_opss_arg _ (by decide)),
     (h c main_arg2).trans (after_opss_arg _ (by decide)),
     (h c main_arg3).trans (after_opss_arg _ (by decide)),
     (h c main_arg4).trans (after_opss_arg _ (by decide)),
     (h c main_arg5).trans (after_opss_arg _ (by decide)),
     (h c main_arg6).trans (after_opss_arg _ (by decide))⟩) (run m ρ)

end Cert.ReferenceIdeal.As

end
-- ==== Proof.Val.PosLaw.lean ====
import Mathlib.Data.EReal.Operations
import Mathlib.Algebra.BigOperators.Fin
import Mathlib.Algebra.BigOperators.Group.Finset.Basic
import Mathlib.Tactic.Ring

/-!
  Program-free mathematics of the positive part of the loss.

  The reference subtracts fourteen row sums one after another from zero; the kernel adds the
  fourteen masked terms row block by row block and negates once at the end. Over the extended
  reals the two agree as soon as every summand is a real number: the coercion `ℝ → EReal` carries
  finite sums, differences and negations, so both sides are the coercion of one real number, and
  over the reals the claim is the exchange of two finite sums.
-/

open scoped BigOperators

namespace Cert.Val

/-- The coercion of the reals into the extended reals carries finite sums. -/
theorem coe_finsetSum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- An extended real is FINITE when it is the coercion of a real number. -/
def Fin' (x : EReal) : Prop := ∃ y : ℝ, x = (y : EReal)

theorem fin_iff_ne (x : EReal) : Fin' x ↔ x ≠ ⊥ ∧ x ≠ ⊤ := by
  constructor
  · rintro ⟨y, rfl⟩; exact ⟨EReal.coe_ne_bot y, EReal.coe_ne_top y⟩
  · rintro ⟨hb, ht⟩; exact ⟨x.toReal, (EReal.coe_toReal ht hb).symm⟩

theorem fin_coe (y : ℝ) : Fin' (y : EReal) := ⟨y, rfl⟩

theorem fin_zero : Fin' (0 : EReal) := ⟨0, by simp⟩

theorem fin_add {x y : EReal} (hx : Fin' x) (hy : Fin' y) : Fin' (x + y) := by
  obtain ⟨a, rfl⟩ := hx; obtain ⟨b, rfl⟩ := hy; exact ⟨a + b, (EReal.coe_add a b).symm⟩

theorem fin_sub {x y : EReal} (hx : Fin' x) (hy : Fin' y) : Fin' (x - y) := by
  obtain ⟨a, rfl⟩ := hx; obtain ⟨b, rfl⟩ := hy; exact ⟨a - b, (EReal.coe_sub a b).symm⟩

theorem fin_neg {x : EReal} (hx : Fin' x) : Fin' (-x) := by
  obtain ⟨a, rfl⟩ := hx; exact ⟨-a, (EReal.coe_neg a).symm⟩

/-- A finite sum of finite extended reals is finite. -/
theorem fin_finsetSum {ι : Type*} (t : Finset ι) (f : ι → EReal) (hf : ∀ i ∈ t, Fin' (f i)) :
    Fin' (∑ i ∈ t, f i) := by
  classical
  induction t using Finset.induction_on with
  | empty => simpa using fin_zero
  | insert a t ha ih =>
    rw [Finset.sum_insert ha]
    exact fin_add (hf a (Finset.mem_insert_self a t))
      (ih fun i hi => hf i (Finset.mem_insert_of_mem hi))

theorem fin_sum {ι : Type*} [Fintype ι] (f : ι → EReal) (hf : ∀ i, Fin' (f i)) : Fin' (∑ i, f i) :=
  fin_finsetSum _ f fun i _ => hf i

/-- The left-nested chain of subtractions `((0 - S 0) - S 1) - … - S (n-1)`. -/
noncomputable def chain (n : ℕ) (S : Fin n → EReal) : EReal := Fin.foldl n (fun acc j => acc - S j) 0

theorem chain_zero (S : Fin 0 → EReal) : chain 0 S = 0 := by simp [chain]

theorem chain_succ (n : ℕ) (S : Fin (n + 1) → EReal) :
    chain (n + 1) S = chain n (fun j => S j.castSucc) - S (Fin.last n) := by
  simp [chain, Fin.foldl_succ_last]

/-- Over real numbers the chain is minus the sum. -/
theorem chain_coe (n : ℕ) (X : Fin n → ℝ) :
    chain n (fun j => (X j : EReal)) = ((-(∑ j, X j) : ℝ) : EReal) := by
  induction n with
  | zero => simp [chain_zero]
  | succ n ih =>
    rw [chain_succ, ih, Fin.sum_univ_castSucc, ← EReal.coe_sub]
    congr 1; ring

/-- THE LAW: for summands `s j r` all finite, the chain of the recipes' row sums is minus the sum, over
    the rows, of the sum over the recipes. -/
theorem chain_eq_neg_sum {ι : Type*} [Fintype ι] (n : ℕ) (s : Fin n → ι → EReal)
    (hs : ∀ j r, ∃ x : ℝ, s j r = (x : EReal)) :
    chain n (fun j => ∑ r, s j r) = -(∑ r, ∑ j, s j r) := by
  choose x hx using hs
  have h1 : (fun j => ∑ r, s j r) = fun j => ((∑ r, x j r : ℝ) : EReal) := by
    funext j; rw [coe_finsetSum]; exact Finset.sum_congr rfl fun r _ => hx j r
  have h2 : (∑ r, ∑ j, s j r) = ((∑ r, ∑ j, x j r : ℝ) : EReal) := by
    rw [coe_finsetSum]
    refine Finset.sum_congr rfl fun r _ => ?_
    rw [coe_finsetSum]; exact Finset.sum_congr rfl fun j _ => hx j r
  rw [h1, chain_coe, h2, ← EReal.coe_neg, Finset.sum_comm]

/-- The chain at fourteen recipes, written out: the reference's fourteen subtractions. -/
theorem chain14 (S : Fin 14 → EReal) :
    chain 14 S = 0 - S 0 - S 1 - S 2 - S 3 - S 4 - S 5 - S 6 - S 7 - S 8 - S 9 - S 10 - S 11 - S 12 - S 13 := by
  simp [chain, Fin.foldl_succ_last]

end Cert.Val
-- ==== Proof.Val.Finite.lean ====
import proofs.«404644_j25400436588780_1_alg».proof.Pre_finite_inputs
import proofs.«404644_j25400436588780_1_alg».proof.Proof.Val.PosLaw
import Idealize.ShloMosaic.Lib.ReduceAll
import Idealize.ShloMosaic.Lib.ValueIdx
import Idealize.ShloMosaic.PureOps.Ideal
import Idealize.ShloMosaic.PureOps.Ideal.Laws

/-!
  The precondition, decoded: "every float input is finite" is printed as three `all (|x| < +∞)` reductions joined by
  `and`; when the result is 1, every entry of each of the three float arrays is the coercion of a real number.
-/

open Idealize.ShloMosaic

namespace Cert.Val

open Cert.Pre_finite_inputs

instance : Subsingleton S_.Idx := ⟨fun a b => funext fun d => d.elim0⟩

/-- The pattern of +∞ denotes the top of the extended reals. -/
theorem ofBits_inf_f32 : Ideal.ofBits .f32 0x7F800000#32 = ⊤ := by simp [Ideal.ofBits, Ideal.ieee]

/-- An extended real whose absolute value is below +∞ is a real number. -/
theorem fin_of_abs_lt (x : EReal)
    (h : Ideal.cmp .olt (max x (-x)) (Ideal.ofBits .f32 0x7F800000#32) = 1#1) : Fin' x := by
  rw [ofBits_inf_f32] at h
  have hlt : max x (-x) < ⊤ := by
    by_contra hn
    simp [Ideal.cmp, hn] at h
  rw [max_lt_iff] at hlt
  refine (fin_iff_ne x).2 ⟨?_, ?_⟩
  · rintro rfl; simp at hlt
  · rintro rfl; simp at hlt

/-- One `all (|a| < +∞)` reduction that is 1 makes every entry of `a` finite. -/
theorem fin_of_all [Cert.Pre_finite_inputs.Facts] (a : FVec Ideal S4194304x2 .f32) (j : S_.Idx)
    (h : Host.reduce IntOp.andi
          (cmpf CmpFPredicate.olt (Host.absf a)
            (broadcastInDim S4194304x2 ![] Facts.bcast_S_S4194304x2 (constant S_ FTy.f32 0x7F800000#32)))
          (constantI S_ 1 1#1) Facts.reducesTo_S4194304x2_S_d0_1 Facts.h_S_ j = 1#1)
    (i : S4194304x2.Idx) : Fin' (a i) :=
  fin_of_abs_lt (a i) (Host.reduce_andi_all _ _ _ _ _ h i)

/-- THE PRECONDITION DECODED: where `finite_inputs` of the seven arrays is all ones, every entry of the three float
    arrays is a real number. -/
theorem finite_of_pre [Cert.Pre_finite_inputs.Facts] (a0 a1 a2 : FVec Ideal S4194304x2 .f32)
    (a3 a4 a5 : IVec S4194304x2 32) (a6 : IVec S4194304 32)
    (h : Cert.Pre_finite_inputs.fn (F := Ideal) a0 a1 a2 a3 a4 a5 a6 = fun _ => 1#1) :
    (∀ i, Fin' (a0 i)) ∧ (∀ i, Fin' (a1 i)) ∧ (∀ i, Fin' (a2 i)) := by
  have h0 := congrFun h ValueIdx.ix0
  dsimp only [Cert.Pre_finite_inputs.fn] at h0
  obtain ⟨h01, h2⟩ := IntOp.andi_eq_one.1 h0
  obtain ⟨hh0, h1⟩ := IntOp.andi_eq_one.1 h01
  exact ⟨fin_of_all a0 _ hh0, fin_of_all a1 _ h1, fin_of_all a2 _ h2⟩

end Cert.Val
-- ==== Proof.Val.Codes.lean ====
/- The category code of every row, as one pure function of the row's pair of relation words and its flag word.
   A row's two relation words (a, b) are classed (1, 0) ↦ 0, (0, 1) ↦ 1, (1, 1) ↦ 2 and every other pair ↦ 3, by three
   nested choices; the row's code is that class plus four times the row's flag word. The function is written with the
   same whole-vector operations, in the same order, as the programs compute it: the two columns of the table taken
   out and laid as vectors over the rows, six comparisons with constant vectors, three conjunctions, three choices,
   a product and a sum. -/
import Idealize.ShloMosaic.PureOps
import Idealize.ShloMosaic.Lib.ValueLayout

noncomputable section

namespace Cert.Val

open Idealize.ShloMosaic Idealize.ShloMosaic.ValueIdx

/-- A table of two words per row. -/
abbrev T2 : Shape := ⟨2, ![4194304, 2]⟩
/-- One column of it, still as a table. -/
abbrev T1 : Shape := ⟨2, ![4194304, 1]⟩
/-- A vector over the rows. -/
abbrev R : Shape := ⟨1, ![4194304]⟩
/-- A scalar. -/
abbrev Sc : Shape := ⟨0, ![]⟩

theorem slices0 : T2.Slices ![0, 0] T1 := by decide
theorem slices1 : T2.Slices ![0, 1] T1 := by decide
theorem casts : T1.ShapeCasts R := by decide
theorem bcast : Sc.BroadcastsInDim R (![] : Fin 0 → Fin R.rank) := by decide

variable {α : Type}

/-- Column 0 of a two-column table, as a vector over the rows. -/
def col0 (x : T2.Idx → α) : R.Idx → α := shapeCast R (extractStridedSlice T1 ![0, 0] x slices0) casts
/-- Column 1 of a two-column table, as a vector over the rows. -/
def col1 (x : T2.Idx → α) : R.Idx → α := shapeCast R (extractStridedSlice T1 ![0, 1] x slices1) casts

/-- The vector that holds the word `c` at every row. -/
def splat (c : BitVec 32) : R.Idx → BitVec 32 := broadcastInDim R ![] bcast (constantI Sc 32 c)

/-- The rows' codes. -/
def codeVec (rel : T2.Idx → BitVec 32) (flag : R.Idx → BitVec 32) : R.Idx → BitVec 32 :=
  addi
    (id (select (andi (cmpi .eq (col0 rel) (splat 1#32)) (cmpi .eq (col1 rel) (splat 0#32))) (splat 0#32)
      (select (andi (cmpi .eq (col0 rel) (splat 0#32)) (cmpi .eq (col1 rel) (splat 1#32))) (splat 1#32)
        (select (andi (cmpi .eq (col0 rel) (splat 1#32)) (cmpi .eq (col1 rel) (splat 1#32))) (splat 2#32)
          (splat 3#32)))))
    (muli (splat 4#32) flag)

/-! ## Read at a row -/

/-- A one-column table laid as a vector reads, at row `r`, the table at (r, 0). -/
theorem shapeCast_col_apply (y : T1.Idx → α) (h : T1.ShapeCasts R) (r : Fin 4194304) :
    shapeCast R y h (ix1 r) = y (ix2 r (0 : Fin 1)) :=
  shapeCast_apply y h _ _ (by
    rw [Shape.rowMajor_val_two, Shape.rowMajor_val_one]
    show r.val * 1 + 0 = r.val
    omega)

/-- Column 0 at row `r` is the table at (r, 0). -/
theorem col0_apply (x : T2.Idx → α) (r : Fin 4194304) : col0 x (ix1 r) = x (ix2 r (0 : Fin 2)) := by
  unfold col0
  rw [shapeCast_col_apply]
  exact slice2_axis1_apply 0 x slices0 r (0 : Fin 1) (0 : Fin 2) rfl

/-- Column 1 at row `r` is the table at (r, 1). -/
theorem col1_apply (x : T2.Idx → α) (r : Fin 4194304) : col1 x (ix1 r) = x (ix2 r (1 : Fin 2)) := by
  unfold col1
  rw [shapeCast_col_apply]
  exact slice2_axis1_apply 1 x slices1 r (0 : Fin 1) (1 : Fin 2) rfl

/-- The class of a pair of relation words. -/
def cls (a b : BitVec 32) : BitVec 32 :=
  if a = 1#32 ∧ b = 0#32 then 0#32
  else if a = 0#32 ∧ b = 1#32 then 1#32
  else if a = 1#32 ∧ b = 1#32 then 2#32
  else 3#32

/-- Two equalities as bits, conjoined: set exactly when both hold. -/
theorem andi_cmpi_eq_iff (a b c d : BitVec 32) :
    IntOp.andi (IntOp.cmpi .eq a c) (IntOp.cmpi .eq b d) = 1#1 ↔ a = c ∧ b = d := by
  show BitVec.ofBool (a == c) &&& BitVec.ofBool (b == d) = 1#1 ↔ _
  rw [← beq_iff_eq (a := a) (b := c), ← beq_iff_eq (a := b) (b := d)]
  generalize (a == c) = p
  generalize (b == d) = q
  cases p <;> cases q <;> decide

/-- A choice by a bit is a choice by "the bit is set". -/
theorem select_eq_ite {β : Type} (c : BitVec 1) (x y : β) : Scalar.select c x y = if c = 1#1 then x else y := rfl

/-- A row's code is the class of its pair of relation words plus four times its flag word. -/
theorem codeVec_apply (rel : T2.Idx → BitVec 32) (flag : R.Idx → BitVec 32) (r : Fin 4194304) :
    codeVec rel flag (ix1 r) = cls (rel (ix2 r (0 : Fin 2))) (rel (ix2 r (1 : Fin 2))) + 4#32 * flag (ix1 r) := by
  show IntOp.addi
      (Scalar.select (IntOp.andi (IntOp.cmpi .eq (col0 rel (ix1 r)) 1#32) (IntOp.cmpi .eq (col1 rel (ix1 r)) 0#32)) 0#32
        (Scalar.select (IntOp.andi (IntOp.cmpi .eq (col0 rel (ix1 r)) 0#32) (IntOp.cmpi .eq (col1 rel (ix1 r)) 1#32)) 1#32
          (Scalar.select (IntOp.andi (IntOp.cmpi .eq (col0 rel (ix1 r)) 1#32) (IntOp.cmpi .eq (col1 rel (ix1 r)) 1#32)) 2#32
            3#32)))
      (IntOp.muli 4#32 (flag (ix1 r))) = _
  rw [col0_apply, col1_apply]
  unfold cls
  simp only [select_eq_ite, andi_cmpi_eq_iff]
  rfl

end Cert.Val

end
-- ==== Proof.Val.KCodes.lean ====
/- What the host operations before the kernel region leave in the buffers the region reads: the three vectors of
   row codes are the shared code function of the launch contents of a relation table and the flag vector, and the six
   column vectors are the columns of the three launch tables. -/
import proofs.«404644_j25400436588780_1_alg».proof.Proof.KI.Host
import proofs.«404644_j25400436588780_1_alg».proof.Proof.Val.Codes
import Idealize.ShloMosaic.Lib.StableHlo.Run

set_option maxRecDepth 16384
set_option maxHeartbeats 4000000

noncomputable section

namespace Cert.KernelIdeal.Cd

open Idealize.ShloMosaic Idealize.ShloMosaic.TcCoe Idealize.ShloMosaic.ValueIdx
open Idealize.ShloMosaic.StableHlo
open Cert.KernelIdeal Cert.KernelIdeal.Gen Cert.KernelIdeal.GenP Cert.KernelIdeal.Fr

variable {F : FTy → Type} [FloatOps F]
variable (m : (ℓ : Loc nD τ sig) → Buf (Elt F) ℓ)

/-- The operations before the region, as one list. -/
local macro "open_pre" : tactic =>
  `(tactic| (dsimp only [V, V0]
             simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil,
               List.cons_append, List.nil_append]))

/-! ## The three code vectors -/

/-- The first code vector is the code function of the first relation table and the flag vector. -/
theorem code_v25 (c : Dev nD) :
    (V m c main_v25 : (⟨S4194304, .i32⟩ : BufTy).Contents (Elt F))
      = Cert.Val.codeVec (m ((c : Thread nD τ).loc main_arg3)) (m ((c : Thread nD τ).loc main_arg6)) := by
  open_pre
  after_results_simp <;> rfl

/-- The second code vector is the code function of the second relation table and the flag vector. -/
theorem code_v51 (c : Dev nD) :
    (V m c main_v51 : (⟨S4194304, .i32⟩ : BufTy).Contents (Elt F))
      = Cert.Val.codeVec (m ((c : Thread nD τ).loc main_arg4)) (m ((c : Thread nD τ).loc main_arg6)) := by
  open_pre
  after_results_simp <;> rfl

/-- The third code vector is the code function of the third relation table and the flag vector. -/
theorem code_v77 (c : Dev nD) :
    (V m c main_v77 : (⟨S4194304, .i32⟩ : BufTy).Contents (Elt F))
      = Cert.Val.codeVec (m ((c : Thread nD τ).loc main_arg5)) (m ((c : Thread nD τ).loc main_arg6)) := by
  open_pre
  after_results_simp <;> rfl

/-! ## The six column vectors -/

theorem col_v79 (c : Dev nD) :
    (V m c main_v79 : (⟨S4194304, .f32⟩ : BufTy).Contents (Elt F)) = Cert.Val.col0 (m ((c : Thread nD τ).loc main_arg0)) := by
  open_pre
  after_results_simp <;> rfl

theorem col_v81 (c : Dev nD) :
    (V m c main_v81 : (⟨S4194304, .f32⟩ : BufTy).Contents (Elt F)) = Cert.Val.col1 (m ((c : Thread nD τ).loc main_arg0)) := by
  open_pre
  after_results_simp <;> rfl

theorem col_v83 (c : Dev nD) :
    (V m c main_v83 : (⟨S4194304, .f32⟩ : BufTy).Contents (Elt F)) = Cert.Val.col0 (m ((c : Thread nD τ).loc main_arg1)) := by
  open_pre
  after_results_simp <;> rfl

theorem col_v85 (c : Dev nD) :
    (V m c main_v85 : (⟨S4194304, .f32⟩ : BufTy).Contents (Elt F)) = Cert.Val.col1 (m ((c : Thread nD τ).loc main_arg1)) := by
  open_pre
  after_results_simp <;> rfl

theorem col_v87 (c : Dev nD) :
    (V m c main_v87 : (⟨S4194304, .f32⟩ : BufTy).Contents (Elt F)) = Cert.Val.col0 (m ((c : Thread nD τ).loc main_arg2)) := by
  open_pre
  after_results_simp <;> rfl

theorem col_v89 (c : Dev nD) :
    (V m c main_v89 : (⟨S4194304, .f32⟩ : BufTy).Contents (Elt F)) = Cert.Val.col1 (m ((c : Thread nD τ).loc main_arg2)) := by
  open_pre
  after_results_simp <;> rfl

/-! ## The column vectors read at a row -/

theorem col_v79_apply (c : Dev nD) (r : Fin 4194304) :
    (V m c main_v79 : (⟨S4194304, .f32⟩ : BufTy).Contents (Elt F)) (ix1 r)
      = (m ((c : Thread nD τ).loc main_arg0) : (⟨S4194304x2, .f32⟩ : BufTy).Contents (Elt F)) (ix2 r (0 : Fin 2)) := by
  rw [col_v79]; exact Cert.Val.col0_apply _ r

theorem col_v81_apply (c : Dev nD) (r : Fin 4194304) :
    (V m c main_v81 : (⟨S4194304, .f32⟩ : BufTy).Contents (Elt F)) (ix1 r)
      = (m ((c : Thread nD τ).loc main_arg0) : (⟨S4194304x2, .f32⟩ : BufTy).Contents (Elt F)) (ix2 r (1 : Fin 2)) := by
  rw [col_v81]; exact Cert.Val.col1_apply _ r

theorem col_v83_apply (c : Dev nD) (r : Fin 4194304) :
    (V m c main_v83 : (⟨S4194304, .f32⟩ : BufTy).Contents (Elt F)) (ix1 r)
      = (m ((c : Thread nD τ).loc main_arg1) : (⟨S4194304x2, .f32⟩ : BufTy).Contents (Elt F)) (ix2 r (0 : Fin 2)) := by
  rw [col_v83]; exact Cert.Val.col0_apply _ r

theorem col_v85_apply (c : Dev nD) (r : Fin 4194304) :
    (V m c main_v85 : (⟨S4194304, .f32⟩ : BufTy).Contents (Elt F)) (ix1 r)
      = (m ((c : Thread nD τ).loc main_arg1) : (⟨S4194304x2, .f32⟩ : BufTy).Contents (Elt F)) (ix2 r (1 : Fin 2)) := by
  rw [col_v85]; exact Cert.Val.col1_apply _ r

theorem col_v87_apply (c : Dev nD) (r : Fin 4194304) :
    (V m c main_v87 : (⟨S4194304, .f32⟩ : BufTy).Contents (Elt F)) (ix1 r)
      = (m ((c : Thread nD τ).loc main_arg2) : (⟨S4194304x2, .f32⟩ : BufTy).Contents (Elt F)) (ix2 r (0 : Fin 2)) := by
  rw [col_v87]; exact Cert.Val.col0_apply _ r

theorem col_v89_apply (c : Dev nD) (r : Fin 4194304) :
    (V m c main_v89 : (⟨S4194304, .f32⟩ : BufTy).Contents (Elt F)) (ix1 r)
      = (m ((c : Thread nD τ).loc main_arg2) : (⟨S4194304x2, .f32⟩ : BufTy).Contents (Elt F)) (ix2 r (1 : Fin 2)) := by
  rw [col_v89]; exact Cert.Val.col1_apply _ r

end Cert.KernelIdeal.Cd

end
-- ==== Proof.Val.LaneSum.lean ====
/-
  One lane sum read as a sum over the lanes: a block of 262144 lanes cast to one row, reduced along
  the row, cast to a one-by-one block and extracted at its one position is the sum of the block's entries.
-/
import Idealize.ShloMosaic.PureOps.Ideal.Laws
import Idealize.ShloMosaic.Lib.ValueIdx
import Idealize.ShloMosaic.Lib.Pipeline.Value
import Mathlib.Algebra.BigOperators.Fin

noncomputable section

open scoped BigOperators

namespace Cert.Val

open Idealize.ShloMosaic Idealize.ShloMosaic.ValueIdx

/-- The lane sum of a block: cast to one row, summed along the row, recast and extracted. -/
theorem lane_sum (x : FVec Ideal (⟨1, ![262144]⟩ : Shape) .f32)
    (h1 : (⟨1, ![262144]⟩ : Shape).ShapeCasts ⟨2, ![1, 262144]⟩)
    (hr : (⟨2, ![1, 262144]⟩ : Shape).Reduces [1] ⟨1, ![1]⟩) (hφ : FKind.Formats .f32)
    (hacc : (0x00000000#32 : BitVec 32) = FKind.add.neutral .f32 hφ)
    (h2 : (⟨1, ![1]⟩ : Shape).ShapeCasts ⟨2, ![1, 1]⟩)
    (hpos : ∀ a, (![0, 0] : Fin 2 → Nat) a < (⟨2, ![1, 1]⟩ : Shape).size a) :
    extractAt (s := ⟨2, ![1, 1]⟩) ![0, 0]
        (shapeCast ⟨2, ![1, 1]⟩
          (multiReduction (F := Ideal) .add [1] ⟨1, ![1]⟩ (shapeCast ⟨2, ![1, 262144]⟩ x h1) 0x00000000#32 hr hφ hacc) h2) hpos
      = ∑ i : Fin 262144, x (ix1 i) := by
  unfold extractAt
  rw [shapeCast_apply _ h2 _ (ix1 (0 : Fin 1)) (by
    rw [Shape.rowMajor_val_two, Shape.rowMajor_val_one]; rfl)]
  rw [Ideal.multiReduction_add_single]
  refine Finset.sum_congr rfl fun i _ => ?_
  exact shapeCast_apply x h1 _ (ix1 i) (by
    rw [Shape.rowMajor_val_two, Shape.rowMajor_val_one]
    show i.val = 0 * 262144 + i.val
    omega)

end Cert.Val
-- ==== Proof.Val.PosTerms.lean ====
/-
  The positive-recipe sum, stated once over literal shapes and no program: the fourteen code
  triples, the masked summand of one triple at one row, and the total over all rows and triples.
  Both programs' readings of that quantity are stated against these definitions.
-/
import Idealize.ShloMosaic.PureOps.Ideal.Laws
import Idealize.ShloMosaic.Lib.ValueIdx
import Mathlib.Algebra.BigOperators.Fin

noncomputable section

open scoped BigOperators

namespace Cert.Val

open Idealize.ShloMosaic Idealize.ShloMosaic.ValueIdx

/-- The shape of a vector with one entry per row. -/
abbrev SRows : Shape := ⟨1, ![4194304]⟩
/-- The shape of a two-column array with one row per row. -/
abbrev SRows2 : Shape := ⟨2, ![4194304, 2]⟩
/-- The shape of one block of rows. -/
abbrev SBlk : Shape := ⟨1, ![262144]⟩

/-- The fourteen positive triples (code of xy, code of yz, code of xz), in the order both programs visit them. -/
def recipe : Fin 14 → BitVec 32 × BitVec 32 × BitVec 32 :=
  ![(0#32, 4#32, 4#32), (0#32, 6#32, 4#32), (1#32, 5#32, 5#32), (1#32, 6#32, 5#32), (2#32, 4#32, 4#32),
    (2#32, 5#32, 5#32), (2#32, 6#32, 6#32), (2#32, 7#32, 7#32), (4#32, 0#32, 4#32), (4#32, 2#32, 4#32),
    (5#32, 1#32, 5#32), (5#32, 2#32, 5#32), (6#32, 2#32, 6#32), (7#32, 2#32, 7#32)]

/-- The same triples as a list. -/
def posRecipes : List (BitVec 32 × BitVec 32 × BitVec 32) := List.ofFn recipe

/-- The column of a volume array a code selects: the first below four, the second from four on. -/
def col (x : BitVec 32) : Fin 2 := if x.toNat < 4 then 0 else 1

/-- The summand of triple `q` at row `r`: where the three codes of the row are the triple's, the first volume's
    selected column plus the second's minus the third's; zero elsewhere. Written with the operations the programs apply
    at an element. -/
def w (q : BitVec 32 × BitVec 32 × BitVec 32) (cx cy cz : SRows.Idx → BitVec 32) (a0 a1 a2 : SRows2.Idx → EReal)
    (r : Fin 4194304) : EReal :=
  Scalar.select
    (IntOp.andi (IntOp.andi (IntOp.cmpi .eq (cx (ix1 r)) q.1) (IntOp.cmpi .eq (cy (ix1 r)) q.2.1))
      (IntOp.cmpi .eq (cz (ix1 r)) q.2.2))
    (FloatOps.subf (F := Ideal) (φ := .f32)
      (FloatOps.addf (F := Ideal) (φ := .f32) (a0 (ix2 r (col q.1))) (a1 (ix2 r (col q.2.1)))) (a2 (ix2 r (col q.2.2))))
    (Ideal.ofBits .f32 0x00000000#32)

/-- The total over the rows, and at each row over the fourteen triples in their order. -/
def posSum (cx cy cz : SRows.Idx → BitVec 32) (a0 a1 a2 : SRows2.Idx → EReal) : EReal :=
  ∑ r : Fin 4194304, ∑ j : Fin 14, w (recipe j) cx cy cz a0 a1 a2 r

/-- A one-bit comparison for equality is set exactly when the words are equal. -/
theorem cmpi_eq_eq_one {n : Nat} (x y : BitVec n) : IntOp.cmpi .eq x y = 1 ↔ x = y := by
  unfold IntOp.cmpi
  by_cases h : x = y
  · subst h; simp
  · have hb : (x == y) = false := by simpa using h
    simp [hb, h]

/-- The conjunction of two one-bit words is set exactly when both are. -/
theorem andi_eq_one (a b : BitVec 1) : IntOp.andi a b = 1 ↔ a = 1 ∧ b = 1 := by
  unfold IntOp.andi; revert a b; decide

/-- The summand as a conditional over the extended reals. -/
theorem w_eq_ite (q : BitVec 32 × BitVec 32 × BitVec 32) (cx cy cz : SRows.Idx → BitVec 32) (a0 a1 a2 : SRows2.Idx → EReal)
    (r : Fin 4194304) :
    w q cx cy cz a0 a1 a2 r
      = if cx (ix1 r) = q.1 ∧ cy (ix1 r) = q.2.1 ∧ cz (ix1 r) = q.2.2
        then a0 (ix2 r (col q.1)) + a1 (ix2 r (col q.2.1)) - a2 (ix2 r (col q.2.2)) else 0 := by
  unfold w Scalar.select
  simp only [andi_eq_one, cmpi_eq_eq_one, and_assoc, Ideal.ofBits_zero_f32]
  rfl

/-- A sum over the fourteen triples, written out from zero in their order. -/
theorem sum_recipes {M : Type} [AddCommMonoid M] (f : Fin 14 → M) :
    ∑ j, f j = 0 + f 0 + f 1 + f 2 + f 3 + f 4 + f 5 + f 6 + f 7 + f 8 + f 9 + f 10 + f 11 + f 12 + f 13 := by
  simp only [Fin.sum_univ_castSucc, Fin.sum_univ_zero]
  rfl

end Cert.Val
-- ==== Proof.Val.Reindex.lean ====
/-
  Sixteen blocks of 262144 rows are the 4194304 rows: a sum over the blocks of the sums over a block's
  rows is the sum over all rows, in any commutative monoid.
-/
import Mathlib.Algebra.BigOperators.Fin
import Mathlib.Logic.Equiv.Fin.Basic

open scoped BigOperators

namespace Cert.Val

/-- Row `i` of block `t`. -/
def rowOf (t : Fin 16) (i : Fin 262144) : Fin 4194304 :=
  ⟨t.val * 262144 + i.val, by have := t.isLt; have := i.isLt; omega⟩

theorem rowOf_val (t : Fin 16) (i : Fin 262144) : (rowOf t i).val = t.val * 262144 + i.val := rfl

/-- The sum over the blocks of the sums over a block's rows is the sum over all rows. -/
theorem sum_blocks {M : Type} [AddCommMonoid M] (g : Fin 4194304 → M) :
    ∑ t : Fin 16, ∑ i : Fin 262144, g (rowOf t i) = ∑ r : Fin 4194304, g r := by
  rw [← Fintype.sum_prod_type']
  refine Fintype.sum_equiv (finProdFinEquiv.trans (finCongr (show 16 * 262144 = 4194304 from rfl))) _ _ fun p => ?_
  congr 1
  apply Fin.ext
  show p.1.val * 262144 + p.2.val = p.2.val + 262144 * p.1.val
  omega

end Cert.Val
-- ==== Proof.Val.BlockTotal.lean ====
/-
  One block's contribution: for each of the fourteen triples the masked term summed over the block's
  lanes, added up from zero in the triples' order; and that contribution as a sum over the block's rows
  of the row summands, when the block's vectors are the arrays' rows of that block.
-/
import proofs.«404644_j25400436588780_1_alg».proof.Proof.Val.PosTerms
import proofs.«404644_j25400436588780_1_alg».proof.Proof.Val.Reindex

noncomputable section

open scoped BigOperators

namespace Cert.Val

open Idealize.ShloMosaic Idealize.ShloMosaic.ValueIdx

/-- One triple's masked term summed over the lanes of a block: codes `b0 b1 b2`, volume columns `p0 p1 p2`. -/
def blkS (q : BitVec 32 × BitVec 32 × BitVec 32) (b0 b1 b2 : SBlk.Idx → BitVec 32) (p0 p1 p2 : SBlk.Idx → EReal) : EReal :=
  ∑ i : Fin 262144, Scalar.select
    (IntOp.andi (IntOp.andi (IntOp.cmpi .eq (b0 (ix1 i)) q.1) (IntOp.cmpi .eq (b1 (ix1 i)) q.2.1)) (IntOp.cmpi .eq (b2 (ix1 i)) q.2.2))
    (FloatOps.subf (F := Ideal) (φ := .f32) (FloatOps.addf (F := Ideal) (φ := .f32) (p0 (ix1 i)) (p1 (ix1 i))) (p2 (ix1 i)))
    (Ideal.ofBits .f32 0x00000000#32)

/-- A block's contribution: the fourteen lane sums added from zero in order. `c10 c11` are the first volume's two
    columns over the block, `c20 c21` the second's, `c31` the third's second column. -/
def blkTotal (b0 b1 b2 : SBlk.Idx → BitVec 32) (c10 c11 c20 c21 c31 : SBlk.Idx → EReal) : EReal :=
  Ideal.ofBits .f32 0x00000000#32
    + blkS (0#32, 4#32, 4#32) b0 b1 b2 c10 c21 c31
    + blkS (0#32, 6#32, 4#32) b0 b1 b2 c10 c21 c31
    + blkS (1#32, 5#32, 5#32) b0 b1 b2 c10 c21 c31
    + blkS (1#32, 6#32, 5#32) b0 b1 b2 c10 c21 c31
    + blkS (2#32, 4#32, 4#32) b0 b1 b2 c10 c21 c31
    + blkS (2#32, 5#32, 5#32) b0 b1 b2 c10 c21 c31
    + blkS (2#32, 6#32, 6#32) b0 b1 b2 c10 c21 c31
    + blkS (2#32, 7#32, 7#32) b0 b1 b2 c10 c21 c31
    + blkS (4#32, 0#32, 4#32) b0 b1 b2 c11 c20 c31
    + blkS (4#32, 2#32, 4#32) b0 b1 b2 c11 c20 c31
    + blkS (5#32, 1#32, 5#32) b0 b1 b2 c11 c20 c31
    + blkS (5#32, 2#32, 5#32) b0 b1 b2 c11 c20 c31
    + blkS (6#32, 2#32, 6#32) b0 b1 b2 c11 c20 c31
    + blkS (7#32, 2#32, 7#32) b0 b1 b2 c11 c20 c31

theorem col_0 : col 0#32 = 0 := by decide
theorem col_1 : col 1#32 = 0 := by decide
theorem col_2 : col 2#32 = 0 := by decide
theorem col_4 : col 4#32 = 1 := by decide
theorem col_5 : col 5#32 = 1 := by decide
theorem col_6 : col 6#32 = 1 := by decide
theorem col_7 : col 7#32 = 1 := by decide

/-- One triple's lane sum over block `t` is the sum of the row summands over the block's rows. -/
theorem blkS_eq_rows (t : Fin 16) (q : BitVec 32 × BitVec 32 × BitVec 32)
    (b0 b1 b2 : SBlk.Idx → BitVec 32) (p0 p1 p2 : SBlk.Idx → EReal)
    (cx cy cz : SRows.Idx → BitVec 32) (a0 a1 a2 : SRows2.Idx → EReal)
    (h0 : ∀ i : Fin 262144, b0 (ix1 i) = cx (ix1 (rowOf t i)))
    (h1 : ∀ i : Fin 262144, b1 (ix1 i) = cy (ix1 (rowOf t i)))
    (h2 : ∀ i : Fin 262144, b2 (ix1 i) = cz (ix1 (rowOf t i)))
    (g0 : ∀ i : Fin 262144, p0 (ix1 i) = a0 (ix2 (rowOf t i) (col q.1)))
    (g1 : ∀ i : Fin 262144, p1 (ix1 i) = a1 (ix2 (rowOf t i) (col q.2.1)))
    (g2 : ∀ i : Fin 262144, p2 (ix1 i) = a2 (ix2 (rowOf t i) (col q.2.2))) :
    blkS q b0 b1 b2 p0 p1 p2 = ∑ i : Fin 262144, w q cx cy cz a0 a1 a2 (rowOf t i) := by
  unfold blkS w
  refine Finset.sum_congr rfl fun i _ => ?_
  rw [h0 i, h1 i, h2 i, g0 i, g1 i, g2 i]

/-- A block's contribution is the sum over its rows of the fourteen row summands. -/
theorem blkTotal_eq_rows (t : Fin 16)
    (b0 b1 b2 : SBlk.Idx → BitVec 32) (c10 c11 c20 c21 c31 : SBlk.Idx → EReal)
    (cx cy cz : SRows.Idx → BitVec 32) (a0 a1 a2 : SRows2.Idx → EReal)
    (h0 : ∀ i : Fin 262144, b0 (ix1 i) = cx (ix1 (rowOf t i)))
    (h1 : ∀ i : Fin 262144, b1 (ix1 i) = cy (ix1 (rowOf t i)))
    (h2 : ∀ i : Fin 262144, b2 (ix1 i) = cz (ix1 (rowOf t i)))
    (g10 : ∀ i : Fin 262144, c10 (ix1 i) = a0 (ix2 (rowOf t i) 0))
    (g11 : ∀ i : Fin 262144, c11 (ix1 i) = a0 (ix2 (rowOf t i) 1))
    (g20 : ∀ i : Fin 262144, c20 (ix1 i) = a1 (ix2 (rowOf t i) 0))
    (g21 : ∀ i : Fin 262144, c21 (ix1 i) = a1 (ix2 (rowOf t i) 1))
    (g31 : ∀ i : Fin 262144, c31 (ix1 i) = a2 (ix2 (rowOf t i) 1)) :
    blkTotal b0 b1 b2 c10 c11 c20 c21 c31
      = ∑ i : Fin 262144, ∑ j : Fin 14, w (recipe j) cx cy cz a0 a1 a2 (rowOf t i) := by
  rw [Finset.sum_comm, sum_recipes]
  unfold blkTotal
  rw [Ideal.ofBits_zero_f32]
  rw [blkS_eq_rows t (0#32, 4#32, 4#32) b0 b1 b2 c10 c21 c31 cx cy cz a0 a1 a2 h0 h1 h2 g10 g21 g31]
  rw [blkS_eq_rows t (0#32, 6#32, 4#32) b0 b1 b2 c10 c21 c31 cx cy cz a0 a1 a2 h0 h1 h2 g10 g21 g31]
  rw [blkS_eq_rows t (1#32, 5#32, 5#32) b0 b1 b2 c10 c21 c31 cx cy cz a0 a1 a2 h0 h1 h2 g10 g21 g31]
  rw [blkS_eq_rows t (1#32, 6#32, 5#32) b0 b1 b2 c10 c21 c31 cx cy cz a0 a1 a2 h0 h1 h2 g10 g21 g31]
  rw [blkS_eq_rows t (2#32, 4#32, 4#32) b0 b1 b2 c10 c21 c31 cx cy cz a0 a1 a2 h0 h1 h2 g10 g21 g31]
  rw [blkS_eq_rows t (2#32, 5#32, 5#32) b0 b1 b2 c10 c21 c31 cx cy cz a0 a1 a2 h0 h1 h2 g10 g21 g31]
  rw [blkS_eq_rows t (2#32, 6#32, 6#32) b0 b1 b2 c10 c21 c31 cx cy cz a0 a1 a2 h0 h1 h2 g10 g21 g31]
  rw [blkS_eq_rows t (2#32, 7#32, 7#32) b0 b1 b2 c10 c21 c31 cx cy cz a0 a1 a2 h0 h1 h2 g10 g21 g31]
  rw [blkS_eq_rows t (4#32, 0#32, 4#32) b0 b1 b2 c11 c20 c31 cx cy cz a0 a1 a2 h0 h1 h2 g11 g20 g31]
  rw [blkS_eq_rows t (4#32, 2#32, 4#32) b0 b1 b2 c11 c20 c31 cx cy cz a0 a1 a2 h0 h1 h2 g11 g20 g31]
  rw [blkS_eq_rows t (5#32, 1#32, 5#32) b0 b1 b2 c11 c20 c31 cx cy cz a0 a1 a2 h0 h1 h2 g11 g20 g31]
  rw [blkS_eq_rows t (5#32, 2#32, 5#32) b0 b1 b2 c11 c20 c31 cx cy cz a0 a1 a2 h0 h1 h2 g11 g20 g31]
  rw [blkS_eq_rows t (6#32, 2#32, 6#32) b0 b1 b2 c11 c20 c31 cx cy cz a0 a1 a2 h0 h1 h2 g11 g20 g31]
  rw [blkS_eq_rows t (7#32, 2#32, 7#32) b0 b1 b2 c11 c20 c31 cx cy cz a0 a1 a2 h0 h1 h2 g11 g20 g31]
  rfl

end Cert.Val
-- ==== Proof.Val.KPay.lean ====
/-
  The body's arithmetic at one grid point, read as a value: the chain of payloads that forms the fourteen masked lane
  sums of the eight loaded blocks and adds them into what the output block held is that held value plus the block's
  contribution.
-/
import proofs.«404644_j25400436588780_1_alg».proof.Proof.Gen.KernelIdeal.Skeleton
import proofs.«404644_j25400436588780_1_alg».proof.Proof.Val.LaneSum
import proofs.«404644_j25400436588780_1_alg».proof.Proof.Val.BlockTotal

noncomputable section

open scoped BigOperators

namespace Cert.KernelIdeal.Ps

open Idealize.ShloMosaic Idealize.ShloMosaic.ValueIdx Cert.KernelIdeal Cert.KernelIdeal.Gen Cert.Val

/-- One triple's masked term of a block — three comparisons joined, the selected columns combined, zero elsewhere —
    cast to a row, summed along it, recast and extracted, is that triple's lane sum. -/
theorem term_eq (q0 q1 q2 : BitVec 32) (b0 b1 b2 : IVec S262144 32) (p0 p1 p2 : FVec Ideal S262144 .f32)
    (h1 : S262144.ShapeCasts S1x262144) (hr : S1x262144.Reduces [1] S1) (hφ : FKind.Formats .f32)
    (hacc : (0x00000000#32 : BitVec 32) = 0x00000000#32) (h2 : S1.ShapeCasts S1x1)
    (hpos : ∀ a, (![0, 0] : Fin 2 → Nat) a < S1x1.size a) :
    extractAt ![0, 0] (shapeCast S1x1 (multiReduction (F := Ideal) .add [1] S1 (shapeCast S1x262144
      (select (andi (andi (cmpi .eq b0 (broadcast S262144 q0)) (cmpi .eq b1 (broadcast S262144 q1))) (cmpi .eq b2 (broadcast S262144 q2)))
        (subf (addf p0 p1) p2) (broadcast S262144 (Scalar.ofBits (F := Ideal) .f32 0x00000000#32))) h1) 0x00000000#32 hr hφ hacc) h2) hpos
      = blkS (q0, q1, q2) b0 b1 b2 p0 p1 p2 :=
  Cert.Val.lane_sum _ h1 hr hφ hacc h2 hpos

set_option maxRecDepth 65536 in
/-- The value the body adds into the output block at a point, as a function of the eight loaded blocks `x0 … x8`
    (three code blocks, five volume-column blocks) and of what the output block held: that plus the block's contribution. -/
theorem body_value (x0 x1 x2 : Vec Ideal S262144 .i32) (x3 x4 x5 x6 x8 : Vec Ideal S262144 .f32) (o : Vec Ideal S1x1 .f32) :
    k0_pay23 (F := Ideal) (k0_pay1 x0) (k0_pay2 x1) (k0_pay3 x2) (k0_pay5 x4) (k0_pay6 x5) (k0_pay8 x8)
        (k0_pay20 (k0_pay1 x0) (k0_pay2 x1) (k0_pay3 x2) (k0_pay5 x4) (k0_pay6 x5) (k0_pay8 x8)
          (k0_pay17 (k0_pay1 x0) (k0_pay2 x1) (k0_pay3 x2) (k0_pay4 x3) (k0_pay5 x4) (k0_pay6 x5) (k0_pay7 x6) (k0_pay8 x8)
            (k0_pay13 (k0_pay1 x0) (k0_pay2 x1) (k0_pay3 x2) (k0_pay4 x3) (k0_pay7 x6) (k0_pay8 x8)
              (k0_pay12 (k0_pay1 x0) (k0_pay2 x1) (k0_pay3 x2) (k0_pay4 x3) (k0_pay7 x6) (k0_pay8 x8)
                (k0_pay9 x0 x1 x2 x3 x6 x8) (k0_pay10 x0 x1) (k0_pay11 x2)) 2#32)
            (k0_pay14 (k0_pay1 x0) (k0_pay2 x1) (k0_pay3 x2)) (k0_pay15 (k0_pay4 x3) (k0_pay7 x6) (k0_pay8 x8)) k0_pay16)
          (k0_pay18 (k0_pay1 x0)) (k0_pay19 (k0_pay2 x1)))
        (k0_pay21 (k0_pay1 x0) (k0_pay2 x1) (k0_pay3 x2) (k0_pay5 x4) (k0_pay6 x5) (k0_pay8 x8)) o
      = fun j => o j + blkTotal x0 x1 x2 x3 x4 x5 x6 x8 := by
  unfold k0_pay23 k0_pay21 k0_pay20 k0_pay19 k0_pay18 k0_pay17 k0_pay16 k0_pay15 k0_pay14 k0_pay13 k0_pay12 k0_pay11 k0_pay10 k0_pay9
    k0_pay8 k0_pay7 k0_pay6 k0_pay5 k0_pay4 k0_pay3 k0_pay2 k0_pay1
  simp only [shapeCast_self]
  rw [term_eq, term_eq, term_eq, term_eq, term_eq, term_eq, term_eq, term_eq, term_eq, term_eq, term_eq, term_eq, term_eq, term_eq]
  funext j
  simp only [addf_apply, broadcast_apply, blkTotal, Ideal.ofBits_def]

end Cert.KernelIdeal.Ps
-- ==== Proof.Val.KPos.lean ====
/-
  The kernel's accumulated output, read as a value: each grid point adds its block's contribution to what the
  output block held (reset to zero at the first point); the blocks are the sixteen consecutive stretches of
  262144 rows of the arrays the region reads; so after the last point the output block holds the sum over all
  rows and all fourteen triples of the row summands, and that block is what is written back to the result array.
-/
import proofs.«404644_j25400436588780_1_alg».proof.Proof.KI.Frame
import proofs.«404644_j25400436588780_1_alg».proof.Proof.Val.KCodes
import proofs.«404644_j25400436588780_1_alg».proof.Proof.Val.KPay
import Idealize.ShloMosaic.Lib.Pipeline.Value
import Idealize.ShloMosaic.Lib.Tactic

set_option maxRecDepth 16384

noncomputable section

open scoped BigOperators

namespace Cert.KernelIdeal.Ps

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Fr Cert.Val

variable (m : (ℓ : Loc nD τ sig) → Buf (Elt Ideal) ℓ)

/-! ## The arrays the sum is over, at literal types -/

/-- The three code vectors the region reads, as the host operations before it leave them. -/
abbrev cxA (c : Dev nD) : SRows.Idx → BitVec 32 := (V m c main_v25 : (⟨S4194304, .i32⟩ : BufTy).Contents (Elt Ideal))
abbrev cyA (c : Dev nD) : SRows.Idx → BitVec 32 := (V m c main_v51 : (⟨S4194304, .i32⟩ : BufTy).Contents (Elt Ideal))
abbrev czA (c : Dev nD) : SRows.Idx → BitVec 32 := (V m c main_v77 : (⟨S4194304, .i32⟩ : BufTy).Contents (Elt Ideal))
/-- The three volume tables at launch. -/
abbrev vol1 (c : Dev nD) : SRows2.Idx → EReal := (m ((c : Thread nD τ).loc main_arg0) : (⟨S4194304x2, .f32⟩ : BufTy).Contents (Elt Ideal))
abbrev vol2 (c : Dev nD) : SRows2.Idx → EReal := (m ((c : Thread nD τ).loc main_arg1) : (⟨S4194304x2, .f32⟩ : BufTy).Contents (Elt Ideal))
abbrev vol3 (c : Dev nD) : SRows2.Idx → EReal := (m ((c : Thread nD τ).loc main_arg2) : (⟨S4194304x2, .f32⟩ : BufTy).Contents (Elt Ideal))

/-! ## The blocks are stretches of rows -/

/-- A grid point as a block number. -/
def tb (t : Fin cfg0.N) : Fin 16 := ⟨t.val, lt_of_lt_of_eq t.isLt N_0⟩

theorem idx_0 : ∀ t : Fin cfg0.N, win0_0.index t 0 = t.val :=
  (by decide +kernel : ∀ t : Fin grid0.N, win0_0.index t 0 = t.val)

/-- Window 0's block at point `t` is rows `262144 t …` of its array. -/
theorem iblk_0 (c : Dev nD) (t : Fin cfg0.N) (i : Fin 262144) :
    (iblk m c 0 t : Vec Ideal S262144 .i32) (ix1 i)
      = (V m c main_v25 : (⟨S4194304, .i32⟩ : BufTy).Contents (Elt Ideal)) (ix1 (rowOf (tb t) i)) := by
  have hi : win0_0.index t 0 = t.val := idx_0 t
  unfold iblk
  rw [View.read_apply]
  show V m c main_v25 _ = V m c main_v25 _
  refine congrArg _ (funext fun a => Fin.ext ?_)
  match a with
  | ⟨0, _⟩ => show win0_0.index t 0 * 262144 + 1 * i.val = t.val * 262144 + i.val; rw [hi]; omega

theorem idx_1 : ∀ t : Fin cfg0.N, win0_1.index t 0 = t.val :=
  (by decide +kernel : ∀ t : Fin grid0.N, win0_1.index t 0 = t.val)

/-- Window 1's block at point `t` is rows `262144 t …` of its array. -/
theorem iblk_1 (c : Dev nD) (t : Fin cfg0.N) (i : Fin 262144) :
    (iblk m c 1 t : Vec Ideal S262144 .i32) (ix1 i)
      = (V m c main_v51 : (⟨S4194304, .i32⟩ : BufTy).Contents (Elt Ideal)) (ix1 (rowOf (tb t) i)) := by
  have hi : win0_1.index t 0 = t.val := idx_1 t
  unfold iblk
  rw [View.read_apply]
  show V m c main_v51 _ = V m c main_v51 _
  refine congrArg _ (funext fun a => Fin.ext ?_)
  match a with
  | ⟨0, _⟩ => show win0_1.index t 0 * 262144 + 1 * i.val = t.val * 262144 + i.val; rw [hi]; omega

theorem idx_2 : ∀ t : Fin cfg0.N, win0_2.index t 0 = t.val :=
  (by decide +kernel : ∀ t : Fin grid0.N, win0_2.index t 0 = t.val)

/-- Window 2's block at point `t` is rows `262144 t …` of its array. -/
theorem iblk_2 (c : Dev nD) (t : Fin cfg0.N) (i : Fin 262144) :
    (iblk m c 2 t : Vec Ideal S262144 .i32) (ix1 i)
      = (V m c main_v77 : (⟨S4194304, .i32⟩ : BufTy).Contents (Elt Ideal)) (ix1 (rowOf (tb t) i)) := by
  have hi : win0_2.index t 0 = t.val := idx_2 t
  unfold iblk
  rw [View.read_apply]
  show V m c main_v77 _ = V m c main_v77 _
  refine congrArg _ (funext fun a => Fin.ext ?_)
  match a with
  | ⟨0, _⟩ => show win0_2.index t 0 * 262144 + 1 * i.val = t.val * 262144 + i.val; rw [hi]; omega

theorem idx_3 : ∀ t : Fin cfg0.N, win0_3.index t 0 = t.val :=
  (by decide +kernel : ∀ t : Fin grid0.N, win0_3.index t 0 = t.val)

/-- Window 3's block at point `t` is rows `262144 t …` of its array. -/
theorem iblk_3 (c : Dev nD) (t : Fin cfg0.N) (i : Fin 262144) :
    (iblk m c 3 t : Vec Ideal S262144 .f32) (ix1 i)
      = (V m c main_v79 : (⟨S4194304, .f32⟩ : BufTy).Contents (Elt Ideal)) (ix1 (rowOf (tb t) i)) := by
  have hi : win0_3.index t 0 = t.val := idx_3 t
  unfold iblk
  rw [View.read_apply]
  show V m c main_v79 _ = V m c main_v79 _
  refine congrArg _ (funext fun a => Fin.ext ?_)
  match a with
  | ⟨0, _⟩ => show win0_3.index t 0 * 262144 + 1 * i.val = t.val * 262144 + i.val; rw [hi]; omega

theorem idx_4 : ∀ t : Fin cfg0.N, win0_4.index t 0 = t.val :=
  (by decide +kernel : ∀ t : Fin grid0.N, win0_4.index t 0 = t.val)

/-- Window 4's block at point `t` is rows `262144 t …` of its array. -/
theorem iblk_4 (c : Dev nD) (t : Fin cfg0.N) (i : Fin 262144) :
    (iblk m c 4 t : Vec Ideal S262144 .f32) (ix1 i)
      = (V m c main_v81 : (⟨S4194304, .f32⟩ : BufTy).Contents (Elt Ideal)) (ix1 (rowOf (tb t) i)) := by
  have hi : win0_4.index t 0 = t.val := idx_4 t
  unfold iblk
  rw [View.read_apply]
  show V m c main_v81 _ = V m c main_v81 _
  refine congrArg _ (funext fun a => Fin.ext ?_)
  match a with
  | ⟨0, _⟩ => show win0_4.index t 0 * 262144 + 1 * i.val = t.val * 262144 + i.val; rw [hi]; omega

theorem idx_5 : ∀ t : Fin cfg0.N, win0_5.index t 0 = t.val :=
  (by decide +kernel : ∀ t : Fin grid0.N, win0_5.index t 0 = t.val)

/-- Window 5's block at point `t` is rows `262144 t …` of its array. -/
theorem iblk_5 (c : Dev nD) (t : Fin cfg0.N) (i : Fin 262144) :
    (iblk m c 5 t : Vec Ideal S262144 .f32) (ix1 i)
      = (V m c main_v83 : (⟨S4194304, .f32⟩ : BufTy).Contents (Elt Ideal)) (ix1 (rowOf (tb t) i)) := by
  have hi : win0_5.index t 0 = t.val := idx_5 t
  unfold iblk
  rw [View.read_apply]
  show V m c main_v83 _ = V m c main_v83 _
  refine congrArg _ (funext fun a => Fin.ext ?_)
  match a with
  | ⟨0, _⟩ => show win0_5.index t 0 * 262144 + 1 * i.val = t.val * 262144 + i.val; rw [hi]; omega

theorem idx_6 : ∀ t : Fin cfg0.N, win0_6.index t 0 = t.val :=
  (by decide +kernel : ∀ t : Fin grid0.N, win0_6.index t 0 = t.val)

/-- Window 6's block at point `t` is rows `262144 t …` of its array. -/
theorem iblk_6 (c : Dev nD) (t : Fin cfg0.N) (i : Fin 262144) :
    (iblk m c 6 t : Vec Ideal S262144 .f32) (ix1 i)
      = (V m c main_v85 : (⟨S4194304, .f32⟩ : BufTy).Contents (Elt Ideal)) (ix1 (rowOf (tb t) i)) := by
  have hi : win0_6.index t 0 = t.val := idx_6 t
  unfold iblk
  rw [View.read_apply]
  show V m c main_v85 _ = V m c main_v85 _
  refine congrArg _ (funext fun a => Fin.ext ?_)
  match a with
  | ⟨0, _⟩ => show win0_6.index t 0 * 262144 + 1 * i.val = t.val * 262144 + i.val; rw [hi]; omega

theorem idx_8 : ∀ t : Fin cfg0.N, win0_8.index t 0 = t.val :=
  (by decide +kernel : ∀ t : Fin grid0.N, win0_8.index t 0 = t.val)

/-- Window 8's block at point `t` is rows `262144 t …` of its array. -/
theorem iblk_8 (c : Dev nD) (t : Fin cfg0.N) (i : Fin 262144) :
    (iblk m c 8 t : Vec Ideal S262144 .f32) (ix1 i)
      = (V m c main_v89 : (⟨S4194304, .f32⟩ : BufTy).Contents (Elt Ideal)) (ix1 (rowOf (tb t) i)) := by
  have hi : win0_8.index t 0 = t.val := idx_8 t
  unfold iblk
  rw [View.read_apply]
  show V m c main_v89 _ = V m c main_v89 _
  refine congrArg _ (funext fun a => Fin.ext ?_)
  match a with
  | ⟨0, _⟩ => show win0_8.index t 0 * 262144 + 1 * i.val = t.val * 262144 + i.val; rw [hi]; omega

/-! ## The accumulation -/

/-- The contribution of the block of point `t`. -/
def pt (c : Dev nD) (t : Fin cfg0.N) : EReal :=
  blkTotal (iblk m c 0 t : Vec Ideal S262144 .i32) (iblk m c 1 t : Vec Ideal S262144 .i32) (iblk m c 2 t : Vec Ideal S262144 .i32)
    (iblk m c 3 t : Vec Ideal S262144 .f32) (iblk m c 4 t : Vec Ideal S262144 .f32) (iblk m c 5 t : Vec Ideal S262144 .f32)
    (iblk m c 6 t : Vec Ideal S262144 .f32) (iblk m c 8 t : Vec Ideal S262144 .f32)

/-- The running total after point `n`: zero plus the first block's contribution, then each later block's added. -/
def acc (c : Dev nD) : (n : ℕ) → n < cfg0.N → EReal
  | 0, h => 0 + pt m c ⟨0, h⟩
  | n + 1, h => acc c n (Nat.lt_of_succ_lt h) + pt m c ⟨n + 1, h⟩

/-- The body's update of what the output block held, as a value: that plus the block's contribution. -/
theorem bodyVal_eq (x0 x1 x2 : Vec Ideal S262144 .i32) (x3 x4 x5 x6 x8 : Vec Ideal S262144 .f32) (o : Vec Ideal S1x1 .f32) :
    bodyVal (F := Ideal) x0 x1 x2 x3 x4 x5 x6 x8 o = fun j => o j + blkTotal x0 x1 x2 x3 x4 x5 x6 x8 :=
  body_value x0 x1 x2 x3 x4 x5 x6 x8 o

/-- The zero block the reset stores is zero. -/
theorem pay22_apply (j : S1x1.Idx) : k0_pay22 (F := Ideal) j = 0 := by
  unfold k0_pay22
  simp only [broadcast_apply, Ideal.ofBits_def, Ideal.ofBits_zero_f32]

/-- The closed form of the output block after point `n` is the running total. -/
theorem accAt_eq (c : Dev nD) : ∀ (n : ℕ) (h : n < cfg0.N), accAt m c n h = fun _ => acc m c n h
  | 0, h => by
    show bodyVal _ _ _ _ _ _ _ _ k0_pay22 = _
    rw [bodyVal_eq]
    funext j
    rw [pay22_apply]
    rfl
  | n + 1, h => by
    show bodyVal _ _ _ _ _ _ _ _ (accAt m c n _) = _
    rw [accAt_eq c n, bodyVal_eq]
    rfl

/-- What the output block holds after point `n` is the running total. -/
theorem outsAt_eq (c : Dev nD) (n : ℕ) (h : n < cfg0.N) : outsAt0 m c n h = fun _ => acc m c n h :=
  (outsAt0_eq m c n h).trans (accAt_eq m c n h)

/-- The running total after point `n` is the sum of the contributions of the blocks up to `n`. -/
theorem acc_eq_sum (c : Dev nD) : ∀ (n : ℕ) (h : n < cfg0.N),
    acc m c n h = ∑ s : Fin (n + 1), pt m c ⟨s.val, lt_of_le_of_lt (Nat.lt_succ_iff.mp s.isLt) h⟩
  | 0, h => by
    rw [Fin.sum_univ_one]; show 0 + pt m c ⟨0, h⟩ = _; rw [zero_add]; rfl
  | n + 1, h => by
    rw [Fin.sum_univ_castSucc]
    show acc m c n _ + pt m c ⟨n + 1, h⟩ = _
    rw [acc_eq_sum c n]
    rfl

/-- The contribution of a block is the sum over its rows of the fourteen row summands. -/
theorem pt_eq_rows (c : Dev nD) (t : Fin cfg0.N) :
    pt m c t = ∑ i : Fin 262144, ∑ j : Fin 14,
      w (recipe j) (cxA m c) (cyA m c) (czA m c) (vol1 m c) (vol2 m c) (vol3 m c) (rowOf (tb t) i) :=
  blkTotal_eq_rows (tb t) _ _ _ _ _ _ _ _ _ _ _ _ _ _
    (iblk_0 m c t) (iblk_1 m c t) (iblk_2 m c t)
    (fun i => (iblk_3 m c t i).trans (Cert.KernelIdeal.Cd.col_v79_apply m c _))
    (fun i => (iblk_4 m c t i).trans (Cert.KernelIdeal.Cd.col_v81_apply m c _))
    (fun i => (iblk_5 m c t i).trans (Cert.KernelIdeal.Cd.col_v83_apply m c _))
    (fun i => (iblk_6 m c t i).trans (Cert.KernelIdeal.Cd.col_v85_apply m c _))
    (fun i => (iblk_8 m c t i).trans (Cert.KernelIdeal.Cd.col_v89_apply m c _))

/-- The total over the sixteen blocks is the positive-recipe sum. -/
theorem acc_last (c : Dev nD) (h : 15 < cfg0.N) :
    acc m c 15 h = posSum (cxA m c) (cyA m c) (czA m c) (vol1 m c) (vol2 m c) (vol3 m c) := by
  rw [acc_eq_sum]
  unfold posSum
  rw [← sum_blocks]
  refine Finset.sum_congr rfl fun s _ => ?_
  exact pt_eq_rows m c _

/-! ## The result array -/

/-- The one write-back, at the last point, writes the output block holding the total. -/
theorem flushed_eq (c : Dev nD) (t : Fin cfg0.N) (hf : (cfg0.win 9).flush t = true) :
    (dats m 0 c).flushed 9 t = ((cfg0.win 9).blk t).view.read (Elt Ideal)
      (fun _ => posSum (cxA m c) (cyA m c) (czA m c) (vol1 m c) (vol2 m c) (vol3 m c)) := by
  have hN : cfg0.N = 16 := N_0
  have h15 : t.val = 15 := by have := (flush0_9 t).mp hf; have := t.isLt; omega
  obtain rfl : t = t0_15 := Fin.ext h15
  show (cfg0.win 9).cut (grid0.coords t0_15) ((dats m 0 c).after 9 t0_15) = _
  rw [after0_9, outsAt_eq]
  have hz' : (fun a => win0_9.index t0_15 a * main_v90.ty.shape.size a) = fun _ => 0 := funext fun a => by fin_cases a <;> decide
  refine Eq.trans ?_ (Memref.read_access_unit_zero (Elt Ideal) main_v90 hz' (fun a => by rw [congrFun hz' a]; simp) _).symm
  funext j
  exact acc_last m c _

/-- After the region the result array holds the positive-recipe sum. -/
theorem possum_value (c : Dev nD) :
    (dats m 0 c).arrAt 9 cfg0.N = fun _ => posSum (cxA m c) (cyA m c) (czA m c) (vol1 m c) (vol2 m c) (vol3 m c) :=
  (dats m 0 c).arrAt_eq_of_cover 9 _ (flushed_eq m c) fun i =>
    ⟨t0_15, (flush0_9 t0_15).mpr rfl, by
      show i ∈ ((View.whole main_v90).slice (win0_9.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_9.index t0_15 0 * win0_9.size 0 ≤ (i 0 : Nat) ∧ (i 0 : Nat) < win0_9.index t0_15 0 * win0_9.size 0 + win0_9.xsize (grid0.coords t0_15) 0
                  rw [show win0_9.index t0_15 0 * win0_9.size 0 = 0 from by decide +kernel, show win0_9.xsize (grid0.coords t0_15) 0 = 1 from by decide +kernel]; omega
      | ⟨1, _⟩ => show win0_9.index t0_15 1 * win0_9.size 1 ≤ (i 1 : Nat) ∧ (i 1 : Nat) < win0_9.index t0_15 1 * win0_9.size 1 + win0_9.xsize (grid0.coords t0_15) 1
                  rw [show win0_9.index t0_15 1 * win0_9.size 1 = 0 from by decide +kernel, show win0_9.xsize (grid0.coords t0_15) 1 = 1 from by decide +kernel]; omega⟩

end Cert.KernelIdeal.Ps
-- ==== Proof.LibPickSpec.lean ====
/- Which rows a 0/1 mask over 4194304 rows selects: how many, and the k-th of them.
   The common specification of two ways of finding "the (k+1)-th selected row, or 0 when there is none":
   a minimum over the selected row numbers (then a second minimum that leaves the first one out), and the
   first row at which the running count of selected rows reaches k+1. -/
import Idealize.ShloMosaic.Lib.ValueIdx
import Mathlib.Data.Nat.Count
import Mathlib.Data.Nat.Nth

noncomputable section

namespace Cert.Pick

open Idealize.ShloMosaic Idealize.ShloMosaic.ValueIdx

/-- The number of rows. -/
abbrev B : Nat := 4194304
/-- One 32-bit word or one bit per row. -/
abbrev SB : Shape := ⟨1, ![4194304]⟩
/-- A scalar. -/
abbrev S0 : Shape := ⟨0, ![]⟩

/-- Row `i` is selected by the mask `x`: it is a row, and its bit is set. -/
def sel (x : SB.Idx → BitVec 1) (i : ℕ) : Prop := ∃ h : i < B, x (ix1 ⟨i, h⟩) = 1#1

instance (x : SB.Idx → BitVec 1) : DecidablePred (sel x) := fun i => by unfold sel; infer_instance

/-- How many rows the mask selects. -/
def cnt (x : SB.Idx → BitVec 1) : ℕ := Nat.count (sel x) B

/-- The `k`-th selected row, counting from 0, or 0 when fewer than `k + 1` rows are selected. -/
def pick (x : SB.Idx → BitVec 1) (k : ℕ) : ℕ := if k < cnt x then Nat.nth (sel x) k else 0

theorem cnt_le (x : SB.Idx → BitVec 1) : cnt x ≤ B := Nat.count_le _

theorem pick_lt (x : SB.Idx → BitVec 1) (k : ℕ) : pick x k < B := by
  unfold pick
  split
  · rename_i h
    have hk : k < Nat.count (sel x) B := h
    have := Nat.nth_lt_of_lt_count hk
    exact this
  · decide

end Cert.Pick

end
-- ==== Proof.Val.Terms.lean ====
/- The terms both programs compute after the selected rows are known, as functions of their inputs.
   A recipe is three category codes and three flags. Its mask selects the rows whose three code words equal
   the codes. Its term is zero when no row is selected; otherwise it is the sum, over the two columns, of
   volume1[r1] + volume2[r2] - log(1 - exp(volume3[r3])), where each of r1, r2, r3 is the first or the second
   selected row as its flag says. The loss is the starting value minus the terms of the recipes, in order. -/
import Idealize.ShloMosaic.PureOps
import Idealize.ShloMosaic.PureOps.Ideal
import Idealize.ShloMosaic.Lib.ValueIdx
import proofs.«404644_j25400436588780_1_alg».proof.Proof.LibPickSpec

noncomputable section

namespace Cert.Val

open Idealize.ShloMosaic Idealize.ShloMosaic.ValueIdx
open Cert.Pick (SB S0 cnt pick)

variable {F : FTy → Type} [FloatOps F]

/-- A two-column array over the rows. -/
abbrev SA : Shape := ⟨2, ![4194304, 2]⟩
/-- One row of it, as a 1 × 2 block. -/
abbrev SR : Shape := ⟨2, ![1, 2]⟩
/-- One row of it, as a vector of two. -/
abbrev S2 : Shape := ⟨1, ![2]⟩

/-! ## The shape side conditions -/

theorem hb : S0.BroadcastsInDim SB (![] : Fin 0 → Fin SB.rank) := by decide
theorem hb2 : S0.BroadcastsInDim S2 (![] : Fin 0 → Fin S2.rank) := by decide
theorem hu : 0 < S0.numel := by decide
theorem hr : SB.ReducesTo [0] S0 := by decide
theorem hr2 : S2.ReducesTo [0] S0 := by decide
theorem hlt : 1 < 32 := by decide
theorem hsl : SA.Slices (fun _ => 0) SR := by decide
theorem hsc : SR.ShapeCasts S2 := by decide

/-! ## One row of a two-column array -/

/-- The row word as the programs adjust it before slicing: a negative word is moved up by the number of rows. -/
def wrapRow (r : S0.Idx → BitVec 32) : S0.Idx → BitVec 32 :=
  select (cmpi .slt r (constantI S0 32 0#32)) (addi r (constantI S0 32 4194304#32)) r

/-- The column word of the slice: zero, written the way the programs compute it. -/
def colWord : S0.Idx → BitVec 32 :=
  select (cmpi .slt (constantI S0 32 0#32) (constantI S0 32 0#32))
    (addi (constantI S0 32 0#32) (constantI S0 32 2#32)) (constantI S0 32 0#32)

/-- Row `r` of the two-column array `a`, as a vector of two: the 1 × 2 block at (adjusted row, column word),
    clamped into the array, reshaped. -/
def rowAt (a : SA.Idx → F .f32) (r : S0.Idx → BitVec 32) : S2.Idx → F .f32 :=
  shapeCast S2
    (Host.dynamicSlice SR a
      (fun k => ((![wrapRow r, colWord] : Fin 2 → S0.Idx → BitVec 32) k (Shape.Idx.first hu)).toInt) hsl)
    hsc

/-! ## log(1 - exp v) -/

/-- log(1 - exp v), computed as log(-(exp v - 1)) above -log 2 and as log1p(-exp v) elsewhere. -/
def log1mexp (v : S2.Idx → F .f32) : S2.Idx → F .f32 :=
  select (cmpf .ogt v (broadcastInDim S2 ![] hb2 (constant S0 .f32 0xBF317218#32)))
    (Host.log (Host.negf (Host.expm1 v)))
    (Host.log1p (Host.negf (Host.exp v)))

/-! ## A recipe's term -/

/-- The term of one recipe from its three row words and its positivity bit. -/
def negTerm (i1 i2 i3 : S0.Idx → BitVec 32) (pos : S0.Idx → BitVec 1) (a0 a1 a2 : SA.Idx → F .f32) :
    S0.Idx → F .f32 :=
  select pos
    (Host.reduceAdd (subf (addf (rowAt a0 i1) (rowAt a1 i2)) (log1mexp (rowAt a2 i3)))
      (constant S0 .f32 0x00000000#32) hr2 hu)
    (constant S0 .f32 0x00000000#32)

/-! ## A recipe's mask -/

/-- The rows whose three code words equal the recipe's three codes. -/
def maskOf (a b c : BitVec 32) (cx cy cz : SB.Idx → BitVec 32) : SB.Idx → BitVec 1 :=
  andi
    (andi (cmpi .eq cx (broadcastInDim SB ![] hb (constantI S0 32 a)))
          (cmpi .eq cy (broadcastInDim SB ![] hb (constantI S0 32 b))))
    (cmpi .eq cz (broadcastInDim SB ![] hb (constantI S0 32 c)))

/-! ## The rows found with two minimum reductions -/

/-- The sum of the mask's bits as words. -/
def cntw (x : SB.Idx → BitVec 1) : S0.Idx → BitVec 32 :=
  Host.reduce IntOp.addi (extui 32 x hlt) (constantI S0 32 0#32) hr hu

/-- The minimum, over the rows, of "the row number where selected, the number of rows elsewhere". -/
def minRow (x : SB.Idx → BitVec 1) : S0.Idx → BitVec 32 :=
  Host.reduce IntOp.minsi
    (select x (iotaInDim SB 32 0) (broadcastInDim SB ![] hb (constantI S0 32 4194304#32)))
    (constantI S0 32 2147483647#32) hr hu

/-- The mask without the row the first minimum found. -/
def dropMin (x : SB.Idx → BitVec 1) : SB.Idx → BitVec 1 :=
  andi x (cmpi .ne (iotaInDim SB 32 0) (broadcastInDim SB ![] hb (minRow x)))

/-- The first selected row's word, 0 when no row is selected. -/
def kFirst (x : SB.Idx → BitVec 1) : S0.Idx → BitVec 32 :=
  select (cmpi .sge (cntw x) (constantI S0 32 1#32)) (minRow x) (constantI S0 32 0#32)

/-- The second selected row's word, 0 when fewer than two rows are selected. -/
def kSecond (x : SB.Idx → BitVec 1) : S0.Idx → BitVec 32 :=
  select (cmpi .sge (cntw x) (constantI S0 32 2#32)) (minRow (dropMin x)) (constantI S0 32 0#32)

/-- Whether a row is selected, from the word count. -/
def kPos (x : SB.Idx → BitVec 1) : S0.Idx → BitVec 1 :=
  cmpi .sgt (cntw x) (constantI S0 32 0#32)

/-! ## The recipes and the loss -/

/-- A recipe: three codes, and for each of the three volume arrays whether it reads the second selected row
    (otherwise the first). -/
structure Recipe where
  a : BitVec 32
  b : BitVec 32
  c : BitVec 32
  f1 : Bool
  f2 : Bool
  f3 : Bool

/-- The 22 recipes, in the programs' order; a flag is set when its code is at least 4. -/
def recipes : List Recipe :=
  [⟨0#32, 4#32, 1#32, false, true, false⟩, ⟨0#32, 4#32, 2#32, false, true, false⟩,
   ⟨0#32, 6#32, 1#32, false, true, false⟩, ⟨0#32, 6#32, 2#32, false, true, false⟩,
   ⟨1#32, 5#32, 0#32, false, true, false⟩, ⟨1#32, 5#32, 2#32, false, true, false⟩,
   ⟨1#32, 6#32, 0#32, false, true, false⟩, ⟨1#32, 6#32, 2#32, false, true, false⟩,
   ⟨2#32, 4#32, 1#32, false, true, false⟩, ⟨2#32, 4#32, 2#32, false, true, false⟩,
   ⟨2#32, 5#32, 0#32, false, true, false⟩, ⟨2#32, 5#32, 2#32, false, true, false⟩,
   ⟨4#32, 0#32, 1#32, true, false, false⟩, ⟨4#32, 0#32, 2#32, true, false, false⟩,
   ⟨4#32, 2#32, 1#32, true, false, false⟩, ⟨4#32, 2#32, 2#32, true, false, false⟩,
   ⟨5#32, 1#32, 0#32, true, false, false⟩, ⟨5#32, 1#32, 2#32, true, false, false⟩,
   ⟨5#32, 2#32, 0#32, true, false, false⟩, ⟨5#32, 2#32, 2#32, true, false, false⟩,
   ⟨2#32, 7#32, 2#32, false, true, false⟩, ⟨7#32, 2#32, 2#32, true, false, false⟩]

/-- The word of the first (flag clear) or second (flag set) selected row of the mask, 0 when there is none. -/
def pickWord (x : SB.Idx → BitVec 1) (f : Bool) : S0.Idx → BitVec 32 :=
  fun _ => BitVec.ofNat 32 (pick x (if f then 1 else 0))

/-- Whether the mask selects a row, as a bit. -/
def posBit (x : SB.Idx → BitVec 1) : S0.Idx → BitVec 1 :=
  fun _ => if 0 < cnt x then 1#1 else 0#1

/-- A recipe's term, by the specification of the selected rows. -/
def recTerm (r : Recipe) (cx cy cz : SB.Idx → BitVec 32) (a0 a1 a2 : SA.Idx → F .f32) : S0.Idx → F .f32 :=
  negTerm (pickWord (maskOf r.a r.b r.c cx cy cz) r.f1) (pickWord (maskOf r.a r.b r.c cx cy cz) r.f2)
    (pickWord (maskOf r.a r.b r.c cx cy cz) r.f3) (posBit (maskOf r.a r.b r.c cx cy cz)) a0 a1 a2

/-- The loss: the starting value minus the recipes' terms, in order. -/
def lossOf (l0 : S0.Idx → F .f32) (rs : List Recipe) (cx cy cz : SB.Idx → BitVec 32)
    (a0 a1 a2 : SA.Idx → F .f32) : S0.Idx → F .f32 :=
  rs.foldl (fun l r => subf l (recTerm r cx cy cz a0 a1 a2)) l0

/-- The row word the min-reduction program uses for a flag. -/
def kWord (x : SB.Idx → BitVec 1) : Bool → S0.Idx → BitVec 32
  | false => kFirst x
  | true => kSecond x

theorem kWord_false (x : SB.Idx → BitVec 1) : kWord x false = kFirst x := rfl
theorem kWord_true (x : SB.Idx → BitVec 1) : kWord x true = kSecond x := rfl

/-- A recipe's term as the min-reduction program computes it. -/
def kTerm (r : Recipe) (cx cy cz : SB.Idx → BitVec 32) (a0 a1 a2 : SA.Idx → F .f32) : S0.Idx → F .f32 :=
  negTerm (kWord (maskOf r.a r.b r.c cx cy cz) r.f1) (kWord (maskOf r.a r.b r.c cx cy cz) r.f2)
    (kWord (maskOf r.a r.b r.c cx cy cz) r.f3) (kPos (maskOf r.a r.b r.c cx cy cz)) a0 a1 a2

/-- The loss as the min-reduction program computes it: the starting value minus its terms, in order. -/
def kLossOf (l0 : S0.Idx → F .f32) (rs : List Recipe) (cx cy cz : SB.Idx → BitVec 32)
    (a0 a1 a2 : SA.Idx → F .f32) : S0.Idx → F .f32 :=
  rs.foldl (fun l r => subf l (kTerm r cx cy cz a0 a1 a2)) l0

/-! ## From the min-reduction rows to the specification's rows -/

/-- When the two minimum reductions find the specification's rows and the word count decides positivity, the
    program's term of a recipe is the specification's. -/
theorem kTerm_eq_recTerm
    (hF : ∀ x : SB.Idx → BitVec 1, kFirst x = pickWord x false)
    (hS : ∀ x : SB.Idx → BitVec 1, kSecond x = pickWord x true)
    (hP : ∀ x : SB.Idx → BitVec 1, kPos x = posBit x)
    (r : Recipe) (cx cy cz : SB.Idx → BitVec 32) (a0 a1 a2 : SA.Idx → F .f32) :
    kTerm r cx cy cz a0 a1 a2 = recTerm r cx cy cz a0 a1 a2 := by
  have hw : ∀ (x : SB.Idx → BitVec 1) (f : Bool), kWord x f = pickWord x f := by
    intro x f
    cases f
    · rw [kWord_false]; exact hF x
    · rw [kWord_true]; exact hS x
  unfold kTerm recTerm
  rw [hw, hw, hw, hP]

/-- And so is its loss. -/
theorem kLossOf_eq_lossOf
    (hF : ∀ x : SB.Idx → BitVec 1, kFirst x = pickWord x false)
    (hS : ∀ x : SB.Idx → BitVec 1, kSecond x = pickWord x true)
    (hP : ∀ x : SB.Idx → BitVec 1, kPos x = posBit x)
    (l0 : S0.Idx → F .f32) (rs : List Recipe) (cx cy cz : SB.Idx → BitVec 32) (a0 a1 a2 : SA.Idx → F .f32) :
    kLossOf l0 rs cx cy cz a0 a1 a2 = lossOf l0 rs cx cy cz a0 a1 a2 := by
  unfold kLossOf lossOf
  induction rs generalizing l0 with
  | nil => simp only [List.foldl_nil]
  | cons r rs ih => simp only [List.foldl_cons]; rw [kTerm_eq_recTerm hF hS hP, ih]

end Cert.Val

end
-- ==== Proof.Val.Cut.lean ====
/- Cutting a line of host operations into consecutive pieces: the contents after two pieces run in turn, the
   first operation of a line and the rest of it, and the result of a two-index slice with each index word read at
   its own buffer. -/
import Idealize.ShloMosaic.Lib.StableHlo.Run

noncomputable section

namespace Cert.Val

open Idealize.ShloMosaic Idealize.ShloMosaic.TcCoe
open Idealize.SL Idealize.SL.Sem

variable {nD : Nat} {τ : Topo} {sig : RefSig} {Val : EltTy → Type}

/-- The contents after two lines run one after the other: the second line's, from the first line's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The first element of a list, as a list. -/
def firstOf {α : Type} : List α → List α
  | [] => []
  | a :: _ => [a]

/-- A list without its first element. -/
def restOf {α : Type} : List α → List α
  | [] => []
  | _ :: l => l

theorem firstOf_cons {α : Type} (a : α) (l : List α) : firstOf (a :: l) = [a] := rfl
theorem restOf_cons {α : Type} (a : α) (l : List α) : restOf (a :: l) = l := rfl

/-- A list is its first element followed by the rest. -/
theorem firstOf_append_restOf {α : Type} (l : List α) : firstOf l ++ restOf l = l := by
  cases l <;> rfl

/-- The same, with more lists following. -/
theorem firstOf_append_restOf_append {α : Type} (l m : List α) : firstOf l ++ (restOf l ++ m) = l ++ m := by
  rw [← List.append_assoc, firstOf_append_restOf]

/-- A slice at two index words: the result with each index word's contents at its own buffer. -/
theorem unaryIndexed2_result {a p q y : Ref sig .tc} (T : BufTy)
    (f : a.ty.Contents Val → (Fin 2 → T.Contents Val) → y.ty.Contents Val) (hT ha hix hy) (V : Valuation τ sig Val) :
    (StableHlo.unaryIndexed (τ := τ) a ![p, q] T y f hT ha hix hy).result V (no_index (Proc.devRef .tc y))
      = f (V (Proc.devRef .tc a))
          ![cast (congrArg (fun U : BufTy => U.Contents Val) (hT 0)) (V (Proc.devRef .tc p)),
            cast (congrArg (fun U : BufTy => U.Contents Val) (hT 1)) (V (Proc.devRef .tc q))] := by
  rw [StableHlo.unaryIndexed_result]
  congr 1
  funext k
  fin_cases k <;> rfl

end Cert.Val

end
-- ==== Proof.Val.KTail00.lean ====
/- Recipe 0 of the 22 negative recipes, in the host operations after the region.
   The group runs from the region's (1,1) result to the first running loss, in three stages. The first reshapes the
   region's result to a scalar and negates it, forms the recipe's mask from the three code vectors, counts its
   selected rows, and takes the two minimum reductions: the least selected row, and the least selected row of the
   mask without that row. The second guards the two minima by the count. The third reads one row of each volume
   array at the guarded rows, forms the recipe's term and subtracts it from the negated region result. The running
   loss after the group is the negated region result minus the recipe's term, and the group leaves the code vectors
   and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA00 : List (HloOp τ sig (Elt F)) :=
  hostOps1 ++ (hostOps1_1 ++ (hostOps1_2 ++ (hostOps1_3 ++ (hostOps1_4))))

/-- The two guarded rows. -/
def stB00 : List (HloOp τ sig (Elt F)) :=
  hostOps1_5 ++ (hostOps1_6 ++ (hostOps1_7))

/-- The three rows read, the recipe's term, the subtraction. -/
def stC00 : List (HloOp τ sig (Elt F)) :=
  hostOps1_8 ++ (hostOps1_9 ++ (hostOps1_10 ++ (hostOps1_11 ++ (firstOf hostOps1_12))))

/-- The operations of the group. -/
abbrev G00 : List (HloOp τ sig (Elt F)) := stA00 ++ (stB00 ++ stC00)

/-! ## The first stage -/

theorem stA00_loss (W : Valuation τ sig (Elt F)) :
    StableHlo.after (stA00 (F := F)) W (Proc.devRef .tc main_v92)
      = Host.negf (shapeCast S_ (W (Proc.devRef .tc main_v90)) shapeCasts_S1x1_S_) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA00_cnt (W : Valuation τ sig (Elt F)) :
    StableHlo.after (stA00 (F := F)) W (Proc.devRef .tc main_v105)
      = Cert.Val.cntw (Cert.Val.maskOf 0#32 4#32 1#32 (W (Proc.devRef .tc main_v25)) (W (Proc.devRef .tc main_v51)) (W (Proc.devRef .tc main_v77))) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA00_min (W : Valuation τ sig (Elt F)) :
    StableHlo.after (stA00 (F := F)) W (Proc.devRef .tc main_v103)
      = Cert.Val.minRow (Cert.Val.maskOf 0#32 4#32 1#32 (W (Proc.devRef .tc main_v25)) (W (Proc.devRef .tc main_v51)) (W (Proc.devRef .tc main_v77))) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA00_min2 (W : Valuation τ sig (Elt F)) :
    StableHlo.after (stA00 (F := F)) W (Proc.devRef .tc main_v110)
      = Cert.Val.minRow (Cert.Val.dropMin (Cert.Val.maskOf 0#32 4#32 1#32 (W (Proc.devRef .tc main_v25)) (W (Proc.devRef .tc main_v51)) (W (Proc.devRef .tc main_v77)))) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA00_ge1 (W : Valuation τ sig (Elt F)) :
    StableHlo.after (stA00 (F := F)) W (Proc.devRef .tc main_v111)
      = cmpi .sge (Cert.Val.cntw (Cert.Val.maskOf 0#32 4#32 1#32 (W (Proc.devRef .tc main_v25)) (W (Proc.devRef .tc main_v51)) (W (Proc.devRef .tc main_v77)))) (constantI Cert.Pick.S0 32 1#32) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA00_zero (W : Valuation τ sig (Elt F)) :
    StableHlo.after (stA00 (F := F)) W (Proc.devRef .tc main_c_41)
      = constantI Cert.Pick.S0 32 0#32 := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_v25 (W : Valuation τ sig (Elt F)) :
    StableHlo.after (stA00 (F := F)) W (Proc.devRef .tc main_v25) = W (Proc.devRef .tc main_v25) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_v51 (W : Valuation τ sig (Elt F)) :
    StableHlo.after (stA00 (F := F)) W (Proc.devRef .tc main_v51) = W (Proc.devRef .tc main_v51) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_v77 (W : Valuation τ sig (Elt F)) :
    StableHlo.after (stA00 (F := F)) W (Proc.devRef .tc main_v77) = W (Proc.devRef .tc main_v77) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_arg0 (W : Valuation τ sig (Elt F)) :
    StableHlo.after (stA00 (F := F)) W (Proc.devRef .tc main_arg0) = W (Proc.devRef .tc main_arg0) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_arg1 (W : Valuation τ sig (Elt F)) :
    StableHlo.after (stA00 (F := F)) W (Proc.devRef .tc main_arg1) = W (Proc.devRef .tc main_arg1) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA00_at_main_arg2 (W : Valuation τ sig (Elt F)) :
    StableHlo.after (stA00 (F := F)) W (Proc.devRef .tc main_arg2) = W (Proc.devRef .tc main_arg2) := by
  simp (disch := decide) only [stA00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB00_first (W : Valuation τ sig (Elt F)) :
    StableHlo.after (stB00 (F := F)) W (Proc.devRef .tc main_v112)
      = select (W (Proc.devRef .tc main_v111)) (W (Proc.devRef .tc main_v103)) (W (Proc.devRef .tc main_c_41)) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB00_second (W : Valuation τ sig (Elt F)) :
    StableHlo.after (stB00 (F := F)) W (Proc.devRef .tc main_v114)
      = select (cmpi .sge (W (Proc.devRef .tc main_v105)) (constantI Cert.Pick.S0 32 2#32)) (W (Proc.devRef .tc main_v110))
          (constantI Cert.Pick.S0 32 0#32) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB00_at_main_v105 (W : Valuation τ sig (Elt F)) :
    StableHlo.after (stB00 (F := F)) W (Proc.devRef .tc main_v105) = W (Proc.devRef .tc main_v105) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_v92 (W : Valuation τ sig (Elt F)) :
    StableHlo.after (stB00 (F := F)) W (Proc.devRef .tc main_v92) = W (Proc.devRef .tc main_v92) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_v25 (W : Valuation τ sig (Elt F)) :
    StableHlo.after (stB00 (F := F)) W (Proc.devRef .tc main_v25) = W (Proc.devRef .tc main_v25) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_v51 (W : Valuation τ sig (Elt F)) :
    StableHlo.after (stB00 (F := F)) W (Proc.devRef .tc main_v51) = W (Proc.devRef .tc main_v51) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_v77 (W : Valuation τ sig (Elt F)) :
    StableHlo.after (stB00 (F := F)) W (Proc.devRef .tc main_v77) = W (Proc.devRef .tc main_v77) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_arg0 (W : Valuation τ sig (Elt F)) :
    StableHlo.after (stB00 (F := F)) W (Proc.devRef .tc main_arg0) = W (Proc.devRef .tc main_arg0) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_arg1 (W : Valuation τ sig (Elt F)) :
    StableHlo.after (stB00 (F := F)) W (Proc.devRef .tc main_arg1) = W (Proc.devRef .tc main_arg1) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB00_at_main_arg2 (W : Valuation τ sig (Elt F)) :
    StableHlo.after (stB00 (F := F)) W (Proc.devRef .tc main_arg2) = W (Proc.devRef .tc main_arg2) := by
  simp (disch := decide) only [stB00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC00_loss (W : Valuation τ sig (Elt F)) :
    StableHlo.after (stC00 (F := F)) W (Proc.devRef .tc main_v153)
      = subf (W (Proc.devRef .tc main_v92))
          (Cert.Val.negTerm (W (Proc.devRef .tc main_v112)) (W (Proc.devRef .tc main_v114)) (W (Proc.devRef .tc main_v112))
            (cmpi .sgt (W (Proc.devRef .tc main_v105)) (constantI Cert.Pick.S0 32 0#32))
            (W (Proc.devRef .tc main_arg0)) (W (Proc.devRef .tc main_arg1)) (W (Proc.devRef .tc main_arg2))) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC00_at_main_v25 (W : Valuation τ sig (Elt F)) :
    StableHlo.after (stC00 (F := F)) W (Proc.devRef .tc main_v25) = W (Proc.devRef .tc main_v25) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC00_at_main_v51 (W : Valuation τ sig (Elt F)) :
    StableHlo.after (stC00 (F := F)) W (Proc.devRef .tc main_v51) = W (Proc.devRef .tc main_v51) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC00_at_main_v77 (W : Valuation τ sig (Elt F)) :
    StableHlo.after (stC00 (F := F)) W (Proc.devRef .tc main_v77) = W (Proc.devRef .tc main_v77) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC00_at_main_arg0 (W : Valuation τ sig (Elt F)) :
    StableHlo.after (stC00 (F := F)) W (Proc.devRef .tc main_arg0) = W (Proc.devRef .tc main_arg0) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC00_at_main_arg1 (W : Valuation τ sig (Elt F)) :
    StableHlo.after (stC00 (F := F)) W (Proc.devRef .tc main_arg1) = W (Proc.devRef .tc main_arg1) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC00_at_main_arg2 (W : Valuation τ sig (Elt F)) :
    StableHlo.after (stC00 (F := F)) W (Proc.devRef .tc main_arg2) = W (Proc.devRef .tc main_arg2) := by
  simp (disch := decide) only [stC00, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec00_loss (X : Valuation τ sig (Elt F)) :
    StableHlo.after (G00 (F := F)) X (Proc.devRef .tc main_v153)
      = subf (Host.negf (shapeCast S_ (X (Proc.devRef .tc main_v90)) shapeCasts_S1x1_S_))
          (Cert.Val.kTerm ⟨0#32, 4#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA00 ++ (stB00 ++ stC00)) X _ = _
  rw [after_append, after_append, stC00_loss, stB00_first, stB00_second, stB00_at_main_v105, stB00_at_main_v92,
    stB00_at_main_arg0, stB00_at_main_arg1, stB00_at_main_arg2,
    stA00_cnt, stA00_min, stA00_min2, stA00_ge1, stA00_zero, stA00_loss,
    stA00_at_main_arg0, stA00_at_main_arg1, stA00_at_main_arg2]
  simp only [Cert.Val.kTerm, Cert.Val.kWord, Cert.Val.kFirst, Cert.Val.kSecond, Cert.Val.kPos]

/-- The group leaves the code vectors and the volume arrays as they were. -/
theorem rec00_keeps (X : Valuation τ sig (Elt F)) :
    StableHlo.after (G00 (F := F)) X (Proc.devRef .tc main_v25) = X (Proc.devRef .tc main_v25)
    ∧ StableHlo.after (G00 (F := F)) X (Proc.devRef .tc main_v51) = X (Proc.devRef .tc main_v51)
    ∧ StableHlo.after (G00 (F := F)) X (Proc.devRef .tc main_v77) = X (Proc.devRef .tc main_v77)
    ∧ StableHlo.after (G00 (F := F)) X (Proc.devRef .tc main_arg0) = X (Proc.devRef .tc main_arg0)
    ∧ StableHlo.after (G00 (F := F)) X (Proc.devRef .tc main_arg1) = X (Proc.devRef .tc main_arg1)
    ∧ StableHlo.after (G00 (F := F)) X (Proc.devRef .tc main_arg2) = X (Proc.devRef .tc main_arg2) := by
  refine ⟨?_, ?_, ?_, ?_, ?_, ?_⟩ <;> show StableHlo.after (stA00 ++ (stB00 ++ stC00)) X _ = _
  · rw [after_append, after_append, stC00_at_main_v25, stB00_at_main_v25, stA00_at_main_v25]
  · rw [after_append, after_append, stC00_at_main_v51, stB00_at_main_v51, stA00_at_main_v51]
  · rw [after_append, after_append, stC00_at_main_v77, stB00_at_main_v77, stA00_at_main_v77]
  · rw [after_append, after_append, stC00_at_main_arg0, stB00_at_main_arg0, stA00_at_main_arg0]
  · rw [after_append, after_append, stC00_at_main_arg1, stB00_at_main_arg1, stA00_at_main_arg1]
  · rw [after_append, after_append, stC00_at_main_arg2, stB00_at_main_arg2, stA00_at_main_arg2]

end Cert.KernelIdeal.Tl

end
-- ==== Proof.Val.KTail01.lean ====
/- Recipe 1 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA01 : List (HloOp τ sig (Elt F)) :=
  restOf hostOps1_12 ++ (hostOps1_13 ++ (hostOps1_14 ++ (hostOps1_15 ++ (hostOps1_16))))

/-- The two guarded rows. -/
def stB01 : List (HloOp τ sig (Elt F)) :=
  hostOps1_17 ++ (hostOps1_18 ++ (hostOps1_19))

/-- The three rows read, the recipe's term, the subtraction. -/
def stC01 : List (HloOp τ sig (Elt F)) :=
  hostOps1_20 ++ (hostOps1_21 ++ (hostOps1_22 ++ (hostOps1_23 ++ (firstOf hostOps1_24))))

/-- The operations of the group. -/
abbrev G01 : List (HloOp τ sig (Elt F)) := stA01 ++ (stB01 ++ stC01)

/-! ## The first stage -/

theorem stA01_cnt (W : Valuation τ sig (Elt F)) :
    StableHlo.after (stA01 (F := F)) W (Proc.devRef .tc main_v166)
      = Cert.Val.cntw (Cert.Val.maskOf 0#32 4#32 2#32 (W (Proc.devRef .tc main_v25)) (W (Proc.devRef .tc main_v51)) (W (Proc.devRef .tc main_v77))) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA01_min (W : Valuation τ sig (Elt F)) :
    StableHlo.after (stA01 (F := F)) W (Proc.devRef .tc main_v164)
      = Cert.Val.minRow (Cert.Val.maskOf 0#32 4#32 2#32 (W (Proc.devRef .tc main_v25)) (W (Proc.devRef .tc main_v51)) (W (Proc.devRef .tc main_v77))) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA01_min2 (W : Valuation τ sig (Elt F)) :
    StableHlo.after (stA01 (F := F)) W (Proc.devRef .tc main_v171)
      = Cert.Val.minRow (Cert.Val.dropMin (Cert.Val.maskOf 0#32 4#32 2#32 (W (Proc.devRef .tc main_v25)) (W (Proc.devRef .tc main_v51)) (W (Proc.devRef .tc main_v77)))) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA01_ge1 (W : Valuation τ sig (Elt F)) :
    StableHlo.after (stA01 (F := F)) W (Proc.devRef .tc main_v172)
      = cmpi .sge (Cert.Val.cntw (Cert.Val.maskOf 0#32 4#32 2#32 (W (Proc.devRef .tc main_v25)) (W (Proc.devRef .tc main_v51)) (W (Proc.devRef .tc main_v77)))) (constantI Cert.Pick.S0 32 1#32) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA01_zero (W : Valuation τ sig (Elt F)) :
    StableHlo.after (stA01 (F := F)) W (Proc.devRef .tc main_c_77)
      = constantI Cert.Pick.S0 32 0#32 := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_v153 (W : Valuation τ sig (Elt F)) :
    StableHlo.after (stA01 (F := F)) W (Proc.devRef .tc main_v153) = W (Proc.devRef .tc main_v153) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_v25 (W : Valuation τ sig (Elt F)) :
    StableHlo.after (stA01 (F := F)) W (Proc.devRef .tc main_v25) = W (Proc.devRef .tc main_v25) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_v51 (W : Valuation τ sig (Elt F)) :
    StableHlo.after (stA01 (F := F)) W (Proc.devRef .tc main_v51) = W (Proc.devRef .tc main_v51) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_v77 (W : Valuation τ sig (Elt F)) :
    StableHlo.after (stA01 (F := F)) W (Proc.devRef .tc main_v77) = W (Proc.devRef .tc main_v77) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_arg0 (W : Valuation τ sig (Elt F)) :
    StableHlo.after (stA01 (F := F)) W (Proc.devRef .tc main_arg0) = W (Proc.devRef .tc main_arg0) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_arg1 (W : Valuation τ sig (Elt F)) :
    StableHlo.after (stA01 (F := F)) W (Proc.devRef .tc main_arg1) = W (Proc.devRef .tc main_arg1) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA01_at_main_arg2 (W : Valuation τ sig (Elt F)) :
    StableHlo.after (stA01 (F := F)) W (Proc.devRef .tc main_arg2) = W (Proc.devRef .tc main_arg2) := by
  simp (disch := decide) only [stA01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB01_first (W : Valuation τ sig (Elt F)) :
    StableHlo.after (stB01 (F := F)) W (Proc.devRef .tc main_v173)
      = select (W (Proc.devRef .tc main_v172)) (W (Proc.devRef .tc main_v164)) (W (Proc.devRef .tc main_c_77)) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB01_second (W : Valuation τ sig (Elt F)) :
    StableHlo.after (stB01 (F := F)) W (Proc.devRef .tc main_v175)
      = select (cmpi .sge (W (Proc.devRef .tc main_v166)) (constantI Cert.Pick.S0 32 2#32)) (W (Proc.devRef .tc main_v171))
          (constantI Cert.Pick.S0 32 0#32) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB01_at_main_v166 (W : Valuation τ sig (Elt F)) :
    StableHlo.after (stB01 (F := F)) W (Proc.devRef .tc main_v166) = W (Proc.devRef .tc main_v166) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_v153 (W : Valuation τ sig (Elt F)) :
    StableHlo.after (stB01 (F := F)) W (Proc.devRef .tc main_v153) = W (Proc.devRef .tc main_v153) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_v25 (W : Valuation τ sig (Elt F)) :
    StableHlo.after (stB01 (F := F)) W (Proc.devRef .tc main_v25) = W (Proc.devRef .tc main_v25) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_v51 (W : Valuation τ sig (Elt F)) :
    StableHlo.after (stB01 (F := F)) W (Proc.devRef .tc main_v51) = W (Proc.devRef .tc main_v51) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_v77 (W : Valuation τ sig (Elt F)) :
    StableHlo.after (stB01 (F := F)) W (Proc.devRef .tc main_v77) = W (Proc.devRef .tc main_v77) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_arg0 (W : Valuation τ sig (Elt F)) :
    StableHlo.after (stB01 (F := F)) W (Proc.devRef .tc main_arg0) = W (Proc.devRef .tc main_arg0) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_arg1 (W : Valuation τ sig (Elt F)) :
    StableHlo.after (stB01 (F := F)) W (Proc.devRef .tc main_arg1) = W (Proc.devRef .tc main_arg1) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB01_at_main_arg2 (W : Valuation τ sig (Elt F)) :
    StableHlo.after (stB01 (F := F)) W (Proc.devRef .tc main_arg2) = W (Proc.devRef .tc main_arg2) := by
  simp (disch := decide) only [stB01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC01_loss (W : Valuation τ sig (Elt F)) :
    StableHlo.after (stC01 (F := F)) W (Proc.devRef .tc main_v214)
      = subf (W (Proc.devRef .tc main_v153))
          (Cert.Val.negTerm (W (Proc.devRef .tc main_v173)) (W (Proc.devRef .tc main_v175)) (W (Proc.devRef .tc main_v173))
            (cmpi .sgt (W (Proc.devRef .tc main_v166)) (constantI Cert.Pick.S0 32 0#32))
            (W (Proc.devRef .tc main_arg0)) (W (Proc.devRef .tc main_arg1)) (W (Proc.devRef .tc main_arg2))) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC01_at_main_v25 (W : Valuation τ sig (Elt F)) :
    StableHlo.after (stC01 (F := F)) W (Proc.devRef .tc main_v25) = W (Proc.devRef .tc main_v25) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC01_at_main_v51 (W : Valuation τ sig (Elt F)) :
    StableHlo.after (stC01 (F := F)) W (Proc.devRef .tc main_v51) = W (Proc.devRef .tc main_v51) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC01_at_main_v77 (W : Valuation τ sig (Elt F)) :
    StableHlo.after (stC01 (F := F)) W (Proc.devRef .tc main_v77) = W (Proc.devRef .tc main_v77) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC01_at_main_arg0 (W : Valuation τ sig (Elt F)) :
    StableHlo.after (stC01 (F := F)) W (Proc.devRef .tc main_arg0) = W (Proc.devRef .tc main_arg0) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC01_at_main_arg1 (W : Valuation τ sig (Elt F)) :
    StableHlo.after (stC01 (F := F)) W (Proc.devRef .tc main_arg1) = W (Proc.devRef .tc main_arg1) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC01_at_main_arg2 (W : Valuation τ sig (Elt F)) :
    StableHlo.after (stC01 (F := F)) W (Proc.devRef .tc main_arg2) = W (Proc.devRef .tc main_arg2) := by
  simp (disch := decide) only [stC01, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec01_loss (X : Valuation τ sig (Elt F)) :
    StableHlo.after (G01 (F := F)) X (Proc.devRef .tc main_v214)
      = subf (X (Proc.devRef .tc main_v153))
          (Cert.Val.kTerm ⟨0#32, 4#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA01 ++ (stB01 ++ stC01)) X _ = _
  rw [after_append, after_append, stC01_loss, stB01_first, stB01_second, stB01_at_main_v166, stB01_at_main_v153,
    stB01_at_main_arg0, stB01_at_main_arg1, stB01_at_main_arg2,
    stA01_cnt, stA01_min, stA01_min2, stA01_ge1, stA01_zero, stA01_at_main_v153,
    stA01_at_main_arg0, stA01_at_main_arg1, stA01_at_main_arg2]
  simp only [Cert.Val.kTerm, Cert.Val.kWord, Cert.Val.kFirst, Cert.Val.kSecond, Cert.Val.kPos]

/-- The group leaves the code vectors and the volume arrays as they were. -/
theorem rec01_keeps (X : Valuation τ sig (Elt F)) :
    StableHlo.after (G01 (F := F)) X (Proc.devRef .tc main_v25) = X (Proc.devRef .tc main_v25)
    ∧ StableHlo.after (G01 (F := F)) X (Proc.devRef .tc main_v51) = X (Proc.devRef .tc main_v51)
    ∧ StableHlo.after (G01 (F := F)) X (Proc.devRef .tc main_v77) = X (Proc.devRef .tc main_v77)
    ∧ StableHlo.after (G01 (F := F)) X (Proc.devRef .tc main_arg0) = X (Proc.devRef .tc main_arg0)
    ∧ StableHlo.after (G01 (F := F)) X (Proc.devRef .tc main_arg1) = X (Proc.devRef .tc main_arg1)
    ∧ StableHlo.after (G01 (F := F)) X (Proc.devRef .tc main_arg2) = X (Proc.devRef .tc main_arg2) := by
  refine ⟨?_, ?_, ?_, ?_, ?_, ?_⟩ <;> show StableHlo.after (stA01 ++ (stB01 ++ stC01)) X _ = _
  · rw [after_append, after_append, stC01_at_main_v25, stB01_at_main_v25, stA01_at_main_v25]
  · rw [after_append, after_append, stC01_at_main_v51, stB01_at_main_v51, stA01_at_main_v51]
  · rw [after_append, after_append, stC01_at_main_v77, stB01_at_main_v77, stA01_at_main_v77]
  · rw [after_append, after_append, stC01_at_main_arg0, stB01_at_main_arg0, stA01_at_main_arg0]
  · rw [after_append, after_append, stC01_at_main_arg1, stB01_at_main_arg1, stA01_at_main_arg1]
  · rw [after_append, after_append, stC01_at_main_arg2, stB01_at_main_arg2, stA01_at_main_arg2]

end Cert.KernelIdeal.Tl

end
-- ==== Proof.Val.KTail02.lean ====
/- Recipe 2 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA02 : List (HloOp τ sig (Elt F)) :=
  restOf hostOps1_24 ++ (hostOps1_25 ++ (hostOps1_26 ++ (hostOps1_27 ++ (hostOps1_28))))

/-- The two guarded rows. -/
def stB02 : List (HloOp τ sig (Elt F)) :=
  hostOps1_29 ++ (hostOps1_30 ++ (hostOps1_31))

/-- The three rows read, the recipe's term, the subtraction. -/
def stC02 : List (HloOp τ sig (Elt F)) :=
  hostOps1_32 ++ (hostOps1_33 ++ (hostOps1_34 ++ (hostOps1_35 ++ (firstOf hostOps1_36))))

/-- The operations of the group. -/
abbrev G02 : List (HloOp τ sig (Elt F)) := stA02 ++ (stB02 ++ stC02)

/-! ## The first stage -/

theorem stA02_cnt (W : Valuation τ sig (Elt F)) :
    StableHlo.after (stA02 (F := F)) W (Proc.devRef .tc main_v227)
      = Cert.Val.cntw (Cert.Val.maskOf 0#32 6#32 1#32 (W (Proc.devRef .tc main_v25)) (W (Proc.devRef .tc main_v51)) (W (Proc.devRef .tc main_v77))) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA02_min (W : Valuation τ sig (Elt F)) :
    StableHlo.after (stA02 (F := F)) W (Proc.devRef .tc main_v225)
      = Cert.Val.minRow (Cert.Val.maskOf 0#32 6#32 1#32 (W (Proc.devRef .tc main_v25)) (W (Proc.devRef .tc main_v51)) (W (Proc.devRef .tc main_v77))) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA02_min2 (W : Valuation τ sig (Elt F)) :
    StableHlo.after (stA02 (F := F)) W (Proc.devRef .tc main_v232)
      = Cert.Val.minRow (Cert.Val.dropMin (Cert.Val.maskOf 0#32 6#32 1#32 (W (Proc.devRef .tc main_v25)) (W (Proc.devRef .tc main_v51)) (W (Proc.devRef .tc main_v77)))) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA02_ge1 (W : Valuation τ sig (Elt F)) :
    StableHlo.after (stA02 (F := F)) W (Proc.devRef .tc main_v233)
      = cmpi .sge (Cert.Val.cntw (Cert.Val.maskOf 0#32 6#32 1#32 (W (Proc.devRef .tc main_v25)) (W (Proc.devRef .tc main_v51)) (W (Proc.devRef .tc main_v77)))) (constantI Cert.Pick.S0 32 1#32) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA02_zero (W : Valuation τ sig (Elt F)) :
    StableHlo.after (stA02 (F := F)) W (Proc.devRef .tc main_c_114)
      = constantI Cert.Pick.S0 32 0#32 := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_v214 (W : Valuation τ sig (Elt F)) :
    StableHlo.after (stA02 (F := F)) W (Proc.devRef .tc main_v214) = W (Proc.devRef .tc main_v214) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_v25 (W : Valuation τ sig (Elt F)) :
    StableHlo.after (stA02 (F := F)) W (Proc.devRef .tc main_v25) = W (Proc.devRef .tc main_v25) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_v51 (W : Valuation τ sig (Elt F)) :
    StableHlo.after (stA02 (F := F)) W (Proc.devRef .tc main_v51) = W (Proc.devRef .tc main_v51) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_v77 (W : Valuation τ sig (Elt F)) :
    StableHlo.after (stA02 (F := F)) W (Proc.devRef .tc main_v77) = W (Proc.devRef .tc main_v77) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_arg0 (W : Valuation τ sig (Elt F)) :
    StableHlo.after (stA02 (F := F)) W (Proc.devRef .tc main_arg0) = W (Proc.devRef .tc main_arg0) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_arg1 (W : Valuation τ sig (Elt F)) :
    StableHlo.after (stA02 (F := F)) W (Proc.devRef .tc main_arg1) = W (Proc.devRef .tc main_arg1) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA02_at_main_arg2 (W : Valuation τ sig (Elt F)) :
    StableHlo.after (stA02 (F := F)) W (Proc.devRef .tc main_arg2) = W (Proc.devRef .tc main_arg2) := by
  simp (disch := decide) only [stA02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB02_first (W : Valuation τ sig (Elt F)) :
    StableHlo.after (stB02 (F := F)) W (Proc.devRef .tc main_v234)
      = select (W (Proc.devRef .tc main_v233)) (W (Proc.devRef .tc main_v225)) (W (Proc.devRef .tc main_c_114)) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB02_second (W : Valuation τ sig (Elt F)) :
    StableHlo.after (stB02 (F := F)) W (Proc.devRef .tc main_v236)
      = select (cmpi .sge (W (Proc.devRef .tc main_v227)) (constantI Cert.Pick.S0 32 2#32)) (W (Proc.devRef .tc main_v232))
          (constantI Cert.Pick.S0 32 0#32) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB02_at_main_v227 (W : Valuation τ sig (Elt F)) :
    StableHlo.after (stB02 (F := F)) W (Proc.devRef .tc main_v227) = W (Proc.devRef .tc main_v227) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_v214 (W : Valuation τ sig (Elt F)) :
    StableHlo.after (stB02 (F := F)) W (Proc.devRef .tc main_v214) = W (Proc.devRef .tc main_v214) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_v25 (W : Valuation τ sig (Elt F)) :
    StableHlo.after (stB02 (F := F)) W (Proc.devRef .tc main_v25) = W (Proc.devRef .tc main_v25) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_v51 (W : Valuation τ sig (Elt F)) :
    StableHlo.after (stB02 (F := F)) W (Proc.devRef .tc main_v51) = W (Proc.devRef .tc main_v51) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_v77 (W : Valuation τ sig (Elt F)) :
    StableHlo.after (stB02 (F := F)) W (Proc.devRef .tc main_v77) = W (Proc.devRef .tc main_v77) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_arg0 (W : Valuation τ sig (Elt F)) :
    StableHlo.after (stB02 (F := F)) W (Proc.devRef .tc main_arg0) = W (Proc.devRef .tc main_arg0) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_arg1 (W : Valuation τ sig (Elt F)) :
    StableHlo.after (stB02 (F := F)) W (Proc.devRef .tc main_arg1) = W (Proc.devRef .tc main_arg1) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB02_at_main_arg2 (W : Valuation τ sig (Elt F)) :
    StableHlo.after (stB02 (F := F)) W (Proc.devRef .tc main_arg2) = W (Proc.devRef .tc main_arg2) := by
  simp (disch := decide) only [stB02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC02_loss (W : Valuation τ sig (Elt F)) :
    StableHlo.after (stC02 (F := F)) W (Proc.devRef .tc main_v275)
      = subf (W (Proc.devRef .tc main_v214))
          (Cert.Val.negTerm (W (Proc.devRef .tc main_v234)) (W (Proc.devRef .tc main_v236)) (W (Proc.devRef .tc main_v234))
            (cmpi .sgt (W (Proc.devRef .tc main_v227)) (constantI Cert.Pick.S0 32 0#32))
            (W (Proc.devRef .tc main_arg0)) (W (Proc.devRef .tc main_arg1)) (W (Proc.devRef .tc main_arg2))) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC02_at_main_v25 (W : Valuation τ sig (Elt F)) :
    StableHlo.after (stC02 (F := F)) W (Proc.devRef .tc main_v25) = W (Proc.devRef .tc main_v25) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC02_at_main_v51 (W : Valuation τ sig (Elt F)) :
    StableHlo.after (stC02 (F := F)) W (Proc.devRef .tc main_v51) = W (Proc.devRef .tc main_v51) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC02_at_main_v77 (W : Valuation τ sig (Elt F)) :
    StableHlo.after (stC02 (F := F)) W (Proc.devRef .tc main_v77) = W (Proc.devRef .tc main_v77) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC02_at_main_arg0 (W : Valuation τ sig (Elt F)) :
    StableHlo.after (stC02 (F := F)) W (Proc.devRef .tc main_arg0) = W (Proc.devRef .tc main_arg0) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC02_at_main_arg1 (W : Valuation τ sig (Elt F)) :
    StableHlo.after (stC02 (F := F)) W (Proc.devRef .tc main_arg1) = W (Proc.devRef .tc main_arg1) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC02_at_main_arg2 (W : Valuation τ sig (Elt F)) :
    StableHlo.after (stC02 (F := F)) W (Proc.devRef .tc main_arg2) = W (Proc.devRef .tc main_arg2) := by
  simp (disch := decide) only [stC02, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec02_loss (X : Valuation τ sig (Elt F)) :
    StableHlo.after (G02 (F := F)) X (Proc.devRef .tc main_v275)
      = subf (X (Proc.devRef .tc main_v214))
          (Cert.Val.kTerm ⟨0#32, 6#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA02 ++ (stB02 ++ stC02)) X _ = _
  rw [after_append, after_append, stC02_loss, stB02_first, stB02_second, stB02_at_main_v227, stB02_at_main_v214,
    stB02_at_main_arg0, stB02_at_main_arg1, stB02_at_main_arg2,
    stA02_cnt, stA02_min, stA02_min2, stA02_ge1, stA02_zero, stA02_at_main_v214,
    stA02_at_main_arg0, stA02_at_main_arg1, stA02_at_main_arg2]
  simp only [Cert.Val.kTerm, Cert.Val.kWord, Cert.Val.kFirst, Cert.Val.kSecond, Cert.Val.kPos]

/-- The group leaves the code vectors and the volume arrays as they were. -/
theorem rec02_keeps (X : Valuation τ sig (Elt F)) :
    StableHlo.after (G02 (F := F)) X (Proc.devRef .tc main_v25) = X (Proc.devRef .tc main_v25)
    ∧ StableHlo.after (G02 (F := F)) X (Proc.devRef .tc main_v51) = X (Proc.devRef .tc main_v51)
    ∧ StableHlo.after (G02 (F := F)) X (Proc.devRef .tc main_v77) = X (Proc.devRef .tc main_v77)
    ∧ StableHlo.after (G02 (F := F)) X (Proc.devRef .tc main_arg0) = X (Proc.devRef .tc main_arg0)
    ∧ StableHlo.after (G02 (F := F)) X (Proc.devRef .tc main_arg1) = X (Proc.devRef .tc main_arg1)
    ∧ StableHlo.after (G02 (F := F)) X (Proc.devRef .tc main_arg2) = X (Proc.devRef .tc main_arg2) := by
  refine ⟨?_, ?_, ?_, ?_, ?_, ?_⟩ <;> show StableHlo.after (stA02 ++ (stB02 ++ stC02)) X _ = _
  · rw [after_append, after_append, stC02_at_main_v25, stB02_at_main_v25, stA02_at_main_v25]
  · rw [after_append, after_append, stC02_at_main_v51, stB02_at_main_v51, stA02_at_main_v51]
  · rw [after_append, after_append, stC02_at_main_v77, stB02_at_main_v77, stA02_at_main_v77]
  · rw [after_append, after_append, stC02_at_main_arg0, stB02_at_main_arg0, stA02_at_main_arg0]
  · rw [after_append, after_append, stC02_at_main_arg1, stB02_at_main_arg1, stA02_at_main_arg1]
  · rw [after_append, after_append, stC02_at_main_arg2, stB02_at_main_arg2, stA02_at_main_arg2]

end Cert.KernelIdeal.Tl

end
-- ==== Proof.Val.KTail03.lean ====
/- Recipe 3 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA03 : List (HloOp τ sig (Elt F)) :=
  restOf hostOps1_36 ++ (hostOps1_37 ++ (hostOps1_38 ++ (hostOps1_39 ++ (hostOps1_40))))

/-- The two guarded rows. -/
def stB03 : List (HloOp τ sig (Elt F)) :=
  hostOps1_41 ++ (hostOps1_42 ++ (hostOps1_43))

/-- The three rows read, the recipe's term, the subtraction. -/
def stC03 : List (HloOp τ sig (Elt F)) :=
  hostOps1_44 ++ (hostOps1_45 ++ (hostOps1_46 ++ (hostOps1_47 ++ (firstOf hostOps1_48))))

/-- The operations of the group. -/
abbrev G03 : List (HloOp τ sig (Elt F)) := stA03 ++ (stB03 ++ stC03)

/-! ## The first stage -/

theorem stA03_cnt (W : Valuation τ sig (Elt F)) :
    StableHlo.after (stA03 (F := F)) W (Proc.devRef .tc main_v288)
      = Cert.Val.cntw (Cert.Val.maskOf 0#32 6#32 2#32 (W (Proc.devRef .tc main_v25)) (W (Proc.devRef .tc main_v51)) (W (Proc.devRef .tc main_v77))) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA03_min (W : Valuation τ sig (Elt F)) :
    StableHlo.after (stA03 (F := F)) W (Proc.devRef .tc main_v286)
      = Cert.Val.minRow (Cert.Val.maskOf 0#32 6#32 2#32 (W (Proc.devRef .tc main_v25)) (W (Proc.devRef .tc main_v51)) (W (Proc.devRef .tc main_v77))) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA03_min2 (W : Valuation τ sig (Elt F)) :
    StableHlo.after (stA03 (F := F)) W (Proc.devRef .tc main_v293)
      = Cert.Val.minRow (Cert.Val.dropMin (Cert.Val.maskOf 0#32 6#32 2#32 (W (Proc.devRef .tc main_v25)) (W (Proc.devRef .tc main_v51)) (W (Proc.devRef .tc main_v77)))) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA03_ge1 (W : Valuation τ sig (Elt F)) :
    StableHlo.after (stA03 (F := F)) W (Proc.devRef .tc main_v294)
      = cmpi .sge (Cert.Val.cntw (Cert.Val.maskOf 0#32 6#32 2#32 (W (Proc.devRef .tc main_v25)) (W (Proc.devRef .tc main_v51)) (W (Proc.devRef .tc main_v77)))) (constantI Cert.Pick.S0 32 1#32) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA03_zero (W : Valuation τ sig (Elt F)) :
    StableHlo.after (stA03 (F := F)) W (Proc.devRef .tc main_c_151)
      = constantI Cert.Pick.S0 32 0#32 := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_v275 (W : Valuation τ sig (Elt F)) :
    StableHlo.after (stA03 (F := F)) W (Proc.devRef .tc main_v275) = W (Proc.devRef .tc main_v275) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_v25 (W : Valuation τ sig (Elt F)) :
    StableHlo.after (stA03 (F := F)) W (Proc.devRef .tc main_v25) = W (Proc.devRef .tc main_v25) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_v51 (W : Valuation τ sig (Elt F)) :
    StableHlo.after (stA03 (F := F)) W (Proc.devRef .tc main_v51) = W (Proc.devRef .tc main_v51) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_v77 (W : Valuation τ sig (Elt F)) :
    StableHlo.after (stA03 (F := F)) W (Proc.devRef .tc main_v77) = W (Proc.devRef .tc main_v77) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_arg0 (W : Valuation τ sig (Elt F)) :
    StableHlo.after (stA03 (F := F)) W (Proc.devRef .tc main_arg0) = W (Proc.devRef .tc main_arg0) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_arg1 (W : Valuation τ sig (Elt F)) :
    StableHlo.after (stA03 (F := F)) W (Proc.devRef .tc main_arg1) = W (Proc.devRef .tc main_arg1) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA03_at_main_arg2 (W : Valuation τ sig (Elt F)) :
    StableHlo.after (stA03 (F := F)) W (Proc.devRef .tc main_arg2) = W (Proc.devRef .tc main_arg2) := by
  simp (disch := decide) only [stA03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB03_first (W : Valuation τ sig (Elt F)) :
    StableHlo.after (stB03 (F := F)) W (Proc.devRef .tc main_v295)
      = select (W (Proc.devRef .tc main_v294)) (W (Proc.devRef .tc main_v286)) (W (Proc.devRef .tc main_c_151)) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB03_second (W : Valuation τ sig (Elt F)) :
    StableHlo.after (stB03 (F := F)) W (Proc.devRef .tc main_v297)
      = select (cmpi .sge (W (Proc.devRef .tc main_v288)) (constantI Cert.Pick.S0 32 2#32)) (W (Proc.devRef .tc main_v293))
          (constantI Cert.Pick.S0 32 0#32) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB03_at_main_v288 (W : Valuation τ sig (Elt F)) :
    StableHlo.after (stB03 (F := F)) W (Proc.devRef .tc main_v288) = W (Proc.devRef .tc main_v288) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_v275 (W : Valuation τ sig (Elt F)) :
    StableHlo.after (stB03 (F := F)) W (Proc.devRef .tc main_v275) = W (Proc.devRef .tc main_v275) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_v25 (W : Valuation τ sig (Elt F)) :
    StableHlo.after (stB03 (F := F)) W (Proc.devRef .tc main_v25) = W (Proc.devRef .tc main_v25) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_v51 (W : Valuation τ sig (Elt F)) :
    StableHlo.after (stB03 (F := F)) W (Proc.devRef .tc main_v51) = W (Proc.devRef .tc main_v51) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_v77 (W : Valuation τ sig (Elt F)) :
    StableHlo.after (stB03 (F := F)) W (Proc.devRef .tc main_v77) = W (Proc.devRef .tc main_v77) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_arg0 (W : Valuation τ sig (Elt F)) :
    StableHlo.after (stB03 (F := F)) W (Proc.devRef .tc main_arg0) = W (Proc.devRef .tc main_arg0) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_arg1 (W : Valuation τ sig (Elt F)) :
    StableHlo.after (stB03 (F := F)) W (Proc.devRef .tc main_arg1) = W (Proc.devRef .tc main_arg1) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB03_at_main_arg2 (W : Valuation τ sig (Elt F)) :
    StableHlo.after (stB03 (F := F)) W (Proc.devRef .tc main_arg2) = W (Proc.devRef .tc main_arg2) := by
  simp (disch := decide) only [stB03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC03_loss (W : Valuation τ sig (Elt F)) :
    StableHlo.after (stC03 (F := F)) W (Proc.devRef .tc main_v336)
      = subf (W (Proc.devRef .tc main_v275))
          (Cert.Val.negTerm (W (Proc.devRef .tc main_v295)) (W (Proc.devRef .tc main_v297)) (W (Proc.devRef .tc main_v295))
            (cmpi .sgt (W (Proc.devRef .tc main_v288)) (constantI Cert.Pick.S0 32 0#32))
            (W (Proc.devRef .tc main_arg0)) (W (Proc.devRef .tc main_arg1)) (W (Proc.devRef .tc main_arg2))) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC03_at_main_v25 (W : Valuation τ sig (Elt F)) :
    StableHlo.after (stC03 (F := F)) W (Proc.devRef .tc main_v25) = W (Proc.devRef .tc main_v25) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC03_at_main_v51 (W : Valuation τ sig (Elt F)) :
    StableHlo.after (stC03 (F := F)) W (Proc.devRef .tc main_v51) = W (Proc.devRef .tc main_v51) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC03_at_main_v77 (W : Valuation τ sig (Elt F)) :
    StableHlo.after (stC03 (F := F)) W (Proc.devRef .tc main_v77) = W (Proc.devRef .tc main_v77) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC03_at_main_arg0 (W : Valuation τ sig (Elt F)) :
    StableHlo.after (stC03 (F := F)) W (Proc.devRef .tc main_arg0) = W (Proc.devRef .tc main_arg0) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC03_at_main_arg1 (W : Valuation τ sig (Elt F)) :
    StableHlo.after (stC03 (F := F)) W (Proc.devRef .tc main_arg1) = W (Proc.devRef .tc main_arg1) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC03_at_main_arg2 (W : Valuation τ sig (Elt F)) :
    StableHlo.after (stC03 (F := F)) W (Proc.devRef .tc main_arg2) = W (Proc.devRef .tc main_arg2) := by
  simp (disch := decide) only [stC03, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec03_loss (X : Valuation τ sig (Elt F)) :
    StableHlo.after (G03 (F := F)) X (Proc.devRef .tc main_v336)
      = subf (X (Proc.devRef .tc main_v275))
          (Cert.Val.kTerm ⟨0#32, 6#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA03 ++ (stB03 ++ stC03)) X _ = _
  rw [after_append, after_append, stC03_loss, stB03_first, stB03_second, stB03_at_main_v288, stB03_at_main_v275,
    stB03_at_main_arg0, stB03_at_main_arg1, stB03_at_main_arg2,
    stA03_cnt, stA03_min, stA03_min2, stA03_ge1, stA03_zero, stA03_at_main_v275,
    stA03_at_main_arg0, stA03_at_main_arg1, stA03_at_main_arg2]
  simp only [Cert.Val.kTerm, Cert.Val.kWord, Cert.Val.kFirst, Cert.Val.kSecond, Cert.Val.kPos]

/-- The group leaves the code vectors and the volume arrays as they were. -/
theorem rec03_keeps (X : Valuation τ sig (Elt F)) :
    StableHlo.after (G03 (F := F)) X (Proc.devRef .tc main_v25) = X (Proc.devRef .tc main_v25)
    ∧ StableHlo.after (G03 (F := F)) X (Proc.devRef .tc main_v51) = X (Proc.devRef .tc main_v51)
    ∧ StableHlo.after (G03 (F := F)) X (Proc.devRef .tc main_v77) = X (Proc.devRef .tc main_v77)
    ∧ StableHlo.after (G03 (F := F)) X (Proc.devRef .tc main_arg0) = X (Proc.devRef .tc main_arg0)
    ∧ StableHlo.after (G03 (F := F)) X (Proc.devRef .tc main_arg1) = X (Proc.devRef .tc main_arg1)
    ∧ StableHlo.after (G03 (F := F)) X (Proc.devRef .tc main_arg2) = X (Proc.devRef .tc main_arg2) := by
  refine ⟨?_, ?_, ?_, ?_, ?_, ?_⟩ <;> show StableHlo.after (stA03 ++ (stB03 ++ stC03)) X _ = _
  · rw [after_append, after_append, stC03_at_main_v25, stB03_at_main_v25, stA03_at_main_v25]
  · rw [after_append, after_append, stC03_at_main_v51, stB03_at_main_v51, stA03_at_main_v51]
  · rw [after_append, after_append, stC03_at_main_v77, stB03_at_main_v77, stA03_at_main_v77]
  · rw [after_append, after_append, stC03_at_main_arg0, stB03_at_main_arg0, stA03_at_main_arg0]
  · rw [after_append, after_append, stC03_at_main_arg1, stB03_at_main_arg1, stA03_at_main_arg1]
  · rw [after_append, after_append, stC03_at_main_arg2, stB03_at_main_arg2, stA03_at_main_arg2]

end Cert.KernelIdeal.Tl

end
-- ==== Proof.Val.KTail04.lean ====
/- Recipe 4 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA04 : List (HloOp τ sig (Elt F)) :=
  restOf hostOps1_48 ++ (hostOps1_49 ++ (hostOps1_50 ++ (hostOps1_51 ++ (hostOps1_52))))

/-- The two guarded rows. -/
def stB04 : List (HloOp τ sig (Elt F)) :=
  hostOps1_53 ++ (hostOps1_54 ++ (hostOps1_55))

/-- The three rows read, the recipe's term, the subtraction. -/
def stC04 : List (HloOp τ sig (Elt F)) :=
  hostOps1_56 ++ (hostOps1_57 ++ (hostOps1_58 ++ (hostOps1_59 ++ (firstOf hostOps1_60))))

/-- The operations of the group. -/
abbrev G04 : List (HloOp τ sig (Elt F)) := stA04 ++ (stB04 ++ stC04)

/-! ## The first stage -/

theorem stA04_cnt (W : Valuation τ sig (Elt F)) :
    StableHlo.after (stA04 (F := F)) W (Proc.devRef .tc main_v349)
      = Cert.Val.cntw (Cert.Val.maskOf 1#32 5#32 0#32 (W (Proc.devRef .tc main_v25)) (W (Proc.devRef .tc main_v51)) (W (Proc.devRef .tc main_v77))) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA04_min (W : Valuation τ sig (Elt F)) :
    StableHlo.after (stA04 (F := F)) W (Proc.devRef .tc main_v347)
      = Cert.Val.minRow (Cert.Val.maskOf 1#32 5#32 0#32 (W (Proc.devRef .tc main_v25)) (W (Proc.devRef .tc main_v51)) (W (Proc.devRef .tc main_v77))) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA04_min2 (W : Valuation τ sig (Elt F)) :
    StableHlo.after (stA04 (F := F)) W (Proc.devRef .tc main_v354)
      = Cert.Val.minRow (Cert.Val.dropMin (Cert.Val.maskOf 1#32 5#32 0#32 (W (Proc.devRef .tc main_v25)) (W (Proc.devRef .tc main_v51)) (W (Proc.devRef .tc main_v77)))) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA04_ge1 (W : Valuation τ sig (Elt F)) :
    StableHlo.after (stA04 (F := F)) W (Proc.devRef .tc main_v355)
      = cmpi .sge (Cert.Val.cntw (Cert.Val.maskOf 1#32 5#32 0#32 (W (Proc.devRef .tc main_v25)) (W (Proc.devRef .tc main_v51)) (W (Proc.devRef .tc main_v77)))) (constantI Cert.Pick.S0 32 1#32) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA04_zero (W : Valuation τ sig (Elt F)) :
    StableHlo.after (stA04 (F := F)) W (Proc.devRef .tc main_c_188)
      = constantI Cert.Pick.S0 32 0#32 := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_v336 (W : Valuation τ sig (Elt F)) :
    StableHlo.after (stA04 (F := F)) W (Proc.devRef .tc main_v336) = W (Proc.devRef .tc main_v336) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_v25 (W : Valuation τ sig (Elt F)) :
    StableHlo.after (stA04 (F := F)) W (Proc.devRef .tc main_v25) = W (Proc.devRef .tc main_v25) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_v51 (W : Valuation τ sig (Elt F)) :
    StableHlo.after (stA04 (F := F)) W (Proc.devRef .tc main_v51) = W (Proc.devRef .tc main_v51) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_v77 (W : Valuation τ sig (Elt F)) :
    StableHlo.after (stA04 (F := F)) W (Proc.devRef .tc main_v77) = W (Proc.devRef .tc main_v77) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_arg0 (W : Valuation τ sig (Elt F)) :
    StableHlo.after (stA04 (F := F)) W (Proc.devRef .tc main_arg0) = W (Proc.devRef .tc main_arg0) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_arg1 (W : Valuation τ sig (Elt F)) :
    StableHlo.after (stA04 (F := F)) W (Proc.devRef .tc main_arg1) = W (Proc.devRef .tc main_arg1) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA04_at_main_arg2 (W : Valuation τ sig (Elt F)) :
    StableHlo.after (stA04 (F := F)) W (Proc.devRef .tc main_arg2) = W (Proc.devRef .tc main_arg2) := by
  simp (disch := decide) only [stA04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB04_first (W : Valuation τ sig (Elt F)) :
    StableHlo.after (stB04 (F := F)) W (Proc.devRef .tc main_v356)
      = select (W (Proc.devRef .tc main_v355)) (W (Proc.devRef .tc main_v347)) (W (Proc.devRef .tc main_c_188)) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB04_second (W : Valuation τ sig (Elt F)) :
    StableHlo.after (stB04 (F := F)) W (Proc.devRef .tc main_v358)
      = select (cmpi .sge (W (Proc.devRef .tc main_v349)) (constantI Cert.Pick.S0 32 2#32)) (W (Proc.devRef .tc main_v354))
          (constantI Cert.Pick.S0 32 0#32) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB04_at_main_v349 (W : Valuation τ sig (Elt F)) :
    StableHlo.after (stB04 (F := F)) W (Proc.devRef .tc main_v349) = W (Proc.devRef .tc main_v349) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_v336 (W : Valuation τ sig (Elt F)) :
    StableHlo.after (stB04 (F := F)) W (Proc.devRef .tc main_v336) = W (Proc.devRef .tc main_v336) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_v25 (W : Valuation τ sig (Elt F)) :
    StableHlo.after (stB04 (F := F)) W (Proc.devRef .tc main_v25) = W (Proc.devRef .tc main_v25) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_v51 (W : Valuation τ sig (Elt F)) :
    StableHlo.after (stB04 (F := F)) W (Proc.devRef .tc main_v51) = W (Proc.devRef .tc main_v51) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_v77 (W : Valuation τ sig (Elt F)) :
    StableHlo.after (stB04 (F := F)) W (Proc.devRef .tc main_v77) = W (Proc.devRef .tc main_v77) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_arg0 (W : Valuation τ sig (Elt F)) :
    StableHlo.after (stB04 (F := F)) W (Proc.devRef .tc main_arg0) = W (Proc.devRef .tc main_arg0) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_arg1 (W : Valuation τ sig (Elt F)) :
    StableHlo.after (stB04 (F := F)) W (Proc.devRef .tc main_arg1) = W (Proc.devRef .tc main_arg1) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB04_at_main_arg2 (W : Valuation τ sig (Elt F)) :
    StableHlo.after (stB04 (F := F)) W (Proc.devRef .tc main_arg2) = W (Proc.devRef .tc main_arg2) := by
  simp (disch := decide) only [stB04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC04_loss (W : Valuation τ sig (Elt F)) :
    StableHlo.after (stC04 (F := F)) W (Proc.devRef .tc main_v397)
      = subf (W (Proc.devRef .tc main_v336))
          (Cert.Val.negTerm (W (Proc.devRef .tc main_v356)) (W (Proc.devRef .tc main_v358)) (W (Proc.devRef .tc main_v356))
            (cmpi .sgt (W (Proc.devRef .tc main_v349)) (constantI Cert.Pick.S0 32 0#32))
            (W (Proc.devRef .tc main_arg0)) (W (Proc.devRef .tc main_arg1)) (W (Proc.devRef .tc main_arg2))) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC04_at_main_v25 (W : Valuation τ sig (Elt F)) :
    StableHlo.after (stC04 (F := F)) W (Proc.devRef .tc main_v25) = W (Proc.devRef .tc main_v25) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC04_at_main_v51 (W : Valuation τ sig (Elt F)) :
    StableHlo.after (stC04 (F := F)) W (Proc.devRef .tc main_v51) = W (Proc.devRef .tc main_v51) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC04_at_main_v77 (W : Valuation τ sig (Elt F)) :
    StableHlo.after (stC04 (F := F)) W (Proc.devRef .tc main_v77) = W (Proc.devRef .tc main_v77) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC04_at_main_arg0 (W : Valuation τ sig (Elt F)) :
    StableHlo.after (stC04 (F := F)) W (Proc.devRef .tc main_arg0) = W (Proc.devRef .tc main_arg0) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC04_at_main_arg1 (W : Valuation τ sig (Elt F)) :
    StableHlo.after (stC04 (F := F)) W (Proc.devRef .tc main_arg1) = W (Proc.devRef .tc main_arg1) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC04_at_main_arg2 (W : Valuation τ sig (Elt F)) :
    StableHlo.after (stC04 (F := F)) W (Proc.devRef .tc main_arg2) = W (Proc.devRef .tc main_arg2) := by
  simp (disch := decide) only [stC04, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec04_loss (X : Valuation τ sig (Elt F)) :
    StableHlo.after (G04 (F := F)) X (Proc.devRef .tc main_v397)
      = subf (X (Proc.devRef .tc main_v336))
          (Cert.Val.kTerm ⟨1#32, 5#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA04 ++ (stB04 ++ stC04)) X _ = _
  rw [after_append, after_append, stC04_loss, stB04_first, stB04_second, stB04_at_main_v349, stB04_at_main_v336,
    stB04_at_main_arg0, stB04_at_main_arg1, stB04_at_main_arg2,
    stA04_cnt, stA04_min, stA04_min2, stA04_ge1, stA04_zero, stA04_at_main_v336,
    stA04_at_main_arg0, stA04_at_main_arg1, stA04_at_main_arg2]
  simp only [Cert.Val.kTerm, Cert.Val.kWord, Cert.Val.kFirst, Cert.Val.kSecond, Cert.Val.kPos]

/-- The group leaves the code vectors and the volume arrays as they were. -/
theorem rec04_keeps (X : Valuation τ sig (Elt F)) :
    StableHlo.after (G04 (F := F)) X (Proc.devRef .tc main_v25) = X (Proc.devRef .tc main_v25)
    ∧ StableHlo.after (G04 (F := F)) X (Proc.devRef .tc main_v51) = X (Proc.devRef .tc main_v51)
    ∧ StableHlo.after (G04 (F := F)) X (Proc.devRef .tc main_v77) = X (Proc.devRef .tc main_v77)
    ∧ StableHlo.after (G04 (F := F)) X (Proc.devRef .tc main_arg0) = X (Proc.devRef .tc main_arg0)
    ∧ StableHlo.after (G04 (F := F)) X (Proc.devRef .tc main_arg1) = X (Proc.devRef .tc main_arg1)
    ∧ StableHlo.after (G04 (F := F)) X (Proc.devRef .tc main_arg2) = X (Proc.devRef .tc main_arg2) := by
  refine ⟨?_, ?_, ?_, ?_, ?_, ?_⟩ <;> show StableHlo.after (stA04 ++ (stB04 ++ stC04)) X _ = _
  · rw [after_append, after_append, stC04_at_main_v25, stB04_at_main_v25, stA04_at_main_v25]
  · rw [after_append, after_append, stC04_at_main_v51, stB04_at_main_v51, stA04_at_main_v51]
  · rw [after_append, after_append, stC04_at_main_v77, stB04_at_main_v77, stA04_at_main_v77]
  · rw [after_append, after_append, stC04_at_main_arg0, stB04_at_main_arg0, stA04_at_main_arg0]
  · rw [after_append, after_append, stC04_at_main_arg1, stB04_at_main_arg1, stA04_at_main_arg1]
  · rw [after_append, after_append, stC04_at_main_arg2, stB04_at_main_arg2, stA04_at_main_arg2]

end Cert.KernelIdeal.Tl

end
-- ==== Proof.Val.KTail05.lean ====
/- Recipe 5 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA05 : List (HloOp τ sig (Elt F)) :=
  restOf hostOps1_60 ++ (hostOps1_61 ++ (hostOps1_62 ++ (hostOps1_63 ++ (hostOps1_64))))

/-- The two guarded rows. -/
def stB05 : List (HloOp τ sig (Elt F)) :=
  hostOps1_65 ++ (hostOps1_66 ++ (hostOps1_67))

/-- The three rows read, the recipe's term, the subtraction. -/
def stC05 : List (HloOp τ sig (Elt F)) :=
  hostOps1_68 ++ (hostOps1_69 ++ (hostOps1_70 ++ (hostOps1_71 ++ (firstOf hostOps1_72))))

/-- The operations of the group. -/
abbrev G05 : List (HloOp τ sig (Elt F)) := stA05 ++ (stB05 ++ stC05)

/-! ## The first stage -/

theorem stA05_cnt (W : Valuation τ sig (Elt F)) :
    StableHlo.after (stA05 (F := F)) W (Proc.devRef .tc main_v410)
      = Cert.Val.cntw (Cert.Val.maskOf 1#32 5#32 2#32 (W (Proc.devRef .tc main_v25)) (W (Proc.devRef .tc main_v51)) (W (Proc.devRef .tc main_v77))) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA05_min (W : Valuation τ sig (Elt F)) :
    StableHlo.after (stA05 (F := F)) W (Proc.devRef .tc main_v408)
      = Cert.Val.minRow (Cert.Val.maskOf 1#32 5#32 2#32 (W (Proc.devRef .tc main_v25)) (W (Proc.devRef .tc main_v51)) (W (Proc.devRef .tc main_v77))) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA05_min2 (W : Valuation τ sig (Elt F)) :
    StableHlo.after (stA05 (F := F)) W (Proc.devRef .tc main_v415)
      = Cert.Val.minRow (Cert.Val.dropMin (Cert.Val.maskOf 1#32 5#32 2#32 (W (Proc.devRef .tc main_v25)) (W (Proc.devRef .tc main_v51)) (W (Proc.devRef .tc main_v77)))) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA05_ge1 (W : Valuation τ sig (Elt F)) :
    StableHlo.after (stA05 (F := F)) W (Proc.devRef .tc main_v416)
      = cmpi .sge (Cert.Val.cntw (Cert.Val.maskOf 1#32 5#32 2#32 (W (Proc.devRef .tc main_v25)) (W (Proc.devRef .tc main_v51)) (W (Proc.devRef .tc main_v77)))) (constantI Cert.Pick.S0 32 1#32) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA05_zero (W : Valuation τ sig (Elt F)) :
    StableHlo.after (stA05 (F := F)) W (Proc.devRef .tc main_c_225)
      = constantI Cert.Pick.S0 32 0#32 := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_v397 (W : Valuation τ sig (Elt F)) :
    StableHlo.after (stA05 (F := F)) W (Proc.devRef .tc main_v397) = W (Proc.devRef .tc main_v397) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_v25 (W : Valuation τ sig (Elt F)) :
    StableHlo.after (stA05 (F := F)) W (Proc.devRef .tc main_v25) = W (Proc.devRef .tc main_v25) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_v51 (W : Valuation τ sig (Elt F)) :
    StableHlo.after (stA05 (F := F)) W (Proc.devRef .tc main_v51) = W (Proc.devRef .tc main_v51) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_v77 (W : Valuation τ sig (Elt F)) :
    StableHlo.after (stA05 (F := F)) W (Proc.devRef .tc main_v77) = W (Proc.devRef .tc main_v77) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_arg0 (W : Valuation τ sig (Elt F)) :
    StableHlo.after (stA05 (F := F)) W (Proc.devRef .tc main_arg0) = W (Proc.devRef .tc main_arg0) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_arg1 (W : Valuation τ sig (Elt F)) :
    StableHlo.after (stA05 (F := F)) W (Proc.devRef .tc main_arg1) = W (Proc.devRef .tc main_arg1) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA05_at_main_arg2 (W : Valuation τ sig (Elt F)) :
    StableHlo.after (stA05 (F := F)) W (Proc.devRef .tc main_arg2) = W (Proc.devRef .tc main_arg2) := by
  simp (disch := decide) only [stA05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB05_first (W : Valuation τ sig (Elt F)) :
    StableHlo.after (stB05 (F := F)) W (Proc.devRef .tc main_v417)
      = select (W (Proc.devRef .tc main_v416)) (W (Proc.devRef .tc main_v408)) (W (Proc.devRef .tc main_c_225)) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB05_second (W : Valuation τ sig (Elt F)) :
    StableHlo.after (stB05 (F := F)) W (Proc.devRef .tc main_v419)
      = select (cmpi .sge (W (Proc.devRef .tc main_v410)) (constantI Cert.Pick.S0 32 2#32)) (W (Proc.devRef .tc main_v415))
          (constantI Cert.Pick.S0 32 0#32) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB05_at_main_v410 (W : Valuation τ sig (Elt F)) :
    StableHlo.after (stB05 (F := F)) W (Proc.devRef .tc main_v410) = W (Proc.devRef .tc main_v410) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_v397 (W : Valuation τ sig (Elt F)) :
    StableHlo.after (stB05 (F := F)) W (Proc.devRef .tc main_v397) = W (Proc.devRef .tc main_v397) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_v25 (W : Valuation τ sig (Elt F)) :
    StableHlo.after (stB05 (F := F)) W (Proc.devRef .tc main_v25) = W (Proc.devRef .tc main_v25) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_v51 (W : Valuation τ sig (Elt F)) :
    StableHlo.after (stB05 (F := F)) W (Proc.devRef .tc main_v51) = W (Proc.devRef .tc main_v51) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_v77 (W : Valuation τ sig (Elt F)) :
    StableHlo.after (stB05 (F := F)) W (Proc.devRef .tc main_v77) = W (Proc.devRef .tc main_v77) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_arg0 (W : Valuation τ sig (Elt F)) :
    StableHlo.after (stB05 (F := F)) W (Proc.devRef .tc main_arg0) = W (Proc.devRef .tc main_arg0) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_arg1 (W : Valuation τ sig (Elt F)) :
    StableHlo.after (stB05 (F := F)) W (Proc.devRef .tc main_arg1) = W (Proc.devRef .tc main_arg1) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB05_at_main_arg2 (W : Valuation τ sig (Elt F)) :
    StableHlo.after (stB05 (F := F)) W (Proc.devRef .tc main_arg2) = W (Proc.devRef .tc main_arg2) := by
  simp (disch := decide) only [stB05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC05_loss (W : Valuation τ sig (Elt F)) :
    StableHlo.after (stC05 (F := F)) W (Proc.devRef .tc main_v458)
      = subf (W (Proc.devRef .tc main_v397))
          (Cert.Val.negTerm (W (Proc.devRef .tc main_v417)) (W (Proc.devRef .tc main_v419)) (W (Proc.devRef .tc main_v417))
            (cmpi .sgt (W (Proc.devRef .tc main_v410)) (constantI Cert.Pick.S0 32 0#32))
            (W (Proc.devRef .tc main_arg0)) (W (Proc.devRef .tc main_arg1)) (W (Proc.devRef .tc main_arg2))) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC05_at_main_v25 (W : Valuation τ sig (Elt F)) :
    StableHlo.after (stC05 (F := F)) W (Proc.devRef .tc main_v25) = W (Proc.devRef .tc main_v25) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC05_at_main_v51 (W : Valuation τ sig (Elt F)) :
    StableHlo.after (stC05 (F := F)) W (Proc.devRef .tc main_v51) = W (Proc.devRef .tc main_v51) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC05_at_main_v77 (W : Valuation τ sig (Elt F)) :
    StableHlo.after (stC05 (F := F)) W (Proc.devRef .tc main_v77) = W (Proc.devRef .tc main_v77) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC05_at_main_arg0 (W : Valuation τ sig (Elt F)) :
    StableHlo.after (stC05 (F := F)) W (Proc.devRef .tc main_arg0) = W (Proc.devRef .tc main_arg0) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC05_at_main_arg1 (W : Valuation τ sig (Elt F)) :
    StableHlo.after (stC05 (F := F)) W (Proc.devRef .tc main_arg1) = W (Proc.devRef .tc main_arg1) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC05_at_main_arg2 (W : Valuation τ sig (Elt F)) :
    StableHlo.after (stC05 (F := F)) W (Proc.devRef .tc main_arg2) = W (Proc.devRef .tc main_arg2) := by
  simp (disch := decide) only [stC05, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec05_loss (X : Valuation τ sig (Elt F)) :
    StableHlo.after (G05 (F := F)) X (Proc.devRef .tc main_v458)
      = subf (X (Proc.devRef .tc main_v397))
          (Cert.Val.kTerm ⟨1#32, 5#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA05 ++ (stB05 ++ stC05)) X _ = _
  rw [after_append, after_append, stC05_loss, stB05_first, stB05_second, stB05_at_main_v410, stB05_at_main_v397,
    stB05_at_main_arg0, stB05_at_main_arg1, stB05_at_main_arg2,
    stA05_cnt, stA05_min, stA05_min2, stA05_ge1, stA05_zero, stA05_at_main_v397,
    stA05_at_main_arg0, stA05_at_main_arg1, stA05_at_main_arg2]
  simp only [Cert.Val.kTerm, Cert.Val.kWord, Cert.Val.kFirst, Cert.Val.kSecond, Cert.Val.kPos]

/-- The group leaves the code vectors and the volume arrays as they were. -/
theorem rec05_keeps (X : Valuation τ sig (Elt F)) :
    StableHlo.after (G05 (F := F)) X (Proc.devRef .tc main_v25) = X (Proc.devRef .tc main_v25)
    ∧ StableHlo.after (G05 (F := F)) X (Proc.devRef .tc main_v51) = X (Proc.devRef .tc main_v51)
    ∧ StableHlo.after (G05 (F := F)) X (Proc.devRef .tc main_v77) = X (Proc.devRef .tc main_v77)
    ∧ StableHlo.after (G05 (F := F)) X (Proc.devRef .tc main_arg0) = X (Proc.devRef .tc main_arg0)
    ∧ StableHlo.after (G05 (F := F)) X (Proc.devRef .tc main_arg1) = X (Proc.devRef .tc main_arg1)
    ∧ StableHlo.after (G05 (F := F)) X (Proc.devRef .tc main_arg2) = X (Proc.devRef .tc main_arg2) := by
  refine ⟨?_, ?_, ?_, ?_, ?_, ?_⟩ <;> show StableHlo.after (stA05 ++ (stB05 ++ stC05)) X _ = _
  · rw [after_append, after_append, stC05_at_main_v25, stB05_at_main_v25, stA05_at_main_v25]
  · rw [after_append, after_append, stC05_at_main_v51, stB05_at_main_v51, stA05_at_main_v51]
  · rw [after_append, after_append, stC05_at_main_v77, stB05_at_main_v77, stA05_at_main_v77]
  · rw [after_append, after_append, stC05_at_main_arg0, stB05_at_main_arg0, stA05_at_main_arg0]
  · rw [after_append, after_append, stC05_at_main_arg1, stB05_at_main_arg1, stA05_at_main_arg1]
  · rw [after_append, after_append, stC05_at_main_arg2, stB05_at_main_arg2, stA05_at_main_arg2]

end Cert.KernelIdeal.Tl

end
-- ==== Proof.Val.KTail06.lean ====
/- Recipe 6 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA06 : List (HloOp τ sig (Elt F)) :=
  restOf hostOps1_72 ++ (hostOps1_73 ++ (hostOps1_74 ++ (hostOps1_75 ++ (hostOps1_76))))

/-- The two guarded rows. -/
def stB06 : List (HloOp τ sig (Elt F)) :=
  hostOps1_77 ++ (hostOps1_78 ++ (hostOps1_79))

/-- The three rows read, the recipe's term, the subtraction. -/
def stC06 : List (HloOp τ sig (Elt F)) :=
  hostOps1_80 ++ (hostOps1_81 ++ (hostOps1_82 ++ (hostOps1_83 ++ (firstOf hostOps1_84))))

/-- The operations of the group. -/
abbrev G06 : List (HloOp τ sig (Elt F)) := stA06 ++ (stB06 ++ stC06)

/-! ## The first stage -/

theorem stA06_cnt (W : Valuation τ sig (Elt F)) :
    StableHlo.after (stA06 (F := F)) W (Proc.devRef .tc main_v471)
      = Cert.Val.cntw (Cert.Val.maskOf 1#32 6#32 0#32 (W (Proc.devRef .tc main_v25)) (W (Proc.devRef .tc main_v51)) (W (Proc.devRef .tc main_v77))) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA06_min (W : Valuation τ sig (Elt F)) :
    StableHlo.after (stA06 (F := F)) W (Proc.devRef .tc main_v469)
      = Cert.Val.minRow (Cert.Val.maskOf 1#32 6#32 0#32 (W (Proc.devRef .tc main_v25)) (W (Proc.devRef .tc main_v51)) (W (Proc.devRef .tc main_v77))) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA06_min2 (W : Valuation τ sig (Elt F)) :
    StableHlo.after (stA06 (F := F)) W (Proc.devRef .tc main_v476)
      = Cert.Val.minRow (Cert.Val.dropMin (Cert.Val.maskOf 1#32 6#32 0#32 (W (Proc.devRef .tc main_v25)) (W (Proc.devRef .tc main_v51)) (W (Proc.devRef .tc main_v77)))) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA06_ge1 (W : Valuation τ sig (Elt F)) :
    StableHlo.after (stA06 (F := F)) W (Proc.devRef .tc main_v477)
      = cmpi .sge (Cert.Val.cntw (Cert.Val.maskOf 1#32 6#32 0#32 (W (Proc.devRef .tc main_v25)) (W (Proc.devRef .tc main_v51)) (W (Proc.devRef .tc main_v77)))) (constantI Cert.Pick.S0 32 1#32) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA06_zero (W : Valuation τ sig (Elt F)) :
    StableHlo.after (stA06 (F := F)) W (Proc.devRef .tc main_c_262)
      = constantI Cert.Pick.S0 32 0#32 := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_v458 (W : Valuation τ sig (Elt F)) :
    StableHlo.after (stA06 (F := F)) W (Proc.devRef .tc main_v458) = W (Proc.devRef .tc main_v458) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_v25 (W : Valuation τ sig (Elt F)) :
    StableHlo.after (stA06 (F := F)) W (Proc.devRef .tc main_v25) = W (Proc.devRef .tc main_v25) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_v51 (W : Valuation τ sig (Elt F)) :
    StableHlo.after (stA06 (F := F)) W (Proc.devRef .tc main_v51) = W (Proc.devRef .tc main_v51) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_v77 (W : Valuation τ sig (Elt F)) :
    StableHlo.after (stA06 (F := F)) W (Proc.devRef .tc main_v77) = W (Proc.devRef .tc main_v77) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_arg0 (W : Valuation τ sig (Elt F)) :
    StableHlo.after (stA06 (F := F)) W (Proc.devRef .tc main_arg0) = W (Proc.devRef .tc main_arg0) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_arg1 (W : Valuation τ sig (Elt F)) :
    StableHlo.after (stA06 (F := F)) W (Proc.devRef .tc main_arg1) = W (Proc.devRef .tc main_arg1) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA06_at_main_arg2 (W : Valuation τ sig (Elt F)) :
    StableHlo.after (stA06 (F := F)) W (Proc.devRef .tc main_arg2) = W (Proc.devRef .tc main_arg2) := by
  simp (disch := decide) only [stA06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB06_first (W : Valuation τ sig (Elt F)) :
    StableHlo.after (stB06 (F := F)) W (Proc.devRef .tc main_v478)
      = select (W (Proc.devRef .tc main_v477)) (W (Proc.devRef .tc main_v469)) (W (Proc.devRef .tc main_c_262)) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB06_second (W : Valuation τ sig (Elt F)) :
    StableHlo.after (stB06 (F := F)) W (Proc.devRef .tc main_v480)
      = select (cmpi .sge (W (Proc.devRef .tc main_v471)) (constantI Cert.Pick.S0 32 2#32)) (W (Proc.devRef .tc main_v476))
          (constantI Cert.Pick.S0 32 0#32) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB06_at_main_v471 (W : Valuation τ sig (Elt F)) :
    StableHlo.after (stB06 (F := F)) W (Proc.devRef .tc main_v471) = W (Proc.devRef .tc main_v471) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_v458 (W : Valuation τ sig (Elt F)) :
    StableHlo.after (stB06 (F := F)) W (Proc.devRef .tc main_v458) = W (Proc.devRef .tc main_v458) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_v25 (W : Valuation τ sig (Elt F)) :
    StableHlo.after (stB06 (F := F)) W (Proc.devRef .tc main_v25) = W (Proc.devRef .tc main_v25) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_v51 (W : Valuation τ sig (Elt F)) :
    StableHlo.after (stB06 (F := F)) W (Proc.devRef .tc main_v51) = W (Proc.devRef .tc main_v51) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_v77 (W : Valuation τ sig (Elt F)) :
    StableHlo.after (stB06 (F := F)) W (Proc.devRef .tc main_v77) = W (Proc.devRef .tc main_v77) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_arg0 (W : Valuation τ sig (Elt F)) :
    StableHlo.after (stB06 (F := F)) W (Proc.devRef .tc main_arg0) = W (Proc.devRef .tc main_arg0) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_arg1 (W : Valuation τ sig (Elt F)) :
    StableHlo.after (stB06 (F := F)) W (Proc.devRef .tc main_arg1) = W (Proc.devRef .tc main_arg1) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB06_at_main_arg2 (W : Valuation τ sig (Elt F)) :
    StableHlo.after (stB06 (F := F)) W (Proc.devRef .tc main_arg2) = W (Proc.devRef .tc main_arg2) := by
  simp (disch := decide) only [stB06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC06_loss (W : Valuation τ sig (Elt F)) :
    StableHlo.after (stC06 (F := F)) W (Proc.devRef .tc main_v519)
      = subf (W (Proc.devRef .tc main_v458))
          (Cert.Val.negTerm (W (Proc.devRef .tc main_v478)) (W (Proc.devRef .tc main_v480)) (W (Proc.devRef .tc main_v478))
            (cmpi .sgt (W (Proc.devRef .tc main_v471)) (constantI Cert.Pick.S0 32 0#32))
            (W (Proc.devRef .tc main_arg0)) (W (Proc.devRef .tc main_arg1)) (W (Proc.devRef .tc main_arg2))) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC06_at_main_v25 (W : Valuation τ sig (Elt F)) :
    StableHlo.after (stC06 (F := F)) W (Proc.devRef .tc main_v25) = W (Proc.devRef .tc main_v25) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC06_at_main_v51 (W : Valuation τ sig (Elt F)) :
    StableHlo.after (stC06 (F := F)) W (Proc.devRef .tc main_v51) = W (Proc.devRef .tc main_v51) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC06_at_main_v77 (W : Valuation τ sig (Elt F)) :
    StableHlo.after (stC06 (F := F)) W (Proc.devRef .tc main_v77) = W (Proc.devRef .tc main_v77) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC06_at_main_arg0 (W : Valuation τ sig (Elt F)) :
    StableHlo.after (stC06 (F := F)) W (Proc.devRef .tc main_arg0) = W (Proc.devRef .tc main_arg0) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC06_at_main_arg1 (W : Valuation τ sig (Elt F)) :
    StableHlo.after (stC06 (F := F)) W (Proc.devRef .tc main_arg1) = W (Proc.devRef .tc main_arg1) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC06_at_main_arg2 (W : Valuation τ sig (Elt F)) :
    StableHlo.after (stC06 (F := F)) W (Proc.devRef .tc main_arg2) = W (Proc.devRef .tc main_arg2) := by
  simp (disch := decide) only [stC06, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec06_loss (X : Valuation τ sig (Elt F)) :
    StableHlo.after (G06 (F := F)) X (Proc.devRef .tc main_v519)
      = subf (X (Proc.devRef .tc main_v458))
          (Cert.Val.kTerm ⟨1#32, 6#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA06 ++ (stB06 ++ stC06)) X _ = _
  rw [after_append, after_append, stC06_loss, stB06_first, stB06_second, stB06_at_main_v471, stB06_at_main_v458,
    stB06_at_main_arg0, stB06_at_main_arg1, stB06_at_main_arg2,
    stA06_cnt, stA06_min, stA06_min2, stA06_ge1, stA06_zero, stA06_at_main_v458,
    stA06_at_main_arg0, stA06_at_main_arg1, stA06_at_main_arg2]
  simp only [Cert.Val.kTerm, Cert.Val.kWord, Cert.Val.kFirst, Cert.Val.kSecond, Cert.Val.kPos]

/-- The group leaves the code vectors and the volume arrays as they were. -/
theorem rec06_keeps (X : Valuation τ sig (Elt F)) :
    StableHlo.after (G06 (F := F)) X (Proc.devRef .tc main_v25) = X (Proc.devRef .tc main_v25)
    ∧ StableHlo.after (G06 (F := F)) X (Proc.devRef .tc main_v51) = X (Proc.devRef .tc main_v51)
    ∧ StableHlo.after (G06 (F := F)) X (Proc.devRef .tc main_v77) = X (Proc.devRef .tc main_v77)
    ∧ StableHlo.after (G06 (F := F)) X (Proc.devRef .tc main_arg0) = X (Proc.devRef .tc main_arg0)
    ∧ StableHlo.after (G06 (F := F)) X (Proc.devRef .tc main_arg1) = X (Proc.devRef .tc main_arg1)
    ∧ StableHlo.after (G06 (F := F)) X (Proc.devRef .tc main_arg2) = X (Proc.devRef .tc main_arg2) := by
  refine ⟨?_, ?_, ?_, ?_, ?_, ?_⟩ <;> show StableHlo.after (stA06 ++ (stB06 ++ stC06)) X _ = _
  · rw [after_append, after_append, stC06_at_main_v25, stB06_at_main_v25, stA06_at_main_v25]
  · rw [after_append, after_append, stC06_at_main_v51, stB06_at_main_v51, stA06_at_main_v51]
  · rw [after_append, after_append, stC06_at_main_v77, stB06_at_main_v77, stA06_at_main_v77]
  · rw [after_append, after_append, stC06_at_main_arg0, stB06_at_main_arg0, stA06_at_main_arg0]
  · rw [after_append, after_append, stC06_at_main_arg1, stB06_at_main_arg1, stA06_at_main_arg1]
  · rw [after_append, after_append, stC06_at_main_arg2, stB06_at_main_arg2, stA06_at_main_arg2]

end Cert.KernelIdeal.Tl

end
-- ==== Proof.Val.KTail07.lean ====
/- Recipe 7 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA07 : List (HloOp τ sig (Elt F)) :=
  restOf hostOps1_84 ++ (hostOps1_85 ++ (hostOps1_86 ++ (hostOps1_87 ++ (hostOps1_88))))

/-- The two guarded rows. -/
def stB07 : List (HloOp τ sig (Elt F)) :=
  hostOps1_89 ++ (hostOps1_90 ++ (hostOps1_91))

/-- The three rows read, the recipe's term, the subtraction. -/
def stC07 : List (HloOp τ sig (Elt F)) :=
  hostOps1_92 ++ (hostOps1_93 ++ (hostOps1_94 ++ (hostOps1_95 ++ (firstOf hostOps1_96))))

/-- The operations of the group. -/
abbrev G07 : List (HloOp τ sig (Elt F)) := stA07 ++ (stB07 ++ stC07)

/-! ## The first stage -/

theorem stA07_cnt (W : Valuation τ sig (Elt F)) :
    StableHlo.after (stA07 (F := F)) W (Proc.devRef .tc main_v532)
      = Cert.Val.cntw (Cert.Val.maskOf 1#32 6#32 2#32 (W (Proc.devRef .tc main_v25)) (W (Proc.devRef .tc main_v51)) (W (Proc.devRef .tc main_v77))) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA07_min (W : Valuation τ sig (Elt F)) :
    StableHlo.after (stA07 (F := F)) W (Proc.devRef .tc main_v530)
      = Cert.Val.minRow (Cert.Val.maskOf 1#32 6#32 2#32 (W (Proc.devRef .tc main_v25)) (W (Proc.devRef .tc main_v51)) (W (Proc.devRef .tc main_v77))) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA07_min2 (W : Valuation τ sig (Elt F)) :
    StableHlo.after (stA07 (F := F)) W (Proc.devRef .tc main_v537)
      = Cert.Val.minRow (Cert.Val.dropMin (Cert.Val.maskOf 1#32 6#32 2#32 (W (Proc.devRef .tc main_v25)) (W (Proc.devRef .tc main_v51)) (W (Proc.devRef .tc main_v77)))) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA07_ge1 (W : Valuation τ sig (Elt F)) :
    StableHlo.after (stA07 (F := F)) W (Proc.devRef .tc main_v538)
      = cmpi .sge (Cert.Val.cntw (Cert.Val.maskOf 1#32 6#32 2#32 (W (Proc.devRef .tc main_v25)) (W (Proc.devRef .tc main_v51)) (W (Proc.devRef .tc main_v77)))) (constantI Cert.Pick.S0 32 1#32) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA07_zero (W : Valuation τ sig (Elt F)) :
    StableHlo.after (stA07 (F := F)) W (Proc.devRef .tc main_c_299)
      = constantI Cert.Pick.S0 32 0#32 := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_v519 (W : Valuation τ sig (Elt F)) :
    StableHlo.after (stA07 (F := F)) W (Proc.devRef .tc main_v519) = W (Proc.devRef .tc main_v519) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_v25 (W : Valuation τ sig (Elt F)) :
    StableHlo.after (stA07 (F := F)) W (Proc.devRef .tc main_v25) = W (Proc.devRef .tc main_v25) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_v51 (W : Valuation τ sig (Elt F)) :
    StableHlo.after (stA07 (F := F)) W (Proc.devRef .tc main_v51) = W (Proc.devRef .tc main_v51) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_v77 (W : Valuation τ sig (Elt F)) :
    StableHlo.after (stA07 (F := F)) W (Proc.devRef .tc main_v77) = W (Proc.devRef .tc main_v77) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_arg0 (W : Valuation τ sig (Elt F)) :
    StableHlo.after (stA07 (F := F)) W (Proc.devRef .tc main_arg0) = W (Proc.devRef .tc main_arg0) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_arg1 (W : Valuation τ sig (Elt F)) :
    StableHlo.after (stA07 (F := F)) W (Proc.devRef .tc main_arg1) = W (Proc.devRef .tc main_arg1) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA07_at_main_arg2 (W : Valuation τ sig (Elt F)) :
    StableHlo.after (stA07 (F := F)) W (Proc.devRef .tc main_arg2) = W (Proc.devRef .tc main_arg2) := by
  simp (disch := decide) only [stA07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB07_first (W : Valuation τ sig (Elt F)) :
    StableHlo.after (stB07 (F := F)) W (Proc.devRef .tc main_v539)
      = select (W (Proc.devRef .tc main_v538)) (W (Proc.devRef .tc main_v530)) (W (Proc.devRef .tc main_c_299)) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB07_second (W : Valuation τ sig (Elt F)) :
    StableHlo.after (stB07 (F := F)) W (Proc.devRef .tc main_v541)
      = select (cmpi .sge (W (Proc.devRef .tc main_v532)) (constantI Cert.Pick.S0 32 2#32)) (W (Proc.devRef .tc main_v537))
          (constantI Cert.Pick.S0 32 0#32) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB07_at_main_v532 (W : Valuation τ sig (Elt F)) :
    StableHlo.after (stB07 (F := F)) W (Proc.devRef .tc main_v532) = W (Proc.devRef .tc main_v532) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_v519 (W : Valuation τ sig (Elt F)) :
    StableHlo.after (stB07 (F := F)) W (Proc.devRef .tc main_v519) = W (Proc.devRef .tc main_v519) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_v25 (W : Valuation τ sig (Elt F)) :
    StableHlo.after (stB07 (F := F)) W (Proc.devRef .tc main_v25) = W (Proc.devRef .tc main_v25) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_v51 (W : Valuation τ sig (Elt F)) :
    StableHlo.after (stB07 (F := F)) W (Proc.devRef .tc main_v51) = W (Proc.devRef .tc main_v51) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_v77 (W : Valuation τ sig (Elt F)) :
    StableHlo.after (stB07 (F := F)) W (Proc.devRef .tc main_v77) = W (Proc.devRef .tc main_v77) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_arg0 (W : Valuation τ sig (Elt F)) :
    StableHlo.after (stB07 (F := F)) W (Proc.devRef .tc main_arg0) = W (Proc.devRef .tc main_arg0) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_arg1 (W : Valuation τ sig (Elt F)) :
    StableHlo.after (stB07 (F := F)) W (Proc.devRef .tc main_arg1) = W (Proc.devRef .tc main_arg1) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB07_at_main_arg2 (W : Valuation τ sig (Elt F)) :
    StableHlo.after (stB07 (F := F)) W (Proc.devRef .tc main_arg2) = W (Proc.devRef .tc main_arg2) := by
  simp (disch := decide) only [stB07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC07_loss (W : Valuation τ sig (Elt F)) :
    StableHlo.after (stC07 (F := F)) W (Proc.devRef .tc main_v580)
      = subf (W (Proc.devRef .tc main_v519))
          (Cert.Val.negTerm (W (Proc.devRef .tc main_v539)) (W (Proc.devRef .tc main_v541)) (W (Proc.devRef .tc main_v539))
            (cmpi .sgt (W (Proc.devRef .tc main_v532)) (constantI Cert.Pick.S0 32 0#32))
            (W (Proc.devRef .tc main_arg0)) (W (Proc.devRef .tc main_arg1)) (W (Proc.devRef .tc main_arg2))) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC07_at_main_v25 (W : Valuation τ sig (Elt F)) :
    StableHlo.after (stC07 (F := F)) W (Proc.devRef .tc main_v25) = W (Proc.devRef .tc main_v25) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC07_at_main_v51 (W : Valuation τ sig (Elt F)) :
    StableHlo.after (stC07 (F := F)) W (Proc.devRef .tc main_v51) = W (Proc.devRef .tc main_v51) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC07_at_main_v77 (W : Valuation τ sig (Elt F)) :
    StableHlo.after (stC07 (F := F)) W (Proc.devRef .tc main_v77) = W (Proc.devRef .tc main_v77) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC07_at_main_arg0 (W : Valuation τ sig (Elt F)) :
    StableHlo.after (stC07 (F := F)) W (Proc.devRef .tc main_arg0) = W (Proc.devRef .tc main_arg0) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC07_at_main_arg1 (W : Valuation τ sig (Elt F)) :
    StableHlo.after (stC07 (F := F)) W (Proc.devRef .tc main_arg1) = W (Proc.devRef .tc main_arg1) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC07_at_main_arg2 (W : Valuation τ sig (Elt F)) :
    StableHlo.after (stC07 (F := F)) W (Proc.devRef .tc main_arg2) = W (Proc.devRef .tc main_arg2) := by
  simp (disch := decide) only [stC07, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec07_loss (X : Valuation τ sig (Elt F)) :
    StableHlo.after (G07 (F := F)) X (Proc.devRef .tc main_v580)
      = subf (X (Proc.devRef .tc main_v519))
          (Cert.Val.kTerm ⟨1#32, 6#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA07 ++ (stB07 ++ stC07)) X _ = _
  rw [after_append, after_append, stC07_loss, stB07_first, stB07_second, stB07_at_main_v532, stB07_at_main_v519,
    stB07_at_main_arg0, stB07_at_main_arg1, stB07_at_main_arg2,
    stA07_cnt, stA07_min, stA07_min2, stA07_ge1, stA07_zero, stA07_at_main_v519,
    stA07_at_main_arg0, stA07_at_main_arg1, stA07_at_main_arg2]
  simp only [Cert.Val.kTerm, Cert.Val.kWord, Cert.Val.kFirst, Cert.Val.kSecond, Cert.Val.kPos]

/-- The group leaves the code vectors and the volume arrays as they were. -/
theorem rec07_keeps (X : Valuation τ sig (Elt F)) :
    StableHlo.after (G07 (F := F)) X (Proc.devRef .tc main_v25) = X (Proc.devRef .tc main_v25)
    ∧ StableHlo.after (G07 (F := F)) X (Proc.devRef .tc main_v51) = X (Proc.devRef .tc main_v51)
    ∧ StableHlo.after (G07 (F := F)) X (Proc.devRef .tc main_v77) = X (Proc.devRef .tc main_v77)
    ∧ StableHlo.after (G07 (F := F)) X (Proc.devRef .tc main_arg0) = X (Proc.devRef .tc main_arg0)
    ∧ StableHlo.after (G07 (F := F)) X (Proc.devRef .tc main_arg1) = X (Proc.devRef .tc main_arg1)
    ∧ StableHlo.after (G07 (F := F)) X (Proc.devRef .tc main_arg2) = X (Proc.devRef .tc main_arg2) := by
  refine ⟨?_, ?_, ?_, ?_, ?_, ?_⟩ <;> show StableHlo.after (stA07 ++ (stB07 ++ stC07)) X _ = _
  · rw [after_append, after_append, stC07_at_main_v25, stB07_at_main_v25, stA07_at_main_v25]
  · rw [after_append, after_append, stC07_at_main_v51, stB07_at_main_v51, stA07_at_main_v51]
  · rw [after_append, after_append, stC07_at_main_v77, stB07_at_main_v77, stA07_at_main_v77]
  · rw [after_append, after_append, stC07_at_main_arg0, stB07_at_main_arg0, stA07_at_main_arg0]
  · rw [after_append, after_append, stC07_at_main_arg1, stB07_at_main_arg1, stA07_at_main_arg1]
  · rw [after_append, after_append, stC07_at_main_arg2, stB07_at_main_arg2, stA07_at_main_arg2]

end Cert.KernelIdeal.Tl

end
-- ==== Proof.Val.KTail08.lean ====
/- Recipe 8 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA08 : List (HloOp τ sig (Elt F)) :=
  restOf hostOps1_96 ++ (hostOps1_97 ++ (hostOps1_98 ++ (hostOps1_99 ++ (hostOps1_100))))

/-- The two guarded rows. -/
def stB08 : List (HloOp τ sig (Elt F)) :=
  hostOps1_101 ++ (hostOps1_102 ++ (hostOps1_103))

/-- The three rows read, the recipe's term, the subtraction. -/
def stC08 : List (HloOp τ sig (Elt F)) :=
  hostOps1_104 ++ (hostOps1_105 ++ (hostOps1_106 ++ (hostOps1_107 ++ (firstOf hostOps1_108))))

/-- The operations of the group. -/
abbrev G08 : List (HloOp τ sig (Elt F)) := stA08 ++ (stB08 ++ stC08)

/-! ## The first stage -/

theorem stA08_cnt (W : Valuation τ sig (Elt F)) :
    StableHlo.after (stA08 (F := F)) W (Proc.devRef .tc main_v593)
      = Cert.Val.cntw (Cert.Val.maskOf 2#32 4#32 1#32 (W (Proc.devRef .tc main_v25)) (W (Proc.devRef .tc main_v51)) (W (Proc.devRef .tc main_v77))) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA08_min (W : Valuation τ sig (Elt F)) :
    StableHlo.after (stA08 (F := F)) W (Proc.devRef .tc main_v591)
      = Cert.Val.minRow (Cert.Val.maskOf 2#32 4#32 1#32 (W (Proc.devRef .tc main_v25)) (W (Proc.devRef .tc main_v51)) (W (Proc.devRef .tc main_v77))) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA08_min2 (W : Valuation τ sig (Elt F)) :
    StableHlo.after (stA08 (F := F)) W (Proc.devRef .tc main_v598)
      = Cert.Val.minRow (Cert.Val.dropMin (Cert.Val.maskOf 2#32 4#32 1#32 (W (Proc.devRef .tc main_v25)) (W (Proc.devRef .tc main_v51)) (W (Proc.devRef .tc main_v77)))) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA08_ge1 (W : Valuation τ sig (Elt F)) :
    StableHlo.after (stA08 (F := F)) W (Proc.devRef .tc main_v599)
      = cmpi .sge (Cert.Val.cntw (Cert.Val.maskOf 2#32 4#32 1#32 (W (Proc.devRef .tc main_v25)) (W (Proc.devRef .tc main_v51)) (W (Proc.devRef .tc main_v77)))) (constantI Cert.Pick.S0 32 1#32) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA08_zero (W : Valuation τ sig (Elt F)) :
    StableHlo.after (stA08 (F := F)) W (Proc.devRef .tc main_c_336)
      = constantI Cert.Pick.S0 32 0#32 := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_v580 (W : Valuation τ sig (Elt F)) :
    StableHlo.after (stA08 (F := F)) W (Proc.devRef .tc main_v580) = W (Proc.devRef .tc main_v580) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_v25 (W : Valuation τ sig (Elt F)) :
    StableHlo.after (stA08 (F := F)) W (Proc.devRef .tc main_v25) = W (Proc.devRef .tc main_v25) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_v51 (W : Valuation τ sig (Elt F)) :
    StableHlo.after (stA08 (F := F)) W (Proc.devRef .tc main_v51) = W (Proc.devRef .tc main_v51) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_v77 (W : Valuation τ sig (Elt F)) :
    StableHlo.after (stA08 (F := F)) W (Proc.devRef .tc main_v77) = W (Proc.devRef .tc main_v77) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_arg0 (W : Valuation τ sig (Elt F)) :
    StableHlo.after (stA08 (F := F)) W (Proc.devRef .tc main_arg0) = W (Proc.devRef .tc main_arg0) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_arg1 (W : Valuation τ sig (Elt F)) :
    StableHlo.after (stA08 (F := F)) W (Proc.devRef .tc main_arg1) = W (Proc.devRef .tc main_arg1) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA08_at_main_arg2 (W : Valuation τ sig (Elt F)) :
    StableHlo.after (stA08 (F := F)) W (Proc.devRef .tc main_arg2) = W (Proc.devRef .tc main_arg2) := by
  simp (disch := decide) only [stA08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB08_first (W : Valuation τ sig (Elt F)) :
    StableHlo.after (stB08 (F := F)) W (Proc.devRef .tc main_v600)
      = select (W (Proc.devRef .tc main_v599)) (W (Proc.devRef .tc main_v591)) (W (Proc.devRef .tc main_c_336)) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB08_second (W : Valuation τ sig (Elt F)) :
    StableHlo.after (stB08 (F := F)) W (Proc.devRef .tc main_v602)
      = select (cmpi .sge (W (Proc.devRef .tc main_v593)) (constantI Cert.Pick.S0 32 2#32)) (W (Proc.devRef .tc main_v598))
          (constantI Cert.Pick.S0 32 0#32) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB08_at_main_v593 (W : Valuation τ sig (Elt F)) :
    StableHlo.after (stB08 (F := F)) W (Proc.devRef .tc main_v593) = W (Proc.devRef .tc main_v593) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_v580 (W : Valuation τ sig (Elt F)) :
    StableHlo.after (stB08 (F := F)) W (Proc.devRef .tc main_v580) = W (Proc.devRef .tc main_v580) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_v25 (W : Valuation τ sig (Elt F)) :
    StableHlo.after (stB08 (F := F)) W (Proc.devRef .tc main_v25) = W (Proc.devRef .tc main_v25) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_v51 (W : Valuation τ sig (Elt F)) :
    StableHlo.after (stB08 (F := F)) W (Proc.devRef .tc main_v51) = W (Proc.devRef .tc main_v51) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_v77 (W : Valuation τ sig (Elt F)) :
    StableHlo.after (stB08 (F := F)) W (Proc.devRef .tc main_v77) = W (Proc.devRef .tc main_v77) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_arg0 (W : Valuation τ sig (Elt F)) :
    StableHlo.after (stB08 (F := F)) W (Proc.devRef .tc main_arg0) = W (Proc.devRef .tc main_arg0) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_arg1 (W : Valuation τ sig (Elt F)) :
    StableHlo.after (stB08 (F := F)) W (Proc.devRef .tc main_arg1) = W (Proc.devRef .tc main_arg1) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB08_at_main_arg2 (W : Valuation τ sig (Elt F)) :
    StableHlo.after (stB08 (F := F)) W (Proc.devRef .tc main_arg2) = W (Proc.devRef .tc main_arg2) := by
  simp (disch := decide) only [stB08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC08_loss (W : Valuation τ sig (Elt F)) :
    StableHlo.after (stC08 (F := F)) W (Proc.devRef .tc main_v641)
      = subf (W (Proc.devRef .tc main_v580))
          (Cert.Val.negTerm (W (Proc.devRef .tc main_v600)) (W (Proc.devRef .tc main_v602)) (W (Proc.devRef .tc main_v600))
            (cmpi .sgt (W (Proc.devRef .tc main_v593)) (constantI Cert.Pick.S0 32 0#32))
            (W (Proc.devRef .tc main_arg0)) (W (Proc.devRef .tc main_arg1)) (W (Proc.devRef .tc main_arg2))) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC08_at_main_v25 (W : Valuation τ sig (Elt F)) :
    StableHlo.after (stC08 (F := F)) W (Proc.devRef .tc main_v25) = W (Proc.devRef .tc main_v25) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC08_at_main_v51 (W : Valuation τ sig (Elt F)) :
    StableHlo.after (stC08 (F := F)) W (Proc.devRef .tc main_v51) = W (Proc.devRef .tc main_v51) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC08_at_main_v77 (W : Valuation τ sig (Elt F)) :
    StableHlo.after (stC08 (F := F)) W (Proc.devRef .tc main_v77) = W (Proc.devRef .tc main_v77) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC08_at_main_arg0 (W : Valuation τ sig (Elt F)) :
    StableHlo.after (stC08 (F := F)) W (Proc.devRef .tc main_arg0) = W (Proc.devRef .tc main_arg0) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC08_at_main_arg1 (W : Valuation τ sig (Elt F)) :
    StableHlo.after (stC08 (F := F)) W (Proc.devRef .tc main_arg1) = W (Proc.devRef .tc main_arg1) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC08_at_main_arg2 (W : Valuation τ sig (Elt F)) :
    StableHlo.after (stC08 (F := F)) W (Proc.devRef .tc main_arg2) = W (Proc.devRef .tc main_arg2) := by
  simp (disch := decide) only [stC08, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec08_loss (X : Valuation τ sig (Elt F)) :
    StableHlo.after (G08 (F := F)) X (Proc.devRef .tc main_v641)
      = subf (X (Proc.devRef .tc main_v580))
          (Cert.Val.kTerm ⟨2#32, 4#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA08 ++ (stB08 ++ stC08)) X _ = _
  rw [after_append, after_append, stC08_loss, stB08_first, stB08_second, stB08_at_main_v593, stB08_at_main_v580,
    stB08_at_main_arg0, stB08_at_main_arg1, stB08_at_main_arg2,
    stA08_cnt, stA08_min, stA08_min2, stA08_ge1, stA08_zero, stA08_at_main_v580,
    stA08_at_main_arg0, stA08_at_main_arg1, stA08_at_main_arg2]
  simp only [Cert.Val.kTerm, Cert.Val.kWord, Cert.Val.kFirst, Cert.Val.kSecond, Cert.Val.kPos]

/-- The group leaves the code vectors and the volume arrays as they were. -/
theorem rec08_keeps (X : Valuation τ sig (Elt F)) :
    StableHlo.after (G08 (F := F)) X (Proc.devRef .tc main_v25) = X (Proc.devRef .tc main_v25)
    ∧ StableHlo.after (G08 (F := F)) X (Proc.devRef .tc main_v51) = X (Proc.devRef .tc main_v51)
    ∧ StableHlo.after (G08 (F := F)) X (Proc.devRef .tc main_v77) = X (Proc.devRef .tc main_v77)
    ∧ StableHlo.after (G08 (F := F)) X (Proc.devRef .tc main_arg0) = X (Proc.devRef .tc main_arg0)
    ∧ StableHlo.after (G08 (F := F)) X (Proc.devRef .tc main_arg1) = X (Proc.devRef .tc main_arg1)
    ∧ StableHlo.after (G08 (F := F)) X (Proc.devRef .tc main_arg2) = X (Proc.devRef .tc main_arg2) := by
  refine ⟨?_, ?_, ?_, ?_, ?_, ?_⟩ <;> show StableHlo.after (stA08 ++ (stB08 ++ stC08)) X _ = _
  · rw [after_append, after_append, stC08_at_main_v25, stB08_at_main_v25, stA08_at_main_v25]
  · rw [after_append, after_append, stC08_at_main_v51, stB08_at_main_v51, stA08_at_main_v51]
  · rw [after_append, after_append, stC08_at_main_v77, stB08_at_main_v77, stA08_at_main_v77]
  · rw [after_append, after_append, stC08_at_main_arg0, stB08_at_main_arg0, stA08_at_main_arg0]
  · rw [after_append, after_append, stC08_at_main_arg1, stB08_at_main_arg1, stA08_at_main_arg1]
  · rw [after_append, after_append, stC08_at_main_arg2, stB08_at_main_arg2, stA08_at_main_arg2]

end Cert.KernelIdeal.Tl

end
-- ==== Proof.Val.KTail09.lean ====
/- Recipe 9 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA09 : List (HloOp τ sig (Elt F)) :=
  restOf hostOps1_108 ++ (hostOps1_109 ++ (hostOps1_110 ++ (hostOps1_111 ++ (hostOps1_112))))

/-- The two guarded rows. -/
def stB09 : List (HloOp τ sig (Elt F)) :=
  hostOps1_113 ++ (hostOps1_114 ++ (hostOps1_115))

/-- The three rows read, the recipe's term, the subtraction. -/
def stC09 : List (HloOp τ sig (Elt F)) :=
  hostOps1_116 ++ (hostOps1_117 ++ (hostOps1_118 ++ (hostOps1_119 ++ (firstOf hostOps1_120))))

/-- The operations of the group. -/
abbrev G09 : List (HloOp τ sig (Elt F)) := stA09 ++ (stB09 ++ stC09)

/-! ## The first stage -/

theorem stA09_cnt (W : Valuation τ sig (Elt F)) :
    StableHlo.after (stA09 (F := F)) W (Proc.devRef .tc main_v654)
      = Cert.Val.cntw (Cert.Val.maskOf 2#32 4#32 2#32 (W (Proc.devRef .tc main_v25)) (W (Proc.devRef .tc main_v51)) (W (Proc.devRef .tc main_v77))) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA09_min (W : Valuation τ sig (Elt F)) :
    StableHlo.after (stA09 (F := F)) W (Proc.devRef .tc main_v652)
      = Cert.Val.minRow (Cert.Val.maskOf 2#32 4#32 2#32 (W (Proc.devRef .tc main_v25)) (W (Proc.devRef .tc main_v51)) (W (Proc.devRef .tc main_v77))) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA09_min2 (W : Valuation τ sig (Elt F)) :
    StableHlo.after (stA09 (F := F)) W (Proc.devRef .tc main_v659)
      = Cert.Val.minRow (Cert.Val.dropMin (Cert.Val.maskOf 2#32 4#32 2#32 (W (Proc.devRef .tc main_v25)) (W (Proc.devRef .tc main_v51)) (W (Proc.devRef .tc main_v77)))) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA09_ge1 (W : Valuation τ sig (Elt F)) :
    StableHlo.after (stA09 (F := F)) W (Proc.devRef .tc main_v660)
      = cmpi .sge (Cert.Val.cntw (Cert.Val.maskOf 2#32 4#32 2#32 (W (Proc.devRef .tc main_v25)) (W (Proc.devRef .tc main_v51)) (W (Proc.devRef .tc main_v77)))) (constantI Cert.Pick.S0 32 1#32) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA09_zero (W : Valuation τ sig (Elt F)) :
    StableHlo.after (stA09 (F := F)) W (Proc.devRef .tc main_c_373)
      = constantI Cert.Pick.S0 32 0#32 := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_v641 (W : Valuation τ sig (Elt F)) :
    StableHlo.after (stA09 (F := F)) W (Proc.devRef .tc main_v641) = W (Proc.devRef .tc main_v641) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_v25 (W : Valuation τ sig (Elt F)) :
    StableHlo.after (stA09 (F := F)) W (Proc.devRef .tc main_v25) = W (Proc.devRef .tc main_v25) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_v51 (W : Valuation τ sig (Elt F)) :
    StableHlo.after (stA09 (F := F)) W (Proc.devRef .tc main_v51) = W (Proc.devRef .tc main_v51) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_v77 (W : Valuation τ sig (Elt F)) :
    StableHlo.after (stA09 (F := F)) W (Proc.devRef .tc main_v77) = W (Proc.devRef .tc main_v77) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_arg0 (W : Valuation τ sig (Elt F)) :
    StableHlo.after (stA09 (F := F)) W (Proc.devRef .tc main_arg0) = W (Proc.devRef .tc main_arg0) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_arg1 (W : Valuation τ sig (Elt F)) :
    StableHlo.after (stA09 (F := F)) W (Proc.devRef .tc main_arg1) = W (Proc.devRef .tc main_arg1) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA09_at_main_arg2 (W : Valuation τ sig (Elt F)) :
    StableHlo.after (stA09 (F := F)) W (Proc.devRef .tc main_arg2) = W (Proc.devRef .tc main_arg2) := by
  simp (disch := decide) only [stA09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB09_first (W : Valuation τ sig (Elt F)) :
    StableHlo.after (stB09 (F := F)) W (Proc.devRef .tc main_v661)
      = select (W (Proc.devRef .tc main_v660)) (W (Proc.devRef .tc main_v652)) (W (Proc.devRef .tc main_c_373)) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB09_second (W : Valuation τ sig (Elt F)) :
    StableHlo.after (stB09 (F := F)) W (Proc.devRef .tc main_v663)
      = select (cmpi .sge (W (Proc.devRef .tc main_v654)) (constantI Cert.Pick.S0 32 2#32)) (W (Proc.devRef .tc main_v659))
          (constantI Cert.Pick.S0 32 0#32) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB09_at_main_v654 (W : Valuation τ sig (Elt F)) :
    StableHlo.after (stB09 (F := F)) W (Proc.devRef .tc main_v654) = W (Proc.devRef .tc main_v654) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_v641 (W : Valuation τ sig (Elt F)) :
    StableHlo.after (stB09 (F := F)) W (Proc.devRef .tc main_v641) = W (Proc.devRef .tc main_v641) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_v25 (W : Valuation τ sig (Elt F)) :
    StableHlo.after (stB09 (F := F)) W (Proc.devRef .tc main_v25) = W (Proc.devRef .tc main_v25) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_v51 (W : Valuation τ sig (Elt F)) :
    StableHlo.after (stB09 (F := F)) W (Proc.devRef .tc main_v51) = W (Proc.devRef .tc main_v51) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_v77 (W : Valuation τ sig (Elt F)) :
    StableHlo.after (stB09 (F := F)) W (Proc.devRef .tc main_v77) = W (Proc.devRef .tc main_v77) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_arg0 (W : Valuation τ sig (Elt F)) :
    StableHlo.after (stB09 (F := F)) W (Proc.devRef .tc main_arg0) = W (Proc.devRef .tc main_arg0) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_arg1 (W : Valuation τ sig (Elt F)) :
    StableHlo.after (stB09 (F := F)) W (Proc.devRef .tc main_arg1) = W (Proc.devRef .tc main_arg1) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB09_at_main_arg2 (W : Valuation τ sig (Elt F)) :
    StableHlo.after (stB09 (F := F)) W (Proc.devRef .tc main_arg2) = W (Proc.devRef .tc main_arg2) := by
  simp (disch := decide) only [stB09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC09_loss (W : Valuation τ sig (Elt F)) :
    StableHlo.after (stC09 (F := F)) W (Proc.devRef .tc main_v702)
      = subf (W (Proc.devRef .tc main_v641))
          (Cert.Val.negTerm (W (Proc.devRef .tc main_v661)) (W (Proc.devRef .tc main_v663)) (W (Proc.devRef .tc main_v661))
            (cmpi .sgt (W (Proc.devRef .tc main_v654)) (constantI Cert.Pick.S0 32 0#32))
            (W (Proc.devRef .tc main_arg0)) (W (Proc.devRef .tc main_arg1)) (W (Proc.devRef .tc main_arg2))) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC09_at_main_v25 (W : Valuation τ sig (Elt F)) :
    StableHlo.after (stC09 (F := F)) W (Proc.devRef .tc main_v25) = W (Proc.devRef .tc main_v25) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC09_at_main_v51 (W : Valuation τ sig (Elt F)) :
    StableHlo.after (stC09 (F := F)) W (Proc.devRef .tc main_v51) = W (Proc.devRef .tc main_v51) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC09_at_main_v77 (W : Valuation τ sig (Elt F)) :
    StableHlo.after (stC09 (F := F)) W (Proc.devRef .tc main_v77) = W (Proc.devRef .tc main_v77) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC09_at_main_arg0 (W : Valuation τ sig (Elt F)) :
    StableHlo.after (stC09 (F := F)) W (Proc.devRef .tc main_arg0) = W (Proc.devRef .tc main_arg0) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC09_at_main_arg1 (W : Valuation τ sig (Elt F)) :
    StableHlo.after (stC09 (F := F)) W (Proc.devRef .tc main_arg1) = W (Proc.devRef .tc main_arg1) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC09_at_main_arg2 (W : Valuation τ sig (Elt F)) :
    StableHlo.after (stC09 (F := F)) W (Proc.devRef .tc main_arg2) = W (Proc.devRef .tc main_arg2) := by
  simp (disch := decide) only [stC09, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec09_loss (X : Valuation τ sig (Elt F)) :
    StableHlo.after (G09 (F := F)) X (Proc.devRef .tc main_v702)
      = subf (X (Proc.devRef .tc main_v641))
          (Cert.Val.kTerm ⟨2#32, 4#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA09 ++ (stB09 ++ stC09)) X _ = _
  rw [after_append, after_append, stC09_loss, stB09_first, stB09_second, stB09_at_main_v654, stB09_at_main_v641,
    stB09_at_main_arg0, stB09_at_main_arg1, stB09_at_main_arg2,
    stA09_cnt, stA09_min, stA09_min2, stA09_ge1, stA09_zero, stA09_at_main_v641,
    stA09_at_main_arg0, stA09_at_main_arg1, stA09_at_main_arg2]
  simp only [Cert.Val.kTerm, Cert.Val.kWord, Cert.Val.kFirst, Cert.Val.kSecond, Cert.Val.kPos]

/-- The group leaves the code vectors and the volume arrays as they were. -/
theorem rec09_keeps (X : Valuation τ sig (Elt F)) :
    StableHlo.after (G09 (F := F)) X (Proc.devRef .tc main_v25) = X (Proc.devRef .tc main_v25)
    ∧ StableHlo.after (G09 (F := F)) X (Proc.devRef .tc main_v51) = X (Proc.devRef .tc main_v51)
    ∧ StableHlo.after (G09 (F := F)) X (Proc.devRef .tc main_v77) = X (Proc.devRef .tc main_v77)
    ∧ StableHlo.after (G09 (F := F)) X (Proc.devRef .tc main_arg0) = X (Proc.devRef .tc main_arg0)
    ∧ StableHlo.after (G09 (F := F)) X (Proc.devRef .tc main_arg1) = X (Proc.devRef .tc main_arg1)
    ∧ StableHlo.after (G09 (F := F)) X (Proc.devRef .tc main_arg2) = X (Proc.devRef .tc main_arg2) := by
  refine ⟨?_, ?_, ?_, ?_, ?_, ?_⟩ <;> show StableHlo.after (stA09 ++ (stB09 ++ stC09)) X _ = _
  · rw [after_append, after_append, stC09_at_main_v25, stB09_at_main_v25, stA09_at_main_v25]
  · rw [after_append, after_append, stC09_at_main_v51, stB09_at_main_v51, stA09_at_main_v51]
  · rw [after_append, after_append, stC09_at_main_v77, stB09_at_main_v77, stA09_at_main_v77]
  · rw [after_append, after_append, stC09_at_main_arg0, stB09_at_main_arg0, stA09_at_main_arg0]
  · rw [after_append, after_append, stC09_at_main_arg1, stB09_at_main_arg1, stA09_at_main_arg1]
  · rw [after_append, after_append, stC09_at_main_arg2, stB09_at_main_arg2, stA09_at_main_arg2]

end Cert.KernelIdeal.Tl

end
-- ==== Proof.Val.KTail10.lean ====
/- Recipe 10 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA10 : List (HloOp τ sig (Elt F)) :=
  restOf hostOps1_120 ++ (hostOps1_121 ++ (hostOps1_122 ++ (hostOps1_123 ++ (hostOps1_124))))

/-- The two guarded rows. -/
def stB10 : List (HloOp τ sig (Elt F)) :=
  hostOps1_125 ++ (hostOps1_126 ++ (hostOps1_127))

/-- The three rows read, the recipe's term, the subtraction. -/
def stC10 : List (HloOp τ sig (Elt F)) :=
  hostOps1_128 ++ (hostOps1_129 ++ (hostOps1_130 ++ (hostOps1_131 ++ (firstOf hostOps1_132))))

/-- The operations of the group. -/
abbrev G10 : List (HloOp τ sig (Elt F)) := stA10 ++ (stB10 ++ stC10)

/-! ## The first stage -/

theorem stA10_cnt (W : Valuation τ sig (Elt F)) :
    StableHlo.after (stA10 (F := F)) W (Proc.devRef .tc main_v715)
      = Cert.Val.cntw (Cert.Val.maskOf 2#32 5#32 0#32 (W (Proc.devRef .tc main_v25)) (W (Proc.devRef .tc main_v51)) (W (Proc.devRef .tc main_v77))) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA10_min (W : Valuation τ sig (Elt F)) :
    StableHlo.after (stA10 (F := F)) W (Proc.devRef .tc main_v713)
      = Cert.Val.minRow (Cert.Val.maskOf 2#32 5#32 0#32 (W (Proc.devRef .tc main_v25)) (W (Proc.devRef .tc main_v51)) (W (Proc.devRef .tc main_v77))) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA10_min2 (W : Valuation τ sig (Elt F)) :
    StableHlo.after (stA10 (F := F)) W (Proc.devRef .tc main_v720)
      = Cert.Val.minRow (Cert.Val.dropMin (Cert.Val.maskOf 2#32 5#32 0#32 (W (Proc.devRef .tc main_v25)) (W (Proc.devRef .tc main_v51)) (W (Proc.devRef .tc main_v77)))) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA10_ge1 (W : Valuation τ sig (Elt F)) :
    StableHlo.after (stA10 (F := F)) W (Proc.devRef .tc main_v721)
      = cmpi .sge (Cert.Val.cntw (Cert.Val.maskOf 2#32 5#32 0#32 (W (Proc.devRef .tc main_v25)) (W (Proc.devRef .tc main_v51)) (W (Proc.devRef .tc main_v77)))) (constantI Cert.Pick.S0 32 1#32) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA10_zero (W : Valuation τ sig (Elt F)) :
    StableHlo.after (stA10 (F := F)) W (Proc.devRef .tc main_c_410)
      = constantI Cert.Pick.S0 32 0#32 := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_v702 (W : Valuation τ sig (Elt F)) :
    StableHlo.after (stA10 (F := F)) W (Proc.devRef .tc main_v702) = W (Proc.devRef .tc main_v702) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_v25 (W : Valuation τ sig (Elt F)) :
    StableHlo.after (stA10 (F := F)) W (Proc.devRef .tc main_v25) = W (Proc.devRef .tc main_v25) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_v51 (W : Valuation τ sig (Elt F)) :
    StableHlo.after (stA10 (F := F)) W (Proc.devRef .tc main_v51) = W (Proc.devRef .tc main_v51) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_v77 (W : Valuation τ sig (Elt F)) :
    StableHlo.after (stA10 (F := F)) W (Proc.devRef .tc main_v77) = W (Proc.devRef .tc main_v77) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_arg0 (W : Valuation τ sig (Elt F)) :
    StableHlo.after (stA10 (F := F)) W (Proc.devRef .tc main_arg0) = W (Proc.devRef .tc main_arg0) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_arg1 (W : Valuation τ sig (Elt F)) :
    StableHlo.after (stA10 (F := F)) W (Proc.devRef .tc main_arg1) = W (Proc.devRef .tc main_arg1) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA10_at_main_arg2 (W : Valuation τ sig (Elt F)) :
    StableHlo.after (stA10 (F := F)) W (Proc.devRef .tc main_arg2) = W (Proc.devRef .tc main_arg2) := by
  simp (disch := decide) only [stA10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB10_first (W : Valuation τ sig (Elt F)) :
    StableHlo.after (stB10 (F := F)) W (Proc.devRef .tc main_v722)
      = select (W (Proc.devRef .tc main_v721)) (W (Proc.devRef .tc main_v713)) (W (Proc.devRef .tc main_c_410)) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB10_second (W : Valuation τ sig (Elt F)) :
    StableHlo.after (stB10 (F := F)) W (Proc.devRef .tc main_v724)
      = select (cmpi .sge (W (Proc.devRef .tc main_v715)) (constantI Cert.Pick.S0 32 2#32)) (W (Proc.devRef .tc main_v720))
          (constantI Cert.Pick.S0 32 0#32) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB10_at_main_v715 (W : Valuation τ sig (Elt F)) :
    StableHlo.after (stB10 (F := F)) W (Proc.devRef .tc main_v715) = W (Proc.devRef .tc main_v715) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_v702 (W : Valuation τ sig (Elt F)) :
    StableHlo.after (stB10 (F := F)) W (Proc.devRef .tc main_v702) = W (Proc.devRef .tc main_v702) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_v25 (W : Valuation τ sig (Elt F)) :
    StableHlo.after (stB10 (F := F)) W (Proc.devRef .tc main_v25) = W (Proc.devRef .tc main_v25) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_v51 (W : Valuation τ sig (Elt F)) :
    StableHlo.after (stB10 (F := F)) W (Proc.devRef .tc main_v51) = W (Proc.devRef .tc main_v51) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_v77 (W : Valuation τ sig (Elt F)) :
    StableHlo.after (stB10 (F := F)) W (Proc.devRef .tc main_v77) = W (Proc.devRef .tc main_v77) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_arg0 (W : Valuation τ sig (Elt F)) :
    StableHlo.after (stB10 (F := F)) W (Proc.devRef .tc main_arg0) = W (Proc.devRef .tc main_arg0) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_arg1 (W : Valuation τ sig (Elt F)) :
    StableHlo.after (stB10 (F := F)) W (Proc.devRef .tc main_arg1) = W (Proc.devRef .tc main_arg1) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB10_at_main_arg2 (W : Valuation τ sig (Elt F)) :
    StableHlo.after (stB10 (F := F)) W (Proc.devRef .tc main_arg2) = W (Proc.devRef .tc main_arg2) := by
  simp (disch := decide) only [stB10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC10_loss (W : Valuation τ sig (Elt F)) :
    StableHlo.after (stC10 (F := F)) W (Proc.devRef .tc main_v763)
      = subf (W (Proc.devRef .tc main_v702))
          (Cert.Val.negTerm (W (Proc.devRef .tc main_v722)) (W (Proc.devRef .tc main_v724)) (W (Proc.devRef .tc main_v722))
            (cmpi .sgt (W (Proc.devRef .tc main_v715)) (constantI Cert.Pick.S0 32 0#32))
            (W (Proc.devRef .tc main_arg0)) (W (Proc.devRef .tc main_arg1)) (W (Proc.devRef .tc main_arg2))) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC10_at_main_v25 (W : Valuation τ sig (Elt F)) :
    StableHlo.after (stC10 (F := F)) W (Proc.devRef .tc main_v25) = W (Proc.devRef .tc main_v25) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC10_at_main_v51 (W : Valuation τ sig (Elt F)) :
    StableHlo.after (stC10 (F := F)) W (Proc.devRef .tc main_v51) = W (Proc.devRef .tc main_v51) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC10_at_main_v77 (W : Valuation τ sig (Elt F)) :
    StableHlo.after (stC10 (F := F)) W (Proc.devRef .tc main_v77) = W (Proc.devRef .tc main_v77) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC10_at_main_arg0 (W : Valuation τ sig (Elt F)) :
    StableHlo.after (stC10 (F := F)) W (Proc.devRef .tc main_arg0) = W (Proc.devRef .tc main_arg0) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC10_at_main_arg1 (W : Valuation τ sig (Elt F)) :
    StableHlo.after (stC10 (F := F)) W (Proc.devRef .tc main_arg1) = W (Proc.devRef .tc main_arg1) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC10_at_main_arg2 (W : Valuation τ sig (Elt F)) :
    StableHlo.after (stC10 (F := F)) W (Proc.devRef .tc main_arg2) = W (Proc.devRef .tc main_arg2) := by
  simp (disch := decide) only [stC10, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec10_loss (X : Valuation τ sig (Elt F)) :
    StableHlo.after (G10 (F := F)) X (Proc.devRef .tc main_v763)
      = subf (X (Proc.devRef .tc main_v702))
          (Cert.Val.kTerm ⟨2#32, 5#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA10 ++ (stB10 ++ stC10)) X _ = _
  rw [after_append, after_append, stC10_loss, stB10_first, stB10_second, stB10_at_main_v715, stB10_at_main_v702,
    stB10_at_main_arg0, stB10_at_main_arg1, stB10_at_main_arg2,
    stA10_cnt, stA10_min, stA10_min2, stA10_ge1, stA10_zero, stA10_at_main_v702,
    stA10_at_main_arg0, stA10_at_main_arg1, stA10_at_main_arg2]
  simp only [Cert.Val.kTerm, Cert.Val.kWord, Cert.Val.kFirst, Cert.Val.kSecond, Cert.Val.kPos]

/-- The group leaves the code vectors and the volume arrays as they were. -/
theorem rec10_keeps (X : Valuation τ sig (Elt F)) :
    StableHlo.after (G10 (F := F)) X (Proc.devRef .tc main_v25) = X (Proc.devRef .tc main_v25)
    ∧ StableHlo.after (G10 (F := F)) X (Proc.devRef .tc main_v51) = X (Proc.devRef .tc main_v51)
    ∧ StableHlo.after (G10 (F := F)) X (Proc.devRef .tc main_v77) = X (Proc.devRef .tc main_v77)
    ∧ StableHlo.after (G10 (F := F)) X (Proc.devRef .tc main_arg0) = X (Proc.devRef .tc main_arg0)
    ∧ StableHlo.after (G10 (F := F)) X (Proc.devRef .tc main_arg1) = X (Proc.devRef .tc main_arg1)
    ∧ StableHlo.after (G10 (F := F)) X (Proc.devRef .tc main_arg2) = X (Proc.devRef .tc main_arg2) := by
  refine ⟨?_, ?_, ?_, ?_, ?_, ?_⟩ <;> show StableHlo.after (stA10 ++ (stB10 ++ stC10)) X _ = _
  · rw [after_append, after_append, stC10_at_main_v25, stB10_at_main_v25, stA10_at_main_v25]
  · rw [after_append, after_append, stC10_at_main_v51, stB10_at_main_v51, stA10_at_main_v51]
  · rw [after_append, after_append, stC10_at_main_v77, stB10_at_main_v77, stA10_at_main_v77]
  · rw [after_append, after_append, stC10_at_main_arg0, stB10_at_main_arg0, stA10_at_main_arg0]
  · rw [after_append, after_append, stC10_at_main_arg1, stB10_at_main_arg1, stA10_at_main_arg1]
  · rw [after_append, after_append, stC10_at_main_arg2, stB10_at_main_arg2, stA10_at_main_arg2]

end Cert.KernelIdeal.Tl

end
-- ==== Proof.Val.KTail11.lean ====
/- Recipe 11 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA11 : List (HloOp τ sig (Elt F)) :=
  restOf hostOps1_132 ++ (hostOps1_133 ++ (hostOps1_134 ++ (hostOps1_135 ++ (hostOps1_136))))

/-- The two guarded rows. -/
def stB11 : List (HloOp τ sig (Elt F)) :=
  hostOps1_137 ++ (hostOps1_138 ++ (hostOps1_139))

/-- The three rows read, the recipe's term, the subtraction. -/
def stC11 : List (HloOp τ sig (Elt F)) :=
  hostOps1_140 ++ (hostOps1_141 ++ (hostOps1_142 ++ (hostOps1_143 ++ (firstOf hostOps1_144))))

/-- The operations of the group. -/
abbrev G11 : List (HloOp τ sig (Elt F)) := stA11 ++ (stB11 ++ stC11)

/-! ## The first stage -/

theorem stA11_cnt (W : Valuation τ sig (Elt F)) :
    StableHlo.after (stA11 (F := F)) W (Proc.devRef .tc main_v776)
      = Cert.Val.cntw (Cert.Val.maskOf 2#32 5#32 2#32 (W (Proc.devRef .tc main_v25)) (W (Proc.devRef .tc main_v51)) (W (Proc.devRef .tc main_v77))) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA11_min (W : Valuation τ sig (Elt F)) :
    StableHlo.after (stA11 (F := F)) W (Proc.devRef .tc main_v774)
      = Cert.Val.minRow (Cert.Val.maskOf 2#32 5#32 2#32 (W (Proc.devRef .tc main_v25)) (W (Proc.devRef .tc main_v51)) (W (Proc.devRef .tc main_v77))) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA11_min2 (W : Valuation τ sig (Elt F)) :
    StableHlo.after (stA11 (F := F)) W (Proc.devRef .tc main_v781)
      = Cert.Val.minRow (Cert.Val.dropMin (Cert.Val.maskOf 2#32 5#32 2#32 (W (Proc.devRef .tc main_v25)) (W (Proc.devRef .tc main_v51)) (W (Proc.devRef .tc main_v77)))) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA11_ge1 (W : Valuation τ sig (Elt F)) :
    StableHlo.after (stA11 (F := F)) W (Proc.devRef .tc main_v782)
      = cmpi .sge (Cert.Val.cntw (Cert.Val.maskOf 2#32 5#32 2#32 (W (Proc.devRef .tc main_v25)) (W (Proc.devRef .tc main_v51)) (W (Proc.devRef .tc main_v77)))) (constantI Cert.Pick.S0 32 1#32) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA11_zero (W : Valuation τ sig (Elt F)) :
    StableHlo.after (stA11 (F := F)) W (Proc.devRef .tc main_c_447)
      = constantI Cert.Pick.S0 32 0#32 := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_v763 (W : Valuation τ sig (Elt F)) :
    StableHlo.after (stA11 (F := F)) W (Proc.devRef .tc main_v763) = W (Proc.devRef .tc main_v763) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_v25 (W : Valuation τ sig (Elt F)) :
    StableHlo.after (stA11 (F := F)) W (Proc.devRef .tc main_v25) = W (Proc.devRef .tc main_v25) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_v51 (W : Valuation τ sig (Elt F)) :
    StableHlo.after (stA11 (F := F)) W (Proc.devRef .tc main_v51) = W (Proc.devRef .tc main_v51) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_v77 (W : Valuation τ sig (Elt F)) :
    StableHlo.after (stA11 (F := F)) W (Proc.devRef .tc main_v77) = W (Proc.devRef .tc main_v77) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_arg0 (W : Valuation τ sig (Elt F)) :
    StableHlo.after (stA11 (F := F)) W (Proc.devRef .tc main_arg0) = W (Proc.devRef .tc main_arg0) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_arg1 (W : Valuation τ sig (Elt F)) :
    StableHlo.after (stA11 (F := F)) W (Proc.devRef .tc main_arg1) = W (Proc.devRef .tc main_arg1) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA11_at_main_arg2 (W : Valuation τ sig (Elt F)) :
    StableHlo.after (stA11 (F := F)) W (Proc.devRef .tc main_arg2) = W (Proc.devRef .tc main_arg2) := by
  simp (disch := decide) only [stA11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB11_first (W : Valuation τ sig (Elt F)) :
    StableHlo.after (stB11 (F := F)) W (Proc.devRef .tc main_v783)
      = select (W (Proc.devRef .tc main_v782)) (W (Proc.devRef .tc main_v774)) (W (Proc.devRef .tc main_c_447)) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB11_second (W : Valuation τ sig (Elt F)) :
    StableHlo.after (stB11 (F := F)) W (Proc.devRef .tc main_v785)
      = select (cmpi .sge (W (Proc.devRef .tc main_v776)) (constantI Cert.Pick.S0 32 2#32)) (W (Proc.devRef .tc main_v781))
          (constantI Cert.Pick.S0 32 0#32) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB11_at_main_v776 (W : Valuation τ sig (Elt F)) :
    StableHlo.after (stB11 (F := F)) W (Proc.devRef .tc main_v776) = W (Proc.devRef .tc main_v776) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_v763 (W : Valuation τ sig (Elt F)) :
    StableHlo.after (stB11 (F := F)) W (Proc.devRef .tc main_v763) = W (Proc.devRef .tc main_v763) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_v25 (W : Valuation τ sig (Elt F)) :
    StableHlo.after (stB11 (F := F)) W (Proc.devRef .tc main_v25) = W (Proc.devRef .tc main_v25) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_v51 (W : Valuation τ sig (Elt F)) :
    StableHlo.after (stB11 (F := F)) W (Proc.devRef .tc main_v51) = W (Proc.devRef .tc main_v51) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_v77 (W : Valuation τ sig (Elt F)) :
    StableHlo.after (stB11 (F := F)) W (Proc.devRef .tc main_v77) = W (Proc.devRef .tc main_v77) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_arg0 (W : Valuation τ sig (Elt F)) :
    StableHlo.after (stB11 (F := F)) W (Proc.devRef .tc main_arg0) = W (Proc.devRef .tc main_arg0) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_arg1 (W : Valuation τ sig (Elt F)) :
    StableHlo.after (stB11 (F := F)) W (Proc.devRef .tc main_arg1) = W (Proc.devRef .tc main_arg1) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB11_at_main_arg2 (W : Valuation τ sig (Elt F)) :
    StableHlo.after (stB11 (F := F)) W (Proc.devRef .tc main_arg2) = W (Proc.devRef .tc main_arg2) := by
  simp (disch := decide) only [stB11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC11_loss (W : Valuation τ sig (Elt F)) :
    StableHlo.after (stC11 (F := F)) W (Proc.devRef .tc main_v824)
      = subf (W (Proc.devRef .tc main_v763))
          (Cert.Val.negTerm (W (Proc.devRef .tc main_v783)) (W (Proc.devRef .tc main_v785)) (W (Proc.devRef .tc main_v783))
            (cmpi .sgt (W (Proc.devRef .tc main_v776)) (constantI Cert.Pick.S0 32 0#32))
            (W (Proc.devRef .tc main_arg0)) (W (Proc.devRef .tc main_arg1)) (W (Proc.devRef .tc main_arg2))) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC11_at_main_v25 (W : Valuation τ sig (Elt F)) :
    StableHlo.after (stC11 (F := F)) W (Proc.devRef .tc main_v25) = W (Proc.devRef .tc main_v25) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC11_at_main_v51 (W : Valuation τ sig (Elt F)) :
    StableHlo.after (stC11 (F := F)) W (Proc.devRef .tc main_v51) = W (Proc.devRef .tc main_v51) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC11_at_main_v77 (W : Valuation τ sig (Elt F)) :
    StableHlo.after (stC11 (F := F)) W (Proc.devRef .tc main_v77) = W (Proc.devRef .tc main_v77) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC11_at_main_arg0 (W : Valuation τ sig (Elt F)) :
    StableHlo.after (stC11 (F := F)) W (Proc.devRef .tc main_arg0) = W (Proc.devRef .tc main_arg0) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC11_at_main_arg1 (W : Valuation τ sig (Elt F)) :
    StableHlo.after (stC11 (F := F)) W (Proc.devRef .tc main_arg1) = W (Proc.devRef .tc main_arg1) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC11_at_main_arg2 (W : Valuation τ sig (Elt F)) :
    StableHlo.after (stC11 (F := F)) W (Proc.devRef .tc main_arg2) = W (Proc.devRef .tc main_arg2) := by
  simp (disch := decide) only [stC11, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec11_loss (X : Valuation τ sig (Elt F)) :
    StableHlo.after (G11 (F := F)) X (Proc.devRef .tc main_v824)
      = subf (X (Proc.devRef .tc main_v763))
          (Cert.Val.kTerm ⟨2#32, 5#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA11 ++ (stB11 ++ stC11)) X _ = _
  rw [after_append, after_append, stC11_loss, stB11_first, stB11_second, stB11_at_main_v776, stB11_at_main_v763,
    stB11_at_main_arg0, stB11_at_main_arg1, stB11_at_main_arg2,
    stA11_cnt, stA11_min, stA11_min2, stA11_ge1, stA11_zero, stA11_at_main_v763,
    stA11_at_main_arg0, stA11_at_main_arg1, stA11_at_main_arg2]
  simp only [Cert.Val.kTerm, Cert.Val.kWord, Cert.Val.kFirst, Cert.Val.kSecond, Cert.Val.kPos]

/-- The group leaves the code vectors and the volume arrays as they were. -/
theorem rec11_keeps (X : Valuation τ sig (Elt F)) :
    StableHlo.after (G11 (F := F)) X (Proc.devRef .tc main_v25) = X (Proc.devRef .tc main_v25)
    ∧ StableHlo.after (G11 (F := F)) X (Proc.devRef .tc main_v51) = X (Proc.devRef .tc main_v51)
    ∧ StableHlo.after (G11 (F := F)) X (Proc.devRef .tc main_v77) = X (Proc.devRef .tc main_v77)
    ∧ StableHlo.after (G11 (F := F)) X (Proc.devRef .tc main_arg0) = X (Proc.devRef .tc main_arg0)
    ∧ StableHlo.after (G11 (F := F)) X (Proc.devRef .tc main_arg1) = X (Proc.devRef .tc main_arg1)
    ∧ StableHlo.after (G11 (F := F)) X (Proc.devRef .tc main_arg2) = X (Proc.devRef .tc main_arg2) := by
  refine ⟨?_, ?_, ?_, ?_, ?_, ?_⟩ <;> show StableHlo.after (stA11 ++ (stB11 ++ stC11)) X _ = _
  · rw [after_append, after_append, stC11_at_main_v25, stB11_at_main_v25, stA11_at_main_v25]
  · rw [after_append, after_append, stC11_at_main_v51, stB11_at_main_v51, stA11_at_main_v51]
  · rw [after_append, after_append, stC11_at_main_v77, stB11_at_main_v77, stA11_at_main_v77]
  · rw [after_append, after_append, stC11_at_main_arg0, stB11_at_main_arg0, stA11_at_main_arg0]
  · rw [after_append, after_append, stC11_at_main_arg1, stB11_at_main_arg1, stA11_at_main_arg1]
  · rw [after_append, after_append, stC11_at_main_arg2, stB11_at_main_arg2, stA11_at_main_arg2]

end Cert.KernelIdeal.Tl

end
-- ==== Proof.Val.KTail12.lean ====
/- Recipe 12 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA12 : List (HloOp τ sig (Elt F)) :=
  restOf hostOps1_144 ++ (hostOps1_145 ++ (hostOps1_146 ++ (hostOps1_147 ++ (hostOps1_148))))

/-- The two guarded rows. -/
def stB12 : List (HloOp τ sig (Elt F)) :=
  hostOps1_149 ++ (hostOps1_150 ++ (hostOps1_151))

/-- The three rows read, the recipe's term, the subtraction. -/
def stC12 : List (HloOp τ sig (Elt F)) :=
  hostOps1_152 ++ (hostOps1_153 ++ (hostOps1_154 ++ (hostOps1_155 ++ (firstOf hostOps1_156))))

/-- The operations of the group. -/
abbrev G12 : List (HloOp τ sig (Elt F)) := stA12 ++ (stB12 ++ stC12)

/-! ## The first stage -/

theorem stA12_cnt (W : Valuation τ sig (Elt F)) :
    StableHlo.after (stA12 (F := F)) W (Proc.devRef .tc main_v837)
      = Cert.Val.cntw (Cert.Val.maskOf 4#32 0#32 1#32 (W (Proc.devRef .tc main_v25)) (W (Proc.devRef .tc main_v51)) (W (Proc.devRef .tc main_v77))) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA12_min (W : Valuation τ sig (Elt F)) :
    StableHlo.after (stA12 (F := F)) W (Proc.devRef .tc main_v835)
      = Cert.Val.minRow (Cert.Val.maskOf 4#32 0#32 1#32 (W (Proc.devRef .tc main_v25)) (W (Proc.devRef .tc main_v51)) (W (Proc.devRef .tc main_v77))) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA12_min2 (W : Valuation τ sig (Elt F)) :
    StableHlo.after (stA12 (F := F)) W (Proc.devRef .tc main_v842)
      = Cert.Val.minRow (Cert.Val.dropMin (Cert.Val.maskOf 4#32 0#32 1#32 (W (Proc.devRef .tc main_v25)) (W (Proc.devRef .tc main_v51)) (W (Proc.devRef .tc main_v77)))) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA12_ge1 (W : Valuation τ sig (Elt F)) :
    StableHlo.after (stA12 (F := F)) W (Proc.devRef .tc main_v843)
      = cmpi .sge (Cert.Val.cntw (Cert.Val.maskOf 4#32 0#32 1#32 (W (Proc.devRef .tc main_v25)) (W (Proc.devRef .tc main_v51)) (W (Proc.devRef .tc main_v77)))) (constantI Cert.Pick.S0 32 1#32) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA12_zero (W : Valuation τ sig (Elt F)) :
    StableHlo.after (stA12 (F := F)) W (Proc.devRef .tc main_c_484)
      = constantI Cert.Pick.S0 32 0#32 := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_v824 (W : Valuation τ sig (Elt F)) :
    StableHlo.after (stA12 (F := F)) W (Proc.devRef .tc main_v824) = W (Proc.devRef .tc main_v824) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_v25 (W : Valuation τ sig (Elt F)) :
    StableHlo.after (stA12 (F := F)) W (Proc.devRef .tc main_v25) = W (Proc.devRef .tc main_v25) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_v51 (W : Valuation τ sig (Elt F)) :
    StableHlo.after (stA12 (F := F)) W (Proc.devRef .tc main_v51) = W (Proc.devRef .tc main_v51) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_v77 (W : Valuation τ sig (Elt F)) :
    StableHlo.after (stA12 (F := F)) W (Proc.devRef .tc main_v77) = W (Proc.devRef .tc main_v77) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_arg0 (W : Valuation τ sig (Elt F)) :
    StableHlo.after (stA12 (F := F)) W (Proc.devRef .tc main_arg0) = W (Proc.devRef .tc main_arg0) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_arg1 (W : Valuation τ sig (Elt F)) :
    StableHlo.after (stA12 (F := F)) W (Proc.devRef .tc main_arg1) = W (Proc.devRef .tc main_arg1) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA12_at_main_arg2 (W : Valuation τ sig (Elt F)) :
    StableHlo.after (stA12 (F := F)) W (Proc.devRef .tc main_arg2) = W (Proc.devRef .tc main_arg2) := by
  simp (disch := decide) only [stA12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB12_first (W : Valuation τ sig (Elt F)) :
    StableHlo.after (stB12 (F := F)) W (Proc.devRef .tc main_v844)
      = select (W (Proc.devRef .tc main_v843)) (W (Proc.devRef .tc main_v835)) (W (Proc.devRef .tc main_c_484)) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB12_second (W : Valuation τ sig (Elt F)) :
    StableHlo.after (stB12 (F := F)) W (Proc.devRef .tc main_v846)
      = select (cmpi .sge (W (Proc.devRef .tc main_v837)) (constantI Cert.Pick.S0 32 2#32)) (W (Proc.devRef .tc main_v842))
          (constantI Cert.Pick.S0 32 0#32) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB12_at_main_v837 (W : Valuation τ sig (Elt F)) :
    StableHlo.after (stB12 (F := F)) W (Proc.devRef .tc main_v837) = W (Proc.devRef .tc main_v837) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_v824 (W : Valuation τ sig (Elt F)) :
    StableHlo.after (stB12 (F := F)) W (Proc.devRef .tc main_v824) = W (Proc.devRef .tc main_v824) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_v25 (W : Valuation τ sig (Elt F)) :
    StableHlo.after (stB12 (F := F)) W (Proc.devRef .tc main_v25) = W (Proc.devRef .tc main_v25) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_v51 (W : Valuation τ sig (Elt F)) :
    StableHlo.after (stB12 (F := F)) W (Proc.devRef .tc main_v51) = W (Proc.devRef .tc main_v51) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_v77 (W : Valuation τ sig (Elt F)) :
    StableHlo.after (stB12 (F := F)) W (Proc.devRef .tc main_v77) = W (Proc.devRef .tc main_v77) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_arg0 (W : Valuation τ sig (Elt F)) :
    StableHlo.after (stB12 (F := F)) W (Proc.devRef .tc main_arg0) = W (Proc.devRef .tc main_arg0) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_arg1 (W : Valuation τ sig (Elt F)) :
    StableHlo.after (stB12 (F := F)) W (Proc.devRef .tc main_arg1) = W (Proc.devRef .tc main_arg1) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB12_at_main_arg2 (W : Valuation τ sig (Elt F)) :
    StableHlo.after (stB12 (F := F)) W (Proc.devRef .tc main_arg2) = W (Proc.devRef .tc main_arg2) := by
  simp (disch := decide) only [stB12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC12_loss (W : Valuation τ sig (Elt F)) :
    StableHlo.after (stC12 (F := F)) W (Proc.devRef .tc main_v885)
      = subf (W (Proc.devRef .tc main_v824))
          (Cert.Val.negTerm (W (Proc.devRef .tc main_v846)) (W (Proc.devRef .tc main_v844)) (W (Proc.devRef .tc main_v844))
            (cmpi .sgt (W (Proc.devRef .tc main_v837)) (constantI Cert.Pick.S0 32 0#32))
            (W (Proc.devRef .tc main_arg0)) (W (Proc.devRef .tc main_arg1)) (W (Proc.devRef .tc main_arg2))) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC12_at_main_v25 (W : Valuation τ sig (Elt F)) :
    StableHlo.after (stC12 (F := F)) W (Proc.devRef .tc main_v25) = W (Proc.devRef .tc main_v25) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC12_at_main_v51 (W : Valuation τ sig (Elt F)) :
    StableHlo.after (stC12 (F := F)) W (Proc.devRef .tc main_v51) = W (Proc.devRef .tc main_v51) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC12_at_main_v77 (W : Valuation τ sig (Elt F)) :
    StableHlo.after (stC12 (F := F)) W (Proc.devRef .tc main_v77) = W (Proc.devRef .tc main_v77) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC12_at_main_arg0 (W : Valuation τ sig (Elt F)) :
    StableHlo.after (stC12 (F := F)) W (Proc.devRef .tc main_arg0) = W (Proc.devRef .tc main_arg0) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC12_at_main_arg1 (W : Valuation τ sig (Elt F)) :
    StableHlo.after (stC12 (F := F)) W (Proc.devRef .tc main_arg1) = W (Proc.devRef .tc main_arg1) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC12_at_main_arg2 (W : Valuation τ sig (Elt F)) :
    StableHlo.after (stC12 (F := F)) W (Proc.devRef .tc main_arg2) = W (Proc.devRef .tc main_arg2) := by
  simp (disch := decide) only [stC12, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec12_loss (X : Valuation τ sig (Elt F)) :
    StableHlo.after (G12 (F := F)) X (Proc.devRef .tc main_v885)
      = subf (X (Proc.devRef .tc main_v824))
          (Cert.Val.kTerm ⟨4#32, 0#32, 1#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA12 ++ (stB12 ++ stC12)) X _ = _
  rw [after_append, after_append, stC12_loss, stB12_first, stB12_second, stB12_at_main_v837, stB12_at_main_v824,
    stB12_at_main_arg0, stB12_at_main_arg1, stB12_at_main_arg2,
    stA12_cnt, stA12_min, stA12_min2, stA12_ge1, stA12_zero, stA12_at_main_v824,
    stA12_at_main_arg0, stA12_at_main_arg1, stA12_at_main_arg2]
  simp only [Cert.Val.kTerm, Cert.Val.kWord, Cert.Val.kFirst, Cert.Val.kSecond, Cert.Val.kPos]

/-- The group leaves the code vectors and the volume arrays as they were. -/
theorem rec12_keeps (X : Valuation τ sig (Elt F)) :
    StableHlo.after (G12 (F := F)) X (Proc.devRef .tc main_v25) = X (Proc.devRef .tc main_v25)
    ∧ StableHlo.after (G12 (F := F)) X (Proc.devRef .tc main_v51) = X (Proc.devRef .tc main_v51)
    ∧ StableHlo.after (G12 (F := F)) X (Proc.devRef .tc main_v77) = X (Proc.devRef .tc main_v77)
    ∧ StableHlo.after (G12 (F := F)) X (Proc.devRef .tc main_arg0) = X (Proc.devRef .tc main_arg0)
    ∧ StableHlo.after (G12 (F := F)) X (Proc.devRef .tc main_arg1) = X (Proc.devRef .tc main_arg1)
    ∧ StableHlo.after (G12 (F := F)) X (Proc.devRef .tc main_arg2) = X (Proc.devRef .tc main_arg2) := by
  refine ⟨?_, ?_, ?_, ?_, ?_, ?_⟩ <;> show StableHlo.after (stA12 ++ (stB12 ++ stC12)) X _ = _
  · rw [after_append, after_append, stC12_at_main_v25, stB12_at_main_v25, stA12_at_main_v25]
  · rw [after_append, after_append, stC12_at_main_v51, stB12_at_main_v51, stA12_at_main_v51]
  · rw [after_append, after_append, stC12_at_main_v77, stB12_at_main_v77, stA12_at_main_v77]
  · rw [after_append, after_append, stC12_at_main_arg0, stB12_at_main_arg0, stA12_at_main_arg0]
  · rw [after_append, after_append, stC12_at_main_arg1, stB12_at_main_arg1, stA12_at_main_arg1]
  · rw [after_append, after_append, stC12_at_main_arg2, stB12_at_main_arg2, stA12_at_main_arg2]

end Cert.KernelIdeal.Tl

end
-- ==== Proof.Val.KTail13.lean ====
/- Recipe 13 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA13 : List (HloOp τ sig (Elt F)) :=
  restOf hostOps1_156 ++ (hostOps1_157 ++ (hostOps1_158 ++ (hostOps1_159 ++ (hostOps1_160))))

/-- The two guarded rows. -/
def stB13 : List (HloOp τ sig (Elt F)) :=
  hostOps1_161 ++ (hostOps1_162 ++ (hostOps1_163))

/-- The three rows read, the recipe's term, the subtraction. -/
def stC13 : List (HloOp τ sig (Elt F)) :=
  hostOps1_164 ++ (hostOps1_165 ++ (hostOps1_166 ++ (hostOps1_167 ++ (firstOf hostOps1_168))))

/-- The operations of the group. -/
abbrev G13 : List (HloOp τ sig (Elt F)) := stA13 ++ (stB13 ++ stC13)

/-! ## The first stage -/

theorem stA13_cnt (W : Valuation τ sig (Elt F)) :
    StableHlo.after (stA13 (F := F)) W (Proc.devRef .tc main_v898)
      = Cert.Val.cntw (Cert.Val.maskOf 4#32 0#32 2#32 (W (Proc.devRef .tc main_v25)) (W (Proc.devRef .tc main_v51)) (W (Proc.devRef .tc main_v77))) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA13_min (W : Valuation τ sig (Elt F)) :
    StableHlo.after (stA13 (F := F)) W (Proc.devRef .tc main_v896)
      = Cert.Val.minRow (Cert.Val.maskOf 4#32 0#32 2#32 (W (Proc.devRef .tc main_v25)) (W (Proc.devRef .tc main_v51)) (W (Proc.devRef .tc main_v77))) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA13_min2 (W : Valuation τ sig (Elt F)) :
    StableHlo.after (stA13 (F := F)) W (Proc.devRef .tc main_v903)
      = Cert.Val.minRow (Cert.Val.dropMin (Cert.Val.maskOf 4#32 0#32 2#32 (W (Proc.devRef .tc main_v25)) (W (Proc.devRef .tc main_v51)) (W (Proc.devRef .tc main_v77)))) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA13_ge1 (W : Valuation τ sig (Elt F)) :
    StableHlo.after (stA13 (F := F)) W (Proc.devRef .tc main_v904)
      = cmpi .sge (Cert.Val.cntw (Cert.Val.maskOf 4#32 0#32 2#32 (W (Proc.devRef .tc main_v25)) (W (Proc.devRef .tc main_v51)) (W (Proc.devRef .tc main_v77)))) (constantI Cert.Pick.S0 32 1#32) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA13_zero (W : Valuation τ sig (Elt F)) :
    StableHlo.after (stA13 (F := F)) W (Proc.devRef .tc main_c_521)
      = constantI Cert.Pick.S0 32 0#32 := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_v885 (W : Valuation τ sig (Elt F)) :
    StableHlo.after (stA13 (F := F)) W (Proc.devRef .tc main_v885) = W (Proc.devRef .tc main_v885) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_v25 (W : Valuation τ sig (Elt F)) :
    StableHlo.after (stA13 (F := F)) W (Proc.devRef .tc main_v25) = W (Proc.devRef .tc main_v25) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_v51 (W : Valuation τ sig (Elt F)) :
    StableHlo.after (stA13 (F := F)) W (Proc.devRef .tc main_v51) = W (Proc.devRef .tc main_v51) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_v77 (W : Valuation τ sig (Elt F)) :
    StableHlo.after (stA13 (F := F)) W (Proc.devRef .tc main_v77) = W (Proc.devRef .tc main_v77) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_arg0 (W : Valuation τ sig (Elt F)) :
    StableHlo.after (stA13 (F := F)) W (Proc.devRef .tc main_arg0) = W (Proc.devRef .tc main_arg0) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_arg1 (W : Valuation τ sig (Elt F)) :
    StableHlo.after (stA13 (F := F)) W (Proc.devRef .tc main_arg1) = W (Proc.devRef .tc main_arg1) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA13_at_main_arg2 (W : Valuation τ sig (Elt F)) :
    StableHlo.after (stA13 (F := F)) W (Proc.devRef .tc main_arg2) = W (Proc.devRef .tc main_arg2) := by
  simp (disch := decide) only [stA13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB13_first (W : Valuation τ sig (Elt F)) :
    StableHlo.after (stB13 (F := F)) W (Proc.devRef .tc main_v905)
      = select (W (Proc.devRef .tc main_v904)) (W (Proc.devRef .tc main_v896)) (W (Proc.devRef .tc main_c_521)) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB13_second (W : Valuation τ sig (Elt F)) :
    StableHlo.after (stB13 (F := F)) W (Proc.devRef .tc main_v907)
      = select (cmpi .sge (W (Proc.devRef .tc main_v898)) (constantI Cert.Pick.S0 32 2#32)) (W (Proc.devRef .tc main_v903))
          (constantI Cert.Pick.S0 32 0#32) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB13_at_main_v898 (W : Valuation τ sig (Elt F)) :
    StableHlo.after (stB13 (F := F)) W (Proc.devRef .tc main_v898) = W (Proc.devRef .tc main_v898) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_v885 (W : Valuation τ sig (Elt F)) :
    StableHlo.after (stB13 (F := F)) W (Proc.devRef .tc main_v885) = W (Proc.devRef .tc main_v885) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_v25 (W : Valuation τ sig (Elt F)) :
    StableHlo.after (stB13 (F := F)) W (Proc.devRef .tc main_v25) = W (Proc.devRef .tc main_v25) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_v51 (W : Valuation τ sig (Elt F)) :
    StableHlo.after (stB13 (F := F)) W (Proc.devRef .tc main_v51) = W (Proc.devRef .tc main_v51) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_v77 (W : Valuation τ sig (Elt F)) :
    StableHlo.after (stB13 (F := F)) W (Proc.devRef .tc main_v77) = W (Proc.devRef .tc main_v77) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_arg0 (W : Valuation τ sig (Elt F)) :
    StableHlo.after (stB13 (F := F)) W (Proc.devRef .tc main_arg0) = W (Proc.devRef .tc main_arg0) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_arg1 (W : Valuation τ sig (Elt F)) :
    StableHlo.after (stB13 (F := F)) W (Proc.devRef .tc main_arg1) = W (Proc.devRef .tc main_arg1) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB13_at_main_arg2 (W : Valuation τ sig (Elt F)) :
    StableHlo.after (stB13 (F := F)) W (Proc.devRef .tc main_arg2) = W (Proc.devRef .tc main_arg2) := by
  simp (disch := decide) only [stB13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC13_loss (W : Valuation τ sig (Elt F)) :
    StableHlo.after (stC13 (F := F)) W (Proc.devRef .tc main_v946)
      = subf (W (Proc.devRef .tc main_v885))
          (Cert.Val.negTerm (W (Proc.devRef .tc main_v907)) (W (Proc.devRef .tc main_v905)) (W (Proc.devRef .tc main_v905))
            (cmpi .sgt (W (Proc.devRef .tc main_v898)) (constantI Cert.Pick.S0 32 0#32))
            (W (Proc.devRef .tc main_arg0)) (W (Proc.devRef .tc main_arg1)) (W (Proc.devRef .tc main_arg2))) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC13_at_main_v25 (W : Valuation τ sig (Elt F)) :
    StableHlo.after (stC13 (F := F)) W (Proc.devRef .tc main_v25) = W (Proc.devRef .tc main_v25) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC13_at_main_v51 (W : Valuation τ sig (Elt F)) :
    StableHlo.after (stC13 (F := F)) W (Proc.devRef .tc main_v51) = W (Proc.devRef .tc main_v51) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC13_at_main_v77 (W : Valuation τ sig (Elt F)) :
    StableHlo.after (stC13 (F := F)) W (Proc.devRef .tc main_v77) = W (Proc.devRef .tc main_v77) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC13_at_main_arg0 (W : Valuation τ sig (Elt F)) :
    StableHlo.after (stC13 (F := F)) W (Proc.devRef .tc main_arg0) = W (Proc.devRef .tc main_arg0) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC13_at_main_arg1 (W : Valuation τ sig (Elt F)) :
    StableHlo.after (stC13 (F := F)) W (Proc.devRef .tc main_arg1) = W (Proc.devRef .tc main_arg1) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC13_at_main_arg2 (W : Valuation τ sig (Elt F)) :
    StableHlo.after (stC13 (F := F)) W (Proc.devRef .tc main_arg2) = W (Proc.devRef .tc main_arg2) := by
  simp (disch := decide) only [stC13, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec13_loss (X : Valuation τ sig (Elt F)) :
    StableHlo.after (G13 (F := F)) X (Proc.devRef .tc main_v946)
      = subf (X (Proc.devRef .tc main_v885))
          (Cert.Val.kTerm ⟨4#32, 0#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA13 ++ (stB13 ++ stC13)) X _ = _
  rw [after_append, after_append, stC13_loss, stB13_first, stB13_second, stB13_at_main_v898, stB13_at_main_v885,
    stB13_at_main_arg0, stB13_at_main_arg1, stB13_at_main_arg2,
    stA13_cnt, stA13_min, stA13_min2, stA13_ge1, stA13_zero, stA13_at_main_v885,
    stA13_at_main_arg0, stA13_at_main_arg1, stA13_at_main_arg2]
  simp only [Cert.Val.kTerm, Cert.Val.kWord, Cert.Val.kFirst, Cert.Val.kSecond, Cert.Val.kPos]

/-- The group leaves the code vectors and the volume arrays as they were. -/
theorem rec13_keeps (X : Valuation τ sig (Elt F)) :
    StableHlo.after (G13 (F := F)) X (Proc.devRef .tc main_v25) = X (Proc.devRef .tc main_v25)
    ∧ StableHlo.after (G13 (F := F)) X (Proc.devRef .tc main_v51) = X (Proc.devRef .tc main_v51)
    ∧ StableHlo.after (G13 (F := F)) X (Proc.devRef .tc main_v77) = X (Proc.devRef .tc main_v77)
    ∧ StableHlo.after (G13 (F := F)) X (Proc.devRef .tc main_arg0) = X (Proc.devRef .tc main_arg0)
    ∧ StableHlo.after (G13 (F := F)) X (Proc.devRef .tc main_arg1) = X (Proc.devRef .tc main_arg1)
    ∧ StableHlo.after (G13 (F := F)) X (Proc.devRef .tc main_arg2) = X (Proc.devRef .tc main_arg2) := by
  refine ⟨?_, ?_, ?_, ?_, ?_, ?_⟩ <;> show StableHlo.after (stA13 ++ (stB13 ++ stC13)) X _ = _
  · rw [after_append, after_append, stC13_at_main_v25, stB13_at_main_v25, stA13_at_main_v25]
  · rw [after_append, after_append, stC13_at_main_v51, stB13_at_main_v51, stA13_at_main_v51]
  · rw [after_append, after_append, stC13_at_main_v77, stB13_at_main_v77, stA13_at_main_v77]
  · rw [after_append, after_append, stC13_at_main_arg0, stB13_at_main_arg0, stA13_at_main_arg0]
  · rw [after_append, after_append, stC13_at_main_arg1, stB13_at_main_arg1, stA13_at_main_arg1]
  · rw [after_append, after_append, stC13_at_main_arg2, stB13_at_main_arg2, stA13_at_main_arg2]

end Cert.KernelIdeal.Tl

end
-- ==== Proof.Val.KTail14.lean ====
/- Recipe 14 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA14 : List (HloOp τ sig (Elt F)) :=
  restOf hostOps1_168 ++ (hostOps1_169 ++ (hostOps1_170 ++ (hostOps1_171 ++ (hostOps1_172))))

/-- The two guarded rows. -/
def stB14 : List (HloOp τ sig (Elt F)) :=
  hostOps1_173 ++ (hostOps1_174 ++ (hostOps1_175))

/-- The three rows read, the recipe's term, the subtraction. -/
def stC14 : List (HloOp τ sig (Elt F)) :=
  hostOps1_176 ++ (hostOps1_177 ++ (hostOps1_178 ++ (hostOps1_179 ++ (firstOf hostOps1_180))))

/-- The operations of the group. -/
abbrev G14 : List (HloOp τ sig (Elt F)) := stA14 ++ (stB14 ++ stC14)

/-! ## The first stage -/

theorem stA14_cnt (W : Valuation τ sig (Elt F)) :
    StableHlo.after (stA14 (F := F)) W (Proc.devRef .tc main_v959)
      = Cert.Val.cntw (Cert.Val.maskOf 4#32 2#32 1#32 (W (Proc.devRef .tc main_v25)) (W (Proc.devRef .tc main_v51)) (W (Proc.devRef .tc main_v77))) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA14_min (W : Valuation τ sig (Elt F)) :
    StableHlo.after (stA14 (F := F)) W (Proc.devRef .tc main_v957)
      = Cert.Val.minRow (Cert.Val.maskOf 4#32 2#32 1#32 (W (Proc.devRef .tc main_v25)) (W (Proc.devRef .tc main_v51)) (W (Proc.devRef .tc main_v77))) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA14_min2 (W : Valuation τ sig (Elt F)) :
    StableHlo.after (stA14 (F := F)) W (Proc.devRef .tc main_v964)
      = Cert.Val.minRow (Cert.Val.dropMin (Cert.Val.maskOf 4#32 2#32 1#32 (W (Proc.devRef .tc main_v25)) (W (Proc.devRef .tc main_v51)) (W (Proc.devRef .tc main_v77)))) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA14_ge1 (W : Valuation τ sig (Elt F)) :
    StableHlo.after (stA14 (F := F)) W (Proc.devRef .tc main_v965)
      = cmpi .sge (Cert.Val.cntw (Cert.Val.maskOf 4#32 2#32 1#32 (W (Proc.devRef .tc main_v25)) (W (Proc.devRef .tc main_v51)) (W (Proc.devRef .tc main_v77)))) (constantI Cert.Pick.S0 32 1#32) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA14_zero (W : Valuation τ sig (Elt F)) :
    StableHlo.after (stA14 (F := F)) W (Proc.devRef .tc main_c_558)
      = constantI Cert.Pick.S0 32 0#32 := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_v946 (W : Valuation τ sig (Elt F)) :
    StableHlo.after (stA14 (F := F)) W (Proc.devRef .tc main_v946) = W (Proc.devRef .tc main_v946) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_v25 (W : Valuation τ sig (Elt F)) :
    StableHlo.after (stA14 (F := F)) W (Proc.devRef .tc main_v25) = W (Proc.devRef .tc main_v25) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_v51 (W : Valuation τ sig (Elt F)) :
    StableHlo.after (stA14 (F := F)) W (Proc.devRef .tc main_v51) = W (Proc.devRef .tc main_v51) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_v77 (W : Valuation τ sig (Elt F)) :
    StableHlo.after (stA14 (F := F)) W (Proc.devRef .tc main_v77) = W (Proc.devRef .tc main_v77) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_arg0 (W : Valuation τ sig (Elt F)) :
    StableHlo.after (stA14 (F := F)) W (Proc.devRef .tc main_arg0) = W (Proc.devRef .tc main_arg0) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_arg1 (W : Valuation τ sig (Elt F)) :
    StableHlo.after (stA14 (F := F)) W (Proc.devRef .tc main_arg1) = W (Proc.devRef .tc main_arg1) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA14_at_main_arg2 (W : Valuation τ sig (Elt F)) :
    StableHlo.after (stA14 (F := F)) W (Proc.devRef .tc main_arg2) = W (Proc.devRef .tc main_arg2) := by
  simp (disch := decide) only [stA14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB14_first (W : Valuation τ sig (Elt F)) :
    StableHlo.after (stB14 (F := F)) W (Proc.devRef .tc main_v966)
      = select (W (Proc.devRef .tc main_v965)) (W (Proc.devRef .tc main_v957)) (W (Proc.devRef .tc main_c_558)) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB14_second (W : Valuation τ sig (Elt F)) :
    StableHlo.after (stB14 (F := F)) W (Proc.devRef .tc main_v968)
      = select (cmpi .sge (W (Proc.devRef .tc main_v959)) (constantI Cert.Pick.S0 32 2#32)) (W (Proc.devRef .tc main_v964))
          (constantI Cert.Pick.S0 32 0#32) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB14_at_main_v959 (W : Valuation τ sig (Elt F)) :
    StableHlo.after (stB14 (F := F)) W (Proc.devRef .tc main_v959) = W (Proc.devRef .tc main_v959) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_v946 (W : Valuation τ sig (Elt F)) :
    StableHlo.after (stB14 (F := F)) W (Proc.devRef .tc main_v946) = W (Proc.devRef .tc main_v946) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_v25 (W : Valuation τ sig (Elt F)) :
    StableHlo.after (stB14 (F := F)) W (Proc.devRef .tc main_v25) = W (Proc.devRef .tc main_v25) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_v51 (W : Valuation τ sig (Elt F)) :
    StableHlo.after (stB14 (F := F)) W (Proc.devRef .tc main_v51) = W (Proc.devRef .tc main_v51) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_v77 (W : Valuation τ sig (Elt F)) :
    StableHlo.after (stB14 (F := F)) W (Proc.devRef .tc main_v77) = W (Proc.devRef .tc main_v77) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_arg0 (W : Valuation τ sig (Elt F)) :
    StableHlo.after (stB14 (F := F)) W (Proc.devRef .tc main_arg0) = W (Proc.devRef .tc main_arg0) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_arg1 (W : Valuation τ sig (Elt F)) :
    StableHlo.after (stB14 (F := F)) W (Proc.devRef .tc main_arg1) = W (Proc.devRef .tc main_arg1) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB14_at_main_arg2 (W : Valuation τ sig (Elt F)) :
    StableHlo.after (stB14 (F := F)) W (Proc.devRef .tc main_arg2) = W (Proc.devRef .tc main_arg2) := by
  simp (disch := decide) only [stB14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC14_loss (W : Valuation τ sig (Elt F)) :
    StableHlo.after (stC14 (F := F)) W (Proc.devRef .tc main_v1007)
      = subf (W (Proc.devRef .tc main_v946))
          (Cert.Val.negTerm (W (Proc.devRef .tc main_v968)) (W (Proc.devRef .tc main_v966)) (W (Proc.devRef .tc main_v966))
            (cmpi .sgt (W (Proc.devRef .tc main_v959)) (constantI Cert.Pick.S0 32 0#32))
            (W (Proc.devRef .tc main_arg0)) (W (Proc.devRef .tc main_arg1)) (W (Proc.devRef .tc main_arg2))) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC14_at_main_v25 (W : Valuation τ sig (Elt F)) :
    StableHlo.after (stC14 (F := F)) W (Proc.devRef .tc main_v25) = W (Proc.devRef .tc main_v25) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC14_at_main_v51 (W : Valuation τ sig (Elt F)) :
    StableHlo.after (stC14 (F := F)) W (Proc.devRef .tc main_v51) = W (Proc.devRef .tc main_v51) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC14_at_main_v77 (W : Valuation τ sig (Elt F)) :
    StableHlo.after (stC14 (F := F)) W (Proc.devRef .tc main_v77) = W (Proc.devRef .tc main_v77) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC14_at_main_arg0 (W : Valuation τ sig (Elt F)) :
    StableHlo.after (stC14 (F := F)) W (Proc.devRef .tc main_arg0) = W (Proc.devRef .tc main_arg0) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC14_at_main_arg1 (W : Valuation τ sig (Elt F)) :
    StableHlo.after (stC14 (F := F)) W (Proc.devRef .tc main_arg1) = W (Proc.devRef .tc main_arg1) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC14_at_main_arg2 (W : Valuation τ sig (Elt F)) :
    StableHlo.after (stC14 (F := F)) W (Proc.devRef .tc main_arg2) = W (Proc.devRef .tc main_arg2) := by
  simp (disch := decide) only [stC14, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec14_loss (X : Valuation τ sig (Elt F)) :
    StableHlo.after (G14 (F := F)) X (Proc.devRef .tc main_v1007)
      = subf (X (Proc.devRef .tc main_v946))
          (Cert.Val.kTerm ⟨4#32, 2#32, 1#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA14 ++ (stB14 ++ stC14)) X _ = _
  rw [after_append, after_append, stC14_loss, stB14_first, stB14_second, stB14_at_main_v959, stB14_at_main_v946,
    stB14_at_main_arg0, stB14_at_main_arg1, stB14_at_main_arg2,
    stA14_cnt, stA14_min, stA14_min2, stA14_ge1, stA14_zero, stA14_at_main_v946,
    stA14_at_main_arg0, stA14_at_main_arg1, stA14_at_main_arg2]
  simp only [Cert.Val.kTerm, Cert.Val.kWord, Cert.Val.kFirst, Cert.Val.kSecond, Cert.Val.kPos]

/-- The group leaves the code vectors and the volume arrays as they were. -/
theorem rec14_keeps (X : Valuation τ sig (Elt F)) :
    StableHlo.after (G14 (F := F)) X (Proc.devRef .tc main_v25) = X (Proc.devRef .tc main_v25)
    ∧ StableHlo.after (G14 (F := F)) X (Proc.devRef .tc main_v51) = X (Proc.devRef .tc main_v51)
    ∧ StableHlo.after (G14 (F := F)) X (Proc.devRef .tc main_v77) = X (Proc.devRef .tc main_v77)
    ∧ StableHlo.after (G14 (F := F)) X (Proc.devRef .tc main_arg0) = X (Proc.devRef .tc main_arg0)
    ∧ StableHlo.after (G14 (F := F)) X (Proc.devRef .tc main_arg1) = X (Proc.devRef .tc main_arg1)
    ∧ StableHlo.after (G14 (F := F)) X (Proc.devRef .tc main_arg2) = X (Proc.devRef .tc main_arg2) := by
  refine ⟨?_, ?_, ?_, ?_, ?_, ?_⟩ <;> show StableHlo.after (stA14 ++ (stB14 ++ stC14)) X _ = _
  · rw [after_append, after_append, stC14_at_main_v25, stB14_at_main_v25, stA14_at_main_v25]
  · rw [after_append, after_append, stC14_at_main_v51, stB14_at_main_v51, stA14_at_main_v51]
  · rw [after_append, after_append, stC14_at_main_v77, stB14_at_main_v77, stA14_at_main_v77]
  · rw [after_append, after_append, stC14_at_main_arg0, stB14_at_main_arg0, stA14_at_main_arg0]
  · rw [after_append, after_append, stC14_at_main_arg1, stB14_at_main_arg1, stA14_at_main_arg1]
  · rw [after_append, after_append, stC14_at_main_arg2, stB14_at_main_arg2, stA14_at_main_arg2]

end Cert.KernelIdeal.Tl

end
-- ==== Proof.Val.KTail15.lean ====
/- Recipe 15 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA15 : List (HloOp τ sig (Elt F)) :=
  restOf hostOps1_180 ++ (hostOps1_181 ++ (hostOps1_182 ++ (hostOps1_183 ++ (hostOps1_184))))

/-- The two guarded rows. -/
def stB15 : List (HloOp τ sig (Elt F)) :=
  hostOps1_185 ++ (hostOps1_186 ++ (hostOps1_187))

/-- The three rows read, the recipe's term, the subtraction. -/
def stC15 : List (HloOp τ sig (Elt F)) :=
  hostOps1_188 ++ (hostOps1_189 ++ (hostOps1_190 ++ (hostOps1_191 ++ (firstOf hostOps1_192))))

/-- The operations of the group. -/
abbrev G15 : List (HloOp τ sig (Elt F)) := stA15 ++ (stB15 ++ stC15)

/-! ## The first stage -/

theorem stA15_cnt (W : Valuation τ sig (Elt F)) :
    StableHlo.after (stA15 (F := F)) W (Proc.devRef .tc main_v1020)
      = Cert.Val.cntw (Cert.Val.maskOf 4#32 2#32 2#32 (W (Proc.devRef .tc main_v25)) (W (Proc.devRef .tc main_v51)) (W (Proc.devRef .tc main_v77))) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA15_min (W : Valuation τ sig (Elt F)) :
    StableHlo.after (stA15 (F := F)) W (Proc.devRef .tc main_v1018)
      = Cert.Val.minRow (Cert.Val.maskOf 4#32 2#32 2#32 (W (Proc.devRef .tc main_v25)) (W (Proc.devRef .tc main_v51)) (W (Proc.devRef .tc main_v77))) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA15_min2 (W : Valuation τ sig (Elt F)) :
    StableHlo.after (stA15 (F := F)) W (Proc.devRef .tc main_v1025)
      = Cert.Val.minRow (Cert.Val.dropMin (Cert.Val.maskOf 4#32 2#32 2#32 (W (Proc.devRef .tc main_v25)) (W (Proc.devRef .tc main_v51)) (W (Proc.devRef .tc main_v77)))) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA15_ge1 (W : Valuation τ sig (Elt F)) :
    StableHlo.after (stA15 (F := F)) W (Proc.devRef .tc main_v1026)
      = cmpi .sge (Cert.Val.cntw (Cert.Val.maskOf 4#32 2#32 2#32 (W (Proc.devRef .tc main_v25)) (W (Proc.devRef .tc main_v51)) (W (Proc.devRef .tc main_v77)))) (constantI Cert.Pick.S0 32 1#32) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA15_zero (W : Valuation τ sig (Elt F)) :
    StableHlo.after (stA15 (F := F)) W (Proc.devRef .tc main_c_595)
      = constantI Cert.Pick.S0 32 0#32 := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_v1007 (W : Valuation τ sig (Elt F)) :
    StableHlo.after (stA15 (F := F)) W (Proc.devRef .tc main_v1007) = W (Proc.devRef .tc main_v1007) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_v25 (W : Valuation τ sig (Elt F)) :
    StableHlo.after (stA15 (F := F)) W (Proc.devRef .tc main_v25) = W (Proc.devRef .tc main_v25) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_v51 (W : Valuation τ sig (Elt F)) :
    StableHlo.after (stA15 (F := F)) W (Proc.devRef .tc main_v51) = W (Proc.devRef .tc main_v51) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_v77 (W : Valuation τ sig (Elt F)) :
    StableHlo.after (stA15 (F := F)) W (Proc.devRef .tc main_v77) = W (Proc.devRef .tc main_v77) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_arg0 (W : Valuation τ sig (Elt F)) :
    StableHlo.after (stA15 (F := F)) W (Proc.devRef .tc main_arg0) = W (Proc.devRef .tc main_arg0) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_arg1 (W : Valuation τ sig (Elt F)) :
    StableHlo.after (stA15 (F := F)) W (Proc.devRef .tc main_arg1) = W (Proc.devRef .tc main_arg1) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA15_at_main_arg2 (W : Valuation τ sig (Elt F)) :
    StableHlo.after (stA15 (F := F)) W (Proc.devRef .tc main_arg2) = W (Proc.devRef .tc main_arg2) := by
  simp (disch := decide) only [stA15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB15_first (W : Valuation τ sig (Elt F)) :
    StableHlo.after (stB15 (F := F)) W (Proc.devRef .tc main_v1027)
      = select (W (Proc.devRef .tc main_v1026)) (W (Proc.devRef .tc main_v1018)) (W (Proc.devRef .tc main_c_595)) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB15_second (W : Valuation τ sig (Elt F)) :
    StableHlo.after (stB15 (F := F)) W (Proc.devRef .tc main_v1029)
      = select (cmpi .sge (W (Proc.devRef .tc main_v1020)) (constantI Cert.Pick.S0 32 2#32)) (W (Proc.devRef .tc main_v1025))
          (constantI Cert.Pick.S0 32 0#32) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB15_at_main_v1020 (W : Valuation τ sig (Elt F)) :
    StableHlo.after (stB15 (F := F)) W (Proc.devRef .tc main_v1020) = W (Proc.devRef .tc main_v1020) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_v1007 (W : Valuation τ sig (Elt F)) :
    StableHlo.after (stB15 (F := F)) W (Proc.devRef .tc main_v1007) = W (Proc.devRef .tc main_v1007) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_v25 (W : Valuation τ sig (Elt F)) :
    StableHlo.after (stB15 (F := F)) W (Proc.devRef .tc main_v25) = W (Proc.devRef .tc main_v25) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_v51 (W : Valuation τ sig (Elt F)) :
    StableHlo.after (stB15 (F := F)) W (Proc.devRef .tc main_v51) = W (Proc.devRef .tc main_v51) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_v77 (W : Valuation τ sig (Elt F)) :
    StableHlo.after (stB15 (F := F)) W (Proc.devRef .tc main_v77) = W (Proc.devRef .tc main_v77) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_arg0 (W : Valuation τ sig (Elt F)) :
    StableHlo.after (stB15 (F := F)) W (Proc.devRef .tc main_arg0) = W (Proc.devRef .tc main_arg0) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_arg1 (W : Valuation τ sig (Elt F)) :
    StableHlo.after (stB15 (F := F)) W (Proc.devRef .tc main_arg1) = W (Proc.devRef .tc main_arg1) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB15_at_main_arg2 (W : Valuation τ sig (Elt F)) :
    StableHlo.after (stB15 (F := F)) W (Proc.devRef .tc main_arg2) = W (Proc.devRef .tc main_arg2) := by
  simp (disch := decide) only [stB15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC15_loss (W : Valuation τ sig (Elt F)) :
    StableHlo.after (stC15 (F := F)) W (Proc.devRef .tc main_v1068)
      = subf (W (Proc.devRef .tc main_v1007))
          (Cert.Val.negTerm (W (Proc.devRef .tc main_v1029)) (W (Proc.devRef .tc main_v1027)) (W (Proc.devRef .tc main_v1027))
            (cmpi .sgt (W (Proc.devRef .tc main_v1020)) (constantI Cert.Pick.S0 32 0#32))
            (W (Proc.devRef .tc main_arg0)) (W (Proc.devRef .tc main_arg1)) (W (Proc.devRef .tc main_arg2))) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC15_at_main_v25 (W : Valuation τ sig (Elt F)) :
    StableHlo.after (stC15 (F := F)) W (Proc.devRef .tc main_v25) = W (Proc.devRef .tc main_v25) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC15_at_main_v51 (W : Valuation τ sig (Elt F)) :
    StableHlo.after (stC15 (F := F)) W (Proc.devRef .tc main_v51) = W (Proc.devRef .tc main_v51) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC15_at_main_v77 (W : Valuation τ sig (Elt F)) :
    StableHlo.after (stC15 (F := F)) W (Proc.devRef .tc main_v77) = W (Proc.devRef .tc main_v77) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC15_at_main_arg0 (W : Valuation τ sig (Elt F)) :
    StableHlo.after (stC15 (F := F)) W (Proc.devRef .tc main_arg0) = W (Proc.devRef .tc main_arg0) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC15_at_main_arg1 (W : Valuation τ sig (Elt F)) :
    StableHlo.after (stC15 (F := F)) W (Proc.devRef .tc main_arg1) = W (Proc.devRef .tc main_arg1) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC15_at_main_arg2 (W : Valuation τ sig (Elt F)) :
    StableHlo.after (stC15 (F := F)) W (Proc.devRef .tc main_arg2) = W (Proc.devRef .tc main_arg2) := by
  simp (disch := decide) only [stC15, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec15_loss (X : Valuation τ sig (Elt F)) :
    StableHlo.after (G15 (F := F)) X (Proc.devRef .tc main_v1068)
      = subf (X (Proc.devRef .tc main_v1007))
          (Cert.Val.kTerm ⟨4#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA15 ++ (stB15 ++ stC15)) X _ = _
  rw [after_append, after_append, stC15_loss, stB15_first, stB15_second, stB15_at_main_v1020, stB15_at_main_v1007,
    stB15_at_main_arg0, stB15_at_main_arg1, stB15_at_main_arg2,
    stA15_cnt, stA15_min, stA15_min2, stA15_ge1, stA15_zero, stA15_at_main_v1007,
    stA15_at_main_arg0, stA15_at_main_arg1, stA15_at_main_arg2]
  simp only [Cert.Val.kTerm, Cert.Val.kWord, Cert.Val.kFirst, Cert.Val.kSecond, Cert.Val.kPos]

/-- The group leaves the code vectors and the volume arrays as they were. -/
theorem rec15_keeps (X : Valuation τ sig (Elt F)) :
    StableHlo.after (G15 (F := F)) X (Proc.devRef .tc main_v25) = X (Proc.devRef .tc main_v25)
    ∧ StableHlo.after (G15 (F := F)) X (Proc.devRef .tc main_v51) = X (Proc.devRef .tc main_v51)
    ∧ StableHlo.after (G15 (F := F)) X (Proc.devRef .tc main_v77) = X (Proc.devRef .tc main_v77)
    ∧ StableHlo.after (G15 (F := F)) X (Proc.devRef .tc main_arg0) = X (Proc.devRef .tc main_arg0)
    ∧ StableHlo.after (G15 (F := F)) X (Proc.devRef .tc main_arg1) = X (Proc.devRef .tc main_arg1)
    ∧ StableHlo.after (G15 (F := F)) X (Proc.devRef .tc main_arg2) = X (Proc.devRef .tc main_arg2) := by
  refine ⟨?_, ?_, ?_, ?_, ?_, ?_⟩ <;> show StableHlo.after (stA15 ++ (stB15 ++ stC15)) X _ = _
  · rw [after_append, after_append, stC15_at_main_v25, stB15_at_main_v25, stA15_at_main_v25]
  · rw [after_append, after_append, stC15_at_main_v51, stB15_at_main_v51, stA15_at_main_v51]
  · rw [after_append, after_append, stC15_at_main_v77, stB15_at_main_v77, stA15_at_main_v77]
  · rw [after_append, after_append, stC15_at_main_arg0, stB15_at_main_arg0, stA15_at_main_arg0]
  · rw [after_append, after_append, stC15_at_main_arg1, stB15_at_main_arg1, stA15_at_main_arg1]
  · rw [after_append, after_append, stC15_at_main_arg2, stB15_at_main_arg2, stA15_at_main_arg2]

end Cert.KernelIdeal.Tl

end
-- ==== Proof.Val.KTail16.lean ====
/- Recipe 16 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA16 : List (HloOp τ sig (Elt F)) :=
  restOf hostOps1_192 ++ (hostOps1_193 ++ (hostOps1_194 ++ (hostOps1_195 ++ (hostOps1_196))))

/-- The two guarded rows. -/
def stB16 : List (HloOp τ sig (Elt F)) :=
  hostOps1_197 ++ (hostOps1_198 ++ (hostOps1_199))

/-- The three rows read, the recipe's term, the subtraction. -/
def stC16 : List (HloOp τ sig (Elt F)) :=
  hostOps1_200 ++ (hostOps1_201 ++ (hostOps1_202 ++ (hostOps1_203 ++ (firstOf hostOps1_204))))

/-- The operations of the group. -/
abbrev G16 : List (HloOp τ sig (Elt F)) := stA16 ++ (stB16 ++ stC16)

/-! ## The first stage -/

theorem stA16_cnt (W : Valuation τ sig (Elt F)) :
    StableHlo.after (stA16 (F := F)) W (Proc.devRef .tc main_v1081)
      = Cert.Val.cntw (Cert.Val.maskOf 5#32 1#32 0#32 (W (Proc.devRef .tc main_v25)) (W (Proc.devRef .tc main_v51)) (W (Proc.devRef .tc main_v77))) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA16_min (W : Valuation τ sig (Elt F)) :
    StableHlo.after (stA16 (F := F)) W (Proc.devRef .tc main_v1079)
      = Cert.Val.minRow (Cert.Val.maskOf 5#32 1#32 0#32 (W (Proc.devRef .tc main_v25)) (W (Proc.devRef .tc main_v51)) (W (Proc.devRef .tc main_v77))) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA16_min2 (W : Valuation τ sig (Elt F)) :
    StableHlo.after (stA16 (F := F)) W (Proc.devRef .tc main_v1086)
      = Cert.Val.minRow (Cert.Val.dropMin (Cert.Val.maskOf 5#32 1#32 0#32 (W (Proc.devRef .tc main_v25)) (W (Proc.devRef .tc main_v51)) (W (Proc.devRef .tc main_v77)))) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA16_ge1 (W : Valuation τ sig (Elt F)) :
    StableHlo.after (stA16 (F := F)) W (Proc.devRef .tc main_v1087)
      = cmpi .sge (Cert.Val.cntw (Cert.Val.maskOf 5#32 1#32 0#32 (W (Proc.devRef .tc main_v25)) (W (Proc.devRef .tc main_v51)) (W (Proc.devRef .tc main_v77)))) (constantI Cert.Pick.S0 32 1#32) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA16_zero (W : Valuation τ sig (Elt F)) :
    StableHlo.after (stA16 (F := F)) W (Proc.devRef .tc main_c_632)
      = constantI Cert.Pick.S0 32 0#32 := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_v1068 (W : Valuation τ sig (Elt F)) :
    StableHlo.after (stA16 (F := F)) W (Proc.devRef .tc main_v1068) = W (Proc.devRef .tc main_v1068) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_v25 (W : Valuation τ sig (Elt F)) :
    StableHlo.after (stA16 (F := F)) W (Proc.devRef .tc main_v25) = W (Proc.devRef .tc main_v25) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_v51 (W : Valuation τ sig (Elt F)) :
    StableHlo.after (stA16 (F := F)) W (Proc.devRef .tc main_v51) = W (Proc.devRef .tc main_v51) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_v77 (W : Valuation τ sig (Elt F)) :
    StableHlo.after (stA16 (F := F)) W (Proc.devRef .tc main_v77) = W (Proc.devRef .tc main_v77) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_arg0 (W : Valuation τ sig (Elt F)) :
    StableHlo.after (stA16 (F := F)) W (Proc.devRef .tc main_arg0) = W (Proc.devRef .tc main_arg0) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_arg1 (W : Valuation τ sig (Elt F)) :
    StableHlo.after (stA16 (F := F)) W (Proc.devRef .tc main_arg1) = W (Proc.devRef .tc main_arg1) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA16_at_main_arg2 (W : Valuation τ sig (Elt F)) :
    StableHlo.after (stA16 (F := F)) W (Proc.devRef .tc main_arg2) = W (Proc.devRef .tc main_arg2) := by
  simp (disch := decide) only [stA16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB16_first (W : Valuation τ sig (Elt F)) :
    StableHlo.after (stB16 (F := F)) W (Proc.devRef .tc main_v1088)
      = select (W (Proc.devRef .tc main_v1087)) (W (Proc.devRef .tc main_v1079)) (W (Proc.devRef .tc main_c_632)) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB16_second (W : Valuation τ sig (Elt F)) :
    StableHlo.after (stB16 (F := F)) W (Proc.devRef .tc main_v1090)
      = select (cmpi .sge (W (Proc.devRef .tc main_v1081)) (constantI Cert.Pick.S0 32 2#32)) (W (Proc.devRef .tc main_v1086))
          (constantI Cert.Pick.S0 32 0#32) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB16_at_main_v1081 (W : Valuation τ sig (Elt F)) :
    StableHlo.after (stB16 (F := F)) W (Proc.devRef .tc main_v1081) = W (Proc.devRef .tc main_v1081) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_v1068 (W : Valuation τ sig (Elt F)) :
    StableHlo.after (stB16 (F := F)) W (Proc.devRef .tc main_v1068) = W (Proc.devRef .tc main_v1068) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_v25 (W : Valuation τ sig (Elt F)) :
    StableHlo.after (stB16 (F := F)) W (Proc.devRef .tc main_v25) = W (Proc.devRef .tc main_v25) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_v51 (W : Valuation τ sig (Elt F)) :
    StableHlo.after (stB16 (F := F)) W (Proc.devRef .tc main_v51) = W (Proc.devRef .tc main_v51) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_v77 (W : Valuation τ sig (Elt F)) :
    StableHlo.after (stB16 (F := F)) W (Proc.devRef .tc main_v77) = W (Proc.devRef .tc main_v77) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_arg0 (W : Valuation τ sig (Elt F)) :
    StableHlo.after (stB16 (F := F)) W (Proc.devRef .tc main_arg0) = W (Proc.devRef .tc main_arg0) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_arg1 (W : Valuation τ sig (Elt F)) :
    StableHlo.after (stB16 (F := F)) W (Proc.devRef .tc main_arg1) = W (Proc.devRef .tc main_arg1) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB16_at_main_arg2 (W : Valuation τ sig (Elt F)) :
    StableHlo.after (stB16 (F := F)) W (Proc.devRef .tc main_arg2) = W (Proc.devRef .tc main_arg2) := by
  simp (disch := decide) only [stB16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC16_loss (W : Valuation τ sig (Elt F)) :
    StableHlo.after (stC16 (F := F)) W (Proc.devRef .tc main_v1129)
      = subf (W (Proc.devRef .tc main_v1068))
          (Cert.Val.negTerm (W (Proc.devRef .tc main_v1090)) (W (Proc.devRef .tc main_v1088)) (W (Proc.devRef .tc main_v1088))
            (cmpi .sgt (W (Proc.devRef .tc main_v1081)) (constantI Cert.Pick.S0 32 0#32))
            (W (Proc.devRef .tc main_arg0)) (W (Proc.devRef .tc main_arg1)) (W (Proc.devRef .tc main_arg2))) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC16_at_main_v25 (W : Valuation τ sig (Elt F)) :
    StableHlo.after (stC16 (F := F)) W (Proc.devRef .tc main_v25) = W (Proc.devRef .tc main_v25) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC16_at_main_v51 (W : Valuation τ sig (Elt F)) :
    StableHlo.after (stC16 (F := F)) W (Proc.devRef .tc main_v51) = W (Proc.devRef .tc main_v51) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC16_at_main_v77 (W : Valuation τ sig (Elt F)) :
    StableHlo.after (stC16 (F := F)) W (Proc.devRef .tc main_v77) = W (Proc.devRef .tc main_v77) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC16_at_main_arg0 (W : Valuation τ sig (Elt F)) :
    StableHlo.after (stC16 (F := F)) W (Proc.devRef .tc main_arg0) = W (Proc.devRef .tc main_arg0) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC16_at_main_arg1 (W : Valuation τ sig (Elt F)) :
    StableHlo.after (stC16 (F := F)) W (Proc.devRef .tc main_arg1) = W (Proc.devRef .tc main_arg1) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC16_at_main_arg2 (W : Valuation τ sig (Elt F)) :
    StableHlo.after (stC16 (F := F)) W (Proc.devRef .tc main_arg2) = W (Proc.devRef .tc main_arg2) := by
  simp (disch := decide) only [stC16, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec16_loss (X : Valuation τ sig (Elt F)) :
    StableHlo.after (G16 (F := F)) X (Proc.devRef .tc main_v1129)
      = subf (X (Proc.devRef .tc main_v1068))
          (Cert.Val.kTerm ⟨5#32, 1#32, 0#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA16 ++ (stB16 ++ stC16)) X _ = _
  rw [after_append, after_append, stC16_loss, stB16_first, stB16_second, stB16_at_main_v1081, stB16_at_main_v1068,
    stB16_at_main_arg0, stB16_at_main_arg1, stB16_at_main_arg2,
    stA16_cnt, stA16_min, stA16_min2, stA16_ge1, stA16_zero, stA16_at_main_v1068,
    stA16_at_main_arg0, stA16_at_main_arg1, stA16_at_main_arg2]
  simp only [Cert.Val.kTerm, Cert.Val.kWord, Cert.Val.kFirst, Cert.Val.kSecond, Cert.Val.kPos]

/-- The group leaves the code vectors and the volume arrays as they were. -/
theorem rec16_keeps (X : Valuation τ sig (Elt F)) :
    StableHlo.after (G16 (F := F)) X (Proc.devRef .tc main_v25) = X (Proc.devRef .tc main_v25)
    ∧ StableHlo.after (G16 (F := F)) X (Proc.devRef .tc main_v51) = X (Proc.devRef .tc main_v51)
    ∧ StableHlo.after (G16 (F := F)) X (Proc.devRef .tc main_v77) = X (Proc.devRef .tc main_v77)
    ∧ StableHlo.after (G16 (F := F)) X (Proc.devRef .tc main_arg0) = X (Proc.devRef .tc main_arg0)
    ∧ StableHlo.after (G16 (F := F)) X (Proc.devRef .tc main_arg1) = X (Proc.devRef .tc main_arg1)
    ∧ StableHlo.after (G16 (F := F)) X (Proc.devRef .tc main_arg2) = X (Proc.devRef .tc main_arg2) := by
  refine ⟨?_, ?_, ?_, ?_, ?_, ?_⟩ <;> show StableHlo.after (stA16 ++ (stB16 ++ stC16)) X _ = _
  · rw [after_append, after_append, stC16_at_main_v25, stB16_at_main_v25, stA16_at_main_v25]
  · rw [after_append, after_append, stC16_at_main_v51, stB16_at_main_v51, stA16_at_main_v51]
  · rw [after_append, after_append, stC16_at_main_v77, stB16_at_main_v77, stA16_at_main_v77]
  · rw [after_append, after_append, stC16_at_main_arg0, stB16_at_main_arg0, stA16_at_main_arg0]
  · rw [after_append, after_append, stC16_at_main_arg1, stB16_at_main_arg1, stA16_at_main_arg1]
  · rw [after_append, after_append, stC16_at_main_arg2, stB16_at_main_arg2, stA16_at_main_arg2]

end Cert.KernelIdeal.Tl

end
-- ==== Proof.Val.KTail17.lean ====
/- Recipe 17 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA17 : List (HloOp τ sig (Elt F)) :=
  restOf hostOps1_204 ++ (hostOps1_205 ++ (hostOps1_206 ++ (hostOps1_207 ++ (hostOps1_208))))

/-- The two guarded rows. -/
def stB17 : List (HloOp τ sig (Elt F)) :=
  hostOps1_209 ++ (hostOps1_210 ++ (hostOps1_211))

/-- The three rows read, the recipe's term, the subtraction. -/
def stC17 : List (HloOp τ sig (Elt F)) :=
  hostOps1_212 ++ (hostOps1_213 ++ (hostOps1_214 ++ (hostOps1_215 ++ (firstOf hostOps1_216))))

/-- The operations of the group. -/
abbrev G17 : List (HloOp τ sig (Elt F)) := stA17 ++ (stB17 ++ stC17)

/-! ## The first stage -/

theorem stA17_cnt (W : Valuation τ sig (Elt F)) :
    StableHlo.after (stA17 (F := F)) W (Proc.devRef .tc main_v1142)
      = Cert.Val.cntw (Cert.Val.maskOf 5#32 1#32 2#32 (W (Proc.devRef .tc main_v25)) (W (Proc.devRef .tc main_v51)) (W (Proc.devRef .tc main_v77))) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA17_min (W : Valuation τ sig (Elt F)) :
    StableHlo.after (stA17 (F := F)) W (Proc.devRef .tc main_v1140)
      = Cert.Val.minRow (Cert.Val.maskOf 5#32 1#32 2#32 (W (Proc.devRef .tc main_v25)) (W (Proc.devRef .tc main_v51)) (W (Proc.devRef .tc main_v77))) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA17_min2 (W : Valuation τ sig (Elt F)) :
    StableHlo.after (stA17 (F := F)) W (Proc.devRef .tc main_v1147)
      = Cert.Val.minRow (Cert.Val.dropMin (Cert.Val.maskOf 5#32 1#32 2#32 (W (Proc.devRef .tc main_v25)) (W (Proc.devRef .tc main_v51)) (W (Proc.devRef .tc main_v77)))) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA17_ge1 (W : Valuation τ sig (Elt F)) :
    StableHlo.after (stA17 (F := F)) W (Proc.devRef .tc main_v1148)
      = cmpi .sge (Cert.Val.cntw (Cert.Val.maskOf 5#32 1#32 2#32 (W (Proc.devRef .tc main_v25)) (W (Proc.devRef .tc main_v51)) (W (Proc.devRef .tc main_v77)))) (constantI Cert.Pick.S0 32 1#32) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA17_zero (W : Valuation τ sig (Elt F)) :
    StableHlo.after (stA17 (F := F)) W (Proc.devRef .tc main_c_669)
      = constantI Cert.Pick.S0 32 0#32 := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_v1129 (W : Valuation τ sig (Elt F)) :
    StableHlo.after (stA17 (F := F)) W (Proc.devRef .tc main_v1129) = W (Proc.devRef .tc main_v1129) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_v25 (W : Valuation τ sig (Elt F)) :
    StableHlo.after (stA17 (F := F)) W (Proc.devRef .tc main_v25) = W (Proc.devRef .tc main_v25) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_v51 (W : Valuation τ sig (Elt F)) :
    StableHlo.after (stA17 (F := F)) W (Proc.devRef .tc main_v51) = W (Proc.devRef .tc main_v51) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_v77 (W : Valuation τ sig (Elt F)) :
    StableHlo.after (stA17 (F := F)) W (Proc.devRef .tc main_v77) = W (Proc.devRef .tc main_v77) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_arg0 (W : Valuation τ sig (Elt F)) :
    StableHlo.after (stA17 (F := F)) W (Proc.devRef .tc main_arg0) = W (Proc.devRef .tc main_arg0) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_arg1 (W : Valuation τ sig (Elt F)) :
    StableHlo.after (stA17 (F := F)) W (Proc.devRef .tc main_arg1) = W (Proc.devRef .tc main_arg1) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA17_at_main_arg2 (W : Valuation τ sig (Elt F)) :
    StableHlo.after (stA17 (F := F)) W (Proc.devRef .tc main_arg2) = W (Proc.devRef .tc main_arg2) := by
  simp (disch := decide) only [stA17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB17_first (W : Valuation τ sig (Elt F)) :
    StableHlo.after (stB17 (F := F)) W (Proc.devRef .tc main_v1149)
      = select (W (Proc.devRef .tc main_v1148)) (W (Proc.devRef .tc main_v1140)) (W (Proc.devRef .tc main_c_669)) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB17_second (W : Valuation τ sig (Elt F)) :
    StableHlo.after (stB17 (F := F)) W (Proc.devRef .tc main_v1151)
      = select (cmpi .sge (W (Proc.devRef .tc main_v1142)) (constantI Cert.Pick.S0 32 2#32)) (W (Proc.devRef .tc main_v1147))
          (constantI Cert.Pick.S0 32 0#32) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB17_at_main_v1142 (W : Valuation τ sig (Elt F)) :
    StableHlo.after (stB17 (F := F)) W (Proc.devRef .tc main_v1142) = W (Proc.devRef .tc main_v1142) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_v1129 (W : Valuation τ sig (Elt F)) :
    StableHlo.after (stB17 (F := F)) W (Proc.devRef .tc main_v1129) = W (Proc.devRef .tc main_v1129) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_v25 (W : Valuation τ sig (Elt F)) :
    StableHlo.after (stB17 (F := F)) W (Proc.devRef .tc main_v25) = W (Proc.devRef .tc main_v25) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_v51 (W : Valuation τ sig (Elt F)) :
    StableHlo.after (stB17 (F := F)) W (Proc.devRef .tc main_v51) = W (Proc.devRef .tc main_v51) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_v77 (W : Valuation τ sig (Elt F)) :
    StableHlo.after (stB17 (F := F)) W (Proc.devRef .tc main_v77) = W (Proc.devRef .tc main_v77) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_arg0 (W : Valuation τ sig (Elt F)) :
    StableHlo.after (stB17 (F := F)) W (Proc.devRef .tc main_arg0) = W (Proc.devRef .tc main_arg0) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_arg1 (W : Valuation τ sig (Elt F)) :
    StableHlo.after (stB17 (F := F)) W (Proc.devRef .tc main_arg1) = W (Proc.devRef .tc main_arg1) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB17_at_main_arg2 (W : Valuation τ sig (Elt F)) :
    StableHlo.after (stB17 (F := F)) W (Proc.devRef .tc main_arg2) = W (Proc.devRef .tc main_arg2) := by
  simp (disch := decide) only [stB17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC17_loss (W : Valuation τ sig (Elt F)) :
    StableHlo.after (stC17 (F := F)) W (Proc.devRef .tc main_v1190)
      = subf (W (Proc.devRef .tc main_v1129))
          (Cert.Val.negTerm (W (Proc.devRef .tc main_v1151)) (W (Proc.devRef .tc main_v1149)) (W (Proc.devRef .tc main_v1149))
            (cmpi .sgt (W (Proc.devRef .tc main_v1142)) (constantI Cert.Pick.S0 32 0#32))
            (W (Proc.devRef .tc main_arg0)) (W (Proc.devRef .tc main_arg1)) (W (Proc.devRef .tc main_arg2))) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC17_at_main_v25 (W : Valuation τ sig (Elt F)) :
    StableHlo.after (stC17 (F := F)) W (Proc.devRef .tc main_v25) = W (Proc.devRef .tc main_v25) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC17_at_main_v51 (W : Valuation τ sig (Elt F)) :
    StableHlo.after (stC17 (F := F)) W (Proc.devRef .tc main_v51) = W (Proc.devRef .tc main_v51) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC17_at_main_v77 (W : Valuation τ sig (Elt F)) :
    StableHlo.after (stC17 (F := F)) W (Proc.devRef .tc main_v77) = W (Proc.devRef .tc main_v77) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC17_at_main_arg0 (W : Valuation τ sig (Elt F)) :
    StableHlo.after (stC17 (F := F)) W (Proc.devRef .tc main_arg0) = W (Proc.devRef .tc main_arg0) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC17_at_main_arg1 (W : Valuation τ sig (Elt F)) :
    StableHlo.after (stC17 (F := F)) W (Proc.devRef .tc main_arg1) = W (Proc.devRef .tc main_arg1) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC17_at_main_arg2 (W : Valuation τ sig (Elt F)) :
    StableHlo.after (stC17 (F := F)) W (Proc.devRef .tc main_arg2) = W (Proc.devRef .tc main_arg2) := by
  simp (disch := decide) only [stC17, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec17_loss (X : Valuation τ sig (Elt F)) :
    StableHlo.after (G17 (F := F)) X (Proc.devRef .tc main_v1190)
      = subf (X (Proc.devRef .tc main_v1129))
          (Cert.Val.kTerm ⟨5#32, 1#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA17 ++ (stB17 ++ stC17)) X _ = _
  rw [after_append, after_append, stC17_loss, stB17_first, stB17_second, stB17_at_main_v1142, stB17_at_main_v1129,
    stB17_at_main_arg0, stB17_at_main_arg1, stB17_at_main_arg2,
    stA17_cnt, stA17_min, stA17_min2, stA17_ge1, stA17_zero, stA17_at_main_v1129,
    stA17_at_main_arg0, stA17_at_main_arg1, stA17_at_main_arg2]
  simp only [Cert.Val.kTerm, Cert.Val.kWord, Cert.Val.kFirst, Cert.Val.kSecond, Cert.Val.kPos]

/-- The group leaves the code vectors and the volume arrays as they were. -/
theorem rec17_keeps (X : Valuation τ sig (Elt F)) :
    StableHlo.after (G17 (F := F)) X (Proc.devRef .tc main_v25) = X (Proc.devRef .tc main_v25)
    ∧ StableHlo.after (G17 (F := F)) X (Proc.devRef .tc main_v51) = X (Proc.devRef .tc main_v51)
    ∧ StableHlo.after (G17 (F := F)) X (Proc.devRef .tc main_v77) = X (Proc.devRef .tc main_v77)
    ∧ StableHlo.after (G17 (F := F)) X (Proc.devRef .tc main_arg0) = X (Proc.devRef .tc main_arg0)
    ∧ StableHlo.after (G17 (F := F)) X (Proc.devRef .tc main_arg1) = X (Proc.devRef .tc main_arg1)
    ∧ StableHlo.after (G17 (F := F)) X (Proc.devRef .tc main_arg2) = X (Proc.devRef .tc main_arg2) := by
  refine ⟨?_, ?_, ?_, ?_, ?_, ?_⟩ <;> show StableHlo.after (stA17 ++ (stB17 ++ stC17)) X _ = _
  · rw [after_append, after_append, stC17_at_main_v25, stB17_at_main_v25, stA17_at_main_v25]
  · rw [after_append, after_append, stC17_at_main_v51, stB17_at_main_v51, stA17_at_main_v51]
  · rw [after_append, after_append, stC17_at_main_v77, stB17_at_main_v77, stA17_at_main_v77]
  · rw [after_append, after_append, stC17_at_main_arg0, stB17_at_main_arg0, stA17_at_main_arg0]
  · rw [after_append, after_append, stC17_at_main_arg1, stB17_at_main_arg1, stA17_at_main_arg1]
  · rw [after_append, after_append, stC17_at_main_arg2, stB17_at_main_arg2, stA17_at_main_arg2]

end Cert.KernelIdeal.Tl

end
-- ==== Proof.Val.KTail18.lean ====
/- Recipe 18 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA18 : List (HloOp τ sig (Elt F)) :=
  restOf hostOps1_216 ++ (hostOps1_217 ++ (hostOps1_218 ++ (hostOps1_219 ++ (hostOps1_220))))

/-- The two guarded rows. -/
def stB18 : List (HloOp τ sig (Elt F)) :=
  hostOps1_221 ++ (hostOps1_222 ++ (hostOps1_223))

/-- The three rows read, the recipe's term, the subtraction. -/
def stC18 : List (HloOp τ sig (Elt F)) :=
  hostOps1_224 ++ (hostOps1_225 ++ (hostOps1_226 ++ (hostOps1_227 ++ (firstOf hostOps1_228))))

/-- The operations of the group. -/
abbrev G18 : List (HloOp τ sig (Elt F)) := stA18 ++ (stB18 ++ stC18)

/-! ## The first stage -/

theorem stA18_cnt (W : Valuation τ sig (Elt F)) :
    StableHlo.after (stA18 (F := F)) W (Proc.devRef .tc main_v1203)
      = Cert.Val.cntw (Cert.Val.maskOf 5#32 2#32 0#32 (W (Proc.devRef .tc main_v25)) (W (Proc.devRef .tc main_v51)) (W (Proc.devRef .tc main_v77))) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA18_min (W : Valuation τ sig (Elt F)) :
    StableHlo.after (stA18 (F := F)) W (Proc.devRef .tc main_v1201)
      = Cert.Val.minRow (Cert.Val.maskOf 5#32 2#32 0#32 (W (Proc.devRef .tc main_v25)) (W (Proc.devRef .tc main_v51)) (W (Proc.devRef .tc main_v77))) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA18_min2 (W : Valuation τ sig (Elt F)) :
    StableHlo.after (stA18 (F := F)) W (Proc.devRef .tc main_v1208)
      = Cert.Val.minRow (Cert.Val.dropMin (Cert.Val.maskOf 5#32 2#32 0#32 (W (Proc.devRef .tc main_v25)) (W (Proc.devRef .tc main_v51)) (W (Proc.devRef .tc main_v77)))) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA18_ge1 (W : Valuation τ sig (Elt F)) :
    StableHlo.after (stA18 (F := F)) W (Proc.devRef .tc main_v1209)
      = cmpi .sge (Cert.Val.cntw (Cert.Val.maskOf 5#32 2#32 0#32 (W (Proc.devRef .tc main_v25)) (W (Proc.devRef .tc main_v51)) (W (Proc.devRef .tc main_v77)))) (constantI Cert.Pick.S0 32 1#32) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA18_zero (W : Valuation τ sig (Elt F)) :
    StableHlo.after (stA18 (F := F)) W (Proc.devRef .tc main_c_706)
      = constantI Cert.Pick.S0 32 0#32 := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_v1190 (W : Valuation τ sig (Elt F)) :
    StableHlo.after (stA18 (F := F)) W (Proc.devRef .tc main_v1190) = W (Proc.devRef .tc main_v1190) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_v25 (W : Valuation τ sig (Elt F)) :
    StableHlo.after (stA18 (F := F)) W (Proc.devRef .tc main_v25) = W (Proc.devRef .tc main_v25) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_v51 (W : Valuation τ sig (Elt F)) :
    StableHlo.after (stA18 (F := F)) W (Proc.devRef .tc main_v51) = W (Proc.devRef .tc main_v51) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_v77 (W : Valuation τ sig (Elt F)) :
    StableHlo.after (stA18 (F := F)) W (Proc.devRef .tc main_v77) = W (Proc.devRef .tc main_v77) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_arg0 (W : Valuation τ sig (Elt F)) :
    StableHlo.after (stA18 (F := F)) W (Proc.devRef .tc main_arg0) = W (Proc.devRef .tc main_arg0) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_arg1 (W : Valuation τ sig (Elt F)) :
    StableHlo.after (stA18 (F := F)) W (Proc.devRef .tc main_arg1) = W (Proc.devRef .tc main_arg1) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA18_at_main_arg2 (W : Valuation τ sig (Elt F)) :
    StableHlo.after (stA18 (F := F)) W (Proc.devRef .tc main_arg2) = W (Proc.devRef .tc main_arg2) := by
  simp (disch := decide) only [stA18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB18_first (W : Valuation τ sig (Elt F)) :
    StableHlo.after (stB18 (F := F)) W (Proc.devRef .tc main_v1210)
      = select (W (Proc.devRef .tc main_v1209)) (W (Proc.devRef .tc main_v1201)) (W (Proc.devRef .tc main_c_706)) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB18_second (W : Valuation τ sig (Elt F)) :
    StableHlo.after (stB18 (F := F)) W (Proc.devRef .tc main_v1212)
      = select (cmpi .sge (W (Proc.devRef .tc main_v1203)) (constantI Cert.Pick.S0 32 2#32)) (W (Proc.devRef .tc main_v1208))
          (constantI Cert.Pick.S0 32 0#32) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB18_at_main_v1203 (W : Valuation τ sig (Elt F)) :
    StableHlo.after (stB18 (F := F)) W (Proc.devRef .tc main_v1203) = W (Proc.devRef .tc main_v1203) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_v1190 (W : Valuation τ sig (Elt F)) :
    StableHlo.after (stB18 (F := F)) W (Proc.devRef .tc main_v1190) = W (Proc.devRef .tc main_v1190) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_v25 (W : Valuation τ sig (Elt F)) :
    StableHlo.after (stB18 (F := F)) W (Proc.devRef .tc main_v25) = W (Proc.devRef .tc main_v25) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_v51 (W : Valuation τ sig (Elt F)) :
    StableHlo.after (stB18 (F := F)) W (Proc.devRef .tc main_v51) = W (Proc.devRef .tc main_v51) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_v77 (W : Valuation τ sig (Elt F)) :
    StableHlo.after (stB18 (F := F)) W (Proc.devRef .tc main_v77) = W (Proc.devRef .tc main_v77) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_arg0 (W : Valuation τ sig (Elt F)) :
    StableHlo.after (stB18 (F := F)) W (Proc.devRef .tc main_arg0) = W (Proc.devRef .tc main_arg0) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_arg1 (W : Valuation τ sig (Elt F)) :
    StableHlo.after (stB18 (F := F)) W (Proc.devRef .tc main_arg1) = W (Proc.devRef .tc main_arg1) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB18_at_main_arg2 (W : Valuation τ sig (Elt F)) :
    StableHlo.after (stB18 (F := F)) W (Proc.devRef .tc main_arg2) = W (Proc.devRef .tc main_arg2) := by
  simp (disch := decide) only [stB18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC18_loss (W : Valuation τ sig (Elt F)) :
    StableHlo.after (stC18 (F := F)) W (Proc.devRef .tc main_v1251)
      = subf (W (Proc.devRef .tc main_v1190))
          (Cert.Val.negTerm (W (Proc.devRef .tc main_v1212)) (W (Proc.devRef .tc main_v1210)) (W (Proc.devRef .tc main_v1210))
            (cmpi .sgt (W (Proc.devRef .tc main_v1203)) (constantI Cert.Pick.S0 32 0#32))
            (W (Proc.devRef .tc main_arg0)) (W (Proc.devRef .tc main_arg1)) (W (Proc.devRef .tc main_arg2))) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC18_at_main_v25 (W : Valuation τ sig (Elt F)) :
    StableHlo.after (stC18 (F := F)) W (Proc.devRef .tc main_v25) = W (Proc.devRef .tc main_v25) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC18_at_main_v51 (W : Valuation τ sig (Elt F)) :
    StableHlo.after (stC18 (F := F)) W (Proc.devRef .tc main_v51) = W (Proc.devRef .tc main_v51) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC18_at_main_v77 (W : Valuation τ sig (Elt F)) :
    StableHlo.after (stC18 (F := F)) W (Proc.devRef .tc main_v77) = W (Proc.devRef .tc main_v77) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC18_at_main_arg0 (W : Valuation τ sig (Elt F)) :
    StableHlo.after (stC18 (F := F)) W (Proc.devRef .tc main_arg0) = W (Proc.devRef .tc main_arg0) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC18_at_main_arg1 (W : Valuation τ sig (Elt F)) :
    StableHlo.after (stC18 (F := F)) W (Proc.devRef .tc main_arg1) = W (Proc.devRef .tc main_arg1) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC18_at_main_arg2 (W : Valuation τ sig (Elt F)) :
    StableHlo.after (stC18 (F := F)) W (Proc.devRef .tc main_arg2) = W (Proc.devRef .tc main_arg2) := by
  simp (disch := decide) only [stC18, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec18_loss (X : Valuation τ sig (Elt F)) :
    StableHlo.after (G18 (F := F)) X (Proc.devRef .tc main_v1251)
      = subf (X (Proc.devRef .tc main_v1190))
          (Cert.Val.kTerm ⟨5#32, 2#32, 0#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA18 ++ (stB18 ++ stC18)) X _ = _
  rw [after_append, after_append, stC18_loss, stB18_first, stB18_second, stB18_at_main_v1203, stB18_at_main_v1190,
    stB18_at_main_arg0, stB18_at_main_arg1, stB18_at_main_arg2,
    stA18_cnt, stA18_min, stA18_min2, stA18_ge1, stA18_zero, stA18_at_main_v1190,
    stA18_at_main_arg0, stA18_at_main_arg1, stA18_at_main_arg2]
  simp only [Cert.Val.kTerm, Cert.Val.kWord, Cert.Val.kFirst, Cert.Val.kSecond, Cert.Val.kPos]

/-- The group leaves the code vectors and the volume arrays as they were. -/
theorem rec18_keeps (X : Valuation τ sig (Elt F)) :
    StableHlo.after (G18 (F := F)) X (Proc.devRef .tc main_v25) = X (Proc.devRef .tc main_v25)
    ∧ StableHlo.after (G18 (F := F)) X (Proc.devRef .tc main_v51) = X (Proc.devRef .tc main_v51)
    ∧ StableHlo.after (G18 (F := F)) X (Proc.devRef .tc main_v77) = X (Proc.devRef .tc main_v77)
    ∧ StableHlo.after (G18 (F := F)) X (Proc.devRef .tc main_arg0) = X (Proc.devRef .tc main_arg0)
    ∧ StableHlo.after (G18 (F := F)) X (Proc.devRef .tc main_arg1) = X (Proc.devRef .tc main_arg1)
    ∧ StableHlo.after (G18 (F := F)) X (Proc.devRef .tc main_arg2) = X (Proc.devRef .tc main_arg2) := by
  refine ⟨?_, ?_, ?_, ?_, ?_, ?_⟩ <;> show StableHlo.after (stA18 ++ (stB18 ++ stC18)) X _ = _
  · rw [after_append, after_append, stC18_at_main_v25, stB18_at_main_v25, stA18_at_main_v25]
  · rw [after_append, after_append, stC18_at_main_v51, stB18_at_main_v51, stA18_at_main_v51]
  · rw [after_append, after_append, stC18_at_main_v77, stB18_at_main_v77, stA18_at_main_v77]
  · rw [after_append, after_append, stC18_at_main_arg0, stB18_at_main_arg0, stA18_at_main_arg0]
  · rw [after_append, after_append, stC18_at_main_arg1, stB18_at_main_arg1, stA18_at_main_arg1]
  · rw [after_append, after_append, stC18_at_main_arg2, stB18_at_main_arg2, stA18_at_main_arg2]

end Cert.KernelIdeal.Tl

end
-- ==== Proof.Val.KTail19.lean ====
/- Recipe 19 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA19 : List (HloOp τ sig (Elt F)) :=
  restOf hostOps1_228 ++ (hostOps1_229 ++ (hostOps1_230 ++ (hostOps1_231 ++ (hostOps1_232))))

/-- The two guarded rows. -/
def stB19 : List (HloOp τ sig (Elt F)) :=
  hostOps1_233 ++ (hostOps1_234 ++ (hostOps1_235))

/-- The three rows read, the recipe's term, the subtraction. -/
def stC19 : List (HloOp τ sig (Elt F)) :=
  hostOps1_236 ++ (hostOps1_237 ++ (hostOps1_238 ++ (hostOps1_239 ++ (firstOf hostOps1_240))))

/-- The operations of the group. -/
abbrev G19 : List (HloOp τ sig (Elt F)) := stA19 ++ (stB19 ++ stC19)

/-! ## The first stage -/

theorem stA19_cnt (W : Valuation τ sig (Elt F)) :
    StableHlo.after (stA19 (F := F)) W (Proc.devRef .tc main_v1264)
      = Cert.Val.cntw (Cert.Val.maskOf 5#32 2#32 2#32 (W (Proc.devRef .tc main_v25)) (W (Proc.devRef .tc main_v51)) (W (Proc.devRef .tc main_v77))) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA19_min (W : Valuation τ sig (Elt F)) :
    StableHlo.after (stA19 (F := F)) W (Proc.devRef .tc main_v1262)
      = Cert.Val.minRow (Cert.Val.maskOf 5#32 2#32 2#32 (W (Proc.devRef .tc main_v25)) (W (Proc.devRef .tc main_v51)) (W (Proc.devRef .tc main_v77))) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA19_min2 (W : Valuation τ sig (Elt F)) :
    StableHlo.after (stA19 (F := F)) W (Proc.devRef .tc main_v1269)
      = Cert.Val.minRow (Cert.Val.dropMin (Cert.Val.maskOf 5#32 2#32 2#32 (W (Proc.devRef .tc main_v25)) (W (Proc.devRef .tc main_v51)) (W (Proc.devRef .tc main_v77)))) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA19_ge1 (W : Valuation τ sig (Elt F)) :
    StableHlo.after (stA19 (F := F)) W (Proc.devRef .tc main_v1270)
      = cmpi .sge (Cert.Val.cntw (Cert.Val.maskOf 5#32 2#32 2#32 (W (Proc.devRef .tc main_v25)) (W (Proc.devRef .tc main_v51)) (W (Proc.devRef .tc main_v77)))) (constantI Cert.Pick.S0 32 1#32) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA19_zero (W : Valuation τ sig (Elt F)) :
    StableHlo.after (stA19 (F := F)) W (Proc.devRef .tc main_c_743)
      = constantI Cert.Pick.S0 32 0#32 := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_v1251 (W : Valuation τ sig (Elt F)) :
    StableHlo.after (stA19 (F := F)) W (Proc.devRef .tc main_v1251) = W (Proc.devRef .tc main_v1251) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_v25 (W : Valuation τ sig (Elt F)) :
    StableHlo.after (stA19 (F := F)) W (Proc.devRef .tc main_v25) = W (Proc.devRef .tc main_v25) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_v51 (W : Valuation τ sig (Elt F)) :
    StableHlo.after (stA19 (F := F)) W (Proc.devRef .tc main_v51) = W (Proc.devRef .tc main_v51) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_v77 (W : Valuation τ sig (Elt F)) :
    StableHlo.after (stA19 (F := F)) W (Proc.devRef .tc main_v77) = W (Proc.devRef .tc main_v77) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_arg0 (W : Valuation τ sig (Elt F)) :
    StableHlo.after (stA19 (F := F)) W (Proc.devRef .tc main_arg0) = W (Proc.devRef .tc main_arg0) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_arg1 (W : Valuation τ sig (Elt F)) :
    StableHlo.after (stA19 (F := F)) W (Proc.devRef .tc main_arg1) = W (Proc.devRef .tc main_arg1) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA19_at_main_arg2 (W : Valuation τ sig (Elt F)) :
    StableHlo.after (stA19 (F := F)) W (Proc.devRef .tc main_arg2) = W (Proc.devRef .tc main_arg2) := by
  simp (disch := decide) only [stA19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB19_first (W : Valuation τ sig (Elt F)) :
    StableHlo.after (stB19 (F := F)) W (Proc.devRef .tc main_v1271)
      = select (W (Proc.devRef .tc main_v1270)) (W (Proc.devRef .tc main_v1262)) (W (Proc.devRef .tc main_c_743)) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB19_second (W : Valuation τ sig (Elt F)) :
    StableHlo.after (stB19 (F := F)) W (Proc.devRef .tc main_v1273)
      = select (cmpi .sge (W (Proc.devRef .tc main_v1264)) (constantI Cert.Pick.S0 32 2#32)) (W (Proc.devRef .tc main_v1269))
          (constantI Cert.Pick.S0 32 0#32) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB19_at_main_v1264 (W : Valuation τ sig (Elt F)) :
    StableHlo.after (stB19 (F := F)) W (Proc.devRef .tc main_v1264) = W (Proc.devRef .tc main_v1264) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_v1251 (W : Valuation τ sig (Elt F)) :
    StableHlo.after (stB19 (F := F)) W (Proc.devRef .tc main_v1251) = W (Proc.devRef .tc main_v1251) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_v25 (W : Valuation τ sig (Elt F)) :
    StableHlo.after (stB19 (F := F)) W (Proc.devRef .tc main_v25) = W (Proc.devRef .tc main_v25) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_v51 (W : Valuation τ sig (Elt F)) :
    StableHlo.after (stB19 (F := F)) W (Proc.devRef .tc main_v51) = W (Proc.devRef .tc main_v51) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_v77 (W : Valuation τ sig (Elt F)) :
    StableHlo.after (stB19 (F := F)) W (Proc.devRef .tc main_v77) = W (Proc.devRef .tc main_v77) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_arg0 (W : Valuation τ sig (Elt F)) :
    StableHlo.after (stB19 (F := F)) W (Proc.devRef .tc main_arg0) = W (Proc.devRef .tc main_arg0) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_arg1 (W : Valuation τ sig (Elt F)) :
    StableHlo.after (stB19 (F := F)) W (Proc.devRef .tc main_arg1) = W (Proc.devRef .tc main_arg1) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB19_at_main_arg2 (W : Valuation τ sig (Elt F)) :
    StableHlo.after (stB19 (F := F)) W (Proc.devRef .tc main_arg2) = W (Proc.devRef .tc main_arg2) := by
  simp (disch := decide) only [stB19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC19_loss (W : Valuation τ sig (Elt F)) :
    StableHlo.after (stC19 (F := F)) W (Proc.devRef .tc main_v1312)
      = subf (W (Proc.devRef .tc main_v1251))
          (Cert.Val.negTerm (W (Proc.devRef .tc main_v1273)) (W (Proc.devRef .tc main_v1271)) (W (Proc.devRef .tc main_v1271))
            (cmpi .sgt (W (Proc.devRef .tc main_v1264)) (constantI Cert.Pick.S0 32 0#32))
            (W (Proc.devRef .tc main_arg0)) (W (Proc.devRef .tc main_arg1)) (W (Proc.devRef .tc main_arg2))) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC19_at_main_v25 (W : Valuation τ sig (Elt F)) :
    StableHlo.after (stC19 (F := F)) W (Proc.devRef .tc main_v25) = W (Proc.devRef .tc main_v25) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC19_at_main_v51 (W : Valuation τ sig (Elt F)) :
    StableHlo.after (stC19 (F := F)) W (Proc.devRef .tc main_v51) = W (Proc.devRef .tc main_v51) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC19_at_main_v77 (W : Valuation τ sig (Elt F)) :
    StableHlo.after (stC19 (F := F)) W (Proc.devRef .tc main_v77) = W (Proc.devRef .tc main_v77) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC19_at_main_arg0 (W : Valuation τ sig (Elt F)) :
    StableHlo.after (stC19 (F := F)) W (Proc.devRef .tc main_arg0) = W (Proc.devRef .tc main_arg0) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC19_at_main_arg1 (W : Valuation τ sig (Elt F)) :
    StableHlo.after (stC19 (F := F)) W (Proc.devRef .tc main_arg1) = W (Proc.devRef .tc main_arg1) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC19_at_main_arg2 (W : Valuation τ sig (Elt F)) :
    StableHlo.after (stC19 (F := F)) W (Proc.devRef .tc main_arg2) = W (Proc.devRef .tc main_arg2) := by
  simp (disch := decide) only [stC19, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec19_loss (X : Valuation τ sig (Elt F)) :
    StableHlo.after (G19 (F := F)) X (Proc.devRef .tc main_v1312)
      = subf (X (Proc.devRef .tc main_v1251))
          (Cert.Val.kTerm ⟨5#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA19 ++ (stB19 ++ stC19)) X _ = _
  rw [after_append, after_append, stC19_loss, stB19_first, stB19_second, stB19_at_main_v1264, stB19_at_main_v1251,
    stB19_at_main_arg0, stB19_at_main_arg1, stB19_at_main_arg2,
    stA19_cnt, stA19_min, stA19_min2, stA19_ge1, stA19_zero, stA19_at_main_v1251,
    stA19_at_main_arg0, stA19_at_main_arg1, stA19_at_main_arg2]
  simp only [Cert.Val.kTerm, Cert.Val.kWord, Cert.Val.kFirst, Cert.Val.kSecond, Cert.Val.kPos]

/-- The group leaves the code vectors and the volume arrays as they were. -/
theorem rec19_keeps (X : Valuation τ sig (Elt F)) :
    StableHlo.after (G19 (F := F)) X (Proc.devRef .tc main_v25) = X (Proc.devRef .tc main_v25)
    ∧ StableHlo.after (G19 (F := F)) X (Proc.devRef .tc main_v51) = X (Proc.devRef .tc main_v51)
    ∧ StableHlo.after (G19 (F := F)) X (Proc.devRef .tc main_v77) = X (Proc.devRef .tc main_v77)
    ∧ StableHlo.after (G19 (F := F)) X (Proc.devRef .tc main_arg0) = X (Proc.devRef .tc main_arg0)
    ∧ StableHlo.after (G19 (F := F)) X (Proc.devRef .tc main_arg1) = X (Proc.devRef .tc main_arg1)
    ∧ StableHlo.after (G19 (F := F)) X (Proc.devRef .tc main_arg2) = X (Proc.devRef .tc main_arg2) := by
  refine ⟨?_, ?_, ?_, ?_, ?_, ?_⟩ <;> show StableHlo.after (stA19 ++ (stB19 ++ stC19)) X _ = _
  · rw [after_append, after_append, stC19_at_main_v25, stB19_at_main_v25, stA19_at_main_v25]
  · rw [after_append, after_append, stC19_at_main_v51, stB19_at_main_v51, stA19_at_main_v51]
  · rw [after_append, after_append, stC19_at_main_v77, stB19_at_main_v77, stA19_at_main_v77]
  · rw [after_append, after_append, stC19_at_main_arg0, stB19_at_main_arg0, stA19_at_main_arg0]
  · rw [after_append, after_append, stC19_at_main_arg1, stB19_at_main_arg1, stA19_at_main_arg1]
  · rw [after_append, after_append, stC19_at_main_arg2, stB19_at_main_arg2, stA19_at_main_arg2]

end Cert.KernelIdeal.Tl

end
-- ==== Proof.Val.KTail20.lean ====
/- Recipe 20 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA20 : List (HloOp τ sig (Elt F)) :=
  restOf hostOps1_240 ++ (hostOps1_241 ++ (hostOps1_242 ++ (hostOps1_243 ++ (hostOps1_244))))

/-- The two guarded rows. -/
def stB20 : List (HloOp τ sig (Elt F)) :=
  hostOps1_245 ++ (hostOps1_246 ++ (hostOps1_247))

/-- The three rows read, the recipe's term, the subtraction. -/
def stC20 : List (HloOp τ sig (Elt F)) :=
  hostOps1_248 ++ (hostOps1_249 ++ (hostOps1_250 ++ (hostOps1_251 ++ (firstOf hostOps1_252))))

/-- The operations of the group. -/
abbrev G20 : List (HloOp τ sig (Elt F)) := stA20 ++ (stB20 ++ stC20)

/-! ## The first stage -/

theorem stA20_cnt (W : Valuation τ sig (Elt F)) :
    StableHlo.after (stA20 (F := F)) W (Proc.devRef .tc main_v1325)
      = Cert.Val.cntw (Cert.Val.maskOf 2#32 7#32 2#32 (W (Proc.devRef .tc main_v25)) (W (Proc.devRef .tc main_v51)) (W (Proc.devRef .tc main_v77))) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA20_min (W : Valuation τ sig (Elt F)) :
    StableHlo.after (stA20 (F := F)) W (Proc.devRef .tc main_v1323)
      = Cert.Val.minRow (Cert.Val.maskOf 2#32 7#32 2#32 (W (Proc.devRef .tc main_v25)) (W (Proc.devRef .tc main_v51)) (W (Proc.devRef .tc main_v77))) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA20_min2 (W : Valuation τ sig (Elt F)) :
    StableHlo.after (stA20 (F := F)) W (Proc.devRef .tc main_v1330)
      = Cert.Val.minRow (Cert.Val.dropMin (Cert.Val.maskOf 2#32 7#32 2#32 (W (Proc.devRef .tc main_v25)) (W (Proc.devRef .tc main_v51)) (W (Proc.devRef .tc main_v77)))) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA20_ge1 (W : Valuation τ sig (Elt F)) :
    StableHlo.after (stA20 (F := F)) W (Proc.devRef .tc main_v1331)
      = cmpi .sge (Cert.Val.cntw (Cert.Val.maskOf 2#32 7#32 2#32 (W (Proc.devRef .tc main_v25)) (W (Proc.devRef .tc main_v51)) (W (Proc.devRef .tc main_v77)))) (constantI Cert.Pick.S0 32 1#32) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA20_zero (W : Valuation τ sig (Elt F)) :
    StableHlo.after (stA20 (F := F)) W (Proc.devRef .tc main_c_780)
      = constantI Cert.Pick.S0 32 0#32 := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_v1312 (W : Valuation τ sig (Elt F)) :
    StableHlo.after (stA20 (F := F)) W (Proc.devRef .tc main_v1312) = W (Proc.devRef .tc main_v1312) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_v25 (W : Valuation τ sig (Elt F)) :
    StableHlo.after (stA20 (F := F)) W (Proc.devRef .tc main_v25) = W (Proc.devRef .tc main_v25) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_v51 (W : Valuation τ sig (Elt F)) :
    StableHlo.after (stA20 (F := F)) W (Proc.devRef .tc main_v51) = W (Proc.devRef .tc main_v51) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_v77 (W : Valuation τ sig (Elt F)) :
    StableHlo.after (stA20 (F := F)) W (Proc.devRef .tc main_v77) = W (Proc.devRef .tc main_v77) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_arg0 (W : Valuation τ sig (Elt F)) :
    StableHlo.after (stA20 (F := F)) W (Proc.devRef .tc main_arg0) = W (Proc.devRef .tc main_arg0) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_arg1 (W : Valuation τ sig (Elt F)) :
    StableHlo.after (stA20 (F := F)) W (Proc.devRef .tc main_arg1) = W (Proc.devRef .tc main_arg1) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA20_at_main_arg2 (W : Valuation τ sig (Elt F)) :
    StableHlo.after (stA20 (F := F)) W (Proc.devRef .tc main_arg2) = W (Proc.devRef .tc main_arg2) := by
  simp (disch := decide) only [stA20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB20_first (W : Valuation τ sig (Elt F)) :
    StableHlo.after (stB20 (F := F)) W (Proc.devRef .tc main_v1332)
      = select (W (Proc.devRef .tc main_v1331)) (W (Proc.devRef .tc main_v1323)) (W (Proc.devRef .tc main_c_780)) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB20_second (W : Valuation τ sig (Elt F)) :
    StableHlo.after (stB20 (F := F)) W (Proc.devRef .tc main_v1334)
      = select (cmpi .sge (W (Proc.devRef .tc main_v1325)) (constantI Cert.Pick.S0 32 2#32)) (W (Proc.devRef .tc main_v1330))
          (constantI Cert.Pick.S0 32 0#32) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB20_at_main_v1325 (W : Valuation τ sig (Elt F)) :
    StableHlo.after (stB20 (F := F)) W (Proc.devRef .tc main_v1325) = W (Proc.devRef .tc main_v1325) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_v1312 (W : Valuation τ sig (Elt F)) :
    StableHlo.after (stB20 (F := F)) W (Proc.devRef .tc main_v1312) = W (Proc.devRef .tc main_v1312) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_v25 (W : Valuation τ sig (Elt F)) :
    StableHlo.after (stB20 (F := F)) W (Proc.devRef .tc main_v25) = W (Proc.devRef .tc main_v25) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_v51 (W : Valuation τ sig (Elt F)) :
    StableHlo.after (stB20 (F := F)) W (Proc.devRef .tc main_v51) = W (Proc.devRef .tc main_v51) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_v77 (W : Valuation τ sig (Elt F)) :
    StableHlo.after (stB20 (F := F)) W (Proc.devRef .tc main_v77) = W (Proc.devRef .tc main_v77) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_arg0 (W : Valuation τ sig (Elt F)) :
    StableHlo.after (stB20 (F := F)) W (Proc.devRef .tc main_arg0) = W (Proc.devRef .tc main_arg0) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_arg1 (W : Valuation τ sig (Elt F)) :
    StableHlo.after (stB20 (F := F)) W (Proc.devRef .tc main_arg1) = W (Proc.devRef .tc main_arg1) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB20_at_main_arg2 (W : Valuation τ sig (Elt F)) :
    StableHlo.after (stB20 (F := F)) W (Proc.devRef .tc main_arg2) = W (Proc.devRef .tc main_arg2) := by
  simp (disch := decide) only [stB20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC20_loss (W : Valuation τ sig (Elt F)) :
    StableHlo.after (stC20 (F := F)) W (Proc.devRef .tc main_v1373)
      = subf (W (Proc.devRef .tc main_v1312))
          (Cert.Val.negTerm (W (Proc.devRef .tc main_v1332)) (W (Proc.devRef .tc main_v1334)) (W (Proc.devRef .tc main_v1332))
            (cmpi .sgt (W (Proc.devRef .tc main_v1325)) (constantI Cert.Pick.S0 32 0#32))
            (W (Proc.devRef .tc main_arg0)) (W (Proc.devRef .tc main_arg1)) (W (Proc.devRef .tc main_arg2))) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC20_at_main_v25 (W : Valuation τ sig (Elt F)) :
    StableHlo.after (stC20 (F := F)) W (Proc.devRef .tc main_v25) = W (Proc.devRef .tc main_v25) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC20_at_main_v51 (W : Valuation τ sig (Elt F)) :
    StableHlo.after (stC20 (F := F)) W (Proc.devRef .tc main_v51) = W (Proc.devRef .tc main_v51) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC20_at_main_v77 (W : Valuation τ sig (Elt F)) :
    StableHlo.after (stC20 (F := F)) W (Proc.devRef .tc main_v77) = W (Proc.devRef .tc main_v77) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC20_at_main_arg0 (W : Valuation τ sig (Elt F)) :
    StableHlo.after (stC20 (F := F)) W (Proc.devRef .tc main_arg0) = W (Proc.devRef .tc main_arg0) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC20_at_main_arg1 (W : Valuation τ sig (Elt F)) :
    StableHlo.after (stC20 (F := F)) W (Proc.devRef .tc main_arg1) = W (Proc.devRef .tc main_arg1) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC20_at_main_arg2 (W : Valuation τ sig (Elt F)) :
    StableHlo.after (stC20 (F := F)) W (Proc.devRef .tc main_arg2) = W (Proc.devRef .tc main_arg2) := by
  simp (disch := decide) only [stC20, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec20_loss (X : Valuation τ sig (Elt F)) :
    StableHlo.after (G20 (F := F)) X (Proc.devRef .tc main_v1373)
      = subf (X (Proc.devRef .tc main_v1312))
          (Cert.Val.kTerm ⟨2#32, 7#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA20 ++ (stB20 ++ stC20)) X _ = _
  rw [after_append, after_append, stC20_loss, stB20_first, stB20_second, stB20_at_main_v1325, stB20_at_main_v1312,
    stB20_at_main_arg0, stB20_at_main_arg1, stB20_at_main_arg2,
    stA20_cnt, stA20_min, stA20_min2, stA20_ge1, stA20_zero, stA20_at_main_v1312,
    stA20_at_main_arg0, stA20_at_main_arg1, stA20_at_main_arg2]
  simp only [Cert.Val.kTerm, Cert.Val.kWord, Cert.Val.kFirst, Cert.Val.kSecond, Cert.Val.kPos]

/-- The group leaves the code vectors and the volume arrays as they were. -/
theorem rec20_keeps (X : Valuation τ sig (Elt F)) :
    StableHlo.after (G20 (F := F)) X (Proc.devRef .tc main_v25) = X (Proc.devRef .tc main_v25)
    ∧ StableHlo.after (G20 (F := F)) X (Proc.devRef .tc main_v51) = X (Proc.devRef .tc main_v51)
    ∧ StableHlo.after (G20 (F := F)) X (Proc.devRef .tc main_v77) = X (Proc.devRef .tc main_v77)
    ∧ StableHlo.after (G20 (F := F)) X (Proc.devRef .tc main_arg0) = X (Proc.devRef .tc main_arg0)
    ∧ StableHlo.after (G20 (F := F)) X (Proc.devRef .tc main_arg1) = X (Proc.devRef .tc main_arg1)
    ∧ StableHlo.after (G20 (F := F)) X (Proc.devRef .tc main_arg2) = X (Proc.devRef .tc main_arg2) := by
  refine ⟨?_, ?_, ?_, ?_, ?_, ?_⟩ <;> show StableHlo.after (stA20 ++ (stB20 ++ stC20)) X _ = _
  · rw [after_append, after_append, stC20_at_main_v25, stB20_at_main_v25, stA20_at_main_v25]
  · rw [after_append, after_append, stC20_at_main_v51, stB20_at_main_v51, stA20_at_main_v51]
  · rw [after_append, after_append, stC20_at_main_v77, stB20_at_main_v77, stA20_at_main_v77]
  · rw [after_append, after_append, stC20_at_main_arg0, stB20_at_main_arg0, stA20_at_main_arg0]
  · rw [after_append, after_append, stC20_at_main_arg1, stB20_at_main_arg1, stA20_at_main_arg1]
  · rw [after_append, after_append, stC20_at_main_arg2, stB20_at_main_arg2, stA20_at_main_arg2]

end Cert.KernelIdeal.Tl

end
-- ==== Proof.Val.KTail21.lean ====
/- Recipe 21 of the 22 negative recipes, in the host operations after the region.
   The group runs from just after the previous recipe's subtraction to this recipe's, in three stages. The first
   forms the recipe's mask from the three code vectors, counts its selected rows, and takes the two minimum
   reductions: the least selected row, and the least selected row of the mask without that row. The second guards
   the two minima by the count. The third reads one row of each volume array at the guarded rows, forms the
   recipe's term and subtracts it from the running loss. The running loss after the group is the one before it
   minus the recipe's term, and the group leaves the code vectors and the volume arrays as they were. -/
import proofs.«404644_j25400436588780_1_alg».proof.Proof.KI.LaunchP
import proofs.«404644_j25400436588780_1_alg».proof.Proof.Val.Terms
import proofs.«404644_j25400436588780_1_alg».proof.Proof.Val.Cut

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append firstOf restOf firstOf_cons restOf_cons unaryIndexed2_result)

variable {F : FTy → Type} [FloatOps F]

/-! ## The three stages -/

/-- The mask, the count, the two minimum reductions, the first guard. -/
def stA21 : List (HloOp τ sig (Elt F)) :=
  restOf hostOps1_252 ++ (hostOps1_253 ++ (hostOps1_254 ++ (hostOps1_255 ++ (hostOps1_256))))

/-- The two guarded rows. -/
def stB21 : List (HloOp τ sig (Elt F)) :=
  hostOps1_257 ++ (hostOps1_258 ++ (hostOps1_259))

/-- The three rows read, the recipe's term, the subtraction. -/
def stC21 : List (HloOp τ sig (Elt F)) :=
  hostOps1_260 ++ (hostOps1_261 ++ (hostOps1_262 ++ (hostOps1_263 ++ (hostOps1_264))))

/-- The operations of the group. -/
abbrev G21 : List (HloOp τ sig (Elt F)) := stA21 ++ (stB21 ++ stC21)

/-! ## The first stage -/

theorem stA21_cnt (W : Valuation τ sig (Elt F)) :
    StableHlo.after (stA21 (F := F)) W (Proc.devRef .tc main_v1386)
      = Cert.Val.cntw (Cert.Val.maskOf 7#32 2#32 2#32 (W (Proc.devRef .tc main_v25)) (W (Proc.devRef .tc main_v51)) (W (Proc.devRef .tc main_v77))) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA21_min (W : Valuation τ sig (Elt F)) :
    StableHlo.after (stA21 (F := F)) W (Proc.devRef .tc main_v1384)
      = Cert.Val.minRow (Cert.Val.maskOf 7#32 2#32 2#32 (W (Proc.devRef .tc main_v25)) (W (Proc.devRef .tc main_v51)) (W (Proc.devRef .tc main_v77))) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA21_min2 (W : Valuation τ sig (Elt F)) :
    StableHlo.after (stA21 (F := F)) W (Proc.devRef .tc main_v1391)
      = Cert.Val.minRow (Cert.Val.dropMin (Cert.Val.maskOf 7#32 2#32 2#32 (W (Proc.devRef .tc main_v25)) (W (Proc.devRef .tc main_v51)) (W (Proc.devRef .tc main_v77)))) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA21_ge1 (W : Valuation τ sig (Elt F)) :
    StableHlo.after (stA21 (F := F)) W (Proc.devRef .tc main_v1392)
      = cmpi .sge (Cert.Val.cntw (Cert.Val.maskOf 7#32 2#32 2#32 (W (Proc.devRef .tc main_v25)) (W (Proc.devRef .tc main_v51)) (W (Proc.devRef .tc main_v77)))) (constantI Cert.Pick.S0 32 1#32) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stA21_zero (W : Valuation τ sig (Elt F)) :
    StableHlo.after (stA21 (F := F)) W (Proc.devRef .tc main_c_817)
      = constantI Cert.Pick.S0 32 0#32 := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_v1373 (W : Valuation τ sig (Elt F)) :
    StableHlo.after (stA21 (F := F)) W (Proc.devRef .tc main_v1373) = W (Proc.devRef .tc main_v1373) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_v25 (W : Valuation τ sig (Elt F)) :
    StableHlo.after (stA21 (F := F)) W (Proc.devRef .tc main_v25) = W (Proc.devRef .tc main_v25) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_v51 (W : Valuation τ sig (Elt F)) :
    StableHlo.after (stA21 (F := F)) W (Proc.devRef .tc main_v51) = W (Proc.devRef .tc main_v51) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_v77 (W : Valuation τ sig (Elt F)) :
    StableHlo.after (stA21 (F := F)) W (Proc.devRef .tc main_v77) = W (Proc.devRef .tc main_v77) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_arg0 (W : Valuation τ sig (Elt F)) :
    StableHlo.after (stA21 (F := F)) W (Proc.devRef .tc main_arg0) = W (Proc.devRef .tc main_arg0) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_arg1 (W : Valuation τ sig (Elt F)) :
    StableHlo.after (stA21 (F := F)) W (Proc.devRef .tc main_arg1) = W (Proc.devRef .tc main_arg1) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stA21_at_main_arg2 (W : Valuation τ sig (Elt F)) :
    StableHlo.after (stA21 (F := F)) W (Proc.devRef .tc main_arg2) = W (Proc.devRef .tc main_arg2) := by
  simp (disch := decide) only [stA21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The second stage -/

theorem stB21_first (W : Valuation τ sig (Elt F)) :
    StableHlo.after (stB21 (F := F)) W (Proc.devRef .tc main_v1393)
      = select (W (Proc.devRef .tc main_v1392)) (W (Proc.devRef .tc main_v1384)) (W (Proc.devRef .tc main_c_817)) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB21_second (W : Valuation τ sig (Elt F)) :
    StableHlo.after (stB21 (F := F)) W (Proc.devRef .tc main_v1395)
      = select (cmpi .sge (W (Proc.devRef .tc main_v1386)) (constantI Cert.Pick.S0 32 2#32)) (W (Proc.devRef .tc main_v1391))
          (constantI Cert.Pick.S0 32 0#32) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stB21_at_main_v1386 (W : Valuation τ sig (Elt F)) :
    StableHlo.after (stB21 (F := F)) W (Proc.devRef .tc main_v1386) = W (Proc.devRef .tc main_v1386) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_v1373 (W : Valuation τ sig (Elt F)) :
    StableHlo.after (stB21 (F := F)) W (Proc.devRef .tc main_v1373) = W (Proc.devRef .tc main_v1373) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_v25 (W : Valuation τ sig (Elt F)) :
    StableHlo.after (stB21 (F := F)) W (Proc.devRef .tc main_v25) = W (Proc.devRef .tc main_v25) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_v51 (W : Valuation τ sig (Elt F)) :
    StableHlo.after (stB21 (F := F)) W (Proc.devRef .tc main_v51) = W (Proc.devRef .tc main_v51) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_v77 (W : Valuation τ sig (Elt F)) :
    StableHlo.after (stB21 (F := F)) W (Proc.devRef .tc main_v77) = W (Proc.devRef .tc main_v77) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_arg0 (W : Valuation τ sig (Elt F)) :
    StableHlo.after (stB21 (F := F)) W (Proc.devRef .tc main_arg0) = W (Proc.devRef .tc main_arg0) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_arg1 (W : Valuation τ sig (Elt F)) :
    StableHlo.after (stB21 (F := F)) W (Proc.devRef .tc main_arg1) = W (Proc.devRef .tc main_arg1) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stB21_at_main_arg2 (W : Valuation τ sig (Elt F)) :
    StableHlo.after (stB21 (F := F)) W (Proc.devRef .tc main_arg2) = W (Proc.devRef .tc main_arg2) := by
  simp (disch := decide) only [stB21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The third stage -/

set_option maxHeartbeats 4000000 in
theorem stC21_loss (W : Valuation τ sig (Elt F)) :
    StableHlo.after (stC21 (F := F)) W (Proc.devRef .tc main_v1434)
      = subf (W (Proc.devRef .tc main_v1373))
          (Cert.Val.negTerm (W (Proc.devRef .tc main_v1395)) (W (Proc.devRef .tc main_v1393)) (W (Proc.devRef .tc main_v1393))
            (cmpi .sgt (W (Proc.devRef .tc main_v1386)) (constantI Cert.Pick.S0 32 0#32))
            (W (Proc.devRef .tc main_arg0)) (W (Proc.devRef .tc main_arg1)) (W (Proc.devRef .tc main_arg2))) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']
  rfl

theorem stC21_at_main_v25 (W : Valuation τ sig (Elt F)) :
    StableHlo.after (stC21 (F := F)) W (Proc.devRef .tc main_v25) = W (Proc.devRef .tc main_v25) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC21_at_main_v51 (W : Valuation τ sig (Elt F)) :
    StableHlo.after (stC21 (F := F)) W (Proc.devRef .tc main_v51) = W (Proc.devRef .tc main_v51) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC21_at_main_v77 (W : Valuation τ sig (Elt F)) :
    StableHlo.after (stC21 (F := F)) W (Proc.devRef .tc main_v77) = W (Proc.devRef .tc main_v77) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC21_at_main_arg0 (W : Valuation τ sig (Elt F)) :
    StableHlo.after (stC21 (F := F)) W (Proc.devRef .tc main_arg0) = W (Proc.devRef .tc main_arg0) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC21_at_main_arg1 (W : Valuation τ sig (Elt F)) :
    StableHlo.after (stC21 (F := F)) W (Proc.devRef .tc main_arg1) = W (Proc.devRef .tc main_arg1) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

theorem stC21_at_main_arg2 (W : Valuation τ sig (Elt F)) :
    StableHlo.after (stC21 (F := F)) W (Proc.devRef .tc main_arg2) = W (Proc.devRef .tc main_arg2) := by
  simp (disch := decide) only [stC21, after_append, firstOf_cons, restOf_cons, StableHlo.after_cons, StableHlo.after_nil,
    StableHlo.nullary_result', StableHlo.unary_result', StableHlo.binary_result', StableHlo.ternary_result',
    StableHlo.reshape_result', unaryIndexed2_result,
    StableHlo.nullary_result_ne', StableHlo.unary_result_ne', StableHlo.binary_result_ne', StableHlo.ternary_result_ne',
    StableHlo.reshape_result_ne', StableHlo.unaryIndexed_result_ne']

/-! ## The group -/

/-- The running loss after the group. -/
theorem rec21_loss (X : Valuation τ sig (Elt F)) :
    StableHlo.after (G21 (F := F)) X (Proc.devRef .tc main_v1434)
      = subf (X (Proc.devRef .tc main_v1373))
          (Cert.Val.kTerm ⟨7#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  show StableHlo.after (stA21 ++ (stB21 ++ stC21)) X _ = _
  rw [after_append, after_append, stC21_loss, stB21_first, stB21_second, stB21_at_main_v1386, stB21_at_main_v1373,
    stB21_at_main_arg0, stB21_at_main_arg1, stB21_at_main_arg2,
    stA21_cnt, stA21_min, stA21_min2, stA21_ge1, stA21_zero, stA21_at_main_v1373,
    stA21_at_main_arg0, stA21_at_main_arg1, stA21_at_main_arg2]
  simp only [Cert.Val.kTerm, Cert.Val.kWord, Cert.Val.kFirst, Cert.Val.kSecond, Cert.Val.kPos]

/-- The group leaves the code vectors and the volume arrays as they were. -/
theorem rec21_keeps (X : Valuation τ sig (Elt F)) :
    StableHlo.after (G21 (F := F)) X (Proc.devRef .tc main_v25) = X (Proc.devRef .tc main_v25)
    ∧ StableHlo.after (G21 (F := F)) X (Proc.devRef .tc main_v51) = X (Proc.devRef .tc main_v51)
    ∧ StableHlo.after (G21 (F := F)) X (Proc.devRef .tc main_v77) = X (Proc.devRef .tc main_v77)
    ∧ StableHlo.after (G21 (F := F)) X (Proc.devRef .tc main_arg0) = X (Proc.devRef .tc main_arg0)
    ∧ StableHlo.after (G21 (F := F)) X (Proc.devRef .tc main_arg1) = X (Proc.devRef .tc main_arg1)
    ∧ StableHlo.after (G21 (F := F)) X (Proc.devRef .tc main_arg2) = X (Proc.devRef .tc main_arg2) := by
  refine ⟨?_, ?_, ?_, ?_, ?_, ?_⟩ <;> show StableHlo.after (stA21 ++ (stB21 ++ stC21)) X _ = _
  · rw [after_append, after_append, stC21_at_main_v25, stB21_at_main_v25, stA21_at_main_v25]
  · rw [after_append, after_append, stC21_at_main_v51, stB21_at_main_v51, stA21_at_main_v51]
  · rw [after_append, after_append, stC21_at_main_v77, stB21_at_main_v77, stA21_at_main_v77]
  · rw [after_append, after_append, stC21_at_main_arg0, stB21_at_main_arg0, stA21_at_main_arg0]
  · rw [after_append, after_append, stC21_at_main_arg1, stB21_at_main_arg1, stA21_at_main_arg1]
  · rw [after_append, after_append, stC21_at_main_arg2, stB21_at_main_arg2, stA21_at_main_arg2]

end Cert.KernelIdeal.Tl

end
-- ==== Proof.Val.KTailSteps.lean ====
/- The 22 groups of the tail run in turn. Running a group and then the groups after it: the later groups' loss,
   started from this group's running loss, is the loss of this recipe and the later ones started from the running
   loss before the group, because the group subtracts this recipe's term and leaves the code vectors and the
   volume arrays as they were. -/
import proofs.«404644_j25400436588780_1_alg».proof.Proof.Val.KTail00
import proofs.«404644_j25400436588780_1_alg».proof.Proof.Val.KTail01
import proofs.«404644_j25400436588780_1_alg».proof.Proof.Val.KTail02
import proofs.«404644_j25400436588780_1_alg».proof.Proof.Val.KTail03
import proofs.«404644_j25400436588780_1_alg».proof.Proof.Val.KTail04
import proofs.«404644_j25400436588780_1_alg».proof.Proof.Val.KTail05
import proofs.«404644_j25400436588780_1_alg».proof.Proof.Val.KTail06
import proofs.«404644_j25400436588780_1_alg».proof.Proof.Val.KTail07
import proofs.«404644_j25400436588780_1_alg».proof.Proof.Val.KTail08
import proofs.«404644_j25400436588780_1_alg».proof.Proof.Val.KTail09
import proofs.«404644_j25400436588780_1_alg».proof.Proof.Val.KTail10
import proofs.«404644_j25400436588780_1_alg».proof.Proof.Val.KTail11
import proofs.«404644_j25400436588780_1_alg».proof.Proof.Val.KTail12
import proofs.«404644_j25400436588780_1_alg».proof.Proof.Val.KTail13
import proofs.«404644_j25400436588780_1_alg».proof.Proof.Val.KTail14
import proofs.«404644_j25400436588780_1_alg».proof.Proof.Val.KTail15
import proofs.«404644_j25400436588780_1_alg».proof.Proof.Val.KTail16
import proofs.«404644_j25400436588780_1_alg».proof.Proof.Val.KTail17
import proofs.«404644_j25400436588780_1_alg».proof.Proof.Val.KTail18
import proofs.«404644_j25400436588780_1_alg».proof.Proof.Val.KTail19
import proofs.«404644_j25400436588780_1_alg».proof.Proof.Val.KTail20
import proofs.«404644_j25400436588780_1_alg».proof.Proof.Val.KTail21

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (after_append)

variable {F : FTy → Type} [FloatOps F]

/-- The groups from recipe 21 on. -/
abbrev T21 : List (HloOp τ sig (Elt F)) := G21

/-- The final loss, from the running loss before recipe 21. -/
theorem tail21 (X : Valuation τ sig (Elt F)) :
    StableHlo.after (T21 (F := F)) X (Proc.devRef .tc main_v1434)
      = Cert.Val.kLossOf (X (Proc.devRef .tc main_v1373))
          [⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  rw [rec21_loss X]
  simp only [Cert.Val.kLossOf, List.foldl_cons, List.foldl_nil]

/-- The groups from recipe 20 on. -/
abbrev T20 : List (HloOp τ sig (Elt F)) := G20 ++ T21

/-- The final loss, from the running loss before recipe 20. -/
theorem tail20 (X : Valuation τ sig (Elt F)) :
    StableHlo.after (T20 (F := F)) X (Proc.devRef .tc main_v1434)
      = Cert.Val.kLossOf (X (Proc.devRef .tc main_v1312))
          [⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G20 ++ T21) X _ = _
  rw [after_append, tail21 (StableHlo.after G20 X), rec20_loss X]
  obtain ⟨h1, h2, h3, h4, h5, h6⟩ := rec20_keeps X
  rw [h1, h2, h3, h4, h5, h6]
  simp only [Cert.Val.kLossOf, List.foldl_cons]

/-- The groups from recipe 19 on. -/
abbrev T19 : List (HloOp τ sig (Elt F)) := G19 ++ T20

/-- The final loss, from the running loss before recipe 19. -/
theorem tail19 (X : Valuation τ sig (Elt F)) :
    StableHlo.after (T19 (F := F)) X (Proc.devRef .tc main_v1434)
      = Cert.Val.kLossOf (X (Proc.devRef .tc main_v1251))
          [⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G19 ++ T20) X _ = _
  rw [after_append, tail20 (StableHlo.after G19 X), rec19_loss X]
  obtain ⟨h1, h2, h3, h4, h5, h6⟩ := rec19_keeps X
  rw [h1, h2, h3, h4, h5, h6]
  simp only [Cert.Val.kLossOf, List.foldl_cons]

/-- The groups from recipe 18 on. -/
abbrev T18 : List (HloOp τ sig (Elt F)) := G18 ++ T19

/-- The final loss, from the running loss before recipe 18. -/
theorem tail18 (X : Valuation τ sig (Elt F)) :
    StableHlo.after (T18 (F := F)) X (Proc.devRef .tc main_v1434)
      = Cert.Val.kLossOf (X (Proc.devRef .tc main_v1190))
          [⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G18 ++ T19) X _ = _
  rw [after_append, tail19 (StableHlo.after G18 X), rec18_loss X]
  obtain ⟨h1, h2, h3, h4, h5, h6⟩ := rec18_keeps X
  rw [h1, h2, h3, h4, h5, h6]
  simp only [Cert.Val.kLossOf, List.foldl_cons]

/-- The groups from recipe 17 on. -/
abbrev T17 : List (HloOp τ sig (Elt F)) := G17 ++ T18

/-- The final loss, from the running loss before recipe 17. -/
theorem tail17 (X : Valuation τ sig (Elt F)) :
    StableHlo.after (T17 (F := F)) X (Proc.devRef .tc main_v1434)
      = Cert.Val.kLossOf (X (Proc.devRef .tc main_v1129))
          [⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G17 ++ T18) X _ = _
  rw [after_append, tail18 (StableHlo.after G17 X), rec17_loss X]
  obtain ⟨h1, h2, h3, h4, h5, h6⟩ := rec17_keeps X
  rw [h1, h2, h3, h4, h5, h6]
  simp only [Cert.Val.kLossOf, List.foldl_cons]

/-- The groups from recipe 16 on. -/
abbrev T16 : List (HloOp τ sig (Elt F)) := G16 ++ T17

/-- The final loss, from the running loss before recipe 16. -/
theorem tail16 (X : Valuation τ sig (Elt F)) :
    StableHlo.after (T16 (F := F)) X (Proc.devRef .tc main_v1434)
      = Cert.Val.kLossOf (X (Proc.devRef .tc main_v1068))
          [⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G16 ++ T17) X _ = _
  rw [after_append, tail17 (StableHlo.after G16 X), rec16_loss X]
  obtain ⟨h1, h2, h3, h4, h5, h6⟩ := rec16_keeps X
  rw [h1, h2, h3, h4, h5, h6]
  simp only [Cert.Val.kLossOf, List.foldl_cons]

/-- The groups from recipe 15 on. -/
abbrev T15 : List (HloOp τ sig (Elt F)) := G15 ++ T16

/-- The final loss, from the running loss before recipe 15. -/
theorem tail15 (X : Valuation τ sig (Elt F)) :
    StableHlo.after (T15 (F := F)) X (Proc.devRef .tc main_v1434)
      = Cert.Val.kLossOf (X (Proc.devRef .tc main_v1007))
          [⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G15 ++ T16) X _ = _
  rw [after_append, tail16 (StableHlo.after G15 X), rec15_loss X]
  obtain ⟨h1, h2, h3, h4, h5, h6⟩ := rec15_keeps X
  rw [h1, h2, h3, h4, h5, h6]
  simp only [Cert.Val.kLossOf, List.foldl_cons]

/-- The groups from recipe 14 on. -/
abbrev T14 : List (HloOp τ sig (Elt F)) := G14 ++ T15

/-- The final loss, from the running loss before recipe 14. -/
theorem tail14 (X : Valuation τ sig (Elt F)) :
    StableHlo.after (T14 (F := F)) X (Proc.devRef .tc main_v1434)
      = Cert.Val.kLossOf (X (Proc.devRef .tc main_v946))
          [⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G14 ++ T15) X _ = _
  rw [after_append, tail15 (StableHlo.after G14 X), rec14_loss X]
  obtain ⟨h1, h2, h3, h4, h5, h6⟩ := rec14_keeps X
  rw [h1, h2, h3, h4, h5, h6]
  simp only [Cert.Val.kLossOf, List.foldl_cons]

/-- The groups from recipe 13 on. -/
abbrev T13 : List (HloOp τ sig (Elt F)) := G13 ++ T14

/-- The final loss, from the running loss before recipe 13. -/
theorem tail13 (X : Valuation τ sig (Elt F)) :
    StableHlo.after (T13 (F := F)) X (Proc.devRef .tc main_v1434)
      = Cert.Val.kLossOf (X (Proc.devRef .tc main_v885))
          [⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G13 ++ T14) X _ = _
  rw [after_append, tail14 (StableHlo.after G13 X), rec13_loss X]
  obtain ⟨h1, h2, h3, h4, h5, h6⟩ := rec13_keeps X
  rw [h1, h2, h3, h4, h5, h6]
  simp only [Cert.Val.kLossOf, List.foldl_cons]

/-- The groups from recipe 12 on. -/
abbrev T12 : List (HloOp τ sig (Elt F)) := G12 ++ T13

/-- The final loss, from the running loss before recipe 12. -/
theorem tail12 (X : Valuation τ sig (Elt F)) :
    StableHlo.after (T12 (F := F)) X (Proc.devRef .tc main_v1434)
      = Cert.Val.kLossOf (X (Proc.devRef .tc main_v824))
          [⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G12 ++ T13) X _ = _
  rw [after_append, tail13 (StableHlo.after G12 X), rec12_loss X]
  obtain ⟨h1, h2, h3, h4, h5, h6⟩ := rec12_keeps X
  rw [h1, h2, h3, h4, h5, h6]
  simp only [Cert.Val.kLossOf, List.foldl_cons]

/-- The groups from recipe 11 on. -/
abbrev T11 : List (HloOp τ sig (Elt F)) := G11 ++ T12

/-- The final loss, from the running loss before recipe 11. -/
theorem tail11 (X : Valuation τ sig (Elt F)) :
    StableHlo.after (T11 (F := F)) X (Proc.devRef .tc main_v1434)
      = Cert.Val.kLossOf (X (Proc.devRef .tc main_v763))
          [⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G11 ++ T12) X _ = _
  rw [after_append, tail12 (StableHlo.after G11 X), rec11_loss X]
  obtain ⟨h1, h2, h3, h4, h5, h6⟩ := rec11_keeps X
  rw [h1, h2, h3, h4, h5, h6]
  simp only [Cert.Val.kLossOf, List.foldl_cons]

/-- The groups from recipe 10 on. -/
abbrev T10 : List (HloOp τ sig (Elt F)) := G10 ++ T11

/-- The final loss, from the running loss before recipe 10. -/
theorem tail10 (X : Valuation τ sig (Elt F)) :
    StableHlo.after (T10 (F := F)) X (Proc.devRef .tc main_v1434)
      = Cert.Val.kLossOf (X (Proc.devRef .tc main_v702))
          [⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G10 ++ T11) X _ = _
  rw [after_append, tail11 (StableHlo.after G10 X), rec10_loss X]
  obtain ⟨h1, h2, h3, h4, h5, h6⟩ := rec10_keeps X
  rw [h1, h2, h3, h4, h5, h6]
  simp only [Cert.Val.kLossOf, List.foldl_cons]

/-- The groups from recipe 9 on. -/
abbrev T09 : List (HloOp τ sig (Elt F)) := G09 ++ T10

/-- The final loss, from the running loss before recipe 9. -/
theorem tail09 (X : Valuation τ sig (Elt F)) :
    StableHlo.after (T09 (F := F)) X (Proc.devRef .tc main_v1434)
      = Cert.Val.kLossOf (X (Proc.devRef .tc main_v641))
          [⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G09 ++ T10) X _ = _
  rw [after_append, tail10 (StableHlo.after G09 X), rec09_loss X]
  obtain ⟨h1, h2, h3, h4, h5, h6⟩ := rec09_keeps X
  rw [h1, h2, h3, h4, h5, h6]
  simp only [Cert.Val.kLossOf, List.foldl_cons]

/-- The groups from recipe 8 on. -/
abbrev T08 : List (HloOp τ sig (Elt F)) := G08 ++ T09

/-- The final loss, from the running loss before recipe 8. -/
theorem tail08 (X : Valuation τ sig (Elt F)) :
    StableHlo.after (T08 (F := F)) X (Proc.devRef .tc main_v1434)
      = Cert.Val.kLossOf (X (Proc.devRef .tc main_v580))
          [⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G08 ++ T09) X _ = _
  rw [after_append, tail09 (StableHlo.after G08 X), rec08_loss X]
  obtain ⟨h1, h2, h3, h4, h5, h6⟩ := rec08_keeps X
  rw [h1, h2, h3, h4, h5, h6]
  simp only [Cert.Val.kLossOf, List.foldl_cons]

/-- The groups from recipe 7 on. -/
abbrev T07 : List (HloOp τ sig (Elt F)) := G07 ++ T08

/-- The final loss, from the running loss before recipe 7. -/
theorem tail07 (X : Valuation τ sig (Elt F)) :
    StableHlo.after (T07 (F := F)) X (Proc.devRef .tc main_v1434)
      = Cert.Val.kLossOf (X (Proc.devRef .tc main_v519))
          [⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G07 ++ T08) X _ = _
  rw [after_append, tail08 (StableHlo.after G07 X), rec07_loss X]
  obtain ⟨h1, h2, h3, h4, h5, h6⟩ := rec07_keeps X
  rw [h1, h2, h3, h4, h5, h6]
  simp only [Cert.Val.kLossOf, List.foldl_cons]

/-- The groups from recipe 6 on. -/
abbrev T06 : List (HloOp τ sig (Elt F)) := G06 ++ T07

/-- The final loss, from the running loss before recipe 6. -/
theorem tail06 (X : Valuation τ sig (Elt F)) :
    StableHlo.after (T06 (F := F)) X (Proc.devRef .tc main_v1434)
      = Cert.Val.kLossOf (X (Proc.devRef .tc main_v458))
          [⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G06 ++ T07) X _ = _
  rw [after_append, tail07 (StableHlo.after G06 X), rec06_loss X]
  obtain ⟨h1, h2, h3, h4, h5, h6⟩ := rec06_keeps X
  rw [h1, h2, h3, h4, h5, h6]
  simp only [Cert.Val.kLossOf, List.foldl_cons]

/-- The groups from recipe 5 on. -/
abbrev T05 : List (HloOp τ sig (Elt F)) := G05 ++ T06

/-- The final loss, from the running loss before recipe 5. -/
theorem tail05 (X : Valuation τ sig (Elt F)) :
    StableHlo.after (T05 (F := F)) X (Proc.devRef .tc main_v1434)
      = Cert.Val.kLossOf (X (Proc.devRef .tc main_v397))
          [⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G05 ++ T06) X _ = _
  rw [after_append, tail06 (StableHlo.after G05 X), rec05_loss X]
  obtain ⟨h1, h2, h3, h4, h5, h6⟩ := rec05_keeps X
  rw [h1, h2, h3, h4, h5, h6]
  simp only [Cert.Val.kLossOf, List.foldl_cons]

/-- The groups from recipe 4 on. -/
abbrev T04 : List (HloOp τ sig (Elt F)) := G04 ++ T05

/-- The final loss, from the running loss before recipe 4. -/
theorem tail04 (X : Valuation τ sig (Elt F)) :
    StableHlo.after (T04 (F := F)) X (Proc.devRef .tc main_v1434)
      = Cert.Val.kLossOf (X (Proc.devRef .tc main_v336))
          [⟨1#32, 5#32, 0#32, false, true, false⟩, ⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G04 ++ T05) X _ = _
  rw [after_append, tail05 (StableHlo.after G04 X), rec04_loss X]
  obtain ⟨h1, h2, h3, h4, h5, h6⟩ := rec04_keeps X
  rw [h1, h2, h3, h4, h5, h6]
  simp only [Cert.Val.kLossOf, List.foldl_cons]

/-- The groups from recipe 3 on. -/
abbrev T03 : List (HloOp τ sig (Elt F)) := G03 ++ T04

/-- The final loss, from the running loss before recipe 3. -/
theorem tail03 (X : Valuation τ sig (Elt F)) :
    StableHlo.after (T03 (F := F)) X (Proc.devRef .tc main_v1434)
      = Cert.Val.kLossOf (X (Proc.devRef .tc main_v275))
          [⟨0#32, 6#32, 2#32, false, true, false⟩, ⟨1#32, 5#32, 0#32, false, true, false⟩, ⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G03 ++ T04) X _ = _
  rw [after_append, tail04 (StableHlo.after G03 X), rec03_loss X]
  obtain ⟨h1, h2, h3, h4, h5, h6⟩ := rec03_keeps X
  rw [h1, h2, h3, h4, h5, h6]
  simp only [Cert.Val.kLossOf, List.foldl_cons]

/-- The groups from recipe 2 on. -/
abbrev T02 : List (HloOp τ sig (Elt F)) := G02 ++ T03

/-- The final loss, from the running loss before recipe 2. -/
theorem tail02 (X : Valuation τ sig (Elt F)) :
    StableHlo.after (T02 (F := F)) X (Proc.devRef .tc main_v1434)
      = Cert.Val.kLossOf (X (Proc.devRef .tc main_v214))
          [⟨0#32, 6#32, 1#32, false, true, false⟩, ⟨0#32, 6#32, 2#32, false, true, false⟩, ⟨1#32, 5#32, 0#32, false, true, false⟩, ⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G02 ++ T03) X _ = _
  rw [after_append, tail03 (StableHlo.after G02 X), rec02_loss X]
  obtain ⟨h1, h2, h3, h4, h5, h6⟩ := rec02_keeps X
  rw [h1, h2, h3, h4, h5, h6]
  simp only [Cert.Val.kLossOf, List.foldl_cons]

/-- The groups from recipe 1 on. -/
abbrev T01 : List (HloOp τ sig (Elt F)) := G01 ++ T02

/-- The final loss, from the running loss before recipe 1. -/
theorem tail01 (X : Valuation τ sig (Elt F)) :
    StableHlo.after (T01 (F := F)) X (Proc.devRef .tc main_v1434)
      = Cert.Val.kLossOf (X (Proc.devRef .tc main_v153))
          [⟨0#32, 4#32, 2#32, false, true, false⟩, ⟨0#32, 6#32, 1#32, false, true, false⟩, ⟨0#32, 6#32, 2#32, false, true, false⟩, ⟨1#32, 5#32, 0#32, false, true, false⟩, ⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G01 ++ T02) X _ = _
  rw [after_append, tail02 (StableHlo.after G01 X), rec01_loss X]
  obtain ⟨h1, h2, h3, h4, h5, h6⟩ := rec01_keeps X
  rw [h1, h2, h3, h4, h5, h6]
  simp only [Cert.Val.kLossOf, List.foldl_cons]

/-- The groups from recipe 0 on. -/
abbrev T00 : List (HloOp τ sig (Elt F)) := G00 ++ T01

/-- The final loss, from the running loss before recipe 0. -/
theorem tail00 (X : Valuation τ sig (Elt F)) :
    StableHlo.after (T00 (F := F)) X (Proc.devRef .tc main_v1434)
      = Cert.Val.kLossOf (Host.negf (shapeCast S_ (X (Proc.devRef .tc main_v90)) shapeCasts_S1x1_S_))
          [⟨0#32, 4#32, 1#32, false, true, false⟩, ⟨0#32, 4#32, 2#32, false, true, false⟩, ⟨0#32, 6#32, 1#32, false, true, false⟩, ⟨0#32, 6#32, 2#32, false, true, false⟩, ⟨1#32, 5#32, 0#32, false, true, false⟩, ⟨1#32, 5#32, 2#32, false, true, false⟩, ⟨1#32, 6#32, 0#32, false, true, false⟩, ⟨1#32, 6#32, 2#32, false, true, false⟩, ⟨2#32, 4#32, 1#32, false, true, false⟩, ⟨2#32, 4#32, 2#32, false, true, false⟩, ⟨2#32, 5#32, 0#32, false, true, false⟩, ⟨2#32, 5#32, 2#32, false, true, false⟩, ⟨4#32, 0#32, 1#32, true, false, false⟩, ⟨4#32, 0#32, 2#32, true, false, false⟩, ⟨4#32, 2#32, 1#32, true, false, false⟩, ⟨4#32, 2#32, 2#32, true, false, false⟩, ⟨5#32, 1#32, 0#32, true, false, false⟩, ⟨5#32, 1#32, 2#32, true, false, false⟩, ⟨5#32, 2#32, 0#32, true, false, false⟩, ⟨5#32, 2#32, 2#32, true, false, false⟩, ⟨2#32, 7#32, 2#32, false, true, false⟩, ⟨7#32, 2#32, 2#32, true, false, false⟩]
          (X (Proc.devRef .tc main_v25)) (X (Proc.devRef .tc main_v51)) (X (Proc.devRef .tc main_v77)) (X (Proc.devRef .tc main_arg0)) (X (Proc.devRef .tc main_arg1)) (X (Proc.devRef .tc main_arg2)) := by
  show StableHlo.after (G00 ++ T01) X _ = _
  rw [after_append, tail01 (StableHlo.after G00 X), rec00_loss X]
  obtain ⟨h1, h2, h3, h4, h5, h6⟩ := rec00_keeps X
  rw [h1, h2, h3, h4, h5, h6]
  simp only [Cert.Val.kLossOf, List.foldl_cons]

end Cert.KernelIdeal.Tl

end
-- ==== Proof.LibPickMin.lean ====
/- The first and the second selected row of a 0/1 mask over 4194304 rows, found with two minimum reductions.
   The number of selected rows is the sum of the mask's bits as 32-bit words. The minimum, over all rows, of
   "the row number where the row is selected, 4194304 elsewhere", started from 2147483647, is the least selected
   row when there is one. Leaving that row out of the mask and taking the minimum again gives the least selected
   row above it, the second selected row, when there are two. Guarded by "the count is at least 1" (at least 2),
   the two minima are the 0-th and the 1-st selected row in the sense of `pick`. Nothing overflows: counts and row
   numbers are at most 4194304, far below 2³¹, so signed comparisons of the words are comparisons of the numbers. -/
import Idealize.ShloMosaic.PureOps
import Idealize.ShloMosaic.PureOps.Reduce
import Idealize.ShloMosaic.Lib.StableHlo.Predicate
import Idealize.ShloMosaic.Lib.IndicatorCount
import proofs.«404644_j25400436588780_1_alg».proof.Proof.LibPickSpec

noncomputable section

namespace Cert.Pick

open Idealize.ShloMosaic Idealize.ShloMosaic.ValueIdx
open Idealize.ShloMosaic.StableHlo.Predicate (toInt_eq_toNat_of_lt sge_iff_toNat sgt_iff_toNat)

/-! ## A reduction of a vector to a scalar is a fold over all rows -/

/-- A reduction of a vector over its one axis, by a commutative and associative operation, is the fold of the
    operation over the set of all rows, from the initial scalar. -/
theorem reduce_scalar {α : Type} (f : α → α → α) [Std.Commutative f] [Std.Associative f]
    (v : SB.Idx → α) (c : S0.Idx → α) (hr : SB.ReducesTo [0] S0) (hu : 0 < S0.numel) (j : S0.Idx) :
    Host.reduce f v c hr hu j = (Finset.univ : Finset SB.Idx).fold f (c ix0) v := by
  rw [Host.reduce_eq_fold, Finset.filter_true_of_mem (fun i _ => (eq_ix0 _).trans (eq_ix0 _).symm),
    eq_ix0 (Shape.Idx.first hu)]

/-! ## The count -/

/-- The rows whose bit is set are as many as `cnt` says. -/
theorem card_ones (x : SB.Idx → BitVec 1) :
    (Finset.univ.filter fun k : SB.Idx => x k = 1#1).card = cnt x := by
  unfold cnt
  rw [Nat.count_eq_card_filter_range]
  refine Finset.card_bij (fun i _ => (i 0).val) ?_ ?_ ?_
  · intro i hi
    rw [Finset.mem_filter] at hi ⊢
    refine ⟨Finset.mem_range.2 (i 0).isLt, (i 0).isLt, ?_⟩
    have e : ix1 (i 0) = i := (eq_ix1 i).symm
    exact e ▸ hi.2
  · intro i _ k _ h
    rw [eq_ix1 i, eq_ix1 k]
    exact congrArg ix1 (Fin.ext h)
  · intro n hn
    rw [Finset.mem_filter, Finset.mem_range] at hn
    obtain ⟨_, h, hx⟩ := hn
    exact ⟨ix1 ⟨n, h⟩, Finset.mem_filter.2 ⟨Finset.mem_univ _, hx⟩, rfl⟩

/-- The sum of the mask's bits, as 32-bit words from zero, is the number of selected rows. -/
theorem cntw_eq (x : SB.Idx → BitVec 1) (hlt : 1 < 32) (hr : SB.ReducesTo [0] S0) (hu : 0 < S0.numel) :
    Host.reduce IntOp.addi (extui 32 x hlt) (constantI S0 32 0#32) hr hu = fun _ => BitVec.ofNat 32 (cnt x) := by
  funext j
  rw [reduce_scalar]
  show Finset.univ.fold IntOp.addi 0#32 (fun k => (x k).setWidth 32) = _
  rw [IndicatorCount.fold_addi_setWidth_eq_card, card_ones]

/-! ## A fold of signed minimum over small words -/

/-- On two words below 2³¹ signed "less than" is "less than" of the values. -/
theorem slt_iff {a b : BitVec 32} (ha : a.toNat < 2 ^ 31) (hb : b.toNat < 2 ^ 31) :
    a.slt b = true ↔ a.toNat < b.toNat := by
  simp only [BitVec.slt, toInt_eq_toNat_of_lt ha, toInt_eq_toNat_of_lt hb, decide_eq_true_eq]
  omega

/-- On two words below 2³¹ the signed minimum is the word of the smaller value. -/
theorem minsi_small {a b : BitVec 32} (ha : a.toNat < 2 ^ 31) (hb : b.toNat < 2 ^ 31) :
    IntOp.minsi a b = if a.toNat < b.toNat then a else b := by
  unfold IntOp.minsi
  by_cases h : a.toNat < b.toNat
  · rw [if_pos ((slt_iff ha hb).2 h), if_pos h]
  · rw [if_neg (fun h' => h ((slt_iff ha hb).1 h')), if_neg h]

/-- The fold of signed minimum over a finite family of words below 2³¹, from a word below 2³¹: it is at most the
    initial word and every member, and it is the initial word or a member. -/
theorem fold_minsi_spec {ι : Type} (S : Finset ι) (f : ι → BitVec 32) (init : BitVec 32)
    (hi : init.toNat < 2 ^ 31) (hf : ∀ i ∈ S, (f i).toNat < 2 ^ 31) :
    (S.fold IntOp.minsi init f).toNat ≤ init.toNat ∧
    (∀ i ∈ S, (S.fold IntOp.minsi init f).toNat ≤ (f i).toNat) ∧
    (S.fold IntOp.minsi init f = init ∨ ∃ i ∈ S, S.fold IntOp.minsi init f = f i) := by
  induction S using Finset.cons_induction with
  | empty =>
    refine ⟨?_, ?_, Or.inl ?_⟩
    · rw [Finset.fold_empty]
    · intro i hi'; exact absurd hi' (Finset.notMem_empty i)
    · rw [Finset.fold_empty]
  | cons a S ha ih =>
    have hfS : ∀ i ∈ S, (f i).toNat < 2 ^ 31 := fun i hi' => hf i (Finset.mem_cons.2 (Or.inr hi'))
    have hfa : (f a).toNat < 2 ^ 31 := hf a (Finset.mem_cons_self a S)
    obtain ⟨h1, h2, h3⟩ := ih hfS
    have hm : (S.fold IntOp.minsi init f).toNat < 2 ^ 31 := by omega
    rw [Finset.fold_cons, minsi_small hfa hm]
    by_cases h : (f a).toNat < (S.fold IntOp.minsi init f).toNat
    · rw [if_pos h]
      refine ⟨by omega, ?_, Or.inr ⟨a, Finset.mem_cons_self a S, rfl⟩⟩
      intro i hi'
      rcases Finset.mem_cons.1 hi' with rfl | hi'
      · exact le_refl _
      · have := h2 i hi'; omega
    · rw [if_neg h]
      refine ⟨h1, ?_, ?_⟩
      · intro i hi'
        rcases Finset.mem_cons.1 hi' with rfl | hi'
        · omega
        · exact h2 i hi'
      · rcases h3 with h3 | ⟨i, hi', h3⟩
        · exact Or.inl h3
        · exact Or.inr ⟨i, Finset.mem_cons.2 (Or.inr hi'), h3⟩

/-! ## The least selected row as a minimum reduction -/

/-- When the mask `y` selects row `r` and no row below it, the minimum over all rows of "the row number where
    selected, 4194304 elsewhere", from 2147483647, is `r`. -/
theorem minRow_eq (y : SB.Idx → BitVec 1) (hb : S0.BroadcastsInDim SB ![]) (hr : SB.ReducesTo [0] S0)
    (hu : 0 < S0.numel) (r : ℕ) (hsel : sel y r) (hmin : ∀ i, sel y i → r ≤ i) :
    Host.reduce IntOp.minsi
        (select y (iotaInDim SB 32 0) (broadcastInDim SB ![] hb (constantI S0 32 4194304#32)))
        (constantI S0 32 2147483647#32) hr hu
      = fun _ => BitVec.ofNat 32 r := by
  funext j
  rw [reduce_scalar]
  generalize hfdef : select y (iotaInDim SB 32 0) (broadcastInDim SB ![] hb (constantI S0 32 4194304#32)) = f
  have hfi : ∀ i : SB.Idx, f i = if y i = 1#1 then BitVec.ofNat 32 (i 0).val else 4194304#32 := by
    intro i; rw [← hfdef]; rfl
  have hiB : ∀ i : SB.Idx, (i 0).val < 4194304 := fun i => (i 0).isLt
  have hbound : ∀ i ∈ (Finset.univ : Finset SB.Idx), (f i).toNat < 2 ^ 31 := by
    intro i _
    rw [hfi]
    split
    · rw [BitVec.toNat_ofNat]; have := hiB i; omega
    · decide
  have e : (constantI S0 32 2147483647#32) ix0 = 2147483647#32 := rfl
  rw [e]
  obtain ⟨h1, h2, h3⟩ := fold_minsi_spec Finset.univ f 2147483647#32 (by decide) hbound
  generalize Finset.univ.fold IntOp.minsi 2147483647#32 f = m at h1 h2 h3 ⊢
  obtain ⟨hrB, hyr⟩ := hsel
  have hrB' : r < 4194304 := hrB
  have hle : m.toNat ≤ r := by
    have := h2 (ix1 ⟨r, hrB⟩) (Finset.mem_univ _)
    rw [hfi, if_pos hyr, BitVec.toNat_ofNat] at this
    have e2 : ((ix1 (⟨r, hrB⟩ : Fin 4194304) : SB.Idx) 0).val = r := rfl
    rw [e2] at this
    omega
  rcases h3 with h3 | ⟨i, _, h3⟩
  · exfalso
    rw [h3] at hle
    have : (2147483647#32 : BitVec 32).toNat = 2147483647 := by decide
    omega
  · rw [hfi] at h3
    by_cases hy : y i = 1#1
    · rw [if_pos hy] at h3
      have hs : sel y (i 0).val := ⟨(i 0).isLt, by
        have e3 : ix1 (i 0) = i := (eq_ix1 i).symm
        exact e3 ▸ hy⟩
      have hri := hmin _ hs
      have hmi : m.toNat = (i 0).val := by
        rw [h3, BitVec.toNat_ofNat]; have := hiB i; omega
      rw [h3]
      congr 1
      omega
    · exfalso
      rw [if_neg hy] at h3
      rw [h3] at hle
      have : (4194304#32 : BitVec 32).toNat = 4194304 := by decide
      omega

/-! ## The guards -/

/-- A vector operation on scalars, read at the one index. -/
theorem select_apply0 {α : Type} (c : S0.Idx → BitVec 1) (a b : S0.Idx → α) (j : S0.Idx) :
    select c a b j = Scalar.select (c j) (a j) (b j) := rfl

/-- Guarding a word by "the count is at least `k`", compared as signed words, is guarding it by the comparison of
    the numbers, both being below 2³¹. -/
theorem select_sge (c k : ℕ) (hc : c < 2 ^ 31) (hk : k < 2 ^ 31) (a : BitVec 32) :
    Scalar.select (IntOp.cmpi .sge (BitVec.ofNat 32 c) (BitVec.ofNat 32 k)) a 0#32 = if k ≤ c then a else 0#32 := by
  have hct : (BitVec.ofNat 32 c).toNat = c := by rw [BitVec.toNat_ofNat]; omega
  have hkt : (BitVec.ofNat 32 k).toNat = k := by rw [BitVec.toNat_ofNat]; omega
  have hiff : IntOp.cmpi .sge (BitVec.ofNat 32 c) (BitVec.ofNat 32 k) = (1 : BitVec 1) ↔ k ≤ c := by
    have h := sge_iff_toNat (a := BitVec.ofNat 32 c) (b := BitVec.ofNat 32 k) (by omega) (by omega)
    rw [hct, hkt] at h
    exact h
  unfold Scalar.select
  by_cases h : k ≤ c
  · rw [if_pos (hiff.2 h), if_pos h]
  · rw [if_neg (fun h' => h (hiff.1 h')), if_neg h]

/-- The count is far below 2³¹. -/
theorem cnt_lt (x : SB.Idx → BitVec 1) : cnt x < 2 ^ 31 := by
  have h : cnt x ≤ 4194304 := cnt_le x
  omega

/-! ## The first and the second selected row among the natural numbers -/

/-- Fewer than `cnt x` is fewer than the number of selected rows however it is counted. -/
theorem lt_card_of_lt_cnt (x : SB.Idx → BitVec 1) {k : ℕ} (h : k < cnt x) :
    ∀ hf : (Set.ofPred (sel x)).Finite, k < hf.toFinset.card :=
  fun hf => lt_of_lt_of_le h (Nat.count_le_card hf B)

/-- With a selected row, the 0-th selected row is selected and is the least one. -/
theorem first_spec (x : SB.Idx → BitVec 1) (h : 0 < cnt x) :
    sel x (Nat.nth (sel x) 0) ∧ ∀ i, sel x i → Nat.nth (sel x) 0 ≤ i := by
  have hl := Nat.isLeast_nth (p := sel x) (n := 0) (lt_card_of_lt_cnt x h)
  exact ⟨hl.1.1, fun i hi => hl.2 ⟨hi, fun k hk => absurd hk (Nat.not_lt_zero k)⟩⟩

/-- With two selected rows, the 1-st selected row is selected, lies above the 0-th, and is the least such. -/
theorem second_spec (x : SB.Idx → BitVec 1) (h : 1 < cnt x) :
    sel x (Nat.nth (sel x) 1) ∧ Nat.nth (sel x) 0 < Nat.nth (sel x) 1 ∧
      ∀ i, sel x i → Nat.nth (sel x) 0 < i → Nat.nth (sel x) 1 ≤ i := by
  have hl := Nat.isLeast_nth (p := sel x) (n := 1) (lt_card_of_lt_cnt x h)
  refine ⟨hl.1.1, hl.1.2 0 Nat.zero_lt_one, fun i hi hlt => hl.2 ⟨hi, fun k hk => ?_⟩⟩
  have hk0 : k = 0 := by omega
  subst hk0
  exact hlt

/-! ## Leaving one row out of the mask -/

/-- A bit, and "two row numbers differ" as a bit: set exactly when the bit is set and the numbers differ. -/
theorem andi_ne_eq_one_iff (a : BitVec 1) (n r : ℕ) (hn : n < 2 ^ 32) (hr : r < 2 ^ 32) :
    IntOp.andi a (IntOp.cmpi .ne (BitVec.ofNat 32 n) (BitVec.ofNat 32 r)) = 1#1 ↔ a = 1#1 ∧ n ≠ r := by
  have hne : (BitVec.ofNat 32 n != BitVec.ofNat 32 r) = true ↔ n ≠ r := by
    rw [bne_iff_ne]
    constructor
    · intro h e; exact h (by rw [e])
    · intro h e
      have e' := congrArg BitVec.toNat e
      rw [BitVec.toNat_ofNat, BitVec.toNat_ofNat] at e'
      exact h (by omega)
  show a &&& BitVec.ofBool (BitVec.ofNat 32 n != BitVec.ofNat 32 r) = 1#1 ↔ _
  rw [← hne]
  generalize (BitVec.ofNat 32 n != BitVec.ofNat 32 r) = c
  rcases BitVec.eq_zero_or_eq_one a with rfl | rfl <;> cases c <;> decide

/-- The mask with row `r0` left out selects the rows the mask selects other than `r0`. -/
theorem sel_without (x : SB.Idx → BitVec 1) (hb : S0.BroadcastsInDim SB ![]) (r0 : ℕ) (hr0 : r0 < 4194304) (n : ℕ) :
    sel (andi x (cmpi .ne (iotaInDim SB 32 0) (broadcastInDim SB ![] hb (fun _ => BitVec.ofNat 32 r0 : S0.Idx → BitVec 32)))) n
      ↔ sel x n ∧ n ≠ r0 := by
  have key : ∀ h : n < B,
      andi x (cmpi .ne (iotaInDim SB 32 0) (broadcastInDim SB ![] hb (fun _ => BitVec.ofNat 32 r0 : S0.Idx → BitVec 32))) (ix1 ⟨n, h⟩) = 1#1
        ↔ x (ix1 ⟨n, h⟩) = 1#1 ∧ n ≠ r0 := by
    intro h
    have h' : n < 4194304 := h
    exact andi_ne_eq_one_iff (x (ix1 ⟨n, h⟩)) n r0 (by omega) (by omega)
  unfold sel
  constructor
  · rintro ⟨h, hx⟩
    exact ⟨⟨h, ((key h).1 hx).1⟩, ((key h).1 hx).2⟩
  · rintro ⟨⟨h, hx⟩, hne⟩
    exact ⟨h, (key h).2 ⟨hx, hne⟩⟩

/-! ## The four results -/

/-- The minimum, guarded by "at least one row is selected", is the 0-th selected row, or 0 when there is none. -/
theorem first_eq (x : SB.Idx → BitVec 1) (hlt : 1 < 32) (hb : S0.BroadcastsInDim SB ![])
    (hr : SB.ReducesTo [0] S0) (hu : 0 < S0.numel) :
    select (cmpi .sge (Host.reduce IntOp.addi (extui 32 x hlt) (constantI S0 32 0#32) hr hu) (constantI S0 32 1#32))
        (Host.reduce IntOp.minsi
          (select x (iotaInDim SB 32 0) (broadcastInDim SB ![] hb (constantI S0 32 4194304#32)))
          (constantI S0 32 2147483647#32) hr hu)
        (constantI S0 32 0#32)
      = fun _ => BitVec.ofNat 32 (pick x 0) := by
  funext j
  rw [cntw_eq, select_apply0]
  show Scalar.select (IntOp.cmpi .sge (BitVec.ofNat 32 (cnt x)) (BitVec.ofNat 32 1)) _ 0#32 = _
  rw [select_sge _ _ (cnt_lt x) (by decide)]
  unfold pick
  by_cases h : 0 < cnt x
  · obtain ⟨hs, hm⟩ := first_spec x h
    rw [if_pos (by omega : 1 ≤ cnt x), if_pos h, minRow_eq x hb hr hu _ hs hm]
  · rw [if_neg (by omega : ¬ 1 ≤ cnt x), if_neg h]

/-- The minimum with the first selected row left out, guarded by "at least two rows are selected", is the 1-st
    selected row, or 0 when there are fewer than two. -/
theorem second_eq (x : SB.Idx → BitVec 1) (hlt : 1 < 32) (hb : S0.BroadcastsInDim SB ![])
    (hr : SB.ReducesTo [0] S0) (hu : 0 < S0.numel) :
    select (cmpi .sge (Host.reduce IntOp.addi (extui 32 x hlt) (constantI S0 32 0#32) hr hu) (constantI S0 32 2#32))
        (Host.reduce IntOp.minsi
          (select
            (andi x (cmpi .ne (iotaInDim SB 32 0) (broadcastInDim SB ![] hb
              (Host.reduce IntOp.minsi
                (select x (iotaInDim SB 32 0) (broadcastInDim SB ![] hb (constantI S0 32 4194304#32)))
                (constantI S0 32 2147483647#32) hr hu))))
            (iotaInDim SB 32 0) (broadcastInDim SB ![] hb (constantI S0 32 4194304#32)))
          (constantI S0 32 2147483647#32) hr hu)
        (constantI S0 32 0#32)
      = fun _ => BitVec.ofNat 32 (pick x 1) := by
  funext j
  rw [cntw_eq, select_apply0]
  show Scalar.select (IntOp.cmpi .sge (BitVec.ofNat 32 (cnt x)) (BitVec.ofNat 32 2)) _ 0#32 = _
  rw [select_sge _ _ (cnt_lt x) (by decide)]
  unfold pick
  by_cases h : 1 < cnt x
  · obtain ⟨hs0, hm0⟩ := first_spec x (by omega)
    obtain ⟨hs1, hlt1, hm1⟩ := second_spec x h
    have hr0 : Nat.nth (sel x) 0 < 4194304 := hs0.1
    have hs' := (sel_without x hb _ hr0 (Nat.nth (sel x) 1)).2 ⟨hs1, by omega⟩
    have hm' : ∀ i, sel (andi x (cmpi .ne (iotaInDim SB 32 0)
        (broadcastInDim SB ![] hb (fun _ => BitVec.ofNat 32 (Nat.nth (sel x) 0) : S0.Idx → BitVec 32)))) i → Nat.nth (sel x) 1 ≤ i := by
      intro i hi
      obtain ⟨hi1, hi2⟩ := (sel_without x hb _ hr0 i).1 hi
      have := hm0 i hi1
      exact hm1 i hi1 (by omega)
    rw [if_pos (by omega : 2 ≤ cnt x), if_pos h, minRow_eq x hb hr hu _ hs0 hm0, minRow_eq _ hb hr hu _ hs' hm']
  · rw [if_neg (by omega : ¬ 2 ≤ cnt x), if_neg h]

/-- "The count is positive", compared as signed words, is the comparison of the numbers. -/
theorem pos_eq (x : SB.Idx → BitVec 1) (hlt : 1 < 32) (hr : SB.ReducesTo [0] S0) (hu : 0 < S0.numel) :
    cmpi .sgt (Host.reduce IntOp.addi (extui 32 x hlt) (constantI S0 32 0#32) hr hu) (constantI S0 32 0#32)
      = fun _ => if 0 < cnt x then 1#1 else 0#1 := by
  funext j
  rw [cntw_eq]
  show IntOp.cmpi .sgt (BitVec.ofNat 32 (cnt x)) (BitVec.ofNat 32 0) = _
  have hct : (BitVec.ofNat 32 (cnt x)).toNat = cnt x := by
    rw [BitVec.toNat_ofNat]; have := cnt_lt x; omega
  have hiff := sgt_iff_toNat (a := BitVec.ofNat 32 (cnt x)) (b := BitVec.ofNat 32 0) (by have := cnt_lt x; omega) (by decide)
  rw [hct] at hiff
  have h0 : (BitVec.ofNat 32 0).toNat = 0 := rfl
  rw [h0] at hiff
  by_cases h : 0 < cnt x
  · rw [if_pos h]; exact hiff.2 h
  · rw [if_neg h]
    rcases BitVec.eq_zero_or_eq_one (IntOp.cmpi .sgt (BitVec.ofNat 32 (cnt x)) (BitVec.ofNat 32 0)) with e | e
    · exact e
    · exact absurd (hiff.1 e) h

end Cert.Pick

end
-- ==== Proof.Val.PickFacts.lean ====
/- The two minimum reductions and the word count, as the programs write them, compute the specification's first
   and second selected row and its positivity bit. -/
import proofs.«404644_j25400436588780_1_alg».proof.Proof.LibPickMin
import proofs.«404644_j25400436588780_1_alg».proof.Proof.Val.Terms

noncomputable section

namespace Cert.Val

open Idealize.ShloMosaic
open Cert.Pick (SB S0)

/-- The guarded first minimum is the word of the first selected row. -/
theorem kFirst_eq (x : SB.Idx → BitVec 1) : kFirst x = pickWord x false :=
  Cert.Pick.first_eq x hlt hb hr hu

/-- The guarded second minimum is the word of the second selected row. -/
theorem kSecond_eq (x : SB.Idx → BitVec 1) : kSecond x = pickWord x true :=
  Cert.Pick.second_eq x hlt hb hr hu

/-- "The word count is positive" is the positivity bit. -/
theorem kPos_eq (x : SB.Idx → BitVec 1) : kPos x = posBit x :=
  Cert.Pick.pos_eq x hlt hr hu

end Cert.Val

end
-- ==== Proof.Val.KTailChain.lean ====
/- The value of the host operations after the region: the final loss.
   The operations are cut into 22 consecutive groups, one per negative recipe (a recipe's last subtraction is the
   first operation of a stretch, so a cut falls after the first operation of every twelfth stretch). Run in turn,
   the groups give the negated region result minus the 22 recipes' terms, in order, each term computed from the
   rows the two minimum reductions find. Where those rows are the specification's first and second selected row
   and the word count decides positivity, this is the specification's loss. -/
import proofs.«404644_j25400436588780_1_alg».proof.Proof.Val.KTailSteps
import proofs.«404644_j25400436588780_1_alg».proof.Proof.Val.PickFacts

set_option maxRecDepth 16384

noncomputable section

namespace Cert.KernelIdeal.Tl

open Idealize.ShloMosaic Idealize.ShloMosaic.TcCoe
open Idealize.SL Idealize.SL.Sem
open Cert.KernelIdeal Cert.KernelIdeal.Gen Cert.KernelIdeal.GenP
open Cert.Val (firstOf restOf firstOf_append_restOf_append)

variable {F : FTy → Type} [FloatOps F]

/-- The stretches of host operations after the region, in order. -/
abbrev tailStretches : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, hostOps1_37, hostOps1_38, hostOps1_39, hostOps1_40, hostOps1_41, hostOps1_42, hostOps1_43, hostOps1_44, hostOps1_45, hostOps1_46, hostOps1_47, hostOps1_48, hostOps1_49, hostOps1_50, hostOps1_51, hostOps1_52, hostOps1_53, hostOps1_54, hostOps1_55, hostOps1_56, hostOps1_57, hostOps1_58, hostOps1_59, hostOps1_60, hostOps1_61, hostOps1_62, hostOps1_63, hostOps1_64, hostOps1_65, hostOps1_66, hostOps1_67, hostOps1_68, hostOps1_69, hostOps1_70, hostOps1_71, hostOps1_72, hostOps1_73, hostOps1_74, hostOps1_75, hostOps1_76, hostOps1_77, hostOps1_78, hostOps1_79, hostOps1_80, hostOps1_81, hostOps1_82, hostOps1_83, hostOps1_84, hostOps1_85, hostOps1_86, hostOps1_87, hostOps1_88, hostOps1_89, hostOps1_90, hostOps1_91, hostOps1_92, hostOps1_93, hostOps1_94, hostOps1_95, hostOps1_96, hostOps1_97, hostOps1_98, hostOps1_99, hostOps1_100, hostOps1_101, hostOps1_102, hostOps1_103, hostOps1_104, hostOps1_105, hostOps1_106, hostOps1_107, hostOps1_108, hostOps1_109, hostOps1_110, hostOps1_111, hostOps1_112, hostOps1_113, hostOps1_114, hostOps1_115, hostOps1_116, hostOps1_117, hostOps1_118, hostOps1_119, hostOps1_120, hostOps1_121, hostOps1_122, hostOps1_123, hostOps1_124, hostOps1_125, hostOps1_126, hostOps1_127, hostOps1_128, hostOps1_129, hostOps1_130, hostOps1_131, hostOps1_132, hostOps1_133, hostOps1_134, hostOps1_135, hostOps1_136, hostOps1_137, hostOps1_138, hostOps1_139, hostOps1_140, hostOps1_141, hostOps1_142, hostOps1_143, hostOps1_144, hostOps1_145, hostOps1_146, hostOps1_147, hostOps1_148, hostOps1_149, hostOps1_150, hostOps1_151, hostOps1_152, hostOps1_153, hostOps1_154, hostOps1_155, hostOps1_156, hostOps1_157, hostOps1_158, hostOps1_159, hostOps1_160, hostOps1_161, hostOps1_162, hostOps1_163, hostOps1_164, hostOps1_165, hostOps1_166, hostOps1_167, hostOps1_168, hostOps1_169, hostOps1_170, hostOps1_171, hostOps1_172, hostOps1_173, hostOps1_174, hostOps1_175, hostOps1_176, hostOps1_177, hostOps1_178, hostOps1_179, hostOps1_180, hostOps1_181, hostOps1_182, hostOps1_183, hostOps1_184, hostOps1_185, hostOps1_186, hostOps1_187, hostOps1_188, hostOps1_189, hostOps1_190, hostOps1_191, hostOps1_192, hostOps1_193, hostOps1_194, hostOps1_195, hostOps1_196, hostOps1_197, hostOps1_198, hostOps1_199, hostOps1_200, hostOps1_201, hostOps1_202, hostOps1_203, hostOps1_204, hostOps1_205, hostOps1_206, hostOps1_207, hostOps1_208, hostOps1_209, hostOps1_210, hostOps1_211, hostOps1_212, hostOps1_213, hostOps1_214, hostOps1_215, hostOps1_216, hostOps1_217, hostOps1_218, hostOps1_219, hostOps1_220, hostOps1_221, hostOps1_222, hostOps1_223, hostOps1_224, hostOps1_225, hostOps1_226, hostOps1_227, hostOps1_228, hostOps1_229, hostOps1_230, hostOps1_231, hostOps1_232, hostOps1_233, hostOps1_234, hostOps1_235, hostOps1_236, hostOps1_237, hostOps1_238, hostOps1_239, hostOps1_240, hostOps1_241, hostOps1_242, hostOps1_243, hostOps1_244, hostOps1_245, hostOps1_246, hostOps1_247, hostOps1_248, hostOps1_249, hostOps1_250, hostOps1_251, hostOps1_252, hostOps1_253, hostOps1_254, hostOps1_255, hostOps1_256, hostOps1_257, hostOps1_258, hostOps1_259, hostOps1_260, hostOps1_261, hostOps1_262, hostOps1_263, hostOps1_264]

/-- The stretches, joined, are the 22 groups in turn. -/
theorem tail_cut : List.flatten (tailStretches (F := F)) = T00 := by
  simp only [tailStretches, T00, T01, T02, T03, T04, T05, T06, T07, T08, T09, T10, T11, T12, T13, T14, T15, T16, T17, T18, T19, T20, T21,
    G00, G01, G02, G03, G04, G05, G06, G07, G08, G09, G10, G11, G12, G13, G14, G15, G16, G17, G18, G19, G20, G21,
    stA00, stA01, stA02, stA03, stA04, stA05, stA06, stA07, stA08, stA09, stA10, stA11, stA12, stA13, stA14, stA15, stA16, stA17, stA18, stA19, stA20, stA21,
    stB00, stB01, stB02, stB03, stB04, stB05, stB06, stB07, stB08, stB09, stB10, stB11, stB12, stB13, stB14, stB15, stB16, stB17, stB18, stB19, stB20, stB21,
    stC00, stC01, stC02, stC03, stC04, stC05, stC06, stC07, stC08, stC09, stC10, stC11, stC12, stC13, stC14, stC15, stC16, stC17, stC18, stC19, stC20, stC21,
    List.flatten_cons, List.flatten_nil, List.append_assoc, List.append_nil, firstOf_append_restOf_append]

/-- The final loss after the operations: the negated region result minus the 22 terms, each from the rows the two
    minimum reductions find. -/
theorem ktail_kvalue (X : Valuation τ sig (Elt F)) :
    StableHlo.after (List.flatten (tailStretches (F := F))) X (Proc.devRef .tc main_v1434)
      = Cert.Val.kLossOf (Host.negf (shapeCast S_ (X (Proc.devRef .tc main_v90)) shapeCasts_S1x1_S_))
          Cert.Val.recipes (X (Proc.devRef .tc main_v25)) (X (Proc.devRef .tc main_v51)) (X (Proc.devRef .tc main_v77)) (X (Proc.devRef .tc main_arg0)) (X (Proc.devRef .tc main_arg1)) (X (Proc.devRef .tc main_arg2)) := by
  rw [tail_cut]
  exact tail00 X

/-- The final loss by the specification of the selected rows, given that the two minimum reductions find them. -/
theorem ktail_value
    (hF : ∀ x : Cert.Pick.SB.Idx → BitVec 1, Cert.Val.kFirst x = Cert.Val.pickWord x false)
    (hS : ∀ x : Cert.Pick.SB.Idx → BitVec 1, Cert.Val.kSecond x = Cert.Val.pickWord x true)
    (hP : ∀ x : Cert.Pick.SB.Idx → BitVec 1, Cert.Val.kPos x = Cert.Val.posBit x)
    (X : Valuation τ sig (Elt F)) :
    StableHlo.after (List.flatten (tailStretches (F := F))) X (Proc.devRef .tc main_v1434)
      = Cert.Val.lossOf (Host.negf (shapeCast S_ (X (Proc.devRef .tc main_v90)) shapeCasts_S1x1_S_))
          Cert.Val.recipes (X (Proc.devRef .tc main_v25)) (X (Proc.devRef .tc main_v51)) (X (Proc.devRef .tc main_v77)) (X (Proc.devRef .tc main_arg0)) (X (Proc.devRef .tc main_arg1)) (X (Proc.devRef .tc main_arg2)) := by
  rw [ktail_kvalue, Cert.Val.kLossOf_eq_lossOf hF hS hP]

/-- The final loss by the specification of the selected rows. -/
theorem ktail_value' (X : Valuation τ sig (Elt F)) :
    StableHlo.after (List.flatten (tailStretches (F := F))) X (Proc.devRef .tc main_v1434)
      = Cert.Val.lossOf (Host.negf (shapeCast S_ (X (Proc.devRef .tc main_v90)) shapeCasts_S1x1_S_))
          Cert.Val.recipes (X (Proc.devRef .tc main_v25)) (X (Proc.devRef .tc main_v51)) (X (Proc.devRef .tc main_v77)) (X (Proc.devRef .tc main_arg0)) (X (Proc.devRef .tc main_arg1)) (X (Proc.devRef .tc main_arg2)) :=
  ktail_value Cert.Val.kFirst_eq Cert.Val.kSecond_eq Cert.Val.kPos_eq X

end Cert.KernelIdeal.Tl

end
-- ==== Proof.Val.LossSpec.lean ====
/- The loss both programs compute, as one function of the seven arguments: the three volume arrays, the three
   relation tables and the flag vector. The rows' three code vectors are the code function of each relation table
   with the flag vector; the loss starts at minus the positive sum over those codes and the volume arrays, and the
   recipes' terms are subtracted from it in order. -/
import proofs.«404644_j25400436588780_1_alg».proof.Proof.Val.Terms
import proofs.«404644_j25400436588780_1_alg».proof.Proof.Val.PosTerms
import proofs.«404644_j25400436588780_1_alg».proof.Proof.Val.Codes

noncomputable section

namespace Cert.Val

open Idealize.ShloMosaic
open Cert.Pick (S0)

/-- The loss of the seven arguments. -/
def lossSpec (a0 a1 a2 : SA.Idx → Ideal .f32) (r3 r4 r5 : T2.Idx → BitVec 32) (fl : R.Idx → BitVec 32) :
    S0.Idx → Ideal .f32 :=
  lossOf (F := Ideal)
    (fun _ => -posSum (codeVec r3 fl) (codeVec r4 fl) (codeVec r5 fl) a0 a1 a2) recipes
    (codeVec r3 fl) (codeVec r4 fl) (codeVec r5 fl) a0 a1 a2

end Cert.Val

end
-- ==== Proof.Val.KernelValue.lean ====
/- The kernel program's result as a function of its arguments: from a memory whose three volume arrays hold real
   numbers on every core, every weakly fair execution of the program terminates; on every core the result buffer ends
   at the loss of the seven arguments' launch contents, and the seven arguments end unchanged.
   The operations after the region compute the loss by the specification from minus the region's result, the three
   code vectors and the three volume arrays; the region's result is the positive sum; the code vectors are the code
   function of the relation tables and the flag vector; the volume arrays are the launch's. -/
import proofs.«404644_j25400436588780_1_alg».proof.Proof.KI.FrameArgs
import proofs.«404644_j25400436588780_1_alg».proof.Proof.Val.KPos
import proofs.«404644_j25400436588780_1_alg».proof.Proof.Val.KTailChain
import proofs.«404644_j25400436588780_1_alg».proof.Proof.Val.KCodes
import proofs.«404644_j25400436588780_1_alg».proof.Proof.Val.PickFacts
import proofs.«404644_j25400436588780_1_alg».proof.Proof.Val.LossSpec
import proofs.«404644_j25400436588780_1_alg».proof.Proof.Val.PosLaw

set_option maxRecDepth 16384
set_option maxHeartbeats 4000000

noncomputable section

namespace Cert.KernelIdeal.As

open Cert.KernelIdeal Cert.KernelIdeal.Gen Cert.KernelIdeal.GenP Cert.KernelIdeal.Fr
open Idealize.ShloMosaic Idealize.ShloMosaic.TcCoe Idealize.SL.Sem
open Cert.Val (SA T2 R lossSpec Fin' lossOf recipes posSum codeVec)
open Cert.Pick (S0)

variable (m : (ℓ : Loc nD τ sig) → Buf (Elt Ideal) ℓ)

theorem X_v25 (c : Dev nD) : X m c (Proc.devRef .tc main_v25) = V m c main_v25 := X_in m c 0 rfl
theorem X_v51 (c : Dev nD) : X m c (Proc.devRef .tc main_v51) = V m c main_v51 := X_in m c 1 rfl
theorem X_v77 (c : Dev nD) : X m c (Proc.devRef .tc main_v77) = V m c main_v77 := X_in m c 2 rfl
theorem X_v90 (c : Dev nD) : X m c (Proc.devRef .tc main_v90) = (dats m 0 c).arrAt 9 cfg0.N := X_arr m c 9

/-- The result buffer when the run ends holds the loss of the launch's arguments. -/
theorem loss_value (c : Dev nD) :
    (Pipeline.afterTail₀ cfgs (dats m) 0 (V0 m) tailOps c main_v1434 : S0.Idx → Ideal .f32)
      = lossSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show StableHlo.after (List.flatten (Tl.tailStretches (F := Ideal))) (X m c) (Proc.devRef .tc main_v1434) = _
  rw [Tl.ktail_value Cert.Val.kFirst_eq Cert.Val.kSecond_eq Cert.Val.kPos_eq (X m c)]
  rw [X_v90, X_v25, X_v51, X_v77, X_ne m c main_arg0 (by decide), X_ne m c main_arg1 (by decide),
    X_ne m c main_arg2 (by decide), V0_arg0, V0_arg1, V0_arg2, Ps.possum_value, Cd.code_v25, Cd.code_v51, Cd.code_v77]
  unfold lossSpec
  congr 1

/-- THE KERNEL PROGRAM'S RUN. -/
theorem kernel_run (ρ : Dev nD → PrngReg)
    (hfin : ∀ c : Dev nD,
      (∀ i, Fin' ((m ((c.tc : Thread nD τ).loc main_arg0) : SA.Idx → Ideal .f32) i))
        ∧ (∀ i, Fin' ((m ((c.tc : Thread nD τ).loc main_arg1) : SA.Idx → Ideal .f32) i))
        ∧ (∀ i, Fin' ((m ((c.tc : Thread nD τ).loc main_arg2) : SA.Idx → Ideal .f32) i))) :
    θ_run (defs (F := Ideal)) (onTc (τ := τ) (main (F := Ideal))) ⟨m, fun _ => 0, ρ⟩ (fun r => ∀ c : Dev nD,
      (r.2.mem ((c.tc : Thread nD τ).loc main_v1434) : S0.Idx → Ideal .f32)
        = lossSpec (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v1434 (Pipeline.mem_restRefs_of main_v1434 rfl (by decide))).trans (loss_value m c),
     args_of_post m r h c⟩)
    (run_main m ρ)

end Cert.KernelIdeal.As

end
-- ==== Proof.Rf.Split.lean ====
/- The reference's stretches in three consecutive groups: the stretches that compute the three vectors of row
   codes, the stretches of the positive terms, and the stretches of the negative terms.  The contents after all the
   stretches are the contents after the third group, from the contents after the second, from the contents after the
   first. -/
import proofs.«404644_j25400436588780_1_alg».proof.Proof.Rf.Opss
import Idealize.ShloMosaic.Lib.StableHlo.Run

noncomputable section

namespace Cert.ReferenceIdeal.As

open Cert.ReferenceIdeal Cert.ReferenceIdeal.Gen Cert.ReferenceIdeal.Rn Idealize.ShloMosaic Idealize.ShloMosaic.TcCoe
  Idealize.SL.Sem

variable {F : FTy → Type} [FloatOps F]

/-- The first 20 stretches (132 operations): through the one that writes the third vector of row codes. -/
abbrev preG : List (List (HloOp τ sig (Elt F))) :=
  [
    main_part0_ops0, main_part0_ops1, main_part0_ops2, main_part0_ops3, main_part0_ops4, main_part0_ops5,
    main_part0_ops6, main_part1_ops0, main_part1_ops1, main_part1_ops2, main_part1_ops3, main_part1_ops4,
    main_part1_ops5, main_part1_ops6, main_part1_ops7, main_part1_ops8, main_part1_ops9, main_part1_ops10,
    main_part1_ops11, main_part1_ops12 ]

/-- The next 31 stretches (354 operations): through the one that writes the last positive term's partial result. -/
abbrev posG : List (List (HloOp τ sig (Elt F))) :=
  [
    main_part2_ops0, main_part2_ops1, main_part2_ops2, main_part2_ops3, main_part2_ops4, main_part3_ops0,
    main_part3_ops1, main_part3_ops2, main_part3_ops3, main_part3_ops4, main_part3_ops5, main_part4_ops0,
    main_part4_ops1, main_part4_ops2, main_part4_ops3, main_part4_ops4, main_part5_ops0, main_part5_ops1,
    main_part5_ops2, main_part5_ops3, main_part5_ops4, main_part5_ops5, main_part6_ops0, main_part6_ops1,
    main_part6_ops2, main_part6_ops3, main_part6_ops4, main_part7_ops0, main_part7_ops1, main_part7_ops2,
    main_part7_ops3 ]

/-- The last 291 stretches (2298 operations): through the one that writes the result. -/
abbrev negG : List (List (HloOp τ sig (Elt F))) :=
  [
    main_part7_ops4, main_part7_ops5, main_part7_ops6, main_part7_ops7, main_part7_ops8, main_part7_ops9,
    main_part7_ops10, main_part7_ops11, main_part8_ops0, main_part8_ops1, main_part8_ops2, main_part8_ops3,
    main_part8_ops4, main_part9_ops0, main_part9_ops1, main_part9_ops2, main_part9_ops3, main_part9_ops4,
    main_part9_ops5, main_part9_ops6, main_part9_ops7, main_part9_ops8, main_part10_ops0, main_part10_ops1,
    main_part10_ops2, main_part10_ops3, main_part10_ops4, main_part10_ops5, main_part10_ops6, main_part10_ops7,
    main_part10_ops8, main_part10_ops9, main_part10_ops10, main_part10_ops11, main_part10_ops12, main_part11_ops0,
    main_part11_ops1, main_part11_ops2, main_part11_ops3, main_part12_ops0, main_part12_ops1, main_part12_ops2,
    main_part12_ops3, main_part12_ops4, main_part12_ops5, main_part12_ops6, main_part12_ops7, main_part12_ops8,
    main_part13_ops0, main_part13_ops1, main_part13_ops2, main_part13_ops3, main_part13_ops4, main_part13_ops5,
    main_part13_ops6, main_part13_ops7, main_part13_ops8, main_part13_ops9, main_part13_ops10, main_part13_ops11,
    main_part13_ops12, main_part14_ops0, main_part14_ops1, main_part14_ops2, main_part15_ops0, main_part15_ops1,
    main_part15_ops2, main_part15_ops3, main_part15_ops4, main_part15_ops5, main_part15_ops6, main_part15_ops7,
    main_part15_ops8, main_part15_ops9, main_part15_ops10, main_part16_ops0, main_part16_ops1, main_part16_ops2,
    main_part16_ops3, main_part16_ops4, main_part16_ops5, main_part16_ops6, main_part16_ops7, main_part16_ops8,
    main_part16_ops9, main_part16_ops10, main_part17_ops0, main_part17_ops1, main_part17_ops2, main_part17_ops3,
    main_part18_ops0, main_part18_ops1, main_part18_ops2, main_part18_ops3, main_part18_ops4, main_part18_ops5,
    main_part18_ops6, main_part18_ops7, main_part18_ops8, main_part18_ops9, main_part18_ops10, main_part19_ops0,
    main_part19_ops1, main_part19_ops2, main_part19_ops3, main_part19_ops4, main_part19_ops5, main_part19_ops6,
    main_part19_ops7, main_part19_ops8, main_part19_ops9, main_part19_ops10, main_part20_ops0, main_part20_ops1,
    main_part20_ops2, main_part20_ops3, main_part20_ops4, main_part21_ops0, main_part21_ops1, main_part21_ops2,
    main_part21_ops3, main_part21_ops4, main_part21_ops5, main_part21_ops6, main_part21_ops7, main_part21_ops8,
    main_part21_ops9, main_part21_ops10, main_part22_ops0, main_part22_ops1, main_part22_ops2, main_part22_ops3,
    main_part22_ops4, main_part22_ops5, main_part22_ops6, main_part22_ops7, main_part22_ops8, main_part23_ops0,
    main_part23_ops1, main_part23_ops2, main_part23_ops3, main_part24_ops0, main_part24_ops1, main_part24_ops2,
    main_part24_ops3, main_part24_ops4, main_part24_ops5, main_part24_ops6, main_part24_ops7, main_part24_ops8,
    main_part24_ops9, main_part24_ops10, main_part24_ops11, main_part25_ops0, main_part25_ops1, main_part25_ops2,
    main_part25_ops3, main_part25_ops4, main_part25_ops5, main_part25_ops6, main_part25_ops7, main_part25_ops8,
    main_part26_ops0, main_part26_ops1, main_part26_ops2, main_part26_ops3, main_part26_ops4, main_part27_ops0,
    main_part27_ops1, main_part27_ops2, main_part27_ops3, main_part27_ops4, main_part27_ops5, main_part27_ops6,
    main_part27_ops7, main_part27_ops8, main_part27_ops9, main_part27_ops10, main_part27_ops11, main_part27_ops12,
    main_part28_ops0, main_part28_ops1, main_part28_ops2, main_part28_ops3, main_part28_ops4, main_part28_ops5,
    main_part28_ops6, main_part29_ops0, main_part29_ops1, main_part29_ops2, main_part29_ops3, main_part29_ops4,
    main_part29_ops5, main_part30_ops0, main_part30_ops1, main_part30_ops2, main_part30_ops3, main_part30_ops4,
    main_part30_ops5, main_part30_ops6, main_part30_ops7, main_part30_ops8, main_part30_ops9, main_part30_ops10,
    main_part30_ops11, main_part30_ops12, main_part31_ops0, main_part31_ops1, main_part31_ops2, main_part31_ops3,
    main_part31_ops4, main_part31_ops5, main_part31_ops6, main_part32_ops0, main_part32_ops1, main_part32_ops2,
    main_part32_ops3, main_part32_ops4, main_part32_ops5, main_part32_ops6, main_part33_ops0, main_part33_ops1,
    main_part33_ops2, main_part33_ops3, main_part33_ops4, main_part33_ops5, main_part33_ops6, main_part33_ops7,
    main_part33_ops8, main_part33_ops9, main_part33_ops10, main_part33_ops11, main_part33_ops12, main_part34_ops0,
    main_part34_ops1, main_part34_ops2, main_part34_ops3, main_part34_ops4, main_part34_ops5, main_part34_ops6,
    main_part35_ops0, main_part35_ops1, main_part35_ops2, main_part35_ops3, main_part35_ops4, main_part35_ops5,
    main_part35_ops6, main_part36_ops0, main_part36_ops1, main_part36_ops2, main_part36_ops3, main_part36_ops4,
    main_part36_ops5, main_part36_ops6, main_part36_ops7, main_part36_ops8, main_part36_ops9, main_part36_ops10,
    main_part36_ops11, main_part36_ops12, main_part37_ops0, main_part37_ops1, main_part37_ops2, main_part37_ops3,
    main_part37_ops4, main_part38_ops0, main_part38_ops1, main_part38_ops2, main_part38_ops3, main_part38_ops4,
    main_part38_ops5, main_part38_ops6, main_part38_ops7, main_part39_ops0, main_part39_ops1, main_part39_ops2,
    main_part39_ops3, main_part39_ops4, main_part39_ops5, main_part39_ops6, main_part39_ops7, main_part39_ops8,
    main_part39_ops9, main_part39_ops10, main_part39_ops11, main_part39_ops12, main_part40_ops0, main_part40_ops1,
    main_part40_ops2, main_part40_ops3, main_part40_ops4 ]

/-- The stretches in order are the three groups in order. -/
theorem opss_split : (opss : List (List (HloOp τ sig (Elt F)))) = preG ++ posG ++ negG := rfl

/-- The contents after two lines run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The contents after all the stretches, group after group. -/
theorem after_opss (V : Valuation τ sig (Elt F)) :
    StableHlo.after (opss : List (List (HloOp τ sig (Elt F)))).flatten V
      = StableHlo.after (negG : List (List (HloOp τ sig (Elt F)))).flatten
          (StableHlo.after (posG : List (List (HloOp τ sig (Elt F)))).flatten
            (StableHlo.after (preG : List (List (HloOp τ sig (Elt F)))).flatten V)) := by
  rw [opss_split, List.flatten_append, List.flatten_append, after_append, after_append]

end Cert.ReferenceIdeal.As

end
-- ==== Proof.Val.PsOps.lean ====
/- The reference's operations from the start of @main through the 14th positive recipe's last subtraction (and the few
   operations that follow it in the same stretch), cut at the recipes' boundaries: the code vectors' operations, one list
   per positive recipe, the remainder; and the stretches' concatenation is these lists' concatenation. -/
import proofs.«404644_j25400436588780_1_alg».proof.Proof.Rf.Ops0
import proofs.«404644_j25400436588780_1_alg».proof.Proof.Rf.Ops1

noncomputable section

namespace Cert.ReferenceIdeal.Ps

open Cert.ReferenceIdeal Cert.ReferenceIdeal.Gen Cert.ReferenceIdeal.Rn Idealize.ShloMosaic Idealize.ShloMosaic.TcCoe Idealize.SL.Sem

variable {F : FTy → Type} [FloatOps F]

/-- 123 operations: main_v0 … main_v77. -/
abbrev codesOps : List (HloOp τ sig (Elt F)) :=
  [ StableHlo.unary main_arg3 main_v0 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v0 main_v1 rfl shapeCasts_S4194304x1_S4194304,
    StableHlo.unary main_arg3 main_v2 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v2 main_v3 rfl shapeCasts_S4194304x1_S4194304,
    StableHlo.nullary main_c (constantI S_ 32 1#32),
    StableHlo.unary main_c main_v4 (broadcastInDim S4194304 ![] bcast_S_S4194304 : (⟨S_, .i32⟩ : BufTy).Contents (Elt F) → (⟨S4194304, .i32⟩ : BufTy).Contents (Elt F)),
    StableHlo.binary main_v1 main_v4 main_v5 (cmpi .eq : (⟨S4194304, .i32⟩ : BufTy).Contents (Elt F) → (⟨S4194304, .i32⟩ : BufTy).Contents (Elt F) → (⟨S4194304, .i1⟩ : BufTy).Contents (Elt F)),
    StableHlo.nullary main_c_0 (constantI S_ 32 0#32),
    StableHlo.unary main_c_0 main_v6 (broadcastInDim S4194304 ![] bcast_S_S4194304 : (⟨S_, .i32⟩ : BufTy).Contents (Elt F) → (⟨S4194304, .i32⟩ : BufTy).Contents (Elt F)),
    StableHlo.binary main_v3 main_v6 main_v7 (cmpi .eq : (⟨S4194304, .i32⟩ : BufTy).Contents (Elt F) → (⟨S4194304, .i32⟩ : BufTy).Contents (Elt F) → (⟨S4194304, .i1⟩ : BufTy).Contents (Elt F)),
    StableHlo.binary main_v5 main_v7 main_v8 (andi : (⟨S4194304, .i1⟩ : BufTy).Contents (Elt F) → (⟨S4194304, .i1⟩ : BufTy).Contents (Elt F) → (⟨S4194304, .i1⟩ : BufTy).Contents (Elt F)),
    StableHlo.nullary main_c_1 (constantI S_ 32 0#32),
    StableHlo.unary main_c_1 main_v9 (broadcastInDim S4194304 ![] bcast_S_S4194304 : (⟨S_, .i32⟩ : BufTy).Contents (Elt F) → (⟨S4194304, .i32⟩ : BufTy).Contents (Elt F)),
    StableHlo.binary main_v1 main_v9 main_v10 (cmpi .eq : (⟨S4194304, .i32⟩ : BufTy).Contents (Elt F) → (⟨S4194304, .i32⟩ : BufTy).Contents (Elt F) → (⟨S4194304, .i1⟩ : BufTy).Contents (Elt F)),
    StableHlo.nullary main_c_2 (constantI S_ 32 1#32),
    StableHlo.unary main_c_2 main_v11 (broadcastInDim S4194304 ![] bcast_S_S4194304 : (⟨S_, .i32⟩ : BufTy).Contents (Elt F) → (⟨S4194304, .i32⟩ : BufTy).Contents (Elt F)),
    StableHlo.binary main_v3 main_v11 main_v12 (cmpi .eq : (⟨S4194304, .i32⟩ : BufTy).Contents (Elt F) → (⟨S4194304, .i32⟩ : BufTy).Contents (Elt F) → (⟨S4194304, .i1⟩ : BufTy).Contents (Elt F)),
    StableHlo.binary main_v10 main_v12 main_v13 (andi : (⟨S4194304, .i1⟩ : BufTy).Contents (Elt F) → (⟨S4194304, .i1⟩ : BufTy).Contents (Elt F) → (⟨S4194304, .i1⟩ : BufTy).Contents (Elt F)),
    StableHlo.nullary main_c_3 (constantI S_ 32 1#32),
    StableHlo.unary main_c_3 main_v14 (broadcastInDim S4194304 ![] bcast_S_S4194304 : (⟨S_, .i32⟩ : BufTy).Contents (Elt F) → (⟨S4194304, .i32⟩ : BufTy).Contents (Elt F)),
    StableHlo.binary main_v1 main_v14 main_v15 (cmpi .eq : (⟨S4194304, .i32⟩ : BufTy).Contents (Elt F) → (⟨S4194304, .i32⟩ : BufTy).Contents (Elt F) → (⟨S4194304, .i1⟩ : BufTy).Contents (Elt F)),
    StableHlo.nullary main_c_4 (constantI S_ 32 1#32),
    StableHlo.unary main_c_4 main_v16 (broadcastInDim S4194304 ![] bcast_S_S4194304 : (⟨S_, .i32⟩ : BufTy).Contents (Elt F) → (⟨S4194304, .i32⟩ : BufTy).Contents (Elt F)),
    StableHlo.binary main_v3 main_v16 main_v17 (cmpi .eq : (⟨S4194304, .i32⟩ : BufTy).Contents (Elt F) → (⟨S4194304, .i32⟩ : BufTy).Contents (Elt F) → (⟨S4194304, .i1⟩ : BufTy).Contents (Elt F)),
    StableHlo.binary main_v15 main_v17 main_v18 (andi : (⟨S4194304, .i1⟩ : BufTy).Contents (Elt F) → (⟨S4194304, .i1⟩ : BufTy).Contents (Elt F) → (⟨S4194304, .i1⟩ : BufTy).Contents (Elt F)),
    StableHlo.nullary main_c_5 (constantI S_ 32 2#32),
    StableHlo.nullary main_c_6 (constantI S_ 32 3#32),
    StableHlo.TRef.unary (.of main_c_5 : StableHlo.TRef sig ⟨S_, .i32⟩) (.of main_call0_v0 : StableHlo.TRef sig ⟨S4194304, .i32⟩) (broadcastInDim S4194304 ![] bcast_S_S4194304),
    StableHlo.TRef.unary (.of main_c_6 : StableHlo.TRef sig ⟨S_, .i32⟩) (.of main_call0_v1 : StableHlo.TRef sig ⟨S4194304, .i32⟩) (broadcastInDim S4194304 ![] bcast_S_S4194304),
    StableHlo.TRef.ternary (.of main_v18 : StableHlo.TRef sig ⟨S4194304, .i1⟩) (.of main_call0_v0 : StableHlo.TRef sig ⟨S4194304, .i32⟩) (.of main_call0_v1 : StableHlo.TRef sig ⟨S4194304, .i32⟩) (.of main_v19 : StableHlo.TRef sig ⟨S4194304, .i32⟩) select,
    StableHlo.nullary main_c_7 (constantI S_ 32 1#32),
    StableHlo.TRef.unary (.of main_c_7 : StableHlo.TRef sig ⟨S_, .i32⟩) (.of main_call1_v0 : StableHlo.TRef sig ⟨S4194304, .i32⟩) (broadcastInDim S4194304 ![] bcast_S_S4194304),
    StableHlo.TRef.ternary (.of main_v13 : StableHlo.TRef sig ⟨S4194304, .i1⟩) (.of main_call1_v0 : StableHlo.TRef sig ⟨S4194304, .i32⟩) (.of main_v19 : StableHlo.TRef sig ⟨S4194304, .i32⟩) (.of main_v20 : StableHlo.TRef sig ⟨S4194304, .i32⟩) select,
    StableHlo.nullary main_c_8 (constantI S_ 32 0#32),
    StableHlo.TRef.unary (.of main_c_8 : StableHlo.TRef sig ⟨S_, .i32⟩) (.of main_call2_v0 : StableHlo.TRef sig ⟨S4194304, .i32⟩) (broadcastInDim S4194304 ![] bcast_S_S4194304),
    StableHlo.TRef.ternary (.of main_v8 : StableHlo.TRef sig ⟨S4194304, .i1⟩) (.of main_call2_v0 : StableHlo.TRef sig ⟨S4194304, .i32⟩) (.of main_v20 : StableHlo.TRef sig ⟨S4194304, .i32⟩) (.of main_v21 : StableHlo.TRef sig ⟨S4194304, .i32⟩) select,
    StableHlo.nullary main_c_9 (constantI S_ 32 4#32),
    StableHlo.unary main_c_9 main_v22 (broadcastInDim S4194304 ![] bcast_S_S4194304 : (⟨S_, .i32⟩ : BufTy).Contents (Elt F) → (⟨S4194304, .i32⟩ : BufTy).Contents (Elt F)),
    StableHlo.binary main_v22 main_arg6 main_v23 (muli : (⟨S4194304, .i32⟩ : BufTy).Contents (Elt F) → (⟨S4194304, .i32⟩ : BufTy).Contents (Elt F) → (⟨S4194304, .i32⟩ : BufTy).Contents (Elt F)),
    StableHlo.unary main_v21 main_v24 (id : (⟨S4194304, .i32⟩ : BufTy).Contents (Elt F) → (⟨S4194304, .i32⟩ : BufTy).Contents (Elt F)),
    StableHlo.binary main_v24 main_v23 main_v25 (addi : (⟨S4194304, .i32⟩ : BufTy).Contents (Elt F) → (⟨S4194304, .i32⟩ : BufTy).Contents (Elt F) → (⟨S4194304, .i32⟩ : BufTy).Contents (Elt F)),
    StableHlo.unary main_arg4 main_v26 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v26 main_v27 rfl shapeCasts_S4194304x1_S4194304,
    StableHlo.unary main_arg4 main_v28 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v28 main_v29 rfl shapeCasts_S4194304x1_S4194304,
    StableHlo.nullary main_c_10 (constantI S_ 32 1#32),
    StableHlo.unary main_c_10 main_v30 (broadcastInDim S4194304 ![] bcast_S_S4194304 : (⟨S_, .i32⟩ : BufTy).Contents (Elt F) → (⟨S4194304, .i32⟩ : BufTy).Contents (Elt F)),
    StableHlo.binary main_v27 main_v30 main_v31 (cmpi .eq : (⟨S4194304, .i32⟩ : BufTy).Contents (Elt F) → (⟨S4194304, .i32⟩ : BufTy).Contents (Elt F) → (⟨S4194304, .i1⟩ : BufTy).Contents (Elt F)),
    StableHlo.nullary main_c_11 (constantI S_ 32 0#32),
    StableHlo.unary main_c_11 main_v32 (broadcastInDim S4194304 ![] bcast_S_S4194304 : (⟨S_, .i32⟩ : BufTy).Contents (Elt F) → (⟨S4194304, .i32⟩ : BufTy).Contents (Elt F)),
    StableHlo.binary main_v29 main_v32 main_v33 (cmpi .eq : (⟨S4194304, .i32⟩ : BufTy).Contents (Elt F) → (⟨S4194304, .i32⟩ : BufTy).Contents (Elt F) → (⟨S4194304, .i1⟩ : BufTy).Contents (Elt F)),
    StableHlo.binary main_v31 main_v33 main_v34 (andi : (⟨S4194304, .i1⟩ : BufTy).Contents (Elt F) → (⟨S4194304, .i1⟩ : BufTy).Contents (Elt F) → (⟨S4194304, .i1⟩ : BufTy).Contents (Elt F)),
    StableHlo.nullary main_c_12 (constantI S_ 32 0#32),
    StableHlo.unary main_c_12 main_v35 (broadcastInDim S4194304 ![] bcast_S_S4194304 : (⟨S_, .i32⟩ : BufTy).Contents (Elt F) → (⟨S4194304, .i32⟩ : BufTy).Contents (Elt F)),
    StableHlo.binary main_v27 main_v35 main_v36 (cmpi .eq : (⟨S4194304, .i32⟩ : BufTy).Contents (Elt F) → (⟨S4194304, .i32⟩ : BufTy).Contents (Elt F) → (⟨S4194304, .i1⟩ : BufTy).Contents (Elt F)),
    StableHlo.nullary main_c_13 (constantI S_ 32 1#32),
    StableHlo.unary main_c_13 main_v37 (broadcastInDim S4194304 ![] bcast_S_S4194304 : (⟨S_, .i32⟩ : BufTy).Contents (Elt F) → (⟨S4194304, .i32⟩ : BufTy).Contents (Elt F)),
    StableHlo.binary main_v29 main_v37 main_v38 (cmpi .eq : (⟨S4194304, .i32⟩ : BufTy).Contents (Elt F) → (⟨S4194304, .i32⟩ : BufTy).Contents (Elt F) → (⟨S4194304, .i1⟩ : BufTy).Contents (Elt F)),
    StableHlo.binary main_v36 main_v38 main_v39 (andi : (⟨S4194304, .i1⟩ : BufTy).Contents (Elt F) → (⟨S4194304, .i1⟩ : BufTy).Contents (Elt F) → (⟨S4194304, .i1⟩ : BufTy).Contents (Elt F)),
    StableHlo.nullary main_c_14 (constantI S_ 32 1#32),
    StableHlo.unary main_c_14 main_v40 (broadcastInDim S4194304 ![] bcast_S_S4194304 : (⟨S_, .i32⟩ : BufTy).Contents (Elt F) → (⟨S4194304, .i32⟩ : BufTy).Contents (Elt F)),
    StableHlo.binary main_v27 main_v40 main_v41 (cmpi .eq : (⟨S4194304, .i32⟩ : BufTy).Contents (Elt F) → (⟨S4194304, .i32⟩ : BufTy).Contents (Elt F) → (⟨S4194304, .i1⟩ : BufTy).Contents (Elt F)),
    StableHlo.nullary main_c_15 (constantI S_ 32 1#32),
    StableHlo.unary main_c_15 main_v42 (broadcastInDim S4194304 ![] bcast_S_S4194304 : (⟨S_, .i32⟩ : BufTy).Contents (Elt F) → (⟨S4194304, .i32⟩ : BufTy).Contents (Elt F)),
    StableHlo.binary main_v29 main_v42 main_v43 (cmpi .eq : (⟨S4194304, .i32⟩ : BufTy).Contents (Elt F) → (⟨S4194304, .i32⟩ : BufTy).Contents (Elt F) → (⟨S4194304, .i1⟩ : BufTy).Contents (Elt F)),
    StableHlo.binary main_v41 main_v43 main_v44 (andi : (⟨S4194304, .i1⟩ : BufTy).Contents (Elt F) → (⟨S4194304, .i1⟩ : BufTy).Contents (Elt F) → (⟨S4194304, .i1⟩ : BufTy).Contents (Elt F)),
    StableHlo.nullary main_c_16 (constantI S_ 32 2#32),
    StableHlo.nullary main_c_17 (constantI S_ 32 3#32),
    StableHlo.TRef.unary (.of main_c_16 : StableHlo.TRef sig ⟨S_, .i32⟩) (.of main_call3_v0 : StableHlo.TRef sig ⟨S4194304, .i32⟩) (broadcastInDim S4194304 ![] bcast_S_S4194304),
    StableHlo.TRef.unary (.of main_c_17 : StableHlo.TRef sig ⟨S_, .i32⟩) (.of main_call3_v1 : StableHlo.TRef sig ⟨S4194304, .i32⟩) (broadcastInDim S4194304 ![] bcast_S_S4194304),
    StableHlo.TRef.ternary (.of main_v44 : StableHlo.TRef sig ⟨S4194304, .i1⟩) (.of main_call3_v0 : StableHlo.TRef sig ⟨S4194304, .i32⟩) (.of main_call3_v1 : StableHlo.TRef sig ⟨S4194304, .i32⟩) (.of main_v45 : StableHlo.TRef sig ⟨S4194304, .i32⟩) select,
    StableHlo.nullary main_c_18 (constantI S_ 32 1#32),
    StableHlo.TRef.unary (.of main_c_18 : StableHlo.TRef sig ⟨S_, .i32⟩) (.of main_call4_v0 : StableHlo.TRef sig ⟨S4194304, .i32⟩) (broadcastInDim S4194304 ![] bcast_S_S4194304),
    StableHlo.TRef.ternary (.of main_v39 : StableHlo.TRef sig ⟨S4194304, .i1⟩) (.of main_call4_v0 : StableHlo.TRef sig ⟨S4194304, .i32⟩) (.of main_v45 : StableHlo.TRef sig ⟨S4194304, .i32⟩) (.of main_v46 : StableHlo.TRef sig ⟨S4194304, .i32⟩) select,
    StableHlo.nullary main_c_19 (constantI S_ 32 0#32),
    StableHlo.TRef.unary (.of main_c_19 : StableHlo.TRef sig ⟨S_, .i32⟩) (.of main_call5_v0 : StableHlo.TRef sig ⟨S4194304, .i32⟩) (broadcastInDim S4194304 ![] bcast_S_S4194304),
    StableHlo.TRef.ternary (.of main_v34 : StableHlo.TRef sig ⟨S4194304, .i1⟩) (.of main_call5_v0 : StableHlo.TRef sig ⟨S4194304, .i32⟩) (.of main_v46 : StableHlo.TRef sig ⟨S4194304, .i32⟩) (.of main_v47 : StableHlo.TRef sig ⟨S4194304, .i32⟩) select,
    StableHlo.nullary main_c_20 (constantI S_ 32 4#32),
    StableHlo.unary main_c_20 main_v48 (broadcastInDim S4194304 ![] bcast_S_S4194304 : (⟨S_, .i32⟩ : BufTy).Contents (Elt F) → (⟨S4194304, .i32⟩ : BufTy).Contents (Elt F)),
    StableHlo.binary main_v48 main_arg6 main_v49 (muli : (⟨S4194304, .i32⟩ : BufTy).Contents (Elt F) → (⟨S4194304, .i32⟩ : BufTy).Contents (Elt F) → (⟨S4194304, .i32⟩ : BufTy).Contents (Elt F)),
    StableHlo.unary main_v47 main_v50 (id : (⟨S4194304, .i32⟩ : BufTy).Contents (Elt F) → (⟨S4194304, .i32⟩ : BufTy).Contents (Elt F)),
    StableHlo.binary main_v50 main_v49 main_v51 (addi : (⟨S4194304, .i32⟩ : BufTy).Contents (Elt F) → (⟨S4194304, .i32⟩ : BufTy).Contents (Elt F) → (⟨S4194304, .i32⟩ : BufTy).Contents (Elt F)),
    StableHlo.unary main_arg5 main_v52 ((extractStridedSlice S4194304x1 ![0, 0] · slices_S4194304x2_S4194304x1_0_0) : (⟨S4194304x2, .i32⟩ : BufTy).Contents (Elt F) → (⟨S4194304x1, .i32⟩ : BufTy).Contents (Elt F)),
    StableHlo.reshape main_v52 main_v53 rfl shapeCasts_S4194304x1_S4194304,
    StableHlo.unary main_arg5 main_v54 ((extractStridedSlice S4194304x1 ![0, 1] · slices_S4194304x2_S4194304x1_0_1) : (⟨S4194304x2, .i32⟩ : BufTy).Contents (Elt F) → (⟨S4194304x1, .i32⟩ : BufTy).Contents (Elt F)),
    StableHlo.reshape main_v54 main_v55 rfl shapeCasts_S4194304x1_S4194304,
    StableHlo.nullary main_c_21 (constantI S_ 32 1#32),
    StableHlo.unary main_c_21 main_v56 (broadcastInDim S4194304 ![] bcast_S_S4194304 : (⟨S_, .i32⟩ : BufTy).Contents (Elt F) → (⟨S4194304, .i32⟩ : BufTy).Contents (Elt F)),
    StableHlo.binary main_v53 main_v56 main_v57 (cmpi .eq : (⟨S4194304, .i32⟩ : BufTy).Contents (Elt F) → (⟨S4194304, .i32⟩ : BufTy).Contents (Elt F) → (⟨S4194304, .i1⟩ : BufTy).Contents (Elt F)),
    StableHlo.nullary main_c_22 (constantI S_ 32 0#32),
    StableHlo.unary main_c_22 main_v58 (broadcastInDim S4194304 ![] bcast_S_S4194304 : (⟨S_, .i32⟩ : BufTy).Contents (Elt F) → (⟨S4194304, .i32⟩ : BufTy).Contents (Elt F)),
    StableHlo.binary main_v55 main_v58 main_v59 (cmpi .eq : (⟨S4194304, .i32⟩ : BufTy).Contents (Elt F) → (⟨S4194304, .i32⟩ : BufTy).Contents (Elt F) → (⟨S4194304, .i1⟩ : BufTy).Contents (Elt F)),
    StableHlo.binary main_v57 main_v59 main_v60 (andi : (⟨S4194304, .i1⟩ : BufTy).Contents (Elt F) → (⟨S4194304, .i1⟩ : BufTy).Contents (Elt F) → (⟨S4194304, .i1⟩ : BufTy).Contents (Elt F)),
    StableHlo.nullary main_c_23 (constantI S_ 32 0#32),
    StableHlo.unary main_c_23 main_v61 (broadcastInDim S4194304 ![] bcast_S_S4194304 : (⟨S_, .i32⟩ : BufTy).Contents (Elt F) → (⟨S4194304, .i32⟩ : BufTy).Contents (Elt F)),
    StableHlo.binary main_v53 main_v61 main_v62 (cmpi .eq : (⟨S4194304, .i32⟩ : BufTy).Contents (Elt F) → (⟨S4194304, .i32⟩ : BufTy).Contents (Elt F) → (⟨S4194304, .i1⟩ : BufTy).Contents (Elt F)),
    StableHlo.nullary main_c_24 (constantI S_ 32 1#32),
    StableHlo.unary main_c_24 main_v63 (broadcastInDim S4194304 ![] bcast_S_S4194304 : (⟨S_, .i32⟩ : BufTy).Contents (Elt F) → (⟨S4194304, .i32⟩ : BufTy).Contents (Elt F)),
    StableHlo.binary main_v55 main_v63 main_v64 (cmpi .eq : (⟨S4194304, .i32⟩ : BufTy).Contents (Elt F) → (⟨S4194304, .i32⟩ : BufTy).Contents (Elt F) → (⟨S4194304, .i1⟩ : BufTy).Contents (Elt F)),
    StableHlo.binary main_v62 main_v64 main_v65 (andi : (⟨S4194304, .i1⟩ : BufTy).Contents (Elt F) → (⟨S4194304, .i1⟩ : BufTy).Contents (Elt F) → (⟨S4194304, .i1⟩ : BufTy).Contents (Elt F)),
    StableHlo.nullary main_c_25 (constantI S_ 32 1#32),
    StableHlo.unary main_c_25 main_v66 (broadcastInDim S4194304 ![] bcast_S_S4194304 : (⟨S_, .i32⟩ : BufTy).Contents (Elt F) → (⟨S4194304, .i32⟩ : BufTy).Contents (Elt F)),
    StableHlo.binary main_v53 main_v66 main_v67 (cmpi .eq : (⟨S4194304, .i32⟩ : BufTy).Contents (Elt F) → (⟨S4194304, .i32⟩ : BufTy).Contents (Elt F) → (⟨S4194304, .i1⟩ : BufTy).Contents (Elt F)),
    StableHlo.nullary main_c_26 (constantI S_ 32 1#32),
    StableHlo.unary main_c_26 main_v68 (broadcastInDim S4194304 ![] bcast_S_S4194304 : (⟨S_, .i32⟩ : BufTy).Contents (Elt F) → (⟨S4194304, .i32⟩ : BufTy).Contents (Elt F)),
    StableHlo.binary main_v55 main_v68 main_v69 (cmpi .eq : (⟨S4194304, .i32⟩ : BufTy).Contents (Elt F) → (⟨S4194304, .i32⟩ : BufTy).Contents (Elt F) → (⟨S4194304, .i1⟩ : BufTy).Contents (Elt F)),
    StableHlo.binary main_v67 main_v69 main_v70 (andi : (⟨S4194304, .i1⟩ : BufTy).Contents (Elt F) → (⟨S4194304, .i1⟩ : BufTy).Contents (Elt F) → (⟨S4194304, .i1⟩ : BufTy).Contents (Elt F)),
    StableHlo.nullary main_c_27 (constantI S_ 32 2#32),
    StableHlo.nullary main_c_28 (constantI S_ 32 3#32),
    StableHlo.TRef.unary (.of main_c_27 : StableHlo.TRef sig ⟨S_, .i32⟩) (.of main_call6_v0 : StableHlo.TRef sig ⟨S4194304, .i32⟩) (broadcastInDim S4194304 ![] bcast_S_S4194304),
    StableHlo.TRef.unary (.of main_c_28 : StableHlo.TRef sig ⟨S_, .i32⟩) (.of main_call6_v1 : StableHlo.TRef sig ⟨S4194304, .i32⟩) (broadcastInDim S4194304 ![] bcast_S_S4194304),
    StableHlo.TRef.ternary (.of main_v70 : StableHlo.TRef sig ⟨S4194304, .i1⟩) (.of main_call6_v0 : StableHlo.TRef sig ⟨S4194304, .i32⟩) (.of main_call6_v1 : StableHlo.TRef sig ⟨S4194304, .i32⟩) (.of main_v71 : StableHlo.TRef sig ⟨S4194304, .i32⟩) select,
    StableHlo.nullary main_c_29 (constantI S_ 32 1#32),
    StableHlo.TRef.unary (.of main_c_29 : StableHlo.TRef sig ⟨S_, .i32⟩) (.of main_call7_v0 : StableHlo.TRef sig ⟨S4194304, .i32⟩) (broadcastInDim S4194304 ![] bcast_S_S4194304),
    StableHlo.TRef.ternary (.of main_v65 : StableHlo.TRef sig ⟨S4194304, .i1⟩) (.of main_call7_v0 : StableHlo.TRef sig ⟨S4194304, .i32⟩) (.of main_v71 : StableHlo.TRef sig ⟨S4194304, .i32⟩) (.of main_v72 : StableHlo.TRef sig ⟨S4194304, .i32⟩) select,
    StableHlo.nullary main_c_30 (constantI S_ 32 0#32),
    StableHlo.TRef.unary (.of main_c_30 : StableHlo.TRef sig ⟨S_, .i32⟩) (.of main_call8_v0 : StableHlo.TRef sig ⟨S4194304, .i32⟩) (broadcastInDim S4194304 ![] bcast_S_S4194304),
    StableHlo.TRef.ternary (.of main_v60 : StableHlo.TRef sig ⟨S4194304, .i1⟩) (.of main_call8_v0 : StableHlo.TRef sig ⟨S4194304, .i32⟩) (.of main_v72 : StableHlo.TRef sig ⟨S4194304, .i32⟩) (.of main_v73 : StableHlo.TRef sig ⟨S4194304, .i32⟩) select,
    StableHlo.nullary main_c_31 (constantI S_ 32 4#32),
    StableHlo.unary main_c_31 main_v74 (broadcastInDim S4194304 ![] bcast_S_S4194304 : (⟨S_, .i32⟩ : BufTy).Contents (Elt F) → (⟨S4194304, .i32⟩ : BufTy).Contents (Elt F)),
    StableHlo.binary main_v74 main_arg6 main_v75 (muli : (⟨S4194304, .i32⟩ : BufTy).Contents (Elt F) → (⟨S4194304, .i32⟩ : BufTy).Contents (Elt F) → (⟨S4194304, .i32⟩ : BufTy).Contents (Elt F)),
    StableHlo.unary main_v73 main_v76 (id : (⟨S4194304, .i32⟩ : BufTy).Contents (Elt F) → (⟨S4194304, .i32⟩ : BufTy).Contents (Elt F)),
    StableHlo.binary main_v76 main_v75 main_v77 (addi : (⟨S4194304, .i32⟩ : BufTy).Contents (Elt F) → (⟨S4194304, .i32⟩ : BufTy).Contents (Elt F) → (⟨S4194304, .i32⟩ : BufTy).Contents (Elt F)) ]

/-- 26 operations: main_c_32 … main_v96. -/
abbrev rec0 : List (HloOp τ sig (Elt F)) :=
  [ StableHlo.nullary main_c_32 (constantI S_ 32 0#32),
    StableHlo.unary main_c_32 main_v78 (broadcastInDim S4194304 ![] bcast_S_S4194304 : (⟨S_, .i32⟩ : BufTy).Contents (Elt F) → (⟨S4194304, .i32⟩ : BufTy).Contents (Elt F)),
    StableHlo.binary main_v25 main_v78 main_v79 (cmpi .eq : (⟨S4194304, .i32⟩ : BufTy).Contents (Elt F) → (⟨S4194304, .i32⟩ : BufTy).Contents (Elt F) → (⟨S4194304, .i1⟩ : BufTy).Contents (Elt F)),
    StableHlo.nullary main_c_33 (constantI S_ 32 4#32),
    StableHlo.unary main_c_33 main_v80 (broadcastInDim S4194304 ![] bcast_S_S4194304 : (⟨S_, .i32⟩ : BufTy).Contents (Elt F) → (⟨S4194304, .i32⟩ : BufTy).Contents (Elt F)),
    StableHlo.binary main_v51 main_v80 main_v81 (cmpi .eq : (⟨S4194304, .i32⟩ : BufTy).Contents (Elt F) → (⟨S4194304, .i32⟩ : BufTy).Contents (Elt F) → (⟨S4194304, .i1⟩ : BufTy).Contents (Elt F)),
    StableHlo.binary main_v79 main_v81 main_v82 (andi : (⟨S4194304, .i1⟩ : BufTy).Contents (Elt F) → (⟨S4194304, .i1⟩ : BufTy).Contents (Elt F) → (⟨S4194304, .i1⟩ : BufTy).Contents (Elt F)),
    StableHlo.nullary main_c_34 (constantI S_ 32 4#32),
    StableHlo.unary main_c_34 main_v83 (broadcastInDim S4194304 ![] bcast_S_S4194304 : (⟨S_, .i32⟩ : BufTy).Contents (Elt F) → (⟨S4194304, .i32⟩ : BufTy).Contents (Elt F)),
    StableHlo.binary main_v77 main_v83 main_v84 (cmpi .eq : (⟨S4194304, .i32⟩ : BufTy).Contents (Elt F) → (⟨S4194304, .i32⟩ : BufTy).Contents (Elt F) → (⟨S4194304, .i1⟩ : BufTy).Contents (Elt F)),
    StableHlo.binary main_v82 main_v84 main_v85 (andi : (⟨S4194304, .i1⟩ : BufTy).Contents (Elt F) → (⟨S4194304, .i1⟩ : BufTy).Contents (Elt F) → (⟨S4194304, .i1⟩ : BufTy).Contents (Elt F)),
    StableHlo.unary main_arg0 main_v86 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v86 main_v87 rfl shapeCasts_S4194304x1_S4194304,
    StableHlo.unary main_arg1 main_v88 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v88 main_v89 rfl shapeCasts_S4194304x1_S4194304,
    StableHlo.binary main_v87 main_v89 main_v90 (addf : (⟨S4194304, .f32⟩ : BufTy).Contents (Elt F) → (⟨S4194304, .f32⟩ : BufTy).Contents (Elt F) → (⟨S4194304, .f32⟩ : BufTy).Contents (Elt F)),
    StableHlo.unary main_arg2 main_v91 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v91 main_v92 rfl shapeCasts_S4194304x1_S4194304,
    StableHlo.binary main_v90 main_v92 main_v93 (subf : (⟨S4194304, .f32⟩ : BufTy).Contents (Elt F) → (⟨S4194304, .f32⟩ : BufTy).Contents (Elt F) → (⟨S4194304, .f32⟩ : BufTy).Contents (Elt F)),
    StableHlo.nullary main_cst (constant S_ .f32 0x00000000#32),
    StableHlo.TRef.unary (.of main_cst : StableHlo.TRef sig ⟨S_, .f32⟩) (.of main_call9_v0 : StableHlo.TRef sig ⟨S4194304, .f32⟩) (broadcastInDim S4194304 ![] bcast_S_S4194304),
    StableHlo.TRef.ternary (.of main_v85 : StableHlo.TRef sig ⟨S4194304, .i1⟩) (.of main_v93 : StableHlo.TRef sig ⟨S4194304, .f32⟩) (.of main_call9_v0 : StableHlo.TRef sig ⟨S4194304, .f32⟩) (.of main_v94 : StableHlo.TRef sig ⟨S4194304, .f32⟩) select,
    StableHlo.nullary main_cst_35 (constant S_ .f32 0x00000000#32),
    StableHlo.binary main_v94 main_cst_35 main_v95 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_36 (constant S_ .f32 0x00000000#32),
    StableHlo.binary main_cst_36 main_v95 main_v96 (subf : (⟨S_, .f32⟩ : BufTy).Contents (Elt F) → (⟨S_, .f32⟩ : BufTy).Contents (Elt F) → (⟨S_, .f32⟩ : BufTy).Contents (Elt F)) ]

/-- 25 operations: main_c_37 … main_v115. -/
abbrev rec1 : List (HloOp τ sig (Elt F)) :=
  [ StableHlo.nullary main_c_37 (constantI S_ 32 0#32),
    StableHlo.unary main_c_37 main_v97 (broadcastInDim S4194304 ![] bcast_S_S4194304 : (⟨S_, .i32⟩ : BufTy).Contents (Elt F) → (⟨S4194304, .i32⟩ : BufTy).Contents (Elt F)),
    StableHlo.binary main_v25 main_v97 main_v98 (cmpi .eq : (⟨S4194304, .i32⟩ : BufTy).Contents (Elt F) → (⟨S4194304, .i32⟩ : BufTy).Contents (Elt F) → (⟨S4194304, .i1⟩ : BufTy).Contents (Elt F)),
    StableHlo.nullary main_c_38 (constantI S_ 32 6#32),
    StableHlo.unary main_c_38 main_v99 (broadcastInDim S4194304 ![] bcast_S_S4194304 : (⟨S_, .i32⟩ : BufTy).Contents (Elt F) → (⟨S4194304, .i32⟩ : BufTy).Contents (Elt F)),
    StableHlo.binary main_v51 main_v99 main_v100 (cmpi .eq : (⟨S4194304, .i32⟩ : BufTy).Contents (Elt F) → (⟨S4194304, .i32⟩ : BufTy).Contents (Elt F) → (⟨S4194304, .i1⟩ : BufTy).Contents (Elt F)),
    StableHlo.binary main_v98 main_v100 main_v101 (andi : (⟨S4194304, .i1⟩ : BufTy).Contents (Elt F) → (⟨S4194304, .i1⟩ : BufTy).Contents (Elt F) → (⟨S4194304, .i1⟩ : BufTy).Contents (Elt F)),
    StableHlo.nullary main_c_39 (constantI S_ 32 4#32),
    StableHlo.unary main_c_39 main_v102 (broadcastInDim S4194304 ![] bcast_S_S4194304 : (⟨S_, .i32⟩ : BufTy).Contents (Elt F) → (⟨S4194304, .i32⟩ : BufTy).Contents (Elt F)),
    StableHlo.binary main_v77 main_v102 main_v103 (cmpi .eq : (⟨S4194304, .i32⟩ : BufTy).Contents (Elt F) → (⟨S4194304, .i32⟩ : BufTy).Contents (Elt F) → (⟨S4194304, .i1⟩ : BufTy).Contents (Elt F)),
    StableHlo.binary main_v101 main_v103 main_v104 (andi : (⟨S4194304, .i1⟩ : BufTy).Contents (Elt F) → (⟨S4194304, .i1⟩ : BufTy).Contents (Elt F) → (⟨S4194304, .i1⟩ : BufTy).Contents (Elt F)),
    StableHlo.unary main_arg0 main_v105 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v105 main_v106 rfl shapeCasts_S4194304x1_S4194304,
    StableHlo.unary main_arg1 main_v107 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v107 main_v108 rfl shapeCasts_S4194304x1_S4194304,
    StableHlo.binary main_v106 main_v108 main_v109 (addf : (⟨S4194304, .f32⟩ : BufTy).Contents (Elt F) → (⟨S4194304, .f32⟩ : BufTy).Contents (Elt F) → (⟨S4194304, .f32⟩ : BufTy).Contents (Elt F)),
    StableHlo.unary main_arg2 main_v110 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v110 main_v111 rfl shapeCasts_S4194304x1_S4194304,
    StableHlo.binary main_v109 main_v111 main_v112 (subf : (⟨S4194304, .f32⟩ : BufTy).Contents (Elt F) → (⟨S4194304, .f32⟩ : BufTy).Contents (Elt F) → (⟨S4194304, .f32⟩ : BufTy).Contents (Elt F)),
    StableHlo.nullary main_cst_40 (constant S_ .f32 0x00000000#32),
    StableHlo.TRef.unary (.of main_cst_40 : StableHlo.TRef sig ⟨S_, .f32⟩) (.of main_call10_v0 : StableHlo.TRef sig ⟨S4194304, .f32⟩) (broadcastInDim S4194304 ![] bcast_S_S4194304),
    StableHlo.TRef.ternary (.of main_v104 : StableHlo.TRef sig ⟨S4194304, .i1⟩) (.of main_v112 : StableHlo.TRef sig ⟨S4194304, .f32⟩) (.of main_call10_v0 : StableHlo.TRef sig ⟨S4194304, .f32⟩) (.of main_v113 : StableHlo.TRef sig ⟨S4194304, .f32⟩) select,
    StableHlo.nullary main_cst_41 (constant S_ .f32 0x00000000#32),
    StableHlo.binary main_v113 main_cst_41 main_v114 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v96 main_v114 main_v115 (subf : (⟨S_, .f32⟩ : BufTy).Contents (Elt F) → (⟨S_, .f32⟩ : BufTy).Contents (Elt F) → (⟨S_, .f32⟩ : BufTy).Contents (Elt F)) ]

/-- 25 operations: main_c_42 … main_v134. -/
abbrev rec2 : List (HloOp τ sig (Elt F)) :=
  [ StableHlo.nullary main_c_42 (constantI S_ 32 1#32),
    StableHlo.unary main_c_42 main_v116 (broadcastInDim S4194304 ![] bcast_S_S4194304 : (⟨S_, .i32⟩ : BufTy).Contents (Elt F) → (⟨S4194304, .i32⟩ : BufTy).Contents (Elt F)),
    StableHlo.binary main_v25 main_v116 main_v117 (cmpi .eq : (⟨S4194304, .i32⟩ : BufTy).Contents (Elt F) → (⟨S4194304, .i32⟩ : BufTy).Contents (Elt F) → (⟨S4194304, .i1⟩ : BufTy).Contents (Elt F)),
    StableHlo.nullary main_c_43 (constantI S_ 32 5#32),
    StableHlo.unary main_c_43 main_v118 (broadcastInDim S4194304 ![] bcast_S_S4194304 : (⟨S_, .i32⟩ : BufTy).Contents (Elt F) → (⟨S4194304, .i32⟩ : BufTy).Contents (Elt F)),
    StableHlo.binary main_v51 main_v118 main_v119 (cmpi .eq : (⟨S4194304, .i32⟩ : BufTy).Contents (Elt F) → (⟨S4194304, .i32⟩ : BufTy).Contents (Elt F) → (⟨S4194304, .i1⟩ : BufTy).Contents (Elt F)),
    StableHlo.binary main_v117 main_v119 main_v120 (andi : (⟨S4194304, .i1⟩ : BufTy).Contents (Elt F) → (⟨S4194304, .i1⟩ : BufTy).Contents (Elt F) → (⟨S4194304, .i1⟩ : BufTy).Contents (Elt F)),
    StableHlo.nullary main_c_44 (constantI S_ 32 5#32),
    StableHlo.unary main_c_44 main_v121 (broadcastInDim S4194304 ![] bcast_S_S4194304 : (⟨S_, .i32⟩ : BufTy).Contents (Elt F) → (⟨S4194304, .i32⟩ : BufTy).Contents (Elt F)),
    StableHlo.binary main_v77 main_v121 main_v122 (cmpi .eq : (⟨S4194304, .i32⟩ : BufTy).Contents (Elt F) → (⟨S4194304, .i32⟩ : BufTy).Contents (Elt F) → (⟨S4194304, .i1⟩ : BufTy).Contents (Elt F)),
    StableHlo.binary main_v120 main_v122 main_v123 (andi : (⟨S4194304, .i1⟩ : BufTy).Contents (Elt F) → (⟨S4194304, .i1⟩ : BufTy).Contents (Elt F) → (⟨S4194304, .i1⟩ : BufTy).Contents (Elt F)),
    StableHlo.unary main_arg0 main_v124 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v124 main_v125 rfl shapeCasts_S4194304x1_S4194304,
    StableHlo.unary main_arg1 main_v126 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v126 main_v127 rfl shapeCasts_S4194304x1_S4194304,
    StableHlo.binary main_v125 main_v127 main_v128 (addf : (⟨S4194304, .f32⟩ : BufTy).Contents (Elt F) → (⟨S4194304, .f32⟩ : BufTy).Contents (Elt F) → (⟨S4194304, .f32⟩ : BufTy).Contents (Elt F)),
    StableHlo.unary main_arg2 main_v129 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v129 main_v130 rfl shapeCasts_S4194304x1_S4194304,
    StableHlo.binary main_v128 main_v130 main_v131 (subf : (⟨S4194304, .f32⟩ : BufTy).Contents (Elt F) → (⟨S4194304, .f32⟩ : BufTy).Contents (Elt F) → (⟨S4194304, .f32⟩ : BufTy).Contents (Elt F)),
    StableHlo.nullary main_cst_45 (constant S_ .f32 0x00000000#32),
    StableHlo.TRef.unary (.of main_cst_45 : StableHlo.TRef sig ⟨S_, .f32⟩) (.of main_call11_v0 : StableHlo.TRef sig ⟨S4194304, .f32⟩) (broadcastInDim S4194304 ![] bcast_S_S4194304),
    StableHlo.TRef.ternary (.of main_v123 : StableHlo.TRef sig ⟨S4194304, .i1⟩) (.of main_v131 : StableHlo.TRef sig ⟨S4194304, .f32⟩) (.of main_call11_v0 : StableHlo.TRef sig ⟨S4194304, .f32⟩) (.of main_v132 : StableHlo.TRef sig ⟨S4194304, .f32⟩) select,
    StableHlo.nullary main_cst_46 (constant S_ .f32 0x00000000#32),
    StableHlo.binary main_v132 main_cst_46 main_v133 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v115 main_v133 main_v134 (subf : (⟨S_, .f32⟩ : BufTy).Contents (Elt F) → (⟨S_, .f32⟩ : BufTy).Contents (Elt F) → (⟨S_, .f32⟩ : BufTy).Contents (Elt F)) ]

/-- 25 operations: main_c_47 … main_v153. -/
abbrev rec3 : List (HloOp τ sig (Elt F)) :=
  [ StableHlo.nullary main_c_47 (constantI S_ 32 1#32),
    StableHlo.unary main_c_47 main_v135 (broadcastInDim S4194304 ![] bcast_S_S4194304 : (⟨S_, .i32⟩ : BufTy).Contents (Elt F) → (⟨S4194304, .i32⟩ : BufTy).Contents (Elt F)),
    StableHlo.binary main_v25 main_v135 main_v136 (cmpi .eq : (⟨S4194304, .i32⟩ : BufTy).Contents (Elt F) → (⟨S4194304, .i32⟩ : BufTy).Contents (Elt F) → (⟨S4194304, .i1⟩ : BufTy).Contents (Elt F)),
    StableHlo.nullary main_c_48 (constantI S_ 32 6#32),
    StableHlo.unary main_c_48 main_v137 (broadcastInDim S4194304 ![] bcast_S_S4194304 : (⟨S_, .i32⟩ : BufTy).Contents (Elt F) → (⟨S4194304, .i32⟩ : BufTy).Contents (Elt F)),
    StableHlo.binary main_v51 main_v137 main_v138 (cmpi .eq : (⟨S4194304, .i32⟩ : BufTy).Contents (Elt F) → (⟨S4194304, .i32⟩ : BufTy).Contents (Elt F) → (⟨S4194304, .i1⟩ : BufTy).Contents (Elt F)),
    StableHlo.binary main_v136 main_v138 main_v139 (andi : (⟨S4194304, .i1⟩ : BufTy).Contents (Elt F) → (⟨S4194304, .i1⟩ : BufTy).Contents (Elt F) → (⟨S4194304, .i1⟩ : BufTy).Contents (Elt F)),
    StableHlo.nullary main_c_49 (constantI S_ 32 5#32),
    StableHlo.unary main_c_49 main_v140 (broadcastInDim S4194304 ![] bcast_S_S4194304 : (⟨S_, .i32⟩ : BufTy).Contents (Elt F) → (⟨S4194304, .i32⟩ : BufTy).Contents (Elt F)),
    StableHlo.binary main_v77 main_v140 main_v141 (cmpi .eq : (⟨S4194304, .i32⟩ : BufTy).Contents (Elt F) → (⟨S4194304, .i32⟩ : BufTy).Contents (Elt F) → (⟨S4194304, .i1⟩ : BufTy).Contents (Elt F)),
    StableHlo.binary main_v139 main_v141 main_v142 (andi : (⟨S4194304, .i1⟩ : BufTy).Contents (Elt F) → (⟨S4194304, .i1⟩ : BufTy).Contents (Elt F) → (⟨S4194304, .i1⟩ : BufTy).Contents (Elt F)),
    StableHlo.unary main_arg0 main_v143 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v143 main_v144 rfl shapeCasts_S4194304x1_S4194304,
    StableHlo.unary main_arg1 main_v145 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v145 main_v146 rfl shapeCasts_S4194304x1_S4194304,
    StableHlo.binary main_v144 main_v146 main_v147 (addf : (⟨S4194304, .f32⟩ : BufTy).Contents (Elt F) → (⟨S4194304, .f32⟩ : BufTy).Contents (Elt F) → (⟨S4194304, .f32⟩ : BufTy).Contents (Elt F)),
    StableHlo.unary main_arg2 main_v148 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v148 main_v149 rfl shapeCasts_S4194304x1_S4194304,
    StableHlo.binary main_v147 main_v149 main_v150 (subf : (⟨S4194304, .f32⟩ : BufTy).Contents (Elt F) → (⟨S4194304, .f32⟩ : BufTy).Contents (Elt F) → (⟨S4194304, .f32⟩ : BufTy).Contents (Elt F)),
    StableHlo.nullary main_cst_50 (constant S_ .f32 0x00000000#32),
    StableHlo.TRef.unary (.of main_cst_50 : StableHlo.TRef sig ⟨S_, .f32⟩) (.of main_call12_v0 : StableHlo.TRef sig ⟨S4194304, .f32⟩) (broadcastInDim S4194304 ![] bcast_S_S4194304),
    StableHlo.TRef.ternary (.of main_v142 : StableHlo.TRef sig ⟨S4194304, .i1⟩) (.of main_v150 : StableHlo.TRef sig ⟨S4194304, .f32⟩) (.of main_call12_v0 : StableHlo.TRef sig ⟨S4194304, .f32⟩) (.of main_v151 : StableHlo.TRef sig ⟨S4194304, .f32⟩) select,
    StableHlo.nullary main_cst_51 (constant S_ .f32 0x00000000#32),
    StableHlo.binary main_v151 main_cst_51 main_v152 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v134 main_v152 main_v153 (subf : (⟨S_, .f32⟩ : BufTy).Contents (Elt F) → (⟨S_, .f32⟩ : BufTy).Contents (Elt F) → (⟨S_, .f32⟩ : BufTy).Contents (Elt F)) ]

/-- 25 operations: main_c_52 … main_v172. -/
abbrev rec4 : List (HloOp τ sig (Elt F)) :=
  [ StableHlo.nullary main_c_52 (constantI S_ 32 2#32),
    StableHlo.unary main_c_52 main_v154 (broadcastInDim S4194304 ![] bcast_S_S4194304 : (⟨S_, .i32⟩ : BufTy).Contents (Elt F) → (⟨S4194304, .i32⟩ : BufTy).Contents (Elt F)),
    StableHlo.binary main_v25 main_v154 main_v155 (cmpi .eq : (⟨S4194304, .i32⟩ : BufTy).Contents (Elt F) → (⟨S4194304, .i32⟩ : BufTy).Contents (Elt F) → (⟨S4194304, .i1⟩ : BufTy).Contents (Elt F)),
    StableHlo.nullary main_c_53 (constantI S_ 32 4#32),
    StableHlo.unary main_c_53 main_v156 (broadcastInDim S4194304 ![] bcast_S_S4194304 : (⟨S_, .i32⟩ : BufTy).Contents (Elt F) → (⟨S4194304, .i32⟩ : BufTy).Contents (Elt F)),
    StableHlo.binary main_v51 main_v156 main_v157 (cmpi .eq : (⟨S4194304, .i32⟩ : BufTy).Contents (Elt F) → (⟨S4194304, .i32⟩ : BufTy).Contents (Elt F) → (⟨S4194304, .i1⟩ : BufTy).Contents (Elt F)),
    StableHlo.binary main_v155 main_v157 main_v158 (andi : (⟨S4194304, .i1⟩ : BufTy).Contents (Elt F) → (⟨S4194304, .i1⟩ : BufTy).Contents (Elt F) → (⟨S4194304, .i1⟩ : BufTy).Contents (Elt F)),
    StableHlo.nullary main_c_54 (constantI S_ 32 4#32),
    StableHlo.unary main_c_54 main_v159 (broadcastInDim S4194304 ![] bcast_S_S4194304 : (⟨S_, .i32⟩ : BufTy).Contents (Elt F) → (⟨S4194304, .i32⟩ : BufTy).Contents (Elt F)),
    StableHlo.binary main_v77 main_v159 main_v160 (cmpi .eq : (⟨S4194304, .i32⟩ : BufTy).Contents (Elt F) → (⟨S4194304, .i32⟩ : BufTy).Contents (Elt F) → (⟨S4194304, .i1⟩ : BufTy).Contents (Elt F)),
    StableHlo.binary main_v158 main_v160 main_v161 (andi : (⟨S4194304, .i1⟩ : BufTy).Contents (Elt F) → (⟨S4194304, .i1⟩ : BufTy).Contents (Elt F) → (⟨S4194304, .i1⟩ : BufTy).Contents (Elt F)),
    StableHlo.unary main_arg0 main_v162 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v162 main_v163 rfl shapeCasts_S4194304x1_S4194304,
    StableHlo.unary main_arg1 main_v164 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v164 main_v165 rfl shapeCasts_S4194304x1_S4194304,
    StableHlo.binary main_v163 main_v165 main_v166 (addf : (⟨S4194304, .f32⟩ : BufTy).Contents (Elt F) → (⟨S4194304, .f32⟩ : BufTy).Contents (Elt F) → (⟨S4194304, .f32⟩ : BufTy).Contents (Elt F)),
    StableHlo.unary main_arg2 main_v167 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v167 main_v168 rfl shapeCasts_S4194304x1_S4194304,
    StableHlo.binary main_v166 main_v168 main_v169 (subf : (⟨S4194304, .f32⟩ : BufTy).Contents (Elt F) → (⟨S4194304, .f32⟩ : BufTy).Contents (Elt F) → (⟨S4194304, .f32⟩ : BufTy).Contents (Elt F)),
    StableHlo.nullary main_cst_55 (constant S_ .f32 0x00000000#32),
    StableHlo.TRef.unary (.of main_cst_55 : StableHlo.TRef sig ⟨S_, .f32⟩) (.of main_call13_v0 : StableHlo.TRef sig ⟨S4194304, .f32⟩) (broadcastInDim S4194304 ![] bcast_S_S4194304),
    StableHlo.TRef.ternary (.of main_v161 : StableHlo.TRef sig ⟨S4194304, .i1⟩) (.of main_v169 : StableHlo.TRef sig ⟨S4194304, .f32⟩) (.of main_call13_v0 : StableHlo.TRef sig ⟨S4194304, .f32⟩) (.of main_v170 : StableHlo.TRef sig ⟨S4194304, .f32⟩) select,
    StableHlo.nullary main_cst_56 (constant S_ .f32 0x00000000#32),
    StableHlo.binary main_v170 main_cst_56 main_v171 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v153 main_v171 main_v172 (subf : (⟨S_, .f32⟩ : BufTy).Contents (Elt F) → (⟨S_, .f32⟩ : BufTy).Contents (Elt F) → (⟨S_, .f32⟩ : BufTy).Contents (Elt F)) ]

/-- 25 operations: main_c_57 … main_v191. -/
abbrev rec5 : List (HloOp τ sig (Elt F)) :=
  [ StableHlo.nullary main_c_57 (constantI S_ 32 2#32),
    StableHlo.unary main_c_57 main_v173 (broadcastInDim S4194304 ![] bcast_S_S4194304 : (⟨S_, .i32⟩ : BufTy).Contents (Elt F) → (⟨S4194304, .i32⟩ : BufTy).Contents (Elt F)),
    StableHlo.binary main_v25 main_v173 main_v174 (cmpi .eq : (⟨S4194304, .i32⟩ : BufTy).Contents (Elt F) → (⟨S4194304, .i32⟩ : BufTy).Contents (Elt F) → (⟨S4194304, .i1⟩ : BufTy).Contents (Elt F)),
    StableHlo.nullary main_c_58 (constantI S_ 32 5#32),
    StableHlo.unary main_c_58 main_v175 (broadcastInDim S4194304 ![] bcast_S_S4194304 : (⟨S_, .i32⟩ : BufTy).Contents (Elt F) → (⟨S4194304, .i32⟩ : BufTy).Contents (Elt F)),
    StableHlo.binary main_v51 main_v175 main_v176 (cmpi .eq : (⟨S4194304, .i32⟩ : BufTy).Contents (Elt F) → (⟨S4194304, .i32⟩ : BufTy).Contents (Elt F) → (⟨S4194304, .i1⟩ : BufTy).Contents (Elt F)),
    StableHlo.binary main_v174 main_v176 main_v177 (andi : (⟨S4194304, .i1⟩ : BufTy).Contents (Elt F) → (⟨S4194304, .i1⟩ : BufTy).Contents (Elt F) → (⟨S4194304, .i1⟩ : BufTy).Contents (Elt F)),
    StableHlo.nullary main_c_59 (constantI S_ 32 5#32),
    StableHlo.unary main_c_59 main_v178 (broadcastInDim S4194304 ![] bcast_S_S4194304 : (⟨S_, .i32⟩ : BufTy).Contents (Elt F) → (⟨S4194304, .i32⟩ : BufTy).Contents (Elt F)),
    StableHlo.binary main_v77 main_v178 main_v179 (cmpi .eq : (⟨S4194304, .i32⟩ : BufTy).Contents (Elt F) → (⟨S4194304, .i32⟩ : BufTy).Contents (Elt F) → (⟨S4194304, .i1⟩ : BufTy).Contents (Elt F)),
    StableHlo.binary main_v177 main_v179 main_v180 (andi : (⟨S4194304, .i1⟩ : BufTy).Contents (Elt F) → (⟨S4194304, .i1⟩ : BufTy).Contents (Elt F) → (⟨S4194304, .i1⟩ : BufTy).Contents (Elt F)),
    StableHlo.unary main_arg0 main_v181 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v181 main_v182 rfl shapeCasts_S4194304x1_S4194304,
    StableHlo.unary main_arg1 main_v183 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v183 main_v184 rfl shapeCasts_S4194304x1_S4194304,
    StableHlo.binary main_v182 main_v184 main_v185 (addf : (⟨S4194304, .f32⟩ : BufTy).Contents (Elt F) → (⟨S4194304, .f32⟩ : BufTy).Contents (Elt F) → (⟨S4194304, .f32⟩ : BufTy).Contents (Elt F)),
    StableHlo.unary main_arg2 main_v186 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v186 main_v187 rfl shapeCasts_S4194304x1_S4194304,
    StableHlo.binary main_v185 main_v187 main_v188 (subf : (⟨S4194304, .f32⟩ : BufTy).Contents (Elt F) → (⟨S4194304, .f32⟩ : BufTy).Contents (Elt F) → (⟨S4194304, .f32⟩ : BufTy).Contents (Elt F)),
    StableHlo.nullary main_cst_60 (constant S_ .f32 0x00000000#32),
    StableHlo.TRef.unary (.of main_cst_60 : StableHlo.TRef sig ⟨S_, .f32⟩) (.of main_call14_v0 : StableHlo.TRef sig ⟨S4194304, .f32⟩) (broadcastInDim S4194304 ![] bcast_S_S4194304),
    StableHlo.TRef.ternary (.of main_v180 : StableHlo.TRef sig ⟨S4194304, .i1⟩) (.of main_v188 : StableHlo.TRef sig ⟨S4194304, .f32⟩) (.of main_call14_v0 : StableHlo.TRef sig ⟨S4194304, .f32⟩) (.of main_v189 : StableHlo.TRef sig ⟨S4194304, .f32⟩) select,
    StableHlo.nullary main_cst_61 (constant S_ .f32 0x00000000#32),
    StableHlo.binary main_v189 main_cst_61 main_v190 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v172 main_v190 main_v191 (subf : (⟨S_, .f32⟩ : BufTy).Contents (Elt F) → (⟨S_, .f32⟩ : BufTy).Contents (Elt F) → (⟨S_, .f32⟩ : BufTy).Contents (Elt F)) ]

/-- 25 operations: main_c_62 … main_v210. -/
abbrev rec6 : List (HloOp τ sig (Elt F)) :=
  [ StableHlo.nullary main_c_62 (constantI S_ 32 2#32),
    StableHlo.unary main_c_62 main_v192 (broadcastInDim S4194304 ![] bcast_S_S4194304 : (⟨S_, .i32⟩ : BufTy).Contents (Elt F) → (⟨S4194304, .i32⟩ : BufTy).Contents (Elt F)),
    StableHlo.binary main_v25 main_v192 main_v193 (cmpi .eq : (⟨S4194304, .i32⟩ : BufTy).Contents (Elt F) → (⟨S4194304, .i32⟩ : BufTy).Contents (Elt F) → (⟨S4194304, .i1⟩ : BufTy).Contents (Elt F)),
    StableHlo.nullary main_c_63 (constantI S_ 32 6#32),
    StableHlo.unary main_c_63 main_v194 (broadcastInDim S4194304 ![] bcast_S_S4194304 : (⟨S_, .i32⟩ : BufTy).Contents (Elt F) → (⟨S4194304, .i32⟩ : BufTy).Contents (Elt F)),
    StableHlo.binary main_v51 main_v194 main_v195 (cmpi .eq : (⟨S4194304, .i32⟩ : BufTy).Contents (Elt F) → (⟨S4194304, .i32⟩ : BufTy).Contents (Elt F) → (⟨S4194304, .i1⟩ : BufTy).Contents (Elt F)),
    StableHlo.binary main_v193 main_v195 main_v196 (andi : (⟨S4194304, .i1⟩ : BufTy).Contents (Elt F) → (⟨S4194304, .i1⟩ : BufTy).Contents (Elt F) → (⟨S4194304, .i1⟩ : BufTy).Contents (Elt F)),
    StableHlo.nullary main_c_64 (constantI S_ 32 6#32),
    StableHlo.unary main_c_64 main_v197 (broadcastInDim S4194304 ![] bcast_S_S4194304 : (⟨S_, .i32⟩ : BufTy).Contents (Elt F) → (⟨S4194304, .i32⟩ : BufTy).Contents (Elt F)),
    StableHlo.binary main_v77 main_v197 main_v198 (cmpi .eq : (⟨S4194304, .i32⟩ : BufTy).Contents (Elt F) → (⟨S4194304, .i32⟩ : BufTy).Contents (Elt F) → (⟨S4194304, .i1⟩ : BufTy).Contents (Elt F)),
    StableHlo.binary main_v196 main_v198 main_v199 (andi : (⟨S4194304, .i1⟩ : BufTy).Contents (Elt F) → (⟨S4194304, .i1⟩ : BufTy).Contents (Elt F) → (⟨S4194304, .i1⟩ : BufTy).Contents (Elt F)),
    StableHlo.unary main_arg0 main_v200 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v200 main_v201 rfl shapeCasts_S4194304x1_S4194304,
    StableHlo.unary main_arg1 main_v202 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v202 main_v203 rfl shapeCasts_S4194304x1_S4194304,
    StableHlo.binary main_v201 main_v203 main_v204 (addf : (⟨S4194304, .f32⟩ : BufTy).Contents (Elt F) → (⟨S4194304, .f32⟩ : BufTy).Contents (Elt F) → (⟨S4194304, .f32⟩ : BufTy).Contents (Elt F)),
    StableHlo.unary main_arg2 main_v205 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v205 main_v206 rfl shapeCasts_S4194304x1_S4194304,
    StableHlo.binary main_v204 main_v206 main_v207 (subf : (⟨S4194304, .f32⟩ : BufTy).Contents (Elt F) → (⟨S4194304, .f32⟩ : BufTy).Contents (Elt F) → (⟨S4194304, .f32⟩ : BufTy).Contents (Elt F)),
    StableHlo.nullary main_cst_65 (constant S_ .f32 0x00000000#32),
    StableHlo.TRef.unary (.of main_cst_65 : StableHlo.TRef sig ⟨S_, .f32⟩) (.of main_call15_v0 : StableHlo.TRef sig ⟨S4194304, .f32⟩) (broadcastInDim S4194304 ![] bcast_S_S4194304),
    StableHlo.TRef.ternary (.of main_v199 : StableHlo.TRef sig ⟨S4194304, .i1⟩) (.of main_v207 : StableHlo.TRef sig ⟨S4194304, .f32⟩) (.of main_call15_v0 : StableHlo.TRef sig ⟨S4194304, .f32⟩) (.of main_v208 : StableHlo.TRef sig ⟨S4194304, .f32⟩) select,
    StableHlo.nullary main_cst_66 (constant S_ .f32 0x00000000#32),
    StableHlo.binary main_v208 main_cst_66 main_v209 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v191 main_v209 main_v210 (subf : (⟨S_, .f32⟩ : BufTy).Contents (Elt F) → (⟨S_, .f32⟩ : BufTy).Contents (Elt F) → (⟨S_, .f32⟩ : BufTy).Contents (Elt F)) ]

/-- 25 operations: main_c_67 … main_v229. -/
abbrev rec7 : List (HloOp τ sig (Elt F)) :=
  [ StableHlo.nullary main_c_67 (constantI S_ 32 2#32),
    StableHlo.unary main_c_67 main_v211 (broadcastInDim S4194304 ![] bcast_S_S4194304 : (⟨S_, .i32⟩ : BufTy).Contents (Elt F) → (⟨S4194304, .i32⟩ : BufTy).Contents (Elt F)),
    StableHlo.binary main_v25 main_v211 main_v212 (cmpi .eq : (⟨S4194304, .i32⟩ : BufTy).Contents (Elt F) → (⟨S4194304, .i32⟩ : BufTy).Contents (Elt F) → (⟨S4194304, .i1⟩ : BufTy).Contents (Elt F)),
    StableHlo.nullary main_c_68 (constantI S_ 32 7#32),
    StableHlo.unary main_c_68 main_v213 (broadcastInDim S4194304 ![] bcast_S_S4194304 : (⟨S_, .i32⟩ : BufTy).Contents (Elt F) → (⟨S4194304, .i32⟩ : BufTy).Contents (Elt F)),
    StableHlo.binary main_v51 main_v213 main_v214 (cmpi .eq : (⟨S4194304, .i32⟩ : BufTy).Contents (Elt F) → (⟨S4194304, .i32⟩ : BufTy).Contents (Elt F) → (⟨S4194304, .i1⟩ : BufTy).Contents (Elt F)),
    StableHlo.binary main_v212 main_v214 main_v215 (andi : (⟨S4194304, .i1⟩ : BufTy).Contents (Elt F) → (⟨S4194304, .i1⟩ : BufTy).Contents (Elt F) → (⟨S4194304, .i1⟩ : BufTy).Contents (Elt F)),
    StableHlo.nullary main_c_69 (constantI S_ 32 7#32),
    StableHlo.unary main_c_69 main_v216 (broadcastInDim S4194304 ![] bcast_S_S4194304 : (⟨S_, .i32⟩ : BufTy).Contents (Elt F) → (⟨S4194304, .i32⟩ : BufTy).Contents (Elt F)),
    StableHlo.binary main_v77 main_v216 main_v217 (cmpi .eq : (⟨S4194304, .i32⟩ : BufTy).Contents (Elt F) → (⟨S4194304, .i32⟩ : BufTy).Contents (Elt F) → (⟨S4194304, .i1⟩ : BufTy).Contents (Elt F)),
    StableHlo.binary main_v215 main_v217 main_v218 (andi : (⟨S4194304, .i1⟩ : BufTy).Contents (Elt F) → (⟨S4194304, .i1⟩ : BufTy).Contents (Elt F) → (⟨S4194304, .i1⟩ : BufTy).Contents (Elt F)),
    StableHlo.unary main_arg0 main_v219 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v219 main_v220 rfl shapeCasts_S4194304x1_S4194304,
    StableHlo.unary main_arg1 main_v221 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v221 main_v222 rfl shapeCasts_S4194304x1_S4194304,
    StableHlo.binary main_v220 main_v222 main_v223 (addf : (⟨S4194304, .f32⟩ : BufTy).Contents (Elt F) → (⟨S4194304, .f32⟩ : BufTy).Contents (Elt F) → (⟨S4194304, .f32⟩ : BufTy).Contents (Elt F)),
    StableHlo.unary main_arg2 main_v224 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v224 main_v225 rfl shapeCasts_S4194304x1_S4194304,
    StableHlo.binary main_v223 main_v225 main_v226 (subf : (⟨S4194304, .f32⟩ : BufTy).Contents (Elt F) → (⟨S4194304, .f32⟩ : BufTy).Contents (Elt F) → (⟨S4194304, .f32⟩ : BufTy).Contents (Elt F)),
    StableHlo.nullary main_cst_70 (constant S_ .f32 0x00000000#32),
    StableHlo.TRef.unary (.of main_cst_70 : StableHlo.TRef sig ⟨S_, .f32⟩) (.of main_call16_v0 : StableHlo.TRef sig ⟨S4194304, .f32⟩) (broadcastInDim S4194304 ![] bcast_S_S4194304),
    StableHlo.TRef.ternary (.of main_v218 : StableHlo.TRef sig ⟨S4194304, .i1⟩) (.of main_v226 : StableHlo.TRef sig ⟨S4194304, .f32⟩) (.of main_call16_v0 : StableHlo.TRef sig ⟨S4194304, .f32⟩) (.of main_v227 : StableHlo.TRef sig ⟨S4194304, .f32⟩) select,
    StableHlo.nullary main_cst_71 (constant S_ .f32 0x00000000#32),
    StableHlo.binary main_v227 main_cst_71 main_v228 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v210 main_v228 main_v229 (subf : (⟨S_, .f32⟩ : BufTy).Contents (Elt F) → (⟨S_, .f32⟩ : BufTy).Contents (Elt F) → (⟨S_, .f32⟩ : BufTy).Contents (Elt F)) ]

/-- 25 operations: main_c_72 … main_v248. -/
abbrev rec8 : List (HloOp τ sig (Elt F)) :=
  [ StableHlo.nullary main_c_72 (constantI S_ 32 4#32),
    StableHlo.unary main_c_72 main_v230 (broadcastInDim S4194304 ![] bcast_S_S4194304 : (⟨S_, .i32⟩ : BufTy).Contents (Elt F) → (⟨S4194304, .i32⟩ : BufTy).Contents (Elt F)),
    StableHlo.binary main_v25 main_v230 main_v231 (cmpi .eq : (⟨S4194304, .i32⟩ : BufTy).Contents (Elt F) → (⟨S4194304, .i32⟩ : BufTy).Contents (Elt F) → (⟨S4194304, .i1⟩ : BufTy).Contents (Elt F)),
    StableHlo.nullary main_c_73 (constantI S_ 32 0#32),
    StableHlo.unary main_c_73 main_v232 (broadcastInDim S4194304 ![] bcast_S_S4194304 : (⟨S_, .i32⟩ : BufTy).Contents (Elt F) → (⟨S4194304, .i32⟩ : BufTy).Contents (Elt F)),
    StableHlo.binary main_v51 main_v232 main_v233 (cmpi .eq : (⟨S4194304, .i32⟩ : BufTy).Contents (Elt F) → (⟨S4194304, .i32⟩ : BufTy).Contents (Elt F) → (⟨S4194304, .i1⟩ : BufTy).Contents (Elt F)),
    StableHlo.binary main_v231 main_v233 main_v234 (andi : (⟨S4194304, .i1⟩ : BufTy).Contents (Elt F) → (⟨S4194304, .i1⟩ : BufTy).Contents (Elt F) → (⟨S4194304, .i1⟩ : BufTy).Contents (Elt F)),
    StableHlo.nullary main_c_74 (constantI S_ 32 4#32),
    StableHlo.unary main_c_74 main_v235 (broadcastInDim S4194304 ![] bcast_S_S4194304 : (⟨S_, .i32⟩ : BufTy).Contents (Elt F) → (⟨S4194304, .i32⟩ : BufTy).Contents (Elt F)),
    StableHlo.binary main_v77 main_v235 main_v236 (cmpi .eq : (⟨S4194304, .i32⟩ : BufTy).Contents (Elt F) → (⟨S4194304, .i32⟩ : BufTy).Contents (Elt F) → (⟨S4194304, .i1⟩ : BufTy).Contents (Elt F)),
    StableHlo.binary main_v234 main_v236 main_v237 (andi : (⟨S4194304, .i1⟩ : BufTy).Contents (Elt F) → (⟨S4194304, .i1⟩ : BufTy).Contents (Elt F) → (⟨S4194304, .i1⟩ : BufTy).Contents (Elt F)),
    StableHlo.unary main_arg0 main_v238 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v238 main_v239 rfl shapeCasts_S4194304x1_S4194304,
    StableHlo.unary main_arg1 main_v240 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v240 main_v241 rfl shapeCasts_S4194304x1_S4194304,
    StableHlo.binary main_v239 main_v241 main_v242 (addf : (⟨S4194304, .f32⟩ : BufTy).Contents (Elt F) → (⟨S4194304, .f32⟩ : BufTy).Contents (Elt F) → (⟨S4194304, .f32⟩ : BufTy).Contents (Elt F)),
    StableHlo.unary main_arg2 main_v243 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v243 main_v244 rfl shapeCasts_S4194304x1_S4194304,
    StableHlo.binary main_v242 main_v244 main_v245 (subf : (⟨S4194304, .f32⟩ : BufTy).Contents (Elt F) → (⟨S4194304, .f32⟩ : BufTy).Contents (Elt F) → (⟨S4194304, .f32⟩ : BufTy).Contents (Elt F)),
    StableHlo.nullary main_cst_75 (constant S_ .f32 0x00000000#32),
    StableHlo.TRef.unary (.of main_cst_75 : StableHlo.TRef sig ⟨S_, .f32⟩) (.of main_call17_v0 : StableHlo.TRef sig ⟨S4194304, .f32⟩) (broadcastInDim S4194304 ![] bcast_S_S4194304),
    StableHlo.TRef.ternary (.of main_v237 : StableHlo.TRef sig ⟨S4194304, .i1⟩) (.of main_v245 : StableHlo.TRef sig ⟨S4194304, .f32⟩) (.of main_call17_v0 : StableHlo.TRef sig ⟨S4194304, .f32⟩) (.of main_v246 : StableHlo.TRef sig ⟨S4194304, .f32⟩) select,
    StableHlo.nullary main_cst_76 (constant S_ .f32 0x00000000#32),
    StableHlo.binary main_v246 main_cst_76 main_v247 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v229 main_v247 main_v248 (subf : (⟨S_, .f32⟩ : BufTy).Contents (Elt F) → (⟨S_, .f32⟩ : BufTy).Contents (Elt F) → (⟨S_, .f32⟩ : BufTy).Contents (Elt F)) ]

/-- 25 operations: main_c_77 … main_v267. -/
abbrev rec9 : List (HloOp τ sig (Elt F)) :=
  [ StableHlo.nullary main_c_77 (constantI S_ 32 4#32),
    StableHlo.unary main_c_77 main_v249 (broadcastInDim S4194304 ![] bcast_S_S4194304 : (⟨S_, .i32⟩ : BufTy).Contents (Elt F) → (⟨S4194304, .i32⟩ : BufTy).Contents (Elt F)),
    StableHlo.binary main_v25 main_v249 main_v250 (cmpi .eq : (⟨S4194304, .i32⟩ : BufTy).Contents (Elt F) → (⟨S4194304, .i32⟩ : BufTy).Contents (Elt F) → (⟨S4194304, .i1⟩ : BufTy).Contents (Elt F)),
    StableHlo.nullary main_c_78 (constantI S_ 32 2#32),
    StableHlo.unary main_c_78 main_v251 (broadcastInDim S4194304 ![] bcast_S_S4194304 : (⟨S_, .i32⟩ : BufTy).Contents (Elt F) → (⟨S4194304, .i32⟩ : BufTy).Contents (Elt F)),
    StableHlo.binary main_v51 main_v251 main_v252 (cmpi .eq : (⟨S4194304, .i32⟩ : BufTy).Contents (Elt F) → (⟨S4194304, .i32⟩ : BufTy).Contents (Elt F) → (⟨S4194304, .i1⟩ : BufTy).Contents (Elt F)),
    StableHlo.binary main_v250 main_v252 main_v253 (andi : (⟨S4194304, .i1⟩ : BufTy).Contents (Elt F) → (⟨S4194304, .i1⟩ : BufTy).Contents (Elt F) → (⟨S4194304, .i1⟩ : BufTy).Contents (Elt F)),
    StableHlo.nullary main_c_79 (constantI S_ 32 4#32),
    StableHlo.unary main_c_79 main_v254 (broadcastInDim S4194304 ![] bcast_S_S4194304 : (⟨S_, .i32⟩ : BufTy).Contents (Elt F) → (⟨S4194304, .i32⟩ : BufTy).Contents (Elt F)),
    StableHlo.binary main_v77 main_v254 main_v255 (cmpi .eq : (⟨S4194304, .i32⟩ : BufTy).Contents (Elt F) → (⟨S4194304, .i32⟩ : BufTy).Contents (Elt F) → (⟨S4194304, .i1⟩ : BufTy).Contents (Elt F)),
    StableHlo.binary main_v253 main_v255 main_v256 (andi : (⟨S4194304, .i1⟩ : BufTy).Contents (Elt F) → (⟨S4194304, .i1⟩ : BufTy).Contents (Elt F) → (⟨S4194304, .i1⟩ : BufTy).Contents (Elt F)),
    StableHlo.unary main_arg0 main_v257 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v257 main_v258 rfl shapeCasts_S4194304x1_S4194304,
    StableHlo.unary main_arg1 main_v259 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v259 main_v260 rfl shapeCasts_S4194304x1_S4194304,
    StableHlo.binary main_v258 main_v260 main_v261 (addf : (⟨S4194304, .f32⟩ : BufTy).Contents (Elt F) → (⟨S4194304, .f32⟩ : BufTy).Contents (Elt F) → (⟨S4194304, .f32⟩ : BufTy).Contents (Elt F)),
    StableHlo.unary main_arg2 main_v262 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v262 main_v263 rfl shapeCasts_S4194304x1_S4194304,
    StableHlo.binary main_v261 main_v263 main_v264 (subf : (⟨S4194304, .f32⟩ : BufTy).Contents (Elt F) → (⟨S4194304, .f32⟩ : BufTy).Contents (Elt F) → (⟨S4194304, .f32⟩ : BufTy).Contents (Elt F)),
    StableHlo.nullary main_cst_80 (constant S_ .f32 0x00000000#32),
    StableHlo.TRef.unary (.of main_cst_80 : StableHlo.TRef sig ⟨S_, .f32⟩) (.of main_call18_v0 : StableHlo.TRef sig ⟨S4194304, .f32⟩) (broadcastInDim S4194304 ![] bcast_S_S4194304),
    StableHlo.TRef.ternary (.of main_v256 : StableHlo.TRef sig ⟨S4194304, .i1⟩) (.of main_v264 : StableHlo.TRef sig ⟨S4194304, .f32⟩) (.of main_call18_v0 : StableHlo.TRef sig ⟨S4194304, .f32⟩) (.of main_v265 : StableHlo.TRef sig ⟨S4194304, .f32⟩) select,
    StableHlo.nullary main_cst_81 (constant S_ .f32 0x00000000#32),
    StableHlo.binary main_v265 main_cst_81 main_v266 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v248 main_v266 main_v267 (subf : (⟨S_, .f32⟩ : BufTy).Contents (Elt F) → (⟨S_, .f32⟩ : BufTy).Contents (Elt F) → (⟨S_, .f32⟩ : BufTy).Contents (Elt F)) ]

/-- 25 operations: main_c_82 … main_v286. -/
abbrev rec10 : List (HloOp τ sig (Elt F)) :=
  [ StableHlo.nullary main_c_82 (constantI S_ 32 5#32),
    StableHlo.unary main_c_82 main_v268 (broadcastInDim S4194304 ![] bcast_S_S4194304 : (⟨S_, .i32⟩ : BufTy).Contents (Elt F) → (⟨S4194304, .i32⟩ : BufTy).Contents (Elt F)),
    StableHlo.binary main_v25 main_v268 main_v269 (cmpi .eq : (⟨S4194304, .i32⟩ : BufTy).Contents (Elt F) → (⟨S4194304, .i32⟩ : BufTy).Contents (Elt F) → (⟨S4194304, .i1⟩ : BufTy).Contents (Elt F)),
    StableHlo.nullary main_c_83 (constantI S_ 32 1#32),
    StableHlo.unary main_c_83 main_v270 (broadcastInDim S4194304 ![] bcast_S_S4194304 : (⟨S_, .i32⟩ : BufTy).Contents (Elt F) → (⟨S4194304, .i32⟩ : BufTy).Contents (Elt F)),
    StableHlo.binary main_v51 main_v270 main_v271 (cmpi .eq : (⟨S4194304, .i32⟩ : BufTy).Contents (Elt F) → (⟨S4194304, .i32⟩ : BufTy).Contents (Elt F) → (⟨S4194304, .i1⟩ : BufTy).Contents (Elt F)),
    StableHlo.binary main_v269 main_v271 main_v272 (andi : (⟨S4194304, .i1⟩ : BufTy).Contents (Elt F) → (⟨S4194304, .i1⟩ : BufTy).Contents (Elt F) → (⟨S4194304, .i1⟩ : BufTy).Contents (Elt F)),
    StableHlo.nullary main_c_84 (constantI S_ 32 5#32),
    StableHlo.unary main_c_84 main_v273 (broadcastInDim S4194304 ![] bcast_S_S4194304 : (⟨S_, .i32⟩ : BufTy).Contents (Elt F) → (⟨S4194304, .i32⟩ : BufTy).Contents (Elt F)),
    StableHlo.binary main_v77 main_v273 main_v274 (cmpi .eq : (⟨S4194304, .i32⟩ : BufTy).Contents (Elt F) → (⟨S4194304, .i32⟩ : BufTy).Contents (Elt F) → (⟨S4194304, .i1⟩ : BufTy).Contents (Elt F)),
    StableHlo.binary main_v272 main_v274 main_v275 (andi : (⟨S4194304, .i1⟩ : BufTy).Contents (Elt F) → (⟨S4194304, .i1⟩ : BufTy).Contents (Elt F) → (⟨S4194304, .i1⟩ : BufTy).Contents (Elt F)),
    StableHlo.unary main_arg0 main_v276 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v276 main_v277 rfl shapeCasts_S4194304x1_S4194304,
    StableHlo.unary main_arg1 main_v278 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v278 main_v279 rfl shapeCasts_S4194304x1_S4194304,
    StableHlo.binary main_v277 main_v279 main_v280 (addf : (⟨S4194304, .f32⟩ : BufTy).Contents (Elt F) → (⟨S4194304, .f32⟩ : BufTy).Contents (Elt F) → (⟨S4194304, .f32⟩ : BufTy).Contents (Elt F)),
    StableHlo.unary main_arg2 main_v281 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v281 main_v282 rfl shapeCasts_S4194304x1_S4194304,
    StableHlo.binary main_v280 main_v282 main_v283 (subf : (⟨S4194304, .f32⟩ : BufTy).Contents (Elt F) → (⟨S4194304, .f32⟩ : BufTy).Contents (Elt F) → (⟨S4194304, .f32⟩ : BufTy).Contents (Elt F)),
    StableHlo.nullary main_cst_85 (constant S_ .f32 0x00000000#32),
    StableHlo.TRef.unary (.of main_cst_85 : StableHlo.TRef sig ⟨S_, .f32⟩) (.of main_call19_v0 : StableHlo.TRef sig ⟨S4194304, .f32⟩) (broadcastInDim S4194304 ![] bcast_S_S4194304),
    StableHlo.TRef.ternary (.of main_v275 : StableHlo.TRef sig ⟨S4194304, .i1⟩) (.of main_v283 : StableHlo.TRef sig ⟨S4194304, .f32⟩) (.of main_call19_v0 : StableHlo.TRef sig ⟨S4194304, .f32⟩) (.of main_v284 : StableHlo.TRef sig ⟨S4194304, .f32⟩) select,
    StableHlo.nullary main_cst_86 (constant S_ .f32 0x00000000#32),
    StableHlo.binary main_v284 main_cst_86 main_v285 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v267 main_v285 main_v286 (subf : (⟨S_, .f32⟩ : BufTy).Contents (Elt F) → (⟨S_, .f32⟩ : BufTy).Contents (Elt F) → (⟨S_, .f32⟩ : BufTy).Contents (Elt F)) ]

/-- 25 operations: main_c_87 … main_v305. -/
abbrev rec11 : List (HloOp τ sig (Elt F)) :=
  [ StableHlo.nullary main_c_87 (constantI S_ 32 5#32),
    StableHlo.unary main_c_87 main_v287 (broadcastInDim S4194304 ![] bcast_S_S4194304 : (⟨S_, .i32⟩ : BufTy).Contents (Elt F) → (⟨S4194304, .i32⟩ : BufTy).Contents (Elt F)),
    StableHlo.binary main_v25 main_v287 main_v288 (cmpi .eq : (⟨S4194304, .i32⟩ : BufTy).Contents (Elt F) → (⟨S4194304, .i32⟩ : BufTy).Contents (Elt F) → (⟨S4194304, .i1⟩ : BufTy).Contents (Elt F)),
    StableHlo.nullary main_c_88 (constantI S_ 32 2#32),
    StableHlo.unary main_c_88 main_v289 (broadcastInDim S4194304 ![] bcast_S_S4194304 : (⟨S_, .i32⟩ : BufTy).Contents (Elt F) → (⟨S4194304, .i32⟩ : BufTy).Contents (Elt F)),
    StableHlo.binary main_v51 main_v289 main_v290 (cmpi .eq : (⟨S4194304, .i32⟩ : BufTy).Contents (Elt F) → (⟨S4194304, .i32⟩ : BufTy).Contents (Elt F) → (⟨S4194304, .i1⟩ : BufTy).Contents (Elt F)),
    StableHlo.binary main_v288 main_v290 main_v291 (andi : (⟨S4194304, .i1⟩ : BufTy).Contents (Elt F) → (⟨S4194304, .i1⟩ : BufTy).Contents (Elt F) → (⟨S4194304, .i1⟩ : BufTy).Contents (Elt F)),
    StableHlo.nullary main_c_89 (constantI S_ 32 5#32),
    StableHlo.unary main_c_89 main_v292 (broadcastInDim S4194304 ![] bcast_S_S4194304 : (⟨S_, .i32⟩ : BufTy).Contents (Elt F) → (⟨S4194304, .i32⟩ : BufTy).Contents (Elt F)),
    StableHlo.binary main_v77 main_v292 main_v293 (cmpi .eq : (⟨S4194304, .i32⟩ : BufTy).Contents (Elt F) → (⟨S4194304, .i32⟩ : BufTy).Contents (Elt F) → (⟨S4194304, .i1⟩ : BufTy).Contents (Elt F)),
    StableHlo.binary main_v291 main_v293 main_v294 (andi : (⟨S4194304, .i1⟩ : BufTy).Contents (Elt F) → (⟨S4194304, .i1⟩ : BufTy).Contents (Elt F) → (⟨S4194304, .i1⟩ : BufTy).Contents (Elt F)),
    StableHlo.unary main_arg0 main_v295 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v295 main_v296 rfl shapeCasts_S4194304x1_S4194304,
    StableHlo.unary main_arg1 main_v297 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v297 main_v298 rfl shapeCasts_S4194304x1_S4194304,
    StableHlo.binary main_v296 main_v298 main_v299 (addf : (⟨S4194304, .f32⟩ : BufTy).Contents (Elt F) → (⟨S4194304, .f32⟩ : BufTy).Contents (Elt F) → (⟨S4194304, .f32⟩ : BufTy).Contents (Elt F)),
    StableHlo.unary main_arg2 main_v300 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v300 main_v301 rfl shapeCasts_S4194304x1_S4194304,
    StableHlo.binary main_v299 main_v301 main_v302 (subf : (⟨S4194304, .f32⟩ : BufTy).Contents (Elt F) → (⟨S4194304, .f32⟩ : BufTy).Contents (Elt F) → (⟨S4194304, .f32⟩ : BufTy).Contents (Elt F)),
    StableHlo.nullary main_cst_90 (constant S_ .f32 0x00000000#32),
    StableHlo.TRef.unary (.of main_cst_90 : StableHlo.TRef sig ⟨S_, .f32⟩) (.of main_call20_v0 : StableHlo.TRef sig ⟨S4194304, .f32⟩) (broadcastInDim S4194304 ![] bcast_S_S4194304),
    StableHlo.TRef.ternary (.of main_v294 : StableHlo.TRef sig ⟨S4194304, .i1⟩) (.of main_v302 : StableHlo.TRef sig ⟨S4194304, .f32⟩) (.of main_call20_v0 : StableHlo.TRef sig ⟨S4194304, .f32⟩) (.of main_v303 : StableHlo.TRef sig ⟨S4194304, .f32⟩) select,
    StableHlo.nullary main_cst_91 (constant S_ .f32 0x00000000#32),
    StableHlo.binary main_v303 main_cst_91 main_v304 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v286 main_v304 main_v305 (subf : (⟨S_, .f32⟩ : BufTy).Contents (Elt F) → (⟨S_, .f32⟩ : BufTy).Contents (Elt F) → (⟨S_, .f32⟩ : BufTy).Contents (Elt F)) ]

/-- 25 operations: main_c_92 … main_v324. -/
abbrev rec12 : List (HloOp τ sig (Elt F)) :=
  [ StableHlo.nullary main_c_92 (constantI S_ 32 6#32),
    StableHlo.unary main_c_92 main_v306 (broadcastInDim S4194304 ![] bcast_S_S4194304 : (⟨S_, .i32⟩ : BufTy).Contents (Elt F) → (⟨S4194304, .i32⟩ : BufTy).Contents (Elt F)),
    StableHlo.binary main_v25 main_v306 main_v307 (cmpi .eq : (⟨S4194304, .i32⟩ : BufTy).Contents (Elt F) → (⟨S4194304, .i32⟩ : BufTy).Contents (Elt F) → (⟨S4194304, .i1⟩ : BufTy).Contents (Elt F)),
    StableHlo.nullary main_c_93 (constantI S_ 32 2#32),
    StableHlo.unary main_c_93 main_v308 (broadcastInDim S4194304 ![] bcast_S_S4194304 : (⟨S_, .i32⟩ : BufTy).Contents (Elt F) → (⟨S4194304, .i32⟩ : BufTy).Contents (Elt F)),
    StableHlo.binary main_v51 main_v308 main_v309 (cmpi .eq : (⟨S4194304, .i32⟩ : BufTy).Contents (Elt F) → (⟨S4194304, .i32⟩ : BufTy).Contents (Elt F) → (⟨S4194304, .i1⟩ : BufTy).Contents (Elt F)),
    StableHlo.binary main_v307 main_v309 main_v310 (andi : (⟨S4194304, .i1⟩ : BufTy).Contents (Elt F) → (⟨S4194304, .i1⟩ : BufTy).Contents (Elt F) → (⟨S4194304, .i1⟩ : BufTy).Contents (Elt F)),
    StableHlo.nullary main_c_94 (constantI S_ 32 6#32),
    StableHlo.unary main_c_94 main_v311 (broadcastInDim S4194304 ![] bcast_S_S4194304 : (⟨S_, .i32⟩ : BufTy).Contents (Elt F) → (⟨S4194304, .i32⟩ : BufTy).Contents (Elt F)),
    StableHlo.binary main_v77 main_v311 main_v312 (cmpi .eq : (⟨S4194304, .i32⟩ : BufTy).Contents (Elt F) → (⟨S4194304, .i32⟩ : BufTy).Contents (Elt F) → (⟨S4194304, .i1⟩ : BufTy).Contents (Elt F)),
    StableHlo.binary main_v310 main_v312 main_v313 (andi : (⟨S4194304, .i1⟩ : BufTy).Contents (Elt F) → (⟨S4194304, .i1⟩ : BufTy).Contents (Elt F) → (⟨S4194304, .i1⟩ : BufTy).Contents (Elt F)),
    StableHlo.unary main_arg0 main_v314 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v314 main_v315 rfl shapeCasts_S4194304x1_S4194304,
    StableHlo.unary main_arg1 main_v316 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v316 main_v317 rfl shapeCasts_S4194304x1_S4194304,
    StableHlo.binary main_v315 main_v317 main_v318 (addf : (⟨S4194304, .f32⟩ : BufTy).Contents (Elt F) → (⟨S4194304, .f32⟩ : BufTy).Contents (Elt F) → (⟨S4194304, .f32⟩ : BufTy).Contents (Elt F)),
    StableHlo.unary main_arg2 main_v319 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v319 main_v320 rfl shapeCasts_S4194304x1_S4194304,
    StableHlo.binary main_v318 main_v320 main_v321 (subf : (⟨S4194304, .f32⟩ : BufTy).Contents (Elt F) → (⟨S4194304, .f32⟩ : BufTy).Contents (Elt F) → (⟨S4194304, .f32⟩ : BufTy).Contents (Elt F)),
    StableHlo.nullary main_cst_95 (constant S_ .f32 0x00000000#32),
    StableHlo.TRef.unary (.of main_cst_95 : StableHlo.TRef sig ⟨S_, .f32⟩) (.of main_call21_v0 : StableHlo.TRef sig ⟨S4194304, .f32⟩) (broadcastInDim S4194304 ![] bcast_S_S4194304),
    StableHlo.TRef.ternary (.of main_v313 : StableHlo.TRef sig ⟨S4194304, .i1⟩) (.of main_v321 : StableHlo.TRef sig ⟨S4194304, .f32⟩) (.of main_call21_v0 : StableHlo.TRef sig ⟨S4194304, .f32⟩) (.of main_v322 : StableHlo.TRef sig ⟨S4194304, .f32⟩) select,
    StableHlo.nullary main_cst_96 (constant S_ .f32 0x00000000#32),
    StableHlo.binary main_v322 main_cst_96 main_v323 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v305 main_v323 main_v324 (subf : (⟨S_, .f32⟩ : BufTy).Contents (Elt F) → (⟨S_, .f32⟩ : BufTy).Contents (Elt F) → (⟨S_, .f32⟩ : BufTy).Contents (Elt F)) ]

/-- 25 operations: main_c_97 … main_v343. -/
abbrev rec13 : List (HloOp τ sig (Elt F)) :=
  [ StableHlo.nullary main_c_97 (constantI S_ 32 7#32),
    StableHlo.unary main_c_97 main_v325 (broadcastInDim S4194304 ![] bcast_S_S4194304 : (⟨S_, .i32⟩ : BufTy).Contents (Elt F) → (⟨S4194304, .i32⟩ : BufTy).Contents (Elt F)),
    StableHlo.binary main_v25 main_v325 main_v326 (cmpi .eq : (⟨S4194304, .i32⟩ : BufTy).Contents (Elt F) → (⟨S4194304, .i32⟩ : BufTy).Contents (Elt F) → (⟨S4194304, .i1⟩ : BufTy).Contents (Elt F)),
    StableHlo.nullary main_c_98 (constantI S_ 32 2#32),
    StableHlo.unary main_c_98 main_v327 (broadcastInDim S4194304 ![] bcast_S_S4194304 : (⟨S_, .i32⟩ : BufTy).Contents (Elt F) → (⟨S4194304, .i32⟩ : BufTy).Contents (Elt F)),
    StableHlo.binary main_v51 main_v327 main_v328 (cmpi .eq : (⟨S4194304, .i32⟩ : BufTy).Contents (Elt F) → (⟨S4194304, .i32⟩ : BufTy).Contents (Elt F) → (⟨S4194304, .i1⟩ : BufTy).Contents (Elt F)),
    StableHlo.binary main_v326 main_v328 main_v329 (andi : (⟨S4194304, .i1⟩ : BufTy).Contents (Elt F) → (⟨S4194304, .i1⟩ : BufTy).Contents (Elt F) → (⟨S4194304, .i1⟩ : BufTy).Contents (Elt F)),
    StableHlo.nullary main_c_99 (constantI S_ 32 7#32),
    StableHlo.unary main_c_99 main_v330 (broadcastInDim S4194304 ![] bcast_S_S4194304 : (⟨S_, .i32⟩ : BufTy).Contents (Elt F) → (⟨S4194304, .i32⟩ : BufTy).Contents (Elt F)),
    StableHlo.binary main_v77 main_v330 main_v331 (cmpi .eq : (⟨S4194304, .i32⟩ : BufTy).Contents (Elt F) → (⟨S4194304, .i32⟩ : BufTy).Contents (Elt F) → (⟨S4194304, .i1⟩ : BufTy).Contents (Elt F)),
    StableHlo.binary main_v329 main_v331 main_v332 (andi : (⟨S4194304, .i1⟩ : BufTy).Contents (Elt F) → (⟨S4194304, .i1⟩ : BufTy).Contents (Elt F) → (⟨S4194304, .i1⟩ : BufTy).Contents (Elt F)),
    StableHlo.unary main_arg0 main_v333 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v333 main_v334 rfl shapeCasts_S4194304x1_S4194304,
    StableHlo.unary main_arg1 main_v335 ((extractStridedSlice S4194304x1 ![0, 0] · slices_S4194304x2_S4194304x1_0_0) : (⟨S4194304x2, .f32⟩ : BufTy).Contents (Elt F) → (⟨S4194304x1, .f32⟩ : BufTy).Contents (Elt F)),
    StableHlo.reshape main_v335 main_v336 rfl shapeCasts_S4194304x1_S4194304,
    StableHlo.binary main_v334 main_v336 main_v337 (addf : (⟨S4194304, .f32⟩ : BufTy).Contents (Elt F) → (⟨S4194304, .f32⟩ : BufTy).Contents (Elt F) → (⟨S4194304, .f32⟩ : BufTy).Contents (Elt F)),
    StableHlo.unary main_arg2 main_v338 ((extractStridedSlice S4194304x1 ![0, 1] · slices_S4194304x2_S4194304x1_0_1) : (⟨S4194304x2, .f32⟩ : BufTy).Contents (Elt F) → (⟨S4194304x1, .f32⟩ : BufTy).Contents (Elt F)),
    StableHlo.reshape main_v338 main_v339 rfl shapeCasts_S4194304x1_S4194304,
    StableHlo.binary main_v337 main_v339 main_v340 (subf : (⟨S4194304, .f32⟩ : BufTy).Contents (Elt F) → (⟨S4194304, .f32⟩ : BufTy).Contents (Elt F) → (⟨S4194304, .f32⟩ : BufTy).Contents (Elt F)),
    StableHlo.nullary main_cst_100 (constant S_ .f32 0x00000000#32),
    StableHlo.TRef.unary (.of main_cst_100 : StableHlo.TRef sig ⟨S_, .f32⟩) (.of main_call22_v0 : StableHlo.TRef sig ⟨S4194304, .f32⟩) (broadcastInDim S4194304 ![] bcast_S_S4194304),
    StableHlo.TRef.ternary (.of main_v332 : StableHlo.TRef sig ⟨S4194304, .i1⟩) (.of main_v340 : StableHlo.TRef sig ⟨S4194304, .f32⟩) (.of main_call22_v0 : StableHlo.TRef sig ⟨S4194304, .f32⟩) (.of main_v341 : StableHlo.TRef sig ⟨S4194304, .f32⟩) select,
    StableHlo.nullary main_cst_101 (constant S_ .f32 0x00000000#32),
    StableHlo.binary main_v341 main_cst_101 main_v342 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v324 main_v342 main_v343 (subf : (⟨S_, .f32⟩ : BufTy).Contents (Elt F) → (⟨S_, .f32⟩ : BufTy).Contents (Elt F) → (⟨S_, .f32⟩ : BufTy).Contents (Elt F)) ]

/-- 12 operations: main_c_102 … main_v352. -/
abbrev posTail : List (HloOp τ sig (Elt F)) :=
  [ StableHlo.nullary main_c_102 (constantI S_ 32 0#32),
    StableHlo.unary main_c_102 main_v344 (broadcastInDim S4194304 ![] bcast_S_S4194304 : (⟨S_, .i32⟩ : BufTy).Contents (Elt F) → (⟨S4194304, .i32⟩ : BufTy).Contents (Elt F)),
    StableHlo.binary main_v25 main_v344 main_v345 (cmpi .eq : (⟨S4194304, .i32⟩ : BufTy).Contents (Elt F) → (⟨S4194304, .i32⟩ : BufTy).Contents (Elt F) → (⟨S4194304, .i1⟩ : BufTy).Contents (Elt F)),
    StableHlo.nullary main_c_103 (constantI S_ 32 4#32),
    StableHlo.unary main_c_103 main_v346 (broadcastInDim S4194304 ![] bcast_S_S4194304 : (⟨S_, .i32⟩ : BufTy).Contents (Elt F) → (⟨S4194304, .i32⟩ : BufTy).Contents (Elt F)),
    StableHlo.binary main_v51 main_v346 main_v347 (cmpi .eq : (⟨S4194304, .i32⟩ : BufTy).Contents (Elt F) → (⟨S4194304, .i32⟩ : BufTy).Contents (Elt F) → (⟨S4194304, .i1⟩ : BufTy).Contents (Elt F)),
    StableHlo.binary main_v345 main_v347 main_v348 (andi : (⟨S4194304, .i1⟩ : BufTy).Contents (Elt F) → (⟨S4194304, .i1⟩ : BufTy).Contents (Elt F) → (⟨S4194304, .i1⟩ : BufTy).Contents (Elt F)),
    StableHlo.nullary main_c_104 (constantI S_ 32 1#32),
    StableHlo.unary main_c_104 main_v349 (broadcastInDim S4194304 ![] bcast_S_S4194304 : (⟨S_, .i32⟩ : BufTy).Contents (Elt F) → (⟨S4194304, .i32⟩ : BufTy).Contents (Elt F)),
    StableHlo.binary main_v77 main_v349 main_v350 (cmpi .eq : (⟨S4194304, .i32⟩ : BufTy).Contents (Elt F) → (⟨S4194304, .i32⟩ : BufTy).Contents (Elt F) → (⟨S4194304, .i1⟩ : BufTy).Contents (Elt F)),
    StableHlo.binary main_v348 main_v350 main_v351 (andi : (⟨S4194304, .i1⟩ : BufTy).Contents (Elt F) → (⟨S4194304, .i1⟩ : BufTy).Contents (Elt F) → (⟨S4194304, .i1⟩ : BufTy).Contents (Elt F)),
    StableHlo.unary main_v351 main_v352 ((extui 32 · natLt_1_32) : (⟨S4194304, .i1⟩ : BufTy).Contents (Elt F) → (⟨S4194304, .i32⟩ : BufTy).Contents (Elt F)) ]

/-- The stretches main_part0_ops0 … main_part7_ops3 (51 of them, 486 operations), in order. -/
abbrev posStretches : List (List (HloOp τ sig (Elt F))) :=
  [ main_part0_ops0,
    main_part0_ops1,
    main_part0_ops2,
    main_part0_ops3,
    main_part0_ops4,
    main_part0_ops5,
    main_part0_ops6,
    main_part1_ops0,
    main_part1_ops1,
    main_part1_ops2,
    main_part1_ops3,
    main_part1_ops4,
    main_part1_ops5,
    main_part1_ops6,
    main_part1_ops7,
    main_part1_ops8,
    main_part1_ops9,
    main_part1_ops10,
    main_part1_ops11,
    main_part1_ops12,
    main_part2_ops0,
    main_part2_ops1,
    main_part2_ops2,
    main_part2_ops3,
    main_part2_ops4,
    main_part3_ops0,
    main_part3_ops1,
    main_part3_ops2,
    main_part3_ops3,
    main_part3_ops4,
    main_part3_ops5,
    main_part4_ops0,
    main_part4_ops1,
    main_part4_ops2,
    main_part4_ops3,
    main_part4_ops4,
    main_part5_ops0,
    main_part5_ops1,
    main_part5_ops2,
    main_part5_ops3,
    main_part5_ops4,
    main_part5_ops5,
    main_part6_ops0,
    main_part6_ops1,
    main_part6_ops2,
    main_part6_ops3,
    main_part6_ops4,
    main_part7_ops0,
    main_part7_ops1,
    main_part7_ops2,
    main_part7_ops3 ]

/-- The operations through the 14th positive recipe's last subtraction. -/
abbrev posHead : List (HloOp τ sig (Elt F)) :=
  codesOps ++ (rec0 ++ (rec1 ++ (rec2 ++ (rec3 ++ (rec4 ++ (rec5 ++ (rec6 ++ (rec7 ++ (rec8 ++ (rec9 ++ (rec10 ++ (rec11 ++ (rec12 ++ (rec13))))))))))))))

set_option maxHeartbeats 4000000 in
/-- The same operations in the same order, every list appended to all that follow it. -/
theorem posStretches_flatten_nested : (posStretches : List (List (HloOp τ sig (Elt F)))).flatten
    = codesOps ++ (rec0 ++ (rec1 ++ (rec2 ++ (rec3 ++ (rec4 ++ (rec5 ++ (rec6 ++ (rec7 ++ (rec8 ++ (rec9 ++ (rec10 ++ (rec11 ++ (rec12 ++ (rec13 ++ (posTail))))))))))))))) := rfl

/-- The stretches' operations are the operations through the last positive subtraction, then the remainder. -/
theorem posStretches_flatten : (posStretches : List (List (HloOp τ sig (Elt F)))).flatten = posHead ++ posTail := by
  rw [posStretches_flatten_nested]
  simp only [posHead, List.append_assoc]

end Cert.ReferenceIdeal.Ps

end
-- ==== Proof.Val.PosRef.lean ====
import proofs.«404644_j25400436588780_1_alg».proof.Proof.Val.PosTerms
import Idealize.ShloMosaic.PureOps.Ideal.Laws
import Idealize.ShloMosaic.Lib.ValueLayout

/-!
  One positive triple's row sum as the reference computes it, over whole vectors: the mask of the rows whose three
  codes are the triple's, the three selected volume columns laid as vectors over the rows, their sum and difference,
  the choice between that and zero by the mask, and the sum of the chosen values over the rows from zero. Read at the
  one index of the result it is zero plus the sum, over the rows, of the triple's summand at the row.
-/

noncomputable section

open scoped BigOperators

namespace Cert.Val

open Idealize.ShloMosaic Idealize.ShloMosaic.ValueIdx

/-- The shape of one column of a two-column array, still as a table. -/
abbrev PCol : Shape := ⟨2, ![4194304, 1]⟩
/-- The shape of a scalar. -/
abbrev PSc : Shape := ⟨0, ![]⟩

variable {α : Type}

/-- Column `k` of a two-column array, as a vector over the rows. -/
def refCol (k : ℕ) (h : SRows2.Slices ![0, k] PCol) (hsc : PCol.ShapeCasts SRows) (a : SRows2.Idx → α) : SRows.Idx → α :=
  shapeCast SRows (extractStridedSlice PCol ![0, k] a h) hsc

/-- Column `k` at row `r` is the array at (r, k). -/
theorem refCol_apply (k : ℕ) (hlt : k < 2) (h : SRows2.Slices ![0, k] PCol) (hsc : PCol.ShapeCasts SRows)
    (a : SRows2.Idx → α) (r : Fin 4194304) : refCol k h hsc a (ix1 r) = a (ix2 r ⟨k, hlt⟩) := by
  unfold refCol
  refine (shapeCast_apply _ hsc (ix1 r) (ix2 r (0 : Fin 1)) ?_).trans ?_
  · rw [Shape.rowMajor_val_two, Shape.rowMajor_val_one]
    show r.val * 1 + 0 = r.val
    omega
  · exact slice2_axis1_apply k a h r (0 : Fin 1) ⟨k, hlt⟩ rfl

/-- The rows whose three codes are `c1`, `c2`, `c3`. -/
def refMask (hb : PSc.BroadcastsInDim SRows (![] : Fin 0 → Fin SRows.rank)) (c1 c2 c3 : BitVec 32)
    (cx cy cz : SRows.Idx → BitVec 32) : SRows.Idx → BitVec 1 :=
  andi
    (andi (cmpi .eq cx (broadcastInDim SRows ![] hb (constantI PSc 32 c1)))
          (cmpi .eq cy (broadcastInDim SRows ![] hb (constantI PSc 32 c2))))
    (cmpi .eq cz (broadcastInDim SRows ![] hb (constantI PSc 32 c3)))

/-- The triple's row sum as the reference computes it. -/
def refRecipe (c1 c2 c3 : BitVec 32) (k1 k2 k3 : ℕ)
    (h1 : SRows2.Slices ![0, k1] PCol) (h2 : SRows2.Slices ![0, k2] PCol) (h3 : SRows2.Slices ![0, k3] PCol)
    (hsc : PCol.ShapeCasts SRows) (hb : PSc.BroadcastsInDim SRows (![] : Fin 0 → Fin SRows.rank))
    (hr : SRows.ReducesTo [0] PSc) (hu : 0 < PSc.numel)
    (cx cy cz : SRows.Idx → BitVec 32) (a0 a1 a2 : SRows2.Idx → Ideal .f32) : PSc.Idx → Ideal .f32 :=
  Host.reduceAdd (F := Ideal) (φ := .f32)
    (select (refMask hb c1 c2 c3 cx cy cz)
      (subf (addf (refCol k1 h1 hsc a0) (refCol k2 h2 hsc a1)) (refCol k3 h3 hsc a2))
      (broadcastInDim SRows ![] hb (constant (F := Ideal) PSc .f32 0x00000000#32)))
    (constant (F := Ideal) PSc .f32 0x00000000#32) hr hu

/-- The rows as the indices of a vector over the rows. -/
def rowsEquiv : Fin 4194304 ≃ SRows.Idx where
  toFun := ix1
  invFun i := i 0
  left_inv _ := rfl
  right_inv i := (eq_ix1 i).symm

/-- A sum over the indices of a vector over the rows is the sum over the rows. -/
theorem sum_rows {M : Type} [AddCommMonoid M] (x : SRows.Idx → M) : ∑ i : SRows.Idx, x i = ∑ r : Fin 4194304, x (ix1 r) :=
  (Equiv.sum_comp rowsEquiv x).symm

/-- THE READING: the reference's row sum of a triple is zero plus the sum over the rows of the triple's summand. -/
theorem refRecipe_eq (c1 c2 c3 : BitVec 32) (k1 k2 k3 : ℕ)
    (h1 : SRows2.Slices ![0, k1] PCol) (h2 : SRows2.Slices ![0, k2] PCol) (h3 : SRows2.Slices ![0, k3] PCol)
    (hsc : PCol.ShapeCasts SRows) (hb : PSc.BroadcastsInDim SRows (![] : Fin 0 → Fin SRows.rank))
    (hr : SRows.ReducesTo [0] PSc) (hu : 0 < PSc.numel)
    (hk1 : k1 = (col c1).val) (hk2 : k2 = (col c2).val) (hk3 : k3 = (col c3).val)
    (cx cy cz : SRows.Idx → BitVec 32) (a0 a1 a2 : SRows2.Idx → Ideal .f32) (i : PSc.Idx) :
    refRecipe c1 c2 c3 k1 k2 k3 h1 h2 h3 hsc hb hr hu cx cy cz a0 a1 a2 i
      = 0 + ∑ r : Fin 4194304, w (c1, c2, c3) cx cy cz a0 a1 a2 r := by
  subst hk1 hk2 hk3
  unfold refRecipe Host.reduceAdd
  rw [Ideal.hostReduceAdd_def, Ideal.hostReduceAdd_total hr (fun b => b.elim0), constant_apply, Ideal.ofBits_zero_f32,
    sum_rows]
  refine congrArg (fun s : EReal => 0 + s) (Finset.sum_congr rfl fun r _ => ?_)
  rw [select_apply]
  show Scalar.select _ (FloatOps.subf (FloatOps.addf (refCol _ h1 hsc a0 (ix1 r)) (refCol _ h2 hsc a1 (ix1 r)))
      (refCol _ h3 hsc a2 (ix1 r))) _ = _
  rw [refCol_apply _ (col c1).isLt, refCol_apply _ (col c2).isLt, refCol_apply _ (col c3).isLt]
  rfl

end Cert.Val

end
-- ==== Proof.Val.PsInv.lean ====
import proofs.«404644_j25400436588780_1_alg».proof.Proof.Gen.ReferenceIdeal
import proofs.«404644_j25400436588780_1_alg».proof.Proof.Val.PosRef
import Idealize.ShloMosaic.Lib.StableHlo.Run

/-!
  What the positive part of the reference keeps fixed while it runs: the three code vectors and the three volume
  arrays. Each recipe's operations read these six and the loss so far, and write the next loss; the statement of one
  recipe's step is made against this invariant.
-/

noncomputable section

open scoped BigOperators

namespace Cert.ReferenceIdeal.Ps

open Cert.ReferenceIdeal Cert.ReferenceIdeal.Gen Idealize.ShloMosaic Idealize.ShloMosaic.TcCoe Idealize.SL.Sem
open Cert.Val (SRows SRows2 PSc)

/-- The buffers' contents `W` hold the code vectors `cx`, `cy`, `cz` and the volume arrays `a0`, `a1`, `a2`. -/
structure PosInv (W : Valuation τ sig (Elt Ideal)) (cx cy cz : SRows.Idx → BitVec 32)
    (a0 a1 a2 : SRows2.Idx → Ideal .f32) : Prop where
  hx : (W (Proc.devRef .tc main_v25) : SRows.Idx → BitVec 32) = cx
  hy : (W (Proc.devRef .tc main_v51) : SRows.Idx → BitVec 32) = cy
  hz : (W (Proc.devRef .tc main_v77) : SRows.Idx → BitVec 32) = cz
  h0 : (W (Proc.devRef .tc main_arg0) : SRows2.Idx → Ideal .f32) = a0
  h1 : (W (Proc.devRef .tc main_arg1) : SRows2.Idx → Ideal .f32) = a1
  h2 : (W (Proc.devRef .tc main_arg2) : SRows2.Idx → Ideal .f32) = a2

/-- The contents after two lists of operations run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- One recipe's row sum over the reference's own shape facts. -/
abbrev rsum (c1 c2 c3 : BitVec 32) (k1 k2 k3 : ℕ)
    (h1 : SRows2.Slices ![0, k1] Cert.Val.PCol) (h2 : SRows2.Slices ![0, k2] Cert.Val.PCol)
    (h3 : SRows2.Slices ![0, k3] Cert.Val.PCol)
    (cx cy cz : SRows.Idx → BitVec 32) (a0 a1 a2 : SRows2.Idx → Ideal .f32) : PSc.Idx → Ideal .f32 :=
  Cert.Val.refRecipe c1 c2 c3 k1 k2 k3 h1 h2 h3 shapeCasts_S4194304x1_S4194304 bcast_S_S4194304
    reducesTo_S4194304_S_d0 h_S_ cx cy cz a0 a1 a2

/-- The recipe's row sum, read: the sum over the rows of the recipe's summand (`k` the column its code selects). -/
theorem rsum_eq (c1 c2 c3 : BitVec 32) (k1 k2 k3 : ℕ)
    (h1 : SRows2.Slices ![0, k1] Cert.Val.PCol) (h2 : SRows2.Slices ![0, k2] Cert.Val.PCol)
    (h3 : SRows2.Slices ![0, k3] Cert.Val.PCol)
    (hk1 : k1 = (Cert.Val.col c1).val) (hk2 : k2 = (Cert.Val.col c2).val) (hk3 : k3 = (Cert.Val.col c3).val)
    (cx cy cz : SRows.Idx → BitVec 32) (a0 a1 a2 : SRows2.Idx → Ideal .f32) (i : PSc.Idx) :
    rsum c1 c2 c3 k1 k2 k3 h1 h2 h3 cx cy cz a0 a1 a2 i
      = ∑ r : Fin 4194304, Cert.Val.w (c1, c2, c3) cx cy cz a0 a1 a2 r := by
  rw [rsum, Cert.Val.refRecipe_eq _ _ _ _ _ _ _ _ _ _ _ _ _ hk1 hk2 hk3, zero_add]

end Cert.ReferenceIdeal.Ps

end
-- ==== Proof.Val.PsCodes.lean ====
import proofs.«404644_j25400436588780_1_alg».proof.Proof.Val.PsOps
import proofs.«404644_j25400436588780_1_alg».proof.Proof.Val.PsInv
import proofs.«404644_j25400436588780_1_alg».proof.Proof.Val.Codes

/-!
  The beginning of the positive part. Its first operations compute the three code vectors from the three relation
  tables and the flag vector, each by the same classification, and leave the volume arrays as they are.
-/

noncomputable section

namespace Cert.ReferenceIdeal.Ps

open Cert.ReferenceIdeal Cert.ReferenceIdeal.Gen Idealize.ShloMosaic Idealize.ShloMosaic.TcCoe Idealize.SL.Sem
open Cert.Val (SRows SRows2 PSc codeVec)

set_option maxHeartbeats 8000000 in
/-- After the first operations the three code buffers hold the rows' codes of the three relation tables, and the
    volume arrays are the launch's. -/
theorem codes_step (V : Valuation τ sig (Elt Ideal)) :
    PosInv (StableHlo.after (codesOps (F := Ideal)) V)
      (codeVec (V (Proc.devRef .tc main_arg3) : SRows2.Idx → BitVec 32) (V (Proc.devRef .tc main_arg6) : SRows.Idx → BitVec 32))
      (codeVec (V (Proc.devRef .tc main_arg4) : SRows2.Idx → BitVec 32) (V (Proc.devRef .tc main_arg6) : SRows.Idx → BitVec 32))
      (codeVec (V (Proc.devRef .tc main_arg5) : SRows2.Idx → BitVec 32) (V (Proc.devRef .tc main_arg6) : SRows.Idx → BitVec 32))
      (V (Proc.devRef .tc main_arg0)) (V (Proc.devRef .tc main_arg1)) (V (Proc.devRef .tc main_arg2)) := by
  refine ⟨?_, ?_, ?_, ?_, ?_, ?_⟩
  · after_results_simp
    rfl
  · after_results_simp
    rfl
  · after_results_simp
    rfl
  · after_results_simp
  · after_results_simp
  · after_results_simp

end Cert.ReferenceIdeal.Ps

end
-- ==== Proof.Val.PsRec0.lean ====
import proofs.«404644_j25400436588780_1_alg».proof.Proof.Val.PsOps
import proofs.«404644_j25400436588780_1_alg».proof.Proof.Val.PsInv

/-!
  The first positive recipe's step. Its operations read the three code vectors and the three volume arrays, leave them
  as they are, and write the first loss: zero minus the recipe's row sum (the mask of the rows whose codes are (0, 4, 4),
  the columns 0, 1, 1 of the three volume arrays, the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the first recipe the six inputs are unchanged and the loss is zero minus the recipe's row sum. -/
theorem rec0_step (W : Valuation τ sig (Elt Ideal)) (cx cy cz : SRows.Idx → BitVec 32) (a0 a1 a2 : SRows2.Idx → Ideal .f32)
    (I : PosInv W cx cy cz a0 a1 a2) :
    PosInv (StableHlo.after (rec0 (F := Ideal)) W) cx cy cz a0 a1 a2
    ∧ (StableHlo.after (rec0 (F := Ideal)) W (Proc.devRef .tc main_v96) : PSc.Idx → Ideal .f32)
        = subf (constant (F := Ideal) PSc .f32 0x00000000#32)
            (rsum 0#32 4#32 4#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec1.lean ====
import proofs.«404644_j25400436588780_1_alg».proof.Proof.Val.PsOps
import proofs.«404644_j25400436588780_1_alg».proof.Proof.Val.PsInv

/-!
  One positive recipe's step (the recipe with codes (0, 6, 4)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec1_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v96) : PSc.Idx → Ideal .f32) = l) :
    PosInv (StableHlo.after (rec1 (F := Ideal)) W) cx cy cz a0 a1 a2
    ∧ (StableHlo.after (rec1 (F := Ideal)) W (Proc.devRef .tc main_v115) : PSc.Idx → Ideal .f32)
        = subf l
            (rsum 0#32 6#32 4#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec2.lean ====
import proofs.«404644_j25400436588780_1_alg».proof.Proof.Val.PsOps
import proofs.«404644_j25400436588780_1_alg».proof.Proof.Val.PsInv

/-!
  One positive recipe's step (the recipe with codes (1, 5, 5)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec2_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v115) : PSc.Idx → Ideal .f32) = l) :
    PosInv (StableHlo.after (rec2 (F := Ideal)) W) cx cy cz a0 a1 a2
    ∧ (StableHlo.after (rec2 (F := Ideal)) W (Proc.devRef .tc main_v134) : PSc.Idx → Ideal .f32)
        = subf l
            (rsum 1#32 5#32 5#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec3.lean ====
import proofs.«404644_j25400436588780_1_alg».proof.Proof.Val.PsOps
import proofs.«404644_j25400436588780_1_alg».proof.Proof.Val.PsInv

/-!
  One positive recipe's step (the recipe with codes (1, 6, 5)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec3_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v134) : PSc.Idx → Ideal .f32) = l) :
    PosInv (StableHlo.after (rec3 (F := Ideal)) W) cx cy cz a0 a1 a2
    ∧ (StableHlo.after (rec3 (F := Ideal)) W (Proc.devRef .tc main_v153) : PSc.Idx → Ideal .f32)
        = subf l
            (rsum 1#32 6#32 5#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec4.lean ====
import proofs.«404644_j25400436588780_1_alg».proof.Proof.Val.PsOps
import proofs.«404644_j25400436588780_1_alg».proof.Proof.Val.PsInv

/-!
  One positive recipe's step (the recipe with codes (2, 4, 4)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec4_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v153) : PSc.Idx → Ideal .f32) = l) :
    PosInv (StableHlo.after (rec4 (F := Ideal)) W) cx cy cz a0 a1 a2
    ∧ (StableHlo.after (rec4 (F := Ideal)) W (Proc.devRef .tc main_v172) : PSc.Idx → Ideal .f32)
        = subf l
            (rsum 2#32 4#32 4#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec5.lean ====
import proofs.«404644_j25400436588780_1_alg».proof.Proof.Val.PsOps
import proofs.«404644_j25400436588780_1_alg».proof.Proof.Val.PsInv

/-!
  One positive recipe's step (the recipe with codes (2, 5, 5)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec5_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v172) : PSc.Idx → Ideal .f32) = l) :
    PosInv (StableHlo.after (rec5 (F := Ideal)) W) cx cy cz a0 a1 a2
    ∧ (StableHlo.after (rec5 (F := Ideal)) W (Proc.devRef .tc main_v191) : PSc.Idx → Ideal .f32)
        = subf l
            (rsum 2#32 5#32 5#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec6.lean ====
import proofs.«404644_j25400436588780_1_alg».proof.Proof.Val.PsOps
import proofs.«404644_j25400436588780_1_alg».proof.Proof.Val.PsInv

/-!
  One positive recipe's step (the recipe with codes (2, 6, 6)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec6_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v191) : PSc.Idx → Ideal .f32) = l) :
    PosInv (StableHlo.after (rec6 (F := Ideal)) W) cx cy cz a0 a1 a2
    ∧ (StableHlo.after (rec6 (F := Ideal)) W (Proc.devRef .tc main_v210) : PSc.Idx → Ideal .f32)
        = subf l
            (rsum 2#32 6#32 6#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec7.lean ====
import proofs.«404644_j25400436588780_1_alg».proof.Proof.Val.PsOps
import proofs.«404644_j25400436588780_1_alg».proof.Proof.Val.PsInv

/-!
  One positive recipe's step (the recipe with codes (2, 7, 7)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec7_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v210) : PSc.Idx → Ideal .f32) = l) :
    PosInv (StableHlo.after (rec7 (F := Ideal)) W) cx cy cz a0 a1 a2
    ∧ (StableHlo.after (rec7 (F := Ideal)) W (Proc.devRef .tc main_v229) : PSc.Idx → Ideal .f32)
        = subf l
            (rsum 2#32 7#32 7#32 0 1 1 slices_S4194304x2_S4194304x1_0_0 slices_S4194304x2_S4194304x1_0_1 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec8.lean ====
import proofs.«404644_j25400436588780_1_alg».proof.Proof.Val.PsOps
import proofs.«404644_j25400436588780_1_alg».proof.Proof.Val.PsInv

/-!
  One positive recipe's step (the recipe with codes (4, 0, 4)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec8_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v229) : PSc.Idx → Ideal .f32) = l) :
    PosInv (StableHlo.after (rec8 (F := Ideal)) W) cx cy cz a0 a1 a2
    ∧ (StableHlo.after (rec8 (F := Ideal)) W (Proc.devRef .tc main_v248) : PSc.Idx → Ideal .f32)
        = subf l
            (rsum 4#32 0#32 4#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec9.lean ====
import proofs.«404644_j25400436588780_1_alg».proof.Proof.Val.PsOps
import proofs.«404644_j25400436588780_1_alg».proof.Proof.Val.PsInv

/-!
  One positive recipe's step (the recipe with codes (4, 2, 4)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec9_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v248) : PSc.Idx → Ideal .f32) = l) :
    PosInv (StableHlo.after (rec9 (F := Ideal)) W) cx cy cz a0 a1 a2
    ∧ (StableHlo.after (rec9 (F := Ideal)) W (Proc.devRef .tc main_v267) : PSc.Idx → Ideal .f32)
        = subf l
            (rsum 4#32 2#32 4#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec10.lean ====
import proofs.«404644_j25400436588780_1_alg».proof.Proof.Val.PsOps
import proofs.«404644_j25400436588780_1_alg».proof.Proof.Val.PsInv

/-!
  One positive recipe's step (the recipe with codes (5, 1, 5)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec10_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v267) : PSc.Idx → Ideal .f32) = l) :
    PosInv (StableHlo.after (rec10 (F := Ideal)) W) cx cy cz a0 a1 a2
    ∧ (StableHlo.after (rec10 (F := Ideal)) W (Proc.devRef .tc main_v286) : PSc.Idx → Ideal .f32)
        = subf l
            (rsum 5#32 1#32 5#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec11.lean ====
import proofs.«404644_j25400436588780_1_alg».proof.Proof.Val.PsOps
import proofs.«404644_j25400436588780_1_alg».proof.Proof.Val.PsInv

/-!
  One positive recipe's step (the recipe with codes (5, 2, 5)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec11_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v286) : PSc.Idx → Ideal .f32) = l) :
    PosInv (StableHlo.after (rec11 (F := Ideal)) W) cx cy cz a0 a1 a2
    ∧ (StableHlo.after (rec11 (F := Ideal)) W (Proc.devRef .tc main_v305) : PSc.Idx → Ideal .f32)
        = subf l
            (rsum 5#32 2#32 5#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec12.lean ====
import proofs.«404644_j25400436588780_1_alg».proof.Proof.Val.PsOps
import proofs.«404644_j25400436588780_1_alg».proof.Proof.Val.PsInv

/-!
  One positive recipe's step (the recipe with codes (6, 2, 6)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec12_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v305) : PSc.Idx → Ideal .f32) = l) :
    PosInv (StableHlo.after (rec12 (F := Ideal)) W) cx cy cz a0 a1 a2
    ∧ (StableHlo.after (rec12 (F := Ideal)) W (Proc.devRef .tc main_v324) : PSc.Idx → Ideal .f32)
        = subf l
            (rsum 6#32 2#32 6#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsRec13.lean ====
import proofs.«404644_j25400436588780_1_alg».proof.Proof.Val.PsOps
import proofs.«404644_j25400436588780_1_alg».proof.Proof.Val.PsInv

/-!
  One positive recipe's step (the recipe with codes (7, 2, 7)). Its operations read the three code vectors, the three
  volume arrays and the loss so far, leave the six inputs as they are, and write the next loss: the loss so far minus the
  recipe's row sum (the mask of the rows whose codes are the recipe's, the recipe's columns of the three volume arrays,
  the masked term summed over the rows).
-/

noncomputable section

namespace Cert.ReferenceIdeal.Ps

open Cert.ReferenceIdeal Cert.ReferenceIdeal.Gen Idealize.ShloMosaic Idealize.ShloMosaic.TcCoe Idealize.SL.Sem
open Cert.Val (SRows SRows2 PSc)

set_option maxHeartbeats 4000000 in
/-- After the recipe the six inputs are unchanged and the loss is the loss before it minus the recipe's row sum. -/
theorem rec13_step (W : Valuation τ sig (Elt Ideal)) (cx cy cz : SRows.Idx → BitVec 32) (a0 a1 a2 : SRows2.Idx → Ideal .f32)
    (l : PSc.Idx → Ideal .f32) (I : PosInv W cx cy cz a0 a1 a2)
    (hl : (W (Proc.devRef .tc main_v324) : PSc.Idx → Ideal .f32) = l) :
    PosInv (StableHlo.after (rec13 (F := Ideal)) W) cx cy cz a0 a1 a2
    ∧ (StableHlo.after (rec13 (F := Ideal)) W (Proc.devRef .tc main_v343) : PSc.Idx → Ideal .f32)
        = subf l
            (rsum 7#32 2#32 7#32 1 0 1 slices_S4194304x2_S4194304x1_0_1 slices_S4194304x2_S4194304x1_0_0 slices_S4194304x2_S4194304x1_0_1 cx cy cz a0 a1 a2) := by
  obtain ⟨hx, hy, hz, h0, h1, h2⟩ := I
  subst hx hy hz h0 h1 h2 hl
  refine ⟨⟨?_, ?_, ?_, ?_, ?_, ?_⟩, ?_⟩
  · after_results_simp
  · after_results_simp
  · after_results_simp
  · after_results_simp
  · after_results_simp
  · after_results_simp
  · after_results_simp
    rfl

end Cert.ReferenceIdeal.Ps

end
-- ==== Proof.Val.PsLoss.lean ====
import proofs.«404644_j25400436588780_1_alg».proof.Proof.Val.PsOps
import proofs.«404644_j25400436588780_1_alg».proof.Proof.Val.PsInv
import proofs.«404644_j25400436588780_1_alg».proof.Proof.Val.PsCodes
import proofs.«404644_j25400436588780_1_alg».proof.Proof.Val.PsRec0
import proofs.«404644_j25400436588780_1_alg».proof.Proof.Val.PsRec1
import proofs.«404644_j25400436588780_1_alg».proof.Proof.Val.PsRec2
import proofs.«404644_j25400436588780_1_alg».proof.Proof.Val.PsRec3
import proofs.«404644_j25400436588780_1_alg».proof.Proof.Val.PsRec4
import proofs.«404644_j25400436588780_1_alg».proof.Proof.Val.PsRec5
import proofs.«404644_j25400436588780_1_alg».proof.Proof.Val.PsRec6
import proofs.«404644_j25400436588780_1_alg».proof.Proof.Val.PsRec7
import proofs.«404644_j25400436588780_1_alg».proof.Proof.Val.PsRec8
import proofs.«404644_j25400436588780_1_alg».proof.Proof.Val.PsRec9
import proofs.«404644_j25400436588780_1_alg».proof.Proof.Val.PsRec10
import proofs.«404644_j25400436588780_1_alg».proof.Proof.Val.PsRec11
import proofs.«404644_j25400436588780_1_alg».proof.Proof.Val.PsRec12
import proofs.«404644_j25400436588780_1_alg».proof.Proof.Val.PsRec13
import proofs.«404644_j25400436588780_1_alg».proof.Proof.Val.PosLaw

/-!
  The positive part of the reference, read. After the operations from the start of the program through the fourteenth
  positive recipe's subtraction, the three code buffers hold the rows' codes, the volume arrays are the launch's, and
  the loss buffer holds the chain ((0 − S₀) − S₁) − … − S₁₃ of the fourteen recipes' row sums; where every entry of the
  volume arrays is a real number, that chain is minus the sum, over the rows and the recipes, of the recipes' summands.
-/

set_option Elab.async false

noncomputable section

open scoped BigOperators

namespace Cert.Val

open Idealize.ShloMosaic Idealize.ShloMosaic.ValueIdx

/-- Where the volume arrays' entries are real numbers, a recipe's summand at a row is a real number. -/
theorem w_fin (q : BitVec 32 × BitVec 32 × BitVec 32) (cx cy cz : SRows.Idx → BitVec 32) (a0 a1 a2 : SRows2.Idx → EReal)
    (h0 : ∀ i, Fin' (a0 i)) (h1 : ∀ i, Fin' (a1 i)) (h2 : ∀ i, Fin' (a2 i)) (r : Fin 4194304) :
    ∃ x : ℝ, w q cx cy cz a0 a1 a2 r = (x : EReal) := by
  rw [w_eq_ite]
  split
  · exact fin_sub (fin_add (h0 _) (h1 _)) (h2 _)
  · exact fin_zero

/-! The fourteen triples, one by one. -/

theorem recipe_0 : recipe 0 = (0#32, 4#32, 4#32) := rfl
theorem recipe_1 : recipe 1 = (0#32, 6#32, 4#32) := rfl
theorem recipe_2 : recipe 2 = (1#32, 5#32, 5#32) := rfl
theorem recipe_3 : recipe 3 = (1#32, 6#32, 5#32) := rfl
theorem recipe_4 : recipe 4 = (2#32, 4#32, 4#32) := rfl
theorem recipe_5 : recipe 5 = (2#32, 5#32, 5#32) := rfl
theorem recipe_6 : recipe 6 = (2#32, 6#32, 6#32) := rfl
theorem recipe_7 : recipe 7 = (2#32, 7#32, 7#32) := rfl
theorem recipe_8 : recipe 8 = (4#32, 0#32, 4#32) := rfl
theorem recipe_9 : recipe 9 = (4#32, 2#32, 4#32) := rfl
theorem recipe_10 : recipe 10 = (5#32, 1#32, 5#32) := rfl
theorem recipe_11 : recipe 11 = (5#32, 2#32, 5#32) := rfl
theorem recipe_12 : recipe 12 = (6#32, 2#32, 6#32) := rfl
theorem recipe_13 : recipe 13 = (7#32, 2#32, 7#32) := rfl

end Cert.Val

namespace Cert.ReferenceIdeal.Ps

open Cert.ReferenceIdeal Cert.ReferenceIdeal.Gen Idealize.ShloMosaic Idealize.ShloMosaic.TcCoe Idealize.SL.Sem
open Idealize.ShloMosaic.ValueIdx
open Cert.Val (SRows SRows2 PSc codeVec posSum Fin' w recipe chain)

/-- The rows' codes of the first relation table, from the launch contents. -/
abbrev cxOf (V : Valuation τ sig (Elt Ideal)) : SRows.Idx → BitVec 32 :=
  codeVec (V (Proc.devRef .tc main_arg3) : SRows2.Idx → BitVec 32) (V (Proc.devRef .tc main_arg6) : SRows.Idx → BitVec 32)
/-- The rows' codes of the second relation table. -/
abbrev cyOf (V : Valuation τ sig (Elt Ideal)) : SRows.Idx → BitVec 32 :=
  codeVec (V (Proc.devRef .tc main_arg4) : SRows2.Idx → BitVec 32) (V (Proc.devRef .tc main_arg6) : SRows.Idx → BitVec 32)
/-- The rows' codes of the third relation table. -/
abbrev czOf (V : Valuation τ sig (Elt Ideal)) : SRows.Idx → BitVec 32 :=
  codeVec (V (Proc.devRef .tc main_arg5) : SRows2.Idx → BitVec 32) (V (Proc.devRef .tc main_arg6) : SRows.Idx → BitVec 32)
/-- The first volume array, from the launch contents. -/
abbrev a0Of (V : Valuation τ sig (Elt Ideal)) : SRows2.Idx → Ideal .f32 := V (Proc.devRef .tc main_arg0)
/-- The second volume array. -/
abbrev a1Of (V : Valuation τ sig (Elt Ideal)) : SRows2.Idx → Ideal .f32 := V (Proc.devRef .tc main_arg1)
/-- The third volume array. -/
abbrev a2Of (V : Valuation τ sig (Elt Ideal)) : SRows2.Idx → Ideal .f32 := V (Proc.devRef .tc main_arg2)

/-- The chain of the fourteen recipes' row sums. -/
def posChain (V : Valuation τ sig (Elt Ideal)) : EReal :=
  chain 14 fun j => ∑ r : Fin 4194304, w (recipe j) (cxOf V) (cyOf V) (czOf V) (a0Of V) (a1Of V) (a2Of V) r

/-- The contents after the positive part, recipe by recipe. -/
theorem after_posHead (V : Valuation τ sig (Elt Ideal)) :
    StableHlo.after (posHead (F := Ideal)) V
      = StableHlo.after (rec13 (F := Ideal)) (StableHlo.after (rec12 (F := Ideal)) (StableHlo.after (rec11 (F := Ideal)) (StableHlo.after (rec10 (F := Ideal)) (StableHlo.after (rec9 (F := Ideal)) (StableHlo.after (rec8 (F := Ideal)) (StableHlo.after (rec7 (F := Ideal)) (StableHlo.after (rec6 (F := Ideal)) (StableHlo.after (rec5 (F := Ideal)) (StableHlo.after (rec4 (F := Ideal)) (StableHlo.after (rec3 (F := Ideal)) (StableHlo.after (rec2 (F := Ideal)) (StableHlo.after (rec1 (F := Ideal)) (StableHlo.after (rec0 (F := Ideal)) (StableHlo.after (codesOps (F := Ideal)) V)))))))))))))) := by
  simp only [posHead, after_append]

/-- The zero constant at its one index is zero. -/
theorem const0 (i : PSc.Idx) : constant (F := Ideal) PSc .f32 0x00000000#32 i = (0 : EReal) := Ideal.ofBits_zero_f32

/-- One subtraction, read at the one index: where the loss so far is `x`, the loss after a recipe is `x` minus the sum
    over the rows of the recipe's summand. -/
theorem step_scalar {l : PSc.Idx → Ideal .f32} {x : EReal} (hl : ∀ i, l i = x) (c1 c2 c3 : BitVec 32) (k1 k2 k3 : ℕ)
    (h1 : SRows2.Slices ![0, k1] Cert.Val.PCol) (h2 : SRows2.Slices ![0, k2] Cert.Val.PCol)
    (h3 : SRows2.Slices ![0, k3] Cert.Val.PCol)
    (hk1 : k1 = (Cert.Val.col c1).val) (hk2 : k2 = (Cert.Val.col c2).val) (hk3 : k3 = (Cert.Val.col c3).val)
    (cx cy cz : SRows.Idx → BitVec 32) (a0 a1 a2 : SRows2.Idx → Ideal .f32)
    (q : BitVec 32 × BitVec 32 × BitVec 32) (hq : q = (c1, c2, c3)) (i : PSc.Idx) :
    subf l (rsum c1 c2 c3 k1 k2 k3 h1 h2 h3 cx cy cz a0 a1 a2) i
      = x - ∑ r : Fin 4194304, w q cx cy cz a0 a1 a2 r := by
  subst hq
  rw [subf_apply, hl i, rsum_eq c1 c2 c3 k1 k2 k3 h1 h2 h3 hk1 hk2 hk3]

set_option maxHeartbeats 4000000 in
/-- After the positive part the six inputs are in place and the loss is the chain of the recipes' row sums. -/
theorem pos_head_chain (V : Valuation τ sig (Elt Ideal)) :
    PosInv (StableHlo.after (posHead (F := Ideal)) V) (cxOf V) (cyOf V) (czOf V) (a0Of V) (a1Of V) (a2Of V)
    ∧ (StableHlo.after (posHead (F := Ideal)) V (Proc.devRef .tc main_v343) : PSc.Idx → Ideal .f32)
        = fun _ => posChain V := by
  rw [after_posHead]
  have I0 := codes_step V
  obtain ⟨I1, L1⟩ := rec0_step _ _ _ _ _ _ _ I0
  obtain ⟨I2, L2⟩ := rec1_step _ _ _ _ _ _ _ _ I1 L1
  obtain ⟨I3, L3⟩ := rec2_step _ _ _ _ _ _ _ _ I2 L2
  obtain ⟨I4, L4⟩ := rec3_step _ _ _ _ _ _ _ _ I3 L3
  obtain ⟨I5, L5⟩ := rec4_step _ _ _ _ _ _ _ _ I4 L4
  obtain ⟨I6, L6⟩ := rec5_step _ _ _ _ _ _ _ _ I5 L5
  obtain ⟨I7, L7⟩ := rec6_step _ _ _ _ _ _ _ _ I6 L6
  obtain ⟨I8, L8⟩ := rec7_step _ _ _ _ _ _ _ _ I7 L7
  obtain ⟨I9, L9⟩ := rec8_step _ _ _ _ _ _ _ _ I8 L8
  obtain ⟨I10, L10⟩ := rec9_step _ _ _ _ _ _ _ _ I9 L9
  obtain ⟨I11, L11⟩ := rec10_step _ _ _ _ _ _ _ _ I10 L10
  obtain ⟨I12, L12⟩ := rec11_step _ _ _ _ _ _ _ _ I11 L11
  obtain ⟨I13, L13⟩ := rec12_step _ _ _ _ _ _ _ _ I12 L12
  obtain ⟨I14, L14⟩ := rec13_step _ _ _ _ _ _ _ _ I13 L13
  refine ⟨I14, ?_⟩
  rw [L14]
  have M1 := step_scalar const0 0#32 4#32 4#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 0) Cert.Val.recipe_0
  have M2 := step_scalar M1 0#32 6#32 4#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 1) Cert.Val.recipe_1
  have M3 := step_scalar M2 1#32 5#32 5#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 2) Cert.Val.recipe_2
  have M4 := step_scalar M3 1#32 6#32 5#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 3) Cert.Val.recipe_3
  have M5 := step_scalar M4 2#32 4#32 4#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 4) Cert.Val.recipe_4
  have M6 := step_scalar M5 2#32 5#32 5#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 5) Cert.Val.recipe_5
  have M7 := step_scalar M6 2#32 6#32 6#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 6) Cert.Val.recipe_6
  have M8 := step_scalar M7 2#32 7#32 7#32 0 1 1 slices_S4194304x2_S4194304x1_0_0 slices_S4194304x2_S4194304x1_0_1 slices_S4194304x2_S4194304x1_0_1 rfl rfl rfl
    (cxOf V) (cyOf V) (czOf V) (a0Of V) (a1Of V) (a2Of V) (recipe 7) Cert.Val.recipe_7
  have M9 := step_scalar M8 4#32 0#32 4#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 8) Cert.Val.recipe_8
  have M10 := step_scalar M9 4#32 2#32 4#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 9) Cert.Val.recipe_9
  have M11 := step_scalar M10 5#32 1#32 5#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 10) Cert.Val.recipe_10
  have M12 := step_scalar M11 5#32 2#32 5#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 11) Cert.Val.recipe_11
  have M13 := step_scalar M12 6#32 2#32 6#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 12) Cert.Val.recipe_12
  have M14 := step_scalar M13 7#32 2#32 7#32 1 0 1 slices_S4194304x2_S4194304x1_0_1 slices_S4194304x2_S4194304x1_0_0 slices_S4194304x2_S4194304x1_0_1 rfl rfl rfl
    (cxOf V) (cyOf V) (czOf V) (a0Of V) (a1Of V) (a2Of V) (recipe 13) Cert.Val.recipe_13
  funext i
  rw [M14 i, posChain, Cert.Val.chain14]

/-- THE POSITIVE PART OF THE REFERENCE: the six inputs in place, and, where every entry of the volume arrays is a real
    number, the loss is minus the positive sum. -/
theorem pos_head (V : Valuation τ sig (Elt Ideal)) :
    PosInv (StableHlo.after (posHead (F := Ideal)) V) (cxOf V) (cyOf V) (czOf V) (a0Of V) (a1Of V) (a2Of V)
    ∧ ((∀ i, Fin' (a0Of V i)) → (∀ i, Fin' (a1Of V i)) → (∀ i, Fin' (a2Of V i)) →
        (StableHlo.after (posHead (F := Ideal)) V (Proc.devRef .tc main_v343) : PSc.Idx → Ideal .f32)
          = fun _ => -posSum (cxOf V) (cyOf V) (czOf V) (a0Of V) (a1Of V) (a2Of V)) := by
  refine ⟨(pos_head_chain V).1, fun h0 h1 h2 => ?_⟩
  rw [(pos_head_chain V).2]
  funext _
  rw [posChain, Cert.Val.chain_eq_neg_sum 14
    (fun j r => w (recipe j) (cxOf V) (cyOf V) (czOf V) (a0Of V) (a1Of V) (a2Of V) r)
    (fun j r => Cert.Val.w_fin (recipe j) _ _ _ _ _ _ h0 h1 h2 r), posSum]

end Cert.ReferenceIdeal.Ps

end
-- ==== Proof.LibPickScan.lean ====
/- Finding the (k+1)-th selected row of a 0/1 mask as the first row at which the running count of selected
   rows equals k+1: the running count as a padded window sum, its last entry, and the first row at which it
   equals a given word, each read back as the specification's count and k-th selected row. -/
import Idealize.ShloMosaic.PureOps.Contract
import Idealize.ShloMosaic.Lib.ValueIdx
import Mathlib.Data.Nat.Count
import Mathlib.Data.Nat.Nth
import proofs.«404644_j25400436588780_1_alg».proof.Proof.LibPickSpec

noncomputable section

namespace Cert.Pick

open Idealize.ShloMosaic Idealize.ShloMosaic.ValueIdx

/-! ### A rank-1 shape's row-major order is its coordinate's -/

theorem numel_one (n : Nat) : (⟨1, ![n]⟩ : Shape).numel = n := by simp [Shape.numel]

theorem rowMajor_symm_one {n : Nat} (k : Fin (⟨1, ![n]⟩ : Shape).numel) :
    (⟨1, ![n]⟩ : Shape).rowMajor.symm k = ix1 (Fin.cast (numel_one n) k) := by
  rw [Equiv.symm_apply_eq]
  apply Fin.ext
  rw [Shape.rowMajor_val_one]
  rfl

/-- A left fold over `Fin m` whose step reads only the position's value is the fold over the numbers below `m`. -/
theorem foldl_finRange_val {α : Type} (m : Nat) (F : α → ℕ → α) (init : α) :
    (List.finRange m).foldl (fun r k => F r k.val) init = (List.range m).foldl F init := by
  rw [← List.map_coe_finRange_eq_range, List.foldl_map]

/-! ### A reduction of a rank-1 vector to a scalar, and a rank-1 window fold, as folds over the row numbers -/

/-- A two-operand reduction of a pair of rank-1 vectors to a scalar is the left fold over the rows in order. -/
theorem reduce2_rank1 {α β : Type} (N : Nat) (f : α × β → α × β → α × β)
    (X : (⟨1, ![N]⟩ : Shape).Idx → α) (Y : (⟨1, ![N]⟩ : Shape).Idx → β) (ix : S0.Idx → α) (iy : S0.Idx → β)
    (hr : (⟨1, ![N]⟩ : Shape).ReducesTo [0] S0) (hu : 0 < S0.numel) (j : S0.Idx)
    (Xn : ℕ → α) (Yn : ℕ → β) (hX : ∀ i : Fin N, X (ix1 i) = Xn i.val) (hY : ∀ i : Fin N, Y (ix1 i) = Yn i.val) :
    Host.reduce2 f X Y ix iy hr hu j = (List.range N).foldl (fun r m => f r (Xn m, Yn m)) (ix ix0, iy ix0) := by
  unfold Host.reduce2
  rw [List.filter_eq_self.2 (fun n _ => decide_eq_true ((eq_ix0 _).trans (eq_ix0 _).symm))]
  rw [eq_ix0 (Shape.Idx.first hu)]
  rw [List.foldl_ext _ (fun r (n : Fin (⟨1, ![N]⟩ : Shape).numel) => f r (Xn n.val, Yn n.val)) _ (fun r n _ => by
    rw [rowMajor_symm_one, hX, hY]; rfl)]
  rw [foldl_finRange_val _ (fun r m => f r (Xn m, Yn m)), numel_one]

/-- A window fold over a rank-1 vector with window `N`, stride one and `L = N - 1` rows of padding below: at row `i`
    the window's position `n` reads row `i + n - L` when that is a row and the initial value otherwise. -/
theorem reduceWindow_rank1 {α : Type} (N L : Nat) (hL : L + 1 = N) (f : α → α → α)
    (X : (⟨1, ![N]⟩ : Shape).Idx → α) (init : S0.Idx → α)
    (hw : (⟨1, ![N]⟩ : Shape).ReduceWindows ![N] ![1] ![L] ![0] ⟨1, ![N]⟩) (hu : 0 < S0.numel) (i : Fin N)
    (Xn : ℕ → α) (hX : ∀ i : Fin N, X (ix1 i) = Xn i.val) :
    Host.reduceWindow f ![N] ![1] ![L] ![0] X init hw hu (ix1 i)
      = (List.range N).foldl (fun r n => f r (if L ≤ i.val + n then Xn (i.val + n - L) else init ix0)) (init ix0) := by
  simp only [Host.reduceWindow]
  rw [eq_ix0 (Shape.Idx.first hu)]
  refine (List.foldl_ext _ (fun r (n : Fin (⟨1, ![N]⟩ : Shape).numel) =>
    f r (if L ≤ i.val + n.val then Xn (i.val + n.val - L) else init ix0)) _ (fun r n _ => ?_)).trans ?_
  · have hn : n.val < N := lt_of_lt_of_eq n.isLt (numel_one N)
    have hrm : ∀ a : Fin 1, ((⟨1, ![N]⟩ : Shape).rowMajor.symm n a).val = n.val := by
      intro a; rw [rowMajor_symm_one]; match a with | ⟨0, _⟩ => rfl
    have e1 : ∀ (k : Fin N) (b : Fin 1), (ix1 k b).val = k.val := fun k b => by match b with | ⟨0, _⟩ => rfl
    congr 1
    split
    · rename_i h
      have h0 := h 0
      simp only [e1, hrm, Matrix.cons_val_fin_one, Nat.mul_one] at h0
      rw [if_pos h0.1, ← hX ⟨i.val + n.val - L, h0.2⟩]
      congr 1
      funext a
      apply Fin.ext
      simp only [e1, hrm, Matrix.cons_val_fin_one, Nat.mul_one]
    · rename_i h
      rw [if_neg]
      intro hc
      apply h
      intro a
      simp only [e1, hrm, Matrix.cons_val_fin_one, Nat.mul_one]
      omega
  · rw [foldl_finRange_val _ (fun r n => f r (if L ≤ i.val + n then Xn (i.val + n - L) else init ix0)), numel_one]

/-! ### The running count -/

theorem bit_cases (b : BitVec 1) : b = 0#1 ∨ b = 1#1 := by
  have := b.isLt
  rcases (by omega : b.toNat = 0 ∨ b.toNat = 1) with h | h
  · left; exact BitVec.eq_of_toNat_eq (by simpa using h)
  · right; exact BitVec.eq_of_toNat_eq (by simpa using h)

theorem setWidth_bit (b : BitVec 1) : b.setWidth 32 = BitVec.ofNat 32 (if b = 1#1 then 1 else 0) := by
  rcases bit_cases b with rfl | rfl <;> decide

theorem sel_iff (x : SB.Idx → BitVec 1) (i : Fin B) : sel x i.val ↔ x (ix1 i) = 1#1 :=
  ⟨fun ⟨_, h⟩ => h, fun h => ⟨i.isLt, h⟩⟩

theorem sel_lt {x : SB.Idx → BitVec 1} {i : ℕ} (h : sel x i) : i < B := h.1

/-- A mask's bit widened to a word is the 0/1 word of "the row is selected". -/
theorem extui_eq (x : SB.Idx → BitVec 1) (hlt : 1 < 32) (i : Fin B) :
    extui 32 x hlt (ix1 i) = BitVec.ofNat 32 (if sel x i.val then 1 else 0) := by
  show (x (ix1 i)).setWidth 32 = _
  rw [setWidth_bit]
  by_cases h : x (ix1 i) = 1#1
  · rw [if_pos h, if_pos ((sel_iff x i).2 h)]
  · rw [if_neg h, if_neg (fun h' => h ((sel_iff x i).1 h'))]

/-- The padded window sum of the 0/1 words of a predicate counts it: after the window's first `K` positions at row
    `i`, with `L` rows of padding below, the sum is the count of the predicate below `K - (L - i)`. -/
theorem count_fold (p : ℕ → Prop) [DecidablePred p] (L i : ℕ) (hi : i ≤ L) (K : ℕ) :
    (List.range K).foldl (fun r n => IntOp.addi r
        (if L ≤ i + n then BitVec.ofNat 32 (if p (i + n - L) then 1 else 0) else 0#32)) 0#32
      = BitVec.ofNat 32 (Nat.count p (K - (L - i))) := by
  induction K with
  | zero => simp
  | succ K ih =>
    rw [List.range_succ, List.foldl_append, ih, List.foldl_cons, List.foldl_nil]
    unfold IntOp.addi
    by_cases hc : L ≤ i + K
    · rw [if_pos hc, show K + 1 - (L - i) = (K - (L - i)) + 1 by omega, Nat.count_succ,
        show K - (L - i) = i + K - L by omega, BitVec.ofNat_add]
    · rw [if_neg hc, show K + 1 - (L - i) = K - (L - i) by omega, BitVec.add_zero]

/-- The running count: the window sum at row `i` is the number of selected rows among rows `0 … i`. -/
theorem cs_eq (x : SB.Idx → BitVec 1) (hlt : 1 < 32) (hb0 : S0.BroadcastsInDim S0 ![])
    (hw : SB.ReduceWindows ![4194304] ![1] ![4194303] ![0] SB) (hu : 0 < S0.numel) (i : Fin 4194304) :
    Host.reduceWindow IntOp.addi ![4194304] ![1] ![4194303] ![0] (extui 32 x hlt)
        (broadcastInDim S0 ![] hb0 (constantI S0 32 0#32)) hw hu (ix1 i)
      = BitVec.ofNat 32 (Nat.count (sel x) (i.val + 1)) := by
  have hinit : (broadcastInDim S0 ![] hb0 (constantI S0 32 0#32)) ix0 = 0#32 := rfl
  rw [reduceWindow_rank1 4194304 4194303 rfl IntOp.addi _ _ hw hu i
    (fun m => BitVec.ofNat 32 (if sel x m then 1 else 0)) (extui_eq x hlt), hinit]
  have hi := i.isLt
  rw [count_fold (sel x) 4194303 i.val (by omega) 4194304, show 4194304 - (4194303 - i.val) = i.val + 1 by omega]

/-! ### The last entry of the running count -/

/-- The last entry of the running count is the number of selected rows. -/
theorem last_eq (x : SB.Idx → BitVec 1) (hlt : 1 < 32) (hb0 : S0.BroadcastsInDim S0 ![])
    (hw : SB.ReduceWindows ![4194304] ![1] ![4194303] ![0] SB) (hu : 0 < S0.numel)
    (hs : SB.Slices ![4194303] (⟨1, ![1]⟩ : Shape)) (hc : (⟨1, ![1]⟩ : Shape).ShapeCasts S0) :
    shapeCast S0 (extractStridedSlice (⟨1, ![1]⟩ : Shape) ![4194303]
        (Host.reduceWindow IntOp.addi ![4194304] ![1] ![4194303] ![0] (extui 32 x hlt)
          (broadcastInDim S0 ![] hb0 (constantI S0 32 0#32)) hw hu) hs) hc
      = fun _ => BitVec.ofNat 32 (cnt x) := by
  funext j
  have key : ∀ k : SB.Idx, (k 0).val = 4194303 →
      Host.reduceWindow IntOp.addi ![4194304] ![1] ![4194303] ![0] (extui 32 x hlt)
        (broadcastInDim S0 ![] hb0 (constantI S0 32 0#32)) hw hu k = BitVec.ofNat 32 (cnt x) := by
    intro k hk
    obtain ⟨i, rfl⟩ : ∃ i : Fin 4194304, k = ix1 i := ⟨k 0, eq_ix1 k⟩
    have hi : i.val = 4194303 := hk
    rw [cs_eq x hlt hb0 hw hu i, hi]
    rfl
  unfold shapeCast extractStridedSlice
  apply key
  have h1 : ∀ (b : Fin 1) (c : (⟨1, ![1]⟩ : Shape).Coord b), c.val = 0 := fun b c => by
    have h : c.val < 1 := by
      match b, c with
      | ⟨0, _⟩, c => exact c.isLt
    omega
  show 4194303 + (Shape.reshapeEquiv hc j _).val = 4194303
  rw [h1]

/-! ### The first row holding a one: the arg-max fold -/

/-- The arg-max reducer on (bit, row number) pairs: the greater bit, and on equal bits the smaller row number. -/
def red : BitVec 1 × BitVec 32 → BitVec 1 × BitVec 32 → BitVec 1 × BitVec 32 := fun a b =>
  let v2 := IntOp.cmpi .ugt a.1 b.1
  let v3 := IntOp.cmpi .ne a.1 a.1
  let v4 := IntOp.ori v2 v3
  let v5 := IntOp.cmpi .eq a.1 b.1
  let v6 := IntOp.cmpi .slt a.2 b.2
  let v7 := IntOp.andi v5 v6
  let v8 := IntOp.ori v4 v7
  let v9 := Scalar.select v4 a.1 b.1
  let v10 := Scalar.select v8 a.2 b.2
  (v9, v10)

/-- A one beats a zero held. -/
theorem red_zero_one (u w : BitVec 32) : red (0#1, u) (1#1, w) = (1#1, w) := by
  simp [red, IntOp.cmpi, IntOp.ori, IntOp.andi, Scalar.select]

/-- A one held is kept against a zero. -/
theorem red_one_zero (u w : BitVec 32) : red (1#1, u) (0#1, w) = (1#1, u) := by
  simp [red, IntOp.cmpi, IntOp.ori, IntOp.andi, Scalar.select]

/-- On equal bits the signed-smaller row number is kept, the later on a tie. -/
theorem red_same (b : BitVec 1) (u w : BitVec 32) : red (b, u) (b, w) = (b, if u.slt w then u else w) := by
  rcases bit_cases b with rfl | rfl <;> cases h : u.slt w <;>
    simp [red, IntOp.cmpi, IntOp.ori, IntOp.andi, Scalar.select, h]

/-- A word below `2^31` read signed is itself. -/
theorem toInt_ofNat_small {a : ℕ} (ha : a < 2147483648) : (BitVec.ofNat 32 a).toInt = (a : ℤ) := by
  have h : (BitVec.ofNat 32 a).toNat = a := by rw [BitVec.toNat_ofNat]; exact Nat.mod_eq_of_lt (by omega)
  rw [BitVec.toInt_eq_toNat_of_lt (by rw [h]; omega), h]

/-- Signed order on words below `2^31` is the order of the numbers. -/
theorem slt_ofNat {a b : ℕ} (ha : a < 2147483648) (hb : b < 2147483648) :
    (BitVec.ofNat 32 a).slt (BitVec.ofNat 32 b) = decide (a < b) := by
  unfold BitVec.slt
  rw [toInt_ofNat_small ha, toInt_ofNat_small hb]
  simp

/-- The arg-max fold from `(0, 0)` over the pairs (bit of row `m`, `m`) in row order, after `K` rows: `(0, 0)` while no
    row held a one, and from then on `(1, f)` for the FIRST row `f` that held one. -/
theorem argmax_fold (bit : ℕ → BitVec 1) (K : ℕ) (hK : K ≤ 2147483648) :
    ((∀ i < K, bit i ≠ 1#1) ∧
        (List.range K).foldl (fun r m => red r (bit m, BitVec.ofNat 32 m)) (0#1, 0#32) = (0#1, 0#32)) ∨
      (∃ f < K, bit f = 1#1 ∧ (∀ i < f, bit i ≠ 1#1) ∧
        (List.range K).foldl (fun r m => red r (bit m, BitVec.ofNat 32 m)) (0#1, 0#32) = (1#1, BitVec.ofNat 32 f)) := by
  induction K with
  | zero => left; exact ⟨fun i hi => absurd hi (Nat.not_lt_zero i), rfl⟩
  | succ K ih =>
    rw [List.range_succ, List.foldl_append, List.foldl_cons, List.foldl_nil]
    rcases ih (by omega) with ⟨hz, hst⟩ | ⟨f, hf, hbf, hfirst, hst⟩
    · rw [hst]
      rcases bit_cases (bit K) with hb | hb
      · left
        refine ⟨fun i hi => ?_, ?_⟩
        · rcases Nat.lt_succ_iff_lt_or_eq.1 hi with h | h
          · exact hz i h
          · rw [h, hb]; decide
        · rw [hb, red_same, slt_ofNat (by omega) (by omega)]
          by_cases h0 : 0 < K
          · rw [decide_eq_true h0, if_pos rfl]
          · rw [decide_eq_false h0, show K = 0 by omega]; rfl
      · right
        exact ⟨K, Nat.lt_succ_self K, hb, hz, by rw [hb, red_zero_one]⟩
    · right
      refine ⟨f, by omega, hbf, hfirst, ?_⟩
      rw [hst]
      rcases bit_cases (bit K) with hb | hb
      · rw [hb, red_one_zero]
      · rw [hb, red_same, slt_ofNat (by omega) (by omega), decide_eq_true hf, if_pos rfl]

/-! ### The first row at which the running count equals a word -/

theorem ofBool_eq_one (b : Bool) : BitVec.ofBool b = 1#1 ↔ b = true := by cases b <;> decide

theorem ofNat_inj {a b : ℕ} (ha : a < 4294967296) (hb : b < 4294967296) :
    BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- The first row at which the running count equals `k + 1` is the `k`-th selected row, and `0` when there is none. -/
theorem am_eq (k kw : ℕ) (hkw : kw = k + 1) (hk : kw < 4294967296)
    (x : SB.Idx → BitVec 1) (hlt : 1 < 32) (hb0 : S0.BroadcastsInDim S0 ![])
    (hw : SB.ReduceWindows ![4194304] ![1] ![4194303] ![0] SB) (hu : 0 < S0.numel)
    (hb : S0.BroadcastsInDim SB ![]) (hr : SB.ReducesTo [0] S0) :
    (fun j => (Host.reduce2 red
        (cmpi .eq
          (Host.reduceWindow IntOp.addi ![4194304] ![1] ![4194303] ![0] (extui 32 x hlt)
            (broadcastInDim S0 ![] hb0 (constantI S0 32 0#32)) hw hu)
          (broadcastInDim SB ![] hb (constantI S0 32 (BitVec.ofNat 32 kw))))
        (iotaInDim SB 32 0) (constantI S0 1 0#1) (constantI S0 32 0#32) hr hu j).2)
      = fun _ => BitVec.ofNat 32 (pick x k) := by
  funext j
  have hX : ∀ i : Fin 4194304,
      cmpi .eq
          (Host.reduceWindow IntOp.addi ![4194304] ![1] ![4194303] ![0] (extui 32 x hlt)
            (broadcastInDim S0 ![] hb0 (constantI S0 32 0#32)) hw hu)
          (broadcastInDim SB ![] hb (constantI S0 32 (BitVec.ofNat 32 kw))) (ix1 i)
        = (fun m => BitVec.ofBool (BitVec.ofNat 32 (Nat.count (sel x) (m + 1)) == BitVec.ofNat 32 kw)) i.val := by
    intro i
    show IntOp.cmpi .eq (Host.reduceWindow IntOp.addi ![4194304] ![1] ![4194303] ![0] (extui 32 x hlt)
            (broadcastInDim S0 ![] hb0 (constantI S0 32 0#32)) hw hu (ix1 i)) (BitVec.ofNat 32 kw) = _
    rw [cs_eq x hlt hb0 hw hu i]
    rfl
  have hY : ∀ i : Fin 4194304, iotaInDim SB 32 0 (ix1 i) = (fun m => BitVec.ofNat 32 m) i.val := fun i => rfl
  rw [reduce2_rank1 4194304 red _ _ _ _ hr hu j
    (fun m => BitVec.ofBool (BitVec.ofNat 32 (Nat.count (sel x) (m + 1)) == BitVec.ofNat 32 kw))
    (fun m => BitVec.ofNat 32 m) hX hY]
  have hi0 : (constantI S0 1 0#1 ix0, constantI S0 32 0#32 ix0) = ((0#1, 0#32) : BitVec 1 × BitVec 32) := rfl
  rw [hi0]
  -- the bit of row `m` is one exactly when the count through row `m` is `k + 1`
  have hbit : ∀ m < 4194304, (BitVec.ofBool (BitVec.ofNat 32 (Nat.count (sel x) (m + 1)) == BitVec.ofNat 32 kw) = 1#1
      ↔ Nat.count (sel x) (m + 1) = k + 1) := by
    intro m hm
    have hc : Nat.count (sel x) (m + 1) ≤ m + 1 := Nat.count_le _
    rw [ofBool_eq_one, beq_iff_eq, ofNat_inj (by omega) hk, hkw]
  rcases argmax_fold (fun m => BitVec.ofBool (BitVec.ofNat 32 (Nat.count (sel x) (m + 1)) == BitVec.ofNat 32 kw))
      4194304 (by omega) with ⟨hz, hst⟩ | ⟨f, hf, hbf, hfirst, hst⟩
  · rw [hst]
    show (0#32 : BitVec 32) = BitVec.ofNat 32 (pick x k)
    unfold pick
    split
    · rename_i hlt'
      exfalso
      have hkc : k < Nat.count (sel x) B := hlt'
      have hfin : ∀ hf : (Set.ofPred (sel x)).Finite, k < hf.toFinset.card := fun hf =>
        lt_of_lt_of_le hkc (Nat.count_le_card hf B)
      have hm : Nat.nth (sel x) k < B := Nat.nth_lt_of_lt_count hkc
      have hs : sel x (Nat.nth (sel x) k) := Nat.nth_mem k hfin
      have hcn : Nat.count (sel x) (Nat.nth (sel x) k) = k := Nat.count_nth hfin
      refine hz (Nat.nth (sel x) k) hm ((hbit _ hm).2 ?_)
      rw [Nat.count_succ, if_pos hs, hcn]
    · rfl
  · rw [hst]
    show BitVec.ofNat 32 f = BitVec.ofNat 32 (pick x k)
    have hcf : Nat.count (sel x) (f + 1) = k + 1 := (hbit f hf).1 hbf
    have hkc : k < Nat.count (sel x) B :=
      lt_of_lt_of_le (by omega) (Nat.count_monotone (sel x) (by omega : f + 1 ≤ 4194304))
    have hfin : ∀ hf : (Set.ofPred (sel x)).Finite, k < hf.toFinset.card := fun hf =>
      lt_of_lt_of_le hkc (Nat.count_le_card hf B)
    have hm : Nat.nth (sel x) k < B := Nat.nth_lt_of_lt_count hkc
    have hs : sel x (Nat.nth (sel x) k) := Nat.nth_mem k hfin
    have hcn : Nat.count (sel x) (Nat.nth (sel x) k) = k := Nat.count_nth hfin
    have hcm : Nat.count (sel x) (Nat.nth (sel x) k + 1) = k + 1 := by rw [Nat.count_succ, if_pos hs, hcn]
    have hfm : f = Nat.nth (sel x) k := by
      rcases lt_trichotomy f (Nat.nth (sel x) k) with h | h | h
      · exfalso
        have := Nat.count_monotone (sel x) (show f + 1 ≤ Nat.nth (sel x) k by omega)
        omega
      · exact h
      · exact absurd ((hbit _ hm).2 hcm) (hfirst _ h)
    have hkc' : k < cnt x := hkc
    unfold pick
    rw [if_pos hkc', hfm]

/-- The first row at which the running count is one: the first selected row. -/
theorem am1_eq (x : SB.Idx → BitVec 1) (hlt : 1 < 32) (hb0 : S0.BroadcastsInDim S0 ![])
    (hw : SB.ReduceWindows ![4194304] ![1] ![4194303] ![0] SB) (hu : 0 < S0.numel)
    (hb : S0.BroadcastsInDim SB ![]) (hr : SB.ReducesTo [0] S0) :
    (fun j => (Host.reduce2 red
        (cmpi .eq
          (Host.reduceWindow IntOp.addi ![4194304] ![1] ![4194303] ![0] (extui 32 x hlt)
            (broadcastInDim S0 ![] hb0 (constantI S0 32 0#32)) hw hu)
          (broadcastInDim SB ![] hb (constantI S0 32 1#32)))
        (iotaInDim SB 32 0) (constantI S0 1 0#1) (constantI S0 32 0#32) hr hu j).2)
      = fun _ => BitVec.ofNat 32 (pick x 0) :=
  am_eq 0 1 rfl (by omega) x hlt hb0 hw hu hb hr

/-- The first row at which the running count is two: the second selected row. -/
theorem am2_eq (x : SB.Idx → BitVec 1) (hlt : 1 < 32) (hb0 : S0.BroadcastsInDim S0 ![])
    (hw : SB.ReduceWindows ![4194304] ![1] ![4194303] ![0] SB) (hu : 0 < S0.numel)
    (hb : S0.BroadcastsInDim SB ![]) (hr : SB.ReducesTo [0] S0) :
    (fun j => (Host.reduce2 red
        (cmpi .eq
          (Host.reduceWindow IntOp.addi ![4194304] ![1] ![4194303] ![0] (extui 32 x hlt)
            (broadcastInDim S0 ![] hb0 (constantI S0 32 0#32)) hw hu)
          (broadcastInDim SB ![] hb (constantI S0 32 2#32)))
        (iotaInDim SB 32 0) (constantI S0 1 0#1) (constantI S0 32 0#32) hr hu j).2)
      = fun _ => BitVec.ofNat 32 (pick x 1) :=
  am_eq 1 2 rfl (by omega) x hlt hb0 hw hu hb hr

/-- Some row is selected: the last running count is positive read signed. -/
theorem posr_eq (x : SB.Idx → BitVec 1) (hlt : 1 < 32) (hb0 : S0.BroadcastsInDim S0 ![])
    (hw : SB.ReduceWindows ![4194304] ![1] ![4194303] ![0] SB) (hu : 0 < S0.numel)
    (hs : SB.Slices ![4194303] (⟨1, ![1]⟩ : Shape)) (hc : (⟨1, ![1]⟩ : Shape).ShapeCasts S0) :
    cmpi .sgt
        (shapeCast S0 (extractStridedSlice (⟨1, ![1]⟩ : Shape) ![4194303]
          (Host.reduceWindow IntOp.addi ![4194304] ![1] ![4194303] ![0] (extui 32 x hlt)
            (broadcastInDim S0 ![] hb0 (constantI S0 32 0#32)) hw hu) hs) hc)
        (constantI S0 32 0#32)
      = fun _ => if 0 < cnt x then 1#1 else 0#1 := by
  rw [last_eq x hlt hb0 hw hu hs hc]
  funext j
  show BitVec.ofBool ((BitVec.ofNat 32 0).slt (BitVec.ofNat 32 (cnt x))) = _
  have hc' : cnt x ≤ 4194304 := cnt_le x
  rw [slt_ofNat (by omega) (by omega)]
  by_cases h : 0 < cnt x
  · rw [decide_eq_true h, if_pos h]; rfl
  · rw [decide_eq_false h, if_neg h]; rfl

end Cert.Pick

end
-- ==== Proof.Val.RTerms.lean ====
/- The selected rows as the running-count program finds them: the running count of a mask as a padded window
   sum, its last entry (how many rows are selected), and, for the first or second selected row, the first row at
   which the running count equals one or two (an arg-max over "the count equals the word" that keeps the earliest
   row, 0 when no row qualifies). Each is read back as the specification's count and k-th selected row, so a
   recipe's term computed from these row words is the term by the specification. -/
import proofs.«404644_j25400436588780_1_alg».proof.Proof.Val.Terms
import proofs.«404644_j25400436588780_1_alg».proof.Proof.LibPickScan

noncomputable section

namespace Cert.Val

open Idealize.ShloMosaic Idealize.ShloMosaic.ValueIdx
open Cert.Pick (SB S0 cnt pick red)

variable {F : FTy → Type} [FloatOps F]

/-- A vector of one entry. -/
abbrev S1 : Shape := ⟨1, ![1]⟩

/-! ## The shape side conditions -/

theorem hb0 : S0.BroadcastsInDim S0 (![] : Fin 0 → Fin S0.rank) := by decide
theorem hw : SB.ReduceWindows (![4194304] : Fin 1 → Nat) ![1] ![4194303] ![0] SB := by decide
theorem hs1 : SB.Slices ![4194303] S1 := by decide
theorem hc1 : S1.ShapeCasts S0 := by decide

/-! ## The running count and what is read off it -/

/-- The running count of the mask: at row i, the number of selected rows among rows 0 … i. -/
def rCs (x : SB.Idx → BitVec 1) : SB.Idx → BitVec 32 :=
  Host.reduceWindow IntOp.addi ![4194304] ![1] ![4194303] ![0] (extui 32 x hlt)
    (broadcastInDim S0 ![] hb0 (constantI S0 32 0#32)) hw hu

/-- The last running count: how many rows are selected, as a word. -/
def rLast (x : SB.Idx → BitVec 1) : S0.Idx → BitVec 32 :=
  shapeCast S0 (extractStridedSlice S1 ![4194303] (rCs x) hs1) hc1

/-- The first row at which the running count equals the word `w`, 0 when there is none. -/
def rAm (x : SB.Idx → BitVec 1) (w : BitVec 32) : S0.Idx → BitVec 32 :=
  fun j => (Host.reduce2 red
    (cmpi .eq (rCs x) (broadcastInDim SB ![] hb (constantI S0 32 w)))
    (iotaInDim SB 32 0) (constantI S0 1 0#1) (constantI S0 32 0#32) hr hu j).2

/-- The word of the first (flag clear) or second (flag set) selected row: where the running count first
    equals one, or two. -/
def rWord (x : SB.Idx → BitVec 1) (f : Bool) : S0.Idx → BitVec 32 :=
  match f with
  | false => rAm x 1#32
  | true => rAm x 2#32

/-- Whether a row is selected: the last running count is positive. -/
def rPos (x : SB.Idx → BitVec 1) : S0.Idx → BitVec 1 :=
  cmpi .sgt (rLast x) (constantI S0 32 0#32)

/-- A recipe's term as the running-count program computes it. -/
def rTerm (r : Recipe) (cx cy cz : SB.Idx → BitVec 32) (a0 a1 a2 : SA.Idx → F .f32) : S0.Idx → F .f32 :=
  negTerm (rWord (maskOf r.a r.b r.c cx cy cz) r.f1) (rWord (maskOf r.a r.b r.c cx cy cz) r.f2)
    (rWord (maskOf r.a r.b r.c cx cy cz) r.f3) (rPos (maskOf r.a r.b r.c cx cy cz)) a0 a1 a2

/-! ## Read back as the specification -/

/-- The row word found by the running count is the specification's. -/
theorem rWord_eq (x : SB.Idx → BitVec 1) (f : Bool) : rWord x f = pickWord x f := by
  cases f
  · exact Cert.Pick.am1_eq x hlt hb0 hw hu hb hr
  · exact Cert.Pick.am2_eq x hlt hb0 hw hu hb hr

/-- The positivity bit read off the running count is the specification's. -/
theorem rPos_eq (x : SB.Idx → BitVec 1) : rPos x = posBit x :=
  Cert.Pick.posr_eq x hlt hb0 hw hu hs1 hc1

/-- A recipe's term computed from the running count is its term by the specification. -/
theorem rTerm_eq (r : Recipe) (cx cy cz : SB.Idx → BitVec 32) (a0 a1 a2 : SA.Idx → F .f32) :
    rTerm r cx cy cz a0 a1 a2 = recTerm r cx cy cz a0 a1 a2 := by
  have e1 := rWord_eq (maskOf r.a r.b r.c cx cy cz) r.f1
  have e2 := rWord_eq (maskOf r.a r.b r.c cx cy cz) r.f2
  have e3 := rWord_eq (maskOf r.a r.b r.c cx cy cz) r.f3
  have e4 := rPos_eq (maskOf r.a r.b r.c cx cy cz)
  have h := congr (congr (congr (congrArg (negTerm (F := F)) e1) e2) e3) e4
  exact congrFun (congrFun (congrFun h a0) a1) a2

/-- The loss with every recipe's term computed from the running count. -/
def rLossOf (l0 : S0.Idx → F .f32) (rs : List Recipe) (cx cy cz : SB.Idx → BitVec 32)
    (a0 a1 a2 : SA.Idx → F .f32) : S0.Idx → F .f32 :=
  rs.foldl (fun l r => subf l (rTerm r cx cy cz a0 a1 a2)) l0

/-- It is the loss by the specification. -/
theorem rLossOf_eq (l0 : S0.Idx → F .f32) (rs : List Recipe) (cx cy cz : SB.Idx → BitVec 32)
    (a0 a1 a2 : SA.Idx → F .f32) :
    rLossOf l0 rs cx cy cz a0 a1 a2 = lossOf l0 rs cx cy cz a0 a1 a2 := by
  have h : (fun (l : S0.Idx → F .f32) (r : Recipe) => subf l (rTerm r cx cy cz a0 a1 a2))
      = fun l r => subf l (recTerm r cx cy cz a0 a1 a2) := by
    funext l r
    rw [rTerm_eq]
  unfold rLossOf lossOf
  rw [h]

end Cert.Val

end
-- ==== Proof.Val.RCast.lean ====
/- A value carried along an equation between two types that unfold to the same type is the value itself. Used to
   read the contents of a buffer at its literal type. -/
import Lean

namespace Cert.Val

open Lean Meta Simp in
/-- A transport along an equation between two types that are one type on unfolding is the identity. -/
dsimproc_decl castSame (cast _ _) := fun e => do
  let_expr cast α β _ a ← e | return .continue
  if (← withTransparency .default (isDefEq α β)) then return .visit a else return .continue

end Cert.Val
-- ==== Proof.Val.RTail00.lean ====
/- Recipe 0 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R00 : List (HloOp τ sig (Elt F)) :=
  restOf (restOf (restOf main_part7_ops3)) ++ (main_part7_ops4 ++ (main_part7_ops5 ++ (main_part7_ops6 ++ (main_part7_ops7 ++ (main_part7_ops8 ++ (main_part7_ops9 ++ (main_part7_ops10 ++ (main_part7_ops11 ++ (main_part8_ops0 ++ (main_part8_ops1 ++ (main_part8_ops2 ++ (main_part8_ops3 ++ (firstOf main_part8_ops4)))))))))))))

set_option maxHeartbeats 8000000 in
/-- The running loss after the group. -/
theorem rec00_loss (X : Valuation τ sig (Elt F)) :
    StableHlo.after (R00 (F := F)) X (Proc.devRef .tc main_v403)
      = subf (X (Proc.devRef .tc main_v343))
          (Cert.Val.rTerm ⟨0#32, 4#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R00, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec00_keeps (X : Valuation τ sig (Elt F)) :
    StableHlo.after (R00 (F := F)) X (Proc.devRef .tc main_v25) = X (Proc.devRef .tc main_v25)
    ∧ StableHlo.after (R00 (F := F)) X (Proc.devRef .tc main_v51) = X (Proc.devRef .tc main_v51)
    ∧ StableHlo.after (R00 (F := F)) X (Proc.devRef .tc main_v77) = X (Proc.devRef .tc main_v77)
    ∧ StableHlo.after (R00 (F := F)) X (Proc.devRef .tc main_arg0) = X (Proc.devRef .tc main_arg0)
    ∧ StableHlo.after (R00 (F := F)) X (Proc.devRef .tc main_arg1) = X (Proc.devRef .tc main_arg1)
    ∧ StableHlo.after (R00 (F := F)) X (Proc.devRef .tc main_arg2) = X (Proc.devRef .tc main_arg2) := by
  refine ⟨?_, ?_, ?_, ?_, ?_, ?_⟩ <;>
    simp (disch := decide) only [R00, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail01.lean ====
/- Recipe 1 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R01 : List (HloOp τ sig (Elt F)) :=
  restOf main_part8_ops4 ++ (main_part9_ops0 ++ (main_part9_ops1 ++ (main_part9_ops2 ++ (main_part9_ops3 ++ (main_part9_ops4 ++ (main_part9_ops5 ++ (main_part9_ops6 ++ (main_part9_ops7 ++ (main_part9_ops8 ++ (main_part10_ops0 ++ (main_part10_ops1 ++ (main_part10_ops2 ++ (main_part10_ops3 ++ (firstOf main_part10_ops4))))))))))))))

set_option maxHeartbeats 8000000 in
/-- The running loss after the group. -/
theorem rec01_loss (X : Valuation τ sig (Elt F)) :
    StableHlo.after (R01 (F := F)) X (Proc.devRef .tc main_v463)
      = subf (X (Proc.devRef .tc main_v403))
          (Cert.Val.rTerm ⟨0#32, 4#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R01, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec01_keeps (X : Valuation τ sig (Elt F)) :
    StableHlo.after (R01 (F := F)) X (Proc.devRef .tc main_v25) = X (Proc.devRef .tc main_v25)
    ∧ StableHlo.after (R01 (F := F)) X (Proc.devRef .tc main_v51) = X (Proc.devRef .tc main_v51)
    ∧ StableHlo.after (R01 (F := F)) X (Proc.devRef .tc main_v77) = X (Proc.devRef .tc main_v77)
    ∧ StableHlo.after (R01 (F := F)) X (Proc.devRef .tc main_arg0) = X (Proc.devRef .tc main_arg0)
    ∧ StableHlo.after (R01 (F := F)) X (Proc.devRef .tc main_arg1) = X (Proc.devRef .tc main_arg1)
    ∧ StableHlo.after (R01 (F := F)) X (Proc.devRef .tc main_arg2) = X (Proc.devRef .tc main_arg2) := by
  refine ⟨?_, ?_, ?_, ?_, ?_, ?_⟩ <;>
    simp (disch := decide) only [R01, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail02.lean ====
/- Recipe 2 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R02 : List (HloOp τ sig (Elt F)) :=
  restOf main_part10_ops4 ++ (main_part10_ops5 ++ (main_part10_ops6 ++ (main_part10_ops7 ++ (main_part10_ops8 ++ (main_part10_ops9 ++ (main_part10_ops10 ++ (main_part10_ops11 ++ (main_part10_ops12 ++ (main_part11_ops0 ++ (main_part11_ops1 ++ (main_part11_ops2 ++ (main_part11_ops3 ++ (firstOf main_part12_ops0)))))))))))))

set_option maxHeartbeats 8000000 in
/-- The running loss after the group. -/
theorem rec02_loss (X : Valuation τ sig (Elt F)) :
    StableHlo.after (R02 (F := F)) X (Proc.devRef .tc main_v523)
      = subf (X (Proc.devRef .tc main_v463))
          (Cert.Val.rTerm ⟨0#32, 6#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R02, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec02_keeps (X : Valuation τ sig (Elt F)) :
    StableHlo.after (R02 (F := F)) X (Proc.devRef .tc main_v25) = X (Proc.devRef .tc main_v25)
    ∧ StableHlo.after (R02 (F := F)) X (Proc.devRef .tc main_v51) = X (Proc.devRef .tc main_v51)
    ∧ StableHlo.after (R02 (F := F)) X (Proc.devRef .tc main_v77) = X (Proc.devRef .tc main_v77)
    ∧ StableHlo.after (R02 (F := F)) X (Proc.devRef .tc main_arg0) = X (Proc.devRef .tc main_arg0)
    ∧ StableHlo.after (R02 (F := F)) X (Proc.devRef .tc main_arg1) = X (Proc.devRef .tc main_arg1)
    ∧ StableHlo.after (R02 (F := F)) X (Proc.devRef .tc main_arg2) = X (Proc.devRef .tc main_arg2) := by
  refine ⟨?_, ?_, ?_, ?_, ?_, ?_⟩ <;>
    simp (disch := decide) only [R02, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail03.lean ====
/- Recipe 3 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R03 : List (HloOp τ sig (Elt F)) :=
  restOf main_part12_ops0 ++ (main_part12_ops1 ++ (main_part12_ops2 ++ (main_part12_ops3 ++ (main_part12_ops4 ++ (main_part12_ops5 ++ (main_part12_ops6 ++ (main_part12_ops7 ++ (main_part12_ops8 ++ (main_part13_ops0 ++ (main_part13_ops1 ++ (main_part13_ops2 ++ (main_part13_ops3 ++ (firstOf main_part13_ops4)))))))))))))

set_option maxHeartbeats 8000000 in
/-- The running loss after the group. -/
theorem rec03_loss (X : Valuation τ sig (Elt F)) :
    StableHlo.after (R03 (F := F)) X (Proc.devRef .tc main_v583)
      = subf (X (Proc.devRef .tc main_v523))
          (Cert.Val.rTerm ⟨0#32, 6#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R03, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec03_keeps (X : Valuation τ sig (Elt F)) :
    StableHlo.after (R03 (F := F)) X (Proc.devRef .tc main_v25) = X (Proc.devRef .tc main_v25)
    ∧ StableHlo.after (R03 (F := F)) X (Proc.devRef .tc main_v51) = X (Proc.devRef .tc main_v51)
    ∧ StableHlo.after (R03 (F := F)) X (Proc.devRef .tc main_v77) = X (Proc.devRef .tc main_v77)
    ∧ StableHlo.after (R03 (F := F)) X (Proc.devRef .tc main_arg0) = X (Proc.devRef .tc main_arg0)
    ∧ StableHlo.after (R03 (F := F)) X (Proc.devRef .tc main_arg1) = X (Proc.devRef .tc main_arg1)
    ∧ StableHlo.after (R03 (F := F)) X (Proc.devRef .tc main_arg2) = X (Proc.devRef .tc main_arg2) := by
  refine ⟨?_, ?_, ?_, ?_, ?_, ?_⟩ <;>
    simp (disch := decide) only [R03, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail04.lean ====
/- Recipe 4 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R04 : List (HloOp τ sig (Elt F)) :=
  restOf main_part13_ops4 ++ (main_part13_ops5 ++ (main_part13_ops6 ++ (main_part13_ops7 ++ (main_part13_ops8 ++ (main_part13_ops9 ++ (main_part13_ops10 ++ (main_part13_ops11 ++ (main_part13_ops12 ++ (main_part14_ops0 ++ (main_part14_ops1 ++ (main_part14_ops2 ++ (main_part15_ops0 ++ (main_part15_ops1 ++ (firstOf main_part15_ops2))))))))))))))

set_option maxHeartbeats 8000000 in
/-- The running loss after the group. -/
theorem rec04_loss (X : Valuation τ sig (Elt F)) :
    StableHlo.after (R04 (F := F)) X (Proc.devRef .tc main_v643)
      = subf (X (Proc.devRef .tc main_v583))
          (Cert.Val.rTerm ⟨1#32, 5#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R04, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec04_keeps (X : Valuation τ sig (Elt F)) :
    StableHlo.after (R04 (F := F)) X (Proc.devRef .tc main_v25) = X (Proc.devRef .tc main_v25)
    ∧ StableHlo.after (R04 (F := F)) X (Proc.devRef .tc main_v51) = X (Proc.devRef .tc main_v51)
    ∧ StableHlo.after (R04 (F := F)) X (Proc.devRef .tc main_v77) = X (Proc.devRef .tc main_v77)
    ∧ StableHlo.after (R04 (F := F)) X (Proc.devRef .tc main_arg0) = X (Proc.devRef .tc main_arg0)
    ∧ StableHlo.after (R04 (F := F)) X (Proc.devRef .tc main_arg1) = X (Proc.devRef .tc main_arg1)
    ∧ StableHlo.after (R04 (F := F)) X (Proc.devRef .tc main_arg2) = X (Proc.devRef .tc main_arg2) := by
  refine ⟨?_, ?_, ?_, ?_, ?_, ?_⟩ <;>
    simp (disch := decide) only [R04, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail05.lean ====
/- Recipe 5 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R05 : List (HloOp τ sig (Elt F)) :=
  restOf main_part15_ops2 ++ (main_part15_ops3 ++ (main_part15_ops4 ++ (main_part15_ops5 ++ (main_part15_ops6 ++ (main_part15_ops7 ++ (main_part15_ops8 ++ (main_part15_ops9 ++ (main_part15_ops10 ++ (main_part16_ops0 ++ (main_part16_ops1 ++ (main_part16_ops2 ++ (main_part16_ops3 ++ (firstOf main_part16_ops4)))))))))))))

set_option maxHeartbeats 8000000 in
/-- The running loss after the group. -/
theorem rec05_loss (X : Valuation τ sig (Elt F)) :
    StableHlo.after (R05 (F := F)) X (Proc.devRef .tc main_v703)
      = subf (X (Proc.devRef .tc main_v643))
          (Cert.Val.rTerm ⟨1#32, 5#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R05, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec05_keeps (X : Valuation τ sig (Elt F)) :
    StableHlo.after (R05 (F := F)) X (Proc.devRef .tc main_v25) = X (Proc.devRef .tc main_v25)
    ∧ StableHlo.after (R05 (F := F)) X (Proc.devRef .tc main_v51) = X (Proc.devRef .tc main_v51)
    ∧ StableHlo.after (R05 (F := F)) X (Proc.devRef .tc main_v77) = X (Proc.devRef .tc main_v77)
    ∧ StableHlo.after (R05 (F := F)) X (Proc.devRef .tc main_arg0) = X (Proc.devRef .tc main_arg0)
    ∧ StableHlo.after (R05 (F := F)) X (Proc.devRef .tc main_arg1) = X (Proc.devRef .tc main_arg1)
    ∧ StableHlo.after (R05 (F := F)) X (Proc.devRef .tc main_arg2) = X (Proc.devRef .tc main_arg2) := by
  refine ⟨?_, ?_, ?_, ?_, ?_, ?_⟩ <;>
    simp (disch := decide) only [R05, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail06.lean ====
/- Recipe 6 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R06 : List (HloOp τ sig (Elt F)) :=
  restOf main_part16_ops4 ++ (main_part16_ops5 ++ (main_part16_ops6 ++ (main_part16_ops7 ++ (main_part16_ops8 ++ (main_part16_ops9 ++ (main_part16_ops10 ++ (main_part17_ops0 ++ (main_part17_ops1 ++ (main_part17_ops2 ++ (main_part17_ops3 ++ (main_part18_ops0 ++ (main_part18_ops1 ++ (firstOf main_part18_ops2)))))))))))))

set_option maxHeartbeats 8000000 in
/-- The running loss after the group. -/
theorem rec06_loss (X : Valuation τ sig (Elt F)) :
    StableHlo.after (R06 (F := F)) X (Proc.devRef .tc main_v763)
      = subf (X (Proc.devRef .tc main_v703))
          (Cert.Val.rTerm ⟨1#32, 6#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R06, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec06_keeps (X : Valuation τ sig (Elt F)) :
    StableHlo.after (R06 (F := F)) X (Proc.devRef .tc main_v25) = X (Proc.devRef .tc main_v25)
    ∧ StableHlo.after (R06 (F := F)) X (Proc.devRef .tc main_v51) = X (Proc.devRef .tc main_v51)
    ∧ StableHlo.after (R06 (F := F)) X (Proc.devRef .tc main_v77) = X (Proc.devRef .tc main_v77)
    ∧ StableHlo.after (R06 (F := F)) X (Proc.devRef .tc main_arg0) = X (Proc.devRef .tc main_arg0)
    ∧ StableHlo.after (R06 (F := F)) X (Proc.devRef .tc main_arg1) = X (Proc.devRef .tc main_arg1)
    ∧ StableHlo.after (R06 (F := F)) X (Proc.devRef .tc main_arg2) = X (Proc.devRef .tc main_arg2) := by
  refine ⟨?_, ?_, ?_, ?_, ?_, ?_⟩ <;>
    simp (disch := decide) only [R06, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail07.lean ====
/- Recipe 7 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R07 : List (HloOp τ sig (Elt F)) :=
  restOf main_part18_ops2 ++ (main_part18_ops3 ++ (main_part18_ops4 ++ (main_part18_ops5 ++ (main_part18_ops6 ++ (main_part18_ops7 ++ (main_part18_ops8 ++ (main_part18_ops9 ++ (main_part18_ops10 ++ (main_part19_ops0 ++ (main_part19_ops1 ++ (main_part19_ops2 ++ (main_part19_ops3 ++ (firstOf main_part19_ops4)))))))))))))

set_option maxHeartbeats 8000000 in
/-- The running loss after the group. -/
theorem rec07_loss (X : Valuation τ sig (Elt F)) :
    StableHlo.after (R07 (F := F)) X (Proc.devRef .tc main_v823)
      = subf (X (Proc.devRef .tc main_v763))
          (Cert.Val.rTerm ⟨1#32, 6#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R07, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec07_keeps (X : Valuation τ sig (Elt F)) :
    StableHlo.after (R07 (F := F)) X (Proc.devRef .tc main_v25) = X (Proc.devRef .tc main_v25)
    ∧ StableHlo.after (R07 (F := F)) X (Proc.devRef .tc main_v51) = X (Proc.devRef .tc main_v51)
    ∧ StableHlo.after (R07 (F := F)) X (Proc.devRef .tc main_v77) = X (Proc.devRef .tc main_v77)
    ∧ StableHlo.after (R07 (F := F)) X (Proc.devRef .tc main_arg0) = X (Proc.devRef .tc main_arg0)
    ∧ StableHlo.after (R07 (F := F)) X (Proc.devRef .tc main_arg1) = X (Proc.devRef .tc main_arg1)
    ∧ StableHlo.after (R07 (F := F)) X (Proc.devRef .tc main_arg2) = X (Proc.devRef .tc main_arg2) := by
  refine ⟨?_, ?_, ?_, ?_, ?_, ?_⟩ <;>
    simp (disch := decide) only [R07, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail08.lean ====
/- Recipe 8 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R08 : List (HloOp τ sig (Elt F)) :=
  restOf main_part19_ops4 ++ (main_part19_ops5 ++ (main_part19_ops6 ++ (main_part19_ops7 ++ (main_part19_ops8 ++ (main_part19_ops9 ++ (main_part19_ops10 ++ (main_part20_ops0 ++ (main_part20_ops1 ++ (main_part20_ops2 ++ (main_part20_ops3 ++ (main_part20_ops4 ++ (main_part21_ops0 ++ (main_part21_ops1 ++ (firstOf main_part21_ops2))))))))))))))

set_option maxHeartbeats 8000000 in
/-- The running loss after the group. -/
theorem rec08_loss (X : Valuation τ sig (Elt F)) :
    StableHlo.after (R08 (F := F)) X (Proc.devRef .tc main_v883)
      = subf (X (Proc.devRef .tc main_v823))
          (Cert.Val.rTerm ⟨2#32, 4#32, 1#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R08, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec08_keeps (X : Valuation τ sig (Elt F)) :
    StableHlo.after (R08 (F := F)) X (Proc.devRef .tc main_v25) = X (Proc.devRef .tc main_v25)
    ∧ StableHlo.after (R08 (F := F)) X (Proc.devRef .tc main_v51) = X (Proc.devRef .tc main_v51)
    ∧ StableHlo.after (R08 (F := F)) X (Proc.devRef .tc main_v77) = X (Proc.devRef .tc main_v77)
    ∧ StableHlo.after (R08 (F := F)) X (Proc.devRef .tc main_arg0) = X (Proc.devRef .tc main_arg0)
    ∧ StableHlo.after (R08 (F := F)) X (Proc.devRef .tc main_arg1) = X (Proc.devRef .tc main_arg1)
    ∧ StableHlo.after (R08 (F := F)) X (Proc.devRef .tc main_arg2) = X (Proc.devRef .tc main_arg2) := by
  refine ⟨?_, ?_, ?_, ?_, ?_, ?_⟩ <;>
    simp (disch := decide) only [R08, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail09.lean ====
/- Recipe 9 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R09 : List (HloOp τ sig (Elt F)) :=
  restOf main_part21_ops2 ++ (main_part21_ops3 ++ (main_part21_ops4 ++ (main_part21_ops5 ++ (main_part21_ops6 ++ (main_part21_ops7 ++ (main_part21_ops8 ++ (main_part21_ops9 ++ (main_part21_ops10 ++ (main_part22_ops0 ++ (main_part22_ops1 ++ (main_part22_ops2 ++ (main_part22_ops3 ++ (firstOf main_part22_ops4)))))))))))))

set_option maxHeartbeats 8000000 in
/-- The running loss after the group. -/
theorem rec09_loss (X : Valuation τ sig (Elt F)) :
    StableHlo.after (R09 (F := F)) X (Proc.devRef .tc main_v943)
      = subf (X (Proc.devRef .tc main_v883))
          (Cert.Val.rTerm ⟨2#32, 4#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R09, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec09_keeps (X : Valuation τ sig (Elt F)) :
    StableHlo.after (R09 (F := F)) X (Proc.devRef .tc main_v25) = X (Proc.devRef .tc main_v25)
    ∧ StableHlo.after (R09 (F := F)) X (Proc.devRef .tc main_v51) = X (Proc.devRef .tc main_v51)
    ∧ StableHlo.after (R09 (F := F)) X (Proc.devRef .tc main_v77) = X (Proc.devRef .tc main_v77)
    ∧ StableHlo.after (R09 (F := F)) X (Proc.devRef .tc main_arg0) = X (Proc.devRef .tc main_arg0)
    ∧ StableHlo.after (R09 (F := F)) X (Proc.devRef .tc main_arg1) = X (Proc.devRef .tc main_arg1)
    ∧ StableHlo.after (R09 (F := F)) X (Proc.devRef .tc main_arg2) = X (Proc.devRef .tc main_arg2) := by
  refine ⟨?_, ?_, ?_, ?_, ?_, ?_⟩ <;>
    simp (disch := decide) only [R09, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail10.lean ====
/- Recipe 10 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R10 : List (HloOp τ sig (Elt F)) :=
  restOf main_part22_ops4 ++ (main_part22_ops5 ++ (main_part22_ops6 ++ (main_part22_ops7 ++ (main_part22_ops8 ++ (main_part23_ops0 ++ (main_part23_ops1 ++ (main_part23_ops2 ++ (main_part23_ops3 ++ (main_part24_ops0 ++ (main_part24_ops1 ++ (main_part24_ops2 ++ (firstOf main_part24_ops3))))))))))))

set_option maxHeartbeats 8000000 in
/-- The running loss after the group. -/
theorem rec10_loss (X : Valuation τ sig (Elt F)) :
    StableHlo.after (R10 (F := F)) X (Proc.devRef .tc main_v1003)
      = subf (X (Proc.devRef .tc main_v943))
          (Cert.Val.rTerm ⟨2#32, 5#32, 0#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R10, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec10_keeps (X : Valuation τ sig (Elt F)) :
    StableHlo.after (R10 (F := F)) X (Proc.devRef .tc main_v25) = X (Proc.devRef .tc main_v25)
    ∧ StableHlo.after (R10 (F := F)) X (Proc.devRef .tc main_v51) = X (Proc.devRef .tc main_v51)
    ∧ StableHlo.after (R10 (F := F)) X (Proc.devRef .tc main_v77) = X (Proc.devRef .tc main_v77)
    ∧ StableHlo.after (R10 (F := F)) X (Proc.devRef .tc main_arg0) = X (Proc.devRef .tc main_arg0)
    ∧ StableHlo.after (R10 (F := F)) X (Proc.devRef .tc main_arg1) = X (Proc.devRef .tc main_arg1)
    ∧ StableHlo.after (R10 (F := F)) X (Proc.devRef .tc main_arg2) = X (Proc.devRef .tc main_arg2) := by
  refine ⟨?_, ?_, ?_, ?_, ?_, ?_⟩ <;>
    simp (disch := decide) only [R10, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail11.lean ====
/- Recipe 11 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R11 : List (HloOp τ sig (Elt F)) :=
  restOf main_part24_ops3 ++ (main_part24_ops4 ++ (main_part24_ops5 ++ (main_part24_ops6 ++ (main_part24_ops7 ++ (main_part24_ops8 ++ (main_part24_ops9 ++ (main_part24_ops10 ++ (main_part24_ops11 ++ (main_part25_ops0 ++ (main_part25_ops1 ++ (main_part25_ops2 ++ (main_part25_ops3 ++ (firstOf main_part25_ops4)))))))))))))

set_option maxHeartbeats 8000000 in
/-- The running loss after the group. -/
theorem rec11_loss (X : Valuation τ sig (Elt F)) :
    StableHlo.after (R11 (F := F)) X (Proc.devRef .tc main_v1063)
      = subf (X (Proc.devRef .tc main_v1003))
          (Cert.Val.rTerm ⟨2#32, 5#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R11, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec11_keeps (X : Valuation τ sig (Elt F)) :
    StableHlo.after (R11 (F := F)) X (Proc.devRef .tc main_v25) = X (Proc.devRef .tc main_v25)
    ∧ StableHlo.after (R11 (F := F)) X (Proc.devRef .tc main_v51) = X (Proc.devRef .tc main_v51)
    ∧ StableHlo.after (R11 (F := F)) X (Proc.devRef .tc main_v77) = X (Proc.devRef .tc main_v77)
    ∧ StableHlo.after (R11 (F := F)) X (Proc.devRef .tc main_arg0) = X (Proc.devRef .tc main_arg0)
    ∧ StableHlo.after (R11 (F := F)) X (Proc.devRef .tc main_arg1) = X (Proc.devRef .tc main_arg1)
    ∧ StableHlo.after (R11 (F := F)) X (Proc.devRef .tc main_arg2) = X (Proc.devRef .tc main_arg2) := by
  refine ⟨?_, ?_, ?_, ?_, ?_, ?_⟩ <;>
    simp (disch := decide) only [R11, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail12.lean ====
/- Recipe 12 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R12 : List (HloOp τ sig (Elt F)) :=
  restOf main_part25_ops4 ++ (main_part25_ops5 ++ (main_part25_ops6 ++ (main_part25_ops7 ++ (main_part25_ops8 ++ (main_part26_ops0 ++ (main_part26_ops1 ++ (main_part26_ops2 ++ (main_part26_ops3 ++ (main_part26_ops4 ++ (main_part27_ops0 ++ (main_part27_ops1 ++ (main_part27_ops2 ++ (main_part27_ops3 ++ (firstOf main_part27_ops4))))))))))))))

set_option maxHeartbeats 8000000 in
/-- The running loss after the group. -/
theorem rec12_loss (X : Valuation τ sig (Elt F)) :
    StableHlo.after (R12 (F := F)) X (Proc.devRef .tc main_v1123)
      = subf (X (Proc.devRef .tc main_v1063))
          (Cert.Val.rTerm ⟨4#32, 0#32, 1#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R12, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec12_keeps (X : Valuation τ sig (Elt F)) :
    StableHlo.after (R12 (F := F)) X (Proc.devRef .tc main_v25) = X (Proc.devRef .tc main_v25)
    ∧ StableHlo.after (R12 (F := F)) X (Proc.devRef .tc main_v51) = X (Proc.devRef .tc main_v51)
    ∧ StableHlo.after (R12 (F := F)) X (Proc.devRef .tc main_v77) = X (Proc.devRef .tc main_v77)
    ∧ StableHlo.after (R12 (F := F)) X (Proc.devRef .tc main_arg0) = X (Proc.devRef .tc main_arg0)
    ∧ StableHlo.after (R12 (F := F)) X (Proc.devRef .tc main_arg1) = X (Proc.devRef .tc main_arg1)
    ∧ StableHlo.after (R12 (F := F)) X (Proc.devRef .tc main_arg2) = X (Proc.devRef .tc main_arg2) := by
  refine ⟨?_, ?_, ?_, ?_, ?_, ?_⟩ <;>
    simp (disch := decide) only [R12, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail13.lean ====
/- Recipe 13 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R13 : List (HloOp τ sig (Elt F)) :=
  restOf main_part27_ops4 ++ (main_part27_ops5 ++ (main_part27_ops6 ++ (main_part27_ops7 ++ (main_part27_ops8 ++ (main_part27_ops9 ++ (main_part27_ops10 ++ (main_part27_ops11 ++ (main_part27_ops12 ++ (main_part28_ops0 ++ (main_part28_ops1 ++ (main_part28_ops2 ++ (main_part28_ops3 ++ (firstOf main_part28_ops4)))))))))))))

set_option maxHeartbeats 8000000 in
/-- The running loss after the group. -/
theorem rec13_loss (X : Valuation τ sig (Elt F)) :
    StableHlo.after (R13 (F := F)) X (Proc.devRef .tc main_v1183)
      = subf (X (Proc.devRef .tc main_v1123))
          (Cert.Val.rTerm ⟨4#32, 0#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R13, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec13_keeps (X : Valuation τ sig (Elt F)) :
    StableHlo.after (R13 (F := F)) X (Proc.devRef .tc main_v25) = X (Proc.devRef .tc main_v25)
    ∧ StableHlo.after (R13 (F := F)) X (Proc.devRef .tc main_v51) = X (Proc.devRef .tc main_v51)
    ∧ StableHlo.after (R13 (F := F)) X (Proc.devRef .tc main_v77) = X (Proc.devRef .tc main_v77)
    ∧ StableHlo.after (R13 (F := F)) X (Proc.devRef .tc main_arg0) = X (Proc.devRef .tc main_arg0)
    ∧ StableHlo.after (R13 (F := F)) X (Proc.devRef .tc main_arg1) = X (Proc.devRef .tc main_arg1)
    ∧ StableHlo.after (R13 (F := F)) X (Proc.devRef .tc main_arg2) = X (Proc.devRef .tc main_arg2) := by
  refine ⟨?_, ?_, ?_, ?_, ?_, ?_⟩ <;>
    simp (disch := decide) only [R13, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail14.lean ====
/- Recipe 14 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R14 : List (HloOp τ sig (Elt F)) :=
  restOf main_part28_ops4 ++ (main_part28_ops5 ++ (main_part28_ops6 ++ (main_part29_ops0 ++ (main_part29_ops1 ++ (main_part29_ops2 ++ (main_part29_ops3 ++ (main_part29_ops4 ++ (main_part29_ops5 ++ (main_part30_ops0 ++ (main_part30_ops1 ++ (main_part30_ops2 ++ (main_part30_ops3 ++ (firstOf main_part30_ops4)))))))))))))

set_option maxHeartbeats 8000000 in
/-- The running loss after the group. -/
theorem rec14_loss (X : Valuation τ sig (Elt F)) :
    StableHlo.after (R14 (F := F)) X (Proc.devRef .tc main_v1243)
      = subf (X (Proc.devRef .tc main_v1183))
          (Cert.Val.rTerm ⟨4#32, 2#32, 1#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R14, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec14_keeps (X : Valuation τ sig (Elt F)) :
    StableHlo.after (R14 (F := F)) X (Proc.devRef .tc main_v25) = X (Proc.devRef .tc main_v25)
    ∧ StableHlo.after (R14 (F := F)) X (Proc.devRef .tc main_v51) = X (Proc.devRef .tc main_v51)
    ∧ StableHlo.after (R14 (F := F)) X (Proc.devRef .tc main_v77) = X (Proc.devRef .tc main_v77)
    ∧ StableHlo.after (R14 (F := F)) X (Proc.devRef .tc main_arg0) = X (Proc.devRef .tc main_arg0)
    ∧ StableHlo.after (R14 (F := F)) X (Proc.devRef .tc main_arg1) = X (Proc.devRef .tc main_arg1)
    ∧ StableHlo.after (R14 (F := F)) X (Proc.devRef .tc main_arg2) = X (Proc.devRef .tc main_arg2) := by
  refine ⟨?_, ?_, ?_, ?_, ?_, ?_⟩ <;>
    simp (disch := decide) only [R14, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail15.lean ====
/- Recipe 15 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R15 : List (HloOp τ sig (Elt F)) :=
  restOf main_part30_ops4 ++ (main_part30_ops5 ++ (main_part30_ops6 ++ (main_part30_ops7 ++ (main_part30_ops8 ++ (main_part30_ops9 ++ (main_part30_ops10 ++ (main_part30_ops11 ++ (main_part30_ops12 ++ (main_part31_ops0 ++ (main_part31_ops1 ++ (main_part31_ops2 ++ (main_part31_ops3 ++ (firstOf main_part31_ops4)))))))))))))

set_option maxHeartbeats 8000000 in
/-- The running loss after the group. -/
theorem rec15_loss (X : Valuation τ sig (Elt F)) :
    StableHlo.after (R15 (F := F)) X (Proc.devRef .tc main_v1303)
      = subf (X (Proc.devRef .tc main_v1243))
          (Cert.Val.rTerm ⟨4#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R15, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec15_keeps (X : Valuation τ sig (Elt F)) :
    StableHlo.after (R15 (F := F)) X (Proc.devRef .tc main_v25) = X (Proc.devRef .tc main_v25)
    ∧ StableHlo.after (R15 (F := F)) X (Proc.devRef .tc main_v51) = X (Proc.devRef .tc main_v51)
    ∧ StableHlo.after (R15 (F := F)) X (Proc.devRef .tc main_v77) = X (Proc.devRef .tc main_v77)
    ∧ StableHlo.after (R15 (F := F)) X (Proc.devRef .tc main_arg0) = X (Proc.devRef .tc main_arg0)
    ∧ StableHlo.after (R15 (F := F)) X (Proc.devRef .tc main_arg1) = X (Proc.devRef .tc main_arg1)
    ∧ StableHlo.after (R15 (F := F)) X (Proc.devRef .tc main_arg2) = X (Proc.devRef .tc main_arg2) := by
  refine ⟨?_, ?_, ?_, ?_, ?_, ?_⟩ <;>
    simp (disch := decide) only [R15, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail16.lean ====
/- Recipe 16 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R16 : List (HloOp τ sig (Elt F)) :=
  restOf main_part31_ops4 ++ (main_part31_ops5 ++ (main_part31_ops6 ++ (main_part32_ops0 ++ (main_part32_ops1 ++ (main_part32_ops2 ++ (main_part32_ops3 ++ (main_part32_ops4 ++ (main_part32_ops5 ++ (main_part32_ops6 ++ (main_part33_ops0 ++ (main_part33_ops1 ++ (main_part33_ops2 ++ (main_part33_ops3 ++ (firstOf main_part33_ops4))))))))))))))

set_option maxHeartbeats 8000000 in
/-- The running loss after the group. -/
theorem rec16_loss (X : Valuation τ sig (Elt F)) :
    StableHlo.after (R16 (F := F)) X (Proc.devRef .tc main_v1363)
      = subf (X (Proc.devRef .tc main_v1303))
          (Cert.Val.rTerm ⟨5#32, 1#32, 0#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R16, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec16_keeps (X : Valuation τ sig (Elt F)) :
    StableHlo.after (R16 (F := F)) X (Proc.devRef .tc main_v25) = X (Proc.devRef .tc main_v25)
    ∧ StableHlo.after (R16 (F := F)) X (Proc.devRef .tc main_v51) = X (Proc.devRef .tc main_v51)
    ∧ StableHlo.after (R16 (F := F)) X (Proc.devRef .tc main_v77) = X (Proc.devRef .tc main_v77)
    ∧ StableHlo.after (R16 (F := F)) X (Proc.devRef .tc main_arg0) = X (Proc.devRef .tc main_arg0)
    ∧ StableHlo.after (R16 (F := F)) X (Proc.devRef .tc main_arg1) = X (Proc.devRef .tc main_arg1)
    ∧ StableHlo.after (R16 (F := F)) X (Proc.devRef .tc main_arg2) = X (Proc.devRef .tc main_arg2) := by
  refine ⟨?_, ?_, ?_, ?_, ?_, ?_⟩ <;>
    simp (disch := decide) only [R16, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail17.lean ====
/- Recipe 17 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R17 : List (HloOp τ sig (Elt F)) :=
  restOf main_part33_ops4 ++ (main_part33_ops5 ++ (main_part33_ops6 ++ (main_part33_ops7 ++ (main_part33_ops8 ++ (main_part33_ops9 ++ (main_part33_ops10 ++ (main_part33_ops11 ++ (main_part33_ops12 ++ (main_part34_ops0 ++ (main_part34_ops1 ++ (main_part34_ops2 ++ (main_part34_ops3 ++ (firstOf main_part34_ops4)))))))))))))

set_option maxHeartbeats 8000000 in
/-- The running loss after the group. -/
theorem rec17_loss (X : Valuation τ sig (Elt F)) :
    StableHlo.after (R17 (F := F)) X (Proc.devRef .tc main_v1423)
      = subf (X (Proc.devRef .tc main_v1363))
          (Cert.Val.rTerm ⟨5#32, 1#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R17, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec17_keeps (X : Valuation τ sig (Elt F)) :
    StableHlo.after (R17 (F := F)) X (Proc.devRef .tc main_v25) = X (Proc.devRef .tc main_v25)
    ∧ StableHlo.after (R17 (F := F)) X (Proc.devRef .tc main_v51) = X (Proc.devRef .tc main_v51)
    ∧ StableHlo.after (R17 (F := F)) X (Proc.devRef .tc main_v77) = X (Proc.devRef .tc main_v77)
    ∧ StableHlo.after (R17 (F := F)) X (Proc.devRef .tc main_arg0) = X (Proc.devRef .tc main_arg0)
    ∧ StableHlo.after (R17 (F := F)) X (Proc.devRef .tc main_arg1) = X (Proc.devRef .tc main_arg1)
    ∧ StableHlo.after (R17 (F := F)) X (Proc.devRef .tc main_arg2) = X (Proc.devRef .tc main_arg2) := by
  refine ⟨?_, ?_, ?_, ?_, ?_, ?_⟩ <;>
    simp (disch := decide) only [R17, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail18.lean ====
/- Recipe 18 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R18 : List (HloOp τ sig (Elt F)) :=
  restOf main_part34_ops4 ++ (main_part34_ops5 ++ (main_part34_ops6 ++ (main_part35_ops0 ++ (main_part35_ops1 ++ (main_part35_ops2 ++ (main_part35_ops3 ++ (main_part35_ops4 ++ (main_part35_ops5 ++ (main_part35_ops6 ++ (main_part36_ops0 ++ (main_part36_ops1 ++ (main_part36_ops2 ++ (main_part36_ops3 ++ (firstOf main_part36_ops4))))))))))))))

set_option maxHeartbeats 8000000 in
/-- The running loss after the group. -/
theorem rec18_loss (X : Valuation τ sig (Elt F)) :
    StableHlo.after (R18 (F := F)) X (Proc.devRef .tc main_v1483)
      = subf (X (Proc.devRef .tc main_v1423))
          (Cert.Val.rTerm ⟨5#32, 2#32, 0#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R18, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec18_keeps (X : Valuation τ sig (Elt F)) :
    StableHlo.after (R18 (F := F)) X (Proc.devRef .tc main_v25) = X (Proc.devRef .tc main_v25)
    ∧ StableHlo.after (R18 (F := F)) X (Proc.devRef .tc main_v51) = X (Proc.devRef .tc main_v51)
    ∧ StableHlo.after (R18 (F := F)) X (Proc.devRef .tc main_v77) = X (Proc.devRef .tc main_v77)
    ∧ StableHlo.after (R18 (F := F)) X (Proc.devRef .tc main_arg0) = X (Proc.devRef .tc main_arg0)
    ∧ StableHlo.after (R18 (F := F)) X (Proc.devRef .tc main_arg1) = X (Proc.devRef .tc main_arg1)
    ∧ StableHlo.after (R18 (F := F)) X (Proc.devRef .tc main_arg2) = X (Proc.devRef .tc main_arg2) := by
  refine ⟨?_, ?_, ?_, ?_, ?_, ?_⟩ <;>
    simp (disch := decide) only [R18, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail19.lean ====
/- Recipe 19 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R19 : List (HloOp τ sig (Elt F)) :=
  restOf main_part36_ops4 ++ (main_part36_ops5 ++ (main_part36_ops6 ++ (main_part36_ops7 ++ (main_part36_ops8 ++ (main_part36_ops9 ++ (main_part36_ops10 ++ (main_part36_ops11 ++ (main_part36_ops12 ++ (main_part37_ops0 ++ (main_part37_ops1 ++ (main_part37_ops2 ++ (main_part37_ops3 ++ (firstOf main_part37_ops4)))))))))))))

set_option maxHeartbeats 8000000 in
/-- The running loss after the group. -/
theorem rec19_loss (X : Valuation τ sig (Elt F)) :
    StableHlo.after (R19 (F := F)) X (Proc.devRef .tc main_v1543)
      = subf (X (Proc.devRef .tc main_v1483))
          (Cert.Val.rTerm ⟨5#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R19, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec19_keeps (X : Valuation τ sig (Elt F)) :
    StableHlo.after (R19 (F := F)) X (Proc.devRef .tc main_v25) = X (Proc.devRef .tc main_v25)
    ∧ StableHlo.after (R19 (F := F)) X (Proc.devRef .tc main_v51) = X (Proc.devRef .tc main_v51)
    ∧ StableHlo.after (R19 (F := F)) X (Proc.devRef .tc main_v77) = X (Proc.devRef .tc main_v77)
    ∧ StableHlo.after (R19 (F := F)) X (Proc.devRef .tc main_arg0) = X (Proc.devRef .tc main_arg0)
    ∧ StableHlo.after (R19 (F := F)) X (Proc.devRef .tc main_arg1) = X (Proc.devRef .tc main_arg1)
    ∧ StableHlo.after (R19 (F := F)) X (Proc.devRef .tc main_arg2) = X (Proc.devRef .tc main_arg2) := by
  refine ⟨?_, ?_, ?_, ?_, ?_, ?_⟩ <;>
    simp (disch := decide) only [R19, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail20.lean ====
/- Recipe 20 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R20 : List (HloOp τ sig (Elt F)) :=
  restOf main_part37_ops4 ++ (main_part38_ops0 ++ (main_part38_ops1 ++ (main_part38_ops2 ++ (main_part38_ops3 ++ (main_part38_ops4 ++ (main_part38_ops5 ++ (main_part38_ops6 ++ (main_part38_ops7 ++ (main_part39_ops0 ++ (main_part39_ops1 ++ (main_part39_ops2 ++ (main_part39_ops3 ++ (firstOf main_part39_ops4)))))))))))))

set_option maxHeartbeats 8000000 in
/-- The running loss after the group. -/
theorem rec20_loss (X : Valuation τ sig (Elt F)) :
    StableHlo.after (R20 (F := F)) X (Proc.devRef .tc main_v1603)
      = subf (X (Proc.devRef .tc main_v1543))
          (Cert.Val.rTerm ⟨2#32, 7#32, 2#32, false, true, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R20, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec20_keeps (X : Valuation τ sig (Elt F)) :
    StableHlo.after (R20 (F := F)) X (Proc.devRef .tc main_v25) = X (Proc.devRef .tc main_v25)
    ∧ StableHlo.after (R20 (F := F)) X (Proc.devRef .tc main_v51) = X (Proc.devRef .tc main_v51)
    ∧ StableHlo.after (R20 (F := F)) X (Proc.devRef .tc main_v77) = X (Proc.devRef .tc main_v77)
    ∧ StableHlo.after (R20 (F := F)) X (Proc.devRef .tc main_arg0) = X (Proc.devRef .tc main_arg0)
    ∧ StableHlo.after (R20 (F := F)) X (Proc.devRef .tc main_arg1) = X (Proc.devRef .tc main_arg1)
    ∧ StableHlo.after (R20 (F := F)) X (Proc.devRef .tc main_arg2) = X (Proc.devRef .tc main_arg2) := by
  refine ⟨?_, ?_, ?_, ?_, ?_, ?_⟩ <;>
    simp (disch := decide) only [R20, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTail21.lean ====
/- Recipe 21 of the 22 negative recipes, in the reference's host operations.
   The group runs from the recipe's first code constant to the subtraction that ends it: the recipe's mask is formed
   from the three code vectors; its running count is a padded window sum; the last running count says whether a row
   is selected; the first row at which the running count equals one or two is the first or second selected row; one
   row of each volume array is read there; and the recipe's term is subtracted from the running loss. The running
   loss after the group is the running loss before it minus the recipe's term, and the group leaves the code vectors
   and the volume arrays as they were. -/
import proofs.«404644_j25400436588780_1_alg».proof.Proof.Rf.Opss
import proofs.«404644_j25400436588780_1_alg».proof.Proof.Val.RTerms
import proofs.«404644_j25400436588780_1_alg».proof.Proof.Val.Cut
import proofs.«404644_j25400436588780_1_alg».proof.Proof.Val.RCast

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons unaryIndexed2_result castSame)

variable {F : FTy → Type} [FloatOps F]

/-- The operations of the group: from the recipe's first code constant through the subtraction that ends it. -/
abbrev R21 : List (HloOp τ sig (Elt F)) :=
  restOf main_part39_ops4 ++ (main_part39_ops5 ++ (main_part39_ops6 ++ (main_part39_ops7 ++ (main_part39_ops8 ++ (main_part39_ops9 ++ (main_part39_ops10 ++ (main_part39_ops11 ++ (main_part39_ops12 ++ (main_part40_ops0 ++ (main_part40_ops1 ++ (main_part40_ops2 ++ (main_part40_ops3 ++ (firstOf main_part40_ops4)))))))))))))

set_option maxHeartbeats 8000000 in
/-- The running loss after the group. -/
theorem rec21_loss (X : Valuation τ sig (Elt F)) :
    StableHlo.after (R21 (F := F)) X (Proc.devRef .tc main_v1663)
      = subf (X (Proc.devRef .tc main_v1603))
          (Cert.Val.rTerm ⟨7#32, 2#32, 2#32, true, false, false⟩ (X (Proc.devRef .tc main_v25)) (X (Proc.devRef .tc main_v51)) (X (Proc.devRef .tc main_v77)) (X (Proc.devRef .tc main_arg0)) (X (Proc.devRef .tc main_arg1)) (X (Proc.devRef .tc main_arg2))) := by
  simp (disch := decide) only [R21, after_append, firstOf_cons, restOf_cons, StableHlo.after_cons, StableHlo.after_nil,
    StableHlo.nullary_result', StableHlo.unary_result', StableHlo.binary_result', StableHlo.ternary_result',
    StableHlo.quaternary_result', StableHlo.reshape_result', unaryIndexed2_result,
    StableHlo.nullary_result_ne', StableHlo.unary_result_ne', StableHlo.binary_result_ne', StableHlo.ternary_result_ne',
    StableHlo.quaternary_result_ne', StableHlo.reshape_result_ne', StableHlo.unaryIndexed_result_ne',
    StableHlo.TRef.toBuf, StableHlo.TRef.ofBuf, castSame]
  rfl

set_option maxHeartbeats 8000000 in
/-- The group leaves the code vectors and the volume arrays as they were. -/
theorem rec21_keeps (X : Valuation τ sig (Elt F)) :
    StableHlo.after (R21 (F := F)) X (Proc.devRef .tc main_v25) = X (Proc.devRef .tc main_v25)
    ∧ StableHlo.after (R21 (F := F)) X (Proc.devRef .tc main_v51) = X (Proc.devRef .tc main_v51)
    ∧ StableHlo.after (R21 (F := F)) X (Proc.devRef .tc main_v77) = X (Proc.devRef .tc main_v77)
    ∧ StableHlo.after (R21 (F := F)) X (Proc.devRef .tc main_arg0) = X (Proc.devRef .tc main_arg0)
    ∧ StableHlo.after (R21 (F := F)) X (Proc.devRef .tc main_arg1) = X (Proc.devRef .tc main_arg1)
    ∧ StableHlo.after (R21 (F := F)) X (Proc.devRef .tc main_arg2) = X (Proc.devRef .tc main_arg2) := by
  refine ⟨?_, ?_, ?_, ?_, ?_, ?_⟩ <;>
    simp (disch := decide) only [R21, after_append, firstOf_cons, restOf_cons, StableHlo.after_cons, StableHlo.after_nil,
    StableHlo.nullary_result_ne', StableHlo.unary_result_ne', StableHlo.binary_result_ne', StableHlo.ternary_result_ne',
    StableHlo.quaternary_result_ne', StableHlo.reshape_result_ne', StableHlo.unaryIndexed_result_ne']

end Cert.ReferenceIdeal.Tl

end
-- ==== Proof.Val.RTailChain.lean ====
/- The 22 negative recipes of the reference, one after the other.
   Each recipe's group of operations subtracts the recipe's term from the running loss and leaves the code vectors and
   the volume arrays as they were; so after the groups in order the running loss is the starting loss minus the 22
   terms, in order, each term computed from the contents before the first group. The groups in order are the
   operations that follow the 14th positive recipe's last subtraction, through the end of the program. -/
import proofs.«404644_j25400436588780_1_alg».proof.Proof.Val.RTail00
import proofs.«404644_j25400436588780_1_alg».proof.Proof.Val.RTail01
import proofs.«404644_j25400436588780_1_alg».proof.Proof.Val.RTail02
import proofs.«404644_j25400436588780_1_alg».proof.Proof.Val.RTail03
import proofs.«404644_j25400436588780_1_alg».proof.Proof.Val.RTail04
import proofs.«404644_j25400436588780_1_alg».proof.Proof.Val.RTail05
import proofs.«404644_j25400436588780_1_alg».proof.Proof.Val.RTail06
import proofs.«404644_j25400436588780_1_alg».proof.Proof.Val.RTail07
import proofs.«404644_j25400436588780_1_alg».proof.Proof.Val.RTail08
import proofs.«404644_j25400436588780_1_alg».proof.Proof.Val.RTail09
import proofs.«404644_j25400436588780_1_alg».proof.Proof.Val.RTail10
import proofs.«404644_j25400436588780_1_alg».proof.Proof.Val.RTail11
import proofs.«404644_j25400436588780_1_alg».proof.Proof.Val.RTail12
import proofs.«404644_j25400436588780_1_alg».proof.Proof.Val.RTail13
import proofs.«404644_j25400436588780_1_alg».proof.Proof.Val.RTail14
import proofs.«404644_j25400436588780_1_alg».proof.Proof.Val.RTail15
import proofs.«404644_j25400436588780_1_alg».proof.Proof.Val.RTail16
import proofs.«404644_j25400436588780_1_alg».proof.Proof.Val.RTail17
import proofs.«404644_j25400436588780_1_alg».proof.Proof.Val.RTail18
import proofs.«404644_j25400436588780_1_alg».proof.Proof.Val.RTail19
import proofs.«404644_j25400436588780_1_alg».proof.Proof.Val.RTail20
import proofs.«404644_j25400436588780_1_alg».proof.Proof.Val.RTail21
import proofs.«404644_j25400436588780_1_alg».proof.Proof.Val.PsOps
import proofs.«404644_j25400436588780_1_alg».proof.Proof.Rf.Split

set_option maxRecDepth 16384

noncomputable section

namespace Cert.ReferenceIdeal.Tl

open Idealize.ShloMosaic Idealize.ShloMosaic.TcCoe
open Idealize.SL Idealize.SL.Sem
open Cert.ReferenceIdeal Cert.ReferenceIdeal.Gen Cert.ReferenceIdeal.Rn
open Cert.Val (after_append firstOf restOf firstOf_cons restOf_cons firstOf_append_restOf_append Recipe rTerm rLossOf lossOf recipes)
open Cert.Pick (S0)

variable {F : FTy → Type} [FloatOps F]

/-! ## One group after another -/

/-- A recipe's term, read from the code vectors and the volume arrays of given contents. -/
def termAt (r : Recipe) (X : Valuation τ sig (Elt F)) : S0.Idx → F .f32 :=
  rTerm r (X (Proc.devRef .tc main_v25)) (X (Proc.devRef .tc main_v51)) (X (Proc.devRef .tc main_v77))
    (X (Proc.devRef .tc main_arg0)) (X (Proc.devRef .tc main_arg1)) (X (Proc.devRef .tc main_arg2))

/-- The operations leave the code vectors and the volume arrays as they were. -/
def Keeps (R : List (HloOp τ sig (Elt F))) : Prop :=
  ∀ X : Valuation τ sig (Elt F),
    StableHlo.after R X (Proc.devRef .tc main_v25) = X (Proc.devRef .tc main_v25)
    ∧ StableHlo.after R X (Proc.devRef .tc main_v51) = X (Proc.devRef .tc main_v51)
    ∧ StableHlo.after R X (Proc.devRef .tc main_v77) = X (Proc.devRef .tc main_v77)
    ∧ StableHlo.after R X (Proc.devRef .tc main_arg0) = X (Proc.devRef .tc main_arg0)
    ∧ StableHlo.after R X (Proc.devRef .tc main_arg1) = X (Proc.devRef .tc main_arg1)
    ∧ StableHlo.after R X (Proc.devRef .tc main_arg2) = X (Proc.devRef .tc main_arg2)

/-- A term read after operations that keep what it reads is the term read before them. -/
theorem termAt_after {R : List (HloOp τ sig (Elt F))} (hk : Keeps R) (r : Recipe) (X : Valuation τ sig (Elt F)) :
    termAt r (StableHlo.after R X) = termAt r X := by
  obtain ⟨h1, h2, h3, h4, h5, h6⟩ := hk X
  unfold termAt
  rw [h1, h2, h3, h4, h5, h6]

theorem Keeps.nil : Keeps ([] : List (HloOp τ sig (Elt F))) := fun _ => ⟨rfl, rfl, rfl, rfl, rfl, rfl⟩

/-- Two lines that each keep the code vectors and the volume arrays keep them when run in turn. -/
theorem Keeps.append {R₁ R₂ : List (HloOp τ sig (Elt F))} (h₁ : Keeps R₁) (h₂ : Keeps R₂) : Keeps (R₁ ++ R₂) := by
  intro X
  obtain ⟨a1, a2, a3, a4, a5, a6⟩ := h₁ X
  obtain ⟨b1, b2, b3, b4, b5, b6⟩ := h₂ (StableHlo.after R₁ X)
  rw [after_append]
  exact ⟨b1.trans a1, b2.trans a2, b3.trans a3, b4.trans a4, b5.trans a5, b6.trans a6⟩

/-- The operations `R` take the scalar read by `gin` to the scalar read by `gout` minus the recipe's term. -/
def Step (R : List (HloOp τ sig (Elt F))) (gin gout : Valuation τ sig (Elt F) → S0.Idx → F .f32) (r : Recipe) : Prop :=
  ∀ X : Valuation τ sig (Elt F), gout (StableHlo.after R X) = subf (gin X) (termAt r X)

/-- After the operations `R` the scalar read by `gout` is the starting loss minus the terms of `rs`, in order, and
    the code vectors and the volume arrays are as they were. -/
def Inv (R : List (HloOp τ sig (Elt F))) (gout : Valuation τ sig (Elt F) → S0.Idx → F .f32) (rs : List Recipe) : Prop :=
  (∀ X : Valuation τ sig (Elt F),
    gout (StableHlo.after R X) = rs.foldl (fun l r => subf l (termAt r X)) (X (Proc.devRef .tc main_v343)))
  ∧ Keeps R

theorem Inv.nil : Inv ([] : List (HloOp τ sig (Elt F))) (fun X => X (Proc.devRef .tc main_v343)) [] :=
  ⟨fun _ => rfl, Keeps.nil⟩

/-- One more group: the running loss after it is the running loss before it minus its recipe's term. -/
theorem Inv.snoc {Rs : List (HloOp τ sig (Elt F))} {gin : Valuation τ sig (Elt F) → S0.Idx → F .f32}
    {rs : List Recipe} (h : Inv Rs gin rs) (R : List (HloOp τ sig (Elt F)))
    (gout : Valuation τ sig (Elt F) → S0.Idx → F .f32) (r : Recipe) (hs : Step R gin gout r) (hk : Keeps R) :
    Inv (Rs ++ R) gout (rs ++ [r]) := by
  refine ⟨fun X => ?_, h.2.append hk⟩
  rw [after_append, hs (StableHlo.after Rs X), h.1 X, termAt_after h.2, List.foldl_append]
  rfl

/-- The same invariant of an equal line of operations and an equal list of recipes. -/
theorem Inv.of_eq {R R' : List (HloOp τ sig (Elt F))} {g : Valuation τ sig (Elt F) → S0.Idx → F .f32}
    {rs rs' : List Recipe} (h : Inv R g rs) (hR : R = R') (hrs : rs = rs') : Inv R' g rs' := by
  subst hR hrs
  exact h

/-! ## The 22 groups -/

/-- The first group starts with the operations that follow the 14th positive recipe's last subtraction in its
    stretch. -/
theorem rec0Head_eq : restOf (restOf (restOf (main_part7_ops3 (F := F)))) = Ps.posTail := rfl

/-- The last stretch is one operation. -/
theorem lastStretch_eq : firstOf (main_part40_ops4 (F := F)) = main_part40_ops4 := rfl

/-- After the 22 groups in order — the operations that follow the 14th positive recipe's last subtraction: the rest
    of its stretch, then the remaining stretches — the loss is the starting loss minus the 22 recipes' terms, in
    order, and the code vectors and the volume arrays are as they were. -/
theorem rtail_inv :
    Inv (F := F) (Ps.posTail ++ (As.negG : List (List (HloOp τ sig (Elt F)))).flatten)
      (fun X => X (Proc.devRef .tc main_v1663)) recipes := by
  have h := Inv.nil (F := F)
  have h := h.snoc R00 (fun X => X (Proc.devRef .tc main_v403)) ⟨0#32, 4#32, 1#32, false, true, false⟩ rec00_loss rec00_keeps
  have h := h.snoc R01 (fun X => X (Proc.devRef .tc main_v463)) ⟨0#32, 4#32, 2#32, false, true, false⟩ rec01_loss rec01_keeps
  have h := h.snoc R02 (fun X => X (Proc.devRef .tc main_v523)) ⟨0#32, 6#32, 1#32, false, true, false⟩ rec02_loss rec02_keeps
  have h := h.snoc R03 (fun X => X (Proc.devRef .tc main_v583)) ⟨0#32, 6#32, 2#32, false, true, false⟩ rec03_loss rec03_keeps
  have h := h.snoc R04 (fun X => X (Proc.devRef .tc main_v643)) ⟨1#32, 5#32, 0#32, false, true, false⟩ rec04_loss rec04_keeps
  have h := h.snoc R05 (fun X => X (Proc.devRef .tc main_v703)) ⟨1#32, 5#32, 2#32, false, true, false⟩ rec05_loss rec05_keeps
  have h := h.snoc R06 (fun X => X (Proc.devRef .tc main_v763)) ⟨1#32, 6#32, 0#32, false, true, false⟩ rec06_loss rec06_keeps
  have h := h.snoc R07 (fun X => X (Proc.devRef .tc main_v823)) ⟨1#32, 6#32, 2#32, false, true, false⟩ rec07_loss rec07_keeps
  have h := h.snoc R08 (fun X => X (Proc.devRef .tc main_v883)) ⟨2#32, 4#32, 1#32, false, true, false⟩ rec08_loss rec08_keeps
  have h := h.snoc R09 (fun X => X (Proc.devRef .tc main_v943)) ⟨2#32, 4#32, 2#32, false, true, false⟩ rec09_loss rec09_keeps
  have h := h.snoc R10 (fun X => X (Proc.devRef .tc main_v1003)) ⟨2#32, 5#32, 0#32, false, true, false⟩ rec10_loss rec10_keeps
  have h := h.snoc R11 (fun X => X (Proc.devRef .tc main_v1063)) ⟨2#32, 5#32, 2#32, false, true, false⟩ rec11_loss rec11_keeps
  have h := h.snoc R12 (fun X => X (Proc.devRef .tc main_v1123)) ⟨4#32, 0#32, 1#32, true, false, false⟩ rec12_loss rec12_keeps
  have h := h.snoc R13 (fun X => X (Proc.devRef .tc main_v1183)) ⟨4#32, 0#32, 2#32, true, false, false⟩ rec13_loss rec13_keeps
  have h := h.snoc R14 (fun X => X (Proc.devRef .tc main_v1243)) ⟨4#32, 2#32, 1#32, true, false, false⟩ rec14_loss rec14_keeps
  have h := h.snoc R15 (fun X => X (Proc.devRef .tc main_v1303)) ⟨4#32, 2#32, 2#32, true, false, false⟩ rec15_loss rec15_keeps
  have h := h.snoc R16 (fun X => X (Proc.devRef .tc main_v1363)) ⟨5#32, 1#32, 0#32, true, false, false⟩ rec16_loss rec16_keeps
  have h := h.snoc R17 (fun X => X (Proc.devRef .tc main_v1423)) ⟨5#32, 1#32, 2#32, true, false, false⟩ rec17_loss rec17_keeps
  have h := h.snoc R18 (fun X => X (Proc.devRef .tc main_v1483)) ⟨5#32, 2#32, 0#32, true, false, false⟩ rec18_loss rec18_keeps
  have h := h.snoc R19 (fun X => X (Proc.devRef .tc main_v1543)) ⟨5#32, 2#32, 2#32, true, false, false⟩ rec19_loss rec19_keeps
  have h := h.snoc R20 (fun X => X (Proc.devRef .tc main_v1603)) ⟨2#32, 7#32, 2#32, false, true, false⟩ rec20_loss rec20_keeps
  have h := h.snoc R21 (fun X => X (Proc.devRef .tc main_v1663)) ⟨7#32, 2#32, 2#32, true, false, false⟩ rec21_loss rec21_keeps
  refine h.of_eq ?_ rfl
  simp only [R00, R01, R02, R03, R04, R05, R06, R07, R08, R09, R10, R11, R12, R13, R14, R15, R16, R17, R18, R19, R20, R21, As.negG, List.flatten_cons, List.flatten_nil, List.nil_append, List.append_nil,
    List.append_assoc, firstOf_append_restOf_append, rec0Head_eq, lastStretch_eq]

/-- The loss after the 22 groups: the starting loss minus the 22 recipes' terms, in order, each term read from the
    code vectors and the volume arrays before the first group. -/
theorem rtail_value (X : Valuation τ sig (Elt F)) :
    StableHlo.after (Ps.posTail ++ (As.negG : List (List (HloOp τ sig (Elt F)))).flatten) X (Proc.devRef .tc main_v1663)
      = lossOf (X (Proc.devRef .tc main_v343)) recipes (X (Proc.devRef .tc main_v25)) (X (Proc.devRef .tc main_v51))
          (X (Proc.devRef .tc main_v77)) (X (Proc.devRef .tc main_arg0)) (X (Proc.devRef .tc main_arg1))
          (X (Proc.devRef .tc main_arg2)) := by
  rw [← Cert.Val.rLossOf_eq]
  exact (rtail_inv (F := F)).1 X

/-- The 22 groups leave the code vectors and the volume arrays as they were. -/
theorem rtail_keeps : Keeps (F := F) (Ps.posTail ++ (As.negG : List (List (HloOp τ sig (Elt F)))).flatten) :=
  (rtail_inv (F := F)).2

end Cert.ReferenceIdeal.Tl

end
-- ==== Proof.Val.RefValue.lean ====
/- The reference's result as a function of its arguments.  @main's operations are cut at one seam: the operations
   through the last positive recipe's subtraction leave the three vectors of row codes, the three volume arrays and
   minus the positive sum in the buffers the rest reads; the rest — the 22 negative recipes — subtracts each recipe's
   term from that in turn.  So the result buffer ends at the loss by the specification, started at minus the positive
   sum, of the row codes of the launch's relation tables and flag vector and of the launch's volume arrays; and the
   run of @main leaves exactly that in the result buffer, and the arguments unchanged. -/
import proofs.«404644_j25400436588780_1_alg».proof.Proof.Rf.Split
import proofs.«404644_j25400436588780_1_alg».proof.Proof.Rf.FrameR
import proofs.«404644_j25400436588780_1_alg».proof.Proof.Val.PsLoss
import proofs.«404644_j25400436588780_1_alg».proof.Proof.Val.RTailChain

noncomputable section

namespace Cert.ReferenceIdeal.As

open Cert.ReferenceIdeal Cert.ReferenceIdeal.Gen Cert.ReferenceIdeal.Rn Idealize.ShloMosaic Idealize.ShloMosaic.TcCoe
  Idealize.SL.Sem
open Cert.Val (SRows SRows2 PSc codeVec posSum Fin' lossOf recipes)

/-- @main's operations cut at the seam: through the last positive recipe's subtraction, then the rest. -/
theorem opss_flatten_cut {F : FTy → Type} [FloatOps F] :
    (opss : List (List (HloOp τ sig (Elt F)))).flatten
      = Ps.posHead ++ (Ps.posTail ++ (negG : List (List (HloOp τ sig (Elt F)))).flatten) := by
  have e : (preG ++ posG : List (List (HloOp τ sig (Elt F)))).flatten = Ps.posHead ++ Ps.posTail :=
    Ps.posStretches_flatten
  rw [opss_split, List.flatten_append, e]
  exact List.append_assoc _ _ _

/-- The loss by the specification as a function of buffer contents: started at minus the positive sum, over the row
    codes of the relation tables and the flag vector, and the volume arrays. -/
abbrev lossAt (V : Valuation τ sig (Elt Ideal)) : PSc.Idx → Ideal .f32 :=
  lossOf (F := Ideal) (fun _ => -posSum (Ps.cxOf V) (Ps.cyOf V) (Ps.czOf V) (Ps.a0Of V) (Ps.a1Of V) (Ps.a2Of V)) recipes
    (Ps.cxOf V) (Ps.cyOf V) (Ps.czOf V) (Ps.a0Of V) (Ps.a1Of V) (Ps.a2Of V)

/-- THE REFERENCE'S VALUE: where every entry of the three volume arrays is a real number, the result buffer after all
    of @main's operations holds the loss by the specification of the contents before them. -/
theorem ref_value (V : Valuation τ sig (Elt Ideal))
    (h0 : ∀ i, Fin' (Ps.a0Of V i)) (h1 : ∀ i, Fin' (Ps.a1Of V i)) (h2 : ∀ i, Fin' (Ps.a2Of V i)) :
    (StableHlo.after (opss (F := Ideal)).flatten V (Proc.devRef .tc main_v1663) : PSc.Idx → Ideal .f32)
      = lossAt V := by
  obtain ⟨I, hl⟩ := Ps.pos_head V
  rw [opss_flatten_cut, after_append, Tl.rtail_value, hl h0 h1 h2, I.hx, I.hy, I.hz, I.h0, I.h1, I.h2] <;> rfl

/-- THE REFERENCE'S RUN: from a memory whose volume arrays hold real numbers on every device, every weakly fair
    execution of @main terminates, nothing faulting; on every device the result buffer ends at the loss by the
    specification of the launch contents, and the seven arguments end unchanged. -/
theorem ref_run (m : (ℓ : Loc nD τ sig) → Buf (Elt Ideal) ℓ) (ρ : Dev nD → PrngReg)
    (hfin : ∀ c : Dev nD,
      (∀ i, Fin' (Ps.a0Of (fun b => m (c, b)) i)) ∧ (∀ i, Fin' (Ps.a1Of (fun b => m (c, b)) i))
        ∧ (∀ i, Fin' (Ps.a2Of (fun b => m (c, b)) i))) :
    θ_run defs (onTc (τ := τ) (main (F := Ideal))) ⟨m, fun _ => 0, ρ⟩ (fun r => ∀ c : Dev nD,
      (r.2.mem ((c.tc : Thread nD τ).loc main_v1663) : PSc.Idx → Ideal .f32) = lossAt (fun b => m (c, b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_v1663).trans (ref_value _ (hfin c).1 (hfin c).2.1 (hfin c).2.2),
     (h c main_arg0).trans (after_opss_arg _ (by decide)),
     (h c main_arg1).trans (after_opss_arg _ (by decide)),
     (h c main_arg2).trans (after_opss_arg _ (by decide)),
     (h c main_arg3).trans (after_opss_arg _ (by decide)),
     (h c main_arg4).trans (after_opss_arg _ (by decide)),
     (h c main_arg5).trans (after_opss_arg _ (by decide)),
     (h c main_arg6).trans (after_opss_arg _ (by decide))⟩) (run m ρ)

end Cert.ReferenceIdeal.As

end
-- ==== Proof.lean ====
/- The loss of box volumes over 4194304 rows, computed two ways.

   Both programs form, from three integer relation tables and a flag vector, three vectors of row codes, and then
   loss = −P − n₀ − … − n₂₁.  P is the sum, over fourteen triples of codes, of the sum over the rows whose three codes
   match the triple of volume1 + volume2 − volume3 at columns the triple names.  Each nₖ, for one of twenty-two further
   triples, reads one row of each volume array — the first or the second row whose codes match, row 0 when there is
   none — and is the sum over that row's two entries of volume1 + volume2 − log(1 − exp volume3), or 0 when no row
   matches.

   The kernel program computes P inside one kernel region, sixteen blocks of 262144 rows accumulated into one number,
   and finds the rows with two minimum reductions; the reference computes P as fourteen subtractions of whole-array
   sums and finds the rows as the first row where a running count reaches 1 or 2.  Over the extended reals the two
   arrangements of P agree because every summand is a real number (the precondition: every float input finite); the
   two ways of finding a row agree for every mask; everything after the rows are found is the same chain of
   operations on both sides.  The frames are the two programs' runs with the result dropped. -/
import proofs.«404644_j25400436588780_1_alg».proof.Defs
import proofs.«404644_j25400436588780_1_alg».proof.Proof.Gen.Kernel
import proofs.«404644_j25400436588780_1_alg».proof.Proof.Gen.KernelIdeal
import proofs.«404644_j25400436588780_1_alg».proof.Proof.Gen.ReferenceIdeal
import proofs.«404644_j25400436588780_1_alg».proof.Proof.Gen.Pre_finite_inputs
import proofs.«404644_j25400436588780_1_alg».proof.Proof.KB.FrameArgs
import proofs.«404644_j25400436588780_1_alg».proof.Proof.KI.FrameArgs
import proofs.«404644_j25400436588780_1_alg».proof.Proof.Rf.FrameR
import proofs.«404644_j25400436588780_1_alg».proof.Proof.Val.Finite
import proofs.«404644_j25400436588780_1_alg».proof.Proof.Val.KernelValue
import proofs.«404644_j25400436588780_1_alg».proof.Proof.Val.RefValue
import Idealize.ShloMosaic.Adequacy
import Idealize.ShloMosaic.Init

noncomputable section

namespace Cert.Proof

open Idealize.ShloMosaic Idealize.SL.Sem

section
variable [Cert.KernelIdeal.Facts] [Cert.ReferenceIdeal.Facts] [Cert.Pre_finite_inputs.Facts]

/-- From memories agreeing on the seven arguments, the first satisfying the precondition: both programs run, each
    leaves its arguments unchanged, and both results are the loss of the arguments' launch contents. -/
theorem algebraic : Cert.algebraic_KernelIdeal_ReferenceIdeal := by
  intro m g m' g' hpre hag
  -- every entry of the three volume arrays is a real number, on either side
  have hfinK := fun c : Dev Cert.KernelIdeal.nD => Cert.Val.finite_of_pre _ _ _ _ _ _ _ (hpre c)
  have hfinR : ∀ c : Dev Cert.ReferenceIdeal.nD,
      (∀ i, Cert.Val.Fin' (Cert.ReferenceIdeal.Ps.a0Of (fun b => m' (c, b)) i))
        ∧ (∀ i, Cert.Val.Fin' (Cert.ReferenceIdeal.Ps.a1Of (fun b => m' (c, b)) i))
        ∧ (∀ i, Cert.Val.Fin' (Cert.ReferenceIdeal.Ps.a2Of (fun b => m' (c, b)) i)) := fun c => by
    obtain ⟨e0, e1, e2, -⟩ := hag c
    refine ⟨?_, ?_, ?_⟩
    · show ∀ i, Cert.Val.Fin' ((m' ((c.tc : Thread Cert.ReferenceIdeal.nD Cert.ReferenceIdeal.τ).loc Cert.ReferenceIdeal.main_arg0)) i)
      rw [e0]; exact (hfinK c).1
    · show ∀ i, Cert.Val.Fin' ((m' ((c.tc : Thread Cert.ReferenceIdeal.nD Cert.ReferenceIdeal.τ).loc Cert.ReferenceIdeal.main_arg1)) i)
      rw [e1]; exact (hfinK c).2.1
    · show ∀ i, Cert.Val.Fin' ((m' ((c.tc : Thread Cert.ReferenceIdeal.nD Cert.ReferenceIdeal.τ).loc Cert.ReferenceIdeal.main_arg2)) i)
      rw [e2]; exact (hfinK c).2.2
  refine ⟨fun c => Cert.Val.lossSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.As.kernel_run m g hfinK, ?_⟩
  refine (θ_run _ _ _).mono (fun r h c => ?_) (Cert.ReferenceIdeal.As.ref_run m' g' hfinR)
  obtain ⟨e0, e1, e2, e3, e4, e5, e6⟩ := hag c
  refine ⟨?_, (h c).2⟩
  refine (h c).1.trans ?_
  show Cert.Val.lossSpec (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  rw [e0, e1, e2, e3, e4, e5, e6]

end

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame (F := Bits) m ρ,
    fun m ρ _ => Cert.KernelIdeal.Fr.frame (F := Ideal) m ρ,
    fun m ρ _ => Cert.ReferenceIdeal.As.frameR (F := Ideal) m ρ,
    trivial,
    algebraic⟩

end Cert.Proof

end
